-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v68)) (v1 : (c : Dev Cert.KernelIdeal.nD) → Buf (Elt Ideal) ((c.tc : Thread Cert.KernelIdeal.nD Cert.KernelIdeal.τ).loc Cert.KernelIdeal.main_v70)) (v2 : (c : Dev Cert.KernelIdeal.nD) → Buf (Elt Ideal) ((c.tc : Thread Cert.KernelIdeal.nD Cert.KernelIdeal.τ).loc Cert.KernelIdeal.main_v73)) (v3 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_v70) = v1 c
          ∧ r.2.mem ((c.tc : Thread Cert.KernelIdeal.nD Cert.KernelIdeal.τ).loc Cert.KernelIdeal.main_v73) = v2 c
          ∧ r.2.mem ((c.tc : Thread Cert.KernelIdeal.nD Cert.KernelIdeal.τ).loc Cert.KernelIdeal.main_v76) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_v39) = v2 c
          ∧ r.2.mem ((c.tc : Thread Cert.ReferenceIdeal.nD Cert.ReferenceIdeal.τ).loc Cert.ReferenceIdeal.main_v40) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x3x224x224 : Shape := ⟨4, ![8, 3, 224, 224]⟩
abbrev S9x3x64 : Shape := ⟨3, ![9, 3, 64]⟩
abbrev S1x64 : Shape := ⟨2, ![1, 64]⟩
abbrev S9x64x64 : Shape := ⟨3, ![9, 64, 64]⟩
abbrev S9x64x128 : Shape := ⟨3, ![9, 64, 128]⟩
abbrev S1x128 : Shape := ⟨2, ![1, 128]⟩
abbrev S9x128x128 : Shape := ⟨3, ![9, 128, 128]⟩
abbrev S9x128x256 : Shape := ⟨3, ![9, 128, 256]⟩
abbrev S1x256 : Shape := ⟨2, ![1, 256]⟩
abbrev S9x256x256 : Shape := ⟨3, ![9, 256, 256]⟩
abbrev S9x256x512 : Shape := ⟨3, ![9, 256, 512]⟩
abbrev S1x512 : Shape := ⟨2, ![1, 512]⟩
abbrev S9x512x512 : Shape := ⟨3, ![9, 512, 512]⟩
abbrev S_ : Shape := ⟨0, ![]⟩

class Facts : Prop where
  bcast_S_S8x3x224x224 : S_.BroadcastsInDim S8x3x224x224 (![] : Fin 0 → Fin S8x3x224x224.rank)
  reducesTo_S8x3x224x224_S_d0_1_2_3 : S8x3x224x224.ReducesTo [0, 1, 2, 3] S_
  h_S_ : 0 < S_.numel
  bcast_S_S9x3x64 : S_.BroadcastsInDim S9x3x64 (![] : Fin 0 → Fin S9x3x64.rank)
  reducesTo_S9x3x64_S_d0_1_2 : S9x3x64.ReducesTo [0, 1, 2] S_
  bcast_S_S1x64 : S_.BroadcastsInDim S1x64 (![] : Fin 0 → Fin S1x64.rank)
  reducesTo_S1x64_S_d0_1 : S1x64.ReducesTo [0, 1] S_
  bcast_S_S9x64x64 : S_.BroadcastsInDim S9x64x64 (![] : Fin 0 → Fin S9x64x64.rank)
  reducesTo_S9x64x64_S_d0_1_2 : S9x64x64.ReducesTo [0, 1, 2] S_
  bcast_S_S9x64x128 : S_.BroadcastsInDim S9x64x128 (![] : Fin 0 → Fin S9x64x128.rank)
  reducesTo_S9x64x128_S_d0_1_2 : S9x64x128.ReducesTo [0, 1, 2] S_
  bcast_S_S1x128 : S_.BroadcastsInDim S1x128 (![] : Fin 0 → Fin S1x128.rank)
  reducesTo_S1x128_S_d0_1 : S1x128.ReducesTo [0, 1] S_
  bcast_S_S9x128x128 : S_.BroadcastsInDim S9x128x128 (![] : Fin 0 → Fin S9x128x128.rank)
  reducesTo_S9x128x128_S_d0_1_2 : S9x128x128.ReducesTo [0, 1, 2] S_
  bcast_S_S9x128x256 : S_.BroadcastsInDim S9x128x256 (![] : Fin 0 → Fin S9x128x256.rank)
  reducesTo_S9x128x256_S_d0_1_2 : S9x128x256.ReducesTo [0, 1, 2] S_
  bcast_S_S1x256 : S_.BroadcastsInDim S1x256 (![] : Fin 0 → Fin S1x256.rank)
  reducesTo_S1x256_S_d0_1 : S1x256.ReducesTo [0, 1] S_
  bcast_S_S9x256x256 : S_.BroadcastsInDim S9x256x256 (![] : Fin 0 → Fin S9x256x256.rank)
  reducesTo_S9x256x256_S_d0_1_2 : S9x256x256.ReducesTo [0, 1, 2] S_
  bcast_S_S9x256x512 : S_.BroadcastsInDim S9x256x512 (![] : Fin 0 → Fin S9x256x512.rank)
  reducesTo_S9x256x512_S_d0_1_2 : S9x256x512.ReducesTo [0, 1, 2] S_
  bcast_S_S1x512 : S_.BroadcastsInDim S1x512 (![] : Fin 0 → Fin S1x512.rank)
  reducesTo_S1x512_S_d0_1 : S1x512.ReducesTo [0, 1] S_
  bcast_S_S9x512x512 : S_.BroadcastsInDim S9x512x512 (![] : Fin 0 → Fin S9x512x512.rank)
  reducesTo_S9x512x512_S_d0_1_2 : S9x512x512.ReducesTo [0, 1, 2] S_

variable [Facts]

def fn_part7 {F : FTy → Type} [FloatOps F] (main_arg25 : FVec F S9x512x512 .f32) (main_arg26 : FVec F S1x512 .f32) (main_v118 : IVec S_ 1) (main_v119 : FVec F S1x512 .f32) : IVec S_ 1 :=
  let main_cst_46 : FVec F S_ .f32 := constant S_ .f32 0x7F800000#32
  let main_v120 : FVec F S1x512 .f32 := broadcastInDim S1x512 ![] bcast_S_S1x512 main_cst_46
  let main_v121 : IVec S1x512 1 := cmpf .olt main_v119 main_v120
  let main_c_47 : IVec S_ 1 := constantI S_ 1 1#1
  let main_v122 : IVec S_ 1 := (fun x v => Host.reduce IntOp.andi x v reducesTo_S1x512_S_d0_1 h_S_) main_v121 main_c_47
  let main_v123 : IVec S_ 1 := andi main_v118 main_v122
  let main_v124 : FVec F S9x512x512 .f32 := Host.absf main_arg25
  let main_cst_48 : FVec F S_ .f32 := constant S_ .f32 0x7F800000#32
  let main_v125 : FVec F S9x512x512 .f32 := broadcastInDim S9x512x512 ![] bcast_S_S9x512x512 main_cst_48
  let main_v126 : IVec S9x512x512 1 := cmpf .olt main_v124 main_v125
  let main_c_49 : IVec S_ 1 := constantI S_ 1 1#1
  let main_v127 : IVec S_ 1 := (fun x v => Host.reduce IntOp.andi x v reducesTo_S9x512x512_S_d0_1_2 h_S_) main_v126 main_c_49
  let main_v128 : IVec S_ 1 := andi main_v123 main_v127
  let main_v129 : FVec F S1x512 .f32 := Host.absf main_arg26
  let main_cst_50 : FVec F S_ .f32 := constant S_ .f32 0x7F800000#32
  let main_v130 : FVec F S1x512 .f32 := broadcastInDim S1x512 ![] bcast_S_S1x512 main_cst_50
  let main_v131 : IVec S1x512 1 := cmpf .olt main_v129 main_v130
  let main_c_51 : IVec S_ 1 := constantI S_ 1 1#1
  let main_v132 : IVec S_ 1 := (fun x v => Host.reduce IntOp.andi x v reducesTo_S1x512_S_d0_1 h_S_) main_v131 main_c_51
  let main_v133 : IVec S_ 1 := andi main_v128 main_v132
  main_v133

def fn_part6 {F : FTy → Type} [FloatOps F] (main_arg21 : FVec F S9x512x512 .f32) (main_arg22 : FVec F S1x512 .f32) (main_arg23 : FVec F S9x512x512 .f32) (main_arg24 : FVec F S1x512 .f32) (main_arg25 : FVec F S9x512x512 .f32) (main_arg26 : FVec F S1x512 .f32) (main_v98 : IVec S_ 1) (main_v101 : IVec S1x512 1) (main_c_39 : IVec S_ 1) : IVec S_ 1 :=
  let main_v102 : IVec S_ 1 := (fun x v => Host.reduce IntOp.andi x v reducesTo_S1x512_S_d0_1 h_S_) main_v101 main_c_39
  let main_v103 : IVec S_ 1 := andi main_v98 main_v102
  let main_v104 : FVec F S9x512x512 .f32 := Host.absf main_arg21
  let main_cst_40 : FVec F S_ .f32 := constant S_ .f32 0x7F800000#32
  let main_v105 : FVec F S9x512x512 .f32 := broadcastInDim S9x512x512 ![] bcast_S_S9x512x512 main_cst_40
  let main_v106 : IVec S9x512x512 1 := cmpf .olt main_v104 main_v105
  let main_c_41 : IVec S_ 1 := constantI S_ 1 1#1
  let main_v107 : IVec S_ 1 := (fun x v => Host.reduce IntOp.andi x v reducesTo_S9x512x512_S_d0_1_2 h_S_) main_v106 main_c_41
  let main_v108 : IVec S_ 1 := andi main_v103 main_v107
  let main_v109 : FVec F S1x512 .f32 := Host.absf main_arg22
  let main_cst_42 : FVec F S_ .f32 := constant S_ .f32 0x7F800000#32
  let main_v110 : FVec F S1x512 .f32 := broadcastInDim S1x512 ![] bcast_S_S1x512 main_cst_42
  let main_v111 : IVec S1x512 1 := cmpf .olt main_v109 main_v110
  let main_c_43 : IVec S_ 1 := constantI S_ 1 1#1
  let main_v112 : IVec S_ 1 := (fun x v => Host.reduce IntOp.andi x v reducesTo_S1x512_S_d0_1 h_S_) main_v111 main_c_43
  let main_v113 : IVec S_ 1 := andi main_v108 main_v112
  let main_v114 : FVec F S9x512x512 .f32 := Host.absf main_arg23
  let main_cst_44 : FVec F S_ .f32 := constant S_ .f32 0x7F800000#32
  let main_v115 : FVec F S9x512x512 .f32 := broadcastInDim S9x512x512 ![] bcast_S_S9x512x512 main_cst_44
  let main_v116 : IVec S9x512x512 1 := cmpf .olt main_v114 main_v115
  let main_c_45 : IVec S_ 1 := constantI S_ 1 1#1
  let main_v117 : IVec S_ 1 := (fun x v => Host.reduce IntOp.andi x v reducesTo_S9x512x512_S_d0_1_2 h_S_) main_v116 main_c_45
  let main_v118 : IVec S_ 1 := andi main_v113 main_v117
  let main_v119 : FVec F S1x512 .f32 := Host.absf main_arg24
  fn_part7 (F := F) main_arg25 main_arg26 main_v118 main_v119

def fn_part5 {F : FTy → Type} [FloatOps F] (main_arg18 : FVec F S1x512 .f32) (main_arg19 : FVec F S9x512x512 .f32) (main_arg20 : FVec F S1x512 .f32) (main_arg21 : FVec F S9x512x512 .f32) (main_arg22 : FVec F S1x512 .f32) (main_arg23 : FVec F S9x512x512 .f32) (main_arg24 : FVec F S1x512 .f32) (main_arg25 : FVec F S9x512x512 .f32) (main_arg26 : FVec F S1x512 .f32) (main_v83 : IVec S_ 1) (main_v84 : FVec F S9x512x512 .f32) (main_cst_32 : FVec F S_ .f32) : IVec S_ 1 :=
  let main_v85 : FVec F S9x512x512 .f32 := broadcastInDim S9x512x512 ![] bcast_S_S9x512x512 main_cst_32
  let main_v86 : IVec S9x512x512 1 := cmpf .olt main_v84 main_v85
  let main_c_33 : IVec S_ 1 := constantI S_ 1 1#1
  let main_v87 : IVec S_ 1 := (fun x v => Host.reduce IntOp.andi x v reducesTo_S9x512x512_S_d0_1_2 h_S_) main_v86 main_c_33
  let main_v88 : IVec S_ 1 := andi main_v83 main_v87
  let main_v89 : FVec F S1x512 .f32 := Host.absf main_arg18
  let main_cst_34 : FVec F S_ .f32 := constant S_ .f32 0x7F800000#32
  let main_v90 : FVec F S1x512 .f32 := broadcastInDim S1x512 ![] bcast_S_S1x512 main_cst_34
  let main_v91 : IVec S1x512 1 := cmpf .olt main_v89 main_v90
  let main_c_35 : IVec S_ 1 := constantI S_ 1 1#1
  let main_v92 : IVec S_ 1 := (fun x v => Host.reduce IntOp.andi x v reducesTo_S1x512_S_d0_1 h_S_) main_v91 main_c_35
  let main_v93 : IVec S_ 1 := andi main_v88 main_v92
  let main_v94 : FVec F S9x512x512 .f32 := Host.absf main_arg19
  let main_cst_36 : FVec F S_ .f32 := constant S_ .f32 0x7F800000#32
  let main_v95 : FVec F S9x512x512 .f32 := broadcastInDim S9x512x512 ![] bcast_S_S9x512x512 main_cst_36
  let main_v96 : IVec S9x512x512 1 := cmpf .olt main_v94 main_v95
  let main_c_37 : IVec S_ 1 := constantI S_ 1 1#1
  let main_v97 : IVec S_ 1 := (fun x v => Host.reduce IntOp.andi x v reducesTo_S9x512x512_S_d0_1_2 h_S_) main_v96 main_c_37
  let main_v98 : IVec S_ 1 := andi main_v93 main_v97
  let main_v99 : FVec F S1x512 .f32 := Host.absf main_arg20
  let main_cst_38 : FVec F S_ .f32 := constant S_ .f32 0x7F800000#32
  let main_v100 : FVec F S1x512 .f32 := broadcastInDim S1x512 ![] bcast_S_S1x512 main_cst_38
  let main_v101 : IVec S1x512 1 := cmpf .olt main_v99 main_v100
  let main_c_39 : IVec S_ 1 := constantI S_ 1 1#1
  fn_part6 (F := F) main_arg21 main_arg22 main_arg23 main_arg24 main_arg25 main_arg26 main_v98 main_v101 main_c_39

def fn_part4 {F : FTy → Type} [FloatOps F] (main_arg14 : FVec F S1x256 .f32) (main_arg15 : FVec F S9x256x512 .f32) (main_arg16 : FVec F S1x512 .f32) (main_arg17 : FVec F S9x512x512 .f32) (main_arg18 : FVec F S1x512 .f32) (main_arg19 : FVec F S9x512x512 .f32) (main_arg20 : FVec F S1x512 .f32) (main_arg21 : FVec F S9x512x512 .f32) (main_arg22 : FVec F S1x512 .f32) (main_arg23 : FVec F S9x512x512 .f32) (main_arg24 : FVec F S1x512 .f32) (main_arg25 : FVec F S9x512x512 .f32) (main_arg26 : FVec F S1x512 .f32) (main_v63 : IVec S_ 1) (main_v67 : IVec S_ 1) : IVec S_ 1 :=
  let main_v68 : IVec S_ 1 := andi main_v63 main_v67
  let main_v69 : FVec F S1x256 .f32 := Host.absf main_arg14
  let main_cst_26 : FVec F S_ .f32 := constant S_ .f32 0x7F800000#32
  let main_v70 : FVec F S1x256 .f32 := broadcastInDim S1x256 ![] bcast_S_S1x256 main_cst_26
  let main_v71 : IVec S1x256 1 := cmpf .olt main_v69 main_v70
  let main_c_27 : IVec S_ 1 := constantI S_ 1 1#1
  let main_v72 : IVec S_ 1 := (fun x v => Host.reduce IntOp.andi x v reducesTo_S1x256_S_d0_1 h_S_) main_v71 main_c_27
  let main_v73 : IVec S_ 1 := andi main_v68 main_v72
  let main_v74 : FVec F S9x256x512 .f32 := Host.absf main_arg15
  let main_cst_28 : FVec F S_ .f32 := constant S_ .f32 0x7F800000#32
  let main_v75 : FVec F S9x256x512 .f32 := broadcastInDim S9x256x512 ![] bcast_S_S9x256x512 main_cst_28
  let main_v76 : IVec S9x256x512 1 := cmpf .olt main_v74 main_v75
  let main_c_29 : IVec S_ 1 := constantI S_ 1 1#1
  let main_v77 : IVec S_ 1 := (fun x v => Host.reduce IntOp.andi x v reducesTo_S9x256x512_S_d0_1_2 h_S_) main_v76 main_c_29
  let main_v78 : IVec S_ 1 := andi main_v73 main_v77
  let main_v79 : FVec F S1x512 .f32 := Host.absf main_arg16
  let main_cst_30 : FVec F S_ .f32 := constant S_ .f32 0x7F800000#32
  let main_v80 : FVec F S1x512 .f32 := broadcastInDim S1x512 ![] bcast_S_S1x512 main_cst_30
  let main_v81 : IVec S1x512 1 := cmpf .olt main_v79 main_v80
  let main_c_31 : IVec S_ 1 := constantI S_ 1 1#1
  let main_v82 : IVec S_ 1 := (fun x v => Host.reduce IntOp.andi x v reducesTo_S1x512_S_d0_1 h_S_) main_v81 main_c_31
  let main_v83 : IVec S_ 1 := andi main_v78 main_v82
  let main_v84 : FVec F S9x512x512 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_v83 main_v84 main_cst_32

def fn_part3 {F : FTy → Type} [FloatOps F] (main_arg11 : FVec F S9x256x256 .f32) (main_arg12 : FVec F S1x256 .f32) (main_arg13 : FVec F S9x256x256 .f32) (main_arg14 : FVec F S1x256 .f32) (main_arg15 : FVec F S9x256x512 .f32) (main_arg16 : FVec F S1x512 .f32) (main_arg17 : FVec F S9x512x512 .f32) (main_arg18 : FVec F S1x512 .f32) (main_arg19 : FVec F S9x512x512 .f32) (main_arg20 : FVec F S1x512 .f32) (main_arg21 : FVec F S9x512x512 .f32) (main_arg22 : FVec F S1x512 .f32) (main_arg23 : FVec F S9x512x512 .f32) (main_arg24 : FVec F S1x512 .f32) (main_arg25 : FVec F S9x512x512 .f32) (main_arg26 : FVec F S1x512 .f32) (main_v48 : IVec S_ 1) (main_v49 : FVec F S1x256 .f32) (main_v50 : FVec F S1x256 .f32) : IVec S_ 1 :=
  let main_v51 : IVec S1x256 1 := cmpf .olt main_v49 main_v50
  let main_c_19 : IVec S_ 1 := constantI S_ 1 1#1
  let main_v52 : IVec S_ 1 := (fun x v => Host.reduce IntOp.andi x v reducesTo_S1x256_S_d0_1 h_S_) main_v51 main_c_19
  let main_v53 : IVec S_ 1 := andi main_v48 main_v52
  let main_v54 : FVec F S9x256x256 .f32 := Host.absf main_arg11
  let main_cst_20 : FVec F S_ .f32 := constant S_ .f32 0x7F800000#32
  let main_v55 : FVec F S9x256x256 .f32 := broadcastInDim S9x256x256 ![] bcast_S_S9x256x256 main_cst_20
  let main_v56 : IVec S9x256x256 1 := cmpf .olt main_v54 main_v55
  let main_c_21 : IVec S_ 1 := constantI S_ 1 1#1
  let main_v57 : IVec S_ 1 := (fun x v => Host.reduce IntOp.andi x v reducesTo_S9x256x256_S_d0_1_2 h_S_) main_v56 main_c_21
  let main_v58 : IVec S_ 1 := andi main_v53 main_v57
  let main_v59 : FVec F S1x256 .f32 := Host.absf main_arg12
  let main_cst_22 : FVec F S_ .f32 := constant S_ .f32 0x7F800000#32
  let main_v60 : FVec F S1x256 .f32 := broadcastInDim S1x256 ![] bcast_S_S1x256 main_cst_22
  let main_v61 : IVec S1x256 1 := cmpf .olt main_v59 main_v60
  let main_c_23 : IVec S_ 1 := constantI S_ 1 1#1
  let main_v62 : IVec S_ 1 := (fun x v => Host.reduce IntOp.andi x v reducesTo_S1x256_S_d0_1 h_S_) main_v61 main_c_23
  let main_v63 : IVec S_ 1 := andi main_v58 main_v62
  let main_v64 : FVec F S9x256x256 .f32 := Host.absf main_arg13
  let main_cst_24 : FVec F S_ .f32 := constant S_ .f32 0x7F800000#32
  let main_v65 : FVec F S9x256x256 .f32 := broadcastInDim S9x256x256 ![] bcast_S_S9x256x256 main_cst_24
  let main_v66 : IVec S9x256x256 1 := cmpf .olt main_v64 main_v65
  let main_c_25 : IVec S_ 1 := constantI S_ 1 1#1
  let main_v67 : IVec S_ 1 := (fun x v => Host.reduce IntOp.andi x v reducesTo_S9x256x256_S_d0_1_2 h_S_) main_v66 main_c_25
  fn_part4 (F := F) main_arg14 main_arg15 main_arg16 main_arg17 main_arg18 main_arg19 main_arg20 main_arg21 main_arg22 main_arg23 main_arg24 main_arg25 main_arg26 main_v63 main_v67

def fn_part2 {F : FTy → Type} [FloatOps F] (main_arg7 : FVec F S9x128x128 .f32) (main_arg8 : FVec F S1x128 .f32) (main_arg9 : FVec F S9x128x256 .f32) (main_arg10 : FVec F S1x256 .f32) (main_arg11 : FVec F S9x256x256 .f32) (main_arg12 : FVec F S1x256 .f32) (main_arg13 : FVec F S9x256x256 .f32) (main_arg14 : FVec F S1x256 .f32) (main_arg15 : FVec F S9x256x512 .f32) (main_arg16 : FVec F S1x512 .f32) (main_arg17 : FVec F S9x512x512 .f32) (main_arg18 : FVec F S1x512 .f32) (main_arg19 : FVec F S9x512x512 .f32) (main_arg20 : FVec F S1x512 .f32) (main_arg21 : FVec F S9x512x512 .f32) (main_arg22 : FVec F S1x512 .f32) (main_arg23 : FVec F S9x512x512 .f32) (main_arg24 : FVec F S1x512 .f32) (main_arg25 : FVec F S9x512x512 .f32) (main_arg26 : FVec F S1x512 .f32) (main_v33 : IVec S_ 1) : IVec S_ 1 :=
  let main_v34 : FVec F S9x128x128 .f32 := Host.absf main_arg7
  let main_cst_12 : FVec F S_ .f32 := constant S_ .f32 0x7F800000#32
  let main_v35 : FVec F S9x128x128 .f32 := broadcastInDim S9x128x128 ![] bcast_S_S9x128x128 main_cst_12
  let main_v36 : IVec S9x128x128 1 := cmpf .olt main_v34 main_v35
  let main_c_13 : IVec S_ 1 := constantI S_ 1 1#1
  let main_v37 : IVec S_ 1 := (fun x v => Host.reduce IntOp.andi x v reducesTo_S9x128x128_S_d0_1_2 h_S_) main_v36 main_c_13
  let main_v38 : IVec S_ 1 := andi main_v33 main_v37
  let main_v39 : FVec F S1x128 .f32 := Host.absf main_arg8
  let main_cst_14 : FVec F S_ .f32 := constant S_ .f32 0x7F800000#32
  let main_v40 : FVec F S1x128 .f32 := broadcastInDim S1x128 ![] bcast_S_S1x128 main_cst_14
  let main_v41 : IVec S1x128 1 := cmpf .olt main_v39 main_v40
  let main_c_15 : IVec S_ 1 := constantI S_ 1 1#1
  let main_v42 : IVec S_ 1 := (fun x v => Host.reduce IntOp.andi x v reducesTo_S1x128_S_d0_1 h_S_) main_v41 main_c_15
  let main_v43 : IVec S_ 1 := andi main_v38 main_v42
  let main_v44 : FVec F S9x128x256 .f32 := Host.absf main_arg9
  let main_cst_16 : FVec F S_ .f32 := constant S_ .f32 0x7F800000#32
  let main_v45 : FVec F S9x128x256 .f32 := broadcastInDim S9x128x256 ![] bcast_S_S9x128x256 main_cst_16
  let main_v46 : IVec S9x128x256 1 := cmpf .olt main_v44 main_v45
  let main_c_17 : IVec S_ 1 := constantI S_ 1 1#1
  let main_v47 : IVec S_ 1 := (fun x v => Host.reduce IntOp.andi x v reducesTo_S9x128x256_S_d0_1_2 h_S_) main_v46 main_c_17
  let main_v48 : IVec S_ 1 := andi main_v43 main_v47
  let main_v49 : FVec F S1x256 .f32 := Host.absf main_arg10
  let main_cst_18 : FVec F S_ .f32 := constant S_ .f32 0x7F800000#32
  let main_v50 : FVec F S1x256 .f32 := broadcastInDim S1x256 ![] bcast_S_S1x256 main_cst_18
  fn_part3 (F := F) main_arg11 main_arg12 main_arg13 main_arg14 main_arg15 main_arg16 main_arg17 main_arg18 main_arg19 main_arg20 main_arg21 main_arg22 main_arg23 main_arg24 main_arg25 main_arg26 main_v48 main_v49 main_v50

def fn_part1 {F : FTy → Type} [FloatOps F] (main_arg4 : FVec F S1x64 .f32) (main_arg5 : FVec F S9x64x128 .f32) (main_arg6 : FVec F S1x128 .f32) (main_arg7 : FVec F S9x128x128 .f32) (main_arg8 : FVec F S1x128 .f32) (main_arg9 : FVec F S9x128x256 .f32) (main_arg10 : FVec F S1x256 .f32) (main_arg11 : FVec F S9x256x256 .f32) (main_arg12 : FVec F S1x256 .f32) (main_arg13 : FVec F S9x256x256 .f32) (main_arg14 : FVec F S1x256 .f32) (main_arg15 : FVec F S9x256x512 .f32) (main_arg16 : FVec F S1x512 .f32) (main_arg17 : FVec F S9x512x512 .f32) (main_arg18 : FVec F S1x512 .f32) (main_arg19 : FVec F S9x512x512 .f32) (main_arg20 : FVec F S1x512 .f32) (main_arg21 : FVec F S9x512x512 .f32) (main_arg22 : FVec F S1x512 .f32) (main_arg23 : FVec F S9x512x512 .f32) (main_arg24 : FVec F S1x512 .f32) (main_arg25 : FVec F S9x512x512 .f32) (main_arg26 : FVec F S1x512 .f32) (main_v13 : IVec S_ 1) (main_v16 : IVec S9x64x64 1) : IVec S_ 1 :=
  let main_c_5 : IVec S_ 1 := constantI S_ 1 1#1
  let main_v17 : IVec S_ 1 := (fun x v => Host.reduce IntOp.andi x v reducesTo_S9x64x64_S_d0_1_2 h_S_) main_v16 main_c_5
  let main_v18 : IVec S_ 1 := andi main_v13 main_v17
  let main_v19 : FVec F S1x64 .f32 := Host.absf main_arg4
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  let main_v24 : FVec F S9x64x128 .f32 := Host.absf main_arg5
  let main_cst_8 : FVec F S_ .f32 := constant S_ .f32 0x7F800000#32
  let main_v25 : FVec F S9x64x128 .f32 := broadcastInDim S9x64x128 ![] bcast_S_S9x64x128 main_cst_8
  let main_v26 : IVec S9x64x128 1 := cmpf .olt main_v24 main_v25
  let main_c_9 : IVec S_ 1 := constantI S_ 1 1#1
  let main_v27 : IVec S_ 1 := (fun x v => Host.reduce IntOp.andi x v reducesTo_S9x64x128_S_d0_1_2 h_S_) main_v26 main_c_9
  let main_v28 : IVec S_ 1 := andi main_v23 main_v27
  let main_v29 : FVec F S1x128 .f32 := Host.absf main_arg6
  let main_cst_10 : FVec F S_ .f32 := constant S_ .f32 0x7F800000#32
  let main_v30 : FVec F S1x128 .f32 := broadcastInDim S1x128 ![] bcast_S_S1x128 main_cst_10
  let main_v31 : IVec S1x128 1 := cmpf .olt main_v29 main_v30
  let main_c_11 : IVec S_ 1 := constantI S_ 1 1#1
  let main_v32 : IVec S_ 1 := (fun x v => Host.reduce IntOp.andi x v reducesTo_S1x128_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_v33

def fn {F : FTy → Type} [FloatOps F] (main_arg0 : FVec F S8x3x224x224 .f32) (main_arg1 : FVec F S9x3x64 .f32) (main_arg2 : FVec F S1x64 .f32) (main_arg3 : FVec F S9x64x64 .f32) (main_arg4 : FVec F S1x64 .f32) (main_arg5 : FVec F S9x64x128 .f32) (main_arg6 : FVec F S1x128 .f32) (main_arg7 : FVec F S9x128x128 .f32) (main_arg8 : FVec F S1x128 .f32) (main_arg9 : FVec F S9x128x256 .f32) (main_arg10 : FVec F S1x256 .f32) (main_arg11 : FVec F S9x256x256 .f32) (main_arg12 : FVec F S1x256 .f32) (main_arg13 : FVec F S9x256x256 .f32) (main_arg14 : FVec F S1x256 .f32) (main_arg15 : FVec F S9x256x512 .f32) (main_arg16 : FVec F S1x512 .f32) (main_arg17 : FVec F S9x512x512 .f32) (main_arg18 : FVec F S1x512 .f32) (main_arg19 : FVec F S9x512x512 .f32) (main_arg20 : FVec F S1x512 .f32) (main_arg21 : FVec F S9x512x512 .f32) (main_arg22 : FVec F S1x512 .f32) (main_arg23 : FVec F S9x512x512 .f32) (main_arg24 : FVec F S1x512 .f32) (main_arg25 : FVec F S9x512x512 .f32) (main_arg26 : FVec F S1x512 .f32) : IVec S_ 1 :=
  let main_v0 : FVec F S8x3x224x224 .f32 := Host.absf main_arg0
  let main_cst : FVec F S_ .f32 := constant S_ .f32 0x7F800000#32
  let main_v1 : FVec F S8x3x224x224 .f32 := broadcastInDim S8x3x224x224 ![] bcast_S_S8x3x224x224 main_cst
  let main_v2 : IVec S8x3x224x224 1 := cmpf .olt main_v0 main_v1
  let main_c : IVec S_ 1 := constantI S_ 1 1#1
  let main_v3 : IVec S_ 1 := (fun x v => Host.reduce IntOp.andi x v reducesTo_S8x3x224x224_S_d0_1_2_3 h_S_) main_v2 main_c
  let main_v4 : FVec F S9x3x64 .f32 := Host.absf main_arg1
  let main_cst_0 : FVec F S_ .f32 := constant S_ .f32 0x7F800000#32
  let main_v5 : FVec F S9x3x64 .f32 := broadcastInDim S9x3x64 ![] bcast_S_S9x3x64 main_cst_0
  let main_v6 : IVec S9x3x64 1 := cmpf .olt main_v4 main_v5
  let main_c_1 : IVec S_ 1 := constantI S_ 1 1#1
  let main_v7 : IVec S_ 1 := (fun x v => Host.reduce IntOp.andi x v reducesTo_S9x3x64_S_d0_1_2 h_S_) main_v6 main_c_1
  let main_v8 : IVec S_ 1 := andi main_v3 main_v7
  let main_v9 : FVec F S1x64 .f32 := Host.absf main_arg2
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S9x64x64 .f32 := Host.absf main_arg3
  let main_cst_4 : FVec F S_ .f32 := constant S_ .f32 0x7F800000#32
  let main_v15 : FVec F S9x64x64 .f32 := broadcastInDim S9x64x64 ![] bcast_S_S9x64x64 main_cst_4
  let main_v16 : IVec S9x64x64 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S8x3x224x224 : Shape := ⟨4, ![8, 3, 224, 224]⟩
abbrev S9x3x64 : Shape := ⟨3, ![9, 3, 64]⟩
abbrev S1x64 : Shape := ⟨2, ![1, 64]⟩
abbrev S9x64x64 : Shape := ⟨3, ![9, 64, 64]⟩
abbrev S9x64x128 : Shape := ⟨3, ![9, 64, 128]⟩
abbrev S1x128 : Shape := ⟨2, ![1, 128]⟩
abbrev S9x128x128 : Shape := ⟨3, ![9, 128, 128]⟩
abbrev S9x128x256 : Shape := ⟨3, ![9, 128, 256]⟩
abbrev S1x256 : Shape := ⟨2, ![1, 256]⟩
abbrev S9x256x256 : Shape := ⟨3, ![9, 256, 256]⟩
abbrev S9x256x512 : Shape := ⟨3, ![9, 256, 512]⟩
abbrev S1x512 : Shape := ⟨2, ![1, 512]⟩
abbrev S9x512x512 : Shape := ⟨3, ![9, 512, 512]⟩
abbrev S8x224x224x3 : Shape := ⟨4, ![8, 224, 224, 3]⟩
abbrev S_ : Shape := ⟨0, ![]⟩
abbrev S8x228x234x3 : Shape := ⟨4, ![8, 228, 234, 3]⟩
abbrev S8x226x232x3 : Shape := ⟨4, ![8, 226, 232, 3]⟩
abbrev S8x226x232x27 : Shape := ⟨4, ![8, 226, 232, 27]⟩
abbrev S27x64 : Shape := ⟨2, ![27, 64]⟩
abbrev S8x226x232x64 : Shape := ⟨4, ![8, 226, 232, 64]⟩
abbrev S1x113x232x27 : Shape := ⟨4, ![1, 113, 232, 27]⟩
abbrev S1x113x232x64 : Shape := ⟨4, ![1, 113, 232, 64]⟩
abbrev S113x232x27 : Shape := ⟨3, ![113, 232, 27]⟩
abbrev S26216x27 : Shape := ⟨2, ![26216, 27]⟩
abbrev S26216x64 : Shape := ⟨2, ![26216, 64]⟩
abbrev S113x232x64 : Shape := ⟨3, ![113, 232, 64]⟩
abbrev S113x64 : Shape := ⟨2, ![113, 64]⟩
abbrev S1x113x1x64 : Shape := ⟨4, ![1, 113, 1, 64]⟩
abbrev S1x113x2x64 : Shape := ⟨4, ![1, 113, 2, 64]⟩
abbrev S232x64 : Shape := ⟨2, ![232, 64]⟩
abbrev S1x1x232x64 : Shape := ⟨4, ![1, 1, 232, 64]⟩
abbrev S576x64 : Shape := ⟨2, ![576, 64]⟩
abbrev S8x112x224x64 : Shape := ⟨4, ![8, 112, 224, 64]⟩
abbrev S1x226x232x64 : Shape := ⟨4, ![1, 226, 232, 64]⟩
abbrev S1x16x224x64 : Shape := ⟨4, ![1, 16, 224, 64]⟩
abbrev S1x34x224x64 : Shape := ⟨4, ![1, 34, 224, 64]⟩
abbrev S34x224x64 : Shape := ⟨3, ![34, 224, 64]⟩
abbrev S32x224x64 : Shape := ⟨3, ![32, 224, 64]⟩
abbrev S32x224x576 : Shape := ⟨3, ![32, 224, 576]⟩
abbrev S7168x576 : Shape := ⟨2, ![7168, 576]⟩
abbrev S7168x64 : Shape := ⟨2, ![7168, 64]⟩
abbrev S16x2x224x64 : Shape := ⟨4, ![16, 2, 224, 64]⟩
abbrev S16x224x64 : Shape := ⟨3, ![16, 224, 64]⟩
abbrev S8x112x112x128 : Shape := ⟨4, ![8, 112, 112, 128]⟩
abbrev S8x112x112x64 : Shape := ⟨4, ![8, 112, 112, 64]⟩
abbrev S1x112x112x128 : Shape := ⟨4, ![1, 112, 112, 128]⟩
abbrev S1x112x112x64 : Shape := ⟨4, ![1, 112, 112, 64]⟩
abbrev S112x112x128 : Shape := ⟨3, ![112, 112, 128]⟩
abbrev S112x112x64 : Shape := ⟨3, ![112, 112, 64]⟩
abbrev S8x114x114x64 : Shape := ⟨4, ![8, 114, 114, 64]⟩
abbrev S576x128 : Shape := ⟨2, ![576, 128]⟩
abbrev S1x114x114x64 : Shape := ⟨4, ![1, 114, 114, 64]⟩
abbrev S1x56x112x128 : Shape := ⟨4, ![1, 56, 112, 128]⟩
abbrev S1x58x112x64 : Shape := ⟨4, ![1, 58, 112, 64]⟩
abbrev S58x112x64 : Shape := ⟨3, ![58, 112, 64]⟩
abbrev S56x112x64 : Shape := ⟨3, ![56, 112, 64]⟩
abbrev S56x112x576 : Shape := ⟨3, ![56, 112, 576]⟩
abbrev S6272x576 : Shape := ⟨2, ![6272, 576]⟩
abbrev S6272x128 : Shape := ⟨2, ![6272, 128]⟩
abbrev S56x112x128 : Shape := ⟨3, ![56, 112, 128]⟩
abbrev S8x114x114x128 : Shape := ⟨4, ![8, 114, 114, 128]⟩
abbrev S1152x128 : Shape := ⟨2, ![1152, 128]⟩
abbrev S8x56x112x128 : Shape := ⟨4, ![8, 56, 112, 128]⟩
abbrev S1x114x114x128 : Shape := ⟨4, ![1, 114, 114, 128]⟩
abbrev S1x28x112x128 : Shape := ⟨4, ![1, 28, 112, 128]⟩
abbrev S1x58x112x128 : Shape := ⟨4, ![1, 58, 112, 128]⟩
abbrev S58x112x128 : Shape := ⟨3, ![58, 112, 128]⟩
abbrev S56x112x1152 : Shape := ⟨3, ![56, 112, 1152]⟩
abbrev S6272x1152 : Shape := ⟨2, ![6272, 1152]⟩
abbrev S28x2x112x128 : Shape := ⟨4, ![28, 2, 112, 128]⟩
abbrev S28x112x128 : Shape := ⟨3, ![28, 112, 128]⟩
abbrev S8x56x56x256 : Shape := ⟨4, ![8, 56, 56, 256]⟩
abbrev S8x56x56x128 : Shape := ⟨4, ![8, 56, 56, 128]⟩
abbrev S1x56x56x256 : Shape := ⟨4, ![1, 56, 56, 256]⟩
abbrev S1x56x56x128 : Shape := ⟨4, ![1, 56, 56, 128]⟩
abbrev S56x56x256 : Shape := ⟨3, ![56, 56, 256]⟩
abbrev S56x56x128 : Shape := ⟨3, ![56, 56, 128]⟩
abbrev S8x58x58x128 : Shape := ⟨4, ![8, 58, 58, 128]⟩
abbrev S1152x256 : Shape := ⟨2, ![1152, 256]⟩
abbrev S8x58x58x256 : Shape := ⟨4, ![8, 58, 58, 256]⟩
abbrev S1x58x58x128 : Shape := ⟨4, ![1, 58, 58, 128]⟩
abbrev S1x58x58x256 : Shape := ⟨4, ![1, 58, 58, 256]⟩
abbrev S1x58x56x128 : Shape := ⟨4, ![1, 58, 56, 128]⟩
abbrev S58x56x128 : Shape := ⟨3, ![58, 56, 128]⟩
abbrev S56x56x1152 : Shape := ⟨3, ![56, 56, 1152]⟩
abbrev S3136x1152 : Shape := ⟨2, ![3136, 1152]⟩
abbrev S3136x256 : Shape := ⟨2, ![3136, 256]⟩
abbrev S1x56x58x256 : Shape := ⟨4, ![1, 56, 58, 256]⟩
abbrev S58x256 : Shape := ⟨2, ![58, 256]⟩
abbrev S1x1x58x256 : Shape := ⟨4, ![1, 1, 58, 256]⟩
abbrev S58x1x256 : Shape := ⟨3, ![58, 1, 256]⟩
abbrev S1x58x1x256 : Shape := ⟨4, ![1, 58, 1, 256]⟩
abbrev S1x58x2x256 : Shape := ⟨4, ![1, 58, 2, 256]⟩
abbrev S2304x256 : Shape := ⟨2, ![2304, 256]⟩
abbrev S1x58x56x256 : Shape := ⟨4, ![1, 58, 56, 256]⟩
abbrev S58x56x256 : Shape := ⟨3, ![58, 56, 256]⟩
abbrev S56x56x2304 : Shape := ⟨3, ![56, 56, 2304]⟩
abbrev S3136x2304 : Shape := ⟨2, ![3136, 2304]⟩
abbrev S8x28x56x256 : Shape := ⟨4, ![8, 28, 56, 256]⟩
abbrev S1x28x56x256 : Shape := ⟨4, ![1, 28, 56, 256]⟩
abbrev S28x2x56x256 : Shape := ⟨4, ![28, 2, 56, 256]⟩
abbrev S28x56x256 : Shape := ⟨3, ![28, 56, 256]⟩
abbrev S8x28x28x512 : Shape := ⟨4, ![8, 28, 28, 512]⟩
abbrev S8x28x28x256 : Shape := ⟨4, ![8, 28, 28, 256]⟩
abbrev S1x28x28x512 : Shape := ⟨4, ![1, 28, 28, 512]⟩
abbrev S1x28x28x256 : Shape := ⟨4, ![1, 28, 28, 256]⟩
abbrev S28x28x512 : Shape := ⟨3, ![28, 28, 512]⟩
abbrev S28x28x256 : Shape := ⟨3, ![28, 28, 256]⟩
abbrev S8x30x34x256 : Shape := ⟨4, ![8, 30, 34, 256]⟩
abbrev S2304x512 : Shape := ⟨2, ![2304, 512]⟩
abbrev S8x30x34x512 : Shape := ⟨4, ![8, 30, 34, 512]⟩
abbrev S1x30x34x256 : Shape := ⟨4, ![1, 30, 34, 256]⟩
abbrev S1x30x34x512 : Shape := ⟨4, ![1, 30, 34, 512]⟩
abbrev S1x30x32x256 : Shape := ⟨4, ![1, 30, 32, 256]⟩
abbrev S30x32x256 : Shape := ⟨3, ![30, 32, 256]⟩
abbrev S28x32x256 : Shape := ⟨3, ![28, 32, 256]⟩
abbrev S28x32x2304 : Shape := ⟨3, ![28, 32, 2304]⟩
abbrev S896x2304 : Shape := ⟨2, ![896, 2304]⟩
abbrev S896x512 : Shape := ⟨2, ![896, 512]⟩
abbrev S28x32x512 : Shape := ⟨3, ![28, 32, 512]⟩
abbrev S1x28x32x512 : Shape := ⟨4, ![1, 28, 32, 512]⟩
abbrev S1x28x34x512 : Shape := ⟨4, ![1, 28, 34, 512]⟩
abbrev S34x512 : Shape := ⟨2, ![34, 512]⟩
abbrev S1x1x34x512 : Shape := ⟨4, ![1, 1, 34, 512]⟩
abbrev S30x1x512 : Shape := ⟨3, ![30, 1, 512]⟩
abbrev S1x30x1x512 : Shape := ⟨4, ![1, 30, 1, 512]⟩
abbrev S1x30x2x512 : Shape := ⟨4, ![1, 30, 2, 512]⟩
abbrev S30x5x512 : Shape := ⟨3, ![30, 5, 512]⟩
abbrev S1x30x5x512 : Shape := ⟨4, ![1, 30, 5, 512]⟩
abbrev S1x30x6x512 : Shape := ⟨4, ![1, 30, 6, 512]⟩
abbrev S4608x512 : Shape := ⟨2, ![4608, 512]⟩
abbrev S1x30x32x512 : Shape := ⟨4, ![1, 30, 32, 512]⟩
abbrev S30x32x512 : Shape := ⟨3, ![30, 32, 512]⟩
abbrev S28x32x4608 : Shape := ⟨3, ![28, 32, 4608]⟩
abbrev S896x4608 : Shape := ⟨2, ![896, 4608]⟩
abbrev S8x14x32x512 : Shape := ⟨4, ![8, 14, 32, 512]⟩
abbrev S1x14x32x512 : Shape := ⟨4, ![1, 14, 32, 512]⟩
abbrev S14x2x32x512 : Shape := ⟨4, ![14, 2, 32, 512]⟩
abbrev S14x32x512 : Shape := ⟨3, ![14, 32, 512]⟩
abbrev S14x4x512 : Shape := ⟨3, ![14, 4, 512]⟩
abbrev S1x14x4x512 : Shape := ⟨4, ![1, 14, 4, 512]⟩
abbrev S8x14x16x1024 : Shape := ⟨4, ![8, 14, 16, 1024]⟩
abbrev S8x14x16x512 : Shape := ⟨4, ![8, 14, 16, 512]⟩
abbrev S1x14x16x1024 : Shape := ⟨4, ![1, 14, 16, 1024]⟩
abbrev S1x14x16x512 : Shape := ⟨4, ![1, 14, 16, 512]⟩
abbrev S14x16x1024 : Shape := ⟨3, ![14, 16, 1024]⟩
abbrev S14x16x512 : Shape := ⟨3, ![14, 16, 512]⟩
abbrev S8x16x18x512 : Shape := ⟨4, ![8, 16, 18, 512]⟩
abbrev S1x16x18x512 : Shape := ⟨4, ![1, 16, 18, 512]⟩
abbrev S1x16x16x512 : Shape := ⟨4, ![1, 16, 16, 512]⟩
abbrev S16x16x512 : Shape := ⟨3, ![16, 16, 512]⟩
abbrev S14x16x4608 : Shape := ⟨3, ![14, 16, 4608]⟩
abbrev S224x4608 : Shape := ⟨2, ![224, 4608]⟩
abbrev S224x512 : Shape := ⟨2, ![224, 512]⟩
abbrev S1x14x18x512 : Shape := ⟨4, ![1, 14, 18, 512]⟩
abbrev S18x512 : Shape := ⟨2, ![18, 512]⟩
abbrev S1x1x18x512 : Shape := ⟨4, ![1, 1, 18, 512]⟩
abbrev S16x1x512 : Shape := ⟨3, ![16, 1, 512]⟩
abbrev S1x16x1x512 : Shape := ⟨4, ![1, 16, 1, 512]⟩
abbrev S1x16x2x512 : Shape := ⟨4, ![1, 16, 2, 512]⟩
abbrev S16x3x512 : Shape := ⟨3, ![16, 3, 512]⟩
abbrev S1x16x3x512 : Shape := ⟨4, ![1, 16, 3, 512]⟩
abbrev S1x16x4x512 : Shape := ⟨4, ![1, 16, 4, 512]⟩
abbrev S8x7x16x512 : Shape := ⟨4, ![8, 7, 16, 512]⟩
abbrev S1x7x16x512 : Shape := ⟨4, ![1, 7, 16, 512]⟩
abbrev S7x2x16x512 : Shape := ⟨4, ![7, 2, 16, 512]⟩
abbrev S7x16x512 : Shape := ⟨3, ![7, 16, 512]⟩
abbrev S7x2x512 : Shape := ⟨3, ![7, 2, 512]⟩
abbrev S1x7x2x512 : Shape := ⟨4, ![1, 7, 2, 512]⟩
abbrev S8x7x8x1024 : Shape := ⟨4, ![8, 7, 8, 1024]⟩
abbrev S8x7x8x512 : Shape := ⟨4, ![8, 7, 8, 512]⟩
abbrev S1x7x8x1024 : Shape := ⟨4, ![1, 7, 8, 1024]⟩
abbrev S1x7x8x512 : Shape := ⟨4, ![1, 7, 8, 512]⟩
abbrev S7x8x1024 : Shape := ⟨3, ![7, 8, 1024]⟩
abbrev S7x8x512 : Shape := ⟨3, ![7, 8, 512]⟩
abbrev S8x128x56x56 : Shape := ⟨4, ![8, 128, 56, 56]⟩
abbrev S8x256x28x28 : Shape := ⟨4, ![8, 256, 28, 28]⟩
abbrev S8x14x14x512 : Shape := ⟨4, ![8, 14, 14, 512]⟩
abbrev S8x512x14x14 : Shape := ⟨4, ![8, 512, 14, 14]⟩
abbrev S8x7x7x512 : Shape := ⟨4, ![8, 7, 7, 512]⟩
abbrev S8x512x7x7 : Shape := ⟨4, ![8, 512, 7, 7]⟩

abbrev nBuf : Space → Nat
  | .hbm => 116
  | .vmem => 98
  | .smem => 0
  | _ => 0

abbrev bufTy : (tb : Table) → Fin (tcTables nBuf tb) → BufTy
  | .hbm, ⟨0, _⟩ => ⟨S8x3x224x224, .f32⟩
  | .hbm, ⟨1, _⟩ => ⟨S9x3x64, .f32⟩
  | .hbm, ⟨2, _⟩ => ⟨S1x64, .f32⟩
  | .hbm, ⟨3, _⟩ => ⟨S9x64x64, .f32⟩
  | .hbm, ⟨4, _⟩ => ⟨S1x64, .f32⟩
  | .hbm, ⟨5, _⟩ => ⟨S9x64x128, .f32⟩
  | .hbm, ⟨6, _⟩ => ⟨S1x128, .f32⟩
  | .hbm, ⟨7, _⟩ => ⟨S9x128x128, .f32⟩
  | .hbm, ⟨8, _⟩ => ⟨S1x128, .f32⟩
  | .hbm, ⟨9, _⟩ => ⟨S9x128x256, .f32⟩
  | .hbm, ⟨10, _⟩ => ⟨S1x256, .f32⟩
  | .hbm, ⟨11, _⟩ => ⟨S9x256x256, .f32⟩
  | .hbm, ⟨12, _⟩ => ⟨S1x256, .f32⟩
  | .hbm, ⟨13, _⟩ => ⟨S9x256x256, .f32⟩
  | .hbm, ⟨14, _⟩ => ⟨S1x256, .f32⟩
  | .hbm, ⟨15, _⟩ => ⟨S9x256x512, .f32⟩
  | .hbm, ⟨16, _⟩ => ⟨S1x512, .f32⟩
  | .hbm, ⟨17, _⟩ => ⟨S9x512x512, .f32⟩
  | .hbm, ⟨18, _⟩ => ⟨S1x512, .f32⟩
  | .hbm, ⟨19, _⟩ => ⟨S9x512x512, .f32⟩
  | .hbm, ⟨20, _⟩ => ⟨S1x512, .f32⟩
  | .hbm, ⟨21, _⟩ => ⟨S9x512x512, .f32⟩
  | .hbm, ⟨22, _⟩ => ⟨S1x512, .f32⟩
  | .hbm, ⟨23, _⟩ => ⟨S9x512x512, .f32⟩
  | .hbm, ⟨24, _⟩ => ⟨S1x512, .f32⟩
  | .hbm, ⟨25, _⟩ => ⟨S9x512x512, .f32⟩
  | .hbm, ⟨26, _⟩ => ⟨S1x512, .f32⟩
  | .hbm, ⟨27, _⟩ => ⟨S8x224x224x3, .f32⟩
  | .hbm, ⟨28, _⟩ => ⟨S_, .i32⟩
  | .hbm, ⟨29, _⟩ => ⟨S_, .f32⟩
  | .hbm, ⟨30, _⟩ => ⟨S8x228x234x3, .f32⟩
  | .hbm, ⟨31, _⟩ => ⟨S8x226x232x3, .f32⟩
  | .hbm, ⟨32, _⟩ => ⟨S8x226x232x3, .f32⟩
  | .hbm, ⟨33, _⟩ => ⟨S8x226x232x3, .f32⟩
  | .hbm, ⟨34, _⟩ => ⟨S8x226x232x3, .f32⟩
  | .hbm, ⟨35, _⟩ => ⟨S8x226x232x3, .f32⟩
  | .hbm, ⟨36, _⟩ => ⟨S8x226x232x3, .f32⟩
  | .hbm, ⟨37, _⟩ => ⟨S8x226x232x3, .f32⟩
  | .hbm, ⟨38, _⟩ => ⟨S8x226x232x3, .f32⟩
  | .hbm, ⟨39, _⟩ => ⟨S8x226x232x3, .f32⟩
  | .hbm, ⟨40, _⟩ => ⟨S8x226x232x27, .f32⟩
  | .hbm, ⟨41, _⟩ => ⟨S8x226x232x27, .bf16⟩
  | .hbm, ⟨42, _⟩ => ⟨S27x64, .f32⟩
  | .hbm, ⟨43, _⟩ => ⟨S27x64, .bf16⟩
  | .hbm, ⟨44, _⟩ => ⟨S8x226x232x64, .bf16⟩
  | .hbm, ⟨45, _⟩ => ⟨S576x64, .f32⟩
  | .hbm, ⟨46, _⟩ => ⟨S576x64, .bf16⟩
  | .hbm, ⟨47, _⟩ => ⟨S8x112x224x64, .bf16⟩
  | .hbm, ⟨48, _⟩ => ⟨S8x112x112x128, .bf16⟩
  | .hbm, ⟨49, _⟩ => ⟨S8x112x112x64, .bf16⟩
  | .hbm, ⟨50, _⟩ => ⟨S_, .i32⟩
  | .hbm, ⟨51, _⟩ => ⟨S_, .bf16⟩
  | .hbm, ⟨52, _⟩ => ⟨S8x114x114x64, .bf16⟩
  | .hbm, ⟨53, _⟩ => ⟨S576x128, .f32⟩
  | .hbm, ⟨54, _⟩ => ⟨S576x128, .bf16⟩
  | .hbm, ⟨55, _⟩ => ⟨S8x112x112x128, .bf16⟩
  | .hbm, ⟨56, _⟩ => ⟨S_, .i32⟩
  | .hbm, ⟨57, _⟩ => ⟨S_, .bf16⟩
  | .hbm, ⟨58, _⟩ => ⟨S8x114x114x128, .bf16⟩
  | .hbm, ⟨59, _⟩ => ⟨S1152x128, .f32⟩
  | .hbm, ⟨60, _⟩ => ⟨S1152x128, .bf16⟩
  | .hbm, ⟨61, _⟩ => ⟨S8x56x112x128, .bf16⟩
  | .hbm, ⟨62, _⟩ => ⟨S8x56x56x256, .bf16⟩
  | .hbm, ⟨63, _⟩ => ⟨S8x56x56x128, .bf16⟩
  | .hbm, ⟨64, _⟩ => ⟨S_, .i32⟩
  | .hbm, ⟨65, _⟩ => ⟨S_, .bf16⟩
  | .hbm, ⟨66, _⟩ => ⟨S8x58x58x128, .bf16⟩
  | .hbm, ⟨67, _⟩ => ⟨S1152x256, .f32⟩
  | .hbm, ⟨68, _⟩ => ⟨S1152x256, .bf16⟩
  | .hbm, ⟨69, _⟩ => ⟨S8x58x58x256, .bf16⟩
  | .hbm, ⟨70, _⟩ => ⟨S2304x256, .f32⟩
  | .hbm, ⟨71, _⟩ => ⟨S2304x256, .bf16⟩
  | .hbm, ⟨72, _⟩ => ⟨S8x58x58x256, .bf16⟩
  | .hbm, ⟨73, _⟩ => ⟨S2304x256, .f32⟩
  | .hbm, ⟨74, _⟩ => ⟨S2304x256, .bf16⟩
  | .hbm, ⟨75, _⟩ => ⟨S8x28x56x256, .bf16⟩
  | .hbm, ⟨76, _⟩ => ⟨S8x28x28x512, .bf16⟩
  | .hbm, ⟨77, _⟩ => ⟨S8x28x28x256, .bf16⟩
  | .hbm, ⟨78, _⟩ => ⟨S_, .i32⟩
  | .hbm, ⟨79, _⟩ => ⟨S_, .bf16⟩
  | .hbm, ⟨80, _⟩ => ⟨S8x30x34x256, .bf16⟩
  | .hbm, ⟨81, _⟩ => ⟨S2304x512, .f32⟩
  | .hbm, ⟨82, _⟩ => ⟨S2304x512, .bf16⟩
  | .hbm, ⟨83, _⟩ => ⟨S8x30x34x512, .bf16⟩
  | .hbm, ⟨84, _⟩ => ⟨S4608x512, .f32⟩
  | .hbm, ⟨85, _⟩ => ⟨S4608x512, .bf16⟩
  | .hbm, ⟨86, _⟩ => ⟨S8x30x34x512, .bf16⟩
  | .hbm, ⟨87, _⟩ => ⟨S4608x512, .f32⟩
  | .hbm, ⟨88, _⟩ => ⟨S4608x512, .bf16⟩
  | .hbm, ⟨89, _⟩ => ⟨S8x14x32x512, .bf16⟩
  | .hbm, ⟨90, _⟩ => ⟨S8x14x16x1024, .bf16⟩
  | .hbm, ⟨91, _⟩ => ⟨S8x14x16x512, .bf16⟩
  | .hbm, ⟨92, _⟩ => ⟨S_, .i32⟩
  | .hbm, ⟨93, _⟩ => ⟨S_, .bf16⟩
  | .hbm, ⟨94, _⟩ => ⟨S8x16x18x512, .bf16⟩
  | .hbm, ⟨95, _⟩ => ⟨S4608x512, .f32⟩
  | .hbm, ⟨96, _⟩ => ⟨S4608x512, .bf16⟩
  | .hbm, ⟨97, _⟩ => ⟨S8x16x18x512, .bf16⟩
  | .hbm, ⟨98, _⟩ => ⟨S4608x512, .f32⟩
  | .hbm, ⟨99, _⟩ => ⟨S4608x512, .bf16⟩
  | .hbm, ⟨100, _⟩ => ⟨S8x16x18x512, .bf16⟩
  | .hbm, ⟨101, _⟩ => ⟨S4608x512, .f32⟩
  | .hbm, ⟨102, _⟩ => ⟨S4608x512, .bf16⟩
  | .hbm, ⟨103, _⟩ => ⟨S8x7x16x512, .bf16⟩
  | .hbm, ⟨104, _⟩ => ⟨S8x7x8x1024, .bf16⟩
  | .hbm, ⟨105, _⟩ => ⟨S8x7x8x512, .bf16⟩
  | .hbm, ⟨106, _⟩ => ⟨S8x128x56x56, .bf16⟩
  | .hbm, ⟨107, _⟩ => ⟨S8x128x56x56, .f32⟩
  | .hbm, ⟨108, _⟩ => ⟨S8x256x28x28, .bf16⟩
  | .hbm, ⟨109, _⟩ => ⟨S8x256x28x28, .f32⟩
  | .hbm, ⟨110, _⟩ => ⟨S8x14x14x512, .bf16⟩
  | .hbm, ⟨111, _⟩ => ⟨S8x512x14x14, .bf16⟩
  | .hbm, ⟨112, _⟩ => ⟨S8x512x14x14, .f32⟩
  | .hbm, ⟨113, _⟩ => ⟨S8x7x7x512, .bf16⟩
  | .hbm, ⟨114, _⟩ => ⟨S8x512x7x7, .bf16⟩
  | .hbm, ⟨115, _⟩ => ⟨S8x512x7x7, .f32⟩
  | .local _ .vmem, ⟨0, _⟩ => ⟨S1x113x232x27, .bf16⟩
  | .local _ .vmem, ⟨1, _⟩ => ⟨S1x113x232x27, .bf16⟩
  | .local _ .vmem, ⟨2, _⟩ => ⟨S27x64, .bf16⟩
  | .local _ .vmem, ⟨3, _⟩ => ⟨S1x64, .f32⟩
  | .local _ .vmem, ⟨4, _⟩ => ⟨S1x113x232x64, .bf16⟩
  | .local _ .vmem, ⟨5, _⟩ => ⟨S1x113x232x64, .bf16⟩
  | .local _ .vmem, ⟨6, _⟩ => ⟨S1x226x232x64, .bf16⟩
  | .local _ .vmem, ⟨7, _⟩ => ⟨S1x226x232x64, .bf16⟩
  | .local _ .vmem, ⟨8, _⟩ => ⟨S576x64, .bf16⟩
  | .local _ .vmem, ⟨9, _⟩ => ⟨S1x64, .f32⟩
  | .local _ .vmem, ⟨10, _⟩ => ⟨S1x16x224x64, .bf16⟩
  | .local _ .vmem, ⟨11, _⟩ => ⟨S1x16x224x64, .bf16⟩
  | .local _ .vmem, ⟨12, _⟩ => ⟨S1x112x112x128, .bf16⟩
  | .local _ .vmem, ⟨13, _⟩ => ⟨S1x112x112x128, .bf16⟩
  | .local _ .vmem, ⟨14, _⟩ => ⟨S1x112x112x64, .bf16⟩
  | .local _ .vmem, ⟨15, _⟩ => ⟨S1x112x112x64, .bf16⟩
  | .local _ .vmem, ⟨16, _⟩ => ⟨S1x114x114x64, .bf16⟩
  | .local _ .vmem, ⟨17, _⟩ => ⟨S1x114x114x64, .bf16⟩
  | .local _ .vmem, ⟨18, _⟩ => ⟨S576x128, .bf16⟩
  | .local _ .vmem, ⟨19, _⟩ => ⟨S1x128, .f32⟩
  | .local _ .vmem, ⟨20, _⟩ => ⟨S1x56x112x128, .bf16⟩
  | .local _ .vmem, ⟨21, _⟩ => ⟨S1x56x112x128, .bf16⟩
  | .local _ .vmem, ⟨22, _⟩ => ⟨S1x114x114x128, .bf16⟩
  | .local _ .vmem, ⟨23, _⟩ => ⟨S1x114x114x128, .bf16⟩
  | .local _ .vmem, ⟨24, _⟩ => ⟨S1152x128, .bf16⟩
  | .local _ .vmem, ⟨25, _⟩ => ⟨S1x128, .f32⟩
  | .local _ .vmem, ⟨26, _⟩ => ⟨S1x28x112x128, .bf16⟩
  | .local _ .vmem, ⟨27, _⟩ => ⟨S1x28x112x128, .bf16⟩
  | .local _ .vmem, ⟨28, _⟩ => ⟨S1x56x56x256, .bf16⟩
  | .local _ .vmem, ⟨29, _⟩ => ⟨S1x56x56x256, .bf16⟩
  | .local _ .vmem, ⟨30, _⟩ => ⟨S1x56x56x128, .bf16⟩
  | .local _ .vmem, ⟨31, _⟩ => ⟨S1x56x56x128, .bf16⟩
  | .local _ .vmem, ⟨32, _⟩ => ⟨S1x58x58x128, .bf16⟩
  | .local _ .vmem, ⟨33, _⟩ => ⟨S1x58x58x128, .bf16⟩
  | .local _ .vmem, ⟨34, _⟩ => ⟨S1152x256, .bf16⟩
  | .local _ .vmem, ⟨35, _⟩ => ⟨S1x256, .f32⟩
  | .local _ .vmem, ⟨36, _⟩ => ⟨S1x58x58x256, .bf16⟩
  | .local _ .vmem, ⟨37, _⟩ => ⟨S1x58x58x256, .bf16⟩
  | .local _ .vmem, ⟨38, _⟩ => ⟨S1x58x58x256, .bf16⟩
  | .local _ .vmem, ⟨39, _⟩ => ⟨S1x58x58x256, .bf16⟩
  | .local _ .vmem, ⟨40, _⟩ => ⟨S2304x256, .bf16⟩
  | .local _ .vmem, ⟨41, _⟩ => ⟨S1x256, .f32⟩
  | .local _ .vmem, ⟨42, _⟩ => ⟨S1x58x58x256, .bf16⟩
  | .local _ .vmem, ⟨43, _⟩ => ⟨S1x58x58x256, .bf16⟩
  | .local _ .vmem, ⟨44, _⟩ => ⟨S1x58x58x256, .bf16⟩
  | .local _ .vmem, ⟨45, _⟩ => ⟨S1x58x58x256, .bf16⟩
  | .local _ .vmem, ⟨46, _⟩ => ⟨S2304x256, .bf16⟩
  | .local _ .vmem, ⟨47, _⟩ => ⟨S1x256, .f32⟩
  | .local _ .vmem, ⟨48, _⟩ => ⟨S1x28x56x256, .bf16⟩
  | .local _ .vmem, ⟨49, _⟩ => ⟨S1x28x56x256, .bf16⟩
  | .local _ .vmem, ⟨50, _⟩ => ⟨S1x28x28x512, .bf16⟩
  | .local _ .vmem, ⟨51, _⟩ => ⟨S1x28x28x512, .bf16⟩
  | .local _ .vmem, ⟨52, _⟩ => ⟨S1x28x28x256, .bf16⟩
  | .local _ .vmem, ⟨53, _⟩ => ⟨S1x28x28x256, .bf16⟩
  | .local _ .vmem, ⟨54, _⟩ => ⟨S1x30x34x256, .bf16⟩
  | .local _ .vmem, ⟨55, _⟩ => ⟨S1x30x34x256, .bf16⟩
  | .local _ .vmem, ⟨56, _⟩ => ⟨S2304x512, .bf16⟩
  | .local _ .vmem, ⟨57, _⟩ => ⟨S1x512, .f32⟩
  | .local _ .vmem, ⟨58, _⟩ => ⟨S1x30x34x512, .bf16⟩
  | .local _ .vmem, ⟨59, _⟩ => ⟨S1x30x34x512, .bf16⟩
  | .local _ .vmem, ⟨60, _⟩ => ⟨S1x30x34x512, .bf16⟩
  | .local _ .vmem, ⟨61, _⟩ => ⟨S1x30x34x512, .bf16⟩
  | .local _ .vmem, ⟨62, _⟩ => ⟨S4608x512, .bf16⟩
  | .local _ .vmem, ⟨63, _⟩ => ⟨S1x512, .f32⟩
  | .local _ .vmem, ⟨64, _⟩ => ⟨S1x30x34x512, .bf16⟩
  | .local _ .vmem, ⟨65, _⟩ => ⟨S1x30x34x512, .bf16⟩
  | .local _ .vmem, ⟨66, _⟩ => ⟨S1x30x34x512, .bf16⟩
  | .local _ .vmem, ⟨67, _⟩ => ⟨S1x30x34x512, .bf16⟩
  | .local _ .vmem, ⟨68, _⟩ => ⟨S4608x512, .bf16⟩
  | .local _ .vmem, ⟨69, _⟩ => ⟨S1x512, .f32⟩
  | .local _ .vmem, ⟨70, _⟩ => ⟨S1x14x32x512, .bf16⟩
  | .local _ .vmem, ⟨71, _⟩ => ⟨S1x14x32x512, .bf16⟩
  | .local _ .vmem, ⟨72, _⟩ => ⟨S1x14x16x1024, .bf16⟩
  | .local _ .vmem, ⟨73, _⟩ => ⟨S1x14x16x1024, .bf16⟩
  | .local _ .vmem, ⟨74, _⟩ => ⟨S1x14x16x512, .bf16⟩
  | .local _ .vmem, ⟨75, _⟩ => ⟨S1x14x16x512, .bf16⟩
  | .local _ .vmem, ⟨76, _⟩ => ⟨S1x16x18x512, .bf16⟩
  | .local _ .vmem, ⟨77, _⟩ => ⟨S1x16x18x512, .bf16⟩
  | .local _ .vmem, ⟨78, _⟩ => ⟨S4608x512, .bf16⟩
  | .local _ .vmem, ⟨79, _⟩ => ⟨S1x512, .f32⟩
  | .local _ .vmem, ⟨80, _⟩ => ⟨S1x16x18x512, .bf16⟩
  | .local _ .vmem, ⟨81, _⟩ => ⟨S1x16x18x512, .bf16⟩
  | .local _ .vmem, ⟨82, _⟩ => ⟨S1x16x18x512, .bf16⟩
  | .local _ .vmem, ⟨83, _⟩ => ⟨S1x16x18x512, .bf16⟩
  | .local _ .vmem, ⟨84, _⟩ => ⟨S4608x512, .bf16⟩
  | .local _ .vmem, ⟨85, _⟩ => ⟨S1x512, .f32⟩
  | .local _ .vmem, ⟨86, _⟩ => ⟨S1x16x18x512, .bf16⟩
  | .local _ .vmem, ⟨87, _⟩ => ⟨S1x16x18x512, .bf16⟩
  | .local _ .vmem, ⟨88, _⟩ => ⟨S1x16x18x512, .bf16⟩
  | .local _ .vmem, ⟨89, _⟩ => ⟨S1x16x18x512, .bf16⟩
  | .local _ .vmem, ⟨90, _⟩ => ⟨S4608x512, .bf16⟩
  | .local _ .vmem, ⟨91, _⟩ => ⟨S1x512, .f32⟩
  | .local _ .vmem, ⟨92, _⟩ => ⟨S1x7x16x512, .bf16⟩
  | .local _ .vmem, ⟨93, _⟩ => ⟨S1x7x16x512, .bf16⟩
  | .local _ .vmem, ⟨94, _⟩ => ⟨S1x7x8x1024, .bf16⟩
  | .local _ .vmem, ⟨95, _⟩ => ⟨S1x7x8x1024, .bf16⟩
  | .local _ .vmem, ⟨96, _⟩ => ⟨S1x7x8x512, .bf16⟩
  | .local _ .vmem, ⟨97, _⟩ => ⟨S1x7x8x512, .bf16⟩
  | _, _ => ⟨S8x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | _, _ => false

abbrev semScoped : Fin 0 → Bool
  | ⟨_, h⟩ => absurd h (Nat.not_lt_zero _)

abbrev dmaSemScoped : Fin 98 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | _ => false

abbrev sig : RefSig :=
  ofTc nBuf bufTy 0 98 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_c : Ref sig .tc := ⟨.hbm, 28, rfl⟩
abbrev main_call0_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_c_0 : Ref sig .tc := ⟨.hbm, 50, rfl⟩
abbrev main_call1_v0 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_c_1 : Ref sig .tc := ⟨.hbm, 56, rfl⟩
abbrev main_call2_v0 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_c_2 : Ref sig .tc := ⟨.hbm, 64, rfl⟩
abbrev main_call3_v0 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_c_3 : Ref sig .tc := ⟨.hbm, 78, rfl⟩
abbrev main_call4_v0 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_c_4 : Ref sig .tc := ⟨.hbm, 92, rfl⟩
abbrev main_call5_v0 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg3_0 : Ref sig .tc := ⟨.vmem, 26, rfl⟩
abbrev cc4_stg3_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg1_1 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc6_stg2_0 : Ref sig .tc := ⟨.vmem, 35, rfl⟩
abbrev cc6_stg3_0 : Ref sig .tc := ⟨.vmem, 36, rfl⟩
abbrev cc6_stg3_1 : Ref sig .tc := ⟨.vmem, 37, rfl⟩
abbrev cc7_stg0_0 : Ref sig .tc := ⟨.vmem, 38, rfl⟩
abbrev cc7_stg0_1 : Ref sig .tc := ⟨.vmem, 39, rfl⟩
abbrev cc7_stg1_0 : Ref sig .tc := ⟨.vmem, 40, rfl⟩
abbrev cc7_stg2_0 : Ref sig .tc := ⟨.vmem, 41, rfl⟩
abbrev cc7_stg3_0 : Ref sig .tc := ⟨.vmem, 42, rfl⟩
abbrev cc7_stg3_1 : Ref sig .tc := ⟨.vmem, 43, rfl⟩
abbrev cc8_stg0_0 : Ref sig .tc := ⟨.vmem, 44, rfl⟩
abbrev cc8_stg0_1 : Ref sig .tc := ⟨.vmem, 45, rfl⟩
abbrev cc8_stg1_0 : Ref sig .tc := ⟨.vmem, 46, rfl⟩
abbrev cc8_stg2_0 : Ref sig .tc := ⟨.vmem, 47, rfl⟩
abbrev cc8_stg3_0 : Ref sig .tc := ⟨.vmem, 48, rfl⟩
abbrev cc8_stg3_1 : Ref sig .tc := ⟨.vmem, 49, rfl⟩
abbrev cc9_stg0_0 : Ref sig .tc := ⟨.vmem, 50, rfl⟩
abbrev cc9_stg0_1 : Ref sig .tc := ⟨.vmem, 51, rfl⟩
abbrev cc9_stg1_0 : Ref sig .tc := ⟨.vmem, 52, rfl⟩
abbrev cc9_stg1_1 : Ref sig .tc := ⟨.vmem, 53, rfl⟩
abbrev cc10_stg0_0 : Ref sig .tc := ⟨.vmem, 54, rfl⟩
abbrev cc10_stg0_1 : Ref sig .tc := ⟨.vmem, 55, rfl⟩
abbrev cc10_stg1_0 : Ref sig .tc := ⟨.vmem, 56, rfl⟩
abbrev cc10_stg2_0 : Ref sig .tc := ⟨.vmem, 57, rfl⟩
abbrev cc10_stg3_0 : Ref sig .tc := ⟨.vmem, 58, rfl⟩
abbrev cc10_stg3_1 : Ref sig .tc := ⟨.vmem, 59, rfl⟩
abbrev cc11_stg0_0 : Ref sig .tc := ⟨.vmem, 60, rfl⟩
abbrev cc11_stg0_1 : Ref sig .tc := ⟨.vmem, 61, rfl⟩
abbrev cc11_stg1_0 : Ref sig .tc := ⟨.vmem, 62, rfl⟩
abbrev cc11_stg2_0 : Ref sig .tc := ⟨.vmem, 63, rfl⟩
abbrev cc11_stg3_0 : Ref sig .tc := ⟨.vmem, 64, rfl⟩
abbrev cc11_stg3_1 : Ref sig .tc := ⟨.vmem, 65, rfl⟩
abbrev cc12_stg0_0 : Ref sig .tc := ⟨.vmem, 66, rfl⟩
abbrev cc12_stg0_1 : Ref sig .tc := ⟨.vmem, 67, rfl⟩
abbrev cc12_stg1_0 : Ref sig .tc := ⟨.vmem, 68, rfl⟩
abbrev cc12_stg2_0 : Ref sig .tc := ⟨.vmem, 69, rfl⟩
abbrev cc12_stg3_0 : Ref sig .tc := ⟨.vmem, 70, rfl⟩
abbrev cc12_stg3_1 : Ref sig .tc := ⟨.vmem, 71, rfl⟩
abbrev cc13_stg0_0 : Ref sig .tc := ⟨.vmem, 72, rfl⟩
abbrev cc13_stg0_1 : Ref sig .tc := ⟨.vmem, 73, rfl⟩
abbrev cc13_stg1_0 : Ref sig .tc := ⟨.vmem, 74, rfl⟩
abbrev cc13_stg1_1 : Ref sig .tc := ⟨.vmem, 75, rfl⟩
abbrev cc14_stg0_0 : Ref sig .tc := ⟨.vmem, 76, rfl⟩
abbrev cc14_stg0_1 : Ref sig .tc := ⟨.vmem, 77, rfl⟩
abbrev cc14_stg1_0 : Ref sig .tc := ⟨.vmem, 78, rfl⟩
abbrev cc14_stg2_0 : Ref sig .tc := ⟨.vmem, 79, rfl⟩
abbrev cc14_stg3_0 : Ref sig .tc := ⟨.vmem, 80, rfl⟩
abbrev cc14_stg3_1 : Ref sig .tc := ⟨.vmem, 81, rfl⟩
abbrev cc15_stg0_0 : Ref sig .tc := ⟨.vmem, 82, rfl⟩
abbrev cc15_stg0_1 : Ref sig .tc := ⟨.vmem, 83, rfl⟩
abbrev cc15_stg1_0 : Ref sig .tc := ⟨.vmem, 84, rfl⟩
abbrev cc15_stg2_0 : Ref sig .tc := ⟨.vmem, 85, rfl⟩
abbrev cc15_stg3_0 : Ref sig .tc := ⟨.vmem, 86, rfl⟩
abbrev cc15_stg3_1 : Ref sig .tc := ⟨.vmem, 87, rfl⟩
abbrev cc16_stg0_0 : Ref sig .tc := ⟨.vmem, 88, rfl⟩
abbrev cc16_stg0_1 : Ref sig .tc := ⟨.vmem, 89, rfl⟩
abbrev cc16_stg1_0 : Ref sig .tc := ⟨.vmem, 90, rfl⟩
abbrev cc16_stg2_0 : Ref sig .tc := ⟨.vmem, 91, rfl⟩
abbrev cc16_stg3_0 : Ref sig .tc := ⟨.vmem, 92, rfl⟩
abbrev cc16_stg3_1 : Ref sig .tc := ⟨.vmem, 93, rfl⟩
abbrev cc17_stg0_0 : Ref sig .tc := ⟨.vmem, 94, rfl⟩
abbrev cc17_stg0_1 : Ref sig .tc := ⟨.vmem, 95, rfl⟩
abbrev cc17_stg1_0 : Ref sig .tc := ⟨.vmem, 96, rfl⟩
abbrev cc17_stg1_1 : Ref sig .tc := ⟨.vmem, 97, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem3_0 : DmaSem sig := 26
abbrev cc4_sem3_1 : DmaSem sig := 27
abbrev cc5_sem0_0 : DmaSem sig := 28
abbrev cc5_sem0_1 : DmaSem sig := 29
abbrev cc5_sem1_0 : DmaSem sig := 30
abbrev cc5_sem1_1 : DmaSem sig := 31
abbrev cc6_sem0_0 : DmaSem sig := 32
abbrev cc6_sem0_1 : DmaSem sig := 33
abbrev cc6_sem1_0 : DmaSem sig := 34
abbrev cc6_sem2_0 : DmaSem sig := 35
abbrev cc6_sem3_0 : DmaSem sig := 36
abbrev cc6_sem3_1 : DmaSem sig := 37
abbrev cc7_sem0_0 : DmaSem sig := 38
abbrev cc7_sem0_1 : DmaSem sig := 39
abbrev cc7_sem1_0 : DmaSem sig := 40
abbrev cc7_sem2_0 : DmaSem sig := 41
abbrev cc7_sem3_0 : DmaSem sig := 42
abbrev cc7_sem3_1 : DmaSem sig := 43
abbrev cc8_sem0_0 : DmaSem sig := 44
abbrev cc8_sem0_1 : DmaSem sig := 45
abbrev cc8_sem1_0 : DmaSem sig := 46
abbrev cc8_sem2_0 : DmaSem sig := 47
abbrev cc8_sem3_0 : DmaSem sig := 48
abbrev cc8_sem3_1 : DmaSem sig := 49
abbrev cc9_sem0_0 : DmaSem sig := 50
abbrev cc9_sem0_1 : DmaSem sig := 51
abbrev cc9_sem1_0 : DmaSem sig := 52
abbrev cc9_sem1_1 : DmaSem sig := 53
abbrev cc10_sem0_0 : DmaSem sig := 54
abbrev cc10_sem0_1 : DmaSem sig := 55
abbrev cc10_sem1_0 : DmaSem sig := 56
abbrev cc10_sem2_0 : DmaSem sig := 57
abbrev cc10_sem3_0 : DmaSem sig := 58
abbrev cc10_sem3_1 : DmaSem sig := 59
abbrev cc11_sem0_0 : DmaSem sig := 60
abbrev cc11_sem0_1 : DmaSem sig := 61
abbrev cc11_sem1_0 : DmaSem sig := 62
abbrev cc11_sem2_0 : DmaSem sig := 63
abbrev cc11_sem3_0 : DmaSem sig := 64
abbrev cc11_sem3_1 : DmaSem sig := 65
abbrev cc12_sem0_0 : DmaSem sig := 66
abbrev cc12_sem0_1 : DmaSem sig := 67
abbrev cc12_sem1_0 : DmaSem sig := 68
abbrev cc12_sem2_0 : DmaSem sig := 69
abbrev cc12_sem3_0 : DmaSem sig := 70
abbrev cc12_sem3_1 : DmaSem sig := 71
abbrev cc13_sem0_0 : DmaSem sig := 72
abbrev cc13_sem0_1 : DmaSem sig := 73
abbrev cc13_sem1_0 : DmaSem sig := 74
abbrev cc13_sem1_1 : DmaSem sig := 75
abbrev cc14_sem0_0 : DmaSem sig := 76
abbrev cc14_sem0_1 : DmaSem sig := 77
abbrev cc14_sem1_0 : DmaSem sig := 78
abbrev cc14_sem2_0 : DmaSem sig := 79
abbrev cc14_sem3_0 : DmaSem sig := 80
abbrev cc14_sem3_1 : DmaSem sig := 81
abbrev cc15_sem0_0 : DmaSem sig := 82
abbrev cc15_sem0_1 : DmaSem sig := 83
abbrev cc15_sem1_0 : DmaSem sig := 84
abbrev cc15_sem2_0 : DmaSem sig := 85
abbrev cc15_sem3_0 : DmaSem sig := 86
abbrev cc15_sem3_1 : DmaSem sig := 87
abbrev cc16_sem0_0 : DmaSem sig := 88
abbrev cc16_sem0_1 : DmaSem sig := 89
abbrev cc16_sem1_0 : DmaSem sig := 90
abbrev cc16_sem2_0 : DmaSem sig := 91
abbrev cc16_sem3_0 : DmaSem sig := 92
abbrev cc16_sem3_1 : DmaSem sig := 93
abbrev cc17_sem0_0 : DmaSem sig := 94
abbrev cc17_sem0_1 : DmaSem sig := 95
abbrev cc17_sem1_0 : DmaSem sig := 96
abbrev cc17_sem1_1 : DmaSem sig := 97

abbrev nD : Nat := 1
abbrev τ : Topo := Topo.v7x

variable {F : FTy → Type} [FloatOps F]

abbrev grid0 : Pipeline.Grid := ⟨2, ![8, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x113x232x27 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S27x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x113x232x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![8, 7], ![false, false]⟩

def k1_mult1 (i : grid1.Coords) : BitVec 32 :=
  let arg1 : BitVec 32 := BitVec.ofNat 32 (i 1).val
  let c32_i32 : BitVec 32 := 32#32
  let v0 : BitVec 32 := Scalar.muli arg1 c32_i32
  v0
def k1_off1 (i : grid1.Coords) : Fin 4 → Nat :=
  let c0 : Index := 0#32
  let arg1 : BitVec 32 := BitVec.ofNat 32 (i 1).val
  let c32_i32 : BitVec 32 := 32#32
  let v0 : BitVec 32 := Scalar.muli arg1 c32_i32
  let v1 : BitVec 32 := v0
  let v2 : Index := Scalar.indexCast v1
  let c0_0 : Index := 0#32
  let c0_1 : Index := 0#32
  ![0, v2.toNat, 0, 0]
def k1_off2 (i : grid1.Coords) : Fin 4 → Nat :=
  let c0_2 : Index := 0#32
  let arg1 : BitVec 32 := BitVec.ofNat 32 (i 1).val
  let c32_i32 : BitVec 32 := 32#32
  let v0 : BitVec 32 := Scalar.muli arg1 c32_i32
  let v1 : BitVec 32 := v0
  let v5 : Index := Scalar.indexCast v1
  let c1 : Index := 1#32
  let c0_3 : Index := 0#32
  ![0, v5.toNat, 1, 0]
def k1_off3 (i : grid1.Coords) : Fin 4 → Nat :=
  let c0_4 : Index := 0#32
  let arg1 : BitVec 32 := BitVec.ofNat 32 (i 1).val
  let c32_i32 : BitVec 32 := 32#32
  let v0 : BitVec 32 := Scalar.muli arg1 c32_i32
  let v1 : BitVec 32 := v0
  let v8 : Index := Scalar.indexCast v1
  let c2 : Index := 2#32
  let c0_5 : Index := 0#32
  ![0, v8.toNat, 2, 0]
def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x226x232x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S576x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x16x224x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![8], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_1 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage2_0 : Fin 2 → Memref sig .tc .vmem S1x112x112x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x112x112x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨2, ![8, 2], ![false, false]⟩

def k3_mult1 (i : grid3.Coords) : BitVec 32 :=
  let arg1 : BitVec 32 := BitVec.ofNat 32 (i 1).val
  let c56_i32 : BitVec 32 := 56#32
  let v0 : BitVec 32 := Scalar.muli arg1 c56_i32
  v0
def k3_off1 (i : grid3.Coords) : Fin 4 → Nat :=
  let c0 : Index := 0#32
  let arg1 : BitVec 32 := BitVec.ofNat 32 (i 1).val
  let c56_i32 : BitVec 32 := 56#32
  let v0 : BitVec 32 := Scalar.muli arg1 c56_i32
  let v1 : BitVec 32 := v0
  let v2 : Index := Scalar.indexCast v1
  let c0_0 : Index := 0#32
  let c0_1 : Index := 0#32
  ![0, v2.toNat, 0, 0]
def k3_off2 (i : grid3.Coords) : Fin 4 → Nat :=
  let c0_2 : Index := 0#32
  let arg1 : BitVec 32 := BitVec.ofNat 32 (i 1).val
  let c56_i32 : BitVec 32 := 56#32
  let v0 : BitVec 32 := Scalar.muli arg1 c56_i32
  let v1 : BitVec 32 := v0
  let v5 : Index := Scalar.indexCast v1
  let c1 : Index := 1#32
  let c0_3 : Index := 0#32
  ![0, v5.toNat, 1, 0]
def k3_off3 (i : grid3.Coords) : Fin 4 → Nat :=
  let c0_4 : Index := 0#32
  let arg1 : BitVec 32 := BitVec.ofNat 32 (i 1).val
  let c56_i32 : BitVec 32 := 56#32
  let v0 : BitVec 32 := Scalar.muli arg1 c56_i32
  let v1 : BitVec 32 := v0
  let v8 : Index := Scalar.indexCast v1
  let c2 : Index := 2#32
  let c0_5 : Index := 0#32
  ![0, v8.toNat, 2, 0]
def cc3_transform_0 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage3_0 : Fin 2 → Memref sig .tc .vmem S1x114x114x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 1 → Memref sig .tc .vmem S576x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S1x56x112x128 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨2, ![8, 2], ![false, false]⟩

def k4_mult1 (i : grid4.Coords) : BitVec 32 :=
  let arg1 : BitVec 32 := BitVec.ofNat 32 (i 1).val
  let c56_i32 : BitVec 32 := 56#32
  let v0 : BitVec 32 := Scalar.muli arg1 c56_i32
  v0
def k4_off1 (i : grid4.Coords) : Fin 4 → Nat :=
  let c0 : Index := 0#32
  let arg1 : BitVec 32 := BitVec.ofNat 32 (i 1).val
  let c56_i32 : BitVec 32 := 56#32
  let v0 : BitVec 32 := Scalar.muli arg1 c56_i32
  let v1 : BitVec 32 := v0
  let v2 : Index := Scalar.indexCast v1
  let c0_0 : Index := 0#32
  let c0_1 : Index := 0#32
  ![0, v2.toNat, 0, 0]
def k4_off2 (i : grid4.Coords) : Fin 4 → Nat :=
  let c0_2 : Index := 0#32
  let arg1 : BitVec 32 := BitVec.ofNat 32 (i 1).val
  let c56_i32 : BitVec 32 := 56#32
  let v0 : BitVec 32 := Scalar.muli arg1 c56_i32
  let v1 : BitVec 32 := v0
  let v5 : Index := Scalar.indexCast v1
  let c1 : Index := 1#32
  let c0_3 : Index := 0#32
  ![0, v5.toNat, 1, 0]
def k4_off3 (i : grid4.Coords) : Fin 4 → Nat :=
  let c0_4 : Index := 0#32
  let arg1 : BitVec 32 := BitVec.ofNat 32 (i 1).val
  let c56_i32 : BitVec 32 := 56#32
  let v0 : BitVec 32 := Scalar.muli arg1 c56_i32
  let v1 : BitVec 32 := v0
  let v8 : Index := Scalar.indexCast v1
  let c2 : Index := 2#32
  let c0_5 : Index := 0#32
  ![0, v8.toNat, 2, 0]
def cc4_transform_0 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage4_0 : Fin 2 → Memref sig .tc .vmem S1x114x114x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 1 → Memref sig .tc .vmem S1152x128 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 2 → Memref sig .tc .vmem S1x28x112x128 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev grid5 : Pipeline.Grid := ⟨1, ![8], ![false]⟩

def cc5_transform_0 (i : grid5.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc5_transform_1 (i : grid5.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage5_0 : Fin 2 → Memref sig .tc .vmem S1x56x56x256 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1x56x56x128 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev grid6 : Pipeline.Grid := ⟨2, ![8, 1], ![false, false]⟩

def k6_mult1 (i : grid6.Coords) : BitVec 32 :=
  let arg1 : BitVec 32 := BitVec.ofNat 32 (i 1).val
  let c56_i32 : BitVec 32 := 56#32
  let v0 : BitVec 32 := Scalar.muli arg1 c56_i32
  v0
def k6_off1 (i : grid6.Coords) : Fin 4 → Nat :=
  let c0 : Index := 0#32
  let arg1 : BitVec 32 := BitVec.ofNat 32 (i 1).val
  let c56_i32 : BitVec 32 := 56#32
  let v0 : BitVec 32 := Scalar.muli arg1 c56_i32
  let v1 : BitVec 32 := v0
  let v2 : Index := Scalar.indexCast v1
  let c0_0 : Index := 0#32
  let c0_1 : Index := 0#32
  ![0, v2.toNat, 0, 0]
def k6_off2 (i : grid6.Coords) : Fin 4 → Nat :=
  let c0_2 : Index := 0#32
  let arg1 : BitVec 32 := BitVec.ofNat 32 (i 1).val
  let c56_i32 : BitVec 32 := 56#32
  let v0 : BitVec 32 := Scalar.muli arg1 c56_i32
  let v1 : BitVec 32 := v0
  let v5 : Index := Scalar.indexCast v1
  let c1 : Index := 1#32
  let c0_3 : Index := 0#32
  ![0, v5.toNat, 1, 0]
def k6_off3 (i : grid6.Coords) : Fin 4 → Nat :=
  let c0_4 : Index := 0#32
  let arg1 : BitVec 32 := BitVec.ofNat 32 (i 1).val
  let c56_i32 : BitVec 32 := 56#32
  let v0 : BitVec 32 := Scalar.muli arg1 c56_i32
  let v1 : BitVec 32 := v0
  let v8 : Index := Scalar.indexCast v1
  let c2 : Index := 2#32
  let c0_5 : Index := 0#32
  ![0, v8.toNat, 2, 0]
def cc6_transform_0 (i : grid6.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage6_0 : Fin 2 → Memref sig .tc .vmem S1x58x58x128 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 1 → Memref sig .tc .vmem S1152x256 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, false]

abbrev stage6_2 : Fin 1 → Memref sig .tc .vmem S1x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false, false]

abbrev stage6_3 : Fin 2 → Memref sig .tc .vmem S1x58x58x256 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, false]

abbrev grid7 : Pipeline.Grid := ⟨2, ![8, 1], ![false, false]⟩

def k7_mult1 (i : grid7.Coords) : BitVec 32 :=
  let arg1 : BitVec 32 := BitVec.ofNat 32 (i 1).val
  let c56_i32 : BitVec 32 := 56#32
  let v0 : BitVec 32 := Scalar.muli arg1 c56_i32
  v0
def k7_off1 (i : grid7.Coords) : Fin 4 → Nat :=
  let c0 : Index := 0#32
  let arg1 : BitVec 32 := BitVec.ofNat 32 (i 1).val
  let c56_i32 : BitVec 32 := 56#32
  let v0 : BitVec 32 := Scalar.muli arg1 c56_i32
  let v1 : BitVec 32 := v0
  let v2 : Index := Scalar.indexCast v1
  let c0_0 : Index := 0#32
  let c0_1 : Index := 0#32
  ![0, v2.toNat, 0, 0]
def k7_off2 (i : grid7.Coords) : Fin 4 → Nat :=
  let c0_2 : Index := 0#32
  let arg1 : BitVec 32 := BitVec.ofNat 32 (i 1).val
  let c56_i32 : BitVec 32 := 56#32
  let v0 : BitVec 32 := Scalar.muli arg1 c56_i32
  let v1 : BitVec 32 := v0
  let v5 : Index := Scalar.indexCast v1
  let c1 : Index := 1#32
  let c0_3 : Index := 0#32
  ![0, v5.toNat, 1, 0]
def k7_off3 (i : grid7.Coords) : Fin 4 → Nat :=
  let c0_4 : Index := 0#32
  let arg1 : BitVec 32 := BitVec.ofNat 32 (i 1).val
  let c56_i32 : BitVec 32 := 56#32
  let v0 : BitVec 32 := Scalar.muli arg1 c56_i32
  let v1 : BitVec 32 := v0
  let v8 : Index := Scalar.indexCast v1
  let c2 : Index := 2#32
  let c0_5 : Index := 0#32
  ![0, v8.toNat, 2, 0]
def cc7_transform_0 (i : grid7.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage7_0 : Fin 2 → Memref sig .tc .vmem S1x58x58x256 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 1 → Memref sig .tc .vmem S2304x256 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, false]

abbrev stage7_2 : Fin 1 → Memref sig .tc .vmem S1x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false, false]

abbrev stage7_3 : Fin 2 → Memref sig .tc .vmem S1x58x58x256 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, false]

abbrev grid8 : Pipeline.Grid := ⟨2, ![8, 1], ![false, false]⟩

def k8_mult1 (i : grid8.Coords) : BitVec 32 :=
  let arg1 : BitVec 32 := BitVec.ofNat 32 (i 1).val
  let c56_i32 : BitVec 32 := 56#32
  let v0 : BitVec 32 := Scalar.muli arg1 c56_i32
  v0
def k8_off1 (i : grid8.Coords) : Fin 4 → Nat :=
  let c0 : Index := 0#32
  let arg1 : BitVec 32 := BitVec.ofNat 32 (i 1).val
  let c56_i32 : BitVec 32 := 56#32
  let v0 : BitVec 32 := Scalar.muli arg1 c56_i32
  let v1 : BitVec 32 := v0
  let v2 : Index := Scalar.indexCast v1
  let c0_0 : Index := 0#32
  let c0_1 : Index := 0#32
  ![0, v2.toNat, 0, 0]
def k8_off2 (i : grid8.Coords) : Fin 4 → Nat :=
  let c0_2 : Index := 0#32
  let arg1 : BitVec 32 := BitVec.ofNat 32 (i 1).val
  let c56_i32 : BitVec 32 := 56#32
  let v0 : BitVec 32 := Scalar.muli arg1 c56_i32
  let v1 : BitVec 32 := v0
  let v5 : Index := Scalar.indexCast v1
  let c1 : Index := 1#32
  let c0_3 : Index := 0#32
  ![0, v5.toNat, 1, 0]
def k8_off3 (i : grid8.Coords) : Fin 4 → Nat :=
  let c0_4 : Index := 0#32
  let arg1 : BitVec 32 := BitVec.ofNat 32 (i 1).val
  let c56_i32 : BitVec 32 := 56#32
  let v0 : BitVec 32 := Scalar.muli arg1 c56_i32
  let v1 : BitVec 32 := v0
  let v8 : Index := Scalar.indexCast v1
  let c2 : Index := 2#32
  let c0_5 : Index := 0#32
  ![0, v8.toNat, 2, 0]
def cc8_transform_0 (i : grid8.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage8_0 : Fin 2 → Memref sig .tc .vmem S1x58x58x256 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false]

abbrev stage8_1 : Fin 1 → Memref sig .tc .vmem S2304x256 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false, false]

abbrev stage8_2 : Fin 1 → Memref sig .tc .vmem S1x256 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false, false]

abbrev stage8_3 : Fin 2 → Memref sig .tc .vmem S1x28x56x256 .bf16 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true, true]

abbrev grid9 : Pipeline.Grid := ⟨1, ![8], ![false]⟩

def cc9_transform_0 (i : grid9.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc9_transform_1 (i : grid9.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage9_0 : Fin 2 → Memref sig .tc .vmem S1x28x28x512 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S1x28x28x256 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev grid10 : Pipeline.Grid := ⟨2, ![8, 1], ![false, false]⟩

def k10_mult1 (i : grid10.Coords) : BitVec 32 :=
  let arg1 : BitVec 32 := BitVec.ofNat 32 (i 1).val
  let c28_i32 : BitVec 32 := 28#32
  let v0 : BitVec 32 := Scalar.muli arg1 c28_i32
  v0
def k10_off1 (i : grid10.Coords) : Fin 4 → Nat :=
  let c0 : Index := 0#32
  let arg1 : BitVec 32 := BitVec.ofNat 32 (i 1).val
  let c28_i32 : BitVec 32 := 28#32
  let v0 : BitVec 32 := Scalar.muli arg1 c28_i32
  let v1 : BitVec 32 := v0
  let v2 : Index := Scalar.indexCast v1
  let c0_0 : Index := 0#32
  let c0_1 : Index := 0#32
  ![0, v2.toNat, 0, 0]
def k10_off2 (i : grid10.Coords) : Fin 4 → Nat :=
  let c0_2 : Index := 0#32
  let arg1 : BitVec 32 := BitVec.ofNat 32 (i 1).val
  let c28_i32 : BitVec 32 := 28#32
  let v0 : BitVec 32 := Scalar.muli arg1 c28_i32
  let v1 : BitVec 32 := v0
  let v5 : Index := Scalar.indexCast v1
  let c1 : Index := 1#32
  let c0_3 : Index := 0#32
  ![0, v5.toNat, 1, 0]
def k10_off3 (i : grid10.Coords) : Fin 4 → Nat :=
  let c0_4 : Index := 0#32
  let arg1 : BitVec 32 := BitVec.ofNat 32 (i 1).val
  let c28_i32 : BitVec 32 := 28#32
  let v0 : BitVec 32 := Scalar.muli arg1 c28_i32
  let v1 : BitVec 32 := v0
  let v8 : Index := Scalar.indexCast v1
  let c2 : Index := 2#32
  let c0_5 : Index := 0#32
  ![0, v8.toNat, 2, 0]
def cc10_transform_0 (i : grid10.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc10_transform_1 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage10_0 : Fin 2 → Memref sig .tc .vmem S1x30x34x256 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, false]

abbrev stage10_1 : Fin 1 → Memref sig .tc .vmem S2304x512 .bf16 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false, false]

abbrev stage10_2 : Fin 1 → Memref sig .tc .vmem S1x512 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false, false]

abbrev stage10_3 : Fin 2 → Memref sig .tc .vmem S1x30x34x512 .bf16 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true, false]

abbrev grid11 : Pipeline.Grid := ⟨2, ![8, 1], ![false, false]⟩

def k11_mult1 (i : grid11.Coords) : BitVec 32 :=
  let arg1 : BitVec 32 := BitVec.ofNat 32 (i 1).val
  let c28_i32 : BitVec 32 := 28#32
  let v0 : BitVec 32 := Scalar.muli arg1 c28_i32
  v0
def k11_off1 (i : grid11.Coords) : Fin 4 → Nat :=
  let c0 : Index := 0#32
  let arg1 : BitVec 32 := BitVec.ofNat 32 (i 1).val
  let c28_i32 : BitVec 32 := 28#32
  let v0 : BitVec 32 := Scalar.muli arg1 c28_i32
  let v1 : BitVec 32 := v0
  let v2 : Index := Scalar.indexCast v1
  let c0_0 : Index := 0#32
  let c0_1 : Index := 0#32
  ![0, v2.toNat, 0, 0]
def k11_off2 (i : grid11.Coords) : Fin 4 → Nat :=
  let c0_2 : Index := 0#32
  let arg1 : BitVec 32 := BitVec.ofNat 32 (i 1).val
  let c28_i32 : BitVec 32 := 28#32
  let v0 : BitVec 32 := Scalar.muli arg1 c28_i32
  let v1 : BitVec 32 := v0
  let v5 : Index := Scalar.indexCast v1
  let c1 : Index := 1#32
  let c0_3 : Index := 0#32
  ![0, v5.toNat, 1, 0]
def k11_off3 (i : grid11.Coords) : Fin 4 → Nat :=
  let c0_4 : Index := 0#32
  let arg1 : BitVec 32 := BitVec.ofNat 32 (i 1).val
  let c28_i32 : BitVec 32 := 28#32
  let v0 : BitVec 32 := Scalar.muli arg1 c28_i32
  let v1 : BitVec 32 := v0
  let v8 : Index := Scalar.indexCast v1
  let c2 : Index := 2#32
  let c0_5 : Index := 0#32
  ![0, v8.toNat, 2, 0]
def cc11_transform_0 (i : grid11.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc11_transform_1 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage11_0 : Fin 2 → Memref sig .tc .vmem S1x30x34x512 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true, false]

abbrev stage11_1 : Fin 1 → Memref sig .tc .vmem S4608x512 .bf16 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false, false]

abbrev stage11_2 : Fin 1 → Memref sig .tc .vmem S1x512 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false, false]

abbrev stage11_3 : Fin 2 → Memref sig .tc .vmem S1x30x34x512 .bf16 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true, false]

abbrev grid12 : Pipeline.Grid := ⟨2, ![8, 1], ![false, false]⟩

def k12_mult1 (i : grid12.Coords) : BitVec 32 :=
  let arg1 : BitVec 32 := BitVec.ofNat 32 (i 1).val
  let c28_i32 : BitVec 32 := 28#32
  let v0 : BitVec 32 := Scalar.muli arg1 c28_i32
  v0
def k12_off1 (i : grid12.Coords) : Fin 4 → Nat :=
  let c0 : Index := 0#32
  let arg1 : BitVec 32 := BitVec.ofNat 32 (i 1).val
  let c28_i32 : BitVec 32 := 28#32
  let v0 : BitVec 32 := Scalar.muli arg1 c28_i32
  let v1 : BitVec 32 := v0
  let v2 : Index := Scalar.indexCast v1
  let c0_0 : Index := 0#32
  let c0_1 : Index := 0#32
  ![0, v2.toNat, 0, 0]
def k12_off2 (i : grid12.Coords) : Fin 4 → Nat :=
  let c0_2 : Index := 0#32
  let arg1 : BitVec 32 := BitVec.ofNat 32 (i 1).val
  let c28_i32 : BitVec 32 := 28#32
  let v0 : BitVec 32 := Scalar.muli arg1 c28_i32
  let v1 : BitVec 32 := v0
  let v5 : Index := Scalar.indexCast v1
  let c1 : Index := 1#32
  let c0_3 : Index := 0#32
  ![0, v5.toNat, 1, 0]
def k12_off3 (i : grid12.Coords) : Fin 4 → Nat :=
  let c0_4 : Index := 0#32
  let arg1 : BitVec 32 := BitVec.ofNat 32 (i 1).val
  let c28_i32 : BitVec 32 := 28#32
  let v0 : BitVec 32 := Scalar.muli arg1 c28_i32
  let v1 : BitVec 32 := v0
  let v8 : Index := Scalar.indexCast v1
  let c2 : Index := 2#32
  let c0_5 : Index := 0#32
  ![0, v8.toNat, 2, 0]
def cc12_transform_0 (i : grid12.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc12_transform_1 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage12_0 : Fin 2 → Memref sig .tc .vmem S1x30x34x512 .bf16 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true, false]

abbrev stage12_1 : Fin 1 → Memref sig .tc .vmem S4608x512 .bf16 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false, false]

abbrev stage12_2 : Fin 1 → Memref sig .tc .vmem S1x512 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false, false]

abbrev stage12_3 : Fin 2 → Memref sig .tc .vmem S1x14x32x512 .bf16 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true, true]

abbrev grid13 : Pipeline.Grid := ⟨1, ![8], ![false]⟩

def cc13_transform_0 (i : grid13.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc13_transform_1 (i : grid13.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage13_0 : Fin 2 → Memref sig .tc .vmem S1x14x16x1024 .bf16 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S1x14x16x512 .bf16 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev grid14 : Pipeline.Grid := ⟨2, ![8, 1], ![false, false]⟩

def k14_mult1 (i : grid14.Coords) : BitVec 32 :=
  let arg1 : BitVec 32 := BitVec.ofNat 32 (i 1).val
  let c14_i32 : BitVec 32 := 14#32
  let v0 : BitVec 32 := Scalar.muli arg1 c14_i32
  v0
def k14_off1 (i : grid14.Coords) : Fin 4 → Nat :=
  let c0 : Index := 0#32
  let arg1 : BitVec 32 := BitVec.ofNat 32 (i 1).val
  let c14_i32 : BitVec 32 := 14#32
  let v0 : BitVec 32 := Scalar.muli arg1 c14_i32
  let v1 : BitVec 32 := v0
  let v2 : Index := Scalar.indexCast v1
  let c0_0 : Index := 0#32
  let c0_1 : Index := 0#32
  ![0, v2.toNat, 0, 0]
def k14_off2 (i : grid14.Coords) : Fin 4 → Nat :=
  let c0_2 : Index := 0#32
  let arg1 : BitVec 32 := BitVec.ofNat 32 (i 1).val
  let c14_i32 : BitVec 32 := 14#32
  let v0 : BitVec 32 := Scalar.muli arg1 c14_i32
  let v1 : BitVec 32 := v0
  let v5 : Index := Scalar.indexCast v1
  let c1 : Index := 1#32
  let c0_3 : Index := 0#32
  ![0, v5.toNat, 1, 0]
def k14_off3 (i : grid14.Coords) : Fin 4 → Nat :=
  let c0_4 : Index := 0#32
  let arg1 : BitVec 32 := BitVec.ofNat 32 (i 1).val
  let c14_i32 : BitVec 32 := 14#32
  let v0 : BitVec 32 := Scalar.muli arg1 c14_i32
  let v1 : BitVec 32 := v0
  let v8 : Index := Scalar.indexCast v1
  let c2 : Index := 2#32
  let c0_5 : Index := 0#32
  ![0, v8.toNat, 2, 0]
def cc14_transform_0 (i : grid14.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc14_transform_1 (i : grid14.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage14_0 : Fin 2 → Memref sig .tc .vmem S1x16x18x512 .bf16 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true, false]

abbrev stage14_1 : Fin 1 → Memref sig .tc .vmem S4608x512 .bf16 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false, false]

abbrev stage14_2 : Fin 1 → Memref sig .tc .vmem S1x512 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false, false]

abbrev stage14_3 : Fin 2 → Memref sig .tc .vmem S1x16x18x512 .bf16 := fun | 0 => Memref.whole cc14_stg3_0 | 1 => Memref.whole cc14_stg3_1 | ⟨_ + 2, h⟩ => absurd h (Nat.not_lt.2 (Nat.le_add_left _ _))
abbrev sem14_3 : Fin 2 → DmaSem sig := fun | 0 => cc14_sem3_0 | 1 => cc14_sem3_1 | ⟨_ + 2, h⟩ => absurd h (Nat.not_lt.2 (Nat.le_add_left _ _))
abbrev reads14_3 : Fin grid14.rank → Bool := ![true, false]

abbrev grid15 : Pipeline.Grid := ⟨2, ![8, 1], ![false, false]⟩

def k15_mult1 (i : grid15.Coords) : BitVec 32 :=
  let arg1 : BitVec 32 := BitVec.ofNat 32 (i 1).val
  let c14_i32 : BitVec 32 := 14#32
  let v0 : BitVec 32 := Scalar.muli arg1 c14_i32
  v0
def k15_off1 (i : grid15.Coords) : Fin 4 → Nat :=
  let c0 : Index := 0#32
  let arg1 : BitVec 32 := BitVec.ofNat 32 (i 1).val
  let c14_i32 : BitVec 32 := 14#32
  let v0 : BitVec 32 := Scalar.muli arg1 c14_i32
  let v1 : BitVec 32 := v0
  let v2 : Index := Scalar.indexCast v1
  let c0_0 : Index := 0#32
  let c0_1 : Index := 0#32
  ![0, v2.toNat, 0, 0]
def k15_off2 (i : grid15.Coords) : Fin 4 → Nat :=
  let c0_2 : Index := 0#32
  let arg1 : BitVec 32 := BitVec.ofNat 32 (i 1).val
  let c14_i32 : BitVec 32 := 14#32
  let v0 : BitVec 32 := Scalar.muli arg1 c14_i32
  let v1 : BitVec 32 := v0
  let v5 : Index := Scalar.indexCast v1
  let c1 : Index := 1#32
  let c0_3 : Index := 0#32
  ![0, v5.toNat, 1, 0]
def k15_off3 (i : grid15.Coords) : Fin 4 → Nat :=
  let c0_4 : Index := 0#32
  let arg1 : BitVec 32 := BitVec.ofNat 32 (i 1).val
  let c14_i32 : BitVec 32 := 14#32
  let v0 : BitVec 32 := Scalar.muli arg1 c14_i32
  let v1 : BitVec 32 := v0
  let v8 : Index := Scalar.indexCast v1
  let c2 : Index := 2#32
  let c0_5 : Index := 0#32
  ![0, v8.toNat, 2, 0]
def cc15_transform_0 (i : grid15.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc15_transform_1 (i : grid15.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage15_0 : Fin 2 → Memref sig .tc .vmem S1x16x18x512 .bf16 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true, false]

abbrev stage15_1 : Fin 1 → Memref sig .tc .vmem S4608x512 .bf16 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false, false]

abbrev stage15_2 : Fin 1 → Memref sig .tc .vmem S1x512 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false, false]

abbrev stage15_3 : Fin 2 → Memref sig .tc .vmem S1x16x18x512 .bf16 := fun | 0 => Memref.whole cc15_stg3_0 | 1 => Memref.whole cc15_stg3_1 | ⟨_ + 2, h⟩ => absurd h (Nat.not_lt.2 (Nat.le_add_left _ _))
abbrev sem15_3 : Fin 2 → DmaSem sig := fun | 0 => cc15_sem3_0 | 1 => cc15_sem3_1 | ⟨_ + 2, h⟩ => absurd h (Nat.not_lt.2 (Nat.le_add_left _ _))
abbrev reads15_3 : Fin grid15.rank → Bool := ![true, false]

abbrev grid16 : Pipeline.Grid := ⟨2, ![8, 1], ![false, false]⟩

def k16_mult1 (i : grid16.Coords) : BitVec 32 :=
  let arg1 : BitVec 32 := BitVec.ofNat 32 (i 1).val
  let c14_i32 : BitVec 32 := 14#32
  let v0 : BitVec 32 := Scalar.muli arg1 c14_i32
  v0
def k16_off1 (i : grid16.Coords) : Fin 4 → Nat :=
  let c0 : Index := 0#32
  let arg1 : BitVec 32 := BitVec.ofNat 32 (i 1).val
  let c14_i32 : BitVec 32 := 14#32
  let v0 : BitVec 32 := Scalar.muli arg1 c14_i32
  let v1 : BitVec 32 := v0
  let v2 : Index := Scalar.indexCast v1
  let c0_0 : Index := 0#32
  let c0_1 : Index := 0#32
  ![0, v2.toNat, 0, 0]
def k16_off2 (i : grid16.Coords) : Fin 4 → Nat :=
  let c0_2 : Index := 0#32
  let arg1 : BitVec 32 := BitVec.ofNat 32 (i 1).val
  let c14_i32 : BitVec 32 := 14#32
  let v0 : BitVec 32 := Scalar.muli arg1 c14_i32
  let v1 : BitVec 32 := v0
  let v5 : Index := Scalar.indexCast v1
  let c1 : Index := 1#32
  let c0_3 : Index := 0#32
  ![0, v5.toNat, 1, 0]
def k16_off3 (i : grid16.Coords) : Fin 4 → Nat :=
  let c0_4 : Index := 0#32
  let arg1 : BitVec 32 := BitVec.ofNat 32 (i 1).val
  let c14_i32 : BitVec 32 := 14#32
  let v0 : BitVec 32 := Scalar.muli arg1 c14_i32
  let v1 : BitVec 32 := v0
  let v8 : Index := Scalar.indexCast v1
  let c2 : Index := 2#32
  let c0_5 : Index := 0#32
  ![0, v8.toNat, 2, 0]
def cc16_transform_0 (i : grid16.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc16_transform_1 (i : grid16.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc16_transform_2 (i : grid16.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc16_transform_3 (i : grid16.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage16_0 : Fin 2 → Memref sig .tc .vmem S1x16x18x512 .bf16 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true, false]

abbrev stage16_1 : Fin 1 → Memref sig .tc .vmem S4608x512 .bf16 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![false, false]

abbrev stage16_2 : Fin 1 → Memref sig .tc .vmem S1x512 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false, false]

abbrev stage16_3 : Fin 2 → Memref sig .tc .vmem S1x7x16x512 .bf16 := fun | 0 => Memref.whole cc16_stg3_0 | 1 => Memref.whole cc16_stg3_1 | ⟨_ + 2, h⟩ => absurd h (Nat.not_lt.2 (Nat.le_add_left _ _))
abbrev sem16_3 : Fin 2 → DmaSem sig := fun | 0 => cc16_sem3_0 | 1 => cc16_sem3_1 | ⟨_ + 2, h⟩ => absurd h (Nat.not_lt.2 (Nat.le_add_left _ _))
abbrev reads16_3 : Fin grid16.rank → Bool := ![true, true]

abbrev grid17 : Pipeline.Grid := ⟨1, ![8], ![false]⟩

def cc17_transform_0 (i : grid17.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc17_transform_1 (i : grid17.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage17_0 : Fin 2 → Memref sig .tc .vmem S1x7x8x1024 .bf16 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 2 → Memref sig .tc .vmem S1x7x8x512 .bf16 := fun | 0 => Memref.whole cc17_stg1_0 | 1 => Memref.whole cc17_stg1_1 | ⟨_ + 2, h⟩ => absurd h (Nat.not_lt.2 (Nat.le_add_left _ _))
abbrev sem17_1 : Fin 2 → DmaSem sig := fun | 0 => cc17_sem1_0 | 1 => cc17_sem1_1 | ⟨_ + 2, h⟩ => absurd h (Nat.not_lt.2 (Nat.le_add_left _ _))
abbrev reads17_1 : Fin grid17.rank → Bool := ![true]

class Facts₀ : Prop where
  transposes_S8x3x224x224_S8x224x224x3_0_2_3_1 : S8x3x224x224.Transposes [0, 2, 3, 1] S8x224x224x3
  pads_S8x224x224x3_S8x228x234x3_000_220_280_000 : S8x224x224x3.Pads (![0, 2, 2, 0] : Fin 4 → Nat) ![0, 2, 8, 0] ![0, 0, 0, 0] S8x228x234x3
  h_S_ : 0 < S_.numel
  slices_S8x228x234x3_S8x226x232x3_0_0_0_0 : S8x228x234x3.Slices ![0, 0, 0, 0] S8x226x232x3
  slices_S8x228x234x3_S8x226x232x3_0_0_1_0 : S8x228x234x3.Slices ![0, 0, 1, 0] S8x226x232x3
  slices_S8x228x234x3_S8x226x232x3_0_0_2_0 : S8x228x234x3.Slices ![0, 0, 2, 0] S8x226x232x3
  slices_S8x228x234x3_S8x226x232x3_0_1_0_0 : S8x228x234x3.Slices ![0, 1, 0, 0] S8x226x232x3
  slices_S8x228x234x3_S8x226x232x3_0_1_1_0 : S8x228x234x3.Slices ![0, 1, 1, 0] S8x226x232x3
  slices_S8x228x234x3_S8x226x232x3_0_1_2_0 : S8x228x234x3.Slices ![0, 1, 2, 0] S8x226x232x3
  slices_S8x228x234x3_S8x226x232x3_0_2_0_0 : S8x228x234x3.Slices ![0, 2, 0, 0] S8x226x232x3
  slices_S8x228x234x3_S8x226x232x3_0_2_1_0 : S8x228x234x3.Slices ![0, 2, 1, 0] S8x226x232x3
  slices_S8x228x234x3_S8x226x232x3_0_2_2_0 : S8x228x234x3.Slices ![0, 2, 2, 0] S8x226x232x3
  concatenates_S8x226x232x3_S8x226x232x3_S8x226x232x3_S8x226x232x3_S8x226x232x3_S8x226x232x3_S8x226x232x3_S8x226x232x3_S8x226x232x3_S8x226x232x27_d3 : Shape.Concatenates [S8x226x232x3, S8x226x232x3, S8x226x232x3, S8x226x232x3, S8x226x232x3, S8x226x232x3, S8x226x232x3, S8x226x232x3, S8x226x232x3] S8x226x232x27 3
  bitsLt_bf16_f32 : FTy.bits .bf16 < FTy.bits .f32
  shapeCasts_S9x3x64_S27x64 : S9x3x64.ShapeCasts S27x64
  inb_S1x113x232x27_S1x113x232x27_0_0_0_0 : ∀ a, (![0, 0, 0, 0] : Fin 4 → Nat) a + S1x113x232x27.size a ≤ S1x113x232x27.size a
  h_S1x113x232x27 : 0 < S1x113x232x27.numel
  shapeCasts_S1x113x232x27_S113x232x27 : S1x113x232x27.ShapeCasts S113x232x27
  shapeCasts_S113x232x27_S26216x27 : S113x232x27.ShapeCasts S26216x27
  inb_S27x64_S27x64_0_0 : ∀ a, (![0, 0] : Fin 2 → Nat) a + S27x64.size a ≤ S27x64.size a
  h_S27x64 : 0 < S27x64.numel
  shapeCasts_S27x64_S27x64 : S27x64.ShapeCasts S27x64
  inb_S1x64_S1x64_0_0 : ∀ a, (![0, 0] : Fin 2 → Nat) a + S1x64.size a ≤ S1x64.size a
  h_S1x64 : 0 < S1x64.numel
  broadcasts_S1x64_S26216x64 : S1x64.Broadcasts S26216x64
  shapeCasts_S26216x64_S113x232x64 : S26216x64.ShapeCasts S113x232x64
  inb_S1x113x232x64_S1x113x232x64_0_0_0_0 : ∀ a, (![0, 0, 0, 0] : Fin 4 → Nat) a + S1x113x232x64.size a ≤ S1x113x232x64.size a
  h_S1x113x232x64 : 0 < S1x113x232x64.numel
  shapeCasts_S1x113x232x64_S113x232x64 : S1x113x232x64.ShapeCasts S113x232x64
  shapeCasts_S113x232x64_S1x113x232x64 : S113x232x64.ShapeCasts S1x113x232x64
  packedbf16_S1x113x232x64_S1x113x232x64_0_0_0_0 : (Rect.unit (s := S1x113x232x64) ![0, 0, 0, 0] S1x113x232x64.size inb_S1x113x232x64_S1x113x232x64_0_0_0_0).PackedRows (EltTy.packing .bf16)
  inb_S1x113x232x64_S1x113x1x64_0_0_0_0 : ∀ a, (![0, 0, 0, 0] : Fin 4 → Nat) a + S1x113x1x64.size a ≤ S1x113x232x64.size a
  h_S1x113x1x64 : 0 < S1x113x1x64.numel
  shapeCasts_S1x113x1x64_S113x64 : S1x113x1x64.ShapeCasts S113x64
  shapeCasts_S113x64_S1x113x1x64 : S113x64.ShapeCasts S1x113x1x64
  inb_S1x113x232x64_S1x113x2x64_0_0_0_0 : ∀ a, (![0, 0, 0, 0] : Fin 4 → Nat) a + S1x113x2x64.size a ≤ S1x113x232x64.size a
  h_S1x113x2x64 : 0 < S1x113x2x64.numel
  slices_S1x113x2x64_S1x113x1x64_0_0_0_0 : S1x113x2x64.Slices ![0, 0, 0, 0] S1x113x1x64
  packedbf16_S1x113x232x64_S1x113x2x64_0_0_0_0 : (Rect.unit (s := S1x113x232x64) ![0, 0, 0, 0] S1x113x2x64.size inb_S1x113x232x64_S1x113x2x64_0_0_0_0).PackedRows (EltTy.packing .bf16)
  inb_S1x113x232x64_S1x113x1x64_0_0_225_0 : ∀ a, (![0, 0, 225, 0] : Fin 4 → Nat) a + S1x113x1x64.size a ≤ S1x113x232x64.size a
  inb_S1x113x232x64_S1x113x2x64_0_0_224_0 : ∀ a, (![0, 0, 224, 0] : Fin 4 → Nat) a + S1x113x2x64.size a ≤ S1x113x232x64.size a
  slices_S1x113x2x64_S1x113x1x64_0_0_1_0 : S1x113x2x64.Slices ![0, 0, 1, 0] S1x113x1x64
  packedbf16_S1x113x232x64_S1x113x2x64_0_0_224_0 : (Rect.unit (s := S1x113x232x64) ![0, 0, 224, 0] S1x113x2x64.size inb_S1x113x232x64_S1x113x2x64_0_0_224_0).PackedRows (EltTy.packing .bf16)
  inb_S1x113x232x64_S1x1x232x64_0_0_0_0 : ∀ a, (![0, 0, 0, 0] : Fin 4 → Nat) a + S1x1x232x64.size a ≤ S1x113x232x64.size a
  h_S1x1x232x64 : 0 < S1x1x232x64.numel
  shapeCasts_S1x1x232x64_S232x64 : S1x1x232x64.ShapeCasts S232x64
  shapeCasts_S232x64_S1x1x232x64 : S232x64.ShapeCasts S1x1x232x64
  packedbf16_S1x113x232x64_S1x1x232x64_0_0_0_0 : (Rect.unit (s := S1x113x232x64) ![0, 0, 0, 0] S1x1x232x64.size inb_S1x113x232x64_S1x1x232x64_0_0_0_0).PackedRows (EltTy.packing .bf16)
  inb_S1x113x232x64_S1x1x232x64_0_112_0_0 : ∀ a, (![0, 112, 0, 0] : Fin 4 → Nat) a + S1x1x232x64.size a ≤ S1x113x232x64.size a
  packedbf16_S1x113x232x64_S1x1x232x64_0_112_0_0 : (Rect.unit (s := S1x113x232x64) ![0, 112, 0, 0] S1x1x232x64.size inb_S1x113x232x64_S1x1x232x64_0_112_0_0).PackedRows (EltTy.packing .bf16)
  shapeCasts_S9x64x64_S576x64 : S9x64x64.ShapeCasts S576x64
  h_S1x34x224x64 : 0 < S1x34x224x64.numel
  shapeCasts_S1x34x224x64_S34x224x64 : S1x34x224x64.ShapeCasts S34x224x64
  slices_S34x224x64_o0_0_0_S32x224x64 : S34x224x64.Slices ![0, 0, 0] S32x224x64
  slices_S34x224x64_o1_0_0_S32x224x64 : S34x224x64.Slices ![1, 0, 0] S32x224x64
  slices_S34x224x64_o2_0_0_S32x224x64 : S34x224x64.Slices ![2, 0, 0] S32x224x64
  concatenates_S32x224x64_S32x224x64_S32x224x64_S32x224x64_S32x224x64_S32x224x64_S32x224x64_S32x224x64_S32x224x64_S32x224x576_d2 : Shape.Concatenates [S32x224x64, S32x224x64, S32x224x64, S32x224x64, S32x224x64, S32x224x64, S32x224x64, S32x224x64, S32x224x64] S32x224x576 2
  shapeCasts_S32x224x576_S7168x576 : S32x224x576.ShapeCasts S7168x576
  inb_S576x64_S576x64_0_0 : ∀ a, (![0, 0] : Fin 2 → Nat) a + S576x64.size a ≤ S576x64.size a
  h_S576x64 : 0 < S576x64.numel
  shapeCasts_S576x64_S576x64 : S576x64.ShapeCasts S576x64
  broadcasts_S1x64_S7168x64 : S1x64.Broadcasts S7168x64
  shapeCasts_S7168x64_S16x2x224x64 : S7168x64.ShapeCasts S16x2x224x64
  reduces_S16x2x224x64_S16x224x64 : S16x2x224x64.Reduces [1] S16x224x64
  inb_S1x16x224x64_S1x16x224x64_0_0_0_0 : ∀ a, (![0, 0, 0, 0] : Fin 4 → Nat) a + S1x16x224x64.size a ≤ S1x16x224x64.size a
  h_S1x16x224x64 : 0 < S1x16x224x64.numel
  shapeCasts_S1x16x224x64_S16x224x64 : S1x16x224x64.ShapeCasts S16x224x64
  shapeCasts_S16x224x64_S1x16x224x64 : S16x224x64.ShapeCasts S1x16x224x64
  packedbf16_S1x16x224x64_S1x16x224x64_0_0_0_0 : (Rect.unit (s := S1x16x224x64) ![0, 0, 0, 0] S1x16x224x64.size inb_S1x16x224x64_S1x16x224x64_0_0_0_0).PackedRows (EltTy.packing .bf16)
  shapeCasts_S8x112x224x64_S8x112x112x128 : S8x112x224x64.ShapeCasts S8x112x112x128
  inb_S1x112x112x128_S1x112x112x128_0_0_0_0 : ∀ a, (![0, 0, 0, 0] : Fin 4 → Nat) a + S1x112x112x128.size a ≤ S1x112x112x128.size a
  h_S1x112x112x128 : 0 < S1x112x112x128.numel
  shapeCasts_S1x112x112x128_S112x112x128 : S1x112x112x128.ShapeCasts S112x112x128
  slices_S112x112x128_o0_0_0_S112x112x64 : S112x112x128.Slices ![0, 0, 0] S112x112x64
  slices_S112x112x128_o0_0_64_S112x112x64 : S112x112x128.Slices ![0, 0, 64] S112x112x64
  inb_S1x112x112x64_S1x112x112x64_0_0_0_0 : ∀ a, (![0, 0, 0, 0] : Fin 4 → Nat) a + S1x112x112x64.size a ≤ S1x112x112x64.size a
  h_S1x112x112x64 : 0 < S1x112x112x64.numel
  shapeCasts_S1x112x112x64_S112x112x64 : S1x112x112x64.ShapeCasts S112x112x64
  shapeCasts_S112x112x64_S1x112x112x64 : S112x112x64.ShapeCasts S1x112x112x64
  packedbf16_S1x112x112x64_S1x112x112x64_0_0_0_0 : (Rect.unit (s := S1x112x112x64) ![0, 0, 0, 0] S1x112x112x64.size inb_S1x112x112x64_S1x112x112x64_0_0_0_0).PackedRows (EltTy.packing .bf16)
  pads_S8x112x112x64_S8x114x114x64_000_110_110_000 : S8x112x112x64.Pads (![0, 1, 1, 0] : Fin 4 → Nat) ![0, 1, 1, 0] ![0, 0, 0, 0] S8x114x114x64
  shapeCasts_S9x64x128_S576x128 : S9x64x128.ShapeCasts S576x128
  h_S1x58x112x64 : 0 < S1x58x112x64.numel
  shapeCasts_S1x58x112x64_S58x112x64 : S1x58x112x64.ShapeCasts S58x112x64
  slices_S58x112x64_o0_0_0_S56x112x64 : S58x112x64.Slices ![0, 0, 0] S56x112x64
  slices_S58x112x64_o1_0_0_S56x112x64 : S58x112x64.Slices ![1, 0, 0] S56x112x64
  slices_S58x112x64_o2_0_0_S56x112x64 : S58x112x64.Slices ![2, 0, 0] S56x112x64
  concatenates_S56x112x64_S56x112x64_S56x112x64_S56x112x64_S56x112x64_S56x112x64_S56x112x64_S56x112x64_S56x112x64_S56x112x576_d2 : Shape.Concatenates [S56x112x64, S56x112x64, S56x112x64, S56x112x64, S56x112x64, S56x112x64, S56x112x64, S56x112x64, S56x112x64] S56x112x576 2
  shapeCasts_S56x112x576_S6272x576 : S56x112x576.ShapeCasts S6272x576
  inb_S576x128_S576x128_0_0 : ∀ a, (![0, 0] : Fin 2 → Nat) a + S576x128.size a ≤ S576x128.size a
  h_S576x128 : 0 < S576x128.numel
  shapeCasts_S576x128_S576x128 : S576x128.ShapeCasts S576x128
  inb_S1x128_S1x128_0_0 : ∀ a, (![0, 0] : Fin 2 → Nat) a + S1x128.size a ≤ S1x128.size a
  h_S1x128 : 0 < S1x128.numel
  broadcasts_S1x128_S6272x128 : S1x128.Broadcasts S6272x128
  shapeCasts_S6272x128_S56x112x128 : S6272x128.ShapeCasts S56x112x128
  inb_S1x56x112x128_S1x56x112x128_0_0_0_0 : ∀ a, (![0, 0, 0, 0] : Fin 4 → Nat) a + S1x56x112x128.size a ≤ S1x56x112x128.size a
  h_S1x56x112x128 : 0 < S1x56x112x128.numel
  shapeCasts_S1x56x112x128_S56x112x128 : S1x56x112x128.ShapeCasts S56x112x128
  shapeCasts_S56x112x128_S1x56x112x128 : S56x112x128.ShapeCasts S1x56x112x128
  packedbf16_S1x56x112x128_S1x56x112x128_0_0_0_0 : (Rect.unit (s := S1x56x112x128) ![0, 0, 0, 0] S1x56x112x128.size inb_S1x56x112x128_S1x56x112x128_0_0_0_0).PackedRows (EltTy.packing .bf16)
  pads_S8x112x112x128_S8x114x114x128_000_110_110_000 : S8x112x112x128.Pads (![0, 1, 1, 0] : Fin 4 → Nat) ![0, 1, 1, 0] ![0, 0, 0, 0] S8x114x114x128
  shapeCasts_S9x128x128_S1152x128 : S9x128x128.ShapeCasts S1152x128
  h_S1x58x112x128 : 0 < S1x58x112x128.numel
  shapeCasts_S1x58x112x128_S58x112x128 : S1x58x112x128.ShapeCasts S58x112x128
  slices_S58x112x128_o0_0_0_S56x112x128 : S58x112x128.Slices ![0, 0, 0] S56x112x128
  slices_S58x112x128_o1_0_0_S56x112x128 : S58x112x128.Slices ![1, 0, 0] S56x112x128
  slices_S58x112x128_o2_0_0_S56x112x128 : S58x112x128.Slices ![2, 0, 0] S56x112x128
  concatenates_S56x112x128_S56x112x128_S56x112x128_S56x112x128_S56x112x128_S56x112x128_S56x112x128_S56x112x128_S56x112x128_S56x112x1152_d2 : Shape.Concatenates [S56x112x128, S56x112x128, S56x112x128, S56x112x128, S56x112x128, S56x112x128, S56x112x128, S56x112x128, S56x112x128] S56x112x1152 2
  shapeCasts_S56x112x1152_S6272x1152 : S56x112x1152.ShapeCasts S6272x1152
  inb_S1152x128_S1152x128_0_0 : ∀ a, (![0, 0] : Fin 2 → Nat) a + S1152x128.size a ≤ S1152x128.size a
  h_S1152x128 : 0 < S1152x128.numel
  shapeCasts_S1152x128_S1152x128 : S1152x128.ShapeCasts S1152x128
  shapeCasts_S6272x128_S28x2x112x128 : S6272x128.ShapeCasts S28x2x112x128
  reduces_S28x2x112x128_S28x112x128 : S28x2x112x128.Reduces [1] S28x112x128
  inb_S1x28x112x128_S1x28x112x128_0_0_0_0 : ∀ a, (![0, 0, 0, 0] : Fin 4 → Nat) a + S1x28x112x128.size a ≤ S1x28x112x128.size a
  h_S1x28x112x128 : 0 < S1x28x112x128.numel
  shapeCasts_S1x28x112x128_S28x112x128 : S1x28x112x128.ShapeCasts S28x112x128
  shapeCasts_S28x112x128_S1x28x112x128 : S28x112x128.ShapeCasts S1x28x112x128
  packedbf16_S1x28x112x128_S1x28x112x128_0_0_0_0 : (Rect.unit (s := S1x28x112x128) ![0, 0, 0, 0] S1x28x112x128.size inb_S1x28x112x128_S1x28x112x128_0_0_0_0).PackedRows (EltTy.packing .bf16)
  shapeCasts_S8x56x112x128_S8x56x56x256 : S8x56x112x128.ShapeCasts S8x56x56x256
  inb_S1x56x56x256_S1x56x56x256_0_0_0_0 : ∀ a, (![0, 0, 0, 0] : Fin 4 → Nat) a + S1x56x56x256.size a ≤ S1x56x56x256.size a
  h_S1x56x56x256 : 0 < S1x56x56x256.numel
  shapeCasts_S1x56x56x256_S56x56x256 : S1x56x56x256.ShapeCasts S56x56x256
  slices_S56x56x256_o0_0_0_S56x56x128 : S56x56x256.Slices ![0, 0, 0] S56x56x128
  slices_S56x56x256_o0_0_128_S56x56x128 : S56x56x256.Slices ![0, 0, 128] S56x56x128
  inb_S1x56x56x128_S1x56x56x128_0_0_0_0 : ∀ a, (![0, 0, 0, 0] : Fin 4 → Nat) a + S1x56x56x128.size a ≤ S1x56x56x128.size a
  h_S1x56x56x128 : 0 < S1x56x56x128.numel
  shapeCasts_S1x56x56x128_S56x56x128 : S1x56x56x128.ShapeCasts S56x56x128
  shapeCasts_S56x56x128_S1x56x56x128 : S56x56x128.ShapeCasts S1x56x56x128
  packedbf16_S1x56x56x128_S1x56x56x128_0_0_0_0 : (Rect.unit (s := S1x56x56x128) ![0, 0, 0, 0] S1x56x56x128.size inb_S1x56x56x128_S1x56x56x128_0_0_0_0).PackedRows (EltTy.packing .bf16)
  pads_S8x56x56x128_S8x58x58x128_000_110_110_000 : S8x56x56x128.Pads (![0, 1, 1, 0] : Fin 4 → Nat) ![0, 1, 1, 0] ![0, 0, 0, 0] S8x58x58x128
  shapeCasts_S9x128x256_S1152x256 : S9x128x256.ShapeCasts S1152x256
  h_S1x58x56x128 : 0 < S1x58x56x128.numel
  shapeCasts_S1x58x56x128_S58x56x128 : S1x58x56x128.ShapeCasts S58x56x128
  slices_S58x56x128_o0_0_0_S56x56x128 : S58x56x128.Slices ![0, 0, 0] S56x56x128
  slices_S58x56x128_o1_0_0_S56x56x128 : S58x56x128.Slices ![1, 0, 0] S56x56x128
  slices_S58x56x128_o2_0_0_S56x56x128 : S58x56x128.Slices ![2, 0, 0] S56x56x128
  concatenates_S56x56x128_S56x56x128_S56x56x128_S56x56x128_S56x56x128_S56x56x128_S56x56x128_S56x56x128_S56x56x128_S56x56x1152_d2 : Shape.Concatenates [S56x56x128, S56x56x128, S56x56x128, S56x56x128, S56x56x128, S56x56x128, S56x56x128, S56x56x128, S56x56x128] S56x56x1152 2
  shapeCasts_S56x56x1152_S3136x1152 : S56x56x1152.ShapeCasts S3136x1152
  inb_S1152x256_S1152x256_0_0 : ∀ a, (![0, 0] : Fin 2 → Nat) a + S1152x256.size a ≤ S1152x256.size a
  h_S1152x256 : 0 < S1152x256.numel
  shapeCasts_S1152x256_S1152x256 : S1152x256.ShapeCasts S1152x256
  inb_S1x256_S1x256_0_0 : ∀ a, (![0, 0] : Fin 2 → Nat) a + S1x256.size a ≤ S1x256.size a
  h_S1x256 : 0 < S1x256.numel
  broadcasts_S1x256_S3136x256 : S1x256.Broadcasts S3136x256
  shapeCasts_S3136x256_S56x56x256 : S3136x256.ShapeCasts S56x56x256
  inb_S1x58x58x256_S1x56x56x256_0_1_1_0 : ∀ a, (![0, 1, 1, 0] : Fin 4 → Nat) a + S1x56x56x256.size a ≤ S1x58x58x256.size a
  shapeCasts_S56x56x256_S1x56x56x256 : S56x56x256.ShapeCasts S1x56x56x256
  inb_S1x58x58x256_S1x56x58x256_0_1_0_0 : ∀ a, (![0, 1, 0, 0] : Fin 4 → Nat) a + S1x56x58x256.size a ≤ S1x58x58x256.size a
  h_S1x56x58x256 : 0 < S1x56x58x256.numel
  slices_S1x56x58x256_S1x56x56x256_0_0_1_0 : S1x56x58x256.Slices ![0, 0, 1, 0] S1x56x56x256
  packedbf16_S1x58x58x256_S1x56x58x256_0_1_0_0 : (Rect.unit (s := S1x58x58x256) ![0, 1, 0, 0] S1x56x58x256.size inb_S1x58x58x256_S1x56x58x256_0_1_0_0).PackedRows (EltTy.packing .bf16)
  inb_S1x58x58x256_S1x1x58x256_0_0_0_0 : ∀ a, (![0, 0, 0, 0] : Fin 4 → Nat) a + S1x1x58x256.size a ≤ S1x58x58x256.size a
  h_S1x1x58x256 : 0 < S1x1x58x256.numel
  shapeCasts_S1x1x58x256_S58x256 : S1x1x58x256.ShapeCasts S58x256
  shapeCasts_S58x256_S1x1x58x256 : S58x256.ShapeCasts S1x1x58x256
  packedbf16_S1x58x58x256_S1x1x58x256_0_0_0_0 : (Rect.unit (s := S1x58x58x256) ![0, 0, 0, 0] S1x1x58x256.size inb_S1x58x58x256_S1x1x58x256_0_0_0_0).PackedRows (EltTy.packing .bf16)
  inb_S1x58x58x256_S1x1x58x256_0_57_0_0 : ∀ a, (![0, 57, 0, 0] : Fin 4 → Nat) a + S1x1x58x256.size a ≤ S1x58x58x256.size a
  packedbf16_S1x58x58x256_S1x1x58x256_0_57_0_0 : (Rect.unit (s := S1x58x58x256) ![0, 57, 0, 0] S1x1x58x256.size inb_S1x58x58x256_S1x1x58x256_0_57_0_0).PackedRows (EltTy.packing .bf16)
  inb_S1x58x58x256_S1x58x1x256_0_0_0_0 : ∀ a, (![0, 0, 0, 0] : Fin 4 → Nat) a + S1x58x1x256.size a ≤ S1x58x58x256.size a
  h_S1x58x1x256 : 0 < S1x58x1x256.numel
  shapeCasts_S1x58x1x256_S58x1x256 : S1x58x1x256.ShapeCasts S58x1x256
  shapeCasts_S58x1x256_S1x58x1x256 : S58x1x256.ShapeCasts S1x58x1x256
  inb_S1x58x58x256_S1x58x2x256_0_0_0_0 : ∀ a, (![0, 0, 0, 0] : Fin 4 → Nat) a + S1x58x2x256.size a ≤ S1x58x58x256.size a
  h_S1x58x2x256 : 0 < S1x58x2x256.numel
  slices_S1x58x2x256_S1x58x1x256_0_0_0_0 : S1x58x2x256.Slices ![0, 0, 0, 0] S1x58x1x256
  packedbf16_S1x58x58x256_S1x58x2x256_0_0_0_0 : (Rect.unit (s := S1x58x58x256) ![0, 0, 0, 0] S1x58x2x256.size inb_S1x58x58x256_S1x58x2x256_0_0_0_0).PackedRows (EltTy.packing .bf16)
  inb_S1x58x58x256_S1x58x1x256_0_0_57_0 : ∀ a, (![0, 0, 57, 0] : Fin 4 → Nat) a + S1x58x1x256.size a ≤ S1x58x58x256.size a
  inb_S1x58x58x256_S1x58x2x256_0_0_56_0 : ∀ a, (![0, 0, 56, 0] : Fin 4 → Nat) a + S1x58x2x256.size a ≤ S1x58x58x256.size a
  slices_S1x58x2x256_S1x58x1x256_0_0_1_0 : S1x58x2x256.Slices ![0, 0, 1, 0] S1x58x1x256
  packedbf16_S1x58x58x256_S1x58x2x256_0_0_56_0 : (Rect.unit (s := S1x58x58x256) ![0, 0, 56, 0] S1x58x2x256.size inb_S1x58x58x256_S1x58x2x256_0_0_56_0).PackedRows (EltTy.packing .bf16)
  shapeCasts_S9x256x256_S2304x256 : S9x256x256.ShapeCasts S2304x256
  h_S1x58x56x256 : 0 < S1x58x56x256.numel
  shapeCasts_S1x58x56x256_S58x56x256 : S1x58x56x256.ShapeCasts S58x56x256
  slices_S58x56x256_o0_0_0_S56x56x256 : S58x56x256.Slices ![0, 0, 0] S56x56x256
  slices_S58x56x256_o1_0_0_S56x56x256 : S58x56x256.Slices ![1, 0, 0] S56x56x256
  slices_S58x56x256_o2_0_0_S56x56x256 : S58x56x256.Slices ![2, 0, 0] S56x56x256
  concatenates_S56x56x256_S56x56x256_S56x56x256_S56x56x256_S56x56x256_S56x56x256_S56x56x256_S56x56x256_S56x56x256_S56x56x2304_d2 : Shape.Concatenates [S56x56x256, S56x56x256, S56x56x256, S56x56x256, S56x56x256, S56x56x256, S56x56x256, S56x56x256, S56x56x256] S56x56x2304 2
  shapeCasts_S56x56x2304_S3136x2304 : S56x56x2304.ShapeCasts S3136x2304
  inb_S2304x256_S2304x256_0_0 : ∀ a, (![0, 0] : Fin 2 → Nat) a + S2304x256.size a ≤ S2304x256.size a
  h_S2304x256 : 0 < S2304x256.numel
  shapeCasts_S2304x256_S2304x256 : S2304x256.ShapeCasts S2304x256
  shapeCasts_S3136x256_S28x2x56x256 : S3136x256.ShapeCasts S28x2x56x256
  reduces_S28x2x56x256_S28x56x256 : S28x2x56x256.Reduces [1] S28x56x256
  inb_S1x28x56x256_S1x28x56x256_0_0_0_0 : ∀ a, (![0, 0, 0, 0] : Fin 4 → Nat) a + S1x28x56x256.size a ≤ S1x28x56x256.size a
  h_S1x28x56x256 : 0 < S1x28x56x256.numel
  shapeCasts_S1x28x56x256_S28x56x256 : S1x28x56x256.ShapeCasts S28x56x256
  shapeCasts_S28x56x256_S1x28x56x256 : S28x56x256.ShapeCasts S1x28x56x256
  packedbf16_S1x28x56x256_S1x28x56x256_0_0_0_0 : (Rect.unit (s := S1x28x56x256) ![0, 0, 0, 0] S1x28x56x256.size inb_S1x28x56x256_S1x28x56x256_0_0_0_0).PackedRows (EltTy.packing .bf16)
  shapeCasts_S8x28x56x256_S8x28x28x512 : S8x28x56x256.ShapeCasts S8x28x28x512
  inb_S1x28x28x512_S1x28x28x512_0_0_0_0 : ∀ a, (![0, 0, 0, 0] : Fin 4 → Nat) a + S1x28x28x512.size a ≤ S1x28x28x512.size a
  h_S1x28x28x512 : 0 < S1x28x28x512.numel
  shapeCasts_S1x28x28x512_S28x28x512 : S1x28x28x512.ShapeCasts S28x28x512
  slices_S28x28x512_o0_0_0_S28x28x256 : S28x28x512.Slices ![0, 0, 0] S28x28x256
  slices_S28x28x512_o0_0_256_S28x28x256 : S28x28x512.Slices ![0, 0, 256] S28x28x256
  inb_S1x28x28x256_S1x28x28x256_0_0_0_0 : ∀ a, (![0, 0, 0, 0] : Fin 4 → Nat) a + S1x28x28x256.size a ≤ S1x28x28x256.size a
  h_S1x28x28x256 : 0 < S1x28x28x256.numel
  shapeCasts_S1x28x28x256_S28x28x256 : S1x28x28x256.ShapeCasts S28x28x256
  shapeCasts_S28x28x256_S1x28x28x256 : S28x28x256.ShapeCasts S1x28x28x256
  packedbf16_S1x28x28x256_S1x28x28x256_0_0_0_0 : (Rect.unit (s := S1x28x28x256) ![0, 0, 0, 0] S1x28x28x256.size inb_S1x28x28x256_S1x28x28x256_0_0_0_0).PackedRows (EltTy.packing .bf16)
  pads_S8x28x28x256_S8x30x34x256_000_110_150_000 : S8x28x28x256.Pads (![0, 1, 1, 0] : Fin 4 → Nat) ![0, 1, 5, 0] ![0, 0, 0, 0] S8x30x34x256
  shapeCasts_S9x256x512_S2304x512 : S9x256x512.ShapeCasts S2304x512
  h_S1x30x32x256 : 0 < S1x30x32x256.numel
  shapeCasts_S1x30x32x256_S30x32x256 : S1x30x32x256.ShapeCasts S30x32x256
  slices_S30x32x256_o0_0_0_S28x32x256 : S30x32x256.Slices ![0, 0, 0] S28x32x256
  slices_S30x32x256_o1_0_0_S28x32x256 : S30x32x256.Slices ![1, 0, 0] S28x32x256
  slices_S30x32x256_o2_0_0_S28x32x256 : S30x32x256.Slices ![2, 0, 0] S28x32x256
  concatenates_S28x32x256_S28x32x256_S28x32x256_S28x32x256_S28x32x256_S28x32x256_S28x32x256_S28x32x256_S28x32x256_S28x32x2304_d2 : Shape.Concatenates [S28x32x256, S28x32x256, S28x32x256, S28x32x256, S28x32x256, S28x32x256, S28x32x256, S28x32x256, S28x32x256] S28x32x2304 2
  shapeCasts_S28x32x2304_S896x2304 : S28x32x2304.ShapeCasts S896x2304
  inb_S2304x512_S2304x512_0_0 : ∀ a, (![0, 0] : Fin 2 → Nat) a + S2304x512.size a ≤ S2304x512.size a
  h_S2304x512 : 0 < S2304x512.numel
  shapeCasts_S2304x512_S2304x512 : S2304x512.ShapeCasts S2304x512
  inb_S1x512_S1x512_0_0 : ∀ a, (![0, 0] : Fin 2 → Nat) a + S1x512.size a ≤ S1x512.size a
  h_S1x512 : 0 < S1x512.numel
  broadcasts_S1x512_S896x512 : S1x512.Broadcasts S896x512
  shapeCasts_S896x512_S28x32x512 : S896x512.ShapeCasts S28x32x512
  inb_S1x30x34x512_S1x28x32x512_0_1_1_0 : ∀ a, (![0, 1, 1, 0] : Fin 4 → Nat) a + S1x28x32x512.size a ≤ S1x30x34x512.size a
  h_S1x28x32x512 : 0 < S1x28x32x512.numel
  shapeCasts_S1x28x32x512_S28x32x512 : S1x28x32x512.ShapeCasts S28x32x512
  shapeCasts_S28x32x512_S1x28x32x512 : S28x32x512.ShapeCasts S1x28x32x512
  inb_S1x30x34x512_S1x28x34x512_0_1_0_0 : ∀ a, (![0, 1, 0, 0] : Fin 4 → Nat) a + S1x28x34x512.size a ≤ S1x30x34x512.size a
  h_S1x28x34x512 : 0 < S1x28x34x512.numel
  slices_S1x28x34x512_S1x28x32x512_0_0_1_0 : S1x28x34x512.Slices ![0, 0, 1, 0] S1x28x32x512
  packedbf16_S1x30x34x512_S1x28x34x512_0_1_0_0 : (Rect.unit (s := S1x30x34x512) ![0, 1, 0, 0] S1x28x34x512.size inb_S1x30x34x512_S1x28x34x512_0_1_0_0).PackedRows (EltTy.packing .bf16)
  inb_S1x30x34x512_S1x1x34x512_0_0_0_0 : ∀ a, (![0, 0, 0, 0] : Fin 4 → Nat) a + S1x1x34x512.size a ≤ S1x30x34x512.size a
  h_S1x1x34x512 : 0 < S1x1x34x512.numel
  shapeCasts_S1x1x34x512_S34x512 : S1x1x34x512.ShapeCasts S34x512
  shapeCasts_S34x512_S1x1x34x512 : S34x512.ShapeCasts S1x1x34x512
  packedbf16_S1x30x34x512_S1x1x34x512_0_0_0_0 : (Rect.unit (s := S1x30x34x512) ![0, 0, 0, 0] S1x1x34x512.size inb_S1x30x34x512_S1x1x34x512_0_0_0_0).PackedRows (EltTy.packing .bf16)
  inb_S1x30x34x512_S1x1x34x512_0_29_0_0 : ∀ a, (![0, 29, 0, 0] : Fin 4 → Nat) a + S1x1x34x512.size a ≤ S1x30x34x512.size a
  packedbf16_S1x30x34x512_S1x1x34x512_0_29_0_0 : (Rect.unit (s := S1x30x34x512) ![0, 29, 0, 0] S1x1x34x512.size inb_S1x30x34x512_S1x1x34x512_0_29_0_0).PackedRows (EltTy.packing .bf16)
  inb_S1x30x34x512_S1x30x1x512_0_0_0_0 : ∀ a, (![0, 0, 0, 0] : Fin 4 → Nat) a + S1x30x1x512.size a ≤ S1x30x34x512.size a
  h_S1x30x1x512 : 0 < S1x30x1x512.numel
  shapeCasts_S1x30x1x512_S30x1x512 : S1x30x1x512.ShapeCasts S30x1x512
  shapeCasts_S30x1x512_S1x30x1x512 : S30x1x512.ShapeCasts S1x30x1x512
  inb_S1x30x34x512_S1x30x2x512_0_0_0_0 : ∀ a, (![0, 0, 0, 0] : Fin 4 → Nat) a + S1x30x2x512.size a ≤ S1x30x34x512.size a
  h_S1x30x2x512 : 0 < S1x30x2x512.numel
  slices_S1x30x2x512_S1x30x1x512_0_0_0_0 : S1x30x2x512.Slices ![0, 0, 0, 0] S1x30x1x512
  packedbf16_S1x30x34x512_S1x30x2x512_0_0_0_0 : (Rect.unit (s := S1x30x34x512) ![0, 0, 0, 0] S1x30x2x512.size inb_S1x30x34x512_S1x30x2x512_0_0_0_0).PackedRows (EltTy.packing .bf16)
  inb_S1x30x34x512_S1x30x5x512_0_0_29_0 : ∀ a, (![0, 0, 29, 0] : Fin 4 → Nat) a + S1x30x5x512.size a ≤ S1x30x34x512.size a
  h_S1x30x5x512 : 0 < S1x30x5x512.numel
  shapeCasts_S1x30x5x512_S30x5x512 : S1x30x5x512.ShapeCasts S30x5x512
  shapeCasts_S30x5x512_S1x30x5x512 : S30x5x512.ShapeCasts S1x30x5x512
  inb_S1x30x34x512_S1x30x6x512_0_0_28_0 : ∀ a, (![0, 0, 28, 0] : Fin 4 → Nat) a + S1x30x6x512.size a ≤ S1x30x34x512.size a
  h_S1x30x6x512 : 0 < S1x30x6x512.numel
  slices_S1x30x6x512_S1x30x5x512_0_0_1_0 : S1x30x6x512.Slices ![0, 0, 1, 0] S1x30x5x512
  packedbf16_S1x30x34x512_S1x30x6x512_0_0_28_0 : (Rect.unit (s := S1x30x34x512) ![0, 0, 28, 0] S1x30x6x512.size inb_S1x30x34x512_S1x30x6x512_0_0_28_0).PackedRows (EltTy.packing .bf16)
  shapeCasts_S9x512x512_S4608x512 : S9x512x512.ShapeCasts S4608x512
  h_S1x30x32x512 : 0 < S1x30x32x512.numel
  shapeCasts_S1x30x32x512_S30x32x512 : S1x30x32x512.ShapeCasts S30x32x512
  slices_S30x32x512_o0_0_0_S28x32x512 : S30x32x512.Slices ![0, 0, 0] S28x32x512
  slices_S30x32x512_o1_0_0_S28x32x512 : S30x32x512.Slices ![1, 0, 0] S28x32x512
  slices_S30x32x512_o2_0_0_S28x32x512 : S30x32x512.Slices ![2, 0, 0] S28x32x512
  concatenates_S28x32x512_S28x32x512_S28x32x512_S28x32x512_S28x32x512_S28x32x512_S28x32x512_S28x32x512_S28x32x512_S28x32x4608_d2 : Shape.Concatenates [S28x32x512, S28x32x512, S28x32x512, S28x32x512, S28x32x512, S28x32x512, S28x32x512, S28x32x512, S28x32x512] S28x32x4608 2
  shapeCasts_S28x32x4608_S896x4608 : S28x32x4608.ShapeCasts S896x4608
  inb_S4608x512_S4608x512_0_0 : ∀ a, (![0, 0] : Fin 2 → Nat) a + S4608x512.size a ≤ S4608x512.size a
  h_S4608x512 : 0 < S4608x512.numel
  shapeCasts_S4608x512_S4608x512 : S4608x512.ShapeCasts S4608x512
  shapeCasts_S896x512_S14x2x32x512 : S896x512.ShapeCasts S14x2x32x512
  reduces_S14x2x32x512_S14x32x512 : S14x2x32x512.Reduces [1] S14x32x512
  inb_S1x14x32x512_S1x14x32x512_0_0_0_0 : ∀ a, (![0, 0, 0, 0] : Fin 4 → Nat) a + S1x14x32x512.size a ≤ S1x14x32x512.size a
  h_S1x14x32x512 : 0 < S1x14x32x512.numel
  shapeCasts_S1x14x32x512_S14x32x512 : S1x14x32x512.ShapeCasts S14x32x512
  shapeCasts_S14x32x512_S1x14x32x512 : S14x32x512.ShapeCasts S1x14x32x512
  packedbf16_S1x14x32x512_S1x14x32x512_0_0_0_0 : (Rect.unit (s := S1x14x32x512) ![0, 0, 0, 0] S1x14x32x512.size inb_S1x14x32x512_S1x14x32x512_0_0_0_0).PackedRows (EltTy.packing .bf16)
  inb_S1x14x32x512_S1x14x4x512_0_0_28_0 : ∀ a, (![0, 0, 28, 0] : Fin 4 → Nat) a + S1x14x4x512.size a ≤ S1x14x32x512.size a
  h_S1x14x4x512 : 0 < S1x14x4x512.numel
  shapeCasts_S1x14x4x512_S14x4x512 : S1x14x4x512.ShapeCasts S14x4x512
  shapeCasts_S14x4x512_S1x14x4x512 : S14x4x512.ShapeCasts S1x14x4x512
  packedbf16_S1x14x32x512_S1x14x4x512_0_0_28_0 : (Rect.unit (s := S1x14x32x512) ![0, 0, 28, 0] S1x14x4x512.size inb_S1x14x32x512_S1x14x4x512_0_0_28_0).PackedRows (EltTy.packing .bf16)
  shapeCasts_S8x14x32x512_S8x14x16x1024 : S8x14x32x512.ShapeCasts S8x14x16x1024
  inb_S1x14x16x1024_S1x14x16x1024_0_0_0_0 : ∀ a, (![0, 0, 0, 0] : Fin 4 → Nat) a + S1x14x16x1024.size a ≤ S1x14x16x1024.size a
  h_S1x14x16x1024 : 0 < S1x14x16x1024.numel
  shapeCasts_S1x14x16x1024_S14x16x1024 : S1x14x16x1024.ShapeCasts S14x16x1024
  slices_S14x16x1024_o0_0_0_S14x16x512 : S14x16x1024.Slices ![0, 0, 0] S14x16x512
  slices_S14x16x1024_o0_0_512_S14x16x512 : S14x16x1024.Slices ![0, 0, 512] S14x16x512
  inb_S1x14x16x512_S1x14x16x512_0_0_0_0 : ∀ a, (![0, 0, 0, 0] : Fin 4 → Nat) a + S1x14x16x512.size a ≤ S1x14x16x512.size a
  h_S1x14x16x512 : 0 < S1x14x16x512.numel
  shapeCasts_S1x14x16x512_S14x16x512 : S1x14x16x512.ShapeCasts S14x16x512
  shapeCasts_S14x16x512_S1x14x16x512 : S14x16x512.ShapeCasts S1x14x16x512
  packedbf16_S1x14x16x512_S1x14x16x512_0_0_0_0 : (Rect.unit (s := S1x14x16x512) ![0, 0, 0, 0] S1x14x16x512.size inb_S1x14x16x512_S1x14x16x512_0_0_0_0).PackedRows (EltTy.packing .bf16)
  pads_S8x14x16x512_S8x16x18x512_000_110_110_000 : S8x14x16x512.Pads (![0, 1, 1, 0] : Fin 4 → Nat) ![0, 1, 1, 0] ![0, 0, 0, 0] S8x16x18x512
  h_S1x16x16x512 : 0 < S1x16x16x512.numel
  shapeCasts_S1x16x16x512_S16x16x512 : S1x16x16x512.ShapeCasts S16x16x512
  slices_S16x16x512_o0_0_0_S14x16x512 : S16x16x512.Slices ![0, 0, 0] S14x16x512
  slices_S16x16x512_o1_0_0_S14x16x512 : S16x16x512.Slices ![1, 0, 0] S14x16x512
  slices_S16x16x512_o2_0_0_S14x16x512 : S16x16x512.Slices ![2, 0, 0] S14x16x512
  concatenates_S14x16x512_S14x16x512_S14x16x512_S14x16x512_S14x16x512_S14x16x512_S14x16x512_S14x16x512_S14x16x512_S14x16x4608_d2 : Shape.Concatenates [S14x16x512, S14x16x512, S14x16x512, S14x16x512, S14x16x512, S14x16x512, S14x16x512, S14x16x512, S14x16x512] S14x16x4608 2
  shapeCasts_S14x16x4608_S224x4608 : S14x16x4608.ShapeCasts S224x4608
  broadcasts_S1x512_S224x512 : S1x512.Broadcasts S224x512
  shapeCasts_S224x512_S14x16x512 : S224x512.ShapeCasts S14x16x512
  inb_S1x16x18x512_S1x14x16x512_0_1_1_0 : ∀ a, (![0, 1, 1, 0] : Fin 4 → Nat) a + S1x14x16x512.size a ≤ S1x16x18x512.size a
  inb_S1x16x18x512_S1x14x18x512_0_1_0_0 : ∀ a, (![0, 1, 0, 0] : Fin 4 → Nat) a + S1x14x18x512.size a ≤ S1x16x18x512.size a
  h_S1x14x18x512 : 0 < S1x14x18x512.numel
  slices_S1x14x18x512_S1x14x16x512_0_0_1_0 : S1x14x18x512.Slices ![0, 0, 1, 0] S1x14x16x512
  packedbf16_S1x16x18x512_S1x14x18x512_0_1_0_0 : (Rect.unit (s := S1x16x18x512) ![0, 1, 0, 0] S1x14x18x512.size inb_S1x16x18x512_S1x14x18x512_0_1_0_0).PackedRows (EltTy.packing .bf16)
  inb_S1x16x18x512_S1x1x18x512_0_0_0_0 : ∀ a, (![0, 0, 0, 0] : Fin 4 → Nat) a + S1x1x18x512.size a ≤ S1x16x18x512.size a
  h_S1x1x18x512 : 0 < S1x1x18x512.numel
  shapeCasts_S1x1x18x512_S18x512 : S1x1x18x512.ShapeCasts S18x512
  shapeCasts_S18x512_S1x1x18x512 : S18x512.ShapeCasts S1x1x18x512
  packedbf16_S1x16x18x512_S1x1x18x512_0_0_0_0 : (Rect.unit (s := S1x16x18x512) ![0, 0, 0, 0] S1x1x18x512.size inb_S1x16x18x512_S1x1x18x512_0_0_0_0).PackedRows (EltTy.packing .bf16)
  inb_S1x16x18x512_S1x1x18x512_0_15_0_0 : ∀ a, (![0, 15, 0, 0] : Fin 4 → Nat) a + S1x1x18x512.size a ≤ S1x16x18x512.size a
  packedbf16_S1x16x18x512_S1x1x18x512_0_15_0_0 : (Rect.unit (s := S1x16x18x512) ![0, 15, 0, 0] S1x1x18x512.size inb_S1x16x18x512_S1x1x18x512_0_15_0_0).PackedRows (EltTy.packing .bf16)
  inb_S1x16x18x512_S1x16x1x512_0_0_0_0 : ∀ a, (![0, 0, 0, 0] : Fin 4 → Nat) a + S1x16x1x512.size a ≤ S1x16x18x512.size a
  h_S1x16x1x512 : 0 < S1x16x1x512.numel
  shapeCasts_S1x16x1x512_S16x1x512 : S1x16x1x512.ShapeCasts S16x1x512
  shapeCasts_S16x1x512_S1x16x1x512 : S16x1x512.ShapeCasts S1x16x1x512
  inb_S1x16x18x512_S1x16x2x512_0_0_0_0 : ∀ a, (![0, 0, 0, 0] : Fin 4 → Nat) a + S1x16x2x512.size a ≤ S1x16x18x512.size a
  h_S1x16x2x512 : 0 < S1x16x2x512.numel
  slices_S1x16x2x512_S1x16x1x512_0_0_0_0 : S1x16x2x512.Slices ![0, 0, 0, 0] S1x16x1x512
  packedbf16_S1x16x18x512_S1x16x2x512_0_0_0_0 : (Rect.unit (s := S1x16x18x512) ![0, 0, 0, 0] S1x16x2x512.size inb_S1x16x18x512_S1x16x2x512_0_0_0_0).PackedRows (EltTy.packing .bf16)
  inb_S1x16x18x512_S1x16x3x512_0_0_15_0 : ∀ a, (![0, 0, 15, 0] : Fin 4 → Nat) a + S1x16x3x512.size a ≤ S1x16x18x512.size a
  h_S1x16x3x512 : 0 < S1x16x3x512.numel
  shapeCasts_S1x16x3x512_S16x3x512 : S1x16x3x512.ShapeCasts S16x3x512
  shapeCasts_S16x3x512_S1x16x3x512 : S16x3x512.ShapeCasts S1x16x3x512
  inb_S1x16x18x512_S1x16x4x512_0_0_14_0 : ∀ a, (![0, 0, 14, 0] : Fin 4 → Nat) a + S1x16x4x512.size a ≤ S1x16x18x512.size a
  h_S1x16x4x512 : 0 < S1x16x4x512.numel
  slices_S1x16x4x512_S1x16x3x512_0_0_1_0 : S1x16x4x512.Slices ![0, 0, 1, 0] S1x16x3x512
  packedbf16_S1x16x18x512_S1x16x4x512_0_0_14_0 : (Rect.unit (s := S1x16x18x512) ![0, 0, 14, 0] S1x16x4x512.size inb_S1x16x18x512_S1x16x4x512_0_0_14_0).PackedRows (EltTy.packing .bf16)
  shapeCasts_S224x512_S7x2x16x512 : S224x512.ShapeCasts S7x2x16x512
  reduces_S7x2x16x512_S7x16x512 : S7x2x16x512.Reduces [1] S7x16x512
  inb_S1x7x16x512_S1x7x16x512_0_0_0_0 : ∀ a, (![0, 0, 0, 0] : Fin 4 → Nat) a + S1x7x16x512.size a ≤ S1x7x16x512.size a
  h_S1x7x16x512 : 0 < S1x7x16x512.numel
  shapeCasts_S1x7x16x512_S7x16x512 : S1x7x16x512.ShapeCasts S7x16x512
  shapeCasts_S7x16x512_S1x7x16x512 : S7x16x512.ShapeCasts S1x7x16x512
  packedbf16_S1x7x16x512_S1x7x16x512_0_0_0_0 : (Rect.unit (s := S1x7x16x512) ![0, 0, 0, 0] S1x7x16x512.size inb_S1x7x16x512_S1x7x16x512_0_0_0_0).PackedRows (EltTy.packing .bf16)
  inb_S1x7x16x512_S1x7x2x512_0_0_14_0 : ∀ a, (![0, 0, 14, 0] : Fin 4 → Nat) a + S1x7x2x512.size a ≤ S1x7x16x512.size a
  h_S1x7x2x512 : 0 < S1x7x2x512.numel
  shapeCasts_S1x7x2x512_S7x2x512 : S1x7x2x512.ShapeCasts S7x2x512
  shapeCasts_S7x2x512_S1x7x2x512 : S7x2x512.ShapeCasts S1x7x2x512
  packedbf16_S1x7x16x512_S1x7x2x512_0_0_14_0 : (Rect.unit (s := S1x7x16x512) ![0, 0, 14, 0] S1x7x2x512.size inb_S1x7x16x512_S1x7x2x512_0_0_14_0).PackedRows (EltTy.packing .bf16)
  shapeCasts_S8x7x16x512_S8x7x8x1024 : S8x7x16x512.ShapeCasts S8x7x8x1024
  inb_S1x7x8x1024_S1x7x8x1024_0_0_0_0 : ∀ a, (![0, 0, 0, 0] : Fin 4 → Nat) a + S1x7x8x1024.size a ≤ S1x7x8x1024.size a
  h_S1x7x8x1024 : 0 < S1x7x8x1024.numel
  shapeCasts_S1x7x8x1024_S7x8x1024 : S1x7x8x1024.ShapeCasts S7x8x1024
  slices_S7x8x1024_o0_0_0_S7x8x512 : S7x8x1024.Slices ![0, 0, 0] S7x8x512
  slices_S7x8x1024_o0_0_512_S7x8x512 : S7x8x1024.Slices ![0, 0, 512] S7x8x512
  inb_S1x7x8x512_S1x7x8x512_0_0_0_0 : ∀ a, (![0, 0, 0, 0] : Fin 4 → Nat) a + S1x7x8x512.size a ≤ S1x7x8x512.size a
  h_S1x7x8x512 : 0 < S1x7x8x512.numel
  shapeCasts_S1x7x8x512_S7x8x512 : S1x7x8x512.ShapeCasts S7x8x512
  shapeCasts_S7x8x512_S1x7x8x512 : S7x8x512.ShapeCasts S1x7x8x512
  packedbf16_S1x7x8x512_S1x7x8x512_0_0_0_0 : (Rect.unit (s := S1x7x8x512) ![0, 0, 0, 0] S1x7x8x512.size inb_S1x7x8x512_S1x7x8x512_0_0_0_0).PackedRows (EltTy.packing .bf16)
  transposes_S8x56x56x128_S8x128x56x56_0_3_1_2 : S8x56x56x128.Transposes [0, 3, 1, 2] S8x128x56x56
  transposes_S8x28x28x256_S8x256x28x28_0_3_1_2 : S8x28x28x256.Transposes [0, 3, 1, 2] S8x256x28x28
  slices_S8x14x16x512_S8x14x14x512_0_0_0_0 : S8x14x16x512.Slices ![0, 0, 0, 0] S8x14x14x512
  transposes_S8x14x14x512_S8x512x14x14_0_3_1_2 : S8x14x14x512.Transposes [0, 3, 1, 2] S8x512x14x14
  slices_S8x7x8x512_S8x7x7x512_0_0_0_0 : S8x7x8x512.Slices ![0, 0, 0, 0] S8x7x7x512
  transposes_S8x7x7x512_S8x512x7x7_0_3_1_2 : S8x7x7x512.Transposes [0, 3, 1, 2] S8x512x7x7
  dot_S26216x27_S27x64_S26216x64_1_0_0_1_n_n_wf : DotDims.WF S26216x27 S27x64 S26216x64 [1] [0] [0] [1] [] []
  dot_S7168x576_S576x64_S7168x64_1_0_0_1_n_n_wf : DotDims.WF S7168x576 S576x64 S7168x64 [1] [0] [0] [1] [] []
  dot_S6272x576_S576x128_S6272x128_1_0_0_1_n_n_wf : DotDims.WF S6272x576 S576x128 S6272x128 [1] [0] [0] [1] [] []
  dot_S6272x1152_S1152x128_S6272x128_1_0_0_1_n_n_wf : DotDims.WF S6272x1152 S1152x128 S6272x128 [1] [0] [0] [1] [] []
  dot_S3136x1152_S1152x256_S3136x256_1_0_0_1_n_n_wf : DotDims.WF S3136x1152 S1152x256 S3136x256 [1] [0] [0] [1] [] []
  dot_S3136x2304_S2304x256_S3136x256_1_0_0_1_n_n_wf : DotDims.WF S3136x2304 S2304x256 S3136x256 [1] [0] [0] [1] [] []
  dot_S896x2304_S2304x512_S896x512_1_0_0_1_n_n_wf : DotDims.WF S896x2304 S2304x512 S896x512 [1] [0] [0] [1] [] []
  dot_S896x4608_S4608x512_S896x512_1_0_0_1_n_n_wf : DotDims.WF S896x4608 S4608x512 S896x512 [1] [0] [0] [1] [] []
  dot_S224x4608_S4608x512_S224x512_1_0_0_1_n_n_wf : DotDims.WF S224x4608 S4608x512 S224x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x113x232x27.size a ≤ S8x226x232x27.size a
  hwx0_0 : ∀ i : grid0.Coords, EltTy.bits .bf16 = 32 ∨ (Rect.block (s := S8x226x232x27) S1x113x232x27.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S27x64.size a ≤ S27x64.size a
  hwx0_1 : ∀ i : grid0.Coords, EltTy.bits .bf16 = 32 ∨ (Rect.block (s := S27x64) S27x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x113x232x64.size a ≤ S8x226x232x64.size a
  hwx0_3 : ∀ i : grid0.Coords, EltTy.bits .bf16 = 32 ∨ (Rect.block (s := S8x226x232x64) S1x113x232x64.size (cc0_transform_3 i) (hinb0_3 i)).WholeWords (EltTy.packing .bf16)
  hrank1 : 0 < grid1.rank
  k1_mult1_dvd : ∀ i : grid1.Coords, 32 ∣ (k1_mult1 i).toNat
  k1_off1_inb : ∀ i : grid1.Coords, ∀ a, (k1_off1 i) a + S1x34x224x64.size a ≤ S1x226x232x64.size a
  k1_off2_inb : ∀ i : grid1.Coords, ∀ a, (k1_off2 i) a + S1x34x224x64.size a ≤ S1x226x232x64.size a
  k1_off3_inb : ∀ i : grid1.Coords, ∀ a, (k1_off3 i) a + S1x34x224x64.size a ≤ S1x226x232x64.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x226x232x64.size a ≤ S8x226x232x64.size a
  hwx1_0 : ∀ i : grid1.Coords, EltTy.bits .bf16 = 32 ∨ (Rect.block (s := S8x226x232x64) S1x226x232x64.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S576x64.size a ≤ S576x64.size a
  hwx1_1 : ∀ i : grid1.Coords, EltTy.bits .bf16 = 32 ∨ (Rect.block (s := S576x64) S576x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x16x224x64.size a ≤ S8x112x224x64.size a
  hwx1_3 : ∀ i : grid1.Coords, EltTy.bits .bf16 = 32 ∨ (Rect.block (s := S8x112x224x64) S1x16x224x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x112x112x128.size a ≤ S8x112x112x128.size a
  hwx2_0 : ∀ i : grid2.Coords, EltTy.bits .bf16 = 32 ∨ (Rect.block (s := S8x112x112x128) S1x112x112x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x112x112x64.size a ≤ S8x112x112x64.size a
  hwx2_1 : ∀ i : grid2.Coords, EltTy.bits .bf16 = 32 ∨ (Rect.block (s := S8x112x112x64) S1x112x112x64.size (cc2_transform_1 i) (hinb2_1 i)).WholeWords (EltTy.packing .bf16)
  hrank3 : 0 < grid3.rank
  k3_mult1_dvd : ∀ i : grid3.Coords, 56 ∣ (k3_mult1 i).toNat
  k3_off1_inb : ∀ i : grid3.Coords, ∀ a, (k3_off1 i) a + S1x58x112x64.size a ≤ S1x114x114x64.size a
  k3_off2_inb : ∀ i : grid3.Coords, ∀ a, (k3_off2 i) a + S1x58x112x64.size a ≤ S1x114x114x64.size a
  k3_off3_inb : ∀ i : grid3.Coords, ∀ a, (k3_off3 i) a + S1x58x112x64.size a ≤ S1x114x114x64.size a
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x114x114x64.size a ≤ S8x114x114x64.size a
  hwx3_0 : ∀ i : grid3.Coords, EltTy.bits .bf16 = 32 ∨ (Rect.block (s := S8x114x114x64) S1x114x114x64.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S576x128.size a ≤ S576x128.size a
  hwx3_1 : ∀ i : grid3.Coords, EltTy.bits .bf16 = 32 ∨ (Rect.block (s := S576x128) S576x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x56x112x128.size a ≤ S8x112x112x128.size a
  hwx3_3 : ∀ i : grid3.Coords, EltTy.bits .bf16 = 32 ∨ (Rect.block (s := S8x112x112x128) S1x56x112x128.size (cc3_transform_3 i) (hinb3_3 i)).WholeWords (EltTy.packing .bf16)
  hrank4 : 0 < grid4.rank
  k4_mult1_dvd : ∀ i : grid4.Coords, 56 ∣ (k4_mult1 i).toNat
  k4_off1_inb : ∀ i : grid4.Coords, ∀ a, (k4_off1 i) a + S1x58x112x128.size a ≤ S1x114x114x128.size a
  k4_off2_inb : ∀ i : grid4.Coords, ∀ a, (k4_off2 i) a + S1x58x112x128.size a ≤ S1x114x114x128.size a
  k4_off3_inb : ∀ i : grid4.Coords, ∀ a, (k4_off3 i) a + S1x58x112x128.size a ≤ S1x114x114x128.size a
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x114x114x128.size a ≤ S8x114x114x128.size a
  hwx4_0 : ∀ i : grid4.Coords, EltTy.bits .bf16 = 32 ∨ (Rect.block (s := S8x114x114x128) S1x114x114x128.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1152x128.size a ≤ S1152x128.size a
  hwx4_1 : ∀ i : grid4.Coords, EltTy.bits .bf16 = 32 ∨ (Rect.block (s := S1152x128) S1152x128.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1x28x112x128.size a ≤ S8x56x112x128.size a
  hwx4_3 : ∀ i : grid4.Coords, EltTy.bits .bf16 = 32 ∨ (Rect.block (s := S8x56x112x128) S1x28x112x128.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1x56x56x256.size a ≤ S8x56x56x256.size a
  hwx5_0 : ∀ i : grid5.Coords, EltTy.bits .bf16 = 32 ∨ (Rect.block (s := S8x56x56x256) S1x56x56x256.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1x56x56x128.size a ≤ S8x56x56x128.size a
  hwx5_1 : ∀ i : grid5.Coords, EltTy.bits .bf16 = 32 ∨ (Rect.block (s := S8x56x56x128) S1x56x56x128.size (cc5_transform_1 i) (hinb5_1 i)).WholeWords (EltTy.packing .bf16)
  hrank6 : 0 < grid6.rank
  k6_mult1_dvd : ∀ i : grid6.Coords, 56 ∣ (k6_mult1 i).toNat
  k6_off1_inb : ∀ i : grid6.Coords, ∀ a, (k6_off1 i) a + S1x58x56x128.size a ≤ S1x58x58x128.size a
  k6_off2_inb : ∀ i : grid6.Coords, ∀ a, (k6_off2 i) a + S1x58x56x128.size a ≤ S1x58x58x128.size a
  k6_off3_inb : ∀ i : grid6.Coords, ∀ a, (k6_off3 i) a + S1x58x56x128.size a ≤ S1x58x58x128.size a
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1x58x58x128.size a ≤ S8x58x58x128.size a
  hwx6_0 : ∀ i : grid6.Coords, EltTy.bits .bf16 = 32 ∨ (Rect.block (s := S8x58x58x128) S1x58x58x128.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1152x256.size a ≤ S1152x256.size a
  hwx6_1 : ∀ i : grid6.Coords, EltTy.bits .bf16 = 32 ∨ (Rect.block (s := S1152x256) S1152x256.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x256.size a ≤ S1x256.size a
  hwx6_2 : ∀ i : grid6.Coords, EltTy.bits .f32 = 32 ∨ (Rect.block (s := S1x256) S1x256.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S1x58x58x256.size a ≤ S8x58x58x256.size a
  hwx6_3 : ∀ i : grid6.Coords, EltTy.bits .bf16 = 32 ∨ (Rect.block (s := S8x58x58x256) S1x58x58x256.size (cc6_transform_3 i) (hinb6_3 i)).WholeWords (EltTy.packing .bf16)
  hrank7 : 0 < grid7.rank
  k7_mult1_dvd : ∀ i : grid7.Coords, 56 ∣ (k7_mult1 i).toNat
  k7_off1_inb : ∀ i : grid7.Coords, ∀ a, (k7_off1 i) a + S1x58x56x256.size a ≤ S1x58x58x256.size a
  k7_off2_inb : ∀ i : grid7.Coords, ∀ a, (k7_off2 i) a + S1x58x56x256.size a ≤ S1x58x58x256.size a
  k7_off3_inb : ∀ i : grid7.Coords, ∀ a, (k7_off3 i) a + S1x58x56x256.size a ≤ S1x58x58x256.size a
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1x58x58x256.size a ≤ S8x58x58x256.size a
  hwx7_0 : ∀ i : grid7.Coords, EltTy.bits .bf16 = 32 ∨ (Rect.block (s := S8x58x58x256) S1x58x58x256.size (cc7_transform_0 i) (hinb7_0 i)).WholeWords (EltTy.packing .bf16)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S2304x256.size a ≤ S2304x256.size a
  hwx7_1 : ∀ i : grid7.Coords, EltTy.bits .bf16 = 32 ∨ (Rect.block (s := S2304x256) S2304x256.size (cc7_transform_1 i) (hinb7_1 i)).WholeWords (EltTy.packing .bf16)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x256.size a ≤ S1x256.size a
  hwx7_2 : ∀ i : grid7.Coords, EltTy.bits .f32 = 32 ∨ (Rect.block (s := S1x256) S1x256.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S1x58x58x256.size a ≤ S8x58x58x256.size a
  hwx7_3 : ∀ i : grid7.Coords, EltTy.bits .bf16 = 32 ∨ (Rect.block (s := S8x58x58x256) S1x58x58x256.size (cc7_transform_3 i) (hinb7_3 i)).WholeWords (EltTy.packing .bf16)
  hrank8 : 0 < grid8.rank
  k8_mult1_dvd : ∀ i : grid8.Coords, 56 ∣ (k8_mult1 i).toNat
  k8_off1_inb : ∀ i : grid8.Coords, ∀ a, (k8_off1 i) a + S1x58x56x256.size a ≤ S1x58x58x256.size a
  k8_off2_inb : ∀ i : grid8.Coords, ∀ a, (k8_off2 i) a + S1x58x56x256.size a ≤ S1x58x58x256.size a
  k8_off3_inb : ∀ i : grid8.Coords, ∀ a, (k8_off3 i) a + S1x58x56x256.size a ≤ S1x58x58x256.size a
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1x58x58x256.size a ≤ S8x58x58x256.size a
  hwx8_0 : ∀ i : grid8.Coords, EltTy.bits .bf16 = 32 ∨ (Rect.block (s := S8x58x58x256) S1x58x58x256.size (cc8_transform_0 i) (hinb8_0 i)).WholeWords (EltTy.packing .bf16)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S2304x256.size a ≤ S2304x256.size a
  hwx8_1 : ∀ i : grid8.Coords, EltTy.bits .bf16 = 32 ∨ (Rect.block (s := S2304x256) S2304x256.size (cc8_transform_1 i) (hinb8_1 i)).WholeWords (EltTy.packing .bf16)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x256.size a ≤ S1x256.size a
  hwx8_2 : ∀ i : grid8.Coords, EltTy.bits .f32 = 32 ∨ (Rect.block (s := S1x256) S1x256.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S1x28x56x256.size a ≤ S8x28x56x256.size a
  hwx8_3 : ∀ i : grid8.Coords, EltTy.bits .bf16 = 32 ∨ (Rect.block (s := S8x28x56x256) S1x28x56x256.size (cc8_transform_3 i) (hinb8_3 i)).WholeWords (EltTy.packing .bf16)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S1x28x28x512.size a ≤ S8x28x28x512.size a
  hwx9_0 : ∀ i : grid9.Coords, EltTy.bits .bf16 = 32 ∨ (Rect.block (s := S8x28x28x512) S1x28x28x512.size (cc9_transform_0 i) (hinb9_0 i)).WholeWords (EltTy.packing .bf16)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S1x28x28x256.size a ≤ S8x28x28x256.size a
  hwx9_1 : ∀ i : grid9.Coords, EltTy.bits .bf16 = 32 ∨ (Rect.block (s := S8x28x28x256) S1x28x28x256.size (cc9_transform_1 i) (hinb9_1 i)).WholeWords (EltTy.packing .bf16)
  hrank10 : 0 < grid10.rank
  k10_mult1_dvd : ∀ i : grid10.Coords, 28 ∣ (k10_mult1 i).toNat
  k10_off1_inb : ∀ i : grid10.Coords, ∀ a, (k10_off1 i) a + S1x30x32x256.size a ≤ S1x30x34x256.size a
  k10_off2_inb : ∀ i : grid10.Coords, ∀ a, (k10_off2 i) a + S1x30x32x256.size a ≤ S1x30x34x256.size a
  k10_off3_inb : ∀ i : grid10.Coords, ∀ a, (k10_off3 i) a + S1x30x32x256.size a ≤ S1x30x34x256.size a
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S1x30x34x256.size a ≤ S8x30x34x256.size a
  hwx10_0 : ∀ i : grid10.Coords, EltTy.bits .bf16 = 32 ∨ (Rect.block (s := S8x30x34x256) S1x30x34x256.size (cc10_transform_0 i) (hinb10_0 i)).WholeWords (EltTy.packing .bf16)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S2304x512.size a ≤ S2304x512.size a
  hwx10_1 : ∀ i : grid10.Coords, EltTy.bits .bf16 = 32 ∨ (Rect.block (s := S2304x512) S2304x512.size (cc10_transform_1 i) (hinb10_1 i)).WholeWords (EltTy.packing .bf16)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x512.size a ≤ S1x512.size a
  hwx10_2 : ∀ i : grid10.Coords, EltTy.bits .f32 = 32 ∨ (Rect.block (s := S1x512) S1x512.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S1x30x34x512.size a ≤ S8x30x34x512.size a
  hwx10_3 : ∀ i : grid10.Coords, EltTy.bits .bf16 = 32 ∨ (Rect.block (s := S8x30x34x512) S1x30x34x512.size (cc10_transform_3 i) (hinb10_3 i)).WholeWords (EltTy.packing .bf16)
  hrank11 : 0 < grid11.rank
  k11_mult1_dvd : ∀ i : grid11.Coords, 28 ∣ (k11_mult1 i).toNat
  k11_off1_inb : ∀ i : grid11.Coords, ∀ a, (k11_off1 i) a + S1x30x32x512.size a ≤ S1x30x34x512.size a
  k11_off2_inb : ∀ i : grid11.Coords, ∀ a, (k11_off2 i) a + S1x30x32x512.size a ≤ S1x30x34x512.size a
  k11_off3_inb : ∀ i : grid11.Coords, ∀ a, (k11_off3 i) a + S1x30x32x512.size a ≤ S1x30x34x512.size a
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S1x30x34x512.size a ≤ S8x30x34x512.size a
  hwx11_0 : ∀ i : grid11.Coords, EltTy.bits .bf16 = 32 ∨ (Rect.block (s := S8x30x34x512) S1x30x34x512.size (cc11_transform_0 i) (hinb11_0 i)).WholeWords (EltTy.packing .bf16)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S4608x512.size a ≤ S4608x512.size a
  hwx11_1 : ∀ i : grid11.Coords, EltTy.bits .bf16 = 32 ∨ (Rect.block (s := S4608x512) S4608x512.size (cc11_transform_1 i) (hinb11_1 i)).WholeWords (EltTy.packing .bf16)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x512.size a ≤ S1x512.size a
  hwx11_2 : ∀ i : grid11.Coords, EltTy.bits .f32 = 32 ∨ (Rect.block (s := S1x512) S1x512.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S1x30x34x512.size a ≤ S8x30x34x512.size a
  hwx11_3 : ∀ i : grid11.Coords, EltTy.bits .bf16 = 32 ∨ (Rect.block (s := S8x30x34x512) S1x30x34x512.size (cc11_transform_3 i) (hinb11_3 i)).WholeWords (EltTy.packing .bf16)
  hrank12 : 0 < grid12.rank
  k12_mult1_dvd : ∀ i : grid12.Coords, 28 ∣ (k12_mult1 i).toNat
  k12_off1_inb : ∀ i : grid12.Coords, ∀ a, (k12_off1 i) a + S1x30x32x512.size a ≤ S1x30x34x512.size a
  k12_off2_inb : ∀ i : grid12.Coords, ∀ a, (k12_off2 i) a + S1x30x32x512.size a ≤ S1x30x34x512.size a
  k12_off3_inb : ∀ i : grid12.Coords, ∀ a, (k12_off3 i) a + S1x30x32x512.size a ≤ S1x30x34x512.size a
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S1x30x34x512.size a ≤ S8x30x34x512.size a
  hwx12_0 : ∀ i : grid12.Coords, EltTy.bits .bf16 = 32 ∨ (Rect.block (s := S8x30x34x512) S1x30x34x512.size (cc12_transform_0 i) (hinb12_0 i)).WholeWords (EltTy.packing .bf16)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S4608x512.size a ≤ S4608x512.size a
  hwx12_1 : ∀ i : grid12.Coords, EltTy.bits .bf16 = 32 ∨ (Rect.block (s := S4608x512) S4608x512.size (cc12_transform_1 i) (hinb12_1 i)).WholeWords (EltTy.packing .bf16)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x512.size a ≤ S1x512.size a
  hwx12_2 : ∀ i : grid12.Coords, EltTy.bits .f32 = 32 ∨ (Rect.block (s := S1x512) S1x512.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S1x14x32x512.size a ≤ S8x14x32x512.size a
  hwx12_3 : ∀ i : grid12.Coords, EltTy.bits .bf16 = 32 ∨ (Rect.block (s := S8x14x32x512) S1x14x32x512.size (cc12_transform_3 i) (hinb12_3 i)).WholeWords (EltTy.packing .bf16)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S1x14x16x1024.size a ≤ S8x14x16x1024.size a
  hwx13_0 : ∀ i : grid13.Coords, EltTy.bits .bf16 = 32 ∨ (Rect.block (s := S8x14x16x1024) S1x14x16x1024.size (cc13_transform_0 i) (hinb13_0 i)).WholeWords (EltTy.packing .bf16)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S1x14x16x512.size a ≤ S8x14x16x512.size a
  hwx13_1 : ∀ i : grid13.Coords, EltTy.bits .bf16 = 32 ∨ (Rect.block (s := S8x14x16x512) S1x14x16x512.size (cc13_transform_1 i) (hinb13_1 i)).WholeWords (EltTy.packing .bf16)
  hrank14 : 0 < grid14.rank
  k14_mult1_dvd : ∀ i : grid14.Coords, 14 ∣ (k14_mult1 i).toNat
  k14_off1_inb : ∀ i : grid14.Coords, ∀ a, (k14_off1 i) a + S1x16x16x512.size a ≤ S1x16x18x512.size a
  k14_off2_inb : ∀ i : grid14.Coords, ∀ a, (k14_off2 i) a + S1x16x16x512.size a ≤ S1x16x18x512.size a
  k14_off3_inb : ∀ i : grid14.Coords, ∀ a, (k14_off3 i) a + S1x16x16x512.size a ≤ S1x16x18x512.size a
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S1x16x18x512.size a ≤ S8x16x18x512.size a
  hwx14_0 : ∀ i : grid14.Coords, EltTy.bits .bf16 = 32 ∨ (Rect.block (s := S8x16x18x512) S1x16x18x512.size (cc14_transform_0 i) (hinb14_0 i)).WholeWords (EltTy.packing .bf16)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S4608x512.size a ≤ S4608x512.size a
  hwx14_1 : ∀ i : grid14.Coords, EltTy.bits .bf16 = 32 ∨ (Rect.block (s := S4608x512) S4608x512.size (cc14_transform_1 i) (hinb14_1 i)).WholeWords (EltTy.packing .bf16)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x512.size a ≤ S1x512.size a
  hwx14_2 : ∀ i : grid14.Coords, EltTy.bits .f32 = 32 ∨ (Rect.block (s := S1x512) S1x512.size (cc14_transform_2 i) (hinb14_2 i)).WholeWords (EltTy.packing .f32)
  hstage14_3 : ∀ j, (stage14_3 j).IsWhole
  nbuf14_3 : grid14.bufCount reads14_3 false = 2
  hreads14_3 : ∀ i i' : grid14.Coords, (∀ a, reads14_3 a = true → i a = i' a) → cc14_transform_3 i = cc14_transform_3 i'
  hinb14_3 : ∀ (i : grid14.Coords) a, (cc14_transform_3 i a + 1) * S1x16x18x512.size a ≤ S8x16x18x512.size a
  hwx14_3 : ∀ i : grid14.Coords, EltTy.bits .bf16 = 32 ∨ (Rect.block (s := S8x16x18x512) S1x16x18x512.size (cc14_transform_3 i) (hinb14_3 i)).WholeWords (EltTy.packing .bf16)
  hrank15 : 0 < grid15.rank
  k15_mult1_dvd : ∀ i : grid15.Coords, 14 ∣ (k15_mult1 i).toNat
  k15_off1_inb : ∀ i : grid15.Coords, ∀ a, (k15_off1 i) a + S1x16x16x512.size a ≤ S1x16x18x512.size a
  k15_off2_inb : ∀ i : grid15.Coords, ∀ a, (k15_off2 i) a + S1x16x16x512.size a ≤ S1x16x18x512.size a
  k15_off3_inb : ∀ i : grid15.Coords, ∀ a, (k15_off3 i) a + S1x16x16x512.size a ≤ S1x16x18x512.size a
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S1x16x18x512.size a ≤ S8x16x18x512.size a
  hwx15_0 : ∀ i : grid15.Coords, EltTy.bits .bf16 = 32 ∨ (Rect.block (s := S8x16x18x512) S1x16x18x512.size (cc15_transform_0 i) (hinb15_0 i)).WholeWords (EltTy.packing .bf16)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S4608x512.size a ≤ S4608x512.size a
  hwx15_1 : ∀ i : grid15.Coords, EltTy.bits .bf16 = 32 ∨ (Rect.block (s := S4608x512) S4608x512.size (cc15_transform_1 i) (hinb15_1 i)).WholeWords (EltTy.packing .bf16)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S1x512.size a ≤ S1x512.size a
  hwx15_2 : ∀ i : grid15.Coords, EltTy.bits .f32 = 32 ∨ (Rect.block (s := S1x512) S1x512.size (cc15_transform_2 i) (hinb15_2 i)).WholeWords (EltTy.packing .f32)
  hstage15_3 : ∀ j, (stage15_3 j).IsWhole
  nbuf15_3 : grid15.bufCount reads15_3 false = 2
  hreads15_3 : ∀ i i' : grid15.Coords, (∀ a, reads15_3 a = true → i a = i' a) → cc15_transform_3 i = cc15_transform_3 i'
  hinb15_3 : ∀ (i : grid15.Coords) a, (cc15_transform_3 i a + 1) * S1x16x18x512.size a ≤ S8x16x18x512.size a
  hwx15_3 : ∀ i : grid15.Coords, EltTy.bits .bf16 = 32 ∨ (Rect.block (s := S8x16x18x512) S1x16x18x512.size (cc15_transform_3 i) (hinb15_3 i)).WholeWords (EltTy.packing .bf16)
  hrank16 : 0 < grid16.rank
  k16_mult1_dvd : ∀ i : grid16.Coords, 14 ∣ (k16_mult1 i).toNat
  k16_off1_inb : ∀ i : grid16.Coords, ∀ a, (k16_off1 i) a + S1x16x16x512.size a ≤ S1x16x18x512.size a
  k16_off2_inb : ∀ i : grid16.Coords, ∀ a, (k16_off2 i) a + S1x16x16x512.size a ≤ S1x16x18x512.size a
  k16_off3_inb : ∀ i : grid16.Coords, ∀ a, (k16_off3 i) a + S1x16x16x512.size a ≤ S1x16x18x512.size a
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S1x16x18x512.size a ≤ S8x16x18x512.size a
  hwx16_0 : ∀ i : grid16.Coords, EltTy.bits .bf16 = 32 ∨ (Rect.block (s := S8x16x18x512) S1x16x18x512.size (cc16_transform_0 i) (hinb16_0 i)).WholeWords (EltTy.packing .bf16)
  hstage16_1 : ∀ j, (stage16_1 j).IsWhole
  nbuf16_1 : grid16.bufCount reads16_1 true = 1
  hreads16_1 : ∀ i i' : grid16.Coords, (∀ a, reads16_1 a = true → i a = i' a) → cc16_transform_1 i = cc16_transform_1 i'
  hinb16_1 : ∀ (i : grid16.Coords) a, (cc16_transform_1 i a + 1) * S4608x512.size a ≤ S4608x512.size a
  hwx16_1 : ∀ i : grid16.Coords, EltTy.bits .bf16 = 32 ∨ (Rect.block (s := S4608x512) S4608x512.size (cc16_transform_1 i) (hinb16_1 i)).WholeWords (EltTy.packing .bf16)
  hstage16_2 : ∀ j, (stage16_2 j).IsWhole
  nbuf16_2 : grid16.bufCount reads16_2 true = 1
  hreads16_2 : ∀ i i' : grid16.Coords, (∀ a, reads16_2 a = true → i a = i' a) → cc16_transform_2 i = cc16_transform_2 i'
  hinb16_2 : ∀ (i : grid16.Coords) a, (cc16_transform_2 i a + 1) * S1x512.size a ≤ S1x512.size a
  hwx16_2 : ∀ i : grid16.Coords, EltTy.bits .f32 = 32 ∨ (Rect.block (s := S1x512) S1x512.size (cc16_transform_2 i) (hinb16_2 i)).WholeWords (EltTy.packing .f32)
  hstage16_3 : ∀ j, (stage16_3 j).IsWhole
  nbuf16_3 : grid16.bufCount reads16_3 false = 2
  hreads16_3 : ∀ i i' : grid16.Coords, (∀ a, reads16_3 a = true → i a = i' a) → cc16_transform_3 i = cc16_transform_3 i'
  hinb16_3 : ∀ (i : grid16.Coords) a, (cc16_transform_3 i a + 1) * S1x7x16x512.size a ≤ S8x7x16x512.size a
  hwx16_3 : ∀ i : grid16.Coords, EltTy.bits .bf16 = 32 ∨ (Rect.block (s := S8x7x16x512) S1x7x16x512.size (cc16_transform_3 i) (hinb16_3 i)).WholeWords (EltTy.packing .bf16)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S1x7x8x1024.size a ≤ S8x7x8x1024.size a
  hwx17_0 : ∀ i : grid17.Coords, EltTy.bits .bf16 = 32 ∨ (Rect.block (s := S8x7x8x1024) S1x7x8x1024.size (cc17_transform_0 i) (hinb17_0 i)).WholeWords (EltTy.packing .bf16)
  hstage17_1 : ∀ j, (stage17_1 j).IsWhole
  nbuf17_1 : grid17.bufCount reads17_1 false = 2
  hreads17_1 : ∀ i i' : grid17.Coords, (∀ a, reads17_1 a = true → i a = i' a) → cc17_transform_1 i = cc17_transform_1 i'
  hinb17_1 : ∀ (i : grid17.Coords) a, (cc17_transform_1 i a + 1) * S1x7x8x512.size a ≤ S8x7x8x512.size a
  hwx17_1 : ∀ i : grid17.Coords, EltTy.bits .bf16 = 32 ∨ (Rect.block (s := S8x7x8x512) S1x7x8x512.size (cc17_transform_1 i) (hinb17_1 i)).WholeWords (EltTy.packing .bf16)

variable [Facts₀]

def dot_S26216x27_S27x64_S26216x64_1_0_0_1_n_n : DotDims S26216x27 S27x64 S26216x64 where
  lhsContracting := [1]
  rhsContracting := [0]
  lhsNonContracting := [0]
  rhsNonContracting := [1]
  lhsBatch := []
  rhsBatch := []
  wf := dot_S26216x27_S27x64_S26216x64_1_0_0_1_n_n_wf
def dot_S7168x576_S576x64_S7168x64_1_0_0_1_n_n : DotDims S7168x576 S576x64 S7168x64 where
  lhsContracting := [1]
  rhsContracting := [0]
  lhsNonContracting := [0]
  rhsNonContracting := [1]
  lhsBatch := []
  rhsBatch := []
  wf := dot_S7168x576_S576x64_S7168x64_1_0_0_1_n_n_wf
def dot_S6272x576_S576x128_S6272x128_1_0_0_1_n_n : DotDims S6272x576 S576x128 S6272x128 where
  lhsContracting := [1]
  rhsContracting := [0]
  lhsNonContracting := [0]
  rhsNonContracting := [1]
  lhsBatch := []
  rhsBatch := []
  wf := dot_S6272x576_S576x128_S6272x128_1_0_0_1_n_n_wf
def dot_S6272x1152_S1152x128_S6272x128_1_0_0_1_n_n : DotDims S6272x1152 S1152x128 S6272x128 where
  lhsContracting := [1]
  rhsContracting := [0]
  lhsNonContracting := [0]
  rhsNonContracting := [1]
  lhsBatch := []
  rhsBatch := []
  wf := dot_S6272x1152_S1152x128_S6272x128_1_0_0_1_n_n_wf
def dot_S3136x1152_S1152x256_S3136x256_1_0_0_1_n_n : DotDims S3136x1152 S1152x256 S3136x256 where
  lhsContracting := [1]
  rhsContracting := [0]
  lhsNonContracting := [0]
  rhsNonContracting := [1]
  lhsBatch := []
  rhsBatch := []
  wf := dot_S3136x1152_S1152x256_S3136x256_1_0_0_1_n_n_wf
def dot_S3136x2304_S2304x256_S3136x256_1_0_0_1_n_n : DotDims S3136x2304 S2304x256 S3136x256 where
  lhsContracting := [1]
  rhsContracting := [0]
  lhsNonContracting := [0]
  rhsNonContracting := [1]
  lhsBatch := []
  rhsBatch := []
  wf := dot_S3136x2304_S2304x256_S3136x256_1_0_0_1_n_n_wf
def dot_S896x2304_S2304x512_S896x512_1_0_0_1_n_n : DotDims S896x2304 S2304x512 S896x512 where
  lhsContracting := [1]
  rhsContracting := [0]
  lhsNonContracting := [0]
  rhsNonContracting := [1]
  lhsBatch := []
  rhsBatch := []
  wf := dot_S896x2304_S2304x512_S896x512_1_0_0_1_n_n_wf
def dot_S896x4608_S4608x512_S896x512_1_0_0_1_n_n : DotDims S896x4608 S4608x512 S896x512 where
  lhsContracting := [1]
  rhsContracting := [0]
  lhsNonContracting := [0]
  rhsNonContracting := [1]
  lhsBatch := []
  rhsBatch := []
  wf := dot_S896x4608_S4608x512_S896x512_1_0_0_1_n_n_wf
def dot_S224x4608_S4608x512_S224x512_1_0_0_1_n_n : DotDims S224x4608 S4608x512 S224x512 where
  lhsContracting := [1]
  rhsContracting := [0]
  lhsNonContracting := [0]
  rhsNonContracting := [1]
  lhsBatch := []
  rhsBatch := []
  wf := dot_S224x4608_S4608x512_S224x512_1_0_0_1_n_n_wf

abbrev win0_0 : Pipeline.Window sig grid0 :=
  Pipeline.Window.ofSpec (Memref.whole main_v12) S1x113x232x27.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S27x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x113x232x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v15) S1x226x232x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S576x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x16x224x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v19) S1x112x112x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S1x112x112x64.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev win3_0 : Pipeline.Window sig grid3 :=
  Pipeline.Window.ofSpec (Memref.whole main_v21) S1x114x114x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v23) S576x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg6) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v24) S1x56x112x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v25) S1x114x114x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v27) S1152x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg8) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v28) S1x28x112x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v29) S1x56x56x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v30) S1x56x56x128.size cc5_transform_1 reads5_1 true false 2 stage5_1 sem5_1
    hrank5 hreads5_1 hinb5_1 nbuf5_1 (Memref.isWhole_whole _) hwx5_1 hstage5_1

abbrev win5 : Fin 2 → Pipeline.Window sig grid5 := fun | 0 => win5_0 | 1 => win5_1 | ⟨_ + 2, h⟩ => absurd h (Nat.not_lt.2 (Nat.le_add_left _ _))
abbrev spec5 : Fin 2 → Pipeline.WinSpec sig grid5.rank := fun w => (win5 w).toWinSpec

abbrev win6_0 : Pipeline.Window sig grid6 :=
  Pipeline.Window.ofSpec (Memref.whole main_v31) S1x58x58x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v33) S1152x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg10) S1x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v34) S1x58x58x256.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v34) S1x58x58x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v36) S2304x256.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_arg12) S1x256.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v37) S1x58x58x256.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v37) S1x58x58x256.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v39) S2304x256.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_arg14) S1x256.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v40) S1x28x56x256.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v41) S1x28x28x512.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v42) S1x28x28x256.size cc9_transform_1 reads9_1 true false 2 stage9_1 sem9_1
    hrank9 hreads9_1 hinb9_1 nbuf9_1 (Memref.isWhole_whole _) hwx9_1 hstage9_1

abbrev win9 : Fin 2 → Pipeline.Window sig grid9 := fun | 0 => win9_0 | 1 => win9_1 | ⟨_ + 2, h⟩ => absurd h (Nat.not_lt.2 (Nat.le_add_left _ _))
abbrev spec9 : Fin 2 → Pipeline.WinSpec sig grid9.rank := fun w => (win9 w).toWinSpec

abbrev win10_0 : Pipeline.Window sig grid10 :=
  Pipeline.Window.ofSpec (Memref.whole main_v43) S1x30x34x256.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v45) S2304x512.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_arg16) S1x512.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v46) S1x30x34x512.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev win11_0 : Pipeline.Window sig grid11 :=
  Pipeline.Window.ofSpec (Memref.whole main_v46) S1x30x34x512.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v48) S4608x512.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_arg18) S1x512.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v49) S1x30x34x512.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

abbrev win12_0 : Pipeline.Window sig grid12 :=
  Pipeline.Window.ofSpec (Memref.whole main_v49) S1x30x34x512.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v51) S4608x512.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_arg20) S1x512.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v52) S1x14x32x512.size cc12_transform_3 reads12_3 true false 2 stage12_3 sem12_3
    hrank12 hreads12_3 hinb12_3 nbuf12_3 (Memref.isWhole_whole _) hwx12_3 hstage12_3

abbrev win12 : Fin 4 → Pipeline.Window sig grid12 := fun | 0 => win12_0 | 1 => win12_1 | 2 => win12_2 | 3 => win12_3 | ⟨_ + 4, h⟩ => absurd h (Nat.not_lt.2 (Nat.le_add_left _ _))
abbrev spec12 : Fin 4 → Pipeline.WinSpec sig grid12.rank := fun w => (win12 w).toWinSpec

abbrev win13_0 : Pipeline.Window sig grid13 :=
  Pipeline.Window.ofSpec (Memref.whole main_v53) S1x14x16x1024.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v54) S1x14x16x512.size cc13_transform_1 reads13_1 true false 2 stage13_1 sem13_1
    hrank13 hreads13_1 hinb13_1 nbuf13_1 (Memref.isWhole_whole _) hwx13_1 hstage13_1

abbrev win13 : Fin 2 → Pipeline.Window sig grid13 := fun | 0 => win13_0 | 1 => win13_1 | ⟨_ + 2, h⟩ => absurd h (Nat.not_lt.2 (Nat.le_add_left _ _))
abbrev spec13 : Fin 2 → Pipeline.WinSpec sig grid13.rank := fun w => (win13 w).toWinSpec

abbrev win14_0 : Pipeline.Window sig grid14 :=
  Pipeline.Window.ofSpec (Memref.whole main_v55) S1x16x18x512.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v57) S4608x512.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_arg22) S1x512.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v58) S1x16x18x512.size cc14_transform_3 reads14_3 true false 2 stage14_3 sem14_3
    hrank14 hreads14_3 hinb14_3 nbuf14_3 (Memref.isWhole_whole _) hwx14_3 hstage14_3

abbrev win14 : Fin 4 → Pipeline.Window sig grid14 := fun | 0 => win14_0 | 1 => win14_1 | 2 => win14_2 | 3 => win14_3 | ⟨_ + 4, h⟩ => absurd h (Nat.not_lt.2 (Nat.le_add_left _ _))
abbrev spec14 : Fin 4 → Pipeline.WinSpec sig grid14.rank := fun w => (win14 w).toWinSpec

abbrev win15_0 : Pipeline.Window sig grid15 :=
  Pipeline.Window.ofSpec (Memref.whole main_v58) S1x16x18x512.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v60) S4608x512.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_arg24) S1x512.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v61) S1x16x18x512.size cc15_transform_3 reads15_3 true false 2 stage15_3 sem15_3
    hrank15 hreads15_3 hinb15_3 nbuf15_3 (Memref.isWhole_whole _) hwx15_3 hstage15_3

abbrev win15 : Fin 4 → Pipeline.Window sig grid15 := fun | 0 => win15_0 | 1 => win15_1 | 2 => win15_2 | 3 => win15_3 | ⟨_ + 4, h⟩ => absurd h (Nat.not_lt.2 (Nat.le_add_left _ _))
abbrev spec15 : Fin 4 → Pipeline.WinSpec sig grid15.rank := fun w => (win15 w).toWinSpec

abbrev win16_0 : Pipeline.Window sig grid16 :=
  Pipeline.Window.ofSpec (Memref.whole main_v61) S1x16x18x512.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v63) S4608x512.size cc16_transform_1 reads16_1 false true 1 stage16_1 sem16_1
    hrank16 hreads16_1 hinb16_1 nbuf16_1 (Memref.isWhole_whole _) hwx16_1 hstage16_1

abbrev win16_2 : Pipeline.Window sig grid16 :=
  Pipeline.Window.ofSpec (Memref.whole main_arg26) S1x512.size cc16_transform_2 reads16_2 false true 1 stage16_2 sem16_2
    hrank16 hreads16_2 hinb16_2 nbuf16_2 (Memref.isWhole_whole _) hwx16_2 hstage16_2

abbrev win16_3 : Pipeline.Window sig grid16 :=
  Pipeline.Window.ofSpec (Memref.whole main_v64) S1x7x16x512.size cc16_transform_3 reads16_3 true false 2 stage16_3 sem16_3
    hrank16 hreads16_3 hinb16_3 nbuf16_3 (Memref.isWhole_whole _) hwx16_3 hstage16_3

abbrev win16 : Fin 4 → Pipeline.Window sig grid16 := fun | 0 => win16_0 | 1 => win16_1 | 2 => win16_2 | 3 => win16_3 | ⟨_ + 4, h⟩ => absurd h (Nat.not_lt.2 (Nat.le_add_left _ _))
abbrev spec16 : Fin 4 → Pipeline.WinSpec sig grid16.rank := fun w => (win16 w).toWinSpec

abbrev win17_0 : Pipeline.Window sig grid17 :=
  Pipeline.Window.ofSpec (Memref.whole main_v65) S1x7x8x1024.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_v66) S1x7x8x512.size cc17_transform_1 reads17_1 true false 2 stage17_1 sem17_1
    hrank17 hreads17_1 hinb17_1 nbuf17_1 (Memref.isWhole_whole _) hwx17_1 hstage17_1

abbrev win17 : Fin 2 → Pipeline.Window sig grid17 := fun | 0 => win17_0 | 1 => win17_1 | ⟨_ + 2, h⟩ => absurd h (Nat.not_lt.2 (Nat.le_add_left _ _))
abbrev spec17 : Fin 2 → Pipeline.WinSpec sig grid17.rank := fun w => (win17 w).toWinSpec

class Facts : Prop extends Facts₀ where

variable [Facts]
-- ==== ReferenceIdeal.lean ====
abbrev S8x3x224x224 : Shape := ⟨4, ![8, 3, 224, 224]⟩
abbrev S9x3x64 : Shape := ⟨3, ![9, 3, 64]⟩
abbrev S1x64 : Shape := ⟨2, ![1, 64]⟩
abbrev S9x64x64 : Shape := ⟨3, ![9, 64, 64]⟩
abbrev S9x64x128 : Shape := ⟨3, ![9, 64, 128]⟩
abbrev S1x128 : Shape := ⟨2, ![1, 128]⟩
abbrev S9x128x128 : Shape := ⟨3, ![9, 128, 128]⟩
abbrev S9x128x256 : Shape := ⟨3, ![9, 128, 256]⟩
abbrev S1x256 : Shape := ⟨2, ![1, 256]⟩
abbrev S9x256x256 : Shape := ⟨3, ![9, 256, 256]⟩
abbrev S9x256x512 : Shape := ⟨3, ![9, 256, 512]⟩
abbrev S1x512 : Shape := ⟨2, ![1, 512]⟩
abbrev S9x512x512 : Shape := ⟨3, ![9, 512, 512]⟩
abbrev S8x224x224x3 : Shape := ⟨4, ![8, 224, 224, 3]⟩
abbrev S_ : Shape := ⟨0, ![]⟩
abbrev S8x226x226x3 : Shape := ⟨4, ![8, 226, 226, 3]⟩
abbrev S8x224x224x64 : Shape := ⟨4, ![8, 224, 224, 64]⟩
abbrev S1x226x226x3 : Shape := ⟨4, ![1, 226, 226, 3]⟩
abbrev S1x1x224x64 : Shape := ⟨4, ![1, 1, 224, 64]⟩
abbrev S224x64 : Shape := ⟨2, ![224, 64]⟩
abbrev S1x1x224x3 : Shape := ⟨4, ![1, 1, 224, 3]⟩
abbrev S1x224x3 : Shape := ⟨3, ![1, 224, 3]⟩
abbrev S224x3 : Shape := ⟨2, ![224, 3]⟩
abbrev S1x3x64 : Shape := ⟨3, ![1, 3, 64]⟩
abbrev S3x64 : Shape := ⟨2, ![3, 64]⟩
abbrev S1x224x64 : Shape := ⟨3, ![1, 224, 64]⟩
abbrev S8x226x226x64 : Shape := ⟨4, ![8, 226, 226, 64]⟩
abbrev S1x226x226x64 : Shape := ⟨4, ![1, 226, 226, 64]⟩
abbrev S1x64x64 : Shape := ⟨3, ![1, 64, 64]⟩
abbrev S64x64 : Shape := ⟨2, ![64, 64]⟩
abbrev S8x224x112x128 : Shape := ⟨4, ![8, 224, 112, 128]⟩
abbrev S8x112x112x64 : Shape := ⟨4, ![8, 112, 112, 64]⟩
abbrev S1x224x112x128 : Shape := ⟨4, ![1, 224, 112, 128]⟩
abbrev S1x112x112x64 : Shape := ⟨4, ![1, 112, 112, 64]⟩
abbrev S224x112x128 : Shape := ⟨3, ![224, 112, 128]⟩
abbrev S112x2x112x128 : Shape := ⟨4, ![112, 2, 112, 128]⟩
abbrev S112x112x128 : Shape := ⟨3, ![112, 112, 128]⟩
abbrev S112x112x64 : Shape := ⟨3, ![112, 112, 64]⟩
abbrev S8x114x114x64 : Shape := ⟨4, ![8, 114, 114, 64]⟩
abbrev S8x112x112x128 : Shape := ⟨4, ![8, 112, 112, 128]⟩
abbrev S1x114x114x64 : Shape := ⟨4, ![1, 114, 114, 64]⟩
abbrev S1x2x112x128 : Shape := ⟨4, ![1, 2, 112, 128]⟩
abbrev S224x128 : Shape := ⟨2, ![224, 128]⟩
abbrev S1x2x112x64 : Shape := ⟨4, ![1, 2, 112, 64]⟩
abbrev S2x112x64 : Shape := ⟨3, ![2, 112, 64]⟩
abbrev S1x64x128 : Shape := ⟨3, ![1, 64, 128]⟩
abbrev S64x128 : Shape := ⟨2, ![64, 128]⟩
abbrev S2x112x128 : Shape := ⟨3, ![2, 112, 128]⟩
abbrev S8x114x114x128 : Shape := ⟨4, ![8, 114, 114, 128]⟩
abbrev S1x114x114x128 : Shape := ⟨4, ![1, 114, 114, 128]⟩
abbrev S1x128x128 : Shape := ⟨3, ![1, 128, 128]⟩
abbrev S128x128 : Shape := ⟨2, ![128, 128]⟩
abbrev S8x112x56x256 : Shape := ⟨4, ![8, 112, 56, 256]⟩
abbrev S8x56x56x128 : Shape := ⟨4, ![8, 56, 56, 128]⟩
abbrev S1x112x56x256 : Shape := ⟨4, ![1, 112, 56, 256]⟩
abbrev S1x56x56x128 : Shape := ⟨4, ![1, 56, 56, 128]⟩
abbrev S112x56x256 : Shape := ⟨3, ![112, 56, 256]⟩
abbrev S56x2x56x256 : Shape := ⟨4, ![56, 2, 56, 256]⟩
abbrev S56x56x256 : Shape := ⟨3, ![56, 56, 256]⟩
abbrev S56x56x128 : Shape := ⟨3, ![56, 56, 128]⟩
abbrev S8x58x58x128 : Shape := ⟨4, ![8, 58, 58, 128]⟩
abbrev S8x56x56x256 : Shape := ⟨4, ![8, 56, 56, 256]⟩
abbrev S1x58x58x128 : Shape := ⟨4, ![1, 58, 58, 128]⟩
abbrev S1x4x56x128 : Shape := ⟨4, ![1, 4, 56, 128]⟩
abbrev S4x56x128 : Shape := ⟨3, ![4, 56, 128]⟩
abbrev S8x58x58x256 : Shape := ⟨4, ![8, 58, 58, 256]⟩
abbrev S1x58x58x256 : Shape := ⟨4, ![1, 58, 58, 256]⟩
abbrev S9x256x128 : Shape := ⟨3, ![9, 256, 128]⟩
abbrev S1x4x56x256 : Shape := ⟨4, ![1, 4, 56, 256]⟩
abbrev S4x56x256 : Shape := ⟨3, ![4, 56, 256]⟩
abbrev S224x256 : Shape := ⟨2, ![224, 256]⟩
abbrev S1x256x128 : Shape := ⟨3, ![1, 256, 128]⟩
abbrev S256x128 : Shape := ⟨2, ![256, 128]⟩
abbrev S8x56x28x512 : Shape := ⟨4, ![8, 56, 28, 512]⟩
abbrev S8x28x28x256 : Shape := ⟨4, ![8, 28, 28, 256]⟩
abbrev S1x56x28x512 : Shape := ⟨4, ![1, 56, 28, 512]⟩
abbrev S1x28x28x256 : Shape := ⟨4, ![1, 28, 28, 256]⟩
abbrev S56x28x512 : Shape := ⟨3, ![56, 28, 512]⟩
abbrev S28x2x28x512 : Shape := ⟨4, ![28, 2, 28, 512]⟩
abbrev S28x28x512 : Shape := ⟨3, ![28, 28, 512]⟩
abbrev S28x28x256 : Shape := ⟨3, ![28, 28, 256]⟩
abbrev S8x30x30x256 : Shape := ⟨4, ![8, 30, 30, 256]⟩
abbrev S8x28x28x512 : Shape := ⟨4, ![8, 28, 28, 512]⟩
abbrev S1x30x30x256 : Shape := ⟨4, ![1, 30, 30, 256]⟩
abbrev S1x7x28x128 : Shape := ⟨4, ![1, 7, 28, 128]⟩
abbrev S196x128 : Shape := ⟨2, ![196, 128]⟩
abbrev S1x7x28x256 : Shape := ⟨4, ![1, 7, 28, 256]⟩
abbrev S7x28x256 : Shape := ⟨3, ![7, 28, 256]⟩
abbrev S196x256 : Shape := ⟨2, ![196, 256]⟩
abbrev S7x28x128 : Shape := ⟨3, ![7, 28, 128]⟩
abbrev S8x30x30x512 : Shape := ⟨4, ![8, 30, 30, 512]⟩
abbrev S1x30x30x512 : Shape := ⟨4, ![1, 30, 30, 512]⟩
abbrev S9x512x128 : Shape := ⟨3, ![9, 512, 128]⟩
abbrev S1x7x28x512 : Shape := ⟨4, ![1, 7, 28, 512]⟩
abbrev S7x28x512 : Shape := ⟨3, ![7, 28, 512]⟩
abbrev S196x512 : Shape := ⟨2, ![196, 512]⟩
abbrev S1x512x128 : Shape := ⟨3, ![1, 512, 128]⟩
abbrev S512x128 : Shape := ⟨2, ![512, 128]⟩
abbrev S8x28x14x1024 : Shape := ⟨4, ![8, 28, 14, 1024]⟩
abbrev S8x14x14x512 : Shape := ⟨4, ![8, 14, 14, 512]⟩
abbrev S1x28x14x1024 : Shape := ⟨4, ![1, 28, 14, 1024]⟩
abbrev S1x14x14x512 : Shape := ⟨4, ![1, 14, 14, 512]⟩
abbrev S28x14x1024 : Shape := ⟨3, ![28, 14, 1024]⟩
abbrev S14x2x14x1024 : Shape := ⟨4, ![14, 2, 14, 1024]⟩
abbrev S14x14x1024 : Shape := ⟨3, ![14, 14, 1024]⟩
abbrev S14x14x512 : Shape := ⟨3, ![14, 14, 512]⟩
abbrev S8x16x16x512 : Shape := ⟨4, ![8, 16, 16, 512]⟩
abbrev S1x16x16x512 : Shape := ⟨4, ![1, 16, 16, 512]⟩
abbrev S1x14x14x128 : Shape := ⟨4, ![1, 14, 14, 128]⟩
abbrev S14x14x128 : Shape := ⟨3, ![14, 14, 128]⟩
abbrev S8x14x7x1024 : Shape := ⟨4, ![8, 14, 7, 1024]⟩
abbrev S8x7x7x512 : Shape := ⟨4, ![8, 7, 7, 512]⟩
abbrev S1x14x7x1024 : Shape := ⟨4, ![1, 14, 7, 1024]⟩
abbrev S1x7x7x512 : Shape := ⟨4, ![1, 7, 7, 512]⟩
abbrev S14x7x1024 : Shape := ⟨3, ![14, 7, 1024]⟩
abbrev S7x2x7x1024 : Shape := ⟨4, ![7, 2, 7, 1024]⟩
abbrev S7x7x1024 : Shape := ⟨3, ![7, 7, 1024]⟩
abbrev S7x7x512 : Shape := ⟨3, ![7, 7, 512]⟩
abbrev S8x128x56x56 : Shape := ⟨4, ![8, 128, 56, 56]⟩
abbrev S8x256x28x28 : Shape := ⟨4, ![8, 256, 28, 28]⟩
abbrev S8x512x14x14 : Shape := ⟨4, ![8, 512, 14, 14]⟩
abbrev S8x512x7x7 : Shape := ⟨4, ![8, 512, 7, 7]⟩

abbrev nBuf : Space → Nat
  | .hbm => 94
  | .vmem => 116
  | .smem => 0
  | _ => 0

abbrev bufTy : (tb : Table) → Fin (tcTables nBuf tb) → BufTy
  | .hbm, ⟨0, _⟩ => ⟨S8x3x224x224, .f32⟩
  | .hbm, ⟨1, _⟩ => ⟨S9x3x64, .f32⟩
  | .hbm, ⟨2, _⟩ => ⟨S1x64, .f32⟩
  | .hbm, ⟨3, _⟩ => ⟨S9x64x64, .f32⟩
  | .hbm, ⟨4, _⟩ => ⟨S1x64, .f32⟩
  | .hbm, ⟨5, _⟩ => ⟨S9x64x128, .f32⟩
  | .hbm, ⟨6, _⟩ => ⟨S1x128, .f32⟩
  | .hbm, ⟨7, _⟩ => ⟨S9x128x128, .f32⟩
  | .hbm, ⟨8, _⟩ => ⟨S1x128, .f32⟩
  | .hbm, ⟨9, _⟩ => ⟨S9x128x256, .f32⟩
  | .hbm, ⟨10, _⟩ => ⟨S1x256, .f32⟩
  | .hbm, ⟨11, _⟩ => ⟨S9x256x256, .f32⟩
  | .hbm, ⟨12, _⟩ => ⟨S1x256, .f32⟩
  | .hbm, ⟨13, _⟩ => ⟨S9x256x256, .f32⟩
  | .hbm, ⟨14, _⟩ => ⟨S1x256, .f32⟩
  | .hbm, ⟨15, _⟩ => ⟨S9x256x512, .f32⟩
  | .hbm, ⟨16, _⟩ => ⟨S1x512, .f32⟩
  | .hbm, ⟨17, _⟩ => ⟨S9x512x512, .f32⟩
  | .hbm, ⟨18, _⟩ => ⟨S1x512, .f32⟩
  | .hbm, ⟨19, _⟩ => ⟨S9x512x512, .f32⟩
  | .hbm, ⟨20, _⟩ => ⟨S1x512, .f32⟩
  | .hbm, ⟨21, _⟩ => ⟨S9x512x512, .f32⟩
  | .hbm, ⟨22, _⟩ => ⟨S1x512, .f32⟩
  | .hbm, ⟨23, _⟩ => ⟨S9x512x512, .f32⟩
  | .hbm, ⟨24, _⟩ => ⟨S1x512, .f32⟩
  | .hbm, ⟨25, _⟩ => ⟨S9x512x512, .f32⟩
  | .hbm, ⟨26, _⟩ => ⟨S1x512, .f32⟩
  | .hbm, ⟨27, _⟩ => ⟨S8x224x224x3, .f32⟩
  | .hbm, ⟨28, _⟩ => ⟨S_, .i32⟩
  | .hbm, ⟨29, _⟩ => ⟨S_, .f32⟩
  | .hbm, ⟨30, _⟩ => ⟨S8x226x226x3, .f32⟩
  | .hbm, ⟨31, _⟩ => ⟨S8x224x224x64, .f32⟩
  | .hbm, ⟨32, _⟩ => ⟨S_, .i32⟩
  | .hbm, ⟨33, _⟩ => ⟨S_, .f32⟩
  | .hbm, ⟨34, _⟩ => ⟨S8x226x226x64, .f32⟩
  | .hbm, ⟨35, _⟩ => ⟨S8x224x224x64, .f32⟩
  | .hbm, ⟨36, _⟩ => ⟨S8x224x112x128, .f32⟩
  | .hbm, ⟨37, _⟩ => ⟨S8x112x112x64, .f32⟩
  | .hbm, ⟨38, _⟩ => ⟨S_, .i32⟩
  | .hbm, ⟨39, _⟩ => ⟨S_, .f32⟩
  | .hbm, ⟨40, _⟩ => ⟨S8x114x114x64, .f32⟩
  | .hbm, ⟨41, _⟩ => ⟨S8x112x112x128, .f32⟩
  | .hbm, ⟨42, _⟩ => ⟨S_, .i32⟩
  | .hbm, ⟨43, _⟩ => ⟨S_, .f32⟩
  | .hbm, ⟨44, _⟩ => ⟨S8x114x114x128, .f32⟩
  | .hbm, ⟨45, _⟩ => ⟨S8x112x112x128, .f32⟩
  | .hbm, ⟨46, _⟩ => ⟨S8x112x56x256, .f32⟩
  | .hbm, ⟨47, _⟩ => ⟨S8x56x56x128, .f32⟩
  | .hbm, ⟨48, _⟩ => ⟨S_, .i32⟩
  | .hbm, ⟨49, _⟩ => ⟨S_, .f32⟩
  | .hbm, ⟨50, _⟩ => ⟨S8x58x58x128, .f32⟩
  | .hbm, ⟨51, _⟩ => ⟨S8x56x56x256, .f32⟩
  | .hbm, ⟨52, _⟩ => ⟨S_, .i32⟩
  | .hbm, ⟨53, _⟩ => ⟨S_, .f32⟩
  | .hbm, ⟨54, _⟩ => ⟨S8x58x58x256, .f32⟩
  | .hbm, ⟨55, _⟩ => ⟨S8x56x56x256, .f32⟩
  | .hbm, ⟨56, _⟩ => ⟨S_, .i32⟩
  | .hbm, ⟨57, _⟩ => ⟨S_, .f32⟩
  | .hbm, ⟨58, _⟩ => ⟨S8x58x58x256, .f32⟩
  | .hbm, ⟨59, _⟩ => ⟨S8x56x56x256, .f32⟩
  | .hbm, ⟨60, _⟩ => ⟨S8x56x28x512, .f32⟩
  | .hbm, ⟨61, _⟩ => ⟨S8x28x28x256, .f32⟩
  | .hbm, ⟨62, _⟩ => ⟨S_, .i32⟩
  | .hbm, ⟨63, _⟩ => ⟨S_, .f32⟩
  | .hbm, ⟨64, _⟩ => ⟨S8x30x30x256, .f32⟩
  | .hbm, ⟨65, _⟩ => ⟨S8x28x28x512, .f32⟩
  | .hbm, ⟨66, _⟩ => ⟨S_, .i32⟩
  | .hbm, ⟨67, _⟩ => ⟨S_, .f32⟩
  | .hbm, ⟨68, _⟩ => ⟨S8x30x30x512, .f32⟩
  | .hbm, ⟨69, _⟩ => ⟨S8x28x28x512, .f32⟩
  | .hbm, ⟨70, _⟩ => ⟨S_, .i32⟩
  | .hbm, ⟨71, _⟩ => ⟨S_, .f32⟩
  | .hbm, ⟨72, _⟩ => ⟨S8x30x30x512, .f32⟩
  | .hbm, ⟨73, _⟩ => ⟨S8x28x28x512, .f32⟩
  | .hbm, ⟨74, _⟩ => ⟨S8x28x14x1024, .f32⟩
  | .hbm, ⟨75, _⟩ => ⟨S8x14x14x512, .f32⟩
  | .hbm, ⟨76, _⟩ => ⟨S_, .i32⟩
  | .hbm, ⟨77, _⟩ => ⟨S_, .f32⟩
  | .hbm, ⟨78, _⟩ => ⟨S8x16x16x512, .f32⟩
  | .hbm, ⟨79, _⟩ => ⟨S8x14x14x512, .f32⟩
  | .hbm, ⟨80, _⟩ => ⟨S_, .i32⟩
  | .hbm, ⟨81, _⟩ => ⟨S_, .f32⟩
  | .hbm, ⟨82, _⟩ => ⟨S8x16x16x512, .f32⟩
  | .hbm, ⟨83, _⟩ => ⟨S8x14x14x512, .f32⟩
  | .hbm, ⟨84, _⟩ => ⟨S_, .i32⟩
  | .hbm, ⟨85, _⟩ => ⟨S_, .f32⟩
  | .hbm, ⟨86, _⟩ => ⟨S8x16x16x512, .f32⟩
  | .hbm, ⟨87, _⟩ => ⟨S8x14x14x512, .f32⟩
  | .hbm, ⟨88, _⟩ => ⟨S8x14x7x1024, .f32⟩
  | .hbm, ⟨89, _⟩ => ⟨S8x7x7x512, .f32⟩
  | .hbm, ⟨90, _⟩ => ⟨S8x128x56x56, .f32⟩
  | .hbm, ⟨91, _⟩ => ⟨S8x256x28x28, .f32⟩
  | .hbm, ⟨92, _⟩ => ⟨S8x512x14x14, .f32⟩
  | .hbm, ⟨93, _⟩ => ⟨S8x512x7x7, .f32⟩
  | .local _ .vmem, ⟨0, _⟩ => ⟨S1x226x226x3, .f32⟩
  | .local _ .vmem, ⟨1, _⟩ => ⟨S1x226x226x3, .f32⟩
  | .local _ .vmem, ⟨2, _⟩ => ⟨S9x3x64, .f32⟩
  | .local _ .vmem, ⟨3, _⟩ => ⟨S1x64, .f32⟩
  | .local _ .vmem, ⟨4, _⟩ => ⟨S1x1x224x64, .f32⟩
  | .local _ .vmem, ⟨5, _⟩ => ⟨S1x1x224x64, .f32⟩
  | .local _ .vmem, ⟨6, _⟩ => ⟨S1x226x226x64, .f32⟩
  | .local _ .vmem, ⟨7, _⟩ => ⟨S1x226x226x64, .f32⟩
  | .local _ .vmem, ⟨8, _⟩ => ⟨S9x64x64, .f32⟩
  | .local _ .vmem, ⟨9, _⟩ => ⟨S1x64, .f32⟩
  | .local _ .vmem, ⟨10, _⟩ => ⟨S1x1x224x64, .f32⟩
  | .local _ .vmem, ⟨11, _⟩ => ⟨S1x1x224x64, .f32⟩
  | .local _ .vmem, ⟨12, _⟩ => ⟨S1x224x112x128, .f32⟩
  | .local _ .vmem, ⟨13, _⟩ => ⟨S1x224x112x128, .f32⟩
  | .local _ .vmem, ⟨14, _⟩ => ⟨S1x112x112x64, .f32⟩
  | .local _ .vmem, ⟨15, _⟩ => ⟨S1x112x112x64, .f32⟩
  | .local _ .vmem, ⟨16, _⟩ => ⟨S1x114x114x64, .f32⟩
  | .local _ .vmem, ⟨17, _⟩ => ⟨S1x114x114x64, .f32⟩
  | .local _ .vmem, ⟨18, _⟩ => ⟨S9x64x128, .f32⟩
  | .local _ .vmem, ⟨19, _⟩ => ⟨S1x128, .f32⟩
  | .local _ .vmem, ⟨20, _⟩ => ⟨S1x2x112x128, .f32⟩
  | .local _ .vmem, ⟨21, _⟩ => ⟨S1x2x112x128, .f32⟩
  | .local _ .vmem, ⟨22, _⟩ => ⟨S1x114x114x128, .f32⟩
  | .local _ .vmem, ⟨23, _⟩ => ⟨S1x114x114x128, .f32⟩
  | .local _ .vmem, ⟨24, _⟩ => ⟨S9x128x128, .f32⟩
  | .local _ .vmem, ⟨25, _⟩ => ⟨S1x128, .f32⟩
  | .local _ .vmem, ⟨26, _⟩ => ⟨S1x2x112x128, .f32⟩
  | .local _ .vmem, ⟨27, _⟩ => ⟨S1x2x112x128, .f32⟩
  | .local _ .vmem, ⟨28, _⟩ => ⟨S1x112x56x256, .f32⟩
  | .local _ .vmem, ⟨29, _⟩ => ⟨S1x112x56x256, .f32⟩
  | .local _ .vmem, ⟨30, _⟩ => ⟨S1x56x56x128, .f32⟩
  | .local _ .vmem, ⟨31, _⟩ => ⟨S1x56x56x128, .f32⟩
  | .local _ .vmem, ⟨32, _⟩ => ⟨S1x58x58x128, .f32⟩
  | .local _ .vmem, ⟨33, _⟩ => ⟨S1x58x58x128, .f32⟩
  | .local _ .vmem, ⟨34, _⟩ => ⟨S9x128x128, .f32⟩
  | .local _ .vmem, ⟨35, _⟩ => ⟨S9x128x128, .f32⟩
  | .local _ .vmem, ⟨36, _⟩ => ⟨S1x128, .f32⟩
  | .local _ .vmem, ⟨37, _⟩ => ⟨S1x128, .f32⟩
  | .local _ .vmem, ⟨38, _⟩ => ⟨S1x4x56x128, .f32⟩
  | .local _ .vmem, ⟨39, _⟩ => ⟨S1x4x56x128, .f32⟩
  | .local _ .vmem, ⟨40, _⟩ => ⟨S1x58x58x256, .f32⟩
  | .local _ .vmem, ⟨41, _⟩ => ⟨S1x58x58x256, .f32⟩
  | .local _ .vmem, ⟨42, _⟩ => ⟨S9x256x128, .f32⟩
  | .local _ .vmem, ⟨43, _⟩ => ⟨S9x256x128, .f32⟩
  | .local _ .vmem, ⟨44, _⟩ => ⟨S1x128, .f32⟩
  | .local _ .vmem, ⟨45, _⟩ => ⟨S1x128, .f32⟩
  | .local _ .vmem, ⟨46, _⟩ => ⟨S1x4x56x128, .f32⟩
  | .local _ .vmem, ⟨47, _⟩ => ⟨S1x4x56x128, .f32⟩
  | .local _ .vmem, ⟨48, _⟩ => ⟨S1x58x58x256, .f32⟩
  | .local _ .vmem, ⟨49, _⟩ => ⟨S1x58x58x256, .f32⟩
  | .local _ .vmem, ⟨50, _⟩ => ⟨S9x256x128, .f32⟩
  | .local _ .vmem, ⟨51, _⟩ => ⟨S9x256x128, .f32⟩
  | .local _ .vmem, ⟨52, _⟩ => ⟨S1x128, .f32⟩
  | .local _ .vmem, ⟨53, _⟩ => ⟨S1x128, .f32⟩
  | .local _ .vmem, ⟨54, _⟩ => ⟨S1x4x56x128, .f32⟩
  | .local _ .vmem, ⟨55, _⟩ => ⟨S1x4x56x128, .f32⟩
  | .local _ .vmem, ⟨56, _⟩ => ⟨S1x56x28x512, .f32⟩
  | .local _ .vmem, ⟨57, _⟩ => ⟨S1x56x28x512, .f32⟩
  | .local _ .vmem, ⟨58, _⟩ => ⟨S1x28x28x256, .f32⟩
  | .local _ .vmem, ⟨59, _⟩ => ⟨S1x28x28x256, .f32⟩
  | .local _ .vmem, ⟨60, _⟩ => ⟨S1x30x30x256, .f32⟩
  | .local _ .vmem, ⟨61, _⟩ => ⟨S1x30x30x256, .f32⟩
  | .local _ .vmem, ⟨62, _⟩ => ⟨S9x256x128, .f32⟩
  | .local _ .vmem, ⟨63, _⟩ => ⟨S9x256x128, .f32⟩
  | .local _ .vmem, ⟨64, _⟩ => ⟨S1x128, .f32⟩
  | .local _ .vmem, ⟨65, _⟩ => ⟨S1x128, .f32⟩
  | .local _ .vmem, ⟨66, _⟩ => ⟨S1x7x28x128, .f32⟩
  | .local _ .vmem, ⟨67, _⟩ => ⟨S1x7x28x128, .f32⟩
  | .local _ .vmem, ⟨68, _⟩ => ⟨S1x30x30x512, .f32⟩
  | .local _ .vmem, ⟨69, _⟩ => ⟨S1x30x30x512, .f32⟩
  | .local _ .vmem, ⟨70, _⟩ => ⟨S9x512x128, .f32⟩
  | .local _ .vmem, ⟨71, _⟩ => ⟨S9x512x128, .f32⟩
  | .local _ .vmem, ⟨72, _⟩ => ⟨S1x128, .f32⟩
  | .local _ .vmem, ⟨73, _⟩ => ⟨S1x128, .f32⟩
  | .local _ .vmem, ⟨74, _⟩ => ⟨S1x7x28x128, .f32⟩
  | .local _ .vmem, ⟨75, _⟩ => ⟨S1x7x28x128, .f32⟩
  | .local _ .vmem, ⟨76, _⟩ => ⟨S1x30x30x512, .f32⟩
  | .local _ .vmem, ⟨77, _⟩ => ⟨S1x30x30x512, .f32⟩
  | .local _ .vmem, ⟨78, _⟩ => ⟨S9x512x128, .f32⟩
  | .local _ .vmem, ⟨79, _⟩ => ⟨S9x512x128, .f32⟩
  | .local _ .vmem, ⟨80, _⟩ => ⟨S1x128, .f32⟩
  | .local _ .vmem, ⟨81, _⟩ => ⟨S1x128, .f32⟩
  | .local _ .vmem, ⟨82, _⟩ => ⟨S1x7x28x128, .f32⟩
  | .local _ .vmem, ⟨83, _⟩ => ⟨S1x7x28x128, .f32⟩
  | .local _ .vmem, ⟨84, _⟩ => ⟨S1x28x14x1024, .f32⟩
  | .local _ .vmem, ⟨85, _⟩ => ⟨S1x28x14x1024, .f32⟩
  | .local _ .vmem, ⟨86, _⟩ => ⟨S1x14x14x512, .f32⟩
  | .local _ .vmem, ⟨87, _⟩ => ⟨S1x14x14x512, .f32⟩
  | .local _ .vmem, ⟨88, _⟩ => ⟨S1x16x16x512, .f32⟩
  | .local _ .vmem, ⟨89, _⟩ => ⟨S1x16x16x512, .f32⟩
  | .local _ .vmem, ⟨90, _⟩ => ⟨S9x512x128, .f32⟩
  | .local _ .vmem, ⟨91, _⟩ => ⟨S9x512x128, .f32⟩
  | .local _ .vmem, ⟨92, _⟩ => ⟨S1x128, .f32⟩
  | .local _ .vmem, ⟨93, _⟩ => ⟨S1x128, .f32⟩
  | .local _ .vmem, ⟨94, _⟩ => ⟨S1x14x14x128, .f32⟩
  | .local _ .vmem, ⟨95, _⟩ => ⟨S1x14x14x128, .f32⟩
  | .local _ .vmem, ⟨96, _⟩ => ⟨S1x16x16x512, .f32⟩
  | .local _ .vmem, ⟨97, _⟩ => ⟨S1x16x16x512, .f32⟩
  | .local _ .vmem, ⟨98, _⟩ => ⟨S9x512x128, .f32⟩
  | .local _ .vmem, ⟨99, _⟩ => ⟨S9x512x128, .f32⟩
  | .local _ .vmem, ⟨100, _⟩ => ⟨S1x128, .f32⟩
  | .local _ .vmem, ⟨101, _⟩ => ⟨S1x128, .f32⟩
  | .local _ .vmem, ⟨102, _⟩ => ⟨S1x14x14x128, .f32⟩
  | .local _ .vmem, ⟨103, _⟩ => ⟨S1x14x14x128, .f32⟩
  | .local _ .vmem, ⟨104, _⟩ => ⟨S1x16x16x512, .f32⟩
  | .local _ .vmem, ⟨105, _⟩ => ⟨S1x16x16x512, .f32⟩
  | .local _ .vmem, ⟨106, _⟩ => ⟨S9x512x128, .f32⟩
  | .local _ .vmem, ⟨107, _⟩ => ⟨S9x512x128, .f32⟩
  | .local _ .vmem, ⟨108, _⟩ => ⟨S1x128, .f32⟩
  | .local _ .vmem, ⟨109, _⟩ => ⟨S1x128, .f32⟩
  | .local _ .vmem, ⟨110, _⟩ => ⟨S1x14x14x128, .f32⟩
  | .local _ .vmem, ⟨111, _⟩ => ⟨S1x14x14x128, .f32⟩
  | .local _ .vmem, ⟨112, _⟩ => ⟨S1x14x7x1024, .f32⟩
  | .local _ .vmem, ⟨113, _⟩ => ⟨S1x14x7x1024, .f32⟩
  | .local _ .vmem, ⟨114, _⟩ => ⟨S1x7x7x512, .f32⟩
  | .local _ .vmem, ⟨115, _⟩ => ⟨S1x7x7x512, .f32⟩
  | _, _ => ⟨S8x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | _, _ => false

abbrev semScoped : Fin 0 → Bool
  | ⟨_, h⟩ => absurd h (Nat.not_lt_zero _)

abbrev dmaSemScoped : Fin 116 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | _ => false

abbrev sig : RefSig :=
  ofTc nBuf bufTy 0 116 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_c : Ref sig .tc := ⟨.hbm, 28, rfl⟩
abbrev main_call0_v0 : Ref sig .tc := ⟨.hbm, 29, rfl⟩
abbrev main_v1 : Ref sig .tc := ⟨.hbm, 30, rfl⟩
abbrev main_v2 : Ref sig .tc := ⟨.hbm, 31, rfl⟩
abbrev main_c_0 : Ref sig .tc := ⟨.hbm, 32, rfl⟩
abbrev main_call1_v0 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_c_1 : Ref sig .tc := ⟨.hbm, 38, rfl⟩
abbrev main_call2_v0 : Ref sig .tc := ⟨.hbm, 39, rfl⟩
abbrev main_v7 : Ref sig .tc := ⟨.hbm, 40, rfl⟩
abbrev main_v8 : Ref sig .tc := ⟨.hbm, 41, rfl⟩
abbrev main_c_2 : Ref sig .tc := ⟨.hbm, 42, rfl⟩
abbrev main_call3_v0 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_c_3 : Ref sig .tc := ⟨.hbm, 48, rfl⟩
abbrev main_call4_v0 : Ref sig .tc := ⟨.hbm, 49, rfl⟩
abbrev main_v13 : Ref sig .tc := ⟨.hbm, 50, rfl⟩
abbrev main_v14 : Ref sig .tc := ⟨.hbm, 51, rfl⟩
abbrev main_c_4 : Ref sig .tc := ⟨.hbm, 52, rfl⟩
abbrev main_call5_v0 : Ref sig .tc := ⟨.hbm, 53, rfl⟩
abbrev main_v15 : Ref sig .tc := ⟨.hbm, 54, rfl⟩
abbrev main_v16 : Ref sig .tc := ⟨.hbm, 55, rfl⟩
abbrev main_c_5 : Ref sig .tc := ⟨.hbm, 56, rfl⟩
abbrev main_call6_v0 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_c_6 : Ref sig .tc := ⟨.hbm, 62, rfl⟩
abbrev main_call7_v0 : Ref sig .tc := ⟨.hbm, 63, rfl⟩
abbrev main_v21 : Ref sig .tc := ⟨.hbm, 64, rfl⟩
abbrev main_v22 : Ref sig .tc := ⟨.hbm, 65, rfl⟩
abbrev main_c_7 : Ref sig .tc := ⟨.hbm, 66, rfl⟩
abbrev main_call8_v0 : Ref sig .tc := ⟨.hbm, 67, rfl⟩
abbrev main_v23 : Ref sig .tc := ⟨.hbm, 68, rfl⟩
abbrev main_v24 : Ref sig .tc := ⟨.hbm, 69, rfl⟩
abbrev main_c_8 : Ref sig .tc := ⟨.hbm, 70, rfl⟩
abbrev main_call9_v0 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_c_9 : Ref sig .tc := ⟨.hbm, 76, rfl⟩
abbrev main_call10_v0 : Ref sig .tc := ⟨.hbm, 77, rfl⟩
abbrev main_v29 : Ref sig .tc := ⟨.hbm, 78, rfl⟩
abbrev main_v30 : Ref sig .tc := ⟨.hbm, 79, rfl⟩
abbrev main_c_10 : Ref sig .tc := ⟨.hbm, 80, rfl⟩
abbrev main_call11_v0 : Ref sig .tc := ⟨.hbm, 81, rfl⟩
abbrev main_v31 : Ref sig .tc := ⟨.hbm, 82, rfl⟩
abbrev main_v32 : Ref sig .tc := ⟨.hbm, 83, rfl⟩
abbrev main_c_11 : Ref sig .tc := ⟨.hbm, 84, rfl⟩
abbrev main_call12_v0 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg3_0 : Ref sig .tc := ⟨.vmem, 26, rfl⟩
abbrev cc4_stg3_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg1_1 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc6_stg1_1 : Ref sig .tc := ⟨.vmem, 35, rfl⟩
abbrev cc6_stg2_0 : Ref sig .tc := ⟨.vmem, 36, rfl⟩
abbrev cc6_stg2_1 : Ref sig .tc := ⟨.vmem, 37, rfl⟩
abbrev cc6_stg3_0 : Ref sig .tc := ⟨.vmem, 38, rfl⟩
abbrev cc6_stg3_1 : Ref sig .tc := ⟨.vmem, 39, rfl⟩
abbrev cc7_stg0_0 : Ref sig .tc := ⟨.vmem, 40, rfl⟩
abbrev cc7_stg0_1 : Ref sig .tc := ⟨.vmem, 41, rfl⟩
abbrev cc7_stg1_0 : Ref sig .tc := ⟨.vmem, 42, rfl⟩
abbrev cc7_stg1_1 : Ref sig .tc := ⟨.vmem, 43, rfl⟩
abbrev cc7_stg2_0 : Ref sig .tc := ⟨.vmem, 44, rfl⟩
abbrev cc7_stg2_1 : Ref sig .tc := ⟨.vmem, 45, rfl⟩
abbrev cc7_stg3_0 : Ref sig .tc := ⟨.vmem, 46, rfl⟩
abbrev cc7_stg3_1 : Ref sig .tc := ⟨.vmem, 47, rfl⟩
abbrev cc8_stg0_0 : Ref sig .tc := ⟨.vmem, 48, rfl⟩
abbrev cc8_stg0_1 : Ref sig .tc := ⟨.vmem, 49, rfl⟩
abbrev cc8_stg1_0 : Ref sig .tc := ⟨.vmem, 50, rfl⟩
abbrev cc8_stg1_1 : Ref sig .tc := ⟨.vmem, 51, rfl⟩
abbrev cc8_stg2_0 : Ref sig .tc := ⟨.vmem, 52, rfl⟩
abbrev cc8_stg2_1 : Ref sig .tc := ⟨.vmem, 53, rfl⟩
abbrev cc8_stg3_0 : Ref sig .tc := ⟨.vmem, 54, rfl⟩
abbrev cc8_stg3_1 : Ref sig .tc := ⟨.vmem, 55, rfl⟩
abbrev cc9_stg0_0 : Ref sig .tc := ⟨.vmem, 56, rfl⟩
abbrev cc9_stg0_1 : Ref sig .tc := ⟨.vmem, 57, rfl⟩
abbrev cc9_stg1_0 : Ref sig .tc := ⟨.vmem, 58, rfl⟩
abbrev cc9_stg1_1 : Ref sig .tc := ⟨.vmem, 59, rfl⟩
abbrev cc10_stg0_0 : Ref sig .tc := ⟨.vmem, 60, rfl⟩
abbrev cc10_stg0_1 : Ref sig .tc := ⟨.vmem, 61, rfl⟩
abbrev cc10_stg1_0 : Ref sig .tc := ⟨.vmem, 62, rfl⟩
abbrev cc10_stg1_1 : Ref sig .tc := ⟨.vmem, 63, rfl⟩
abbrev cc10_stg2_0 : Ref sig .tc := ⟨.vmem, 64, rfl⟩
abbrev cc10_stg2_1 : Ref sig .tc := ⟨.vmem, 65, rfl⟩
abbrev cc10_stg3_0 : Ref sig .tc := ⟨.vmem, 66, rfl⟩
abbrev cc10_stg3_1 : Ref sig .tc := ⟨.vmem, 67, rfl⟩
abbrev cc11_stg0_0 : Ref sig .tc := ⟨.vmem, 68, rfl⟩
abbrev cc11_stg0_1 : Ref sig .tc := ⟨.vmem, 69, rfl⟩
abbrev cc11_stg1_0 : Ref sig .tc := ⟨.vmem, 70, rfl⟩
abbrev cc11_stg1_1 : Ref sig .tc := ⟨.vmem, 71, rfl⟩
abbrev cc11_stg2_0 : Ref sig .tc := ⟨.vmem, 72, rfl⟩
abbrev cc11_stg2_1 : Ref sig .tc := ⟨.vmem, 73, rfl⟩
abbrev cc11_stg3_0 : Ref sig .tc := ⟨.vmem, 74, rfl⟩
abbrev cc11_stg3_1 : Ref sig .tc := ⟨.vmem, 75, rfl⟩
abbrev cc12_stg0_0 : Ref sig .tc := ⟨.vmem, 76, rfl⟩
abbrev cc12_stg0_1 : Ref sig .tc := ⟨.vmem, 77, rfl⟩
abbrev cc12_stg1_0 : Ref sig .tc := ⟨.vmem, 78, rfl⟩
abbrev cc12_stg1_1 : Ref sig .tc := ⟨.vmem, 79, rfl⟩
abbrev cc12_stg2_0 : Ref sig .tc := ⟨.vmem, 80, rfl⟩
abbrev cc12_stg2_1 : Ref sig .tc := ⟨.vmem, 81, rfl⟩
abbrev cc12_stg3_0 : Ref sig .tc := ⟨.vmem, 82, rfl⟩
abbrev cc12_stg3_1 : Ref sig .tc := ⟨.vmem, 83, rfl⟩
abbrev cc13_stg0_0 : Ref sig .tc := ⟨.vmem, 84, rfl⟩
abbrev cc13_stg0_1 : Ref sig .tc := ⟨.vmem, 85, rfl⟩
abbrev cc13_stg1_0 : Ref sig .tc := ⟨.vmem, 86, rfl⟩
abbrev cc13_stg1_1 : Ref sig .tc := ⟨.vmem, 87, rfl⟩
abbrev cc14_stg0_0 : Ref sig .tc := ⟨.vmem, 88, rfl⟩
abbrev cc14_stg0_1 : Ref sig .tc := ⟨.vmem, 89, rfl⟩
abbrev cc14_stg1_0 : Ref sig .tc := ⟨.vmem, 90, rfl⟩
abbrev cc14_stg1_1 : Ref sig .tc := ⟨.vmem, 91, rfl⟩
abbrev cc14_stg2_0 : Ref sig .tc := ⟨.vmem, 92, rfl⟩
abbrev cc14_stg2_1 : Ref sig .tc := ⟨.vmem, 93, rfl⟩
abbrev cc14_stg3_0 : Ref sig .tc := ⟨.vmem, 94, rfl⟩
abbrev cc14_stg3_1 : Ref sig .tc := ⟨.vmem, 95, rfl⟩
abbrev cc15_stg0_0 : Ref sig .tc := ⟨.vmem, 96, rfl⟩
abbrev cc15_stg0_1 : Ref sig .tc := ⟨.vmem, 97, rfl⟩
abbrev cc15_stg1_0 : Ref sig .tc := ⟨.vmem, 98, rfl⟩
abbrev cc15_stg1_1 : Ref sig .tc := ⟨.vmem, 99, rfl⟩
abbrev cc15_stg2_0 : Ref sig .tc := ⟨.vmem, 100, rfl⟩
abbrev cc15_stg2_1 : Ref sig .tc := ⟨.vmem, 101, rfl⟩
abbrev cc15_stg3_0 : Ref sig .tc := ⟨.vmem, 102, rfl⟩
abbrev cc15_stg3_1 : Ref sig .tc := ⟨.vmem, 103, rfl⟩
abbrev cc16_stg0_0 : Ref sig .tc := ⟨.vmem, 104, rfl⟩
abbrev cc16_stg0_1 : Ref sig .tc := ⟨.vmem, 105, rfl⟩
abbrev cc16_stg1_0 : Ref sig .tc := ⟨.vmem, 106, rfl⟩
abbrev cc16_stg1_1 : Ref sig .tc := ⟨.vmem, 107, rfl⟩
abbrev cc16_stg2_0 : Ref sig .tc := ⟨.vmem, 108, rfl⟩
abbrev cc16_stg2_1 : Ref sig .tc := ⟨.vmem, 109, rfl⟩
abbrev cc16_stg3_0 : Ref sig .tc := ⟨.vmem, 110, rfl⟩
abbrev cc16_stg3_1 : Ref sig .tc := ⟨.vmem, 111, rfl⟩
abbrev cc17_stg0_0 : Ref sig .tc := ⟨.vmem, 112, rfl⟩
abbrev cc17_stg0_1 : Ref sig .tc := ⟨.vmem, 113, rfl⟩
abbrev cc17_stg1_0 : Ref sig .tc := ⟨.vmem, 114, rfl⟩
abbrev cc17_stg1_1 : Ref sig .tc := ⟨.vmem, 115, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem3_0 : DmaSem sig := 26
abbrev cc4_sem3_1 : DmaSem sig := 27
abbrev cc5_sem0_0 : DmaSem sig := 28
abbrev cc5_sem0_1 : DmaSem sig := 29
abbrev cc5_sem1_0 : DmaSem sig := 30
abbrev cc5_sem1_1 : DmaSem sig := 31
abbrev cc6_sem0_0 : DmaSem sig := 32
abbrev cc6_sem0_1 : DmaSem sig := 33
abbrev cc6_sem1_0 : DmaSem sig := 34
abbrev cc6_sem1_1 : DmaSem sig := 35
abbrev cc6_sem2_0 : DmaSem sig := 36
abbrev cc6_sem2_1 : DmaSem sig := 37
abbrev cc6_sem3_0 : DmaSem sig := 38
abbrev cc6_sem3_1 : DmaSem sig := 39
abbrev cc7_sem0_0 : DmaSem sig := 40
abbrev cc7_sem0_1 : DmaSem sig := 41
abbrev cc7_sem1_0 : DmaSem sig := 42
abbrev cc7_sem1_1 : DmaSem sig := 43
abbrev cc7_sem2_0 : DmaSem sig := 44
abbrev cc7_sem2_1 : DmaSem sig := 45
abbrev cc7_sem3_0 : DmaSem sig := 46
abbrev cc7_sem3_1 : DmaSem sig := 47
abbrev cc8_sem0_0 : DmaSem sig := 48
abbrev cc8_sem0_1 : DmaSem sig := 49
abbrev cc8_sem1_0 : DmaSem sig := 50
abbrev cc8_sem1_1 : DmaSem sig := 51
abbrev cc8_sem2_0 : DmaSem sig := 52
abbrev cc8_sem2_1 : DmaSem sig := 53
abbrev cc8_sem3_0 : DmaSem sig := 54
abbrev cc8_sem3_1 : DmaSem sig := 55
abbrev cc9_sem0_0 : DmaSem sig := 56
abbrev cc9_sem0_1 : DmaSem sig := 57
abbrev cc9_sem1_0 : DmaSem sig := 58
abbrev cc9_sem1_1 : DmaSem sig := 59
abbrev cc10_sem0_0 : DmaSem sig := 60
abbrev cc10_sem0_1 : DmaSem sig := 61
abbrev cc10_sem1_0 : DmaSem sig := 62
abbrev cc10_sem1_1 : DmaSem sig := 63
abbrev cc10_sem2_0 : DmaSem sig := 64
abbrev cc10_sem2_1 : DmaSem sig := 65
abbrev cc10_sem3_0 : DmaSem sig := 66
abbrev cc10_sem3_1 : DmaSem sig := 67
abbrev cc11_sem0_0 : DmaSem sig := 68
abbrev cc11_sem0_1 : DmaSem sig := 69
abbrev cc11_sem1_0 : DmaSem sig := 70
abbrev cc11_sem1_1 : DmaSem sig := 71
abbrev cc11_sem2_0 : DmaSem sig := 72
abbrev cc11_sem2_1 : DmaSem sig := 73
abbrev cc11_sem3_0 : DmaSem sig := 74
abbrev cc11_sem3_1 : DmaSem sig := 75
abbrev cc12_sem0_0 : DmaSem sig := 76
abbrev cc12_sem0_1 : DmaSem sig := 77
abbrev cc12_sem1_0 : DmaSem sig := 78
abbrev cc12_sem1_1 : DmaSem sig := 79
abbrev cc12_sem2_0 : DmaSem sig := 80
abbrev cc12_sem2_1 : DmaSem sig := 81
abbrev cc12_sem3_0 : DmaSem sig := 82
abbrev cc12_sem3_1 : DmaSem sig := 83
abbrev cc13_sem0_0 : DmaSem sig := 84
abbrev cc13_sem0_1 : DmaSem sig := 85
abbrev cc13_sem1_0 : DmaSem sig := 86
abbrev cc13_sem1_1 : DmaSem sig := 87
abbrev cc14_sem0_0 : DmaSem sig := 88
abbrev cc14_sem0_1 : DmaSem sig := 89
abbrev cc14_sem1_0 : DmaSem sig := 90
abbrev cc14_sem1_1 : DmaSem sig := 91
abbrev cc14_sem2_0 : DmaSem sig := 92
abbrev cc14_sem2_1 : DmaSem sig := 93
abbrev cc14_sem3_0 : DmaSem sig := 94
abbrev cc14_sem3_1 : DmaSem sig := 95
abbrev cc15_sem0_0 : DmaSem sig := 96
abbrev cc15_sem0_1 : DmaSem sig := 97
abbrev cc15_sem1_0 : DmaSem sig := 98
abbrev cc15_sem1_1 : DmaSem sig := 99
abbrev cc15_sem2_0 : DmaSem sig := 100
abbrev cc15_sem2_1 : DmaSem sig := 101
abbrev cc15_sem3_0 : DmaSem sig := 102
abbrev cc15_sem3_1 : DmaSem sig := 103
abbrev cc16_sem0_0 : DmaSem sig := 104
abbrev cc16_sem0_1 : DmaSem sig := 105
abbrev cc16_sem1_0 : DmaSem sig := 106
abbrev cc16_sem1_1 : DmaSem sig := 107
abbrev cc16_sem2_0 : DmaSem sig := 108
abbrev cc16_sem2_1 : DmaSem sig := 109
abbrev cc16_sem3_0 : DmaSem sig := 110
abbrev cc16_sem3_1 : DmaSem sig := 111
abbrev cc17_sem0_0 : DmaSem sig := 112
abbrev cc17_sem0_1 : DmaSem sig := 113
abbrev cc17_sem1_0 : DmaSem sig := 114
abbrev cc17_sem1_1 : DmaSem sig := 115

abbrev nD : Nat := 1
abbrev τ : Topo := Topo.v7x

variable {F : FTy → Type} [FloatOps F]

abbrev grid0 : Pipeline.Grid := ⟨3, ![8, 1, 224], ![false, false, false]⟩

def k0_mult1 (i : grid0.Coords) : BitVec 32 :=
  let arg2 : BitVec 32 := BitVec.ofNat 32 (i 2).val
  let c1_i32 : BitVec 32 := 1#32
  let v0 : BitVec 32 := Scalar.muli arg2 c1_i32
  v0
def k0_off1 (i : grid0.Coords) (c0_i32 : BitVec 32) : Fin 4 → Nat :=
  let c0 : Index := 0#32
  let arg2 : BitVec 32 := BitVec.ofNat 32 (i 2).val
  let c1_i32 : BitVec 32 := 1#32
  let v0 : BitVec 32 := Scalar.muli arg2 c1_i32
  let v1 : BitVec 32 := v0
  let v3 : BitVec 32 := Scalar.addi v1 c0_i32
  let v4 : Index := Scalar.indexCast v3
  let c0_0 : Index := 0#32
  let c0_1 : Index := 0#32
  ![0, v4.toNat, 0, 0]
def k0_off2 (i : grid0.Coords) (c0_i32_6 : BitVec 32) : Fin 4 → Nat :=
  let c0_7 : Index := 0#32
  let arg2 : BitVec 32 := BitVec.ofNat 32 (i 2).val
  let c1_i32 : BitVec 32 := 1#32
  let v0 : BitVec 32 := Scalar.muli arg2 c1_i32
  let v1 : BitVec 32 := v0
  let v12 : BitVec 32 := Scalar.addi v1 c0_i32_6
  let v13 : Index := Scalar.indexCast v12
  let c1 : Index := 1#32
  let c0_8 : Index := 0#32
  ![0, v13.toNat, 1, 0]
def k0_off3 (i : grid0.Coords) (c0_i32_13 : BitVec 32) : Fin 4 → Nat :=
  let c0_14 : Index := 0#32
  let arg2 : BitVec 32 := BitVec.ofNat 32 (i 2).val
  let c1_i32 : BitVec 32 := 1#32
  let v0 : BitVec 32 := Scalar.muli arg2 c1_i32
  let v1 : BitVec 32 := v0
  let v21 : BitVec 32 := Scalar.addi v1 c0_i32_13
  let v22 : Index := Scalar.indexCast v21
  let c2 : Index := 2#32
  let c0_15 : Index := 0#32
  ![0, v22.toNat, 2, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat, arg1.toNat]

abbrev stage0_0 : Fin 2 → Memref sig .tc .vmem S1x226x226x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S9x3x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S1x1x224x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev grid1 : Pipeline.Grid := ⟨3, ![8, 1, 224], ![false, false, false]⟩

def k1_mult1 (i : grid1.Coords) : BitVec 32 :=
  let arg2 : BitVec 32 := BitVec.ofNat 32 (i 2).val
  let c1_i32 : BitVec 32 := 1#32
  let v0 : BitVec 32 := Scalar.muli arg2 c1_i32
  v0
def k1_off1 (i : grid1.Coords) (c0_i32 : BitVec 32) : Fin 4 → Nat :=
  let c0 : Index := 0#32
  let arg2 : BitVec 32 := BitVec.ofNat 32 (i 2).val
  let c1_i32 : BitVec 32 := 1#32
  let v0 : BitVec 32 := Scalar.muli arg2 c1_i32
  let v1 : BitVec 32 := v0
  let v3 : BitVec 32 := Scalar.addi v1 c0_i32
  let v4 : Index := Scalar.indexCast v3
  let c0_0 : Index := 0#32
  let c0_1 : Index := 0#32
  ![0, v4.toNat, 0, 0]
def k1_off2 (i : grid1.Coords) (c0_i32_6 : BitVec 32) : Fin 4 → Nat :=
  let c0_7 : Index := 0#32
  let arg2 : BitVec 32 := BitVec.ofNat 32 (i 2).val
  let c1_i32 : BitVec 32 := 1#32
  let v0 : BitVec 32 := Scalar.muli arg2 c1_i32
  let v1 : BitVec 32 := v0
  let v12 : BitVec 32 := Scalar.addi v1 c0_i32_6
  let v13 : Index := Scalar.indexCast v12
  let c1 : Index := 1#32
  let c0_8 : Index := 0#32
  ![0, v13.toNat, 1, 0]
def k1_off3 (i : grid1.Coords) (c0_i32_13 : BitVec 32) : Fin 4 → Nat :=
  let c0_14 : Index := 0#32
  let arg2 : BitVec 32 := BitVec.ofNat 32 (i 2).val
  let c1_i32 : BitVec 32 := 1#32
  let v0 : BitVec 32 := Scalar.muli arg2 c1_i32
  let v1 : BitVec 32 := v0
  let v21 : BitVec 32 := Scalar.addi v1 c0_i32_13
  let v22 : Index := Scalar.indexCast v21
  let c2 : Index := 2#32
  let c0_15 : Index := 0#32
  ![0, v22.toNat, 2, 0]
def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat, arg1.toNat]

abbrev stage1_0 : Fin 2 → Memref sig .tc .vmem S1x226x226x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, false]

abbrev stage1_1 : Fin 1 → Memref sig .tc .vmem S9x64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, true, false]

abbrev stage1_3 : Fin 2 → Memref sig .tc .vmem S1x1x224x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev grid2 : Pipeline.Grid := ⟨1, ![8], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_1 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage2_0 : Fin 2 → Memref sig .tc .vmem S1x224x112x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x112x112x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨3, ![8, 1, 56], ![false, false, false]⟩

def k3_mult1 (i : grid3.Coords) : BitVec 32 :=
  let arg2 : BitVec 32 := BitVec.ofNat 32 (i 2).val
  let c2_i32 : BitVec 32 := 2#32
  let v0 : BitVec 32 := Scalar.muli arg2 c2_i32
  v0
def k3_off1 (i : grid3.Coords) (c0_i32 : BitVec 32) : Fin 4 → Nat :=
  let c0 : Index := 0#32
  let arg2 : BitVec 32 := BitVec.ofNat 32 (i 2).val
  let c2_i32 : BitVec 32 := 2#32
  let v0 : BitVec 32 := Scalar.muli arg2 c2_i32
  let v1 : BitVec 32 := v0
  let v3 : BitVec 32 := Scalar.addi v1 c0_i32
  let v4 : Index := Scalar.indexCast v3
  let c0_0 : Index := 0#32
  let c0_1 : Index := 0#32
  ![0, v4.toNat, 0, 0]
def k3_off2 (i : grid3.Coords) (c0_i32_6 : BitVec 32) : Fin 4 → Nat :=
  let c0_7 : Index := 0#32
  let arg2 : BitVec 32 := BitVec.ofNat 32 (i 2).val
  let c2_i32 : BitVec 32 := 2#32
  let v0 : BitVec 32 := Scalar.muli arg2 c2_i32
  let v1 : BitVec 32 := v0
  let v12 : BitVec 32 := Scalar.addi v1 c0_i32_6
  let v13 : Index := Scalar.indexCast v12
  let c1 : Index := 1#32
  let c0_8 : Index := 0#32
  ![0, v13.toNat, 1, 0]
def k3_off3 (i : grid3.Coords) (c0_i32_13 : BitVec 32) : Fin 4 → Nat :=
  let c0_14 : Index := 0#32
  let arg2 : BitVec 32 := BitVec.ofNat 32 (i 2).val
  let c2_i32 : BitVec 32 := 2#32
  let v0 : BitVec 32 := Scalar.muli arg2 c2_i32
  let v1 : BitVec 32 := v0
  let v21 : BitVec 32 := Scalar.addi v1 c0_i32_13
  let v22 : Index := Scalar.indexCast v21
  let c2 : Index := 2#32
  let c0_15 : Index := 0#32
  ![0, v22.toNat, 2, 0]
def cc3_transform_0 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc3_transform_3 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat, arg1.toNat]

abbrev stage3_0 : Fin 2 → Memref sig .tc .vmem S1x114x114x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, false]

abbrev stage3_1 : Fin 1 → Memref sig .tc .vmem S9x64x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, true, false]

abbrev stage3_3 : Fin 2 → Memref sig .tc .vmem S1x2x112x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, true]

abbrev grid4 : Pipeline.Grid := ⟨3, ![8, 1, 56], ![false, false, false]⟩

def k4_mult1 (i : grid4.Coords) : BitVec 32 :=
  let arg2 : BitVec 32 := BitVec.ofNat 32 (i 2).val
  let c2_i32 : BitVec 32 := 2#32
  let v0 : BitVec 32 := Scalar.muli arg2 c2_i32
  v0
def k4_off1 (i : grid4.Coords) (c0_i32 : BitVec 32) : Fin 4 → Nat :=
  let c0 : Index := 0#32
  let arg2 : BitVec 32 := BitVec.ofNat 32 (i 2).val
  let c2_i32 : BitVec 32 := 2#32
  let v0 : BitVec 32 := Scalar.muli arg2 c2_i32
  let v1 : BitVec 32 := v0
  let v3 : BitVec 32 := Scalar.addi v1 c0_i32
  let v4 : Index := Scalar.indexCast v3
  let c0_0 : Index := 0#32
  let c0_1 : Index := 0#32
  ![0, v4.toNat, 0, 0]
def k4_off2 (i : grid4.Coords) (c0_i32_6 : BitVec 32) : Fin 4 → Nat :=
  let c0_7 : Index := 0#32
  let arg2 : BitVec 32 := BitVec.ofNat 32 (i 2).val
  let c2_i32 : BitVec 32 := 2#32
  let v0 : BitVec 32 := Scalar.muli arg2 c2_i32
  let v1 : BitVec 32 := v0
  let v12 : BitVec 32 := Scalar.addi v1 c0_i32_6
  let v13 : Index := Scalar.indexCast v12
  let c1 : Index := 1#32
  let c0_8 : Index := 0#32
  ![0, v13.toNat, 1, 0]
def k4_off3 (i : grid4.Coords) (c0_i32_13 : BitVec 32) : Fin 4 → Nat :=
  let c0_14 : Index := 0#32
  let arg2 : BitVec 32 := BitVec.ofNat 32 (i 2).val
  let c2_i32 : BitVec 32 := 2#32
  let v0 : BitVec 32 := Scalar.muli arg2 c2_i32
  let v1 : BitVec 32 := v0
  let v21 : BitVec 32 := Scalar.addi v1 c0_i32_13
  let v22 : Index := Scalar.indexCast v21
  let c2 : Index := 2#32
  let c0_15 : Index := 0#32
  ![0, v22.toNat, 2, 0]
def cc4_transform_0 (i : grid4.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc4_transform_1 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc4_transform_3 (i : grid4.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat, arg1.toNat]

abbrev stage4_0 : Fin 2 → Memref sig .tc .vmem S1x114x114x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, false]

abbrev stage4_1 : Fin 1 → Memref sig .tc .vmem S9x128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, true, false]

abbrev stage4_3 : Fin 2 → Memref sig .tc .vmem S1x2x112x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true, true]

abbrev grid5 : Pipeline.Grid := ⟨1, ![8], ![false]⟩

def cc5_transform_0 (i : grid5.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc5_transform_1 (i : grid5.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage5_0 : Fin 2 → Memref sig .tc .vmem S1x112x56x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1x56x56x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev grid6 : Pipeline.Grid := ⟨3, ![8, 2, 14], ![false, false, false]⟩

def k6_mult1 (i : grid6.Coords) : BitVec 32 :=
  let arg2 : BitVec 32 := BitVec.ofNat 32 (i 2).val
  let c4_i32 : BitVec 32 := 4#32
  let v0 : BitVec 32 := Scalar.muli arg2 c4_i32
  v0
def k6_off1 (i : grid6.Coords) (c0_i32 : BitVec 32) : Fin 4 → Nat :=
  let c0 : Index := 0#32
  let arg2 : BitVec 32 := BitVec.ofNat 32 (i 2).val
  let c4_i32 : BitVec 32 := 4#32
  let v0 : BitVec 32 := Scalar.muli arg2 c4_i32
  let v1 : BitVec 32 := v0
  let v3 : BitVec 32 := Scalar.addi v1 c0_i32
  let v4 : Index := Scalar.indexCast v3
  let c0_0 : Index := 0#32
  let c0_1 : Index := 0#32
  ![0, v4.toNat, 0, 0]
def k6_off2 (i : grid6.Coords) (c0_i32_6 : BitVec 32) : Fin 4 → Nat :=
  let c0_7 : Index := 0#32
  let arg2 : BitVec 32 := BitVec.ofNat 32 (i 2).val
  let c4_i32 : BitVec 32 := 4#32
  let v0 : BitVec 32 := Scalar.muli arg2 c4_i32
  let v1 : BitVec 32 := v0
  let v12 : BitVec 32 := Scalar.addi v1 c0_i32_6
  let v13 : Index := Scalar.indexCast v12
  let c1 : Index := 1#32
  let c0_8 : Index := 0#32
  ![0, v13.toNat, 1, 0]
def k6_off3 (i : grid6.Coords) (c0_i32_13 : BitVec 32) : Fin 4 → Nat :=
  let c0_14 : Index := 0#32
  let arg2 : BitVec 32 := BitVec.ofNat 32 (i 2).val
  let c4_i32 : BitVec 32 := 4#32
  let v0 : BitVec 32 := Scalar.muli arg2 c4_i32
  let v1 : BitVec 32 := v0
  let v21 : BitVec 32 := Scalar.addi v1 c0_i32_13
  let v22 : Index := Scalar.indexCast v21
  let c2 : Index := 2#32
  let c0_15 : Index := 0#32
  ![0, v22.toNat, 2, 0]
def cc6_transform_0 (i : grid6.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc6_transform_1 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc6_transform_3 (i : grid6.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat, arg1.toNat]

abbrev stage6_0 : Fin 2 → Memref sig .tc .vmem S1x58x58x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, false]

abbrev stage6_1 : Fin 2 → Memref sig .tc .vmem S9x128x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, false]

abbrev stage6_2 : Fin 2 → Memref sig .tc .vmem S1x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![false, true, false]

abbrev stage6_3 : Fin 2 → Memref sig .tc .vmem S1x4x56x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true, true]

abbrev grid7 : Pipeline.Grid := ⟨3, ![8, 2, 14], ![false, false, false]⟩

def k7_mult1 (i : grid7.Coords) : BitVec 32 :=
  let arg2 : BitVec 32 := BitVec.ofNat 32 (i 2).val
  let c4_i32 : BitVec 32 := 4#32
  let v0 : BitVec 32 := Scalar.muli arg2 c4_i32
  v0
def k7_off1 (i : grid7.Coords) (c0_i32 : BitVec 32) : Fin 4 → Nat :=
  let c0 : Index := 0#32
  let arg2 : BitVec 32 := BitVec.ofNat 32 (i 2).val
  let c4_i32 : BitVec 32 := 4#32
  let v0 : BitVec 32 := Scalar.muli arg2 c4_i32
  let v1 : BitVec 32 := v0
  let v3 : BitVec 32 := Scalar.addi v1 c0_i32
  let v4 : Index := Scalar.indexCast v3
  let c0_0 : Index := 0#32
  let c0_1 : Index := 0#32
  ![0, v4.toNat, 0, 0]
def k7_off2 (i : grid7.Coords) (c0_i32_6 : BitVec 32) : Fin 4 → Nat :=
  let c0_7 : Index := 0#32
  let arg2 : BitVec 32 := BitVec.ofNat 32 (i 2).val
  let c4_i32 : BitVec 32 := 4#32
  let v0 : BitVec 32 := Scalar.muli arg2 c4_i32
  let v1 : BitVec 32 := v0
  let v12 : BitVec 32 := Scalar.addi v1 c0_i32_6
  let v13 : Index := Scalar.indexCast v12
  let c1 : Index := 1#32
  let c0_8 : Index := 0#32
  ![0, v13.toNat, 1, 0]
def k7_off3 (i : grid7.Coords) (c0_i32_13 : BitVec 32) : Fin 4 → Nat :=
  let c0_14 : Index := 0#32
  let arg2 : BitVec 32 := BitVec.ofNat 32 (i 2).val
  let c4_i32 : BitVec 32 := 4#32
  let v0 : BitVec 32 := Scalar.muli arg2 c4_i32
  let v1 : BitVec 32 := v0
  let v21 : BitVec 32 := Scalar.addi v1 c0_i32_13
  let v22 : Index := Scalar.indexCast v21
  let c2 : Index := 2#32
  let c0_15 : Index := 0#32
  ![0, v22.toNat, 2, 0]
def cc7_transform_0 (i : grid7.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc7_transform_1 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc7_transform_3 (i : grid7.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat, arg1.toNat]

abbrev stage7_0 : Fin 2 → Memref sig .tc .vmem S1x58x58x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, false]

abbrev stage7_1 : Fin 2 → Memref sig .tc .vmem S9x256x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, false]

abbrev stage7_2 : Fin 2 → Memref sig .tc .vmem S1x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![false, true, false]

abbrev stage7_3 : Fin 2 → Memref sig .tc .vmem S1x4x56x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, true, true]

abbrev grid8 : Pipeline.Grid := ⟨3, ![8, 2, 14], ![false, false, false]⟩

def k8_mult1 (i : grid8.Coords) : BitVec 32 :=
  let arg2 : BitVec 32 := BitVec.ofNat 32 (i 2).val
  let c4_i32 : BitVec 32 := 4#32
  let v0 : BitVec 32 := Scalar.muli arg2 c4_i32
  v0
def k8_off1 (i : grid8.Coords) (c0_i32 : BitVec 32) : Fin 4 → Nat :=
  let c0 : Index := 0#32
  let arg2 : BitVec 32 := BitVec.ofNat 32 (i 2).val
  let c4_i32 : BitVec 32 := 4#32
  let v0 : BitVec 32 := Scalar.muli arg2 c4_i32
  let v1 : BitVec 32 := v0
  let v3 : BitVec 32 := Scalar.addi v1 c0_i32
  let v4 : Index := Scalar.indexCast v3
  let c0_0 : Index := 0#32
  let c0_1 : Index := 0#32
  ![0, v4.toNat, 0, 0]
def k8_off2 (i : grid8.Coords) (c0_i32_6 : BitVec 32) : Fin 4 → Nat :=
  let c0_7 : Index := 0#32
  let arg2 : BitVec 32 := BitVec.ofNat 32 (i 2).val
  let c4_i32 : BitVec 32 := 4#32
  let v0 : BitVec 32 := Scalar.muli arg2 c4_i32
  let v1 : BitVec 32 := v0
  let v12 : BitVec 32 := Scalar.addi v1 c0_i32_6
  let v13 : Index := Scalar.indexCast v12
  let c1 : Index := 1#32
  let c0_8 : Index := 0#32
  ![0, v13.toNat, 1, 0]
def k8_off3 (i : grid8.Coords) (c0_i32_13 : BitVec 32) : Fin 4 → Nat :=
  let c0_14 : Index := 0#32
  let arg2 : BitVec 32 := BitVec.ofNat 32 (i 2).val
  let c4_i32 : BitVec 32 := 4#32
  let v0 : BitVec 32 := Scalar.muli arg2 c4_i32
  let v1 : BitVec 32 := v0
  let v21 : BitVec 32 := Scalar.addi v1 c0_i32_13
  let v22 : Index := Scalar.indexCast v21
  let c2 : Index := 2#32
  let c0_15 : Index := 0#32
  ![0, v22.toNat, 2, 0]
def cc8_transform_0 (i : grid8.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc8_transform_1 (i : grid8.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc8_transform_3 (i : grid8.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat, arg1.toNat]

abbrev stage8_0 : Fin 2 → Memref sig .tc .vmem S1x58x58x256 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false, false]

abbrev stage8_1 : Fin 2 → Memref sig .tc .vmem S9x256x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true, false]

abbrev stage8_2 : Fin 2 → Memref sig .tc .vmem S1x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![false, true, false]

abbrev stage8_3 : Fin 2 → Memref sig .tc .vmem S1x4x56x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true, true, true]

abbrev grid9 : Pipeline.Grid := ⟨1, ![8], ![false]⟩

def cc9_transform_0 (i : grid9.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc9_transform_1 (i : grid9.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage9_0 : Fin 2 → Memref sig .tc .vmem S1x56x28x512 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S1x28x28x256 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev grid10 : Pipeline.Grid := ⟨3, ![8, 4, 4], ![false, false, false]⟩

def k10_mult1 (i : grid10.Coords) : BitVec 32 :=
  let arg2 : BitVec 32 := BitVec.ofNat 32 (i 2).val
  let c7_i32 : BitVec 32 := 7#32
  let v0 : BitVec 32 := Scalar.muli arg2 c7_i32
  v0
def k10_off1 (i : grid10.Coords) (c0_i32 : BitVec 32) : Fin 4 → Nat :=
  let c0 : Index := 0#32
  let arg2 : BitVec 32 := BitVec.ofNat 32 (i 2).val
  let c7_i32 : BitVec 32 := 7#32
  let v0 : BitVec 32 := Scalar.muli arg2 c7_i32
  let v1 : BitVec 32 := v0
  let v3 : BitVec 32 := Scalar.addi v1 c0_i32
  let v4 : Index := Scalar.indexCast v3
  let c0_0 : Index := 0#32
  let c0_1 : Index := 0#32
  ![0, v4.toNat, 0, 0]
def k10_off2 (i : grid10.Coords) (c0_i32_6 : BitVec 32) : Fin 4 → Nat :=
  let c0_7 : Index := 0#32
  let arg2 : BitVec 32 := BitVec.ofNat 32 (i 2).val
  let c7_i32 : BitVec 32 := 7#32
  let v0 : BitVec 32 := Scalar.muli arg2 c7_i32
  let v1 : BitVec 32 := v0
  let v12 : BitVec 32 := Scalar.addi v1 c0_i32_6
  let v13 : Index := Scalar.indexCast v12
  let c1 : Index := 1#32
  let c0_8 : Index := 0#32
  ![0, v13.toNat, 1, 0]
def k10_off3 (i : grid10.Coords) (c0_i32_13 : BitVec 32) : Fin 4 → Nat :=
  let c0_14 : Index := 0#32
  let arg2 : BitVec 32 := BitVec.ofNat 32 (i 2).val
  let c7_i32 : BitVec 32 := 7#32
  let v0 : BitVec 32 := Scalar.muli arg2 c7_i32
  let v1 : BitVec 32 := v0
  let v21 : BitVec 32 := Scalar.addi v1 c0_i32_13
  let v22 : Index := Scalar.indexCast v21
  let c2 : Index := 2#32
  let c0_15 : Index := 0#32
  ![0, v22.toNat, 2, 0]
def cc10_transform_0 (i : grid10.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc10_transform_1 (i : grid10.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc10_transform_2 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc10_transform_3 (i : grid10.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat, arg1.toNat]

abbrev stage10_0 : Fin 2 → Memref sig .tc .vmem S1x30x30x256 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, false, false]

abbrev stage10_1 : Fin 2 → Memref sig .tc .vmem S9x256x128 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true, false]

abbrev stage10_2 : Fin 2 → Memref sig .tc .vmem S1x128 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![false, true, false]

abbrev stage10_3 : Fin 2 → Memref sig .tc .vmem S1x7x28x128 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true, true, true]

abbrev grid11 : Pipeline.Grid := ⟨3, ![8, 4, 4], ![false, false, false]⟩

def k11_mult1 (i : grid11.Coords) : BitVec 32 :=
  let arg2 : BitVec 32 := BitVec.ofNat 32 (i 2).val
  let c7_i32 : BitVec 32 := 7#32
  let v0 : BitVec 32 := Scalar.muli arg2 c7_i32
  v0
def k11_off1 (i : grid11.Coords) (c0_i32 : BitVec 32) : Fin 4 → Nat :=
  let c0 : Index := 0#32
  let arg2 : BitVec 32 := BitVec.ofNat 32 (i 2).val
  let c7_i32 : BitVec 32 := 7#32
  let v0 : BitVec 32 := Scalar.muli arg2 c7_i32
  let v1 : BitVec 32 := v0
  let v3 : BitVec 32 := Scalar.addi v1 c0_i32
  let v4 : Index := Scalar.indexCast v3
  let c0_0 : Index := 0#32
  let c0_1 : Index := 0#32
  ![0, v4.toNat, 0, 0]
def k11_off2 (i : grid11.Coords) (c0_i32_6 : BitVec 32) : Fin 4 → Nat :=
  let c0_7 : Index := 0#32
  let arg2 : BitVec 32 := BitVec.ofNat 32 (i 2).val
  let c7_i32 : BitVec 32 := 7#32
  let v0 : BitVec 32 := Scalar.muli arg2 c7_i32
  let v1 : BitVec 32 := v0
  let v12 : BitVec 32 := Scalar.addi v1 c0_i32_6
  let v13 : Index := Scalar.indexCast v12
  let c1 : Index := 1#32
  let c0_8 : Index := 0#32
  ![0, v13.toNat, 1, 0]
def k11_off3 (i : grid11.Coords) (c0_i32_13 : BitVec 32) : Fin 4 → Nat :=
  let c0_14 : Index := 0#32
  let arg2 : BitVec 32 := BitVec.ofNat 32 (i 2).val
  let c7_i32 : BitVec 32 := 7#32
  let v0 : BitVec 32 := Scalar.muli arg2 c7_i32
  let v1 : BitVec 32 := v0
  let v21 : BitVec 32 := Scalar.addi v1 c0_i32_13
  let v22 : Index := Scalar.indexCast v21
  let c2 : Index := 2#32
  let c0_15 : Index := 0#32
  ![0, v22.toNat, 2, 0]
def cc11_transform_0 (i : grid11.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc11_transform_1 (i : grid11.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc11_transform_2 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc11_transform_3 (i : grid11.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat, arg1.toNat]

abbrev stage11_0 : Fin 2 → Memref sig .tc .vmem S1x30x30x512 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true, false, false]

abbrev stage11_1 : Fin 2 → Memref sig .tc .vmem S9x512x128 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![false, true, false]

abbrev stage11_2 : Fin 2 → Memref sig .tc .vmem S1x128 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![false, true, false]

abbrev stage11_3 : Fin 2 → Memref sig .tc .vmem S1x7x28x128 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true, true, true]

abbrev grid12 : Pipeline.Grid := ⟨3, ![8, 4, 4], ![false, false, false]⟩

def k12_mult1 (i : grid12.Coords) : BitVec 32 :=
  let arg2 : BitVec 32 := BitVec.ofNat 32 (i 2).val
  let c7_i32 : BitVec 32 := 7#32
  let v0 : BitVec 32 := Scalar.muli arg2 c7_i32
  v0
def k12_off1 (i : grid12.Coords) (c0_i32 : BitVec 32) : Fin 4 → Nat :=
  let c0 : Index := 0#32
  let arg2 : BitVec 32 := BitVec.ofNat 32 (i 2).val
  let c7_i32 : BitVec 32 := 7#32
  let v0 : BitVec 32 := Scalar.muli arg2 c7_i32
  let v1 : BitVec 32 := v0
  let v3 : BitVec 32 := Scalar.addi v1 c0_i32
  let v4 : Index := Scalar.indexCast v3
  let c0_0 : Index := 0#32
  let c0_1 : Index := 0#32
  ![0, v4.toNat, 0, 0]
def k12_off2 (i : grid12.Coords) (c0_i32_6 : BitVec 32) : Fin 4 → Nat :=
  let c0_7 : Index := 0#32
  let arg2 : BitVec 32 := BitVec.ofNat 32 (i 2).val
  let c7_i32 : BitVec 32 := 7#32
  let v0 : BitVec 32 := Scalar.muli arg2 c7_i32
  let v1 : BitVec 32 := v0
  let v12 : BitVec 32 := Scalar.addi v1 c0_i32_6
  let v13 : Index := Scalar.indexCast v12
  let c1 : Index := 1#32
  let c0_8 : Index := 0#32
  ![0, v13.toNat, 1, 0]
def k12_off3 (i : grid12.Coords) (c0_i32_13 : BitVec 32) : Fin 4 → Nat :=
  let c0_14 : Index := 0#32
  let arg2 : BitVec 32 := BitVec.ofNat 32 (i 2).val
  let c7_i32 : BitVec 32 := 7#32
  let v0 : BitVec 32 := Scalar.muli arg2 c7_i32
  let v1 : BitVec 32 := v0
  let v21 : BitVec 32 := Scalar.addi v1 c0_i32_13
  let v22 : Index := Scalar.indexCast v21
  let c2 : Index := 2#32
  let c0_15 : Index := 0#32
  ![0, v22.toNat, 2, 0]
def cc12_transform_0 (i : grid12.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc12_transform_1 (i : grid12.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc12_transform_2 (i : grid12.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc12_transform_3 (i : grid12.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat, arg1.toNat]

abbrev stage12_0 : Fin 2 → Memref sig .tc .vmem S1x30x30x512 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true, false, false]

abbrev stage12_1 : Fin 2 → Memref sig .tc .vmem S9x512x128 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![false, true, false]

abbrev stage12_2 : Fin 2 → Memref sig .tc .vmem S1x128 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![false, true, false]

abbrev stage12_3 : Fin 2 → Memref sig .tc .vmem S1x7x28x128 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true, true, true]

abbrev grid13 : Pipeline.Grid := ⟨1, ![8], ![false]⟩

def cc13_transform_0 (i : grid13.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc13_transform_1 (i : grid13.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage13_0 : Fin 2 → Memref sig .tc .vmem S1x28x14x1024 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S1x14x14x512 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev grid14 : Pipeline.Grid := ⟨3, ![8, 4, 1], ![false, false, false]⟩

def k14_mult1 (i : grid14.Coords) : BitVec 32 :=
  let arg2 : BitVec 32 := BitVec.ofNat 32 (i 2).val
  let c14_i32 : BitVec 32 := 14#32
  let v0 : BitVec 32 := Scalar.muli arg2 c14_i32
  v0
def k14_off1 (i : grid14.Coords) (c0_i32 : BitVec 32) : Fin 4 → Nat :=
  let c0 : Index := 0#32
  let arg2 : BitVec 32 := BitVec.ofNat 32 (i 2).val
  let c14_i32 : BitVec 32 := 14#32
  let v0 : BitVec 32 := Scalar.muli arg2 c14_i32
  let v1 : BitVec 32 := v0
  let v3 : BitVec 32 := Scalar.addi v1 c0_i32
  let v4 : Index := Scalar.indexCast v3
  let c0_0 : Index := 0#32
  let c0_1 : Index := 0#32
  ![0, v4.toNat, 0, 0]
def k14_off2 (i : grid14.Coords) (c0_i32_6 : BitVec 32) : Fin 4 → Nat :=
  let c0_7 : Index := 0#32
  let arg2 : BitVec 32 := BitVec.ofNat 32 (i 2).val
  let c14_i32 : BitVec 32 := 14#32
  let v0 : BitVec 32 := Scalar.muli arg2 c14_i32
  let v1 : BitVec 32 := v0
  let v12 : BitVec 32 := Scalar.addi v1 c0_i32_6
  let v13 : Index := Scalar.indexCast v12
  let c1 : Index := 1#32
  let c0_8 : Index := 0#32
  ![0, v13.toNat, 1, 0]
def k14_off3 (i : grid14.Coords) (c0_i32_13 : BitVec 32) : Fin 4 → Nat :=
  let c0_14 : Index := 0#32
  let arg2 : BitVec 32 := BitVec.ofNat 32 (i 2).val
  let c14_i32 : BitVec 32 := 14#32
  let v0 : BitVec 32 := Scalar.muli arg2 c14_i32
  let v1 : BitVec 32 := v0
  let v21 : BitVec 32 := Scalar.addi v1 c0_i32_13
  let v22 : Index := Scalar.indexCast v21
  let c2 : Index := 2#32
  let c0_15 : Index := 0#32
  ![0, v22.toNat, 2, 0]
def cc14_transform_0 (i : grid14.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc14_transform_1 (i : grid14.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc14_transform_2 (i : grid14.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc14_transform_3 (i : grid14.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat, arg1.toNat]

abbrev stage14_0 : Fin 2 → Memref sig .tc .vmem S1x16x16x512 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true, false, false]

abbrev stage14_1 : Fin 2 → Memref sig .tc .vmem S9x512x128 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![false, true, false]

abbrev stage14_2 : Fin 2 → Memref sig .tc .vmem S1x128 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![false, true, false]

abbrev stage14_3 : Fin 2 → Memref sig .tc .vmem S1x14x14x128 .f32 := fun | 0 => Memref.whole cc14_stg3_0 | 1 => Memref.whole cc14_stg3_1 | ⟨_ + 2, h⟩ => absurd h (Nat.not_lt.2 (Nat.le_add_left _ _))
abbrev sem14_3 : Fin 2 → DmaSem sig := fun | 0 => cc14_sem3_0 | 1 => cc14_sem3_1 | ⟨_ + 2, h⟩ => absurd h (Nat.not_lt.2 (Nat.le_add_left _ _))
abbrev reads14_3 : Fin grid14.rank → Bool := ![true, true, true]

abbrev grid15 : Pipeline.Grid := ⟨3, ![8, 4, 1], ![false, false, false]⟩

def k15_mult1 (i : grid15.Coords) : BitVec 32 :=
  let arg2 : BitVec 32 := BitVec.ofNat 32 (i 2).val
  let c14_i32 : BitVec 32 := 14#32
  let v0 : BitVec 32 := Scalar.muli arg2 c14_i32
  v0
def k15_off1 (i : grid15.Coords) (c0_i32 : BitVec 32) : Fin 4 → Nat :=
  let c0 : Index := 0#32
  let arg2 : BitVec 32 := BitVec.ofNat 32 (i 2).val
  let c14_i32 : BitVec 32 := 14#32
  let v0 : BitVec 32 := Scalar.muli arg2 c14_i32
  let v1 : BitVec 32 := v0
  let v3 : BitVec 32 := Scalar.addi v1 c0_i32
  let v4 : Index := Scalar.indexCast v3
  let c0_0 : Index := 0#32
  let c0_1 : Index := 0#32
  ![0, v4.toNat, 0, 0]
def k15_off2 (i : grid15.Coords) (c0_i32_6 : BitVec 32) : Fin 4 → Nat :=
  let c0_7 : Index := 0#32
  let arg2 : BitVec 32 := BitVec.ofNat 32 (i 2).val
  let c14_i32 : BitVec 32 := 14#32
  let v0 : BitVec 32 := Scalar.muli arg2 c14_i32
  let v1 : BitVec 32 := v0
  let v12 : BitVec 32 := Scalar.addi v1 c0_i32_6
  let v13 : Index := Scalar.indexCast v12
  let c1 : Index := 1#32
  let c0_8 : Index := 0#32
  ![0, v13.toNat, 1, 0]
def k15_off3 (i : grid15.Coords) (c0_i32_13 : BitVec 32) : Fin 4 → Nat :=
  let c0_14 : Index := 0#32
  let arg2 : BitVec 32 := BitVec.ofNat 32 (i 2).val
  let c14_i32 : BitVec 32 := 14#32
  let v0 : BitVec 32 := Scalar.muli arg2 c14_i32
  let v1 : BitVec 32 := v0
  let v21 : BitVec 32 := Scalar.addi v1 c0_i32_13
  let v22 : Index := Scalar.indexCast v21
  let c2 : Index := 2#32
  let c0_15 : Index := 0#32
  ![0, v22.toNat, 2, 0]
def cc15_transform_0 (i : grid15.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc15_transform_1 (i : grid15.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc15_transform_2 (i : grid15.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc15_transform_3 (i : grid15.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat, arg1.toNat]

abbrev stage15_0 : Fin 2 → Memref sig .tc .vmem S1x16x16x512 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true, false, false]

abbrev stage15_1 : Fin 2 → Memref sig .tc .vmem S9x512x128 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![false, true, false]

abbrev stage15_2 : Fin 2 → Memref sig .tc .vmem S1x128 .f32 := fun | 0 => Memref.whole cc15_stg2_0 | 1 => Memref.whole cc15_stg2_1 | ⟨_ + 2, h⟩ => absurd h (Nat.not_lt.2 (Nat.le_add_left _ _))
abbrev sem15_2 : Fin 2 → DmaSem sig := fun | 0 => cc15_sem2_0 | 1 => cc15_sem2_1 | ⟨_ + 2, h⟩ => absurd h (Nat.not_lt.2 (Nat.le_add_left _ _))
abbrev reads15_2 : Fin grid15.rank → Bool := ![false, true, false]

abbrev stage15_3 : Fin 2 → Memref sig .tc .vmem S1x14x14x128 .f32 := fun | 0 => Memref.whole cc15_stg3_0 | 1 => Memref.whole cc15_stg3_1 | ⟨_ + 2, h⟩ => absurd h (Nat.not_lt.2 (Nat.le_add_left _ _))
abbrev sem15_3 : Fin 2 → DmaSem sig := fun | 0 => cc15_sem3_0 | 1 => cc15_sem3_1 | ⟨_ + 2, h⟩ => absurd h (Nat.not_lt.2 (Nat.le_add_left _ _))
abbrev reads15_3 : Fin grid15.rank → Bool := ![true, true, true]

abbrev grid16 : Pipeline.Grid := ⟨3, ![8, 4, 1], ![false, false, false]⟩

def k16_mult1 (i : grid16.Coords) : BitVec 32 :=
  let arg2 : BitVec 32 := BitVec.ofNat 32 (i 2).val
  let c14_i32 : BitVec 32 := 14#32
  let v0 : BitVec 32 := Scalar.muli arg2 c14_i32
  v0
def k16_off1 (i : grid16.Coords) (c0_i32 : BitVec 32) : Fin 4 → Nat :=
  let c0 : Index := 0#32
  let arg2 : BitVec 32 := BitVec.ofNat 32 (i 2).val
  let c14_i32 : BitVec 32 := 14#32
  let v0 : BitVec 32 := Scalar.muli arg2 c14_i32
  let v1 : BitVec 32 := v0
  let v3 : BitVec 32 := Scalar.addi v1 c0_i32
  let v4 : Index := Scalar.indexCast v3
  let c0_0 : Index := 0#32
  let c0_1 : Index := 0#32
  ![0, v4.toNat, 0, 0]
def k16_off2 (i : grid16.Coords) (c0_i32_6 : BitVec 32) : Fin 4 → Nat :=
  let c0_7 : Index := 0#32
  let arg2 : BitVec 32 := BitVec.ofNat 32 (i 2).val
  let c14_i32 : BitVec 32 := 14#32
  let v0 : BitVec 32 := Scalar.muli arg2 c14_i32
  let v1 : BitVec 32 := v0
  let v12 : BitVec 32 := Scalar.addi v1 c0_i32_6
  let v13 : Index := Scalar.indexCast v12
  let c1 : Index := 1#32
  let c0_8 : Index := 0#32
  ![0, v13.toNat, 1, 0]
def k16_off3 (i : grid16.Coords) (c0_i32_13 : BitVec 32) : Fin 4 → Nat :=
  let c0_14 : Index := 0#32
  let arg2 : BitVec 32 := BitVec.ofNat 32 (i 2).val
  let c14_i32 : BitVec 32 := 14#32
  let v0 : BitVec 32 := Scalar.muli arg2 c14_i32
  let v1 : BitVec 32 := v0
  let v21 : BitVec 32 := Scalar.addi v1 c0_i32_13
  let v22 : Index := Scalar.indexCast v21
  let c2 : Index := 2#32
  let c0_15 : Index := 0#32
  ![0, v22.toNat, 2, 0]
def cc16_transform_0 (i : grid16.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc16_transform_1 (i : grid16.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc16_transform_2 (i : grid16.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc16_transform_3 (i : grid16.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat, arg1.toNat]

abbrev stage16_0 : Fin 2 → Memref sig .tc .vmem S1x16x16x512 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true, false, false]

abbrev stage16_1 : Fin 2 → Memref sig .tc .vmem S9x512x128 .f32 := fun | 0 => Memref.whole cc16_stg1_0 | 1 => Memref.whole cc16_stg1_1 | ⟨_ + 2, h⟩ => absurd h (Nat.not_lt.2 (Nat.le_add_left _ _))
abbrev sem16_1 : Fin 2 → DmaSem sig := fun | 0 => cc16_sem1_0 | 1 => cc16_sem1_1 | ⟨_ + 2, h⟩ => absurd h (Nat.not_lt.2 (Nat.le_add_left _ _))
abbrev reads16_1 : Fin grid16.rank → Bool := ![false, true, false]

abbrev stage16_2 : Fin 2 → Memref sig .tc .vmem S1x128 .f32 := fun | 0 => Memref.whole cc16_stg2_0 | 1 => Memref.whole cc16_stg2_1 | ⟨_ + 2, h⟩ => absurd h (Nat.not_lt.2 (Nat.le_add_left _ _))
abbrev sem16_2 : Fin 2 → DmaSem sig := fun | 0 => cc16_sem2_0 | 1 => cc16_sem2_1 | ⟨_ + 2, h⟩ => absurd h (Nat.not_lt.2 (Nat.le_add_left _ _))
abbrev reads16_2 : Fin grid16.rank → Bool := ![false, true, false]

abbrev stage16_3 : Fin 2 → Memref sig .tc .vmem S1x14x14x128 .f32 := fun | 0 => Memref.whole cc16_stg3_0 | 1 => Memref.whole cc16_stg3_1 | ⟨_ + 2, h⟩ => absurd h (Nat.not_lt.2 (Nat.le_add_left _ _))
abbrev sem16_3 : Fin 2 → DmaSem sig := fun | 0 => cc16_sem3_0 | 1 => cc16_sem3_1 | ⟨_ + 2, h⟩ => absurd h (Nat.not_lt.2 (Nat.le_add_left _ _))
abbrev reads16_3 : Fin grid16.rank → Bool := ![true, true, true]

abbrev grid17 : Pipeline.Grid := ⟨1, ![8], ![false]⟩

def cc17_transform_0 (i : grid17.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc17_transform_1 (i : grid17.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage17_0 : Fin 2 → Memref sig .tc .vmem S1x14x7x1024 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 2 → Memref sig .tc .vmem S1x7x7x512 .f32 := fun | 0 => Memref.whole cc17_stg1_0 | 1 => Memref.whole cc17_stg1_1 | ⟨_ + 2, h⟩ => absurd h (Nat.not_lt.2 (Nat.le_add_left _ _))
abbrev sem17_1 : Fin 2 → DmaSem sig := fun | 0 => cc17_sem1_0 | 1 => cc17_sem1_1 | ⟨_ + 2, h⟩ => absurd h (Nat.not_lt.2 (Nat.le_add_left _ _))
abbrev reads17_1 : Fin grid17.rank → Bool := ![true]

class Facts₀ : Prop where
  transposes_S8x3x224x224_S8x224x224x3_0_2_3_1 : S8x3x224x224.Transposes [0, 2, 3, 1] S8x224x224x3
  pads_S8x224x224x3_S8x226x226x3_000_110_110_000 : S8x224x224x3.Pads (![0, 1, 1, 0] : Fin 4 → Nat) ![0, 1, 1, 0] ![0, 0, 0, 0] S8x226x226x3
  h_S_ : 0 < S_.numel
  h_S1x1x224x3 : 0 < S1x1x224x3.numel
  shapeCasts_S1x1x224x3_S1x224x3 : S1x1x224x3.ShapeCasts S1x224x3
  shapeCasts_S1x224x3_S224x3 : S1x224x3.ShapeCasts S224x3
  inb_S9x3x64_S1x3x64_0_0_0 : ∀ a, (![0, 0, 0] : Fin 3 → Nat) a + S1x3x64.size a ≤ S9x3x64.size a
  h_S1x3x64 : 0 < S1x3x64.numel
  shapeCasts_S1x3x64_S3x64 : S1x3x64.ShapeCasts S3x64
  inb_S9x3x64_S1x3x64_1_0_0 : ∀ a, (![1, 0, 0] : Fin 3 → Nat) a + S1x3x64.size a ≤ S9x3x64.size a
  inb_S9x3x64_S1x3x64_2_0_0 : ∀ a, (![2, 0, 0] : Fin 3 → Nat) a + S1x3x64.size a ≤ S9x3x64.size a
  inb_S9x3x64_S1x3x64_3_0_0 : ∀ a, (![3, 0, 0] : Fin 3 → Nat) a + S1x3x64.size a ≤ S9x3x64.size a
  inb_S9x3x64_S1x3x64_4_0_0 : ∀ a, (![4, 0, 0] : Fin 3 → Nat) a + S1x3x64.size a ≤ S9x3x64.size a
  inb_S9x3x64_S1x3x64_5_0_0 : ∀ a, (![5, 0, 0] : Fin 3 → Nat) a + S1x3x64.size a ≤ S9x3x64.size a
  inb_S9x3x64_S1x3x64_6_0_0 : ∀ a, (![6, 0, 0] : Fin 3 → Nat) a + S1x3x64.size a ≤ S9x3x64.size a
  inb_S9x3x64_S1x3x64_7_0_0 : ∀ a, (![7, 0, 0] : Fin 3 → Nat) a + S1x3x64.size a ≤ S9x3x64.size a
  inb_S9x3x64_S1x3x64_8_0_0 : ∀ a, (![8, 0, 0] : Fin 3 → Nat) a + S1x3x64.size a ≤ S9x3x64.size a
  inb_S1x64_S1x64_0_0 : ∀ a, (![0, 0] : Fin 2 → Nat) a + S1x64.size a ≤ S1x64.size a
  h_S1x64 : 0 < S1x64.numel
  broadcasts_S1x64_S224x64 : S1x64.Broadcasts S224x64
  shapeCasts_S224x64_S1x224x64 : S224x64.ShapeCasts S1x224x64
  inb_S1x1x224x64_S1x1x224x64_0_0_0_0 : ∀ a, (![0, 0, 0, 0] : Fin 4 → Nat) a + S1x1x224x64.size a ≤ S1x1x224x64.size a
  h_S1x1x224x64 : 0 < S1x1x224x64.numel
  shapeCasts_S1x1x224x64_S1x224x64 : S1x1x224x64.ShapeCasts S1x224x64
  shapeCasts_S1x224x64_S1x1x224x64 : S1x224x64.ShapeCasts S1x1x224x64
  pads_S8x224x224x64_S8x226x226x64_000_110_110_000 : S8x224x224x64.Pads (![0, 1, 1, 0] : Fin 4 → Nat) ![0, 1, 1, 0] ![0, 0, 0, 0] S8x226x226x64
  shapeCasts_S1x224x64_S224x64 : S1x224x64.ShapeCasts S224x64
  inb_S9x64x64_S1x64x64_0_0_0 : ∀ a, (![0, 0, 0] : Fin 3 → Nat) a + S1x64x64.size a ≤ S9x64x64.size a
  h_S1x64x64 : 0 < S1x64x64.numel
  shapeCasts_S1x64x64_S64x64 : S1x64x64.ShapeCasts S64x64
  inb_S9x64x64_S1x64x64_1_0_0 : ∀ a, (![1, 0, 0] : Fin 3 → Nat) a + S1x64x64.size a ≤ S9x64x64.size a
  inb_S9x64x64_S1x64x64_2_0_0 : ∀ a, (![2, 0, 0] : Fin 3 → Nat) a + S1x64x64.size a ≤ S9x64x64.size a
  inb_S9x64x64_S1x64x64_3_0_0 : ∀ a, (![3, 0, 0] : Fin 3 → Nat) a + S1x64x64.size a ≤ S9x64x64.size a
  inb_S9x64x64_S1x64x64_4_0_0 : ∀ a, (![4, 0, 0] : Fin 3 → Nat) a + S1x64x64.size a ≤ S9x64x64.size a
  inb_S9x64x64_S1x64x64_5_0_0 : ∀ a, (![5, 0, 0] : Fin 3 → Nat) a + S1x64x64.size a ≤ S9x64x64.size a
  inb_S9x64x64_S1x64x64_6_0_0 : ∀ a, (![6, 0, 0] : Fin 3 → Nat) a + S1x64x64.size a ≤ S9x64x64.size a
  inb_S9x64x64_S1x64x64_7_0_0 : ∀ a, (![7, 0, 0] : Fin 3 → Nat) a + S1x64x64.size a ≤ S9x64x64.size a
  inb_S9x64x64_S1x64x64_8_0_0 : ∀ a, (![8, 0, 0] : Fin 3 → Nat) a + S1x64x64.size a ≤ S9x64x64.size a
  shapeCasts_S8x224x224x64_S8x224x112x128 : S8x224x224x64.ShapeCasts S8x224x112x128
  inb_S1x224x112x128_S1x224x112x128_0_0_0_0 : ∀ a, (![0, 0, 0, 0] : Fin 4 → Nat) a + S1x224x112x128.size a ≤ S1x224x112x128.size a
  h_S1x224x112x128 : 0 < S1x224x112x128.numel
  shapeCasts_S1x224x112x128_S224x112x128 : S1x224x112x128.ShapeCasts S224x112x128
  shapeCasts_S224x112x128_S112x2x112x128 : S224x112x128.ShapeCasts S112x2x112x128
  reduces_S112x2x112x128_S112x112x128 : S112x2x112x128.Reduces [1] S112x112x128
  slices_S112x112x128_o0_0_0_S112x112x64 : S112x112x128.Slices ![0, 0, 0] S112x112x64
  slices_S112x112x128_o0_0_64_S112x112x64 : S112x112x128.Slices ![0, 0, 64] S112x112x64
  inb_S1x112x112x64_S1x112x112x64_0_0_0_0 : ∀ a, (![0, 0, 0, 0] : Fin 4 → Nat) a + S1x112x112x64.size a ≤ S1x112x112x64.size a
  h_S1x112x112x64 : 0 < S1x112x112x64.numel
  shapeCasts_S1x112x112x64_S112x112x64 : S1x112x112x64.ShapeCasts S112x112x64
  shapeCasts_S112x112x64_S1x112x112x64 : S112x112x64.ShapeCasts S1x112x112x64
  pads_S8x112x112x64_S8x114x114x64_000_110_110_000 : S8x112x112x64.Pads (![0, 1, 1, 0] : Fin 4 → Nat) ![0, 1, 1, 0] ![0, 0, 0, 0] S8x114x114x64
  h_S1x2x112x64 : 0 < S1x2x112x64.numel
  shapeCasts_S1x2x112x64_S2x112x64 : S1x2x112x64.ShapeCasts S2x112x64
  shapeCasts_S2x112x64_S224x64 : S2x112x64.ShapeCasts S224x64
  inb_S9x64x128_S1x64x128_0_0_0 : ∀ a, (![0, 0, 0] : Fin 3 → Nat) a + S1x64x128.size a ≤ S9x64x128.size a
  h_S1x64x128 : 0 < S1x64x128.numel
  shapeCasts_S1x64x128_S64x128 : S1x64x128.ShapeCasts S64x128
  inb_S9x64x128_S1x64x128_1_0_0 : ∀ a, (![1, 0, 0] : Fin 3 → Nat) a + S1x64x128.size a ≤ S9x64x128.size a
  inb_S9x64x128_S1x64x128_2_0_0 : ∀ a, (![2, 0, 0] : Fin 3 → Nat) a + S1x64x128.size a ≤ S9x64x128.size a
  inb_S9x64x128_S1x64x128_3_0_0 : ∀ a, (![3, 0, 0] : Fin 3 → Nat) a + S1x64x128.size a ≤ S9x64x128.size a
  inb_S9x64x128_S1x64x128_4_0_0 : ∀ a, (![4, 0, 0] : Fin 3 → Nat) a + S1x64x128.size a ≤ S9x64x128.size a
  inb_S9x64x128_S1x64x128_5_0_0 : ∀ a, (![5, 0, 0] : Fin 3 → Nat) a + S1x64x128.size a ≤ S9x64x128.size a
  inb_S9x64x128_S1x64x128_6_0_0 : ∀ a, (![6, 0, 0] : Fin 3 → Nat) a + S1x64x128.size a ≤ S9x64x128.size a
  inb_S9x64x128_S1x64x128_7_0_0 : ∀ a, (![7, 0, 0] : Fin 3 → Nat) a + S1x64x128.size a ≤ S9x64x128.size a
  inb_S9x64x128_S1x64x128_8_0_0 : ∀ a, (![8, 0, 0] : Fin 3 → Nat) a + S1x64x128.size a ≤ S9x64x128.size a
  inb_S1x128_S1x128_0_0 : ∀ a, (![0, 0] : Fin 2 → Nat) a + S1x128.size a ≤ S1x128.size a
  h_S1x128 : 0 < S1x128.numel
  broadcasts_S1x128_S224x128 : S1x128.Broadcasts S224x128
  shapeCasts_S224x128_S2x112x128 : S224x128.ShapeCasts S2x112x128
  inb_S1x2x112x128_S1x2x112x128_0_0_0_0 : ∀ a, (![0, 0, 0, 0] : Fin 4 → Nat) a + S1x2x112x128.size a ≤ S1x2x112x128.size a
  h_S1x2x112x128 : 0 < S1x2x112x128.numel
  shapeCasts_S1x2x112x128_S2x112x128 : S1x2x112x128.ShapeCasts S2x112x128
  shapeCasts_S2x112x128_S1x2x112x128 : S2x112x128.ShapeCasts S1x2x112x128
  pads_S8x112x112x128_S8x114x114x128_000_110_110_000 : S8x112x112x128.Pads (![0, 1, 1, 0] : Fin 4 → Nat) ![0, 1, 1, 0] ![0, 0, 0, 0] S8x114x114x128
  shapeCasts_S2x112x128_S224x128 : S2x112x128.ShapeCasts S224x128
  inb_S9x128x128_S1x128x128_0_0_0 : ∀ a, (![0, 0, 0] : Fin 3 → Nat) a + S1x128x128.size a ≤ S9x128x128.size a
  h_S1x128x128 : 0 < S1x128x128.numel
  shapeCasts_S1x128x128_S128x128 : S1x128x128.ShapeCasts S128x128
  inb_S9x128x128_S1x128x128_1_0_0 : ∀ a, (![1, 0, 0] : Fin 3 → Nat) a + S1x128x128.size a ≤ S9x128x128.size a
  inb_S9x128x128_S1x128x128_2_0_0 : ∀ a, (![2, 0, 0] : Fin 3 → Nat) a + S1x128x128.size a ≤ S9x128x128.size a
  inb_S9x128x128_S1x128x128_3_0_0 : ∀ a, (![3, 0, 0] : Fin 3 → Nat) a + S1x128x128.size a ≤ S9x128x128.size a
  inb_S9x128x128_S1x128x128_4_0_0 : ∀ a, (![4, 0, 0] : Fin 3 → Nat) a + S1x128x128.size a ≤ S9x128x128.size a
  inb_S9x128x128_S1x128x128_5_0_0 : ∀ a, (![5, 0, 0] : Fin 3 → Nat) a + S1x128x128.size a ≤ S9x128x128.size a
  inb_S9x128x128_S1x128x128_6_0_0 : ∀ a, (![6, 0, 0] : Fin 3 → Nat) a + S1x128x128.size a ≤ S9x128x128.size a
  inb_S9x128x128_S1x128x128_7_0_0 : ∀ a, (![7, 0, 0] : Fin 3 → Nat) a + S1x128x128.size a ≤ S9x128x128.size a
  inb_S9x128x128_S1x128x128_8_0_0 : ∀ a, (![8, 0, 0] : Fin 3 → Nat) a + S1x128x128.size a ≤ S9x128x128.size a
  shapeCasts_S8x112x112x128_S8x112x56x256 : S8x112x112x128.ShapeCasts S8x112x56x256
  inb_S1x112x56x256_S1x112x56x256_0_0_0_0 : ∀ a, (![0, 0, 0, 0] : Fin 4 → Nat) a + S1x112x56x256.size a ≤ S1x112x56x256.size a
  h_S1x112x56x256 : 0 < S1x112x56x256.numel
  shapeCasts_S1x112x56x256_S112x56x256 : S1x112x56x256.ShapeCasts S112x56x256
  shapeCasts_S112x56x256_S56x2x56x256 : S112x56x256.ShapeCasts S56x2x56x256
  reduces_S56x2x56x256_S56x56x256 : S56x2x56x256.Reduces [1] S56x56x256
  slices_S56x56x256_o0_0_0_S56x56x128 : S56x56x256.Slices ![0, 0, 0] S56x56x128
  slices_S56x56x256_o0_0_128_S56x56x128 : S56x56x256.Slices ![0, 0, 128] S56x56x128
  inb_S1x56x56x128_S1x56x56x128_0_0_0_0 : ∀ a, (![0, 0, 0, 0] : Fin 4 → Nat) a + S1x56x56x128.size a ≤ S1x56x56x128.size a
  h_S1x56x56x128 : 0 < S1x56x56x128.numel
  shapeCasts_S1x56x56x128_S56x56x128 : S1x56x56x128.ShapeCasts S56x56x128
  shapeCasts_S56x56x128_S1x56x56x128 : S56x56x128.ShapeCasts S1x56x56x128
  pads_S8x56x56x128_S8x58x58x128_000_110_110_000 : S8x56x56x128.Pads (![0, 1, 1, 0] : Fin 4 → Nat) ![0, 1, 1, 0] ![0, 0, 0, 0] S8x58x58x128
  h_S1x4x56x128 : 0 < S1x4x56x128.numel
  shapeCasts_S1x4x56x128_S4x56x128 : S1x4x56x128.ShapeCasts S4x56x128
  shapeCasts_S4x56x128_S224x128 : S4x56x128.ShapeCasts S224x128
  shapeCasts_S224x128_S4x56x128 : S224x128.ShapeCasts S4x56x128
  inb_S1x4x56x128_S1x4x56x128_0_0_0_0 : ∀ a, (![0, 0, 0, 0] : Fin 4 → Nat) a + S1x4x56x128.size a ≤ S1x4x56x128.size a
  shapeCasts_S4x56x128_S1x4x56x128 : S4x56x128.ShapeCasts S1x4x56x128
  pads_S8x56x56x256_S8x58x58x256_000_110_110_000 : S8x56x56x256.Pads (![0, 1, 1, 0] : Fin 4 → Nat) ![0, 1, 1, 0] ![0, 0, 0, 0] S8x58x58x256
  h_S1x4x56x256 : 0 < S1x4x56x256.numel
  shapeCasts_S1x4x56x256_S4x56x256 : S1x4x56x256.ShapeCasts S4x56x256
  shapeCasts_S4x56x256_S224x256 : S4x56x256.ShapeCasts S224x256
  inb_S9x256x128_S1x256x128_0_0_0 : ∀ a, (![0, 0, 0] : Fin 3 → Nat) a + S1x256x128.size a ≤ S9x256x128.size a
  h_S1x256x128 : 0 < S1x256x128.numel
  shapeCasts_S1x256x128_S256x128 : S1x256x128.ShapeCasts S256x128
  inb_S9x256x128_S1x256x128_1_0_0 : ∀ a, (![1, 0, 0] : Fin 3 → Nat) a + S1x256x128.size a ≤ S9x256x128.size a
  inb_S9x256x128_S1x256x128_2_0_0 : ∀ a, (![2, 0, 0] : Fin 3 → Nat) a + S1x256x128.size a ≤ S9x256x128.size a
  inb_S9x256x128_S1x256x128_3_0_0 : ∀ a, (![3, 0, 0] : Fin 3 → Nat) a + S1x256x128.size a ≤ S9x256x128.size a
  inb_S9x256x128_S1x256x128_4_0_0 : ∀ a, (![4, 0, 0] : Fin 3 → Nat) a + S1x256x128.size a ≤ S9x256x128.size a
  inb_S9x256x128_S1x256x128_5_0_0 : ∀ a, (![5, 0, 0] : Fin 3 → Nat) a + S1x256x128.size a ≤ S9x256x128.size a
  inb_S9x256x128_S1x256x128_6_0_0 : ∀ a, (![6, 0, 0] : Fin 3 → Nat) a + S1x256x128.size a ≤ S9x256x128.size a
  inb_S9x256x128_S1x256x128_7_0_0 : ∀ a, (![7, 0, 0] : Fin 3 → Nat) a + S1x256x128.size a ≤ S9x256x128.size a
  inb_S9x256x128_S1x256x128_8_0_0 : ∀ a, (![8, 0, 0] : Fin 3 → Nat) a + S1x256x128.size a ≤ S9x256x128.size a
  shapeCasts_S8x56x56x256_S8x56x28x512 : S8x56x56x256.ShapeCasts S8x56x28x512
  inb_S1x56x28x512_S1x56x28x512_0_0_0_0 : ∀ a, (![0, 0, 0, 0] : Fin 4 → Nat) a + S1x56x28x512.size a ≤ S1x56x28x512.size a
  h_S1x56x28x512 : 0 < S1x56x28x512.numel
  shapeCasts_S1x56x28x512_S56x28x512 : S1x56x28x512.ShapeCasts S56x28x512
  shapeCasts_S56x28x512_S28x2x28x512 : S56x28x512.ShapeCasts S28x2x28x512
  reduces_S28x2x28x512_S28x28x512 : S28x2x28x512.Reduces [1] S28x28x512
  slices_S28x28x512_o0_0_0_S28x28x256 : S28x28x512.Slices ![0, 0, 0] S28x28x256
  slices_S28x28x512_o0_0_256_S28x28x256 : S28x28x512.Slices ![0, 0, 256] S28x28x256
  inb_S1x28x28x256_S1x28x28x256_0_0_0_0 : ∀ a, (![0, 0, 0, 0] : Fin 4 → Nat) a + S1x28x28x256.size a ≤ S1x28x28x256.size a
  h_S1x28x28x256 : 0 < S1x28x28x256.numel
  shapeCasts_S1x28x28x256_S28x28x256 : S1x28x28x256.ShapeCasts S28x28x256
  shapeCasts_S28x28x256_S1x28x28x256 : S28x28x256.ShapeCasts S1x28x28x256
  pads_S8x28x28x256_S8x30x30x256_000_110_110_000 : S8x28x28x256.Pads (![0, 1, 1, 0] : Fin 4 → Nat) ![0, 1, 1, 0] ![0, 0, 0, 0] S8x30x30x256
  h_S1x7x28x256 : 0 < S1x7x28x256.numel
  shapeCasts_S1x7x28x256_S7x28x256 : S1x7x28x256.ShapeCasts S7x28x256
  shapeCasts_S7x28x256_S196x256 : S7x28x256.ShapeCasts S196x256
  broadcasts_S1x128_S196x128 : S1x128.Broadcasts S196x128
  shapeCasts_S196x128_S7x28x128 : S196x128.ShapeCasts S7x28x128
  inb_S1x7x28x128_S1x7x28x128_0_0_0_0 : ∀ a, (![0, 0, 0, 0] : Fin 4 → Nat) a + S1x7x28x128.size a ≤ S1x7x28x128.size a
  h_S1x7x28x128 : 0 < S1x7x28x128.numel
  shapeCasts_S1x7x28x128_S7x28x128 : S1x7x28x128.ShapeCasts S7x28x128
  shapeCasts_S7x28x128_S1x7x28x128 : S7x28x128.ShapeCasts S1x7x28x128
  pads_S8x28x28x512_S8x30x30x512_000_110_110_000 : S8x28x28x512.Pads (![0, 1, 1, 0] : Fin 4 → Nat) ![0, 1, 1, 0] ![0, 0, 0, 0] S8x30x30x512
  h_S1x7x28x512 : 0 < S1x7x28x512.numel
  shapeCasts_S1x7x28x512_S7x28x512 : S1x7x28x512.ShapeCasts S7x28x512
  shapeCasts_S7x28x512_S196x512 : S7x28x512.ShapeCasts S196x512
  inb_S9x512x128_S1x512x128_0_0_0 : ∀ a, (![0, 0, 0] : Fin 3 → Nat) a + S1x512x128.size a ≤ S9x512x128.size a
  h_S1x512x128 : 0 < S1x512x128.numel
  shapeCasts_S1x512x128_S512x128 : S1x512x128.ShapeCasts S512x128
  inb_S9x512x128_S1x512x128_1_0_0 : ∀ a, (![1, 0, 0] : Fin 3 → Nat) a + S1x512x128.size a ≤ S9x512x128.size a
  inb_S9x512x128_S1x512x128_2_0_0 : ∀ a, (![2, 0, 0] : Fin 3 → Nat) a + S1x512x128.size a ≤ S9x512x128.size a
  inb_S9x512x128_S1x512x128_3_0_0 : ∀ a, (![3, 0, 0] : Fin 3 → Nat) a + S1x512x128.size a ≤ S9x512x128.size a
  inb_S9x512x128_S1x512x128_4_0_0 : ∀ a, (![4, 0, 0] : Fin 3 → Nat) a + S1x512x128.size a ≤ S9x512x128.size a
  inb_S9x512x128_S1x512x128_5_0_0 : ∀ a, (![5, 0, 0] : Fin 3 → Nat) a + S1x512x128.size a ≤ S9x512x128.size a
  inb_S9x512x128_S1x512x128_6_0_0 : ∀ a, (![6, 0, 0] : Fin 3 → Nat) a + S1x512x128.size a ≤ S9x512x128.size a
  inb_S9x512x128_S1x512x128_7_0_0 : ∀ a, (![7, 0, 0] : Fin 3 → Nat) a + S1x512x128.size a ≤ S9x512x128.size a
  inb_S9x512x128_S1x512x128_8_0_0 : ∀ a, (![8, 0, 0] : Fin 3 → Nat) a + S1x512x128.size a ≤ S9x512x128.size a
  shapeCasts_S8x28x28x512_S8x28x14x1024 : S8x28x28x512.ShapeCasts S8x28x14x1024
  inb_S1x28x14x1024_S1x28x14x1024_0_0_0_0 : ∀ a, (![0, 0, 0, 0] : Fin 4 → Nat) a + S1x28x14x1024.size a ≤ S1x28x14x1024.size a
  h_S1x28x14x1024 : 0 < S1x28x14x1024.numel
  shapeCasts_S1x28x14x1024_S28x14x1024 : S1x28x14x1024.ShapeCasts S28x14x1024
  shapeCasts_S28x14x1024_S14x2x14x1024 : S28x14x1024.ShapeCasts S14x2x14x1024
  reduces_S14x2x14x1024_S14x14x1024 : S14x2x14x1024.Reduces [1] S14x14x1024
  slices_S14x14x1024_o0_0_0_S14x14x512 : S14x14x1024.Slices ![0, 0, 0] S14x14x512
  slices_S14x14x1024_o0_0_512_S14x14x512 : S14x14x1024.Slices ![0, 0, 512] S14x14x512
  inb_S1x14x14x512_S1x14x14x512_0_0_0_0 : ∀ a, (![0, 0, 0, 0] : Fin 4 → Nat) a + S1x14x14x512.size a ≤ S1x14x14x512.size a
  h_S1x14x14x512 : 0 < S1x14x14x512.numel
  shapeCasts_S1x14x14x512_S14x14x512 : S1x14x14x512.ShapeCasts S14x14x512
  shapeCasts_S14x14x512_S1x14x14x512 : S14x14x512.ShapeCasts S1x14x14x512
  pads_S8x14x14x512_S8x16x16x512_000_110_110_000 : S8x14x14x512.Pads (![0, 1, 1, 0] : Fin 4 → Nat) ![0, 1, 1, 0] ![0, 0, 0, 0] S8x16x16x512
  shapeCasts_S14x14x512_S196x512 : S14x14x512.ShapeCasts S196x512
  shapeCasts_S196x128_S14x14x128 : S196x128.ShapeCasts S14x14x128
  inb_S1x14x14x128_S1x14x14x128_0_0_0_0 : ∀ a, (![0, 0, 0, 0] : Fin 4 → Nat) a + S1x14x14x128.size a ≤ S1x14x14x128.size a
  h_S1x14x14x128 : 0 < S1x14x14x128.numel
  shapeCasts_S1x14x14x128_S14x14x128 : S1x14x14x128.ShapeCasts S14x14x128
  shapeCasts_S14x14x128_S1x14x14x128 : S14x14x128.ShapeCasts S1x14x14x128
  shapeCasts_S8x14x14x512_S8x14x7x1024 : S8x14x14x512.ShapeCasts S8x14x7x1024
  inb_S1x14x7x1024_S1x14x7x1024_0_0_0_0 : ∀ a, (![0, 0, 0, 0] : Fin 4 → Nat) a + S1x14x7x1024.size a ≤ S1x14x7x1024.size a
  h_S1x14x7x1024 : 0 < S1x14x7x1024.numel
  shapeCasts_S1x14x7x1024_S14x7x1024 : S1x14x7x1024.ShapeCasts S14x7x1024
  shapeCasts_S14x7x1024_S7x2x7x1024 : S14x7x1024.ShapeCasts S7x2x7x1024
  reduces_S7x2x7x1024_S7x7x1024 : S7x2x7x1024.Reduces [1] S7x7x1024
  slices_S7x7x1024_o0_0_0_S7x7x512 : S7x7x1024.Slices ![0, 0, 0] S7x7x512
  slices_S7x7x1024_o0_0_512_S7x7x512 : S7x7x1024.Slices ![0, 0, 512] S7x7x512
  inb_S1x7x7x512_S1x7x7x512_0_0_0_0 : ∀ a, (![0, 0, 0, 0] : Fin 4 → Nat) a + S1x7x7x512.size a ≤ S1x7x7x512.size a
  h_S1x7x7x512 : 0 < S1x7x7x512.numel
  shapeCasts_S1x7x7x512_S7x7x512 : S1x7x7x512.ShapeCasts S7x7x512
  shapeCasts_S7x7x512_S1x7x7x512 : S7x7x512.ShapeCasts S1x7x7x512
  transposes_S8x56x56x128_S8x128x56x56_0_3_1_2 : S8x56x56x128.Transposes [0, 3, 1, 2] S8x128x56x56
  transposes_S8x28x28x256_S8x256x28x28_0_3_1_2 : S8x28x28x256.Transposes [0, 3, 1, 2] S8x256x28x28
  transposes_S8x14x14x512_S8x512x14x14_0_3_1_2 : S8x14x14x512.Transposes [0, 3, 1, 2] S8x512x14x14
  transposes_S8x7x7x512_S8x512x7x7_0_3_1_2 : S8x7x7x512.Transposes [0, 3, 1, 2] S8x512x7x7
  dot_S224x3_S3x64_S224x64_1_0_0_1_n_n_wf : DotDims.WF S224x3 S3x64 S224x64 [1] [0] [0] [1] [] []
  dot_S224x64_S64x64_S224x64_1_0_0_1_n_n_wf : DotDims.WF S224x64 S64x64 S224x64 [1] [0] [0] [1] [] []
  dot_S224x64_S64x128_S224x128_1_0_0_1_n_n_wf : DotDims.WF S224x64 S64x128 S224x128 [1] [0] [0] [1] [] []
  dot_S224x128_S128x128_S224x128_1_0_0_1_n_n_wf : DotDims.WF S224x128 S128x128 S224x128 [1] [0] [0] [1] [] []
  dot_S224x256_S256x128_S224x128_1_0_0_1_n_n_wf : DotDims.WF S224x256 S256x128 S224x128 [1] [0] [0] [1] [] []
  dot_S196x256_S256x128_S196x128_1_0_0_1_n_n_wf : DotDims.WF S196x256 S256x128 S196x128 [1] [0] [0] [1] [] []
  dot_S196x512_S512x128_S196x128_1_0_0_1_n_n_wf : DotDims.WF S196x512 S512x128 S196x128 [1] [0] [0] [1] [] []
  hrank0 : 0 < grid0.rank
  k0_mult1_dvd : ∀ i : grid0.Coords, 1 ∣ (k0_mult1 i).toNat
  k0_off1_inb : ∀ i : grid0.Coords, ∀ (r : Fin 3), ∀ a, (k0_off1 i (BitVec.ofNat 32 r.val)) a + S1x1x224x3.size a ≤ S1x226x226x3.size a
  k0_off2_inb : ∀ i : grid0.Coords, ∀ (r : Fin 3), ∀ a, (k0_off2 i (BitVec.ofNat 32 r.val)) a + S1x1x224x3.size a ≤ S1x226x226x3.size a
  k0_off3_inb : ∀ i : grid0.Coords, ∀ (r : Fin 3), ∀ a, (k0_off3 i (BitVec.ofNat 32 r.val)) a + S1x1x224x3.size a ≤ S1x226x226x3.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x226x226x3.size a ≤ S8x226x226x3.size a
  hwx0_0 : ∀ i : grid0.Coords, EltTy.bits .f32 = 32 ∨ (Rect.block (s := S8x226x226x3) S1x226x226x3.size (cc0_transform_0 i) (hinb0_0 i)).WholeWords (EltTy.packing .f32)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S9x3x64.size a ≤ S9x3x64.size a
  hwx0_1 : ∀ i : grid0.Coords, EltTy.bits .f32 = 32 ∨ (Rect.block (s := S9x3x64) S9x3x64.size (cc0_transform_1 i) (hinb0_1 i)).WholeWords (EltTy.packing .f32)
  hstage0_2 : ∀ j, (stage0_2 j).IsWhole
  nbuf0_2 : grid0.bufCount reads0_2 false = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x224x64.size a ≤ S8x224x224x64.size a
  hwx0_3 : ∀ i : grid0.Coords, EltTy.bits .f32 = 32 ∨ (Rect.block (s := S8x224x224x64) S1x1x224x64.size (cc0_transform_3 i) (hinb0_3 i)).WholeWords (EltTy.packing .f32)
  hrank1 : 0 < grid1.rank
  k1_mult1_dvd : ∀ i : grid1.Coords, 1 ∣ (k1_mult1 i).toNat
  k1_off1_inb : ∀ i : grid1.Coords, ∀ (r : Fin 3), ∀ a, (k1_off1 i (BitVec.ofNat 32 r.val)) a + S1x1x224x64.size a ≤ S1x226x226x64.size a
  k1_off2_inb : ∀ i : grid1.Coords, ∀ (r : Fin 3), ∀ a, (k1_off2 i (BitVec.ofNat 32 r.val)) a + S1x1x224x64.size a ≤ S1x226x226x64.size a
  k1_off3_inb : ∀ i : grid1.Coords, ∀ (r : Fin 3), ∀ a, (k1_off3 i (BitVec.ofNat 32 r.val)) a + S1x1x224x64.size a ≤ S1x226x226x64.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x226x226x64.size a ≤ S8x226x226x64.size a
  hwx1_0 : ∀ i : grid1.Coords, EltTy.bits .f32 = 32 ∨ (Rect.block (s := S8x226x226x64) S1x226x226x64.size (cc1_transform_0 i) (hinb1_0 i)).WholeWords (EltTy.packing .f32)
  hstage1_1 : ∀ j, (stage1_1 j).IsWhole
  nbuf1_1 : grid1.bufCount reads1_1 false = 1
  hreads1_1 : ∀ i i' : grid1.Coords, (∀ a, reads1_1 a = true → i a = i' a) → cc1_transform_1 i = cc1_transform_1 i'
  hinb1_1 : ∀ (i : grid1.Coords) a, (cc1_transform_1 i a + 1) * S9x64x64.size a ≤ S9x64x64.size a
  hwx1_1 : ∀ i : grid1.Coords, EltTy.bits .f32 = 32 ∨ (Rect.block (s := S9x64x64) S9x64x64.size (cc1_transform_1 i) (hinb1_1 i)).WholeWords (EltTy.packing .f32)
  hstage1_2 : ∀ j, (stage1_2 j).IsWhole
  nbuf1_2 : grid1.bufCount reads1_2 false = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x224x64.size a ≤ S8x224x224x64.size a
  hwx1_3 : ∀ i : grid1.Coords, EltTy.bits .f32 = 32 ∨ (Rect.block (s := S8x224x224x64) S1x1x224x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x224x112x128.size a ≤ S8x224x112x128.size a
  hwx2_0 : ∀ i : grid2.Coords, EltTy.bits .f32 = 32 ∨ (Rect.block (s := S8x224x112x128) S1x224x112x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x112x112x64.size a ≤ S8x112x112x64.size a
  hwx2_1 : ∀ i : grid2.Coords, EltTy.bits .f32 = 32 ∨ (Rect.block (s := S8x112x112x64) S1x112x112x64.size (cc2_transform_1 i) (hinb2_1 i)).WholeWords (EltTy.packing .f32)
  hrank3 : 0 < grid3.rank
  k3_mult1_dvd : ∀ i : grid3.Coords, 2 ∣ (k3_mult1 i).toNat
  k3_off1_inb : ∀ i : grid3.Coords, ∀ (r : Fin 3), ∀ a, (k3_off1 i (BitVec.ofNat 32 r.val)) a + S1x2x112x64.size a ≤ S1x114x114x64.size a
  k3_off2_inb : ∀ i : grid3.Coords, ∀ (r : Fin 3), ∀ a, (k3_off2 i (BitVec.ofNat 32 r.val)) a + S1x2x112x64.size a ≤ S1x114x114x64.size a
  k3_off3_inb : ∀ i : grid3.Coords, ∀ (r : Fin 3), ∀ a, (k3_off3 i (BitVec.ofNat 32 r.val)) a + S1x2x112x64.size a ≤ S1x114x114x64.size a
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x114x114x64.size a ≤ S8x114x114x64.size a
  hwx3_0 : ∀ i : grid3.Coords, EltTy.bits .f32 = 32 ∨ (Rect.block (s := S8x114x114x64) S1x114x114x64.size (cc3_transform_0 i) (hinb3_0 i)).WholeWords (EltTy.packing .f32)
  hstage3_1 : ∀ j, (stage3_1 j).IsWhole
  nbuf3_1 : grid3.bufCount reads3_1 false = 1
  hreads3_1 : ∀ i i' : grid3.Coords, (∀ a, reads3_1 a = true → i a = i' a) → cc3_transform_1 i = cc3_transform_1 i'
  hinb3_1 : ∀ (i : grid3.Coords) a, (cc3_transform_1 i a + 1) * S9x64x128.size a ≤ S9x64x128.size a
  hwx3_1 : ∀ i : grid3.Coords, EltTy.bits .f32 = 32 ∨ (Rect.block (s := S9x64x128) S9x64x128.size (cc3_transform_1 i) (hinb3_1 i)).WholeWords (EltTy.packing .f32)
  hstage3_2 : ∀ j, (stage3_2 j).IsWhole
  nbuf3_2 : grid3.bufCount reads3_2 false = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x2x112x128.size a ≤ S8x112x112x128.size a
  hwx3_3 : ∀ i : grid3.Coords, EltTy.bits .f32 = 32 ∨ (Rect.block (s := S8x112x112x128) S1x2x112x128.size (cc3_transform_3 i) (hinb3_3 i)).WholeWords (EltTy.packing .f32)
  hrank4 : 0 < grid4.rank
  k4_mult1_dvd : ∀ i : grid4.Coords, 2 ∣ (k4_mult1 i).toNat
  k4_off1_inb : ∀ i : grid4.Coords, ∀ (r : Fin 3), ∀ a, (k4_off1 i (BitVec.ofNat 32 r.val)) a + S1x2x112x128.size a ≤ S1x114x114x128.size a
  k4_off2_inb : ∀ i : grid4.Coords, ∀ (r : Fin 3), ∀ a, (k4_off2 i (BitVec.ofNat 32 r.val)) a + S1x2x112x128.size a ≤ S1x114x114x128.size a
  k4_off3_inb : ∀ i : grid4.Coords, ∀ (r : Fin 3), ∀ a, (k4_off3 i (BitVec.ofNat 32 r.val)) a + S1x2x112x128.size a ≤ S1x114x114x128.size a
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x114x114x128.size a ≤ S8x114x114x128.size a
  hwx4_0 : ∀ i : grid4.Coords, EltTy.bits .f32 = 32 ∨ (Rect.block (s := S8x114x114x128) S1x114x114x128.size (cc4_transform_0 i) (hinb4_0 i)).WholeWords (EltTy.packing .f32)
  hstage4_1 : ∀ j, (stage4_1 j).IsWhole
  nbuf4_1 : grid4.bufCount reads4_1 false = 1
  hreads4_1 : ∀ i i' : grid4.Coords, (∀ a, reads4_1 a = true → i a = i' a) → cc4_transform_1 i = cc4_transform_1 i'
  hinb4_1 : ∀ (i : grid4.Coords) a, (cc4_transform_1 i a + 1) * S9x128x128.size a ≤ S9x128x128.size a
  hwx4_1 : ∀ i : grid4.Coords, EltTy.bits .f32 = 32 ∨ (Rect.block (s := S9x128x128) S9x128x128.size (cc4_transform_1 i) (hinb4_1 i)).WholeWords (EltTy.packing .f32)
  hstage4_2 : ∀ j, (stage4_2 j).IsWhole
  nbuf4_2 : grid4.bufCount reads4_2 false = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1x2x112x128.size a ≤ S8x112x112x128.size a
  hwx4_3 : ∀ i : grid4.Coords, EltTy.bits .f32 = 32 ∨ (Rect.block (s := S8x112x112x128) S1x2x112x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1x112x56x256.size a ≤ S8x112x56x256.size a
  hwx5_0 : ∀ i : grid5.Coords, EltTy.bits .f32 = 32 ∨ (Rect.block (s := S8x112x56x256) S1x112x56x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1x56x56x128.size a ≤ S8x56x56x128.size a
  hwx5_1 : ∀ i : grid5.Coords, EltTy.bits .f32 = 32 ∨ (Rect.block (s := S8x56x56x128) S1x56x56x128.size (cc5_transform_1 i) (hinb5_1 i)).WholeWords (EltTy.packing .f32)
  hrank6 : 0 < grid6.rank
  k6_mult1_dvd : ∀ i : grid6.Coords, 4 ∣ (k6_mult1 i).toNat
  k6_off1_inb : ∀ i : grid6.Coords, ∀ (r : Fin 3), ∀ a, (k6_off1 i (BitVec.ofNat 32 r.val)) a + S1x4x56x128.size a ≤ S1x58x58x128.size a
  k6_off2_inb : ∀ i : grid6.Coords, ∀ (r : Fin 3), ∀ a, (k6_off2 i (BitVec.ofNat 32 r.val)) a + S1x4x56x128.size a ≤ S1x58x58x128.size a
  k6_off3_inb : ∀ i : grid6.Coords, ∀ (r : Fin 3), ∀ a, (k6_off3 i (BitVec.ofNat 32 r.val)) a + S1x4x56x128.size a ≤ S1x58x58x128.size a
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1x58x58x128.size a ≤ S8x58x58x128.size a
  hwx6_0 : ∀ i : grid6.Coords, EltTy.bits .f32 = 32 ∨ (Rect.block (s := S8x58x58x128) S1x58x58x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S9x128x128.size a ≤ S9x128x256.size a
  hwx6_1 : ∀ i : grid6.Coords, EltTy.bits .f32 = 32 ∨ (Rect.block (s := S9x128x256) S9x128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x256.size a
  hwx6_2 : ∀ i : grid6.Coords, EltTy.bits .f32 = 32 ∨ (Rect.block (s := S1x256) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S1x4x56x128.size a ≤ S8x56x56x256.size a
  hwx6_3 : ∀ i : grid6.Coords, EltTy.bits .f32 = 32 ∨ (Rect.block (s := S8x56x56x256) S1x4x56x128.size (cc6_transform_3 i) (hinb6_3 i)).WholeWords (EltTy.packing .f32)
  hrank7 : 0 < grid7.rank
  k7_mult1_dvd : ∀ i : grid7.Coords, 4 ∣ (k7_mult1 i).toNat
  k7_off1_inb : ∀ i : grid7.Coords, ∀ (r : Fin 3), ∀ a, (k7_off1 i (BitVec.ofNat 32 r.val)) a + S1x4x56x256.size a ≤ S1x58x58x256.size a
  k7_off2_inb : ∀ i : grid7.Coords, ∀ (r : Fin 3), ∀ a, (k7_off2 i (BitVec.ofNat 32 r.val)) a + S1x4x56x256.size a ≤ S1x58x58x256.size a
  k7_off3_inb : ∀ i : grid7.Coords, ∀ (r : Fin 3), ∀ a, (k7_off3 i (BitVec.ofNat 32 r.val)) a + S1x4x56x256.size a ≤ S1x58x58x256.size a
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1x58x58x256.size a ≤ S8x58x58x256.size a
  hwx7_0 : ∀ i : grid7.Coords, EltTy.bits .f32 = 32 ∨ (Rect.block (s := S8x58x58x256) S1x58x58x256.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S9x256x128.size a ≤ S9x256x256.size a
  hwx7_1 : ∀ i : grid7.Coords, EltTy.bits .f32 = 32 ∨ (Rect.block (s := S9x256x256) S9x256x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x256.size a
  hwx7_2 : ∀ i : grid7.Coords, EltTy.bits .f32 = 32 ∨ (Rect.block (s := S1x256) S1x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S1x4x56x128.size a ≤ S8x56x56x256.size a
  hwx7_3 : ∀ i : grid7.Coords, EltTy.bits .f32 = 32 ∨ (Rect.block (s := S8x56x56x256) S1x4x56x128.size (cc7_transform_3 i) (hinb7_3 i)).WholeWords (EltTy.packing .f32)
  hrank8 : 0 < grid8.rank
  k8_mult1_dvd : ∀ i : grid8.Coords, 4 ∣ (k8_mult1 i).toNat
  k8_off1_inb : ∀ i : grid8.Coords, ∀ (r : Fin 3), ∀ a, (k8_off1 i (BitVec.ofNat 32 r.val)) a + S1x4x56x256.size a ≤ S1x58x58x256.size a
  k8_off2_inb : ∀ i : grid8.Coords, ∀ (r : Fin 3), ∀ a, (k8_off2 i (BitVec.ofNat 32 r.val)) a + S1x4x56x256.size a ≤ S1x58x58x256.size a
  k8_off3_inb : ∀ i : grid8.Coords, ∀ (r : Fin 3), ∀ a, (k8_off3 i (BitVec.ofNat 32 r.val)) a + S1x4x56x256.size a ≤ S1x58x58x256.size a
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1x58x58x256.size a ≤ S8x58x58x256.size a
  hwx8_0 : ∀ i : grid8.Coords, EltTy.bits .f32 = 32 ∨ (Rect.block (s := S8x58x58x256) S1x58x58x256.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S9x256x128.size a ≤ S9x256x256.size a
  hwx8_1 : ∀ i : grid8.Coords, EltTy.bits .f32 = 32 ∨ (Rect.block (s := S9x256x256) S9x256x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x256.size a
  hwx8_2 : ∀ i : grid8.Coords, EltTy.bits .f32 = 32 ∨ (Rect.block (s := S1x256) S1x128.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S1x4x56x128.size a ≤ S8x56x56x256.size a
  hwx8_3 : ∀ i : grid8.Coords, EltTy.bits .f32 = 32 ∨ (Rect.block (s := S8x56x56x256) S1x4x56x128.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S1x56x28x512.size a ≤ S8x56x28x512.size a
  hwx9_0 : ∀ i : grid9.Coords, EltTy.bits .f32 = 32 ∨ (Rect.block (s := S8x56x28x512) S1x56x28x512.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S1x28x28x256.size a ≤ S8x28x28x256.size a
  hwx9_1 : ∀ i : grid9.Coords, EltTy.bits .f32 = 32 ∨ (Rect.block (s := S8x28x28x256) S1x28x28x256.size (cc9_transform_1 i) (hinb9_1 i)).WholeWords (EltTy.packing .f32)
  hrank10 : 0 < grid10.rank
  k10_mult1_dvd : ∀ i : grid10.Coords, 7 ∣ (k10_mult1 i).toNat
  k10_off1_inb : ∀ i : grid10.Coords, ∀ (r : Fin 3), ∀ a, (k10_off1 i (BitVec.ofNat 32 r.val)) a + S1x7x28x256.size a ≤ S1x30x30x256.size a
  k10_off2_inb : ∀ i : grid10.Coords, ∀ (r : Fin 3), ∀ a, (k10_off2 i (BitVec.ofNat 32 r.val)) a + S1x7x28x256.size a ≤ S1x30x30x256.size a
  k10_off3_inb : ∀ i : grid10.Coords, ∀ (r : Fin 3), ∀ a, (k10_off3 i (BitVec.ofNat 32 r.val)) a + S1x7x28x256.size a ≤ S1x30x30x256.size a
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S1x30x30x256.size a ≤ S8x30x30x256.size a
  hwx10_0 : ∀ i : grid10.Coords, EltTy.bits .f32 = 32 ∨ (Rect.block (s := S8x30x30x256) S1x30x30x256.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S9x256x128.size a ≤ S9x256x512.size a
  hwx10_1 : ∀ i : grid10.Coords, EltTy.bits .f32 = 32 ∨ (Rect.block (s := S9x256x512) S9x256x128.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x512.size a
  hwx10_2 : ∀ i : grid10.Coords, EltTy.bits .f32 = 32 ∨ (Rect.block (s := S1x512) S1x128.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S1x7x28x128.size a ≤ S8x28x28x512.size a
  hwx10_3 : ∀ i : grid10.Coords, EltTy.bits .f32 = 32 ∨ (Rect.block (s := S8x28x28x512) S1x7x28x128.size (cc10_transform_3 i) (hinb10_3 i)).WholeWords (EltTy.packing .f32)
  hrank11 : 0 < grid11.rank
  k11_mult1_dvd : ∀ i : grid11.Coords, 7 ∣ (k11_mult1 i).toNat
  k11_off1_inb : ∀ i : grid11.Coords, ∀ (r : Fin 3), ∀ a, (k11_off1 i (BitVec.ofNat 32 r.val)) a + S1x7x28x512.size a ≤ S1x30x30x512.size a
  k11_off2_inb : ∀ i : grid11.Coords, ∀ (r : Fin 3), ∀ a, (k11_off2 i (BitVec.ofNat 32 r.val)) a + S1x7x28x512.size a ≤ S1x30x30x512.size a
  k11_off3_inb : ∀ i : grid11.Coords, ∀ (r : Fin 3), ∀ a, (k11_off3 i (BitVec.ofNat 32 r.val)) a + S1x7x28x512.size a ≤ S1x30x30x512.size a
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S1x30x30x512.size a ≤ S8x30x30x512.size a
  hwx11_0 : ∀ i : grid11.Coords, EltTy.bits .f32 = 32 ∨ (Rect.block (s := S8x30x30x512) S1x30x30x512.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S9x512x128.size a ≤ S9x512x512.size a
  hwx11_1 : ∀ i : grid11.Coords, EltTy.bits .f32 = 32 ∨ (Rect.block (s := S9x512x512) S9x512x128.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x512.size a
  hwx11_2 : ∀ i : grid11.Coords, EltTy.bits .f32 = 32 ∨ (Rect.block (s := S1x512) S1x128.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S1x7x28x128.size a ≤ S8x28x28x512.size a
  hwx11_3 : ∀ i : grid11.Coords, EltTy.bits .f32 = 32 ∨ (Rect.block (s := S8x28x28x512) S1x7x28x128.size (cc11_transform_3 i) (hinb11_3 i)).WholeWords (EltTy.packing .f32)
  hrank12 : 0 < grid12.rank
  k12_mult1_dvd : ∀ i : grid12.Coords, 7 ∣ (k12_mult1 i).toNat
  k12_off1_inb : ∀ i : grid12.Coords, ∀ (r : Fin 3), ∀ a, (k12_off1 i (BitVec.ofNat 32 r.val)) a + S1x7x28x512.size a ≤ S1x30x30x512.size a
  k12_off2_inb : ∀ i : grid12.Coords, ∀ (r : Fin 3), ∀ a, (k12_off2 i (BitVec.ofNat 32 r.val)) a + S1x7x28x512.size a ≤ S1x30x30x512.size a
  k12_off3_inb : ∀ i : grid12.Coords, ∀ (r : Fin 3), ∀ a, (k12_off3 i (BitVec.ofNat 32 r.val)) a + S1x7x28x512.size a ≤ S1x30x30x512.size a
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S1x30x30x512.size a ≤ S8x30x30x512.size a
  hwx12_0 : ∀ i : grid12.Coords, EltTy.bits .f32 = 32 ∨ (Rect.block (s := S8x30x30x512) S1x30x30x512.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S9x512x128.size a ≤ S9x512x512.size a
  hwx12_1 : ∀ i : grid12.Coords, EltTy.bits .f32 = 32 ∨ (Rect.block (s := S9x512x512) S9x512x128.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S1x128.size a ≤ S1x512.size a
  hwx12_2 : ∀ i : grid12.Coords, EltTy.bits .f32 = 32 ∨ (Rect.block (s := S1x512) S1x128.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S1x7x28x128.size a ≤ S8x28x28x512.size a
  hwx12_3 : ∀ i : grid12.Coords, EltTy.bits .f32 = 32 ∨ (Rect.block (s := S8x28x28x512) S1x7x28x128.size (cc12_transform_3 i) (hinb12_3 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S1x28x14x1024.size a ≤ S8x28x14x1024.size a
  hwx13_0 : ∀ i : grid13.Coords, EltTy.bits .f32 = 32 ∨ (Rect.block (s := S8x28x14x1024) S1x28x14x1024.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S1x14x14x512.size a ≤ S8x14x14x512.size a
  hwx13_1 : ∀ i : grid13.Coords, EltTy.bits .f32 = 32 ∨ (Rect.block (s := S8x14x14x512) S1x14x14x512.size (cc13_transform_1 i) (hinb13_1 i)).WholeWords (EltTy.packing .f32)
  hrank14 : 0 < grid14.rank
  k14_mult1_dvd : ∀ i : grid14.Coords, 14 ∣ (k14_mult1 i).toNat
  k14_off1_inb : ∀ i : grid14.Coords, ∀ (r : Fin 3), ∀ a, (k14_off1 i (BitVec.ofNat 32 r.val)) a + S1x14x14x512.size a ≤ S1x16x16x512.size a
  k14_off2_inb : ∀ i : grid14.Coords, ∀ (r : Fin 3), ∀ a, (k14_off2 i (BitVec.ofNat 32 r.val)) a + S1x14x14x512.size a ≤ S1x16x16x512.size a
  k14_off3_inb : ∀ i : grid14.Coords, ∀ (r : Fin 3), ∀ a, (k14_off3 i (BitVec.ofNat 32 r.val)) a + S1x14x14x512.size a ≤ S1x16x16x512.size a
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S1x16x16x512.size a ≤ S8x16x16x512.size a
  hwx14_0 : ∀ i : grid14.Coords, EltTy.bits .f32 = 32 ∨ (Rect.block (s := S8x16x16x512) S1x16x16x512.size (cc14_transform_0 i) (hinb14_0 i)).WholeWords (EltTy.packing .f32)
  hstage14_1 : ∀ j, (stage14_1 j).IsWhole
  nbuf14_1 : grid14.bufCount reads14_1 false = 2
  hreads14_1 : ∀ i i' : grid14.Coords, (∀ a, reads14_1 a = true → i a = i' a) → cc14_transform_1 i = cc14_transform_1 i'
  hinb14_1 : ∀ (i : grid14.Coords) a, (cc14_transform_1 i a + 1) * S9x512x128.size a ≤ S9x512x512.size a
  hwx14_1 : ∀ i : grid14.Coords, EltTy.bits .f32 = 32 ∨ (Rect.block (s := S9x512x512) S9x512x128.size (cc14_transform_1 i) (hinb14_1 i)).WholeWords (EltTy.packing .f32)
  hstage14_2 : ∀ j, (stage14_2 j).IsWhole
  nbuf14_2 : grid14.bufCount reads14_2 false = 2
  hreads14_2 : ∀ i i' : grid14.Coords, (∀ a, reads14_2 a = true → i a = i' a) → cc14_transform_2 i = cc14_transform_2 i'
  hinb14_2 : ∀ (i : grid14.Coords) a, (cc14_transform_2 i a + 1) * S1x128.size a ≤ S1x512.size a
  hwx14_2 : ∀ i : grid14.Coords, EltTy.bits .f32 = 32 ∨ (Rect.block (s := S1x512) S1x128.size (cc14_transform_2 i) (hinb14_2 i)).WholeWords (EltTy.packing .f32)
  hstage14_3 : ∀ j, (stage14_3 j).IsWhole
  nbuf14_3 : grid14.bufCount reads14_3 false = 2
  hreads14_3 : ∀ i i' : grid14.Coords, (∀ a, reads14_3 a = true → i a = i' a) → cc14_transform_3 i = cc14_transform_3 i'
  hinb14_3 : ∀ (i : grid14.Coords) a, (cc14_transform_3 i a + 1) * S1x14x14x128.size a ≤ S8x14x14x512.size a
  hwx14_3 : ∀ i : grid14.Coords, EltTy.bits .f32 = 32 ∨ (Rect.block (s := S8x14x14x512) S1x14x14x128.size (cc14_transform_3 i) (hinb14_3 i)).WholeWords (EltTy.packing .f32)
  hrank15 : 0 < grid15.rank
  k15_mult1_dvd : ∀ i : grid15.Coords, 14 ∣ (k15_mult1 i).toNat
  k15_off1_inb : ∀ i : grid15.Coords, ∀ (r : Fin 3), ∀ a, (k15_off1 i (BitVec.ofNat 32 r.val)) a + S1x14x14x512.size a ≤ S1x16x16x512.size a
  k15_off2_inb : ∀ i : grid15.Coords, ∀ (r : Fin 3), ∀ a, (k15_off2 i (BitVec.ofNat 32 r.val)) a + S1x14x14x512.size a ≤ S1x16x16x512.size a
  k15_off3_inb : ∀ i : grid15.Coords, ∀ (r : Fin 3), ∀ a, (k15_off3 i (BitVec.ofNat 32 r.val)) a + S1x14x14x512.size a ≤ S1x16x16x512.size a
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S1x16x16x512.size a ≤ S8x16x16x512.size a
  hwx15_0 : ∀ i : grid15.Coords, EltTy.bits .f32 = 32 ∨ (Rect.block (s := S8x16x16x512) S1x16x16x512.size (cc15_transform_0 i) (hinb15_0 i)).WholeWords (EltTy.packing .f32)
  hstage15_1 : ∀ j, (stage15_1 j).IsWhole
  nbuf15_1 : grid15.bufCount reads15_1 false = 2
  hreads15_1 : ∀ i i' : grid15.Coords, (∀ a, reads15_1 a = true → i a = i' a) → cc15_transform_1 i = cc15_transform_1 i'
  hinb15_1 : ∀ (i : grid15.Coords) a, (cc15_transform_1 i a + 1) * S9x512x128.size a ≤ S9x512x512.size a
  hwx15_1 : ∀ i : grid15.Coords, EltTy.bits .f32 = 32 ∨ (Rect.block (s := S9x512x512) S9x512x128.size (cc15_transform_1 i) (hinb15_1 i)).WholeWords (EltTy.packing .f32)
  hstage15_2 : ∀ j, (stage15_2 j).IsWhole
  nbuf15_2 : grid15.bufCount reads15_2 false = 2
  hreads15_2 : ∀ i i' : grid15.Coords, (∀ a, reads15_2 a = true → i a = i' a) → cc15_transform_2 i = cc15_transform_2 i'
  hinb15_2 : ∀ (i : grid15.Coords) a, (cc15_transform_2 i a + 1) * S1x128.size a ≤ S1x512.size a
  hwx15_2 : ∀ i : grid15.Coords, EltTy.bits .f32 = 32 ∨ (Rect.block (s := S1x512) S1x128.size (cc15_transform_2 i) (hinb15_2 i)).WholeWords (EltTy.packing .f32)
  hstage15_3 : ∀ j, (stage15_3 j).IsWhole
  nbuf15_3 : grid15.bufCount reads15_3 false = 2
  hreads15_3 : ∀ i i' : grid15.Coords, (∀ a, reads15_3 a = true → i a = i' a) → cc15_transform_3 i = cc15_transform_3 i'
  hinb15_3 : ∀ (i : grid15.Coords) a, (cc15_transform_3 i a + 1) * S1x14x14x128.size a ≤ S8x14x14x512.size a
  hwx15_3 : ∀ i : grid15.Coords, EltTy.bits .f32 = 32 ∨ (Rect.block (s := S8x14x14x512) S1x14x14x128.size (cc15_transform_3 i) (hinb15_3 i)).WholeWords (EltTy.packing .f32)
  hrank16 : 0 < grid16.rank
  k16_mult1_dvd : ∀ i : grid16.Coords, 14 ∣ (k16_mult1 i).toNat
  k16_off1_inb : ∀ i : grid16.Coords, ∀ (r : Fin 3), ∀ a, (k16_off1 i (BitVec.ofNat 32 r.val)) a + S1x14x14x512.size a ≤ S1x16x16x512.size a
  k16_off2_inb : ∀ i : grid16.Coords, ∀ (r : Fin 3), ∀ a, (k16_off2 i (BitVec.ofNat 32 r.val)) a + S1x14x14x512.size a ≤ S1x16x16x512.size a
  k16_off3_inb : ∀ i : grid16.Coords, ∀ (r : Fin 3), ∀ a, (k16_off3 i (BitVec.ofNat 32 r.val)) a + S1x14x14x512.size a ≤ S1x16x16x512.size a
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S1x16x16x512.size a ≤ S8x16x16x512.size a
  hwx16_0 : ∀ i : grid16.Coords, EltTy.bits .f32 = 32 ∨ (Rect.block (s := S8x16x16x512) S1x16x16x512.size (cc16_transform_0 i) (hinb16_0 i)).WholeWords (EltTy.packing .f32)
  hstage16_1 : ∀ j, (stage16_1 j).IsWhole
  nbuf16_1 : grid16.bufCount reads16_1 false = 2
  hreads16_1 : ∀ i i' : grid16.Coords, (∀ a, reads16_1 a = true → i a = i' a) → cc16_transform_1 i = cc16_transform_1 i'
  hinb16_1 : ∀ (i : grid16.Coords) a, (cc16_transform_1 i a + 1) * S9x512x128.size a ≤ S9x512x512.size a
  hwx16_1 : ∀ i : grid16.Coords, EltTy.bits .f32 = 32 ∨ (Rect.block (s := S9x512x512) S9x512x128.size (cc16_transform_1 i) (hinb16_1 i)).WholeWords (EltTy.packing .f32)
  hstage16_2 : ∀ j, (stage16_2 j).IsWhole
  nbuf16_2 : grid16.bufCount reads16_2 false = 2
  hreads16_2 : ∀ i i' : grid16.Coords, (∀ a, reads16_2 a = true → i a = i' a) → cc16_transform_2 i = cc16_transform_2 i'
  hinb16_2 : ∀ (i : grid16.Coords) a, (cc16_transform_2 i a + 1) * S1x128.size a ≤ S1x512.size a
  hwx16_2 : ∀ i : grid16.Coords, EltTy.bits .f32 = 32 ∨ (Rect.block (s := S1x512) S1x128.size (cc16_transform_2 i) (hinb16_2 i)).WholeWords (EltTy.packing .f32)
  hstage16_3 : ∀ j, (stage16_3 j).IsWhole
  nbuf16_3 : grid16.bufCount reads16_3 false = 2
  hreads16_3 : ∀ i i' : grid16.Coords, (∀ a, reads16_3 a = true → i a = i' a) → cc16_transform_3 i = cc16_transform_3 i'
  hinb16_3 : ∀ (i : grid16.Coords) a, (cc16_transform_3 i a + 1) * S1x14x14x128.size a ≤ S8x14x14x512.size a
  hwx16_3 : ∀ i : grid16.Coords, EltTy.bits .f32 = 32 ∨ (Rect.block (s := S8x14x14x512) S1x14x14x128.size (cc16_transform_3 i) (hinb16_3 i)).WholeWords (EltTy.packing .f32)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S1x14x7x1024.size a ≤ S8x14x7x1024.size a
  hwx17_0 : ∀ i : grid17.Coords, EltTy.bits .f32 = 32 ∨ (Rect.block (s := S8x14x7x1024) S1x14x7x1024.size (cc17_transform_0 i) (hinb17_0 i)).WholeWords (EltTy.packing .f32)
  hstage17_1 : ∀ j, (stage17_1 j).IsWhole
  nbuf17_1 : grid17.bufCount reads17_1 false = 2
  hreads17_1 : ∀ i i' : grid17.Coords, (∀ a, reads17_1 a = true → i a = i' a) → cc17_transform_1 i = cc17_transform_1 i'
  hinb17_1 : ∀ (i : grid17.Coords) a, (cc17_transform_1 i a + 1) * S1x7x7x512.size a ≤ S8x7x7x512.size a
  hwx17_1 : ∀ i : grid17.Coords, EltTy.bits .f32 = 32 ∨ (Rect.block (s := S8x7x7x512) S1x7x7x512.size (cc17_transform_1 i) (hinb17_1 i)).WholeWords (EltTy.packing .f32)

variable [Facts₀]

def dot_S224x3_S3x64_S224x64_1_0_0_1_n_n : DotDims S224x3 S3x64 S224x64 where
  lhsContracting := [1]
  rhsContracting := [0]
  lhsNonContracting := [0]
  rhsNonContracting := [1]
  lhsBatch := []
  rhsBatch := []
  wf := dot_S224x3_S3x64_S224x64_1_0_0_1_n_n_wf
def dot_S224x64_S64x64_S224x64_1_0_0_1_n_n : DotDims S224x64 S64x64 S224x64 where
  lhsContracting := [1]
  rhsContracting := [0]
  lhsNonContracting := [0]
  rhsNonContracting := [1]
  lhsBatch := []
  rhsBatch := []
  wf := dot_S224x64_S64x64_S224x64_1_0_0_1_n_n_wf
def dot_S224x64_S64x128_S224x128_1_0_0_1_n_n : DotDims S224x64 S64x128 S224x128 where
  lhsContracting := [1]
  rhsContracting := [0]
  lhsNonContracting := [0]
  rhsNonContracting := [1]
  lhsBatch := []
  rhsBatch := []
  wf := dot_S224x64_S64x128_S224x128_1_0_0_1_n_n_wf
def dot_S224x128_S128x128_S224x128_1_0_0_1_n_n : DotDims S224x128 S128x128 S224x128 where
  lhsContracting := [1]
  rhsContracting := [0]
  lhsNonContracting := [0]
  rhsNonContracting := [1]
  lhsBatch := []
  rhsBatch := []
  wf := dot_S224x128_S128x128_S224x128_1_0_0_1_n_n_wf
def dot_S224x256_S256x128_S224x128_1_0_0_1_n_n : DotDims S224x256 S256x128 S224x128 where
  lhsContracting := [1]
  rhsContracting := [0]
  lhsNonContracting := [0]
  rhsNonContracting := [1]
  lhsBatch := []
  rhsBatch := []
  wf := dot_S224x256_S256x128_S224x128_1_0_0_1_n_n_wf
def dot_S196x256_S256x128_S196x128_1_0_0_1_n_n : DotDims S196x256 S256x128 S196x128 where
  lhsContracting := [1]
  rhsContracting := [0]
  lhsNonContracting := [0]
  rhsNonContracting := [1]
  lhsBatch := []
  rhsBatch := []
  wf := dot_S196x256_S256x128_S196x128_1_0_0_1_n_n_wf
def dot_S196x512_S512x128_S196x128_1_0_0_1_n_n : DotDims S196x512 S512x128 S196x128 where
  lhsContracting := [1]
  rhsContracting := [0]
  lhsNonContracting := [0]
  rhsNonContracting := [1]
  lhsBatch := []
  rhsBatch := []
  wf := dot_S196x512_S512x128_S196x128_1_0_0_1_n_n_wf

abbrev win0_0 : Pipeline.Window sig grid0 :=
  Pipeline.Window.ofSpec (Memref.whole main_v1) S1x226x226x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S9x3x64.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x64.size cc0_transform_2 reads0_2 false false 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1x224x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v3) S1x226x226x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S9x64x64.size cc1_transform_1 reads1_1 false false 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S1x64.size cc1_transform_2 reads1_2 false false 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x1x224x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v5) S1x224x112x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S1x112x112x64.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev win3_0 : Pipeline.Window sig grid3 :=
  Pipeline.Window.ofSpec (Memref.whole main_v7) S1x114x114x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S9x64x128.size cc3_transform_1 reads3_1 false false 1 stage3_1 sem3_1
    hrank3 hreads3_1 hinb3_1 nbuf3_1 (Memref.isWhole_whole _) hwx3_1 hstage3_1

abbrev win3_2 : Pipeline.Window sig grid3 :=
  Pipeline.Window.ofSpec (Memref.whole main_arg6) S1x128.size cc3_transform_2 reads3_2 false false 1 stage3_2 sem3_2
    hrank3 hreads3_2 hinb3_2 nbuf3_2 (Memref.isWhole_whole _) hwx3_2 hstage3_2

abbrev win3_3 : Pipeline.Window sig grid3 :=
  Pipeline.Window.ofSpec (Memref.whole main_v8) S1x2x112x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v9) S1x114x114x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S9x128x128.size cc4_transform_1 reads4_1 false false 1 stage4_1 sem4_1
    hrank4 hreads4_1 hinb4_1 nbuf4_1 (Memref.isWhole_whole _) hwx4_1 hstage4_1

abbrev win4_2 : Pipeline.Window sig grid4 :=
  Pipeline.Window.ofSpec (Memref.whole main_arg8) S1x128.size cc4_transform_2 reads4_2 false false 1 stage4_2 sem4_2
    hrank4 hreads4_2 hinb4_2 nbuf4_2 (Memref.isWhole_whole _) hwx4_2 hstage4_2

abbrev win4_3 : Pipeline.Window sig grid4 :=
  Pipeline.Window.ofSpec (Memref.whole main_v10) S1x2x112x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v11) S1x112x56x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v12) S1x56x56x128.size cc5_transform_1 reads5_1 true false 2 stage5_1 sem5_1
    hrank5 hreads5_1 hinb5_1 nbuf5_1 (Memref.isWhole_whole _) hwx5_1 hstage5_1

abbrev win5 : Fin 2 → Pipeline.Window sig grid5 := fun | 0 => win5_0 | 1 => win5_1 | ⟨_ + 2, h⟩ => absurd h (Nat.not_lt.2 (Nat.le_add_left _ _))
abbrev spec5 : Fin 2 → Pipeline.WinSpec sig grid5.rank := fun w => (win5 w).toWinSpec

abbrev win6_0 : Pipeline.Window sig grid6 :=
  Pipeline.Window.ofSpec (Memref.whole main_v13) S1x58x58x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S9x128x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg10) S1x128.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v14) S1x4x56x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v15) S1x58x58x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg11) S9x256x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_arg12) S1x128.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v16) S1x4x56x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v17) S1x58x58x256.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg13) S9x256x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_arg14) S1x128.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v18) S1x4x56x128.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v19) S1x56x28x512.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v20) S1x28x28x256.size cc9_transform_1 reads9_1 true false 2 stage9_1 sem9_1
    hrank9 hreads9_1 hinb9_1 nbuf9_1 (Memref.isWhole_whole _) hwx9_1 hstage9_1

abbrev win9 : Fin 2 → Pipeline.Window sig grid9 := fun | 0 => win9_0 | 1 => win9_1 | ⟨_ + 2, h⟩ => absurd h (Nat.not_lt.2 (Nat.le_add_left _ _))
abbrev spec9 : Fin 2 → Pipeline.WinSpec sig grid9.rank := fun w => (win9 w).toWinSpec

abbrev win10_0 : Pipeline.Window sig grid10 :=
  Pipeline.Window.ofSpec (Memref.whole main_v21) S1x30x30x256.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg15) S9x256x128.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_arg16) S1x128.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_v22) S1x7x28x128.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev win11_0 : Pipeline.Window sig grid11 :=
  Pipeline.Window.ofSpec (Memref.whole main_v23) S1x30x30x512.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_arg17) S9x512x128.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_arg18) S1x128.size cc11_transform_2 reads11_2 false false 2 stage11_2 sem11_2
    hrank11 hreads11_2 hinb11_2 nbuf11_2 (Memref.isWhole_whole _) hwx11_2 hstage11_2

abbrev win11_3 : Pipeline.Window sig grid11 :=
  Pipeline.Window.ofSpec (Memref.whole main_v24) S1x7x28x128.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

abbrev win12_0 : Pipeline.Window sig grid12 :=
  Pipeline.Window.ofSpec (Memref.whole main_v25) S1x30x30x512.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_arg19) S9x512x128.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_arg20) S1x128.size cc12_transform_2 reads12_2 false false 2 stage12_2 sem12_2
    hrank12 hreads12_2 hinb12_2 nbuf12_2 (Memref.isWhole_whole _) hwx12_2 hstage12_2

abbrev win12_3 : Pipeline.Window sig grid12 :=
  Pipeline.Window.ofSpec (Memref.whole main_v26) S1x7x28x128.size cc12_transform_3 reads12_3 true false 2 stage12_3 sem12_3
    hrank12 hreads12_3 hinb12_3 nbuf12_3 (Memref.isWhole_whole _) hwx12_3 hstage12_3

abbrev win12 : Fin 4 → Pipeline.Window sig grid12 := fun | 0 => win12_0 | 1 => win12_1 | 2 => win12_2 | 3 => win12_3 | ⟨_ + 4, h⟩ => absurd h (Nat.not_lt.2 (Nat.le_add_left _ _))
abbrev spec12 : Fin 4 → Pipeline.WinSpec sig grid12.rank := fun w => (win12 w).toWinSpec

abbrev win13_0 : Pipeline.Window sig grid13 :=
  Pipeline.Window.ofSpec (Memref.whole main_v27) S1x28x14x1024.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v28) S1x14x14x512.size cc13_transform_1 reads13_1 true false 2 stage13_1 sem13_1
    hrank13 hreads13_1 hinb13_1 nbuf13_1 (Memref.isWhole_whole _) hwx13_1 hstage13_1

abbrev win13 : Fin 2 → Pipeline.Window sig grid13 := fun | 0 => win13_0 | 1 => win13_1 | ⟨_ + 2, h⟩ => absurd h (Nat.not_lt.2 (Nat.le_add_left _ _))
abbrev spec13 : Fin 2 → Pipeline.WinSpec sig grid13.rank := fun w => (win13 w).toWinSpec

abbrev win14_0 : Pipeline.Window sig grid14 :=
  Pipeline.Window.ofSpec (Memref.whole main_v29) S1x16x16x512.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_arg21) S9x512x128.size cc14_transform_1 reads14_1 false false 2 stage14_1 sem14_1
    hrank14 hreads14_1 hinb14_1 nbuf14_1 (Memref.isWhole_whole _) hwx14_1 hstage14_1

abbrev win14_2 : Pipeline.Window sig grid14 :=
  Pipeline.Window.ofSpec (Memref.whole main_arg22) S1x128.size cc14_transform_2 reads14_2 false false 2 stage14_2 sem14_2
    hrank14 hreads14_2 hinb14_2 nbuf14_2 (Memref.isWhole_whole _) hwx14_2 hstage14_2

abbrev win14_3 : Pipeline.Window sig grid14 :=
  Pipeline.Window.ofSpec (Memref.whole main_v30) S1x14x14x128.size cc14_transform_3 reads14_3 true false 2 stage14_3 sem14_3
    hrank14 hreads14_3 hinb14_3 nbuf14_3 (Memref.isWhole_whole _) hwx14_3 hstage14_3

abbrev win14 : Fin 4 → Pipeline.Window sig grid14 := fun | 0 => win14_0 | 1 => win14_1 | 2 => win14_2 | 3 => win14_3 | ⟨_ + 4, h⟩ => absurd h (Nat.not_lt.2 (Nat.le_add_left _ _))
abbrev spec14 : Fin 4 → Pipeline.WinSpec sig grid14.rank := fun w => (win14 w).toWinSpec

abbrev win15_0 : Pipeline.Window sig grid15 :=
  Pipeline.Window.ofSpec (Memref.whole main_v31) S1x16x16x512.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_arg23) S9x512x128.size cc15_transform_1 reads15_1 false false 2 stage15_1 sem15_1
    hrank15 hreads15_1 hinb15_1 nbuf15_1 (Memref.isWhole_whole _) hwx15_1 hstage15_1

abbrev win15_2 : Pipeline.Window sig grid15 :=
  Pipeline.Window.ofSpec (Memref.whole main_arg24) S1x128.size cc15_transform_2 reads15_2 false false 2 stage15_2 sem15_2
    hrank15 hreads15_2 hinb15_2 nbuf15_2 (Memref.isWhole_whole _) hwx15_2 hstage15_2

abbrev win15_3 : Pipeline.Window sig grid15 :=
  Pipeline.Window.ofSpec (Memref.whole main_v32) S1x14x14x128.size cc15_transform_3 reads15_3 true false 2 stage15_3 sem15_3
    hrank15 hreads15_3 hinb15_3 nbuf15_3 (Memref.isWhole_whole _) hwx15_3 hstage15_3

abbrev win15 : Fin 4 → Pipeline.Window sig grid15 := fun | 0 => win15_0 | 1 => win15_1 | 2 => win15_2 | 3 => win15_3 | ⟨_ + 4, h⟩ => absurd h (Nat.not_lt.2 (Nat.le_add_left _ _))
abbrev spec15 : Fin 4 → Pipeline.WinSpec sig grid15.rank := fun w => (win15 w).toWinSpec

abbrev win16_0 : Pipeline.Window sig grid16 :=
  Pipeline.Window.ofSpec (Memref.whole main_v33) S1x16x16x512.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_arg25) S9x512x128.size cc16_transform_1 reads16_1 false false 2 stage16_1 sem16_1
    hrank16 hreads16_1 hinb16_1 nbuf16_1 (Memref.isWhole_whole _) hwx16_1 hstage16_1

abbrev win16_2 : Pipeline.Window sig grid16 :=
  Pipeline.Window.ofSpec (Memref.whole main_arg26) S1x128.size cc16_transform_2 reads16_2 false false 2 stage16_2 sem16_2
    hrank16 hreads16_2 hinb16_2 nbuf16_2 (Memref.isWhole_whole _) hwx16_2 hstage16_2

abbrev win16_3 : Pipeline.Window sig grid16 :=
  Pipeline.Window.ofSpec (Memref.whole main_v34) S1x14x14x128.size cc16_transform_3 reads16_3 true false 2 stage16_3 sem16_3
    hrank16 hreads16_3 hinb16_3 nbuf16_3 (Memref.isWhole_whole _) hwx16_3 hstage16_3

abbrev win16 : Fin 4 → Pipeline.Window sig grid16 := fun | 0 => win16_0 | 1 => win16_1 | 2 => win16_2 | 3 => win16_3 | ⟨_ + 4, h⟩ => absurd h (Nat.not_lt.2 (Nat.le_add_left _ _))
abbrev spec16 : Fin 4 → Pipeline.WinSpec sig grid16.rank := fun w => (win16 w).toWinSpec

abbrev win17_0 : Pipeline.Window sig grid17 :=
  Pipeline.Window.ofSpec (Memref.whole main_v35) S1x14x7x1024.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_v36) S1x7x7x512.size cc17_transform_1 reads17_1 true false 2 stage17_1 sem17_1
    hrank17 hreads17_1 hinb17_1 nbuf17_1 (Memref.isWhole_whole _) hwx17_1 hstage17_1

abbrev win17 : Fin 2 → Pipeline.Window sig grid17 := fun | 0 => win17_0 | 1 => win17_1 | ⟨_ + 2, h⟩ => absurd h (Nat.not_lt.2 (Nat.le_add_left _ _))
abbrev spec17 : Fin 2 → Pipeline.WinSpec sig grid17.rank := fun w => (win17 w).toWinSpec

class Facts : Prop extends Facts₀ where

variable [Facts]
-- ==== Proof.KR0.lean ====
/-
  Region 0 of the kernel's @main (the stem convolution): the proof data of its pipeline at any entry contents `V`,
  and the body's obligation. The body loads its three input blocks whole (the tap-stacked rows, the 27 x 64 weights,
  the bias), stores the whole output block (one matrix product, bias added, clamped at zero, rounded to bf16), then
  stores zeros over the block's first and last pixel columns (each a read of the two-column words holding the column,
  the column replaced, the words stored back), and, under a condition on the second grid coordinate, zeros over one
  row of the block: row 0 at the first row block of an image, row 112 at the second (the last). The grid is 8 x 2, so
  a point is in one of two cases, decided by its position's parity; in each the first store covers the block, so what
  the output's staging buffer holds after the body is that case's stores read back, whatever it held before.
-/
import proofs.«100114_g2000204297211070_pallasbulk_1265_19_alg».proof.Proof.Gen.KernelIdeal.Launch
import proofs.«100114_g2000204297211070_pallasbulk_1265_19_alg».proof.Proof.Gen.KernelIdeal.Skeleton
import proofs.«100114_g2000204297211070_pallasbulk_1265_19_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data over `V`'s array whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data over `V`'s array whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof
    data over `V`'s array whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions, from the grid position -/

/-- The condition of the first conditional store (row 0 zeroed): the second grid coordinate is 0. -/
abbrev cond0_0 (i : grid0.Coords) : Prop := (Scalar.cmpi .ne (Scalar.extui (Scalar.cmpi .eq (BitVec.ofNat 32 (i 1).val) 0#32)) 0#32) = 1#1
/-- It holds at the even positions, decided over the grid's 16 points. -/
theorem hcond0_0 : ∀ t : Fin cfg0.N, cond0_0 (grid0.coords t) ↔ t.val % 2 = 0 :=
  (by decide +kernel : ∀ t : Fin grid0.N, cond0_0 (grid0.coords t) ↔ t.val % 2 = 0)
/-- The condition of the second conditional store (row 112 zeroed): the second grid coordinate is 1. -/
abbrev cond0_1 (i : grid0.Coords) : Prop := (Scalar.cmpi .ne (Scalar.extui (Scalar.cmpi .eq (BitVec.ofNat 32 (i 1).val) 1#32)) 0#32) = 1#1
/-- It holds at the odd positions, decided over the grid's 16 points. -/
theorem hcond0_1 : ∀ t : Fin cfg0.N, cond0_1 (grid0.coords t) ↔ t.val % 2 = 1 :=
  (by decide +kernel : ∀ t : Fin grid0.N, cond0_1 (grid0.coords t) ↔ t.val % 2 = 1)

/-- At an even position only the first condition holds, -/
theorem hcase0_A (t : Fin cfg0.N) (h0 : t.val % 2 = 0) : cond0_0 (grid0.coords t) ∧ ¬cond0_1 (grid0.coords t) :=
  ⟨(hcond0_0 t).mpr h0, fun h => by have := (hcond0_1 t).mp h; omega⟩
/-- and at an odd one only the second. -/
theorem hcase0_B (t : Fin cfg0.N) (h0 : ¬t.val % 2 = 0) : ¬cond0_0 (grid0.coords t) ∧ cond0_1 (grid0.coords t) :=
  ⟨fun h => h0 ((hcond0_0 t).mp h), (hcond0_1 t).mpr (by omega)⟩

/-! ## The kernel body on any staging memrefs, case by case -/

/-- One staging buffer of the output window, through which its contents are stated (the choice does not matter). -/
abbrev VO0_3 : View sig .tc .vmem S1x113x232x64 .bf16 := (Memref.whole cc0_stg3_0 : Memref sig .tc .vmem S1x113x232x64 .bf16).view
/-- Each window's current staging memref at point `t`, spelled as the pipeline passes it, and its wholeness. -/
abbrev ms0_0 (t : Fin cfg0.N) : Memref sig .tc .vmem S1x113x232x27 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S27x64 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x113x232x64 .bf16 := win0_3.stage (cfg0.slots t 3)
abbrev hs0_3 (t : Fin cfg0.N) : (ms0_3 t).IsWhole := hstage0_3 ((cfg0.slots t 3).cast nbuf0_3)

set_option maxHeartbeats 1000000 in
/-- What the body's stores leave in the output's staging memref, as pieces (last first), in the case of a first row block (row 0 zeroed, row 112 not),
    with the proof that on whole staging memrefs, the inputs' at their contents and the output's at anything, the
    body runs to the continuation holding the inputs' as they were and the output's buffer with those pieces
    written. The pieces are the witness the run finds. -/
noncomputable def kernelRun0_A (c : Dev nD) (i : grid0.Coords) (arg2 : Memref sig .tc .vmem S1x113x232x27 .bf16) (harg2 : arg2.IsWhole) (arg3 : Memref sig .tc .vmem S27x64 .bf16) (harg3 : arg3.IsWhole) (arg4 : Memref sig .tc .vmem S1x64 .f32) (harg4 : arg4.IsWhole) (arg5 : Memref sig .tc .vmem S1x113x232x64 .bf16) (harg5 : arg5.IsWhole) (hc0 : cond0_0 i) (hc1 : ¬cond0_1 i)
    (x0 : Vec F S1x113x232x27 .bf16) (x1 : Vec F S27x64 .bf16) (x2 : Vec F S1x64 .f32) :
    { L3 : List (View.Piece (Elt F) S1x113x232x64 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc0__stem_kernel i arg2 harg2 arg3 harg3 arg4 harg4 arg5 harg5) K } := by
  refine ⟨?_, fun E K => ?run⟩
  case run =>
    simp only [cc0__stem_kernel_eq_skeleton]; unfold cc0__stem_kernel_skel
    simp only [k0_part1_eq_skeleton]
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

/-- The run's pieces in this case cover the output's block: the first store is of the whole block. -/
theorem cover0_A_3 (c : Dev nD) (i : grid0.Coords) (arg2 : Memref sig .tc .vmem S1x113x232x27 .bf16) (harg2 : arg2.IsWhole) (arg3 : Memref sig .tc .vmem S27x64 .bf16) (harg3 : arg3.IsWhole) (arg4 : Memref sig .tc .vmem S1x64 .f32) (harg4 : arg4.IsWhole) (arg5 : Memref sig .tc .vmem S1x113x232x64 .bf16) (harg5 : arg5.IsWhole) (hc0 : cond0_0 i) (hc1 : ¬cond0_1 i)
    (x0 : Vec F S1x113x232x27 .bf16) (x1 : Vec F S27x64 .bf16) (x2 : Vec F S1x64 .f32) (y : S1x113x232x64.Idx) :
    ∃ pc ∈ (kernelRun0_A c i arg2 harg2 arg3 harg3 arg4 harg4 arg5 harg5 hc0 hc1 x0 x1 x2).1, y ∈ pc.1.set :=
  View.cover_of_tiledL (kernelRun0_A c i arg2 harg2 arg3 harg3 arg4 harg4 arg5 harg5 hc0 hc1 x0 x1 x2).1 S1x113x232x64.size (by sl_kernel_rfl) y

/-- What the run leaves in the output's staging buffer in this case: its pieces read back over anything. -/
def out0_A_3 (c : Dev nD) (i : grid0.Coords) (arg2 : Memref sig .tc .vmem S1x113x232x27 .bf16) (harg2 : arg2.IsWhole) (arg3 : Memref sig .tc .vmem S27x64 .bf16) (harg3 : arg3.IsWhole) (arg4 : Memref sig .tc .vmem S1x64 .f32) (harg4 : arg4.IsWhole) (arg5 : Memref sig .tc .vmem S1x113x232x64 .bf16) (harg5 : arg5.IsWhole) (hc0 : cond0_0 i) (hc1 : ¬cond0_1 i)
    (x0 : Vec F S1x113x232x27 .bf16) (x1 : Vec F S27x64 .bf16) (x2 : Vec F S1x64 .f32) : Vec F S1x113x232x64 .bf16 :=
  VO0_3.read (Elt F) (VO0_3.writes (Elt F) VO0_3.junk (kernelRun0_A c i arg2 harg2 arg3 harg3 arg4 harg4 arg5 harg5 hc0 hc1 x0 x1 x2).1)

set_option maxHeartbeats 1000000 in
/-- What the body's stores leave in the output's staging memref, as pieces (last first), in the case of a last row block (row 112 zeroed, row 0 not),
    with the proof that on whole staging memrefs, the inputs' at their contents and the output's at anything, the
    body runs to the continuation holding the inputs' as they were and the output's buffer with those pieces
    written. The pieces are the witness the run finds. -/
noncomputable def kernelRun0_B (c : Dev nD) (i : grid0.Coords) (arg2 : Memref sig .tc .vmem S1x113x232x27 .bf16) (harg2 : arg2.IsWhole) (arg3 : Memref sig .tc .vmem S27x64 .bf16) (harg3 : arg3.IsWhole) (arg4 : Memref sig .tc .vmem S1x64 .f32) (harg4 : arg4.IsWhole) (arg5 : Memref sig .tc .vmem S1x113x232x64 .bf16) (harg5 : arg5.IsWhole) (hc0 : ¬cond0_0 i) (hc1 : cond0_1 i)
    (x0 : Vec F S1x113x232x27 .bf16) (x1 : Vec F S27x64 .bf16) (x2 : Vec F S1x64 .f32) :
    { L3 : List (View.Piece (Elt F) S1x113x232x64 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc0__stem_kernel i arg2 harg2 arg3 harg3 arg4 harg4 arg5 harg5) K } := by
  refine ⟨?_, fun E K => ?run⟩
  case run =>
    simp only [cc0__stem_kernel_eq_skeleton]; unfold cc0__stem_kernel_skel
    simp only [k0_part1_eq_skeleton]
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

/-- The run's pieces in this case cover the output's block: the first store is of the whole block. -/
theorem cover0_B_3 (c : Dev nD) (i : grid0.Coords) (arg2 : Memref sig .tc .vmem S1x113x232x27 .bf16) (harg2 : arg2.IsWhole) (arg3 : Memref sig .tc .vmem S27x64 .bf16) (harg3 : arg3.IsWhole) (arg4 : Memref sig .tc .vmem S1x64 .f32) (harg4 : arg4.IsWhole) (arg5 : Memref sig .tc .vmem S1x113x232x64 .bf16) (harg5 : arg5.IsWhole) (hc0 : ¬cond0_0 i) (hc1 : cond0_1 i)
    (x0 : Vec F S1x113x232x27 .bf16) (x1 : Vec F S27x64 .bf16) (x2 : Vec F S1x64 .f32) (y : S1x113x232x64.Idx) :
    ∃ pc ∈ (kernelRun0_B c i arg2 harg2 arg3 harg3 arg4 harg4 arg5 harg5 hc0 hc1 x0 x1 x2).1, y ∈ pc.1.set :=
  View.cover_of_tiledL (kernelRun0_B c i arg2 harg2 arg3 harg3 arg4 harg4 arg5 harg5 hc0 hc1 x0 x1 x2).1 S1x113x232x64.size (by sl_kernel_rfl) y

/-- What the run leaves in the output's staging buffer in this case: its pieces read back over anything. -/
def out0_B_3 (c : Dev nD) (i : grid0.Coords) (arg2 : Memref sig .tc .vmem S1x113x232x27 .bf16) (harg2 : arg2.IsWhole) (arg3 : Memref sig .tc .vmem S27x64 .bf16) (harg3 : arg3.IsWhole) (arg4 : Memref sig .tc .vmem S1x64 .f32) (harg4 : arg4.IsWhole) (arg5 : Memref sig .tc .vmem S1x113x232x64 .bf16) (harg5 : arg5.IsWhole) (hc0 : ¬cond0_0 i) (hc1 : cond0_1 i)
    (x0 : Vec F S1x113x232x27 .bf16) (x1 : Vec F S27x64 .bf16) (x2 : Vec F S1x64 .f32) : Vec F S1x113x232x64 .bf16 :=
  VO0_3.read (Elt F) (VO0_3.writes (Elt F) VO0_3.junk (kernelRun0_B c i arg2 harg2 arg3 harg3 arg4 harg4 arg5 harg5 hc0 hc1 x0 x1 x2).1)

/-! ## What the output holds after each point -/

/-- What the output's staging buffer holds after the body at point `t`: the contents of the case the position's
    parity selects, at the point's memrefs and input blocks. -/
def outsAt0 (c : Dev nD) (t : Fin cfg0.N) : Vec F S1x113x232x64 .bf16 :=
  if h0 : t.val % 2 = 0 then
    out0_A_3 c (grid0.coords t) (ms0_0 t) (hs0_0 t) (ms0_1 t) (hs0_1 t) (ms0_2 t) (hs0_2 t) (ms0_3 t) (hs0_3 t) (hcase0_A t h0).1 (hcase0_A t h0).2 (iblk0 V c 0 t) (iblk0 V c 1 t) (iblk0 V c 2 t)
  else
    out0_B_3 c (grid0.coords t) (ms0_0 t) (hs0_0 t) (ms0_1 t) (hs0_1 t) (ms0_2 t) (hs0_2 t) (ms0_3 t) (hs0_3 t) (hcase0_B t h0).1 (hcase0_B t h0).2 (iblk0 V c 0 t) (iblk0 V c 1 t) (iblk0 V c 2 t)

theorem outsAt0_A (c : Dev nD) (t : Fin cfg0.N) (h0 : t.val % 2 = 0) :
    outsAt0 V c t = out0_A_3 c (grid0.coords t) (ms0_0 t) (hs0_0 t) (ms0_1 t) (hs0_1 t) (ms0_2 t) (hs0_2 t) (ms0_3 t) (hs0_3 t) (hcase0_A t h0).1 (hcase0_A t h0).2 (iblk0 V c 0 t) (iblk0 V c 1 t) (iblk0 V c 2 t) :=
  dif_pos h0

theorem outsAt0_B (c : Dev nD) (t : Fin cfg0.N) (h0 : ¬t.val % 2 = 0) :
    outsAt0 V c t = out0_B_3 c (grid0.coords t) (ms0_0 t) (hs0_0 t) (ms0_1 t) (hs0_1 t) (ms0_2 t) (hs0_2 t) (ms0_3 t) (hs0_3 t) (hcase0_B t h0).1 (hcase0_B t h0).2 (iblk0 V c 0 t) (iblk0 V c 1 t) (iblk0 V c 2 t) :=
  dif_neg h0

/-! ## The pipeline's proof data -/

/-- The proof data of pipeline 0 on core `c`: the arrays as the region finds them; after the body at a point each
    input's buffer at its block and the output's at `outsAt0`; the generator register and the scoped rest as
    invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t))

set_option maxHeartbeats 800000 in
/-- The body at any point: the inputs' memrefs hold their blocks; the position's parity says which case the point is
    in, and that case's run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  by_cases h0 : t.val % 2 = 0
  · rw [outsAt0_A V c t h0]
    unfold out0_A_3
    iintro ⟨HΦ, Ho, ⟨%d0, H0⟩, ⟨%d1, H1⟩, ⟨%d2, H2⟩, ⟨%d3, H3⟩⟩
    iapply ((kernelRun0_A c (grid0.coords t) _ _ _ _ _ _ _ _ (hcase0_A t h0).1 (hcase0_A t h0).2 (iblk0 V c 0 t) (iblk0 V c 1 t) (iblk0 V c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_A_3 c _ _ _ _ _ _ _ _ _ _ _ _ _ _)
  · rw [outsAt0_B V c t h0]
    unfold out0_B_3
    iintro ⟨HΦ, Ho, ⟨%d0, H0⟩, ⟨%d1, H1⟩, ⟨%d2, H2⟩, ⟨%d3, H3⟩⟩
    iapply ((kernelRun0_B c (grid0.coords t) _ _ _ _ _ _ _ _ (hcase0_B t h0).1 (hcase0_B t h0).2 (iblk0 V c 0 t) (iblk0 V c 1 t) (iblk0 V c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_B_3 c _ _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

end Cert.KernelIdeal.Reg

end
-- ==== Proof.KR1.lean ====
/-
  Region 1 of the kernel's @main (a 3x3 convolution as one matrix product over nine lane-concatenated taps, with bias,
  ReLU and the row-pair maximum of a 2x2 pooling fused): the proof data of its pipeline at any entry contents `V`, and
  the body's obligation. The body loads three column-shifted windows of its input block through rectangles whose row
  offset is computed from the grid position, loads the weights and the bias whole, and stores the result whole; so
  after the body at a point the output's staging buffer holds that one store's payload, read back over anything.
-/
import proofs.«100114_g2000204297211070_pallasbulk_1265_19_alg».proof.Proof.Gen.KernelIdeal.Launch
import proofs.«100114_g2000204297211070_pallasbulk_1265_19_alg».proof.Proof.Gen.KernelIdeal.Skeleton
import proofs.«100114_g2000204297211070_pallasbulk_1265_19_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not, for any proof data over
    `V`'s array whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point, fetched there or not, for any proof data over
    `V`'s array whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every point, fetched there or not, for any proof data over
    `V`'s array whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- One staging buffer of the output window, through which its contents are stated (the choice does not matter). -/
abbrev VO1_3 : View sig .tc .vmem S1x16x224x64 .bf16 := (Memref.whole cc1_stg3_0 : Memref sig .tc .vmem S1x16x224x64 .bf16).view
/-- Each window's current staging memref at point `t`, spelled as the pipeline passes it, and its wholeness. -/
abbrev ms1_0 (t : Fin cfg1.N) : Memref sig .tc .vmem S1x226x232x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S576x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x16x224x64 .bf16 := win1_3.stage (cfg1.slots t 3)
abbrev hs1_3 (t : Fin cfg1.N) : (ms1_3 t).IsWhole := hstage1_3 ((cfg1.slots t 3).cast nbuf1_3)

set_option maxHeartbeats 1000000 in
/-- What the body's stores leave in the output's staging memref, as pieces (last first), with the proof that on whole
    staging memrefs, the inputs' at their contents and the output's at anything, the body runs to the continuation
    holding the inputs' as they were and the output's buffer with the pieces written. The pieces are the witness the
    symbolic run of the body finds. -/
noncomputable def kernelRun1_A (c : Dev nD) (i : grid1.Coords) (arg2 : Memref sig .tc .vmem S1x226x232x64 .bf16) (harg2 : arg2.IsWhole) (arg3 : Memref sig .tc .vmem S576x64 .bf16) (harg3 : arg3.IsWhole) (arg4 : Memref sig .tc .vmem S1x64 .f32) (harg4 : arg4.IsWhole) (arg5 : Memref sig .tc .vmem S1x16x224x64 .bf16) (harg5 : arg5.IsWhole)
    (x0 : Vec F S1x226x232x64 .bf16) (x1 : Vec F S576x64 .bf16) (x2 : Vec F S1x64 .f32) :
    { L3 : List (View.Piece (Elt F) S1x16x224x64 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc1_body i arg2 harg2 arg3 harg3 arg4 harg4 arg5 harg5) K } := by
  refine ⟨?_, fun E K => ?run⟩
  case run =>
    simp only [cc1_body_eq_skeleton]; unfold cc1_body_skel
    simp only [k1_part1_eq_skeleton]
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

/-- The run's pieces for the output tile its block, so they cover it. -/
theorem cover1_A_3 (c : Dev nD) (i : grid1.Coords) (arg2 : Memref sig .tc .vmem S1x226x232x64 .bf16) (harg2 : arg2.IsWhole) (arg3 : Memref sig .tc .vmem S576x64 .bf16) (harg3 : arg3.IsWhole) (arg4 : Memref sig .tc .vmem S1x64 .f32) (harg4 : arg4.IsWhole) (arg5 : Memref sig .tc .vmem S1x16x224x64 .bf16) (harg5 : arg5.IsWhole)
    (x0 : Vec F S1x226x232x64 .bf16) (x1 : Vec F S576x64 .bf16) (x2 : Vec F S1x64 .f32) (y : S1x16x224x64.Idx) :
    ∃ pc ∈ (kernelRun1_A c i arg2 harg2 arg3 harg3 arg4 harg4 arg5 harg5 x0 x1 x2).1, y ∈ pc.1.set :=
  View.cover_of_tiledL (kernelRun1_A c i arg2 harg2 arg3 harg3 arg4 harg4 arg5 harg5 x0 x1 x2).1 S1x16x224x64.size (by sl_kernel_rfl) y

/-- What the run leaves in the output's staging buffer: its pieces read back over junk. -/
def out1_A_3 (c : Dev nD) (i : grid1.Coords) (arg2 : Memref sig .tc .vmem S1x226x232x64 .bf16) (harg2 : arg2.IsWhole) (arg3 : Memref sig .tc .vmem S576x64 .bf16) (harg3 : arg3.IsWhole) (arg4 : Memref sig .tc .vmem S1x64 .f32) (harg4 : arg4.IsWhole) (arg5 : Memref sig .tc .vmem S1x16x224x64 .bf16) (harg5 : arg5.IsWhole)
    (x0 : Vec F S1x226x232x64 .bf16) (x1 : Vec F S576x64 .bf16) (x2 : Vec F S1x64 .f32) : Vec F S1x16x224x64 .bf16 :=
  VO1_3.read (Elt F) (VO1_3.writes (Elt F) VO1_3.junk (kernelRun1_A c i arg2 harg2 arg3 harg3 arg4 harg4 arg5 harg5 x0 x1 x2).1)

/-- What the output's staging buffer holds after the body at point `t`: the run's contents at the point's memrefs
    and input blocks. -/
def outsAt1 (c : Dev nD) (t : Fin cfg1.N) : Vec F S1x16x224x64 .bf16 :=
  out1_A_3 c (grid1.coords t) (ms1_0 t) (hs1_0 t) (ms1_1 t) (hs1_1 t) (ms1_2 t) (hs1_2 t) (ms1_3 t) (hs1_3 t) (iblk1 V c 0 t) (iblk1 V c 1 t) (iblk1 V c 2 t)

/-- The proof data of pipeline 1 on core `c`: the arrays as the region finds them; after the body at a point each
    input's buffer at its block and the output's at `outsAt1`; the generator register and the scoped rest as
    invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

/-- The body at any point: the inputs' memrefs hold their blocks, so the run applies; the invariant passes through
    unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  unfold outsAt1
  unfold out1_A_3
  iintro ⟨HΦ, Ho, ⟨%d0, H0⟩, ⟨%d1, H1⟩, ⟨%d2, H2⟩, ⟨%d3, H3⟩⟩
  iapply ((kernelRun1_A c (grid1.coords t) _ _ _ _ _ _ _ _ (iblk1 V c 0 t) (iblk1 V c 1 t) (iblk1 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_A_3 c _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Cert.KernelIdeal.Reg

end
-- ==== Proof.KR2.lean ====
/-
  Region 2 of the kernel's @main (the lane-half maximum that finishes the first 2x2 pooling): the proof data of its
  pipeline at any entry contents `V`, and the body's obligation. The body loads its one input block whole, takes the
  pointwise maximum of the block's two lane halves and stores the result whole; so after the body at a point the
  output's staging buffer holds that one store's payload of the input block.
-/
import proofs.«100114_g2000204297211070_pallasbulk_1265_19_alg».proof.Proof.Gen.KernelIdeal.Launch
import proofs.«100114_g2000204297211070_pallasbulk_1265_19_alg».proof.Proof.Gen.KernelIdeal.Skeleton
import proofs.«100114_g2000204297211070_pallasbulk_1265_19_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window's staging buffer holds its block at every point, for any proof data over `V`'s array whose
    body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S1x112x112x128 := Rect.unit (s := S1x112x112x128) ![0, 0, 0, 0] S1x112x112x128.size inb_S1x112x112x128_S1x112x112x128_0_0_0_0
abbrev r2_1 : Rect S1x112x112x64 := Rect.unit (s := S1x112x112x64) ![0, 0, 0, 0] S1x112x112x64.size inb_S1x112x112x64_S1x112x112x64_0_0_0_0

/-- The output's staging buffer after the body: the one whole store of the payload of the loaded input block. -/
def out2_1 (x0 : Vec F S1x112x112x128 .bf16) : Vec F S1x112x112x64 .bf16 :=
  View.canon [⟨r2_1, k2_pay1 (View.ld x0 r2_0)⟩]

theorem cover2_1 (p0 : Vec F S1x112x112x64 .bf16) (y : S1x112x112x64.Idx) :
    ∃ pc ∈ ([⟨r2_1, p0⟩] : List (View.Piece (Elt F) S1x112x112x64 .bf16)), y ∈ pc.1.set :=
  View.cover_of_tiled [⟨r2_1, p0⟩] S1x112x112x64.size (by rfl) y

set_option maxHeartbeats 1000000 in
/-- The body on whole staging memrefs, the input's at `x0` and the output's at anything, runs to the continuation
    with the input's as it was and the output's at `out2_1 x0`. -/
theorem sound_kernel2 (c : Dev nD) (E : Set ℕ) (i : grid2.Coords) (arg1 : Memref sig .tc .vmem S1x112x112x128 .bf16) (harg1 : arg1.IsWhole) (arg2 : Memref sig .tc .vmem S1x112x112x64 .bf16) (harg2 : arg2.IsWhole)
    (x0 : Vec F S1x112x112x128 .bf16) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out2_1 x0)) -∗ K ⟨⟩))
      ⊢ wp frame (wpE (defs₀ (F := F)) Variants.none c none) E (cc2__wpool_kernel i arg1 harg1 arg2 harg2) K := by
  simp only [cc2__wpool_kernel_eq_skeleton]; unfold cc2__wpool_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover2_1 _)

/-- The proof data of pipeline 2 on core `c`: the arrays as the region finds them; after the body at a point the
    input's buffer at its block and the output's at `out2_1` of it; the generator register and the scoped rest as
    invariant; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => out2_1 (iblk2 V c 0 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = out2_1 (iblk2 V c 0 t) := by dsimp only [dat2]

theorem before2_0 (c : Dev nD) (t : Fin cfg2.N) (d) : (dat2 V c).before 0 t d = iblk2 V c 0 t :=
  before2_0_of V (dat2 V c) (A_eq2 V c 0) (after2_0 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl,
    after2_0, after2_1]
  iintro ⟨HΦ, Ho, ⟨%d0, H0⟩, ⟨%d1, H1⟩⟩
  iapply (sound_kernel2 c Set.univ (grid2.coords t) _ _ _ _ (iblk2 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation2 (c : Dev nD) : BodyObligation (dat2 (F := F) V c) (defs₀ (F := F)) Variants.none () Set.univ := fun t => by
  rw [bigSep_W2, bigSep_W2]
  exact sound_body2 V c t

end Cert.KernelIdeal.Reg

end
-- ==== Proof.KR3.lean ====
/-
  Region 3 of the kernel's @main (a 3x3 convolution as one matrix product over nine lane-concatenated taps, plus bias
  and ReLU, no pooling): the proof data of its pipeline at any entry contents `V`, and the body's obligation. The body
  loads three row bands of its padded input block through rectangles whose row offset is computed from the grid
  position, loads the weights and the bias whole, and stores its one payload whole; so after the body at a point the
  output's staging buffer holds the pieces that run leaves, read back.
-/
import proofs.«100114_g2000204297211070_pallasbulk_1265_19_alg».proof.Proof.Gen.KernelIdeal.Launch
import proofs.«100114_g2000204297211070_pallasbulk_1265_19_alg».proof.Proof.Gen.KernelIdeal.Skeleton
import proofs.«100114_g2000204297211070_pallasbulk_1265_19_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Each input window's current staging buffer holds its block at every point, fetched there or not, for any proof
    data over `V`'s array whose body leaves the block in place (the window is uncut and never idle, and where it is
    not fetched its block index has not moved). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- One staging buffer of the output window, through which its contents are stated (the choice does not matter: the
    pieces cover the block). -/
abbrev VO3_3 : View sig .tc .vmem S1x56x112x128 .bf16 := (Memref.whole cc3_stg3_0 : Memref sig .tc .vmem S1x56x112x128 .bf16).view
/-- Each window's current staging memref at point `t`, spelled as the pipeline passes it to the body, and its wholeness. -/
abbrev ms3_0 (t : Fin cfg3.N) : Memref sig .tc .vmem S1x114x114x64 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S576x128 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x56x112x128 .bf16 := win3_3.stage (cfg3.slots t 3)
abbrev hs3_3 (t : Fin cfg3.N) : (ms3_3 t).IsWhole := hstage3_3 ((cfg3.slots t 3).cast nbuf3_3)

set_option maxHeartbeats 1000000 in
/-- What the body's one store leaves in the output's staging memref, as pieces, with the proof that on whole staging
    memrefs — the inputs' at their contents, the output's at anything — the body runs to the continuation holding the
    inputs' as they were and the output's buffer with the pieces written. The pieces are the witness the symbolic run
    of the body's skeleton finds. -/
noncomputable def kernelRun3_A (c : Dev nD) (i : grid3.Coords) (arg2 : Memref sig .tc .vmem S1x114x114x64 .bf16) (harg2 : arg2.IsWhole) (arg3 : Memref sig .tc .vmem S576x128 .bf16) (harg3 : arg3.IsWhole) (arg4 : Memref sig .tc .vmem S1x128 .f32) (harg4 : arg4.IsWhole) (arg5 : Memref sig .tc .vmem S1x56x112x128 .bf16) (harg5 : arg5.IsWhole)
    (x0 : Vec F S1x114x114x64 .bf16) (x1 : Vec F S576x128 .bf16) (x2 : Vec F S1x128 .f32) :
    { L3 : List (View.Piece (Elt F) S1x56x112x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc3_body i arg2 harg2 arg3 harg3 arg4 harg4 arg5 harg5) K } := by
  refine ⟨?_, fun E K => ?run⟩
  case run =>
    simp only [cc3_body_eq_skeleton]; unfold cc3_body_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

/-- The run's pieces for the output tile its block (one whole store), so they cover it. -/
theorem cover3_A_3 (c : Dev nD) (i : grid3.Coords) (arg2 : Memref sig .tc .vmem S1x114x114x64 .bf16) (harg2 : arg2.IsWhole) (arg3 : Memref sig .tc .vmem S576x128 .bf16) (harg3 : arg3.IsWhole) (arg4 : Memref sig .tc .vmem S1x128 .f32) (harg4 : arg4.IsWhole) (arg5 : Memref sig .tc .vmem S1x56x112x128 .bf16) (harg5 : arg5.IsWhole)
    (x0 : Vec F S1x114x114x64 .bf16) (x1 : Vec F S576x128 .bf16) (x2 : Vec F S1x128 .f32) (y : S1x56x112x128.Idx) :
    ∃ pc ∈ (kernelRun3_A c i arg2 harg2 arg3 harg3 arg4 harg4 arg5 harg5 x0 x1 x2).1, y ∈ pc.1.set :=
  View.cover_of_tiledL (kernelRun3_A c i arg2 harg2 arg3 harg3 arg4 harg4 arg5 harg5 x0 x1 x2).1 S1x56x112x128.size (by sl_kernel_rfl) y

/-- What the run leaves in the output's staging buffer: its pieces read back over junk. -/
def out3_A_3 (c : Dev nD) (i : grid3.Coords) (arg2 : Memref sig .tc .vmem S1x114x114x64 .bf16) (harg2 : arg2.IsWhole) (arg3 : Memref sig .tc .vmem S576x128 .bf16) (harg3 : arg3.IsWhole) (arg4 : Memref sig .tc .vmem S1x128 .f32) (harg4 : arg4.IsWhole) (arg5 : Memref sig .tc .vmem S1x56x112x128 .bf16) (harg5 : arg5.IsWhole)
    (x0 : Vec F S1x114x114x64 .bf16) (x1 : Vec F S576x128 .bf16) (x2 : Vec F S1x128 .f32) : Vec F S1x56x112x128 .bf16 :=
  VO3_3.read (Elt F) (VO3_3.writes (Elt F) VO3_3.junk (kernelRun3_A c i arg2 harg2 arg3 harg3 arg4 harg4 arg5 harg5 x0 x1 x2).1)

/-- What the output's staging buffer holds after the body at point `t`: the run's contents at the point's memrefs and
    input blocks. -/
def outsAt3 (c : Dev nD) (t : Fin cfg3.N) : Vec F S1x56x112x128 .bf16 :=
  out3_A_3 c (grid3.coords t) (ms3_0 t) (hs3_0 t) (ms3_1 t) (hs3_1 t) (ms3_2 t) (hs3_2 t) (ms3_3 t) (hs3_3 t) (iblk3 V c 0 t) (iblk3 V c 1 t) (iblk3 V c 2 t)

/-- The proof data of pipeline 3 on core `c`: the arrays as the region finds them; after the body at a point each
    input's buffer at its block and the output's at `outsAt3`; the generator register and the scoped rest as
    invariant; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t)
    ∗ owns (c : Thread nD τ) (ms3_3 t) fullShare ((dat3 V c).after 3 t))

/-- The body at any point: the inputs' memrefs hold their blocks, so the run applies; the invariant passes through
    unread; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  unfold outsAt3
  unfold out3_A_3
  iintro ⟨HΦ, Ho, ⟨%d0, H0⟩, ⟨%d1, H1⟩, ⟨%d2, H2⟩, ⟨%d3, H3⟩⟩
  iapply ((kernelRun3_A c (grid3.coords t) _ _ _ _ _ _ _ _ (iblk3 V c 0 t) (iblk3 V c 1 t) (iblk3 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover3_A_3 c _ _ _ _ _ _ _ _ _ _ _ _)

theorem body_obligation3 (c : Dev nD) : BodyObligation (dat3 (F := F) V c) (defs₀ (F := F)) Variants.none () Set.univ := fun t => by
  rw [bigSep_W3, bigSep_W3]
  exact sound_body3 V c t

end Cert.KernelIdeal.Reg

end
-- ==== Proof.KR4.lean ====
/-
  Region 4 of the kernel's @main (a 3x3 convolution as one matrix product over nine lane-concatenated taps, with bias,
  ReLU and the row-pair maximum of a 2x2 pooling fused): the proof data of its pipeline at any entry contents `V`, and
  the body's obligation. The body loads three column-shifted windows of its input block through rectangles whose row
  offset is computed from the grid position, loads the weights and the bias whole, and stores the result whole; so
  after the body at a point the output's staging buffer holds that one store's payload, read back over anything.
-/
import proofs.«100114_g2000204297211070_pallasbulk_1265_19_alg».proof.Proof.Gen.KernelIdeal.Launch
import proofs.«100114_g2000204297211070_pallasbulk_1265_19_alg».proof.Proof.Gen.KernelIdeal.Skeleton
import proofs.«100114_g2000204297211070_pallasbulk_1265_19_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, fetched there or not, for any proof data over
    `V`'s array whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's staging buffer holds its block at every point, fetched there or not, for any proof data over
    `V`'s array whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2's staging buffer holds its block at every point, fetched there or not, for any proof data over
    `V`'s array whose body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- One staging buffer of the output window, through which its contents are stated (the choice does not matter). -/
abbrev VO4_3 : View sig .tc .vmem S1x28x112x128 .bf16 := (Memref.whole cc4_stg3_0 : Memref sig .tc .vmem S1x28x112x128 .bf16).view
/-- Each window's current staging memref at point `t`, spelled as the pipeline passes it, and its wholeness. -/
abbrev ms4_0 (t : Fin cfg4.N) : Memref sig .tc .vmem S1x114x114x128 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1152x128 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x28x112x128 .bf16 := win4_3.stage (cfg4.slots t 3)
abbrev hs4_3 (t : Fin cfg4.N) : (ms4_3 t).IsWhole := hstage4_3 ((cfg4.slots t 3).cast nbuf4_3)

set_option maxHeartbeats 1000000 in
/-- What the body's stores leave in the output's staging memref, as pieces (last first), with the proof that on whole
    staging memrefs, the inputs' at their contents and the output's at anything, the body runs to the continuation
    holding the inputs' as they were and the output's buffer with the pieces written. The pieces are the witness the
    symbolic run of the body finds. -/
noncomputable def kernelRun4_A (c : Dev nD) (i : grid4.Coords) (arg2 : Memref sig .tc .vmem S1x114x114x128 .bf16) (harg2 : arg2.IsWhole) (arg3 : Memref sig .tc .vmem S1152x128 .bf16) (harg3 : arg3.IsWhole) (arg4 : Memref sig .tc .vmem S1x128 .f32) (harg4 : arg4.IsWhole) (arg5 : Memref sig .tc .vmem S1x28x112x128 .bf16) (harg5 : arg5.IsWhole)
    (x0 : Vec F S1x114x114x128 .bf16) (x1 : Vec F S1152x128 .bf16) (x2 : Vec F S1x128 .f32) :
    { L3 : List (View.Piece (Elt F) S1x28x112x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc4_body i arg2 harg2 arg3 harg3 arg4 harg4 arg5 harg5) K } := by
  refine ⟨?_, fun E K => ?run⟩
  case run =>
    simp only [cc4_body_eq_skeleton]; unfold cc4_body_skel
    simp only [k4_part1_eq_skeleton]
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

/-- The run's pieces for the output tile its block, so they cover it. -/
theorem cover4_A_3 (c : Dev nD) (i : grid4.Coords) (arg2 : Memref sig .tc .vmem S1x114x114x128 .bf16) (harg2 : arg2.IsWhole) (arg3 : Memref sig .tc .vmem S1152x128 .bf16) (harg3 : arg3.IsWhole) (arg4 : Memref sig .tc .vmem S1x128 .f32) (harg4 : arg4.IsWhole) (arg5 : Memref sig .tc .vmem S1x28x112x128 .bf16) (harg5 : arg5.IsWhole)
    (x0 : Vec F S1x114x114x128 .bf16) (x1 : Vec F S1152x128 .bf16) (x2 : Vec F S1x128 .f32) (y : S1x28x112x128.Idx) :
    ∃ pc ∈ (kernelRun4_A c i arg2 harg2 arg3 harg3 arg4 harg4 arg5 harg5 x0 x1 x2).1, y ∈ pc.1.set :=
  View.cover_of_tiledL (kernelRun4_A c i arg2 harg2 arg3 harg3 arg4 harg4 arg5 harg5 x0 x1 x2).1 S1x28x112x128.size (by sl_kernel_rfl) y

/-- What the run leaves in the output's staging buffer: its pieces read back over junk. -/
def out4_A_3 (c : Dev nD) (i : grid4.Coords) (arg2 : Memref sig .tc .vmem S1x114x114x128 .bf16) (harg2 : arg2.IsWhole) (arg3 : Memref sig .tc .vmem S1152x128 .bf16) (harg3 : arg3.IsWhole) (arg4 : Memref sig .tc .vmem S1x128 .f32) (harg4 : arg4.IsWhole) (arg5 : Memref sig .tc .vmem S1x28x112x128 .bf16) (harg5 : arg5.IsWhole)
    (x0 : Vec F S1x114x114x128 .bf16) (x1 : Vec F S1152x128 .bf16) (x2 : Vec F S1x128 .f32) : Vec F S1x28x112x128 .bf16 :=
  VO4_3.read (Elt F) (VO4_3.writes (Elt F) VO4_3.junk (kernelRun4_A c i arg2 harg2 arg3 harg3 arg4 harg4 arg5 harg5 x0 x1 x2).1)

/-- What the output's staging buffer holds after the body at point `t`: the run's contents at the point's memrefs
    and input blocks. -/
def outsAt4 (c : Dev nD) (t : Fin cfg4.N) : Vec F S1x28x112x128 .bf16 :=
  out4_A_3 c (grid4.coords t) (ms4_0 t) (hs4_0 t) (ms4_1 t) (hs4_1 t) (ms4_2 t) (hs4_2 t) (ms4_3 t) (hs4_3 t) (iblk4 V c 0 t) (iblk4 V c 1 t) (iblk4 V c 2 t)

/-- The proof data of pipeline 4 on core `c`: the arrays as the region finds them; after the body at a point each
    input's buffer at its block and the output's at `outsAt4`; the generator register and the scoped rest as
    invariant; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t)
    ∗ owns (c : Thread nD τ) (ms4_2 t) fullShare ((dat4 V c).after 2 t)
    ∗ owns (c : Thread nD τ) (ms4_3 t) fullShare ((dat4 V c).after 3 t))

/-- The body at any point: the inputs' memrefs hold their blocks, so the run applies; the invariant passes through
    unread; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  unfold outsAt4
  unfold out4_A_3
  iintro ⟨HΦ, Ho, ⟨%d0, H0⟩, ⟨%d1, H1⟩, ⟨%d2, H2⟩, ⟨%d3, H3⟩⟩
  iapply ((kernelRun4_A c (grid4.coords t) _ _ _ _ _ _ _ _ (iblk4 V c 0 t) (iblk4 V c 1 t) (iblk4 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover4_A_3 c _ _ _ _ _ _ _ _ _ _ _ _)

theorem body_obligation4 (c : Dev nD) : BodyObligation (dat4 (F := F) V c) (defs₀ (F := F)) Variants.none () Set.univ := fun t => by
  rw [bigSep_W4, bigSep_W4]
  exact sound_body4 V c t

end Cert.KernelIdeal.Reg

end
-- ==== Proof.KR5.lean ====
/-
  Region 5 of the kernel's @main (the lane-half maximum that finishes a 2x2 pooling): the proof data of its
  pipeline at any entry contents `V`, and the body's obligation. The body loads its one input block whole, takes the
  pointwise maximum of the block's two lane halves and stores the result whole; so after the body at a point the
  output's staging buffer holds that one store's payload of the input block.
-/
import proofs.«100114_g2000204297211070_pallasbulk_1265_19_alg».proof.Proof.Gen.KernelIdeal.Launch
import proofs.«100114_g2000204297211070_pallasbulk_1265_19_alg».proof.Proof.Gen.KernelIdeal.Skeleton
import proofs.«100114_g2000204297211070_pallasbulk_1265_19_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The input window's staging buffer holds its block at every point, for any proof data over `V`'s array whose
    body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

abbrev r5_0 : Rect S1x56x56x256 := Rect.unit (s := S1x56x56x256) ![0, 0, 0, 0] S1x56x56x256.size inb_S1x56x56x256_S1x56x56x256_0_0_0_0
abbrev r5_1 : Rect S1x56x56x128 := Rect.unit (s := S1x56x56x128) ![0, 0, 0, 0] S1x56x56x128.size inb_S1x56x56x128_S1x56x56x128_0_0_0_0

/-- The output's staging buffer after the body: the one whole store of the payload of the loaded input block. -/
def out5_1 (x0 : Vec F S1x56x56x256 .bf16) : Vec F S1x56x56x128 .bf16 :=
  View.canon [⟨r5_1, k5_pay1 (View.ld x0 r5_0)⟩]

theorem cover5_1 (p0 : Vec F S1x56x56x128 .bf16) (y : S1x56x56x128.Idx) :
    ∃ pc ∈ ([⟨r5_1, p0⟩] : List (View.Piece (Elt F) S1x56x56x128 .bf16)), y ∈ pc.1.set :=
  View.cover_of_tiled [⟨r5_1, p0⟩] S1x56x56x128.size (by rfl) y

set_option maxHeartbeats 1000000 in
/-- The body on whole staging memrefs, the input's at `x0` and the output's at anything, runs to the continuation
    with the input's as it was and the output's at `out5_1 x0`. -/
theorem sound_kernel5 (c : Dev nD) (E : Set ℕ) (i : grid5.Coords) (arg1 : Memref sig .tc .vmem S1x56x56x256 .bf16) (harg1 : arg1.IsWhole) (arg2 : Memref sig .tc .vmem S1x56x56x128 .bf16) (harg2 : arg2.IsWhole)
    (x0 : Vec F S1x56x56x256 .bf16) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out5_1 x0)) -∗ K ⟨⟩))
      ⊢ wp frame (wpE (defs₀ (F := F)) Variants.none c none) E (cc5__wpool_kernel i arg1 harg1 arg2 harg2) K := by
  simp only [cc5__wpool_kernel_eq_skeleton]; unfold cc5__wpool_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover5_1 _)

/-- The proof data of pipeline 5 on core `c`: the arrays as the region finds them; after the body at a point the
    input's buffer at its block and the output's at `out5_1` of it; the generator register and the scoped rest as
    invariant; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => out5_1 (iblk5 V c 0 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = out5_1 (iblk5 V c 0 t) := by dsimp only [dat5]

theorem before5_0 (c : Dev nD) (t : Fin cfg5.N) (d) : (dat5 V c).before 0 t d = iblk5 V c 0 t :=
  before5_0_of V (dat5 V c) (A_eq5 V c 0) (after5_0 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0]
  rw [show (dat5 V c).Φ t.succ = (dat5 V c).Φ t.castSucc from rfl,
    show (dat5 V c).owesAt () t.succ = (dat5 V c).owesAt () t.castSucc from rfl,
    after5_0, after5_1]
  iintro ⟨HΦ, Ho, ⟨%d0, H0⟩, ⟨%d1, H1⟩⟩
  iapply (sound_kernel5 c Set.univ (grid5.coords t) _ _ _ _ (iblk5 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation5 (c : Dev nD) : BodyObligation (dat5 (F := F) V c) (defs₀ (F := F)) Variants.none () Set.univ := fun t => by
  rw [bigSep_W5, bigSep_W5]
  exact sound_body5 V c t

end Cert.KernelIdeal.Reg

end
-- ==== Proof.LibRmw.lean ====
/-
  A store of rows that are part of their words reads the words it touches, replaces a sub-block of what it
  read and writes the words back. Among the writes a body leaves in a buffer, listed last first, such a write
  counts as the plain write of the sub-block alone, provided every other element of the words it wrote back
  either is covered by a later write or was read from what the earlier writes had left there. Stated for the
  canonical contents of a list of writes, at unit-stride rectangles.
-/
import Idealize.ShloMosaic.Lib.Pipeline.FrameBody
import Idealize.ShloMosaic.PureOps.ShapeOps

namespace Cert.LibRmw

open Idealize.ShloMosaic Idealize.ShloMosaic.View

variable {s : Shape} {e : EltTy} {Val : EltTy → Type} [∀ e, Nonempty (Val e)]

/-- Where a later write covers the index, the earlier writes do not matter. -/
theorem canon_append_of_mem (B : List (Piece Val s e)) {y : s.Idx} :
    ∀ A : List (Piece Val s e), (∃ p ∈ A, y ∈ p.1.set) → canon (A ++ B) y = canon A y
  | [], h => by obtain ⟨_, hm, _⟩ := h; exact absurd hm List.not_mem_nil
  | p :: A, h => by
    by_cases hy : y ∈ p.1.set
    · obtain ⟨r, w⟩ := p
      obtain ⟨x, rfl⟩ : ∃ x, r.emb x = y := r.exists_idx_of_mem hy
      rw [List.cons_append, canon_cons_emb, canon_cons_emb]
    · have hA : ∃ p' ∈ A, y ∈ p'.1.set := by
        obtain ⟨p', hm, hy'⟩ := h
        rcases List.mem_cons.mp hm with rfl | hm
        · exact absurd hy' hy
        · exact ⟨p', hm, hy'⟩
      rw [List.cons_append, canon_cons_of_not_mem p _ hy, canon_cons_of_not_mem p _ hy]
      exact canon_append_of_mem B A hA

/-- Where no later write covers the index, it reads what the earlier writes left. -/
theorem canon_append_of_not_mem (B : List (Piece Val s e)) {y : s.Idx} :
    ∀ A : List (Piece Val s e), (∀ p ∈ A, y ∉ p.1.set) → canon (A ++ B) y = canon B y
  | [], _ => rfl
  | p :: A, h => by
    rw [List.cons_append, canon_cons_of_not_mem p _ (h p List.mem_cons_self)]
    exact canon_append_of_not_mem B A fun p' hp' => h p' (List.mem_cons_of_mem _ hp')

/-- A write through the unit-stride rectangle at `off` of extents `size` whose payload is `old` with the block
    `v` of extents `usize` put at `st` inside it, between the later writes `A` and the earlier writes `B`: if
    every element of the rectangle outside the block is covered by a later write or holds in `old` what the
    earlier writes left, the write counts as the plain write of `v` through the block's own rectangle (at
    `off' = off + st`). -/
theorem canon_append_updateSlice (A : List (Piece Val s e)) (off off' size usize st : Fin s.rank → Nat)
    (inb : ∀ a, off a + size a ≤ s.size a) (inb' : ∀ a, off' a + usize a ≤ s.size a)
    (hoff : ∀ a, off' a = off a + st a)
    (h : (⟨s.rank, size⟩ : Shape).Slices st ⟨s.rank, usize⟩)
    (old : (⟨s.rank, size⟩ : Shape).Idx → Val e) (v : (⟨s.rank, usize⟩ : Shape).Idx → Val e)
    (B : List (Piece Val s e))
    (hold : ∀ j : (⟨s.rank, size⟩ : Shape).Idx, (Rect.unit off size inb).emb j ∉ (Rect.unit off' usize inb').set →
        (∃ p ∈ A, (Rect.unit off size inb).emb j ∈ p.1.set) ∨ old j = canon B ((Rect.unit off size inb).emb j)) :
    canon (A ++ ⟨Rect.unit off size inb, updateSlice old v st h⟩ :: B)
      = canon (A ++ ⟨Rect.unit off' usize inb', v⟩ :: B) := by
  funext y
  by_cases hA : ∃ p ∈ A, y ∈ p.1.set
  · rw [canon_append_of_mem _ A hA, canon_append_of_mem _ A hA]
  · have hA' : ∀ p ∈ A, y ∉ p.1.set := fun p hp hy => hA ⟨p, hp, hy⟩
    rw [canon_append_of_not_mem _ A hA', canon_append_of_not_mem _ A hA']
    by_cases hy' : y ∈ (Rect.unit off' usize inb').set
    · obtain ⟨x', rfl⟩ : ∃ x', (Rect.unit off' usize inb').emb x' = y := (Rect.unit off' usize inb').exists_idx_of_mem hy'
      have hlt : ∀ a : Fin s.rank, st a + (x' a).val < size a := fun a => by
        have h2 := h.2 a
        have hx := (x' a).isLt
        have e1 : (⟨s.rank, usize⟩ : Shape).size (a.cast h.1.symm) = usize a := rfl
        have e2 : (⟨s.rank, size⟩ : Shape).size a = size a := rfl
        have e3 : (Rect.unit off' usize inb').shape.size a = usize a := rfl
        omega
      let x : (Rect.unit off size inb).shape.Idx := fun a => ⟨st a + (x' a).val, hlt a⟩
      have hx : (Rect.unit off size inb).emb x = (Rect.unit off' usize inb').emb x' := by
        funext a; apply Fin.ext
        rw [Rect.emb_apply, Rect.emb_apply]
        show off a + 1 * (st a + (x' a).val) = off' a + 1 * (x' a).val
        rw [hoff a]; omega
      rw [← hx, canon_cons_emb, hx, canon_cons_emb]
      unfold updateSlice
      have hin : ∀ a : Fin s.rank, st a ≤ (x a).val ∧ (x a).val < st a + (⟨s.rank, usize⟩ : Shape).size (a.cast h.1.symm) := fun a => by
        have hx := (x' a).isLt
        have e3 : (Rect.unit off' usize inb').shape.size a = usize a := rfl
        have e1 : (⟨s.rank, usize⟩ : Shape).size (a.cast h.1.symm) = usize a := rfl
        show st a ≤ st a + (x' a).val ∧ st a + (x' a).val < st a + _
        omega
      rw [dif_pos hin]
      congr 1; funext b; apply Fin.ext
      show st b + (x' b).val - st b = (x' b).val
      omega
    · rw [canon_cons_of_not_mem ⟨Rect.unit off' usize inb', v⟩ B hy']
      by_cases hy : y ∈ (Rect.unit off size inb).set
      · obtain ⟨x, rfl⟩ : ∃ x, (Rect.unit off size inb).emb x = y := (Rect.unit off size inb).exists_idx_of_mem hy
        rw [canon_cons_emb]
        unfold updateSlice
        have hnin : ¬ ∀ a : Fin s.rank, st a ≤ (x a).val ∧ (x a).val < st a + (⟨s.rank, usize⟩ : Shape).size (a.cast h.1.symm) := fun hin => by
          refine hy' (Rect.mem_set_unit.mpr fun a => ?_)
          have := hin a
          have e1 : (⟨s.rank, usize⟩ : Shape).size (a.cast h.1.symm) = usize a := rfl
          have e2 : ((Rect.unit off size inb).emb x a : Nat) = off a + 1 * (x a).val := rfl
          rw [e2, hoff a]; omega
        rw [dif_neg hnin]
        rcases hold x hy' with hc | ho
        · exact absurd hc hA
        · exact ho
      · rw [canon_cons_of_not_mem ⟨Rect.unit off size inb, updateSlice old v st h⟩ B hy]

/-- The same when the write's `old` is what a load through the rectangle reads after the earlier writes `B`: the
    write counts as the plain write of the block, whatever the later writes `A`. -/
theorem canon_append_updateSlice_readCov {sig : RefSig} {κ : Kind} {sp : Space} (v : View sig κ sp s e)
    (A : List (Piece Val s e)) (off off' size usize st : Fin s.rank → Nat)
    (inb : ∀ a, off a + size a ≤ s.size a) (inb' : ∀ a, off' a + usize a ≤ s.size a)
    (hoff : ∀ a, off' a = off a + st a)
    (h : (⟨s.rank, size⟩ : Shape).Slices st ⟨s.rank, usize⟩)
    (upd : (⟨s.rank, usize⟩ : Shape).Idx → Val e) (B : List (Piece Val s e)) :
    canon (A ++ ⟨Rect.unit off size inb, updateSlice (v.readCov B (Rect.unit off size inb).toLoadRect) upd st h⟩ :: B)
      = canon (A ++ ⟨Rect.unit off' usize inb', upd⟩ :: B) :=
  canon_append_updateSlice A off off' size usize st inb inb' hoff h _ upd B
    (fun j _ => Or.inr (congrFun (readCov_eq_canon' v B (Rect.unit off size inb).toLoadRect) j))

/-- Membership in a unit-stride rectangle of a rank-four shape that spans the whole of axes 0 and 3: the two
    conditions on axes 1 and 2. -/
theorem mem_unit4_hw {d off size : Fin 4 → Nat} {inb : ∀ a, off a + size a ≤ (⟨4, d⟩ : Shape).size a}
    (h0 : off 0 = 0 ∧ size 0 = d 0) (h3 : off 3 = 0 ∧ size 3 = d 3) (y : (⟨4, d⟩ : Shape).Idx) :
    y ∈ (Rect.unit (s := ⟨4, d⟩) off size inb).set ↔
      (off 1 ≤ (y 1).val ∧ (y 1).val < off 1 + size 1) ∧ (off 2 ≤ (y 2).val ∧ (y 2).val < off 2 + size 2) := by
  rw [Rect.mem_set_unit]
  have b0 : (y 0).val < d 0 := (y 0).isLt
  have b3 : (y 3).val < d 3 := (y 3).isLt
  obtain ⟨e0, f0⟩ := h0
  obtain ⟨e3, f3⟩ := h3
  constructor
  · intro H; exact ⟨H 1, H 2⟩
  · rintro ⟨h1, h2⟩ (a : Fin 4)
    match a with
    | ⟨0, _⟩ => show off 0 ≤ (y 0).val ∧ (y 0).val < off 0 + size 0; omega
    | ⟨1, _⟩ => exact h1
    | ⟨2, _⟩ => exact h2
    | ⟨3, _⟩ => show off 3 ≤ (y 3).val ∧ (y 3).val < off 3 + size 3; omega

end Cert.LibRmw
-- ==== Proof.KR6.lean ====
/-
  Region 6 of the kernel's @main (a 3x3 convolution with bias and ReLU whose result is stored at offset (1, 1) of
  a larger image, the next layer's padded input, followed by four stores of zeros over the top row, the bottom row,
  the left column and the right columns): the proof data of its pipeline at any entry contents `V`, and the body's
  obligation.

  The interior store and the two column stores write rows that are part of their words: each reads the words it
  touches, replaces a sub-block of them and writes them back. So the pieces the body's run leaves name what the
  output's buffer held before. What the buffer holds after the body does not depend on it: the two column stores
  read back what the earlier stores had left, and every element the interior store wrote back unchanged is
  overwritten by a column store. The buffer ends at the canonical contents of five plain stores — the right
  columns, the left column, the bottom row and the top row at zero, the interior at the convolution's result.
-/
import proofs.«100114_g2000204297211070_pallasbulk_1265_19_alg».proof.Proof.Gen.KernelIdeal.Launch
import proofs.«100114_g2000204297211070_pallasbulk_1265_19_alg».proof.Proof.Gen.KernelIdeal.Skeleton
import proofs.«100114_g2000204297211070_pallasbulk_1265_19_alg».proof.Proof.Gen.KernelIdeal.Points
import proofs.«100114_g2000204297211070_pallasbulk_1265_19_alg».proof.Proof.LibRmw
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles of the body's loads and stores -/

/-- The shapes of the left column and of the right columns the body zeroes, and of the words each column store
    writes back. -/
abbrev SCL6 : Shape := S1x58x1x256
abbrev SCR6 : Shape := S1x58x1x256
abbrev SWL6 : Shape := S1x58x2x256
abbrev SWR6 : Shape := S1x58x2x256

/-- The three loads of the padded input, one per column shift, -/
abbrev r6_t1 (i : grid6.Coords) : Rect S1x58x58x128 := Rect.unit (s := S1x58x58x128) (k6_off1 i) S1x58x56x128.size (k6_off1_inb i)
abbrev r6_t2 (i : grid6.Coords) : Rect S1x58x58x128 := Rect.unit (s := S1x58x58x128) (k6_off2 i) S1x58x56x128.size (k6_off2_inb i)
abbrev r6_t3 (i : grid6.Coords) : Rect S1x58x58x128 := Rect.unit (s := S1x58x58x128) (k6_off3 i) S1x58x56x128.size (k6_off3_inb i)
/-- the weights and the bias, whole; -/
abbrev r6_w : Rect S1152x256 := Rect.unit (s := S1152x256) ![0, 0] S1152x256.size inb_S1152x256_S1152x256_0_0
abbrev r6_b : Rect S1x256 := Rect.unit (s := S1x256) ![0, 0] S1x256.size inb_S1x256_S1x256_0_0
/-- the words the interior store writes back (the interior's rows, every column) and the interior itself; -/
abbrev r6_wi : Rect S1x58x58x256 := Rect.unit (s := S1x58x58x256) ![0, 1, 0, 0] S1x56x58x256.size inb_S1x58x58x256_S1x56x58x256_0_1_0_0
abbrev r6_in : Rect S1x58x58x256 := Rect.unit (s := S1x58x58x256) ![0, 1, 1, 0] S1x56x56x256.size inb_S1x58x58x256_S1x56x56x256_0_1_1_0
/-- the top and the bottom row; -/
abbrev r6_rt : Rect S1x58x58x256 := Rect.unit (s := S1x58x58x256) ![0, 0, 0, 0] S1x1x58x256.size inb_S1x58x58x256_S1x1x58x256_0_0_0_0
abbrev r6_rb : Rect S1x58x58x256 := Rect.unit (s := S1x58x58x256) ![0, 57, 0, 0] S1x1x58x256.size inb_S1x58x58x256_S1x1x58x256_0_57_0_0
/-- the left column and the right columns. -/
abbrev r6_cl : Rect S1x58x58x256 := Rect.unit (s := S1x58x58x256) ![0, 0, 0, 0] SCL6.size inb_S1x58x58x256_S1x58x1x256_0_0_0_0
abbrev r6_cr : Rect S1x58x58x256 := Rect.unit (s := S1x58x58x256) ![0, 0, 57, 0] SCR6.size inb_S1x58x58x256_S1x58x1x256_0_0_57_0

set_option synthInstance.maxSize 1024 in
/-- Every element of the output block lies in the bottom row, the top row or the interior's rows. -/
theorem cover6_geo (y : S1x58x58x256.Idx) : y ∈ r6_rb.set ∨ y ∈ r6_rt.set ∨ y ∈ r6_wi.set := by
  have h1 : (y 1).val < S1x58x58x256.size 1 := (y 1).isLt
  have h2 : (y 2).val < S1x58x58x256.size 2 := (y 2).isLt
  rw [Cert.LibRmw.mem_unit4_hw, Cert.LibRmw.mem_unit4_hw, Cert.LibRmw.mem_unit4_hw]
  · revert h2; generalize (y 2).val = n2; revert n2
    revert h1; generalize (y 1).val = n1; revert n1
    decide +kernel
  all_goals decide

set_option synthInstance.maxSize 1024 in
/-- An element of the interior's rows outside the interior lies in the right columns or in the left column. -/
theorem shadow6_geo (y : S1x58x58x256.Idx) : y ∈ r6_wi.set → y ∉ r6_in.set → y ∈ r6_cr.set ∨ y ∈ r6_cl.set := by
  have h1 : (y 1).val < S1x58x58x256.size 1 := (y 1).isLt
  have h2 : (y 2).val < S1x58x58x256.size 2 := (y 2).isLt
  rw [Cert.LibRmw.mem_unit4_hw, Cert.LibRmw.mem_unit4_hw, Cert.LibRmw.mem_unit4_hw, Cert.LibRmw.mem_unit4_hw]
  · revert h2; generalize (y 2).val = n2; revert n2
    revert h1; generalize (y 1).val = n1; revert n1
    decide +kernel
  all_goals decide

/-! ## What the body leaves in the output's buffer -/

/-- The convolution's result, from the three input blocks: the interior store's sub-block. -/
def conv6 (i : grid6.Coords) (x0 : Vec F S1x58x58x128 .bf16) (x1 : Vec F S1152x256 .bf16) (x2 : Vec F S1x256 .f32) : FVec F S1x56x56x256 .bf16 :=
  k6_pay5 (View.ld x0 (r6_t1 i)) (View.ld x0 (r6_t2 i)) (View.ld x0 (r6_t3 i)) (View.ld x1 r6_w) (View.ld x2 r6_b)

/-- The output's staging buffer after the body: the right columns, the left column, the bottom row and the top row
    at the zeros the body stores there, the interior at the convolution's result (last store first). -/
def out6_3 (i : grid6.Coords) (x0 : Vec F S1x58x58x128 .bf16) (x1 : Vec F S1152x256 .bf16) (x2 : Vec F S1x256 .f32) : Vec F S1x58x58x256 .bf16 :=
  View.canon [⟨r6_cr, k6_pay4 (F := F)⟩, ⟨r6_cl, k6_pay3 (F := F)⟩, ⟨r6_rb, k6_pay2 (F := F)⟩, ⟨r6_rt, k6_pay1 (k6_pay6 (F := F))⟩, ⟨r6_in, conv6 i x0 x1 x2⟩]

variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Each input window's staging buffer holds its block at every point, for any proof data over `V`'s array whose
    body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## The kernel body on any staging memrefs -/

/-- Each window's current staging memref at point `t`, spelled as the pipeline passes it, and its wholeness. -/
abbrev ms6_0 (t : Fin cfg6.N) : Memref sig .tc .vmem S1x58x58x128 .bf16 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S1152x256 .bf16 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1x256 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S1x58x58x256 .bf16 := win6_3.stage (cfg6.slots t 3)
abbrev hs6_3 (t : Fin cfg6.N) : (ms6_3 t).IsWhole := hstage6_3 ((cfg6.slots t 3).cast nbuf6_3)

set_option maxHeartbeats 1000000 in
/-- What the body's stores leave in the output's staging memref, as pieces (last first), with the proof that on
    whole staging memrefs — the inputs' at their contents, the output's at `d3` — the body runs to the continuation
    holding the inputs' as they were and the output's buffer with the pieces written. The pieces are the witness the
    run finds; they name `d3`, which the interior store reads before any store. -/
noncomputable def kernelRun6_A (c : Dev nD) (i : grid6.Coords) (arg2 : Memref sig .tc .vmem S1x58x58x128 .bf16) (harg2 : arg2.IsWhole) (arg3 : Memref sig .tc .vmem S1152x256 .bf16) (harg3 : arg3.IsWhole) (arg4 : Memref sig .tc .vmem S1x256 .f32) (harg4 : arg4.IsWhole) (arg5 : Memref sig .tc .vmem S1x58x58x256 .bf16) (harg5 : arg5.IsWhole)
    (x0 : Vec F S1x58x58x128 .bf16) (x1 : Vec F S1152x256 .bf16) (x2 : Vec F S1x256 .f32) (d3 : Vec F S1x58x58x256 .bf16) :
    { L3 : List (View.Piece (Elt F) S1x58x58x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare d3
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc6_body i arg2 harg2 arg3 harg3 arg4 harg4 arg5 harg5) K } := by
  refine ⟨?_, fun E K => ?run⟩
  case run =>
    simp only [cc6_body_eq_skeleton]; unfold cc6_body_skel
    simp only [k6_part1_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

/-- The run's pieces cover the output block: the bottom row's, the top row's and the interior store's do. -/
theorem cover6_A_3 (c : Dev nD) (i : grid6.Coords) (arg2 : Memref sig .tc .vmem S1x58x58x128 .bf16) (harg2 : arg2.IsWhole) (arg3 : Memref sig .tc .vmem S1152x256 .bf16) (harg3 : arg3.IsWhole) (arg4 : Memref sig .tc .vmem S1x256 .f32) (harg4 : arg4.IsWhole) (arg5 : Memref sig .tc .vmem S1x58x58x256 .bf16) (harg5 : arg5.IsWhole)
    (x0 : Vec F S1x58x58x128 .bf16) (x1 : Vec F S1152x256 .bf16) (x2 : Vec F S1x256 .f32) (d3 : Vec F S1x58x58x256 .bf16) (y : S1x58x58x256.Idx) :
    ∃ pc ∈ (kernelRun6_A c i arg2 harg2 arg3 harg3 arg4 harg4 arg5 harg5 x0 x1 x2 d3).1, y ∈ pc.1.set := by
  unfold kernelRun6_A
  dsimp only
  sl_unfold_run_names
  rcases cover6_geo y with h | h | h
  · exact ⟨_, List.mem_cons_of_mem _ (List.mem_cons_of_mem _ List.mem_cons_self), h⟩
  · exact ⟨_, List.mem_cons_of_mem _ (List.mem_cons_of_mem _ (List.mem_cons_of_mem _ List.mem_cons_self)), h⟩
  · exact ⟨_, List.mem_cons_of_mem _ (List.mem_cons_of_mem _ (List.mem_cons_of_mem _ (List.mem_cons_of_mem _ List.mem_cons_self))), h⟩

set_option maxHeartbeats 1000000 in
/-- The canonical contents of the run's pieces are those of the five plain stores, whatever the output's buffer held
    before: each column store read back what the earlier stores had left, so it counts as the plain store of its
    zeros; the interior store then counts as the plain store of the convolution's result, the elements it wrote back
    unchanged being covered by the column stores. -/
theorem canon_run6 (c : Dev nD) (i : grid6.Coords) (arg2 : Memref sig .tc .vmem S1x58x58x128 .bf16) (harg2 : arg2.IsWhole) (arg3 : Memref sig .tc .vmem S1152x256 .bf16) (harg3 : arg3.IsWhole) (arg4 : Memref sig .tc .vmem S1x256 .f32) (harg4 : arg4.IsWhole) (arg5 : Memref sig .tc .vmem S1x58x58x256 .bf16) (harg5 : arg5.IsWhole)
    (x0 : Vec F S1x58x58x128 .bf16) (x1 : Vec F S1152x256 .bf16) (x2 : Vec F S1x256 .f32) (d3 : Vec F S1x58x58x256 .bf16) :
    View.canon (kernelRun6_A c i arg2 harg2 arg3 harg3 arg4 harg4 arg5 harg5 x0 x1 x2 d3).1 = out6_3 i x0 x1 x2 := by
  have e0 : ∀ r : Rect S1x58x58x128, View.readAt (Elt F) arg2.view r.toLoadRect (harg2.unread x0) = View.ld x0 r :=
    fun r => by rw [View.readAt_eq_ld, harg2.read_unread]
  have e1 : ∀ r : Rect S1152x256, View.readAt (Elt F) arg3.view r.toLoadRect (harg3.unread x1) = View.ld x1 r :=
    fun r => by rw [View.readAt_eq_ld, harg3.read_unread]
  have e2 : ∀ r : Rect S1x256, View.readAt (Elt F) arg4.view r.toLoadRect (harg4.unread x2) = View.ld x2 r :=
    fun r => by rw [View.readAt_eq_ld, harg4.read_unread]
  unfold kernelRun6_A
  dsimp only
  sl_unfold_run_names
  dsimp only
  simp only [e0, e1, e2]
  refine Eq.trans (Cert.LibRmw.canon_append_updateSlice_readCov (s := S1x58x58x256) (e := .bf16) (Val := Elt F) arg5.view []
    ![0, 0, 56, 0] ![0, 0, 57, 0] SWR6.size SCR6.size ![0, 0, 1, 0]
    inb_S1x58x58x256_S1x58x2x256_0_0_56_0 inb_S1x58x58x256_S1x58x1x256_0_0_57_0 (by decide)
    slices_S1x58x2x256_S1x58x1x256_0_0_1_0 _ _) ?_
  refine Eq.trans (Cert.LibRmw.canon_append_updateSlice_readCov (s := S1x58x58x256) (e := .bf16) (Val := Elt F) arg5.view [_]
    ![0, 0, 0, 0] ![0, 0, 0, 0] SWL6.size SCL6.size ![0, 0, 0, 0]
    inb_S1x58x58x256_S1x58x2x256_0_0_0_0 inb_S1x58x58x256_S1x58x1x256_0_0_0_0 (by decide)
    slices_S1x58x2x256_S1x58x1x256_0_0_0_0 _ _) ?_
  refine Eq.trans (Cert.LibRmw.canon_append_updateSlice (s := S1x58x58x256) (e := .bf16) (Val := Elt F) [_, _, _, _]
    ![0, 1, 0, 0] ![0, 1, 1, 0] S1x56x58x256.size S1x56x56x256.size ![0, 0, 1, 0]
    inb_S1x58x58x256_S1x56x58x256_0_1_0_0 inb_S1x58x58x256_S1x56x56x256_0_1_1_0 (by decide)
    slices_S1x56x58x256_S1x56x56x256_0_0_1_0 _ _ [] ?_) ?_
  · intro j hj
    refine Or.inl ?_
    rcases shadow6_geo _ (r6_wi.toLoadRect.idx_mem j) hj with h | h
    · exact ⟨_, List.mem_cons_self, h⟩
    · exact ⟨_, List.mem_cons_of_mem _ List.mem_cons_self, h⟩
  unfold out6_3 conv6
  rfl

/-! ## What the output holds after each point -/

/-- What the output's staging buffer holds after the body at point `t`: the five plain stores' contents at the
    point's input blocks. -/
def outsAt6 (c : Dev nD) (t : Fin cfg6.N) : Vec F S1x58x58x256 .bf16 :=
  out6_3 (grid6.coords t) (iblk6 V c 0 t) (iblk6 V c 1 t) (iblk6 V c 2 t)

/-! ## The pipeline's proof data -/

/-- The proof data of pipeline 6 on core `c`: the arrays as the region finds them; after the body at a point each
    input's buffer at its block and the output's at `outsAt6`; the generator register and the scoped rest as
    invariant; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => (outsAt6 V c t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = (outsAt6 V c t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (ms6_0 t) fullShare ((dat6 V c).after 0 t)
    ∗ owns (c : Thread nD τ) (ms6_1 t) fullShare ((dat6 V c).after 1 t)
    ∗ owns (c : Thread nD τ) (ms6_2 t) fullShare ((dat6 V c).after 2 t)
    ∗ owns (c : Thread nD τ) (ms6_3 t) fullShare ((dat6 V c).after 3 t))

/-- The body at any point: the inputs' memrefs hold their blocks, the output's holds something; so the run applies at
    that something; its pieces cover the block and their canonical contents are the five plain stores'; the invariant
    passes through unread; the core owes nothing throughout. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  unfold outsAt6
  iintro ⟨HΦ, Ho, ⟨%d0, H0⟩, ⟨%d1, H1⟩, ⟨%d2, H2⟩, ⟨%d3, H3⟩⟩
  iapply ((kernelRun6_A c (grid6.coords t) _ _ _ _ _ _ _ _ (iblk6 V c 0 t) (iblk6 V c 1 t) (iblk6 V c 2 t) ((dat6 V c).before 3 t d3)).2 Set.univ _)
  isplitl [H0]; · iexact H0
  isplitl [H1]; · iexact H1
  isplitl [H2]; · iexact H2
  isplitl [H3]; · iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro
  exact (View.read_writes_eq_canon _ _ _ (cover6_A_3 c _ _ _ _ _ _ _ _ _ _ _ _ _)).trans (canon_run6 c _ _ _ _ _ _ _ _ _ _ _ _ _)

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Reg

end
-- ==== Proof.KR7.lean ====
/-
  Region 7 of the kernel's @main (a 3x3 convolution with bias and ReLU whose result is stored at offset (1, 1) of
  a larger image, the next layer's padded input, followed by four stores of zeros over the top row, the bottom row,
  the left column and the right columns): the proof data of its pipeline at any entry contents `V`, and the body's
  obligation.

  The interior store and the two column stores write rows that are part of their words: each reads the words it
  touches, replaces a sub-block of them and writes them back. So the pieces the body's run leaves name what the
  output's buffer held before. What the buffer holds after the body does not depend on it: the two column stores
  read back what the earlier stores had left, and every element the interior store wrote back unchanged is
  overwritten by a column store. The buffer ends at the canonical contents of five plain stores — the right
  columns, the left column, the bottom row and the top row at zero, the interior at the convolution's result.
-/
import proofs.«100114_g2000204297211070_pallasbulk_1265_19_alg».proof.Proof.Gen.KernelIdeal.Launch
import proofs.«100114_g2000204297211070_pallasbulk_1265_19_alg».proof.Proof.Gen.KernelIdeal.Skeleton
import proofs.«100114_g2000204297211070_pallasbulk_1265_19_alg».proof.Proof.Gen.KernelIdeal.Points
import proofs.«100114_g2000204297211070_pallasbulk_1265_19_alg».proof.Proof.LibRmw
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles of the body's loads and stores -/

/-- The shapes of the left column and of the right columns the body zeroes, and of the words each column store
    writes back. -/
abbrev SCL7 : Shape := S1x58x1x256
abbrev SCR7 : Shape := S1x58x1x256
abbrev SWL7 : Shape := S1x58x2x256
abbrev SWR7 : Shape := S1x58x2x256

/-- The three loads of the padded input, one per column shift, -/
abbrev r7_t1 (i : grid7.Coords) : Rect S1x58x58x256 := Rect.unit (s := S1x58x58x256) (k7_off1 i) S1x58x56x256.size (k7_off1_inb i)
abbrev r7_t2 (i : grid7.Coords) : Rect S1x58x58x256 := Rect.unit (s := S1x58x58x256) (k7_off2 i) S1x58x56x256.size (k7_off2_inb i)
abbrev r7_t3 (i : grid7.Coords) : Rect S1x58x58x256 := Rect.unit (s := S1x58x58x256) (k7_off3 i) S1x58x56x256.size (k7_off3_inb i)
/-- the weights and the bias, whole; -/
abbrev r7_w : Rect S2304x256 := Rect.unit (s := S2304x256) ![0, 0] S2304x256.size inb_S2304x256_S2304x256_0_0
abbrev r7_b : Rect S1x256 := Rect.unit (s := S1x256) ![0, 0] S1x256.size inb_S1x256_S1x256_0_0
/-- the words the interior store writes back (the interior's rows, every column) and the interior itself; -/
abbrev r7_wi : Rect S1x58x58x256 := Rect.unit (s := S1x58x58x256) ![0, 1, 0, 0] S1x56x58x256.size inb_S1x58x58x256_S1x56x58x256_0_1_0_0
abbrev r7_in : Rect S1x58x58x256 := Rect.unit (s := S1x58x58x256) ![0, 1, 1, 0] S1x56x56x256.size inb_S1x58x58x256_S1x56x56x256_0_1_1_0
/-- the top and the bottom row; -/
abbrev r7_rt : Rect S1x58x58x256 := Rect.unit (s := S1x58x58x256) ![0, 0, 0, 0] S1x1x58x256.size inb_S1x58x58x256_S1x1x58x256_0_0_0_0
abbrev r7_rb : Rect S1x58x58x256 := Rect.unit (s := S1x58x58x256) ![0, 57, 0, 0] S1x1x58x256.size inb_S1x58x58x256_S1x1x58x256_0_57_0_0
/-- the left column and the right columns. -/
abbrev r7_cl : Rect S1x58x58x256 := Rect.unit (s := S1x58x58x256) ![0, 0, 0, 0] SCL7.size inb_S1x58x58x256_S1x58x1x256_0_0_0_0
abbrev r7_cr : Rect S1x58x58x256 := Rect.unit (s := S1x58x58x256) ![0, 0, 57, 0] SCR7.size inb_S1x58x58x256_S1x58x1x256_0_0_57_0

set_option synthInstance.maxSize 1024 in
/-- Every element of the output block lies in the bottom row, the top row or the interior's rows. -/
theorem cover7_geo (y : S1x58x58x256.Idx) : y ∈ r7_rb.set ∨ y ∈ r7_rt.set ∨ y ∈ r7_wi.set := by
  have h1 : (y 1).val < S1x58x58x256.size 1 := (y 1).isLt
  have h2 : (y 2).val < S1x58x58x256.size 2 := (y 2).isLt
  rw [Cert.LibRmw.mem_unit4_hw, Cert.LibRmw.mem_unit4_hw, Cert.LibRmw.mem_unit4_hw]
  · revert h2; generalize (y 2).val = n2; revert n2
    revert h1; generalize (y 1).val = n1; revert n1
    decide +kernel
  all_goals decide

set_option synthInstance.maxSize 1024 in
/-- An element of the interior's rows outside the interior lies in the right columns or in the left column. -/
theorem shadow7_geo (y : S1x58x58x256.Idx) : y ∈ r7_wi.set → y ∉ r7_in.set → y ∈ r7_cr.set ∨ y ∈ r7_cl.set := by
  have h1 : (y 1).val < S1x58x58x256.size 1 := (y 1).isLt
  have h2 : (y 2).val < S1x58x58x256.size 2 := (y 2).isLt
  rw [Cert.LibRmw.mem_unit4_hw, Cert.LibRmw.mem_unit4_hw, Cert.LibRmw.mem_unit4_hw, Cert.LibRmw.mem_unit4_hw]
  · revert h2; generalize (y 2).val = n2; revert n2
    revert h1; generalize (y 1).val = n1; revert n1
    decide +kernel
  all_goals decide

/-! ## What the body leaves in the output's buffer -/

/-- The convolution's result, from the three input blocks: the interior store's sub-block. -/
def conv7 (i : grid7.Coords) (x0 : Vec F S1x58x58x256 .bf16) (x1 : Vec F S2304x256 .bf16) (x2 : Vec F S1x256 .f32) : FVec F S1x56x56x256 .bf16 :=
  k7_pay5 (View.ld x0 (r7_t1 i)) (View.ld x0 (r7_t2 i)) (View.ld x0 (r7_t3 i)) (View.ld x1 r7_w) (View.ld x2 r7_b)

/-- The output's staging buffer after the body: the right columns, the left column, the bottom row and the top row
    at the zeros the body stores there, the interior at the convolution's result (last store first). -/
def out7_3 (i : grid7.Coords) (x0 : Vec F S1x58x58x256 .bf16) (x1 : Vec F S2304x256 .bf16) (x2 : Vec F S1x256 .f32) : Vec F S1x58x58x256 .bf16 :=
  View.canon [⟨r7_cr, k7_pay4 (F := F)⟩, ⟨r7_cl, k7_pay3 (F := F)⟩, ⟨r7_rb, k7_pay2 (F := F)⟩, ⟨r7_rt, k7_pay1 (k7_pay6 (F := F))⟩, ⟨r7_in, conv7 i x0 x1 x2⟩]

variable (V : (c : Dev nD) → (b : Ref sig .tc) → Buf (Elt F) ((c : Thread nD τ).loc b))

/-! ## The windows' blocks -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Each input window's staging buffer holds its block at every point, for any proof data over `V`'s array whose
    body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-! ## The kernel body on any staging memrefs -/

/-- Each window's current staging memref at point `t`, spelled as the pipeline passes it, and its wholeness. -/
abbrev ms7_0 (t : Fin cfg7.N) : Memref sig .tc .vmem S1x58x58x256 .bf16 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S2304x256 .bf16 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1x256 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1x58x58x256 .bf16 := win7_3.stage (cfg7.slots t 3)
abbrev hs7_3 (t : Fin cfg7.N) : (ms7_3 t).IsWhole := hstage7_3 ((cfg7.slots t 3).cast nbuf7_3)

set_option maxHeartbeats 1000000 in
/-- What the body's stores leave in the output's staging memref, as pieces (last first), with the proof that on
    whole staging memrefs — the inputs' at their contents, the output's at `d3` — the body runs to the continuation
    holding the inputs' as they were and the output's buffer with the pieces written. The pieces are the witness the
    run finds; they name `d3`, which the interior store reads before any store. -/
noncomputable def kernelRun7_A (c : Dev nD) (i : grid7.Coords) (arg2 : Memref sig .tc .vmem S1x58x58x256 .bf16) (harg2 : arg2.IsWhole) (arg3 : Memref sig .tc .vmem S2304x256 .bf16) (harg3 : arg3.IsWhole) (arg4 : Memref sig .tc .vmem S1x256 .f32) (harg4 : arg4.IsWhole) (arg5 : Memref sig .tc .vmem S1x58x58x256 .bf16) (harg5 : arg5.IsWhole)
    (x0 : Vec F S1x58x58x256 .bf16) (x1 : Vec F S2304x256 .bf16) (x2 : Vec F S1x256 .f32) (d3 : Vec F S1x58x58x256 .bf16) :
    { L3 : List (View.Piece (Elt F) S1x58x58x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare d3
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc7_body i arg2 harg2 arg3 harg3 arg4 harg4 arg5 harg5) K } := by
  refine ⟨?_, fun E K => ?run⟩
  case run =>
    simp only [cc7_body_eq_skeleton]; unfold cc7_body_skel
    simp only [k7_part1_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

/-- The run's pieces cover the output block: the bottom row's, the top row's and the interior store's do. -/
theorem cover7_A_3 (c : Dev nD) (i : grid7.Coords) (arg2 : Memref sig .tc .vmem S1x58x58x256 .bf16) (harg2 : arg2.IsWhole) (arg3 : Memref sig .tc .vmem S2304x256 .bf16) (harg3 : arg3.IsWhole) (arg4 : Memref sig .tc .vmem S1x256 .f32) (harg4 : arg4.IsWhole) (arg5 : Memref sig .tc .vmem S1x58x58x256 .bf16) (harg5 : arg5.IsWhole)
    (x0 : Vec F S1x58x58x256 .bf16) (x1 : Vec F S2304x256 .bf16) (x2 : Vec F S1x256 .f32) (d3 : Vec F S1x58x58x256 .bf16) (y : S1x58x58x256.Idx) :
    ∃ pc ∈ (kernelRun7_A c i arg2 harg2 arg3 harg3 arg4 harg4 arg5 harg5 x0 x1 x2 d3).1, y ∈ pc.1.set := by
  unfold kernelRun7_A
  dsimp only
  sl_unfold_run_names
  rcases cover7_geo y with h | h | h
  · exact ⟨_, List.mem_cons_of_mem _ (List.mem_cons_of_mem _ List.mem_cons_self), h⟩
  · exact ⟨_, List.mem_cons_of_mem _ (List.mem_cons_of_mem _ (List.mem_cons_of_mem _ List.mem_cons_self)), h⟩
  · exact ⟨_, List.mem_cons_of_mem _ (List.mem_cons_of_mem _ (List.mem_cons_of_mem _ (List.mem_cons_of_mem _ List.mem_cons_self))), h⟩

set_option maxHeartbeats 1000000 in
/-- The canonical contents of the run's pieces are those of the five plain stores, whatever the output's buffer held
    before: each column store read back what the earlier stores had left, so it counts as the plain store of its
    zeros; the interior store then counts as the plain store of the convolution's result, the elements it wrote back
    unchanged being covered by the column stores. -/
theorem canon_run7 (c : Dev nD) (i : grid7.Coords) (arg2 : Memref sig .tc .vmem S1x58x58x256 .bf16) (harg2 : arg2.IsWhole) (arg3 : Memref sig .tc .vmem S2304x256 .bf16) (harg3 : arg3.IsWhole) (arg4 : Memref sig .tc .vmem S1x256 .f32) (harg4 : arg4.IsWhole) (arg5 : Memref sig .tc .vmem S1x58x58x256 .bf16) (harg5 : arg5.IsWhole)
    (x0 : Vec F S1x58x58x256 .bf16) (x1 : Vec F S2304x256 .bf16) (x2 : Vec F S1x256 .f32) (d3 : Vec F S1x58x58x256 .bf16) :
    View.canon (kernelRun7_A c i arg2 harg2 arg3 harg3 arg4 harg4 arg5 harg5 x0 x1 x2 d3).1 = out7_3 i x0 x1 x2 := by
  have e0 : ∀ r : Rect S1x58x58x256, View.readAt (Elt F) arg2.view r.toLoadRect (harg2.unread x0) = View.ld x0 r :=
    fun r => by rw [View.readAt_eq_ld, harg2.read_unread]
  have e1 : ∀ r : Rect S2304x256, View.readAt (Elt F) arg3.view r.toLoadRect (harg3.unread x1) = View.ld x1 r :=
    fun r => by rw [View.readAt_eq_ld, harg3.read_unread]
  have e2 : ∀ r : Rect S1x256, View.readAt (Elt F) arg4.view r.toLoadRect (harg4.unread x2) = View.ld x2 r :=
    fun r => by rw [View.readAt_eq_ld, harg4.read_unread]
  unfold kernelRun7_A
  dsimp only
  sl_unfold_run_names
  dsimp only
  simp only [e0, e1, e2]
  refine Eq.trans (Cert.LibRmw.canon_append_updateSlice_readCov (s := S1x58x58x256) (e := .bf16) (Val := Elt F) arg5.view []
    ![0, 0, 56, 0] ![0, 0, 57, 0] SWR7.size SCR7.size ![0, 0, 1, 0]
    inb_S1x58x58x256_S1x58x2x256_0_0_56_0 inb_S1x58x58x256_S1x58x1x256_0_0_57_0 (by decide)
    slices_S1x58x2x256_S1x58x1x256_0_0_1_0 _ _) ?_
  refine Eq.trans (Cert.LibRmw.canon_append_updateSlice_readCov (s := S1x58x58x256) (e := .bf16) (Val := Elt F) arg5.view [_]
    ![0, 0, 0, 0] ![0, 0, 0, 0] SWL7.size SCL7.size ![0, 0, 0, 0]
    inb_S1x58x58x256_S1x58x2x256_0_0_0_0 inb_S1x58x58x256_S1x58x1x256_0_0_0_0 (by decide)
    slices_S1x58x2x256_S1x58x1x256_0_0_0_0 _ _) ?_
  refine Eq.trans (Cert.LibRmw.canon_append_updateSlice (s := S1x58x58x256) (e := .bf16) (Val := Elt F) [_, _, _, _]
    ![0, 1, 0, 0] ![0, 1, 1, 0] S1x56x58x256.size S1x56x56x256.size ![0, 0, 1, 0]
    inb_S1x58x58x256_S1x56x58x256_0_1_0_0 inb_S1x58x58x256_S1x56x56x256_0_1_1_0 (by decide)
    slices_S1x56x58x256_S1x56x56x256_0_0_1_0 _ _ [] ?_) ?_
  · intro j hj
    refine Or.inl ?_
    rcases shadow7_geo _ (r7_wi.toLoadRect.idx_mem j) hj with h | h
    · exact ⟨_, List.mem_cons_self, h⟩
    · exact ⟨_, List.mem_cons_of_mem _ List.mem_cons_self, h⟩
  unfold out7_3 conv7
  rfl

/-! ## What the output holds after each point -/

/-- What the output's staging buffer holds after the body at point `t`: the five plain stores' contents at the
    point's input blocks. -/
def outsAt7 (c : Dev nD) (t : Fin cfg7.N) : Vec F S1x58x58x256 .bf16 :=
  out7_3 (grid7.coords t) (iblk7 V c 0 t) (iblk7 V c 1 t) (iblk7 V c 2 t)

/-! ## The pipeline's proof data -/

/-- The proof data of pipeline 7 on core `c`: the arrays as the region finds them; after the body at a point each
    input's buffer at its block and the output's at `outsAt7`; the generator register and the scoped rest as
    invariant; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => (outsAt7 V c t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = (outsAt7 V c t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ owns (c : Thread nD τ) (ms7_0 t) fullShare ((dat7 V c).after 0 t)
    ∗ owns (c : Thread nD τ) (ms7_1 t) fullShare ((dat7 V c).after 1 t)
    ∗ owns (c : Thread nD τ) (ms7_2 t) fullShare ((dat7 V c).after 2 t)
    ∗ owns (c : Thread nD τ) (ms7_3 t) fullShare ((dat7 V c).after 3 t))

/-- The body at any point: the inputs' memrefs hold their blocks, the output's holds something; so the run applies at
    that something; its pieces cover the block and their canonical contents are the five plain stores'; the invariant
    passes through unread; the core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  unfold outsAt7
  iintro ⟨HΦ, Ho, ⟨%d0, H0⟩, ⟨%d1, H1⟩, ⟨%d2, H2⟩, ⟨%d3, H3⟩⟩
  iapply ((kernelRun7_A c (grid7.coords t) _ _ _ _ _ _ _ _ (iblk7 V c 0 t) (iblk7 V c 1 t) (iblk7 V c 2 t) ((dat7 V c).before 3 t d3)).2 Set.univ _)
  isplitl [H0]; · iexact H0
  isplitl [H1]; · iexact H1
  isplitl [H2]; · iexact H2
  isplitl [H3]; · iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro
  exact (View.read_writes_eq_canon _ _ _ (cover7_A_3 c _ _ _ _ _ _ _ _ _ _ _ _ _)).trans (canon_run7 c _ _ _ _ _ _ _ _ _ _ _ _ _)

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Reg

end
-- ==== Proof.KR8.lean ====
/-
  Region 8 of the kernel's @main (a 3x3 convolution as one matrix product over nine lane-concatenated taps, with bias,
  ReLU and the row-pair maximum of a 2x2 pooling fused): the proof data of its pipeline at any entry contents `V`, and
  the body's obligation. The body loads three column-shifted windows of its input block through rectangles whose row
  offset is computed from the grid position, loads the weights and the bias whole, and stores the result whole; so
  after the body at a point the output's staging buffer holds that one store's payload, read back over anything.
-/
import proofs.«100114_g2000204297211070_pallasbulk_1265_19_alg».proof.Proof.Gen.KernelIdeal.Launch
import proofs.«100114_g2000204297211070_pallasbulk_1265_19_alg».proof.Proof.Gen.KernelIdeal.Skeleton
import proofs.«100114_g2000204297211070_pallasbulk_1265_19_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's staging buffer holds its block at every point, fetched there or not, for any proof data over
    `V`'s array whose body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
/-- Input window 1's staging buffer holds its block at every point, fetched there or not, for any proof data over
    `V`'s array whose body leaves the block in place. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
/-- Input window 2's staging buffer holds its block at every point, fetched there or not, for any proof data over
    `V`'s array whose body leaves the block in place. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- One staging buffer of the output window, through which its contents are stated (the choice does not matter). -/
abbrev VO8_3 : View sig .tc .vmem S1x28x56x256 .bf16 := (Memref.whole cc8_stg3_0 : Memref sig .tc .vmem S1x28x56x256 .bf16).view
/-- Each window's current staging memref at point `t`, spelled as the pipeline passes it, and its wholeness. -/
abbrev ms8_0 (t : Fin cfg8.N) : Memref sig .tc .vmem S1x58x58x256 .bf16 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S2304x256 .bf16 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S1x256 .f32 := win8_2.stage (cfg8.slots t 2)
abbrev hs8_2 (t : Fin cfg8.N) : (ms8_2 t).IsWhole := hstage8_2 ((cfg8.slots t 2).cast nbuf8_2)
abbrev ms8_3 (t : Fin cfg8.N) : Memref sig .tc .vmem S1x28x56x256 .bf16 := win8_3.stage (cfg8.slots t 3)
abbrev hs8_3 (t : Fin cfg8.N) : (ms8_3 t).IsWhole := hstage8_3 ((cfg8.slots t 3).cast nbuf8_3)

set_option maxHeartbeats 1000000 in
/-- What the body's stores leave in the output's staging memref, as pieces (last first), with the proof that on whole
    staging memrefs, the inputs' at their contents and the output's at anything, the body runs to the continuation
    holding the inputs' as they were and the output's buffer with the pieces written. The pieces are the witness the
    symbolic run of the body finds. -/
noncomputable def kernelRun8_A (c : Dev nD) (i : grid8.Coords) (arg2 : Memref sig .tc .vmem S1x58x58x256 .bf16) (harg2 : arg2.IsWhole) (arg3 : Memref sig .tc .vmem S2304x256 .bf16) (harg3 : arg3.IsWhole) (arg4 : Memref sig .tc .vmem S1x256 .f32) (harg4 : arg4.IsWhole) (arg5 : Memref sig .tc .vmem S1x28x56x256 .bf16) (harg5 : arg5.IsWhole)
    (x0 : Vec F S1x58x58x256 .bf16) (x1 : Vec F S2304x256 .bf16) (x2 : Vec F S1x256 .f32) :
    { L3 : List (View.Piece (Elt F) S1x28x56x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc8_body i arg2 harg2 arg3 harg3 arg4 harg4 arg5 harg5) K } := by
  refine ⟨?_, fun E K => ?run⟩
  case run =>
    simp only [cc8_body_eq_skeleton]; unfold cc8_body_skel
    simp only [k8_part1_eq_skeleton]
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

/-- The run's pieces for the output tile its block, so they cover it. -/
theorem cover8_A_3 (c : Dev nD) (i : grid8.Coords) (arg2 : Memref sig .tc .vmem S1x58x58x256 .bf16) (harg2 : arg2.IsWhole) (arg3 : Memref sig .tc .vmem S2304x256 .bf16) (harg3 : arg3.IsWhole) (arg4 : Memref sig .tc .vmem S1x256 .f32) (harg4 : arg4.IsWhole) (arg5 : Memref sig .tc .vmem S1x28x56x256 .bf16) (harg5 : arg5.IsWhole)
    (x0 : Vec F S1x58x58x256 .bf16) (x1 : Vec F S2304x256 .bf16) (x2 : Vec F S1x256 .f32) (y : S1x28x56x256.Idx) :
    ∃ pc ∈ (kernelRun8_A c i arg2 harg2 arg3 harg3 arg4 harg4 arg5 harg5 x0 x1 x2).1, y ∈ pc.1.set :=
  View.cover_of_tiledL (kernelRun8_A c i arg2 harg2 arg3 harg3 arg4 harg4 arg5 harg5 x0 x1 x2).1 S1x28x56x256.size (by sl_kernel_rfl) y

/-- What the run leaves in the output's staging buffer: its pieces read back over junk. -/
def out8_A_3 (c : Dev nD) (i : grid8.Coords) (arg2 : Memref sig .tc .vmem S1x58x58x256 .bf16) (harg2 : arg2.IsWhole) (arg3 : Memref sig .tc .vmem S2304x256 .bf16) (harg3 : arg3.IsWhole) (arg4 : Memref sig .tc .vmem S1x256 .f32) (harg4 : arg4.IsWhole) (arg5 : Memref sig .tc .vmem S1x28x56x256 .bf16) (harg5 : arg5.IsWhole)
    (x0 : Vec F S1x58x58x256 .bf16) (x1 : Vec F S2304x256 .bf16) (x2 : Vec F S1x256 .f32) : Vec F S1x28x56x256 .bf16 :=
  VO8_3.read (Elt F) (VO8_3.writes (Elt F) VO8_3.junk (kernelRun8_A c i arg2 harg2 arg3 harg3 arg4 harg4 arg5 harg5 x0 x1 x2).1)

/-- What the output's staging buffer holds after the body at point `t`: the run's contents at the point's memrefs
    and input blocks. -/
def outsAt8 (c : Dev nD) (t : Fin cfg8.N) : Vec F S1x28x56x256 .bf16 :=
  out8_A_3 c (grid8.coords t) (ms8_0 t) (hs8_0 t) (ms8_1 t) (hs8_1 t) (ms8_2 t) (hs8_2 t) (ms8_3 t) (hs8_3 t) (iblk8 V c 0 t) (iblk8 V c 1 t) (iblk8 V c 2 t)

/-- The proof data of pipeline 8 on core `c`: the arrays as the region finds them; after the body at a point each
    input's buffer at its block and the output's at `outsAt8`; the generator register and the scoped rest as
    invariant; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => (outsAt8 V c t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = (outsAt8 V c t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d))
    ∗ (∃ d, owns (c : Thread nD τ) (ms8_3 t) fullShare ((dat8 V c).before 3 t d)))

/-- and what it returns. -/
def bodyPost8 (c : Dev nD) (t : Fin cfg8.N) : sProp 𝕄 :=
  iprop((dat8 V c).Φ t.succ ∗ (dat8 V c).owesAt () t.succ
    ∗ owns (c : Thread nD τ) (ms8_0 t) fullShare ((dat8 V c).after 0 t)
    ∗ owns (c : Thread nD τ) (ms8_1 t) fullShare ((dat8 V c).after 1 t)
    ∗ owns (c : Thread nD τ) (ms8_2 t) fullShare ((dat8 V c).after 2 t)
    ∗ owns (c : Thread nD τ) (ms8_3 t) fullShare ((dat8 V c).after 3 t))

/-- The body at any point: the inputs' memrefs hold their blocks, so the run applies; the invariant passes through
    unread; the core owes nothing throughout. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  unfold outsAt8
  unfold out8_A_3
  iintro ⟨HΦ, Ho, ⟨%d0, H0⟩, ⟨%d1, H1⟩, ⟨%d2, H2⟩, ⟨%d3, H3⟩⟩
  iapply ((kernelRun8_A c (grid8.coords t) _ _ _ _ _ _ _ _ (iblk8 V c 0 t) (iblk8 V c 1 t) (iblk8 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover8_A_3 c _ _ _ _ _ _ _ _ _ _ _ _)

theorem body_obligation8 (c : Dev nD) : BodyObligation (dat8 (F := F) V c) (defs₀ (F := F)) Variants.none () Set.univ := fun t => by
  rw [bigSep_W8, bigSep_W8]
  exact sound_body8 V c t

end Cert.KernelIdeal.Reg

end
-- ==== Proof.KR9.lean ====
/-
  Region 9 of the kernel's @main (the lane-half maximum that finishes a 2x2 pooling): the proof data of its
  pipeline at any entry contents `V`, and the body's obligation. The body loads its one input block whole, takes the
  pointwise maximum of the block's two lane halves and stores the result whole; so after the body at a point the
  output's staging buffer holds that one store's payload of the input block.
-/
import proofs.«100114_g2000204297211070_pallasbulk_1265_19_alg».proof.Proof.Gen.KernelIdeal.Launch
import proofs.«100114_g2000204297211070_pallasbulk_1265_19_alg».proof.Proof.Gen.KernelIdeal.Skeleton
import proofs.«100114_g2000204297211070_pallasbulk_1265_19_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- The input window's staging buffer holds its block at every point, for any proof data over `V`'s array whose
    body leaves the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

abbrev r9_0 : Rect S1x28x28x512 := Rect.unit (s := S1x28x28x512) ![0, 0, 0, 0] S1x28x28x512.size inb_S1x28x28x512_S1x28x28x512_0_0_0_0
abbrev r9_1 : Rect S1x28x28x256 := Rect.unit (s := S1x28x28x256) ![0, 0, 0, 0] S1x28x28x256.size inb_S1x28x28x256_S1x28x28x256_0_0_0_0

/-- The output's staging buffer after the body: the one whole store of the payload of the loaded input block. -/
def out9_1 (x0 : Vec F S1x28x28x512 .bf16) : Vec F S1x28x28x256 .bf16 :=
  View.canon [⟨r9_1, k9_pay1 (View.ld x0 r9_0)⟩]

theorem cover9_1 (p0 : Vec F S1x28x28x256 .bf16) (y : S1x28x28x256.Idx) :
    ∃ pc ∈ ([⟨r9_1, p0⟩] : List (View.Piece (Elt F) S1x28x28x256 .bf16)), y ∈ pc.1.set :=
  View.cover_of_tiled [⟨r9_1, p0⟩] S1x28x28x256.size (by rfl) y

set_option maxHeartbeats 1000000 in
/-- The body on whole staging memrefs, the input's at `x0` and the output's at anything, runs to the continuation
    with the input's as it was and the output's at `out9_1 x0`. -/
theorem sound_kernel9 (c : Dev nD) (E : Set ℕ) (i : grid9.Coords) (arg1 : Memref sig .tc .vmem S1x28x28x512 .bf16) (harg1 : arg1.IsWhole) (arg2 : Memref sig .tc .vmem S1x28x28x256 .bf16) (harg2 : arg2.IsWhole)
    (x0 : Vec F S1x28x28x512 .bf16) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out9_1 x0)) -∗ K ⟨⟩))
      ⊢ wp frame (wpE (defs₀ (F := F)) Variants.none c none) E (cc9__wpool_kernel i arg1 harg1 arg2 harg2) K := by
  simp only [cc9__wpool_kernel_eq_skeleton]; unfold cc9__wpool_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover9_1 _)

/-- The proof data of pipeline 9 on core `c`: the arrays as the region finds them; after the body at a point the
    input's buffer at its block and the output's at `out9_1` of it; the generator register and the scoped rest as
    invariant; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => out9_1 (iblk9 V c 0 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = out9_1 (iblk9 V c 0 t) := by dsimp only [dat9]

theorem before9_0 (c : Dev nD) (t : Fin cfg9.N) (d) : (dat9 V c).before 0 t d = iblk9 V c 0 t :=
  before9_0_of V (dat9 V c) (A_eq9 V c 0) (after9_0 V c) t d

def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d)))

def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t))

theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0]
  rw [show (dat9 V c).Φ t.succ = (dat9 V c).Φ t.castSucc from rfl,
    show (dat9 V c).owesAt () t.succ = (dat9 V c).owesAt () t.castSucc from rfl,
    after9_0, after9_1]
  iintro ⟨HΦ, Ho, ⟨%d0, H0⟩, ⟨%d1, H1⟩⟩
  iapply (sound_kernel9 c Set.univ (grid9.coords t) _ _ _ _ (iblk9 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation9 (c : Dev nD) : BodyObligation (dat9 (F := F) V c) (defs₀ (F := F)) Variants.none () Set.univ := fun t => by
  rw [bigSep_W9, bigSep_W9]
  exact sound_body9 V c t

end Cert.KernelIdeal.Reg

end
-- ==== Proof.KR10.lean ====
/-
  Region 10 of the kernel's @main (a 3x3 convolution with bias and ReLU whose result is stored at offset (1, 1) of
  a larger image, the next layer's padded input, followed by four stores of zeros over the top row, the bottom row,
  the left column and the right columns): the proof data of its pipeline at any entry contents `V`, and the body's
  obligation.

  The interior store and the two column stores write rows that are part of their words: each reads the words it
  touches, replaces a sub-block of them and writes them back. So the pieces the body's run leaves name what the
  output's buffer held before. What the buffer holds after the body does not depend on it: the two column stores
  read back what the earlier stores had left, and every element the interior store wrote back unchanged is
  overwritten by a column store. The buffer ends at the canonical contents of five plain stores — the right
  columns, the left column, the bottom row and the top row at zero, the interior at the convolution's result.
-/
import proofs.«100114_g2000204297211070_pallasbulk_1265_19_alg».proof.Proof.Gen.KernelIdeal.Launch
import proofs.«100114_g2000204297211070_pallasbulk_1265_19_alg».proof.Proof.Gen.KernelIdeal.Skeleton
import proofs.«100114_g2000204297211070_pallasbulk_1265_19_alg».proof.Proof.Gen.KernelIdeal.Points
import proofs.«100114_g2000204297211070_pallasbulk_1265_19_alg».proof.Proof.LibRmw
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles of the body's loads and stores -/

/-- The shapes of the left column and of the right columns the body zeroes, and of the words each column store
    writes back. -/
abbrev SCL10 : Shape := S1x30x1x512
abbrev SCR10 : Shape := S1x30x5x512
abbrev SWL10 : Shape := S1x30x2x512
abbrev SWR10 : Shape := S1x30x6x512

/-- The three loads of the padded input, one per column shift, -/
abbrev r10_t1 (i : grid10.Coords) : Rect S1x30x34x256 := Rect.unit (s := S1x30x34x256) (k10_off1 i) S1x30x32x256.size (k10_off1_inb i)
abbrev r10_t2 (i : grid10.Coords) : Rect S1x30x34x256 := Rect.unit (s := S1x30x34x256) (k10_off2 i) S1x30x32x256.size (k10_off2_inb i)
abbrev r10_t3 (i : grid10.Coords) : Rect S1x30x34x256 := Rect.unit (s := S1x30x34x256) (k10_off3 i) S1x30x32x256.size (k10_off3_inb i)
/-- the weights and the bias, whole; -/
abbrev r10_w : Rect S2304x512 := Rect.unit (s := S2304x512) ![0, 0] S2304x512.size inb_S2304x512_S2304x512_0_0
abbrev r10_b : Rect S1x512 := Rect.unit (s := S1x512) ![0, 0] S1x512.size inb_S1x512_S1x512_0_0
/-- the words the interior store writes back (the interior's rows, every column) and the interior itself; -/
abbrev r10_wi : Rect S1x30x34x512 := Rect.unit (s := S1x30x34x512) ![0, 1, 0, 0] S1x28x34x512.size inb_S1x30x34x512_S1x28x34x512_0_1_0_0
abbrev r10_in : Rect S1x30x34x512 := Rect.unit (s := S1x30x34x512) ![0, 1, 1, 0] S1x28x32x512.size inb_S1x30x34x512_S1x28x32x512_0_1_1_0
/-- the top and the bottom row; -/
abbrev r10_rt : Rect S1x30x34x512 := Rect.unit (s := S1x30x34x512) ![0, 0, 0, 0] S1x1x34x512.size inb_S1x30x34x512_S1x1x34x512_0_0_0_0
abbrev r10_rb : Rect S1x30x34x512 := Rect.unit (s := S1x30x34x512) ![0, 29, 0, 0] S1x1x34x512.size inb_S1x30x34x512_S1x1x34x512_0_29_0_0
/-- the left column and the right columns. -/
abbrev r10_cl : Rect S1x30x34x512 := Rect.unit (s := S1x30x34x512) ![0, 0, 0, 0] SCL10.size inb_S1x30x34x512_S1x30x1x512_0_0_0_0
abbrev r10_cr : Rect S1x30x34x512 := Rect.unit (s := S1x30x34x512) ![0, 0, 29, 0] SCR10.size inb_S1x30x34x512_S1x30x5x512_0_0_29_0

set_option synthInstance.maxSize 1024 in
/-- Every element of the output block lies in the bottom row, the top row or the interior's rows. -/
theorem cover10_geo (y : S1x30x34x512.Idx) : y ∈ r10_rb.set ∨ y ∈ r10_rt.set ∨ y ∈ r10_wi.set := by
  have h1 : (y 1).val < S1x30x34x512.size 1 := (y 1).isLt
  have h2 : (y 2).val < S1x30x34x512.size 2 := (y 2).isLt
  rw [Cert.LibRmw.mem_unit4_hw, Cert.LibRmw.mem_unit4_hw, Cert.LibRmw.mem_unit4_hw]
  · revert h2; generalize (y 2).val = n2; revert n2
    revert h1; generalize (y 1).val = n1; revert n1
    decide +kernel
  all_goals decide

set_option synthInstance.maxSize 1024 in
/-- An element of the interior's rows outside the interior lies in the right columns or in the left column. -/
theorem shadow10_geo (y : S1x30x34x512.Idx) : y ∈ r10_wi.set → y ∉ r10_in.set → y ∈ r10_cr.set ∨ y ∈ r10_cl.set := by
  have h1 : (y 1).val < S1x30x34x512.size 1 := (y 1).isLt
  have h2 : (y 2).val < S1x30x34x512.size 2 := (y 2).isLt
  rw [Cert.LibRmw.mem_unit4_hw, Cert.LibRmw.mem_unit4_hw, Cert.LibRmw.mem_unit4_hw, Cert.LibRmw.mem_unit4_hw]
  · revert h2; generalize (y 2).val = n2; revert n2
    revert h1; generalize (y 1).val = n1; revert n1
    decide +kernel
  all_goals decide

/-! ## What the body leaves in the output's buffer -/

/-- The convolution's result, from the three input blocks: the interior store's sub-block. -/
def conv10 (i : grid10.Coords) (x0 : Vec F S1x30x34x256 .bf16) (x1 : Vec F S2304x512 .bf16) (x2 : Vec F S1x512 .f32) : FVec F S1x28x32x512 .bf16 :=
  k10_pay5 (View.ld x0 (r10_t1 i)) (View.ld x0 (r10_t2 i)) (View.ld x0 (r10_t3 i)) (View.ld x1 r10_w) (View.ld x2 r10_b)

/-- The output's staging buffer after the body: the right columns, the left column, the bottom row and the top row
    at the zeros the body stores there, the interior at the convolution's result (last store first). -/
def out10_3 (i : grid10.Coords) (x0 : Vec F S1x30x34x256 .bf16) (x1 : Vec F S2304x512 .bf16) (x2 : Vec F S1x512 .f32) : Vec F S1x30x34x512 .bf16 :=
  View.canon [⟨r10_cr, k10_pay4 (F := F)⟩, ⟨r10_cl, k10_pay3 (F := F)⟩, ⟨r10_rb, k10_pay2 (F := F)⟩, ⟨r10_rt, k10_pay1 (k10_pay6 (F := F))⟩, ⟨r10_in, conv10 i x0 x1 x2⟩]

variable (V : (c : Dev nD) → (b : Ref sig .tc) → Buf (Elt F) ((c : Thread nD τ).loc b))

/-! ## The windows' blocks -/

/-- Window `w`'s block at point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Each input window's staging buffer holds its block at every point, for any proof data over `V`'s array whose
    body leaves the block in place. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-! ## The kernel body on any staging memrefs -/

/-- Each window's current staging memref at point `t`, spelled as the pipeline passes it, and its wholeness. -/
abbrev ms10_0 (t : Fin cfg10.N) : Memref sig .tc .vmem S1x30x34x256 .bf16 := win10_0.stage (cfg10.slots t 0)
abbrev hs10_0 (t : Fin cfg10.N) : (ms10_0 t).IsWhole := hstage10_0 ((cfg10.slots t 0).cast nbuf10_0)
abbrev ms10_1 (t : Fin cfg10.N) : Memref sig .tc .vmem S2304x512 .bf16 := win10_1.stage (cfg10.slots t 1)
abbrev hs10_1 (t : Fin cfg10.N) : (ms10_1 t).IsWhole := hstage10_1 ((cfg10.slots t 1).cast nbuf10_1)
abbrev ms10_2 (t : Fin cfg10.N) : Memref sig .tc .vmem S1x512 .f32 := win10_2.stage (cfg10.slots t 2)
abbrev hs10_2 (t : Fin cfg10.N) : (ms10_2 t).IsWhole := hstage10_2 ((cfg10.slots t 2).cast nbuf10_2)
abbrev ms10_3 (t : Fin cfg10.N) : Memref sig .tc .vmem S1x30x34x512 .bf16 := win10_3.stage (cfg10.slots t 3)
abbrev hs10_3 (t : Fin cfg10.N) : (ms10_3 t).IsWhole := hstage10_3 ((cfg10.slots t 3).cast nbuf10_3)

set_option maxHeartbeats 1000000 in
/-- What the body's stores leave in the output's staging memref, as pieces (last first), with the proof that on
    whole staging memrefs — the inputs' at their contents, the output's at `d3` — the body runs to the continuation
    holding the inputs' as they were and the output's buffer with the pieces written. The pieces are the witness the
    run finds; they name `d3`, which the interior store reads before any store. -/
noncomputable def kernelRun10_A (c : Dev nD) (i : grid10.Coords) (arg2 : Memref sig .tc .vmem S1x30x34x256 .bf16) (harg2 : arg2.IsWhole) (arg3 : Memref sig .tc .vmem S2304x512 .bf16) (harg3 : arg3.IsWhole) (arg4 : Memref sig .tc .vmem S1x512 .f32) (harg4 : arg4.IsWhole) (arg5 : Memref sig .tc .vmem S1x30x34x512 .bf16) (harg5 : arg5.IsWhole)
    (x0 : Vec F S1x30x34x256 .bf16) (x1 : Vec F S2304x512 .bf16) (x2 : Vec F S1x512 .f32) (d3 : Vec F S1x30x34x512 .bf16) :
    { L3 : List (View.Piece (Elt F) S1x30x34x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare d3
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc10_body i arg2 harg2 arg3 harg3 arg4 harg4 arg5 harg5) K } := by
  refine ⟨?_, fun E K => ?run⟩
  case run =>
    simp only [cc10_body_eq_skeleton]; unfold cc10_body_skel
    simp only [k10_part1_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

/-- The run's pieces cover the output block: the bottom row's, the top row's and the interior store's do. -/
theorem cover10_A_3 (c : Dev nD) (i : grid10.Coords) (arg2 : Memref sig .tc .vmem S1x30x34x256 .bf16) (harg2 : arg2.IsWhole) (arg3 : Memref sig .tc .vmem S2304x512 .bf16) (harg3 : arg3.IsWhole) (arg4 : Memref sig .tc .vmem S1x512 .f32) (harg4 : arg4.IsWhole) (arg5 : Memref sig .tc .vmem S1x30x34x512 .bf16) (harg5 : arg5.IsWhole)
    (x0 : Vec F S1x30x34x256 .bf16) (x1 : Vec F S2304x512 .bf16) (x2 : Vec F S1x512 .f32) (d3 : Vec F S1x30x34x512 .bf16) (y : S1x30x34x512.Idx) :
    ∃ pc ∈ (kernelRun10_A c i arg2 harg2 arg3 harg3 arg4 harg4 arg5 harg5 x0 x1 x2 d3).1, y ∈ pc.1.set := by
  unfold kernelRun10_A
  dsimp only
  sl_unfold_run_names
  rcases cover10_geo y with h | h | h
  · exact ⟨_, List.mem_cons_of_mem _ (List.mem_cons_of_mem _ List.mem_cons_self), h⟩
  · exact ⟨_, List.mem_cons_of_mem _ (List.mem_cons_of_mem _ (List.mem_cons_of_mem _ List.mem_cons_self)), h⟩
  · exact ⟨_, List.mem_cons_of_mem _ (List.mem_cons_of_mem _ (List.mem_cons_of_mem _ (List.mem_cons_of_mem _ List.mem_cons_self))), h⟩

set_option maxHeartbeats 1000000 in
/-- The canonical contents of the run's pieces are those of the five plain stores, whatever the output's buffer held
    before: each column store read back what the earlier stores had left, so it counts as the plain store of its
    zeros; the interior store then counts as the plain store of the convolution's result, the elements it wrote back
    unchanged being covered by the column stores. -/
theorem canon_run10 (c : Dev nD) (i : grid10.Coords) (arg2 : Memref sig .tc .vmem S1x30x34x256 .bf16) (harg2 : arg2.IsWhole) (arg3 : Memref sig .tc .vmem S2304x512 .bf16) (harg3 : arg3.IsWhole) (arg4 : Memref sig .tc .vmem S1x512 .f32) (harg4 : arg4.IsWhole) (arg5 : Memref sig .tc .vmem S1x30x34x512 .bf16) (harg5 : arg5.IsWhole)
    (x0 : Vec F S1x30x34x256 .bf16) (x1 : Vec F S2304x512 .bf16) (x2 : Vec F S1x512 .f32) (d3 : Vec F S1x30x34x512 .bf16) :
    View.canon (kernelRun10_A c i arg2 harg2 arg3 harg3 arg4 harg4 arg5 harg5 x0 x1 x2 d3).1 = out10_3 i x0 x1 x2 := by
  have e0 : ∀ r : Rect S1x30x34x256, View.readAt (Elt F) arg2.view r.toLoadRect (harg2.unread x0) = View.ld x0 r :=
    fun r => by rw [View.readAt_eq_ld, harg2.read_unread]
  have e1 : ∀ r : Rect S2304x512, View.readAt (Elt F) arg3.view r.toLoadRect (harg3.unread x1) = View.ld x1 r :=
    fun r => by rw [View.readAt_eq_ld, harg3.read_unread]
  have e2 : ∀ r : Rect S1x512, View.readAt (Elt F) arg4.view r.toLoadRect (harg4.unread x2) = View.ld x2 r :=
    fun r => by rw [View.readAt_eq_ld, harg4.read_unread]
  unfold kernelRun10_A
  dsimp only
  sl_unfold_run_names
  dsimp only
  simp only [e0, e1, e2]
  refine Eq.trans (Cert.LibRmw.canon_append_updateSlice_readCov (s := S1x30x34x512) (e := .bf16) (Val := Elt F) arg5.view []
    ![0, 0, 28, 0] ![0, 0, 29, 0] SWR10.size SCR10.size ![0, 0, 1, 0]
    inb_S1x30x34x512_S1x30x6x512_0_0_28_0 inb_S1x30x34x512_S1x30x5x512_0_0_29_0 (by decide)
    slices_S1x30x6x512_S1x30x5x512_0_0_1_0 _ _) ?_
  refine Eq.trans (Cert.LibRmw.canon_append_updateSlice_readCov (s := S1x30x34x512) (e := .bf16) (Val := Elt F) arg5.view [_]
    ![0, 0, 0, 0] ![0, 0, 0, 0] SWL10.size SCL10.size ![0, 0, 0, 0]
    inb_S1x30x34x512_S1x30x2x512_0_0_0_0 inb_S1x30x34x512_S1x30x1x512_0_0_0_0 (by decide)
    slices_S1x30x2x512_S1x30x1x512_0_0_0_0 _ _) ?_
  refine Eq.trans (Cert.LibRmw.canon_append_updateSlice (s := S1x30x34x512) (e := .bf16) (Val := Elt F) [_, _, _, _]
    ![0, 1, 0, 0] ![0, 1, 1, 0] S1x28x34x512.size S1x28x32x512.size ![0, 0, 1, 0]
    inb_S1x30x34x512_S1x28x34x512_0_1_0_0 inb_S1x30x34x512_S1x28x32x512_0_1_1_0 (by decide)
    slices_S1x28x34x512_S1x28x32x512_0_0_1_0 _ _ [] ?_) ?_
  · intro j hj
    refine Or.inl ?_
    rcases shadow10_geo _ (r10_wi.toLoadRect.idx_mem j) hj with h | h
    · exact ⟨_, List.mem_cons_self, h⟩
    · exact ⟨_, List.mem_cons_of_mem _ List.mem_cons_self, h⟩
  unfold out10_3 conv10
  rfl

/-! ## What the output holds after each point -/

/-- What the output's staging buffer holds after the body at point `t`: the five plain stores' contents at the
    point's input blocks. -/
def outsAt10 (c : Dev nD) (t : Fin cfg10.N) : Vec F S1x30x34x512 .bf16 :=
  out10_3 (grid10.coords t) (iblk10 V c 0 t) (iblk10 V c 1 t) (iblk10 V c 2 t)

/-! ## The pipeline's proof data -/

/-- The proof data of pipeline 10 on core `c`: the arrays as the region finds them; after the body at a point each
    input's buffer at its block and the output's at `outsAt10`; the generator register and the scoped rest as
    invariant; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => (outsAt10 V c t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = (outsAt10 V c t) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (ms10_0 t) fullShare ((dat10 V c).before 0 t d))
    ∗ (∃ d, owns (c : Thread nD τ) (ms10_1 t) fullShare ((dat10 V c).before 1 t d))
    ∗ (∃ d, owns (c : Thread nD τ) (ms10_2 t) fullShare ((dat10 V c).before 2 t d))
    ∗ (∃ d, owns (c : Thread nD τ) (ms10_3 t) fullShare ((dat10 V c).before 3 t d)))

/-- and what it returns. -/
def bodyPost10 (c : Dev nD) (t : Fin cfg10.N) : sProp 𝕄 :=
  iprop((dat10 V c).Φ t.succ ∗ (dat10 V c).owesAt () t.succ
    ∗ owns (c : Thread nD τ) (ms10_0 t) fullShare ((dat10 V c).after 0 t)
    ∗ owns (c : Thread nD τ) (ms10_1 t) fullShare ((dat10 V c).after 1 t)
    ∗ owns (c : Thread nD τ) (ms10_2 t) fullShare ((dat10 V c).after 2 t)
    ∗ owns (c : Thread nD τ) (ms10_3 t) fullShare ((dat10 V c).after 3 t))

/-- The body at any point: the inputs' memrefs hold their blocks, the output's holds something; so the run applies at
    that something; its pieces cover the block and their canonical contents are the five plain stores'; the invariant
    passes through unread; the core owes nothing throughout. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2]
  rw [show (dat10 V c).Φ t.succ = (dat10 V c).Φ t.castSucc from rfl,
    show (dat10 V c).owesAt () t.succ = (dat10 V c).owesAt () t.castSucc from rfl,
    after10_0, after10_1, after10_2, after10_3]
  unfold outsAt10
  iintro ⟨HΦ, Ho, ⟨%d0, H0⟩, ⟨%d1, H1⟩, ⟨%d2, H2⟩, ⟨%d3, H3⟩⟩
  iapply ((kernelRun10_A c (grid10.coords t) _ _ _ _ _ _ _ _ (iblk10 V c 0 t) (iblk10 V c 1 t) (iblk10 V c 2 t) ((dat10 V c).before 3 t d3)).2 Set.univ _)
  isplitl [H0]; · iexact H0
  isplitl [H1]; · iexact H1
  isplitl [H2]; · iexact H2
  isplitl [H3]; · iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro
  exact (View.read_writes_eq_canon _ _ _ (cover10_A_3 c _ _ _ _ _ _ _ _ _ _ _ _ _)).trans (canon_run10 c _ _ _ _ _ _ _ _ _ _ _ _ _)

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.KernelIdeal.Reg

end
-- ==== Proof.KR11.lean ====
/-
  Region 11 of the kernel's @main (a 3x3 convolution with bias and ReLU whose result is stored at offset (1, 1) of
  a larger image, the next layer's padded input, followed by four stores of zeros over the top row, the bottom row,
  the left column and the right columns): the proof data of its pipeline at any entry contents `V`, and the body's
  obligation.

  The interior store and the two column stores write rows that are part of their words: each reads the words it
  touches, replaces a sub-block of them and writes them back. So the pieces the body's run leaves name what the
  output's buffer held before. What the buffer holds after the body does not depend on it: the two column stores
  read back what the earlier stores had left, and every element the interior store wrote back unchanged is
  overwritten by a column store. The buffer ends at the canonical contents of five plain stores — the right
  columns, the left column, the bottom row and the top row at zero, the interior at the convolution's result.
-/
import proofs.«100114_g2000204297211070_pallasbulk_1265_19_alg».proof.Proof.Gen.KernelIdeal.Launch
import proofs.«100114_g2000204297211070_pallasbulk_1265_19_alg».proof.Proof.Gen.KernelIdeal.Skeleton
import proofs.«100114_g2000204297211070_pallasbulk_1265_19_alg».proof.Proof.Gen.KernelIdeal.Points
import proofs.«100114_g2000204297211070_pallasbulk_1265_19_alg».proof.Proof.LibRmw
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles of the body's loads and stores -/

/-- The shapes of the left column and of the right columns the body zeroes, and of the words each column store
    writes back. -/
abbrev SCL11 : Shape := S1x30x1x512
abbrev SCR11 : Shape := S1x30x5x512
abbrev SWL11 : Shape := S1x30x2x512
abbrev SWR11 : Shape := S1x30x6x512

/-- The three loads of the padded input, one per column shift, -/
abbrev r11_t1 (i : grid11.Coords) : Rect S1x30x34x512 := Rect.unit (s := S1x30x34x512) (k11_off1 i) S1x30x32x512.size (k11_off1_inb i)
abbrev r11_t2 (i : grid11.Coords) : Rect S1x30x34x512 := Rect.unit (s := S1x30x34x512) (k11_off2 i) S1x30x32x512.size (k11_off2_inb i)
abbrev r11_t3 (i : grid11.Coords) : Rect S1x30x34x512 := Rect.unit (s := S1x30x34x512) (k11_off3 i) S1x30x32x512.size (k11_off3_inb i)
/-- the weights and the bias, whole; -/
abbrev r11_w : Rect S4608x512 := Rect.unit (s := S4608x512) ![0, 0] S4608x512.size inb_S4608x512_S4608x512_0_0
abbrev r11_b : Rect S1x512 := Rect.unit (s := S1x512) ![0, 0] S1x512.size inb_S1x512_S1x512_0_0
/-- the words the interior store writes back (the interior's rows, every column) and the interior itself; -/
abbrev r11_wi : Rect S1x30x34x512 := Rect.unit (s := S1x30x34x512) ![0, 1, 0, 0] S1x28x34x512.size inb_S1x30x34x512_S1x28x34x512_0_1_0_0
abbrev r11_in : Rect S1x30x34x512 := Rect.unit (s := S1x30x34x512) ![0, 1, 1, 0] S1x28x32x512.size inb_S1x30x34x512_S1x28x32x512_0_1_1_0
/-- the top and the bottom row; -/
abbrev r11_rt : Rect S1x30x34x512 := Rect.unit (s := S1x30x34x512) ![0, 0, 0, 0] S1x1x34x512.size inb_S1x30x34x512_S1x1x34x512_0_0_0_0
abbrev r11_rb : Rect S1x30x34x512 := Rect.unit (s := S1x30x34x512) ![0, 29, 0, 0] S1x1x34x512.size inb_S1x30x34x512_S1x1x34x512_0_29_0_0
/-- the left column and the right columns. -/
abbrev r11_cl : Rect S1x30x34x512 := Rect.unit (s := S1x30x34x512) ![0, 0, 0, 0] SCL11.size inb_S1x30x34x512_S1x30x1x512_0_0_0_0
abbrev r11_cr : Rect S1x30x34x512 := Rect.unit (s := S1x30x34x512) ![0, 0, 29, 0] SCR11.size inb_S1x30x34x512_S1x30x5x512_0_0_29_0

set_option synthInstance.maxSize 1024 in
/-- Every element of the output block lies in the bottom row, the top row or the interior's rows. -/
theorem cover11_geo (y : S1x30x34x512.Idx) : y ∈ r11_rb.set ∨ y ∈ r11_rt.set ∨ y ∈ r11_wi.set := by
  have h1 : (y 1).val < S1x30x34x512.size 1 := (y 1).isLt
  have h2 : (y 2).val < S1x30x34x512.size 2 := (y 2).isLt
  rw [Cert.LibRmw.mem_unit4_hw, Cert.LibRmw.mem_unit4_hw, Cert.LibRmw.mem_unit4_hw]
  · revert h2; generalize (y 2).val = n2; revert n2
    revert h1; generalize (y 1).val = n1; revert n1
    decide +kernel
  all_goals decide

set_option synthInstance.maxSize 1024 in
/-- An element of the interior's rows outside the interior lies in the right columns or in the left column. -/
theorem shadow11_geo (y : S1x30x34x512.Idx) : y ∈ r11_wi.set → y ∉ r11_in.set → y ∈ r11_cr.set ∨ y ∈ r11_cl.set := by
  have h1 : (y 1).val < S1x30x34x512.size 1 := (y 1).isLt
  have h2 : (y 2).val < S1x30x34x512.size 2 := (y 2).isLt
  rw [Cert.LibRmw.mem_unit4_hw, Cert.LibRmw.mem_unit4_hw, Cert.LibRmw.mem_unit4_hw, Cert.LibRmw.mem_unit4_hw]
  · revert h2; generalize (y 2).val = n2; revert n2
    revert h1; generalize (y 1).val = n1; revert n1
    decide +kernel
  all_goals decide

/-! ## What the body leaves in the output's buffer -/

/-- The convolution's result, from the three input blocks: the interior store's sub-block. -/
def conv11 (i : grid11.Coords) (x0 : Vec F S1x30x34x512 .bf16) (x1 : Vec F S4608x512 .bf16) (x2 : Vec F S1x512 .f32) : FVec F S1x28x32x512 .bf16 :=
  k11_pay5 (View.ld x0 (r11_t1 i)) (View.ld x0 (r11_t2 i)) (View.ld x0 (r11_t3 i)) (View.ld x1 r11_w) (View.ld x2 r11_b)

/-- The output's staging buffer after the body: the right columns, the left column, the bottom row and the top row
    at the zeros the body stores there, the interior at the convolution's result (last store first). -/
def out11_3 (i : grid11.Coords) (x0 : Vec F S1x30x34x512 .bf16) (x1 : Vec F S4608x512 .bf16) (x2 : Vec F S1x512 .f32) : Vec F S1x30x34x512 .bf16 :=
  View.canon [⟨r11_cr, k11_pay4 (F := F)⟩, ⟨r11_cl, k11_pay3 (F := F)⟩, ⟨r11_rb, k11_pay2 (F := F)⟩, ⟨r11_rt, k11_pay1 (k11_pay6 (F := F))⟩, ⟨r11_in, conv11 i x0 x1 x2⟩]

variable (V : (c : Dev nD) → (b : Ref sig .tc) → Buf (Elt F) ((c : Thread nD τ).loc b))

/-! ## The windows' blocks -/

/-- Window `w`'s block at point `t`, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Each input window's staging buffer holds its block at every point, for any proof data over `V`'s array whose
    body leaves the block in place. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-! ## The kernel body on any staging memrefs -/

/-- Each window's current staging memref at point `t`, spelled as the pipeline passes it, and its wholeness. -/
abbrev ms11_0 (t : Fin cfg11.N) : Memref sig .tc .vmem S1x30x34x512 .bf16 := win11_0.stage (cfg11.slots t 0)
abbrev hs11_0 (t : Fin cfg11.N) : (ms11_0 t).IsWhole := hstage11_0 ((cfg11.slots t 0).cast nbuf11_0)
abbrev ms11_1 (t : Fin cfg11.N) : Memref sig .tc .vmem S4608x512 .bf16 := win11_1.stage (cfg11.slots t 1)
abbrev hs11_1 (t : Fin cfg11.N) : (ms11_1 t).IsWhole := hstage11_1 ((cfg11.slots t 1).cast nbuf11_1)
abbrev ms11_2 (t : Fin cfg11.N) : Memref sig .tc .vmem S1x512 .f32 := win11_2.stage (cfg11.slots t 2)
abbrev hs11_2 (t : Fin cfg11.N) : (ms11_2 t).IsWhole := hstage11_2 ((cfg11.slots t 2).cast nbuf11_2)
abbrev ms11_3 (t : Fin cfg11.N) : Memref sig .tc .vmem S1x30x34x512 .bf16 := win11_3.stage (cfg11.slots t 3)
abbrev hs11_3 (t : Fin cfg11.N) : (ms11_3 t).IsWhole := hstage11_3 ((cfg11.slots t 3).cast nbuf11_3)

set_option maxHeartbeats 1000000 in
/-- What the body's stores leave in the output's staging memref, as pieces (last first), with the proof that on
    whole staging memrefs — the inputs' at their contents, the output's at `d3` — the body runs to the continuation
    holding the inputs' as they were and the output's buffer with the pieces written. The pieces are the witness the
    run finds; they name `d3`, which the interior store reads before any store. -/
noncomputable def kernelRun11_A (c : Dev nD) (i : grid11.Coords) (arg2 : Memref sig .tc .vmem S1x30x34x512 .bf16) (harg2 : arg2.IsWhole) (arg3 : Memref sig .tc .vmem S4608x512 .bf16) (harg3 : arg3.IsWhole) (arg4 : Memref sig .tc .vmem S1x512 .f32) (harg4 : arg4.IsWhole) (arg5 : Memref sig .tc .vmem S1x30x34x512 .bf16) (harg5 : arg5.IsWhole)
    (x0 : Vec F S1x30x34x512 .bf16) (x1 : Vec F S4608x512 .bf16) (x2 : Vec F S1x512 .f32) (d3 : Vec F S1x30x34x512 .bf16) :
    { L3 : List (View.Piece (Elt F) S1x30x34x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare d3
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc11_body i arg2 harg2 arg3 harg3 arg4 harg4 arg5 harg5) K } := by
  refine ⟨?_, fun E K => ?run⟩
  case run =>
    simp only [cc11_body_eq_skeleton]; unfold cc11_body_skel
    simp only [k11_part1_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

/-- The run's pieces cover the output block: the bottom row's, the top row's and the interior store's do. -/
theorem cover11_A_3 (c : Dev nD) (i : grid11.Coords) (arg2 : Memref sig .tc .vmem S1x30x34x512 .bf16) (harg2 : arg2.IsWhole) (arg3 : Memref sig .tc .vmem S4608x512 .bf16) (harg3 : arg3.IsWhole) (arg4 : Memref sig .tc .vmem S1x512 .f32) (harg4 : arg4.IsWhole) (arg5 : Memref sig .tc .vmem S1x30x34x512 .bf16) (harg5 : arg5.IsWhole)
    (x0 : Vec F S1x30x34x512 .bf16) (x1 : Vec F S4608x512 .bf16) (x2 : Vec F S1x512 .f32) (d3 : Vec F S1x30x34x512 .bf16) (y : S1x30x34x512.Idx) :
    ∃ pc ∈ (kernelRun11_A c i arg2 harg2 arg3 harg3 arg4 harg4 arg5 harg5 x0 x1 x2 d3).1, y ∈ pc.1.set := by
  unfold kernelRun11_A
  dsimp only
  sl_unfold_run_names
  rcases cover11_geo y with h | h | h
  · exact ⟨_, List.mem_cons_of_mem _ (List.mem_cons_of_mem _ List.mem_cons_self), h⟩
  · exact ⟨_, List.mem_cons_of_mem _ (List.mem_cons_of_mem _ (List.mem_cons_of_mem _ List.mem_cons_self)), h⟩
  · exact ⟨_, List.mem_cons_of_mem _ (List.mem_cons_of_mem _ (List.mem_cons_of_mem _ (List.mem_cons_of_mem _ List.mem_cons_self))), h⟩

set_option maxHeartbeats 1000000 in
/-- The canonical contents of the run's pieces are those of the five plain stores, whatever the output's buffer held
    before: each column store read back what the earlier stores had left, so it counts as the plain store of its
    zeros; the interior store then counts as the plain store of the convolution's result, the elements it wrote back
    unchanged being covered by the column stores. -/
theorem canon_run11 (c : Dev nD) (i : grid11.Coords) (arg2 : Memref sig .tc .vmem S1x30x34x512 .bf16) (harg2 : arg2.IsWhole) (arg3 : Memref sig .tc .vmem S4608x512 .bf16) (harg3 : arg3.IsWhole) (arg4 : Memref sig .tc .vmem S1x512 .f32) (harg4 : arg4.IsWhole) (arg5 : Memref sig .tc .vmem S1x30x34x512 .bf16) (harg5 : arg5.IsWhole)
    (x0 : Vec F S1x30x34x512 .bf16) (x1 : Vec F S4608x512 .bf16) (x2 : Vec F S1x512 .f32) (d3 : Vec F S1x30x34x512 .bf16) :
    View.canon (kernelRun11_A c i arg2 harg2 arg3 harg3 arg4 harg4 arg5 harg5 x0 x1 x2 d3).1 = out11_3 i x0 x1 x2 := by
  have e0 : ∀ r : Rect S1x30x34x512, View.readAt (Elt F) arg2.view r.toLoadRect (harg2.unread x0) = View.ld x0 r :=
    fun r => by rw [View.readAt_eq_ld, harg2.read_unread]
  have e1 : ∀ r : Rect S4608x512, View.readAt (Elt F) arg3.view r.toLoadRect (harg3.unread x1) = View.ld x1 r :=
    fun r => by rw [View.readAt_eq_ld, harg3.read_unread]
  have e2 : ∀ r : Rect S1x512, View.readAt (Elt F) arg4.view r.toLoadRect (harg4.unread x2) = View.ld x2 r :=
    fun r => by rw [View.readAt_eq_ld, harg4.read_unread]
  unfold kernelRun11_A
  dsimp only
  sl_unfold_run_names
  dsimp only
  simp only [e0, e1, e2]
  refine Eq.trans (Cert.LibRmw.canon_append_updateSlice_readCov (s := S1x30x34x512) (e := .bf16) (Val := Elt F) arg5.view []
    ![0, 0, 28, 0] ![0, 0, 29, 0] SWR11.size SCR11.size ![0, 0, 1, 0]
    inb_S1x30x34x512_S1x30x6x512_0_0_28_0 inb_S1x30x34x512_S1x30x5x512_0_0_29_0 (by decide)
    slices_S1x30x6x512_S1x30x5x512_0_0_1_0 _ _) ?_
  refine Eq.trans (Cert.LibRmw.canon_append_updateSlice_readCov (s := S1x30x34x512) (e := .bf16) (Val := Elt F) arg5.view [_]
    ![0, 0, 0, 0] ![0, 0, 0, 0] SWL11.size SCL11.size ![0, 0, 0, 0]
    inb_S1x30x34x512_S1x30x2x512_0_0_0_0 inb_S1x30x34x512_S1x30x1x512_0_0_0_0 (by decide)
    slices_S1x30x2x512_S1x30x1x512_0_0_0_0 _ _) ?_
  refine Eq.trans (Cert.LibRmw.canon_append_updateSlice (s := S1x30x34x512) (e := .bf16) (Val := Elt F) [_, _, _, _]
    ![0, 1, 0, 0] ![0, 1, 1, 0] S1x28x34x512.size S1x28x32x512.size ![0, 0, 1, 0]
    inb_S1x30x34x512_S1x28x34x512_0_1_0_0 inb_S1x30x34x512_S1x28x32x512_0_1_1_0 (by decide)
    slices_S1x28x34x512_S1x28x32x512_0_0_1_0 _ _ [] ?_) ?_
  · intro j hj
    refine Or.inl ?_
    rcases shadow11_geo _ (r11_wi.toLoadRect.idx_mem j) hj with h | h
    · exact ⟨_, List.mem_cons_self, h⟩
    · exact ⟨_, List.mem_cons_of_mem _ List.mem_cons_self, h⟩
  unfold out11_3 conv11
  rfl

/-! ## What the output holds after each point -/

/-- What the output's staging buffer holds after the body at point `t`: the five plain stores' contents at the
    point's input blocks. -/
def outsAt11 (c : Dev nD) (t : Fin cfg11.N) : Vec F S1x30x34x512 .bf16 :=
  out11_3 (grid11.coords t) (iblk11 V c 0 t) (iblk11 V c 1 t) (iblk11 V c 2 t)

/-! ## The pipeline's proof data -/

/-- The proof data of pipeline 11 on core `c`: the arrays as the region finds them; after the body at a point each
    input's buffer at its block and the output's at `outsAt11`; the generator register and the scoped rest as
    invariant; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => (outsAt11 V c t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = (outsAt11 V c t) := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d

/-! ## The body obligation, at a generic point -/

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (ms11_0 t) fullShare ((dat11 V c).before 0 t d))
    ∗ (∃ d, owns (c : Thread nD τ) (ms11_1 t) fullShare ((dat11 V c).before 1 t d))
    ∗ (∃ d, owns (c : Thread nD τ) (ms11_2 t) fullShare ((dat11 V c).before 2 t d))
    ∗ (∃ d, owns (c : Thread nD τ) (ms11_3 t) fullShare ((dat11 V c).before 3 t d)))

/-- and what it returns. -/
def bodyPost11 (c : Dev nD) (t : Fin cfg11.N) : sProp 𝕄 :=
  iprop((dat11 V c).Φ t.succ ∗ (dat11 V c).owesAt () t.succ
    ∗ owns (c : Thread nD τ) (ms11_0 t) fullShare ((dat11 V c).after 0 t)
    ∗ owns (c : Thread nD τ) (ms11_1 t) fullShare ((dat11 V c).after 1 t)
    ∗ owns (c : Thread nD τ) (ms11_2 t) fullShare ((dat11 V c).after 2 t)
    ∗ owns (c : Thread nD τ) (ms11_3 t) fullShare ((dat11 V c).after 3 t))

/-- The body at any point: the inputs' memrefs hold their blocks, the output's holds something; so the run applies at
    that something; its pieces cover the block and their canonical contents are the five plain stores'; the invariant
    passes through unread; the core owes nothing throughout. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2]
  rw [show (dat11 V c).Φ t.succ = (dat11 V c).Φ t.castSucc from rfl,
    show (dat11 V c).owesAt () t.succ = (dat11 V c).owesAt () t.castSucc from rfl,
    after11_0, after11_1, after11_2, after11_3]
  unfold outsAt11
  iintro ⟨HΦ, Ho, ⟨%d0, H0⟩, ⟨%d1, H1⟩, ⟨%d2, H2⟩, ⟨%d3, H3⟩⟩
  iapply ((kernelRun11_A c (grid11.coords t) _ _ _ _ _ _ _ _ (iblk11 V c 0 t) (iblk11 V c 1 t) (iblk11 V c 2 t) ((dat11 V c).before 3 t d3)).2 Set.univ _)
  isplitl [H0]; · iexact H0
  isplitl [H1]; · iexact H1
  isplitl [H2]; · iexact H2
  isplitl [H3]; · iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro
  exact (View.read_writes_eq_canon _ _ _ (cover11_A_3 c _ _ _ _ _ _ _ _ _ _ _ _ _)).trans (canon_run11 c _ _ _ _ _ _ _ _ _ _ _ _ _)

/-- The library's body obligation, at every point. -/
theorem body_obligation11 (c : Dev nD) : BodyObligation (dat11 (F := F) V c) (defs₀ (F := F)) Variants.none () Set.univ := fun t => by
  rw [bigSep_W11, bigSep_W11]
  exact sound_body11 V c t

end Cert.KernelIdeal.Reg

end
-- ==== Proof.KR12.lean ====
/-
  Region 12 of the kernel's @main (a 3x3 convolution as one matrix product over nine lane-concatenated taps, with bias,
  ReLU and the row-pair maximum of a 2x2 pooling fused, on a block whose width is padded to whole tiles): the proof data
  of its pipeline at any entry contents `V`, and the body's obligation. The body loads three column-shifted windows of
  its input block through rectangles whose row offset is computed from the grid position, loads the weights and the
  bias whole, stores the result whole and then stores zeros over the strip of padding columns; so after the body at a
  point the output's staging buffer holds those two stores' payloads, the strip's over the whole block's, read back
  over anything (the whole-block store alone already covers the block).
-/
import proofs.«100114_g2000204297211070_pallasbulk_1265_19_alg».proof.Proof.Gen.KernelIdeal.Launch
import proofs.«100114_g2000204297211070_pallasbulk_1265_19_alg».proof.Proof.Gen.KernelIdeal.Skeleton
import proofs.«100114_g2000204297211070_pallasbulk_1265_19_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- Input window 0's staging buffer holds its block at every point, fetched there or not, for any proof data over
    `V`'s array whose body leaves the block in place. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)
/-- Input window 1's staging buffer holds its block at every point, fetched there or not, for any proof data over
    `V`'s array whose body leaves the block in place. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)
/-- Input window 2's staging buffer holds its block at every point, fetched there or not, for any proof data over
    `V`'s array whose body leaves the block in place. -/
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

/-- One staging buffer of the output window, through which its contents are stated (the choice does not matter). -/
abbrev VO12_3 : View sig .tc .vmem S1x14x32x512 .bf16 := (Memref.whole cc12_stg3_0 : Memref sig .tc .vmem S1x14x32x512 .bf16).view
/-- Each window's current staging memref at point `t`, spelled as the pipeline passes it, and its wholeness. -/
abbrev ms12_0 (t : Fin cfg12.N) : Memref sig .tc .vmem S1x30x34x512 .bf16 := win12_0.stage (cfg12.slots t 0)
abbrev hs12_0 (t : Fin cfg12.N) : (ms12_0 t).IsWhole := hstage12_0 ((cfg12.slots t 0).cast nbuf12_0)
abbrev ms12_1 (t : Fin cfg12.N) : Memref sig .tc .vmem S4608x512 .bf16 := win12_1.stage (cfg12.slots t 1)
abbrev hs12_1 (t : Fin cfg12.N) : (ms12_1 t).IsWhole := hstage12_1 ((cfg12.slots t 1).cast nbuf12_1)
abbrev ms12_2 (t : Fin cfg12.N) : Memref sig .tc .vmem S1x512 .f32 := win12_2.stage (cfg12.slots t 2)
abbrev hs12_2 (t : Fin cfg12.N) : (ms12_2 t).IsWhole := hstage12_2 ((cfg12.slots t 2).cast nbuf12_2)
abbrev ms12_3 (t : Fin cfg12.N) : Memref sig .tc .vmem S1x14x32x512 .bf16 := win12_3.stage (cfg12.slots t 3)
abbrev hs12_3 (t : Fin cfg12.N) : (ms12_3 t).IsWhole := hstage12_3 ((cfg12.slots t 3).cast nbuf12_3)

set_option maxHeartbeats 1000000 in
/-- What the body's stores leave in the output's staging memref, as pieces (last first), with the proof that on whole
    staging memrefs, the inputs' at their contents and the output's at anything, the body runs to the continuation
    holding the inputs' as they were and the output's buffer with the pieces written. The pieces are the witness the
    symbolic run of the body finds. -/
noncomputable def kernelRun12_A (c : Dev nD) (i : grid12.Coords) (arg2 : Memref sig .tc .vmem S1x30x34x512 .bf16) (harg2 : arg2.IsWhole) (arg3 : Memref sig .tc .vmem S4608x512 .bf16) (harg3 : arg3.IsWhole) (arg4 : Memref sig .tc .vmem S1x512 .f32) (harg4 : arg4.IsWhole) (arg5 : Memref sig .tc .vmem S1x14x32x512 .bf16) (harg5 : arg5.IsWhole)
    (x0 : Vec F S1x30x34x512 .bf16) (x1 : Vec F S4608x512 .bf16) (x2 : Vec F S1x512 .f32) :
    { L3 : List (View.Piece (Elt F) S1x14x32x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc12_body i arg2 harg2 arg3 harg3 arg4 harg4 arg5 harg5) K } := by
  refine ⟨?_, fun E K => ?run⟩
  case run =>
    simp only [cc12_body_eq_skeleton]; unfold cc12_body_skel
    simp only [k12_part1_eq_skeleton]
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

/-- Among the run's pieces for the output the whole-block store tiles the block by itself (the strip, of another
    size, is passed over), so the pieces cover it. -/
theorem cover12_A_3 (c : Dev nD) (i : grid12.Coords) (arg2 : Memref sig .tc .vmem S1x30x34x512 .bf16) (harg2 : arg2.IsWhole) (arg3 : Memref sig .tc .vmem S4608x512 .bf16) (harg3 : arg3.IsWhole) (arg4 : Memref sig .tc .vmem S1x512 .f32) (harg4 : arg4.IsWhole) (arg5 : Memref sig .tc .vmem S1x14x32x512 .bf16) (harg5 : arg5.IsWhole)
    (x0 : Vec F S1x30x34x512 .bf16) (x1 : Vec F S4608x512 .bf16) (x2 : Vec F S1x512 .f32) (y : S1x14x32x512.Idx) :
    ∃ pc ∈ (kernelRun12_A c i arg2 harg2 arg3 harg3 arg4 harg4 arg5 harg5 x0 x1 x2).1, y ∈ pc.1.set :=
  View.cover_of_tiledL (kernelRun12_A c i arg2 harg2 arg3 harg3 arg4 harg4 arg5 harg5 x0 x1 x2).1 S1x14x32x512.size (by sl_kernel_rfl) y

/-- What the run leaves in the output's staging buffer: its pieces read back over junk. -/
def out12_A_3 (c : Dev nD) (i : grid12.Coords) (arg2 : Memref sig .tc .vmem S1x30x34x512 .bf16) (harg2 : arg2.IsWhole) (arg3 : Memref sig .tc .vmem S4608x512 .bf16) (harg3 : arg3.IsWhole) (arg4 : Memref sig .tc .vmem S1x512 .f32) (harg4 : arg4.IsWhole) (arg5 : Memref sig .tc .vmem S1x14x32x512 .bf16) (harg5 : arg5.IsWhole)
    (x0 : Vec F S1x30x34x512 .bf16) (x1 : Vec F S4608x512 .bf16) (x2 : Vec F S1x512 .f32) : Vec F S1x14x32x512 .bf16 :=
  VO12_3.read (Elt F) (VO12_3.writes (Elt F) VO12_3.junk (kernelRun12_A c i arg2 harg2 arg3 harg3 arg4 harg4 arg5 harg5 x0 x1 x2).1)

/-- What the output's staging buffer holds after the body at point `t`: the run's contents at the point's memrefs
    and input blocks. -/
def outsAt12 (c : Dev nD) (t : Fin cfg12.N) : Vec F S1x14x32x512 .bf16 :=
  out12_A_3 c (grid12.coords t) (ms12_0 t) (hs12_0 t) (ms12_1 t) (hs12_1 t) (ms12_2 t) (hs12_2 t) (ms12_3 t) (hs12_3 t) (iblk12 V c 0 t) (iblk12 V c 1 t) (iblk12 V c 2 t)

/-- The proof data of pipeline 12 on core `c`: the arrays as the region finds them; after the body at a point each
    input's buffer at its block and the output's at `outsAt12`; the generator register and the scoped rest as
    invariant; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => (outsAt12 V c t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = (outsAt12 V c t) := by dsimp only [dat12]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d

/-- What the body is called with at point `t`, the windows one by one, -/
def bodyPre12 (c : Dev nD) (t : Fin cfg12.N) : sProp 𝕄 :=
  iprop((dat12 V c).Φ t.castSucc ∗ (dat12 V c).owesAt () t.castSucc
    ∗ (∃ d, owns (c : Thread nD τ) (ms12_0 t) fullShare ((dat12 V c).before 0 t d))
    ∗ (∃ d, owns (c : Thread nD τ) (ms12_1 t) fullShare ((dat12 V c).before 1 t d))
    ∗ (∃ d, owns (c : Thread nD τ) (ms12_2 t) fullShare ((dat12 V c).before 2 t d))
    ∗ (∃ d, owns (c : Thread nD τ) (ms12_3 t) fullShare ((dat12 V c).before 3 t d)))

/-- and what it returns. -/
def bodyPost12 (c : Dev nD) (t : Fin cfg12.N) : sProp 𝕄 :=
  iprop((dat12 V c).Φ t.succ ∗ (dat12 V c).owesAt () t.succ
    ∗ owns (c : Thread nD τ) (ms12_0 t) fullShare ((dat12 V c).after 0 t)
    ∗ owns (c : Thread nD τ) (ms12_1 t) fullShare ((dat12 V c).after 1 t)
    ∗ owns (c : Thread nD τ) (ms12_2 t) fullShare ((dat12 V c).after 2 t)
    ∗ owns (c : Thread nD τ) (ms12_3 t) fullShare ((dat12 V c).after 3 t))

/-- The body at any point: the inputs' memrefs hold their blocks, so the run applies; the invariant passes through
    unread; the core owes nothing throughout. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2]
  rw [show (dat12 V c).Φ t.succ = (dat12 V c).Φ t.castSucc from rfl,
    show (dat12 V c).owesAt () t.succ = (dat12 V c).owesAt () t.castSucc from rfl,
    after12_0, after12_1, after12_2, after12_3]
  unfold outsAt12
  unfold out12_A_3
  iintro ⟨HΦ, Ho, ⟨%d0, H0⟩, ⟨%d1, H1⟩, ⟨%d2, H2⟩, ⟨%d3, H3⟩⟩
  iapply ((kernelRun12_A c (grid12.coords t) _ _ _ _ _ _ _ _ (iblk12 V c 0 t) (iblk12 V c 1 t) (iblk12 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover12_A_3 c _ _ _ _ _ _ _ _ _ _ _ _)

theorem body_obligation12 (c : Dev nD) : BodyObligation (dat12 (F := F) V c) (defs₀ (F := F)) Variants.none () Set.univ := fun t => by
  rw [bigSep_W12, bigSep_W12]
  exact sound_body12 V c t

end Cert.KernelIdeal.Reg

end
-- ==== Proof.KR13.lean ====
/-
  Region 13 of the kernel's @main (the lane-half maximum that finishes a 2x2 pooling): the proof data of its
  pipeline at any entry contents `V`, and the body's obligation. The body loads its one input block whole, takes the
  pointwise maximum of the block's two lane halves and stores the result whole; so after the body at a point the
  output's staging buffer holds that one store's payload of the input block.
-/
import proofs.«100114_g2000204297211070_pallasbulk_1265_19_alg».proof.Proof.Gen.KernelIdeal.Launch
import proofs.«100114_g2000204297211070_pallasbulk_1265_19_alg».proof.Proof.Gen.KernelIdeal.Skeleton
import proofs.«100114_g2000204297211070_pallasbulk_1265_19_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- The input window's staging buffer holds its block at every point, for any proof data over `V`'s array whose
    body leaves the block in place. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

abbrev r13_0 : Rect S1x14x16x1024 := Rect.unit (s := S1x14x16x1024) ![0, 0, 0, 0] S1x14x16x1024.size inb_S1x14x16x1024_S1x14x16x1024_0_0_0_0
abbrev r13_1 : Rect S1x14x16x512 := Rect.unit (s := S1x14x16x512) ![0, 0, 0, 0] S1x14x16x512.size inb_S1x14x16x512_S1x14x16x512_0_0_0_0

/-- The output's staging buffer after the body: the one whole store of the payload of the loaded input block. -/
def out13_1 (x0 : Vec F S1x14x16x1024 .bf16) : Vec F S1x14x16x512 .bf16 :=
  View.canon [⟨r13_1, k13_pay1 (View.ld x0 r13_0)⟩]

theorem cover13_1 (p0 : Vec F S1x14x16x512 .bf16) (y : S1x14x16x512.Idx) :
    ∃ pc ∈ ([⟨r13_1, p0⟩] : List (View.Piece (Elt F) S1x14x16x512 .bf16)), y ∈ pc.1.set :=
  View.cover_of_tiled [⟨r13_1, p0⟩] S1x14x16x512.size (by rfl) y

set_option maxHeartbeats 1000000 in
/-- The body on whole staging memrefs, the input's at `x0` and the output's at anything, runs to the continuation
    with the input's as it was and the output's at `out13_1 x0`. -/
theorem sound_kernel13 (c : Dev nD) (E : Set ℕ) (i : grid13.Coords) (arg1 : Memref sig .tc .vmem S1x14x16x1024 .bf16) (harg1 : arg1.IsWhole) (arg2 : Memref sig .tc .vmem S1x14x16x512 .bf16) (harg2 : arg2.IsWhole)
    (x0 : Vec F S1x14x16x1024 .bf16) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out13_1 x0)) -∗ K ⟨⟩))
      ⊢ wp frame (wpE (defs₀ (F := F)) Variants.none c none) E (cc13__wpool_kernel i arg1 harg1 arg2 harg2) K := by
  simp only [cc13__wpool_kernel_eq_skeleton]; unfold cc13__wpool_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover13_1 _)

/-- The proof data of pipeline 13 on core `c`: the arrays as the region finds them; after the body at a point the
    input's buffer at its block and the output's at `out13_1` of it; the generator register and the scoped rest as
    invariant; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => out13_1 (iblk13 V c 0 t)
  Φ _ := Pipeline.ΦA spec13 c
  q _ := fullShare
  owed _ := 0

theorem A_eq13 (c : Dev nD) (w : Fin cfg13.W) : (dat13 V c).A w = V c (Pipeline.arrRef spec13 w) := by
  dsimp only [dat13]

theorem after13_0 (c : Dev nD) (t : Fin cfg13.N) : (dat13 V c).after 0 t = iblk13 V c 0 t := by dsimp only [dat13]
theorem after13_1 (c : Dev nD) (t : Fin cfg13.N) : (dat13 V c).after 1 t = out13_1 (iblk13 V c 0 t) := by dsimp only [dat13]

theorem before13_0 (c : Dev nD) (t : Fin cfg13.N) (d) : (dat13 V c).before 0 t d = iblk13 V c 0 t :=
  before13_0_of V (dat13 V c) (A_eq13 V c 0) (after13_0 V c) t d

def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d)))

def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t))

theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0]
  rw [show (dat13 V c).Φ t.succ = (dat13 V c).Φ t.castSucc from rfl,
    show (dat13 V c).owesAt () t.succ = (dat13 V c).owesAt () t.castSucc from rfl,
    after13_0, after13_1]
  iintro ⟨HΦ, Ho, ⟨%d0, H0⟩, ⟨%d1, H1⟩⟩
  iapply (sound_kernel13 c Set.univ (grid13.coords t) _ _ _ _ (iblk13 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation13 (c : Dev nD) : BodyObligation (dat13 (F := F) V c) (defs₀ (F := F)) Variants.none () Set.univ := fun t => by
  rw [bigSep_W13, bigSep_W13]
  exact sound_body13 V c t

end Cert.KernelIdeal.Reg

end
-- ==== Proof.KR14.lean ====
/-
  Region 14 of the kernel's @main (a 3x3 convolution with bias and ReLU whose result is stored at offset (1, 1) of
  a larger image, the next layer's padded input, followed by four stores of zeros over the top row, the bottom row,
  the left column and the right columns): the proof data of its pipeline at any entry contents `V`, and the body's
  obligation.

  The interior store and the two column stores write rows that are part of their words: each reads the words it
  touches, replaces a sub-block of them and writes them back. So the pieces the body's run leaves name what the
  output's buffer held before. What the buffer holds after the body does not depend on it: the two column stores
  read back what the earlier stores had left, and every element the interior store wrote back unchanged is
  overwritten by a column store. The buffer ends at the canonical contents of five plain stores — the right
  columns, the left column, the bottom row and the top row at zero, the interior at the convolution's result.
-/
import proofs.«100114_g2000204297211070_pallasbulk_1265_19_alg».proof.Proof.Gen.KernelIdeal.Launch
import proofs.«100114_g2000204297211070_pallasbulk_1265_19_alg».proof.Proof.Gen.KernelIdeal.Skeleton
import proofs.«100114_g2000204297211070_pallasbulk_1265_19_alg».proof.Proof.Gen.KernelIdeal.Points
import proofs.«100114_g2000204297211070_pallasbulk_1265_19_alg».proof.Proof.LibRmw
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles of the body's loads and stores -/

/-- The shapes of the left column and of the right columns the body zeroes, and of the words each column store
    writes back. -/
abbrev SCL14 : Shape := S1x16x1x512
abbrev SCR14 : Shape := S1x16x3x512
abbrev SWL14 : Shape := S1x16x2x512
abbrev SWR14 : Shape := S1x16x4x512

/-- The three loads of the padded input, one per column shift, -/
abbrev r14_t1 (i : grid14.Coords) : Rect S1x16x18x512 := Rect.unit (s := S1x16x18x512) (k14_off1 i) S1x16x16x512.size (k14_off1_inb i)
abbrev r14_t2 (i : grid14.Coords) : Rect S1x16x18x512 := Rect.unit (s := S1x16x18x512) (k14_off2 i) S1x16x16x512.size (k14_off2_inb i)
abbrev r14_t3 (i : grid14.Coords) : Rect S1x16x18x512 := Rect.unit (s := S1x16x18x512) (k14_off3 i) S1x16x16x512.size (k14_off3_inb i)
/-- the weights and the bias, whole; -/
abbrev r14_w : Rect S4608x512 := Rect.unit (s := S4608x512) ![0, 0] S4608x512.size inb_S4608x512_S4608x512_0_0
abbrev r14_b : Rect S1x512 := Rect.unit (s := S1x512) ![0, 0] S1x512.size inb_S1x512_S1x512_0_0
/-- the words the interior store writes back (the interior's rows, every column) and the interior itself; -/
abbrev r14_wi : Rect S1x16x18x512 := Rect.unit (s := S1x16x18x512) ![0, 1, 0, 0] S1x14x18x512.size inb_S1x16x18x512_S1x14x18x512_0_1_0_0
abbrev r14_in : Rect S1x16x18x512 := Rect.unit (s := S1x16x18x512) ![0, 1, 1, 0] S1x14x16x512.size inb_S1x16x18x512_S1x14x16x512_0_1_1_0
/-- the top and the bottom row; -/
abbrev r14_rt : Rect S1x16x18x512 := Rect.unit (s := S1x16x18x512) ![0, 0, 0, 0] S1x1x18x512.size inb_S1x16x18x512_S1x1x18x512_0_0_0_0
abbrev r14_rb : Rect S1x16x18x512 := Rect.unit (s := S1x16x18x512) ![0, 15, 0, 0] S1x1x18x512.size inb_S1x16x18x512_S1x1x18x512_0_15_0_0
/-- the left column and the right columns. -/
abbrev r14_cl : Rect S1x16x18x512 := Rect.unit (s := S1x16x18x512) ![0, 0, 0, 0] SCL14.size inb_S1x16x18x512_S1x16x1x512_0_0_0_0
abbrev r14_cr : Rect S1x16x18x512 := Rect.unit (s := S1x16x18x512) ![0, 0, 15, 0] SCR14.size inb_S1x16x18x512_S1x16x3x512_0_0_15_0

set_option synthInstance.maxSize 1024 in
/-- Every element of the output block lies in the bottom row, the top row or the interior's rows. -/
theorem cover14_geo (y : S1x16x18x512.Idx) : y ∈ r14_rb.set ∨ y ∈ r14_rt.set ∨ y ∈ r14_wi.set := by
  have h1 : (y 1).val < S1x16x18x512.size 1 := (y 1).isLt
  have h2 : (y 2).val < S1x16x18x512.size 2 := (y 2).isLt
  rw [Cert.LibRmw.mem_unit4_hw, Cert.LibRmw.mem_unit4_hw, Cert.LibRmw.mem_unit4_hw]
  · revert h2; generalize (y 2).val = n2; revert n2
    revert h1; generalize (y 1).val = n1; revert n1
    decide +kernel
  all_goals decide

set_option synthInstance.maxSize 1024 in
/-- An element of the interior's rows outside the interior lies in the right columns or in the left column. -/
theorem shadow14_geo (y : S1x16x18x512.Idx) : y ∈ r14_wi.set → y ∉ r14_in.set → y ∈ r14_cr.set ∨ y ∈ r14_cl.set := by
  have h1 : (y 1).val < S1x16x18x512.size 1 := (y 1).isLt
  have h2 : (y 2).val < S1x16x18x512.size 2 := (y 2).isLt
  rw [Cert.LibRmw.mem_unit4_hw, Cert.LibRmw.mem_unit4_hw, Cert.LibRmw.mem_unit4_hw, Cert.LibRmw.mem_unit4_hw]
  · revert h2; generalize (y 2).val = n2; revert n2
    revert h1; generalize (y 1).val = n1; revert n1
    decide +kernel
  all_goals decide

/-! ## What the body leaves in the output's buffer -/

/-- The convolution's result, from the three input blocks: the interior store's sub-block. -/
def conv14 (i : grid14.Coords) (x0 : Vec F S1x16x18x512 .bf16) (x1 : Vec F S4608x512 .bf16) (x2 : Vec F S1x512 .f32) : FVec F S1x14x16x512 .bf16 :=
  k14_pay5 (View.ld x0 (r14_t1 i)) (View.ld x0 (r14_t2 i)) (View.ld x0 (r14_t3 i)) (View.ld x1 r14_w) (View.ld x2 r14_b)

/-- The output's staging buffer after the body: the right columns, the left column, the bottom row and the top row
    at the zeros the body stores there, the interior at the convolution's result (last store first). -/
def out14_3 (i : grid14.Coords) (x0 : Vec F S1x16x18x512 .bf16) (x1 : Vec F S4608x512 .bf16) (x2 : Vec F S1x512 .f32) : Vec F S1x16x18x512 .bf16 :=
  View.canon [⟨r14_cr, k14_pay4 (F := F)⟩, ⟨r14_cl, k14_pay3 (F := F)⟩, ⟨r14_rb, k14_pay2 (F := F)⟩, ⟨r14_rt, k14_pay1 (k14_pay6 (F := F))⟩, ⟨r14_in, conv14 i x0 x1 x2⟩]

variable (V : (c : Dev nD) → (b : Ref sig .tc) → Buf (Elt F) ((c : Thread nD τ).loc b))

/-! ## The windows' blocks -/

/-- Window `w`'s block at point `t`, read off its array as the region finds it. -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- Each input window's staging buffer holds its block at every point, for any proof data over `V`'s array whose
    body leaves the block in place. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)
theorem before14_2_of {c : Dev nD} (dat : Dat τ (Elt F) Unit ℕ (UR sig nD τ) ℕ cfg14 c) (hA : dat.A 2 = V c (Pipeline.arrRef spec14 2))
    (hafter : ∀ t, dat.after 2 t = iblk14 V c 2 t) (t : Fin cfg14.N) (d) : dat.before 2 t d = iblk14 V c 2 t :=
  (dat.before_in_eq_fetched 2 rfl (fun _ => rfl) (fun _ _ _ => rfl) (fun t => by rw [hafter]; unfold Dat.blockOf iblk14; rw [hA]; try rfl) t d).trans
    (by unfold Dat.fetched Dat.blockOf iblk14; rw [hA]; try rfl)

/-! ## The kernel body on any staging memrefs -/

/-- Each window's current staging memref at point `t`, spelled as the pipeline passes it, and its wholeness. -/
abbrev ms14_0 (t : Fin cfg14.N) : Memref sig .tc .vmem S1x16x18x512 .bf16 := win14_0.stage (cfg14.slots t 0)
abbrev hs14_0 (t : Fin cfg14.N) : (ms14_0 t).IsWhole := hstage14_0 ((cfg14.slots t 0).cast nbuf14_0)
abbrev ms14_1 (t : Fin cfg14.N) : Memref sig .tc .vmem S4608x512 .bf16 := win14_1.stage (cfg14.slots t 1)
abbrev hs14_1 (t : Fin cfg14.N) : (ms14_1 t).IsWhole := hstage14_1 ((cfg14.slots t 1).cast nbuf14_1)
abbrev ms14_2 (t : Fin cfg14.N) : Memref sig .tc .vmem S1x512 .f32 := win14_2.stage (cfg14.slots t 2)
abbrev hs14_2 (t : Fin cfg14.N) : (ms14_2 t).IsWhole := hstage14_2 ((cfg14.slots t 2).cast nbuf14_2)
abbrev ms14_3 (t : Fin cfg14.N) : Memref sig .tc .vmem S1x16x18x512 .bf16 := win14_3.stage (cfg14.slots t 3)
abbrev hs14_3 (t : Fin cfg14.N) : (ms14_3 t).IsWhole := hstage14_3 ((cfg14.slots t 3).cast nbuf14_3)

set_option maxHeartbeats 1000000 in
/-- What the body's stores leave in the output's staging memref, as pieces (last first), with the proof that on
    whole staging memrefs — the inputs' at their contents, the output's at `d3` — the body runs to the continuation
    holding the inputs' as they were and the output's buffer with the pieces written. The pieces are the witness the
    run finds; they name `d3`, which the interior store reads before any store. -/
noncomputable def kernelRun14_A (c : Dev nD) (i : grid14.Coords) (arg2 : Memref sig .tc .vmem S1x16x18x512 .bf16) (harg2 : arg2.IsWhole) (arg3 : Memref sig .tc .vmem S4608x512 .bf16) (harg3 : arg3.IsWhole) (arg4 : Memref sig .tc .vmem S1x512 .f32) (harg4 : arg4.IsWhole) (arg5 : Memref sig .tc .vmem S1x16x18x512 .bf16) (harg5 : arg5.IsWhole)
    (x0 : Vec F S1x16x18x512 .bf16) (x1 : Vec F S4608x512 .bf16) (x2 : Vec F S1x512 .f32) (d3 : Vec F S1x16x18x512 .bf16) :
    { L3 : List (View.Piece (Elt F) S1x16x18x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare d3
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc14_body i arg2 harg2 arg3 harg3 arg4 harg4 arg5 harg5) K } := by
  refine ⟨?_, fun E K => ?run⟩
  case run =>
    simp only [cc14_body_eq_skeleton]; unfold cc14_body_skel
    simp only [k14_part1_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

/-- The run's pieces cover the output block: the bottom row's, the top row's and the interior store's do. -/
theorem cover14_A_3 (c : Dev nD) (i : grid14.Coords) (arg2 : Memref sig .tc .vmem S1x16x18x512 .bf16) (harg2 : arg2.IsWhole) (arg3 : Memref sig .tc .vmem S4608x512 .bf16) (harg3 : arg3.IsWhole) (arg4 : Memref sig .tc .vmem S1x512 .f32) (harg4 : arg4.IsWhole) (arg5 : Memref sig .tc .vmem S1x16x18x512 .bf16) (harg5 : arg5.IsWhole)
    (x0 : Vec F S1x16x18x512 .bf16) (x1 : Vec F S4608x512 .bf16) (x2 : Vec F S1x512 .f32) (d3 : Vec F S1x16x18x512 .bf16) (y : S1x16x18x512.Idx) :
    ∃ pc ∈ (kernelRun14_A c i arg2 harg2 arg3 harg3 arg4 harg4 arg5 harg5 x0 x1 x2 d3).1, y ∈ pc.1.set := by
  unfold kernelRun14_A
  dsimp only
  sl_unfold_run_names
  rcases cover14_geo y with h | h | h
  · exact ⟨_, List.mem_cons_of_mem _ (List.mem_cons_of_mem _ List.mem_cons_self), h⟩
  · exact ⟨_, List.mem_cons_of_mem _ (List.mem_cons_of_mem _ (List.mem_cons_of_mem _ List.mem_cons_self)), h⟩
  · exact ⟨_, List.mem_cons_of_mem _ (List.mem_cons_of_mem _ (List.mem_cons_of_mem _ (List.mem_cons_of_mem _ List.mem_cons_self))), h⟩

set_option maxHeartbeats 1000000 in
/-- The canonical contents of the run's pieces are those of the five plain stores, whatever the output's buffer held
    before: each column store read back what the earlier stores had left, so it counts as the plain store of its
    zeros; the interior store then counts as the plain store of the convolution's result, the elements it wrote back
    unchanged being covered by the column stores. -/
theorem canon_run14 (c : Dev nD) (i : grid14.Coords) (arg2 : Memref sig .tc .vmem S1x16x18x512 .bf16) (harg2 : arg2.IsWhole) (arg3 : Memref sig .tc .vmem S4608x512 .bf16) (harg3 : arg3.IsWhole) (arg4 : Memref sig .tc .vmem S1x512 .f32) (harg4 : arg4.IsWhole) (arg5 : Memref sig .tc .vmem S1x16x18x512 .bf16) (harg5 : arg5.IsWhole)
    (x0 : Vec F S1x16x18x512 .bf16) (x1 : Vec F S4608x512 .bf16) (x2 : Vec F S1x512 .f32) (d3 : Vec F S1x16x18x512 .bf16) :
    View.canon (kernelRun14_A c i arg2 harg2 arg3 harg3 arg4 harg4 arg5 harg5 x0 x1 x2 d3).1 = out14_3 i x0 x1 x2 := by
  have e0 : ∀ r : Rect S1x16x18x512, View.readAt (Elt F) arg2.view r.toLoadRect (harg2.unread x0) = View.ld x0 r :=
    fun r => by rw [View.readAt_eq_ld, harg2.read_unread]
  have e1 : ∀ r : Rect S4608x512, View.readAt (Elt F) arg3.view r.toLoadRect (harg3.unread x1) = View.ld x1 r :=
    fun r => by rw [View.readAt_eq_ld, harg3.read_unread]
  have e2 : ∀ r : Rect S1x512, View.readAt (Elt F) arg4.view r.toLoadRect (harg4.unread x2) = View.ld x2 r :=
    fun r => by rw [View.readAt_eq_ld, harg4.read_unread]
  unfold kernelRun14_A
  dsimp only
  sl_unfold_run_names
  dsimp only
  simp only [e0, e1, e2]
  refine Eq.trans (Cert.LibRmw.canon_append_updateSlice_readCov (s := S1x16x18x512) (e := .bf16) (Val := Elt F) arg5.view []
    ![0, 0, 14, 0] ![0, 0, 15, 0] SWR14.size SCR14.size ![0, 0, 1, 0]
    inb_S1x16x18x512_S1x16x4x512_0_0_14_0 inb_S1x16x18x512_S1x16x3x512_0_0_15_0 (by decide)
    slices_S1x16x4x512_S1x16x3x512_0_0_1_0 _ _) ?_
  refine Eq.trans (Cert.LibRmw.canon_append_updateSlice_readCov (s := S1x16x18x512) (e := .bf16) (Val := Elt F) arg5.view [_]
    ![0, 0, 0, 0] ![0, 0, 0, 0] SWL14.size SCL14.size ![0, 0, 0, 0]
    inb_S1x16x18x512_S1x16x2x512_0_0_0_0 inb_S1x16x18x512_S1x16x1x512_0_0_0_0 (by decide)
    slices_S1x16x2x512_S1x16x1x512_0_0_0_0 _ _) ?_
  refine Eq.trans (Cert.LibRmw.canon_append_updateSlice (s := S1x16x18x512) (e := .bf16) (Val := Elt F) [_, _, _, _]
    ![0, 1, 0, 0] ![0, 1, 1, 0] S1x14x18x512.size S1x14x16x512.size ![0, 0, 1, 0]
    inb_S1x16x18x512_S1x14x18x512_0_1_0_0 inb_S1x16x18x512_S1x14x16x512_0_1_1_0 (by decide)
    slices_S1x14x18x512_S1x14x16x512_0_0_1_0 _ _ [] ?_) ?_
  · intro j hj
    refine Or.inl ?_
    rcases shadow14_geo _ (r14_wi.toLoadRect.idx_mem j) hj with h | h
    · exact ⟨_, List.mem_cons_self, h⟩
    · exact ⟨_, List.mem_cons_of_mem _ List.mem_cons_self, h⟩
  unfold out14_3 conv14
  rfl

/-! ## What the output holds after each point -/

/-- What the output's staging buffer holds after the body at point `t`: the five plain stores' contents at the
    point's input blocks. -/
def outsAt14 (c : Dev nD) (t : Fin cfg14.N) : Vec F S1x16x18x512 .bf16 :=
  out14_3 (grid14.coords t) (iblk14 V c 0 t) (iblk14 V c 1 t) (iblk14 V c 2 t)

/-! ## The pipeline's proof data -/

/-- The proof data of pipeline 14 on core `c`: the arrays as the region finds them; after the body at a point each
    input's buffer at its block and the output's at `outsAt14`; the generator register and the scoped rest as
    invariant; nothing owed; full shares. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => (outsAt14 V c t)
  Φ _ := Pipeline.ΦA spec14 c
  q _ := fullShare
  owed _ := 0

theorem A_eq14 (c : Dev nD) (w : Fin cfg14.W) : (dat14 V c).A w = V c (Pipeline.arrRef spec14 w) := by
  dsimp only [dat14]

theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) : (dat14 V c).after 3 t = (outsAt14 V c t) := by dsimp only [dat14]

theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d
theorem before14_2 (c : Dev nD) (t : Fin cfg14.N) (d) : (dat14 V c).before 2 t d = iblk14 V c 2 t :=
  before14_2_of V (dat14 V c) (A_eq14 V c 2) (after14_2 V c) t d

/-! ## The body obligation, at a generic point -/

/-- What the body is called with at point `t`, the windows one by one, -/
def bodyPre14 (c : Dev nD) (t : Fin cfg14.N) : sProp 𝕄 :=
  iprop((dat14 V c).Φ t.castSucc ∗ (dat14 V c).owesAt () t.castSucc
    ∗ (∃ d, owns (c : Thread nD τ) (ms14_0 t) fullShare ((dat14 V c).before 0 t d))
    ∗ (∃ d, owns (c : Thread nD τ) (ms14_1 t) fullShare ((dat14 V c).before 1 t d))
    ∗ (∃ d, owns (c : Thread nD τ) (ms14_2 t) fullShare ((dat14 V c).before 2 t d))
    ∗ (∃ d, owns (c : Thread nD τ) (ms14_3 t) fullShare ((dat14 V c).before 3 t d)))

/-- and what it returns. -/
def bodyPost14 (c : Dev nD) (t : Fin cfg14.N) : sProp 𝕄 :=
  iprop((dat14 V c).Φ t.succ ∗ (dat14 V c).owesAt () t.succ
    ∗ owns (c : Thread nD τ) (ms14_0 t) fullShare ((dat14 V c).after 0 t)
    ∗ owns (c : Thread nD τ) (ms14_1 t) fullShare ((dat14 V c).after 1 t)
    ∗ owns (c : Thread nD τ) (ms14_2 t) fullShare ((dat14 V c).after 2 t)
    ∗ owns (c : Thread nD τ) (ms14_3 t) fullShare ((dat14 V c).after 3 t))

/-- The body at any point: the inputs' memrefs hold their blocks, the output's holds something; so the run applies at
    that something; its pieces cover the block and their canonical contents are the five plain stores'; the invariant
    passes through unread; the core owes nothing throughout. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2]
  rw [show (dat14 V c).Φ t.succ = (dat14 V c).Φ t.castSucc from rfl,
    show (dat14 V c).owesAt () t.succ = (dat14 V c).owesAt () t.castSucc from rfl,
    after14_0, after14_1, after14_2, after14_3]
  unfold outsAt14
  iintro ⟨HΦ, Ho, ⟨%d0, H0⟩, ⟨%d1, H1⟩, ⟨%d2, H2⟩, ⟨%d3, H3⟩⟩
  iapply ((kernelRun14_A c (grid14.coords t) _ _ _ _ _ _ _ _ (iblk14 V c 0 t) (iblk14 V c 1 t) (iblk14 V c 2 t) ((dat14 V c).before 3 t d3)).2 Set.univ _)
  isplitl [H0]; · iexact H0
  isplitl [H1]; · iexact H1
  isplitl [H2]; · iexact H2
  isplitl [H3]; · iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro
  exact (View.read_writes_eq_canon _ _ _ (cover14_A_3 c _ _ _ _ _ _ _ _ _ _ _ _ _)).trans (canon_run14 c _ _ _ _ _ _ _ _ _ _ _ _ _)

/-- The library's body obligation, at every point. -/
theorem body_obligation14 (c : Dev nD) : BodyObligation (dat14 (F := F) V c) (defs₀ (F := F)) Variants.none () Set.univ := fun t => by
  rw [bigSep_W14, bigSep_W14]
  exact sound_body14 V c t

end Cert.KernelIdeal.Reg

end
-- ==== Proof.KR15.lean ====
/-
  Region 15 of the kernel's @main (a 3x3 convolution with bias and ReLU whose result is stored at offset (1, 1) of
  a larger image, the next layer's padded input, followed by four stores of zeros over the top row, the bottom row,
  the left column and the right columns): the proof data of its pipeline at any entry contents `V`, and the body's
  obligation.

  The interior store and the two column stores write rows that are part of their words: each reads the words it
  touches, replaces a sub-block of them and writes them back. So the pieces the body's run leaves name what the
  output's buffer held before. What the buffer holds after the body does not depend on it: the two column stores
  read back what the earlier stores had left, and every element the interior store wrote back unchanged is
  overwritten by a column store. The buffer ends at the canonical contents of five plain stores — the right
  columns, the left column, the bottom row and the top row at zero, the interior at the convolution's result.
-/
import proofs.«100114_g2000204297211070_pallasbulk_1265_19_alg».proof.Proof.Gen.KernelIdeal.Launch
import proofs.«100114_g2000204297211070_pallasbulk_1265_19_alg».proof.Proof.Gen.KernelIdeal.Skeleton
import proofs.«100114_g2000204297211070_pallasbulk_1265_19_alg».proof.Proof.Gen.KernelIdeal.Points
import proofs.«100114_g2000204297211070_pallasbulk_1265_19_alg».proof.Proof.LibRmw
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles of the body's loads and stores -/

/-- The shapes of the left column and of the right columns the body zeroes, and of the words each column store
    writes back. -/
abbrev SCL15 : Shape := S1x16x1x512
abbrev SCR15 : Shape := S1x16x3x512
abbrev SWL15 : Shape := S1x16x2x512
abbrev SWR15 : Shape := S1x16x4x512

/-- The three loads of the padded input, one per column shift, -/
abbrev r15_t1 (i : grid15.Coords) : Rect S1x16x18x512 := Rect.unit (s := S1x16x18x512) (k15_off1 i) S1x16x16x512.size (k15_off1_inb i)
abbrev r15_t2 (i : grid15.Coords) : Rect S1x16x18x512 := Rect.unit (s := S1x16x18x512) (k15_off2 i) S1x16x16x512.size (k15_off2_inb i)
abbrev r15_t3 (i : grid15.Coords) : Rect S1x16x18x512 := Rect.unit (s := S1x16x18x512) (k15_off3 i) S1x16x16x512.size (k15_off3_inb i)
/-- the weights and the bias, whole; -/
abbrev r15_w : Rect S4608x512 := Rect.unit (s := S4608x512) ![0, 0] S4608x512.size inb_S4608x512_S4608x512_0_0
abbrev r15_b : Rect S1x512 := Rect.unit (s := S1x512) ![0, 0] S1x512.size inb_S1x512_S1x512_0_0
/-- the words the interior store writes back (the interior's rows, every column) and the interior itself; -/
abbrev r15_wi : Rect S1x16x18x512 := Rect.unit (s := S1x16x18x512) ![0, 1, 0, 0] S1x14x18x512.size inb_S1x16x18x512_S1x14x18x512_0_1_0_0
abbrev r15_in : Rect S1x16x18x512 := Rect.unit (s := S1x16x18x512) ![0, 1, 1, 0] S1x14x16x512.size inb_S1x16x18x512_S1x14x16x512_0_1_1_0
/-- the top and the bottom row; -/
abbrev r15_rt : Rect S1x16x18x512 := Rect.unit (s := S1x16x18x512) ![0, 0, 0, 0] S1x1x18x512.size inb_S1x16x18x512_S1x1x18x512_0_0_0_0
abbrev r15_rb : Rect S1x16x18x512 := Rect.unit (s := S1x16x18x512) ![0, 15, 0, 0] S1x1x18x512.size inb_S1x16x18x512_S1x1x18x512_0_15_0_0
/-- the left column and the right columns. -/
abbrev r15_cl : Rect S1x16x18x512 := Rect.unit (s := S1x16x18x512) ![0, 0, 0, 0] SCL15.size inb_S1x16x18x512_S1x16x1x512_0_0_0_0
abbrev r15_cr : Rect S1x16x18x512 := Rect.unit (s := S1x16x18x512) ![0, 0, 15, 0] SCR15.size inb_S1x16x18x512_S1x16x3x512_0_0_15_0

set_option synthInstance.maxSize 1024 in
/-- Every element of the output block lies in the bottom row, the top row or the interior's rows. -/
theorem cover15_geo (y : S1x16x18x512.Idx) : y ∈ r15_rb.set ∨ y ∈ r15_rt.set ∨ y ∈ r15_wi.set := by
  have h1 : (y 1).val < S1x16x18x512.size 1 := (y 1).isLt
  have h2 : (y 2).val < S1x16x18x512.size 2 := (y 2).isLt
  rw [Cert.LibRmw.mem_unit4_hw, Cert.LibRmw.mem_unit4_hw, Cert.LibRmw.mem_unit4_hw]
  · revert h2; generalize (y 2).val = n2; revert n2
    revert h1; generalize (y 1).val = n1; revert n1
    decide +kernel
  all_goals decide

set_option synthInstance.maxSize 1024 in
/-- An element of the interior's rows outside the interior lies in the right columns or in the left column. -/
theorem shadow15_geo (y : S1x16x18x512.Idx) : y ∈ r15_wi.set → y ∉ r15_in.set → y ∈ r15_cr.set ∨ y ∈ r15_cl.set := by
  have h1 : (y 1).val < S1x16x18x512.size 1 := (y 1).isLt
  have h2 : (y 2).val < S1x16x18x512.size 2 := (y 2).isLt
  rw [Cert.LibRmw.mem_unit4_hw, Cert.LibRmw.mem_unit4_hw, Cert.LibRmw.mem_unit4_hw, Cert.LibRmw.mem_unit4_hw]
  · revert h2; generalize (y 2).val = n2; revert n2
    revert h1; generalize (y 1).val = n1; revert n1
    decide +kernel
  all_goals decide

/-! ## What the body leaves in the output's buffer -/

/-- The convolution's result, from the three input blocks: the interior store's sub-block. -/
def conv15 (i : grid15.Coords) (x0 : Vec F S1x16x18x512 .bf16) (x1 : Vec F S4608x512 .bf16) (x2 : Vec F S1x512 .f32) : FVec F S1x14x16x512 .bf16 :=
  k15_pay5 (View.ld x0 (r15_t1 i)) (View.ld x0 (r15_t2 i)) (View.ld x0 (r15_t3 i)) (View.ld x1 r15_w) (View.ld x2 r15_b)

/-- The output's staging buffer after the body: the right columns, the left column, the bottom row and the top row
    at the zeros the body stores there, the interior at the convolution's result (last store first). -/
def out15_3 (i : grid15.Coords) (x0 : Vec F S1x16x18x512 .bf16) (x1 : Vec F S4608x512 .bf16) (x2 : Vec F S1x512 .f32) : Vec F S1x16x18x512 .bf16 :=
  View.canon [⟨r15_cr, k15_pay4 (F := F)⟩, ⟨r15_cl, k15_pay3 (F := F)⟩, ⟨r15_rb, k15_pay2 (F := F)⟩, ⟨r15_rt, k15_pay1 (k15_pay6 (F := F))⟩, ⟨r15_in, conv15 i x0 x1 x2⟩]

variable (V : (c : Dev nD) → (b : Ref sig .tc) → Buf (Elt F) ((c : Thread nD τ).loc b))

/-! ## The windows' blocks -/

/-- Window `w`'s block at point `t`, read off its array as the region finds it. -/
def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-- Each input window's staging buffer holds its block at every point, for any proof data over `V`'s array whose
    body leaves the block in place. -/
theorem before15_0_of {c : Dev nD} (dat : Dat τ (Elt F) Unit ℕ (UR sig nD τ) ℕ cfg15 c) (hA : dat.A 0 = V c (Pipeline.arrRef spec15 0))
    (hafter : ∀ t, dat.after 0 t = iblk15 V c 0 t) (t : Fin cfg15.N) (d) : dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)
theorem before15_1_of {c : Dev nD} (dat : Dat τ (Elt F) Unit ℕ (UR sig nD τ) ℕ cfg15 c) (hA : dat.A 1 = V c (Pipeline.arrRef spec15 1))
    (hafter : ∀ t, dat.after 1 t = iblk15 V c 1 t) (t : Fin cfg15.N) (d) : dat.before 1 t d = iblk15 V c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)
theorem before15_2_of {c : Dev nD} (dat : Dat τ (Elt F) Unit ℕ (UR sig nD τ) ℕ cfg15 c) (hA : dat.A 2 = V c (Pipeline.arrRef spec15 2))
    (hafter : ∀ t, dat.after 2 t = iblk15 V c 2 t) (t : Fin cfg15.N) (d) : dat.before 2 t d = iblk15 V c 2 t :=
  (dat.before_in_eq_fetched 2 rfl (fun _ => rfl) (fun _ _ _ => rfl) (fun t => by rw [hafter]; unfold Dat.blockOf iblk15; rw [hA]; try rfl) t d).trans
    (by unfold Dat.fetched Dat.blockOf iblk15; rw [hA]; try rfl)

/-! ## The kernel body on any staging memrefs -/

/-- Each window's current staging memref at point `t`, spelled as the pipeline passes it, and its wholeness. -/
abbrev ms15_0 (t : Fin cfg15.N) : Memref sig .tc .vmem S1x16x18x512 .bf16 := win15_0.stage (cfg15.slots t 0)
abbrev hs15_0 (t : Fin cfg15.N) : (ms15_0 t).IsWhole := hstage15_0 ((cfg15.slots t 0).cast nbuf15_0)
abbrev ms15_1 (t : Fin cfg15.N) : Memref sig .tc .vmem S4608x512 .bf16 := win15_1.stage (cfg15.slots t 1)
abbrev hs15_1 (t : Fin cfg15.N) : (ms15_1 t).IsWhole := hstage15_1 ((cfg15.slots t 1).cast nbuf15_1)
abbrev ms15_2 (t : Fin cfg15.N) : Memref sig .tc .vmem S1x512 .f32 := win15_2.stage (cfg15.slots t 2)
abbrev hs15_2 (t : Fin cfg15.N) : (ms15_2 t).IsWhole := hstage15_2 ((cfg15.slots t 2).cast nbuf15_2)
abbrev ms15_3 (t : Fin cfg15.N) : Memref sig .tc .vmem S1x16x18x512 .bf16 := win15_3.stage (cfg15.slots t 3)
abbrev hs15_3 (t : Fin cfg15.N) : (ms15_3 t).IsWhole := hstage15_3 ((cfg15.slots t 3).cast nbuf15_3)

set_option maxHeartbeats 1000000 in
/-- What the body's stores leave in the output's staging memref, as pieces (last first), with the proof that on
    whole staging memrefs — the inputs' at their contents, the output's at `d3` — the body runs to the continuation
    holding the inputs' as they were and the output's buffer with the pieces written. The pieces are the witness the
    run finds; they name `d3`, which the interior store reads before any store. -/
noncomputable def kernelRun15_A (c : Dev nD) (i : grid15.Coords) (arg2 : Memref sig .tc .vmem S1x16x18x512 .bf16) (harg2 : arg2.IsWhole) (arg3 : Memref sig .tc .vmem S4608x512 .bf16) (harg3 : arg3.IsWhole) (arg4 : Memref sig .tc .vmem S1x512 .f32) (harg4 : arg4.IsWhole) (arg5 : Memref sig .tc .vmem S1x16x18x512 .bf16) (harg5 : arg5.IsWhole)
    (x0 : Vec F S1x16x18x512 .bf16) (x1 : Vec F S4608x512 .bf16) (x2 : Vec F S1x512 .f32) (d3 : Vec F S1x16x18x512 .bf16) :
    { L3 : List (View.Piece (Elt F) S1x16x18x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare d3
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc15_body i arg2 harg2 arg3 harg3 arg4 harg4 arg5 harg5) K } := by
  refine ⟨?_, fun E K => ?run⟩
  case run =>
    simp only [cc15_body_eq_skeleton]; unfold cc15_body_skel
    simp only [k15_part1_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

/-- The run's pieces cover the output block: the bottom row's, the top row's and the interior store's do. -/
theorem cover15_A_3 (c : Dev nD) (i : grid15.Coords) (arg2 : Memref sig .tc .vmem S1x16x18x512 .bf16) (harg2 : arg2.IsWhole) (arg3 : Memref sig .tc .vmem S4608x512 .bf16) (harg3 : arg3.IsWhole) (arg4 : Memref sig .tc .vmem S1x512 .f32) (harg4 : arg4.IsWhole) (arg5 : Memref sig .tc .vmem S1x16x18x512 .bf16) (harg5 : arg5.IsWhole)
    (x0 : Vec F S1x16x18x512 .bf16) (x1 : Vec F S4608x512 .bf16) (x2 : Vec F S1x512 .f32) (d3 : Vec F S1x16x18x512 .bf16) (y : S1x16x18x512.Idx) :
    ∃ pc ∈ (kernelRun15_A c i arg2 harg2 arg3 harg3 arg4 harg4 arg5 harg5 x0 x1 x2 d3).1, y ∈ pc.1.set := by
  unfold kernelRun15_A
  dsimp only
  sl_unfold_run_names
  rcases cover15_geo y with h | h | h
  · exact ⟨_, List.mem_cons_of_mem _ (List.mem_cons_of_mem _ List.mem_cons_self), h⟩
  · exact ⟨_, List.mem_cons_of_mem _ (List.mem_cons_of_mem _ (List.mem_cons_of_mem _ List.mem_cons_self)), h⟩
  · exact ⟨_, List.mem_cons_of_mem _ (List.mem_cons_of_mem _ (List.mem_cons_of_mem _ (List.mem_cons_of_mem _ List.mem_cons_self))), h⟩

set_option maxHeartbeats 1000000 in
/-- The canonical contents of the run's pieces are those of the five plain stores, whatever the output's buffer held
    before: each column store read back what the earlier stores had left, so it counts as the plain store of its
    zeros; the interior store then counts as the plain store of the convolution's result, the elements it wrote back
    unchanged being covered by the column stores. -/
theorem canon_run15 (c : Dev nD) (i : grid15.Coords) (arg2 : Memref sig .tc .vmem S1x16x18x512 .bf16) (harg2 : arg2.IsWhole) (arg3 : Memref sig .tc .vmem S4608x512 .bf16) (harg3 : arg3.IsWhole) (arg4 : Memref sig .tc .vmem S1x512 .f32) (harg4 : arg4.IsWhole) (arg5 : Memref sig .tc .vmem S1x16x18x512 .bf16) (harg5 : arg5.IsWhole)
    (x0 : Vec F S1x16x18x512 .bf16) (x1 : Vec F S4608x512 .bf16) (x2 : Vec F S1x512 .f32) (d3 : Vec F S1x16x18x512 .bf16) :
    View.canon (kernelRun15_A c i arg2 harg2 arg3 harg3 arg4 harg4 arg5 harg5 x0 x1 x2 d3).1 = out15_3 i x0 x1 x2 := by
  have e0 : ∀ r : Rect S1x16x18x512, View.readAt (Elt F) arg2.view r.toLoadRect (harg2.unread x0) = View.ld x0 r :=
    fun r => by rw [View.readAt_eq_ld, harg2.read_unread]
  have e1 : ∀ r : Rect S4608x512, View.readAt (Elt F) arg3.view r.toLoadRect (harg3.unread x1) = View.ld x1 r :=
    fun r => by rw [View.readAt_eq_ld, harg3.read_unread]
  have e2 : ∀ r : Rect S1x512, View.readAt (Elt F) arg4.view r.toLoadRect (harg4.unread x2) = View.ld x2 r :=
    fun r => by rw [View.readAt_eq_ld, harg4.read_unread]
  unfold kernelRun15_A
  dsimp only
  sl_unfold_run_names
  dsimp only
  simp only [e0, e1, e2]
  refine Eq.trans (Cert.LibRmw.canon_append_updateSlice_readCov (s := S1x16x18x512) (e := .bf16) (Val := Elt F) arg5.view []
    ![0, 0, 14, 0] ![0, 0, 15, 0] SWR15.size SCR15.size ![0, 0, 1, 0]
    inb_S1x16x18x512_S1x16x4x512_0_0_14_0 inb_S1x16x18x512_S1x16x3x512_0_0_15_0 (by decide)
    slices_S1x16x4x512_S1x16x3x512_0_0_1_0 _ _) ?_
  refine Eq.trans (Cert.LibRmw.canon_append_updateSlice_readCov (s := S1x16x18x512) (e := .bf16) (Val := Elt F) arg5.view [_]
    ![0, 0, 0, 0] ![0, 0, 0, 0] SWL15.size SCL15.size ![0, 0, 0, 0]
    inb_S1x16x18x512_S1x16x2x512_0_0_0_0 inb_S1x16x18x512_S1x16x1x512_0_0_0_0 (by decide)
    slices_S1x16x2x512_S1x16x1x512_0_0_0_0 _ _) ?_
  refine Eq.trans (Cert.LibRmw.canon_append_updateSlice (s := S1x16x18x512) (e := .bf16) (Val := Elt F) [_, _, _, _]
    ![0, 1, 0, 0] ![0, 1, 1, 0] S1x14x18x512.size S1x14x16x512.size ![0, 0, 1, 0]
    inb_S1x16x18x512_S1x14x18x512_0_1_0_0 inb_S1x16x18x512_S1x14x16x512_0_1_1_0 (by decide)
    slices_S1x14x18x512_S1x14x16x512_0_0_1_0 _ _ [] ?_) ?_
  · intro j hj
    refine Or.inl ?_
    rcases shadow15_geo _ (r15_wi.toLoadRect.idx_mem j) hj with h | h
    · exact ⟨_, List.mem_cons_self, h⟩
    · exact ⟨_, List.mem_cons_of_mem _ List.mem_cons_self, h⟩
  unfold out15_3 conv15
  rfl

/-! ## What the output holds after each point -/

/-- What the output's staging buffer holds after the body at point `t`: the five plain stores' contents at the
    point's input blocks. -/
def outsAt15 (c : Dev nD) (t : Fin cfg15.N) : Vec F S1x16x18x512 .bf16 :=
  out15_3 (grid15.coords t) (iblk15 V c 0 t) (iblk15 V c 1 t) (iblk15 V c 2 t)

/-! ## The pipeline's proof data -/

/-- The proof data of pipeline 15 on core `c`: the arrays as the region finds them; after the body at a point each
    input's buffer at its block and the output's at `outsAt15`; the generator register and the scoped rest as
    invariant; nothing owed; full shares. -/
def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => iblk15 V c 2 t
    | ⟨3, _⟩ => (outsAt15 V c t)
  Φ _ := Pipeline.ΦA spec15 c
  q _ := fullShare
  owed _ := 0

theorem A_eq15 (c : Dev nD) (w : Fin cfg15.W) : (dat15 V c).A w = V c (Pipeline.arrRef spec15 w) := by
  dsimp only [dat15]

theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = iblk15 V c 2 t := by dsimp only [dat15]
theorem after15_3 (c : Dev nD) (t : Fin cfg15.N) : (dat15 V c).after 3 t = (outsAt15 V c t) := by dsimp only [dat15]

theorem before15_0 (c : Dev nD) (t : Fin cfg15.N) (d) : (dat15 V c).before 0 t d = iblk15 V c 0 t :=
  before15_0_of V (dat15 V c) (A_eq15 V c 0) (after15_0 V c) t d
theorem before15_1 (c : Dev nD) (t : Fin cfg15.N) (d) : (dat15 V c).before 1 t d = iblk15 V c 1 t :=
  before15_1_of V (dat15 V c) (A_eq15 V c 1) (after15_1 V c) t d
theorem before15_2 (c : Dev nD) (t : Fin cfg15.N) (d) : (dat15 V c).before 2 t d = iblk15 V c 2 t :=
  before15_2_of V (dat15 V c) (A_eq15 V c 2) (after15_2 V c) t d

/-! ## The body obligation, at a generic point -/

/-- What the body is called with at point `t`, the windows one by one, -/
def bodyPre15 (c : Dev nD) (t : Fin cfg15.N) : sProp 𝕄 :=
  iprop((dat15 V c).Φ t.castSucc ∗ (dat15 V c).owesAt () t.castSucc
    ∗ (∃ d, owns (c : Thread nD τ) (ms15_0 t) fullShare ((dat15 V c).before 0 t d))
    ∗ (∃ d, owns (c : Thread nD τ) (ms15_1 t) fullShare ((dat15 V c).before 1 t d))
    ∗ (∃ d, owns (c : Thread nD τ) (ms15_2 t) fullShare ((dat15 V c).before 2 t d))
    ∗ (∃ d, owns (c : Thread nD τ) (ms15_3 t) fullShare ((dat15 V c).before 3 t d)))

/-- and what it returns. -/
def bodyPost15 (c : Dev nD) (t : Fin cfg15.N) : sProp 𝕄 :=
  iprop((dat15 V c).Φ t.succ ∗ (dat15 V c).owesAt () t.succ
    ∗ owns (c : Thread nD τ) (ms15_0 t) fullShare ((dat15 V c).after 0 t)
    ∗ owns (c : Thread nD τ) (ms15_1 t) fullShare ((dat15 V c).after 1 t)
    ∗ owns (c : Thread nD τ) (ms15_2 t) fullShare ((dat15 V c).after 2 t)
    ∗ owns (c : Thread nD τ) (ms15_3 t) fullShare ((dat15 V c).after 3 t))

/-- The body at any point: the inputs' memrefs hold their blocks, the output's holds something; so the run applies at
    that something; its pieces cover the block and their canonical contents are the five plain stores'; the invariant
    passes through unread; the core owes nothing throughout. -/
theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1, before15_2]
  rw [show (dat15 V c).Φ t.succ = (dat15 V c).Φ t.castSucc from rfl,
    show (dat15 V c).owesAt () t.succ = (dat15 V c).owesAt () t.castSucc from rfl,
    after15_0, after15_1, after15_2, after15_3]
  unfold outsAt15
  iintro ⟨HΦ, Ho, ⟨%d0, H0⟩, ⟨%d1, H1⟩, ⟨%d2, H2⟩, ⟨%d3, H3⟩⟩
  iapply ((kernelRun15_A c (grid15.coords t) _ _ _ _ _ _ _ _ (iblk15 V c 0 t) (iblk15 V c 1 t) (iblk15 V c 2 t) ((dat15 V c).before 3 t d3)).2 Set.univ _)
  isplitl [H0]; · iexact H0
  isplitl [H1]; · iexact H1
  isplitl [H2]; · iexact H2
  isplitl [H3]; · iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro
  exact (View.read_writes_eq_canon _ _ _ (cover15_A_3 c _ _ _ _ _ _ _ _ _ _ _ _ _)).trans (canon_run15 c _ _ _ _ _ _ _ _ _ _ _ _ _)

/-- The library's body obligation, at every point. -/
theorem body_obligation15 (c : Dev nD) : BodyObligation (dat15 (F := F) V c) (defs₀ (F := F)) Variants.none () Set.univ := fun t => by
  rw [bigSep_W15, bigSep_W15]
  exact sound_body15 V c t

end Cert.KernelIdeal.Reg

end
-- ==== Proof.KR16.lean ====
/-
  Region 16 of the kernel's @main (a 3x3 convolution as one matrix product over nine lane-concatenated taps, with bias,
  ReLU and the row-pair maximum of a 2x2 pooling fused, on a block whose width is padded to whole tiles): the proof data
  of its pipeline at any entry contents `V`, and the body's obligation. The body loads three column-shifted windows of
  its input block through rectangles whose row offset is computed from the grid position, loads the weights and the
  bias whole, stores the result whole and then stores zeros over the strip of padding columns; so after the body at a
  point the output's staging buffer holds those two stores' payloads, the strip's over the whole block's, read back
  over anything (the whole-block store alone already covers the block).
-/
import proofs.«100114_g2000204297211070_pallasbulk_1265_19_alg».proof.Proof.Gen.KernelIdeal.Launch
import proofs.«100114_g2000204297211070_pallasbulk_1265_19_alg».proof.Proof.Gen.KernelIdeal.Skeleton
import proofs.«100114_g2000204297211070_pallasbulk_1265_19_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

/-- Input window 0's staging buffer holds its block at every point, fetched there or not, for any proof data over
    `V`'s array whose body leaves the block in place. -/
theorem before16_0_of {c : Dev nD} (dat : Dat τ (Elt F) Unit ℕ (UR sig nD τ) ℕ cfg16 c) (hA : dat.A 0 = V c (Pipeline.arrRef spec16 0))
    (hafter : ∀ t, dat.after 0 t = iblk16 V c 0 t) (t : Fin cfg16.N) (d) : dat.before 0 t d = iblk16 V c 0 t :=
  (dat.before_in_eq_fetched 0 rfl (fun _ => rfl) (fun _ _ _ => rfl) (fun t => by rw [hafter]; unfold Dat.blockOf iblk16; rw [hA]; try rfl) t d).trans
    (by unfold Dat.fetched Dat.blockOf iblk16; rw [hA]; try rfl)
/-- Input window 1's staging buffer holds its block at every point, fetched there or not, for any proof data over
    `V`'s array whose body leaves the block in place. -/
theorem before16_1_of {c : Dev nD} (dat : Dat τ (Elt F) Unit ℕ (UR sig nD τ) ℕ cfg16 c) (hA : dat.A 1 = V c (Pipeline.arrRef spec16 1))
    (hafter : ∀ t, dat.after 1 t = iblk16 V c 1 t) (t : Fin cfg16.N) (d) : dat.before 1 t d = iblk16 V c 1 t :=
  (dat.before_in_eq_fetched 1 rfl (fun _ => rfl) (fun _ _ _ => rfl) (fun t => by rw [hafter]; unfold Dat.blockOf iblk16; rw [hA]; try rfl) t d).trans
    (by unfold Dat.fetched Dat.blockOf iblk16; rw [hA]; try rfl)
/-- Input window 2's staging buffer holds its block at every point, fetched there or not, for any proof data over
    `V`'s array whose body leaves the block in place. -/
theorem before16_2_of {c : Dev nD} (dat : Dat τ (Elt F) Unit ℕ (UR sig nD τ) ℕ cfg16 c) (hA : dat.A 2 = V c (Pipeline.arrRef spec16 2))
    (hafter : ∀ t, dat.after 2 t = iblk16 V c 2 t) (t : Fin cfg16.N) (d) : dat.before 2 t d = iblk16 V c 2 t :=
  (dat.before_in_eq_fetched 2 rfl (fun _ => rfl) (fun _ _ _ => rfl) (fun t => by rw [hafter]; unfold Dat.blockOf iblk16; rw [hA]; try rfl) t d).trans
    (by unfold Dat.fetched Dat.blockOf iblk16; rw [hA]; try rfl)

/-- One staging buffer of the output window, through which its contents are stated (the choice does not matter). -/
abbrev VO16_3 : View sig .tc .vmem S1x7x16x512 .bf16 := (Memref.whole cc16_stg3_0 : Memref sig .tc .vmem S1x7x16x512 .bf16).view
/-- Each window's current staging memref at point `t`, spelled as the pipeline passes it, and its wholeness. -/
abbrev ms16_0 (t : Fin cfg16.N) : Memref sig .tc .vmem S1x16x18x512 .bf16 := win16_0.stage (cfg16.slots t 0)
abbrev hs16_0 (t : Fin cfg16.N) : (ms16_0 t).IsWhole := hstage16_0 ((cfg16.slots t 0).cast nbuf16_0)
abbrev ms16_1 (t : Fin cfg16.N) : Memref sig .tc .vmem S4608x512 .bf16 := win16_1.stage (cfg16.slots t 1)
abbrev hs16_1 (t : Fin cfg16.N) : (ms16_1 t).IsWhole := hstage16_1 ((cfg16.slots t 1).cast nbuf16_1)
abbrev ms16_2 (t : Fin cfg16.N) : Memref sig .tc .vmem S1x512 .f32 := win16_2.stage (cfg16.slots t 2)
abbrev hs16_2 (t : Fin cfg16.N) : (ms16_2 t).IsWhole := hstage16_2 ((cfg16.slots t 2).cast nbuf16_2)
abbrev ms16_3 (t : Fin cfg16.N) : Memref sig .tc .vmem S1x7x16x512 .bf16 := win16_3.stage (cfg16.slots t 3)
abbrev hs16_3 (t : Fin cfg16.N) : (ms16_3 t).IsWhole := hstage16_3 ((cfg16.slots t 3).cast nbuf16_3)

set_option maxHeartbeats 1000000 in
/-- What the body's stores leave in the output's staging memref, as pieces (last first), with the proof that on whole
    staging memrefs, the inputs' at their contents and the output's at anything, the body runs to the continuation
    holding the inputs' as they were and the output's buffer with the pieces written. The pieces are the witness the
    symbolic run of the body finds. -/
noncomputable def kernelRun16_A (c : Dev nD) (i : grid16.Coords) (arg2 : Memref sig .tc .vmem S1x16x18x512 .bf16) (harg2 : arg2.IsWhole) (arg3 : Memref sig .tc .vmem S4608x512 .bf16) (harg3 : arg3.IsWhole) (arg4 : Memref sig .tc .vmem S1x512 .f32) (harg4 : arg4.IsWhole) (arg5 : Memref sig .tc .vmem S1x7x16x512 .bf16) (harg5 : arg5.IsWhole)
    (x0 : Vec F S1x16x18x512 .bf16) (x1 : Vec F S4608x512 .bf16) (x2 : Vec F S1x512 .f32) :
    { L3 : List (View.Piece (Elt F) S1x7x16x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc16_body i arg2 harg2 arg3 harg3 arg4 harg4 arg5 harg5) K } := by
  refine ⟨?_, fun E K => ?run⟩
  case run =>
    simp only [cc16_body_eq_skeleton]; unfold cc16_body_skel
    simp only [k16_part1_eq_skeleton]
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

/-- Among the run's pieces for the output the whole-block store tiles the block by itself (the strip, of another
    size, is passed over), so the pieces cover it. -/
theorem cover16_A_3 (c : Dev nD) (i : grid16.Coords) (arg2 : Memref sig .tc .vmem S1x16x18x512 .bf16) (harg2 : arg2.IsWhole) (arg3 : Memref sig .tc .vmem S4608x512 .bf16) (harg3 : arg3.IsWhole) (arg4 : Memref sig .tc .vmem S1x512 .f32) (harg4 : arg4.IsWhole) (arg5 : Memref sig .tc .vmem S1x7x16x512 .bf16) (harg5 : arg5.IsWhole)
    (x0 : Vec F S1x16x18x512 .bf16) (x1 : Vec F S4608x512 .bf16) (x2 : Vec F S1x512 .f32) (y : S1x7x16x512.Idx) :
    ∃ pc ∈ (kernelRun16_A c i arg2 harg2 arg3 harg3 arg4 harg4 arg5 harg5 x0 x1 x2).1, y ∈ pc.1.set :=
  View.cover_of_tiledL (kernelRun16_A c i arg2 harg2 arg3 harg3 arg4 harg4 arg5 harg5 x0 x1 x2).1 S1x7x16x512.size (by sl_kernel_rfl) y

/-- What the run leaves in the output's staging buffer: its pieces read back over junk. -/
def out16_A_3 (c : Dev nD) (i : grid16.Coords) (arg2 : Memref sig .tc .vmem S1x16x18x512 .bf16) (harg2 : arg2.IsWhole) (arg3 : Memref sig .tc .vmem S4608x512 .bf16) (harg3 : arg3.IsWhole) (arg4 : Memref sig .tc .vmem S1x512 .f32) (harg4 : arg4.IsWhole) (arg5 : Memref sig .tc .vmem S1x7x16x512 .bf16) (harg5 : arg5.IsWhole)
    (x0 : Vec F S1x16x18x512 .bf16) (x1 : Vec F S4608x512 .bf16) (x2 : Vec F S1x512 .f32) : Vec F S1x7x16x512 .bf16 :=
  VO16_3.read (Elt F) (VO16_3.writes (Elt F) VO16_3.junk (kernelRun16_A c i arg2 harg2 arg3 harg3 arg4 harg4 arg5 harg5 x0 x1 x2).1)

/-- What the output's staging buffer holds after the body at point `t`: the run's contents at the point's memrefs
    and input blocks. -/
def outsAt16 (c : Dev nD) (t : Fin cfg16.N) : Vec F S1x7x16x512 .bf16 :=
  out16_A_3 c (grid16.coords t) (ms16_0 t) (hs16_0 t) (ms16_1 t) (hs16_1 t) (ms16_2 t) (hs16_2 t) (ms16_3 t) (hs16_3 t) (iblk16 V c 0 t) (iblk16 V c 1 t) (iblk16 V c 2 t)

/-- The proof data of pipeline 16 on core `c`: the arrays as the region finds them; after the body at a point each
    input's buffer at its block and the output's at `outsAt16`; the generator register and the scoped rest as
    invariant; nothing owed; full shares. -/
def dat16 (c : Dev nD) : Dat τ (Elt F) Unit ℕ (UR sig nD τ) ℕ cfg16 c where
  A w := V c (Pipeline.arrRef spec16 w)
  after w t := match w with
    | ⟨0, _⟩ => iblk16 V c 0 t
    | ⟨1, _⟩ => iblk16 V c 1 t
    | ⟨2, _⟩ => iblk16 V c 2 t
    | ⟨3, _⟩ => (outsAt16 V c t)
  Φ _ := Pipeline.ΦA spec16 c
  q _ := fullShare
  owed _ := 0

theorem A_eq16 (c : Dev nD) (w : Fin cfg16.W) : (dat16 V c).A w = V c (Pipeline.arrRef spec16 w) := by
  dsimp only [dat16]

theorem after16_0 (c : Dev nD) (t : Fin cfg16.N) : (dat16 V c).after 0 t = iblk16 V c 0 t := by dsimp only [dat16]
theorem after16_1 (c : Dev nD) (t : Fin cfg16.N) : (dat16 V c).after 1 t = iblk16 V c 1 t := by dsimp only [dat16]
theorem after16_2 (c : Dev nD) (t : Fin cfg16.N) : (dat16 V c).after 2 t = iblk16 V c 2 t := by dsimp only [dat16]
theorem after16_3 (c : Dev nD) (t : Fin cfg16.N) : (dat16 V c).after 3 t = (outsAt16 V c t) := by dsimp only [dat16]

theorem before16_0 (c : Dev nD) (t : Fin cfg16.N) (d) : (dat16 V c).before 0 t d = iblk16 V c 0 t :=
  before16_0_of V (dat16 V c) (A_eq16 V c 0) (after16_0 V c) t d
theorem before16_1 (c : Dev nD) (t : Fin cfg16.N) (d) : (dat16 V c).before 1 t d = iblk16 V c 1 t :=
  before16_1_of V (dat16 V c) (A_eq16 V c 1) (after16_1 V c) t d
theorem before16_2 (c : Dev nD) (t : Fin cfg16.N) (d) : (dat16 V c).before 2 t d = iblk16 V c 2 t :=
  before16_2_of V (dat16 V c) (A_eq16 V c 2) (after16_2 V c) t d

/-- What the body is called with at point `t`, the windows one by one, -/
def bodyPre16 (c : Dev nD) (t : Fin cfg16.N) : sProp 𝕄 :=
  iprop((dat16 V c).Φ t.castSucc ∗ (dat16 V c).owesAt () t.castSucc
    ∗ (∃ d, owns (c : Thread nD τ) (ms16_0 t) fullShare ((dat16 V c).before 0 t d))
    ∗ (∃ d, owns (c : Thread nD τ) (ms16_1 t) fullShare ((dat16 V c).before 1 t d))
    ∗ (∃ d, owns (c : Thread nD τ) (ms16_2 t) fullShare ((dat16 V c).before 2 t d))
    ∗ (∃ d, owns (c : Thread nD τ) (ms16_3 t) fullShare ((dat16 V c).before 3 t d)))

/-- and what it returns. -/
def bodyPost16 (c : Dev nD) (t : Fin cfg16.N) : sProp 𝕄 :=
  iprop((dat16 V c).Φ t.succ ∗ (dat16 V c).owesAt () t.succ
    ∗ owns (c : Thread nD τ) (ms16_0 t) fullShare ((dat16 V c).after 0 t)
    ∗ owns (c : Thread nD τ) (ms16_1 t) fullShare ((dat16 V c).after 1 t)
    ∗ owns (c : Thread nD τ) (ms16_2 t) fullShare ((dat16 V c).after 2 t)
    ∗ owns (c : Thread nD τ) (ms16_3 t) fullShare ((dat16 V c).after 3 t))

/-- The body at any point: the inputs' memrefs hold their blocks, so the run applies; the invariant passes through
    unread; the core owes nothing throughout. -/
theorem sound_body16 (c : Dev nD) (t : Fin cfg16.N) :
    bodyPre16 V c t ⊢ wp frame (wpE (defs₀ (F := F)) Variants.none c none) Set.univ (bodyAt16 t) (fun _ => bodyPost16 V c t) := by
  unfold bodyPre16 bodyPost16 bodyAt16
  simp only [before16_0, before16_1, before16_2]
  rw [show (dat16 V c).Φ t.succ = (dat16 V c).Φ t.castSucc from rfl,
    show (dat16 V c).owesAt () t.succ = (dat16 V c).owesAt () t.castSucc from rfl,
    after16_0, after16_1, after16_2, after16_3]
  unfold outsAt16
  unfold out16_A_3
  iintro ⟨HΦ, Ho, ⟨%d0, H0⟩, ⟨%d1, H1⟩, ⟨%d2, H2⟩, ⟨%d3, H3⟩⟩
  iapply ((kernelRun16_A c (grid16.coords t) _ _ _ _ _ _ _ _ (iblk16 V c 0 t) (iblk16 V c 1 t) (iblk16 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover16_A_3 c _ _ _ _ _ _ _ _ _ _ _ _)

theorem body_obligation16 (c : Dev nD) : BodyObligation (dat16 (F := F) V c) (defs₀ (F := F)) Variants.none () Set.univ := fun t => by
  rw [bigSep_W16, bigSep_W16]
  exact sound_body16 V c t

end Cert.KernelIdeal.Reg

end
-- ==== Proof.KR17.lean ====
/-
  Region 17 of the kernel's @main (the lane-half maximum that finishes a 2x2 pooling): the proof data of its
  pipeline at any entry contents `V`, and the body's obligation. The body loads its one input block whole, takes the
  pointwise maximum of the block's two lane halves and stores the result whole; so after the body at a point the
  output's staging buffer holds that one store's payload of the input block.
-/
import proofs.«100114_g2000204297211070_pallasbulk_1265_19_alg».proof.Proof.Gen.KernelIdeal.Launch
import proofs.«100114_g2000204297211070_pallasbulk_1265_19_alg».proof.Proof.Gen.KernelIdeal.Skeleton
import proofs.«100114_g2000204297211070_pallasbulk_1265_19_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk17 (c : Dev nD) (w : Fin cfg17.W) (t : Fin cfg17.N) : ((cfg17.win w).xblock (cfg17.grid.coords t)).Idx → Elt F (cfg17.win w).elt :=
  ((cfg17.win w).blk t).view.read (Elt F) (V c (Pipeline.arrRef spec17 w))

/-- The input window's staging buffer holds its block at every point, for any proof data over `V`'s array whose
    body leaves the block in place. -/
theorem before17_0_of {c : Dev nD} (dat : Dat τ (Elt F) Unit ℕ (UR sig nD τ) ℕ cfg17 c) (hA : dat.A 0 = V c (Pipeline.arrRef spec17 0))
    (hafter : ∀ t, dat.after 0 t = iblk17 V c 0 t) (t : Fin cfg17.N) (d) : dat.before 0 t d = iblk17 V c 0 t :=
  (dat.before_in_eq_fetched 0 rfl (fun _ => rfl) (fun _ _ _ => rfl) (fun t => by rw [hafter]; unfold Dat.blockOf iblk17; rw [hA]; try rfl) t d).trans
    (by unfold Dat.fetched Dat.blockOf iblk17; rw [hA]; try rfl)

abbrev r17_0 : Rect S1x7x8x1024 := Rect.unit (s := S1x7x8x1024) ![0, 0, 0, 0] S1x7x8x1024.size inb_S1x7x8x1024_S1x7x8x1024_0_0_0_0
abbrev r17_1 : Rect S1x7x8x512 := Rect.unit (s := S1x7x8x512) ![0, 0, 0, 0] S1x7x8x512.size inb_S1x7x8x512_S1x7x8x512_0_0_0_0

/-- The output's staging buffer after the body: the one whole store of the payload of the loaded input block. -/
def out17_1 (x0 : Vec F S1x7x8x1024 .bf16) : Vec F S1x7x8x512 .bf16 :=
  View.canon [⟨r17_1, k17_pay1 (View.ld x0 r17_0)⟩]

theorem cover17_1 (p0 : Vec F S1x7x8x512 .bf16) (y : S1x7x8x512.Idx) :
    ∃ pc ∈ ([⟨r17_1, p0⟩] : List (View.Piece (Elt F) S1x7x8x512 .bf16)), y ∈ pc.1.set :=
  View.cover_of_tiled [⟨r17_1, p0⟩] S1x7x8x512.size (by rfl) y

set_option maxHeartbeats 1000000 in
/-- The body on whole staging memrefs, the input's at `x0` and the output's at anything, runs to the continuation
    with the input's as it was and the output's at `out17_1 x0`. -/
theorem sound_kernel17 (c : Dev nD) (E : Set ℕ) (i : grid17.Coords) (arg1 : Memref sig .tc .vmem S1x7x8x1024 .bf16) (harg1 : arg1.IsWhole) (arg2 : Memref sig .tc .vmem S1x7x8x512 .bf16) (harg2 : arg2.IsWhole)
    (x0 : Vec F S1x7x8x1024 .bf16) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out17_1 x0)) -∗ K ⟨⟩))
      ⊢ wp frame (wpE (defs₀ (F := F)) Variants.none c none) E (cc17__wpool_kernel i arg1 harg1 arg2 harg2) K := by
  simp only [cc17__wpool_kernel_eq_skeleton]; unfold cc17__wpool_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover17_1 _)

/-- The proof data of pipeline 17 on core `c`: the arrays as the region finds them; after the body at a point the
    input's buffer at its block and the output's at `out17_1` of it; the generator register and the scoped rest as
    invariant; nothing owed; full shares. -/
def dat17 (c : Dev nD) : Dat τ (Elt F) Unit ℕ (UR sig nD τ) ℕ cfg17 c where
  A w := V c (Pipeline.arrRef spec17 w)
  after w t := match w with
    | ⟨0, _⟩ => iblk17 V c 0 t
    | ⟨1, _⟩ => out17_1 (iblk17 V c 0 t)
  Φ _ := Pipeline.ΦA spec17 c
  q _ := fullShare
  owed _ := 0

theorem A_eq17 (c : Dev nD) (w : Fin cfg17.W) : (dat17 V c).A w = V c (Pipeline.arrRef spec17 w) := by
  dsimp only [dat17]

theorem after17_0 (c : Dev nD) (t : Fin cfg17.N) : (dat17 V c).after 0 t = iblk17 V c 0 t := by dsimp only [dat17]
theorem after17_1 (c : Dev nD) (t : Fin cfg17.N) : (dat17 V c).after 1 t = out17_1 (iblk17 V c 0 t) := by dsimp only [dat17]

theorem before17_0 (c : Dev nD) (t : Fin cfg17.N) (d) : (dat17 V c).before 0 t d = iblk17 V c 0 t :=
  before17_0_of V (dat17 V c) (A_eq17 V c 0) (after17_0 V c) t d

def bodyPre17 (c : Dev nD) (t : Fin cfg17.N) : sProp 𝕄 :=
  iprop((dat17 V c).Φ t.castSucc ∗ (dat17 V c).owesAt () t.castSucc
    ∗ (∃ d, owns (c : Thread nD τ) (st17_0 t) fullShare ((dat17 V c).before 0 t d))
    ∗ (∃ d, owns (c : Thread nD τ) (st17_1 t) fullShare ((dat17 V c).before 1 t d)))

def bodyPost17 (c : Dev nD) (t : Fin cfg17.N) : sProp 𝕄 :=
  iprop((dat17 V c).Φ t.succ ∗ (dat17 V c).owesAt () t.succ
    ∗ owns (c : Thread nD τ) (st17_0 t) fullShare ((dat17 V c).after 0 t)
    ∗ owns (c : Thread nD τ) (st17_1 t) fullShare ((dat17 V c).after 1 t))

theorem sound_body17 (c : Dev nD) (t : Fin cfg17.N) :
    bodyPre17 V c t ⊢ wp frame (wpE (defs₀ (F := F)) Variants.none c none) Set.univ (bodyAt17 t) (fun _ => bodyPost17 V c t) := by
  unfold bodyPre17 bodyPost17 bodyAt17
  simp only [before17_0]
  rw [show (dat17 V c).Φ t.succ = (dat17 V c).Φ t.castSucc from rfl,
    show (dat17 V c).owesAt () t.succ = (dat17 V c).owesAt () t.castSucc from rfl,
    after17_0, after17_1]
  iintro ⟨HΦ, Ho, ⟨%d0, H0⟩, ⟨%d1, H1⟩⟩
  iapply (sound_kernel17 c Set.univ (grid17.coords t) _ _ _ _ (iblk17 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation17 (c : Dev nD) : BodyObligation (dat17 (F := F) V c) (defs₀ (F := F)) Variants.none () Set.univ := fun t => by
  rw [bigSep_W17, bigSep_W17]
  exact sound_body17 V c t

end Cert.KernelIdeal.Reg

end
-- ==== Proof.KAsm.lean ====
/-
  The kernel program's eighteen pallas regions as segments of @main's run, over the conditional frame that is generated
  for it. What each region leaves in its output buffer is the fold of its write-backs over the proof data of the
  region's frame module at the region's entry contents; those contents are defined region by region (o1 … o18: each
  stage knows the outputs of the regions before it), and outs is the last stage. Then one record per region — entered
  from every unscoped buffer at the boundary contents before it, left at the contents after it — and the frame claim
  and the run with its four results from the conditional frame.
-/
import proofs.«100114_g2000204297211070_pallasbulk_1265_19_alg».proof.Proof.KRegionsP
import proofs.«100114_g2000204297211070_pallasbulk_1265_19_alg».proof.Proof.KR0
import proofs.«100114_g2000204297211070_pallasbulk_1265_19_alg».proof.Proof.KR1
import proofs.«100114_g2000204297211070_pallasbulk_1265_19_alg».proof.Proof.KR2
import proofs.«100114_g2000204297211070_pallasbulk_1265_19_alg».proof.Proof.KR3
import proofs.«100114_g2000204297211070_pallasbulk_1265_19_alg».proof.Proof.KR4
import proofs.«100114_g2000204297211070_pallasbulk_1265_19_alg».proof.Proof.KR5
import proofs.«100114_g2000204297211070_pallasbulk_1265_19_alg».proof.Proof.KR6
import proofs.«100114_g2000204297211070_pallasbulk_1265_19_alg».proof.Proof.KR7
import proofs.«100114_g2000204297211070_pallasbulk_1265_19_alg».proof.Proof.KR8
import proofs.«100114_g2000204297211070_pallasbulk_1265_19_alg».proof.Proof.KR9
import proofs.«100114_g2000204297211070_pallasbulk_1265_19_alg».proof.Proof.KR10
import proofs.«100114_g2000204297211070_pallasbulk_1265_19_alg».proof.Proof.KR11
import proofs.«100114_g2000204297211070_pallasbulk_1265_19_alg».proof.Proof.KR12
import proofs.«100114_g2000204297211070_pallasbulk_1265_19_alg».proof.Proof.KR13
import proofs.«100114_g2000204297211070_pallasbulk_1265_19_alg».proof.Proof.KR14
import proofs.«100114_g2000204297211070_pallasbulk_1265_19_alg».proof.Proof.KR15
import proofs.«100114_g2000204297211070_pallasbulk_1265_19_alg».proof.Proof.KR16
import proofs.«100114_g2000204297211070_pallasbulk_1265_19_alg».proof.Proof.KR17
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Asm

open Cert.KernelIdeal Cert.KernelIdeal.Gen Cert.KernelIdeal.GenP Cert.KernelIdeal.Reg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## What the regions leave: the boundary contents, boundary by boundary -/

/-- The contents at boundary 3 (region 0's entry): the launch memory after the first three host stretches. -/
abbrev U3 (c : Dev nD) : Valuation τ sig (Elt F) := V3 m c
/-- Region 0's entry contents read at the TensorCore's references. -/
abbrev EU0 : (c : Dev nD) → (b : Ref sig .tc) → Buf (Elt F) ((c : Thread nD τ).loc b) := fun c b => U3 m c b
/-- What region 0 leaves in main_v15: the fold of its write-backs over its proof data at its entry contents. -/
def val0 (c : Dev nD) : Buf (Elt F) ((c : Thread nD τ).loc main_v15) := (dat0 (EU0 m) c).arrAt 3 cfg0.N
/-- The contents at boundary 4: region 0 has changed main_v15. -/
def U4 (c : Dev nD) : Valuation τ sig (Elt F) := Function.update (U3 m c) main_v15 (val0 m c)
/-- The contents at boundary 5: after the host stretch hostOps1. -/
def U5 (c : Dev nD) : Valuation τ sig (Elt F) := StableHlo.after hostOps1 (U4 m c)
/-- Region 1's entry contents read at the TensorCore's references. -/
abbrev EU1 : (c : Dev nD) → (b : Ref sig .tc) → Buf (Elt F) ((c : Thread nD τ).loc b) := fun c b => U5 m c b
/-- What region 1 leaves in main_v18: the fold of its write-backs over its proof data at its entry contents. -/
def val1 (c : Dev nD) : Buf (Elt F) ((c : Thread nD τ).loc main_v18) := (dat1 (EU1 m) c).arrAt 3 cfg1.N
/-- The contents at boundary 6: region 1 has changed main_v18. -/
def U6 (c : Dev nD) : Valuation τ sig (Elt F) := Function.update (U5 m c) main_v18 (val1 m c)
/-- The contents at boundary 7: after the host stretch hostOps2. -/
def U7 (c : Dev nD) : Valuation τ sig (Elt F) := StableHlo.after hostOps2 (U6 m c)
/-- Region 2's entry contents read at the TensorCore's references. -/
abbrev EU2 : (c : Dev nD) → (b : Ref sig .tc) → Buf (Elt F) ((c : Thread nD τ).loc b) := fun c b => U7 m c b
/-- What region 2 leaves in main_v20: the fold of its write-backs over its proof data at its entry contents. -/
def val2 (c : Dev nD) : Buf (Elt F) ((c : Thread nD τ).loc main_v20) := (dat2 (EU2 m) c).arrAt 1 cfg2.N
/-- The contents at boundary 8: region 2 has changed main_v20. -/
def U8 (c : Dev nD) : Valuation τ sig (Elt F) := Function.update (U7 m c) main_v20 (val2 m c)
/-- The contents at boundary 9: after the host stretch hostOps3. -/
def U9 (c : Dev nD) : Valuation τ sig (Elt F) := StableHlo.after hostOps3 (U8 m c)
/-- The contents at boundary 10: after the host stretch hostOps3_1. -/
def U10 (c : Dev nD) : Valuation τ sig (Elt F) := StableHlo.after hostOps3_1 (U9 m c)
/-- The contents at boundary 11: after the host stretch hostOps3_2. -/
def U11 (c : Dev nD) : Valuation τ sig (Elt F) := StableHlo.after hostOps3_2 (U10 m c)
/-- Region 3's entry contents read at the TensorCore's references. -/
abbrev EU3 : (c : Dev nD) → (b : Ref sig .tc) → Buf (Elt F) ((c : Thread nD τ).loc b) := fun c b => U11 m c b
/-- What region 3 leaves in main_v24: the fold of its write-backs over its proof data at its entry contents. -/
def val3 (c : Dev nD) : Buf (Elt F) ((c : Thread nD τ).loc main_v24) := (dat3 (EU3 m) c).arrAt 3 cfg3.N
/-- The contents at boundary 12: region 3 has changed main_v24. -/
def U12 (c : Dev nD) : Valuation τ sig (Elt F) := Function.update (U11 m c) main_v24 (val3 m c)
/-- The contents at boundary 13: after the host stretch hostOps4. -/
def U13 (c : Dev nD) : Valuation τ sig (Elt F) := StableHlo.after hostOps4 (U12 m c)
/-- The contents at boundary 14: after the host stretch hostOps4_1. -/
def U14 (c : Dev nD) : Valuation τ sig (Elt F) := StableHlo.after hostOps4_1 (U13 m c)
/-- The contents at boundary 15: after the host stretch hostOps4_2. -/
def U15 (c : Dev nD) : Valuation τ sig (Elt F) := StableHlo.after hostOps4_2 (U14 m c)
/-- Region 4's entry contents read at the TensorCore's references. -/
abbrev EU4 : (c : Dev nD) → (b : Ref sig .tc) → Buf (Elt F) ((c : Thread nD τ).loc b) := fun c b => U15 m c b
/-- What region 4 leaves in main_v28: the fold of its write-backs over its proof data at its entry contents. -/
def val4 (c : Dev nD) : Buf (Elt F) ((c : Thread nD τ).loc main_v28) := (dat4 (EU4 m) c).arrAt 3 cfg4.N
/-- The contents at boundary 16: region 4 has changed main_v28. -/
def U16 (c : Dev nD) : Valuation τ sig (Elt F) := Function.update (U15 m c) main_v28 (val4 m c)
/-- The contents at boundary 17: after the host stretch hostOps5. -/
def U17 (c : Dev nD) : Valuation τ sig (Elt F) := StableHlo.after hostOps5 (U16 m c)
/-- Region 5's entry contents read at the TensorCore's references. -/
abbrev EU5 : (c : Dev nD) → (b : Ref sig .tc) → Buf (Elt F) ((c : Thread nD τ).loc b) := fun c b => U17 m c b
/-- What region 5 leaves in main_v30: the fold of its write-backs over its proof data at its entry contents. -/
def val5 (c : Dev nD) : Buf (Elt F) ((c : Thread nD τ).loc main_v30) := (dat5 (EU5 m) c).arrAt 1 cfg5.N
/-- The contents at boundary 18: region 5 has changed main_v30. -/
def U18 (c : Dev nD) : Valuation τ sig (Elt F) := Function.update (U17 m c) main_v30 (val5 m c)
/-- The contents at boundary 19: after the host stretch hostOps6. -/
def U19 (c : Dev nD) : Valuation τ sig (Elt F) := StableHlo.after hostOps6 (U18 m c)
/-- The contents at boundary 20: after the host stretch hostOps6_1. -/
def U20 (c : Dev nD) : Valuation τ sig (Elt F) := StableHlo.after hostOps6_1 (U19 m c)
/-- The contents at boundary 21: after the host stretch hostOps6_2. -/
def U21 (c : Dev nD) : Valuation τ sig (Elt F) := StableHlo.after hostOps6_2 (U20 m c)
/-- Region 6's entry contents read at the TensorCore's references. -/
abbrev EU6 : (c : Dev nD) → (b : Ref sig .tc) → Buf (Elt F) ((c : Thread nD τ).loc b) := fun c b => U21 m c b
/-- What region 6 leaves in main_v34: the fold of its write-backs over its proof data at its entry contents. -/
def val6 (c : Dev nD) : Buf (Elt F) ((c : Thread nD τ).loc main_v34) := (dat6 (EU6 m) c).arrAt 3 cfg6.N
/-- The contents at boundary 22: region 6 has changed main_v34. -/
def U22 (c : Dev nD) : Valuation τ sig (Elt F) := Function.update (U21 m c) main_v34 (val6 m c)
/-- The contents at boundary 23: after the host stretch hostOps7. -/
def U23 (c : Dev nD) : Valuation τ sig (Elt F) := StableHlo.after hostOps7 (U22 m c)
/-- Region 7's entry contents read at the TensorCore's references. -/
abbrev EU7 : (c : Dev nD) → (b : Ref sig .tc) → Buf (Elt F) ((c : Thread nD τ).loc b) := fun c b => U23 m c b
/-- What region 7 leaves in main_v37: the fold of its write-backs over its proof data at its entry contents. -/
def val7 (c : Dev nD) : Buf (Elt F) ((c : Thread nD τ).loc main_v37) := (dat7 (EU7 m) c).arrAt 3 cfg7.N
/-- The contents at boundary 24: region 7 has changed main_v37. -/
def U24 (c : Dev nD) : Valuation τ sig (Elt F) := Function.update (U23 m c) main_v37 (val7 m c)
/-- The contents at boundary 25: after the host stretch hostOps8. -/
def U25 (c : Dev nD) : Valuation τ sig (Elt F) := StableHlo.after hostOps8 (U24 m c)
/-- Region 8's entry contents read at the TensorCore's references. -/
abbrev EU8 : (c : Dev nD) → (b : Ref sig .tc) → Buf (Elt F) ((c : Thread nD τ).loc b) := fun c b => U25 m c b
/-- What region 8 leaves in main_v40: the fold of its write-backs over its proof data at its entry contents. -/
def val8 (c : Dev nD) : Buf (Elt F) ((c : Thread nD τ).loc main_v40) := (dat8 (EU8 m) c).arrAt 3 cfg8.N
/-- The contents at boundary 26: region 8 has changed main_v40. -/
def U26 (c : Dev nD) : Valuation τ sig (Elt F) := Function.update (U25 m c) main_v40 (val8 m c)
/-- The contents at boundary 27: after the host stretch hostOps9. -/
def U27 (c : Dev nD) : Valuation τ sig (Elt F) := StableHlo.after hostOps9 (U26 m c)
/-- Region 9's entry contents read at the TensorCore's references. -/
abbrev EU9 : (c : Dev nD) → (b : Ref sig .tc) → Buf (Elt F) ((c : Thread nD τ).loc b) := fun c b => U27 m c b
/-- What region 9 leaves in main_v42: the fold of its write-backs over its proof data at its entry contents. -/
def val9 (c : Dev nD) : Buf (Elt F) ((c : Thread nD τ).loc main_v42) := (dat9 (EU9 m) c).arrAt 1 cfg9.N
/-- The contents at boundary 28: region 9 has changed main_v42. -/
def U28 (c : Dev nD) : Valuation τ sig (Elt F) := Function.update (U27 m c) main_v42 (val9 m c)
/-- The contents at boundary 29: after the host stretch hostOps10. -/
def U29 (c : Dev nD) : Valuation τ sig (Elt F) := StableHlo.after hostOps10 (U28 m c)
/-- The contents at boundary 30: after the host stretch hostOps10_1. -/
def U30 (c : Dev nD) : Valuation τ sig (Elt F) := StableHlo.after hostOps10_1 (U29 m c)
/-- The contents at boundary 31: after the host stretch hostOps10_2. -/
def U31 (c : Dev nD) : Valuation τ sig (Elt F) := StableHlo.after hostOps10_2 (U30 m c)
/-- Region 10's entry contents read at the TensorCore's references. -/
abbrev EU10 : (c : Dev nD) → (b : Ref sig .tc) → Buf (Elt F) ((c : Thread nD τ).loc b) := fun c b => U31 m c b
/-- What region 10 leaves in main_v46: the fold of its write-backs over its proof data at its entry contents. -/
def val10 (c : Dev nD) : Buf (Elt F) ((c : Thread nD τ).loc main_v46) := (dat10 (EU10 m) c).arrAt 3 cfg10.N
/-- The contents at boundary 32: region 10 has changed main_v46. -/
def U32 (c : Dev nD) : Valuation τ sig (Elt F) := Function.update (U31 m c) main_v46 (val10 m c)
/-- The contents at boundary 33: after the host stretch hostOps11. -/
def U33 (c : Dev nD) : Valuation τ sig (Elt F) := StableHlo.after hostOps11 (U32 m c)
/-- Region 11's entry contents read at the TensorCore's references. -/
abbrev EU11 : (c : Dev nD) → (b : Ref sig .tc) → Buf (Elt F) ((c : Thread nD τ).loc b) := fun c b => U33 m c b
/-- What region 11 leaves in main_v49: the fold of its write-backs over its proof data at its entry contents. -/
def val11 (c : Dev nD) : Buf (Elt F) ((c : Thread nD τ).loc main_v49) := (dat11 (EU11 m) c).arrAt 3 cfg11.N
/-- The contents at boundary 34: region 11 has changed main_v49. -/
def U34 (c : Dev nD) : Valuation τ sig (Elt F) := Function.update (U33 m c) main_v49 (val11 m c)
/-- The contents at boundary 35: after the host stretch hostOps12. -/
def U35 (c : Dev nD) : Valuation τ sig (Elt F) := StableHlo.after hostOps12 (U34 m c)
/-- Region 12's entry contents read at the TensorCore's references. -/
abbrev EU12 : (c : Dev nD) → (b : Ref sig .tc) → Buf (Elt F) ((c : Thread nD τ).loc b) := fun c b => U35 m c b
/-- What region 12 leaves in main_v52: the fold of its write-backs over its proof data at its entry contents. -/
def val12 (c : Dev nD) : Buf (Elt F) ((c : Thread nD τ).loc main_v52) := (dat12 (EU12 m) c).arrAt 3 cfg12.N
/-- The contents at boundary 36: region 12 has changed main_v52. -/
def U36 (c : Dev nD) : Valuation τ sig (Elt F) := Function.update (U35 m c) main_v52 (val12 m c)
/-- The contents at boundary 37: after the host stretch hostOps13. -/
def U37 (c : Dev nD) : Valuation τ sig (Elt F) := StableHlo.after hostOps13 (U36 m c)
/-- Region 13's entry contents read at the TensorCore's references. -/
abbrev EU13 : (c : Dev nD) → (b : Ref sig .tc) → Buf (Elt F) ((c : Thread nD τ).loc b) := fun c b => U37 m c b
/-- What region 13 leaves in main_v54: the fold of its write-backs over its proof data at its entry contents. -/
def val13 (c : Dev nD) : Buf (Elt F) ((c : Thread nD τ).loc main_v54) := (dat13 (EU13 m) c).arrAt 1 cfg13.N
/-- The contents at boundary 38: region 13 has changed main_v54. -/
def U38 (c : Dev nD) : Valuation τ sig (Elt F) := Function.update (U37 m c) main_v54 (val13 m c)
/-- The contents at boundary 39: after the host stretch hostOps14. -/
def U39 (c : Dev nD) : Valuation τ sig (Elt F) := StableHlo.after hostOps14 (U38 m c)
/-- The contents at boundary 40: after the host stretch hostOps14_1. -/
def U40 (c : Dev nD) : Valuation τ sig (Elt F) := StableHlo.after hostOps14_1 (U39 m c)
/-- The contents at boundary 41: after the host stretch hostOps14_2. -/
def U41 (c : Dev nD) : Valuation τ sig (Elt F) := StableHlo.after hostOps14_2 (U40 m c)
/-- Region 14's entry contents read at the TensorCore's references. -/
abbrev EU14 : (c : Dev nD) → (b : Ref sig .tc) → Buf (Elt F) ((c : Thread nD τ).loc b) := fun c b => U41 m c b
/-- What region 14 leaves in main_v58: the fold of its write-backs over its proof data at its entry contents. -/
def val14 (c : Dev nD) : Buf (Elt F) ((c : Thread nD τ).loc main_v58) := (dat14 (EU14 m) c).arrAt 3 cfg14.N
/-- The contents at boundary 42: region 14 has changed main_v58. -/
def U42 (c : Dev nD) : Valuation τ sig (Elt F) := Function.update (U41 m c) main_v58 (val14 m c)
/-- The contents at boundary 43: after the host stretch hostOps15. -/
def U43 (c : Dev nD) : Valuation τ sig (Elt F) := StableHlo.after hostOps15 (U42 m c)
/-- Region 15's entry contents read at the TensorCore's references. -/
abbrev EU15 : (c : Dev nD) → (b : Ref sig .tc) → Buf (Elt F) ((c : Thread nD τ).loc b) := fun c b => U43 m c b
/-- What region 15 leaves in main_v61: the fold of its write-backs over its proof data at its entry contents. -/
def val15 (c : Dev nD) : Buf (Elt F) ((c : Thread nD τ).loc main_v61) := (dat15 (EU15 m) c).arrAt 3 cfg15.N
/-- The contents at boundary 44: region 15 has changed main_v61. -/
def U44 (c : Dev nD) : Valuation τ sig (Elt F) := Function.update (U43 m c) main_v61 (val15 m c)
/-- The contents at boundary 45: after the host stretch hostOps16. -/
def U45 (c : Dev nD) : Valuation τ sig (Elt F) := StableHlo.after hostOps16 (U44 m c)
/-- Region 16's entry contents read at the TensorCore's references. -/
abbrev EU16 : (c : Dev nD) → (b : Ref sig .tc) → Buf (Elt F) ((c : Thread nD τ).loc b) := fun c b => U45 m c b
/-- What region 16 leaves in main_v64: the fold of its write-backs over its proof data at its entry contents. -/
def val16 (c : Dev nD) : Buf (Elt F) ((c : Thread nD τ).loc main_v64) := (dat16 (EU16 m) c).arrAt 3 cfg16.N
/-- The contents at boundary 46: region 16 has changed main_v64. -/
def U46 (c : Dev nD) : Valuation τ sig (Elt F) := Function.update (U45 m c) main_v64 (val16 m c)
/-- The contents at boundary 47: after the host stretch hostOps17. -/
def U47 (c : Dev nD) : Valuation τ sig (Elt F) := StableHlo.after hostOps17 (U46 m c)
/-- Region 17's entry contents read at the TensorCore's references. -/
abbrev EU17 : (c : Dev nD) → (b : Ref sig .tc) → Buf (Elt F) ((c : Thread nD τ).loc b) := fun c b => U47 m c b
/-- What region 17 leaves in main_v66: the fold of its write-backs over its proof data at its entry contents. -/
def val17 (c : Dev nD) : Buf (Elt F) ((c : Thread nD τ).loc main_v66) := (dat17 (EU17 m) c).arrAt 1 cfg17.N
/-- The contents at boundary 48: region 17 has changed main_v66. -/
def U48 (c : Dev nD) : Valuation τ sig (Elt F) := Function.update (U47 m c) main_v66 (val17 m c)

/-- What every region leaves: at item J the boundary's contents (read only at the region's own output). -/
def outs : Outs (F := F) := fun J r c =>
  match J with
  | 4 => U4 m c r
  | 6 => U6 m c r
  | 8 => U8 m c r
  | 12 => U12 m c r
  | 16 => U16 m c r
  | 18 => U18 m c r
  | 22 => U22 m c r
  | 24 => U24 m c r
  | 26 => U26 m c r
  | 28 => U28 m c r
  | 32 => U32 m c r
  | 34 => U34 m c r
  | 36 => U36 m c r
  | 38 => U38 m c r
  | 42 => U42 m c r
  | 44 => U44 m c r
  | 46 => U46 m c r
  | 48 => U48 m c r
  | _ => m ((c : Thread nD τ).loc r)

theorem outs_val0 (c : Dev nD) : outs m 4 main_v15 c = val0 m c := by
  show U4 m c main_v15 = _
  unfold U4; exact Function.update_self (Proc.devRef (τ := τ) .tc main_v15) (val0 m c) (U3 m c)
theorem outs_val1 (c : Dev nD) : outs m 6 main_v18 c = val1 m c := by
  show U6 m c main_v18 = _
  unfold U6; exact Function.update_self (Proc.devRef (τ := τ) .tc main_v18) (val1 m c) (U5 m c)
theorem outs_val2 (c : Dev nD) : outs m 8 main_v20 c = val2 m c := by
  show U8 m c main_v20 = _
  unfold U8; exact Function.update_self (Proc.devRef (τ := τ) .tc main_v20) (val2 m c) (U7 m c)
theorem outs_val3 (c : Dev nD) : outs m 12 main_v24 c = val3 m c := by
  show U12 m c main_v24 = _
  unfold U12; exact Function.update_self (Proc.devRef (τ := τ) .tc main_v24) (val3 m c) (U11 m c)
theorem outs_val4 (c : Dev nD) : outs m 16 main_v28 c = val4 m c := by
  show U16 m c main_v28 = _
  unfold U16; exact Function.update_self (Proc.devRef (τ := τ) .tc main_v28) (val4 m c) (U15 m c)
theorem outs_val5 (c : Dev nD) : outs m 18 main_v30 c = val5 m c := by
  show U18 m c main_v30 = _
  unfold U18; exact Function.update_self (Proc.devRef (τ := τ) .tc main_v30) (val5 m c) (U17 m c)
theorem outs_val6 (c : Dev nD) : outs m 22 main_v34 c = val6 m c := by
  show U22 m c main_v34 = _
  unfold U22; exact Function.update_self (Proc.devRef (τ := τ) .tc main_v34) (val6 m c) (U21 m c)
theorem outs_val7 (c : Dev nD) : outs m 24 main_v37 c = val7 m c := by
  show U24 m c main_v37 = _
  unfold U24; exact Function.update_self (Proc.devRef (τ := τ) .tc main_v37) (val7 m c) (U23 m c)
theorem outs_val8 (c : Dev nD) : outs m 26 main_v40 c = val8 m c := by
  show U26 m c main_v40 = _
  unfold U26; exact Function.update_self (Proc.devRef (τ := τ) .tc main_v40) (val8 m c) (U25 m c)
theorem outs_val9 (c : Dev nD) : outs m 28 main_v42 c = val9 m c := by
  show U28 m c main_v42 = _
  unfold U28; exact Function.update_self (Proc.devRef (τ := τ) .tc main_v42) (val9 m c) (U27 m c)
theorem outs_val10 (c : Dev nD) : outs m 32 main_v46 c = val10 m c := by
  show U32 m c main_v46 = _
  unfold U32; exact Function.update_self (Proc.devRef (τ := τ) .tc main_v46) (val10 m c) (U31 m c)
theorem outs_val11 (c : Dev nD) : outs m 34 main_v49 c = val11 m c := by
  show U34 m c main_v49 = _
  unfold U34; exact Function.update_self (Proc.devRef (τ := τ) .tc main_v49) (val11 m c) (U33 m c)
theorem outs_val12 (c : Dev nD) : outs m 36 main_v52 c = val12 m c := by
  show U36 m c main_v52 = _
  unfold U36; exact Function.update_self (Proc.devRef (τ := τ) .tc main_v52) (val12 m c) (U35 m c)
theorem outs_val13 (c : Dev nD) : outs m 38 main_v54 c = val13 m c := by
  show U38 m c main_v54 = _
  unfold U38; exact Function.update_self (Proc.devRef (τ := τ) .tc main_v54) (val13 m c) (U37 m c)
theorem outs_val14 (c : Dev nD) : outs m 42 main_v58 c = val14 m c := by
  show U42 m c main_v58 = _
  unfold U42; exact Function.update_self (Proc.devRef (τ := τ) .tc main_v58) (val14 m c) (U41 m c)
theorem outs_val15 (c : Dev nD) : outs m 44 main_v61 c = val15 m c := by
  show U44 m c main_v61 = _
  unfold U44; exact Function.update_self (Proc.devRef (τ := τ) .tc main_v61) (val15 m c) (U43 m c)
theorem outs_val16 (c : Dev nD) : outs m 46 main_v64 c = val16 m c := by
  show U46 m c main_v64 = _
  unfold U46; exact Function.update_self (Proc.devRef (τ := τ) .tc main_v64) (val16 m c) (U45 m c)
theorem outs_val17 (c : Dev nD) : outs m 48 main_v66 c = val17 m c := by
  show U48 m c main_v66 = _
  unfold U48; exact Function.update_self (Proc.devRef (τ := τ) .tc main_v66) (val17 m c) (U47 m c)

/-- The generated boundary contents at these outs are the ones above. -/
theorem V3_eq : V3 m = U3 m := rfl
theorem V4_eq : V4 m (outs m) = U4 m := by
  funext c
  show Function.update (V3 m c) main_v15 (outs m 4 main_v15 c) = U4 m c
  rw [outs_val0]; rfl
theorem V5_eq : V5 m (outs m) = U5 m := by
  funext c
  show StableHlo.after hostOps1 (V4 m (outs m) c) = U5 m c
  rw [V4_eq]; rfl
theorem V6_eq : V6 m (outs m) = U6 m := by
  funext c
  show Function.update (V5 m (outs m) c) main_v18 (outs m 6 main_v18 c) = U6 m c
  rw [V5_eq, outs_val1]; rfl
theorem V7_eq : V7 m (outs m) = U7 m := by
  funext c
  show StableHlo.after hostOps2 (V6 m (outs m) c) = U7 m c
  rw [V6_eq]; rfl
theorem V8_eq : V8 m (outs m) = U8 m := by
  funext c
  show Function.update (V7 m (outs m) c) main_v20 (outs m 8 main_v20 c) = U8 m c
  rw [V7_eq, outs_val2]; rfl
theorem V9_eq : V9 m (outs m) = U9 m := by
  funext c
  show StableHlo.after hostOps3 (V8 m (outs m) c) = U9 m c
  rw [V8_eq]; rfl
theorem V10_eq : V10 m (outs m) = U10 m := by
  funext c
  show StableHlo.after hostOps3_1 (V9 m (outs m) c) = U10 m c
  rw [V9_eq]; rfl
theorem V11_eq : V11 m (outs m) = U11 m := by
  funext c
  show StableHlo.after hostOps3_2 (V10 m (outs m) c) = U11 m c
  rw [V10_eq]; rfl
theorem V12_eq : V12 m (outs m) = U12 m := by
  funext c
  show Function.update (V11 m (outs m) c) main_v24 (outs m 12 main_v24 c) = U12 m c
  rw [V11_eq, outs_val3]; rfl
theorem V13_eq : V13 m (outs m) = U13 m := by
  funext c
  show StableHlo.after hostOps4 (V12 m (outs m) c) = U13 m c
  rw [V12_eq]; rfl
theorem V14_eq : V14 m (outs m) = U14 m := by
  funext c
  show StableHlo.after hostOps4_1 (V13 m (outs m) c) = U14 m c
  rw [V13_eq]; rfl
theorem V15_eq : V15 m (outs m) = U15 m := by
  funext c
  show StableHlo.after hostOps4_2 (V14 m (outs m) c) = U15 m c
  rw [V14_eq]; rfl
theorem V16_eq : V16 m (outs m) = U16 m := by
  funext c
  show Function.update (V15 m (outs m) c) main_v28 (outs m 16 main_v28 c) = U16 m c
  rw [V15_eq, outs_val4]; rfl
theorem V17_eq : V17 m (outs m) = U17 m := by
  funext c
  show StableHlo.after hostOps5 (V16 m (outs m) c) = U17 m c
  rw [V16_eq]; rfl
theorem V18_eq : V18 m (outs m) = U18 m := by
  funext c
  show Function.update (V17 m (outs m) c) main_v30 (outs m 18 main_v30 c) = U18 m c
  rw [V17_eq, outs_val5]; rfl
theorem V19_eq : V19 m (outs m) = U19 m := by
  funext c
  show StableHlo.after hostOps6 (V18 m (outs m) c) = U19 m c
  rw [V18_eq]; rfl
theorem V20_eq : V20 m (outs m) = U20 m := by
  funext c
  show StableHlo.after hostOps6_1 (V19 m (outs m) c) = U20 m c
  rw [V19_eq]; rfl
theorem V21_eq : V21 m (outs m) = U21 m := by
  funext c
  show StableHlo.after hostOps6_2 (V20 m (outs m) c) = U21 m c
  rw [V20_eq]; rfl
theorem V22_eq : V22 m (outs m) = U22 m := by
  funext c
  show Function.update (V21 m (outs m) c) main_v34 (outs m 22 main_v34 c) = U22 m c
  rw [V21_eq, outs_val6]; rfl
theorem V23_eq : V23 m (outs m) = U23 m := by
  funext c
  show StableHlo.after hostOps7 (V22 m (outs m) c) = U23 m c
  rw [V22_eq]; rfl
theorem V24_eq : V24 m (outs m) = U24 m := by
  funext c
  show Function.update (V23 m (outs m) c) main_v37 (outs m 24 main_v37 c) = U24 m c
  rw [V23_eq, outs_val7]; rfl
theorem V25_eq : V25 m (outs m) = U25 m := by
  funext c
  show StableHlo.after hostOps8 (V24 m (outs m) c) = U25 m c
  rw [V24_eq]; rfl
theorem V26_eq : V26 m (outs m) = U26 m := by
  funext c
  show Function.update (V25 m (outs m) c) main_v40 (outs m 26 main_v40 c) = U26 m c
  rw [V25_eq, outs_val8]; rfl
theorem V27_eq : V27 m (outs m) = U27 m := by
  funext c
  show StableHlo.after hostOps9 (V26 m (outs m) c) = U27 m c
  rw [V26_eq]; rfl
theorem V28_eq : V28 m (outs m) = U28 m := by
  funext c
  show Function.update (V27 m (outs m) c) main_v42 (outs m 28 main_v42 c) = U28 m c
  rw [V27_eq, outs_val9]; rfl
theorem V29_eq : V29 m (outs m) = U29 m := by
  funext c
  show StableHlo.after hostOps10 (V28 m (outs m) c) = U29 m c
  rw [V28_eq]; rfl
theorem V30_eq : V30 m (outs m) = U30 m := by
  funext c
  show StableHlo.after hostOps10_1 (V29 m (outs m) c) = U30 m c
  rw [V29_eq]; rfl
theorem V31_eq : V31 m (outs m) = U31 m := by
  funext c
  show StableHlo.after hostOps10_2 (V30 m (outs m) c) = U31 m c
  rw [V30_eq]; rfl
theorem V32_eq : V32 m (outs m) = U32 m := by
  funext c
  show Function.update (V31 m (outs m) c) main_v46 (outs m 32 main_v46 c) = U32 m c
  rw [V31_eq, outs_val10]; rfl
theorem V33_eq : V33 m (outs m) = U33 m := by
  funext c
  show StableHlo.after hostOps11 (V32 m (outs m) c) = U33 m c
  rw [V32_eq]; rfl
theorem V34_eq : V34 m (outs m) = U34 m := by
  funext c
  show Function.update (V33 m (outs m) c) main_v49 (outs m 34 main_v49 c) = U34 m c
  rw [V33_eq, outs_val11]; rfl
theorem V35_eq : V35 m (outs m) = U35 m := by
  funext c
  show StableHlo.after hostOps12 (V34 m (outs m) c) = U35 m c
  rw [V34_eq]; rfl
theorem V36_eq : V36 m (outs m) = U36 m := by
  funext c
  show Function.update (V35 m (outs m) c) main_v52 (outs m 36 main_v52 c) = U36 m c
  rw [V35_eq, outs_val12]; rfl
theorem V37_eq : V37 m (outs m) = U37 m := by
  funext c
  show StableHlo.after hostOps13 (V36 m (outs m) c) = U37 m c
  rw [V36_eq]; rfl
theorem V38_eq : V38 m (outs m) = U38 m := by
  funext c
  show Function.update (V37 m (outs m) c) main_v54 (outs m 38 main_v54 c) = U38 m c
  rw [V37_eq, outs_val13]; rfl
theorem V39_eq : V39 m (outs m) = U39 m := by
  funext c
  show StableHlo.after hostOps14 (V38 m (outs m) c) = U39 m c
  rw [V38_eq]; rfl
theorem V40_eq : V40 m (outs m) = U40 m := by
  funext c
  show StableHlo.after hostOps14_1 (V39 m (outs m) c) = U40 m c
  rw [V39_eq]; rfl
theorem V41_eq : V41 m (outs m) = U41 m := by
  funext c
  show StableHlo.after hostOps14_2 (V40 m (outs m) c) = U41 m c
  rw [V40_eq]; rfl
theorem V42_eq : V42 m (outs m) = U42 m := by
  funext c
  show Function.update (V41 m (outs m) c) main_v58 (outs m 42 main_v58 c) = U42 m c
  rw [V41_eq, outs_val14]; rfl
theorem V43_eq : V43 m (outs m) = U43 m := by
  funext c
  show StableHlo.after hostOps15 (V42 m (outs m) c) = U43 m c
  rw [V42_eq]; rfl
theorem V44_eq : V44 m (outs m) = U44 m := by
  funext c
  show Function.update (V43 m (outs m) c) main_v61 (outs m 44 main_v61 c) = U44 m c
  rw [V43_eq, outs_val15]; rfl
theorem V45_eq : V45 m (outs m) = U45 m := by
  funext c
  show StableHlo.after hostOps16 (V44 m (outs m) c) = U45 m c
  rw [V44_eq]; rfl
theorem V46_eq : V46 m (outs m) = U46 m := by
  funext c
  show Function.update (V45 m (outs m) c) main_v64 (outs m 46 main_v64 c) = U46 m c
  rw [V45_eq, outs_val16]; rfl
theorem V47_eq : V47 m (outs m) = U47 m := by
  funext c
  show StableHlo.after hostOps17 (V46 m (outs m) c) = U47 m c
  rw [V46_eq]; rfl
theorem V48_eq : V48 m (outs m) = U48 m := by
  funext c
  show Function.update (V47 m (outs m) c) main_v66 (outs m 48 main_v66 c) = U48 m c
  rw [V47_eq, outs_val17]; rfl

/-- Region 0's entry contents read at the TensorCore's references. -/
abbrev E0 (o : Outs (F := F)) : (c : Dev nD) → (b : Ref sig .tc) → Buf (Elt F) ((c : Thread nD τ).loc b) := fun c b => V3 m c b
/-- What outs holds for region 0's output. -/
theorem outs_0 (c : Dev nD) : outs m 4 main_v15 c = (dat0 (E0 m (outs m)) c).arrAt 3 cfg0.N := by
  rw [outs_val0]; rfl

/-- Region 1's entry contents read at the TensorCore's references. -/
abbrev E1 (o : Outs (F := F)) : (c : Dev nD) → (b : Ref sig .tc) → Buf (Elt F) ((c : Thread nD τ).loc b) := fun c b => V5 m (o) c b
/-- What outs holds for region 1's output. -/
theorem outs_1 (c : Dev nD) : outs m 6 main_v18 c = (dat1 (E1 m (outs m)) c).arrAt 3 cfg1.N := by
  rw [outs_val1]; unfold val1; rw [show E1 m (outs m) = EU1 m from by unfold E1 EU1; rw [V5_eq]]

/-- Region 2's entry contents read at the TensorCore's references. -/
abbrev E2 (o : Outs (F := F)) : (c : Dev nD) → (b : Ref sig .tc) → Buf (Elt F) ((c : Thread nD τ).loc b) := fun c b => V7 m (o) c b
/-- What outs holds for region 2's output. -/
theorem outs_2 (c : Dev nD) : outs m 8 main_v20 c = (dat2 (E2 m (outs m)) c).arrAt 1 cfg2.N := by
  rw [outs_val2]; unfold val2; rw [show E2 m (outs m) = EU2 m from by unfold E2 EU2; rw [V7_eq]]

/-- Region 3's entry contents read at the TensorCore's references. -/
abbrev E3 (o : Outs (F := F)) : (c : Dev nD) → (b : Ref sig .tc) → Buf (Elt F) ((c : Thread nD τ).loc b) := fun c b => V11 m (o) c b
/-- What outs holds for region 3's output. -/
theorem outs_3 (c : Dev nD) : outs m 12 main_v24 c = (dat3 (E3 m (outs m)) c).arrAt 3 cfg3.N := by
  rw [outs_val3]; unfold val3; rw [show E3 m (outs m) = EU3 m from by unfold E3 EU3; rw [V11_eq]]

/-- Region 4's entry contents read at the TensorCore's references. -/
abbrev E4 (o : Outs (F := F)) : (c : Dev nD) → (b : Ref sig .tc) → Buf (Elt F) ((c : Thread nD τ).loc b) := fun c b => V15 m (o) c b
/-- What outs holds for region 4's output. -/
theorem outs_4 (c : Dev nD) : outs m 16 main_v28 c = (dat4 (E4 m (outs m)) c).arrAt 3 cfg4.N := by
  rw [outs_val4]; unfold val4; rw [show E4 m (outs m) = EU4 m from by unfold E4 EU4; rw [V15_eq]]

/-- Region 5's entry contents read at the TensorCore's references. -/
abbrev E5 (o : Outs (F := F)) : (c : Dev nD) → (b : Ref sig .tc) → Buf (Elt F) ((c : Thread nD τ).loc b) := fun c b => V17 m (o) c b
/-- What outs holds for region 5's output. -/
theorem outs_5 (c : Dev nD) : outs m 18 main_v30 c = (dat5 (E5 m (outs m)) c).arrAt 1 cfg5.N := by
  rw [outs_val5]; unfold val5; rw [show E5 m (outs m) = EU5 m from by unfold E5 EU5; rw [V17_eq]]

/-- Region 6's entry contents read at the TensorCore's references. -/
abbrev E6 (o : Outs (F := F)) : (c : Dev nD) → (b : Ref sig .tc) → Buf (Elt F) ((c : Thread nD τ).loc b) := fun c b => V21 m (o) c b
/-- What outs holds for region 6's output. -/
theorem outs_6 (c : Dev nD) : outs m 22 main_v34 c = (dat6 (E6 m (outs m)) c).arrAt 3 cfg6.N := by
  rw [outs_val6]; unfold val6; rw [show E6 m (outs m) = EU6 m from by unfold E6 EU6; rw [V21_eq]]

/-- Region 7's entry contents read at the TensorCore's references. -/
abbrev E7 (o : Outs (F := F)) : (c : Dev nD) → (b : Ref sig .tc) → Buf (Elt F) ((c : Thread nD τ).loc b) := fun c b => V23 m (o) c b
/-- What outs holds for region 7's output. -/
theorem outs_7 (c : Dev nD) : outs m 24 main_v37 c = (dat7 (E7 m (outs m)) c).arrAt 3 cfg7.N := by
  rw [outs_val7]; unfold val7; rw [show E7 m (outs m) = EU7 m from by unfold E7 EU7; rw [V23_eq]]

/-- Region 8's entry contents read at the TensorCore's references. -/
abbrev E8 (o : Outs (F := F)) : (c : Dev nD) → (b : Ref sig .tc) → Buf (Elt F) ((c : Thread nD τ).loc b) := fun c b => V25 m (o) c b
/-- What outs holds for region 8's output. -/
theorem outs_8 (c : Dev nD) : outs m 26 main_v40 c = (dat8 (E8 m (outs m)) c).arrAt 3 cfg8.N := by
  rw [outs_val8]; unfold val8; rw [show E8 m (outs m) = EU8 m from by unfold E8 EU8; rw [V25_eq]]

/-- Region 9's entry contents read at the TensorCore's references. -/
abbrev E9 (o : Outs (F := F)) : (c : Dev nD) → (b : Ref sig .tc) → Buf (Elt F) ((c : Thread nD τ).loc b) := fun c b => V27 m (o) c b
/-- What outs holds for region 9's output. -/
theorem outs_9 (c : Dev nD) : outs m 28 main_v42 c = (dat9 (E9 m (outs m)) c).arrAt 1 cfg9.N := by
  rw [outs_val9]; unfold val9; rw [show E9 m (outs m) = EU9 m from by unfold E9 EU9; rw [V27_eq]]

/-- Region 10's entry contents read at the TensorCore's references. -/
abbrev E10 (o : Outs (F := F)) : (c : Dev nD) → (b : Ref sig .tc) → Buf (Elt F) ((c : Thread nD τ).loc b) := fun c b => V31 m (o) c b
/-- What outs holds for region 10's output. -/
theorem outs_10 (c : Dev nD) : outs m 32 main_v46 c = (dat10 (E10 m (outs m)) c).arrAt 3 cfg10.N := by
  rw [outs_val10]; unfold val10; rw [show E10 m (outs m) = EU10 m from by unfold E10 EU10; rw [V31_eq]]

/-- Region 11's entry contents read at the TensorCore's references. -/
abbrev E11 (o : Outs (F := F)) : (c : Dev nD) → (b : Ref sig .tc) → Buf (Elt F) ((c : Thread nD τ).loc b) := fun c b => V33 m (o) c b
/-- What outs holds for region 11's output. -/
theorem outs_11 (c : Dev nD) : outs m 34 main_v49 c = (dat11 (E11 m (outs m)) c).arrAt 3 cfg11.N := by
  rw [outs_val11]; unfold val11; rw [show E11 m (outs m) = EU11 m from by unfold E11 EU11; rw [V33_eq]]

/-- Region 12's entry contents read at the TensorCore's references. -/
abbrev E12 (o : Outs (F := F)) : (c : Dev nD) → (b : Ref sig .tc) → Buf (Elt F) ((c : Thread nD τ).loc b) := fun c b => V35 m (o) c b
/-- What outs holds for region 12's output. -/
theorem outs_12 (c : Dev nD) : outs m 36 main_v52 c = (dat12 (E12 m (outs m)) c).arrAt 3 cfg12.N := by
  rw [outs_val12]; unfold val12; rw [show E12 m (outs m) = EU12 m from by unfold E12 EU12; rw [V35_eq]]

/-- Region 13's entry contents read at the TensorCore's references. -/
abbrev E13 (o : Outs (F := F)) : (c : Dev nD) → (b : Ref sig .tc) → Buf (Elt F) ((c : Thread nD τ).loc b) := fun c b => V37 m (o) c b
/-- What outs holds for region 13's output. -/
theorem outs_13 (c : Dev nD) : outs m 38 main_v54 c = (dat13 (E13 m (outs m)) c).arrAt 1 cfg13.N := by
  rw [outs_val13]; unfold val13; rw [show E13 m (outs m) = EU13 m from by unfold E13 EU13; rw [V37_eq]]

/-- Region 14's entry contents read at the TensorCore's references. -/
abbrev E14 (o : Outs (F := F)) : (c : Dev nD) → (b : Ref sig .tc) → Buf (Elt F) ((c : Thread nD τ).loc b) := fun c b => V41 m (o) c b
/-- What outs holds for region 14's output. -/
theorem outs_14 (c : Dev nD) : outs m 42 main_v58 c = (dat14 (E14 m (outs m)) c).arrAt 3 cfg14.N := by
  rw [outs_val14]; unfold val14; rw [show E14 m (outs m) = EU14 m from by unfold E14 EU14; rw [V41_eq]]

/-- Region 15's entry contents read at the TensorCore's references. -/
abbrev E15 (o : Outs (F := F)) : (c : Dev nD) → (b : Ref sig .tc) → Buf (Elt F) ((c : Thread nD τ).loc b) := fun c b => V43 m (o) c b
/-- What outs holds for region 15's output. -/
theorem outs_15 (c : Dev nD) : outs m 44 main_v61 c = (dat15 (E15 m (outs m)) c).arrAt 3 cfg15.N := by
  rw [outs_val15]; unfold val15; rw [show E15 m (outs m) = EU15 m from by unfold E15 EU15; rw [V43_eq]]

/-- Region 16's entry contents read at the TensorCore's references. -/
abbrev E16 (o : Outs (F := F)) : (c : Dev nD) → (b : Ref sig .tc) → Buf (Elt F) ((c : Thread nD τ).loc b) := fun c b => V45 m (o) c b
/-- What outs holds for region 16's output. -/
theorem outs_16 (c : Dev nD) : outs m 46 main_v64 c = (dat16 (E16 m (outs m)) c).arrAt 3 cfg16.N := by
  rw [outs_val16]; unfold val16; rw [show E16 m (outs m) = EU16 m from by unfold E16 EU16; rw [V45_eq]]

/-- Region 17's entry contents read at the TensorCore's references. -/
abbrev E17 (o : Outs (F := F)) : (c : Dev nD) → (b : Ref sig .tc) → Buf (Elt F) ((c : Thread nD τ).loc b) := fun c b => V47 m (o) c b
/-- What outs holds for region 17's output. -/
theorem outs_17 (c : Dev nD) : outs m 48 main_v66 c = (dat17 (E17 m (outs m)) c).arrAt 1 cfg17.N := by
  rw [outs_val17]; unfold val17; rw [show E17 m (outs m) = EU17 m from by unfold E17 EU17; rw [V47_eq]]

/-! ## The proof data family -/

/-- Every pipeline's proof data, each at its region's entry contents: a literal match on the pipeline's number. -/
def pdats : (p : Fin 18) → (c : Dev nD) → Dat τ (Elt F) Unit ℕ (UR sig nD τ) ℕ (cfgs p) c
  | ⟨0, _⟩ => fun c => dat0 (E0 m (outs m)) c
  | ⟨1, _⟩ => fun c => dat1 (E1 m (outs m)) c
  | ⟨2, _⟩ => fun c => dat2 (E2 m (outs m)) c
  | ⟨3, _⟩ => fun c => dat3 (E3 m (outs m)) c
  | ⟨4, _⟩ => fun c => dat4 (E4 m (outs m)) c
  | ⟨5, _⟩ => fun c => dat5 (E5 m (outs m)) c
  | ⟨6, _⟩ => fun c => dat6 (E6 m (outs m)) c
  | ⟨7, _⟩ => fun c => dat7 (E7 m (outs m)) c
  | ⟨8, _⟩ => fun c => dat8 (E8 m (outs m)) c
  | ⟨9, _⟩ => fun c => dat9 (E9 m (outs m)) c
  | ⟨10, _⟩ => fun c => dat10 (E10 m (outs m)) c
  | ⟨11, _⟩ => fun c => dat11 (E11 m (outs m)) c
  | ⟨12, _⟩ => fun c => dat12 (E12 m (outs m)) c
  | ⟨13, _⟩ => fun c => dat13 (E13 m (outs m)) c
  | ⟨14, _⟩ => fun c => dat14 (E14 m (outs m)) c
  | ⟨15, _⟩ => fun c => dat15 (E15 m (outs m)) c
  | ⟨16, _⟩ => fun c => dat16 (E16 m (outs m)) c
  | ⟨17, _⟩ => fun c => dat17 (E17 m (outs m)) c
  | ⟨_ + 18, h⟩ => absurd h (Nat.not_lt.2 (Nat.le_add_left _ _))

abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)

/-! ## At a region's exit: its arrays at what the pipeline leaves, every other buffer as entered -/

/-- Region 0's exit contents read at the TensorCore's references. -/
abbrev X0 : (c : Dev nD) → (b : Ref sig .tc) → Buf (Elt F) ((c : Thread nD τ).loc b) := fun c b => V4 m (outs m) c b
theorem hF0 (c : Dev nD) (w : Fin cfg0.W) : (dat0 (E0 m (outs m)) c).arrAt w cfg0.N = X0 m c (Pipeline.arrRef spec0 w) := by
  match w with
  | ⟨0, _⟩ =>
      show (dat0 (E0 m (outs m)) c).arrAt 0 cfg0.N = V4 m (outs m) c main_v12
      rw [V4_of m (outs m) c main_v12 (by decide)]
      exact ((dat0 (E0 m (outs m)) c).arrAt_in 0 rfl _).trans (A_eq0 _ c 0)
  | ⟨1, _⟩ =>
      show (dat0 (E0 m (outs m)) c).arrAt 1 cfg0.N = V4 m (outs m) c main_v14
      rw [V4_of m (outs m) c main_v14 (by decide)]
      exact ((dat0 (E0 m (outs m)) c).arrAt_in 1 rfl _).trans (A_eq0 _ c 1)
  | ⟨2, _⟩ =>
      show (dat0 (E0 m (outs m)) c).arrAt 2 cfg0.N = V4 m (outs m) c main_arg2
      rw [V4_of m (outs m) c main_arg2 (by decide)]
      exact ((dat0 (E0 m (outs m)) c).arrAt_in 2 rfl _).trans (A_eq0 _ c 2)
  | ⟨3, _⟩ =>
      show (dat0 (E0 m (outs m)) c).arrAt 3 cfg0.N = V4 m (outs m) c main_v15
      rw [← outs_0 m c]
      exact (Function.update_self (Proc.devRef (τ := τ) .tc main_v15) (outs m 4 main_v15 c) (V3 m c)).symm
theorem hrest0 (c : Dev nD) : ∀ b, b ∉ Finset.univ.image (Pipeline.arrRef spec0) → X0 m c b = E0 m (outs m) c b :=
  fun b hb => V4_of m (outs m) c b (fun h => hb (Finset.mem_image.mpr ⟨3, Finset.mem_univ _, (List.mem_singleton.mp h).symm⟩))

/-- Region 1's exit contents read at the TensorCore's references. -/
abbrev X1 : (c : Dev nD) → (b : Ref sig .tc) → Buf (Elt F) ((c : Thread nD τ).loc b) := fun c b => V6 m (outs m) c b
theorem hF1 (c : Dev nD) (w : Fin cfg1.W) : (dat1 (E1 m (outs m)) c).arrAt w cfg1.N = X1 m c (Pipeline.arrRef spec1 w) := by
  match w with
  | ⟨0, _⟩ =>
      show (dat1 (E1 m (outs m)) c).arrAt 0 cfg1.N = V6 m (outs m) c main_v15
      rw [V6_of m (outs m) c main_v15 (by decide)]
      exact ((dat1 (E1 m (outs m)) c).arrAt_in 0 rfl _).trans (A_eq1 _ c 0)
  | ⟨1, _⟩ =>
      show (dat1 (E1 m (outs m)) c).arrAt 1 cfg1.N = V6 m (outs m) c main_v17
      rw [V6_of m (outs m) c main_v17 (by decide)]
      exact ((dat1 (E1 m (outs m)) c).arrAt_in 1 rfl _).trans (A_eq1 _ c 1)
  | ⟨2, _⟩ =>
      show (dat1 (E1 m (outs m)) c).arrAt 2 cfg1.N = V6 m (outs m) c main_arg4
      rw [V6_of m (outs m) c main_arg4 (by decide)]
      exact ((dat1 (E1 m (outs m)) c).arrAt_in 2 rfl _).trans (A_eq1 _ c 2)
  | ⟨3, _⟩ =>
      show (dat1 (E1 m (outs m)) c).arrAt 3 cfg1.N = V6 m (outs m) c main_v18
      rw [← outs_1 m c]
      exact (Function.update_self (Proc.devRef (τ := τ) .tc main_v18) (outs m 6 main_v18 c) (V5 m (outs m) c)).symm
theorem hrest1 (c : Dev nD) : ∀ b, b ∉ Finset.univ.image (Pipeline.arrRef spec1) → X1 m c b = E1 m (outs m) c b :=
  fun b hb => V6_of m (outs m) c b (fun h => hb (Finset.mem_image.mpr ⟨3, Finset.mem_univ _, (List.mem_singleton.mp h).symm⟩))

/-- Region 2's exit contents read at the TensorCore's references. -/
abbrev X2 : (c : Dev nD) → (b : Ref sig .tc) → Buf (Elt F) ((c : Thread nD τ).loc b) := fun c b => V8 m (outs m) c b
theorem hF2 (c : Dev nD) (w : Fin cfg2.W) : (dat2 (E2 m (outs m)) c).arrAt w cfg2.N = X2 m c (Pipeline.arrRef spec2 w) := by
  match w with
  | ⟨0, _⟩ =>
      show (dat2 (E2 m (outs m)) c).arrAt 0 cfg2.N = V8 m (outs m) c main_v19
      rw [V8_of m (outs m) c main_v19 (by decide)]
      exact ((dat2 (E2 m (outs m)) c).arrAt_in 0 rfl _).trans (A_eq2 _ c 0)
  | ⟨1, _⟩ =>
      show (dat2 (E2 m (outs m)) c).arrAt 1 cfg2.N = V8 m (outs m) c main_v20
      rw [← outs_2 m c]
      exact (Function.update_self (Proc.devRef (τ := τ) .tc main_v20) (outs m 8 main_v20 c) (V7 m (outs m) c)).symm
theorem hrest2 (c : Dev nD) : ∀ b, b ∉ Finset.univ.image (Pipeline.arrRef spec2) → X2 m c b = E2 m (outs m) c b :=
  fun b hb => V8_of m (outs m) c b (fun h => hb (Finset.mem_image.mpr ⟨1, Finset.mem_univ _, (List.mem_singleton.mp h).symm⟩))

/-- Region 3's exit contents read at the TensorCore's references. -/
abbrev X3 : (c : Dev nD) → (b : Ref sig .tc) → Buf (Elt F) ((c : Thread nD τ).loc b) := fun c b => V12 m (outs m) c b
theorem hF3 (c : Dev nD) (w : Fin cfg3.W) : (dat3 (E3 m (outs m)) c).arrAt w cfg3.N = X3 m c (Pipeline.arrRef spec3 w) := by
  match w with
  | ⟨0, _⟩ =>
      show (dat3 (E3 m (outs m)) c).arrAt 0 cfg3.N = V12 m (outs m) c main_v21
      rw [V12_of m (outs m) c main_v21 (by decide)]
      exact ((dat3 (E3 m (outs m)) c).arrAt_in 0 rfl _).trans (A_eq3 _ c 0)
  | ⟨1, _⟩ =>
      show (dat3 (E3 m (outs m)) c).arrAt 1 cfg3.N = V12 m (outs m) c main_v23
      rw [V12_of m (outs m) c main_v23 (by decide)]
      exact ((dat3 (E3 m (outs m)) c).arrAt_in 1 rfl _).trans (A_eq3 _ c 1)
  | ⟨2, _⟩ =>
      show (dat3 (E3 m (outs m)) c).arrAt 2 cfg3.N = V12 m (outs m) c main_arg6
      rw [V12_of m (outs m) c main_arg6 (by decide)]
      exact ((dat3 (E3 m (outs m)) c).arrAt_in 2 rfl _).trans (A_eq3 _ c 2)
  | ⟨3, _⟩ =>
      show (dat3 (E3 m (outs m)) c).arrAt 3 cfg3.N = V12 m (outs m) c main_v24
      rw [← outs_3 m c]
      exact (Function.update_self (Proc.devRef (τ := τ) .tc main_v24) (outs m 12 main_v24 c) (V11 m (outs m) c)).symm
theorem hrest3 (c : Dev nD) : ∀ b, b ∉ Finset.univ.image (Pipeline.arrRef spec3) → X3 m c b = E3 m (outs m) c b :=
  fun b hb => V12_of m (outs m) c b (fun h => hb (Finset.mem_image.mpr ⟨3, Finset.mem_univ _, (List.mem_singleton.mp h).symm⟩))

/-- Region 4's exit contents read at the TensorCore's references. -/
abbrev X4 : (c : Dev nD) → (b : Ref sig .tc) → Buf (Elt F) ((c : Thread nD τ).loc b) := fun c b => V16 m (outs m) c b
theorem hF4 (c : Dev nD) (w : Fin cfg4.W) : (dat4 (E4 m (outs m)) c).arrAt w cfg4.N = X4 m c (Pipeline.arrRef spec4 w) := by
  match w with
  | ⟨0, _⟩ =>
      show (dat4 (E4 m (outs m)) c).arrAt 0 cfg4.N = V16 m (outs m) c main_v25
      rw [V16_of m (outs m) c main_v25 (by decide)]
      exact ((dat4 (E4 m (outs m)) c).arrAt_in 0 rfl _).trans (A_eq4 _ c 0)
  | ⟨1, _⟩ =>
      show (dat4 (E4 m (outs m)) c).arrAt 1 cfg4.N = V16 m (outs m) c main_v27
      rw [V16_of m (outs m) c main_v27 (by decide)]
      exact ((dat4 (E4 m (outs m)) c).arrAt_in 1 rfl _).trans (A_eq4 _ c 1)
  | ⟨2, _⟩ =>
      show (dat4 (E4 m (outs m)) c).arrAt 2 cfg4.N = V16 m (outs m) c main_arg8
      rw [V16_of m (outs m) c main_arg8 (by decide)]
      exact ((dat4 (E4 m (outs m)) c).arrAt_in 2 rfl _).trans (A_eq4 _ c 2)
  | ⟨3, _⟩ =>
      show (dat4 (E4 m (outs m)) c).arrAt 3 cfg4.N = V16 m (outs m) c main_v28
      rw [← outs_4 m c]
      exact (Function.update_self (Proc.devRef (τ := τ) .tc main_v28) (outs m 16 main_v28 c) (V15 m (outs m) c)).symm
theorem hrest4 (c : Dev nD) : ∀ b, b ∉ Finset.univ.image (Pipeline.arrRef spec4) → X4 m c b = E4 m (outs m) c b :=
  fun b hb => V16_of m (outs m) c b (fun h => hb (Finset.mem_image.mpr ⟨3, Finset.mem_univ _, (List.mem_singleton.mp h).symm⟩))

/-- Region 5's exit contents read at the TensorCore's references. -/
abbrev X5 : (c : Dev nD) → (b : Ref sig .tc) → Buf (Elt F) ((c : Thread nD τ).loc b) := fun c b => V18 m (outs m) c b
theorem hF5 (c : Dev nD) (w : Fin cfg5.W) : (dat5 (E5 m (outs m)) c).arrAt w cfg5.N = X5 m c (Pipeline.arrRef spec5 w) := by
  match w with
  | ⟨0, _⟩ =>
      show (dat5 (E5 m (outs m)) c).arrAt 0 cfg5.N = V18 m (outs m) c main_v29
      rw [V18_of m (outs m) c main_v29 (by decide)]
      exact ((dat5 (E5 m (outs m)) c).arrAt_in 0 rfl _).trans (A_eq5 _ c 0)
  | ⟨1, _⟩ =>
      show (dat5 (E5 m (outs m)) c).arrAt 1 cfg5.N = V18 m (outs m) c main_v30
      rw [← outs_5 m c]
      exact (Function.update_self (Proc.devRef (τ := τ) .tc main_v30) (outs m 18 main_v30 c) (V17 m (outs m) c)).symm
theorem hrest5 (c : Dev nD) : ∀ b, b ∉ Finset.univ.image (Pipeline.arrRef spec5) → X5 m c b = E5 m (outs m) c b :=
  fun b hb => V18_of m (outs m) c b (fun h => hb (Finset.mem_image.mpr ⟨1, Finset.mem_univ _, (List.mem_singleton.mp h).symm⟩))

/-- Region 6's exit contents read at the TensorCore's references. -/
abbrev X6 : (c : Dev nD) → (b : Ref sig .tc) → Buf (Elt F) ((c : Thread nD τ).loc b) := fun c b => V22 m (outs m) c b
theorem hF6 (c : Dev nD) (w : Fin cfg6.W) : (dat6 (E6 m (outs m)) c).arrAt w cfg6.N = X6 m c (Pipeline.arrRef spec6 w) := by
  match w with
  | ⟨0, _⟩ =>
      show (dat6 (E6 m (outs m)) c).arrAt 0 cfg6.N = V22 m (outs m) c main_v31
      rw [V22_of m (outs m) c main_v31 (by decide)]
      exact ((dat6 (E6 m (outs m)) c).arrAt_in 0 rfl _).trans (A_eq6 _ c 0)
  | ⟨1, _⟩ =>
      show (dat6 (E6 m (outs m)) c).arrAt 1 cfg6.N = V22 m (outs m) c main_v33
      rw [V22_of m (outs m) c main_v33 (by decide)]
      exact ((dat6 (E6 m (outs m)) c).arrAt_in 1 rfl _).trans (A_eq6 _ c 1)
  | ⟨2, _⟩ =>
      show (dat6 (E6 m (outs m)) c).arrAt 2 cfg6.N = V22 m (outs m) c main_arg10
      rw [V22_of m (outs m) c main_arg10 (by decide)]
      exact ((dat6 (E6 m (outs m)) c).arrAt_in 2 rfl _).trans (A_eq6 _ c 2)
  | ⟨3, _⟩ =>
      show (dat6 (E6 m (outs m)) c).arrAt 3 cfg6.N = V22 m (outs m) c main_v34
      rw [← outs_6 m c]
      exact (Function.update_self (Proc.devRef (τ := τ) .tc main_v34) (outs m 22 main_v34 c) (V21 m (outs m) c)).symm
theorem hrest6 (c : Dev nD) : ∀ b, b ∉ Finset.univ.image (Pipeline.arrRef spec6) → X6 m c b = E6 m (outs m) c b :=
  fun b hb => V22_of m (outs m) c b (fun h => hb (Finset.mem_image.mpr ⟨3, Finset.mem_univ _, (List.mem_singleton.mp h).symm⟩))

/-- Region 7's exit contents read at the TensorCore's references. -/
abbrev X7 : (c : Dev nD) → (b : Ref sig .tc) → Buf (Elt F) ((c : Thread nD τ).loc b) := fun c b => V24 m (outs m) c b
theorem hF7 (c : Dev nD) (w : Fin cfg7.W) : (dat7 (E7 m (outs m)) c).arrAt w cfg7.N = X7 m c (Pipeline.arrRef spec7 w) := by
  match w with
  | ⟨0, _⟩ =>
      show (dat7 (E7 m (outs m)) c).arrAt 0 cfg7.N = V24 m (outs m) c main_v34
      rw [V24_of m (outs m) c main_v34 (by decide)]
      exact ((dat7 (E7 m (outs m)) c).arrAt_in 0 rfl _).trans (A_eq7 _ c 0)
  | ⟨1, _⟩ =>
      show (dat7 (E7 m (outs m)) c).arrAt 1 cfg7.N = V24 m (outs m) c main_v36
      rw [V24_of m (outs m) c main_v36 (by decide)]
      exact ((dat7 (E7 m (outs m)) c).arrAt_in 1 rfl _).trans (A_eq7 _ c 1)
  | ⟨2, _⟩ =>
      show (dat7 (E7 m (outs m)) c).arrAt 2 cfg7.N = V24 m (outs m) c main_arg12
      rw [V24_of m (outs m) c main_arg12 (by decide)]
      exact ((dat7 (E7 m (outs m)) c).arrAt_in 2 rfl _).trans (A_eq7 _ c 2)
  | ⟨3, _⟩ =>
      show (dat7 (E7 m (outs m)) c).arrAt 3 cfg7.N = V24 m (outs m) c main_v37
      rw [← outs_7 m c]
      exact (Function.update_self (Proc.devRef (τ := τ) .tc main_v37) (outs m 24 main_v37 c) (V23 m (outs m) c)).symm
theorem hrest7 (c : Dev nD) : ∀ b, b ∉ Finset.univ.image (Pipeline.arrRef spec7) → X7 m c b = E7 m (outs m) c b :=
  fun b hb => V24_of m (outs m) c b (fun h => hb (Finset.mem_image.mpr ⟨3, Finset.mem_univ _, (List.mem_singleton.mp h).symm⟩))

/-- Region 8's exit contents read at the TensorCore's references. -/
abbrev X8 : (c : Dev nD) → (b : Ref sig .tc) → Buf (Elt F) ((c : Thread nD τ).loc b) := fun c b => V26 m (outs m) c b
theorem hF8 (c : Dev nD) (w : Fin cfg8.W) : (dat8 (E8 m (outs m)) c).arrAt w cfg8.N = X8 m c (Pipeline.arrRef spec8 w) := by
  match w with
  | ⟨0, _⟩ =>
      show (dat8 (E8 m (outs m)) c).arrAt 0 cfg8.N = V26 m (outs m) c main_v37
      rw [V26_of m (outs m) c main_v37 (by decide)]
      exact ((dat8 (E8 m (outs m)) c).arrAt_in 0 rfl _).trans (A_eq8 _ c 0)
  | ⟨1, _⟩ =>
      show (dat8 (E8 m (outs m)) c).arrAt 1 cfg8.N = V26 m (outs m) c main_v39
      rw [V26_of m (outs m) c main_v39 (by decide)]
      exact ((dat8 (E8 m (outs m)) c).arrAt_in 1 rfl _).trans (A_eq8 _ c 1)
  | ⟨2, _⟩ =>
      show (dat8 (E8 m (outs m)) c).arrAt 2 cfg8.N = V26 m (outs m) c main_arg14
      rw [V26_of m (outs m) c main_arg14 (by decide)]
      exact ((dat8 (E8 m (outs m)) c).arrAt_in 2 rfl _).trans (A_eq8 _ c 2)
  | ⟨3, _⟩ =>
      show (dat8 (E8 m (outs m)) c).arrAt 3 cfg8.N = V26 m (outs m) c main_v40
      rw [← outs_8 m c]
      exact (Function.update_self (Proc.devRef (τ := τ) .tc main_v40) (outs m 26 main_v40 c) (V25 m (outs m) c)).symm
theorem hrest8 (c : Dev nD) : ∀ b, b ∉ Finset.univ.image (Pipeline.arrRef spec8) → X8 m c b = E8 m (outs m) c b :=
  fun b hb => V26_of m (outs m) c b (fun h => hb (Finset.mem_image.mpr ⟨3, Finset.mem_univ _, (List.mem_singleton.mp h).symm⟩))

/-- Region 9's exit contents read at the TensorCore's references. -/
abbrev X9 : (c : Dev nD) → (b : Ref sig .tc) → Buf (Elt F) ((c : Thread nD τ).loc b) := fun c b => V28 m (outs m) c b
theorem hF9 (c : Dev nD) (w : Fin cfg9.W) : (dat9 (E9 m (outs m)) c).arrAt w cfg9.N = X9 m c (Pipeline.arrRef spec9 w) := by
  match w with
  | ⟨0, _⟩ =>
      show (dat9 (E9 m (outs m)) c).arrAt 0 cfg9.N = V28 m (outs m) c main_v41
      rw [V28_of m (outs m) c main_v41 (by decide)]
      exact ((dat9 (E9 m (outs m)) c).arrAt_in 0 rfl _).trans (A_eq9 _ c 0)
  | ⟨1, _⟩ =>
      show (dat9 (E9 m (outs m)) c).arrAt 1 cfg9.N = V28 m (outs m) c main_v42
      rw [← outs_9 m c]
      exact (Function.update_self (Proc.devRef (τ := τ) .tc main_v42) (outs m 28 main_v42 c) (V27 m (outs m) c)).symm
theorem hrest9 (c : Dev nD) : ∀ b, b ∉ Finset.univ.image (Pipeline.arrRef spec9) → X9 m c b = E9 m (outs m) c b :=
  fun b hb => V28_of m (outs m) c b (fun h => hb (Finset.mem_image.mpr ⟨1, Finset.mem_univ _, (List.mem_singleton.mp h).symm⟩))

/-- Region 10's exit contents read at the TensorCore's references. -/
abbrev X10 : (c : Dev nD) → (b : Ref sig .tc) → Buf (Elt F) ((c : Thread nD τ).loc b) := fun c b => V32 m (outs m) c b
theorem hF10 (c : Dev nD) (w : Fin cfg10.W) : (dat10 (E10 m (outs m)) c).arrAt w cfg10.N = X10 m c (Pipeline.arrRef spec10 w) := by
  match w with
  | ⟨0, _⟩ =>
      show (dat10 (E10 m (outs m)) c).arrAt 0 cfg10.N = V32 m (outs m) c main_v43
      rw [V32_of m (outs m) c main_v43 (by decide)]
      exact ((dat10 (E10 m (outs m)) c).arrAt_in 0 rfl _).trans (A_eq10 _ c 0)
  | ⟨1, _⟩ =>
      show (dat10 (E10 m (outs m)) c).arrAt 1 cfg10.N = V32 m (outs m) c main_v45
      rw [V32_of m (outs m) c main_v45 (by decide)]
      exact ((dat10 (E10 m (outs m)) c).arrAt_in 1 rfl _).trans (A_eq10 _ c 1)
  | ⟨2, _⟩ =>
      show (dat10 (E10 m (outs m)) c).arrAt 2 cfg10.N = V32 m (outs m) c main_arg16
      rw [V32_of m (outs m) c main_arg16 (by decide)]
      exact ((dat10 (E10 m (outs m)) c).arrAt_in 2 rfl _).trans (A_eq10 _ c 2)
  | ⟨3, _⟩ =>
      show (dat10 (E10 m (outs m)) c).arrAt 3 cfg10.N = V32 m (outs m) c main_v46
      rw [← outs_10 m c]
      exact (Function.update_self (Proc.devRef (τ := τ) .tc main_v46) (outs m 32 main_v46 c) (V31 m (outs m) c)).symm
theorem hrest10 (c : Dev nD) : ∀ b, b ∉ Finset.univ.image (Pipeline.arrRef spec10) → X10 m c b = E10 m (outs m) c b :=
  fun b hb => V32_of m (outs m) c b (fun h => hb (Finset.mem_image.mpr ⟨3, Finset.mem_univ _, (List.mem_singleton.mp h).symm⟩))

/-- Region 11's exit contents read at the TensorCore's references. -/
abbrev X11 : (c : Dev nD) → (b : Ref sig .tc) → Buf (Elt F) ((c : Thread nD τ).loc b) := fun c b => V34 m (outs m) c b
theorem hF11 (c : Dev nD) (w : Fin cfg11.W) : (dat11 (E11 m (outs m)) c).arrAt w cfg11.N = X11 m c (Pipeline.arrRef spec11 w) := by
  match w with
  | ⟨0, _⟩ =>
      show (dat11 (E11 m (outs m)) c).arrAt 0 cfg11.N = V34 m (outs m) c main_v46
      rw [V34_of m (outs m) c main_v46 (by decide)]
      exact ((dat11 (E11 m (outs m)) c).arrAt_in 0 rfl _).trans (A_eq11 _ c 0)
  | ⟨1, _⟩ =>
      show (dat11 (E11 m (outs m)) c).arrAt 1 cfg11.N = V34 m (outs m) c main_v48
      rw [V34_of m (outs m) c main_v48 (by decide)]
      exact ((dat11 (E11 m (outs m)) c).arrAt_in 1 rfl _).trans (A_eq11 _ c 1)
  | ⟨2, _⟩ =>
      show (dat11 (E11 m (outs m)) c).arrAt 2 cfg11.N = V34 m (outs m) c main_arg18
      rw [V34_of m (outs m) c main_arg18 (by decide)]
      exact ((dat11 (E11 m (outs m)) c).arrAt_in 2 rfl _).trans (A_eq11 _ c 2)
  | ⟨3, _⟩ =>
      show (dat11 (E11 m (outs m)) c).arrAt 3 cfg11.N = V34 m (outs m) c main_v49
      rw [← outs_11 m c]
      exact (Function.update_self (Proc.devRef (τ := τ) .tc main_v49) (outs m 34 main_v49 c) (V33 m (outs m) c)).symm
theorem hrest11 (c : Dev nD) : ∀ b, b ∉ Finset.univ.image (Pipeline.arrRef spec11) → X11 m c b = E11 m (outs m) c b :=
  fun b hb => V34_of m (outs m) c b (fun h => hb (Finset.mem_image.mpr ⟨3, Finset.mem_univ _, (List.mem_singleton.mp h).symm⟩))

/-- Region 12's exit contents read at the TensorCore's references. -/
abbrev X12 : (c : Dev nD) → (b : Ref sig .tc) → Buf (Elt F) ((c : Thread nD τ).loc b) := fun c b => V36 m (outs m) c b
theorem hF12 (c : Dev nD) (w : Fin cfg12.W) : (dat12 (E12 m (outs m)) c).arrAt w cfg12.N = X12 m c (Pipeline.arrRef spec12 w) := by
  match w with
  | ⟨0, _⟩ =>
      show (dat12 (E12 m (outs m)) c).arrAt 0 cfg12.N = V36 m (outs m) c main_v49
      rw [V36_of m (outs m) c main_v49 (by decide)]
      exact ((dat12 (E12 m (outs m)) c).arrAt_in 0 rfl _).trans (A_eq12 _ c 0)
  | ⟨1, _⟩ =>
      show (dat12 (E12 m (outs m)) c).arrAt 1 cfg12.N = V36 m (outs m) c main_v51
      rw [V36_of m (outs m) c main_v51 (by decide)]
      exact ((dat12 (E12 m (outs m)) c).arrAt_in 1 rfl _).trans (A_eq12 _ c 1)
  | ⟨2, _⟩ =>
      show (dat12 (E12 m (outs m)) c).arrAt 2 cfg12.N = V36 m (outs m) c main_arg20
      rw [V36_of m (outs m) c main_arg20 (by decide)]
      exact ((dat12 (E12 m (outs m)) c).arrAt_in 2 rfl _).trans (A_eq12 _ c 2)
  | ⟨3, _⟩ =>
      show (dat12 (E12 m (outs m)) c).arrAt 3 cfg12.N = V36 m (outs m) c main_v52
      rw [← outs_12 m c]
      exact (Function.update_self (Proc.devRef (τ := τ) .tc main_v52) (outs m 36 main_v52 c) (V35 m (outs m) c)).symm
theorem hrest12 (c : Dev nD) : ∀ b, b ∉ Finset.univ.image (Pipeline.arrRef spec12) → X12 m c b = E12 m (outs m) c b :=
  fun b hb => V36_of m (outs m) c b (fun h => hb (Finset.mem_image.mpr ⟨3, Finset.mem_univ _, (List.mem_singleton.mp h).symm⟩))

/-- Region 13's exit contents read at the TensorCore's references. -/
abbrev X13 : (c : Dev nD) → (b : Ref sig .tc) → Buf (Elt F) ((c : Thread nD τ).loc b) := fun c b => V38 m (outs m) c b
theorem hF13 (c : Dev nD) (w : Fin cfg13.W) : (dat13 (E13 m (outs m)) c).arrAt w cfg13.N = X13 m c (Pipeline.arrRef spec13 w) := by
  match w with
  | ⟨0, _⟩ =>
      show (dat13 (E13 m (outs m)) c).arrAt 0 cfg13.N = V38 m (outs m) c main_v53
      rw [V38_of m (outs m) c main_v53 (by decide)]
      exact ((dat13 (E13 m (outs m)) c).arrAt_in 0 rfl _).trans (A_eq13 _ c 0)
  | ⟨1, _⟩ =>
      show (dat13 (E13 m (outs m)) c).arrAt 1 cfg13.N = V38 m (outs m) c main_v54
      rw [← outs_13 m c]
      exact (Function.update_self (Proc.devRef (τ := τ) .tc main_v54) (outs m 38 main_v54 c) (V37 m (outs m) c)).symm
theorem hrest13 (c : Dev nD) : ∀ b, b ∉ Finset.univ.image (Pipeline.arrRef spec13) → X13 m c b = E13 m (outs m) c b :=
  fun b hb => V38_of m (outs m) c b (fun h => hb (Finset.mem_image.mpr ⟨1, Finset.mem_univ _, (List.mem_singleton.mp h).symm⟩))

/-- Region 14's exit contents read at the TensorCore's references. -/
abbrev X14 : (c : Dev nD) → (b : Ref sig .tc) → Buf (Elt F) ((c : Thread nD τ).loc b) := fun c b => V42 m (outs m) c b
theorem hF14 (c : Dev nD) (w : Fin cfg14.W) : (dat14 (E14 m (outs m)) c).arrAt w cfg14.N = X14 m c (Pipeline.arrRef spec14 w) := by
  match w with
  | ⟨0, _⟩ =>
      show (dat14 (E14 m (outs m)) c).arrAt 0 cfg14.N = V42 m (outs m) c main_v55
      rw [V42_of m (outs m) c main_v55 (by decide)]
      exact ((dat14 (E14 m (outs m)) c).arrAt_in 0 rfl _).trans (A_eq14 _ c 0)
  | ⟨1, _⟩ =>
      show (dat14 (E14 m (outs m)) c).arrAt 1 cfg14.N = V42 m (outs m) c main_v57
      rw [V42_of m (outs m) c main_v57 (by decide)]
      exact ((dat14 (E14 m (outs m)) c).arrAt_in 1 rfl _).trans (A_eq14 _ c 1)
  | ⟨2, _⟩ =>
      show (dat14 (E14 m (outs m)) c).arrAt 2 cfg14.N = V42 m (outs m) c main_arg22
      rw [V42_of m (outs m) c main_arg22 (by decide)]
      exact ((dat14 (E14 m (outs m)) c).arrAt_in 2 rfl _).trans (A_eq14 _ c 2)
  | ⟨3, _⟩ =>
      show (dat14 (E14 m (outs m)) c).arrAt 3 cfg14.N = V42 m (outs m) c main_v58
      rw [← outs_14 m c]
      exact (Function.update_self (Proc.devRef (τ := τ) .tc main_v58) (outs m 42 main_v58 c) (V41 m (outs m) c)).symm
theorem hrest14 (c : Dev nD) : ∀ b, b ∉ Finset.univ.image (Pipeline.arrRef spec14) → X14 m c b = E14 m (outs m) c b :=
  fun b hb => V42_of m (outs m) c b (fun h => hb (Finset.mem_image.mpr ⟨3, Finset.mem_univ _, (List.mem_singleton.mp h).symm⟩))

/-- Region 15's exit contents read at the TensorCore's references. -/
abbrev X15 : (c : Dev nD) → (b : Ref sig .tc) → Buf (Elt F) ((c : Thread nD τ).loc b) := fun c b => V44 m (outs m) c b
theorem hF15 (c : Dev nD) (w : Fin cfg15.W) : (dat15 (E15 m (outs m)) c).arrAt w cfg15.N = X15 m c (Pipeline.arrRef spec15 w) := by
  match w with
  | ⟨0, _⟩ =>
      show (dat15 (E15 m (outs m)) c).arrAt 0 cfg15.N = V44 m (outs m) c main_v58
      rw [V44_of m (outs m) c main_v58 (by decide)]
      exact ((dat15 (E15 m (outs m)) c).arrAt_in 0 rfl _).trans (A_eq15 _ c 0)
  | ⟨1, _⟩ =>
      show (dat15 (E15 m (outs m)) c).arrAt 1 cfg15.N = V44 m (outs m) c main_v60
      rw [V44_of m (outs m) c main_v60 (by decide)]
      exact ((dat15 (E15 m (outs m)) c).arrAt_in 1 rfl _).trans (A_eq15 _ c 1)
  | ⟨2, _⟩ =>
      show (dat15 (E15 m (outs m)) c).arrAt 2 cfg15.N = V44 m (outs m) c main_arg24
      rw [V44_of m (outs m) c main_arg24 (by decide)]
      exact ((dat15 (E15 m (outs m)) c).arrAt_in 2 rfl _).trans (A_eq15 _ c 2)
  | ⟨3, _⟩ =>
      show (dat15 (E15 m (outs m)) c).arrAt 3 cfg15.N = V44 m (outs m) c main_v61
      rw [← outs_15 m c]
      exact (Function.update_self (Proc.devRef (τ := τ) .tc main_v61) (outs m 44 main_v61 c) (V43 m (outs m) c)).symm
theorem hrest15 (c : Dev nD) : ∀ b, b ∉ Finset.univ.image (Pipeline.arrRef spec15) → X15 m c b = E15 m (outs m) c b :=
  fun b hb => V44_of m (outs m) c b (fun h => hb (Finset.mem_image.mpr ⟨3, Finset.mem_univ _, (List.mem_singleton.mp h).symm⟩))

/-- Region 16's exit contents read at the TensorCore's references. -/
abbrev X16 : (c : Dev nD) → (b : Ref sig .tc) → Buf (Elt F) ((c : Thread nD τ).loc b) := fun c b => V46 m (outs m) c b
theorem hF16 (c : Dev nD) (w : Fin cfg16.W) : (dat16 (E16 m (outs m)) c).arrAt w cfg16.N = X16 m c (Pipeline.arrRef spec16 w) := by
  match w with
  | ⟨0, _⟩ =>
      show (dat16 (E16 m (outs m)) c).arrAt 0 cfg16.N = V46 m (outs m) c main_v61
      rw [V46_of m (outs m) c main_v61 (by decide)]
      exact ((dat16 (E16 m (outs m)) c).arrAt_in 0 rfl _).trans (A_eq16 _ c 0)
  | ⟨1, _⟩ =>
      show (dat16 (E16 m (outs m)) c).arrAt 1 cfg16.N = V46 m (outs m) c main_v63
      rw [V46_of m (outs m) c main_v63 (by decide)]
      exact ((dat16 (E16 m (outs m)) c).arrAt_in 1 rfl _).trans (A_eq16 _ c 1)
  | ⟨2, _⟩ =>
      show (dat16 (E16 m (outs m)) c).arrAt 2 cfg16.N = V46 m (outs m) c main_arg26
      rw [V46_of m (outs m) c main_arg26 (by decide)]
      exact ((dat16 (E16 m (outs m)) c).arrAt_in 2 rfl _).trans (A_eq16 _ c 2)
  | ⟨3, _⟩ =>
      show (dat16 (E16 m (outs m)) c).arrAt 3 cfg16.N = V46 m (outs m) c main_v64
      rw [← outs_16 m c]
      exact (Function.update_self (Proc.devRef (τ := τ) .tc main_v64) (outs m 46 main_v64 c) (V45 m (outs m) c)).symm
theorem hrest16 (c : Dev nD) : ∀ b, b ∉ Finset.univ.image (Pipeline.arrRef spec16) → X16 m c b = E16 m (outs m) c b :=
  fun b hb => V46_of m (outs m) c b (fun h => hb (Finset.mem_image.mpr ⟨3, Finset.mem_univ _, (List.mem_singleton.mp h).symm⟩))

/-- Region 17's exit contents read at the TensorCore's references. -/
abbrev X17 : (c : Dev nD) → (b : Ref sig .tc) → Buf (Elt F) ((c : Thread nD τ).loc b) := fun c b => V48 m (outs m) c b
theorem hF17 (c : Dev nD) (w : Fin cfg17.W) : (dat17 (E17 m (outs m)) c).arrAt w cfg17.N = X17 m c (Pipeline.arrRef spec17 w) := by
  match w with
  | ⟨0, _⟩ =>
      show (dat17 (E17 m (outs m)) c).arrAt 0 cfg17.N = V48 m (outs m) c main_v65
      rw [V48_of m (outs m) c main_v65 (by decide)]
      exact ((dat17 (E17 m (outs m)) c).arrAt_in 0 rfl _).trans (A_eq17 _ c 0)
  | ⟨1, _⟩ =>
      show (dat17 (E17 m (outs m)) c).arrAt 1 cfg17.N = V48 m (outs m) c main_v66
      rw [← outs_17 m c]
      exact (Function.update_self (Proc.devRef (τ := τ) .tc main_v66) (outs m 48 main_v66 c) (V47 m (outs m) c)).symm
theorem hrest17 (c : Dev nD) : ∀ b, b ∉ Finset.univ.image (Pipeline.arrRef spec17) → X17 m c b = E17 m (outs m) c b :=
  fun b hb => V48_of m (outs m) c b (fun h => hb (Finset.mem_image.mpr ⟨1, Finset.mem_univ _, (List.mem_singleton.mp h).symm⟩))

/-! ## The regions as segments -/

set_option backward.isDefEq.respectTransparency.types false in
/-- Region 0 over the thread state: entered from every unscoped buffer at the contents before it, left at the contents
    after it; its arrays split out of the unscoped buffers and put back at the exit contents; the generator register
    into the invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m (outs m)) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E0 m (outs m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m (outs m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m (outs m) c) (X0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it; its arrays split out of the unscoped buffers and put back at the exit contents; the generator register
    into the invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m (outs m)) c).loose
  hwaits := Pipeline.hwaits_of_owed_zero _ _ _ _ L lv 1 fun _ _ => rfl
  pre c := iprop(StableHlo.held (c : Thread nD τ) (Pipeline.ucRefs τ sig) (V5 m (outs m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E1 m (outs m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m (outs m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m (outs m) c) (X1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at the contents
    after it; its arrays split out of the unscoped buffers and put back at the exit contents; the generator register
    into the invariant and out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E2 m (outs m)) c).loose
  hwaits := Pipeline.hwaits_of_owed_zero _ _ _ _ L lv 2 fun _ _ => rfl
  pre c := iprop(StableHlo.held (c : Thread nD τ) (Pipeline.ucRefs τ sig) (V7 m (outs m) c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec2 c (E2 m (outs m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (E2 m (outs m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E2 m (outs m) c) (X2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at the contents before it, left at the contents
    after it; its arrays split out of the unscoped buffers and put back at the exit contents; the generator register
    into the invariant and out; nothing owed; no semaphore of the kernel's own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E3 m (outs m)) c).loose
  hwaits := Pipeline.hwaits_of_owed_zero _ _ _ _ L lv 3 fun _ _ => rfl
  pre c := iprop(StableHlo.held (c : Thread nD τ) (Pipeline.ucRefs τ sig) (V11 m (outs m) c) ∗ R c)
  post c := iprop(StableHlo.held (c : Thread nD τ) (Pipeline.ucRefs τ sig) (V12 m (outs m) c) ∗ R c)
  X c := iprop(∃ r, prngReg c r)
  Y c := iprop(∃ r, prngReg c r)
  Z c := Pipeline.unscopedRest (Ix := Unit) (Name := ℕ) (U := UR sig nD τ) (Lvl := ℕ) spec3 c (E3 m (outs m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (E3 m (outs m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E3 m (outs m) c) (X3 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at the contents before it, left at the contents
    after it; its arrays split out of the unscoped buffers and put back at the exit contents; the generator register
    into the invariant and out; nothing owed; no semaphore of the kernel's own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (E4 m (outs m)) c).loose
  hwaits := Pipeline.hwaits_of_owed_zero _ _ _ _ L lv 4 fun _ _ => rfl
  pre c := iprop(StableHlo.held (c : Thread nD τ) (Pipeline.ucRefs τ sig) (V15 m (outs m) c) ∗ R c)
  post c := iprop(StableHlo.held (c : Thread nD τ) (Pipeline.ucRefs τ sig) (V16 m (outs m) c) ∗ R c)
  X c := iprop(∃ r, prngReg c r)
  Y c := iprop(∃ r, prngReg c r)
  Z c := Pipeline.unscopedRest (Ix := Unit) (Name := ℕ) (U := UR sig nD τ) (Lvl := ℕ) spec4 c (E4 m (outs m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (E4 m (outs m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (E4 m (outs m) c) (X4 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at the contents before it, left at the contents
    after it; its arrays split out of the unscoped buffers and put back at the exit contents; the generator register
    into the invariant and out; nothing owed; no semaphore of the kernel's own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (E5 m (outs m)) c).loose
  hwaits := Pipeline.hwaits_of_owed_zero _ _ _ _ L lv 5 fun _ _ => rfl
  pre c := iprop(StableHlo.held (c : Thread nD τ) (Pipeline.ucRefs τ sig) (V17 m (outs m) c) ∗ R c)
  post c := iprop(StableHlo.held (c : Thread nD τ) (Pipeline.ucRefs τ sig) (V18 m (outs m) c) ∗ R c)
  X c := iprop(∃ r, prngReg c r)
  Y c := iprop(∃ r, prngReg c r)
  Z c := Pipeline.unscopedRest (Ix := Unit) (Name := ℕ) (U := UR sig nD τ) (Lvl := ℕ) spec5 c (E5 m (outs m) c)
  hentry c := by
    rw [Pipeline.ownSems0_none]
    have hsplit := Pipeline.arrays_of_unscopedBufs (p := 5) (pcfgs (F := F)) adm (pdats m) launch5.win launch5.arr_whole c
      ((pdats m 5 c).share_full fun _ => rfl) (E5 m (outs m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (E5 m (outs m) c) (X5 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at the contents before it, left at the contents
    after it; its arrays split out of the unscoped buffers and put back at the exit contents; the generator register
    into the invariant and out; nothing owed; no semaphore of the kernel's own. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (E6 m (outs m)) c).loose
  hwaits := Pipeline.hwaits_of_owed_zero _ _ _ _ L lv 6 fun _ _ => rfl
  pre c := iprop(StableHlo.held (c : Thread nD τ) (Pipeline.ucRefs τ sig) (V21 m (outs m) c) ∗ R c)
  post c := iprop(StableHlo.held (c : Thread nD τ) (Pipeline.ucRefs τ sig) (V22 m (outs m) c) ∗ R c)
  X c := iprop(∃ r, prngReg c r)
  Y c := iprop(∃ r, prngReg c r)
  Z c := Pipeline.unscopedRest (Ix := Unit) (Name := ℕ) (U := UR sig nD τ) (Lvl := ℕ) spec6 c (E6 m (outs m) c)
  hentry c := by
    rw [Pipeline.ownSems0_none]
    have hsplit := Pipeline.arrays_of_unscopedBufs (p := 6) (pcfgs (F := F)) adm (pdats m) launch6.win launch6.arr_whole c
      ((pdats m 6 c).share_full fun _ => rfl) (E6 m (outs m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (E6 m (outs m) c) (X6 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered from every unscoped buffer at the contents before it, left at the contents
    after it; its arrays split out of the unscoped buffers and put back at the exit contents; the generator register
    into the invariant and out; nothing owed; no semaphore of the kernel's own. -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (E7 m (outs m)) c).loose
  hwaits := Pipeline.hwaits_of_owed_zero _ _ _ _ L lv 7 fun _ _ => rfl
  pre c := iprop(StableHlo.held (c : Thread nD τ) (Pipeline.ucRefs τ sig) (V23 m (outs m) c) ∗ R c)
  post c := iprop(StableHlo.held (c : Thread nD τ) (Pipeline.ucRefs τ sig) (V24 m (outs m) c) ∗ R c)
  X c := iprop(∃ r, prngReg c r)
  Y c := iprop(∃ r, prngReg c r)
  Z c := Pipeline.unscopedRest (Ix := Unit) (Name := ℕ) (U := UR sig nD τ) (Lvl := ℕ) spec7 c (E7 m (outs m) c)
  hentry c := by
    rw [Pipeline.ownSems0_none]
    have hsplit := Pipeline.arrays_of_unscopedBufs (p := 7) (pcfgs (F := F)) adm (pdats m) launch7.win launch7.arr_whole c
      ((pdats m 7 c).share_full fun _ => rfl) (E7 m (outs m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (E7 m (outs m) c) (X7 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8 over the thread state: entered from every unscoped buffer at the contents before it, left at the contents
    after it; its arrays split out of the unscoped buffers and put back at the exit contents; the generator register
    into the invariant and out; nothing owed; no semaphore of the kernel's own. -/
def reg8 : Pipeline.RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (E8 m (outs m)) c).loose
  hwaits := Pipeline.hwaits_of_owed_zero _ _ _ _ L lv 8 fun _ _ => rfl
  pre c := iprop(StableHlo.held (c : Thread nD τ) (Pipeline.ucRefs τ sig) (V25 m (outs m) c) ∗ R c)
  post c := iprop(StableHlo.held (c : Thread nD τ) (Pipeline.ucRefs τ sig) (V26 m (outs m) c) ∗ R c)
  X c := iprop(∃ r, prngReg c r)
  Y c := iprop(∃ r, prngReg c r)
  Z c := Pipeline.unscopedRest (Ix := Unit) (Name := ℕ) (U := UR sig nD τ) (Lvl := ℕ) spec8 c (E8 m (outs m) c)
  hentry c := by
    rw [Pipeline.ownSems0_none]
    have hsplit := Pipeline.arrays_of_unscopedBufs (p := 8) (pcfgs (F := F)) adm (pdats m) launch8.win launch8.arr_whole c
      ((pdats m 8 c).share_full fun _ => rfl) (E8 m (outs m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (E8 m (outs m) c) (X8 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9 over the thread state: entered from every unscoped buffer at the contents before it, left at the contents
    after it; its arrays split out of the unscoped buffers and put back at the exit contents; the generator register
    into the invariant and out; nothing owed; no semaphore of the kernel's own. -/
def reg9 : Pipeline.RegionSeg (pcfgs (F := F)) adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (E9 m (outs m)) c).loose
  hwaits := Pipeline.hwaits_of_owed_zero _ _ _ _ L lv 9 fun _ _ => rfl
  pre c := iprop(StableHlo.held (c : Thread nD τ) (Pipeline.ucRefs τ sig) (V27 m (outs m) c) ∗ R c)
  post c := iprop(StableHlo.held (c : Thread nD τ) (Pipeline.ucRefs τ sig) (V28 m (outs m) c) ∗ R c)
  X c := iprop(∃ r, prngReg c r)
  Y c := iprop(∃ r, prngReg c r)
  Z c := Pipeline.unscopedRest (Ix := Unit) (Name := ℕ) (U := UR sig nD τ) (Lvl := ℕ) spec9 c (E9 m (outs m) c)
  hentry c := by
    rw [Pipeline.ownSems0_none]
    have hsplit := Pipeline.arrays_of_unscopedBufs (p := 9) (pcfgs (F := F)) adm (pdats m) launch9.win launch9.arr_whole c
      ((pdats m 9 c).share_full fun _ => rfl) (E9 m (outs m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (E9 m (outs m) c) (X9 m c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 10 over the thread state: entered from every unscoped buffer at the contents before it, left at the contents
    after it; its arrays split out of the unscoped buffers and put back at the exit contents; the generator register
    into the invariant and out; nothing owed; no semaphore of the kernel's own. -/
def reg10 : Pipeline.RegionSeg (pcfgs (F := F)) adm (pdats m) () defs₀ 𝒱₀ L lv 10 where
  win := launch10.win.to₀
  block_pos := launch10.block_pos
  stage_whole := launch10.stage_whole
  K := PEmpty
  osem k := k.elim
  ho := Pipeline.OwnSemFacts.none _
  hbody c := (body_obligation10 (E10 m (outs m)) c).loose
  hwaits := Pipeline.hwaits_of_owed_zero _ _ _ _ L lv 10 fun _ _ => rfl
  pre c := iprop(StableHlo.held (c : Thread nD τ) (Pipeline.ucRefs τ sig) (V31 m (outs m) c) ∗ R c)
  post c := iprop(StableHlo.held (c : Thread nD τ) (Pipeline.ucRefs τ sig) (V32 m (outs m) c) ∗ R c)
  X c := iprop(∃ r, prngReg c r)
  Y c := iprop(∃ r, prngReg c r)
  Z c := Pipeline.unscopedRest (Ix := Unit) (Name := ℕ) (U := UR sig nD τ) (Lvl := ℕ) spec10 c (E10 m (outs m) c)
  hentry c := by
    rw [Pipeline.ownSems0_none]
    have hsplit := Pipeline.arrays_of_unscopedBufs (p := 10) (pcfgs (F := F)) adm (pdats m) launch10.win launch10.arr_whole c
      ((pdats m 10 c).share_full fun _ => rfl) (E10 m (outs m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (E10 m (outs m) c) (X10 m c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 11 over the thread state: entered from every unscoped buffer at the contents before it, left at the contents
    after it; its arrays split out of the unscoped buffers and put back at the exit contents; the generator register
    into the invariant and out; nothing owed; no semaphore of the kernel's own. -/
def reg11 : Pipeline.RegionSeg (pcfgs (F := F)) adm (pdats m) () defs₀ 𝒱₀ L lv 11 where
  win := launch11.win.to₀
  block_pos := launch11.block_pos
  stage_whole := launch11.stage_whole
  K := PEmpty
  osem k := k.elim
  ho := Pipeline.OwnSemFacts.none _
  hbody c := (body_obligation11 (E11 m (outs m)) c).loose
  hwaits := Pipeline.hwaits_of_owed_zero _ _ _ _ L lv 11 fun _ _ => rfl
  pre c := iprop(StableHlo.held (c : Thread nD τ) (Pipeline.ucRefs τ sig) (V33 m (outs m) c) ∗ R c)
  post c := iprop(StableHlo.held (c : Thread nD τ) (Pipeline.ucRefs τ sig) (V34 m (outs m) c) ∗ R c)
  X c := iprop(∃ r, prngReg c r)
  Y c := iprop(∃ r, prngReg c r)
  Z c := Pipeline.unscopedRest (Ix := Unit) (Name := ℕ) (U := UR sig nD τ) (Lvl := ℕ) spec11 c (E11 m (outs m) c)
  hentry c := by
    rw [Pipeline.ownSems0_none]
    have hsplit := Pipeline.arrays_of_unscopedBufs (p := 11) (pcfgs (F := F)) adm (pdats m) launch11.win launch11.arr_whole c
      ((pdats m 11 c).share_full fun _ => rfl) (E11 m (outs m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m) ((pdats m 11 c).share_full fun _ => rfl)
      (E11 m (outs m) c) (X11 m c) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 12 over the thread state: entered from every unscoped buffer at the contents before it, left at the contents
    after it; its arrays split out of the unscoped buffers and put back at the exit contents; the generator register
    into the invariant and out; nothing owed; no semaphore of the kernel's own. -/
def reg12 : Pipeline.RegionSeg (pcfgs (F := F)) adm (pdats m) () defs₀ 𝒱₀ L lv 12 where
  win := launch12.win.to₀
  block_pos := launch12.block_pos
  stage_whole := launch12.stage_whole
  K := PEmpty
  osem k := k.elim
  ho := Pipeline.OwnSemFacts.none _
  hbody c := (body_obligation12 (E12 m (outs m)) c).loose
  hwaits := Pipeline.hwaits_of_owed_zero _ _ _ _ L lv 12 fun _ _ => rfl
  pre c := iprop(StableHlo.held (c : Thread nD τ) (Pipeline.ucRefs τ sig) (V35 m (outs m) c) ∗ R c)
  post c := iprop(StableHlo.held (c : Thread nD τ) (Pipeline.ucRefs τ sig) (V36 m (outs m) c) ∗ R c)
  X c := iprop(∃ r, prngReg c r)
  Y c := iprop(∃ r, prngReg c r)
  Z c := Pipeline.unscopedRest (Ix := Unit) (Name := ℕ) (U := UR sig nD τ) (Lvl := ℕ) spec12 c (E12 m (outs m) c)
  hentry c := by
    rw [Pipeline.ownSems0_none]
    have hsplit := Pipeline.arrays_of_unscopedBufs (p := 12) (pcfgs (F := F)) adm (pdats m) launch12.win launch12.arr_whole c
      ((pdats m 12 c).share_full fun _ => rfl) (E12 m (outs m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m) ((pdats m 12 c).share_full fun _ => rfl)
      (E12 m (outs m) c) (X12 m c) ((pdats m 12 c).arrAt · cfg12.N) (hF12 m c) (hrest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 13 over the thread state: entered from every unscoped buffer at the contents before it, left at the contents
    after it; its arrays split out of the unscoped buffers and put back at the exit contents; the generator register
    into the invariant and out; nothing owed; no semaphore of the kernel's own. -/
def reg13 : Pipeline.RegionSeg (pcfgs (F := F)) adm (pdats m) () defs₀ 𝒱₀ L lv 13 where
  win := launch13.win.to₀
  block_pos := launch13.block_pos
  stage_whole := launch13.stage_whole
  K := PEmpty
  osem k := k.elim
  ho := Pipeline.OwnSemFacts.none _
  hbody c := (body_obligation13 (E13 m (outs m)) c).loose
  hwaits := Pipeline.hwaits_of_owed_zero _ _ _ _ L lv 13 fun _ _ => rfl
  pre c := iprop(StableHlo.held (c : Thread nD τ) (Pipeline.ucRefs τ sig) (V37 m (outs m) c) ∗ R c)
  post c := iprop(StableHlo.held (c : Thread nD τ) (Pipeline.ucRefs τ sig) (V38 m (outs m) c) ∗ R c)
  X c := iprop(∃ r, prngReg c r)
  Y c := iprop(∃ r, prngReg c r)
  Z c := Pipeline.unscopedRest (Ix := Unit) (Name := ℕ) (U := UR sig nD τ) (Lvl := ℕ) spec13 c (E13 m (outs m) c)
  hentry c := by
    rw [Pipeline.ownSems0_none]
    have hsplit := Pipeline.arrays_of_unscopedBufs (p := 13) (pcfgs (F := F)) adm (pdats m) launch13.win launch13.arr_whole c
      ((pdats m 13 c).share_full fun _ => rfl) (E13 m (outs m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 13 c).Φ 0 = Pipeline.ΦA spec13 c from rfl]; unfold Pipeline.ΦA
    iintro ⟨Hp, -, Hr⟩
    isplitl [Hr]; · iexact Hr
    iexact Hp
  hout c := by
    rw [Pipeline.ownSems0_none, show (pdats m 13 c).Φ (Fin.last _) = Pipeline.ΦA spec13 c from rfl]; unfold Pipeline.ΦA
    iintro ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c (pdats m) ((pdats m 13 c).share_full fun _ => rfl)
      (E13 m (outs m) c) (X13 m c) ((pdats m 13 c).arrAt · cfg13.N) (hF13 m c) (hrest13 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 14 over the thread state: entered from every unscoped buffer at the contents before it, left at the contents
    after it; its arrays split out of the unscoped buffers and put back at the exit contents; the generator register
    into the invariant and out; nothing owed; no semaphore of the kernel's own. -/
def reg14 : Pipeline.RegionSeg (pcfgs (F := F)) adm (pdats m) () defs₀ 𝒱₀ L lv 14 where
  win := launch14.win.to₀
  block_pos := launch14.block_pos
  stage_whole := launch14.stage_whole
  K := PEmpty
  osem k := k.elim
  ho := Pipeline.OwnSemFacts.none _
  hbody c := (body_obligation14 (E14 m (outs m)) c).loose
  hwaits := Pipeline.hwaits_of_owed_zero _ _ _ _ L lv 14 fun _ _ => rfl
  pre c := iprop(StableHlo.held (c : Thread nD τ) (Pipeline.ucRefs τ sig) (V41 m (outs m) c) ∗ R c)
  post c := iprop(StableHlo.held (c : Thread nD τ) (Pipeline.ucRefs τ sig) (V42 m (outs m) c) ∗ R c)
  X c := iprop(∃ r, prngReg c r)
  Y c := iprop(∃ r, prngReg c r)
  Z c := Pipeline.unscopedRest (Ix := Unit) (Name := ℕ) (U := UR sig nD τ) (Lvl := ℕ) spec14 c (E14 m (outs m) c)
  hentry c := by
    rw [Pipeline.ownSems0_none]
    have hsplit := Pipeline.arrays_of_unscopedBufs (p := 14) (pcfgs (F := F)) adm (pdats m) launch14.win launch14.arr_whole c
      ((pdats m 14 c).share_full fun _ => rfl) (E14 m (outs m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 14 c).Φ 0 = Pipeline.ΦA spec14 c from rfl]; unfold Pipeline.ΦA
    iintro ⟨Hp, -, Hr⟩
    isplitl [Hr]; · iexact Hr
    iexact Hp
  hout c := by
    rw [Pipeline.ownSems0_none, show (pdats m 14 c).Φ (Fin.last _) = Pipeline.ΦA spec14 c from rfl]; unfold Pipeline.ΦA
    iintro ⟨Hr, Hp⟩
    isplitl [Hp]; · iexact Hp
    isplitr; · iempintro
    iexact Hr
  hexit c := by
    have hjoin := Pipeline.unscopedBufs_of_arrays (p := 14) (pcfgs (F := F)) adm (Ix := Unit) (Name := ℕ) (U := UR sig nD τ) (Lvl := ℕ)
      launch14.win launch14.arr_whole c (pdats m) ((pdats m 14 c).share_full fun _ => rfl)
      (E14 m (outs m) c) (X14 m c) ((pdats m 14 c).arrAt · cfg14.N) (hF14 m c) (hrest14 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 15 over the thread state: entered from every unscoped buffer at the contents before it, left at the contents
    after it; its arrays split out of the unscoped buffers and put back at the exit contents; the generator register
    into the invariant and out; nothing owed; no semaphore of the kernel's own. -/
def reg15 : Pipeline.RegionSeg (pcfgs (F := F)) adm (pdats m) () defs₀ 𝒱₀ L lv 15 where
  win := launch15.win.to₀
  block_pos := launch15.block_pos
  stage_whole := launch15.stage_whole
  K := PEmpty
  osem k := k.elim
  ho := Pipeline.OwnSemFacts.none _
  hbody c := (body_obligation15 (E15 m (outs m)) c).loose
  hwaits := Pipeline.hwaits_of_owed_zero _ _ _ _ L lv 15 fun _ _ => rfl
  pre c := iprop(StableHlo.held (c : Thread nD τ) (Pipeline.ucRefs τ sig) (V43 m (outs m) c) ∗ R c)
  post c := iprop(StableHlo.held (c : Thread nD τ) (Pipeline.ucRefs τ sig) (V44 m (outs m) c) ∗ R c)
  X c := iprop(∃ r, prngReg c r)
  Y c := iprop(∃ r, prngReg c r)
  Z c := Pipeline.unscopedRest (Ix := Unit) (Name := ℕ) (U := UR sig nD τ) (Lvl := ℕ) spec15 c (E15 m (outs m) c)
  hentry c := by
    rw [Pipeline.ownSems0_none]
    have hsplit := Pipeline.arrays_of_unscopedBufs (p := 15) (pcfgs (F := F)) adm (pdats m) launch15.win launch15.arr_whole c
      ((pdats m 15 c).share_full fun _ => rfl) (E15 m (outs m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 15 c).Φ 0 = Pipeline.ΦA spec15 c from rfl]; unfold Pipeline.ΦA
    iintro ⟨Hp, -, Hr⟩
    isplitl [Hr]; · iexact Hr
    iexact Hp
  hout c := by
    rw [Pipeline.ownSems0_none, show (pdats m 15 c).Φ (Fin.last _) = Pipeline.ΦA spec15 c from rfl]; unfold Pipeline.ΦA
    iintro ⟨Hr, Hp⟩
    isplitl [Hp]; · iexact Hp
    isplitr; · iempintro
    iexact Hr
  hexit c := by
    have hjoin := Pipeline.unscopedBufs_of_arrays (p := 15) (pcfgs (F := F)) adm (Ix := Unit) (Name := ℕ) (U := UR sig nD τ) (Lvl := ℕ)
      launch15.win launch15.arr_whole c (pdats m) ((pdats m 15 c).share_full fun _ => rfl)
      (E15 m (outs m) c) (X15 m c) ((pdats m 15 c).arrAt · cfg15.N) (hF15 m c) (hrest15 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 16 over the thread state: entered from every unscoped buffer at the contents before it, left at the contents
    after it; its arrays split out of the unscoped buffers and put back at the exit contents; the generator register
    into the invariant and out; nothing owed; no semaphore of the kernel's own. -/
def reg16 : Pipeline.RegionSeg (pcfgs (F := F)) adm (pdats m) () defs₀ 𝒱₀ L lv 16 where
  win := launch16.win.to₀
  block_pos := launch16.block_pos
  stage_whole := launch16.stage_whole
  K := PEmpty
  osem k := k.elim
  ho := Pipeline.OwnSemFacts.none _
  hbody c := (body_obligation16 (E16 m (outs m)) c).loose
  hwaits := Pipeline.hwaits_of_owed_zero _ _ _ _ L lv 16 fun _ _ => rfl
  pre c := iprop(StableHlo.held (c : Thread nD τ) (Pipeline.ucRefs τ sig) (V45 m (outs m) c) ∗ R c)
  post c := iprop(StableHlo.held (c : Thread nD τ) (Pipeline.ucRefs τ sig) (V46 m (outs m) c) ∗ R c)
  X c := iprop(∃ r, prngReg c r)
  Y c := iprop(∃ r, prngReg c r)
  Z c := Pipeline.unscopedRest (Ix := Unit) (Name := ℕ) (U := UR sig nD τ) (Lvl := ℕ) spec16 c (E16 m (outs m) c)
  hentry c := by
    rw [Pipeline.ownSems0_none]
    have hsplit := Pipeline.arrays_of_unscopedBufs (p := 16) (pcfgs (F := F)) adm (pdats m) launch16.win launch16.arr_whole c
      ((pdats m 16 c).share_full fun _ => rfl) (E16 m (outs m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 16 c).Φ 0 = Pipeline.ΦA spec16 c from rfl]; unfold Pipeline.ΦA
    iintro ⟨Hp, -, Hr⟩
    isplitl [Hr]; · iexact Hr
    iexact Hp
  hout c := by
    rw [Pipeline.ownSems0_none, show (pdats m 16 c).Φ (Fin.last _) = Pipeline.ΦA spec16 c from rfl]; unfold Pipeline.ΦA
    iintro ⟨Hr, Hp⟩
    isplitl [Hp]; · iexact Hp
    isplitr; · iempintro
    iexact Hr
  hexit c := by
    have hjoin := Pipeline.unscopedBufs_of_arrays (p := 16) (pcfgs (F := F)) adm (Ix := Unit) (Name := ℕ) (U := UR sig nD τ) (Lvl := ℕ)
      launch16.win launch16.arr_whole c (pdats m) ((pdats m 16 c).share_full fun _ => rfl)
      (E16 m (outs m) c) (X16 m c) ((pdats m 16 c).arrAt · cfg16.N) (hF16 m c) (hrest16 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 17 over the thread state: entered from every unscoped buffer at the contents before it, left at the contents
    after it; its arrays split out of the unscoped buffers and put back at the exit contents; the generator register
    into the invariant and out; nothing owed; no semaphore of the kernel's own. -/
def reg17 : Pipeline.RegionSeg (pcfgs (F := F)) adm (pdats m) () defs₀ 𝒱₀ L lv 17 where
  win := launch17.win.to₀
  block_pos := launch17.block_pos
  stage_whole := launch17.stage_whole
  K := PEmpty
  osem k := k.elim
  ho := Pipeline.OwnSemFacts.none _
  hbody c := (body_obligation17 (E17 m (outs m)) c).loose
  hwaits := Pipeline.hwaits_of_owed_zero _ _ _ _ L lv 17 fun _ _ => rfl
  pre c := iprop(StableHlo.held (c : Thread nD τ) (Pipeline.ucRefs τ sig) (V47 m (outs m) c) ∗ R c)
  post c := iprop(StableHlo.held (c : Thread nD τ) (Pipeline.ucRefs τ sig) (V48 m (outs m) c) ∗ R c)
  X c := iprop(∃ r, prngReg c r)
  Y c := iprop(∃ r, prngReg c r)
  Z c := Pipeline.unscopedRest (Ix := Unit) (Name := ℕ) (U := UR sig nD τ) (Lvl := ℕ) spec17 c (E17 m (outs m) c)
  hentry c := by
    rw [Pipeline.ownSems0_none]
    have hsplit := Pipeline.arrays_of_unscopedBufs (p := 17) (pcfgs (F := F)) adm (pdats m) launch17.win launch17.arr_whole c
      ((pdats m 17 c).share_full fun _ => rfl) (E17 m (outs m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 17 c).Φ 0 = Pipeline.ΦA spec17 c from rfl]; unfold Pipeline.ΦA
    iintro ⟨Hp, -, Hr⟩
    isplitl [Hr]; · iexact Hr
    iexact Hp
  hout c := by
    rw [Pipeline.ownSems0_none, show (pdats m 17 c).Φ (Fin.last _) = Pipeline.ΦA spec17 c from rfl]; unfold Pipeline.ΦA
    iintro ⟨Hr, Hp⟩
    isplitl [Hp]; · iexact Hp
    isplitr; · iempintro
    iexact Hr
  hexit c := by
    have hjoin := Pipeline.unscopedBufs_of_arrays (p := 17) (pcfgs (F := F)) adm (Ix := Unit) (Name := ℕ) (U := UR sig nD τ) (Lvl := ℕ)
      launch17.win launch17.arr_whole c (pdats m) ((pdats m 17 c).share_full fun _ => rfl)
      (E17 m (outs m) c) (X17 m c) ((pdats m 17 c).arrAt · cfg17.N) (hF17 m c) (hrest17 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame claim, and the run with its results -/

/-- The frame claim: every weakly fair execution of @main terminates, nothing faulting, the arguments as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  frame_cond m emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      have hmono : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (fun _ : Dev nD => (iprop(emp) : sProp 𝕄)) c))
          ⊢ (bigSep Finset.univ (fun c : Dev nD => (R (F := F) c)) : sProp 𝕄) :=
        bigSep_mono fun c _ => (show iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)) ⊢ (R (F := F) c : sProp 𝕄) from by
          iintro ⟨-, HO, -, Hp, -⟩
          isplitl [Hp]; · iexists _; iexact Hp
          iexists ∅; iexact HO)
      iintro ⟨H, -⟩
      imodintro
      iapply hmono
      iexact H)
    (hE18 := fun c => by
      iintro ⟨-, HO⟩
      iexact HO)
    (R0 := reg0 m) (hpre0 := fun _ => .rfl) (hpost0 := fun _ => .rfl)
    (R1 := reg1 m) (hpre1 := fun _ => .rfl) (hpost1 := fun _ => .rfl)
    (R2 := reg2 m) (hpre2 := fun _ => .rfl) (hpost2 := fun _ => .rfl)
    (R3 := reg3 m) (hpre3 := fun _ => .rfl) (hpost3 := fun _ => .rfl)
    (R4 := reg4 m) (hpre4 := fun _ => .rfl) (hpost4 := fun _ => .rfl)
    (R5 := reg5 m) (hpre5 := fun _ => .rfl) (hpost5 := fun _ => .rfl)
    (R6 := reg6 m) (hpre6 := fun _ => .rfl) (hpost6 := fun _ => .rfl)
    (R7 := reg7 m) (hpre7 := fun _ => .rfl) (hpost7 := fun _ => .rfl)
    (R8 := reg8 m) (hpre8 := fun _ => .rfl) (hpost8 := fun _ => .rfl)
    (R9 := reg9 m) (hpre9 := fun _ => .rfl) (hpost9 := fun _ => .rfl)
    (R10 := reg10 m) (hpre10 := fun _ => .rfl) (hpost10 := fun _ => .rfl)
    (R11 := reg11 m) (hpre11 := fun _ => .rfl) (hpost11 := fun _ => .rfl)
    (R12 := reg12 m) (hpre12 := fun _ => .rfl) (hpost12 := fun _ => .rfl)
    (R13 := reg13 m) (hpre13 := fun _ => .rfl) (hpost13 := fun _ => .rfl)
    (R14 := reg14 m) (hpre14 := fun _ => .rfl) (hpost14 := fun _ => .rfl)
    (R15 := reg15 m) (hpre15 := fun _ => .rfl) (hpost15 := fun _ => .rfl)
    (R16 := reg16 m) (hpre16 := fun _ => .rfl) (hpost16 := fun _ => .rfl)
    (R17 := reg17 m) (hpre17 := fun _ => .rfl) (hpost17 := fun _ => .rfl)

/-- The run with its results: beside the arguments as launched, each result buffer ends at the last boundary's contents. -/
theorem run (ρ : Dev nD → PrngReg) :
    θ_run defs (onTc (τ := τ) (main (F := F))) ⟨m, fun _ => 0, ρ⟩ (fun r => ∀ c : Dev nD,
      r.2.mem ((c.tc : Thread nD τ).loc main_v68) = V49 m (outs m) c main_v68
      ∧ r.2.mem ((c.tc : Thread nD τ).loc main_v70) = V49 m (outs m) c main_v70
      ∧ r.2.mem ((c.tc : Thread nD τ).loc main_v73) = V49 m (outs m) c main_v73
      ∧ r.2.mem ((c.tc : Thread nD τ).loc main_v76) = V49 m (outs m) c main_v76
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  run_cond m emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      have hmono : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (fun _ : Dev nD => (iprop(emp) : sProp 𝕄)) c))
          ⊢ (bigSep Finset.univ (fun c : Dev nD => (R (F := F) c)) : sProp 𝕄) :=
        bigSep_mono fun c _ => (show iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)) ⊢ (R (F := F) c : sProp 𝕄) from by
          iintro ⟨-, HO, -, Hp, -⟩
          isplitl [Hp]; · iexists _; iexact Hp
          iexists ∅; iexact HO)
      iintro ⟨H, -⟩
      imodintro
      iapply hmono
      iexact H)
    (hE18 := fun c => by
      iintro ⟨-, HO⟩
      iexact HO)
    (R0 := reg0 m) (hpre0 := fun _ => .rfl) (hpost0 := fun _ => .rfl)
    (R1 := reg1 m) (hpre1 := fun _ => .rfl) (hpost1 := fun _ => .rfl)
    (R2 := reg2 m) (hpre2 := fun _ => .rfl) (hpost2 := fun _ => .rfl)
    (R3 := reg3 m) (hpre3 := fun _ => .rfl) (hpost3 := fun _ => .rfl)
    (R4 := reg4 m) (hpre4 := fun _ => .rfl) (hpost4 := fun _ => .rfl)
    (R5 := reg5 m) (hpre5 := fun _ => .rfl) (hpost5 := fun _ => .rfl)
    (R6 := reg6 m) (hpre6 := fun _ => .rfl) (hpost6 := fun _ => .rfl)
    (R7 := reg7 m) (hpre7 := fun _ => .rfl) (hpost7 := fun _ => .rfl)
    (R8 := reg8 m) (hpre8 := fun _ => .rfl) (hpost8 := fun _ => .rfl)
    (R9 := reg9 m) (hpre9 := fun _ => .rfl) (hpost9 := fun _ => .rfl)
    (R10 := reg10 m) (hpre10 := fun _ => .rfl) (hpost10 := fun _ => .rfl)
    (R11 := reg11 m) (hpre11 := fun _ => .rfl) (hpost11 := fun _ => .rfl)
    (R12 := reg12 m) (hpre12 := fun _ => .rfl) (hpost12 := fun _ => .rfl)
    (R13 := reg13 m) (hpre13 := fun _ => .rfl) (hpost13 := fun _ => .rfl)
    (R14 := reg14 m) (hpre14 := fun _ => .rfl) (hpost14 := fun _ => .rfl)
    (R15 := reg15 m) (hpre15 := fun _ => .rfl) (hpost15 := fun _ => .rfl)
    (R16 := reg16 m) (hpre16 := fun _ => .rfl) (hpost16 := fun _ => .rfl)
    (R17 := reg17 m) (hpre17 := fun _ => .rfl) (hpost17 := fun _ => .rfl)

end Cert.KernelIdeal.Asm

end
-- ==== Proof.BR0.lean ====
/-
  Region 0 of the kernel's @main (the stem convolution): the proof data of its pipeline at any entry contents `V`,
  and the body's obligation. The body loads its three input blocks whole (the tap-stacked rows, the 27 x 64 weights,
  the bias), stores the whole output block (one matrix product, bias added, clamped at zero, rounded to bf16), then
  stores zeros over the block's first and last pixel columns (each a read of the two-column words holding the column,
  the column replaced, the words stored back), and, under a condition on the second grid coordinate, zeros over one
  row of the block: row 0 at the first row block of an image, row 112 at the second (the last). The grid is 8 x 2, so
  a point is in one of two cases, decided by its position's parity; in each the first store covers the block, so what
  the output's staging buffer holds after the body is that case's stores read back, whatever it held before.
-/
import proofs.«100114_g2000204297211070_pallasbulk_1265_19_alg».proof.Proof.Gen.Kernel.Launch
import proofs.«100114_g2000204297211070_pallasbulk_1265_19_alg».proof.Proof.Gen.Kernel.Skeleton
import proofs.«100114_g2000204297211070_pallasbulk_1265_19_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data over `V`'s array whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data over `V`'s array whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof
    data over `V`'s array whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions, from the grid position -/

/-- The condition of the first conditional store (row 0 zeroed): the second grid coordinate is 0. -/
abbrev cond0_0 (i : grid0.Coords) : Prop := (Scalar.cmpi .ne (Scalar.extui (Scalar.cmpi .eq (BitVec.ofNat 32 (i 1).val) 0#32)) 0#32) = 1#1
/-- It holds at the even positions, decided over the grid's 16 points. -/
theorem hcond0_0 : ∀ t : Fin cfg0.N, cond0_0 (grid0.coords t) ↔ t.val % 2 = 0 :=
  (by decide +kernel : ∀ t : Fin grid0.N, cond0_0 (grid0.coords t) ↔ t.val % 2 = 0)
/-- The condition of the second conditional store (row 112 zeroed): the second grid coordinate is 1. -/
abbrev cond0_1 (i : grid0.Coords) : Prop := (Scalar.cmpi .ne (Scalar.extui (Scalar.cmpi .eq (BitVec.ofNat 32 (i 1).val) 1#32)) 0#32) = 1#1
/-- It holds at the odd positions, decided over the grid's 16 points. -/
theorem hcond0_1 : ∀ t : Fin cfg0.N, cond0_1 (grid0.coords t) ↔ t.val % 2 = 1 :=
  (by decide +kernel : ∀ t : Fin grid0.N, cond0_1 (grid0.coords t) ↔ t.val % 2 = 1)

/-- At an even position only the first condition holds, -/
theorem hcase0_A (t : Fin cfg0.N) (h0 : t.val % 2 = 0) : cond0_0 (grid0.coords t) ∧ ¬cond0_1 (grid0.coords t) :=
  ⟨(hcond0_0 t).mpr h0, fun h => by have := (hcond0_1 t).mp h; omega⟩
/-- and at an odd one only the second. -/
theorem hcase0_B (t : Fin cfg0.N) (h0 : ¬t.val % 2 = 0) : ¬cond0_0 (grid0.coords t) ∧ cond0_1 (grid0.coords t) :=
  ⟨fun h => h0 ((hcond0_0 t).mp h), (hcond0_1 t).mpr (by omega)⟩

/-! ## The kernel body on any staging memrefs, case by case -/

/-- One staging buffer of the output window, through which its contents are stated (the choice does not matter). -/
abbrev VO0_3 : View sig .tc .vmem S1x113x232x64 .bf16 := (Memref.whole cc0_stg3_0 : Memref sig .tc .vmem S1x113x232x64 .bf16).view
/-- Each window's current staging memref at point `t`, spelled as the pipeline passes it, and its wholeness. -/
abbrev ms0_0 (t : Fin cfg0.N) : Memref sig .tc .vmem S1x113x232x27 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S27x64 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x113x232x64 .bf16 := win0_3.stage (cfg0.slots t 3)
abbrev hs0_3 (t : Fin cfg0.N) : (ms0_3 t).IsWhole := hstage0_3 ((cfg0.slots t 3).cast nbuf0_3)

set_option maxHeartbeats 1000000 in
/-- What the body's stores leave in the output's staging memref, as pieces (last first), in the case of a first row block (row 0 zeroed, row 112 not),
    with the proof that on whole staging memrefs, the inputs' at their contents and the output's at anything, the
    body runs to the continuation holding the inputs' as they were and the output's buffer with those pieces
    written. The pieces are the witness the run finds. -/
noncomputable def kernelRun0_A (c : Dev nD) (i : grid0.Coords) (arg2 : Memref sig .tc .vmem S1x113x232x27 .bf16) (harg2 : arg2.IsWhole) (arg3 : Memref sig .tc .vmem S27x64 .bf16) (harg3 : arg3.IsWhole) (arg4 : Memref sig .tc .vmem S1x64 .f32) (harg4 : arg4.IsWhole) (arg5 : Memref sig .tc .vmem S1x113x232x64 .bf16) (harg5 : arg5.IsWhole) (hc0 : cond0_0 i) (hc1 : ¬cond0_1 i)
    (x0 : Vec F S1x113x232x27 .bf16) (x1 : Vec F S27x64 .bf16) (x2 : Vec F S1x64 .f32) :
    { L3 : List (View.Piece (Elt F) S1x113x232x64 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc0__stem_kernel i arg2 harg2 arg3 harg3 arg4 harg4 arg5 harg5) K } := by
  refine ⟨?_, fun E K => ?run⟩
  case run =>
    simp only [cc0__stem_kernel_eq_skeleton]; unfold cc0__stem_kernel_skel
    simp only [k0_part1_eq_skeleton]
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

/-- The run's pieces in this case cover the output's block: the first store is of the whole block. -/
theorem cover0_A_3 (c : Dev nD) (i : grid0.Coords) (arg2 : Memref sig .tc .vmem S1x113x232x27 .bf16) (harg2 : arg2.IsWhole) (arg3 : Memref sig .tc .vmem S27x64 .bf16) (harg3 : arg3.IsWhole) (arg4 : Memref sig .tc .vmem S1x64 .f32) (harg4 : arg4.IsWhole) (arg5 : Memref sig .tc .vmem S1x113x232x64 .bf16) (harg5 : arg5.IsWhole) (hc0 : cond0_0 i) (hc1 : ¬cond0_1 i)
    (x0 : Vec F S1x113x232x27 .bf16) (x1 : Vec F S27x64 .bf16) (x2 : Vec F S1x64 .f32) (y : S1x113x232x64.Idx) :
    ∃ pc ∈ (kernelRun0_A c i arg2 harg2 arg3 harg3 arg4 harg4 arg5 harg5 hc0 hc1 x0 x1 x2).1, y ∈ pc.1.set :=
  View.cover_of_tiledL (kernelRun0_A c i arg2 harg2 arg3 harg3 arg4 harg4 arg5 harg5 hc0 hc1 x0 x1 x2).1 S1x113x232x64.size (by sl_kernel_rfl) y

/-- What the run leaves in the output's staging buffer in this case: its pieces read back over anything. -/
def out0_A_3 (c : Dev nD) (i : grid0.Coords) (arg2 : Memref sig .tc .vmem S1x113x232x27 .bf16) (harg2 : arg2.IsWhole) (arg3 : Memref sig .tc .vmem S27x64 .bf16) (harg3 : arg3.IsWhole) (arg4 : Memref sig .tc .vmem S1x64 .f32) (harg4 : arg4.IsWhole) (arg5 : Memref sig .tc .vmem S1x113x232x64 .bf16) (harg5 : arg5.IsWhole) (hc0 : cond0_0 i) (hc1 : ¬cond0_1 i)
    (x0 : Vec F S1x113x232x27 .bf16) (x1 : Vec F S27x64 .bf16) (x2 : Vec F S1x64 .f32) : Vec F S1x113x232x64 .bf16 :=
  VO0_3.read (Elt F) (VO0_3.writes (Elt F) VO0_3.junk (kernelRun0_A c i arg2 harg2 arg3 harg3 arg4 harg4 arg5 harg5 hc0 hc1 x0 x1 x2).1)

set_option maxHeartbeats 1000000 in
/-- What the body's stores leave in the output's staging memref, as pieces (last first), in the case of a last row block (row 112 zeroed, row 0 not),
    with the proof that on whole staging memrefs, the inputs' at their contents and the output's at anything, the
    body runs to the continuation holding the inputs' as they were and the output's buffer with those pieces
    written. The pieces are the witness the run finds. -/
noncomputable def kernelRun0_B (c : Dev nD) (i : grid0.Coords) (arg2 : Memref sig .tc .vmem S1x113x232x27 .bf16) (harg2 : arg2.IsWhole) (arg3 : Memref sig .tc .vmem S27x64 .bf16) (harg3 : arg3.IsWhole) (arg4 : Memref sig .tc .vmem S1x64 .f32) (harg4 : arg4.IsWhole) (arg5 : Memref sig .tc .vmem S1x113x232x64 .bf16) (harg5 : arg5.IsWhole) (hc0 : ¬cond0_0 i) (hc1 : cond0_1 i)
    (x0 : Vec F S1x113x232x27 .bf16) (x1 : Vec F S27x64 .bf16) (x2 : Vec F S1x64 .f32) :
    { L3 : List (View.Piece (Elt F) S1x113x232x64 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc0__stem_kernel i arg2 harg2 arg3 harg3 arg4 harg4 arg5 harg5) K } := by
  refine ⟨?_, fun E K => ?run⟩
  case run =>
    simp only [cc0__stem_kernel_eq_skeleton]; unfold cc0__stem_kernel_skel
    simp only [k0_part1_eq_skeleton]
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

/-- The run's pieces in this case cover the output's block: the first store is of the whole block. -/
theorem cover0_B_3 (c : Dev nD) (i : grid0.Coords) (arg2 : Memref sig .tc .vmem S1x113x232x27 .bf16) (harg2 : arg2.IsWhole) (arg3 : Memref sig .tc .vmem S27x64 .bf16) (harg3 : arg3.IsWhole) (arg4 : Memref sig .tc .vmem S1x64 .f32) (harg4 : arg4.IsWhole) (arg5 : Memref sig .tc .vmem S1x113x232x64 .bf16) (harg5 : arg5.IsWhole) (hc0 : ¬cond0_0 i) (hc1 : cond0_1 i)
    (x0 : Vec F S1x113x232x27 .bf16) (x1 : Vec F S27x64 .bf16) (x2 : Vec F S1x64 .f32) (y : S1x113x232x64.Idx) :
    ∃ pc ∈ (kernelRun0_B c i arg2 harg2 arg3 harg3 arg4 harg4 arg5 harg5 hc0 hc1 x0 x1 x2).1, y ∈ pc.1.set :=
  View.cover_of_tiledL (kernelRun0_B c i arg2 harg2 arg3 harg3 arg4 harg4 arg5 harg5 hc0 hc1 x0 x1 x2).1 S1x113x232x64.size (by sl_kernel_rfl) y

/-- What the run leaves in the output's staging buffer in this case: its pieces read back over anything. -/
def out0_B_3 (c : Dev nD) (i : grid0.Coords) (arg2 : Memref sig .tc .vmem S1x113x232x27 .bf16) (harg2 : arg2.IsWhole) (arg3 : Memref sig .tc .vmem S27x64 .bf16) (harg3 : arg3.IsWhole) (arg4 : Memref sig .tc .vmem S1x64 .f32) (harg4 : arg4.IsWhole) (arg5 : Memref sig .tc .vmem S1x113x232x64 .bf16) (harg5 : arg5.IsWhole) (hc0 : ¬cond0_0 i) (hc1 : cond0_1 i)
    (x0 : Vec F S1x113x232x27 .bf16) (x1 : Vec F S27x64 .bf16) (x2 : Vec F S1x64 .f32) : Vec F S1x113x232x64 .bf16 :=
  VO0_3.read (Elt F) (VO0_3.writes (Elt F) VO0_3.junk (kernelRun0_B c i arg2 harg2 arg3 harg3 arg4 harg4 arg5 harg5 hc0 hc1 x0 x1 x2).1)

/-! ## What the output holds after each point -/

/-- What the output's staging buffer holds after the body at point `t`: the contents of the case the position's
    parity selects, at the point's memrefs and input blocks. -/
def outsAt0 (c : Dev nD) (t : Fin cfg0.N) : Vec F S1x113x232x64 .bf16 :=
  if h0 : t.val % 2 = 0 then
    out0_A_3 c (grid0.coords t) (ms0_0 t) (hs0_0 t) (ms0_1 t) (hs0_1 t) (ms0_2 t) (hs0_2 t) (ms0_3 t) (hs0_3 t) (hcase0_A t h0).1 (hcase0_A t h0).2 (iblk0 V c 0 t) (iblk0 V c 1 t) (iblk0 V c 2 t)
  else
    out0_B_3 c (grid0.coords t) (ms0_0 t) (hs0_0 t) (ms0_1 t) (hs0_1 t) (ms0_2 t) (hs0_2 t) (ms0_3 t) (hs0_3 t) (hcase0_B t h0).1 (hcase0_B t h0).2 (iblk0 V c 0 t) (iblk0 V c 1 t) (iblk0 V c 2 t)

theorem outsAt0_A (c : Dev nD) (t : Fin cfg0.N) (h0 : t.val % 2 = 0) :
    outsAt0 V c t = out0_A_3 c (grid0.coords t) (ms0_0 t) (hs0_0 t) (ms0_1 t) (hs0_1 t) (ms0_2 t) (hs0_2 t) (ms0_3 t) (hs0_3 t) (hcase0_A t h0).1 (hcase0_A t h0).2 (iblk0 V c 0 t) (iblk0 V c 1 t) (iblk0 V c 2 t) :=
  dif_pos h0

theorem outsAt0_B (c : Dev nD) (t : Fin cfg0.N) (h0 : ¬t.val % 2 = 0) :
    outsAt0 V c t = out0_B_3 c (grid0.coords t) (ms0_0 t) (hs0_0 t) (ms0_1 t) (hs0_1 t) (ms0_2 t) (hs0_2 t) (ms0_3 t) (hs0_3 t) (hcase0_B t h0).1 (hcase0_B t h0).2 (iblk0 V c 0 t) (iblk0 V c 1 t) (iblk0 V c 2 t) :=
  dif_neg h0

/-! ## The pipeline's proof data -/

/-- The proof data of pipeline 0 on core `c`: the arrays as the region finds them; after the body at a point each
    input's buffer at its block and the output's at `outsAt0`; the generator register and the scoped rest as
    invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t))

set_option maxHeartbeats 800000 in
/-- The body at any point: the inputs' memrefs hold their blocks; the position's parity says which case the point is
    in, and that case's run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  by_cases h0 : t.val % 2 = 0
  · rw [outsAt0_A V c t h0]
    unfold out0_A_3
    iintro ⟨HΦ, Ho, ⟨%d0, H0⟩, ⟨%d1, H1⟩, ⟨%d2, H2⟩, ⟨%d3, H3⟩⟩
    iapply ((kernelRun0_A c (grid0.coords t) _ _ _ _ _ _ _ _ (hcase0_A t h0).1 (hcase0_A t h0).2 (iblk0 V c 0 t) (iblk0 V c 1 t) (iblk0 V c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_A_3 c _ _ _ _ _ _ _ _ _ _ _ _ _ _)
  · rw [outsAt0_B V c t h0]
    unfold out0_B_3
    iintro ⟨HΦ, Ho, ⟨%d0, H0⟩, ⟨%d1, H1⟩, ⟨%d2, H2⟩, ⟨%d3, H3⟩⟩
    iapply ((kernelRun0_B c (grid0.coords t) _ _ _ _ _ _ _ _ (hcase0_B t h0).1 (hcase0_B t h0).2 (iblk0 V c 0 t) (iblk0 V c 1 t) (iblk0 V c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_B_3 c _ _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

end Cert.Kernel.Reg

end
-- ==== Proof.BR1.lean ====
/-
  Region 1 of the kernel's @main (a 3x3 convolution as one matrix product over nine lane-concatenated taps, with bias,
  ReLU and the row-pair maximum of a 2x2 pooling fused): the proof data of its pipeline at any entry contents `V`, and
  the body's obligation. The body loads three column-shifted windows of its input block through rectangles whose row
  offset is computed from the grid position, loads the weights and the bias whole, and stores the result whole; so
  after the body at a point the output's staging buffer holds that one store's payload, read back over anything.
-/
import proofs.«100114_g2000204297211070_pallasbulk_1265_19_alg».proof.Proof.Gen.Kernel.Launch
import proofs.«100114_g2000204297211070_pallasbulk_1265_19_alg».proof.Proof.Gen.Kernel.Skeleton
import proofs.«100114_g2000204297211070_pallasbulk_1265_19_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not, for any proof data over
    `V`'s array whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point, fetched there or not, for any proof data over
    `V`'s array whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every point, fetched there or not, for any proof data over
    `V`'s array whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- One staging buffer of the output window, through which its contents are stated (the choice does not matter). -/
abbrev VO1_3 : View sig .tc .vmem S1x16x224x64 .bf16 := (Memref.whole cc1_stg3_0 : Memref sig .tc .vmem S1x16x224x64 .bf16).view
/-- Each window's current staging memref at point `t`, spelled as the pipeline passes it, and its wholeness. -/
abbrev ms1_0 (t : Fin cfg1.N) : Memref sig .tc .vmem S1x226x232x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S576x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x16x224x64 .bf16 := win1_3.stage (cfg1.slots t 3)
abbrev hs1_3 (t : Fin cfg1.N) : (ms1_3 t).IsWhole := hstage1_3 ((cfg1.slots t 3).cast nbuf1_3)

set_option maxHeartbeats 1000000 in
/-- What the body's stores leave in the output's staging memref, as pieces (last first), with the proof that on whole
    staging memrefs, the inputs' at their contents and the output's at anything, the body runs to the continuation
    holding the inputs' as they were and the output's buffer with the pieces written. The pieces are the witness the
    symbolic run of the body finds. -/
noncomputable def kernelRun1_A (c : Dev nD) (i : grid1.Coords) (arg2 : Memref sig .tc .vmem S1x226x232x64 .bf16) (harg2 : arg2.IsWhole) (arg3 : Memref sig .tc .vmem S576x64 .bf16) (harg3 : arg3.IsWhole) (arg4 : Memref sig .tc .vmem S1x64 .f32) (harg4 : arg4.IsWhole) (arg5 : Memref sig .tc .vmem S1x16x224x64 .bf16) (harg5 : arg5.IsWhole)
    (x0 : Vec F S1x226x232x64 .bf16) (x1 : Vec F S576x64 .bf16) (x2 : Vec F S1x64 .f32) :
    { L3 : List (View.Piece (Elt F) S1x16x224x64 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc1_body i arg2 harg2 arg3 harg3 arg4 harg4 arg5 harg5) K } := by
  refine ⟨?_, fun E K => ?run⟩
  case run =>
    simp only [cc1_body_eq_skeleton]; unfold cc1_body_skel
    simp only [k1_part1_eq_skeleton]
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

/-- The run's pieces for the output tile its block, so they cover it. -/
theorem cover1_A_3 (c : Dev nD) (i : grid1.Coords) (arg2 : Memref sig .tc .vmem S1x226x232x64 .bf16) (harg2 : arg2.IsWhole) (arg3 : Memref sig .tc .vmem S576x64 .bf16) (harg3 : arg3.IsWhole) (arg4 : Memref sig .tc .vmem S1x64 .f32) (harg4 : arg4.IsWhole) (arg5 : Memref sig .tc .vmem S1x16x224x64 .bf16) (harg5 : arg5.IsWhole)
    (x0 : Vec F S1x226x232x64 .bf16) (x1 : Vec F S576x64 .bf16) (x2 : Vec F S1x64 .f32) (y : S1x16x224x64.Idx) :
    ∃ pc ∈ (kernelRun1_A c i arg2 harg2 arg3 harg3 arg4 harg4 arg5 harg5 x0 x1 x2).1, y ∈ pc.1.set :=
  View.cover_of_tiledL (kernelRun1_A c i arg2 harg2 arg3 harg3 arg4 harg4 arg5 harg5 x0 x1 x2).1 S1x16x224x64.size (by sl_kernel_rfl) y

/-- What the run leaves in the output's staging buffer: its pieces read back over junk. -/
def out1_A_3 (c : Dev nD) (i : grid1.Coords) (arg2 : Memref sig .tc .vmem S1x226x232x64 .bf16) (harg2 : arg2.IsWhole) (arg3 : Memref sig .tc .vmem S576x64 .bf16) (harg3 : arg3.IsWhole) (arg4 : Memref sig .tc .vmem S1x64 .f32) (harg4 : arg4.IsWhole) (arg5 : Memref sig .tc .vmem S1x16x224x64 .bf16) (harg5 : arg5.IsWhole)
    (x0 : Vec F S1x226x232x64 .bf16) (x1 : Vec F S576x64 .bf16) (x2 : Vec F S1x64 .f32) : Vec F S1x16x224x64 .bf16 :=
  VO1_3.read (Elt F) (VO1_3.writes (Elt F) VO1_3.junk (kernelRun1_A c i arg2 harg2 arg3 harg3 arg4 harg4 arg5 harg5 x0 x1 x2).1)

/-- What the output's staging buffer holds after the body at point `t`: the run's contents at the point's memrefs
    and input blocks. -/
def outsAt1 (c : Dev nD) (t : Fin cfg1.N) : Vec F S1x16x224x64 .bf16 :=
  out1_A_3 c (grid1.coords t) (ms1_0 t) (hs1_0 t) (ms1_1 t) (hs1_1 t) (ms1_2 t) (hs1_2 t) (ms1_3 t) (hs1_3 t) (iblk1 V c 0 t) (iblk1 V c 1 t) (iblk1 V c 2 t)

/-- The proof data of pipeline 1 on core `c`: the arrays as the region finds them; after the body at a point each
    input's buffer at its block and the output's at `outsAt1`; the generator register and the scoped rest as
    invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

/-- The body at any point: the inputs' memrefs hold their blocks, so the run applies; the invariant passes through
    unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  unfold outsAt1
  unfold out1_A_3
  iintro ⟨HΦ, Ho, ⟨%d0, H0⟩, ⟨%d1, H1⟩, ⟨%d2, H2⟩, ⟨%d3, H3⟩⟩
  iapply ((kernelRun1_A c (grid1.coords t) _ _ _ _ _ _ _ _ (iblk1 V c 0 t) (iblk1 V c 1 t) (iblk1 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_A_3 c _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Cert.Kernel.Reg

end
-- ==== Proof.BR2.lean ====
/-
  Region 2 of the kernel's @main (the lane-half maximum that finishes the first 2x2 pooling): the proof data of its
  pipeline at any entry contents `V`, and the body's obligation. The body loads its one input block whole, takes the
  pointwise maximum of the block's two lane halves and stores the result whole; so after the body at a point the
  output's staging buffer holds that one store's payload of the input block.
-/
import proofs.«100114_g2000204297211070_pallasbulk_1265_19_alg».proof.Proof.Gen.Kernel.Launch
import proofs.«100114_g2000204297211070_pallasbulk_1265_19_alg».proof.Proof.Gen.Kernel.Skeleton
import proofs.«100114_g2000204297211070_pallasbulk_1265_19_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window's staging buffer holds its block at every point, for any proof data over `V`'s array whose
    body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S1x112x112x128 := Rect.unit (s := S1x112x112x128) ![0, 0, 0, 0] S1x112x112x128.size inb_S1x112x112x128_S1x112x112x128_0_0_0_0
abbrev r2_1 : Rect S1x112x112x64 := Rect.unit (s := S1x112x112x64) ![0, 0, 0, 0] S1x112x112x64.size inb_S1x112x112x64_S1x112x112x64_0_0_0_0

/-- The output's staging buffer after the body: the one whole store of the payload of the loaded input block. -/
def out2_1 (x0 : Vec F S1x112x112x128 .bf16) : Vec F S1x112x112x64 .bf16 :=
  View.canon [⟨r2_1, k2_pay1 (View.ld x0 r2_0)⟩]

theorem cover2_1 (p0 : Vec F S1x112x112x64 .bf16) (y : S1x112x112x64.Idx) :
    ∃ pc ∈ ([⟨r2_1, p0⟩] : List (View.Piece (Elt F) S1x112x112x64 .bf16)), y ∈ pc.1.set :=
  View.cover_of_tiled [⟨r2_1, p0⟩] S1x112x112x64.size (by rfl) y

set_option maxHeartbeats 1000000 in
/-- The body on whole staging memrefs, the input's at `x0` and the output's at anything, runs to the continuation
    with the input's as it was and the output's at `out2_1 x0`. -/
theorem sound_kernel2 (c : Dev nD) (E : Set ℕ) (i : grid2.Coords) (arg1 : Memref sig .tc .vmem S1x112x112x128 .bf16) (harg1 : arg1.IsWhole) (arg2 : Memref sig .tc .vmem S1x112x112x64 .bf16) (harg2 : arg2.IsWhole)
    (x0 : Vec F S1x112x112x128 .bf16) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out2_1 x0)) -∗ K ⟨⟩))
      ⊢ wp frame (wpE (defs₀ (F := F)) Variants.none c none) E (cc2__wpool_kernel i arg1 harg1 arg2 harg2) K := by
  simp only [cc2__wpool_kernel_eq_skeleton]; unfold cc2__wpool_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover2_1 _)

/-- The proof data of pipeline 2 on core `c`: the arrays as the region finds them; after the body at a point the
    input's buffer at its block and the output's at `out2_1` of it; the generator register and the scoped rest as
    invariant; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => out2_1 (iblk2 V c 0 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = out2_1 (iblk2 V c 0 t) := by dsimp only [dat2]

theorem before2_0 (c : Dev nD) (t : Fin cfg2.N) (d) : (dat2 V c).before 0 t d = iblk2 V c 0 t :=
  before2_0_of V (dat2 V c) (A_eq2 V c 0) (after2_0 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl,
    after2_0, after2_1]
  iintro ⟨HΦ, Ho, ⟨%d0, H0⟩, ⟨%d1, H1⟩⟩
  iapply (sound_kernel2 c Set.univ (grid2.coords t) _ _ _ _ (iblk2 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation2 (c : Dev nD) : BodyObligation (dat2 (F := F) V c) (defs₀ (F := F)) Variants.none () Set.univ := fun t => by
  rw [bigSep_W2, bigSep_W2]
  exact sound_body2 V c t

end Cert.Kernel.Reg

end
-- ==== Proof.BR3.lean ====
/-
  Region 3 of the kernel's @main (a 3x3 convolution as one matrix product over nine lane-concatenated taps, plus bias
  and ReLU, no pooling): the proof data of its pipeline at any entry contents `V`, and the body's obligation. The body
  loads three row bands of its padded input block through rectangles whose row offset is computed from the grid
  position, loads the weights and the bias whole, and stores its one payload whole; so after the body at a point the
  output's staging buffer holds the pieces that run leaves, read back.
-/
import proofs.«100114_g2000204297211070_pallasbulk_1265_19_alg».proof.Proof.Gen.Kernel.Launch
import proofs.«100114_g2000204297211070_pallasbulk_1265_19_alg».proof.Proof.Gen.Kernel.Skeleton
import proofs.«100114_g2000204297211070_pallasbulk_1265_19_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Each input window's current staging buffer holds its block at every point, fetched there or not, for any proof
    data over `V`'s array whose body leaves the block in place (the window is uncut and never idle, and where it is
    not fetched its block index has not moved). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- One staging buffer of the output window, through which its contents are stated (the choice does not matter: the
    pieces cover the block). -/
abbrev VO3_3 : View sig .tc .vmem S1x56x112x128 .bf16 := (Memref.whole cc3_stg3_0 : Memref sig .tc .vmem S1x56x112x128 .bf16).view
/-- Each window's current staging memref at point `t`, spelled as the pipeline passes it to the body, and its wholeness. -/
abbrev ms3_0 (t : Fin cfg3.N) : Memref sig .tc .vmem S1x114x114x64 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S576x128 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x56x112x128 .bf16 := win3_3.stage (cfg3.slots t 3)
abbrev hs3_3 (t : Fin cfg3.N) : (ms3_3 t).IsWhole := hstage3_3 ((cfg3.slots t 3).cast nbuf3_3)

set_option maxHeartbeats 1000000 in
/-- What the body's one store leaves in the output's staging memref, as pieces, with the proof that on whole staging
    memrefs — the inputs' at their contents, the output's at anything — the body runs to the continuation holding the
    inputs' as they were and the output's buffer with the pieces written. The pieces are the witness the symbolic run
    of the body's skeleton finds. -/
noncomputable def kernelRun3_A (c : Dev nD) (i : grid3.Coords) (arg2 : Memref sig .tc .vmem S1x114x114x64 .bf16) (harg2 : arg2.IsWhole) (arg3 : Memref sig .tc .vmem S576x128 .bf16) (harg3 : arg3.IsWhole) (arg4 : Memref sig .tc .vmem S1x128 .f32) (harg4 : arg4.IsWhole) (arg5 : Memref sig .tc .vmem S1x56x112x128 .bf16) (harg5 : arg5.IsWhole)
    (x0 : Vec F S1x114x114x64 .bf16) (x1 : Vec F S576x128 .bf16) (x2 : Vec F S1x128 .f32) :
    { L3 : List (View.Piece (Elt F) S1x56x112x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc3_body i arg2 harg2 arg3 harg3 arg4 harg4 arg5 harg5) K } := by
  refine ⟨?_, fun E K => ?run⟩
  case run =>
    simp only [cc3_body_eq_skeleton]; unfold cc3_body_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

/-- The run's pieces for the output tile its block (one whole store), so they cover it. -/
theorem cover3_A_3 (c : Dev nD) (i : grid3.Coords) (arg2 : Memref sig .tc .vmem S1x114x114x64 .bf16) (harg2 : arg2.IsWhole) (arg3 : Memref sig .tc .vmem S576x128 .bf16) (harg3 : arg3.IsWhole) (arg4 : Memref sig .tc .vmem S1x128 .f32) (harg4 : arg4.IsWhole) (arg5 : Memref sig .tc .vmem S1x56x112x128 .bf16) (harg5 : arg5.IsWhole)
    (x0 : Vec F S1x114x114x64 .bf16) (x1 : Vec F S576x128 .bf16) (x2 : Vec F S1x128 .f32) (y : S1x56x112x128.Idx) :
    ∃ pc ∈ (kernelRun3_A c i arg2 harg2 arg3 harg3 arg4 harg4 arg5 harg5 x0 x1 x2).1, y ∈ pc.1.set :=
  View.cover_of_tiledL (kernelRun3_A c i arg2 harg2 arg3 harg3 arg4 harg4 arg5 harg5 x0 x1 x2).1 S1x56x112x128.size (by sl_kernel_rfl) y

/-- What the run leaves in the output's staging buffer: its pieces read back over junk. -/
def out3_A_3 (c : Dev nD) (i : grid3.Coords) (arg2 : Memref sig .tc .vmem S1x114x114x64 .bf16) (harg2 : arg2.IsWhole) (arg3 : Memref sig .tc .vmem S576x128 .bf16) (harg3 : arg3.IsWhole) (arg4 : Memref sig .tc .vmem S1x128 .f32) (harg4 : arg4.IsWhole) (arg5 : Memref sig .tc .vmem S1x56x112x128 .bf16) (harg5 : arg5.IsWhole)
    (x0 : Vec F S1x114x114x64 .bf16) (x1 : Vec F S576x128 .bf16) (x2 : Vec F S1x128 .f32) : Vec F S1x56x112x128 .bf16 :=
  VO3_3.read (Elt F) (VO3_3.writes (Elt F) VO3_3.junk (kernelRun3_A c i arg2 harg2 arg3 harg3 arg4 harg4 arg5 harg5 x0 x1 x2).1)

/-- What the output's staging buffer holds after the body at point `t`: the run's contents at the point's memrefs and
    input blocks. -/
def outsAt3 (c : Dev nD) (t : Fin cfg3.N) : Vec F S1x56x112x128 .bf16 :=
  out3_A_3 c (grid3.coords t) (ms3_0 t) (hs3_0 t) (ms3_1 t) (hs3_1 t) (ms3_2 t) (hs3_2 t) (ms3_3 t) (hs3_3 t) (iblk3 V c 0 t) (iblk3 V c 1 t) (iblk3 V c 2 t)

/-- The proof data of pipeline 3 on core `c`: the arrays as the region finds them; after the body at a point each
    input's buffer at its block and the output's at `outsAt3`; the generator register and the scoped rest as
    invariant; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t)
    ∗ owns (c : Thread nD τ) (ms3_3 t) fullShare ((dat3 V c).after 3 t))

/-- The body at any point: the inputs' memrefs hold their blocks, so the run applies; the invariant passes through
    unread; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  unfold outsAt3
  unfold out3_A_3
  iintro ⟨HΦ, Ho, ⟨%d0, H0⟩, ⟨%d1, H1⟩, ⟨%d2, H2⟩, ⟨%d3, H3⟩⟩
  iapply ((kernelRun3_A c (grid3.coords t) _ _ _ _ _ _ _ _ (iblk3 V c 0 t) (iblk3 V c 1 t) (iblk3 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover3_A_3 c _ _ _ _ _ _ _ _ _ _ _ _)

theorem body_obligation3 (c : Dev nD) : BodyObligation (dat3 (F := F) V c) (defs₀ (F := F)) Variants.none () Set.univ := fun t => by
  rw [bigSep_W3, bigSep_W3]
  exact sound_body3 V c t

end Cert.Kernel.Reg

end
-- ==== Proof.BR4.lean ====
/-
  Region 4 of the kernel's @main (a 3x3 convolution as one matrix product over nine lane-concatenated taps, with bias,
  ReLU and the row-pair maximum of a 2x2 pooling fused): the proof data of its pipeline at any entry contents `V`, and
  the body's obligation. The body loads three column-shifted windows of its input block through rectangles whose row
  offset is computed from the grid position, loads the weights and the bias whole, and stores the result whole; so
  after the body at a point the output's staging buffer holds that one store's payload, read back over anything.
-/
import proofs.«100114_g2000204297211070_pallasbulk_1265_19_alg».proof.Proof.Gen.Kernel.Launch
import proofs.«100114_g2000204297211070_pallasbulk_1265_19_alg».proof.Proof.Gen.Kernel.Skeleton
import proofs.«100114_g2000204297211070_pallasbulk_1265_19_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, fetched there or not, for any proof data over
    `V`'s array whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's staging buffer holds its block at every point, fetched there or not, for any proof data over
    `V`'s array whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2's staging buffer holds its block at every point, fetched there or not, for any proof data over
    `V`'s array whose body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- One staging buffer of the output window, through which its contents are stated (the choice does not matter). -/
abbrev VO4_3 : View sig .tc .vmem S1x28x112x128 .bf16 := (Memref.whole cc4_stg3_0 : Memref sig .tc .vmem S1x28x112x128 .bf16).view
/-- Each window's current staging memref at point `t`, spelled as the pipeline passes it, and its wholeness. -/
abbrev ms4_0 (t : Fin cfg4.N) : Memref sig .tc .vmem S1x114x114x128 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1152x128 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x28x112x128 .bf16 := win4_3.stage (cfg4.slots t 3)
abbrev hs4_3 (t : Fin cfg4.N) : (ms4_3 t).IsWhole := hstage4_3 ((cfg4.slots t 3).cast nbuf4_3)

set_option maxHeartbeats 1000000 in
/-- What the body's stores leave in the output's staging memref, as pieces (last first), with the proof that on whole
    staging memrefs, the inputs' at their contents and the output's at anything, the body runs to the continuation
    holding the inputs' as they were and the output's buffer with the pieces written. The pieces are the witness the
    symbolic run of the body finds. -/
noncomputable def kernelRun4_A (c : Dev nD) (i : grid4.Coords) (arg2 : Memref sig .tc .vmem S1x114x114x128 .bf16) (harg2 : arg2.IsWhole) (arg3 : Memref sig .tc .vmem S1152x128 .bf16) (harg3 : arg3.IsWhole) (arg4 : Memref sig .tc .vmem S1x128 .f32) (harg4 : arg4.IsWhole) (arg5 : Memref sig .tc .vmem S1x28x112x128 .bf16) (harg5 : arg5.IsWhole)
    (x0 : Vec F S1x114x114x128 .bf16) (x1 : Vec F S1152x128 .bf16) (x2 : Vec F S1x128 .f32) :
    { L3 : List (View.Piece (Elt F) S1x28x112x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc4_body i arg2 harg2 arg3 harg3 arg4 harg4 arg5 harg5) K } := by
  refine ⟨?_, fun E K => ?run⟩
  case run =>
    simp only [cc4_body_eq_skeleton]; unfold cc4_body_skel
    simp only [k4_part1_eq_skeleton]
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

/-- The run's pieces for the output tile its block, so they cover it. -/
theorem cover4_A_3 (c : Dev nD) (i : grid4.Coords) (arg2 : Memref sig .tc .vmem S1x114x114x128 .bf16) (harg2 : arg2.IsWhole) (arg3 : Memref sig .tc .vmem S1152x128 .bf16) (harg3 : arg3.IsWhole) (arg4 : Memref sig .tc .vmem S1x128 .f32) (harg4 : arg4.IsWhole) (arg5 : Memref sig .tc .vmem S1x28x112x128 .bf16) (harg5 : arg5.IsWhole)
    (x0 : Vec F S1x114x114x128 .bf16) (x1 : Vec F S1152x128 .bf16) (x2 : Vec F S1x128 .f32) (y : S1x28x112x128.Idx) :
    ∃ pc ∈ (kernelRun4_A c i arg2 harg2 arg3 harg3 arg4 harg4 arg5 harg5 x0 x1 x2).1, y ∈ pc.1.set :=
  View.cover_of_tiledL (kernelRun4_A c i arg2 harg2 arg3 harg3 arg4 harg4 arg5 harg5 x0 x1 x2).1 S1x28x112x128.size (by sl_kernel_rfl) y

/-- What the run leaves in the output's staging buffer: its pieces read back over junk. -/
def out4_A_3 (c : Dev nD) (i : grid4.Coords) (arg2 : Memref sig .tc .vmem S1x114x114x128 .bf16) (harg2 : arg2.IsWhole) (arg3 : Memref sig .tc .vmem S1152x128 .bf16) (harg3 : arg3.IsWhole) (arg4 : Memref sig .tc .vmem S1x128 .f32) (harg4 : arg4.IsWhole) (arg5 : Memref sig .tc .vmem S1x28x112x128 .bf16) (harg5 : arg5.IsWhole)
    (x0 : Vec F S1x114x114x128 .bf16) (x1 : Vec F S1152x128 .bf16) (x2 : Vec F S1x128 .f32) : Vec F S1x28x112x128 .bf16 :=
  VO4_3.read (Elt F) (VO4_3.writes (Elt F) VO4_3.junk (kernelRun4_A c i arg2 harg2 arg3 harg3 arg4 harg4 arg5 harg5 x0 x1 x2).1)

/-- What the output's staging buffer holds after the body at point `t`: the run's contents at the point's memrefs
    and input blocks. -/
def outsAt4 (c : Dev nD) (t : Fin cfg4.N) : Vec F S1x28x112x128 .bf16 :=
  out4_A_3 c (grid4.coords t) (ms4_0 t) (hs4_0 t) (ms4_1 t) (hs4_1 t) (ms4_2 t) (hs4_2 t) (ms4_3 t) (hs4_3 t) (iblk4 V c 0 t) (iblk4 V c 1 t) (iblk4 V c 2 t)

/-- The proof data of pipeline 4 on core `c`: the arrays as the region finds them; after the body at a point each
    input's buffer at its block and the output's at `outsAt4`; the generator register and the scoped rest as
    invariant; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t)
    ∗ owns (c : Thread nD τ) (ms4_2 t) fullShare ((dat4 V c).after 2 t)
    ∗ owns (c : Thread nD τ) (ms4_3 t) fullShare ((dat4 V c).after 3 t))

/-- The body at any point: the inputs' memrefs hold their blocks, so the run applies; the invariant passes through
    unread; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  unfold outsAt4
  unfold out4_A_3
  iintro ⟨HΦ, Ho, ⟨%d0, H0⟩, ⟨%d1, H1⟩, ⟨%d2, H2⟩, ⟨%d3, H3⟩⟩
  iapply ((kernelRun4_A c (grid4.coords t) _ _ _ _ _ _ _ _ (iblk4 V c 0 t) (iblk4 V c 1 t) (iblk4 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover4_A_3 c _ _ _ _ _ _ _ _ _ _ _ _)

theorem body_obligation4 (c : Dev nD) : BodyObligation (dat4 (F := F) V c) (defs₀ (F := F)) Variants.none () Set.univ := fun t => by
  rw [bigSep_W4, bigSep_W4]
  exact sound_body4 V c t

end Cert.Kernel.Reg

end
-- ==== Proof.BR5.lean ====
/-
  Region 5 of the kernel's @main (the lane-half maximum that finishes a 2x2 pooling): the proof data of its
  pipeline at any entry contents `V`, and the body's obligation. The body loads its one input block whole, takes the
  pointwise maximum of the block's two lane halves and stores the result whole; so after the body at a point the
  output's staging buffer holds that one store's payload of the input block.
-/
import proofs.«100114_g2000204297211070_pallasbulk_1265_19_alg».proof.Proof.Gen.Kernel.Launch
import proofs.«100114_g2000204297211070_pallasbulk_1265_19_alg».proof.Proof.Gen.Kernel.Skeleton
import proofs.«100114_g2000204297211070_pallasbulk_1265_19_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The input window's staging buffer holds its block at every point, for any proof data over `V`'s array whose
    body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

abbrev r5_0 : Rect S1x56x56x256 := Rect.unit (s := S1x56x56x256) ![0, 0, 0, 0] S1x56x56x256.size inb_S1x56x56x256_S1x56x56x256_0_0_0_0
abbrev r5_1 : Rect S1x56x56x128 := Rect.unit (s := S1x56x56x128) ![0, 0, 0, 0] S1x56x56x128.size inb_S1x56x56x128_S1x56x56x128_0_0_0_0

/-- The output's staging buffer after the body: the one whole store of the payload of the loaded input block. -/
def out5_1 (x0 : Vec F S1x56x56x256 .bf16) : Vec F S1x56x56x128 .bf16 :=
  View.canon [⟨r5_1, k5_pay1 (View.ld x0 r5_0)⟩]

theorem cover5_1 (p0 : Vec F S1x56x56x128 .bf16) (y : S1x56x56x128.Idx) :
    ∃ pc ∈ ([⟨r5_1, p0⟩] : List (View.Piece (Elt F) S1x56x56x128 .bf16)), y ∈ pc.1.set :=
  View.cover_of_tiled [⟨r5_1, p0⟩] S1x56x56x128.size (by rfl) y

set_option maxHeartbeats 1000000 in
/-- The body on whole staging memrefs, the input's at `x0` and the output's at anything, runs to the continuation
    with the input's as it was and the output's at `out5_1 x0`. -/
theorem sound_kernel5 (c : Dev nD) (E : Set ℕ) (i : grid5.Coords) (arg1 : Memref sig .tc .vmem S1x56x56x256 .bf16) (harg1 : arg1.IsWhole) (arg2 : Memref sig .tc .vmem S1x56x56x128 .bf16) (harg2 : arg2.IsWhole)
    (x0 : Vec F S1x56x56x256 .bf16) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out5_1 x0)) -∗ K ⟨⟩))
      ⊢ wp frame (wpE (defs₀ (F := F)) Variants.none c none) E (cc5__wpool_kernel i arg1 harg1 arg2 harg2) K := by
  simp only [cc5__wpool_kernel_eq_skeleton]; unfold cc5__wpool_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover5_1 _)

/-- The proof data of pipeline 5 on core `c`: the arrays as the region finds them; after the body at a point the
    input's buffer at its block and the output's at `out5_1` of it; the generator register and the scoped rest as
    invariant; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => out5_1 (iblk5 V c 0 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = out5_1 (iblk5 V c 0 t) := by dsimp only [dat5]

theorem before5_0 (c : Dev nD) (t : Fin cfg5.N) (d) : (dat5 V c).before 0 t d = iblk5 V c 0 t :=
  before5_0_of V (dat5 V c) (A_eq5 V c 0) (after5_0 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0]
  rw [show (dat5 V c).Φ t.succ = (dat5 V c).Φ t.castSucc from rfl,
    show (dat5 V c).owesAt () t.succ = (dat5 V c).owesAt () t.castSucc from rfl,
    after5_0, after5_1]
  iintro ⟨HΦ, Ho, ⟨%d0, H0⟩, ⟨%d1, H1⟩⟩
  iapply (sound_kernel5 c Set.univ (grid5.coords t) _ _ _ _ (iblk5 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation5 (c : Dev nD) : BodyObligation (dat5 (F := F) V c) (defs₀ (F := F)) Variants.none () Set.univ := fun t => by
  rw [bigSep_W5, bigSep_W5]
  exact sound_body5 V c t

end Cert.Kernel.Reg

end
-- ==== Proof.BR6.lean ====
/-
  Region 6 of the kernel's @main (a 3x3 convolution with bias and ReLU whose result is stored at offset (1, 1) of
  a larger image, the next layer's padded input, followed by four stores of zeros over the top row, the bottom row,
  the left column and the right columns): the proof data of its pipeline at any entry contents `V`, and the body's
  obligation.

  The interior store and the two column stores write rows that are part of their words: each reads the words it
  touches, replaces a sub-block of them and writes them back. So the pieces the body's run leaves name what the
  output's buffer held before. What the buffer holds after the body does not depend on it: the two column stores
  read back what the earlier stores had left, and every element the interior store wrote back unchanged is
  overwritten by a column store. The buffer ends at the canonical contents of five plain stores — the right
  columns, the left column, the bottom row and the top row at zero, the interior at the convolution's result.
-/
import proofs.«100114_g2000204297211070_pallasbulk_1265_19_alg».proof.Proof.Gen.Kernel.Launch
import proofs.«100114_g2000204297211070_pallasbulk_1265_19_alg».proof.Proof.Gen.Kernel.Skeleton
import proofs.«100114_g2000204297211070_pallasbulk_1265_19_alg».proof.Proof.Gen.Kernel.Points
import proofs.«100114_g2000204297211070_pallasbulk_1265_19_alg».proof.Proof.LibRmw
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles of the body's loads and stores -/

/-- The shapes of the left column and of the right columns the body zeroes, and of the words each column store
    writes back. -/
abbrev SCL6 : Shape := S1x58x1x256
abbrev SCR6 : Shape := S1x58x1x256
abbrev SWL6 : Shape := S1x58x2x256
abbrev SWR6 : Shape := S1x58x2x256

/-- The three loads of the padded input, one per column shift, -/
abbrev r6_t1 (i : grid6.Coords) : Rect S1x58x58x128 := Rect.unit (s := S1x58x58x128) (k6_off1 i) S1x58x56x128.size (k6_off1_inb i)
abbrev r6_t2 (i : grid6.Coords) : Rect S1x58x58x128 := Rect.unit (s := S1x58x58x128) (k6_off2 i) S1x58x56x128.size (k6_off2_inb i)
abbrev r6_t3 (i : grid6.Coords) : Rect S1x58x58x128 := Rect.unit (s := S1x58x58x128) (k6_off3 i) S1x58x56x128.size (k6_off3_inb i)
/-- the weights and the bias, whole; -/
abbrev r6_w : Rect S1152x256 := Rect.unit (s := S1152x256) ![0, 0] S1152x256.size inb_S1152x256_S1152x256_0_0
abbrev r6_b : Rect S1x256 := Rect.unit (s := S1x256) ![0, 0] S1x256.size inb_S1x256_S1x256_0_0
/-- the words the interior store writes back (the interior's rows, every column) and the interior itself; -/
abbrev r6_wi : Rect S1x58x58x256 := Rect.unit (s := S1x58x58x256) ![0, 1, 0, 0] S1x56x58x256.size inb_S1x58x58x256_S1x56x58x256_0_1_0_0
abbrev r6_in : Rect S1x58x58x256 := Rect.unit (s := S1x58x58x256) ![0, 1, 1, 0] S1x56x56x256.size inb_S1x58x58x256_S1x56x56x256_0_1_1_0
/-- the top and the bottom row; -/
abbrev r6_rt : Rect S1x58x58x256 := Rect.unit (s := S1x58x58x256) ![0, 0, 0, 0] S1x1x58x256.size inb_S1x58x58x256_S1x1x58x256_0_0_0_0
abbrev r6_rb : Rect S1x58x58x256 := Rect.unit (s := S1x58x58x256) ![0, 57, 0, 0] S1x1x58x256.size inb_S1x58x58x256_S1x1x58x256_0_57_0_0
/-- the left column and the right columns. -/
abbrev r6_cl : Rect S1x58x58x256 := Rect.unit (s := S1x58x58x256) ![0, 0, 0, 0] SCL6.size inb_S1x58x58x256_S1x58x1x256_0_0_0_0
abbrev r6_cr : Rect S1x58x58x256 := Rect.unit (s := S1x58x58x256) ![0, 0, 57, 0] SCR6.size inb_S1x58x58x256_S1x58x1x256_0_0_57_0

set_option synthInstance.maxSize 1024 in
/-- Every element of the output block lies in the bottom row, the top row or the interior's rows. -/
theorem cover6_geo (y : S1x58x58x256.Idx) : y ∈ r6_rb.set ∨ y ∈ r6_rt.set ∨ y ∈ r6_wi.set := by
  have h1 : (y 1).val < S1x58x58x256.size 1 := (y 1).isLt
  have h2 : (y 2).val < S1x58x58x256.size 2 := (y 2).isLt
  rw [Cert.LibRmw.mem_unit4_hw, Cert.LibRmw.mem_unit4_hw, Cert.LibRmw.mem_unit4_hw]
  · revert h2; generalize (y 2).val = n2; revert n2
    revert h1; generalize (y 1).val = n1; revert n1
    decide +kernel
  all_goals decide

set_option synthInstance.maxSize 1024 in
/-- An element of the interior's rows outside the interior lies in the right columns or in the left column. -/
theorem shadow6_geo (y : S1x58x58x256.Idx) : y ∈ r6_wi.set → y ∉ r6_in.set → y ∈ r6_cr.set ∨ y ∈ r6_cl.set := by
  have h1 : (y 1).val < S1x58x58x256.size 1 := (y 1).isLt
  have h2 : (y 2).val < S1x58x58x256.size 2 := (y 2).isLt
  rw [Cert.LibRmw.mem_unit4_hw, Cert.LibRmw.mem_unit4_hw, Cert.LibRmw.mem_unit4_hw, Cert.LibRmw.mem_unit4_hw]
  · revert h2; generalize (y 2).val = n2; revert n2
    revert h1; generalize (y 1).val = n1; revert n1
    decide +kernel
  all_goals decide

/-! ## What the body leaves in the output's buffer -/

/-- The convolution's result, from the three input blocks: the interior store's sub-block. -/
def conv6 (i : grid6.Coords) (x0 : Vec F S1x58x58x128 .bf16) (x1 : Vec F S1152x256 .bf16) (x2 : Vec F S1x256 .f32) : FVec F S1x56x56x256 .bf16 :=
  k6_pay5 (View.ld x0 (r6_t1 i)) (View.ld x0 (r6_t2 i)) (View.ld x0 (r6_t3 i)) (View.ld x1 r6_w) (View.ld x2 r6_b)

/-- The output's staging buffer after the body: the right columns, the left column, the bottom row and the top row
    at the zeros the body stores there, the interior at the convolution's result (last store first). -/
def out6_3 (i : grid6.Coords) (x0 : Vec F S1x58x58x128 .bf16) (x1 : Vec F S1152x256 .bf16) (x2 : Vec F S1x256 .f32) : Vec F S1x58x58x256 .bf16 :=
  View.canon [⟨r6_cr, k6_pay4 (F := F)⟩, ⟨r6_cl, k6_pay3 (F := F)⟩, ⟨r6_rb, k6_pay2 (F := F)⟩, ⟨r6_rt, k6_pay1 (k6_pay6 (F := F))⟩, ⟨r6_in, conv6 i x0 x1 x2⟩]

variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Each input window's staging buffer holds its block at every point, for any proof data over `V`'s array whose
    body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## The kernel body on any staging memrefs -/

/-- Each window's current staging memref at point `t`, spelled as the pipeline passes it, and its wholeness. -/
abbrev ms6_0 (t : Fin cfg6.N) : Memref sig .tc .vmem S1x58x58x128 .bf16 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S1152x256 .bf16 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1x256 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S1x58x58x256 .bf16 := win6_3.stage (cfg6.slots t 3)
abbrev hs6_3 (t : Fin cfg6.N) : (ms6_3 t).IsWhole := hstage6_3 ((cfg6.slots t 3).cast nbuf6_3)

set_option maxHeartbeats 1000000 in
/-- What the body's stores leave in the output's staging memref, as pieces (last first), with the proof that on
    whole staging memrefs — the inputs' at their contents, the output's at `d3` — the body runs to the continuation
    holding the inputs' as they were and the output's buffer with the pieces written. The pieces are the witness the
    run finds; they name `d3`, which the interior store reads before any store. -/
noncomputable def kernelRun6_A (c : Dev nD) (i : grid6.Coords) (arg2 : Memref sig .tc .vmem S1x58x58x128 .bf16) (harg2 : arg2.IsWhole) (arg3 : Memref sig .tc .vmem S1152x256 .bf16) (harg3 : arg3.IsWhole) (arg4 : Memref sig .tc .vmem S1x256 .f32) (harg4 : arg4.IsWhole) (arg5 : Memref sig .tc .vmem S1x58x58x256 .bf16) (harg5 : arg5.IsWhole)
    (x0 : Vec F S1x58x58x128 .bf16) (x1 : Vec F S1152x256 .bf16) (x2 : Vec F S1x256 .f32) (d3 : Vec F S1x58x58x256 .bf16) :
    { L3 : List (View.Piece (Elt F) S1x58x58x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare d3
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc6_body i arg2 harg2 arg3 harg3 arg4 harg4 arg5 harg5) K } := by
  refine ⟨?_, fun E K => ?run⟩
  case run =>
    simp only [cc6_body_eq_skeleton]; unfold cc6_body_skel
    simp only [k6_part1_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

/-- The run's pieces cover the output block: the bottom row's, the top row's and the interior store's do. -/
theorem cover6_A_3 (c : Dev nD) (i : grid6.Coords) (arg2 : Memref sig .tc .vmem S1x58x58x128 .bf16) (harg2 : arg2.IsWhole) (arg3 : Memref sig .tc .vmem S1152x256 .bf16) (harg3 : arg3.IsWhole) (arg4 : Memref sig .tc .vmem S1x256 .f32) (harg4 : arg4.IsWhole) (arg5 : Memref sig .tc .vmem S1x58x58x256 .bf16) (harg5 : arg5.IsWhole)
    (x0 : Vec F S1x58x58x128 .bf16) (x1 : Vec F S1152x256 .bf16) (x2 : Vec F S1x256 .f32) (d3 : Vec F S1x58x58x256 .bf16) (y : S1x58x58x256.Idx) :
    ∃ pc ∈ (kernelRun6_A c i arg2 harg2 arg3 harg3 arg4 harg4 arg5 harg5 x0 x1 x2 d3).1, y ∈ pc.1.set := by
  unfold kernelRun6_A
  dsimp only
  sl_unfold_run_names
  rcases cover6_geo y with h | h | h
  · exact ⟨_, List.mem_cons_of_mem _ (List.mem_cons_of_mem _ List.mem_cons_self), h⟩
  · exact ⟨_, List.mem_cons_of_mem _ (List.mem_cons_of_mem _ (List.mem_cons_of_mem _ List.mem_cons_self)), h⟩
  · exact ⟨_, List.mem_cons_of_mem _ (List.mem_cons_of_mem _ (List.mem_cons_of_mem _ (List.mem_cons_of_mem _ List.mem_cons_self))), h⟩

set_option maxHeartbeats 1000000 in
/-- The canonical contents of the run's pieces are those of the five plain stores, whatever the output's buffer held
    before: each column store read back what the earlier stores had left, so it counts as the plain store of its
    zeros; the interior store then counts as the plain store of the convolution's result, the elements it wrote back
    unchanged being covered by the column stores. -/
theorem canon_run6 (c : Dev nD) (i : grid6.Coords) (arg2 : Memref sig .tc .vmem S1x58x58x128 .bf16) (harg2 : arg2.IsWhole) (arg3 : Memref sig .tc .vmem S1152x256 .bf16) (harg3 : arg3.IsWhole) (arg4 : Memref sig .tc .vmem S1x256 .f32) (harg4 : arg4.IsWhole) (arg5 : Memref sig .tc .vmem S1x58x58x256 .bf16) (harg5 : arg5.IsWhole)
    (x0 : Vec F S1x58x58x128 .bf16) (x1 : Vec F S1152x256 .bf16) (x2 : Vec F S1x256 .f32) (d3 : Vec F S1x58x58x256 .bf16) :
    View.canon (kernelRun6_A c i arg2 harg2 arg3 harg3 arg4 harg4 arg5 harg5 x0 x1 x2 d3).1 = out6_3 i x0 x1 x2 := by
  have e0 : ∀ r : Rect S1x58x58x128, View.readAt (Elt F) arg2.view r.toLoadRect (harg2.unread x0) = View.ld x0 r :=
    fun r => by rw [View.readAt_eq_ld, harg2.read_unread]
  have e1 : ∀ r : Rect S1152x256, View.readAt (Elt F) arg3.view r.toLoadRect (harg3.unread x1) = View.ld x1 r :=
    fun r => by rw [View.readAt_eq_ld, harg3.read_unread]
  have e2 : ∀ r : Rect S1x256, View.readAt (Elt F) arg4.view r.toLoadRect (harg4.unread x2) = View.ld x2 r :=
    fun r => by rw [View.readAt_eq_ld, harg4.read_unread]
  unfold kernelRun6_A
  dsimp only
  sl_unfold_run_names
  dsimp only
  simp only [e0, e1, e2]
  refine Eq.trans (Cert.LibRmw.canon_append_updateSlice_readCov (s := S1x58x58x256) (e := .bf16) (Val := Elt F) arg5.view []
    ![0, 0, 56, 0] ![0, 0, 57, 0] SWR6.size SCR6.size ![0, 0, 1, 0]
    inb_S1x58x58x256_S1x58x2x256_0_0_56_0 inb_S1x58x58x256_S1x58x1x256_0_0_57_0 (by decide)
    slices_S1x58x2x256_S1x58x1x256_0_0_1_0 _ _) ?_
  refine Eq.trans (Cert.LibRmw.canon_append_updateSlice_readCov (s := S1x58x58x256) (e := .bf16) (Val := Elt F) arg5.view [_]
    ![0, 0, 0, 0] ![0, 0, 0, 0] SWL6.size SCL6.size ![0, 0, 0, 0]
    inb_S1x58x58x256_S1x58x2x256_0_0_0_0 inb_S1x58x58x256_S1x58x1x256_0_0_0_0 (by decide)
    slices_S1x58x2x256_S1x58x1x256_0_0_0_0 _ _) ?_
  refine Eq.trans (Cert.LibRmw.canon_append_updateSlice (s := S1x58x58x256) (e := .bf16) (Val := Elt F) [_, _, _, _]
    ![0, 1, 0, 0] ![0, 1, 1, 0] S1x56x58x256.size S1x56x56x256.size ![0, 0, 1, 0]
    inb_S1x58x58x256_S1x56x58x256_0_1_0_0 inb_S1x58x58x256_S1x56x56x256_0_1_1_0 (by decide)
    slices_S1x56x58x256_S1x56x56x256_0_0_1_0 _ _ [] ?_) ?_
  · intro j hj
    refine Or.inl ?_
    rcases shadow6_geo _ (r6_wi.toLoadRect.idx_mem j) hj with h | h
    · exact ⟨_, List.mem_cons_self, h⟩
    · exact ⟨_, List.mem_cons_of_mem _ List.mem_cons_self, h⟩
  unfold out6_3 conv6
  rfl

/-! ## What the output holds after each point -/

/-- What the output's staging buffer holds after the body at point `t`: the five plain stores' contents at the
    point's input blocks. -/
def outsAt6 (c : Dev nD) (t : Fin cfg6.N) : Vec F S1x58x58x256 .bf16 :=
  out6_3 (grid6.coords t) (iblk6 V c 0 t) (iblk6 V c 1 t) (iblk6 V c 2 t)

/-! ## The pipeline's proof data -/

/-- The proof data of pipeline 6 on core `c`: the arrays as the region finds them; after the body at a point each
    input's buffer at its block and the output's at `outsAt6`; the generator register and the scoped rest as
    invariant; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => (outsAt6 V c t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = (outsAt6 V c t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (ms6_0 t) fullShare ((dat6 V c).after 0 t)
    ∗ owns (c : Thread nD τ) (ms6_1 t) fullShare ((dat6 V c).after 1 t)
    ∗ owns (c : Thread nD τ) (ms6_2 t) fullShare ((dat6 V c).after 2 t)
    ∗ owns (c : Thread nD τ) (ms6_3 t) fullShare ((dat6 V c).after 3 t))

/-- The body at any point: the inputs' memrefs hold their blocks, the output's holds something; so the run applies at
    that something; its pieces cover the block and their canonical contents are the five plain stores'; the invariant
    passes through unread; the core owes nothing throughout. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  unfold outsAt6
  iintro ⟨HΦ, Ho, ⟨%d0, H0⟩, ⟨%d1, H1⟩, ⟨%d2, H2⟩, ⟨%d3, H3⟩⟩
  iapply ((kernelRun6_A c (grid6.coords t) _ _ _ _ _ _ _ _ (iblk6 V c 0 t) (iblk6 V c 1 t) (iblk6 V c 2 t) ((dat6 V c).before 3 t d3)).2 Set.univ _)
  isplitl [H0]; · iexact H0
  isplitl [H1]; · iexact H1
  isplitl [H2]; · iexact H2
  isplitl [H3]; · iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro
  exact (View.read_writes_eq_canon _ _ _ (cover6_A_3 c _ _ _ _ _ _ _ _ _ _ _ _ _)).trans (canon_run6 c _ _ _ _ _ _ _ _ _ _ _ _ _)

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Reg

end
-- ==== Proof.BR7.lean ====
/-
  Region 7 of the kernel's @main (a 3x3 convolution with bias and ReLU whose result is stored at offset (1, 1) of
  a larger image, the next layer's padded input, followed by four stores of zeros over the top row, the bottom row,
  the left column and the right columns): the proof data of its pipeline at any entry contents `V`, and the body's
  obligation.

  The interior store and the two column stores write rows that are part of their words: each reads the words it
  touches, replaces a sub-block of them and writes them back. So the pieces the body's run leaves name what the
  output's buffer held before. What the buffer holds after the body does not depend on it: the two column stores
  read back what the earlier stores had left, and every element the interior store wrote back unchanged is
  overwritten by a column store. The buffer ends at the canonical contents of five plain stores — the right
  columns, the left column, the bottom row and the top row at zero, the interior at the convolution's result.
-/
import proofs.«100114_g2000204297211070_pallasbulk_1265_19_alg».proof.Proof.Gen.Kernel.Launch
import proofs.«100114_g2000204297211070_pallasbulk_1265_19_alg».proof.Proof.Gen.Kernel.Skeleton
import proofs.«100114_g2000204297211070_pallasbulk_1265_19_alg».proof.Proof.Gen.Kernel.Points
import proofs.«100114_g2000204297211070_pallasbulk_1265_19_alg».proof.Proof.LibRmw
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles of the body's loads and stores -/

/-- The shapes of the left column and of the right columns the body zeroes, and of the words each column store
    writes back. -/
abbrev SCL7 : Shape := S1x58x1x256
abbrev SCR7 : Shape := S1x58x1x256
abbrev SWL7 : Shape := S1x58x2x256
abbrev SWR7 : Shape := S1x58x2x256

/-- The three loads of the padded input, one per column shift, -/
abbrev r7_t1 (i : grid7.Coords) : Rect S1x58x58x256 := Rect.unit (s := S1x58x58x256) (k7_off1 i) S1x58x56x256.size (k7_off1_inb i)
abbrev r7_t2 (i : grid7.Coords) : Rect S1x58x58x256 := Rect.unit (s := S1x58x58x256) (k7_off2 i) S1x58x56x256.size (k7_off2_inb i)
abbrev r7_t3 (i : grid7.Coords) : Rect S1x58x58x256 := Rect.unit (s := S1x58x58x256) (k7_off3 i) S1x58x56x256.size (k7_off3_inb i)
/-- the weights and the bias, whole; -/
abbrev r7_w : Rect S2304x256 := Rect.unit (s := S2304x256) ![0, 0] S2304x256.size inb_S2304x256_S2304x256_0_0
abbrev r7_b : Rect S1x256 := Rect.unit (s := S1x256) ![0, 0] S1x256.size inb_S1x256_S1x256_0_0
/-- the words the interior store writes back (the interior's rows, every column) and the interior itself; -/
abbrev r7_wi : Rect S1x58x58x256 := Rect.unit (s := S1x58x58x256) ![0, 1, 0, 0] S1x56x58x256.size inb_S1x58x58x256_S1x56x58x256_0_1_0_0
abbrev r7_in : Rect S1x58x58x256 := Rect.unit (s := S1x58x58x256) ![0, 1, 1, 0] S1x56x56x256.size inb_S1x58x58x256_S1x56x56x256_0_1_1_0
/-- the top and the bottom row; -/
abbrev r7_rt : Rect S1x58x58x256 := Rect.unit (s := S1x58x58x256) ![0, 0, 0, 0] S1x1x58x256.size inb_S1x58x58x256_S1x1x58x256_0_0_0_0
abbrev r7_rb : Rect S1x58x58x256 := Rect.unit (s := S1x58x58x256) ![0, 57, 0, 0] S1x1x58x256.size inb_S1x58x58x256_S1x1x58x256_0_57_0_0
/-- the left column and the right columns. -/
abbrev r7_cl : Rect S1x58x58x256 := Rect.unit (s := S1x58x58x256) ![0, 0, 0, 0] SCL7.size inb_S1x58x58x256_S1x58x1x256_0_0_0_0
abbrev r7_cr : Rect S1x58x58x256 := Rect.unit (s := S1x58x58x256) ![0, 0, 57, 0] SCR7.size inb_S1x58x58x256_S1x58x1x256_0_0_57_0

set_option synthInstance.maxSize 1024 in
/-- Every element of the output block lies in the bottom row, the top row or the interior's rows. -/
theorem cover7_geo (y : S1x58x58x256.Idx) : y ∈ r7_rb.set ∨ y ∈ r7_rt.set ∨ y ∈ r7_wi.set := by
  have h1 : (y 1).val < S1x58x58x256.size 1 := (y 1).isLt
  have h2 : (y 2).val < S1x58x58x256.size 2 := (y 2).isLt
  rw [Cert.LibRmw.mem_unit4_hw, Cert.LibRmw.mem_unit4_hw, Cert.LibRmw.mem_unit4_hw]
  · revert h2; generalize (y 2).val = n2; revert n2
    revert h1; generalize (y 1).val = n1; revert n1
    decide +kernel
  all_goals decide

set_option synthInstance.maxSize 1024 in
/-- An element of the interior's rows outside the interior lies in the right columns or in the left column. -/
theorem shadow7_geo (y : S1x58x58x256.Idx) : y ∈ r7_wi.set → y ∉ r7_in.set → y ∈ r7_cr.set ∨ y ∈ r7_cl.set := by
  have h1 : (y 1).val < S1x58x58x256.size 1 := (y 1).isLt
  have h2 : (y 2).val < S1x58x58x256.size 2 := (y 2).isLt
  rw [Cert.LibRmw.mem_unit4_hw, Cert.LibRmw.mem_unit4_hw, Cert.LibRmw.mem_unit4_hw, Cert.LibRmw.mem_unit4_hw]
  · revert h2; generalize (y 2).val = n2; revert n2
    revert h1; generalize (y 1).val = n1; revert n1
    decide +kernel
  all_goals decide

/-! ## What the body leaves in the output's buffer -/

/-- The convolution's result, from the three input blocks: the interior store's sub-block. -/
def conv7 (i : grid7.Coords) (x0 : Vec F S1x58x58x256 .bf16) (x1 : Vec F S2304x256 .bf16) (x2 : Vec F S1x256 .f32) : FVec F S1x56x56x256 .bf16 :=
  k7_pay5 (View.ld x0 (r7_t1 i)) (View.ld x0 (r7_t2 i)) (View.ld x0 (r7_t3 i)) (View.ld x1 r7_w) (View.ld x2 r7_b)

/-- The output's staging buffer after the body: the right columns, the left column, the bottom row and the top row
    at the zeros the body stores there, the interior at the convolution's result (last store first). -/
def out7_3 (i : grid7.Coords) (x0 : Vec F S1x58x58x256 .bf16) (x1 : Vec F S2304x256 .bf16) (x2 : Vec F S1x256 .f32) : Vec F S1x58x58x256 .bf16 :=
  View.canon [⟨r7_cr, k7_pay4 (F := F)⟩, ⟨r7_cl, k7_pay3 (F := F)⟩, ⟨r7_rb, k7_pay2 (F := F)⟩, ⟨r7_rt, k7_pay1 (k7_pay6 (F := F))⟩, ⟨r7_in, conv7 i x0 x1 x2⟩]

variable (V : (c : Dev nD) → (b : Ref sig .tc) → Buf (Elt F) ((c : Thread nD τ).loc b))

/-! ## The windows' blocks -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Each input window's staging buffer holds its block at every point, for any proof data over `V`'s array whose
    body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-! ## The kernel body on any staging memrefs -/

/-- Each window's current staging memref at point `t`, spelled as the pipeline passes it, and its wholeness. -/
abbrev ms7_0 (t : Fin cfg7.N) : Memref sig .tc .vmem S1x58x58x256 .bf16 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S2304x256 .bf16 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1x256 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1x58x58x256 .bf16 := win7_3.stage (cfg7.slots t 3)
abbrev hs7_3 (t : Fin cfg7.N) : (ms7_3 t).IsWhole := hstage7_3 ((cfg7.slots t 3).cast nbuf7_3)

set_option maxHeartbeats 1000000 in
/-- What the body's stores leave in the output's staging memref, as pieces (last first), with the proof that on
    whole staging memrefs — the inputs' at their contents, the output's at `d3` — the body runs to the continuation
    holding the inputs' as they were and the output's buffer with the pieces written. The pieces are the witness the
    run finds; they name `d3`, which the interior store reads before any store. -/
noncomputable def kernelRun7_A (c : Dev nD) (i : grid7.Coords) (arg2 : Memref sig .tc .vmem S1x58x58x256 .bf16) (harg2 : arg2.IsWhole) (arg3 : Memref sig .tc .vmem S2304x256 .bf16) (harg3 : arg3.IsWhole) (arg4 : Memref sig .tc .vmem S1x256 .f32) (harg4 : arg4.IsWhole) (arg5 : Memref sig .tc .vmem S1x58x58x256 .bf16) (harg5 : arg5.IsWhole)
    (x0 : Vec F S1x58x58x256 .bf16) (x1 : Vec F S2304x256 .bf16) (x2 : Vec F S1x256 .f32) (d3 : Vec F S1x58x58x256 .bf16) :
    { L3 : List (View.Piece (Elt F) S1x58x58x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare d3
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc7_body i arg2 harg2 arg3 harg3 arg4 harg4 arg5 harg5) K } := by
  refine ⟨?_, fun E K => ?run⟩
  case run =>
    simp only [cc7_body_eq_skeleton]; unfold cc7_body_skel
    simp only [k7_part1_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

/-- The run's pieces cover the output block: the bottom row's, the top row's and the interior store's do. -/
theorem cover7_A_3 (c : Dev nD) (i : grid7.Coords) (arg2 : Memref sig .tc .vmem S1x58x58x256 .bf16) (harg2 : arg2.IsWhole) (arg3 : Memref sig .tc .vmem S2304x256 .bf16) (harg3 : arg3.IsWhole) (arg4 : Memref sig .tc .vmem S1x256 .f32) (harg4 : arg4.IsWhole) (arg5 : Memref sig .tc .vmem S1x58x58x256 .bf16) (harg5 : arg5.IsWhole)
    (x0 : Vec F S1x58x58x256 .bf16) (x1 : Vec F S2304x256 .bf16) (x2 : Vec F S1x256 .f32) (d3 : Vec F S1x58x58x256 .bf16) (y : S1x58x58x256.Idx) :
    ∃ pc ∈ (kernelRun7_A c i arg2 harg2 arg3 harg3 arg4 harg4 arg5 harg5 x0 x1 x2 d3).1, y ∈ pc.1.set := by
  unfold kernelRun7_A
  dsimp only
  sl_unfold_run_names
  rcases cover7_geo y with h | h | h
  · exact ⟨_, List.mem_cons_of_mem _ (List.mem_cons_of_mem _ List.mem_cons_self), h⟩
  · exact ⟨_, List.mem_cons_of_mem _ (List.mem_cons_of_mem _ (List.mem_cons_of_mem _ List.mem_cons_self)), h⟩
  · exact ⟨_, List.mem_cons_of_mem _ (List.mem_cons_of_mem _ (List.mem_cons_of_mem _ (List.mem_cons_of_mem _ List.mem_cons_self))), h⟩

set_option maxHeartbeats 1000000 in
/-- The canonical contents of the run's pieces are those of the five plain stores, whatever the output's buffer held
    before: each column store read back what the earlier stores had left, so it counts as the plain store of its
    zeros; the interior store then counts as the plain store of the convolution's result, the elements it wrote back
    unchanged being covered by the column stores. -/
theorem canon_run7 (c : Dev nD) (i : grid7.Coords) (arg2 : Memref sig .tc .vmem S1x58x58x256 .bf16) (harg2 : arg2.IsWhole) (arg3 : Memref sig .tc .vmem S2304x256 .bf16) (harg3 : arg3.IsWhole) (arg4 : Memref sig .tc .vmem S1x256 .f32) (harg4 : arg4.IsWhole) (arg5 : Memref sig .tc .vmem S1x58x58x256 .bf16) (harg5 : arg5.IsWhole)
    (x0 : Vec F S1x58x58x256 .bf16) (x1 : Vec F S2304x256 .bf16) (x2 : Vec F S1x256 .f32) (d3 : Vec F S1x58x58x256 .bf16) :
    View.canon (kernelRun7_A c i arg2 harg2 arg3 harg3 arg4 harg4 arg5 harg5 x0 x1 x2 d3).1 = out7_3 i x0 x1 x2 := by
  have e0 : ∀ r : Rect S1x58x58x256, View.readAt (Elt F) arg2.view r.toLoadRect (harg2.unread x0) = View.ld x0 r :=
    fun r => by rw [View.readAt_eq_ld, harg2.read_unread]
  have e1 : ∀ r : Rect S2304x256, View.readAt (Elt F) arg3.view r.toLoadRect (harg3.unread x1) = View.ld x1 r :=
    fun r => by rw [View.readAt_eq_ld, harg3.read_unread]
  have e2 : ∀ r : Rect S1x256, View.readAt (Elt F) arg4.view r.toLoadRect (harg4.unread x2) = View.ld x2 r :=
    fun r => by rw [View.readAt_eq_ld, harg4.read_unread]
  unfold kernelRun7_A
  dsimp only
  sl_unfold_run_names
  dsimp only
  simp only [e0, e1, e2]
  refine Eq.trans (Cert.LibRmw.canon_append_updateSlice_readCov (s := S1x58x58x256) (e := .bf16) (Val := Elt F) arg5.view []
    ![0, 0, 56, 0] ![0, 0, 57, 0] SWR7.size SCR7.size ![0, 0, 1, 0]
    inb_S1x58x58x256_S1x58x2x256_0_0_56_0 inb_S1x58x58x256_S1x58x1x256_0_0_57_0 (by decide)
    slices_S1x58x2x256_S1x58x1x256_0_0_1_0 _ _) ?_
  refine Eq.trans (Cert.LibRmw.canon_append_updateSlice_readCov (s := S1x58x58x256) (e := .bf16) (Val := Elt F) arg5.view [_]
    ![0, 0, 0, 0] ![0, 0, 0, 0] SWL7.size SCL7.size ![0, 0, 0, 0]
    inb_S1x58x58x256_S1x58x2x256_0_0_0_0 inb_S1x58x58x256_S1x58x1x256_0_0_0_0 (by decide)
    slices_S1x58x2x256_S1x58x1x256_0_0_0_0 _ _) ?_
  refine Eq.trans (Cert.LibRmw.canon_append_updateSlice (s := S1x58x58x256) (e := .bf16) (Val := Elt F) [_, _, _, _]
    ![0, 1, 0, 0] ![0, 1, 1, 0] S1x56x58x256.size S1x56x56x256.size ![0, 0, 1, 0]
    inb_S1x58x58x256_S1x56x58x256_0_1_0_0 inb_S1x58x58x256_S1x56x56x256_0_1_1_0 (by decide)
    slices_S1x56x58x256_S1x56x56x256_0_0_1_0 _ _ [] ?_) ?_
  · intro j hj
    refine Or.inl ?_
    rcases shadow7_geo _ (r7_wi.toLoadRect.idx_mem j) hj with h | h
    · exact ⟨_, List.mem_cons_self, h⟩
    · exact ⟨_, List.mem_cons_of_mem _ List.mem_cons_self, h⟩
  unfold out7_3 conv7
  rfl

/-! ## What the output holds after each point -/

/-- What the output's staging buffer holds after the body at point `t`: the five plain stores' contents at the
    point's input blocks. -/
def outsAt7 (c : Dev nD) (t : Fin cfg7.N) : Vec F S1x58x58x256 .bf16 :=
  out7_3 (grid7.coords t) (iblk7 V c 0 t) (iblk7 V c 1 t) (iblk7 V c 2 t)

/-! ## The pipeline's proof data -/

/-- The proof data of pipeline 7 on core `c`: the arrays as the region finds them; after the body at a point each
    input's buffer at its block and the output's at `outsAt7`; the generator register and the scoped rest as
    invariant; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => (outsAt7 V c t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = (outsAt7 V c t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ owns (c : Thread nD τ) (ms7_0 t) fullShare ((dat7 V c).after 0 t)
    ∗ owns (c : Thread nD τ) (ms7_1 t) fullShare ((dat7 V c).after 1 t)
    ∗ owns (c : Thread nD τ) (ms7_2 t) fullShare ((dat7 V c).after 2 t)
    ∗ owns (c : Thread nD τ) (ms7_3 t) fullShare ((dat7 V c).after 3 t))

/-- The body at any point: the inputs' memrefs hold their blocks, the output's holds something; so the run applies at
    that something; its pieces cover the block and their canonical contents are the five plain stores'; the invariant
    passes through unread; the core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  unfold outsAt7
  iintro ⟨HΦ, Ho, ⟨%d0, H0⟩, ⟨%d1, H1⟩, ⟨%d2, H2⟩, ⟨%d3, H3⟩⟩
  iapply ((kernelRun7_A c (grid7.coords t) _ _ _ _ _ _ _ _ (iblk7 V c 0 t) (iblk7 V c 1 t) (iblk7 V c 2 t) ((dat7 V c).before 3 t d3)).2 Set.univ _)
  isplitl [H0]; · iexact H0
  isplitl [H1]; · iexact H1
  isplitl [H2]; · iexact H2
  isplitl [H3]; · iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro
  exact (View.read_writes_eq_canon _ _ _ (cover7_A_3 c _ _ _ _ _ _ _ _ _ _ _ _ _)).trans (canon_run7 c _ _ _ _ _ _ _ _ _ _ _ _ _)

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Reg

end
-- ==== Proof.BR8.lean ====
/-
  Region 8 of the kernel's @main (a 3x3 convolution as one matrix product over nine lane-concatenated taps, with bias,
  ReLU and the row-pair maximum of a 2x2 pooling fused): the proof data of its pipeline at any entry contents `V`, and
  the body's obligation. The body loads three column-shifted windows of its input block through rectangles whose row
  offset is computed from the grid position, loads the weights and the bias whole, and stores the result whole; so
  after the body at a point the output's staging buffer holds that one store's payload, read back over anything.
-/
import proofs.«100114_g2000204297211070_pallasbulk_1265_19_alg».proof.Proof.Gen.Kernel.Launch
import proofs.«100114_g2000204297211070_pallasbulk_1265_19_alg».proof.Proof.Gen.Kernel.Skeleton
import proofs.«100114_g2000204297211070_pallasbulk_1265_19_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's staging buffer holds its block at every point, fetched there or not, for any proof data over
    `V`'s array whose body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
/-- Input window 1's staging buffer holds its block at every point, fetched there or not, for any proof data over
    `V`'s array whose body leaves the block in place. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
/-- Input window 2's staging buffer holds its block at every point, fetched there or not, for any proof data over
    `V`'s array whose body leaves the block in place. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- One staging buffer of the output window, through which its contents are stated (the choice does not matter). -/
abbrev VO8_3 : View sig .tc .vmem S1x28x56x256 .bf16 := (Memref.whole cc8_stg3_0 : Memref sig .tc .vmem S1x28x56x256 .bf16).view
/-- Each window's current staging memref at point `t`, spelled as the pipeline passes it, and its wholeness. -/
abbrev ms8_0 (t : Fin cfg8.N) : Memref sig .tc .vmem S1x58x58x256 .bf16 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S2304x256 .bf16 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S1x256 .f32 := win8_2.stage (cfg8.slots t 2)
abbrev hs8_2 (t : Fin cfg8.N) : (ms8_2 t).IsWhole := hstage8_2 ((cfg8.slots t 2).cast nbuf8_2)
abbrev ms8_3 (t : Fin cfg8.N) : Memref sig .tc .vmem S1x28x56x256 .bf16 := win8_3.stage (cfg8.slots t 3)
abbrev hs8_3 (t : Fin cfg8.N) : (ms8_3 t).IsWhole := hstage8_3 ((cfg8.slots t 3).cast nbuf8_3)

set_option maxHeartbeats 1000000 in
/-- What the body's stores leave in the output's staging memref, as pieces (last first), with the proof that on whole
    staging memrefs, the inputs' at their contents and the output's at anything, the body runs to the continuation
    holding the inputs' as they were and the output's buffer with the pieces written. The pieces are the witness the
    symbolic run of the body finds. -/
noncomputable def kernelRun8_A (c : Dev nD) (i : grid8.Coords) (arg2 : Memref sig .tc .vmem S1x58x58x256 .bf16) (harg2 : arg2.IsWhole) (arg3 : Memref sig .tc .vmem S2304x256 .bf16) (harg3 : arg3.IsWhole) (arg4 : Memref sig .tc .vmem S1x256 .f32) (harg4 : arg4.IsWhole) (arg5 : Memref sig .tc .vmem S1x28x56x256 .bf16) (harg5 : arg5.IsWhole)
    (x0 : Vec F S1x58x58x256 .bf16) (x1 : Vec F S2304x256 .bf16) (x2 : Vec F S1x256 .f32) :
    { L3 : List (View.Piece (Elt F) S1x28x56x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc8_body i arg2 harg2 arg3 harg3 arg4 harg4 arg5 harg5) K } := by
  refine ⟨?_, fun E K => ?run⟩
  case run =>
    simp only [cc8_body_eq_skeleton]; unfold cc8_body_skel
    simp only [k8_part1_eq_skeleton]
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

/-- The run's pieces for the output tile its block, so they cover it. -/
theorem cover8_A_3 (c : Dev nD) (i : grid8.Coords) (arg2 : Memref sig .tc .vmem S1x58x58x256 .bf16) (harg2 : arg2.IsWhole) (arg3 : Memref sig .tc .vmem S2304x256 .bf16) (harg3 : arg3.IsWhole) (arg4 : Memref sig .tc .vmem S1x256 .f32) (harg4 : arg4.IsWhole) (arg5 : Memref sig .tc .vmem S1x28x56x256 .bf16) (harg5 : arg5.IsWhole)
    (x0 : Vec F S1x58x58x256 .bf16) (x1 : Vec F S2304x256 .bf16) (x2 : Vec F S1x256 .f32) (y : S1x28x56x256.Idx) :
    ∃ pc ∈ (kernelRun8_A c i arg2 harg2 arg3 harg3 arg4 harg4 arg5 harg5 x0 x1 x2).1, y ∈ pc.1.set :=
  View.cover_of_tiledL (kernelRun8_A c i arg2 harg2 arg3 harg3 arg4 harg4 arg5 harg5 x0 x1 x2).1 S1x28x56x256.size (by sl_kernel_rfl) y

/-- What the run leaves in the output's staging buffer: its pieces read back over junk. -/
def out8_A_3 (c : Dev nD) (i : grid8.Coords) (arg2 : Memref sig .tc .vmem S1x58x58x256 .bf16) (harg2 : arg2.IsWhole) (arg3 : Memref sig .tc .vmem S2304x256 .bf16) (harg3 : arg3.IsWhole) (arg4 : Memref sig .tc .vmem S1x256 .f32) (harg4 : arg4.IsWhole) (arg5 : Memref sig .tc .vmem S1x28x56x256 .bf16) (harg5 : arg5.IsWhole)
    (x0 : Vec F S1x58x58x256 .bf16) (x1 : Vec F S2304x256 .bf16) (x2 : Vec F S1x256 .f32) : Vec F S1x28x56x256 .bf16 :=
  VO8_3.read (Elt F) (VO8_3.writes (Elt F) VO8_3.junk (kernelRun8_A c i arg2 harg2 arg3 harg3 arg4 harg4 arg5 harg5 x0 x1 x2).1)

/-- What the output's staging buffer holds after the body at point `t`: the run's contents at the point's memrefs
    and input blocks. -/
def outsAt8 (c : Dev nD) (t : Fin cfg8.N) : Vec F S1x28x56x256 .bf16 :=
  out8_A_3 c (grid8.coords t) (ms8_0 t) (hs8_0 t) (ms8_1 t) (hs8_1 t) (ms8_2 t) (hs8_2 t) (ms8_3 t) (hs8_3 t) (iblk8 V c 0 t) (iblk8 V c 1 t) (iblk8 V c 2 t)

/-- The proof data of pipeline 8 on core `c`: the arrays as the region finds them; after the body at a point each
    input's buffer at its block and the output's at `outsAt8`; the generator register and the scoped rest as
    invariant; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => (outsAt8 V c t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = (outsAt8 V c t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d))
    ∗ (∃ d, owns (c : Thread nD τ) (ms8_3 t) fullShare ((dat8 V c).before 3 t d)))

/-- and what it returns. -/
def bodyPost8 (c : Dev nD) (t : Fin cfg8.N) : sProp 𝕄 :=
  iprop((dat8 V c).Φ t.succ ∗ (dat8 V c).owesAt () t.succ
    ∗ owns (c : Thread nD τ) (ms8_0 t) fullShare ((dat8 V c).after 0 t)
    ∗ owns (c : Thread nD τ) (ms8_1 t) fullShare ((dat8 V c).after 1 t)
    ∗ owns (c : Thread nD τ) (ms8_2 t) fullShare ((dat8 V c).after 2 t)
    ∗ owns (c : Thread nD τ) (ms8_3 t) fullShare ((dat8 V c).after 3 t))

/-- The body at any point: the inputs' memrefs hold their blocks, so the run applies; the invariant passes through
    unread; the core owes nothing throughout. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  unfold outsAt8
  unfold out8_A_3
  iintro ⟨HΦ, Ho, ⟨%d0, H0⟩, ⟨%d1, H1⟩, ⟨%d2, H2⟩, ⟨%d3, H3⟩⟩
  iapply ((kernelRun8_A c (grid8.coords t) _ _ _ _ _ _ _ _ (iblk8 V c 0 t) (iblk8 V c 1 t) (iblk8 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover8_A_3 c _ _ _ _ _ _ _ _ _ _ _ _)

theorem body_obligation8 (c : Dev nD) : BodyObligation (dat8 (F := F) V c) (defs₀ (F := F)) Variants.none () Set.univ := fun t => by
  rw [bigSep_W8, bigSep_W8]
  exact sound_body8 V c t

end Cert.Kernel.Reg

end
-- ==== Proof.BR9.lean ====
/-
  Region 9 of the kernel's @main (the lane-half maximum that finishes a 2x2 pooling): the proof data of its
  pipeline at any entry contents `V`, and the body's obligation. The body loads its one input block whole, takes the
  pointwise maximum of the block's two lane halves and stores the result whole; so after the body at a point the
  output's staging buffer holds that one store's payload of the input block.
-/
import proofs.«100114_g2000204297211070_pallasbulk_1265_19_alg».proof.Proof.Gen.Kernel.Launch
import proofs.«100114_g2000204297211070_pallasbulk_1265_19_alg».proof.Proof.Gen.Kernel.Skeleton
import proofs.«100114_g2000204297211070_pallasbulk_1265_19_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- The input window's staging buffer holds its block at every point, for any proof data over `V`'s array whose
    body leaves the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

abbrev r9_0 : Rect S1x28x28x512 := Rect.unit (s := S1x28x28x512) ![0, 0, 0, 0] S1x28x28x512.size inb_S1x28x28x512_S1x28x28x512_0_0_0_0
abbrev r9_1 : Rect S1x28x28x256 := Rect.unit (s := S1x28x28x256) ![0, 0, 0, 0] S1x28x28x256.size inb_S1x28x28x256_S1x28x28x256_0_0_0_0

/-- The output's staging buffer after the body: the one whole store of the payload of the loaded input block. -/
def out9_1 (x0 : Vec F S1x28x28x512 .bf16) : Vec F S1x28x28x256 .bf16 :=
  View.canon [⟨r9_1, k9_pay1 (View.ld x0 r9_0)⟩]

theorem cover9_1 (p0 : Vec F S1x28x28x256 .bf16) (y : S1x28x28x256.Idx) :
    ∃ pc ∈ ([⟨r9_1, p0⟩] : List (View.Piece (Elt F) S1x28x28x256 .bf16)), y ∈ pc.1.set :=
  View.cover_of_tiled [⟨r9_1, p0⟩] S1x28x28x256.size (by rfl) y

set_option maxHeartbeats 1000000 in
/-- The body on whole staging memrefs, the input's at `x0` and the output's at anything, runs to the continuation
    with the input's as it was and the output's at `out9_1 x0`. -/
theorem sound_kernel9 (c : Dev nD) (E : Set ℕ) (i : grid9.Coords) (arg1 : Memref sig .tc .vmem S1x28x28x512 .bf16) (harg1 : arg1.IsWhole) (arg2 : Memref sig .tc .vmem S1x28x28x256 .bf16) (harg2 : arg2.IsWhole)
    (x0 : Vec F S1x28x28x512 .bf16) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out9_1 x0)) -∗ K ⟨⟩))
      ⊢ wp frame (wpE (defs₀ (F := F)) Variants.none c none) E (cc9__wpool_kernel i arg1 harg1 arg2 harg2) K := by
  simp only [cc9__wpool_kernel_eq_skeleton]; unfold cc9__wpool_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover9_1 _)

/-- The proof data of pipeline 9 on core `c`: the arrays as the region finds them; after the body at a point the
    input's buffer at its block and the output's at `out9_1` of it; the generator register and the scoped rest as
    invariant; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => out9_1 (iblk9 V c 0 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = out9_1 (iblk9 V c 0 t) := by dsimp only [dat9]

theorem before9_0 (c : Dev nD) (t : Fin cfg9.N) (d) : (dat9 V c).before 0 t d = iblk9 V c 0 t :=
  before9_0_of V (dat9 V c) (A_eq9 V c 0) (after9_0 V c) t d

def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d)))

def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t))

theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0]
  rw [show (dat9 V c).Φ t.succ = (dat9 V c).Φ t.castSucc from rfl,
    show (dat9 V c).owesAt () t.succ = (dat9 V c).owesAt () t.castSucc from rfl,
    after9_0, after9_1]
  iintro ⟨HΦ, Ho, ⟨%d0, H0⟩, ⟨%d1, H1⟩⟩
  iapply (sound_kernel9 c Set.univ (grid9.coords t) _ _ _ _ (iblk9 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation9 (c : Dev nD) : BodyObligation (dat9 (F := F) V c) (defs₀ (F := F)) Variants.none () Set.univ := fun t => by
  rw [bigSep_W9, bigSep_W9]
  exact sound_body9 V c t

end Cert.Kernel.Reg

end
-- ==== Proof.BR10.lean ====
/-
  Region 10 of the kernel's @main (a 3x3 convolution with bias and ReLU whose result is stored at offset (1, 1) of
  a larger image, the next layer's padded input, followed by four stores of zeros over the top row, the bottom row,
  the left column and the right columns): the proof data of its pipeline at any entry contents `V`, and the body's
  obligation.

  The interior store and the two column stores write rows that are part of their words: each reads the words it
  touches, replaces a sub-block of them and writes them back. So the pieces the body's run leaves name what the
  output's buffer held before. What the buffer holds after the body does not depend on it: the two column stores
  read back what the earlier stores had left, and every element the interior store wrote back unchanged is
  overwritten by a column store. The buffer ends at the canonical contents of five plain stores — the right
  columns, the left column, the bottom row and the top row at zero, the interior at the convolution's result.
-/
import proofs.«100114_g2000204297211070_pallasbulk_1265_19_alg».proof.Proof.Gen.Kernel.Launch
import proofs.«100114_g2000204297211070_pallasbulk_1265_19_alg».proof.Proof.Gen.Kernel.Skeleton
import proofs.«100114_g2000204297211070_pallasbulk_1265_19_alg».proof.Proof.Gen.Kernel.Points
import proofs.«100114_g2000204297211070_pallasbulk_1265_19_alg».proof.Proof.LibRmw
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles of the body's loads and stores -/

/-- The shapes of the left column and of the right columns the body zeroes, and of the words each column store
    writes back. -/
abbrev SCL10 : Shape := S1x30x1x512
abbrev SCR10 : Shape := S1x30x5x512
abbrev SWL10 : Shape := S1x30x2x512
abbrev SWR10 : Shape := S1x30x6x512

/-- The three loads of the padded input, one per column shift, -/
abbrev r10_t1 (i : grid10.Coords) : Rect S1x30x34x256 := Rect.unit (s := S1x30x34x256) (k10_off1 i) S1x30x32x256.size (k10_off1_inb i)
abbrev r10_t2 (i : grid10.Coords) : Rect S1x30x34x256 := Rect.unit (s := S1x30x34x256) (k10_off2 i) S1x30x32x256.size (k10_off2_inb i)
abbrev r10_t3 (i : grid10.Coords) : Rect S1x30x34x256 := Rect.unit (s := S1x30x34x256) (k10_off3 i) S1x30x32x256.size (k10_off3_inb i)
/-- the weights and the bias, whole; -/
abbrev r10_w : Rect S2304x512 := Rect.unit (s := S2304x512) ![0, 0] S2304x512.size inb_S2304x512_S2304x512_0_0
abbrev r10_b : Rect S1x512 := Rect.unit (s := S1x512) ![0, 0] S1x512.size inb_S1x512_S1x512_0_0
/-- the words the interior store writes back (the interior's rows, every column) and the interior itself; -/
abbrev r10_wi : Rect S1x30x34x512 := Rect.unit (s := S1x30x34x512) ![0, 1, 0, 0] S1x28x34x512.size inb_S1x30x34x512_S1x28x34x512_0_1_0_0
abbrev r10_in : Rect S1x30x34x512 := Rect.unit (s := S1x30x34x512) ![0, 1, 1, 0] S1x28x32x512.size inb_S1x30x34x512_S1x28x32x512_0_1_1_0
/-- the top and the bottom row; -/
abbrev r10_rt : Rect S1x30x34x512 := Rect.unit (s := S1x30x34x512) ![0, 0, 0, 0] S1x1x34x512.size inb_S1x30x34x512_S1x1x34x512_0_0_0_0
abbrev r10_rb : Rect S1x30x34x512 := Rect.unit (s := S1x30x34x512) ![0, 29, 0, 0] S1x1x34x512.size inb_S1x30x34x512_S1x1x34x512_0_29_0_0
/-- the left column and the right columns. -/
abbrev r10_cl : Rect S1x30x34x512 := Rect.unit (s := S1x30x34x512) ![0, 0, 0, 0] SCL10.size inb_S1x30x34x512_S1x30x1x512_0_0_0_0
abbrev r10_cr : Rect S1x30x34x512 := Rect.unit (s := S1x30x34x512) ![0, 0, 29, 0] SCR10.size inb_S1x30x34x512_S1x30x5x512_0_0_29_0

set_option synthInstance.maxSize 1024 in
/-- Every element of the output block lies in the bottom row, the top row or the interior's rows. -/
theorem cover10_geo (y : S1x30x34x512.Idx) : y ∈ r10_rb.set ∨ y ∈ r10_rt.set ∨ y ∈ r10_wi.set := by
  have h1 : (y 1).val < S1x30x34x512.size 1 := (y 1).isLt
  have h2 : (y 2).val < S1x30x34x512.size 2 := (y 2).isLt
  rw [Cert.LibRmw.mem_unit4_hw, Cert.LibRmw.mem_unit4_hw, Cert.LibRmw.mem_unit4_hw]
  · revert h2; generalize (y 2).val = n2; revert n2
    revert h1; generalize (y 1).val = n1; revert n1
    decide +kernel
  all_goals decide

set_option synthInstance.maxSize 1024 in
/-- An element of the interior's rows outside the interior lies in the right columns or in the left column. -/
theorem shadow10_geo (y : S1x30x34x512.Idx) : y ∈ r10_wi.set → y ∉ r10_in.set → y ∈ r10_cr.set ∨ y ∈ r10_cl.set := by
  have h1 : (y 1).val < S1x30x34x512.size 1 := (y 1).isLt
  have h2 : (y 2).val < S1x30x34x512.size 2 := (y 2).isLt
  rw [Cert.LibRmw.mem_unit4_hw, Cert.LibRmw.mem_unit4_hw, Cert.LibRmw.mem_unit4_hw, Cert.LibRmw.mem_unit4_hw]
  · revert h2; generalize (y 2).val = n2; revert n2
    revert h1; generalize (y 1).val = n1; revert n1
    decide +kernel
  all_goals decide

/-! ## What the body leaves in the output's buffer -/

/-- The convolution's result, from the three input blocks: the interior store's sub-block. -/
def conv10 (i : grid10.Coords) (x0 : Vec F S1x30x34x256 .bf16) (x1 : Vec F S2304x512 .bf16) (x2 : Vec F S1x512 .f32) : FVec F S1x28x32x512 .bf16 :=
  k10_pay5 (View.ld x0 (r10_t1 i)) (View.ld x0 (r10_t2 i)) (View.ld x0 (r10_t3 i)) (View.ld x1 r10_w) (View.ld x2 r10_b)

/-- The output's staging buffer after the body: the right columns, the left column, the bottom row and the top row
    at the zeros the body stores there, the interior at the convolution's result (last store first). -/
def out10_3 (i : grid10.Coords) (x0 : Vec F S1x30x34x256 .bf16) (x1 : Vec F S2304x512 .bf16) (x2 : Vec F S1x512 .f32) : Vec F S1x30x34x512 .bf16 :=
  View.canon [⟨r10_cr, k10_pay4 (F := F)⟩, ⟨r10_cl, k10_pay3 (F := F)⟩, ⟨r10_rb, k10_pay2 (F := F)⟩, ⟨r10_rt, k10_pay1 (k10_pay6 (F := F))⟩, ⟨r10_in, conv10 i x0 x1 x2⟩]

variable (V : (c : Dev nD) → (b : Ref sig .tc) → Buf (Elt F) ((c : Thread nD τ).loc b))

/-! ## The windows' blocks -/

/-- Window `w`'s block at point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Each input window's staging buffer holds its block at every point, for any proof data over `V`'s array whose
    body leaves the block in place. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-! ## The kernel body on any staging memrefs -/

/-- Each window's current staging memref at point `t`, spelled as the pipeline passes it, and its wholeness. -/
abbrev ms10_0 (t : Fin cfg10.N) : Memref sig .tc .vmem S1x30x34x256 .bf16 := win10_0.stage (cfg10.slots t 0)
abbrev hs10_0 (t : Fin cfg10.N) : (ms10_0 t).IsWhole := hstage10_0 ((cfg10.slots t 0).cast nbuf10_0)
abbrev ms10_1 (t : Fin cfg10.N) : Memref sig .tc .vmem S2304x512 .bf16 := win10_1.stage (cfg10.slots t 1)
abbrev hs10_1 (t : Fin cfg10.N) : (ms10_1 t).IsWhole := hstage10_1 ((cfg10.slots t 1).cast nbuf10_1)
abbrev ms10_2 (t : Fin cfg10.N) : Memref sig .tc .vmem S1x512 .f32 := win10_2.stage (cfg10.slots t 2)
abbrev hs10_2 (t : Fin cfg10.N) : (ms10_2 t).IsWhole := hstage10_2 ((cfg10.slots t 2).cast nbuf10_2)
abbrev ms10_3 (t : Fin cfg10.N) : Memref sig .tc .vmem S1x30x34x512 .bf16 := win10_3.stage (cfg10.slots t 3)
abbrev hs10_3 (t : Fin cfg10.N) : (ms10_3 t).IsWhole := hstage10_3 ((cfg10.slots t 3).cast nbuf10_3)

set_option maxHeartbeats 1000000 in
/-- What the body's stores leave in the output's staging memref, as pieces (last first), with the proof that on
    whole staging memrefs — the inputs' at their contents, the output's at `d3` — the body runs to the continuation
    holding the inputs' as they were and the output's buffer with the pieces written. The pieces are the witness the
    run finds; they name `d3`, which the interior store reads before any store. -/
noncomputable def kernelRun10_A (c : Dev nD) (i : grid10.Coords) (arg2 : Memref sig .tc .vmem S1x30x34x256 .bf16) (harg2 : arg2.IsWhole) (arg3 : Memref sig .tc .vmem S2304x512 .bf16) (harg3 : arg3.IsWhole) (arg4 : Memref sig .tc .vmem S1x512 .f32) (harg4 : arg4.IsWhole) (arg5 : Memref sig .tc .vmem S1x30x34x512 .bf16) (harg5 : arg5.IsWhole)
    (x0 : Vec F S1x30x34x256 .bf16) (x1 : Vec F S2304x512 .bf16) (x2 : Vec F S1x512 .f32) (d3 : Vec F S1x30x34x512 .bf16) :
    { L3 : List (View.Piece (Elt F) S1x30x34x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare d3
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc10_body i arg2 harg2 arg3 harg3 arg4 harg4 arg5 harg5) K } := by
  refine ⟨?_, fun E K => ?run⟩
  case run =>
    simp only [cc10_body_eq_skeleton]; unfold cc10_body_skel
    simp only [k10_part1_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

/-- The run's pieces cover the output block: the bottom row's, the top row's and the interior store's do. -/
theorem cover10_A_3 (c : Dev nD) (i : grid10.Coords) (arg2 : Memref sig .tc .vmem S1x30x34x256 .bf16) (harg2 : arg2.IsWhole) (arg3 : Memref sig .tc .vmem S2304x512 .bf16) (harg3 : arg3.IsWhole) (arg4 : Memref sig .tc .vmem S1x512 .f32) (harg4 : arg4.IsWhole) (arg5 : Memref sig .tc .vmem S1x30x34x512 .bf16) (harg5 : arg5.IsWhole)
    (x0 : Vec F S1x30x34x256 .bf16) (x1 : Vec F S2304x512 .bf16) (x2 : Vec F S1x512 .f32) (d3 : Vec F S1x30x34x512 .bf16) (y : S1x30x34x512.Idx) :
    ∃ pc ∈ (kernelRun10_A c i arg2 harg2 arg3 harg3 arg4 harg4 arg5 harg5 x0 x1 x2 d3).1, y ∈ pc.1.set := by
  unfold kernelRun10_A
  dsimp only
  sl_unfold_run_names
  rcases cover10_geo y with h | h | h
  · exact ⟨_, List.mem_cons_of_mem _ (List.mem_cons_of_mem _ List.mem_cons_self), h⟩
  · exact ⟨_, List.mem_cons_of_mem _ (List.mem_cons_of_mem _ (List.mem_cons_of_mem _ List.mem_cons_self)), h⟩
  · exact ⟨_, List.mem_cons_of_mem _ (List.mem_cons_of_mem _ (List.mem_cons_of_mem _ (List.mem_cons_of_mem _ List.mem_cons_self))), h⟩

set_option maxHeartbeats 1000000 in
/-- The canonical contents of the run's pieces are those of the five plain stores, whatever the output's buffer held
    before: each column store read back what the earlier stores had left, so it counts as the plain store of its
    zeros; the interior store then counts as the plain store of the convolution's result, the elements it wrote back
    unchanged being covered by the column stores. -/
theorem canon_run10 (c : Dev nD) (i : grid10.Coords) (arg2 : Memref sig .tc .vmem S1x30x34x256 .bf16) (harg2 : arg2.IsWhole) (arg3 : Memref sig .tc .vmem S2304x512 .bf16) (harg3 : arg3.IsWhole) (arg4 : Memref sig .tc .vmem S1x512 .f32) (harg4 : arg4.IsWhole) (arg5 : Memref sig .tc .vmem S1x30x34x512 .bf16) (harg5 : arg5.IsWhole)
    (x0 : Vec F S1x30x34x256 .bf16) (x1 : Vec F S2304x512 .bf16) (x2 : Vec F S1x512 .f32) (d3 : Vec F S1x30x34x512 .bf16) :
    View.canon (kernelRun10_A c i arg2 harg2 arg3 harg3 arg4 harg4 arg5 harg5 x0 x1 x2 d3).1 = out10_3 i x0 x1 x2 := by
  have e0 : ∀ r : Rect S1x30x34x256, View.readAt (Elt F) arg2.view r.toLoadRect (harg2.unread x0) = View.ld x0 r :=
    fun r => by rw [View.readAt_eq_ld, harg2.read_unread]
  have e1 : ∀ r : Rect S2304x512, View.readAt (Elt F) arg3.view r.toLoadRect (harg3.unread x1) = View.ld x1 r :=
    fun r => by rw [View.readAt_eq_ld, harg3.read_unread]
  have e2 : ∀ r : Rect S1x512, View.readAt (Elt F) arg4.view r.toLoadRect (harg4.unread x2) = View.ld x2 r :=
    fun r => by rw [View.readAt_eq_ld, harg4.read_unread]
  unfold kernelRun10_A
  dsimp only
  sl_unfold_run_names
  dsimp only
  simp only [e0, e1, e2]
  refine Eq.trans (Cert.LibRmw.canon_append_updateSlice_readCov (s := S1x30x34x512) (e := .bf16) (Val := Elt F) arg5.view []
    ![0, 0, 28, 0] ![0, 0, 29, 0] SWR10.size SCR10.size ![0, 0, 1, 0]
    inb_S1x30x34x512_S1x30x6x512_0_0_28_0 inb_S1x30x34x512_S1x30x5x512_0_0_29_0 (by decide)
    slices_S1x30x6x512_S1x30x5x512_0_0_1_0 _ _) ?_
  refine Eq.trans (Cert.LibRmw.canon_append_updateSlice_readCov (s := S1x30x34x512) (e := .bf16) (Val := Elt F) arg5.view [_]
    ![0, 0, 0, 0] ![0, 0, 0, 0] SWL10.size SCL10.size ![0, 0, 0, 0]
    inb_S1x30x34x512_S1x30x2x512_0_0_0_0 inb_S1x30x34x512_S1x30x1x512_0_0_0_0 (by decide)
    slices_S1x30x2x512_S1x30x1x512_0_0_0_0 _ _) ?_
  refine Eq.trans (Cert.LibRmw.canon_append_updateSlice (s := S1x30x34x512) (e := .bf16) (Val := Elt F) [_, _, _, _]
    ![0, 1, 0, 0] ![0, 1, 1, 0] S1x28x34x512.size S1x28x32x512.size ![0, 0, 1, 0]
    inb_S1x30x34x512_S1x28x34x512_0_1_0_0 inb_S1x30x34x512_S1x28x32x512_0_1_1_0 (by decide)
    slices_S1x28x34x512_S1x28x32x512_0_0_1_0 _ _ [] ?_) ?_
  · intro j hj
    refine Or.inl ?_
    rcases shadow10_geo _ (r10_wi.toLoadRect.idx_mem j) hj with h | h
    · exact ⟨_, List.mem_cons_self, h⟩
    · exact ⟨_, List.mem_cons_of_mem _ List.mem_cons_self, h⟩
  unfold out10_3 conv10
  rfl

/-! ## What the output holds after each point -/

/-- What the output's staging buffer holds after the body at point `t`: the five plain stores' contents at the
    point's input blocks. -/
def outsAt10 (c : Dev nD) (t : Fin cfg10.N) : Vec F S1x30x34x512 .bf16 :=
  out10_3 (grid10.coords t) (iblk10 V c 0 t) (iblk10 V c 1 t) (iblk10 V c 2 t)

/-! ## The pipeline's proof data -/

/-- The proof data of pipeline 10 on core `c`: the arrays as the region finds them; after the body at a point each
    input's buffer at its block and the output's at `outsAt10`; the generator register and the scoped rest as
    invariant; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => (outsAt10 V c t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = (outsAt10 V c t) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (ms10_0 t) fullShare ((dat10 V c).before 0 t d))
    ∗ (∃ d, owns (c : Thread nD τ) (ms10_1 t) fullShare ((dat10 V c).before 1 t d))
    ∗ (∃ d, owns (c : Thread nD τ) (ms10_2 t) fullShare ((dat10 V c).before 2 t d))
    ∗ (∃ d, owns (c : Thread nD τ) (ms10_3 t) fullShare ((dat10 V c).before 3 t d)))

/-- and what it returns. -/
def bodyPost10 (c : Dev nD) (t : Fin cfg10.N) : sProp 𝕄 :=
  iprop((dat10 V c).Φ t.succ ∗ (dat10 V c).owesAt () t.succ
    ∗ owns (c : Thread nD τ) (ms10_0 t) fullShare ((dat10 V c).after 0 t)
    ∗ owns (c : Thread nD τ) (ms10_1 t) fullShare ((dat10 V c).after 1 t)
    ∗ owns (c : Thread nD τ) (ms10_2 t) fullShare ((dat10 V c).after 2 t)
    ∗ owns (c : Thread nD τ) (ms10_3 t) fullShare ((dat10 V c).after 3 t))

/-- The body at any point: the inputs' memrefs hold their blocks, the output's holds something; so the run applies at
    that something; its pieces cover the block and their canonical contents are the five plain stores'; the invariant
    passes through unread; the core owes nothing throughout. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2]
  rw [show (dat10 V c).Φ t.succ = (dat10 V c).Φ t.castSucc from rfl,
    show (dat10 V c).owesAt () t.succ = (dat10 V c).owesAt () t.castSucc from rfl,
    after10_0, after10_1, after10_2, after10_3]
  unfold outsAt10
  iintro ⟨HΦ, Ho, ⟨%d0, H0⟩, ⟨%d1, H1⟩, ⟨%d2, H2⟩, ⟨%d3, H3⟩⟩
  iapply ((kernelRun10_A c (grid10.coords t) _ _ _ _ _ _ _ _ (iblk10 V c 0 t) (iblk10 V c 1 t) (iblk10 V c 2 t) ((dat10 V c).before 3 t d3)).2 Set.univ _)
  isplitl [H0]; · iexact H0
  isplitl [H1]; · iexact H1
  isplitl [H2]; · iexact H2
  isplitl [H3]; · iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro
  exact (View.read_writes_eq_canon _ _ _ (cover10_A_3 c _ _ _ _ _ _ _ _ _ _ _ _ _)).trans (canon_run10 c _ _ _ _ _ _ _ _ _ _ _ _ _)

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.Kernel.Reg

end
-- ==== Proof.BR11.lean ====
/-
  Region 11 of the kernel's @main (a 3x3 convolution with bias and ReLU whose result is stored at offset (1, 1) of
  a larger image, the next layer's padded input, followed by four stores of zeros over the top row, the bottom row,
  the left column and the right columns): the proof data of its pipeline at any entry contents `V`, and the body's
  obligation.

  The interior store and the two column stores write rows that are part of their words: each reads the words it
  touches, replaces a sub-block of them and writes them back. So the pieces the body's run leaves name what the
  output's buffer held before. What the buffer holds after the body does not depend on it: the two column stores
  read back what the earlier stores had left, and every element the interior store wrote back unchanged is
  overwritten by a column store. The buffer ends at the canonical contents of five plain stores — the right
  columns, the left column, the bottom row and the top row at zero, the interior at the convolution's result.
-/
import proofs.«100114_g2000204297211070_pallasbulk_1265_19_alg».proof.Proof.Gen.Kernel.Launch
import proofs.«100114_g2000204297211070_pallasbulk_1265_19_alg».proof.Proof.Gen.Kernel.Skeleton
import proofs.«100114_g2000204297211070_pallasbulk_1265_19_alg».proof.Proof.Gen.Kernel.Points
import proofs.«100114_g2000204297211070_pallasbulk_1265_19_alg».proof.Proof.LibRmw
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles of the body's loads and stores -/

/-- The shapes of the left column and of the right columns the body zeroes, and of the words each column store
    writes back. -/
abbrev SCL11 : Shape := S1x30x1x512
abbrev SCR11 : Shape := S1x30x5x512
abbrev SWL11 : Shape := S1x30x2x512
abbrev SWR11 : Shape := S1x30x6x512

/-- The three loads of the padded input, one per column shift, -/
abbrev r11_t1 (i : grid11.Coords) : Rect S1x30x34x512 := Rect.unit (s := S1x30x34x512) (k11_off1 i) S1x30x32x512.size (k11_off1_inb i)
abbrev r11_t2 (i : grid11.Coords) : Rect S1x30x34x512 := Rect.unit (s := S1x30x34x512) (k11_off2 i) S1x30x32x512.size (k11_off2_inb i)
abbrev r11_t3 (i : grid11.Coords) : Rect S1x30x34x512 := Rect.unit (s := S1x30x34x512) (k11_off3 i) S1x30x32x512.size (k11_off3_inb i)
/-- the weights and the bias, whole; -/
abbrev r11_w : Rect S4608x512 := Rect.unit (s := S4608x512) ![0, 0] S4608x512.size inb_S4608x512_S4608x512_0_0
abbrev r11_b : Rect S1x512 := Rect.unit (s := S1x512) ![0, 0] S1x512.size inb_S1x512_S1x512_0_0
/-- the words the interior store writes back (the interior's rows, every column) and the interior itself; -/
abbrev r11_wi : Rect S1x30x34x512 := Rect.unit (s := S1x30x34x512) ![0, 1, 0, 0] S1x28x34x512.size inb_S1x30x34x512_S1x28x34x512_0_1_0_0
abbrev r11_in : Rect S1x30x34x512 := Rect.unit (s := S1x30x34x512) ![0, 1, 1, 0] S1x28x32x512.size inb_S1x30x34x512_S1x28x32x512_0_1_1_0
/-- the top and the bottom row; -/
abbrev r11_rt : Rect S1x30x34x512 := Rect.unit (s := S1x30x34x512) ![0, 0, 0, 0] S1x1x34x512.size inb_S1x30x34x512_S1x1x34x512_0_0_0_0
abbrev r11_rb : Rect S1x30x34x512 := Rect.unit (s := S1x30x34x512) ![0, 29, 0, 0] S1x1x34x512.size inb_S1x30x34x512_S1x1x34x512_0_29_0_0
/-- the left column and the right columns. -/
abbrev r11_cl : Rect S1x30x34x512 := Rect.unit (s := S1x30x34x512) ![0, 0, 0, 0] SCL11.size inb_S1x30x34x512_S1x30x1x512_0_0_0_0
abbrev r11_cr : Rect S1x30x34x512 := Rect.unit (s := S1x30x34x512) ![0, 0, 29, 0] SCR11.size inb_S1x30x34x512_S1x30x5x512_0_0_29_0

set_option synthInstance.maxSize 1024 in
/-- Every element of the output block lies in the bottom row, the top row or the interior's rows. -/
theorem cover11_geo (y : S1x30x34x512.Idx) : y ∈ r11_rb.set ∨ y ∈ r11_rt.set ∨ y ∈ r11_wi.set := by
  have h1 : (y 1).val < S1x30x34x512.size 1 := (y 1).isLt
  have h2 : (y 2).val < S1x30x34x512.size 2 := (y 2).isLt
  rw [Cert.LibRmw.mem_unit4_hw, Cert.LibRmw.mem_unit4_hw, Cert.LibRmw.mem_unit4_hw]
  · revert h2; generalize (y 2).val = n2; revert n2
    revert h1; generalize (y 1).val = n1; revert n1
    decide +kernel
  all_goals decide

set_option synthInstance.maxSize 1024 in
/-- An element of the interior's rows outside the interior lies in the right columns or in the left column. -/
theorem shadow11_geo (y : S1x30x34x512.Idx) : y ∈ r11_wi.set → y ∉ r11_in.set → y ∈ r11_cr.set ∨ y ∈ r11_cl.set := by
  have h1 : (y 1).val < S1x30x34x512.size 1 := (y 1).isLt
  have h2 : (y 2).val < S1x30x34x512.size 2 := (y 2).isLt
  rw [Cert.LibRmw.mem_unit4_hw, Cert.LibRmw.mem_unit4_hw, Cert.LibRmw.mem_unit4_hw, Cert.LibRmw.mem_unit4_hw]
  · revert h2; generalize (y 2).val = n2; revert n2
    revert h1; generalize (y 1).val = n1; revert n1
    decide +kernel
  all_goals decide

/-! ## What the body leaves in the output's buffer -/

/-- The convolution's result, from the three input blocks: the interior store's sub-block. -/
def conv11 (i : grid11.Coords) (x0 : Vec F S1x30x34x512 .bf16) (x1 : Vec F S4608x512 .bf16) (x2 : Vec F S1x512 .f32) : FVec F S1x28x32x512 .bf16 :=
  k11_pay5 (View.ld x0 (r11_t1 i)) (View.ld x0 (r11_t2 i)) (View.ld x0 (r11_t3 i)) (View.ld x1 r11_w) (View.ld x2 r11_b)

/-- The output's staging buffer after the body: the right columns, the left column, the bottom row and the top row
    at the zeros the body stores there, the interior at the convolution's result (last store first). -/
def out11_3 (i : grid11.Coords) (x0 : Vec F S1x30x34x512 .bf16) (x1 : Vec F S4608x512 .bf16) (x2 : Vec F S1x512 .f32) : Vec F S1x30x34x512 .bf16 :=
  View.canon [⟨r11_cr, k11_pay4 (F := F)⟩, ⟨r11_cl, k11_pay3 (F := F)⟩, ⟨r11_rb, k11_pay2 (F := F)⟩, ⟨r11_rt, k11_pay1 (k11_pay6 (F := F))⟩, ⟨r11_in, conv11 i x0 x1 x2⟩]

variable (V : (c : Dev nD) → (b : Ref sig .tc) → Buf (Elt F) ((c : Thread nD τ).loc b))

/-! ## The windows' blocks -/

/-- Window `w`'s block at point `t`, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Each input window's staging buffer holds its block at every point, for any proof data over `V`'s array whose
    body leaves the block in place. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-! ## The kernel body on any staging memrefs -/

/-- Each window's current staging memref at point `t`, spelled as the pipeline passes it, and its wholeness. -/
abbrev ms11_0 (t : Fin cfg11.N) : Memref sig .tc .vmem S1x30x34x512 .bf16 := win11_0.stage (cfg11.slots t 0)
abbrev hs11_0 (t : Fin cfg11.N) : (ms11_0 t).IsWhole := hstage11_0 ((cfg11.slots t 0).cast nbuf11_0)
abbrev ms11_1 (t : Fin cfg11.N) : Memref sig .tc .vmem S4608x512 .bf16 := win11_1.stage (cfg11.slots t 1)
abbrev hs11_1 (t : Fin cfg11.N) : (ms11_1 t).IsWhole := hstage11_1 ((cfg11.slots t 1).cast nbuf11_1)
abbrev ms11_2 (t : Fin cfg11.N) : Memref sig .tc .vmem S1x512 .f32 := win11_2.stage (cfg11.slots t 2)
abbrev hs11_2 (t : Fin cfg11.N) : (ms11_2 t).IsWhole := hstage11_2 ((cfg11.slots t 2).cast nbuf11_2)
abbrev ms11_3 (t : Fin cfg11.N) : Memref sig .tc .vmem S1x30x34x512 .bf16 := win11_3.stage (cfg11.slots t 3)
abbrev hs11_3 (t : Fin cfg11.N) : (ms11_3 t).IsWhole := hstage11_3 ((cfg11.slots t 3).cast nbuf11_3)

set_option maxHeartbeats 1000000 in
/-- What the body's stores leave in the output's staging memref, as pieces (last first), with the proof that on
    whole staging memrefs — the inputs' at their contents, the output's at `d3` — the body runs to the continuation
    holding the inputs' as they were and the output's buffer with the pieces written. The pieces are the witness the
    run finds; they name `d3`, which the interior store reads before any store. -/
noncomputable def kernelRun11_A (c : Dev nD) (i : grid11.Coords) (arg2 : Memref sig .tc .vmem S1x30x34x512 .bf16) (harg2 : arg2.IsWhole) (arg3 : Memref sig .tc .vmem S4608x512 .bf16) (harg3 : arg3.IsWhole) (arg4 : Memref sig .tc .vmem S1x512 .f32) (harg4 : arg4.IsWhole) (arg5 : Memref sig .tc .vmem S1x30x34x512 .bf16) (harg5 : arg5.IsWhole)
    (x0 : Vec F S1x30x34x512 .bf16) (x1 : Vec F S4608x512 .bf16) (x2 : Vec F S1x512 .f32) (d3 : Vec F S1x30x34x512 .bf16) :
    { L3 : List (View.Piece (Elt F) S1x30x34x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare d3
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc11_body i arg2 harg2 arg3 harg3 arg4 harg4 arg5 harg5) K } := by
  refine ⟨?_, fun E K => ?run⟩
  case run =>
    simp only [cc11_body_eq_skeleton]; unfold cc11_body_skel
    simp only [k11_part1_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

/-- The run's pieces cover the output block: the bottom row's, the top row's and the interior store's do. -/
theorem cover11_A_3 (c : Dev nD) (i : grid11.Coords) (arg2 : Memref sig .tc .vmem S1x30x34x512 .bf16) (harg2 : arg2.IsWhole) (arg3 : Memref sig .tc .vmem S4608x512 .bf16) (harg3 : arg3.IsWhole) (arg4 : Memref sig .tc .vmem S1x512 .f32) (harg4 : arg4.IsWhole) (arg5 : Memref sig .tc .vmem S1x30x34x512 .bf16) (harg5 : arg5.IsWhole)
    (x0 : Vec F S1x30x34x512 .bf16) (x1 : Vec F S4608x512 .bf16) (x2 : Vec F S1x512 .f32) (d3 : Vec F S1x30x34x512 .bf16) (y : S1x30x34x512.Idx) :
    ∃ pc ∈ (kernelRun11_A c i arg2 harg2 arg3 harg3 arg4 harg4 arg5 harg5 x0 x1 x2 d3).1, y ∈ pc.1.set := by
  unfold kernelRun11_A
  dsimp only
  sl_unfold_run_names
  rcases cover11_geo y with h | h | h
  · exact ⟨_, List.mem_cons_of_mem _ (List.mem_cons_of_mem _ List.mem_cons_self), h⟩
  · exact ⟨_, List.mem_cons_of_mem _ (List.mem_cons_of_mem _ (List.mem_cons_of_mem _ List.mem_cons_self)), h⟩
  · exact ⟨_, List.mem_cons_of_mem _ (List.mem_cons_of_mem _ (List.mem_cons_of_mem _ (List.mem_cons_of_mem _ List.mem_cons_self))), h⟩

set_option maxHeartbeats 1000000 in
/-- The canonical contents of the run's pieces are those of the five plain stores, whatever the output's buffer held
    before: each column store read back what the earlier stores had left, so it counts as the plain store of its
    zeros; the interior store then counts as the plain store of the convolution's result, the elements it wrote back
    unchanged being covered by the column stores. -/
theorem canon_run11 (c : Dev nD) (i : grid11.Coords) (arg2 : Memref sig .tc .vmem S1x30x34x512 .bf16) (harg2 : arg2.IsWhole) (arg3 : Memref sig .tc .vmem S4608x512 .bf16) (harg3 : arg3.IsWhole) (arg4 : Memref sig .tc .vmem S1x512 .f32) (harg4 : arg4.IsWhole) (arg5 : Memref sig .tc .vmem S1x30x34x512 .bf16) (harg5 : arg5.IsWhole)
    (x0 : Vec F S1x30x34x512 .bf16) (x1 : Vec F S4608x512 .bf16) (x2 : Vec F S1x512 .f32) (d3 : Vec F S1x30x34x512 .bf16) :
    View.canon (kernelRun11_A c i arg2 harg2 arg3 harg3 arg4 harg4 arg5 harg5 x0 x1 x2 d3).1 = out11_3 i x0 x1 x2 := by
  have e0 : ∀ r : Rect S1x30x34x512, View.readAt (Elt F) arg2.view r.toLoadRect (harg2.unread x0) = View.ld x0 r :=
    fun r => by rw [View.readAt_eq_ld, harg2.read_unread]
  have e1 : ∀ r : Rect S4608x512, View.readAt (Elt F) arg3.view r.toLoadRect (harg3.unread x1) = View.ld x1 r :=
    fun r => by rw [View.readAt_eq_ld, harg3.read_unread]
  have e2 : ∀ r : Rect S1x512, View.readAt (Elt F) arg4.view r.toLoadRect (harg4.unread x2) = View.ld x2 r :=
    fun r => by rw [View.readAt_eq_ld, harg4.read_unread]
  unfold kernelRun11_A
  dsimp only
  sl_unfold_run_names
  dsimp only
  simp only [e0, e1, e2]
  refine Eq.trans (Cert.LibRmw.canon_append_updateSlice_readCov (s := S1x30x34x512) (e := .bf16) (Val := Elt F) arg5.view []
    ![0, 0, 28, 0] ![0, 0, 29, 0] SWR11.size SCR11.size ![0, 0, 1, 0]
    inb_S1x30x34x512_S1x30x6x512_0_0_28_0 inb_S1x30x34x512_S1x30x5x512_0_0_29_0 (by decide)
    slices_S1x30x6x512_S1x30x5x512_0_0_1_0 _ _) ?_
  refine Eq.trans (Cert.LibRmw.canon_append_updateSlice_readCov (s := S1x30x34x512) (e := .bf16) (Val := Elt F) arg5.view [_]
    ![0, 0, 0, 0] ![0, 0, 0, 0] SWL11.size SCL11.size ![0, 0, 0, 0]
    inb_S1x30x34x512_S1x30x2x512_0_0_0_0 inb_S1x30x34x512_S1x30x1x512_0_0_0_0 (by decide)
    slices_S1x30x2x512_S1x30x1x512_0_0_0_0 _ _) ?_
  refine Eq.trans (Cert.LibRmw.canon_append_updateSlice (s := S1x30x34x512) (e := .bf16) (Val := Elt F) [_, _, _, _]
    ![0, 1, 0, 0] ![0, 1, 1, 0] S1x28x34x512.size S1x28x32x512.size ![0, 0, 1, 0]
    inb_S1x30x34x512_S1x28x34x512_0_1_0_0 inb_S1x30x34x512_S1x28x32x512_0_1_1_0 (by decide)
    slices_S1x28x34x512_S1x28x32x512_0_0_1_0 _ _ [] ?_) ?_
  · intro j hj
    refine Or.inl ?_
    rcases shadow11_geo _ (r11_wi.toLoadRect.idx_mem j) hj with h | h
    · exact ⟨_, List.mem_cons_self, h⟩
    · exact ⟨_, List.mem_cons_of_mem _ List.mem_cons_self, h⟩
  unfold out11_3 conv11
  rfl

/-! ## What the output holds after each point -/

/-- What the output's staging buffer holds after the body at point `t`: the five plain stores' contents at the
    point's input blocks. -/
def outsAt11 (c : Dev nD) (t : Fin cfg11.N) : Vec F S1x30x34x512 .bf16 :=
  out11_3 (grid11.coords t) (iblk11 V c 0 t) (iblk11 V c 1 t) (iblk11 V c 2 t)

/-! ## The pipeline's proof data -/

/-- The proof data of pipeline 11 on core `c`: the arrays as the region finds them; after the body at a point each
    input's buffer at its block and the output's at `outsAt11`; the generator register and the scoped rest as
    invariant; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => (outsAt11 V c t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = (outsAt11 V c t) := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d

/-! ## The body obligation, at a generic point -/

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (ms11_0 t) fullShare ((dat11 V c).before 0 t d))
    ∗ (∃ d, owns (c : Thread nD τ) (ms11_1 t) fullShare ((dat11 V c).before 1 t d))
    ∗ (∃ d, owns (c : Thread nD τ) (ms11_2 t) fullShare ((dat11 V c).before 2 t d))
    ∗ (∃ d, owns (c : Thread nD τ) (ms11_3 t) fullShare ((dat11 V c).before 3 t d)))

/-- and what it returns. -/
def bodyPost11 (c : Dev nD) (t : Fin cfg11.N) : sProp 𝕄 :=
  iprop((dat11 V c).Φ t.succ ∗ (dat11 V c).owesAt () t.succ
    ∗ owns (c : Thread nD τ) (ms11_0 t) fullShare ((dat11 V c).after 0 t)
    ∗ owns (c : Thread nD τ) (ms11_1 t) fullShare ((dat11 V c).after 1 t)
    ∗ owns (c : Thread nD τ) (ms11_2 t) fullShare ((dat11 V c).after 2 t)
    ∗ owns (c : Thread nD τ) (ms11_3 t) fullShare ((dat11 V c).after 3 t))

/-- The body at any point: the inputs' memrefs hold their blocks, the output's holds something; so the run applies at
    that something; its pieces cover the block and their canonical contents are the five plain stores'; the invariant
    passes through unread; the core owes nothing throughout. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2]
  rw [show (dat11 V c).Φ t.succ = (dat11 V c).Φ t.castSucc from rfl,
    show (dat11 V c).owesAt () t.succ = (dat11 V c).owesAt () t.castSucc from rfl,
    after11_0, after11_1, after11_2, after11_3]
  unfold outsAt11
  iintro ⟨HΦ, Ho, ⟨%d0, H0⟩, ⟨%d1, H1⟩, ⟨%d2, H2⟩, ⟨%d3, H3⟩⟩
  iapply ((kernelRun11_A c (grid11.coords t) _ _ _ _ _ _ _ _ (iblk11 V c 0 t) (iblk11 V c 1 t) (iblk11 V c 2 t) ((dat11 V c).before 3 t d3)).2 Set.univ _)
  isplitl [H0]; · iexact H0
  isplitl [H1]; · iexact H1
  isplitl [H2]; · iexact H2
  isplitl [H3]; · iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro
  exact (View.read_writes_eq_canon _ _ _ (cover11_A_3 c _ _ _ _ _ _ _ _ _ _ _ _ _)).trans (canon_run11 c _ _ _ _ _ _ _ _ _ _ _ _ _)

/-- The library's body obligation, at every point. -/
theorem body_obligation11 (c : Dev nD) : BodyObligation (dat11 (F := F) V c) (defs₀ (F := F)) Variants.none () Set.univ := fun t => by
  rw [bigSep_W11, bigSep_W11]
  exact sound_body11 V c t

end Cert.Kernel.Reg

end
-- ==== Proof.BR12.lean ====
/-
  Region 12 of the kernel's @main (a 3x3 convolution as one matrix product over nine lane-concatenated taps, with bias,
  ReLU and the row-pair maximum of a 2x2 pooling fused, on a block whose width is padded to whole tiles): the proof data
  of its pipeline at any entry contents `V`, and the body's obligation. The body loads three column-shifted windows of
  its input block through rectangles whose row offset is computed from the grid position, loads the weights and the
  bias whole, stores the result whole and then stores zeros over the strip of padding columns; so after the body at a
  point the output's staging buffer holds those two stores' payloads, the strip's over the whole block's, read back
  over anything (the whole-block store alone already covers the block).
-/
import proofs.«100114_g2000204297211070_pallasbulk_1265_19_alg».proof.Proof.Gen.Kernel.Launch
import proofs.«100114_g2000204297211070_pallasbulk_1265_19_alg».proof.Proof.Gen.Kernel.Skeleton
import proofs.«100114_g2000204297211070_pallasbulk_1265_19_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- Input window 0's staging buffer holds its block at every point, fetched there or not, for any proof data over
    `V`'s array whose body leaves the block in place. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)
/-- Input window 1's staging buffer holds its block at every point, fetched there or not, for any proof data over
    `V`'s array whose body leaves the block in place. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)
/-- Input window 2's staging buffer holds its block at every point, fetched there or not, for any proof data over
    `V`'s array whose body leaves the block in place. -/
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

/-- One staging buffer of the output window, through which its contents are stated (the choice does not matter). -/
abbrev VO12_3 : View sig .tc .vmem S1x14x32x512 .bf16 := (Memref.whole cc12_stg3_0 : Memref sig .tc .vmem S1x14x32x512 .bf16).view
/-- Each window's current staging memref at point `t`, spelled as the pipeline passes it, and its wholeness. -/
abbrev ms12_0 (t : Fin cfg12.N) : Memref sig .tc .vmem S1x30x34x512 .bf16 := win12_0.stage (cfg12.slots t 0)
abbrev hs12_0 (t : Fin cfg12.N) : (ms12_0 t).IsWhole := hstage12_0 ((cfg12.slots t 0).cast nbuf12_0)
abbrev ms12_1 (t : Fin cfg12.N) : Memref sig .tc .vmem S4608x512 .bf16 := win12_1.stage (cfg12.slots t 1)
abbrev hs12_1 (t : Fin cfg12.N) : (ms12_1 t).IsWhole := hstage12_1 ((cfg12.slots t 1).cast nbuf12_1)
abbrev ms12_2 (t : Fin cfg12.N) : Memref sig .tc .vmem S1x512 .f32 := win12_2.stage (cfg12.slots t 2)
abbrev hs12_2 (t : Fin cfg12.N) : (ms12_2 t).IsWhole := hstage12_2 ((cfg12.slots t 2).cast nbuf12_2)
abbrev ms12_3 (t : Fin cfg12.N) : Memref sig .tc .vmem S1x14x32x512 .bf16 := win12_3.stage (cfg12.slots t 3)
abbrev hs12_3 (t : Fin cfg12.N) : (ms12_3 t).IsWhole := hstage12_3 ((cfg12.slots t 3).cast nbuf12_3)

set_option maxHeartbeats 1000000 in
/-- What the body's stores leave in the output's staging memref, as pieces (last first), with the proof that on whole
    staging memrefs, the inputs' at their contents and the output's at anything, the body runs to the continuation
    holding the inputs' as they were and the output's buffer with the pieces written. The pieces are the witness the
    symbolic run of the body finds. -/
noncomputable def kernelRun12_A (c : Dev nD) (i : grid12.Coords) (arg2 : Memref sig .tc .vmem S1x30x34x512 .bf16) (harg2 : arg2.IsWhole) (arg3 : Memref sig .tc .vmem S4608x512 .bf16) (harg3 : arg3.IsWhole) (arg4 : Memref sig .tc .vmem S1x512 .f32) (harg4 : arg4.IsWhole) (arg5 : Memref sig .tc .vmem S1x14x32x512 .bf16) (harg5 : arg5.IsWhole)
    (x0 : Vec F S1x30x34x512 .bf16) (x1 : Vec F S4608x512 .bf16) (x2 : Vec F S1x512 .f32) :
    { L3 : List (View.Piece (Elt F) S1x14x32x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc12_body i arg2 harg2 arg3 harg3 arg4 harg4 arg5 harg5) K } := by
  refine ⟨?_, fun E K => ?run⟩
  case run =>
    simp only [cc12_body_eq_skeleton]; unfold cc12_body_skel
    simp only [k12_part1_eq_skeleton]
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

/-- Among the run's pieces for the output the whole-block store tiles the block by itself (the strip, of another
    size, is passed over), so the pieces cover it. -/
theorem cover12_A_3 (c : Dev nD) (i : grid12.Coords) (arg2 : Memref sig .tc .vmem S1x30x34x512 .bf16) (harg2 : arg2.IsWhole) (arg3 : Memref sig .tc .vmem S4608x512 .bf16) (harg3 : arg3.IsWhole) (arg4 : Memref sig .tc .vmem S1x512 .f32) (harg4 : arg4.IsWhole) (arg5 : Memref sig .tc .vmem S1x14x32x512 .bf16) (harg5 : arg5.IsWhole)
    (x0 : Vec F S1x30x34x512 .bf16) (x1 : Vec F S4608x512 .bf16) (x2 : Vec F S1x512 .f32) (y : S1x14x32x512.Idx) :
    ∃ pc ∈ (kernelRun12_A c i arg2 harg2 arg3 harg3 arg4 harg4 arg5 harg5 x0 x1 x2).1, y ∈ pc.1.set :=
  View.cover_of_tiledL (kernelRun12_A c i arg2 harg2 arg3 harg3 arg4 harg4 arg5 harg5 x0 x1 x2).1 S1x14x32x512.size (by sl_kernel_rfl) y

/-- What the run leaves in the output's staging buffer: its pieces read back over junk. -/
def out12_A_3 (c : Dev nD) (i : grid12.Coords) (arg2 : Memref sig .tc .vmem S1x30x34x512 .bf16) (harg2 : arg2.IsWhole) (arg3 : Memref sig .tc .vmem S4608x512 .bf16) (harg3 : arg3.IsWhole) (arg4 : Memref sig .tc .vmem S1x512 .f32) (harg4 : arg4.IsWhole) (arg5 : Memref sig .tc .vmem S1x14x32x512 .bf16) (harg5 : arg5.IsWhole)
    (x0 : Vec F S1x30x34x512 .bf16) (x1 : Vec F S4608x512 .bf16) (x2 : Vec F S1x512 .f32) : Vec F S1x14x32x512 .bf16 :=
  VO12_3.read (Elt F) (VO12_3.writes (Elt F) VO12_3.junk (kernelRun12_A c i arg2 harg2 arg3 harg3 arg4 harg4 arg5 harg5 x0 x1 x2).1)

/-- What the output's staging buffer holds after the body at point `t`: the run's contents at the point's memrefs
    and input blocks. -/
def outsAt12 (c : Dev nD) (t : Fin cfg12.N) : Vec F S1x14x32x512 .bf16 :=
  out12_A_3 c (grid12.coords t) (ms12_0 t) (hs12_0 t) (ms12_1 t) (hs12_1 t) (ms12_2 t) (hs12_2 t) (ms12_3 t) (hs12_3 t) (iblk12 V c 0 t) (iblk12 V c 1 t) (iblk12 V c 2 t)

/-- The proof data of pipeline 12 on core `c`: the arrays as the region finds them; after the body at a point each
    input's buffer at its block and the output's at `outsAt12`; the generator register and the scoped rest as
    invariant; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => (outsAt12 V c t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = (outsAt12 V c t) := by dsimp only [dat12]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d

/-- What the body is called with at point `t`, the windows one by one, -/
def bodyPre12 (c : Dev nD) (t : Fin cfg12.N) : sProp 𝕄 :=
  iprop((dat12 V c).Φ t.castSucc ∗ (dat12 V c).owesAt () t.castSucc
    ∗ (∃ d, owns (c : Thread nD τ) (ms12_0 t) fullShare ((dat12 V c).before 0 t d))
    ∗ (∃ d, owns (c : Thread nD τ) (ms12_1 t) fullShare ((dat12 V c).before 1 t d))
    ∗ (∃ d, owns (c : Thread nD τ) (ms12_2 t) fullShare ((dat12 V c).before 2 t d))
    ∗ (∃ d, owns (c : Thread nD τ) (ms12_3 t) fullShare ((dat12 V c).before 3 t d)))

/-- and what it returns. -/
def bodyPost12 (c : Dev nD) (t : Fin cfg12.N) : sProp 𝕄 :=
  iprop((dat12 V c).Φ t.succ ∗ (dat12 V c).owesAt () t.succ
    ∗ owns (c : Thread nD τ) (ms12_0 t) fullShare ((dat12 V c).after 0 t)
    ∗ owns (c : Thread nD τ) (ms12_1 t) fullShare ((dat12 V c).after 1 t)
    ∗ owns (c : Thread nD τ) (ms12_2 t) fullShare ((dat12 V c).after 2 t)
    ∗ owns (c : Thread nD τ) (ms12_3 t) fullShare ((dat12 V c).after 3 t))

/-- The body at any point: the inputs' memrefs hold their blocks, so the run applies; the invariant passes through
    unread; the core owes nothing throughout. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2]
  rw [show (dat12 V c).Φ t.succ = (dat12 V c).Φ t.castSucc from rfl,
    show (dat12 V c).owesAt () t.succ = (dat12 V c).owesAt () t.castSucc from rfl,
    after12_0, after12_1, after12_2, after12_3]
  unfold outsAt12
  unfold out12_A_3
  iintro ⟨HΦ, Ho, ⟨%d0, H0⟩, ⟨%d1, H1⟩, ⟨%d2, H2⟩, ⟨%d3, H3⟩⟩
  iapply ((kernelRun12_A c (grid12.coords t) _ _ _ _ _ _ _ _ (iblk12 V c 0 t) (iblk12 V c 1 t) (iblk12 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover12_A_3 c _ _ _ _ _ _ _ _ _ _ _ _)

theorem body_obligation12 (c : Dev nD) : BodyObligation (dat12 (F := F) V c) (defs₀ (F := F)) Variants.none () Set.univ := fun t => by
  rw [bigSep_W12, bigSep_W12]
  exact sound_body12 V c t

end Cert.Kernel.Reg

end
-- ==== Proof.BR13.lean ====
/-
  Region 13 of the kernel's @main (the lane-half maximum that finishes a 2x2 pooling): the proof data of its
  pipeline at any entry contents `V`, and the body's obligation. The body loads its one input block whole, takes the
  pointwise maximum of the block's two lane halves and stores the result whole; so after the body at a point the
  output's staging buffer holds that one store's payload of the input block.
-/
import proofs.«100114_g2000204297211070_pallasbulk_1265_19_alg».proof.Proof.Gen.Kernel.Launch
import proofs.«100114_g2000204297211070_pallasbulk_1265_19_alg».proof.Proof.Gen.Kernel.Skeleton
import proofs.«100114_g2000204297211070_pallasbulk_1265_19_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- The input window's staging buffer holds its block at every point, for any proof data over `V`'s array whose
    body leaves the block in place. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

abbrev r13_0 : Rect S1x14x16x1024 := Rect.unit (s := S1x14x16x1024) ![0, 0, 0, 0] S1x14x16x1024.size inb_S1x14x16x1024_S1x14x16x1024_0_0_0_0
abbrev r13_1 : Rect S1x14x16x512 := Rect.unit (s := S1x14x16x512) ![0, 0, 0, 0] S1x14x16x512.size inb_S1x14x16x512_S1x14x16x512_0_0_0_0

/-- The output's staging buffer after the body: the one whole store of the payload of the loaded input block. -/
def out13_1 (x0 : Vec F S1x14x16x1024 .bf16) : Vec F S1x14x16x512 .bf16 :=
  View.canon [⟨r13_1, k13_pay1 (View.ld x0 r13_0)⟩]

theorem cover13_1 (p0 : Vec F S1x14x16x512 .bf16) (y : S1x14x16x512.Idx) :
    ∃ pc ∈ ([⟨r13_1, p0⟩] : List (View.Piece (Elt F) S1x14x16x512 .bf16)), y ∈ pc.1.set :=
  View.cover_of_tiled [⟨r13_1, p0⟩] S1x14x16x512.size (by rfl) y

set_option maxHeartbeats 1000000 in
/-- The body on whole staging memrefs, the input's at `x0` and the output's at anything, runs to the continuation
    with the input's as it was and the output's at `out13_1 x0`. -/
theorem sound_kernel13 (c : Dev nD) (E : Set ℕ) (i : grid13.Coords) (arg1 : Memref sig .tc .vmem S1x14x16x1024 .bf16) (harg1 : arg1.IsWhole) (arg2 : Memref sig .tc .vmem S1x14x16x512 .bf16) (harg2 : arg2.IsWhole)
    (x0 : Vec F S1x14x16x1024 .bf16) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out13_1 x0)) -∗ K ⟨⟩))
      ⊢ wp frame (wpE (defs₀ (F := F)) Variants.none c none) E (cc13__wpool_kernel i arg1 harg1 arg2 harg2) K := by
  simp only [cc13__wpool_kernel_eq_skeleton]; unfold cc13__wpool_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover13_1 _)

/-- The proof data of pipeline 13 on core `c`: the arrays as the region finds them; after the body at a point the
    input's buffer at its block and the output's at `out13_1` of it; the generator register and the scoped rest as
    invariant; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => out13_1 (iblk13 V c 0 t)
  Φ _ := Pipeline.ΦA spec13 c
  q _ := fullShare
  owed _ := 0

theorem A_eq13 (c : Dev nD) (w : Fin cfg13.W) : (dat13 V c).A w = V c (Pipeline.arrRef spec13 w) := by
  dsimp only [dat13]

theorem after13_0 (c : Dev nD) (t : Fin cfg13.N) : (dat13 V c).after 0 t = iblk13 V c 0 t := by dsimp only [dat13]
theorem after13_1 (c : Dev nD) (t : Fin cfg13.N) : (dat13 V c).after 1 t = out13_1 (iblk13 V c 0 t) := by dsimp only [dat13]

theorem before13_0 (c : Dev nD) (t : Fin cfg13.N) (d) : (dat13 V c).before 0 t d = iblk13 V c 0 t :=
  before13_0_of V (dat13 V c) (A_eq13 V c 0) (after13_0 V c) t d

def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d)))

def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t))

theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0]
  rw [show (dat13 V c).Φ t.succ = (dat13 V c).Φ t.castSucc from rfl,
    show (dat13 V c).owesAt () t.succ = (dat13 V c).owesAt () t.castSucc from rfl,
    after13_0, after13_1]
  iintro ⟨HΦ, Ho, ⟨%d0, H0⟩, ⟨%d1, H1⟩⟩
  iapply (sound_kernel13 c Set.univ (grid13.coords t) _ _ _ _ (iblk13 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation13 (c : Dev nD) : BodyObligation (dat13 (F := F) V c) (defs₀ (F := F)) Variants.none () Set.univ := fun t => by
  rw [bigSep_W13, bigSep_W13]
  exact sound_body13 V c t

end Cert.Kernel.Reg

end
-- ==== Proof.BR14.lean ====
/-
  Region 14 of the kernel's @main (a 3x3 convolution with bias and ReLU whose result is stored at offset (1, 1) of
  a larger image, the next layer's padded input, followed by four stores of zeros over the top row, the bottom row,
  the left column and the right columns): the proof data of its pipeline at any entry contents `V`, and the body's
  obligation.

  The interior store and the two column stores write rows that are part of their words: each reads the words it
  touches, replaces a sub-block of them and writes them back. So the pieces the body's run leaves name what the
  output's buffer held before. What the buffer holds after the body does not depend on it: the two column stores
  read back what the earlier stores had left, and every element the interior store wrote back unchanged is
  overwritten by a column store. The buffer ends at the canonical contents of five plain stores — the right
  columns, the left column, the bottom row and the top row at zero, the interior at the convolution's result.
-/
import proofs.«100114_g2000204297211070_pallasbulk_1265_19_alg».proof.Proof.Gen.Kernel.Launch
import proofs.«100114_g2000204297211070_pallasbulk_1265_19_alg».proof.Proof.Gen.Kernel.Skeleton
import proofs.«100114_g2000204297211070_pallasbulk_1265_19_alg».proof.Proof.Gen.Kernel.Points
import proofs.«100114_g2000204297211070_pallasbulk_1265_19_alg».proof.Proof.LibRmw
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles of the body's loads and stores -/

/-- The shapes of the left column and of the right columns the body zeroes, and of the words each column store
    writes back. -/
abbrev SCL14 : Shape := S1x16x1x512
abbrev SCR14 : Shape := S1x16x3x512
abbrev SWL14 : Shape := S1x16x2x512
abbrev SWR14 : Shape := S1x16x4x512

/-- The three loads of the padded input, one per column shift, -/
abbrev r14_t1 (i : grid14.Coords) : Rect S1x16x18x512 := Rect.unit (s := S1x16x18x512) (k14_off1 i) S1x16x16x512.size (k14_off1_inb i)
abbrev r14_t2 (i : grid14.Coords) : Rect S1x16x18x512 := Rect.unit (s := S1x16x18x512) (k14_off2 i) S1x16x16x512.size (k14_off2_inb i)
abbrev r14_t3 (i : grid14.Coords) : Rect S1x16x18x512 := Rect.unit (s := S1x16x18x512) (k14_off3 i) S1x16x16x512.size (k14_off3_inb i)
/-- the weights and the bias, whole; -/
abbrev r14_w : Rect S4608x512 := Rect.unit (s := S4608x512) ![0, 0] S4608x512.size inb_S4608x512_S4608x512_0_0
abbrev r14_b : Rect S1x512 := Rect.unit (s := S1x512) ![0, 0] S1x512.size inb_S1x512_S1x512_0_0
/-- the words the interior store writes back (the interior's rows, every column) and the interior itself; -/
abbrev r14_wi : Rect S1x16x18x512 := Rect.unit (s := S1x16x18x512) ![0, 1, 0, 0] S1x14x18x512.size inb_S1x16x18x512_S1x14x18x512_0_1_0_0
abbrev r14_in : Rect S1x16x18x512 := Rect.unit (s := S1x16x18x512) ![0, 1, 1, 0] S1x14x16x512.size inb_S1x16x18x512_S1x14x16x512_0_1_1_0
/-- the top and the bottom row; -/
abbrev r14_rt : Rect S1x16x18x512 := Rect.unit (s := S1x16x18x512) ![0, 0, 0, 0] S1x1x18x512.size inb_S1x16x18x512_S1x1x18x512_0_0_0_0
abbrev r14_rb : Rect S1x16x18x512 := Rect.unit (s := S1x16x18x512) ![0, 15, 0, 0] S1x1x18x512.size inb_S1x16x18x512_S1x1x18x512_0_15_0_0
/-- the left column and the right columns. -/
abbrev r14_cl : Rect S1x16x18x512 := Rect.unit (s := S1x16x18x512) ![0, 0, 0, 0] SCL14.size inb_S1x16x18x512_S1x16x1x512_0_0_0_0
abbrev r14_cr : Rect S1x16x18x512 := Rect.unit (s := S1x16x18x512) ![0, 0, 15, 0] SCR14.size inb_S1x16x18x512_S1x16x3x512_0_0_15_0

set_option synthInstance.maxSize 1024 in
/-- Every element of the output block lies in the bottom row, the top row or the interior's rows. -/
theorem cover14_geo (y : S1x16x18x512.Idx) : y ∈ r14_rb.set ∨ y ∈ r14_rt.set ∨ y ∈ r14_wi.set := by
  have h1 : (y 1).val < S1x16x18x512.size 1 := (y 1).isLt
  have h2 : (y 2).val < S1x16x18x512.size 2 := (y 2).isLt
  rw [Cert.LibRmw.mem_unit4_hw, Cert.LibRmw.mem_unit4_hw, Cert.LibRmw.mem_unit4_hw]
  · revert h2; generalize (y 2).val = n2; revert n2
    revert h1; generalize (y 1).val = n1; revert n1
    decide +kernel
  all_goals decide

set_option synthInstance.maxSize 1024 in
/-- An element of the interior's rows outside the interior lies in the right columns or in the left column. -/
theorem shadow14_geo (y : S1x16x18x512.Idx) : y ∈ r14_wi.set → y ∉ r14_in.set → y ∈ r14_cr.set ∨ y ∈ r14_cl.set := by
  have h1 : (y 1).val < S1x16x18x512.size 1 := (y 1).isLt
  have h2 : (y 2).val < S1x16x18x512.size 2 := (y 2).isLt
  rw [Cert.LibRmw.mem_unit4_hw, Cert.LibRmw.mem_unit4_hw, Cert.LibRmw.mem_unit4_hw, Cert.LibRmw.mem_unit4_hw]
  · revert h2; generalize (y 2).val = n2; revert n2
    revert h1; generalize (y 1).val = n1; revert n1
    decide +kernel
  all_goals decide

/-! ## What the body leaves in the output's buffer -/

/-- The convolution's result, from the three input blocks: the interior store's sub-block. -/
def conv14 (i : grid14.Coords) (x0 : Vec F S1x16x18x512 .bf16) (x1 : Vec F S4608x512 .bf16) (x2 : Vec F S1x512 .f32) : FVec F S1x14x16x512 .bf16 :=
  k14_pay5 (View.ld x0 (r14_t1 i)) (View.ld x0 (r14_t2 i)) (View.ld x0 (r14_t3 i)) (View.ld x1 r14_w) (View.ld x2 r14_b)

/-- The output's staging buffer after the body: the right columns, the left column, the bottom row and the top row
    at the zeros the body stores there, the interior at the convolution's result (last store first). -/
def out14_3 (i : grid14.Coords) (x0 : Vec F S1x16x18x512 .bf16) (x1 : Vec F S4608x512 .bf16) (x2 : Vec F S1x512 .f32) : Vec F S1x16x18x512 .bf16 :=
  View.canon [⟨r14_cr, k14_pay4 (F := F)⟩, ⟨r14_cl, k14_pay3 (F := F)⟩, ⟨r14_rb, k14_pay2 (F := F)⟩, ⟨r14_rt, k14_pay1 (k14_pay6 (F := F))⟩, ⟨r14_in, conv14 i x0 x1 x2⟩]

variable (V : (c : Dev nD) → (b : Ref sig .tc) → Buf (Elt F) ((c : Thread nD τ).loc b))

/-! ## The windows' blocks -/

/-- Window `w`'s block at point `t`, read off its array as the region finds it. -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- Each input window's staging buffer holds its block at every point, for any proof data over `V`'s array whose
    body leaves the block in place. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)
theorem before14_2_of {c : Dev nD} (dat : Dat τ (Elt F) Unit ℕ (UR sig nD τ) ℕ cfg14 c) (hA : dat.A 2 = V c (Pipeline.arrRef spec14 2))
    (hafter : ∀ t, dat.after 2 t = iblk14 V c 2 t) (t : Fin cfg14.N) (d) : dat.before 2 t d = iblk14 V c 2 t :=
  (dat.before_in_eq_fetched 2 rfl (fun _ => rfl) (fun _ _ _ => rfl) (fun t => by rw [hafter]; unfold Dat.blockOf iblk14; rw [hA]; try rfl) t d).trans
    (by unfold Dat.fetched Dat.blockOf iblk14; rw [hA]; try rfl)

/-! ## The kernel body on any staging memrefs -/

/-- Each window's current staging memref at point `t`, spelled as the pipeline passes it, and its wholeness. -/
abbrev ms14_0 (t : Fin cfg14.N) : Memref sig .tc .vmem S1x16x18x512 .bf16 := win14_0.stage (cfg14.slots t 0)
abbrev hs14_0 (t : Fin cfg14.N) : (ms14_0 t).IsWhole := hstage14_0 ((cfg14.slots t 0).cast nbuf14_0)
abbrev ms14_1 (t : Fin cfg14.N) : Memref sig .tc .vmem S4608x512 .bf16 := win14_1.stage (cfg14.slots t 1)
abbrev hs14_1 (t : Fin cfg14.N) : (ms14_1 t).IsWhole := hstage14_1 ((cfg14.slots t 1).cast nbuf14_1)
abbrev ms14_2 (t : Fin cfg14.N) : Memref sig .tc .vmem S1x512 .f32 := win14_2.stage (cfg14.slots t 2)
abbrev hs14_2 (t : Fin cfg14.N) : (ms14_2 t).IsWhole := hstage14_2 ((cfg14.slots t 2).cast nbuf14_2)
abbrev ms14_3 (t : Fin cfg14.N) : Memref sig .tc .vmem S1x16x18x512 .bf16 := win14_3.stage (cfg14.slots t 3)
abbrev hs14_3 (t : Fin cfg14.N) : (ms14_3 t).IsWhole := hstage14_3 ((cfg14.slots t 3).cast nbuf14_3)

set_option maxHeartbeats 1000000 in
/-- What the body's stores leave in the output's staging memref, as pieces (last first), with the proof that on
    whole staging memrefs — the inputs' at their contents, the output's at `d3` — the body runs to the continuation
    holding the inputs' as they were and the output's buffer with the pieces written. The pieces are the witness the
    run finds; they name `d3`, which the interior store reads before any store. -/
noncomputable def kernelRun14_A (c : Dev nD) (i : grid14.Coords) (arg2 : Memref sig .tc .vmem S1x16x18x512 .bf16) (harg2 : arg2.IsWhole) (arg3 : Memref sig .tc .vmem S4608x512 .bf16) (harg3 : arg3.IsWhole) (arg4 : Memref sig .tc .vmem S1x512 .f32) (harg4 : arg4.IsWhole) (arg5 : Memref sig .tc .vmem S1x16x18x512 .bf16) (harg5 : arg5.IsWhole)
    (x0 : Vec F S1x16x18x512 .bf16) (x1 : Vec F S4608x512 .bf16) (x2 : Vec F S1x512 .f32) (d3 : Vec F S1x16x18x512 .bf16) :
    { L3 : List (View.Piece (Elt F) S1x16x18x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare d3
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc14_body i arg2 harg2 arg3 harg3 arg4 harg4 arg5 harg5) K } := by
  refine ⟨?_, fun E K => ?run⟩
  case run =>
    simp only [cc14_body_eq_skeleton]; unfold cc14_body_skel
    simp only [k14_part1_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

/-- The run's pieces cover the output block: the bottom row's, the top row's and the interior store's do. -/
theorem cover14_A_3 (c : Dev nD) (i : grid14.Coords) (arg2 : Memref sig .tc .vmem S1x16x18x512 .bf16) (harg2 : arg2.IsWhole) (arg3 : Memref sig .tc .vmem S4608x512 .bf16) (harg3 : arg3.IsWhole) (arg4 : Memref sig .tc .vmem S1x512 .f32) (harg4 : arg4.IsWhole) (arg5 : Memref sig .tc .vmem S1x16x18x512 .bf16) (harg5 : arg5.IsWhole)
    (x0 : Vec F S1x16x18x512 .bf16) (x1 : Vec F S4608x512 .bf16) (x2 : Vec F S1x512 .f32) (d3 : Vec F S1x16x18x512 .bf16) (y : S1x16x18x512.Idx) :
    ∃ pc ∈ (kernelRun14_A c i arg2 harg2 arg3 harg3 arg4 harg4 arg5 harg5 x0 x1 x2 d3).1, y ∈ pc.1.set := by
  unfold kernelRun14_A
  dsimp only
  sl_unfold_run_names
  rcases cover14_geo y with h | h | h
  · exact ⟨_, List.mem_cons_of_mem _ (List.mem_cons_of_mem _ List.mem_cons_self), h⟩
  · exact ⟨_, List.mem_cons_of_mem _ (List.mem_cons_of_mem _ (List.mem_cons_of_mem _ List.mem_cons_self)), h⟩
  · exact ⟨_, List.mem_cons_of_mem _ (List.mem_cons_of_mem _ (List.mem_cons_of_mem _ (List.mem_cons_of_mem _ List.mem_cons_self))), h⟩

set_option maxHeartbeats 1000000 in
/-- The canonical contents of the run's pieces are those of the five plain stores, whatever the output's buffer held
    before: each column store read back what the earlier stores had left, so it counts as the plain store of its
    zeros; the interior store then counts as the plain store of the convolution's result, the elements it wrote back
    unchanged being covered by the column stores. -/
theorem canon_run14 (c : Dev nD) (i : grid14.Coords) (arg2 : Memref sig .tc .vmem S1x16x18x512 .bf16) (harg2 : arg2.IsWhole) (arg3 : Memref sig .tc .vmem S4608x512 .bf16) (harg3 : arg3.IsWhole) (arg4 : Memref sig .tc .vmem S1x512 .f32) (harg4 : arg4.IsWhole) (arg5 : Memref sig .tc .vmem S1x16x18x512 .bf16) (harg5 : arg5.IsWhole)
    (x0 : Vec F S1x16x18x512 .bf16) (x1 : Vec F S4608x512 .bf16) (x2 : Vec F S1x512 .f32) (d3 : Vec F S1x16x18x512 .bf16) :
    View.canon (kernelRun14_A c i arg2 harg2 arg3 harg3 arg4 harg4 arg5 harg5 x0 x1 x2 d3).1 = out14_3 i x0 x1 x2 := by
  have e0 : ∀ r : Rect S1x16x18x512, View.readAt (Elt F) arg2.view r.toLoadRect (harg2.unread x0) = View.ld x0 r :=
    fun r => by rw [View.readAt_eq_ld, harg2.read_unread]
  have e1 : ∀ r : Rect S4608x512, View.readAt (Elt F) arg3.view r.toLoadRect (harg3.unread x1) = View.ld x1 r :=
    fun r => by rw [View.readAt_eq_ld, harg3.read_unread]
  have e2 : ∀ r : Rect S1x512, View.readAt (Elt F) arg4.view r.toLoadRect (harg4.unread x2) = View.ld x2 r :=
    fun r => by rw [View.readAt_eq_ld, harg4.read_unread]
  unfold kernelRun14_A
  dsimp only
  sl_unfold_run_names
  dsimp only
  simp only [e0, e1, e2]
  refine Eq.trans (Cert.LibRmw.canon_append_updateSlice_readCov (s := S1x16x18x512) (e := .bf16) (Val := Elt F) arg5.view []
    ![0, 0, 14, 0] ![0, 0, 15, 0] SWR14.size SCR14.size ![0, 0, 1, 0]
    inb_S1x16x18x512_S1x16x4x512_0_0_14_0 inb_S1x16x18x512_S1x16x3x512_0_0_15_0 (by decide)
    slices_S1x16x4x512_S1x16x3x512_0_0_1_0 _ _) ?_
  refine Eq.trans (Cert.LibRmw.canon_append_updateSlice_readCov (s := S1x16x18x512) (e := .bf16) (Val := Elt F) arg5.view [_]
    ![0, 0, 0, 0] ![0, 0, 0, 0] SWL14.size SCL14.size ![0, 0, 0, 0]
    inb_S1x16x18x512_S1x16x2x512_0_0_0_0 inb_S1x16x18x512_S1x16x1x512_0_0_0_0 (by decide)
    slices_S1x16x2x512_S1x16x1x512_0_0_0_0 _ _) ?_
  refine Eq.trans (Cert.LibRmw.canon_append_updateSlice (s := S1x16x18x512) (e := .bf16) (Val := Elt F) [_, _, _, _]
    ![0, 1, 0, 0] ![0, 1, 1, 0] S1x14x18x512.size S1x14x16x512.size ![0, 0, 1, 0]
    inb_S1x16x18x512_S1x14x18x512_0_1_0_0 inb_S1x16x18x512_S1x14x16x512_0_1_1_0 (by decide)
    slices_S1x14x18x512_S1x14x16x512_0_0_1_0 _ _ [] ?_) ?_
  · intro j hj
    refine Or.inl ?_
    rcases shadow14_geo _ (r14_wi.toLoadRect.idx_mem j) hj with h | h
    · exact ⟨_, List.mem_cons_self, h⟩
    · exact ⟨_, List.mem_cons_of_mem _ List.mem_cons_self, h⟩
  unfold out14_3 conv14
  rfl

/-! ## What the output holds after each point -/

/-- What the output's staging buffer holds after the body at point `t`: the five plain stores' contents at the
    point's input blocks. -/
def outsAt14 (c : Dev nD) (t : Fin cfg14.N) : Vec F S1x16x18x512 .bf16 :=
  out14_3 (grid14.coords t) (iblk14 V c 0 t) (iblk14 V c 1 t) (iblk14 V c 2 t)

/-! ## The pipeline's proof data -/

/-- The proof data of pipeline 14 on core `c`: the arrays as the region finds them; after the body at a point each
    input's buffer at its block and the output's at `outsAt14`; the generator register and the scoped rest as
    invariant; nothing owed; full shares. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => (outsAt14 V c t)
  Φ _ := Pipeline.ΦA spec14 c
  q _ := fullShare
  owed _ := 0

theorem A_eq14 (c : Dev nD) (w : Fin cfg14.W) : (dat14 V c).A w = V c (Pipeline.arrRef spec14 w) := by
  dsimp only [dat14]

theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) : (dat14 V c).after 3 t = (outsAt14 V c t) := by dsimp only [dat14]

theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d
theorem before14_2 (c : Dev nD) (t : Fin cfg14.N) (d) : (dat14 V c).before 2 t d = iblk14 V c 2 t :=
  before14_2_of V (dat14 V c) (A_eq14 V c 2) (after14_2 V c) t d

/-! ## The body obligation, at a generic point -/

/-- What the body is called with at point `t`, the windows one by one, -/
def bodyPre14 (c : Dev nD) (t : Fin cfg14.N) : sProp 𝕄 :=
  iprop((dat14 V c).Φ t.castSucc ∗ (dat14 V c).owesAt () t.castSucc
    ∗ (∃ d, owns (c : Thread nD τ) (ms14_0 t) fullShare ((dat14 V c).before 0 t d))
    ∗ (∃ d, owns (c : Thread nD τ) (ms14_1 t) fullShare ((dat14 V c).before 1 t d))
    ∗ (∃ d, owns (c : Thread nD τ) (ms14_2 t) fullShare ((dat14 V c).before 2 t d))
    ∗ (∃ d, owns (c : Thread nD τ) (ms14_3 t) fullShare ((dat14 V c).before 3 t d)))

/-- and what it returns. -/
def bodyPost14 (c : Dev nD) (t : Fin cfg14.N) : sProp 𝕄 :=
  iprop((dat14 V c).Φ t.succ ∗ (dat14 V c).owesAt () t.succ
    ∗ owns (c : Thread nD τ) (ms14_0 t) fullShare ((dat14 V c).after 0 t)
    ∗ owns (c : Thread nD τ) (ms14_1 t) fullShare ((dat14 V c).after 1 t)
    ∗ owns (c : Thread nD τ) (ms14_2 t) fullShare ((dat14 V c).after 2 t)
    ∗ owns (c : Thread nD τ) (ms14_3 t) fullShare ((dat14 V c).after 3 t))

/-- The body at any point: the inputs' memrefs hold their blocks, the output's holds something; so the run applies at
    that something; its pieces cover the block and their canonical contents are the five plain stores'; the invariant
    passes through unread; the core owes nothing throughout. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2]
  rw [show (dat14 V c).Φ t.succ = (dat14 V c).Φ t.castSucc from rfl,
    show (dat14 V c).owesAt () t.succ = (dat14 V c).owesAt () t.castSucc from rfl,
    after14_0, after14_1, after14_2, after14_3]
  unfold outsAt14
  iintro ⟨HΦ, Ho, ⟨%d0, H0⟩, ⟨%d1, H1⟩, ⟨%d2, H2⟩, ⟨%d3, H3⟩⟩
  iapply ((kernelRun14_A c (grid14.coords t) _ _ _ _ _ _ _ _ (iblk14 V c 0 t) (iblk14 V c 1 t) (iblk14 V c 2 t) ((dat14 V c).before 3 t d3)).2 Set.univ _)
  isplitl [H0]; · iexact H0
  isplitl [H1]; · iexact H1
  isplitl [H2]; · iexact H2
  isplitl [H3]; · iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro
  exact (View.read_writes_eq_canon _ _ _ (cover14_A_3 c _ _ _ _ _ _ _ _ _ _ _ _ _)).trans (canon_run14 c _ _ _ _ _ _ _ _ _ _ _ _ _)

/-- The library's body obligation, at every point. -/
theorem body_obligation14 (c : Dev nD) : BodyObligation (dat14 (F := F) V c) (defs₀ (F := F)) Variants.none () Set.univ := fun t => by
  rw [bigSep_W14, bigSep_W14]
  exact sound_body14 V c t

end Cert.Kernel.Reg

end
-- ==== Proof.BR15.lean ====
/-
  Region 15 of the kernel's @main (a 3x3 convolution with bias and ReLU whose result is stored at offset (1, 1) of
  a larger image, the next layer's padded input, followed by four stores of zeros over the top row, the bottom row,
  the left column and the right columns): the proof data of its pipeline at any entry contents `V`, and the body's
  obligation.

  The interior store and the two column stores write rows that are part of their words: each reads the words it
  touches, replaces a sub-block of them and writes them back. So the pieces the body's run leaves name what the
  output's buffer held before. What the buffer holds after the body does not depend on it: the two column stores
  read back what the earlier stores had left, and every element the interior store wrote back unchanged is
  overwritten by a column store. The buffer ends at the canonical contents of five plain stores — the right
  columns, the left column, the bottom row and the top row at zero, the interior at the convolution's result.
-/
import proofs.«100114_g2000204297211070_pallasbulk_1265_19_alg».proof.Proof.Gen.Kernel.Launch
import proofs.«100114_g2000204297211070_pallasbulk_1265_19_alg».proof.Proof.Gen.Kernel.Skeleton
import proofs.«100114_g2000204297211070_pallasbulk_1265_19_alg».proof.Proof.Gen.Kernel.Points
import proofs.«100114_g2000204297211070_pallasbulk_1265_19_alg».proof.Proof.LibRmw
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles of the body's loads and stores -/

/-- The shapes of the left column and of the right columns the body zeroes, and of the words each column store
    writes back. -/
abbrev SCL15 : Shape := S1x16x1x512
abbrev SCR15 : Shape := S1x16x3x512
abbrev SWL15 : Shape := S1x16x2x512
abbrev SWR15 : Shape := S1x16x4x512

/-- The three loads of the padded input, one per column shift, -/
abbrev r15_t1 (i : grid15.Coords) : Rect S1x16x18x512 := Rect.unit (s := S1x16x18x512) (k15_off1 i) S1x16x16x512.size (k15_off1_inb i)
abbrev r15_t2 (i : grid15.Coords) : Rect S1x16x18x512 := Rect.unit (s := S1x16x18x512) (k15_off2 i) S1x16x16x512.size (k15_off2_inb i)
abbrev r15_t3 (i : grid15.Coords) : Rect S1x16x18x512 := Rect.unit (s := S1x16x18x512) (k15_off3 i) S1x16x16x512.size (k15_off3_inb i)
/-- the weights and the bias, whole; -/
abbrev r15_w : Rect S4608x512 := Rect.unit (s := S4608x512) ![0, 0] S4608x512.size inb_S4608x512_S4608x512_0_0
abbrev r15_b : Rect S1x512 := Rect.unit (s := S1x512) ![0, 0] S1x512.size inb_S1x512_S1x512_0_0
/-- the words the interior store writes back (the interior's rows, every column) and the interior itself; -/
abbrev r15_wi : Rect S1x16x18x512 := Rect.unit (s := S1x16x18x512) ![0, 1, 0, 0] S1x14x18x512.size inb_S1x16x18x512_S1x14x18x512_0_1_0_0
abbrev r15_in : Rect S1x16x18x512 := Rect.unit (s := S1x16x18x512) ![0, 1, 1, 0] S1x14x16x512.size inb_S1x16x18x512_S1x14x16x512_0_1_1_0
/-- the top and the bottom row; -/
abbrev r15_rt : Rect S1x16x18x512 := Rect.unit (s := S1x16x18x512) ![0, 0, 0, 0] S1x1x18x512.size inb_S1x16x18x512_S1x1x18x512_0_0_0_0
abbrev r15_rb : Rect S1x16x18x512 := Rect.unit (s := S1x16x18x512) ![0, 15, 0, 0] S1x1x18x512.size inb_S1x16x18x512_S1x1x18x512_0_15_0_0
/-- the left column and the right columns. -/
abbrev r15_cl : Rect S1x16x18x512 := Rect.unit (s := S1x16x18x512) ![0, 0, 0, 0] SCL15.size inb_S1x16x18x512_S1x16x1x512_0_0_0_0
abbrev r15_cr : Rect S1x16x18x512 := Rect.unit (s := S1x16x18x512) ![0, 0, 15, 0] SCR15.size inb_S1x16x18x512_S1x16x3x512_0_0_15_0

set_option synthInstance.maxSize 1024 in
/-- Every element of the output block lies in the bottom row, the top row or the interior's rows. -/
theorem cover15_geo (y : S1x16x18x512.Idx) : y ∈ r15_rb.set ∨ y ∈ r15_rt.set ∨ y ∈ r15_wi.set := by
  have h1 : (y 1).val < S1x16x18x512.size 1 := (y 1).isLt
  have h2 : (y 2).val < S1x16x18x512.size 2 := (y 2).isLt
  rw [Cert.LibRmw.mem_unit4_hw, Cert.LibRmw.mem_unit4_hw, Cert.LibRmw.mem_unit4_hw]
  · revert h2; generalize (y 2).val = n2; revert n2
    revert h1; generalize (y 1).val = n1; revert n1
    decide +kernel
  all_goals decide

set_option synthInstance.maxSize 1024 in
/-- An element of the interior's rows outside the interior lies in the right columns or in the left column. -/
theorem shadow15_geo (y : S1x16x18x512.Idx) : y ∈ r15_wi.set → y ∉ r15_in.set → y ∈ r15_cr.set ∨ y ∈ r15_cl.set := by
  have h1 : (y 1).val < S1x16x18x512.size 1 := (y 1).isLt
  have h2 : (y 2).val < S1x16x18x512.size 2 := (y 2).isLt
  rw [Cert.LibRmw.mem_unit4_hw, Cert.LibRmw.mem_unit4_hw, Cert.LibRmw.mem_unit4_hw, Cert.LibRmw.mem_unit4_hw]
  · revert h2; generalize (y 2).val = n2; revert n2
    revert h1; generalize (y 1).val = n1; revert n1
    decide +kernel
  all_goals decide

/-! ## What the body leaves in the output's buffer -/

/-- The convolution's result, from the three input blocks: the interior store's sub-block. -/
def conv15 (i : grid15.Coords) (x0 : Vec F S1x16x18x512 .bf16) (x1 : Vec F S4608x512 .bf16) (x2 : Vec F S1x512 .f32) : FVec F S1x14x16x512 .bf16 :=
  k15_pay5 (View.ld x0 (r15_t1 i)) (View.ld x0 (r15_t2 i)) (View.ld x0 (r15_t3 i)) (View.ld x1 r15_w) (View.ld x2 r15_b)

/-- The output's staging buffer after the body: the right columns, the left column, the bottom row and the top row
    at the zeros the body stores there, the interior at the convolution's result (last store first). -/
def out15_3 (i : grid15.Coords) (x0 : Vec F S1x16x18x512 .bf16) (x1 : Vec F S4608x512 .bf16) (x2 : Vec F S1x512 .f32) : Vec F S1x16x18x512 .bf16 :=
  View.canon [⟨r15_cr, k15_pay4 (F := F)⟩, ⟨r15_cl, k15_pay3 (F := F)⟩, ⟨r15_rb, k15_pay2 (F := F)⟩, ⟨r15_rt, k15_pay1 (k15_pay6 (F := F))⟩, ⟨r15_in, conv15 i x0 x1 x2⟩]

variable (V : (c : Dev nD) → (b : Ref sig .tc) → Buf (Elt F) ((c : Thread nD τ).loc b))

/-! ## The windows' blocks -/

/-- Window `w`'s block at point `t`, read off its array as the region finds it. -/
def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-- Each input window's staging buffer holds its block at every point, for any proof data over `V`'s array whose
    body leaves the block in place. -/
theorem before15_0_of {c : Dev nD} (dat : Dat τ (Elt F) Unit ℕ (UR sig nD τ) ℕ cfg15 c) (hA : dat.A 0 = V c (Pipeline.arrRef spec15 0))
    (hafter : ∀ t, dat.after 0 t = iblk15 V c 0 t) (t : Fin cfg15.N) (d) : dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)
theorem before15_1_of {c : Dev nD} (dat : Dat τ (Elt F) Unit ℕ (UR sig nD τ) ℕ cfg15 c) (hA : dat.A 1 = V c (Pipeline.arrRef spec15 1))
    (hafter : ∀ t, dat.after 1 t = iblk15 V c 1 t) (t : Fin cfg15.N) (d) : dat.before 1 t d = iblk15 V c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)
theorem before15_2_of {c : Dev nD} (dat : Dat τ (Elt F) Unit ℕ (UR sig nD τ) ℕ cfg15 c) (hA : dat.A 2 = V c (Pipeline.arrRef spec15 2))
    (hafter : ∀ t, dat.after 2 t = iblk15 V c 2 t) (t : Fin cfg15.N) (d) : dat.before 2 t d = iblk15 V c 2 t :=
  (dat.before_in_eq_fetched 2 rfl (fun _ => rfl) (fun _ _ _ => rfl) (fun t => by rw [hafter]; unfold Dat.blockOf iblk15; rw [hA]; try rfl) t d).trans
    (by unfold Dat.fetched Dat.blockOf iblk15; rw [hA]; try rfl)

/-! ## The kernel body on any staging memrefs -/

/-- Each window's current staging memref at point `t`, spelled as the pipeline passes it, and its wholeness. -/
abbrev ms15_0 (t : Fin cfg15.N) : Memref sig .tc .vmem S1x16x18x512 .bf16 := win15_0.stage (cfg15.slots t 0)
abbrev hs15_0 (t : Fin cfg15.N) : (ms15_0 t).IsWhole := hstage15_0 ((cfg15.slots t 0).cast nbuf15_0)
abbrev ms15_1 (t : Fin cfg15.N) : Memref sig .tc .vmem S4608x512 .bf16 := win15_1.stage (cfg15.slots t 1)
abbrev hs15_1 (t : Fin cfg15.N) : (ms15_1 t).IsWhole := hstage15_1 ((cfg15.slots t 1).cast nbuf15_1)
abbrev ms15_2 (t : Fin cfg15.N) : Memref sig .tc .vmem S1x512 .f32 := win15_2.stage (cfg15.slots t 2)
abbrev hs15_2 (t : Fin cfg15.N) : (ms15_2 t).IsWhole := hstage15_2 ((cfg15.slots t 2).cast nbuf15_2)
abbrev ms15_3 (t : Fin cfg15.N) : Memref sig .tc .vmem S1x16x18x512 .bf16 := win15_3.stage (cfg15.slots t 3)
abbrev hs15_3 (t : Fin cfg15.N) : (ms15_3 t).IsWhole := hstage15_3 ((cfg15.slots t 3).cast nbuf15_3)

set_option maxHeartbeats 1000000 in
/-- What the body's stores leave in the output's staging memref, as pieces (last first), with the proof that on
    whole staging memrefs — the inputs' at their contents, the output's at `d3` — the body runs to the continuation
    holding the inputs' as they were and the output's buffer with the pieces written. The pieces are the witness the
    run finds; they name `d3`, which the interior store reads before any store. -/
noncomputable def kernelRun15_A (c : Dev nD) (i : grid15.Coords) (arg2 : Memref sig .tc .vmem S1x16x18x512 .bf16) (harg2 : arg2.IsWhole) (arg3 : Memref sig .tc .vmem S4608x512 .bf16) (harg3 : arg3.IsWhole) (arg4 : Memref sig .tc .vmem S1x512 .f32) (harg4 : arg4.IsWhole) (arg5 : Memref sig .tc .vmem S1x16x18x512 .bf16) (harg5 : arg5.IsWhole)
    (x0 : Vec F S1x16x18x512 .bf16) (x1 : Vec F S4608x512 .bf16) (x2 : Vec F S1x512 .f32) (d3 : Vec F S1x16x18x512 .bf16) :
    { L3 : List (View.Piece (Elt F) S1x16x18x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare d3
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc15_body i arg2 harg2 arg3 harg3 arg4 harg4 arg5 harg5) K } := by
  refine ⟨?_, fun E K => ?run⟩
  case run =>
    simp only [cc15_body_eq_skeleton]; unfold cc15_body_skel
    simp only [k15_part1_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

/-- The run's pieces cover the output block: the bottom row's, the top row's and the interior store's do. -/
theorem cover15_A_3 (c : Dev nD) (i : grid15.Coords) (arg2 : Memref sig .tc .vmem S1x16x18x512 .bf16) (harg2 : arg2.IsWhole) (arg3 : Memref sig .tc .vmem S4608x512 .bf16) (harg3 : arg3.IsWhole) (arg4 : Memref sig .tc .vmem S1x512 .f32) (harg4 : arg4.IsWhole) (arg5 : Memref sig .tc .vmem S1x16x18x512 .bf16) (harg5 : arg5.IsWhole)
    (x0 : Vec F S1x16x18x512 .bf16) (x1 : Vec F S4608x512 .bf16) (x2 : Vec F S1x512 .f32) (d3 : Vec F S1x16x18x512 .bf16) (y : S1x16x18x512.Idx) :
    ∃ pc ∈ (kernelRun15_A c i arg2 harg2 arg3 harg3 arg4 harg4 arg5 harg5 x0 x1 x2 d3).1, y ∈ pc.1.set := by
  unfold kernelRun15_A
  dsimp only
  sl_unfold_run_names
  rcases cover15_geo y with h | h | h
  · exact ⟨_, List.mem_cons_of_mem _ (List.mem_cons_of_mem _ List.mem_cons_self), h⟩
  · exact ⟨_, List.mem_cons_of_mem _ (List.mem_cons_of_mem _ (List.mem_cons_of_mem _ List.mem_cons_self)), h⟩
  · exact ⟨_, List.mem_cons_of_mem _ (List.mem_cons_of_mem _ (List.mem_cons_of_mem _ (List.mem_cons_of_mem _ List.mem_cons_self))), h⟩

set_option maxHeartbeats 1000000 in
/-- The canonical contents of the run's pieces are those of the five plain stores, whatever the output's buffer held
    before: each column store read back what the earlier stores had left, so it counts as the plain store of its
    zeros; the interior store then counts as the plain store of the convolution's result, the elements it wrote back
    unchanged being covered by the column stores. -/
theorem canon_run15 (c : Dev nD) (i : grid15.Coords) (arg2 : Memref sig .tc .vmem S1x16x18x512 .bf16) (harg2 : arg2.IsWhole) (arg3 : Memref sig .tc .vmem S4608x512 .bf16) (harg3 : arg3.IsWhole) (arg4 : Memref sig .tc .vmem S1x512 .f32) (harg4 : arg4.IsWhole) (arg5 : Memref sig .tc .vmem S1x16x18x512 .bf16) (harg5 : arg5.IsWhole)
    (x0 : Vec F S1x16x18x512 .bf16) (x1 : Vec F S4608x512 .bf16) (x2 : Vec F S1x512 .f32) (d3 : Vec F S1x16x18x512 .bf16) :
    View.canon (kernelRun15_A c i arg2 harg2 arg3 harg3 arg4 harg4 arg5 harg5 x0 x1 x2 d3).1 = out15_3 i x0 x1 x2 := by
  have e0 : ∀ r : Rect S1x16x18x512, View.readAt (Elt F) arg2.view r.toLoadRect (harg2.unread x0) = View.ld x0 r :=
    fun r => by rw [View.readAt_eq_ld, harg2.read_unread]
  have e1 : ∀ r : Rect S4608x512, View.readAt (Elt F) arg3.view r.toLoadRect (harg3.unread x1) = View.ld x1 r :=
    fun r => by rw [View.readAt_eq_ld, harg3.read_unread]
  have e2 : ∀ r : Rect S1x512, View.readAt (Elt F) arg4.view r.toLoadRect (harg4.unread x2) = View.ld x2 r :=
    fun r => by rw [View.readAt_eq_ld, harg4.read_unread]
  unfold kernelRun15_A
  dsimp only
  sl_unfold_run_names
  dsimp only
  simp only [e0, e1, e2]
  refine Eq.trans (Cert.LibRmw.canon_append_updateSlice_readCov (s := S1x16x18x512) (e := .bf16) (Val := Elt F) arg5.view []
    ![0, 0, 14, 0] ![0, 0, 15, 0] SWR15.size SCR15.size ![0, 0, 1, 0]
    inb_S1x16x18x512_S1x16x4x512_0_0_14_0 inb_S1x16x18x512_S1x16x3x512_0_0_15_0 (by decide)
    slices_S1x16x4x512_S1x16x3x512_0_0_1_0 _ _) ?_
  refine Eq.trans (Cert.LibRmw.canon_append_updateSlice_readCov (s := S1x16x18x512) (e := .bf16) (Val := Elt F) arg5.view [_]
    ![0, 0, 0, 0] ![0, 0, 0, 0] SWL15.size SCL15.size ![0, 0, 0, 0]
    inb_S1x16x18x512_S1x16x2x512_0_0_0_0 inb_S1x16x18x512_S1x16x1x512_0_0_0_0 (by decide)
    slices_S1x16x2x512_S1x16x1x512_0_0_0_0 _ _) ?_
  refine Eq.trans (Cert.LibRmw.canon_append_updateSlice (s := S1x16x18x512) (e := .bf16) (Val := Elt F) [_, _, _, _]
    ![0, 1, 0, 0] ![0, 1, 1, 0] S1x14x18x512.size S1x14x16x512.size ![0, 0, 1, 0]
    inb_S1x16x18x512_S1x14x18x512_0_1_0_0 inb_S1x16x18x512_S1x14x16x512_0_1_1_0 (by decide)
    slices_S1x14x18x512_S1x14x16x512_0_0_1_0 _ _ [] ?_) ?_
  · intro j hj
    refine Or.inl ?_
    rcases shadow15_geo _ (r15_wi.toLoadRect.idx_mem j) hj with h | h
    · exact ⟨_, List.mem_cons_self, h⟩
    · exact ⟨_, List.mem_cons_of_mem _ List.mem_cons_self, h⟩
  unfold out15_3 conv15
  rfl

/-! ## What the output holds after each point -/

/-- What the output's staging buffer holds after the body at point `t`: the five plain stores' contents at the
    point's input blocks. -/
def outsAt15 (c : Dev nD) (t : Fin cfg15.N) : Vec F S1x16x18x512 .bf16 :=
  out15_3 (grid15.coords t) (iblk15 V c 0 t) (iblk15 V c 1 t) (iblk15 V c 2 t)

/-! ## The pipeline's proof data -/

/-- The proof data of pipeline 15 on core `c`: the arrays as the region finds them; after the body at a point each
    input's buffer at its block and the output's at `outsAt15`; the generator register and the scoped rest as
    invariant; nothing owed; full shares. -/
def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => iblk15 V c 2 t
    | ⟨3, _⟩ => (outsAt15 V c t)
  Φ _ := Pipeline.ΦA spec15 c
  q _ := fullShare
  owed _ := 0

theorem A_eq15 (c : Dev nD) (w : Fin cfg15.W) : (dat15 V c).A w = V c (Pipeline.arrRef spec15 w) := by
  dsimp only [dat15]

theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = iblk15 V c 2 t := by dsimp only [dat15]
theorem after15_3 (c : Dev nD) (t : Fin cfg15.N) : (dat15 V c).after 3 t = (outsAt15 V c t) := by dsimp only [dat15]

theorem before15_0 (c : Dev nD) (t : Fin cfg15.N) (d) : (dat15 V c).before 0 t d = iblk15 V c 0 t :=
  before15_0_of V (dat15 V c) (A_eq15 V c 0) (after15_0 V c) t d
theorem before15_1 (c : Dev nD) (t : Fin cfg15.N) (d) : (dat15 V c).before 1 t d = iblk15 V c 1 t :=
  before15_1_of V (dat15 V c) (A_eq15 V c 1) (after15_1 V c) t d
theorem before15_2 (c : Dev nD) (t : Fin cfg15.N) (d) : (dat15 V c).before 2 t d = iblk15 V c 2 t :=
  before15_2_of V (dat15 V c) (A_eq15 V c 2) (after15_2 V c) t d

/-! ## The body obligation, at a generic point -/

/-- What the body is called with at point `t`, the windows one by one, -/
def bodyPre15 (c : Dev nD) (t : Fin cfg15.N) : sProp 𝕄 :=
  iprop((dat15 V c).Φ t.castSucc ∗ (dat15 V c).owesAt () t.castSucc
    ∗ (∃ d, owns (c : Thread nD τ) (ms15_0 t) fullShare ((dat15 V c).before 0 t d))
    ∗ (∃ d, owns (c : Thread nD τ) (ms15_1 t) fullShare ((dat15 V c).before 1 t d))
    ∗ (∃ d, owns (c : Thread nD τ) (ms15_2 t) fullShare ((dat15 V c).before 2 t d))
    ∗ (∃ d, owns (c : Thread nD τ) (ms15_3 t) fullShare ((dat15 V c).before 3 t d)))

/-- and what it returns. -/
def bodyPost15 (c : Dev nD) (t : Fin cfg15.N) : sProp 𝕄 :=
  iprop((dat15 V c).Φ t.succ ∗ (dat15 V c).owesAt () t.succ
    ∗ owns (c : Thread nD τ) (ms15_0 t) fullShare ((dat15 V c).after 0 t)
    ∗ owns (c : Thread nD τ) (ms15_1 t) fullShare ((dat15 V c).after 1 t)
    ∗ owns (c : Thread nD τ) (ms15_2 t) fullShare ((dat15 V c).after 2 t)
    ∗ owns (c : Thread nD τ) (ms15_3 t) fullShare ((dat15 V c).after 3 t))

/-- The body at any point: the inputs' memrefs hold their blocks, the output's holds something; so the run applies at
    that something; its pieces cover the block and their canonical contents are the five plain stores'; the invariant
    passes through unread; the core owes nothing throughout. -/
theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1, before15_2]
  rw [show (dat15 V c).Φ t.succ = (dat15 V c).Φ t.castSucc from rfl,
    show (dat15 V c).owesAt () t.succ = (dat15 V c).owesAt () t.castSucc from rfl,
    after15_0, after15_1, after15_2, after15_3]
  unfold outsAt15
  iintro ⟨HΦ, Ho, ⟨%d0, H0⟩, ⟨%d1, H1⟩, ⟨%d2, H2⟩, ⟨%d3, H3⟩⟩
  iapply ((kernelRun15_A c (grid15.coords t) _ _ _ _ _ _ _ _ (iblk15 V c 0 t) (iblk15 V c 1 t) (iblk15 V c 2 t) ((dat15 V c).before 3 t d3)).2 Set.univ _)
  isplitl [H0]; · iexact H0
  isplitl [H1]; · iexact H1
  isplitl [H2]; · iexact H2
  isplitl [H3]; · iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro
  exact (View.read_writes_eq_canon _ _ _ (cover15_A_3 c _ _ _ _ _ _ _ _ _ _ _ _ _)).trans (canon_run15 c _ _ _ _ _ _ _ _ _ _ _ _ _)

/-- The library's body obligation, at every point. -/
theorem body_obligation15 (c : Dev nD) : BodyObligation (dat15 (F := F) V c) (defs₀ (F := F)) Variants.none () Set.univ := fun t => by
  rw [bigSep_W15, bigSep_W15]
  exact sound_body15 V c t

end Cert.Kernel.Reg

end
-- ==== Proof.BR16.lean ====
/-
  Region 16 of the kernel's @main (a 3x3 convolution as one matrix product over nine lane-concatenated taps, with bias,
  ReLU and the row-pair maximum of a 2x2 pooling fused, on a block whose width is padded to whole tiles): the proof data
  of its pipeline at any entry contents `V`, and the body's obligation. The body loads three column-shifted windows of
  its input block through rectangles whose row offset is computed from the grid position, loads the weights and the
  bias whole, stores the result whole and then stores zeros over the strip of padding columns; so after the body at a
  point the output's staging buffer holds those two stores' payloads, the strip's over the whole block's, read back
  over anything (the whole-block store alone already covers the block).
-/
import proofs.«100114_g2000204297211070_pallasbulk_1265_19_alg».proof.Proof.Gen.Kernel.Launch
import proofs.«100114_g2000204297211070_pallasbulk_1265_19_alg».proof.Proof.Gen.Kernel.Skeleton
import proofs.«100114_g2000204297211070_pallasbulk_1265_19_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

/-- Input window 0's staging buffer holds its block at every point, fetched there or not, for any proof data over
    `V`'s array whose body leaves the block in place. -/
theorem before16_0_of {c : Dev nD} (dat : Dat τ (Elt F) Unit ℕ (UR sig nD τ) ℕ cfg16 c) (hA : dat.A 0 = V c (Pipeline.arrRef spec16 0))
    (hafter : ∀ t, dat.after 0 t = iblk16 V c 0 t) (t : Fin cfg16.N) (d) : dat.before 0 t d = iblk16 V c 0 t :=
  (dat.before_in_eq_fetched 0 rfl (fun _ => rfl) (fun _ _ _ => rfl) (fun t => by rw [hafter]; unfold Dat.blockOf iblk16; rw [hA]; try rfl) t d).trans
    (by unfold Dat.fetched Dat.blockOf iblk16; rw [hA]; try rfl)
/-- Input window 1's staging buffer holds its block at every point, fetched there or not, for any proof data over
    `V`'s array whose body leaves the block in place. -/
theorem before16_1_of {c : Dev nD} (dat : Dat τ (Elt F) Unit ℕ (UR sig nD τ) ℕ cfg16 c) (hA : dat.A 1 = V c (Pipeline.arrRef spec16 1))
    (hafter : ∀ t, dat.after 1 t = iblk16 V c 1 t) (t : Fin cfg16.N) (d) : dat.before 1 t d = iblk16 V c 1 t :=
  (dat.before_in_eq_fetched 1 rfl (fun _ => rfl) (fun _ _ _ => rfl) (fun t => by rw [hafter]; unfold Dat.blockOf iblk16; rw [hA]; try rfl) t d).trans
    (by unfold Dat.fetched Dat.blockOf iblk16; rw [hA]; try rfl)
/-- Input window 2's staging buffer holds its block at every point, fetched there or not, for any proof data over
    `V`'s array whose body leaves the block in place. -/
theorem before16_2_of {c : Dev nD} (dat : Dat τ (Elt F) Unit ℕ (UR sig nD τ) ℕ cfg16 c) (hA : dat.A 2 = V c (Pipeline.arrRef spec16 2))
    (hafter : ∀ t, dat.after 2 t = iblk16 V c 2 t) (t : Fin cfg16.N) (d) : dat.before 2 t d = iblk16 V c 2 t :=
  (dat.before_in_eq_fetched 2 rfl (fun _ => rfl) (fun _ _ _ => rfl) (fun t => by rw [hafter]; unfold Dat.blockOf iblk16; rw [hA]; try rfl) t d).trans
    (by unfold Dat.fetched Dat.blockOf iblk16; rw [hA]; try rfl)

/-- One staging buffer of the output window, through which its contents are stated (the choice does not matter). -/
abbrev VO16_3 : View sig .tc .vmem S1x7x16x512 .bf16 := (Memref.whole cc16_stg3_0 : Memref sig .tc .vmem S1x7x16x512 .bf16).view
/-- Each window's current staging memref at point `t`, spelled as the pipeline passes it, and its wholeness. -/
abbrev ms16_0 (t : Fin cfg16.N) : Memref sig .tc .vmem S1x16x18x512 .bf16 := win16_0.stage (cfg16.slots t 0)
abbrev hs16_0 (t : Fin cfg16.N) : (ms16_0 t).IsWhole := hstage16_0 ((cfg16.slots t 0).cast nbuf16_0)
abbrev ms16_1 (t : Fin cfg16.N) : Memref sig .tc .vmem S4608x512 .bf16 := win16_1.stage (cfg16.slots t 1)
abbrev hs16_1 (t : Fin cfg16.N) : (ms16_1 t).IsWhole := hstage16_1 ((cfg16.slots t 1).cast nbuf16_1)
abbrev ms16_2 (t : Fin cfg16.N) : Memref sig .tc .vmem S1x512 .f32 := win16_2.stage (cfg16.slots t 2)
abbrev hs16_2 (t : Fin cfg16.N) : (ms16_2 t).IsWhole := hstage16_2 ((cfg16.slots t 2).cast nbuf16_2)
abbrev ms16_3 (t : Fin cfg16.N) : Memref sig .tc .vmem S1x7x16x512 .bf16 := win16_3.stage (cfg16.slots t 3)
abbrev hs16_3 (t : Fin cfg16.N) : (ms16_3 t).IsWhole := hstage16_3 ((cfg16.slots t 3).cast nbuf16_3)

set_option maxHeartbeats 1000000 in
/-- What the body's stores leave in the output's staging memref, as pieces (last first), with the proof that on whole
    staging memrefs, the inputs' at their contents and the output's at anything, the body runs to the continuation
    holding the inputs' as they were and the output's buffer with the pieces written. The pieces are the witness the
    symbolic run of the body finds. -/
noncomputable def kernelRun16_A (c : Dev nD) (i : grid16.Coords) (arg2 : Memref sig .tc .vmem S1x16x18x512 .bf16) (harg2 : arg2.IsWhole) (arg3 : Memref sig .tc .vmem S4608x512 .bf16) (harg3 : arg3.IsWhole) (arg4 : Memref sig .tc .vmem S1x512 .f32) (harg4 : arg4.IsWhole) (arg5 : Memref sig .tc .vmem S1x7x16x512 .bf16) (harg5 : arg5.IsWhole)
    (x0 : Vec F S1x16x18x512 .bf16) (x1 : Vec F S4608x512 .bf16) (x2 : Vec F S1x512 .f32) :
    { L3 : List (View.Piece (Elt F) S1x7x16x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc16_body i arg2 harg2 arg3 harg3 arg4 harg4 arg5 harg5) K } := by
  refine ⟨?_, fun E K => ?run⟩
  case run =>
    simp only [cc16_body_eq_skeleton]; unfold cc16_body_skel
    simp only [k16_part1_eq_skeleton]
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

/-- Among the run's pieces for the output the whole-block store tiles the block by itself (the strip, of another
    size, is passed over), so the pieces cover it. -/
theorem cover16_A_3 (c : Dev nD) (i : grid16.Coords) (arg2 : Memref sig .tc .vmem S1x16x18x512 .bf16) (harg2 : arg2.IsWhole) (arg3 : Memref sig .tc .vmem S4608x512 .bf16) (harg3 : arg3.IsWhole) (arg4 : Memref sig .tc .vmem S1x512 .f32) (harg4 : arg4.IsWhole) (arg5 : Memref sig .tc .vmem S1x7x16x512 .bf16) (harg5 : arg5.IsWhole)
    (x0 : Vec F S1x16x18x512 .bf16) (x1 : Vec F S4608x512 .bf16) (x2 : Vec F S1x512 .f32) (y : S1x7x16x512.Idx) :
    ∃ pc ∈ (kernelRun16_A c i arg2 harg2 arg3 harg3 arg4 harg4 arg5 harg5 x0 x1 x2).1, y ∈ pc.1.set :=
  View.cover_of_tiledL (kernelRun16_A c i arg2 harg2 arg3 harg3 arg4 harg4 arg5 harg5 x0 x1 x2).1 S1x7x16x512.size (by sl_kernel_rfl) y

/-- What the run leaves in the output's staging buffer: its pieces read back over junk. -/
def out16_A_3 (c : Dev nD) (i : grid16.Coords) (arg2 : Memref sig .tc .vmem S1x16x18x512 .bf16) (harg2 : arg2.IsWhole) (arg3 : Memref sig .tc .vmem S4608x512 .bf16) (harg3 : arg3.IsWhole) (arg4 : Memref sig .tc .vmem S1x512 .f32) (harg4 : arg4.IsWhole) (arg5 : Memref sig .tc .vmem S1x7x16x512 .bf16) (harg5 : arg5.IsWhole)
    (x0 : Vec F S1x16x18x512 .bf16) (x1 : Vec F S4608x512 .bf16) (x2 : Vec F S1x512 .f32) : Vec F S1x7x16x512 .bf16 :=
  VO16_3.read (Elt F) (VO16_3.writes (Elt F) VO16_3.junk (kernelRun16_A c i arg2 harg2 arg3 harg3 arg4 harg4 arg5 harg5 x0 x1 x2).1)

/-- What the output's staging buffer holds after the body at point `t`: the run's contents at the point's memrefs
    and input blocks. -/
def outsAt16 (c : Dev nD) (t : Fin cfg16.N) : Vec F S1x7x16x512 .bf16 :=
  out16_A_3 c (grid16.coords t) (ms16_0 t) (hs16_0 t) (ms16_1 t) (hs16_1 t) (ms16_2 t) (hs16_2 t) (ms16_3 t) (hs16_3 t) (iblk16 V c 0 t) (iblk16 V c 1 t) (iblk16 V c 2 t)

/-- The proof data of pipeline 16 on core `c`: the arrays as the region finds them; after the body at a point each
    input's buffer at its block and the output's at `outsAt16`; the generator register and the scoped rest as
    invariant; nothing owed; full shares. -/
def dat16 (c : Dev nD) : Dat τ (Elt F) Unit ℕ (UR sig nD τ) ℕ cfg16 c where
  A w := V c (Pipeline.arrRef spec16 w)
  after w t := match w with
    | ⟨0, _⟩ => iblk16 V c 0 t
    | ⟨1, _⟩ => iblk16 V c 1 t
    | ⟨2, _⟩ => iblk16 V c 2 t
    | ⟨3, _⟩ => (outsAt16 V c t)
  Φ _ := Pipeline.ΦA spec16 c
  q _ := fullShare
  owed _ := 0

theorem A_eq16 (c : Dev nD) (w : Fin cfg16.W) : (dat16 V c).A w = V c (Pipeline.arrRef spec16 w) := by
  dsimp only [dat16]

theorem after16_0 (c : Dev nD) (t : Fin cfg16.N) : (dat16 V c).after 0 t = iblk16 V c 0 t := by dsimp only [dat16]
theorem after16_1 (c : Dev nD) (t : Fin cfg16.N) : (dat16 V c).after 1 t = iblk16 V c 1 t := by dsimp only [dat16]
theorem after16_2 (c : Dev nD) (t : Fin cfg16.N) : (dat16 V c).after 2 t = iblk16 V c 2 t := by dsimp only [dat16]
theorem after16_3 (c : Dev nD) (t : Fin cfg16.N) : (dat16 V c).after 3 t = (outsAt16 V c t) := by dsimp only [dat16]

theorem before16_0 (c : Dev nD) (t : Fin cfg16.N) (d) : (dat16 V c).before 0 t d = iblk16 V c 0 t :=
  before16_0_of V (dat16 V c) (A_eq16 V c 0) (after16_0 V c) t d
theorem before16_1 (c : Dev nD) (t : Fin cfg16.N) (d) : (dat16 V c).before 1 t d = iblk16 V c 1 t :=
  before16_1_of V (dat16 V c) (A_eq16 V c 1) (after16_1 V c) t d
theorem before16_2 (c : Dev nD) (t : Fin cfg16.N) (d) : (dat16 V c).before 2 t d = iblk16 V c 2 t :=
  before16_2_of V (dat16 V c) (A_eq16 V c 2) (after16_2 V c) t d

/-- What the body is called with at point `t`, the windows one by one, -/
def bodyPre16 (c : Dev nD) (t : Fin cfg16.N) : sProp 𝕄 :=
  iprop((dat16 V c).Φ t.castSucc ∗ (dat16 V c).owesAt () t.castSucc
    ∗ (∃ d, owns (c : Thread nD τ) (ms16_0 t) fullShare ((dat16 V c).before 0 t d))
    ∗ (∃ d, owns (c : Thread nD τ) (ms16_1 t) fullShare ((dat16 V c).before 1 t d))
    ∗ (∃ d, owns (c : Thread nD τ) (ms16_2 t) fullShare ((dat16 V c).before 2 t d))
    ∗ (∃ d, owns (c : Thread nD τ) (ms16_3 t) fullShare ((dat16 V c).before 3 t d)))

/-- and what it returns. -/
def bodyPost16 (c : Dev nD) (t : Fin cfg16.N) : sProp 𝕄 :=
  iprop((dat16 V c).Φ t.succ ∗ (dat16 V c).owesAt () t.succ
    ∗ owns (c : Thread nD τ) (ms16_0 t) fullShare ((dat16 V c).after 0 t)
    ∗ owns (c : Thread nD τ) (ms16_1 t) fullShare ((dat16 V c).after 1 t)
    ∗ owns (c : Thread nD τ) (ms16_2 t) fullShare ((dat16 V c).after 2 t)
    ∗ owns (c : Thread nD τ) (ms16_3 t) fullShare ((dat16 V c).after 3 t))

/-- The body at any point: the inputs' memrefs hold their blocks, so the run applies; the invariant passes through
    unread; the core owes nothing throughout. -/
theorem sound_body16 (c : Dev nD) (t : Fin cfg16.N) :
    bodyPre16 V c t ⊢ wp frame (wpE (defs₀ (F := F)) Variants.none c none) Set.univ (bodyAt16 t) (fun _ => bodyPost16 V c t) := by
  unfold bodyPre16 bodyPost16 bodyAt16
  simp only [before16_0, before16_1, before16_2]
  rw [show (dat16 V c).Φ t.succ = (dat16 V c).Φ t.castSucc from rfl,
    show (dat16 V c).owesAt () t.succ = (dat16 V c).owesAt () t.castSucc from rfl,
    after16_0, after16_1, after16_2, after16_3]
  unfold outsAt16
  unfold out16_A_3
  iintro ⟨HΦ, Ho, ⟨%d0, H0⟩, ⟨%d1, H1⟩, ⟨%d2, H2⟩, ⟨%d3, H3⟩⟩
  iapply ((kernelRun16_A c (grid16.coords t) _ _ _ _ _ _ _ _ (iblk16 V c 0 t) (iblk16 V c 1 t) (iblk16 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover16_A_3 c _ _ _ _ _ _ _ _ _ _ _ _)

theorem body_obligation16 (c : Dev nD) : BodyObligation (dat16 (F := F) V c) (defs₀ (F := F)) Variants.none () Set.univ := fun t => by
  rw [bigSep_W16, bigSep_W16]
  exact sound_body16 V c t

end Cert.Kernel.Reg

end
-- ==== Proof.BR17.lean ====
/-
  Region 17 of the kernel's @main (the lane-half maximum that finishes a 2x2 pooling): the proof data of its
  pipeline at any entry contents `V`, and the body's obligation. The body loads its one input block whole, takes the
  pointwise maximum of the block's two lane halves and stores the result whole; so after the body at a point the
  output's staging buffer holds that one store's payload of the input block.
-/
import proofs.«100114_g2000204297211070_pallasbulk_1265_19_alg».proof.Proof.Gen.Kernel.Launch
import proofs.«100114_g2000204297211070_pallasbulk_1265_19_alg».proof.Proof.Gen.Kernel.Skeleton
import proofs.«100114_g2000204297211070_pallasbulk_1265_19_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk17 (c : Dev nD) (w : Fin cfg17.W) (t : Fin cfg17.N) : ((cfg17.win w).xblock (cfg17.grid.coords t)).Idx → Elt F (cfg17.win w).elt :=
  ((cfg17.win w).blk t).view.read (Elt F) (V c (Pipeline.arrRef spec17 w))

/-- The input window's staging buffer holds its block at every point, for any proof data over `V`'s array whose
    body leaves the block in place. -/
theorem before17_0_of {c : Dev nD} (dat : Dat τ (Elt F) Unit ℕ (UR sig nD τ) ℕ cfg17 c) (hA : dat.A 0 = V c (Pipeline.arrRef spec17 0))
    (hafter : ∀ t, dat.after 0 t = iblk17 V c 0 t) (t : Fin cfg17.N) (d) : dat.before 0 t d = iblk17 V c 0 t :=
  (dat.before_in_eq_fetched 0 rfl (fun _ => rfl) (fun _ _ _ => rfl) (fun t => by rw [hafter]; unfold Dat.blockOf iblk17; rw [hA]; try rfl) t d).trans
    (by unfold Dat.fetched Dat.blockOf iblk17; rw [hA]; try rfl)

abbrev r17_0 : Rect S1x7x8x1024 := Rect.unit (s := S1x7x8x1024) ![0, 0, 0, 0] S1x7x8x1024.size inb_S1x7x8x1024_S1x7x8x1024_0_0_0_0
abbrev r17_1 : Rect S1x7x8x512 := Rect.unit (s := S1x7x8x512) ![0, 0, 0, 0] S1x7x8x512.size inb_S1x7x8x512_S1x7x8x512_0_0_0_0

/-- The output's staging buffer after the body: the one whole store of the payload of the loaded input block. -/
def out17_1 (x0 : Vec F S1x7x8x1024 .bf16) : Vec F S1x7x8x512 .bf16 :=
  View.canon [⟨r17_1, k17_pay1 (View.ld x0 r17_0)⟩]

theorem cover17_1 (p0 : Vec F S1x7x8x512 .bf16) (y : S1x7x8x512.Idx) :
    ∃ pc ∈ ([⟨r17_1, p0⟩] : List (View.Piece (Elt F) S1x7x8x512 .bf16)), y ∈ pc.1.set :=
  View.cover_of_tiled [⟨r17_1, p0⟩] S1x7x8x512.size (by rfl) y

set_option maxHeartbeats 1000000 in
/-- The body on whole staging memrefs, the input's at `x0` and the output's at anything, runs to the continuation
    with the input's as it was and the output's at `out17_1 x0`. -/
theorem sound_kernel17 (c : Dev nD) (E : Set ℕ) (i : grid17.Coords) (arg1 : Memref sig .tc .vmem S1x7x8x1024 .bf16) (harg1 : arg1.IsWhole) (arg2 : Memref sig .tc .vmem S1x7x8x512 .bf16) (harg2 : arg2.IsWhole)
    (x0 : Vec F S1x7x8x1024 .bf16) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out17_1 x0)) -∗ K ⟨⟩))
      ⊢ wp frame (wpE (defs₀ (F := F)) Variants.none c none) E (cc17__wpool_kernel i arg1 harg1 arg2 harg2) K := by
  simp only [cc17__wpool_kernel_eq_skeleton]; unfold cc17__wpool_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover17_1 _)

/-- The proof data of pipeline 17 on core `c`: the arrays as the region finds them; after the body at a point the
    input's buffer at its block and the output's at `out17_1` of it; the generator register and the scoped rest as
    invariant; nothing owed; full shares. -/
def dat17 (c : Dev nD) : Dat τ (Elt F) Unit ℕ (UR sig nD τ) ℕ cfg17 c where
  A w := V c (Pipeline.arrRef spec17 w)
  after w t := match w with
    | ⟨0, _⟩ => iblk17 V c 0 t
    | ⟨1, _⟩ => out17_1 (iblk17 V c 0 t)
  Φ _ := Pipeline.ΦA spec17 c
  q _ := fullShare
  owed _ := 0

theorem A_eq17 (c : Dev nD) (w : Fin cfg17.W) : (dat17 V c).A w = V c (Pipeline.arrRef spec17 w) := by
  dsimp only [dat17]

theorem after17_0 (c : Dev nD) (t : Fin cfg17.N) : (dat17 V c).after 0 t = iblk17 V c 0 t := by dsimp only [dat17]
theorem after17_1 (c : Dev nD) (t : Fin cfg17.N) : (dat17 V c).after 1 t = out17_1 (iblk17 V c 0 t) := by dsimp only [dat17]

theorem before17_0 (c : Dev nD) (t : Fin cfg17.N) (d) : (dat17 V c).before 0 t d = iblk17 V c 0 t :=
  before17_0_of V (dat17 V c) (A_eq17 V c 0) (after17_0 V c) t d

def bodyPre17 (c : Dev nD) (t : Fin cfg17.N) : sProp 𝕄 :=
  iprop((dat17 V c).Φ t.castSucc ∗ (dat17 V c).owesAt () t.castSucc
    ∗ (∃ d, owns (c : Thread nD τ) (st17_0 t) fullShare ((dat17 V c).before 0 t d))
    ∗ (∃ d, owns (c : Thread nD τ) (st17_1 t) fullShare ((dat17 V c).before 1 t d)))

def bodyPost17 (c : Dev nD) (t : Fin cfg17.N) : sProp 𝕄 :=
  iprop((dat17 V c).Φ t.succ ∗ (dat17 V c).owesAt () t.succ
    ∗ owns (c : Thread nD τ) (st17_0 t) fullShare ((dat17 V c).after 0 t)
    ∗ owns (c : Thread nD τ) (st17_1 t) fullShare ((dat17 V c).after 1 t))

theorem sound_body17 (c : Dev nD) (t : Fin cfg17.N) :
    bodyPre17 V c t ⊢ wp frame (wpE (defs₀ (F := F)) Variants.none c none) Set.univ (bodyAt17 t) (fun _ => bodyPost17 V c t) := by
  unfold bodyPre17 bodyPost17 bodyAt17
  simp only [before17_0]
  rw [show (dat17 V c).Φ t.succ = (dat17 V c).Φ t.castSucc from rfl,
    show (dat17 V c).owesAt () t.succ = (dat17 V c).owesAt () t.castSucc from rfl,
    after17_0, after17_1]
  iintro ⟨HΦ, Ho, ⟨%d0, H0⟩, ⟨%d1, H1⟩⟩
  iapply (sound_kernel17 c Set.univ (grid17.coords t) _ _ _ _ (iblk17 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation17 (c : Dev nD) : BodyObligation (dat17 (F := F) V c) (defs₀ (F := F)) Variants.none () Set.univ := fun t => by
  rw [bigSep_W17, bigSep_W17]
  exact sound_body17 V c t

end Cert.Kernel.Reg

end
-- ==== Proof.BAsm.lean ====
/-
  The kernel program's eighteen pallas regions as segments of @main's run, over the conditional frame that is generated
  for it. What each region leaves in its output buffer is the fold of its write-backs over the proof data of the
  region's frame module at the region's entry contents; those contents are defined region by region (o1 … o18: each
  stage knows the outputs of the regions before it), and outs is the last stage. Then one record per region — entered
  from every unscoped buffer at the boundary contents before it, left at the contents after it — and the frame claim
  and the run with its four results from the conditional frame.
-/
import proofs.«100114_g2000204297211070_pallasbulk_1265_19_alg».proof.Proof.BRegionsP
import proofs.«100114_g2000204297211070_pallasbulk_1265_19_alg».proof.Proof.BR0
import proofs.«100114_g2000204297211070_pallasbulk_1265_19_alg».proof.Proof.BR1
import proofs.«100114_g2000204297211070_pallasbulk_1265_19_alg».proof.Proof.BR2
import proofs.«100114_g2000204297211070_pallasbulk_1265_19_alg».proof.Proof.BR3
import proofs.«100114_g2000204297211070_pallasbulk_1265_19_alg».proof.Proof.BR4
import proofs.«100114_g2000204297211070_pallasbulk_1265_19_alg».proof.Proof.BR5
import proofs.«100114_g2000204297211070_pallasbulk_1265_19_alg».proof.Proof.BR6
import proofs.«100114_g2000204297211070_pallasbulk_1265_19_alg».proof.Proof.BR7
import proofs.«100114_g2000204297211070_pallasbulk_1265_19_alg».proof.Proof.BR8
import proofs.«100114_g2000204297211070_pallasbulk_1265_19_alg».proof.Proof.BR9
import proofs.«100114_g2000204297211070_pallasbulk_1265_19_alg».proof.Proof.BR10
import proofs.«100114_g2000204297211070_pallasbulk_1265_19_alg».proof.Proof.BR11
import proofs.«100114_g2000204297211070_pallasbulk_1265_19_alg».proof.Proof.BR12
import proofs.«100114_g2000204297211070_pallasbulk_1265_19_alg».proof.Proof.BR13
import proofs.«100114_g2000204297211070_pallasbulk_1265_19_alg».proof.Proof.BR14
import proofs.«100114_g2000204297211070_pallasbulk_1265_19_alg».proof.Proof.BR15
import proofs.«100114_g2000204297211070_pallasbulk_1265_19_alg».proof.Proof.BR16
import proofs.«100114_g2000204297211070_pallasbulk_1265_19_alg».proof.Proof.BR17
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Asm

open Cert.Kernel Cert.Kernel.Gen Cert.Kernel.GenP Cert.Kernel.Reg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## What the regions leave: the boundary contents, boundary by boundary -/

/-- The contents at boundary 3 (region 0's entry): the launch memory after the first three host stretches. -/
abbrev U3 (c : Dev nD) : Valuation τ sig (Elt F) := V3 m c
/-- Region 0's entry contents read at the TensorCore's references. -/
abbrev EU0 : (c : Dev nD) → (b : Ref sig .tc) → Buf (Elt F) ((c : Thread nD τ).loc b) := fun c b => U3 m c b
/-- What region 0 leaves in main_v15: the fold of its write-backs over its proof data at its entry contents. -/
def val0 (c : Dev nD) : Buf (Elt F) ((c : Thread nD τ).loc main_v15) := (dat0 (EU0 m) c).arrAt 3 cfg0.N
/-- The contents at boundary 4: region 0 has changed main_v15. -/
def U4 (c : Dev nD) : Valuation τ sig (Elt F) := Function.update (U3 m c) main_v15 (val0 m c)
/-- The contents at boundary 5: after the host stretch hostOps1. -/
def U5 (c : Dev nD) : Valuation τ sig (Elt F) := StableHlo.after hostOps1 (U4 m c)
/-- Region 1's entry contents read at the TensorCore's references. -/
abbrev EU1 : (c : Dev nD) → (b : Ref sig .tc) → Buf (Elt F) ((c : Thread nD τ).loc b) := fun c b => U5 m c b
/-- What region 1 leaves in main_v18: the fold of its write-backs over its proof data at its entry contents. -/
def val1 (c : Dev nD) : Buf (Elt F) ((c : Thread nD τ).loc main_v18) := (dat1 (EU1 m) c).arrAt 3 cfg1.N
/-- The contents at boundary 6: region 1 has changed main_v18. -/
def U6 (c : Dev nD) : Valuation τ sig (Elt F) := Function.update (U5 m c) main_v18 (val1 m c)
/-- The contents at boundary 7: after the host stretch hostOps2. -/
def U7 (c : Dev nD) : Valuation τ sig (Elt F) := StableHlo.after hostOps2 (U6 m c)
/-- Region 2's entry contents read at the TensorCore's references. -/
abbrev EU2 : (c : Dev nD) → (b : Ref sig .tc) → Buf (Elt F) ((c : Thread nD τ).loc b) := fun c b => U7 m c b
/-- What region 2 leaves in main_v20: the fold of its write-backs over its proof data at its entry contents. -/
def val2 (c : Dev nD) : Buf (Elt F) ((c : Thread nD τ).loc main_v20) := (dat2 (EU2 m) c).arrAt 1 cfg2.N
/-- The contents at boundary 8: region 2 has changed main_v20. -/
def U8 (c : Dev nD) : Valuation τ sig (Elt F) := Function.update (U7 m c) main_v20 (val2 m c)
/-- The contents at boundary 9: after the host stretch hostOps3. -/
def U9 (c : Dev nD) : Valuation τ sig (Elt F) := StableHlo.after hostOps3 (U8 m c)
/-- The contents at boundary 10: after the host stretch hostOps3_1. -/
def U10 (c : Dev nD) : Valuation τ sig (Elt F) := StableHlo.after hostOps3_1 (U9 m c)
/-- The contents at boundary 11: after the host stretch hostOps3_2. -/
def U11 (c : Dev nD) : Valuation τ sig (Elt F) := StableHlo.after hostOps3_2 (U10 m c)
/-- Region 3's entry contents read at the TensorCore's references. -/
abbrev EU3 : (c : Dev nD) → (b : Ref sig .tc) → Buf (Elt F) ((c : Thread nD τ).loc b) := fun c b => U11 m c b
/-- What region 3 leaves in main_v24: the fold of its write-backs over its proof data at its entry contents. -/
def val3 (c : Dev nD) : Buf (Elt F) ((c : Thread nD τ).loc main_v24) := (dat3 (EU3 m) c).arrAt 3 cfg3.N
/-- The contents at boundary 12: region 3 has changed main_v24. -/
def U12 (c : Dev nD) : Valuation τ sig (Elt F) := Function.update (U11 m c) main_v24 (val3 m c)
/-- The contents at boundary 13: after the host stretch hostOps4. -/
def U13 (c : Dev nD) : Valuation τ sig (Elt F) := StableHlo.after hostOps4 (U12 m c)
/-- The contents at boundary 14: after the host stretch hostOps4_1. -/
def U14 (c : Dev nD) : Valuation τ sig (Elt F) := StableHlo.after hostOps4_1 (U13 m c)
/-- The contents at boundary 15: after the host stretch hostOps4_2. -/
def U15 (c : Dev nD) : Valuation τ sig (Elt F) := StableHlo.after hostOps4_2 (U14 m c)
/-- Region 4's entry contents read at the TensorCore's references. -/
abbrev EU4 : (c : Dev nD) → (b : Ref sig .tc) → Buf (Elt F) ((c : Thread nD τ).loc b) := fun c b => U15 m c b
/-- What region 4 leaves in main_v28: the fold of its write-backs over its proof data at its entry contents. -/
def val4 (c : Dev nD) : Buf (Elt F) ((c : Thread nD τ).loc main_v28) := (dat4 (EU4 m) c).arrAt 3 cfg4.N
/-- The contents at boundary 16: region 4 has changed main_v28. -/
def U16 (c : Dev nD) : Valuation τ sig (Elt F) := Function.update (U15 m c) main_v28 (val4 m c)
/-- The contents at boundary 17: after the host stretch hostOps5. -/
def U17 (c : Dev nD) : Valuation τ sig (Elt F) := StableHlo.after hostOps5 (U16 m c)
/-- Region 5's entry contents read at the TensorCore's references. -/
abbrev EU5 : (c : Dev nD) → (b : Ref sig .tc) → Buf (Elt F) ((c : Thread nD τ).loc b) := fun c b => U17 m c b
/-- What region 5 leaves in main_v30: the fold of its write-backs over its proof data at its entry contents. -/
def val5 (c : Dev nD) : Buf (Elt F) ((c : Thread nD τ).loc main_v30) := (dat5 (EU5 m) c).arrAt 1 cfg5.N
/-- The contents at boundary 18: region 5 has changed main_v30. -/
def U18 (c : Dev nD) : Valuation τ sig (Elt F) := Function.update (U17 m c) main_v30 (val5 m c)
/-- The contents at boundary 19: after the host stretch hostOps6. -/
def U19 (c : Dev nD) : Valuation τ sig (Elt F) := StableHlo.after hostOps6 (U18 m c)
/-- The contents at boundary 20: after the host stretch hostOps6_1. -/
def U20 (c : Dev nD) : Valuation τ sig (Elt F) := StableHlo.after hostOps6_1 (U19 m c)
/-- The contents at boundary 21: after the host stretch hostOps6_2. -/
def U21 (c : Dev nD) : Valuation τ sig (Elt F) := StableHlo.after hostOps6_2 (U20 m c)
/-- Region 6's entry contents read at the TensorCore's references. -/
abbrev EU6 : (c : Dev nD) → (b : Ref sig .tc) → Buf (Elt F) ((c : Thread nD τ).loc b) := fun c b => U21 m c b
/-- What region 6 leaves in main_v34: the fold of its write-backs over its proof data at its entry contents. -/
def val6 (c : Dev nD) : Buf (Elt F) ((c : Thread nD τ).loc main_v34) := (dat6 (EU6 m) c).arrAt 3 cfg6.N
/-- The contents at boundary 22: region 6 has changed main_v34. -/
def U22 (c : Dev nD) : Valuation τ sig (Elt F) := Function.update (U21 m c) main_v34 (val6 m c)
/-- The contents at boundary 23: after the host stretch hostOps7. -/
def U23 (c : Dev nD) : Valuation τ sig (Elt F) := StableHlo.after hostOps7 (U22 m c)
/-- Region 7's entry contents read at the TensorCore's references. -/
abbrev EU7 : (c : Dev nD) → (b : Ref sig .tc) → Buf (Elt F) ((c : Thread nD τ).loc b) := fun c b => U23 m c b
/-- What region 7 leaves in main_v37: the fold of its write-backs over its proof data at its entry contents. -/
def val7 (c : Dev nD) : Buf (Elt F) ((c : Thread nD τ).loc main_v37) := (dat7 (EU7 m) c).arrAt 3 cfg7.N
/-- The contents at boundary 24: region 7 has changed main_v37. -/
def U24 (c : Dev nD) : Valuation τ sig (Elt F) := Function.update (U23 m c) main_v37 (val7 m c)
/-- The contents at boundary 25: after the host stretch hostOps8. -/
def U25 (c : Dev nD) : Valuation τ sig (Elt F) := StableHlo.after hostOps8 (U24 m c)
/-- Region 8's entry contents read at the TensorCore's references. -/
abbrev EU8 : (c : Dev nD) → (b : Ref sig .tc) → Buf (Elt F) ((c : Thread nD τ).loc b) := fun c b => U25 m c b
/-- What region 8 leaves in main_v40: the fold of its write-backs over its proof data at its entry contents. -/
def val8 (c : Dev nD) : Buf (Elt F) ((c : Thread nD τ).loc main_v40) := (dat8 (EU8 m) c).arrAt 3 cfg8.N
/-- The contents at boundary 26: region 8 has changed main_v40. -/
def U26 (c : Dev nD) : Valuation τ sig (Elt F) := Function.update (U25 m c) main_v40 (val8 m c)
/-- The contents at boundary 27: after the host stretch hostOps9. -/
def U27 (c : Dev nD) : Valuation τ sig (Elt F) := StableHlo.after hostOps9 (U26 m c)
/-- Region 9's entry contents read at the TensorCore's references. -/
abbrev EU9 : (c : Dev nD) → (b : Ref sig .tc) → Buf (Elt F) ((c : Thread nD τ).loc b) := fun c b => U27 m c b
/-- What region 9 leaves in main_v42: the fold of its write-backs over its proof data at its entry contents. -/
def val9 (c : Dev nD) : Buf (Elt F) ((c : Thread nD τ).loc main_v42) := (dat9 (EU9 m) c).arrAt 1 cfg9.N
/-- The contents at boundary 28: region 9 has changed main_v42. -/
def U28 (c : Dev nD) : Valuation τ sig (Elt F) := Function.update (U27 m c) main_v42 (val9 m c)
/-- The contents at boundary 29: after the host stretch hostOps10. -/
def U29 (c : Dev nD) : Valuation τ sig (Elt F) := StableHlo.after hostOps10 (U28 m c)
/-- The contents at boundary 30: after the host stretch hostOps10_1. -/
def U30 (c : Dev nD) : Valuation τ sig (Elt F) := StableHlo.after hostOps10_1 (U29 m c)
/-- The contents at boundary 31: after the host stretch hostOps10_2. -/
def U31 (c : Dev nD) : Valuation τ sig (Elt F) := StableHlo.after hostOps10_2 (U30 m c)
/-- Region 10's entry contents read at the TensorCore's references. -/
abbrev EU10 : (c : Dev nD) → (b : Ref sig .tc) → Buf (Elt F) ((c : Thread nD τ).loc b) := fun c b => U31 m c b
/-- What region 10 leaves in main_v46: the fold of its write-backs over its proof data at its entry contents. -/
def val10 (c : Dev nD) : Buf (Elt F) ((c : Thread nD τ).loc main_v46) := (dat10 (EU10 m) c).arrAt 3 cfg10.N
/-- The contents at boundary 32: region 10 has changed main_v46. -/
def U32 (c : Dev nD) : Valuation τ sig (Elt F) := Function.update (U31 m c) main_v46 (val10 m c)
/-- The contents at boundary 33: after the host stretch hostOps11. -/
def U33 (c : Dev nD) : Valuation τ sig (Elt F) := StableHlo.after hostOps11 (U32 m c)
/-- Region 11's entry contents read at the TensorCore's references. -/
abbrev EU11 : (c : Dev nD) → (b : Ref sig .tc) → Buf (Elt F) ((c : Thread nD τ).loc b) := fun c b => U33 m c b
/-- What region 11 leaves in main_v49: the fold of its write-backs over its proof data at its entry contents. -/
def val11 (c : Dev nD) : Buf (Elt F) ((c : Thread nD τ).loc main_v49) := (dat11 (EU11 m) c).arrAt 3 cfg11.N
/-- The contents at boundary 34: region 11 has changed main_v49. -/
def U34 (c : Dev nD) : Valuation τ sig (Elt F) := Function.update (U33 m c) main_v49 (val11 m c)
/-- The contents at boundary 35: after the host stretch hostOps12. -/
def U35 (c : Dev nD) : Valuation τ sig (Elt F) := StableHlo.after hostOps12 (U34 m c)
/-- Region 12's entry contents read at the TensorCore's references. -/
abbrev EU12 : (c : Dev nD) → (b : Ref sig .tc) → Buf (Elt F) ((c : Thread nD τ).loc b) := fun c b => U35 m c b
/-- What region 12 leaves in main_v52: the fold of its write-backs over its proof data at its entry contents. -/
def val12 (c : Dev nD) : Buf (Elt F) ((c : Thread nD τ).loc main_v52) := (dat12 (EU12 m) c).arrAt 3 cfg12.N
/-- The contents at boundary 36: region 12 has changed main_v52. -/
def U36 (c : Dev nD) : Valuation τ sig (Elt F) := Function.update (U35 m c) main_v52 (val12 m c)
/-- The contents at boundary 37: after the host stretch hostOps13. -/
def U37 (c : Dev nD) : Valuation τ sig (Elt F) := StableHlo.after hostOps13 (U36 m c)
/-- Region 13's entry contents read at the TensorCore's references. -/
abbrev EU13 : (c : Dev nD) → (b : Ref sig .tc) → Buf (Elt F) ((c : Thread nD τ).loc b) := fun c b => U37 m c b
/-- What region 13 leaves in main_v54: the fold of its write-backs over its proof data at its entry contents. -/
def val13 (c : Dev nD) : Buf (Elt F) ((c : Thread nD τ).loc main_v54) := (dat13 (EU13 m) c).arrAt 1 cfg13.N
/-- The contents at boundary 38: region 13 has changed main_v54. -/
def U38 (c : Dev nD) : Valuation τ sig (Elt F) := Function.update (U37 m c) main_v54 (val13 m c)
/-- The contents at boundary 39: after the host stretch hostOps14. -/
def U39 (c : Dev nD) : Valuation τ sig (Elt F) := StableHlo.after hostOps14 (U38 m c)
/-- The contents at boundary 40: after the host stretch hostOps14_1. -/
def U40 (c : Dev nD) : Valuation τ sig (Elt F) := StableHlo.after hostOps14_1 (U39 m c)
/-- The contents at boundary 41: after the host stretch hostOps14_2. -/
def U41 (c : Dev nD) : Valuation τ sig (Elt F) := StableHlo.after hostOps14_2 (U40 m c)
/-- Region 14's entry contents read at the TensorCore's references. -/
abbrev EU14 : (c : Dev nD) → (b : Ref sig .tc) → Buf (Elt F) ((c : Thread nD τ).loc b) := fun c b => U41 m c b
/-- What region 14 leaves in main_v58: the fold of its write-backs over its proof data at its entry contents. -/
def val14 (c : Dev nD) : Buf (Elt F) ((c : Thread nD τ).loc main_v58) := (dat14 (EU14 m) c).arrAt 3 cfg14.N
/-- The contents at boundary 42: region 14 has changed main_v58. -/
def U42 (c : Dev nD) : Valuation τ sig (Elt F) := Function.update (U41 m c) main_v58 (val14 m c)
/-- The contents at boundary 43: after the host stretch hostOps15. -/
def U43 (c : Dev nD) : Valuation τ sig (Elt F) := StableHlo.after hostOps15 (U42 m c)
/-- Region 15's entry contents read at the TensorCore's references. -/
abbrev EU15 : (c : Dev nD) → (b : Ref sig .tc) → Buf (Elt F) ((c : Thread nD τ).loc b) := fun c b => U43 m c b
/-- What region 15 leaves in main_v61: the fold of its write-backs over its proof data at its entry contents. -/
def val15 (c : Dev nD) : Buf (Elt F) ((c : Thread nD τ).loc main_v61) := (dat15 (EU15 m) c).arrAt 3 cfg15.N
/-- The contents at boundary 44: region 15 has changed main_v61. -/
def U44 (c : Dev nD) : Valuation τ sig (Elt F) := Function.update (U43 m c) main_v61 (val15 m c)
/-- The contents at boundary 45: after the host stretch hostOps16. -/
def U45 (c : Dev nD) : Valuation τ sig (Elt F) := StableHlo.after hostOps16 (U44 m c)
/-- Region 16's entry contents read at the TensorCore's references. -/
abbrev EU16 : (c : Dev nD) → (b : Ref sig .tc) → Buf (Elt F) ((c : Thread nD τ).loc b) := fun c b => U45 m c b
/-- What region 16 leaves in main_v64: the fold of its write-backs over its proof data at its entry contents. -/
def val16 (c : Dev nD) : Buf (Elt F) ((c : Thread nD τ).loc main_v64) := (dat16 (EU16 m) c).arrAt 3 cfg16.N
/-- The contents at boundary 46: region 16 has changed main_v64. -/
def U46 (c : Dev nD) : Valuation τ sig (Elt F) := Function.update (U45 m c) main_v64 (val16 m c)
/-- The contents at boundary 47: after the host stretch hostOps17. -/
def U47 (c : Dev nD) : Valuation τ sig (Elt F) := StableHlo.after hostOps17 (U46 m c)
/-- Region 17's entry contents read at the TensorCore's references. -/
abbrev EU17 : (c : Dev nD) → (b : Ref sig .tc) → Buf (Elt F) ((c : Thread nD τ).loc b) := fun c b => U47 m c b
/-- What region 17 leaves in main_v66: the fold of its write-backs over its proof data at its entry contents. -/
def val17 (c : Dev nD) : Buf (Elt F) ((c : Thread nD τ).loc main_v66) := (dat17 (EU17 m) c).arrAt 1 cfg17.N
/-- The contents at boundary 48: region 17 has changed main_v66. -/
def U48 (c : Dev nD) : Valuation τ sig (Elt F) := Function.update (U47 m c) main_v66 (val17 m c)

/-- What every region leaves: at item J the boundary's contents (read only at the region's own output). -/
def outs : Outs (F := F) := fun J r c =>
  match J with
  | 4 => U4 m c r
  | 6 => U6 m c r
  | 8 => U8 m c r
  | 12 => U12 m c r
  | 16 => U16 m c r
  | 18 => U18 m c r
  | 22 => U22 m c r
  | 24 => U24 m c r
  | 26 => U26 m c r
  | 28 => U28 m c r
  | 32 => U32 m c r
  | 34 => U34 m c r
  | 36 => U36 m c r
  | 38 => U38 m c r
  | 42 => U42 m c r
  | 44 => U44 m c r
  | 46 => U46 m c r
  | 48 => U48 m c r
  | _ => m ((c : Thread nD τ).loc r)

theorem outs_val0 (c : Dev nD) : outs m 4 main_v15 c = val0 m c := by
  show U4 m c main_v15 = _
  unfold U4; exact Function.update_self (Proc.devRef (τ := τ) .tc main_v15) (val0 m c) (U3 m c)
theorem outs_val1 (c : Dev nD) : outs m 6 main_v18 c = val1 m c := by
  show U6 m c main_v18 = _
  unfold U6; exact Function.update_self (Proc.devRef (τ := τ) .tc main_v18) (val1 m c) (U5 m c)
theorem outs_val2 (c : Dev nD) : outs m 8 main_v20 c = val2 m c := by
  show U8 m c main_v20 = _
  unfold U8; exact Function.update_self (Proc.devRef (τ := τ) .tc main_v20) (val2 m c) (U7 m c)
theorem outs_val3 (c : Dev nD) : outs m 12 main_v24 c = val3 m c := by
  show U12 m c main_v24 = _
  unfold U12; exact Function.update_self (Proc.devRef (τ := τ) .tc main_v24) (val3 m c) (U11 m c)
theorem outs_val4 (c : Dev nD) : outs m 16 main_v28 c = val4 m c := by
  show U16 m c main_v28 = _
  unfold U16; exact Function.update_self (Proc.devRef (τ := τ) .tc main_v28) (val4 m c) (U15 m c)
theorem outs_val5 (c : Dev nD) : outs m 18 main_v30 c = val5 m c := by
  show U18 m c main_v30 = _
  unfold U18; exact Function.update_self (Proc.devRef (τ := τ) .tc main_v30) (val5 m c) (U17 m c)
theorem outs_val6 (c : Dev nD) : outs m 22 main_v34 c = val6 m c := by
  show U22 m c main_v34 = _
  unfold U22; exact Function.update_self (Proc.devRef (τ := τ) .tc main_v34) (val6 m c) (U21 m c)
theorem outs_val7 (c : Dev nD) : outs m 24 main_v37 c = val7 m c := by
  show U24 m c main_v37 = _
  unfold U24; exact Function.update_self (Proc.devRef (τ := τ) .tc main_v37) (val7 m c) (U23 m c)
theorem outs_val8 (c : Dev nD) : outs m 26 main_v40 c = val8 m c := by
  show U26 m c main_v40 = _
  unfold U26; exact Function.update_self (Proc.devRef (τ := τ) .tc main_v40) (val8 m c) (U25 m c)
theorem outs_val9 (c : Dev nD) : outs m 28 main_v42 c = val9 m c := by
  show U28 m c main_v42 = _
  unfold U28; exact Function.update_self (Proc.devRef (τ := τ) .tc main_v42) (val9 m c) (U27 m c)
theorem outs_val10 (c : Dev nD) : outs m 32 main_v46 c = val10 m c := by
  show U32 m c main_v46 = _
  unfold U32; exact Function.update_self (Proc.devRef (τ := τ) .tc main_v46) (val10 m c) (U31 m c)
theorem outs_val11 (c : Dev nD) : outs m 34 main_v49 c = val11 m c := by
  show U34 m c main_v49 = _
  unfold U34; exact Function.update_self (Proc.devRef (τ := τ) .tc main_v49) (val11 m c) (U33 m c)
theorem outs_val12 (c : Dev nD) : outs m 36 main_v52 c = val12 m c := by
  show U36 m c main_v52 = _
  unfold U36; exact Function.update_self (Proc.devRef (τ := τ) .tc main_v52) (val12 m c) (U35 m c)
theorem outs_val13 (c : Dev nD) : outs m 38 main_v54 c = val13 m c := by
  show U38 m c main_v54 = _
  unfold U38; exact Function.update_self (Proc.devRef (τ := τ) .tc main_v54) (val13 m c) (U37 m c)
theorem outs_val14 (c : Dev nD) : outs m 42 main_v58 c = val14 m c := by
  show U42 m c main_v58 = _
  unfold U42; exact Function.update_self (Proc.devRef (τ := τ) .tc main_v58) (val14 m c) (U41 m c)
theorem outs_val15 (c : Dev nD) : outs m 44 main_v61 c = val15 m c := by
  show U44 m c main_v61 = _
  unfold U44; exact Function.update_self (Proc.devRef (τ := τ) .tc main_v61) (val15 m c) (U43 m c)
theorem outs_val16 (c : Dev nD) : outs m 46 main_v64 c = val16 m c := by
  show U46 m c main_v64 = _
  unfold U46; exact Function.update_self (Proc.devRef (τ := τ) .tc main_v64) (val16 m c) (U45 m c)
theorem outs_val17 (c : Dev nD) : outs m 48 main_v66 c = val17 m c := by
  show U48 m c main_v66 = _
  unfold U48; exact Function.update_self (Proc.devRef (τ := τ) .tc main_v66) (val17 m c) (U47 m c)

/-- The generated boundary contents at these outs are the ones above. -/
theorem V3_eq : V3 m = U3 m := rfl
theorem V4_eq : V4 m (outs m) = U4 m := by
  funext c
  show Function.update (V3 m c) main_v15 (outs m 4 main_v15 c) = U4 m c
  rw [outs_val0]; rfl
theorem V5_eq : V5 m (outs m) = U5 m := by
  funext c
  show StableHlo.after hostOps1 (V4 m (outs m) c) = U5 m c
  rw [V4_eq]; rfl
theorem V6_eq : V6 m (outs m) = U6 m := by
  funext c
  show Function.update (V5 m (outs m) c) main_v18 (outs m 6 main_v18 c) = U6 m c
  rw [V5_eq, outs_val1]; rfl
theorem V7_eq : V7 m (outs m) = U7 m := by
  funext c
  show StableHlo.after hostOps2 (V6 m (outs m) c) = U7 m c
  rw [V6_eq]; rfl
theorem V8_eq : V8 m (outs m) = U8 m := by
  funext c
  show Function.update (V7 m (outs m) c) main_v20 (outs m 8 main_v20 c) = U8 m c
  rw [V7_eq, outs_val2]; rfl
theorem V9_eq : V9 m (outs m) = U9 m := by
  funext c
  show StableHlo.after hostOps3 (V8 m (outs m) c) = U9 m c
  rw [V8_eq]; rfl
theorem V10_eq : V10 m (outs m) = U10 m := by
  funext c
  show StableHlo.after hostOps3_1 (V9 m (outs m) c) = U10 m c
  rw [V9_eq]; rfl
theorem V11_eq : V11 m (outs m) = U11 m := by
  funext c
  show StableHlo.after hostOps3_2 (V10 m (outs m) c) = U11 m c
  rw [V10_eq]; rfl
theorem V12_eq : V12 m (outs m) = U12 m := by
  funext c
  show Function.update (V11 m (outs m) c) main_v24 (outs m 12 main_v24 c) = U12 m c
  rw [V11_eq, outs_val3]; rfl
theorem V13_eq : V13 m (outs m) = U13 m := by
  funext c
  show StableHlo.after hostOps4 (V12 m (outs m) c) = U13 m c
  rw [V12_eq]; rfl
theorem V14_eq : V14 m (outs m) = U14 m := by
  funext c
  show StableHlo.after hostOps4_1 (V13 m (outs m) c) = U14 m c
  rw [V13_eq]; rfl
theorem V15_eq : V15 m (outs m) = U15 m := by
  funext c
  show StableHlo.after hostOps4_2 (V14 m (outs m) c) = U15 m c
  rw [V14_eq]; rfl
theorem V16_eq : V16 m (outs m) = U16 m := by
  funext c
  show Function.update (V15 m (outs m) c) main_v28 (outs m 16 main_v28 c) = U16 m c
  rw [V15_eq, outs_val4]; rfl
theorem V17_eq : V17 m (outs m) = U17 m := by
  funext c
  show StableHlo.after hostOps5 (V16 m (outs m) c) = U17 m c
  rw [V16_eq]; rfl
theorem V18_eq : V18 m (outs m) = U18 m := by
  funext c
  show Function.update (V17 m (outs m) c) main_v30 (outs m 18 main_v30 c) = U18 m c
  rw [V17_eq, outs_val5]; rfl
theorem V19_eq : V19 m (outs m) = U19 m := by
  funext c
  show StableHlo.after hostOps6 (V18 m (outs m) c) = U19 m c
  rw [V18_eq]; rfl
theorem V20_eq : V20 m (outs m) = U20 m := by
  funext c
  show StableHlo.after hostOps6_1 (V19 m (outs m) c) = U20 m c
  rw [V19_eq]; rfl
theorem V21_eq : V21 m (outs m) = U21 m := by
  funext c
  show StableHlo.after hostOps6_2 (V20 m (outs m) c) = U21 m c
  rw [V20_eq]; rfl
theorem V22_eq : V22 m (outs m) = U22 m := by
  funext c
  show Function.update (V21 m (outs m) c) main_v34 (outs m 22 main_v34 c) = U22 m c
  rw [V21_eq, outs_val6]; rfl
theorem V23_eq : V23 m (outs m) = U23 m := by
  funext c
  show StableHlo.after hostOps7 (V22 m (outs m) c) = U23 m c
  rw [V22_eq]; rfl
theorem V24_eq : V24 m (outs m) = U24 m := by
  funext c
  show Function.update (V23 m (outs m) c) main_v37 (outs m 24 main_v37 c) = U24 m c
  rw [V23_eq, outs_val7]; rfl
theorem V25_eq : V25 m (outs m) = U25 m := by
  funext c
  show StableHlo.after hostOps8 (V24 m (outs m) c) = U25 m c
  rw [V24_eq]; rfl
theorem V26_eq : V26 m (outs m) = U26 m := by
  funext c
  show Function.update (V25 m (outs m) c) main_v40 (outs m 26 main_v40 c) = U26 m c
  rw [V25_eq, outs_val8]; rfl
theorem V27_eq : V27 m (outs m) = U27 m := by
  funext c
  show StableHlo.after hostOps9 (V26 m (outs m) c) = U27 m c
  rw [V26_eq]; rfl
theorem V28_eq : V28 m (outs m) = U28 m := by
  funext c
  show Function.update (V27 m (outs m) c) main_v42 (outs m 28 main_v42 c) = U28 m c
  rw [V27_eq, outs_val9]; rfl
theorem V29_eq : V29 m (outs m) = U29 m := by
  funext c
  show StableHlo.after hostOps10 (V28 m (outs m) c) = U29 m c
  rw [V28_eq]; rfl
theorem V30_eq : V30 m (outs m) = U30 m := by
  funext c
  show StableHlo.after hostOps10_1 (V29 m (outs m) c) = U30 m c
  rw [V29_eq]; rfl
theorem V31_eq : V31 m (outs m) = U31 m := by
  funext c
  show StableHlo.after hostOps10_2 (V30 m (outs m) c) = U31 m c
  rw [V30_eq]; rfl
theorem V32_eq : V32 m (outs m) = U32 m := by
  funext c
  show Function.update (V31 m (outs m) c) main_v46 (outs m 32 main_v46 c) = U32 m c
  rw [V31_eq, outs_val10]; rfl
theorem V33_eq : V33 m (outs m) = U33 m := by
  funext c
  show StableHlo.after hostOps11 (V32 m (outs m) c) = U33 m c
  rw [V32_eq]; rfl
theorem V34_eq : V34 m (outs m) = U34 m := by
  funext c
  show Function.update (V33 m (outs m) c) main_v49 (outs m 34 main_v49 c) = U34 m c
  rw [V33_eq, outs_val11]; rfl
theorem V35_eq : V35 m (outs m) = U35 m := by
  funext c
  show StableHlo.after hostOps12 (V34 m (outs m) c) = U35 m c
  rw [V34_eq]; rfl
theorem V36_eq : V36 m (outs m) = U36 m := by
  funext c
  show Function.update (V35 m (outs m) c) main_v52 (outs m 36 main_v52 c) = U36 m c
  rw [V35_eq, outs_val12]; rfl
theorem V37_eq : V37 m (outs m) = U37 m := by
  funext c
  show StableHlo.after hostOps13 (V36 m (outs m) c) = U37 m c
  rw [V36_eq]; rfl
theorem V38_eq : V38 m (outs m) = U38 m := by
  funext c
  show Function.update (V37 m (outs m) c) main_v54 (outs m 38 main_v54 c) = U38 m c
  rw [V37_eq, outs_val13]; rfl
theorem V39_eq : V39 m (outs m) = U39 m := by
  funext c
  show StableHlo.after hostOps14 (V38 m (outs m) c) = U39 m c
  rw [V38_eq]; rfl
theorem V40_eq : V40 m (outs m) = U40 m := by
  funext c
  show StableHlo.after hostOps14_1 (V39 m (outs m) c) = U40 m c
  rw [V39_eq]; rfl
theorem V41_eq : V41 m (outs m) = U41 m := by
  funext c
  show StableHlo.after hostOps14_2 (V40 m (outs m) c) = U41 m c
  rw [V40_eq]; rfl
theorem V42_eq : V42 m (outs m) = U42 m := by
  funext c
  show Function.update (V41 m (outs m) c) main_v58 (outs m 42 main_v58 c) = U42 m c
  rw [V41_eq, outs_val14]; rfl
theorem V43_eq : V43 m (outs m) = U43 m := by
  funext c
  show StableHlo.after hostOps15 (V42 m (outs m) c) = U43 m c
  rw [V42_eq]; rfl
theorem V44_eq : V44 m (outs m) = U44 m := by
  funext c
  show Function.update (V43 m (outs m) c) main_v61 (outs m 44 main_v61 c) = U44 m c
  rw [V43_eq, outs_val15]; rfl
theorem V45_eq : V45 m (outs m) = U45 m := by
  funext c
  show StableHlo.after hostOps16 (V44 m (outs m) c) = U45 m c
  rw [V44_eq]; rfl
theorem V46_eq : V46 m (outs m) = U46 m := by
  funext c
  show Function.update (V45 m (outs m) c) main_v64 (outs m 46 main_v64 c) = U46 m c
  rw [V45_eq, outs_val16]; rfl
theorem V47_eq : V47 m (outs m) = U47 m := by
  funext c
  show StableHlo.after hostOps17 (V46 m (outs m) c) = U47 m c
  rw [V46_eq]; rfl
theorem V48_eq : V48 m (outs m) = U48 m := by
  funext c
  show Function.update (V47 m (outs m) c) main_v66 (outs m 48 main_v66 c) = U48 m c
  rw [V47_eq, outs_val17]; rfl

/-- Region 0's entry contents read at the TensorCore's references. -/
abbrev E0 (o : Outs (F := F)) : (c : Dev nD) → (b : Ref sig .tc) → Buf (Elt F) ((c : Thread nD τ).loc b) := fun c b => V3 m c b
/-- What outs holds for region 0's output. -/
theorem outs_0 (c : Dev nD) : outs m 4 main_v15 c = (dat0 (E0 m (outs m)) c).arrAt 3 cfg0.N := by
  rw [outs_val0]; rfl

/-- Region 1's entry contents read at the TensorCore's references. -/
abbrev E1 (o : Outs (F := F)) : (c : Dev nD) → (b : Ref sig .tc) → Buf (Elt F) ((c : Thread nD τ).loc b) := fun c b => V5 m (o) c b
/-- What outs holds for region 1's output. -/
theorem outs_1 (c : Dev nD) : outs m 6 main_v18 c = (dat1 (E1 m (outs m)) c).arrAt 3 cfg1.N := by
  rw [outs_val1]; unfold val1; rw [show E1 m (outs m) = EU1 m from by unfold E1 EU1; rw [V5_eq]]

/-- Region 2's entry contents read at the TensorCore's references. -/
abbrev E2 (o : Outs (F := F)) : (c : Dev nD) → (b : Ref sig .tc) → Buf (Elt F) ((c : Thread nD τ).loc b) := fun c b => V7 m (o) c b
/-- What outs holds for region 2's output. -/
theorem outs_2 (c : Dev nD) : outs m 8 main_v20 c = (dat2 (E2 m (outs m)) c).arrAt 1 cfg2.N := by
  rw [outs_val2]; unfold val2; rw [show E2 m (outs m) = EU2 m from by unfold E2 EU2; rw [V7_eq]]

/-- Region 3's entry contents read at the TensorCore's references. -/
abbrev E3 (o : Outs (F := F)) : (c : Dev nD) → (b : Ref sig .tc) → Buf (Elt F) ((c : Thread nD τ).loc b) := fun c b => V11 m (o) c b
/-- What outs holds for region 3's output. -/
theorem outs_3 (c : Dev nD) : outs m 12 main_v24 c = (dat3 (E3 m (outs m)) c).arrAt 3 cfg3.N := by
  rw [outs_val3]; unfold val3; rw [show E3 m (outs m) = EU3 m from by unfold E3 EU3; rw [V11_eq]]

/-- Region 4's entry contents read at the TensorCore's references. -/
abbrev E4 (o : Outs (F := F)) : (c : Dev nD) → (b : Ref sig .tc) → Buf (Elt F) ((c : Thread nD τ).loc b) := fun c b => V15 m (o) c b
/-- What outs holds for region 4's output. -/
theorem outs_4 (c : Dev nD) : outs m 16 main_v28 c = (dat4 (E4 m (outs m)) c).arrAt 3 cfg4.N := by
  rw [outs_val4]; unfold val4; rw [show E4 m (outs m) = EU4 m from by unfold E4 EU4; rw [V15_eq]]

/-- Region 5's entry contents read at the TensorCore's references. -/
abbrev E5 (o : Outs (F := F)) : (c : Dev nD) → (b : Ref sig .tc) → Buf (Elt F) ((c : Thread nD τ).loc b) := fun c b => V17 m (o) c b
/-- What outs holds for region 5's output. -/
theorem outs_5 (c : Dev nD) : outs m 18 main_v30 c = (dat5 (E5 m (outs m)) c).arrAt 1 cfg5.N := by
  rw [outs_val5]; unfold val5; rw [show E5 m (outs m) = EU5 m from by unfold E5 EU5; rw [V17_eq]]

/-- Region 6's entry contents read at the TensorCore's references. -/
abbrev E6 (o : Outs (F := F)) : (c : Dev nD) → (b : Ref sig .tc) → Buf (Elt F) ((c : Thread nD τ).loc b) := fun c b => V21 m (o) c b
/-- What outs holds for region 6's output. -/
theorem outs_6 (c : Dev nD) : outs m 22 main_v34 c = (dat6 (E6 m (outs m)) c).arrAt 3 cfg6.N := by
  rw [outs_val6]; unfold val6; rw [show E6 m (outs m) = EU6 m from by unfold E6 EU6; rw [V21_eq]]

/-- Region 7's entry contents read at the TensorCore's references. -/
abbrev E7 (o : Outs (F := F)) : (c : Dev nD) → (b : Ref sig .tc) → Buf (Elt F) ((c : Thread nD τ).loc b) := fun c b => V23 m (o) c b
/-- What outs holds for region 7's output. -/
theorem outs_7 (c : Dev nD) : outs m 24 main_v37 c = (dat7 (E7 m (outs m)) c).arrAt 3 cfg7.N := by
  rw [outs_val7]; unfold val7; rw [show E7 m (outs m) = EU7 m from by unfold E7 EU7; rw [V23_eq]]

/-- Region 8's entry contents read at the TensorCore's references. -/
abbrev E8 (o : Outs (F := F)) : (c : Dev nD) → (b : Ref sig .tc) → Buf (Elt F) ((c : Thread nD τ).loc b) := fun c b => V25 m (o) c b
/-- What outs holds for region 8's output. -/
theorem outs_8 (c : Dev nD) : outs m 26 main_v40 c = (dat8 (E8 m (outs m)) c).arrAt 3 cfg8.N := by
  rw [outs_val8]; unfold val8; rw [show E8 m (outs m) = EU8 m from by unfold E8 EU8; rw [V25_eq]]

/-- Region 9's entry contents read at the TensorCore's references. -/
abbrev E9 (o : Outs (F := F)) : (c : Dev nD) → (b : Ref sig .tc) → Buf (Elt F) ((c : Thread nD τ).loc b) := fun c b => V27 m (o) c b
/-- What outs holds for region 9's output. -/
theorem outs_9 (c : Dev nD) : outs m 28 main_v42 c = (dat9 (E9 m (outs m)) c).arrAt 1 cfg9.N := by
  rw [outs_val9]; unfold val9; rw [show E9 m (outs m) = EU9 m from by unfold E9 EU9; rw [V27_eq]]

/-- Region 10's entry contents read at the TensorCore's references. -/
abbrev E10 (o : Outs (F := F)) : (c : Dev nD) → (b : Ref sig .tc) → Buf (Elt F) ((c : Thread nD τ).loc b) := fun c b => V31 m (o) c b
/-- What outs holds for region 10's output. -/
theorem outs_10 (c : Dev nD) : outs m 32 main_v46 c = (dat10 (E10 m (outs m)) c).arrAt 3 cfg10.N := by
  rw [outs_val10]; unfold val10; rw [show E10 m (outs m) = EU10 m from by unfold E10 EU10; rw [V31_eq]]

/-- Region 11's entry contents read at the TensorCore's references. -/
abbrev E11 (o : Outs (F := F)) : (c : Dev nD) → (b : Ref sig .tc) → Buf (Elt F) ((c : Thread nD τ).loc b) := fun c b => V33 m (o) c b
/-- What outs holds for region 11's output. -/
theorem outs_11 (c : Dev nD) : outs m 34 main_v49 c = (dat11 (E11 m (outs m)) c).arrAt 3 cfg11.N := by
  rw [outs_val11]; unfold val11; rw [show E11 m (outs m) = EU11 m from by unfold E11 EU11; rw [V33_eq]]

/-- Region 12's entry contents read at the TensorCore's references. -/
abbrev E12 (o : Outs (F := F)) : (c : Dev nD) → (b : Ref sig .tc) → Buf (Elt F) ((c : Thread nD τ).loc b) := fun c b => V35 m (o) c b
/-- What outs holds for region 12's output. -/
theorem outs_12 (c : Dev nD) : outs m 36 main_v52 c = (dat12 (E12 m (outs m)) c).arrAt 3 cfg12.N := by
  rw [outs_val12]; unfold val12; rw [show E12 m (outs m) = EU12 m from by unfold E12 EU12; rw [V35_eq]]

/-- Region 13's entry contents read at the TensorCore's references. -/
abbrev E13 (o : Outs (F := F)) : (c : Dev nD) → (b : Ref sig .tc) → Buf (Elt F) ((c : Thread nD τ).loc b) := fun c b => V37 m (o) c b
/-- What outs holds for region 13's output. -/
theorem outs_13 (c : Dev nD) : outs m 38 main_v54 c = (dat13 (E13 m (outs m)) c).arrAt 1 cfg13.N := by
  rw [outs_val13]; unfold val13; rw [show E13 m (outs m) = EU13 m from by unfold E13 EU13; rw [V37_eq]]

/-- Region 14's entry contents read at the TensorCore's references. -/
abbrev E14 (o : Outs (F := F)) : (c : Dev nD) → (b : Ref sig .tc) → Buf (Elt F) ((c : Thread nD τ).loc b) := fun c b => V41 m (o) c b
/-- What outs holds for region 14's output. -/
theorem outs_14 (c : Dev nD) : outs m 42 main_v58 c = (dat14 (E14 m (outs m)) c).arrAt 3 cfg14.N := by
  rw [outs_val14]; unfold val14; rw [show E14 m (outs m) = EU14 m from by unfold E14 EU14; rw [V41_eq]]

/-- Region 15's entry contents read at the TensorCore's references. -/
abbrev E15 (o : Outs (F := F)) : (c : Dev nD) → (b : Ref sig .tc) → Buf (Elt F) ((c : Thread nD τ).loc b) := fun c b => V43 m (o) c b
/-- What outs holds for region 15's output. -/
theorem outs_15 (c : Dev nD) : outs m 44 main_v61 c = (dat15 (E15 m (outs m)) c).arrAt 3 cfg15.N := by
  rw [outs_val15]; unfold val15; rw [show E15 m (outs m) = EU15 m from by unfold E15 EU15; rw [V43_eq]]

/-- Region 16's entry contents read at the TensorCore's references. -/
abbrev E16 (o : Outs (F := F)) : (c : Dev nD) → (b : Ref sig .tc) → Buf (Elt F) ((c : Thread nD τ).loc b) := fun c b => V45 m (o) c b
/-- What outs holds for region 16's output. -/
theorem outs_16 (c : Dev nD) : outs m 46 main_v64 c = (dat16 (E16 m (outs m)) c).arrAt 3 cfg16.N := by
  rw [outs_val16]; unfold val16; rw [show E16 m (outs m) = EU16 m from by unfold E16 EU16; rw [V45_eq]]

/-- Region 17's entry contents read at the TensorCore's references. -/
abbrev E17 (o : Outs (F := F)) : (c : Dev nD) → (b : Ref sig .tc) → Buf (Elt F) ((c : Thread nD τ).loc b) := fun c b => V47 m (o) c b
/-- What outs holds for region 17's output. -/
theorem outs_17 (c : Dev nD) : outs m 48 main_v66 c = (dat17 (E17 m (outs m)) c).arrAt 1 cfg17.N := by
  rw [outs_val17]; unfold val17; rw [show E17 m (outs m) = EU17 m from by unfold E17 EU17; rw [V47_eq]]

/-! ## The proof data family -/

/-- Every pipeline's proof data, each at its region's entry contents: a literal match on the pipeline's number. -/
def pdats : (p : Fin 18) → (c : Dev nD) → Dat τ (Elt F) Unit ℕ (UR sig nD τ) ℕ (cfgs p) c
  | ⟨0, _⟩ => fun c => dat0 (E0 m (outs m)) c
  | ⟨1, _⟩ => fun c => dat1 (E1 m (outs m)) c
  | ⟨2, _⟩ => fun c => dat2 (E2 m (outs m)) c
  | ⟨3, _⟩ => fun c => dat3 (E3 m (outs m)) c
  | ⟨4, _⟩ => fun c => dat4 (E4 m (outs m)) c
  | ⟨5, _⟩ => fun c => dat5 (E5 m (outs m)) c
  | ⟨6, _⟩ => fun c => dat6 (E6 m (outs m)) c
  | ⟨7, _⟩ => fun c => dat7 (E7 m (outs m)) c
  | ⟨8, _⟩ => fun c => dat8 (E8 m (outs m)) c
  | ⟨9, _⟩ => fun c => dat9 (E9 m (outs m)) c
  | ⟨10, _⟩ => fun c => dat10 (E10 m (outs m)) c
  | ⟨11, _⟩ => fun c => dat11 (E11 m (outs m)) c
  | ⟨12, _⟩ => fun c => dat12 (E12 m (outs m)) c
  | ⟨13, _⟩ => fun c => dat13 (E13 m (outs m)) c
  | ⟨14, _⟩ => fun c => dat14 (E14 m (outs m)) c
  | ⟨15, _⟩ => fun c => dat15 (E15 m (outs m)) c
  | ⟨16, _⟩ => fun c => dat16 (E16 m (outs m)) c
  | ⟨17, _⟩ => fun c => dat17 (E17 m (outs m)) c
  | ⟨_ + 18, h⟩ => absurd h (Nat.not_lt.2 (Nat.le_add_left _ _))

abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)

/-! ## At a region's exit: its arrays at what the pipeline leaves, every other buffer as entered -/

/-- Region 0's exit contents read at the TensorCore's references. -/
abbrev X0 : (c : Dev nD) → (b : Ref sig .tc) → Buf (Elt F) ((c : Thread nD τ).loc b) := fun c b => V4 m (outs m) c b
theorem hF0 (c : Dev nD) (w : Fin cfg0.W) : (dat0 (E0 m (outs m)) c).arrAt w cfg0.N = X0 m c (Pipeline.arrRef spec0 w) := by
  match w with
  | ⟨0, _⟩ =>
      show (dat0 (E0 m (outs m)) c).arrAt 0 cfg0.N = V4 m (outs m) c main_v12
      rw [V4_of m (outs m) c main_v12 (by decide)]
      exact ((dat0 (E0 m (outs m)) c).arrAt_in 0 rfl _).trans (A_eq0 _ c 0)
  | ⟨1, _⟩ =>
      show (dat0 (E0 m (outs m)) c).arrAt 1 cfg0.N = V4 m (outs m) c main_v14
      rw [V4_of m (outs m) c main_v14 (by decide)]
      exact ((dat0 (E0 m (outs m)) c).arrAt_in 1 rfl _).trans (A_eq0 _ c 1)
  | ⟨2, _⟩ =>
      show (dat0 (E0 m (outs m)) c).arrAt 2 cfg0.N = V4 m (outs m) c main_arg2
      rw [V4_of m (outs m) c main_arg2 (by decide)]
      exact ((dat0 (E0 m (outs m)) c).arrAt_in 2 rfl _).trans (A_eq0 _ c 2)
  | ⟨3, _⟩ =>
      show (dat0 (E0 m (outs m)) c).arrAt 3 cfg0.N = V4 m (outs m) c main_v15
      rw [← outs_0 m c]
      exact (Function.update_self (Proc.devRef (τ := τ) .tc main_v15) (outs m 4 main_v15 c) (V3 m c)).symm
theorem hrest0 (c : Dev nD) : ∀ b, b ∉ Finset.univ.image (Pipeline.arrRef spec0) → X0 m c b = E0 m (outs m) c b :=
  fun b hb => V4_of m (outs m) c b (fun h => hb (Finset.mem_image.mpr ⟨3, Finset.mem_univ _, (List.mem_singleton.mp h).symm⟩))

/-- Region 1's exit contents read at the TensorCore's references. -/
abbrev X1 : (c : Dev nD) → (b : Ref sig .tc) → Buf (Elt F) ((c : Thread nD τ).loc b) := fun c b => V6 m (outs m) c b
theorem hF1 (c : Dev nD) (w : Fin cfg1.W) : (dat1 (E1 m (outs m)) c).arrAt w cfg1.N = X1 m c (Pipeline.arrRef spec1 w) := by
  match w with
  | ⟨0, _⟩ =>
      show (dat1 (E1 m (outs m)) c).arrAt 0 cfg1.N = V6 m (outs m) c main_v15
      rw [V6_of m (outs m) c main_v15 (by decide)]
      exact ((dat1 (E1 m (outs m)) c).arrAt_in 0 rfl _).trans (A_eq1 _ c 0)
  | ⟨1, _⟩ =>
      show (dat1 (E1 m (outs m)) c).arrAt 1 cfg1.N = V6 m (outs m) c main_v17
      rw [V6_of m (outs m) c main_v17 (by decide)]
      exact ((dat1 (E1 m (outs m)) c).arrAt_in 1 rfl _).trans (A_eq1 _ c 1)
  | ⟨2, _⟩ =>
      show (dat1 (E1 m (outs m)) c).arrAt 2 cfg1.N = V6 m (outs m) c main_arg4
      rw [V6_of m (outs m) c main_arg4 (by decide)]
      exact ((dat1 (E1 m (outs m)) c).arrAt_in 2 rfl _).trans (A_eq1 _ c 2)
  | ⟨3, _⟩ =>
      show (dat1 (E1 m (outs m)) c).arrAt 3 cfg1.N = V6 m (outs m) c main_v18
      rw [← outs_1 m c]
      exact (Function.update_self (Proc.devRef (τ := τ) .tc main_v18) (outs m 6 main_v18 c) (V5 m (outs m) c)).symm
theorem hrest1 (c : Dev nD) : ∀ b, b ∉ Finset.univ.image (Pipeline.arrRef spec1) → X1 m c b = E1 m (outs m) c b :=
  fun b hb => V6_of m (outs m) c b (fun h => hb (Finset.mem_image.mpr ⟨3, Finset.mem_univ _, (List.mem_singleton.mp h).symm⟩))

/-- Region 2's exit contents read at the TensorCore's references. -/
abbrev X2 : (c : Dev nD) → (b : Ref sig .tc) → Buf (Elt F) ((c : Thread nD τ).loc b) := fun c b => V8 m (outs m) c b
theorem hF2 (c : Dev nD) (w : Fin cfg2.W) : (dat2 (E2 m (outs m)) c).arrAt w cfg2.N = X2 m c (Pipeline.arrRef spec2 w) := by
  match w with
  | ⟨0, _⟩ =>
      show (dat2 (E2 m (outs m)) c).arrAt 0 cfg2.N = V8 m (outs m) c main_v19
      rw [V8_of m (outs m) c main_v19 (by decide)]
      exact ((dat2 (E2 m (outs m)) c).arrAt_in 0 rfl _).trans (A_eq2 _ c 0)
  | ⟨1, _⟩ =>
      show (dat2 (E2 m (outs m)) c).arrAt 1 cfg2.N = V8 m (outs m) c main_v20
      rw [← outs_2 m c]
      exact (Function.update_self (Proc.devRef (τ := τ) .tc main_v20) (outs m 8 main_v20 c) (V7 m (outs m) c)).symm
theorem hrest2 (c : Dev nD) : ∀ b, b ∉ Finset.univ.image (Pipeline.arrRef spec2) → X2 m c b = E2 m (outs m) c b :=
  fun b hb => V8_of m (outs m) c b (fun h => hb (Finset.mem_image.mpr ⟨1, Finset.mem_univ _, (List.mem_singleton.mp h).symm⟩))

/-- Region 3's exit contents read at the TensorCore's references. -/
abbrev X3 : (c : Dev nD) → (b : Ref sig .tc) → Buf (Elt F) ((c : Thread nD τ).loc b) := fun c b => V12 m (outs m) c b
theorem hF3 (c : Dev nD) (w : Fin cfg3.W) : (dat3 (E3 m (outs m)) c).arrAt w cfg3.N = X3 m c (Pipeline.arrRef spec3 w) := by
  match w with
  | ⟨0, _⟩ =>
      show (dat3 (E3 m (outs m)) c).arrAt 0 cfg3.N = V12 m (outs m) c main_v21
      rw [V12_of m (outs m) c main_v21 (by decide)]
      exact ((dat3 (E3 m (outs m)) c).arrAt_in 0 rfl _).trans (A_eq3 _ c 0)
  | ⟨1, _⟩ =>
      show (dat3 (E3 m (outs m)) c).arrAt 1 cfg3.N = V12 m (outs m) c main_v23
      rw [V12_of m (outs m) c main_v23 (by decide)]
      exact ((dat3 (E3 m (outs m)) c).arrAt_in 1 rfl _).trans (A_eq3 _ c 1)
  | ⟨2, _⟩ =>
      show (dat3 (E3 m (outs m)) c).arrAt 2 cfg3.N = V12 m (outs m) c main_arg6
      rw [V12_of m (outs m) c main_arg6 (by decide)]
      exact ((dat3 (E3 m (outs m)) c).arrAt_in 2 rfl _).trans (A_eq3 _ c 2)
  | ⟨3, _⟩ =>
      show (dat3 (E3 m (outs m)) c).arrAt 3 cfg3.N = V12 m (outs m) c main_v24
      rw [← outs_3 m c]
      exact (Function.update_self (Proc.devRef (τ := τ) .tc main_v24) (outs m 12 main_v24 c) (V11 m (outs m) c)).symm
theorem hrest3 (c : Dev nD) : ∀ b, b ∉ Finset.univ.image (Pipeline.arrRef spec3) → X3 m c b = E3 m (outs m) c b :=
  fun b hb => V12_of m (outs m) c b (fun h => hb (Finset.mem_image.mpr ⟨3, Finset.mem_univ _, (List.mem_singleton.mp h).symm⟩))

/-- Region 4's exit contents read at the TensorCore's references. -/
abbrev X4 : (c : Dev nD) → (b : Ref sig .tc) → Buf (Elt F) ((c : Thread nD τ).loc b) := fun c b => V16 m (outs m) c b
theorem hF4 (c : Dev nD) (w : Fin cfg4.W) : (dat4 (E4 m (outs m)) c).arrAt w cfg4.N = X4 m c (Pipeline.arrRef spec4 w) := by
  match w with
  | ⟨0, _⟩ =>
      show (dat4 (E4 m (outs m)) c).arrAt 0 cfg4.N = V16 m (outs m) c main_v25
      rw [V16_of m (outs m) c main_v25 (by decide)]
      exact ((dat4 (E4 m (outs m)) c).arrAt_in 0 rfl _).trans (A_eq4 _ c 0)
  | ⟨1, _⟩ =>
      show (dat4 (E4 m (outs m)) c).arrAt 1 cfg4.N = V16 m (outs m) c main_v27
      rw [V16_of m (outs m) c main_v27 (by decide)]
      exact ((dat4 (E4 m (outs m)) c).arrAt_in 1 rfl _).trans (A_eq4 _ c 1)
  | ⟨2, _⟩ =>
      show (dat4 (E4 m (outs m)) c).arrAt 2 cfg4.N = V16 m (outs m) c main_arg8
      rw [V16_of m (outs m) c main_arg8 (by decide)]
      exact ((dat4 (E4 m (outs m)) c).arrAt_in 2 rfl _).trans (A_eq4 _ c 2)
  | ⟨3, _⟩ =>
      show (dat4 (E4 m (outs m)) c).arrAt 3 cfg4.N = V16 m (outs m) c main_v28
      rw [← outs_4 m c]
      exact (Function.update_self (Proc.devRef (τ := τ) .tc main_v28) (outs m 16 main_v28 c) (V15 m (outs m) c)).symm
theorem hrest4 (c : Dev nD) : ∀ b, b ∉ Finset.univ.image (Pipeline.arrRef spec4) → X4 m c b = E4 m (outs m) c b :=
  fun b hb => V16_of m (outs m) c b (fun h => hb (Finset.mem_image.mpr ⟨3, Finset.mem_univ _, (List.mem_singleton.mp h).symm⟩))

/-- Region 5's exit contents read at the TensorCore's references. -/
abbrev X5 : (c : Dev nD) → (b : Ref sig .tc) → Buf (Elt F) ((c : Thread nD τ).loc b) := fun c b => V18 m (outs m) c b
theorem hF5 (c : Dev nD) (w : Fin cfg5.W) : (dat5 (E5 m (outs m)) c).arrAt w cfg5.N = X5 m c (Pipeline.arrRef spec5 w) := by
  match w with
  | ⟨0, _⟩ =>
      show (dat5 (E5 m (outs m)) c).arrAt 0 cfg5.N = V18 m (outs m) c main_v29
      rw [V18_of m (outs m) c main_v29 (by decide)]
      exact ((dat5 (E5 m (outs m)) c).arrAt_in 0 rfl _).trans (A_eq5 _ c 0)
  | ⟨1, _⟩ =>
      show (dat5 (E5 m (outs m)) c).arrAt 1 cfg5.N = V18 m (outs m) c main_v30
      rw [← outs_5 m c]
      exact (Function.update_self (Proc.devRef (τ := τ) .tc main_v30) (outs m 18 main_v30 c) (V17 m (outs m) c)).symm
theorem hrest5 (c : Dev nD) : ∀ b, b ∉ Finset.univ.image (Pipeline.arrRef spec5) → X5 m c b = E5 m (outs m) c b :=
  fun b hb => V18_of m (outs m) c b (fun h => hb (Finset.mem_image.mpr ⟨1, Finset.mem_univ _, (List.mem_singleton.mp h).symm⟩))

/-- Region 6's exit contents read at the TensorCore's references. -/
abbrev X6 : (c : Dev nD) → (b : Ref sig .tc) → Buf (Elt F) ((c : Thread nD τ).loc b) := fun c b => V22 m (outs m) c b
theorem hF6 (c : Dev nD) (w : Fin cfg6.W) : (dat6 (E6 m (outs m)) c).arrAt w cfg6.N = X6 m c (Pipeline.arrRef spec6 w) := by
  match w with
  | ⟨0, _⟩ =>
      show (dat6 (E6 m (outs m)) c).arrAt 0 cfg6.N = V22 m (outs m) c main_v31
      rw [V22_of m (outs m) c main_v31 (by decide)]
      exact ((dat6 (E6 m (outs m)) c).arrAt_in 0 rfl _).trans (A_eq6 _ c 0)
  | ⟨1, _⟩ =>
      show (dat6 (E6 m (outs m)) c).arrAt 1 cfg6.N = V22 m (outs m) c main_v33
      rw [V22_of m (outs m) c main_v33 (by decide)]
      exact ((dat6 (E6 m (outs m)) c).arrAt_in 1 rfl _).trans (A_eq6 _ c 1)
  | ⟨2, _⟩ =>
      show (dat6 (E6 m (outs m)) c).arrAt 2 cfg6.N = V22 m (outs m) c main_arg10
      rw [V22_of m (outs m) c main_arg10 (by decide)]
      exact ((dat6 (E6 m (outs m)) c).arrAt_in 2 rfl _).trans (A_eq6 _ c 2)
  | ⟨3, _⟩ =>
      show (dat6 (E6 m (outs m)) c).arrAt 3 cfg6.N = V22 m (outs m) c main_v34
      rw [← outs_6 m c]
      exact (Function.update_self (Proc.devRef (τ := τ) .tc main_v34) (outs m 22 main_v34 c) (V21 m (outs m) c)).symm
theorem hrest6 (c : Dev nD) : ∀ b, b ∉ Finset.univ.image (Pipeline.arrRef spec6) → X6 m c b = E6 m (outs m) c b :=
  fun b hb => V22_of m (outs m) c b (fun h => hb (Finset.mem_image.mpr ⟨3, Finset.mem_univ _, (List.mem_singleton.mp h).symm⟩))

/-- Region 7's exit contents read at the TensorCore's references. -/
abbrev X7 : (c : Dev nD) → (b : Ref sig .tc) → Buf (Elt F) ((c : Thread nD τ).loc b) := fun c b => V24 m (outs m) c b
theorem hF7 (c : Dev nD) (w : Fin cfg7.W) : (dat7 (E7 m (outs m)) c).arrAt w cfg7.N = X7 m c (Pipeline.arrRef spec7 w) := by
  match w with
  | ⟨0, _⟩ =>
      show (dat7 (E7 m (outs m)) c).arrAt 0 cfg7.N = V24 m (outs m) c main_v34
      rw [V24_of m (outs m) c main_v34 (by decide)]
      exact ((dat7 (E7 m (outs m)) c).arrAt_in 0 rfl _).trans (A_eq7 _ c 0)
  | ⟨1, _⟩ =>
      show (dat7 (E7 m (outs m)) c).arrAt 1 cfg7.N = V24 m (outs m) c main_v36
      rw [V24_of m (outs m) c main_v36 (by decide)]
      exact ((dat7 (E7 m (outs m)) c).arrAt_in 1 rfl _).trans (A_eq7 _ c 1)
  | ⟨2, _⟩ =>
      show (dat7 (E7 m (outs m)) c).arrAt 2 cfg7.N = V24 m (outs m) c main_arg12
      rw [V24_of m (outs m) c main_arg12 (by decide)]
      exact ((dat7 (E7 m (outs m)) c).arrAt_in 2 rfl _).trans (A_eq7 _ c 2)
  | ⟨3, _⟩ =>
      show (dat7 (E7 m (outs m)) c).arrAt 3 cfg7.N = V24 m (outs m) c main_v37
      rw [← outs_7 m c]
      exact (Function.update_self (Proc.devRef (τ := τ) .tc main_v37) (outs m 24 main_v37 c) (V23 m (outs m) c)).symm
theorem hrest7 (c : Dev nD) : ∀ b, b ∉ Finset.univ.image (Pipeline.arrRef spec7) → X7 m c b = E7 m (outs m) c b :=
  fun b hb => V24_of m (outs m) c b (fun h => hb (Finset.mem_image.mpr ⟨3, Finset.mem_univ _, (List.mem_singleton.mp h).symm⟩))

/-- Region 8's exit contents read at the TensorCore's references. -/
abbrev X8 : (c : Dev nD) → (b : Ref sig .tc) → Buf (Elt F) ((c : Thread nD τ).loc b) := fun c b => V26 m (outs m) c b
theorem hF8 (c : Dev nD) (w : Fin cfg8.W) : (dat8 (E8 m (outs m)) c).arrAt w cfg8.N = X8 m c (Pipeline.arrRef spec8 w) := by
  match w with
  | ⟨0, _⟩ =>
      show (dat8 (E8 m (outs m)) c).arrAt 0 cfg8.N = V26 m (outs m) c main_v37
      rw [V26_of m (outs m) c main_v37 (by decide)]
      exact ((dat8 (E8 m (outs m)) c).arrAt_in 0 rfl _).trans (A_eq8 _ c 0)
  | ⟨1, _⟩ =>
      show (dat8 (E8 m (outs m)) c).arrAt 1 cfg8.N = V26 m (outs m) c main_v39
      rw [V26_of m (outs m) c main_v39 (by decide)]
      exact ((dat8 (E8 m (outs m)) c).arrAt_in 1 rfl _).trans (A_eq8 _ c 1)
  | ⟨2, _⟩ =>
      show (dat8 (E8 m (outs m)) c).arrAt 2 cfg8.N = V26 m (outs m) c main_arg14
      rw [V26_of m (outs m) c main_arg14 (by decide)]
      exact ((dat8 (E8 m (outs m)) c).arrAt_in 2 rfl _).trans (A_eq8 _ c 2)
  | ⟨3, _⟩ =>
      show (dat8 (E8 m (outs m)) c).arrAt 3 cfg8.N = V26 m (outs m) c main_v40
      rw [← outs_8 m c]
      exact (Function.update_self (Proc.devRef (τ := τ) .tc main_v40) (outs m 26 main_v40 c) (V25 m (outs m) c)).symm
theorem hrest8 (c : Dev nD) : ∀ b, b ∉ Finset.univ.image (Pipeline.arrRef spec8) → X8 m c b = E8 m (outs m) c b :=
  fun b hb => V26_of m (outs m) c b (fun h => hb (Finset.mem_image.mpr ⟨3, Finset.mem_univ _, (List.mem_singleton.mp h).symm⟩))

/-- Region 9's exit contents read at the TensorCore's references. -/
abbrev X9 : (c : Dev nD) → (b : Ref sig .tc) → Buf (Elt F) ((c : Thread nD τ).loc b) := fun c b => V28 m (outs m) c b
theorem hF9 (c : Dev nD) (w : Fin cfg9.W) : (dat9 (E9 m (outs m)) c).arrAt w cfg9.N = X9 m c (Pipeline.arrRef spec9 w) := by
  match w with
  | ⟨0, _⟩ =>
      show (dat9 (E9 m (outs m)) c).arrAt 0 cfg9.N = V28 m (outs m) c main_v41
      rw [V28_of m (outs m) c main_v41 (by decide)]
      exact ((dat9 (E9 m (outs m)) c).arrAt_in 0 rfl _).trans (A_eq9 _ c 0)
  | ⟨1, _⟩ =>
      show (dat9 (E9 m (outs m)) c).arrAt 1 cfg9.N = V28 m (outs m) c main_v42
      rw [← outs_9 m c]
      exact (Function.update_self (Proc.devRef (τ := τ) .tc main_v42) (outs m 28 main_v42 c) (V27 m (outs m) c)).symm
theorem hrest9 (c : Dev nD) : ∀ b, b ∉ Finset.univ.image (Pipeline.arrRef spec9) → X9 m c b = E9 m (outs m) c b :=
  fun b hb => V28_of m (outs m) c b (fun h => hb (Finset.mem_image.mpr ⟨1, Finset.mem_univ _, (List.mem_singleton.mp h).symm⟩))

/-- Region 10's exit contents read at the TensorCore's references. -/
abbrev X10 : (c : Dev nD) → (b : Ref sig .tc) → Buf (Elt F) ((c : Thread nD τ).loc b) := fun c b => V32 m (outs m) c b
theorem hF10 (c : Dev nD) (w : Fin cfg10.W) : (dat10 (E10 m (outs m)) c).arrAt w cfg10.N = X10 m c (Pipeline.arrRef spec10 w) := by
  match w with
  | ⟨0, _⟩ =>
      show (dat10 (E10 m (outs m)) c).arrAt 0 cfg10.N = V32 m (outs m) c main_v43
      rw [V32_of m (outs m) c main_v43 (by decide)]
      exact ((dat10 (E10 m (outs m)) c).arrAt_in 0 rfl _).trans (A_eq10 _ c 0)
  | ⟨1, _⟩ =>
      show (dat10 (E10 m (outs m)) c).arrAt 1 cfg10.N = V32 m (outs m) c main_v45
      rw [V32_of m (outs m) c main_v45 (by decide)]
      exact ((dat10 (E10 m (outs m)) c).arrAt_in 1 rfl _).trans (A_eq10 _ c 1)
  | ⟨2, _⟩ =>
      show (dat10 (E10 m (outs m)) c).arrAt 2 cfg10.N = V32 m (outs m) c main_arg16
      rw [V32_of m (outs m) c main_arg16 (by decide)]
      exact ((dat10 (E10 m (outs m)) c).arrAt_in 2 rfl _).trans (A_eq10 _ c 2)
  | ⟨3, _⟩ =>
      show (dat10 (E10 m (outs m)) c).arrAt 3 cfg10.N = V32 m (outs m) c main_v46
      rw [← outs_10 m c]
      exact (Function.update_self (Proc.devRef (τ := τ) .tc main_v46) (outs m 32 main_v46 c) (V31 m (outs m) c)).symm
theorem hrest10 (c : Dev nD) : ∀ b, b ∉ Finset.univ.image (Pipeline.arrRef spec10) → X10 m c b = E10 m (outs m) c b :=
  fun b hb => V32_of m (outs m) c b (fun h => hb (Finset.mem_image.mpr ⟨3, Finset.mem_univ _, (List.mem_singleton.mp h).symm⟩))

/-- Region 11's exit contents read at the TensorCore's references. -/
abbrev X11 : (c : Dev nD) → (b : Ref sig .tc) → Buf (Elt F) ((c : Thread nD τ).loc b) := fun c b => V34 m (outs m) c b
theorem hF11 (c : Dev nD) (w : Fin cfg11.W) : (dat11 (E11 m (outs m)) c).arrAt w cfg11.N = X11 m c (Pipeline.arrRef spec11 w) := by
  match w with
  | ⟨0, _⟩ =>
      show (dat11 (E11 m (outs m)) c).arrAt 0 cfg11.N = V34 m (outs m) c main_v46
      rw [V34_of m (outs m) c main_v46 (by decide)]
      exact ((dat11 (E11 m (outs m)) c).arrAt_in 0 rfl _).trans (A_eq11 _ c 0)
  | ⟨1, _⟩ =>
      show (dat11 (E11 m (outs m)) c).arrAt 1 cfg11.N = V34 m (outs m) c main_v48
      rw [V34_of m (outs m) c main_v48 (by decide)]
      exact ((dat11 (E11 m (outs m)) c).arrAt_in 1 rfl _).trans (A_eq11 _ c 1)
  | ⟨2, _⟩ =>
      show (dat11 (E11 m (outs m)) c).arrAt 2 cfg11.N = V34 m (outs m) c main_arg18
      rw [V34_of m (outs m) c main_arg18 (by decide)]
      exact ((dat11 (E11 m (outs m)) c).arrAt_in 2 rfl _).trans (A_eq11 _ c 2)
  | ⟨3, _⟩ =>
      show (dat11 (E11 m (outs m)) c).arrAt 3 cfg11.N = V34 m (outs m) c main_v49
      rw [← outs_11 m c]
      exact (Function.update_self (Proc.devRef (τ := τ) .tc main_v49) (outs m 34 main_v49 c) (V33 m (outs m) c)).symm
theorem hrest11 (c : Dev nD) : ∀ b, b ∉ Finset.univ.image (Pipeline.arrRef spec11) → X11 m c b = E11 m (outs m) c b :=
  fun b hb => V34_of m (outs m) c b (fun h => hb (Finset.mem_image.mpr ⟨3, Finset.mem_univ _, (List.mem_singleton.mp h).symm⟩))

/-- Region 12's exit contents read at the TensorCore's references. -/
abbrev X12 : (c : Dev nD) → (b : Ref sig .tc) → Buf (Elt F) ((c : Thread nD τ).loc b) := fun c b => V36 m (outs m) c b
theorem hF12 (c : Dev nD) (w : Fin cfg12.W) : (dat12 (E12 m (outs m)) c).arrAt w cfg12.N = X12 m c (Pipeline.arrRef spec12 w) := by
  match w with
  | ⟨0, _⟩ =>
      show (dat12 (E12 m (outs m)) c).arrAt 0 cfg12.N = V36 m (outs m) c main_v49
      rw [V36_of m (outs m) c main_v49 (by decide)]
      exact ((dat12 (E12 m (outs m)) c).arrAt_in 0 rfl _).trans (A_eq12 _ c 0)
  | ⟨1, _⟩ =>
      show (dat12 (E12 m (outs m)) c).arrAt 1 cfg12.N = V36 m (outs m) c main_v51
      rw [V36_of m (outs m) c main_v51 (by decide)]
      exact ((dat12 (E12 m (outs m)) c).arrAt_in 1 rfl _).trans (A_eq12 _ c 1)
  | ⟨2, _⟩ =>
      show (dat12 (E12 m (outs m)) c).arrAt 2 cfg12.N = V36 m (outs m) c main_arg20
      rw [V36_of m (outs m) c main_arg20 (by decide)]
      exact ((dat12 (E12 m (outs m)) c).arrAt_in 2 rfl _).trans (A_eq12 _ c 2)
  | ⟨3, _⟩ =>
      show (dat12 (E12 m (outs m)) c).arrAt 3 cfg12.N = V36 m (outs m) c main_v52
      rw [← outs_12 m c]
      exact (Function.update_self (Proc.devRef (τ := τ) .tc main_v52) (outs m 36 main_v52 c) (V35 m (outs m) c)).symm
theorem hrest12 (c : Dev nD) : ∀ b, b ∉ Finset.univ.image (Pipeline.arrRef spec12) → X12 m c b = E12 m (outs m) c b :=
  fun b hb => V36_of m (outs m) c b (fun h => hb (Finset.mem_image.mpr ⟨3, Finset.mem_univ _, (List.mem_singleton.mp h).symm⟩))

/-- Region 13's exit contents read at the TensorCore's references. -/
abbrev X13 : (c : Dev nD) → (b : Ref sig .tc) → Buf (Elt F) ((c : Thread nD τ).loc b) := fun c b => V38 m (outs m) c b
theorem hF13 (c : Dev nD) (w : Fin cfg13.W) : (dat13 (E13 m (outs m)) c).arrAt w cfg13.N = X13 m c (Pipeline.arrRef spec13 w) := by
  match w with
  | ⟨0, _⟩ =>
      show (dat13 (E13 m (outs m)) c).arrAt 0 cfg13.N = V38 m (outs m) c main_v53
      rw [V38_of m (outs m) c main_v53 (by decide)]
      exact ((dat13 (E13 m (outs m)) c).arrAt_in 0 rfl _).trans (A_eq13 _ c 0)
  | ⟨1, _⟩ =>
      show (dat13 (E13 m (outs m)) c).arrAt 1 cfg13.N = V38 m (outs m) c main_v54
      rw [← outs_13 m c]
      exact (Function.update_self (Proc.devRef (τ := τ) .tc main_v54) (outs m 38 main_v54 c) (V37 m (outs m) c)).symm
theorem hrest13 (c : Dev nD) : ∀ b, b ∉ Finset.univ.image (Pipeline.arrRef spec13) → X13 m c b = E13 m (outs m) c b :=
  fun b hb => V38_of m (outs m) c b (fun h => hb (Finset.mem_image.mpr ⟨1, Finset.mem_univ _, (List.mem_singleton.mp h).symm⟩))

/-- Region 14's exit contents read at the TensorCore's references. -/
abbrev X14 : (c : Dev nD) → (b : Ref sig .tc) → Buf (Elt F) ((c : Thread nD τ).loc b) := fun c b => V42 m (outs m) c b
theorem hF14 (c : Dev nD) (w : Fin cfg14.W) : (dat14 (E14 m (outs m)) c).arrAt w cfg14.N = X14 m c (Pipeline.arrRef spec14 w) := by
  match w with
  | ⟨0, _⟩ =>
      show (dat14 (E14 m (outs m)) c).arrAt 0 cfg14.N = V42 m (outs m) c main_v55
      rw [V42_of m (outs m) c main_v55 (by decide)]
      exact ((dat14 (E14 m (outs m)) c).arrAt_in 0 rfl _).trans (A_eq14 _ c 0)
  | ⟨1, _⟩ =>
      show (dat14 (E14 m (outs m)) c).arrAt 1 cfg14.N = V42 m (outs m) c main_v57
      rw [V42_of m (outs m) c main_v57 (by decide)]
      exact ((dat14 (E14 m (outs m)) c).arrAt_in 1 rfl _).trans (A_eq14 _ c 1)
  | ⟨2, _⟩ =>
      show (dat14 (E14 m (outs m)) c).arrAt 2 cfg14.N = V42 m (outs m) c main_arg22
      rw [V42_of m (outs m) c main_arg22 (by decide)]
      exact ((dat14 (E14 m (outs m)) c).arrAt_in 2 rfl _).trans (A_eq14 _ c 2)
  | ⟨3, _⟩ =>
      show (dat14 (E14 m (outs m)) c).arrAt 3 cfg14.N = V42 m (outs m) c main_v58
      rw [← outs_14 m c]
      exact (Function.update_self (Proc.devRef (τ := τ) .tc main_v58) (outs m 42 main_v58 c) (V41 m (outs m) c)).symm
theorem hrest14 (c : Dev nD) : ∀ b, b ∉ Finset.univ.image (Pipeline.arrRef spec14) → X14 m c b = E14 m (outs m) c b :=
  fun b hb => V42_of m (outs m) c b (fun h => hb (Finset.mem_image.mpr ⟨3, Finset.mem_univ _, (List.mem_singleton.mp h).symm⟩))

/-- Region 15's exit contents read at the TensorCore's references. -/
abbrev X15 : (c : Dev nD) → (b : Ref sig .tc) → Buf (Elt F) ((c : Thread nD τ).loc b) := fun c b => V44 m (outs m) c b
theorem hF15 (c : Dev nD) (w : Fin cfg15.W) : (dat15 (E15 m (outs m)) c).arrAt w cfg15.N = X15 m c (Pipeline.arrRef spec15 w) := by
  match w with
  | ⟨0, _⟩ =>
      show (dat15 (E15 m (outs m)) c).arrAt 0 cfg15.N = V44 m (outs m) c main_v58
      rw [V44_of m (outs m) c main_v58 (by decide)]
      exact ((dat15 (E15 m (outs m)) c).arrAt_in 0 rfl _).trans (A_eq15 _ c 0)
  | ⟨1, _⟩ =>
      show (dat15 (E15 m (outs m)) c).arrAt 1 cfg15.N = V44 m (outs m) c main_v60
      rw [V44_of m (outs m) c main_v60 (by decide)]
      exact ((dat15 (E15 m (outs m)) c).arrAt_in 1 rfl _).trans (A_eq15 _ c 1)
  | ⟨2, _⟩ =>
      show (dat15 (E15 m (outs m)) c).arrAt 2 cfg15.N = V44 m (outs m) c main_arg24
      rw [V44_of m (outs m) c main_arg24 (by decide)]
      exact ((dat15 (E15 m (outs m)) c).arrAt_in 2 rfl _).trans (A_eq15 _ c 2)
  | ⟨3, _⟩ =>
      show (dat15 (E15 m (outs m)) c).arrAt 3 cfg15.N = V44 m (outs m) c main_v61
      rw [← outs_15 m c]
      exact (Function.update_self (Proc.devRef (τ := τ) .tc main_v61) (outs m 44 main_v61 c) (V43 m (outs m) c)).symm
theorem hrest15 (c : Dev nD) : ∀ b, b ∉ Finset.univ.image (Pipeline.arrRef spec15) → X15 m c b = E15 m (outs m) c b :=
  fun b hb => V44_of m (outs m) c b (fun h => hb (Finset.mem_image.mpr ⟨3, Finset.mem_univ _, (List.mem_singleton.mp h).symm⟩))

/-- Region 16's exit contents read at the TensorCore's references. -/
abbrev X16 : (c : Dev nD) → (b : Ref sig .tc) → Buf (Elt F) ((c : Thread nD τ).loc b) := fun c b => V46 m (outs m) c b
theorem hF16 (c : Dev nD) (w : Fin cfg16.W) : (dat16 (E16 m (outs m)) c).arrAt w cfg16.N = X16 m c (Pipeline.arrRef spec16 w) := by
  match w with
  | ⟨0, _⟩ =>
      show (dat16 (E16 m (outs m)) c).arrAt 0 cfg16.N = V46 m (outs m) c main_v61
      rw [V46_of m (outs m) c main_v61 (by decide)]
      exact ((dat16 (E16 m (outs m)) c).arrAt_in 0 rfl _).trans (A_eq16 _ c 0)
  | ⟨1, _⟩ =>
      show (dat16 (E16 m (outs m)) c).arrAt 1 cfg16.N = V46 m (outs m) c main_v63
      rw [V46_of m (outs m) c main_v63 (by decide)]
      exact ((dat16 (E16 m (outs m)) c).arrAt_in 1 rfl _).trans (A_eq16 _ c 1)
  | ⟨2, _⟩ =>
      show (dat16 (E16 m (outs m)) c).arrAt 2 cfg16.N = V46 m (outs m) c main_arg26
      rw [V46_of m (outs m) c main_arg26 (by decide)]
      exact ((dat16 (E16 m (outs m)) c).arrAt_in 2 rfl _).trans (A_eq16 _ c 2)
  | ⟨3, _⟩ =>
      show (dat16 (E16 m (outs m)) c).arrAt 3 cfg16.N = V46 m (outs m) c main_v64
      rw [← outs_16 m c]
      exact (Function.update_self (Proc.devRef (τ := τ) .tc main_v64) (outs m 46 main_v64 c) (V45 m (outs m) c)).symm
theorem hrest16 (c : Dev nD) : ∀ b, b ∉ Finset.univ.image (Pipeline.arrRef spec16) → X16 m c b = E16 m (outs m) c b :=
  fun b hb => V46_of m (outs m) c b (fun h => hb (Finset.mem_image.mpr ⟨3, Finset.mem_univ _, (List.mem_singleton.mp h).symm⟩))

/-- Region 17's exit contents read at the TensorCore's references. -/
abbrev X17 : (c : Dev nD) → (b : Ref sig .tc) → Buf (Elt F) ((c : Thread nD τ).loc b) := fun c b => V48 m (outs m) c b
theorem hF17 (c : Dev nD) (w : Fin cfg17.W) : (dat17 (E17 m (outs m)) c).arrAt w cfg17.N = X17 m c (Pipeline.arrRef spec17 w) := by
  match w with
  | ⟨0, _⟩ =>
      show (dat17 (E17 m (outs m)) c).arrAt 0 cfg17.N = V48 m (outs m) c main_v65
      rw [V48_of m (outs m) c main_v65 (by decide)]
      exact ((dat17 (E17 m (outs m)) c).arrAt_in 0 rfl _).trans (A_eq17 _ c 0)
  | ⟨1, _⟩ =>
      show (dat17 (E17 m (outs m)) c).arrAt 1 cfg17.N = V48 m (outs m) c main_v66
      rw [← outs_17 m c]
      exact (Function.update_self (Proc.devRef (τ := τ) .tc main_v66) (outs m 48 main_v66 c) (V47 m (outs m) c)).symm
theorem hrest17 (c : Dev nD) : ∀ b, b ∉ Finset.univ.image (Pipeline.arrRef spec17) → X17 m c b = E17 m (outs m) c b :=
  fun b hb => V48_of m (outs m) c b (fun h => hb (Finset.mem_image.mpr ⟨1, Finset.mem_univ _, (List.mem_singleton.mp h).symm⟩))

/-! ## The regions as segments -/

set_option backward.isDefEq.respectTransparency.types false in
/-- Region 0 over the thread state: entered from every unscoped buffer at the contents before it, left at the contents
    after it; its arrays split out of the unscoped buffers and put back at the exit contents; the generator register
    into the invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m (outs m)) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E0 m (outs m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m (outs m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m (outs m) c) (X0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it; its arrays split out of the unscoped buffers and put back at the exit contents; the generator register
    into the invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m (outs m)) c).loose
  hwaits := Pipeline.hwaits_of_owed_zero _ _ _ _ L lv 1 fun _ _ => rfl
  pre c := iprop(StableHlo.held (c : Thread nD τ) (Pipeline.ucRefs τ sig) (V5 m (outs m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E1 m (outs m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m (outs m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m (outs m) c) (X1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at the contents
    after it; its arrays split out of the unscoped buffers and put back at the exit contents; the generator register
    into the invariant and out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E2 m (outs m)) c).loose
  hwaits := Pipeline.hwaits_of_owed_zero _ _ _ _ L lv 2 fun _ _ => rfl
  pre c := iprop(StableHlo.held (c : Thread nD τ) (Pipeline.ucRefs τ sig) (V7 m (outs m) c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec2 c (E2 m (outs m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (E2 m (outs m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E2 m (outs m) c) (X2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at the contents before it, left at the contents
    after it; its arrays split out of the unscoped buffers and put back at the exit contents; the generator register
    into the invariant and out; nothing owed; no semaphore of the kernel's own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E3 m (outs m)) c).loose
  hwaits := Pipeline.hwaits_of_owed_zero _ _ _ _ L lv 3 fun _ _ => rfl
  pre c := iprop(StableHlo.held (c : Thread nD τ) (Pipeline.ucRefs τ sig) (V11 m (outs m) c) ∗ R c)
  post c := iprop(StableHlo.held (c : Thread nD τ) (Pipeline.ucRefs τ sig) (V12 m (outs m) c) ∗ R c)
  X c := iprop(∃ r, prngReg c r)
  Y c := iprop(∃ r, prngReg c r)
  Z c := Pipeline.unscopedRest (Ix := Unit) (Name := ℕ) (U := UR sig nD τ) (Lvl := ℕ) spec3 c (E3 m (outs m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (E3 m (outs m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E3 m (outs m) c) (X3 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at the contents before it, left at the contents
    after it; its arrays split out of the unscoped buffers and put back at the exit contents; the generator register
    into the invariant and out; nothing owed; no semaphore of the kernel's own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (E4 m (outs m)) c).loose
  hwaits := Pipeline.hwaits_of_owed_zero _ _ _ _ L lv 4 fun _ _ => rfl
  pre c := iprop(StableHlo.held (c : Thread nD τ) (Pipeline.ucRefs τ sig) (V15 m (outs m) c) ∗ R c)
  post c := iprop(StableHlo.held (c : Thread nD τ) (Pipeline.ucRefs τ sig) (V16 m (outs m) c) ∗ R c)
  X c := iprop(∃ r, prngReg c r)
  Y c := iprop(∃ r, prngReg c r)
  Z c := Pipeline.unscopedRest (Ix := Unit) (Name := ℕ) (U := UR sig nD τ) (Lvl := ℕ) spec4 c (E4 m (outs m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (E4 m (outs m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (E4 m (outs m) c) (X4 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at the contents before it, left at the contents
    after it; its arrays split out of the unscoped buffers and put back at the exit contents; the generator register
    into the invariant and out; nothing owed; no semaphore of the kernel's own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (E5 m (outs m)) c).loose
  hwaits := Pipeline.hwaits_of_owed_zero _ _ _ _ L lv 5 fun _ _ => rfl
  pre c := iprop(StableHlo.held (c : Thread nD τ) (Pipeline.ucRefs τ sig) (V17 m (outs m) c) ∗ R c)
  post c := iprop(StableHlo.held (c : Thread nD τ) (Pipeline.ucRefs τ sig) (V18 m (outs m) c) ∗ R c)
  X c := iprop(∃ r, prngReg c r)
  Y c := iprop(∃ r, prngReg c r)
  Z c := Pipeline.unscopedRest (Ix := Unit) (Name := ℕ) (U := UR sig nD τ) (Lvl := ℕ) spec5 c (E5 m (outs m) c)
  hentry c := by
    rw [Pipeline.ownSems0_none]
    have hsplit := Pipeline.arrays_of_unscopedBufs (p := 5) (pcfgs (F := F)) adm (pdats m) launch5.win launch5.arr_whole c
      ((pdats m 5 c).share_full fun _ => rfl) (E5 m (outs m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (E5 m (outs m) c) (X5 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at the contents before it, left at the contents
    after it; its arrays split out of the unscoped buffers and put back at the exit contents; the generator register
    into the invariant and out; nothing owed; no semaphore of the kernel's own. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (E6 m (outs m)) c).loose
  hwaits := Pipeline.hwaits_of_owed_zero _ _ _ _ L lv 6 fun _ _ => rfl
  pre c := iprop(StableHlo.held (c : Thread nD τ) (Pipeline.ucRefs τ sig) (V21 m (outs m) c) ∗ R c)
  post c := iprop(StableHlo.held (c : Thread nD τ) (Pipeline.ucRefs τ sig) (V22 m (outs m) c) ∗ R c)
  X c := iprop(∃ r, prngReg c r)
  Y c := iprop(∃ r, prngReg c r)
  Z c := Pipeline.unscopedRest (Ix := Unit) (Name := ℕ) (U := UR sig nD τ) (Lvl := ℕ) spec6 c (E6 m (outs m) c)
  hentry c := by
    rw [Pipeline.ownSems0_none]
    have hsplit := Pipeline.arrays_of_unscopedBufs (p := 6) (pcfgs (F := F)) adm (pdats m) launch6.win launch6.arr_whole c
      ((pdats m 6 c).share_full fun _ => rfl) (E6 m (outs m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (E6 m (outs m) c) (X6 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered from every unscoped buffer at the contents before it, left at the contents
    after it; its arrays split out of the unscoped buffers and put back at the exit contents; the generator register
    into the invariant and out; nothing owed; no semaphore of the kernel's own. -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (E7 m (outs m)) c).loose
  hwaits := Pipeline.hwaits_of_owed_zero _ _ _ _ L lv 7 fun _ _ => rfl
  pre c := iprop(StableHlo.held (c : Thread nD τ) (Pipeline.ucRefs τ sig) (V23 m (outs m) c) ∗ R c)
  post c := iprop(StableHlo.held (c : Thread nD τ) (Pipeline.ucRefs τ sig) (V24 m (outs m) c) ∗ R c)
  X c := iprop(∃ r, prngReg c r)
  Y c := iprop(∃ r, prngReg c r)
  Z c := Pipeline.unscopedRest (Ix := Unit) (Name := ℕ) (U := UR sig nD τ) (Lvl := ℕ) spec7 c (E7 m (outs m) c)
  hentry c := by
    rw [Pipeline.ownSems0_none]
    have hsplit := Pipeline.arrays_of_unscopedBufs (p := 7) (pcfgs (F := F)) adm (pdats m) launch7.win launch7.arr_whole c
      ((pdats m 7 c).share_full fun _ => rfl) (E7 m (outs m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (E7 m (outs m) c) (X7 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8 over the thread state: entered from every unscoped buffer at the contents before it, left at the contents
    after it; its arrays split out of the unscoped buffers and put back at the exit contents; the generator register
    into the invariant and out; nothing owed; no semaphore of the kernel's own. -/
def reg8 : Pipeline.RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (E8 m (outs m)) c).loose
  hwaits := Pipeline.hwaits_of_owed_zero _ _ _ _ L lv 8 fun _ _ => rfl
  pre c := iprop(StableHlo.held (c : Thread nD τ) (Pipeline.ucRefs τ sig) (V25 m (outs m) c) ∗ R c)
  post c := iprop(StableHlo.held (c : Thread nD τ) (Pipeline.ucRefs τ sig) (V26 m (outs m) c) ∗ R c)
  X c := iprop(∃ r, prngReg c r)
  Y c := iprop(∃ r, prngReg c r)
  Z c := Pipeline.unscopedRest (Ix := Unit) (Name := ℕ) (U := UR sig nD τ) (Lvl := ℕ) spec8 c (E8 m (outs m) c)
  hentry c := by
    rw [Pipeline.ownSems0_none]
    have hsplit := Pipeline.arrays_of_unscopedBufs (p := 8) (pcfgs (F := F)) adm (pdats m) launch8.win launch8.arr_whole c
      ((pdats m 8 c).share_full fun _ => rfl) (E8 m (outs m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (E8 m (outs m) c) (X8 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9 over the thread state: entered from every unscoped buffer at the contents before it, left at the contents
    after it; its arrays split out of the unscoped buffers and put back at the exit contents; the generator register
    into the invariant and out; nothing owed; no semaphore of the kernel's own. -/
def reg9 : Pipeline.RegionSeg (pcfgs (F := F)) adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (E9 m (outs m)) c).loose
  hwaits := Pipeline.hwaits_of_owed_zero _ _ _ _ L lv 9 fun _ _ => rfl
  pre c := iprop(StableHlo.held (c : Thread nD τ) (Pipeline.ucRefs τ sig) (V27 m (outs m) c) ∗ R c)
  post c := iprop(StableHlo.held (c : Thread nD τ) (Pipeline.ucRefs τ sig) (V28 m (outs m) c) ∗ R c)
  X c := iprop(∃ r, prngReg c r)
  Y c := iprop(∃ r, prngReg c r)
  Z c := Pipeline.unscopedRest (Ix := Unit) (Name := ℕ) (U := UR sig nD τ) (Lvl := ℕ) spec9 c (E9 m (outs m) c)
  hentry c := by
    rw [Pipeline.ownSems0_none]
    have hsplit := Pipeline.arrays_of_unscopedBufs (p := 9) (pcfgs (F := F)) adm (pdats m) launch9.win launch9.arr_whole c
      ((pdats m 9 c).share_full fun _ => rfl) (E9 m (outs m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (E9 m (outs m) c) (X9 m c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 10 over the thread state: entered from every unscoped buffer at the contents before it, left at the contents
    after it; its arrays split out of the unscoped buffers and put back at the exit contents; the generator register
    into the invariant and out; nothing owed; no semaphore of the kernel's own. -/
def reg10 : Pipeline.RegionSeg (pcfgs (F := F)) adm (pdats m) () defs₀ 𝒱₀ L lv 10 where
  win := launch10.win.to₀
  block_pos := launch10.block_pos
  stage_whole := launch10.stage_whole
  K := PEmpty
  osem k := k.elim
  ho := Pipeline.OwnSemFacts.none _
  hbody c := (body_obligation10 (E10 m (outs m)) c).loose
  hwaits := Pipeline.hwaits_of_owed_zero _ _ _ _ L lv 10 fun _ _ => rfl
  pre c := iprop(StableHlo.held (c : Thread nD τ) (Pipeline.ucRefs τ sig) (V31 m (outs m) c) ∗ R c)
  post c := iprop(StableHlo.held (c : Thread nD τ) (Pipeline.ucRefs τ sig) (V32 m (outs m) c) ∗ R c)
  X c := iprop(∃ r, prngReg c r)
  Y c := iprop(∃ r, prngReg c r)
  Z c := Pipeline.unscopedRest (Ix := Unit) (Name := ℕ) (U := UR sig nD τ) (Lvl := ℕ) spec10 c (E10 m (outs m) c)
  hentry c := by
    rw [Pipeline.ownSems0_none]
    have hsplit := Pipeline.arrays_of_unscopedBufs (p := 10) (pcfgs (F := F)) adm (pdats m) launch10.win launch10.arr_whole c
      ((pdats m 10 c).share_full fun _ => rfl) (E10 m (outs m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (E10 m (outs m) c) (X10 m c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 11 over the thread state: entered from every unscoped buffer at the contents before it, left at the contents
    after it; its arrays split out of the unscoped buffers and put back at the exit contents; the generator register
    into the invariant and out; nothing owed; no semaphore of the kernel's own. -/
def reg11 : Pipeline.RegionSeg (pcfgs (F := F)) adm (pdats m) () defs₀ 𝒱₀ L lv 11 where
  win := launch11.win.to₀
  block_pos := launch11.block_pos
  stage_whole := launch11.stage_whole
  K := PEmpty
  osem k := k.elim
  ho := Pipeline.OwnSemFacts.none _
  hbody c := (body_obligation11 (E11 m (outs m)) c).loose
  hwaits := Pipeline.hwaits_of_owed_zero _ _ _ _ L lv 11 fun _ _ => rfl
  pre c := iprop(StableHlo.held (c : Thread nD τ) (Pipeline.ucRefs τ sig) (V33 m (outs m) c) ∗ R c)
  post c := iprop(StableHlo.held (c : Thread nD τ) (Pipeline.ucRefs τ sig) (V34 m (outs m) c) ∗ R c)
  X c := iprop(∃ r, prngReg c r)
  Y c := iprop(∃ r, prngReg c r)
  Z c := Pipeline.unscopedRest (Ix := Unit) (Name := ℕ) (U := UR sig nD τ) (Lvl := ℕ) spec11 c (E11 m (outs m) c)
  hentry c := by
    rw [Pipeline.ownSems0_none]
    have hsplit := Pipeline.arrays_of_unscopedBufs (p := 11) (pcfgs (F := F)) adm (pdats m) launch11.win launch11.arr_whole c
      ((pdats m 11 c).share_full fun _ => rfl) (E11 m (outs m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m) ((pdats m 11 c).share_full fun _ => rfl)
      (E11 m (outs m) c) (X11 m c) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 12 over the thread state: entered from every unscoped buffer at the contents before it, left at the contents
    after it; its arrays split out of the unscoped buffers and put back at the exit contents; the generator register
    into the invariant and out; nothing owed; no semaphore of the kernel's own. -/
def reg12 : Pipeline.RegionSeg (pcfgs (F := F)) adm (pdats m) () defs₀ 𝒱₀ L lv 12 where
  win := launch12.win.to₀
  block_pos := launch12.block_pos
  stage_whole := launch12.stage_whole
  K := PEmpty
  osem k := k.elim
  ho := Pipeline.OwnSemFacts.none _
  hbody c := (body_obligation12 (E12 m (outs m)) c).loose
  hwaits := Pipeline.hwaits_of_owed_zero _ _ _ _ L lv 12 fun _ _ => rfl
  pre c := iprop(StableHlo.held (c : Thread nD τ) (Pipeline.ucRefs τ sig) (V35 m (outs m) c) ∗ R c)
  post c := iprop(StableHlo.held (c : Thread nD τ) (Pipeline.ucRefs τ sig) (V36 m (outs m) c) ∗ R c)
  X c := iprop(∃ r, prngReg c r)
  Y c := iprop(∃ r, prngReg c r)
  Z c := Pipeline.unscopedRest (Ix := Unit) (Name := ℕ) (U := UR sig nD τ) (Lvl := ℕ) spec12 c (E12 m (outs m) c)
  hentry c := by
    rw [Pipeline.ownSems0_none]
    have hsplit := Pipeline.arrays_of_unscopedBufs (p := 12) (pcfgs (F := F)) adm (pdats m) launch12.win launch12.arr_whole c
      ((pdats m 12 c).share_full fun _ => rfl) (E12 m (outs m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m) ((pdats m 12 c).share_full fun _ => rfl)
      (E12 m (outs m) c) (X12 m c) ((pdats m 12 c).arrAt · cfg12.N) (hF12 m c) (hrest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 13 over the thread state: entered from every unscoped buffer at the contents before it, left at the contents
    after it; its arrays split out of the unscoped buffers and put back at the exit contents; the generator register
    into the invariant and out; nothing owed; no semaphore of the kernel's own. -/
def reg13 : Pipeline.RegionSeg (pcfgs (F := F)) adm (pdats m) () defs₀ 𝒱₀ L lv 13 where
  win := launch13.win.to₀
  block_pos := launch13.block_pos
  stage_whole := launch13.stage_whole
  K := PEmpty
  osem k := k.elim
  ho := Pipeline.OwnSemFacts.none _
  hbody c := (body_obligation13 (E13 m (outs m)) c).loose
  hwaits := Pipeline.hwaits_of_owed_zero _ _ _ _ L lv 13 fun _ _ => rfl
  pre c := iprop(StableHlo.held (c : Thread nD τ) (Pipeline.ucRefs τ sig) (V37 m (outs m) c) ∗ R c)
  post c := iprop(StableHlo.held (c : Thread nD τ) (Pipeline.ucRefs τ sig) (V38 m (outs m) c) ∗ R c)
  X c := iprop(∃ r, prngReg c r)
  Y c := iprop(∃ r, prngReg c r)
  Z c := Pipeline.unscopedRest (Ix := Unit) (Name := ℕ) (U := UR sig nD τ) (Lvl := ℕ) spec13 c (E13 m (outs m) c)
  hentry c := by
    rw [Pipeline.ownSems0_none]
    have hsplit := Pipeline.arrays_of_unscopedBufs (p := 13) (pcfgs (F := F)) adm (pdats m) launch13.win launch13.arr_whole c
      ((pdats m 13 c).share_full fun _ => rfl) (E13 m (outs m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 13 c).Φ 0 = Pipeline.ΦA spec13 c from rfl]; unfold Pipeline.ΦA
    iintro ⟨Hp, -, Hr⟩
    isplitl [Hr]; · iexact Hr
    iexact Hp
  hout c := by
    rw [Pipeline.ownSems0_none, show (pdats m 13 c).Φ (Fin.last _) = Pipeline.ΦA spec13 c from rfl]; unfold Pipeline.ΦA
    iintro ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c (pdats m) ((pdats m 13 c).share_full fun _ => rfl)
      (E13 m (outs m) c) (X13 m c) ((pdats m 13 c).arrAt · cfg13.N) (hF13 m c) (hrest13 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 14 over the thread state: entered from every unscoped buffer at the contents before it, left at the contents
    after it; its arrays split out of the unscoped buffers and put back at the exit contents; the generator register
    into the invariant and out; nothing owed; no semaphore of the kernel's own. -/
def reg14 : Pipeline.RegionSeg (pcfgs (F := F)) adm (pdats m) () defs₀ 𝒱₀ L lv 14 where
  win := launch14.win.to₀
  block_pos := launch14.block_pos
  stage_whole := launch14.stage_whole
  K := PEmpty
  osem k := k.elim
  ho := Pipeline.OwnSemFacts.none _
  hbody c := (body_obligation14 (E14 m (outs m)) c).loose
  hwaits := Pipeline.hwaits_of_owed_zero _ _ _ _ L lv 14 fun _ _ => rfl
  pre c := iprop(StableHlo.held (c : Thread nD τ) (Pipeline.ucRefs τ sig) (V41 m (outs m) c) ∗ R c)
  post c := iprop(StableHlo.held (c : Thread nD τ) (Pipeline.ucRefs τ sig) (V42 m (outs m) c) ∗ R c)
  X c := iprop(∃ r, prngReg c r)
  Y c := iprop(∃ r, prngReg c r)
  Z c := Pipeline.unscopedRest (Ix := Unit) (Name := ℕ) (U := UR sig nD τ) (Lvl := ℕ) spec14 c (E14 m (outs m) c)
  hentry c := by
    rw [Pipeline.ownSems0_none]
    have hsplit := Pipeline.arrays_of_unscopedBufs (p := 14) (pcfgs (F := F)) adm (pdats m) launch14.win launch14.arr_whole c
      ((pdats m 14 c).share_full fun _ => rfl) (E14 m (outs m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 14 c).Φ 0 = Pipeline.ΦA spec14 c from rfl]; unfold Pipeline.ΦA
    iintro ⟨Hp, -, Hr⟩
    isplitl [Hr]; · iexact Hr
    iexact Hp
  hout c := by
    rw [Pipeline.ownSems0_none, show (pdats m 14 c).Φ (Fin.last _) = Pipeline.ΦA spec14 c from rfl]; unfold Pipeline.ΦA
    iintro ⟨Hr, Hp⟩
    isplitl [Hp]; · iexact Hp
    isplitr; · iempintro
    iexact Hr
  hexit c := by
    have hjoin := Pipeline.unscopedBufs_of_arrays (p := 14) (pcfgs (F := F)) adm (Ix := Unit) (Name := ℕ) (U := UR sig nD τ) (Lvl := ℕ)
      launch14.win launch14.arr_whole c (pdats m) ((pdats m 14 c).share_full fun _ => rfl)
      (E14 m (outs m) c) (X14 m c) ((pdats m 14 c).arrAt · cfg14.N) (hF14 m c) (hrest14 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 15 over the thread state: entered from every unscoped buffer at the contents before it, left at the contents
    after it; its arrays split out of the unscoped buffers and put back at the exit contents; the generator register
    into the invariant and out; nothing owed; no semaphore of the kernel's own. -/
def reg15 : Pipeline.RegionSeg (pcfgs (F := F)) adm (pdats m) () defs₀ 𝒱₀ L lv 15 where
  win := launch15.win.to₀
  block_pos := launch15.block_pos
  stage_whole := launch15.stage_whole
  K := PEmpty
  osem k := k.elim
  ho := Pipeline.OwnSemFacts.none _
  hbody c := (body_obligation15 (E15 m (outs m)) c).loose
  hwaits := Pipeline.hwaits_of_owed_zero _ _ _ _ L lv 15 fun _ _ => rfl
  pre c := iprop(StableHlo.held (c : Thread nD τ) (Pipeline.ucRefs τ sig) (V43 m (outs m) c) ∗ R c)
  post c := iprop(StableHlo.held (c : Thread nD τ) (Pipeline.ucRefs τ sig) (V44 m (outs m) c) ∗ R c)
  X c := iprop(∃ r, prngReg c r)
  Y c := iprop(∃ r, prngReg c r)
  Z c := Pipeline.unscopedRest (Ix := Unit) (Name := ℕ) (U := UR sig nD τ) (Lvl := ℕ) spec15 c (E15 m (outs m) c)
  hentry c := by
    rw [Pipeline.ownSems0_none]
    have hsplit := Pipeline.arrays_of_unscopedBufs (p := 15) (pcfgs (F := F)) adm (pdats m) launch15.win launch15.arr_whole c
      ((pdats m 15 c).share_full fun _ => rfl) (E15 m (outs m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 15 c).Φ 0 = Pipeline.ΦA spec15 c from rfl]; unfold Pipeline.ΦA
    iintro ⟨Hp, -, Hr⟩
    isplitl [Hr]; · iexact Hr
    iexact Hp
  hout c := by
    rw [Pipeline.ownSems0_none, show (pdats m 15 c).Φ (Fin.last _) = Pipeline.ΦA spec15 c from rfl]; unfold Pipeline.ΦA
    iintro ⟨Hr, Hp⟩
    isplitl [Hp]; · iexact Hp
    isplitr; · iempintro
    iexact Hr
  hexit c := by
    have hjoin := Pipeline.unscopedBufs_of_arrays (p := 15) (pcfgs (F := F)) adm (Ix := Unit) (Name := ℕ) (U := UR sig nD τ) (Lvl := ℕ)
      launch15.win launch15.arr_whole c (pdats m) ((pdats m 15 c).share_full fun _ => rfl)
      (E15 m (outs m) c) (X15 m c) ((pdats m 15 c).arrAt · cfg15.N) (hF15 m c) (hrest15 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 16 over the thread state: entered from every unscoped buffer at the contents before it, left at the contents
    after it; its arrays split out of the unscoped buffers and put back at the exit contents; the generator register
    into the invariant and out; nothing owed; no semaphore of the kernel's own. -/
def reg16 : Pipeline.RegionSeg (pcfgs (F := F)) adm (pdats m) () defs₀ 𝒱₀ L lv 16 where
  win := launch16.win.to₀
  block_pos := launch16.block_pos
  stage_whole := launch16.stage_whole
  K := PEmpty
  osem k := k.elim
  ho := Pipeline.OwnSemFacts.none _
  hbody c := (body_obligation16 (E16 m (outs m)) c).loose
  hwaits := Pipeline.hwaits_of_owed_zero _ _ _ _ L lv 16 fun _ _ => rfl
  pre c := iprop(StableHlo.held (c : Thread nD τ) (Pipeline.ucRefs τ sig) (V45 m (outs m) c) ∗ R c)
  post c := iprop(StableHlo.held (c : Thread nD τ) (Pipeline.ucRefs τ sig) (V46 m (outs m) c) ∗ R c)
  X c := iprop(∃ r, prngReg c r)
  Y c := iprop(∃ r, prngReg c r)
  Z c := Pipeline.unscopedRest (Ix := Unit) (Name := ℕ) (U := UR sig nD τ) (Lvl := ℕ) spec16 c (E16 m (outs m) c)
  hentry c := by
    rw [Pipeline.ownSems0_none]
    have hsplit := Pipeline.arrays_of_unscopedBufs (p := 16) (pcfgs (F := F)) adm (pdats m) launch16.win launch16.arr_whole c
      ((pdats m 16 c).share_full fun _ => rfl) (E16 m (outs m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 16 c).Φ 0 = Pipeline.ΦA spec16 c from rfl]; unfold Pipeline.ΦA
    iintro ⟨Hp, -, Hr⟩
    isplitl [Hr]; · iexact Hr
    iexact Hp
  hout c := by
    rw [Pipeline.ownSems0_none, show (pdats m 16 c).Φ (Fin.last _) = Pipeline.ΦA spec16 c from rfl]; unfold Pipeline.ΦA
    iintro ⟨Hr, Hp⟩
    isplitl [Hp]; · iexact Hp
    isplitr; · iempintro
    iexact Hr
  hexit c := by
    have hjoin := Pipeline.unscopedBufs_of_arrays (p := 16) (pcfgs (F := F)) adm (Ix := Unit) (Name := ℕ) (U := UR sig nD τ) (Lvl := ℕ)
      launch16.win launch16.arr_whole c (pdats m) ((pdats m 16 c).share_full fun _ => rfl)
      (E16 m (outs m) c) (X16 m c) ((pdats m 16 c).arrAt · cfg16.N) (hF16 m c) (hrest16 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 17 over the thread state: entered from every unscoped buffer at the contents before it, left at the contents
    after it; its arrays split out of the unscoped buffers and put back at the exit contents; the generator register
    into the invariant and out; nothing owed; no semaphore of the kernel's own. -/
def reg17 : Pipeline.RegionSeg (pcfgs (F := F)) adm (pdats m) () defs₀ 𝒱₀ L lv 17 where
  win := launch17.win.to₀
  block_pos := launch17.block_pos
  stage_whole := launch17.stage_whole
  K := PEmpty
  osem k := k.elim
  ho := Pipeline.OwnSemFacts.none _
  hbody c := (body_obligation17 (E17 m (outs m)) c).loose
  hwaits := Pipeline.hwaits_of_owed_zero _ _ _ _ L lv 17 fun _ _ => rfl
  pre c := iprop(StableHlo.held (c : Thread nD τ) (Pipeline.ucRefs τ sig) (V47 m (outs m) c) ∗ R c)
  post c := iprop(StableHlo.held (c : Thread nD τ) (Pipeline.ucRefs τ sig) (V48 m (outs m) c) ∗ R c)
  X c := iprop(∃ r, prngReg c r)
  Y c := iprop(∃ r, prngReg c r)
  Z c := Pipeline.unscopedRest (Ix := Unit) (Name := ℕ) (U := UR sig nD τ) (Lvl := ℕ) spec17 c (E17 m (outs m) c)
  hentry c := by
    rw [Pipeline.ownSems0_none]
    have hsplit := Pipeline.arrays_of_unscopedBufs (p := 17) (pcfgs (F := F)) adm (pdats m) launch17.win launch17.arr_whole c
      ((pdats m 17 c).share_full fun _ => rfl) (E17 m (outs m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 17 c).Φ 0 = Pipeline.ΦA spec17 c from rfl]; unfold Pipeline.ΦA
    iintro ⟨Hp, -, Hr⟩
    isplitl [Hr]; · iexact Hr
    iexact Hp
  hout c := by
    rw [Pipeline.ownSems0_none, show (pdats m 17 c).Φ (Fin.last _) = Pipeline.ΦA spec17 c from rfl]; unfold Pipeline.ΦA
    iintro ⟨Hr, Hp⟩
    isplitl [Hp]; · iexact Hp
    isplitr; · iempintro
    iexact Hr
  hexit c := by
    have hjoin := Pipeline.unscopedBufs_of_arrays (p := 17) (pcfgs (F := F)) adm (Ix := Unit) (Name := ℕ) (U := UR sig nD τ) (Lvl := ℕ)
      launch17.win launch17.arr_whole c (pdats m) ((pdats m 17 c).share_full fun _ => rfl)
      (E17 m (outs m) c) (X17 m c) ((pdats m 17 c).arrAt · cfg17.N) (hF17 m c) (hrest17 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame claim, and the run with its results -/

/-- The frame claim: every weakly fair execution of @main terminates, nothing faulting, the arguments as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  frame_cond m emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      have hmono : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (fun _ : Dev nD => (iprop(emp) : sProp 𝕄)) c))
          ⊢ (bigSep Finset.univ (fun c : Dev nD => (R (F := F) c)) : sProp 𝕄) :=
        bigSep_mono fun c _ => (show iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)) ⊢ (R (F := F) c : sProp 𝕄) from by
          iintro ⟨-, HO, -, Hp, -⟩
          isplitl [Hp]; · iexists _; iexact Hp
          iexists ∅; iexact HO)
      iintro ⟨H, -⟩
      imodintro
      iapply hmono
      iexact H)
    (hE18 := fun c => by
      iintro ⟨-, HO⟩
      iexact HO)
    (R0 := reg0 m) (hpre0 := fun _ => .rfl) (hpost0 := fun _ => .rfl)
    (R1 := reg1 m) (hpre1 := fun _ => .rfl) (hpost1 := fun _ => .rfl)
    (R2 := reg2 m) (hpre2 := fun _ => .rfl) (hpost2 := fun _ => .rfl)
    (R3 := reg3 m) (hpre3 := fun _ => .rfl) (hpost3 := fun _ => .rfl)
    (R4 := reg4 m) (hpre4 := fun _ => .rfl) (hpost4 := fun _ => .rfl)
    (R5 := reg5 m) (hpre5 := fun _ => .rfl) (hpost5 := fun _ => .rfl)
    (R6 := reg6 m) (hpre6 := fun _ => .rfl) (hpost6 := fun _ => .rfl)
    (R7 := reg7 m) (hpre7 := fun _ => .rfl) (hpost7 := fun _ => .rfl)
    (R8 := reg8 m) (hpre8 := fun _ => .rfl) (hpost8 := fun _ => .rfl)
    (R9 := reg9 m) (hpre9 := fun _ => .rfl) (hpost9 := fun _ => .rfl)
    (R10 := reg10 m) (hpre10 := fun _ => .rfl) (hpost10 := fun _ => .rfl)
    (R11 := reg11 m) (hpre11 := fun _ => .rfl) (hpost11 := fun _ => .rfl)
    (R12 := reg12 m) (hpre12 := fun _ => .rfl) (hpost12 := fun _ => .rfl)
    (R13 := reg13 m) (hpre13 := fun _ => .rfl) (hpost13 := fun _ => .rfl)
    (R14 := reg14 m) (hpre14 := fun _ => .rfl) (hpost14 := fun _ => .rfl)
    (R15 := reg15 m) (hpre15 := fun _ => .rfl) (hpost15 := fun _ => .rfl)
    (R16 := reg16 m) (hpre16 := fun _ => .rfl) (hpost16 := fun _ => .rfl)
    (R17 := reg17 m) (hpre17 := fun _ => .rfl) (hpost17 := fun _ => .rfl)

end Cert.Kernel.Asm

end
-- ==== Proof.Spec.lean ====
/-
  The network both programs compute, written once over total functions of natural coordinates.
  An activation is a function `batch → row → column → channel → EReal`. `conv` is a 3×3 convolution of an input given
  in PADDED coordinates (row i+1, column j+1 of the padded image is pixel (i, j)), plus bias, followed by ReLU;
  `pad1` puts an H×W image into padded coordinates with a zero border; `pool` is the 2×2 maximum.
  `arr4`, `arr3`, `arr2` read an array of literal extents as such a total function (zero outside the extents).
-/
import Idealize.ShloMosaic.PureOps.Ideal
import Idealize.ShloMosaic.Lib.ValueIdx

noncomputable section

open scoped BigOperators

namespace Cert.Spec

open Idealize.ShloMosaic Idealize.ShloMosaic.ValueIdx

/-- An activation: batch, row, column, channel. -/
abbrev Img := ℕ → ℕ → ℕ → ℕ → EReal

/-- A rank-4 array as a total function of natural coordinates, zero outside its extents. -/
def arr4 {n0 n1 n2 n3 : ℕ} (x : (⟨4, ![n0, n1, n2, n3]⟩ : Shape).Idx → EReal) : Img :=
  fun b i j c => if h : b < n0 ∧ i < n1 ∧ j < n2 ∧ c < n3 then x (ix4 ⟨b, h.1⟩ ⟨i, h.2.1⟩ ⟨j, h.2.2.1⟩ ⟨c, h.2.2.2⟩) else 0

/-- A rank-3 array as a total function of natural coordinates, zero outside its extents. -/
def arr3 {n0 n1 n2 : ℕ} (x : (⟨3, ![n0, n1, n2]⟩ : Shape).Idx → EReal) : ℕ → ℕ → ℕ → EReal :=
  fun a b c => if h : a < n0 ∧ b < n1 ∧ c < n2 then x (ix3 ⟨a, h.1⟩ ⟨b, h.2.1⟩ ⟨c, h.2.2⟩) else 0

/-- A rank-2 array as a total function of natural coordinates, zero outside its extents. -/
def arr2 {n0 n1 : ℕ} (x : (⟨2, ![n0, n1]⟩ : Shape).Idx → EReal) : ℕ → ℕ → EReal :=
  fun a b => if h : a < n0 ∧ b < n1 then x (ix2 ⟨a, h.1⟩ ⟨b, h.2⟩) else 0

theorem arr4_apply {n0 n1 n2 n3 : ℕ} (x : (⟨4, ![n0, n1, n2, n3]⟩ : Shape).Idx → EReal) (b : Fin n0) (i : Fin n1) (j : Fin n2) (c : Fin n3) :
    arr4 x b.val i.val j.val c.val = x (ix4 b i j c) := by
  unfold arr4; rw [dif_pos ⟨b.isLt, i.isLt, j.isLt, c.isLt⟩]

theorem arr3_apply {n0 n1 n2 : ℕ} (x : (⟨3, ![n0, n1, n2]⟩ : Shape).Idx → EReal) (a : Fin n0) (b : Fin n1) (c : Fin n2) :
    arr3 x a.val b.val c.val = x (ix3 a b c) := by
  unfold arr3; rw [dif_pos ⟨a.isLt, b.isLt, c.isLt⟩]

theorem arr2_apply {n0 n1 : ℕ} (x : (⟨2, ![n0, n1]⟩ : Shape).Idx → EReal) (a : Fin n0) (b : Fin n1) :
    arr2 x a.val b.val = x (ix2 a b) := by
  unfold arr2; rw [dif_pos ⟨a.isLt, b.isLt⟩]

/-- 3×3 convolution of an input in padded coordinates, tap `k = 3·dy + dx` against weight slab `k`, plus bias, then ReLU:
    `max (∑ₖ ∑_ci X b (i + k/3) (j + k%3) ci · Wt k ci co + bias 0 co) 0`. -/
def conv (Cin : ℕ) (X : Img) (Wt : ℕ → ℕ → ℕ → EReal) (bias : ℕ → ℕ → EReal) : Img :=
  fun b i j co => max ((∑ k ∈ Finset.range 9, ∑ ci ∈ Finset.range Cin, X b (i + k / 3) (j + k % 3) ci * Wt k ci co) + bias 0 co) 0

/-- An H×W image in padded coordinates: pixel (i, j) at (i+1, j+1), zero elsewhere. -/
def pad1 (H W : ℕ) (A : Img) : Img :=
  fun b I J c => if 1 ≤ I ∧ I ≤ H ∧ 1 ≤ J ∧ J ≤ W then A b (I - 1) (J - 1) c else 0

/-- The 2×2 maximum, stride 2: rows first, then columns. -/
def pool (A : Img) : Img :=
  fun b i j c => max (max (A b (2 * i) (2 * j) c) (A b (2 * i + 1) (2 * j) c)) (max (A b (2 * i) (2 * j + 1) c) (A b (2 * i + 1) (2 * j + 1) c))

/-- The same convolution with the nine weight slabs flattened into one matrix of 9·Cin rows (row `k·Cin + ci` is slab `k`,
    input channel `ci`): ONE sum over `K < 9·Cin`, tap `K / Cin`, input channel `K % Cin`. -/
def convFlat (Cin : ℕ) (X : Img) (W2 : ℕ → ℕ → EReal) (bias : ℕ → ℕ → EReal) : Img :=
  fun b i j co => max ((∑ K ∈ Finset.range (9 * Cin), X b (i + K / Cin / 3) (j + K / Cin % 3) (K % Cin) * W2 K co) + bias 0 co) 0

/-- A dense layer over the channel axis at every pixel, plus bias, then ReLU: the stem's convolution once its 27 taps
    are stacked on the channel axis. -/
def dense (n : ℕ) (P : Img) (W2 : ℕ → ℕ → EReal) (bias : ℕ → ℕ → EReal) : Img :=
  fun b i j co => max ((∑ K ∈ Finset.range n, P b i j K * W2 K co) + bias 0 co) 0

/-- Keep rows 1 … H and columns 1 … W, zero elsewhere (no shift of coordinates). -/
def maskPad (H W : ℕ) (A : Img) : Img :=
  fun b I J c => if 1 ≤ I ∧ I ≤ H ∧ 1 ≤ J ∧ J ≤ W then A b I J c else 0

/-- The maximum of a row pair: rows 2i and 2i+1. -/
def hpool (A : Img) : Img := fun b i j c => max (A b (2 * i) j c) (A b (2 * i + 1) j c)

/-- One layer of the network on an H×W activation: pad, convolve, ReLU. -/
def layer (H W Cin : ℕ) (A : Img) (Wt : ℕ → ℕ → ℕ → EReal) (bias : ℕ → ℕ → EReal) : Img :=
  conv Cin (pad1 H W A) Wt bias

/-- `conv` only reads its input on the 3×3 neighbourhood: two inputs that agree there give the same output. -/
theorem conv_congr (Cin : ℕ) (X X' : Img) (Wt : ℕ → ℕ → ℕ → EReal) (bias : ℕ → ℕ → EReal) (b i j co : ℕ)
    (h : ∀ k < 9, ∀ ci < Cin, X b (i + k / 3) (j + k % 3) ci = X' b (i + k / 3) (j + k % 3) ci) :
    conv Cin X Wt bias b i j co = conv Cin X' Wt bias b i j co := by
  unfold conv
  congr 2
  refine Finset.sum_congr rfl fun k hk => Finset.sum_congr rfl fun ci hci => ?_
  rw [h k (Finset.mem_range.mp hk) ci (Finset.mem_range.mp hci)]

end Cert.Spec

end
-- ==== Proof.Net.lean ====
/-
  The VGG16 feature stack both programs compute, as activations over natural coordinates, from the input image and the
  thirteen layers' weights and biases: thirteen 3×3 convolution layers (pad, convolve, bias, ReLU) and five 2×2 maximum
  poolings; the four results are the last four pooled maps.
-/
import proofs.«100114_g2000204297211070_pallasbulk_1265_19_alg».proof.Proof.Spec

noncomputable section

open scoped BigOperators

namespace Cert.Spec

/-- The network's parameters as total functions: the input image in NHWC coordinates, and per layer the weight slabs
    `w ℓ k ci co` (tap k = 3·dy + dx) and the bias `bi ℓ 0 co`. -/
structure Params where
  x : Img
  w : ℕ → ℕ → ℕ → ℕ → EReal
  bi : ℕ → ℕ → ℕ → EReal

variable (p : Params)

def C0 : Img := layer 224 224 3 p.x (p.w 0) (p.bi 0)
def C1 : Img := layer 224 224 64 (C0 p) (p.w 1) (p.bi 1)
def P1 : Img := pool (C1 p)
def C2 : Img := layer 112 112 64 (P1 p) (p.w 2) (p.bi 2)
def C3 : Img := layer 112 112 128 (C2 p) (p.w 3) (p.bi 3)
def P2 : Img := pool (C3 p)
def C4 : Img := layer 56 56 128 (P2 p) (p.w 4) (p.bi 4)
def C5 : Img := layer 56 56 256 (C4 p) (p.w 5) (p.bi 5)
def C6 : Img := layer 56 56 256 (C5 p) (p.w 6) (p.bi 6)
def P3 : Img := pool (C6 p)
def C7 : Img := layer 28 28 256 (P3 p) (p.w 7) (p.bi 7)
def C8 : Img := layer 28 28 512 (C7 p) (p.w 8) (p.bi 8)
def C9 : Img := layer 28 28 512 (C8 p) (p.w 9) (p.bi 9)
def P4 : Img := pool (C9 p)
def C10 : Img := layer 14 14 512 (P4 p) (p.w 10) (p.bi 10)
def C11 : Img := layer 14 14 512 (C10 p) (p.w 11) (p.bi 11)
def C12 : Img := layer 14 14 512 (C11 p) (p.w 12) (p.bi 12)
def P5 : Img := pool (C12 p)

/-- The 2×2 maximum is the column-pair maximum of the row-pair maximum. -/
theorem pool_eq_hpool (A : Img) (b i j c : ℕ) : pool A b i j c = max (hpool A b i (2 * j) c) (hpool A b i (2 * j + 1) c) := rfl

/-- A sum over `n·C` indices is the double sum over `n` groups of `C`. -/
theorem sum_range_mul (n C : ℕ) (f : ℕ → EReal) :
    ∑ K ∈ Finset.range (n * C), f K = ∑ k ∈ Finset.range n, ∑ ci ∈ Finset.range C, f (k * C + ci) := by
  induction n with
  | zero => simp
  | succ n ih => rw [Nat.succ_mul, Finset.sum_range_add, ih, Finset.sum_range_succ]

/-- The flattened-weights convolution is the convolution, when row `k·Cin + ci` of the matrix is slab `k`, channel `ci`. -/
theorem convFlat_eq_conv (Cin : ℕ) (hC : 0 < Cin) (X : Img) (W2 : ℕ → ℕ → EReal) (Wt : ℕ → ℕ → ℕ → EReal) (bias : ℕ → ℕ → EReal)
    (b i j co : ℕ) (hW : ∀ K < 9 * Cin, W2 K co = Wt (K / Cin) (K % Cin) co) :
    convFlat Cin X W2 bias b i j co = conv Cin X Wt bias b i j co := by
  unfold convFlat conv
  congr 2
  rw [sum_range_mul 9 Cin]
  refine Finset.sum_congr rfl fun k hk => Finset.sum_congr rfl fun ci hci => ?_
  have hci' : ci < Cin := Finset.mem_range.mp hci
  have hk' : k < 9 := Finset.mem_range.mp hk
  have h1 : (k * Cin + ci) / Cin = k := by
    rw [Nat.add_comm, Nat.add_mul_div_right _ _ hC, Nat.div_eq_of_lt hci', Nat.zero_add]
  have h2 : (k * Cin + ci) % Cin = ci := by
    rw [Nat.add_comm, Nat.add_mul_mod_self_right, Nat.mod_eq_of_lt hci']
  have hK : k * Cin + ci < 9 * Cin := by
    calc k * Cin + ci < k * Cin + Cin := Nat.add_lt_add_left hci' _
      _ = (k + 1) * Cin := (Nat.succ_mul k Cin).symm
      _ ≤ 9 * Cin := Nat.mul_le_mul_right Cin hk'
  rw [hW _ hK, h1, h2]

end Cert.Spec

end
-- ==== Proof.KChainAlg.lean ====
/-
  The algebra of one step of the network, free of any buffer: how a value read off a padded input, a flattened weight
  matrix and a bias row is the specification's layer; how a lane-folded pair maximum is the 2×2 pooling; how the stem's
  27-tap dense layer over the stacked image is the first convolution. Everything is over natural coordinates.
-/
import proofs.«100114_g2000204297211070_pallasbulk_1265_19_alg».proof.Proof.Net

noncomputable section

open scoped BigOperators

namespace Cert.Spec

/-- `pad1 H W` reads its argument only on rows below H and columns below W. -/
theorem pad1_congr (H W : ℕ) (A A' : Img) (b I J c : ℕ)
    (h : ∀ i < H, ∀ j < W, A b i j c = A' b i j c) :
    pad1 H W A b I J c = pad1 H W A' b I J c := by
  unfold pad1
  by_cases hc : 1 ≤ I ∧ I ≤ H ∧ 1 ≤ J ∧ J ≤ W
  · rw [if_pos hc, if_pos hc]
    exact h _ (by omega) _ (by omega)
  · rw [if_neg hc, if_neg hc]

/-- An image whose columns from W on (up to a wider extent Wb) are zero pads, over the wider extent, to the same
    thing as its first W columns pad over W. -/
theorem pad1_junk (H W Wb : ℕ) (hWb : W ≤ Wb) (Y A : Img) (b I J c : ℕ)
    (hY : ∀ i < H, ∀ j < Wb, Y b i j c = if j < W then A b i j c else 0) :
    pad1 H Wb Y b I J c = pad1 H W A b I J c := by
  unfold pad1
  by_cases h1 : 1 ≤ I ∧ I ≤ H ∧ 1 ≤ J ∧ J ≤ Wb
  · rw [if_pos h1, hY _ (by omega) _ (by omega)]
    by_cases h2 : J ≤ W
    · rw [if_pos (by omega), if_pos (by omega)]
    · rw [if_neg (by omega), if_neg (by omega)]
  · rw [if_neg h1, if_neg (by omega)]

/-- The flattened-weights convolution of an input that is the padded activation `A` on the (H+2)×(W+2) frame, with the
    matrix's rows the layer's slabs and the bias row the layer's bias, is the layer at every pixel of the H×W image. -/
theorem convFlat_eq_layer (H W Cin : ℕ) (hC : 0 < Cin) (X A : Img) (W2 : ℕ → ℕ → EReal) (Wt : ℕ → ℕ → ℕ → EReal)
    (B bias : ℕ → ℕ → EReal) (b i j co : ℕ) (hi : i < H) (hj : j < W)
    (hX : ∀ I < H + 2, ∀ J < W + 2, ∀ ci < Cin, X b I J ci = pad1 H W A b I J ci)
    (hW : ∀ K < 9 * Cin, W2 K co = Wt (K / Cin) (K % Cin) co)
    (hB : B 0 co = bias 0 co) :
    convFlat Cin X W2 B b i j co = layer H W Cin A Wt bias b i j co := by
  rw [convFlat_eq_conv Cin hC X W2 Wt B b i j co hW]
  unfold layer
  rw [conv_congr Cin X (pad1 H W A) Wt B b i j co
    (fun k hk ci hci => hX _ (by omega) _ (by omega) ci hci)]
  unfold conv
  rw [hB]

/-- The same under the row-pair maximum. -/
theorem hpool_convFlat_eq_layer (H W Cin : ℕ) (hC : 0 < Cin) (X A : Img) (W2 : ℕ → ℕ → EReal) (Wt : ℕ → ℕ → ℕ → EReal)
    (B bias : ℕ → ℕ → EReal) (b i j co : ℕ) (hi : 2 * i + 1 < H) (hj : j < W)
    (hX : ∀ I < H + 2, ∀ J < W + 2, ∀ ci < Cin, X b I J ci = pad1 H W A b I J ci)
    (hW : ∀ K < 9 * Cin, W2 K co = Wt (K / Cin) (K % Cin) co)
    (hB : B 0 co = bias 0 co) :
    hpool (convFlat Cin X W2 B) b i j co = hpool (layer H W Cin A Wt bias) b i j co := by
  unfold hpool
  rw [convFlat_eq_layer H W Cin hC X A W2 Wt B bias b (2 * i) j co (by omega) hj hX hW hB,
    convFlat_eq_layer H W Cin hC X A W2 Wt B bias b (2 * i + 1) j co hi hj hX hW hB]

/-- The same under the zero border. -/
theorem pad1_convFlat_eq_layer (H W Cin : ℕ) (hC : 0 < Cin) (X A : Img) (W2 : ℕ → ℕ → EReal) (Wt : ℕ → ℕ → ℕ → EReal)
    (B bias : ℕ → ℕ → EReal) (b I J co : ℕ)
    (hX : ∀ I < H + 2, ∀ J < W + 2, ∀ ci < Cin, X b I J ci = pad1 H W A b I J ci)
    (hW : ∀ K < 9 * Cin, W2 K co = Wt (K / Cin) (K % Cin) co)
    (hB : B 0 co = bias 0 co) :
    pad1 H W (convFlat Cin X W2 B) b I J co = pad1 H W (layer H W Cin A Wt bias) b I J co :=
  pad1_congr H W _ _ b I J co
    (fun i hi j hj => convFlat_eq_layer H W Cin hC X A W2 Wt B bias b i j co hi hj hX hW hB)

/-- Channel `ch` and channel `ch + C` of a row whose 2C channels are the column pair (2j, 2j+1) of a C-channel image `Y`
    laid side by side: their maximum is the 2×2 pooling when `Y` is the row-pair maximum. -/
theorem lanehalf_max_eq_pool (C : ℕ) (hC : 0 < C) (X Y A : Img) (b i j ch : ℕ) (hch : ch < C)
    (hfold : ∀ c' < 2 * C, X b i j c' = Y b i (2 * j + c' / C) (c' % C))
    (hY : ∀ j' < 2 * j + 2, Y b i j' ch = hpool A b i j' ch) :
    max (X b i j ch) (X b i j (ch + C)) = pool A b i j ch := by
  have h1 : ch / C = 0 := Nat.div_eq_of_lt hch
  have h2 : ch % C = ch := Nat.mod_eq_of_lt hch
  have h3 : (ch + C) / C = 1 := by rw [Nat.add_div_right _ hC, h1]
  have h4 : (ch + C) % C = ch := by rw [Nat.add_mod_right, h2]
  rw [pool_eq_hpool, hfold ch (by omega), hfold (ch + C) (by omega), h1, h2, h3, h4, Nat.add_zero,
    hY _ (by omega), hY _ (by omega)]

/-- The same when `Y` carries zero columns from 2·Wv on: the result carries zero columns from Wv on. -/
theorem lanehalf_max_eq_pool_junk (C : ℕ) (hC : 0 < C) (Wv Wv2 : ℕ) (hWv : Wv2 = 2 * Wv) (X Y A : Img) (b i j ch : ℕ)
    (hch : ch < C)
    (hfold : ∀ c' < 2 * C, X b i j c' = Y b i (2 * j + c' / C) (c' % C))
    (hY : ∀ j' < 2 * j + 2, Y b i j' ch = if j' < Wv2 then hpool A b i j' ch else 0) :
    max (X b i j ch) (X b i j (ch + C)) = if j < Wv then pool A b i j ch else 0 := by
  have h1 : ch / C = 0 := Nat.div_eq_of_lt hch
  have h2 : ch % C = ch := Nat.mod_eq_of_lt hch
  have h3 : (ch + C) / C = 1 := by rw [Nat.add_div_right _ hC, h1]
  have h4 : (ch + C) % C = ch := by rw [Nat.add_mod_right, h2]
  rw [hfold ch (by omega), hfold (ch + C) (by omega), h1, h2, h3, h4, Nat.add_zero,
    hY _ (by omega), hY _ (by omega)]
  by_cases hj : j < Wv
  · rw [if_pos (by omega), if_pos (by omega), if_pos hj, pool_eq_hpool]
  · rw [if_neg (by omega), if_neg (by omega), if_neg hj, max_self]

/-- The stem: the 27 stacked taps `K = 9·dy' + 3·dx + ci` (in the order tap-major, channel-minor: `K = 3·k + ci` with
    `k = 3·dy + dx`) of the image shifted by two, against the 27-row matrix, kept on rows and columns 1 … 224, is the
    first layer in padded coordinates. -/
theorem stem_eq_layer (P x : Img) (W2 B : ℕ → ℕ → EReal) (Wt : ℕ → ℕ → ℕ → EReal) (bias : ℕ → ℕ → EReal) (b I J co : ℕ)
    (hP : ∀ K < 27, P b I J K =
      if 2 ≤ I + K / 9 ∧ I + K / 9 < 226 ∧ 2 ≤ J + K / 3 % 3 ∧ J + K / 3 % 3 < 226
        then x b (I + K / 9 - 2) (J + K / 3 % 3 - 2) (K % 3) else 0)
    (hW : ∀ K < 27, W2 K co = Wt (K / 3) (K % 3) co)
    (hB : B 0 co = bias 0 co) :
    maskPad 224 224 (dense 27 P W2 B) b I J co = pad1 224 224 (layer 224 224 3 x Wt bias) b I J co := by
  unfold maskPad pad1
  by_cases hc : 1 ≤ I ∧ I ≤ 224 ∧ 1 ≤ J ∧ J ≤ 224
  · rw [if_pos hc, if_pos hc]
    unfold dense layer conv
    rw [hB]
    congr 2
    rw [show Finset.range 27 = Finset.range (9 * 3) from rfl, sum_range_mul 9 3]
    refine Finset.sum_congr rfl fun k hk => Finset.sum_congr rfl fun ci hci => ?_
    have hk' : k < 9 := Finset.mem_range.mp hk
    have hci' : ci < 3 := Finset.mem_range.mp hci
    have e1 : (k * 3 + ci) / 9 = k / 3 := by omega
    have e2 : (k * 3 + ci) / 3 = k := by omega
    have e3 : (k * 3 + ci) % 3 = ci := by omega
    rw [hP (k * 3 + ci) (by omega), hW (k * 3 + ci) (by omega), e1, e2, e3]
    unfold pad1
    by_cases h2 : 2 ≤ I + k / 3 ∧ I + k / 3 < 226 ∧ 2 ≤ J + k % 3 ∧ J + k % 3 < 226
    · have a1 : I - 1 + k / 3 - 1 = I + k / 3 - 2 := by omega
      have a2 : J - 1 + k % 3 - 1 = J + k % 3 - 2 := by omega
      rw [if_pos h2, if_pos (by omega), a1, a2]
    · rw [if_neg h2, if_neg (by omega)]
  · rw [if_neg hc, if_neg hc]

end Cert.Spec

end
-- ==== Proof.KV0a.lean ====
/-
  The stem kernel's payloads read at an index, at the ideal values. The whole-block store's payload at pixel (i, j) and
  output channel co of the block is the dense layer over the 27 stacked taps: the sum over K < 27 of the input block's
  entry (i, j, K) times the weight (K, co), plus the bias at co, clamped below at zero (the matrix product runs over
  the block's pixels in row-major order, pixel i * 232 + j, and the rounding to bf16 is the identity on ideal values).
  The four other payloads are blocks of zeros. Also here: a store of part of a block (the column stores' blend of the
  loaded words with the stored column) read at an index inside and outside the stored part.
-/
import proofs.«100114_g2000204297211070_pallasbulk_1265_19_alg».proof.Proof.Gen.KernelIdeal.Launch
import proofs.«100114_g2000204297211070_pallasbulk_1265_19_alg».proof.Proof.Gen.KernelIdeal.Skeleton
import Idealize.ShloMosaic.PureOps.Ideal.Laws
import Idealize.ShloMosaic.Lib.ValueIdx
import Idealize.ShloMosaic.Lib.IdealHost
import Idealize.ShloMosaic.Lib.Pipeline.Value

set_option maxRecDepth 16384

noncomputable section

open scoped BigOperators

namespace Cert.KernelIdeal.Val

open Cert.KernelIdeal Cert.KernelIdeal.Gen
open Idealize.ShloMosaic Idealize.ShloMosaic.ValueIdx

/-- A statement about each of four axes, from the four statements. -/
theorem forall_fin4_stem {P : Fin 4 → Prop} (h0 : P 0) (h1 : P 1) (h2 : P 2) (h3 : P 3) : ∀ a, P a := by
  intro a; fin_cases a <;> assumption

/-! ## A blend of a block with a smaller one, at an index -/

/-- Inside the replaced part the blend reads the replacement, at the index minus the start. -/
theorem updateSlice_of_mem_stem {α : Type} {s u : Shape} (x : s.Idx → α) (upd : u.Idx → α) (start : Fin s.rank → ℕ) (h : s.Slices start u)
    (i : s.Idx) (k : u.Idx) (hk : ∀ b : Fin u.rank, (i (b.cast h.1)).val = start (b.cast h.1) + (k b).val) :
    updateSlice x upd start h i = upd k := by
  unfold updateSlice
  have hin : ∀ a : Fin s.rank, start a ≤ (i a).val ∧ (i a).val < start a + u.size (a.cast h.1.symm) := fun a => by
    have h1 := hk (a.cast h.1.symm)
    have h2 := (k (a.cast h.1.symm)).isLt
    have e : (a.cast h.1.symm).cast h.1 = a := rfl
    rw [e] at h1
    omega
  rw [dif_pos hin]
  exact congrArg upd (funext fun b => Fin.ext (by have := hk b; show (i (b.cast h.1)).val - start (b.cast h.1) = (k b).val; omega))

/-- Off the replaced part on some axis the blend reads the block. -/
theorem updateSlice_of_not_mem_stem {α : Type} {s u : Shape} (x : s.Idx → α) (upd : u.Idx → α) (start : Fin s.rank → ℕ) (h : s.Slices start u)
    (i : s.Idx) (a : Fin s.rank) (ha : (i a).val < start a ∨ start a + u.size (a.cast h.1.symm) ≤ (i a).val) :
    updateSlice x upd start h i = x i := by
  unfold updateSlice
  have hnot : ¬∀ a : Fin s.rank, start a ≤ (i a).val ∧ (i a).val < start a + u.size (a.cast h.1.symm) :=
    fun hin => by have := hin a; omega
  rw [dif_neg hnot]

/-! ## The payloads -/

/-- Pixel (i, j) of a 113 x 232 block in row-major order. -/
def pix0 (i : Fin 113) (j : Fin 232) : Fin 26216 := ⟨i.val * 232 + j.val, by have := i.isLt; have := j.isLt; omega⟩

theorem stem_pay1_apply (y : S1x1x232x64.Idx) : k0_pay1 (F := Ideal) y = 0 := Ideal.ofBits_zero_bf16
theorem stem_pay6_apply (y : S1x1x232x64.Idx) : k0_pay6 (F := Ideal) y = 0 := Ideal.ofBits_zero_bf16
theorem stem_pay4_apply (y : S1x113x1x64.Idx) : k0_pay4 (F := Ideal) y = 0 := Ideal.ofBits_zero_bf16
theorem stem_pay5_apply (y : S1x113x1x64.Idx) : k0_pay5 (F := Ideal) y = 0 := Ideal.ofBits_zero_bf16

/-- The contraction index of the stem's matrix product is its one coordinate, below 27. -/
abbrev cEq0 : dot_S26216x27_S27x64_S26216x64_1_0_0_1_n_n.contr.Idx ≃ Fin 27 :=
  contrEquiv1 dot_S26216x27_S27x64_S26216x64_1_0_0_1_n_n 27 rfl rfl

/-- The whole-block payload at an index: the dense layer over the stacked taps, bias added, clamped at zero. -/
theorem stem_pay2_apply (x0 : Vec Ideal S1x113x232x27 .bf16) (x1 : Vec Ideal S27x64 .bf16) (x2 : Vec Ideal S1x64 .f32)
    (i : Fin 113) (j : Fin 232) (co : Fin 64) :
    k0_pay2 (F := Ideal) x0 x1 x2 (ix4 (0 : Fin 1) i j co)
      = max ((∑ K : Fin 27, x0 (ix4 (0 : Fin 1) i j K) * x1 (ix2 K co)) + x2 (ix2 (0 : Fin 1) co)) 0 := by
  unfold k0_pay2
  refine (shapeCast_apply _ _ (ix4 (0 : Fin 1) i j co) (ix3 i j co) ?_).trans ?_
  · rw [Shape.rowMajor_val_three, Shape.rowMajor_val_four]
    show (i.val * 232 + j.val) * 64 + co.val = (((0 : ℕ) * 113 + i.val) * 232 + j.val) * 64 + co.val
    omega
  refine (truncf_apply (φ := .f32) (ψ := .bf16) _ _ _).trans ?_
  refine (shapeCast_apply _ _ (ix3 i j co) (ix2 (pix0 i j) co) ?_).trans ?_
  · rw [Shape.rowMajor_val_two, Shape.rowMajor_val_three]
    rfl
  refine (maximumf_apply (φ := .f32) _ _ _).trans ?_
  refine congrArg₂ max ?_ Ideal.ofBits_zero_f32
  refine (addf_apply (φ := .f32) _ _ _).trans ?_
  refine congrArg₂ (· + ·) ?_ ?_
  · refine (Ideal.matmul_constant_zero_apply (φ₁ := .bf16) (φ₂ := .bf16) _ _ _ _ _).trans ?_
    refine (Equiv.sum_comp cEq0.symm _).symm.trans ?_
    refine Finset.sum_congr rfl fun K _ => ?_
    refine congrArg₂ (· * ·) ?_ ?_
    · refine (shapeCast_apply _ _ _ (ix3 i j K) ?_).trans ?_
      · rw [Shape.rowMajor_val_three, Shape.rowMajor_val_two]
        exact congrArg (fun n => (i.val * 232 + j.val) * 27 + n)
          (contrEquiv1_symm_val dot_S26216x27_S27x64_S26216x64_1_0_0_1_n_n 27 rfl rfl K).symm
      refine shapeCast_apply _ _ (ix3 i j K) (ix4 (0 : Fin 1) i j K) ?_
      rw [Shape.rowMajor_val_three, Shape.rowMajor_val_four]
      show (((0 : ℕ) * 113 + i.val) * 232 + j.val) * 27 + K.val = (i.val * 232 + j.val) * 27 + K.val
      omega
    · refine (congrFun (shapeCast_self _ _) _).trans ?_
      refine congrArg x1 (funext fun a => Fin.ext ?_)
      fin_cases a
      · exact contrEquiv1_symm_val dot_S26216x27_S27x64_S26216x64_1_0_0_1_n_n 27 rfl rfl K
      · rfl
  · refine broadcastTo_apply _ _ _ (ix2 (0 : Fin 1) co) (fun a => ?_)
    fin_cases a
    · rfl
    · rfl

end Cert.KernelIdeal.Val

end
-- ==== Proof.KV0b.lean ====
/-
  What the stem kernel's stores leave in its output block, read at an index. The stores are, newest first: one row of
  the block (row 0 at a first row block, row 112 at a last one), the two columns 224 and 225 (the loaded words with
  column 225 replaced), the two columns 0 and 1 (the loaded words with column 0 replaced), and the whole block. So the
  entry at row r, column q, channel co is the row store's payload on the stored row; else the second column store's
  replacement on column 225; else the first one's on column 0; else the whole-block payload (columns 224 and 1 are
  stored back as they were read, and they were read after the whole-block store).
-/
import proofs.«100114_g2000204297211070_pallasbulk_1265_19_alg».proof.Proof.KR0
import proofs.«100114_g2000204297211070_pallasbulk_1265_19_alg».proof.Proof.KV0a
import Idealize.ShloMosaic.Lib.WritesUnit

set_option maxRecDepth 16384

noncomputable section

namespace Cert.KernelIdeal.Val

open Cert.KernelIdeal Cert.KernelIdeal.Gen Cert.KernelIdeal.Reg
open Idealize.ShloMosaic Idealize.ShloMosaic.TcCoe Idealize.ShloMosaic.Tactic Idealize.ShloMosaic.ValueIdx
open Idealize.SL Idealize.SL.Sem

/-! ## Four stores into a 1 x 113 x 232 x 64 block, read at an index -/

section Pieces

variable {sig' : RefSig} {κ : Kind} {sp : Space} {Val : EltTy → Type} [∀ e, Nonempty (Val e)] {e : EltTy}

/-- A load of a box after one store of the whole block reads that store's payload at the box's indices. -/
theorem stem_readCov_whole (v : View sig' κ sp S1x113x232x64 e)
    (inbW : ∀ a, (![0, 0, 0, 0] : Fin 4 → ℕ) a + S1x113x232x64.size a ≤ S1x113x232x64.size a) (P : S1x113x232x64.Idx → Val e)
    (B : LoadRect S1x113x232x64) (j : B.shape.Idx) (x : S1x113x232x64.Idx) (hx : ∀ a, (B.idx j a).val = (x a).val) :
    v.readCov [(⟨Rect.unit ![0, 0, 0, 0] S1x113x232x64.size inbW, P⟩ : View.Piece Val S1x113x232x64 e)] B j = P x :=
  View.read_writes_cons_unit_of_mem v v.junk inbW P [] (B.idx j) x rfl fun a => by
    rw [hx a]
    fin_cases a <;> exact (Nat.zero_add _).symm

/-- The four stores read at (r, q, co), for any contents `old1`, `old0` of the words the column stores loaded that
    agree with the whole-block payload on the column they keep. -/
theorem read_stem_pieces (v : View sig' κ sp S1x113x232x64 e) (f : v.ty.Contents Val) (ρ : ℕ)
    (inbR : ∀ a, (![0, ρ, 0, 0] : Fin 4 → ℕ) a + S1x1x232x64.size a ≤ S1x113x232x64.size a)
    (inb1 : ∀ a, (![0, 0, 224, 0] : Fin 4 → ℕ) a + S1x113x2x64.size a ≤ S1x113x232x64.size a)
    (inb0 : ∀ a, (![0, 0, 0, 0] : Fin 4 → ℕ) a + S1x113x2x64.size a ≤ S1x113x232x64.size a)
    (inbW : ∀ a, (![0, 0, 0, 0] : Fin 4 → ℕ) a + S1x113x232x64.size a ≤ S1x113x232x64.size a)
    (sl1 : S1x113x2x64.Slices ![0, 0, 1, 0] S1x113x1x64) (sl0 : S1x113x2x64.Slices ![0, 0, 0, 0] S1x113x1x64)
    (z : S1x1x232x64.Idx → Val e) (u5 u4 : S1x113x1x64.Idx → Val e) (old1 old0 : S1x113x2x64.Idx → Val e) (P : S1x113x232x64.Idx → Val e)
    (r : Fin 113) (q : Fin 232) (co : Fin 64)
    (hold1 : q.val = 224 → old1 (ix4 (0 : Fin 1) r (0 : Fin 2) co) = P (ix4 (0 : Fin 1) r q co))
    (hold0 : q.val = 1 → old0 (ix4 (0 : Fin 1) r (1 : Fin 2) co) = P (ix4 (0 : Fin 1) r q co)) :
    v.read Val (v.writes Val f
        [(⟨Rect.unit ![0, ρ, 0, 0] S1x1x232x64.size inbR, z⟩ : View.Piece Val S1x113x232x64 e),
         ⟨Rect.unit ![0, 0, 224, 0] S1x113x2x64.size inb1, updateSlice old1 u5 ![0, 0, 1, 0] sl1⟩,
         ⟨Rect.unit ![0, 0, 0, 0] S1x113x2x64.size inb0, updateSlice old0 u4 ![0, 0, 0, 0] sl0⟩,
         ⟨Rect.unit ![0, 0, 0, 0] S1x113x232x64.size inbW, P⟩]) (ix4 (0 : Fin 1) r q co)
      = if r.val = ρ then z (ix4 (0 : Fin 1) (0 : Fin 1) q co)
        else if q.val = 225 then u5 (ix4 (0 : Fin 1) r (0 : Fin 1) co)
        else if q.val = 0 then u4 (ix4 (0 : Fin 1) r (0 : Fin 1) co)
        else P (ix4 (0 : Fin 1) r q co) := by
  have hr := r.isLt; have hq := q.isLt; have hco := co.isLt
  by_cases hρ : r.val = ρ
  · rw [if_pos hρ]
    exact View.read_writes_cons_unit_of_mem v f inbR z _ (ix4 (0 : Fin 1) r q co) (ix4 (0 : Fin 1) (0 : Fin 1) q co) rfl
      (forall_fin4_stem (by show (0 : ℕ) = 0 + 0; rfl) (by show r.val = ρ + 0; omega) (by show q.val = 0 + q.val; omega)
        (by show co.val = 0 + co.val; omega))
  rw [if_neg hρ]
  refine (View.read_writes_cons_unit_of_not_mem v f inbR z _ (ix4 (0 : Fin 1) r q co) rfl (1 : Fin 4)
    (by show r.val < ρ ∨ ρ + 1 ≤ r.val; omega)).trans ?_
  by_cases h225 : q.val = 225
  · rw [if_pos h225]
    refine (View.read_writes_cons_unit_of_mem v f inb1 _ _ (ix4 (0 : Fin 1) r q co) (ix4 (0 : Fin 1) r (1 : Fin 2) co) rfl
      (forall_fin4_stem (by show (0 : ℕ) = 0 + 0; rfl) (by show r.val = 0 + r.val; omega) (by show q.val = 224 + 1; omega)
        (by show co.val = 0 + co.val; omega))).trans ?_
    exact updateSlice_of_mem_stem old1 u5 _ sl1 (ix4 (0 : Fin 1) r (1 : Fin 2) co) (ix4 (0 : Fin 1) r (0 : Fin 1) co)
      (forall_fin4_stem (by show (0 : ℕ) = 0 + 0; rfl) (by show r.val = 0 + r.val; omega) (by show (1 : ℕ) = 1 + 0; rfl)
        (by show co.val = 0 + co.val; omega))
  rw [if_neg h225]
  by_cases h224 : q.val = 224
  · rw [if_neg (by omega : ¬q.val = 0)]
    refine (View.read_writes_cons_unit_of_mem v f inb1 _ _ (ix4 (0 : Fin 1) r q co) (ix4 (0 : Fin 1) r (0 : Fin 2) co) rfl
      (forall_fin4_stem (by show (0 : ℕ) = 0 + 0; rfl) (by show r.val = 0 + r.val; omega) (by show q.val = 224 + 0; omega)
        (by show co.val = 0 + co.val; omega))).trans ?_
    refine (updateSlice_of_not_mem_stem old1 u5 _ sl1 (ix4 (0 : Fin 1) r (0 : Fin 2) co) (2 : Fin 4)
      (by show (0 : ℕ) < 1 ∨ 1 + 1 ≤ 0; omega)).trans ?_
    exact hold1 h224
  refine (View.read_writes_cons_unit_of_not_mem v f inb1 _ _ (ix4 (0 : Fin 1) r q co) rfl (2 : Fin 4)
    (by show q.val < 224 ∨ 224 + 2 ≤ q.val; omega)).trans ?_
  by_cases h0 : q.val = 0
  · rw [if_pos h0]
    refine (View.read_writes_cons_unit_of_mem v f inb0 _ _ (ix4 (0 : Fin 1) r q co) (ix4 (0 : Fin 1) r (0 : Fin 2) co) rfl
      (forall_fin4_stem (by show (0 : ℕ) = 0 + 0; rfl) (by show r.val = 0 + r.val; omega) (by show q.val = 0 + 0; omega)
        (by show co.val = 0 + co.val; omega))).trans ?_
    exact updateSlice_of_mem_stem old0 u4 _ sl0 (ix4 (0 : Fin 1) r (0 : Fin 2) co) (ix4 (0 : Fin 1) r (0 : Fin 1) co)
      (forall_fin4_stem (by show (0 : ℕ) = 0 + 0; rfl) (by show r.val = 0 + r.val; omega) (by show (0 : ℕ) = 0 + 0; rfl)
        (by show co.val = 0 + co.val; omega))
  rw [if_neg h0]
  by_cases h1 : q.val = 1
  · refine (View.read_writes_cons_unit_of_mem v f inb0 _ _ (ix4 (0 : Fin 1) r q co) (ix4 (0 : Fin 1) r (1 : Fin 2) co) rfl
      (forall_fin4_stem (by show (0 : ℕ) = 0 + 0; rfl) (by show r.val = 0 + r.val; omega) (by show q.val = 0 + 1; omega)
        (by show co.val = 0 + co.val; omega))).trans ?_
    refine (updateSlice_of_not_mem_stem old0 u4 _ sl0 (ix4 (0 : Fin 1) r (1 : Fin 2) co) (2 : Fin 4)
      (by show (1 : ℕ) < 0 ∨ 0 + 1 ≤ 1; omega)).trans ?_
    exact hold0 h1
  refine (View.read_writes_cons_unit_of_not_mem v f inb0 _ _ (ix4 (0 : Fin 1) r q co) rfl (2 : Fin 4)
    (by show q.val < 0 ∨ 0 + 2 ≤ q.val; omega)).trans ?_
  exact View.read_writes_cons_unit_of_mem v f inbW P [] (ix4 (0 : Fin 1) r q co) (ix4 (0 : Fin 1) r q co) rfl
    (forall_fin4_stem (by show (0 : ℕ) = 0 + 0; rfl) (by show r.val = 0 + r.val; omega) (by show q.val = 0 + q.val; omega)
      (by show co.val = 0 + co.val; omega))

/-- A load of a box after a store of the first two columns and, before it, one of the whole block reads the
    whole-block payload at the box's indices when the box is off the two columns. -/
theorem stem_readCov_two (v : View sig' κ sp S1x113x232x64 e)
    (inb0 : ∀ a, (![0, 0, 0, 0] : Fin 4 → ℕ) a + S1x113x2x64.size a ≤ S1x113x232x64.size a)
    (inbW : ∀ a, (![0, 0, 0, 0] : Fin 4 → ℕ) a + S1x113x232x64.size a ≤ S1x113x232x64.size a)
    (w0 : S1x113x2x64.Idx → Val e) (P : S1x113x232x64.Idx → Val e)
    (B : LoadRect S1x113x232x64) (j : B.shape.Idx) (x : S1x113x232x64.Idx) (hx : ∀ a, (B.idx j a).val = (x a).val)
    (h2 : 2 ≤ (x (2 : Fin 4)).val) :
    v.readCov [(⟨Rect.unit ![0, 0, 0, 0] S1x113x2x64.size inb0, w0⟩ : View.Piece Val S1x113x232x64 e),
      ⟨Rect.unit ![0, 0, 0, 0] S1x113x232x64.size inbW, P⟩] B j = P x :=
  (View.read_writes_cons_unit_of_not_mem v v.junk inb0 w0 _ (B.idx j) rfl (2 : Fin 4)
    (by rw [hx]; show (x (2 : Fin 4)).val < 0 ∨ 0 + 2 ≤ (x (2 : Fin 4)).val; omega)).trans
    (stem_readCov_whole v inbW P B j x hx)

end Pieces

/-! ## The two cases' contents at an index -/

variable {F : FTy → Type} [FloatOps F]

theorem stem_hz4 : (![0, 0, 0, 0] : Fin 4 → Nat) = fun _ => 0 := funext fun a => by fin_cases a <;> rfl
theorem stem_hz2 : (![0, 0] : Fin 2 → Nat) = fun _ => 0 := funext fun a => by fin_cases a <;> rfl

set_option maxHeartbeats 1000000 in
/-- At a first row block: row 0 is the row store's zeros. -/
theorem stem_out_A_apply (c : Dev nD) (i : grid0.Coords) (arg2 : Memref sig .tc .vmem S1x113x232x27 .bf16) (harg2 : arg2.IsWhole) (arg3 : Memref sig .tc .vmem S27x64 .bf16) (harg3 : arg3.IsWhole) (arg4 : Memref sig .tc .vmem S1x64 .f32) (harg4 : arg4.IsWhole) (arg5 : Memref sig .tc .vmem S1x113x232x64 .bf16) (harg5 : arg5.IsWhole) (hc0 : cond0_0 i) (hc1 : ¬cond0_1 i)
    (x0 : Vec F S1x113x232x27 .bf16) (x1 : Vec F S27x64 .bf16) (x2 : Vec F S1x64 .f32) (r : Fin 113) (q : Fin 232) (co : Fin 64) :
    out0_A_3 c i arg2 harg2 arg3 harg3 arg4 harg4 arg5 harg5 hc0 hc1 x0 x1 x2 (ix4 (0 : Fin 1) r q co)
      = if r.val = 0 then k0_pay6 (F := F) (ix4 (0 : Fin 1) (0 : Fin 1) q co)
        else if q.val = 225 then k0_pay5 (F := F) (ix4 (0 : Fin 1) r (0 : Fin 1) co)
        else if q.val = 0 then k0_pay4 (F := F) (ix4 (0 : Fin 1) r (0 : Fin 1) co)
        else k0_pay2 x0 x1 x2 (ix4 (0 : Fin 1) r q co) := by
  have hq := q.isLt
  unfold out0_A_3
  unfold kernelRun0_A
  dsimp only
  sl_unfold_words
  refine (read_stem_pieces VO0_3 VO0_3.junk 0 _ _ _ _ _ _ _ _ _ _ _ _ r q co ?_ ?_).trans ?_
  · intro h
    exact stem_readCov_two _ _ _ _ _
      (Rect.unit (s := S1x113x232x64) ![0, 0, 224, 0] S1x113x2x64.size _).toLoadRect
      (ix4 (0 : Fin 1) r (0 : Fin 2) co) (ix4 (0 : Fin 1) r q co)
      (forall_fin4_stem (by show 0 + 1 * 0 = 0; rfl) (by show 0 + 1 * r.val = r.val; omega) (by show 224 + 1 * 0 = q.val; omega)
        (by show 0 + 1 * co.val = co.val; omega)) (by show 2 ≤ q.val; omega)
  · intro h
    exact stem_readCov_whole _ _ _
      (Rect.unit (s := S1x113x232x64) ![0, 0, 0, 0] S1x113x2x64.size _).toLoadRect
      (ix4 (0 : Fin 1) r (1 : Fin 2) co) (ix4 (0 : Fin 1) r q co)
      (forall_fin4_stem (by show 0 + 1 * 0 = 0; rfl) (by show 0 + 1 * r.val = r.val; omega) (by show 0 + 1 * 1 = q.val; omega)
        (by show 0 + 1 * co.val = co.val; omega))
  simp only [View.readAt_eq_ld, harg2.read_unread, harg3.read_unread, harg4.read_unread,
    View.ld_unit_zero (S := S1x113x232x27) stem_hz4, View.ld_unit_zero (S := S27x64) stem_hz2, View.ld_unit_zero (S := S1x64) stem_hz2]

set_option maxHeartbeats 1000000 in
/-- At a last row block: row 112 is the row store's zeros. -/
theorem stem_out_B_apply (c : Dev nD) (i : grid0.Coords) (arg2 : Memref sig .tc .vmem S1x113x232x27 .bf16) (harg2 : arg2.IsWhole) (arg3 : Memref sig .tc .vmem S27x64 .bf16) (harg3 : arg3.IsWhole) (arg4 : Memref sig .tc .vmem S1x64 .f32) (harg4 : arg4.IsWhole) (arg5 : Memref sig .tc .vmem S1x113x232x64 .bf16) (harg5 : arg5.IsWhole) (hc0 : ¬cond0_0 i) (hc1 : cond0_1 i)
    (x0 : Vec F S1x113x232x27 .bf16) (x1 : Vec F S27x64 .bf16) (x2 : Vec F S1x64 .f32) (r : Fin 113) (q : Fin 232) (co : Fin 64) :
    out0_B_3 c i arg2 harg2 arg3 harg3 arg4 harg4 arg5 harg5 hc0 hc1 x0 x1 x2 (ix4 (0 : Fin 1) r q co)
      = if r.val = 112 then k0_pay1 (F := F) (ix4 (0 : Fin 1) (0 : Fin 1) q co)
        else if q.val = 225 then k0_pay5 (F := F) (ix4 (0 : Fin 1) r (0 : Fin 1) co)
        else if q.val = 0 then k0_pay4 (F := F) (ix4 (0 : Fin 1) r (0 : Fin 1) co)
        else k0_pay2 x0 x1 x2 (ix4 (0 : Fin 1) r q co) := by
  have hq := q.isLt
  unfold out0_B_3
  unfold kernelRun0_B
  dsimp only
  sl_unfold_words
  refine (read_stem_pieces VO0_3 VO0_3.junk 112 _ _ _ _ _ _ _ _ _ _ _ _ r q co ?_ ?_).trans ?_
  · intro h
    exact stem_readCov_two _ _ _ _ _
      (Rect.unit (s := S1x113x232x64) ![0, 0, 224, 0] S1x113x2x64.size _).toLoadRect
      (ix4 (0 : Fin 1) r (0 : Fin 2) co) (ix4 (0 : Fin 1) r q co)
      (forall_fin4_stem (by show 0 + 1 * 0 = 0; rfl) (by show 0 + 1 * r.val = r.val; omega) (by show 224 + 1 * 0 = q.val; omega)
        (by show 0 + 1 * co.val = co.val; omega)) (by show 2 ≤ q.val; omega)
  · intro h
    exact stem_readCov_whole _ _ _
      (Rect.unit (s := S1x113x232x64) ![0, 0, 0, 0] S1x113x2x64.size _).toLoadRect
      (ix4 (0 : Fin 1) r (1 : Fin 2) co) (ix4 (0 : Fin 1) r q co)
      (forall_fin4_stem (by show 0 + 1 * 0 = 0; rfl) (by show 0 + 1 * r.val = r.val; omega) (by show 0 + 1 * 1 = q.val; omega)
        (by show 0 + 1 * co.val = co.val; omega))
  simp only [View.readAt_eq_ld, harg2.read_unread, harg3.read_unread, harg4.read_unread,
    View.ld_unit_zero (S := S1x113x232x27) stem_hz4, View.ld_unit_zero (S := S27x64) stem_hz2, View.ld_unit_zero (S := S1x64) stem_hz2]

end Cert.KernelIdeal.Val

end
-- ==== Proof.KV0.lean ====
/-
  The value of kernel region 0 (the stem) at the ideal values: after the region, the output array holds, at batch b,
  row I, column J < 226 and channel co, the dense layer over the 27 stacked taps of the input array at that pixel
  (sum over K < 27 of input (b, I, J, K) times weight (K, co), plus bias co, clamped at zero) on rows 1 … 224 and
  columns 1 … 224, and zero on rows 0 and 225 and columns 0 and 225. Point t of the 8 x 2 grid is image t / 2, row
  block t % 2: its block is rows 113 (t % 2) … 113 (t % 2) + 112 of that image, every column and channel; the blocks
  tile the array and every point writes its block back. The block's entry at local row r is the array's at row
  113 (t % 2) + r, so the zeroed row (0 at a first row block, 112 at a last) is the array's row 0 or 225.
-/
import proofs.«100114_g2000204297211070_pallasbulk_1265_19_alg».proof.Proof.KR0
import proofs.«100114_g2000204297211070_pallasbulk_1265_19_alg».proof.Proof.KV0a
import proofs.«100114_g2000204297211070_pallasbulk_1265_19_alg».proof.Proof.KV0b
import proofs.«100114_g2000204297211070_pallasbulk_1265_19_alg».proof.Proof.Spec
import Idealize.ShloMosaic.Lib.Pipeline.Value

set_option maxRecDepth 16384

noncomputable section

open scoped BigOperators

namespace Cert.KernelIdeal.Val

open Cert.KernelIdeal Cert.KernelIdeal.Gen Cert.KernelIdeal.Reg
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-! ## The arrays and the points' geometry -/

/-- The region's three input arrays as it finds them, by their literal extents. -/
abbrev xarr0 (c : Dev nD) : S8x226x232x27.Idx → EReal := V c (Pipeline.arrRef spec0 0)
abbrev warr0 (c : Dev nD) : S27x64.Idx → EReal := V c (Pipeline.arrRef spec0 1)
abbrev barr0 (c : Dev nD) : S1x64.Idx → EReal := V c (Pipeline.arrRef spec0 2)

/-- Point t reads block (t / 2, t % 2, 0, 0) of the input, decided over the 16 points. -/
theorem stem_geo0 : ∀ t : Fin cfg0.N, win0_0.index t 0 = t.val / 2 ∧ win0_0.index t 1 = t.val % 2 ∧ win0_0.index t 2 = 0 ∧ win0_0.index t 3 = 0 :=
  (by decide +kernel : ∀ t : Fin grid0.N, win0_0.index t 0 = t.val / 2 ∧ win0_0.index t 1 = t.val % 2 ∧ win0_0.index t 2 = 0 ∧ win0_0.index t 3 = 0)
/-- The weights' and the bias's one block is the whole array. -/
theorem stem_geo1 : ∀ t : Fin cfg0.N, win0_1.index t 0 = 0 ∧ win0_1.index t 1 = 0 :=
  (by decide +kernel : ∀ t : Fin grid0.N, win0_1.index t 0 = 0 ∧ win0_1.index t 1 = 0)
theorem stem_geo2 : ∀ t : Fin cfg0.N, win0_2.index t 0 = 0 ∧ win0_2.index t 1 = 0 :=
  (by decide +kernel : ∀ t : Fin grid0.N, win0_2.index t 0 = 0 ∧ win0_2.index t 1 = 0)
/-- Point t writes block (t / 2, t % 2, 0, 0) of the output, whole. -/
theorem stem_geo3 : ∀ t : Fin cfg0.N, win0_3.index t 0 = t.val / 2 ∧ win0_3.index t 1 = t.val % 2 ∧ win0_3.index t 2 = 0 ∧ win0_3.index t 3 = 0
    ∧ win0_3.xsize (grid0.coords t) 0 = 1 ∧ win0_3.xsize (grid0.coords t) 1 = 113 ∧ win0_3.xsize (grid0.coords t) 2 = 232
    ∧ win0_3.xsize (grid0.coords t) 3 = 64 :=
  (by decide +kernel : ∀ t : Fin grid0.N, win0_3.index t 0 = t.val / 2 ∧ win0_3.index t 1 = t.val % 2 ∧ win0_3.index t 2 = 0 ∧ win0_3.index t 3 = 0
    ∧ win0_3.xsize (grid0.coords t) 0 = 1 ∧ win0_3.xsize (grid0.coords t) 1 = 113 ∧ win0_3.xsize (grid0.coords t) 2 = 232
    ∧ win0_3.xsize (grid0.coords t) 3 = 64)

/-! ## The input blocks, read off the arrays -/

/-- The input block at point t, entry (r, q, K), is the input array's at image t / 2, row 113 (t % 2) + r. -/
theorem stem_xblk_apply (c : Dev nD) (t : Fin cfg0.N) (r : Fin 113) (q : Fin 232) (K : Fin 27) (k : S8x226x232x27.Idx)
    (h0 : (k 0).val = t.val / 2) (h1 : (k 1).val = 113 * (t.val % 2) + r.val) (h2 : (k 2).val = q.val) (h3 : (k 3).val = K.val) :
    (iblk0 V c 0 t : S1x113x232x27.Idx → EReal) (ix4 (0 : Fin 1) r q K) = xarr0 V c k := by
  obtain ⟨i0, i1, i2, i3⟩ := stem_geo0 t
  unfold iblk0
  rw [View.read_apply]
  show xarr0 V c _ = xarr0 V c _
  congr 1
  funext a
  apply Fin.ext
  match a with
  | ⟨0, _⟩ => show win0_0.index t 0 * 1 + 1 * 0 = (k 0).val; rw [i0, h0]; omega
  | ⟨1, _⟩ => show win0_0.index t 1 * 113 + 1 * r.val = (k 1).val; rw [i1, h1]; omega
  | ⟨2, _⟩ => show win0_0.index t 2 * 232 + 1 * q.val = (k 2).val; rw [i2, h2]; omega
  | ⟨3, _⟩ => show win0_0.index t 3 * 27 + 1 * K.val = (k 3).val; rw [i3, h3]; omega

/-- The weight block at any point is the weight array. -/
theorem stem_wblk_apply (c : Dev nD) (t : Fin cfg0.N) (K : Fin 27) (co : Fin 64) :
    (iblk0 V c 1 t : S27x64.Idx → EReal) (ix2 K co) = warr0 V c (ix2 K co) := by
  obtain ⟨i0, i1⟩ := stem_geo1 t
  unfold iblk0
  rw [View.read_apply]
  show warr0 V c _ = warr0 V c _
  congr 1
  funext a
  apply Fin.ext
  match a with
  | ⟨0, _⟩ => show win0_1.index t 0 * 27 + 1 * K.val = K.val; rw [i0]; omega
  | ⟨1, _⟩ => show win0_1.index t 1 * 64 + 1 * co.val = co.val; rw [i1]; omega

/-- The bias block at any point is the bias array. -/
theorem stem_bblk_apply (c : Dev nD) (t : Fin cfg0.N) (co : Fin 64) :
    (iblk0 V c 2 t : S1x64.Idx → EReal) (ix2 (0 : Fin 1) co) = barr0 V c (ix2 (0 : Fin 1) co) := by
  obtain ⟨i0, i1⟩ := stem_geo2 t
  unfold iblk0
  rw [View.read_apply]
  show barr0 V c _ = barr0 V c _
  congr 1
  funext a
  apply Fin.ext
  match a with
  | ⟨0, _⟩ => show win0_2.index t 0 * 1 + 1 * 0 = 0; rw [i0]
  | ⟨1, _⟩ => show win0_2.index t 1 * 64 + 1 * co.val = co.val; rw [i1]; omega

/-! ## What a point leaves in the output block -/

/-- The region's result at (b, I, J, co), every column J < 232: zero on the border rows and columns, else the dense layer. -/
def stemGf (c : Dev nD) (b I J co : ℕ) : EReal :=
  if I = 0 ∨ I = 225 ∨ J = 0 ∨ J = 225 then 0
  else Cert.Spec.dense 27 (Cert.Spec.arr4 (xarr0 V c)) (Cert.Spec.arr2 (warr0 V c)) (Cert.Spec.arr2 (barr0 V c)) b I J co

/-- The whole-block payload of point t's input blocks at (r, q, co) is the dense layer at the array's pixel. -/
theorem stem_pay2_blocks (c : Dev nD) (t : Fin cfg0.N) (r : Fin 113) (q : Fin 232) (co : Fin 64) :
    k0_pay2 (F := Ideal) (iblk0 V c 0 t) (iblk0 V c 1 t) (iblk0 V c 2 t) (ix4 (0 : Fin 1) r q co)
      = Cert.Spec.dense 27 (Cert.Spec.arr4 (xarr0 V c)) (Cert.Spec.arr2 (warr0 V c)) (Cert.Spec.arr2 (barr0 V c))
          (t.val / 2) (113 * (t.val % 2) + r.val) q.val co.val := by
  have hN : cfg0.N = 16 := N_0
  have ht := t.isLt
  have hr := r.isLt
  have hb : t.val / 2 < 8 := by omega
  have hI : 113 * (t.val % 2) + r.val < 226 := by omega
  refine (stem_pay2_apply (iblk0 V c 0 t) (iblk0 V c 1 t) (iblk0 V c 2 t) r q co).trans ?_
  unfold Cert.Spec.dense
  refine congrArg₂ max (congrArg₂ (· + ·) ?_ ?_) rfl
  · rw [← Fin.sum_univ_eq_sum_range (fun K => Cert.Spec.arr4 (xarr0 V c) (t.val / 2) (113 * (t.val % 2) + r.val) q.val K
        * Cert.Spec.arr2 (warr0 V c) K co.val) 27]
    refine Finset.sum_congr rfl fun K _ => ?_
    refine congrArg₂ (· * ·) ?_ ?_
    · refine (stem_xblk_apply V c t r q K (ix4 (⟨t.val / 2, hb⟩ : Fin 8) (⟨113 * (t.val % 2) + r.val, hI⟩ : Fin 226) q K) rfl rfl rfl rfl).trans ?_
      exact (Cert.Spec.arr4_apply (xarr0 V c) (⟨t.val / 2, hb⟩ : Fin 8) (⟨113 * (t.val % 2) + r.val, hI⟩ : Fin 226) q K).symm
    · refine (stem_wblk_apply V c t K co).trans ?_
      exact (Cert.Spec.arr2_apply (warr0 V c) K co).symm
  · refine (stem_bblk_apply V c t co).trans ?_
    exact (Cert.Spec.arr2_apply (barr0 V c) (0 : Fin 1) co).symm

/-- What the output's staging buffer holds after point t, at (r, q, co): the region's result at the array's place. -/
theorem stem_outsAt_apply (c : Dev nD) (t : Fin cfg0.N) (r : Fin 113) (q : Fin 232) (co : Fin 64) :
    outsAt0 (F := Ideal) V c t (ix4 (0 : Fin 1) r q co) = stemGf V c (t.val / 2) (113 * (t.val % 2) + r.val) q.val co.val := by
  have hr := r.isLt
  have hq := q.isLt
  unfold stemGf
  rw [← stem_pay2_blocks V c t r q co]
  by_cases h0 : t.val % 2 = 0
  · rw [outsAt0_A V c t h0]
    refine (stem_out_A_apply (F := Ideal) c (grid0.coords t) (ms0_0 t) (hs0_0 t) (ms0_1 t) (hs0_1 t) (ms0_2 t) (hs0_2 t) (ms0_3 t) (hs0_3 t)
      (hcase0_A t h0).1 (hcase0_A t h0).2 (iblk0 V c 0 t) (iblk0 V c 1 t) (iblk0 V c 2 t) r q co).trans ?_
    rw [stem_pay6_apply, stem_pay5_apply, stem_pay4_apply]
    by_cases hr0 : r.val = 0
    · have hc : 113 * (t.val % 2) + r.val = 0 ∨ 113 * (t.val % 2) + r.val = 225 ∨ q.val = 0 ∨ q.val = 225 := by omega
      rw [if_pos hr0, if_pos hc]
    rw [if_neg hr0]
    by_cases h225 : q.val = 225
    · have hc : 113 * (t.val % 2) + r.val = 0 ∨ 113 * (t.val % 2) + r.val = 225 ∨ q.val = 0 ∨ q.val = 225 := by omega
      rw [if_pos h225, if_pos hc]
    rw [if_neg h225]
    by_cases hq0 : q.val = 0
    · have hc : 113 * (t.val % 2) + r.val = 0 ∨ 113 * (t.val % 2) + r.val = 225 ∨ q.val = 0 ∨ q.val = 225 := by omega
      rw [if_pos hq0, if_pos hc]
    have hc : ¬(113 * (t.val % 2) + r.val = 0 ∨ 113 * (t.val % 2) + r.val = 225 ∨ q.val = 0 ∨ q.val = 225) := by omega
    rw [if_neg hq0, if_neg hc]
  · rw [outsAt0_B V c t h0]
    refine (stem_out_B_apply (F := Ideal) c (grid0.coords t) (ms0_0 t) (hs0_0 t) (ms0_1 t) (hs0_1 t) (ms0_2 t) (hs0_2 t) (ms0_3 t) (hs0_3 t)
      (hcase0_B t h0).1 (hcase0_B t h0).2 (iblk0 V c 0 t) (iblk0 V c 1 t) (iblk0 V c 2 t) r q co).trans ?_
    rw [stem_pay1_apply, stem_pay5_apply, stem_pay4_apply]
    by_cases hr0 : r.val = 112
    · have hc : 113 * (t.val % 2) + r.val = 0 ∨ 113 * (t.val % 2) + r.val = 225 ∨ q.val = 0 ∨ q.val = 225 := by omega
      rw [if_pos hr0, if_pos hc]
    rw [if_neg hr0]
    by_cases h225 : q.val = 225
    · have hc : 113 * (t.val % 2) + r.val = 0 ∨ 113 * (t.val % 2) + r.val = 225 ∨ q.val = 0 ∨ q.val = 225 := by omega
      rw [if_pos h225, if_pos hc]
    rw [if_neg h225]
    by_cases hq0 : q.val = 0
    · have hc : 113 * (t.val % 2) + r.val = 0 ∨ 113 * (t.val % 2) + r.val = 225 ∨ q.val = 0 ∨ q.val = 225 := by omega
      rw [if_pos hq0, if_pos hc]
    have hc : ¬(113 * (t.val % 2) + r.val = 0 ∨ 113 * (t.val % 2) + r.val = 225 ∨ q.val = 0 ∨ q.val = 225) := by omega
    rw [if_neg hq0, if_neg hc]

/-! ## The output array after the region -/

/-- The region's result as contents of the output array. -/
def stemG (c : Dev nD) : S8x226x232x64.Idx → EReal := fun k => stemGf V c (k 0).val (k 1).val (k 2).val (k 3).val

theorem stem_exists_ix4 (y : S1x113x232x64.Idx) : ∃ (r : Fin 113) (q : Fin 232) (co : Fin 64), y = ix4 (0 : Fin 1) r q co :=
  ⟨y 1, y 2, y 3, (eq_ix4 y).trans (by rw [Fin.fin_one_eq_zero (y 0)]; rfl)⟩

/-- What point t writes back is its block of the result. -/
theorem stem_flushed_eq (c : Dev nD) (t : Fin cfg0.N) (hf : (cfg0.win 3).flush t = true) :
    (dat0 (F := Ideal) V c).flushed 3 t = ((cfg0.win 3).blk t).view.read (Elt Ideal) (stemG V c) := by
  obtain ⟨i0, i1, i2, i3, -⟩ := stem_geo3 t
  funext y
  obtain ⟨r, q, co, rfl⟩ := stem_exists_ix4 y
  show (cfg0.win 3).cut (grid0.coords t) ((dat0 V c).after 3 t) (ix4 (0 : Fin 1) r q co) = _
  rw [after0_3, View.read_apply]
  show outsAt0 V c t (ix4 (0 : Fin 1) r q co) = stemG V c (((cfg0.win 3).blk t).view.emb (ix4 (0 : Fin 1) r q co))
  refine (stem_outsAt_apply V c t r q co).trans ?_
  have e0 : ((((cfg0.win 3).blk t).view.emb (ix4 (0 : Fin 1) r q co)) 0).val = t.val / 2 := by
    show win0_3.index t 0 * 1 + 1 * 0 = _; rw [i0]; omega
  have e1 : ((((cfg0.win 3).blk t).view.emb (ix4 (0 : Fin 1) r q co)) 1).val = 113 * (t.val % 2) + r.val := by
    show win0_3.index t 1 * 113 + 1 * r.val = _; rw [i1]; omega
  have e2 : ((((cfg0.win 3).blk t).view.emb (ix4 (0 : Fin 1) r q co)) 2).val = q.val := by
    show win0_3.index t 2 * 232 + 1 * q.val = _; rw [i2]; omega
  have e3 : ((((cfg0.win 3).blk t).view.emb (ix4 (0 : Fin 1) r q co)) 3).val = co.val := by
    show win0_3.index t 3 * 64 + 1 * co.val = _; rw [i3]; omega
  unfold stemG
  exact (congr (congr (congr (congrArg (stemGf V c) e0) e1) e2) e3).symm

/-- Every index of the output array is in the block of the point of its image and row block. -/
theorem stem_cover (c : Dev nD) (i : ((cfg0.win 3).arr.view.loc (c.tc : Thread nD τ)).2.ty.Idx) :
    ∃ t : Fin cfg0.N, (cfg0.win 3).flush t = true ∧ i ∈ ((cfg0.win 3).blk t).view.set := by
  have hN : cfg0.N = 16 := N_0
  have b0 : (i 0 : ℕ) < 8 := (i 0).isLt
  have b1 : (i 1 : ℕ) < 226 := (i 1).isLt
  have b2 : (i 2 : ℕ) < 232 := (i 2).isLt
  have b3 : (i 3 : ℕ) < 64 := (i 3).isLt
  have hlt : 2 * (i 0 : ℕ) + (i 1 : ℕ) / 113 < cfg0.N := by omega
  refine ⟨⟨2 * (i 0 : ℕ) + (i 1 : ℕ) / 113, hlt⟩, flush0_3 _, ?_⟩
  obtain ⟨i0, i1, i2, i3, z0, z1, z2, z3⟩ := stem_geo3 (⟨2 * (i 0 : ℕ) + (i 1 : ℕ) / 113, hlt⟩ : Fin cfg0.N)
  show i ∈ ((View.whole main_v15).slice (win0_3.rect (⟨2 * (i 0 : ℕ) + (i 1 : ℕ) / 113, hlt⟩ : Fin cfg0.N))).set
  rw [View.set_slice_whole, Rect.mem_set_unit]
  intro a
  match a with
  | ⟨0, _⟩ =>
    show win0_3.index _ 0 * 1 ≤ (i 0 : ℕ) ∧ (i 0 : ℕ) < win0_3.index _ 0 * 1 + win0_3.xsize _ 0
    rw [i0, z0]; dsimp only; omega
  | ⟨1, _⟩ =>
    show win0_3.index _ 1 * 113 ≤ (i 1 : ℕ) ∧ (i 1 : ℕ) < win0_3.index _ 1 * 113 + win0_3.xsize _ 1
    rw [i1, z1]; dsimp only; omega
  | ⟨2, _⟩ =>
    show win0_3.index _ 2 * 232 ≤ (i 2 : ℕ) ∧ (i 2 : ℕ) < win0_3.index _ 2 * 232 + win0_3.xsize _ 2
    rw [i2, z2]; omega
  | ⟨3, _⟩ =>
    show win0_3.index _ 3 * 64 ≤ (i 3 : ℕ) ∧ (i 3 : ℕ) < win0_3.index _ 3 * 64 + win0_3.xsize _ 3
    rw [i3, z3]; omega

/-- So the output array ends holding the result. -/
theorem stem_final (c : Dev nD) : (dat0 (F := Ideal) V c).arrAt 3 cfg0.N = stemG V c :=
  (dat0 (F := Ideal) V c).arrAt_eq_of_cover 3 (stemG V c) (stem_flushed_eq V c) (stem_cover c)

/-- The stem's value: on columns below 226 the output array is the dense layer over the stacked taps inside the
    224 x 224 image and zero on its one-pixel border. -/
theorem stem_value (c : Dev nD) (b I J co : ℕ) (hb : b < 8) (hI : I < 226) (hJ : J < 226) (hco : co < 64) :
    Cert.Spec.arr4 ((dat0 (F := Ideal) V c).arrAt 3 cfg0.N : S8x226x232x64.Idx → EReal) b I J co
      = Cert.Spec.maskPad 224 224 (Cert.Spec.dense 27 (Cert.Spec.arr4 (xarr0 V c)) (Cert.Spec.arr2 (warr0 V c))
          (Cert.Spec.arr2 (barr0 V c))) b I J co := by
  refine (congrArg (fun A : S8x226x232x64.Idx → EReal => Cert.Spec.arr4 A b I J co) (stem_final V c)).trans ?_
  refine (Cert.Spec.arr4_apply (stemG V c) (⟨b, hb⟩ : Fin 8) (⟨I, hI⟩ : Fin 226) (⟨J, by omega⟩ : Fin 232) (⟨co, hco⟩ : Fin 64)).trans ?_
  show stemGf V c b I J co = _
  unfold stemGf Cert.Spec.maskPad
  by_cases h : 1 ≤ I ∧ I ≤ 224 ∧ 1 ≤ J ∧ J ≤ 224
  · have hc : ¬(I = 0 ∨ I = 225 ∨ J = 0 ∨ J = 225) := by omega
    rw [if_pos h, if_neg hc]
  · have hc : I = 0 ∨ I = 225 ∨ J = 0 ∨ J = 225 := by omega
    rw [if_neg h, if_pos hc]

end Cert.KernelIdeal.Val

end
-- ==== Proof.KV1Pay.lean ====
/-
  The payload of kernel region 1 read at one entry, at the ideal values. The body's one whole-block store writes, at
  pooled row `i`, column `j`, output channel `co` of its block, the larger of the two convolution rows `2i` and `2i+1`
  there; a convolution row `h` at `(j, co)` is the ReLU of the bias plus the sum over the 576 lanes `K` of the nine
  lane-concatenated taps — lane `K` is tap `K / 64` (row offset `K / 64 / 3`, column band `K / 64 % 3`) at input
  channel `K % 64` — times row `K` of the flattened weights. The row-pair maximum is a reduction over an axis of
  extent two started from minus infinity, which the maximum absorbs.
-/
import proofs.«100114_g2000204297211070_pallasbulk_1265_19_alg».proof.Proof.Gen.KernelIdeal.Skeleton
import proofs.«100114_g2000204297211070_pallasbulk_1265_19_alg».proof.Proof.Spec
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Val

open Cert.KernelIdeal Cert.KernelIdeal.Gen Cert.Spec
open Idealize.ShloMosaic Idealize.ShloMosaic.ValueIdx

/-- The block product into the zero accumulator, at an entry: the sum over the contracted coordinate. -/
theorem mm1_apply (A : FVec Ideal S7168x576 .bf16) (B : FVec Ideal S576x64 .bf16) (a : Fin 7168) (b : Fin 64) :
    matmul dot_S7168x576_S576x64_S7168x64_1_0_0_1_n_n none A B (constant S7168x64 .f32 0x00000000#32) (ix2 a b)
      = ∑ c : Fin 576, A (ix2 a c) * B (ix2 c b) := by
  show FloatOps.matmul dot_S7168x576_S576x64_S7168x64_1_0_0_1_n_n none A B _ (ix2 a b) = _
  rw [Ideal.matmul_constant_zero_apply, ← Equiv.sum_comp (contrEquiv1 dot_S7168x576_S576x64_S7168x64_1_0_0_1_n_n 576 rfl rfl).symm]
  refine Finset.sum_congr rfl fun c _ => ?_
  have c2 := contrEquiv1_symm_val dot_S7168x576_S576x64_S7168x64_1_0_0_1_n_n 576 rfl rfl c
  have l2 : (dot_S7168x576_S576x64_S7168x64_1_0_0_1_n_n).lhsIdx (ix2 a b) ((contrEquiv1 _ 576 rfl rfl).symm c) = ix2 a c := by
    funext ax; apply Fin.ext
    match ax with
    | ⟨0, _⟩ => simp [DotDims.lhsIdx, dot_S7168x576_S576x64_S7168x64_1_0_0_1_n_n]; rfl
    | ⟨1, _⟩ => simp [DotDims.lhsIdx, dot_S7168x576_S576x64_S7168x64_1_0_0_1_n_n]; exact c2
  have r2 : (dot_S7168x576_S576x64_S7168x64_1_0_0_1_n_n).rhsIdx (ix2 a b) ((contrEquiv1 _ 576 rfl rfl).symm c) = ix2 c b := by
    funext ax; apply Fin.ext
    match ax with
    | ⟨0, _⟩ => simp [DotDims.rhsIdx, dot_S7168x576_S576x64_S7168x64_1_0_0_1_n_n]; exact c2
    | ⟨1, _⟩ => simp [DotDims.rhsIdx, dot_S7168x576_S576x64_S7168x64_1_0_0_1_n_n]; rfl
  rw [l2, r2]

/-- One tap: the band `v` (the 34 rows of the padded block a tile reads) with its unit axis dropped, cut from row `dy`,
    at an entry. -/
theorem band1_apply (v : Vec Ideal S1x34x224x64 .bf16) (dy : ℕ) (hdy : dy ≤ 2) (h : S34x224x64.Slices ![dy, 0, 0] S32x224x64)
    (r : Fin 32) (j : Fin 224) (l : Fin 64) :
    extractStridedSlice S32x224x64 ![dy, 0, 0] (shapeCast S34x224x64 v shapeCasts_S1x34x224x64_S34x224x64) h (ix3 r j l)
      = arr4 v 0 (r.val + dy) j.val l.val := by
  have hR : r.val + dy < 34 := by omega
  refine (extractStridedSlice_apply _ _ h (ix3 r j l) (ix3 ⟨r.val + dy, hR⟩ j l) (fun a => ?_)).trans ?_
  · match a with
    | ⟨0, _⟩ => exact Nat.add_comm _ _
    | ⟨1, _⟩ => exact (Nat.zero_add _).symm
    | ⟨2, _⟩ => exact (Nat.zero_add _).symm
  · refine (shapeCast_1abc_abc_apply v _ ⟨r.val + dy, hR⟩ j l).trans ?_
    exact (arr4_apply v (0 : Fin 1) ⟨r.val + dy, hR⟩ j l).symm

/-- The maximum over an axis of extent two, started from `b`. -/
theorem fold_max_pair1 (b : EReal) (f : Fin 2 → EReal) :
    (Finset.univ : Finset (Fin 2)).fold max b f = max (f 0) (max (f 1) b) := by
  rw [show (Finset.univ : Finset (Fin 2)) = insert 0 {1} from by decide, Finset.fold_insert (by decide), Finset.fold_singleton]

variable (v3 v6 v9 : Vec Ideal S1x34x224x64 .bf16) (v22 : Vec Ideal S576x64 .bf16) (v25 : Vec Ideal S1x64 .f32)

/-- The three loaded bands, by column offset, as one total function: band `dx` at row `R`, column `j`, channel `l`. -/
def tap1 (dx R j l : ℕ) : EReal :=
  if dx = 0 then arr4 v3 0 R j l else if dx = 1 then arr4 v6 0 R j l else arr4 v9 0 R j l

/-- The nine taps in the concatenation's order: tap `n` is the band at column offset `n % 3` cut from row `n / 3`. -/
def pieces1 : Fin 9 → (S32x224x64.Idx → EReal) :=
  ![extractStridedSlice S32x224x64 ![0, 0, 0] (shapeCast S34x224x64 v3 shapeCasts_S1x34x224x64_S34x224x64) slices_S34x224x64_o0_0_0_S32x224x64,
    extractStridedSlice S32x224x64 ![0, 0, 0] (shapeCast S34x224x64 v6 shapeCasts_S1x34x224x64_S34x224x64) slices_S34x224x64_o0_0_0_S32x224x64,
    extractStridedSlice S32x224x64 ![0, 0, 0] (shapeCast S34x224x64 v9 shapeCasts_S1x34x224x64_S34x224x64) slices_S34x224x64_o0_0_0_S32x224x64,
    extractStridedSlice S32x224x64 ![1, 0, 0] (shapeCast S34x224x64 v3 shapeCasts_S1x34x224x64_S34x224x64) slices_S34x224x64_o1_0_0_S32x224x64,
    extractStridedSlice S32x224x64 ![1, 0, 0] (shapeCast S34x224x64 v6 shapeCasts_S1x34x224x64_S34x224x64) slices_S34x224x64_o1_0_0_S32x224x64,
    extractStridedSlice S32x224x64 ![1, 0, 0] (shapeCast S34x224x64 v9 shapeCasts_S1x34x224x64_S34x224x64) slices_S34x224x64_o1_0_0_S32x224x64,
    extractStridedSlice S32x224x64 ![2, 0, 0] (shapeCast S34x224x64 v3 shapeCasts_S1x34x224x64_S34x224x64) slices_S34x224x64_o2_0_0_S32x224x64,
    extractStridedSlice S32x224x64 ![2, 0, 0] (shapeCast S34x224x64 v6 shapeCasts_S1x34x224x64_S34x224x64) slices_S34x224x64_o2_0_0_S32x224x64,
    extractStridedSlice S32x224x64 ![2, 0, 0] (shapeCast S34x224x64 v9 shapeCasts_S1x34x224x64_S34x224x64) slices_S34x224x64_o2_0_0_S32x224x64]

theorem pieces1_apply (n : Fin 9) (r : Fin 32) (j : Fin 224) (l : Fin 64) :
    pieces1 v3 v6 v9 n (ix3 r j l) = tap1 v3 v6 v9 (n.val % 3) (r.val + n.val / 3) j.val l.val := by
  match n with
  | ⟨0, _⟩ => exact (band1_apply v3 0 (by decide) slices_S34x224x64_o0_0_0_S32x224x64 r j l).trans (by simp [tap1])
  | ⟨1, _⟩ => exact (band1_apply v6 0 (by decide) slices_S34x224x64_o0_0_0_S32x224x64 r j l).trans (by simp [tap1])
  | ⟨2, _⟩ => exact (band1_apply v9 0 (by decide) slices_S34x224x64_o0_0_0_S32x224x64 r j l).trans (by simp [tap1])
  | ⟨3, _⟩ => exact (band1_apply v3 1 (by decide) slices_S34x224x64_o1_0_0_S32x224x64 r j l).trans (by simp [tap1])
  | ⟨4, _⟩ => exact (band1_apply v6 1 (by decide) slices_S34x224x64_o1_0_0_S32x224x64 r j l).trans (by simp [tap1])
  | ⟨5, _⟩ => exact (band1_apply v9 1 (by decide) slices_S34x224x64_o1_0_0_S32x224x64 r j l).trans (by simp [tap1])
  | ⟨6, _⟩ => exact (band1_apply v3 2 (by decide) slices_S34x224x64_o2_0_0_S32x224x64 r j l).trans (by simp [tap1])
  | ⟨7, _⟩ => exact (band1_apply v6 2 (by decide) slices_S34x224x64_o2_0_0_S32x224x64 r j l).trans (by simp [tap1])
  | ⟨8, _⟩ => exact (band1_apply v9 2 (by decide) slices_S34x224x64_o2_0_0_S32x224x64 r j l).trans (by simp [tap1])
  | ⟨_ + 9, h⟩ => exact absurd h (by omega)

/-- The concatenation of the nine taps along the lanes, at lane `c`: tap `c / 64` at channel `c % 64`. -/
theorem cat1_apply (r : Fin 32) (j : Fin 224) (c : Fin 576) :
    concatenate S32x224x576 2 [⟨S32x224x64, extractStridedSlice S32x224x64 ![0, 0, 0] (shapeCast S34x224x64 v3 shapeCasts_S1x34x224x64_S34x224x64) slices_S34x224x64_o0_0_0_S32x224x64⟩,
      ⟨S32x224x64, extractStridedSlice S32x224x64 ![0, 0, 0] (shapeCast S34x224x64 v6 shapeCasts_S1x34x224x64_S34x224x64) slices_S34x224x64_o0_0_0_S32x224x64⟩,
      ⟨S32x224x64, extractStridedSlice S32x224x64 ![0, 0, 0] (shapeCast S34x224x64 v9 shapeCasts_S1x34x224x64_S34x224x64) slices_S34x224x64_o0_0_0_S32x224x64⟩,
      ⟨S32x224x64, extractStridedSlice S32x224x64 ![1, 0, 0] (shapeCast S34x224x64 v3 shapeCasts_S1x34x224x64_S34x224x64) slices_S34x224x64_o1_0_0_S32x224x64⟩,
      ⟨S32x224x64, extractStridedSlice S32x224x64 ![1, 0, 0] (shapeCast S34x224x64 v6 shapeCasts_S1x34x224x64_S34x224x64) slices_S34x224x64_o1_0_0_S32x224x64⟩,
      ⟨S32x224x64, extractStridedSlice S32x224x64 ![1, 0, 0] (shapeCast S34x224x64 v9 shapeCasts_S1x34x224x64_S34x224x64) slices_S34x224x64_o1_0_0_S32x224x64⟩,
      ⟨S32x224x64, extractStridedSlice S32x224x64 ![2, 0, 0] (shapeCast S34x224x64 v3 shapeCasts_S1x34x224x64_S34x224x64) slices_S34x224x64_o2_0_0_S32x224x64⟩,
      ⟨S32x224x64, extractStridedSlice S32x224x64 ![2, 0, 0] (shapeCast S34x224x64 v6 shapeCasts_S1x34x224x64_S34x224x64) slices_S34x224x64_o2_0_0_S32x224x64⟩,
      ⟨S32x224x64, extractStridedSlice S32x224x64 ![2, 0, 0] (shapeCast S34x224x64 v9 shapeCasts_S1x34x224x64_S34x224x64) slices_S34x224x64_o2_0_0_S32x224x64⟩]
      concatenates_S32x224x64_S32x224x64_S32x224x64_S32x224x64_S32x224x64_S32x224x64_S32x224x64_S32x224x64_S32x224x64_S32x224x576_d2 (ix3 r j c)
      = tap1 v3 v6 v9 (c.val / 64 % 3) (r.val + c.val / 64 / 3) j.val (c.val % 64) := by
  have hn : c.val / 64 < 9 := by have := c.isLt; omega
  have hl : c.val % 64 < 64 := Nat.mod_lt _ (by decide)
  refine (concatenate_ofFn_apply (t := S32x224x576) (s₁ := S32x224x64) 2 (pieces1 v3 v6 v9) concatenates_S32x224x64_S32x224x64_S32x224x64_S32x224x64_S32x224x64_S32x224x64_S32x224x64_S32x224x64_S32x224x64_S32x224x576_d2 rfl 64 rfl
    (ix3 r j c) ⟨c.val / 64, hn⟩ rfl (ix3 r j ⟨c.val % 64, hl⟩) rfl ?_).trans ?_
  · intro b hb
    match b with
    | ⟨0, _⟩ => rfl
    | ⟨1, _⟩ => rfl
    | ⟨2, _⟩ => exact absurd rfl hb
  · exact pieces1_apply v3 v6 v9 ⟨c.val / 64, hn⟩ r j ⟨c.val % 64, hl⟩

/-- One convolution row of the tile at column `j`, output channel `co`: bias plus the sum over the lanes, then ReLU. -/
def crow1 (h j co : ℕ) : EReal :=
  max ((∑ K ∈ Finset.range 576, tap1 v3 v6 v9 (K / 64 % 3) (h + K / 64 / 3) j (K % 64) * arr2 v22 K co) + arr2 v25 0 co) 0

/-- The payload at an entry of the output block: the larger of convolution rows `2i` and `2i+1`. -/
theorem pay1_apply (i : Fin 16) (j : Fin 224) (co : Fin 64) :
    k1_pay1 v3 v6 v9 v22 v25 (ix4 (0 : Fin 1) i j co)
      = max (crow1 v3 v6 v9 v22 v25 (2 * i.val) j.val co.val) (crow1 v3 v6 v9 v22 v25 (2 * i.val + 1) j.val co.val) := by
  have hne : Ideal.ofBits .f32 0xFF800000#32 = ⊥ := by simp [Ideal.ofBits, Ideal.ieee]
  rw [Nat.mul_comm 2 i.val]
  unfold k1_pay1
  refine (shapeCast_abc_1abc_apply _ _ (0 : Fin 1) i j co).trans ?_
  -- the narrowing to bf16 is the identity at the ideal values; under it, the maximum over the row pair
  refine (truncf_apply (φ := .f32) (ψ := .bf16) _ bitsLt_bf16_f32 (ix3 i j co)).trans ?_
  refine (Ideal.multiReduction_maximumf_single _ _ reduces_S16x2x224x64_S16x224x64 _ _ (ix3 i j co)).trans ?_
  refine (fold_max_pair1 _ _).trans ?_
  suffices h : ∀ r : Fin 2, (Function.comp _ (Shape.Reduces.lift reduces_S16x2x224x64_S16x224x64 (ix3 i j co))) r
      = crow1 v3 v6 v9 v22 v25 (i.val * 2 + r.val) j.val co.val from
    congrArg₂ max (h 0) ((congrArg₂ max (h 1) hne).trans (max_bot_right _))
  intro r
  have hh : i.val * 2 + r.val < 32 := by have := i.isLt; have := r.isLt; omega
  have hp : (i.val * 2 + r.val) * 224 + j.val < 7168 := by have := j.isLt; omega
  unfold crow1
  -- row `2i + r` of the tile's convolution: position `(2i + r) * 224 + j` of the flattened product
  refine (shapeCast_apply _ _ (Shape.Reduces.lift reduces_S16x2x224x64_S16x224x64 (ix3 i j co) r) (ix2 ⟨(i.val * 2 + r.val) * 224 + j.val, hp⟩ co) ?_).trans ?_
  · rw [Shape.rowMajor_val_two, Shape.rowMajor_val_four]; rfl
  refine congrArg₂ max ?_ ?_
  swap
  · exact Ideal.ofBits_zero_f32
  refine congrArg₂ (· + ·) ?_ ?_
  swap
  · refine (broadcastTo_1b_ab_apply v25 _ ⟨(i.val * 2 + r.val) * 224 + j.val, hp⟩ co).trans ?_
    exact (arr2_apply v25 (0 : Fin 1) co).symm
  refine (mm1_apply _ _ ⟨(i.val * 2 + r.val) * 224 + j.val, hp⟩ co).trans ?_
  rw [← Fin.sum_univ_eq_sum_range (fun K => tap1 v3 v6 v9 (K / 64 % 3) (i.val * 2 + r.val + K / 64 / 3) j.val (K % 64) * arr2 v22 K co.val) 576]
  refine Finset.sum_congr rfl fun c _ => ?_
  refine congrArg₂ (· * ·) ?_ ?_
  · refine (shapeCast_apply _ _ (ix2 ⟨(i.val * 2 + r.val) * 224 + j.val, hp⟩ c) (ix3 ⟨i.val * 2 + r.val, hh⟩ j c) ?_).trans ?_
    · rw [Shape.rowMajor_val_two, Shape.rowMajor_val_three]; rfl
    exact cat1_apply v3 v6 v9 ⟨i.val * 2 + r.val, hh⟩ j c
  · rw [shapeCast_self]
    exact (arr2_apply v22 c co).symm

end Cert.KernelIdeal.Val

end
-- ==== Proof.KV1.lean ====
/-
  The value of kernel region 1: its output array after the pipeline, entry by entry, at the ideal values. Point `t` of
  the grid is tile `t % 7` of image `t / 7`; its body loads three column-shifted bands of 34 rows of the image's
  padded block, from row `32 · (t % 7)`, and stores 16 pooled rows; entry `(i, j, co)` of what it stores is the larger
  of rows `2i` and `2i + 1` of the tile's convolution, which are rows `2 · (16 · (t % 7) + i)` and the next of the image's.
  The output blocks tile the output array, so every entry of the array is the row-pair maximum of the convolution.
-/
import proofs.«100114_g2000204297211070_pallasbulk_1265_19_alg».proof.Proof.KR1
import proofs.«100114_g2000204297211070_pallasbulk_1265_19_alg».proof.Proof.KV1Pay
import Idealize.ShloMosaic.Lib.Pipeline.Value
import Idealize.ShloMosaic.Lib.Tactic

set_option maxRecDepth 16384

noncomputable section

open scoped BigOperators

namespace Cert.KernelIdeal.Val

open Cert.KernelIdeal Cert.KernelIdeal.Gen Cert.KernelIdeal.Reg Cert.Spec
open Idealize.ShloMosaic Idealize.ShloMosaic.TcCoe Idealize.ShloMosaic.Tactic Idealize.ShloMosaic.ValueIdx
open Idealize.SL.Sem
open Idealize.ShloMosaic.Pipeline (Dat)

variable (V : (c : Dev nD) → (b : Ref sig .tc) → Buf (Elt Ideal) ((c : Thread nD τ).loc b))

private theorem hz4 : (![0, 0, 0, 0] : Fin 4 → Nat) = fun _ => 0 := funext fun a => by fin_cases a <;> rfl
private theorem hz2 : (![0, 0] : Fin 2 → Nat) = fun _ => 0 := funext fun a => by fin_cases a <;> rfl

/-- The region's arrays as it finds them, by their literal types: the padded input, the flattened weights, the bias. -/
abbrev xarr1 (c : Dev nD) : Vec Ideal S8x226x232x64 .bf16 := V c (Pipeline.arrRef spec1 0)
abbrev warr1 (c : Dev nD) : Vec Ideal S576x64 .bf16 := V c (Pipeline.arrRef spec1 1)
abbrev barr1 (c : Dev nD) : Vec Ideal S1x64 .f32 := V c (Pipeline.arrRef spec1 2)

/-- Which block of its array each window is on at point `t`, and the point's second grid coordinate. -/
theorem idx1 : ∀ t : Fin grid1.N,
    (win1_0.index t 0 = t.val / 7 ∧ win1_0.index t 1 = 0 ∧ win1_0.index t 2 = 0 ∧ win1_0.index t 3 = 0)
    ∧ (win1_1.index t 0 = 0 ∧ win1_1.index t 1 = 0) ∧ (win1_2.index t 0 = 0 ∧ win1_2.index t 1 = 0)
    ∧ (win1_3.index t 0 = t.val / 7 ∧ win1_3.index t 1 = t.val % 7 ∧ win1_3.index t 2 = 0 ∧ win1_3.index t 3 = 0)
    ∧ (grid1.coords t 1).val = t.val % 7 := by decide +kernel

/-! ## What the run leaves in the output's staging buffer: the payload of the loaded blocks -/

theorem out1_eq (c : Dev nD) (i : grid1.Coords) (arg2 : Memref sig .tc .vmem S1x226x232x64 .bf16) (harg2 : arg2.IsWhole) (arg3 : Memref sig .tc .vmem S576x64 .bf16) (harg3 : arg3.IsWhole) (arg4 : Memref sig .tc .vmem S1x64 .f32) (harg4 : arg4.IsWhole) (arg5 : Memref sig .tc .vmem S1x16x224x64 .bf16) (harg5 : arg5.IsWhole)
    (x0 : Vec Ideal S1x226x232x64 .bf16) (x1 : Vec Ideal S576x64 .bf16) (x2 : Vec Ideal S1x64 .f32) :
    out1_A_3 (F := Ideal) c i arg2 harg2 arg3 harg3 arg4 harg4 arg5 harg5 x0 x1 x2
      = k1_pay1 (View.ld x0 (Rect.unit (s := S1x226x232x64) (k1_off1 i) S1x34x224x64.size (k1_off1_inb i)))
      (View.ld x0 (Rect.unit (s := S1x226x232x64) (k1_off2 i) S1x34x224x64.size (k1_off2_inb i)))
      (View.ld x0 (Rect.unit (s := S1x226x232x64) (k1_off3 i) S1x34x224x64.size (k1_off3_inb i))) x1 x2 := by
  unfold out1_A_3
  rw [View.read_writes_eq_canon _ _ _ (cover1_A_3 c i arg2 harg2 arg3 harg3 arg4 harg4 arg5 harg5 x0 x1 x2)]
  unfold kernelRun1_A
  dsimp only
  try sl_unfold_words
  rw [View.canon_unit_zero hz4]
  simp only [View.readAt_eq_ld, harg2.read_unread, harg3.read_unread, harg4.read_unread, View.ld_unit_zero (S := S576x64) hz2, View.ld_unit_zero (S := S1x64) hz2]

/-! ## The loaded bands and blocks as entries of the arrays -/

/-- A band of the block loaded from row `ro`, column `dx`, read as a total function of its coordinates. -/
theorem ldband1 (x0 : Vec Ideal S1x226x232x64 .bf16) (off : Fin 4 → ℕ) (inb : ∀ a, off a + S1x34x224x64.size a ≤ S1x226x232x64.size a)
    (ro dx : ℕ) (hoff : off = ![0, ro, dx, 0]) (R j l : ℕ) (hR : R < 34) (hj : j < 224) (hl : l < 64) :
    arr4 (View.ld x0 (Rect.unit (s := S1x226x232x64) off S1x34x224x64.size inb) : Vec Ideal S1x34x224x64 .bf16) 0 R j l
      = arr4 x0 0 (ro + R) (dx + j) l := by
  subst hoff
  have hro : ro + 34 ≤ 226 := by have h := inb ⟨1, by decide⟩; exact h
  have hdx : dx + 224 ≤ 232 := by have h := inb ⟨2, by decide⟩; exact h
  refine (arr4_apply _ (0 : Fin 1) ⟨R, hR⟩ ⟨j, hj⟩ ⟨l, hl⟩).trans ?_
  refine Eq.trans ?_ (arr4_apply x0 (0 : Fin 1) ⟨ro + R, by omega⟩ ⟨dx + j, by omega⟩ ⟨l, hl⟩).symm
  show x0 _ = x0 _
  congr 1
  funext a
  apply Fin.ext
  match a with
  | ⟨0, _⟩ => rfl
  | ⟨1, _⟩ => show ro + 1 * R = ro + R; omega
  | ⟨2, _⟩ => show dx + 1 * j = dx + j; omega
  | ⟨3, _⟩ => show 0 + 1 * l = l; omega

/-- The three bands the body loads at grid position `i`, as entries of the block: band `dx` at `(R, j, l)` is the block at
    row `32 · i₁ + R`, column `dx + j`. -/
theorem tap1_ld (x0 : Vec Ideal S1x226x232x64 .bf16) (i : grid1.Coords) (dx R j l : ℕ) (hdx : dx < 3) (hR : R < 34) (hj : j < 224) (hl : l < 64) :
    tap1 (View.ld x0 (Rect.unit (s := S1x226x232x64) (k1_off1 i) S1x34x224x64.size (k1_off1_inb i)))
      (View.ld x0 (Rect.unit (s := S1x226x232x64) (k1_off2 i) S1x34x224x64.size (k1_off2_inb i)))
      (View.ld x0 (Rect.unit (s := S1x226x232x64) (k1_off3 i) S1x34x224x64.size (k1_off3_inb i))) dx R j l
      = arr4 x0 0 (32 * (i 1).val + R) (dx + j) l := by
  unfold tap1
  interval_cases dx
  · rw [if_pos rfl]; exact ldband1 x0 _ _ _ 0 (k1_off1_eq i) R j l hR hj hl
  · rw [if_neg (by decide), if_pos rfl]; exact ldband1 x0 _ _ _ 1 (k1_off2_eq i) R j l hR hj hl
  · rw [if_neg (by decide), if_neg (by decide)]; exact ldband1 x0 _ _ _ 2 (k1_off3_eq i) R j l hR hj hl

/-- The input window's block at point `t` is image `t / 7` of the padded input. -/
theorem iblk1_0_arr (c : Dev nD) (t : Fin cfg1.N) (R w l : ℕ) (hR : R < 226) (hw : w < 232) (hl : l < 64) :
    arr4 (iblk1 V c 0 t : Vec Ideal S1x226x232x64 .bf16) 0 R w l = arr4 (xarr1 V c) (t.val / 7) R w l := by
  have hb : t.val / 7 < 8 := by have : t.val < 8 * 7 := t.isLt; omega
  obtain ⟨⟨h0, h1, h2, h3⟩, -⟩ := idx1 t
  refine (arr4_apply _ (0 : Fin 1) ⟨R, hR⟩ ⟨w, hw⟩ ⟨l, hl⟩).trans ?_
  refine Eq.trans ?_ (arr4_apply (xarr1 V c) ⟨t.val / 7, hb⟩ ⟨R, hR⟩ ⟨w, hw⟩ ⟨l, hl⟩).symm
  unfold iblk1
  rw [View.read_apply]
  show V c (Pipeline.arrRef spec1 0) _ = V c (Pipeline.arrRef spec1 0) _
  congr 1
  funext a
  apply Fin.ext
  match a with
  | ⟨0, _⟩ => show win1_0.index t 0 * 1 + 1 * 0 = t.val / 7; rw [h0]; omega
  | ⟨1, _⟩ => show win1_0.index t 1 * 226 + 1 * R = R; rw [h1]; omega
  | ⟨2, _⟩ => show win1_0.index t 2 * 232 + 1 * w = w; rw [h2]; omega
  | ⟨3, _⟩ => show win1_0.index t 3 * 64 + 1 * l = l; rw [h3]; omega

/-- The weights' and the bias's blocks are their whole arrays at every point. -/
theorem iblk1_1_eq (c : Dev nD) (t : Fin cfg1.N) : (iblk1 V c 1 t : Vec Ideal S576x64 .bf16) = warr1 V c := by
  obtain ⟨-, ⟨h0, h1⟩, -⟩ := idx1 t
  funext y
  unfold iblk1
  rw [View.read_apply]
  show V c (Pipeline.arrRef spec1 1) _ = V c (Pipeline.arrRef spec1 1) y
  congr 1
  funext a
  apply Fin.ext
  match a with
  | ⟨0, _⟩ => show win1_1.index t 0 * 576 + 1 * (y 0).val = (y 0).val; rw [h0]; omega
  | ⟨1, _⟩ => show win1_1.index t 1 * 64 + 1 * (y 1).val = (y 1).val; rw [h1]; omega

theorem iblk1_2_eq (c : Dev nD) (t : Fin cfg1.N) : (iblk1 V c 2 t : Vec Ideal S1x64 .f32) = barr1 V c := by
  obtain ⟨-, -, ⟨h0, h1⟩, -⟩ := idx1 t
  funext y
  unfold iblk1
  rw [View.read_apply]
  show V c (Pipeline.arrRef spec1 2) _ = V c (Pipeline.arrRef spec1 2) y
  congr 1
  funext a
  apply Fin.ext
  match a with
  | ⟨0, _⟩ => show win1_2.index t 0 * 1 + 1 * (y 0).val = (y 0).val; rw [h0]; omega
  | ⟨1, _⟩ => show win1_2.index t 1 * 64 + 1 * (y 1).val = (y 1).val; rw [h1]; omega

/-! ## A row of the tile's convolution is a row of the image's -/

/-- Row `h` of the convolution the body computes at point `t` is row `32 · (t % 7) + h` of image `t / 7`'s. -/
theorem crow1_conv (c : Dev nD) (t : Fin cfg1.N) (h j co : ℕ) (hh : h < 32) (hj : j < 224) :
    crow1 (View.ld (iblk1 V c 0 t : Vec Ideal S1x226x232x64 .bf16) (Rect.unit (s := S1x226x232x64) (k1_off1 (grid1.coords t)) S1x34x224x64.size (k1_off1_inb (grid1.coords t))))
      (View.ld (iblk1 V c 0 t : Vec Ideal S1x226x232x64 .bf16) (Rect.unit (s := S1x226x232x64) (k1_off2 (grid1.coords t)) S1x34x224x64.size (k1_off2_inb (grid1.coords t))))
      (View.ld (iblk1 V c 0 t : Vec Ideal S1x226x232x64 .bf16) (Rect.unit (s := S1x226x232x64) (k1_off3 (grid1.coords t)) S1x34x224x64.size (k1_off3_inb (grid1.coords t))))
        (iblk1 V c 1 t : Vec Ideal S576x64 .bf16) (iblk1 V c 2 t : Vec Ideal S1x64 .f32) h j co
      = (convFlat 64 (arr4 (xarr1 V c)) (arr2 (warr1 V c)) (arr2 (barr1 V c))) (t.val / 7) (32 * (t.val % 7) + h) j co := by
  obtain ⟨-, -, -, -, hc1⟩ := idx1 t
  have hi1 : (grid1.coords t 1).val < 7 := (grid1.coords t 1).isLt
  unfold crow1 convFlat
  show max ((∑ K ∈ Finset.range 576, _) + _) 0 = max ((∑ K ∈ Finset.range 576, _) + _) 0
  refine congrArg₂ max (congrArg₂ (· + ·) (Finset.sum_congr rfl fun K hK => ?_) ?_) rfl
  · have hK : K < 576 := Finset.mem_range.mp hK
    have hdy : K / 64 / 3 < 3 := by omega
    refine congrArg₂ (· * ·) ?_ ?_
    · refine (tap1_ld (iblk1 V c 0 t) (grid1.coords t) (K / 64 % 3) (h + K / 64 / 3) j (K % 64) (Nat.mod_lt _ (by decide)) (by omega) hj (Nat.mod_lt _ (by decide))).trans ?_
      refine (iblk1_0_arr V c t (32 * (grid1.coords t 1).val + (h + K / 64 / 3)) (K / 64 % 3 + j) (K % 64) (by omega) (by omega) (Nat.mod_lt _ (by decide))).trans ?_
      rw [hc1, ← Nat.add_assoc, Nat.add_comm (K / 64 % 3) j]
    · exact congrArg (fun A : Vec Ideal S576x64 .bf16 => arr2 A K co) (iblk1_1_eq V c t)
  · exact congrArg (fun A : Vec Ideal S1x64 .f32 => arr2 A 0 co) (iblk1_2_eq V c t)

/-! ## What the output's staging buffer holds after a point, entry by entry -/

theorem outsAt1_apply (c : Dev nD) (t : Fin cfg1.N) (i : Fin 16) (j : Fin 224) (co : Fin 64) :
    outsAt1 V c t (ix4 (0 : Fin 1) i j co)
      = hpool (convFlat 64 (arr4 (xarr1 V c)) (arr2 (warr1 V c)) (arr2 (barr1 V c))) (t.val / 7) (16 * (t.val % 7) + i.val) j.val co.val := by
  have hi := i.isLt
  unfold outsAt1
  rw [out1_eq]
  refine (pay1_apply _ _ _ _ _ i j co).trans ?_
  unfold hpool
  refine congrArg₂ max ((crow1_conv V c t (2 * i.val) j.val co.val (by omega) j.isLt).trans ?_)
    ((crow1_conv V c t (2 * i.val + 1) j.val co.val (by omega) j.isLt).trans ?_)
  · rw [show 32 * (t.val % 7) + 2 * i.val = 2 * (16 * (t.val % 7) + i.val) from by omega]
  · rw [show 32 * (t.val % 7) + (2 * i.val + 1) = 2 * (16 * (t.val % 7) + i.val) + 1 from by omega]

/-! ## The output array after the pipeline -/

/-- The array the region leaves: at every entry the row-pair maximum of the convolution of the padded input. -/
def G1 (c : Dev nD) : Vec Ideal S8x112x224x64 .bf16 := fun y =>
  hpool (convFlat 64 (arr4 (xarr1 V c)) (arr2 (warr1 V c)) (arr2 (barr1 V c))) (y 0).val (y 1).val (y 2).val (y 3).val

/-- Every write-back writes its block of that array. -/
theorem flushed1 (c : Dev nD) (t : Fin cfg1.N) (hf : (cfg1.win 3).flush t = true) :
    (dat1 (F := Ideal) V c).flushed 3 t = ((cfg1.win 3).blk t).view.read (Elt Ideal) (G1 V c) := by
  obtain ⟨-, -, -, ⟨h0, h1, h2, h3⟩, -⟩ := idx1 t
  show (dat1 (F := Ideal) V c).after 3 t = _
  rw [after1_3]
  funext y
  obtain ⟨y0, y1, y2, y3, rfl⟩ : ∃ (y0 : Fin 1) (y1 : Fin 16) (y2 : Fin 224) (y3 : Fin 64), y = ix4 y0 y1 y2 y3 :=
    ⟨y 0, y 1, y 2, y 3, eq_ix4 y⟩
  obtain rfl : y0 = 0 := Fin.ext (by have := y0.isLt; omega)
  rw [View.read_apply]
  refine (outsAt1_apply V c t y1 y2 y3).trans ?_
  show _ = hpool (convFlat 64 (arr4 (xarr1 V c)) (arr2 (warr1 V c)) (arr2 (barr1 V c)))
    (win1_3.index t 0 * 1 + 1 * 0) (win1_3.index t 1 * 16 + 1 * y1.val) (win1_3.index t 2 * 224 + 1 * y2.val) (win1_3.index t 3 * 64 + 1 * y3.val)
  rw [h0, h1, h2, h3,
    show t.val / 7 * 1 + 1 * 0 = t.val / 7 from by omega,
    show t.val % 7 * 16 + 1 * y1.val = 16 * (t.val % 7) + y1.val from by omega,
    show 0 * 224 + 1 * y2.val = y2.val from by omega,
    show 0 * 64 + 1 * y3.val = y3.val from by omega]

/-- The output blocks tile the output array. -/
theorem cover1 (c : Dev nD) (i : ((cfg1.win 3).arr.view.loc (c.tc : Thread nD τ)).2.ty.Idx) :
    ∃ t : Fin cfg1.N, (cfg1.win 3).flush t = true ∧ i ∈ ((cfg1.win 3).blk t).view.set := by
  have i0 : (i 0 : Nat) < 8 := (i 0).isLt
  have i1 : (i 1 : Nat) < 112 := (i 1).isLt
  have i2 : (i 2 : Nat) < 224 := (i 2).isLt
  have i3 : (i 3 : Nat) < 64 := (i 3).isLt
  have ht : (i 0 : Nat) * 7 + (i 1 : Nat) / 16 < grid1.N := by show _ < 8 * 7; omega
  obtain ⟨-, -, -, ⟨h0, h1, h2, h3⟩, -⟩ := idx1 ⟨(i 0 : Nat) * 7 + (i 1 : Nat) / 16, ht⟩
  refine ⟨⟨(i 0 : Nat) * 7 + (i 1 : Nat) / 16, ht⟩, flush1_3 _, ?_⟩
  show i ∈ ((View.whole (Pipeline.arrRef spec1 3)).slice (win1_3.rect ⟨(i 0 : Nat) * 7 + (i 1 : Nat) / 16, ht⟩)).set
  rw [View.set_slice_whole, Rect.mem_set_unit]
  intro a
  match a with
  | ⟨0, _⟩ => show win1_3.index _ 0 * 1 ≤ (i 0 : Nat) ∧ (i 0 : Nat) < win1_3.index _ 0 * 1 + 1; rw [h0]; dsimp only; omega
  | ⟨1, _⟩ => show win1_3.index _ 1 * 16 ≤ (i 1 : Nat) ∧ (i 1 : Nat) < win1_3.index _ 1 * 16 + 16; rw [h1]; dsimp only; omega
  | ⟨2, _⟩ => show win1_3.index _ 2 * 224 ≤ (i 2 : Nat) ∧ (i 2 : Nat) < win1_3.index _ 2 * 224 + 224; rw [h2]; omega
  | ⟨3, _⟩ => show win1_3.index _ 3 * 64 ≤ (i 3 : Nat) ∧ (i 3 : Nat) < win1_3.index _ 3 * 64 + 64; rw [h3]; omega

/-- So the output array ends holding it. -/
theorem final1 (c : Dev nD) : (dat1 (F := Ideal) V c).arrAt 3 cfg1.N = G1 V c :=
  (dat1 (F := Ideal) V c).arrAt_eq_of_cover 3 (G1 V c) (flushed1 V c) (cover1 c)

/-- The region's value: every entry of its output array is the row-pair maximum of the convolution, with bias and ReLU,
    of its padded input with its flattened weights. -/
theorem conv1_value (c : Dev nD) (b i j co : ℕ) (hb : b < 8) (hi : i < 112) (hj : j < 224) (hco : co < 64) :
    Cert.Spec.arr4 ((dat1 (F := Ideal) V c).arrAt 3 cfg1.N) b i j co = Cert.Spec.hpool (Cert.Spec.convFlat 64 (Cert.Spec.arr4 (V c (Pipeline.arrRef spec1 0))) (Cert.Spec.arr2 (V c (Pipeline.arrRef spec1 1))) (Cert.Spec.arr2 (V c (Pipeline.arrRef spec1 2)))) b i j co := by
  rw [final1]
  exact arr4_apply (G1 V c) ⟨b, hb⟩ ⟨i, hi⟩ ⟨j, hj⟩ ⟨co, hco⟩

end Cert.KernelIdeal.Val

end
-- ==== Proof.KV2.lean ====
/-
  The value of kernel region 2 (the lane-half maximum that finishes a 2x2 pooling). The body loads its input
  block whole — one batch image of 112 x 112 pixels with 128 lanes, the two members of a column pair side by side on the
  lanes — and stores the pointwise maximum of the block's two lane halves. Grid point t is batch t, and the output
  blocks tile the output array; so after the region the output array holds, at batch b, row i, column j, channel ch,
  the maximum of the input array's entries at lanes ch and ch + 64 of the same pixel.
-/
import proofs.«100114_g2000204297211070_pallasbulk_1265_19_alg».proof.Proof.KR2
import proofs.«100114_g2000204297211070_pallasbulk_1265_19_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Val

open Cert.KernelIdeal Cert.KernelIdeal.Gen Cert.KernelIdeal.Reg
open Idealize.ShloMosaic Idealize.ShloMosaic.TcCoe Idealize.ShloMosaic.ValueIdx
open Idealize.ShloMosaic.Pipeline (Dat)

section Generic

variable {F : FTy → Type} [FloatOps F]

variable (V : (c : Dev nD) → (b : Ref sig .tc) → Buf (Elt F) ((c : Thread nD τ).loc b))

/-- The region's input array as it finds it, at its literal type. -/
abbrev xarr2 (c : Dev nD) : FVec F S8x112x112x128 .bf16 := V c (Pipeline.arrRef spec2 0)

/-- What the output array ends holding: at every index the maximum of the input array's entries at the same pixel on
    lane ch and on lane ch + 64. -/
def G2 (X : FVec F S8x112x112x128 .bf16) : FVec F S8x112x112x64 .bf16 := fun i =>
  FloatOps.maximumf
    (X (ix4 (n0 := 8) (n1 := 112) (n2 := 112) (n3 := 128) (i 0) (i 1) (i 2) ⟨(i 3).val, Nat.lt_of_lt_of_le (i 3).isLt (by decide)⟩))
    (X (ix4 (n0 := 8) (n1 := 112) (n2 := 112) (n3 := 128) (i 0) (i 1) (i 2) ⟨(i 3).val + 64, Nat.add_lt_of_lt_sub (Nat.lt_of_lt_of_le (i 3).isLt (by decide))⟩))

private theorem hz2 : (![0, 0, 0, 0] : Fin 4 → Nat) = fun _ => 0 := funext fun a => by fin_cases a <;> rfl

/-- The body's payload at an index of its block: the maximum of the loaded block's entries on lane l and lane l + 64. -/
theorem pay2_apply (x : Vec F S1x112x112x128 .bf16) (z : Fin 1) (i : Fin 112) (j : Fin 112) (l : Fin 64) :
    k2_pay1 x (ix4 z i j l)
      = FloatOps.maximumf (x (ix4 (0 : Fin 1) i j ⟨l.val, Nat.lt_of_lt_of_le l.isLt (by decide)⟩))
          (x (ix4 (0 : Fin 1) i j ⟨l.val + 64, Nat.add_lt_of_lt_sub (Nat.lt_of_lt_of_le l.isLt (by decide))⟩)) := by
  unfold k2_pay1
  refine (shapeCast_abc_1abc_apply _ shapeCasts_S112x112x64_S1x112x112x64 z i j l).trans ?_
  show FloatOps.maximumf
      (extractStridedSlice S112x112x64 ![0, 0, 0] (shapeCast S112x112x128 x shapeCasts_S1x112x112x128_S112x112x128) slices_S112x112x128_o0_0_0_S112x112x64 (ix3 i j l))
      (extractStridedSlice S112x112x64 ![0, 0, 64] (shapeCast S112x112x128 x shapeCasts_S1x112x112x128_S112x112x128) slices_S112x112x128_o0_0_64_S112x112x64 (ix3 i j l)) = _
  -- the low lane half reads lane l, the high one lane l + 64
  have lo := extractStridedSlice_apply ![0, 0, 0] (shapeCast S112x112x128 x shapeCasts_S1x112x112x128_S112x112x128) slices_S112x112x128_o0_0_0_S112x112x64
    (ix3 i j l) (ix3 i j ⟨l.val, Nat.lt_of_lt_of_le l.isLt (by decide)⟩) (fun a => by
      match a with
      | ⟨0, _⟩ => exact (Nat.zero_add _).symm
      | ⟨1, _⟩ => exact (Nat.zero_add _).symm
      | ⟨2, _⟩ => exact (Nat.zero_add _).symm)
  have hi := extractStridedSlice_apply ![0, 0, 64] (shapeCast S112x112x128 x shapeCasts_S1x112x112x128_S112x112x128) slices_S112x112x128_o0_0_64_S112x112x64
    (ix3 i j l) (ix3 i j ⟨l.val + 64, Nat.add_lt_of_lt_sub (Nat.lt_of_lt_of_le l.isLt (by decide))⟩) (fun a => by
      match a with
      | ⟨0, _⟩ => exact (Nat.zero_add _).symm
      | ⟨1, _⟩ => exact (Nat.zero_add _).symm
      | ⟨2, _⟩ => exact Nat.add_comm _ _)
  -- and the block with its unit axis dropped reads the block at batch coordinate 0
  exact congrArg₂ FloatOps.maximumf
    (lo.trans (shapeCast_1abc_abc_apply x shapeCasts_S1x112x112x128_S112x112x128 i j _))
    (hi.trans (shapeCast_1abc_abc_apply x shapeCasts_S1x112x112x128_S112x112x128 i j _))

/-- The printed index maps, decided over the grid: both windows' block index at point t is (t, 0, 0, 0). -/
theorem idx_facts2 : ∀ t : Fin cfg2.N, win2_0.index t (0 : Fin 4) = t.val ∧ win2_0.index t (1 : Fin 4) = 0
    ∧ win2_0.index t (2 : Fin 4) = 0 ∧ win2_0.index t (3 : Fin 4) = 0
    ∧ win2_1.index t (0 : Fin 4) = t.val ∧ win2_1.index t (1 : Fin 4) = 0
    ∧ win2_1.index t (2 : Fin 4) = 0 ∧ win2_1.index t (3 : Fin 4) = 0 :=
  (by decide +kernel : ∀ t : Fin grid2.N, _)

/-- What point t writes back is block t of `G2` of the input array as the region finds it. -/
theorem flushed2_eq (c : Dev nD) (t : Fin cfg2.N) :
    (dat2 V c).flushed 1 t = ((cfg2.win 1).blk t).view.read (Elt F) (G2 (xarr2 V c)) := by
  show (cfg2.win 1).cut (grid2.coords t) ((dat2 V c).after 1 t) = _
  rw [after2_1]
  unfold out2_1
  rw [View.canon_unit_zero hz2]
  simp only [View.ld_unit_zero (S := S1x112x112x128) hz2]
  obtain ⟨e0, e1, e2, e3, e4, e5, e6, e7⟩ := idx_facts2 t
  funext y
  obtain ⟨z, i, j, l, rfl⟩ : ∃ (z : Fin 1) (i : Fin 112) (j : Fin 112) (l : Fin 64), y = ix4 z i j l :=
    ⟨_, _, _, _, eq_ix4 (n0 := 1) (n1 := 112) (n2 := 112) (n3 := 64) y⟩
  show k2_pay1 (iblk2 V c 0 t) (ix4 z i j l) = G2 (xarr2 V c) (((cfg2.win 1).blk t).view.emb (ix4 z i j l))
  refine (pay2_apply (iblk2 V c 0 t) z i j l).trans ?_
  show FloatOps.maximumf
      (xarr2 V c (((cfg2.win 0).blk t).view.emb (ix4 (0 : Fin 1) i j ⟨l.val, _⟩)))
      (xarr2 V c (((cfg2.win 0).blk t).view.emb (ix4 (0 : Fin 1) i j ⟨l.val + 64, _⟩))) = _
  unfold G2
  have hz : z.val = 0 := by have := z.isLt; omega
  refine congrArg₂ FloatOps.maximumf (congrArg (xarr2 V c) ?_) (congrArg (xarr2 V c) ?_)
  · funext a; apply Fin.ext
    match a with
    | ⟨0, _⟩ => show win2_0.index t (0 : Fin 4) * 1 + 1 * 0 = win2_1.index t (0 : Fin 4) * 1 + 1 * z.val; omega
    | ⟨1, _⟩ => show win2_0.index t (1 : Fin 4) * 112 + 1 * i.val = win2_1.index t (1 : Fin 4) * 112 + 1 * i.val; omega
    | ⟨2, _⟩ => show win2_0.index t (2 : Fin 4) * 112 + 1 * j.val = win2_1.index t (2 : Fin 4) * 112 + 1 * j.val; omega
    | ⟨3, _⟩ => show win2_0.index t (3 : Fin 4) * 128 + 1 * l.val = win2_1.index t (3 : Fin 4) * 64 + 1 * l.val; omega
  · funext a; apply Fin.ext
    match a with
    | ⟨0, _⟩ => show win2_0.index t (0 : Fin 4) * 1 + 1 * 0 = win2_1.index t (0 : Fin 4) * 1 + 1 * z.val; omega
    | ⟨1, _⟩ => show win2_0.index t (1 : Fin 4) * 112 + 1 * i.val = win2_1.index t (1 : Fin 4) * 112 + 1 * i.val; omega
    | ⟨2, _⟩ => show win2_0.index t (2 : Fin 4) * 112 + 1 * j.val = win2_1.index t (2 : Fin 4) * 112 + 1 * j.val; omega
    | ⟨3, _⟩ => show win2_0.index t (3 : Fin 4) * 128 + 1 * (l.val + 64) = win2_1.index t (3 : Fin 4) * 64 + 1 * l.val + 64; omega

/-- Every index of the output array is in the block of the point its batch coordinate names. -/
theorem cover2 (i : S8x112x112x64.Idx) :
    ∃ t : Fin cfg2.N, (cfg2.win 1).flush t = true ∧ i ∈ ((cfg2.win 1).blk t).view.set := by
  have h0 : (i 0).val < 8 := (i 0).isLt
  obtain ⟨t, ht⟩ : ∃ t : Fin cfg2.N, t.val = (i 0).val := ⟨⟨(i 0).val, by show (i 0).val < grid2.N; rw [N_2]; exact h0⟩, rfl⟩
  refine ⟨t, flush2_1 t, ?_⟩
  obtain ⟨e0, e1, e2, e3, e4, e5, e6, e7⟩ := idx_facts2 t
  have e : ((cfg2.win 1).blk t).view.emb (ix4 (n0 := 1) (n1 := 112) (n2 := 112) (n3 := 64) ⟨0, Nat.one_pos⟩ (i 1) (i 2) (i 3)) = i := by
    funext a; apply Fin.ext
    match a with
    | ⟨0, _⟩ => show win2_1.index t (0 : Fin 4) * 1 + 1 * 0 = (i 0).val; omega
    | ⟨1, _⟩ => show win2_1.index t (1 : Fin 4) * 112 + 1 * (i 1).val = (i 1).val; omega
    | ⟨2, _⟩ => show win2_1.index t (2 : Fin 4) * 112 + 1 * (i 2).val = (i 2).val; omega
    | ⟨3, _⟩ => show win2_1.index t (3 : Fin 4) * 64 + 1 * (i 3).val = (i 3).val; omega
  have hm := ((cfg2.win 1).blk t).view.emb_mem_set (ix4 (n0 := 1) (n1 := 112) (n2 := 112) (n3 := 64) ⟨0, Nat.one_pos⟩ (i 1) (i 2) (i 3))
  rw [e] at hm
  exact hm

/-- The output array after the region: `G2` of the input array. -/
theorem final2 (c : Dev nD) : (dat2 V c).arrAt 1 cfg2.N = G2 (xarr2 V c) :=
  (dat2 V c).arrAt_eq_of_cover 1 (G2 (xarr2 V c)) (fun t _ => flushed2_eq V c t) cover2

end Generic

/-- At the ideal values, in natural coordinates: the output array at batch b, row i, column j, channel ch is the maximum
    of the input array's entries at the same pixel on lanes ch and ch + 64. -/
theorem wpool2_value (V : (c : Dev nD) → (b : Ref sig .tc) → Buf (Elt Ideal) ((c : Thread nD τ).loc b)) (c : Dev nD)
    (b i j ch : ℕ) (hb : b < 8) (hi : i < 112) (hj : j < 112) (hch : ch < 64) :
    Cert.Spec.arr4 ((dat2 (F := Ideal) V c).arrAt 1 cfg2.N) b i j ch
      = max (Cert.Spec.arr4 (V c (Pipeline.arrRef spec2 0)) b i j ch) (Cert.Spec.arr4 (V c (Pipeline.arrRef spec2 0)) b i j (ch + 64)) := by
  rw [final2]
  refine (Cert.Spec.arr4_apply (n0 := 8) (n1 := 112) (n2 := 112) (n3 := 64) (G2 (xarr2 V c)) ⟨b, hb⟩ ⟨i, hi⟩ ⟨j, hj⟩ ⟨ch, hch⟩).trans ?_
  refine Eq.trans ?_ (congrArg₂ (max : EReal → EReal → EReal)
    (Cert.Spec.arr4_apply (n0 := 8) (n1 := 112) (n2 := 112) (n3 := 128) (xarr2 V c) ⟨b, hb⟩ ⟨i, hi⟩ ⟨j, hj⟩ ⟨ch, by omega⟩)
    (Cert.Spec.arr4_apply (n0 := 8) (n1 := 112) (n2 := 112) (n3 := 128) (xarr2 V c) ⟨b, hb⟩ ⟨i, hi⟩ ⟨j, hj⟩ ⟨ch + 64, by omega⟩)).symm
  rfl

end Cert.KernelIdeal.Val

end
-- ==== Proof.KV3Pay.lean ====
/-
  The payload of kernel region 3 read at one entry, at the ideal values: the body's one store writes, at row `r`,
  column `j`, output channel `co` of its block, the ReLU of the bias plus the sum over the 576 lanes `K` of the nine
  lane-concatenated taps — lane `K` is tap `K / 64` (row offset `K / 64 / 3`, column band `K / 64 % 3`) at input
  channel `K % 64` — times row `K` of the flattened weights.
-/
import proofs.«100114_g2000204297211070_pallasbulk_1265_19_alg».proof.Proof.Gen.KernelIdeal.Skeleton
import proofs.«100114_g2000204297211070_pallasbulk_1265_19_alg».proof.Proof.Spec
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Val

open Cert.KernelIdeal Cert.KernelIdeal.Gen Cert.Spec
open Idealize.ShloMosaic Idealize.ShloMosaic.ValueIdx

/-- The block product into the zero accumulator, at an entry: the sum over the contracted coordinate. -/
theorem mm3_apply (A : FVec Ideal S6272x576 .bf16) (B : FVec Ideal S576x128 .bf16) (a : Fin 6272) (b : Fin 128) :
    matmul dot_S6272x576_S576x128_S6272x128_1_0_0_1_n_n none A B (constant S6272x128 .f32 0x00000000#32) (ix2 a b)
      = ∑ c : Fin 576, A (ix2 a c) * B (ix2 c b) := by
  show FloatOps.matmul dot_S6272x576_S576x128_S6272x128_1_0_0_1_n_n none A B _ (ix2 a b) = _
  rw [Ideal.matmul_constant_zero_apply, ← Equiv.sum_comp (contrEquiv1 dot_S6272x576_S576x128_S6272x128_1_0_0_1_n_n 576 rfl rfl).symm]
  refine Finset.sum_congr rfl fun c _ => ?_
  have c2 := contrEquiv1_symm_val dot_S6272x576_S576x128_S6272x128_1_0_0_1_n_n 576 rfl rfl c
  have l2 : (dot_S6272x576_S576x128_S6272x128_1_0_0_1_n_n).lhsIdx (ix2 a b) ((contrEquiv1 _ 576 rfl rfl).symm c) = ix2 a c := by
    funext ax; apply Fin.ext
    match ax with
    | ⟨0, _⟩ => simp [DotDims.lhsIdx, dot_S6272x576_S576x128_S6272x128_1_0_0_1_n_n]; rfl
    | ⟨1, _⟩ => simp [DotDims.lhsIdx, dot_S6272x576_S576x128_S6272x128_1_0_0_1_n_n]; exact c2
  have r2 : (dot_S6272x576_S576x128_S6272x128_1_0_0_1_n_n).rhsIdx (ix2 a b) ((contrEquiv1 _ 576 rfl rfl).symm c) = ix2 c b := by
    funext ax; apply Fin.ext
    match ax with
    | ⟨0, _⟩ => simp [DotDims.rhsIdx, dot_S6272x576_S576x128_S6272x128_1_0_0_1_n_n]; exact c2
    | ⟨1, _⟩ => simp [DotDims.rhsIdx, dot_S6272x576_S576x128_S6272x128_1_0_0_1_n_n]; rfl
  rw [l2, r2]

/-- One tap: the band `v` (58 rows of the padded block) with its unit axis dropped, cut from row `dy`, at an entry. -/
theorem band3_apply (v : Vec Ideal S1x58x112x64 .bf16) (dy : ℕ) (hdy : dy ≤ 2) (h : S58x112x64.Slices ![dy, 0, 0] S56x112x64)
    (r : Fin 56) (j : Fin 112) (l : Fin 64) :
    extractStridedSlice S56x112x64 ![dy, 0, 0] (shapeCast S58x112x64 v shapeCasts_S1x58x112x64_S58x112x64) h (ix3 r j l)
      = arr4 v 0 (r.val + dy) j.val l.val := by
  have hR : r.val + dy < 58 := by omega
  refine (extractStridedSlice_apply _ _ h (ix3 r j l) (ix3 ⟨r.val + dy, hR⟩ j l) (fun a => ?_)).trans ?_
  · match a with
    | ⟨0, _⟩ => exact Nat.add_comm _ _
    | ⟨1, _⟩ => exact (Nat.zero_add _).symm
    | ⟨2, _⟩ => exact (Nat.zero_add _).symm
  · refine (shapeCast_1abc_abc_apply v _ ⟨r.val + dy, hR⟩ j l).trans ?_
    exact (arr4_apply v (0 : Fin 1) ⟨r.val + dy, hR⟩ j l).symm

variable (v3 v6 v9 : Vec Ideal S1x58x112x64 .bf16) (v22 : Vec Ideal S576x128 .bf16) (v25 : Vec Ideal S1x128 .f32)

/-- The three loaded bands, by column offset, as one total function: band `dx` at row `R`, column `j`, channel `l`. -/
def tap3 (dx R j l : ℕ) : EReal :=
  if dx = 0 then arr4 v3 0 R j l else if dx = 1 then arr4 v6 0 R j l else arr4 v9 0 R j l

/-- The nine taps in the concatenation's order: tap `n` is the band at column offset `n % 3` cut from row `n / 3`. -/
def pieces3 : Fin 9 → (S56x112x64.Idx → EReal) :=
  ![extractStridedSlice S56x112x64 ![0, 0, 0] (shapeCast S58x112x64 v3 shapeCasts_S1x58x112x64_S58x112x64) slices_S58x112x64_o0_0_0_S56x112x64,
    extractStridedSlice S56x112x64 ![0, 0, 0] (shapeCast S58x112x64 v6 shapeCasts_S1x58x112x64_S58x112x64) slices_S58x112x64_o0_0_0_S56x112x64,
    extractStridedSlice S56x112x64 ![0, 0, 0] (shapeCast S58x112x64 v9 shapeCasts_S1x58x112x64_S58x112x64) slices_S58x112x64_o0_0_0_S56x112x64,
    extractStridedSlice S56x112x64 ![1, 0, 0] (shapeCast S58x112x64 v3 shapeCasts_S1x58x112x64_S58x112x64) slices_S58x112x64_o1_0_0_S56x112x64,
    extractStridedSlice S56x112x64 ![1, 0, 0] (shapeCast S58x112x64 v6 shapeCasts_S1x58x112x64_S58x112x64) slices_S58x112x64_o1_0_0_S56x112x64,
    extractStridedSlice S56x112x64 ![1, 0, 0] (shapeCast S58x112x64 v9 shapeCasts_S1x58x112x64_S58x112x64) slices_S58x112x64_o1_0_0_S56x112x64,
    extractStridedSlice S56x112x64 ![2, 0, 0] (shapeCast S58x112x64 v3 shapeCasts_S1x58x112x64_S58x112x64) slices_S58x112x64_o2_0_0_S56x112x64,
    extractStridedSlice S56x112x64 ![2, 0, 0] (shapeCast S58x112x64 v6 shapeCasts_S1x58x112x64_S58x112x64) slices_S58x112x64_o2_0_0_S56x112x64,
    extractStridedSlice S56x112x64 ![2, 0, 0] (shapeCast S58x112x64 v9 shapeCasts_S1x58x112x64_S58x112x64) slices_S58x112x64_o2_0_0_S56x112x64]

theorem tap3_zero (R j l : ℕ) : tap3 v3 v6 v9 0 R j l = arr4 v3 0 R j l := if_pos rfl
theorem tap3_one (R j l : ℕ) : tap3 v3 v6 v9 1 R j l = arr4 v6 0 R j l := (if_neg (by decide)).trans (if_pos rfl)
theorem tap3_two (R j l : ℕ) : tap3 v3 v6 v9 2 R j l = arr4 v9 0 R j l := (if_neg (by decide)).trans (if_neg (by decide))

theorem pieces3_apply (n : ℕ) (hn : n < 9) (r : Fin 56) (j : Fin 112) (l : Fin 64) :
    pieces3 v3 v6 v9 ⟨n, hn⟩ (ix3 r j l) = tap3 v3 v6 v9 (n % 3) (r.val + n / 3) j.val l.val := by
  interval_cases n
  · exact (band3_apply v3 0 (by decide) slices_S58x112x64_o0_0_0_S56x112x64 r j l).trans (tap3_zero v3 v6 v9 (r.val + 0) j.val l.val).symm
  · exact (band3_apply v6 0 (by decide) slices_S58x112x64_o0_0_0_S56x112x64 r j l).trans (tap3_one v3 v6 v9 (r.val + 0) j.val l.val).symm
  · exact (band3_apply v9 0 (by decide) slices_S58x112x64_o0_0_0_S56x112x64 r j l).trans (tap3_two v3 v6 v9 (r.val + 0) j.val l.val).symm
  · exact (band3_apply v3 1 (by decide) slices_S58x112x64_o1_0_0_S56x112x64 r j l).trans (tap3_zero v3 v6 v9 (r.val + 1) j.val l.val).symm
  · exact (band3_apply v6 1 (by decide) slices_S58x112x64_o1_0_0_S56x112x64 r j l).trans (tap3_one v3 v6 v9 (r.val + 1) j.val l.val).symm
  · exact (band3_apply v9 1 (by decide) slices_S58x112x64_o1_0_0_S56x112x64 r j l).trans (tap3_two v3 v6 v9 (r.val + 1) j.val l.val).symm
  · exact (band3_apply v3 2 (by decide) slices_S58x112x64_o2_0_0_S56x112x64 r j l).trans (tap3_zero v3 v6 v9 (r.val + 2) j.val l.val).symm
  · exact (band3_apply v6 2 (by decide) slices_S58x112x64_o2_0_0_S56x112x64 r j l).trans (tap3_one v3 v6 v9 (r.val + 2) j.val l.val).symm
  · exact (band3_apply v9 2 (by decide) slices_S58x112x64_o2_0_0_S56x112x64 r j l).trans (tap3_two v3 v6 v9 (r.val + 2) j.val l.val).symm

/-- The concatenation of the nine taps along the lanes, at lane `c`: tap `c / 64` at channel `c % 64`. -/
theorem cat3_apply (r : Fin 56) (j : Fin 112) (c : Fin 576) :
    concatenate S56x112x576 2 [⟨S56x112x64, extractStridedSlice S56x112x64 ![0, 0, 0] (shapeCast S58x112x64 v3 shapeCasts_S1x58x112x64_S58x112x64) slices_S58x112x64_o0_0_0_S56x112x64⟩,
      ⟨S56x112x64, extractStridedSlice S56x112x64 ![0, 0, 0] (shapeCast S58x112x64 v6 shapeCasts_S1x58x112x64_S58x112x64) slices_S58x112x64_o0_0_0_S56x112x64⟩,
      ⟨S56x112x64, extractStridedSlice S56x112x64 ![0, 0, 0] (shapeCast S58x112x64 v9 shapeCasts_S1x58x112x64_S58x112x64) slices_S58x112x64_o0_0_0_S56x112x64⟩,
      ⟨S56x112x64, extractStridedSlice S56x112x64 ![1, 0, 0] (shapeCast S58x112x64 v3 shapeCasts_S1x58x112x64_S58x112x64) slices_S58x112x64_o1_0_0_S56x112x64⟩,
      ⟨S56x112x64, extractStridedSlice S56x112x64 ![1, 0, 0] (shapeCast S58x112x64 v6 shapeCasts_S1x58x112x64_S58x112x64) slices_S58x112x64_o1_0_0_S56x112x64⟩,
      ⟨S56x112x64, extractStridedSlice S56x112x64 ![1, 0, 0] (shapeCast S58x112x64 v9 shapeCasts_S1x58x112x64_S58x112x64) slices_S58x112x64_o1_0_0_S56x112x64⟩,
      ⟨S56x112x64, extractStridedSlice S56x112x64 ![2, 0, 0] (shapeCast S58x112x64 v3 shapeCasts_S1x58x112x64_S58x112x64) slices_S58x112x64_o2_0_0_S56x112x64⟩,
      ⟨S56x112x64, extractStridedSlice S56x112x64 ![2, 0, 0] (shapeCast S58x112x64 v6 shapeCasts_S1x58x112x64_S58x112x64) slices_S58x112x64_o2_0_0_S56x112x64⟩,
      ⟨S56x112x64, extractStridedSlice S56x112x64 ![2, 0, 0] (shapeCast S58x112x64 v9 shapeCasts_S1x58x112x64_S58x112x64) slices_S58x112x64_o2_0_0_S56x112x64⟩]
      concatenates_S56x112x64_S56x112x64_S56x112x64_S56x112x64_S56x112x64_S56x112x64_S56x112x64_S56x112x64_S56x112x64_S56x112x576_d2 (ix3 r j c)
      = tap3 v3 v6 v9 (c.val / 64 % 3) (r.val + c.val / 64 / 3) j.val (c.val % 64) := by
  have hn : c.val / 64 < 9 := by have := c.isLt; omega
  have hl : c.val % 64 < 64 := Nat.mod_lt _ (by decide)
  refine (concatenate_ofFn_apply (t := S56x112x576) (s₁ := S56x112x64) 2 (pieces3 v3 v6 v9) concatenates_S56x112x64_S56x112x64_S56x112x64_S56x112x64_S56x112x64_S56x112x64_S56x112x64_S56x112x64_S56x112x64_S56x112x576_d2 rfl 64 rfl
    (ix3 r j c) ⟨c.val / 64, hn⟩ rfl (ix3 r j ⟨c.val % 64, hl⟩) rfl ?_).trans ?_
  · intro b hb
    match b with
    | ⟨0, _⟩ => rfl
    | ⟨1, _⟩ => rfl
    | ⟨2, _⟩ => exact absurd rfl hb
  · exact pieces3_apply v3 v6 v9 (c.val / 64) hn r j ⟨c.val % 64, hl⟩

/-- The payload at an entry of the output block. -/
theorem pay3_apply (r : Fin 56) (j : Fin 112) (co : Fin 128) :
    k3_pay1 v3 v6 v9 v22 v25 (ix4 (0 : Fin 1) r j co)
      = max ((∑ K ∈ Finset.range 576, tap3 v3 v6 v9 (K / 64 % 3) (r.val + K / 64 / 3) j.val (K % 64) * arr2 v22 K co.val)
          + arr2 v25 0 co.val) 0 := by
  have hp : r.val * 112 + j.val < 6272 := by have := r.isLt; have := j.isLt; omega
  unfold k3_pay1
  refine (shapeCast_abc_1abc_apply _ _ (0 : Fin 1) r j co).trans ?_
  refine (truncf_apply (φ := .f32) (ψ := .bf16) _ bitsLt_bf16_f32 (ix3 r j co)).trans ?_
  refine (shapeCast_apply _ _ (ix3 r j co) (ix2 ⟨r.val * 112 + j.val, hp⟩ co) ?_).trans ?_
  · rw [Shape.rowMajor_val_two, Shape.rowMajor_val_three]; rfl
  refine congrArg₂ max ?_ ?_
  swap
  · exact Ideal.ofBits_zero_f32
  refine congrArg₂ (· + ·) ?_ ?_
  swap
  · refine (broadcastTo_1b_ab_apply v25 _ ⟨r.val * 112 + j.val, hp⟩ co).trans ?_
    exact (arr2_apply v25 (0 : Fin 1) co).symm
  refine (mm3_apply _ _ ⟨r.val * 112 + j.val, hp⟩ co).trans ?_
  rw [← Fin.sum_univ_eq_sum_range (fun K => tap3 v3 v6 v9 (K / 64 % 3) (r.val + K / 64 / 3) j.val (K % 64) * arr2 v22 K co.val) 576]
  refine Finset.sum_congr rfl fun c _ => ?_
  refine congrArg₂ (· * ·) ?_ ?_
  · refine (shapeCast_apply _ _ (ix2 ⟨r.val * 112 + j.val, hp⟩ c) (ix3 r j c) ?_).trans ?_
    · rw [Shape.rowMajor_val_two, Shape.rowMajor_val_three]; rfl
    exact cat3_apply v3 v6 v9 r j c
  · rw [shapeCast_self]
    exact (arr2_apply v22 c co).symm

end Cert.KernelIdeal.Val

end
-- ==== Proof.KV3.lean ====
/-
  The value of kernel region 3 at the ideal values: after the region's sixteen grid points its output array holds, at
  batch `b`, row `i`, column `j`, output channel `co`, the ReLU of the bias plus the sum over the 576 lanes `K` of
  the padded input at row `i + K / 64 / 3`, column `j + K / 64 % 3`, channel `K % 64` times row `K` of the flattened
  weights. Point `t` of the grid (8, 2) is batch `t / 2`, row half `t % 2`: its input block is batch `t / 2` of the
  padded input, whole; the body loads three 58-row bands of it from row `56 (t % 2)` at column offsets 0, 1, 2, and
  stores rows `56 (t % 2) … 56 (t % 2) + 55` of batch `t / 2` of the output; the sixteen blocks tile the output.
-/
import proofs.«100114_g2000204297211070_pallasbulk_1265_19_alg».proof.Proof.KR3
import proofs.«100114_g2000204297211070_pallasbulk_1265_19_alg».proof.Proof.KV3Pay
import proofs.«100114_g2000204297211070_pallasbulk_1265_19_alg».proof.Proof.Spec
import Idealize.ShloMosaic.Lib.Pipeline.Value
import Idealize.ShloMosaic.Lib.Tactic

set_option maxRecDepth 16384

noncomputable section

open scoped BigOperators

namespace Cert.KernelIdeal.Val

open Cert.KernelIdeal Cert.KernelIdeal.Gen Cert.KernelIdeal.Reg Cert.Spec
open Idealize.ShloMosaic Idealize.ShloMosaic.TcCoe Idealize.ShloMosaic.Tactic Idealize.ShloMosaic.ValueIdx
open Idealize.SL Idealize.SL.Sem
open Idealize.ShloMosaic.Pipeline (Dat)

private theorem hz4 : (![0, 0, 0, 0] : Fin 4 → Nat) = fun _ => 0 := funext fun a => by fin_cases a <;> rfl
private theorem hz2 : (![0, 0] : Fin 2 → Nat) = fun _ => 0 := funext fun a => by fin_cases a <;> rfl

section AnyInstance
variable {F : FTy → Type} [FloatOps F]

/-- What the body leaves in the output's staging buffer: its one store's payload of the three loaded bands of the
    input block, the weights and the bias. -/
theorem out3_eq (c : Dev nD) (i : grid3.Coords) (arg2 : Memref sig .tc .vmem S1x114x114x64 .bf16) (harg2 : arg2.IsWhole) (arg3 : Memref sig .tc .vmem S576x128 .bf16) (harg3 : arg3.IsWhole) (arg4 : Memref sig .tc .vmem S1x128 .f32) (harg4 : arg4.IsWhole) (arg5 : Memref sig .tc .vmem S1x56x112x128 .bf16) (harg5 : arg5.IsWhole)
    (x0 : Vec F S1x114x114x64 .bf16) (x1 : Vec F S576x128 .bf16) (x2 : Vec F S1x128 .f32) :
    out3_A_3 c i arg2 harg2 arg3 harg3 arg4 harg4 arg5 harg5 x0 x1 x2
      = k3_pay1 (View.ld x0 (Rect.unit (s := S1x114x114x64) (k3_off1 i) S1x58x112x64.size (k3_off1_inb i)))
          (View.ld x0 (Rect.unit (s := S1x114x114x64) (k3_off2 i) S1x58x112x64.size (k3_off2_inb i)))
          (View.ld x0 (Rect.unit (s := S1x114x114x64) (k3_off3 i) S1x58x112x64.size (k3_off3_inb i))) x1 x2 := by
  unfold out3_A_3
  rw [View.read_writes_eq_canon _ _ _ (cover3_A_3 c i arg2 harg2 arg3 harg3 arg4 harg4 arg5 harg5 x0 x1 x2)]
  unfold kernelRun3_A
  dsimp only
  rw [View.canon_unit_zero hz4]
  simp only [View.readAt_eq_ld, harg2.read_unread, harg3.read_unread, harg4.read_unread,
    View.ld_unit_zero (S := S576x128) hz2, View.ld_unit_zero (S := S1x128) hz2]

end AnyInstance

section AtIdeal

variable (V : (c : Dev nD) → (b : Ref sig .tc) → Buf (Elt Ideal) ((c : Thread nD τ).loc b))

/-- The region's arrays as it finds them, by their literal types: the padded input, the flattened weights, the bias. -/
abbrev xarr3 (c : Dev nD) : Vec Ideal S8x114x114x64 .bf16 := V c (Pipeline.arrRef spec3 0)
abbrev warr3 (c : Dev nD) : Vec Ideal S576x128 .bf16 := V c (Pipeline.arrRef spec3 1)
abbrev barr3 (c : Dev nD) : Vec Ideal S1x128 .f32 := V c (Pipeline.arrRef spec3 2)
/-- The input windows' blocks at a point, by their literal types. -/
abbrev xblk3 (c : Dev nD) (t : Fin cfg3.N) : Vec Ideal S1x114x114x64 .bf16 := iblk3 V c 0 t
abbrev wblk3 (c : Dev nD) (t : Fin cfg3.N) : Vec Ideal S576x128 .bf16 := iblk3 V c 1 t
abbrev bblk3 (c : Dev nD) (t : Fin cfg3.N) : Vec Ideal S1x128 .f32 := iblk3 V c 2 t

/-- The index maps, decided over the sixteen points: point `t` is batch `t / 2`, row half `t % 2`; the input window
    moves with the batch alone, the weights and the bias do not move, the output moves with both. -/
theorem idx_facts3 : ∀ t : Fin cfg3.N,
    win3_0.index t (0 : Fin 4) = t.val / 2 ∧ win3_0.index t (1 : Fin 4) = 0 ∧ win3_0.index t (2 : Fin 4) = 0 ∧ win3_0.index t (3 : Fin 4) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 4) = t.val / 2 ∧ win3_3.index t (1 : Fin 4) = t.val % 2 ∧ win3_3.index t (2 : Fin 4) = 0 ∧ win3_3.index t (3 : Fin 4) = 0
    ∧ ((grid3.coords t) (1 : Fin 2)).val = t.val % 2 :=
  (by decide +kernel : ∀ t : Fin grid3.N, _)

/-- The input block at point `t` is batch `t / 2` of the padded input. -/
theorem xblk3_apply (c : Dev nD) (t : Fin cfg3.N) (R : Fin 114) (J : Fin 114) (l : Fin 64) :
    xblk3 V c t (ix4 (0 : Fin 1) R J l) = arr4 (xarr3 V c) (t.val / 2) R.val J.val l.val := by
  have hN : cfg3.N = 16 := N_3
  have hb : t.val / 2 < 8 := by have := t.isLt; omega
  obtain ⟨e0, e1, e2, e3, -⟩ := idx_facts3 t
  refine Eq.trans ?_ (arr4_apply (xarr3 V c) ⟨t.val / 2, hb⟩ R J l).symm
  show V c (Pipeline.arrRef spec3 0) (((cfg3.win 0).blk t).view.emb (ix4 (0 : Fin 1) R J l)) = V c (Pipeline.arrRef spec3 0) (ix4 ⟨t.val / 2, hb⟩ R J l)
  congr 1
  funext a; apply Fin.ext
  match a with
  | ⟨0, _⟩ => show win3_0.index t (0 : Fin 4) * 1 + 1 * 0 = t.val / 2; omega
  | ⟨1, _⟩ => show win3_0.index t (1 : Fin 4) * 114 + 1 * R.val = R.val; omega
  | ⟨2, _⟩ => show win3_0.index t (2 : Fin 4) * 114 + 1 * J.val = J.val; omega
  | ⟨3, _⟩ => show win3_0.index t (3 : Fin 4) * 64 + 1 * l.val = l.val; omega

/-- The weights' block at any point is the whole array. -/
theorem wblk3_eq (c : Dev nD) (t : Fin cfg3.N) : wblk3 V c t = warr3 V c := by
  obtain ⟨-, -, -, -, e0, e1, -⟩ := idx_facts3 t
  funext y
  show V c (Pipeline.arrRef spec3 1) (((cfg3.win 1).blk t).view.emb y) = V c (Pipeline.arrRef spec3 1) y
  congr 1
  funext a; apply Fin.ext
  match a with
  | ⟨0, _⟩ => show win3_1.index t (0 : Fin 2) * 576 + 1 * (y 0).val = (y 0).val; omega
  | ⟨1, _⟩ => show win3_1.index t (1 : Fin 2) * 128 + 1 * (y 1).val = (y 1).val; omega

/-- The bias's block at any point is the whole array. -/
theorem bblk3_eq (c : Dev nD) (t : Fin cfg3.N) : bblk3 V c t = barr3 V c := by
  obtain ⟨-, -, -, -, -, -, e0, e1, -⟩ := idx_facts3 t
  funext y
  show V c (Pipeline.arrRef spec3 2) (((cfg3.win 2).blk t).view.emb y) = V c (Pipeline.arrRef spec3 2) y
  congr 1
  funext a; apply Fin.ext
  match a with
  | ⟨0, _⟩ => show win3_2.index t (0 : Fin 2) * 1 + 1 * (y 0).val = (y 0).val; omega
  | ⟨1, _⟩ => show win3_2.index t (1 : Fin 2) * 128 + 1 * (y 1).val = (y 1).val; omega

/-- A band loaded from row `o`, column `dx` of a block, at an entry. -/
theorem ld_band3 (x0 : Vec Ideal S1x114x114x64 .bf16) (off : Fin 4 → Nat) (o dx : ℕ) (hoff : off = ![0, o, dx, 0])
    (inb : ∀ a, off a + S1x58x112x64.size a ≤ S1x114x114x64.size a) (R j l : ℕ) (hR : R < 58) (hj : j < 112) (hl : l < 64)
    (ho : o + R < 114) (hd : dx + j < 114) :
    arr4 (View.ld x0 (Rect.unit (s := S1x114x114x64) off S1x58x112x64.size inb)) 0 R j l = arr4 x0 0 (o + R) (dx + j) l := by
  subst hoff
  refine (arr4_apply (View.ld x0 (Rect.unit (s := S1x114x114x64) ![0, o, dx, 0] S1x58x112x64.size inb)) (0 : Fin 1) ⟨R, hR⟩ ⟨j, hj⟩ ⟨l, hl⟩).trans ?_
  refine Eq.trans ?_ (arr4_apply x0 (0 : Fin 1) ⟨o + R, ho⟩ ⟨dx + j, hd⟩ ⟨l, hl⟩).symm
  show x0 _ = x0 _
  congr 1
  funext a; apply Fin.ext
  match a with
  | ⟨0, _⟩ => show 0 + 1 * 0 = 0; omega
  | ⟨1, _⟩ => show o + 1 * R = o + R; omega
  | ⟨2, _⟩ => show dx + 1 * j = dx + j; omega
  | ⟨3, _⟩ => show 0 + 1 * l = l; omega

/-- The three bands the body loads at point `t`, as one total function: band `dx` at row `R`, column `j`, channel `l`
    is the padded input at batch `t / 2`, row `56 (t % 2) + R`, column `j + dx`. -/
theorem tap3_blk (c : Dev nD) (t : Fin cfg3.N) (dx R j l : ℕ) (hdx : dx < 3) (hR : R < 58) (hj : j < 112) (hl : l < 64) :
    tap3 (View.ld (xblk3 V c t) (Rect.unit (s := S1x114x114x64) (k3_off1 (grid3.coords t)) S1x58x112x64.size (k3_off1_inb (grid3.coords t))))
        (View.ld (xblk3 V c t) (Rect.unit (s := S1x114x114x64) (k3_off2 (grid3.coords t)) S1x58x112x64.size (k3_off2_inb (grid3.coords t))))
        (View.ld (xblk3 V c t) (Rect.unit (s := S1x114x114x64) (k3_off3 (grid3.coords t)) S1x58x112x64.size (k3_off3_inb (grid3.coords t)))) dx R j l
      = arr4 (xarr3 V c) (t.val / 2) (56 * (t.val % 2) + R) (j + dx) l := by
  have hN : cfg3.N = 16 := N_3
  obtain ⟨-, -, -, -, -, -, -, -, -, -, -, -, ei⟩ := idx_facts3 t
  have hm : t.val % 2 < 2 := Nat.mod_lt _ (by decide)
  have hx : ∀ (RR JJ : ℕ), RR < 114 → JJ < 114 → arr4 (xblk3 V c t) 0 RR JJ l = arr4 (xarr3 V c) (t.val / 2) RR JJ l := fun RR JJ h1 h2 =>
    (arr4_apply (xblk3 V c t) (0 : Fin 1) ⟨RR, h1⟩ ⟨JJ, h2⟩ ⟨l, hl⟩).trans (xblk3_apply V c t ⟨RR, h1⟩ ⟨JJ, h2⟩ ⟨l, hl⟩)
  have h3 : dx = 0 ∨ dx = 1 ∨ dx = 2 := by omega
  rcases h3 with rfl | rfl | rfl
  · rw [tap3_zero, ld_band3 (xblk3 V c t) _ (56 * (t.val % 2)) 0 (by rw [k3_off1_eq, ei]) _ R j l hR hj hl (by omega) (by omega), hx _ _ (by omega) (by omega)]
    congr 1; omega
  · rw [tap3_one, ld_band3 (xblk3 V c t) _ (56 * (t.val % 2)) 1 (by rw [k3_off2_eq, ei]) _ R j l hR hj hl (by omega) (by omega), hx _ _ (by omega) (by omega)]
    congr 1; omega
  · rw [tap3_two, ld_band3 (xblk3 V c t) _ (56 * (t.val % 2)) 2 (by rw [k3_off3_eq, ei]) _ R j l hR hj hl (by omega) (by omega), hx _ _ (by omega) (by omega)]
    congr 1; omega

/-- The output array the region leaves: the convolution of the padded input with the flattened weights, plus bias, ReLU. -/
def G3 (c : Dev nD) : Vec Ideal S8x112x112x128 .bf16 := fun i =>
  convFlat 64 (arr4 (xarr3 V c)) (arr2 (warr3 V c)) (arr2 (barr3 V c)) (i 0).val (i 1).val (i 2).val (i 3).val

/-- What point `t` writes back is its block of that array. -/
theorem flushed3_eq (c : Dev nD) (t : Fin cfg3.N) :
    (dat3 V c).flushed 3 t = ((cfg3.win 3).blk t).view.read (Elt Ideal) (G3 V c) := by
  have hN : cfg3.N = 16 := N_3
  have hb : t.val / 2 < 8 := by have := t.isLt; omega
  have hm : t.val % 2 < 2 := Nat.mod_lt _ (by decide)
  obtain ⟨-, -, -, -, -, -, -, -, e0, e1, e2, e3, -⟩ := idx_facts3 t
  show (cfg3.win 3).cut (grid3.coords t) ((dat3 V c).after 3 t) = _
  rw [after3_3]
  unfold outsAt3
  rw [out3_eq]
  funext y
  obtain ⟨u, r, j, co, rfl⟩ : ∃ (u : Fin 1) (r : Fin 56) (j : Fin 112) (co : Fin 128), y = ix4 u r j co := ⟨y 0, y 1, y 2, y 3, eq_ix4 y⟩
  obtain rfl : u = 0 := Subsingleton.elim _ _
  have hr : 56 * (t.val % 2) + r.val < 112 := by have := r.isLt; omega
  have hemb : ((cfg3.win 3).blk t).view.emb (ix4 (0 : Fin 1) r j co) = ix4 ⟨t.val / 2, hb⟩ ⟨56 * (t.val % 2) + r.val, hr⟩ j co := by
    funext a; apply Fin.ext
    match a with
    | ⟨0, _⟩ => show win3_3.index t (0 : Fin 4) * 1 + 1 * 0 = t.val / 2; omega
    | ⟨1, _⟩ => show win3_3.index t (1 : Fin 4) * 56 + 1 * r.val = 56 * (t.val % 2) + r.val; omega
    | ⟨2, _⟩ => show win3_3.index t (2 : Fin 4) * 112 + 1 * j.val = j.val; omega
    | ⟨3, _⟩ => show win3_3.index t (3 : Fin 4) * 128 + 1 * co.val = co.val; omega
  show k3_pay1 (View.ld (xblk3 V c t) (Rect.unit (s := S1x114x114x64) (k3_off1 (grid3.coords t)) S1x58x112x64.size (k3_off1_inb (grid3.coords t)))) (View.ld (xblk3 V c t) (Rect.unit (s := S1x114x114x64) (k3_off2 (grid3.coords t)) S1x58x112x64.size (k3_off2_inb (grid3.coords t)))) (View.ld (xblk3 V c t) (Rect.unit (s := S1x114x114x64) (k3_off3 (grid3.coords t)) S1x58x112x64.size (k3_off3_inb (grid3.coords t)))) (wblk3 V c t) (bblk3 V c t) (ix4 (0 : Fin 1) r j co)
    = G3 V c (((cfg3.win 3).blk t).view.emb (ix4 (0 : Fin 1) r j co))
  rw [hemb, wblk3_eq, bblk3_eq]
  refine (pay3_apply _ _ _ (warr3 V c) (barr3 V c) r j co).trans ?_
  show _ = convFlat 64 (arr4 (xarr3 V c)) (arr2 (warr3 V c)) (arr2 (barr3 V c)) (t.val / 2) (56 * (t.val % 2) + r.val) j.val co.val
  unfold convFlat
  refine congrArg₂ max (congrArg₂ (· + ·) (Finset.sum_congr rfl fun K hK => ?_) rfl) rfl
  have hK : K < 576 := Finset.mem_range.mp hK
  rw [tap3_blk V c t (K / 64 % 3) (r.val + K / 64 / 3) j.val (K % 64) (Nat.mod_lt _ (by decide)) (by have := r.isLt; omega) j.isLt (Nat.mod_lt _ (by decide))]
  congr 2; omega

/-- An index of the output array is in point `t`'s block iff each coordinate is in the block's range on its axis. -/
theorem mem_blk3 (t : Fin cfg3.N) (i : S8x112x112x128.Idx) :
    i ∈ ((cfg3.win 3).blk t).view.set ↔ ∀ a : Fin 4, win3_3.index t a * S1x56x112x128.size a ≤ (i a).val ∧ (i a).val < win3_3.index t a * S1x56x112x128.size a + S1x56x112x128.size a := by
  show i ∈ ((View.whole main_v24).slice (win3_3.rect t)).set ↔ _
  rw [View.set_slice_whole, Rect.mem_set_unit]
  exact Iff.rfl

/-- The output array after the region: the sixteen blocks tile it. -/
theorem final3 (c : Dev nD) : (dat3 V c).arrAt 3 cfg3.N = G3 V c :=
  (dat3 V c).arrAt_eq_of_cover 3 (G3 V c) (fun t _ => flushed3_eq V c t) (fun i => by
    have hN : cfg3.N = 16 := N_3
    have h0 : (i 0).val < 8 := (i 0).isLt
    have h1 : (i 1).val < 112 := (i 1).isLt
    have h2 : (i 2).val < 112 := (i 2).isLt
    have h3 : (i 3).val < 128 := (i 3).isLt
    have ht : 2 * (i 0).val + (i 1).val / 56 < cfg3.N := by omega
    obtain ⟨-, -, -, -, -, -, -, -, e0, e1, e2, e3, -⟩ := idx_facts3 ⟨2 * (i 0).val + (i 1).val / 56, ht⟩
    refine ⟨⟨2 * (i 0).val + (i 1).val / 56, ht⟩, flush3_3 _, ?_⟩
    rw [mem_blk3]
    intro a
    match a with
    | ⟨0, _⟩ => show win3_3.index _ (0 : Fin 4) * 1 ≤ (i 0).val ∧ (i 0).val < win3_3.index _ (0 : Fin 4) * 1 + 1; simp only [] at e0; omega
    | ⟨1, _⟩ => show win3_3.index _ (1 : Fin 4) * 56 ≤ (i 1).val ∧ (i 1).val < win3_3.index _ (1 : Fin 4) * 56 + 56; simp only [] at e1; omega
    | ⟨2, _⟩ => show win3_3.index _ (2 : Fin 4) * 112 ≤ (i 2).val ∧ (i 2).val < win3_3.index _ (2 : Fin 4) * 112 + 112; omega
    | ⟨3, _⟩ => show win3_3.index _ (3 : Fin 4) * 128 ≤ (i 3).val ∧ (i 3).val < win3_3.index _ (3 : Fin 4) * 128 + 128; omega)

/-- The region's value: its output array, read at natural coordinates, is the flattened convolution of its input arrays. -/
theorem conv3_value (c : Dev nD) (b i j co : ℕ) (hb : b < 8) (hi : i < 112) (hj : j < 112) (hco : co < 128) :
    arr4 ((dat3 (F := Ideal) V c).arrAt 3 cfg3.N : Vec Ideal S8x112x112x128 .bf16) b i j co
      = convFlat 64 (arr4 (V c (Pipeline.arrRef spec3 0) : Vec Ideal S8x114x114x64 .bf16))
          (arr2 (V c (Pipeline.arrRef spec3 1) : Vec Ideal S576x128 .bf16))
          (arr2 (V c (Pipeline.arrRef spec3 2) : Vec Ideal S1x128 .f32)) b i j co := by
  rw [final3]
  exact arr4_apply (G3 V c) ⟨b, hb⟩ ⟨i, hi⟩ ⟨j, hj⟩ ⟨co, hco⟩

end AtIdeal

end Cert.KernelIdeal.Val

end
-- ==== Proof.KV4Pay.lean ====
/-
  The payload of kernel region 4 read at one entry, at the ideal values. The body's one whole-block store writes, at
  pooled row `i`, column `j`, output channel `co` of its block, the larger of the two convolution rows `2i` and `2i+1`
  there; a convolution row `h` at `(j, co)` is the ReLU of the bias plus the sum over the 1152 lanes `K` of the nine
  lane-concatenated taps — lane `K` is tap `K / 128` (row offset `K / 128 / 3`, column band `K / 128 % 3`) at input
  channel `K % 128` — times row `K` of the flattened weights. The row-pair maximum is a reduction over an axis of
  extent two started from minus infinity, which the maximum absorbs.
-/
import proofs.«100114_g2000204297211070_pallasbulk_1265_19_alg».proof.Proof.Gen.KernelIdeal.Skeleton
import proofs.«100114_g2000204297211070_pallasbulk_1265_19_alg».proof.Proof.Spec
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Val

open Cert.KernelIdeal Cert.KernelIdeal.Gen Cert.Spec
open Idealize.ShloMosaic Idealize.ShloMosaic.ValueIdx

/-- The block product into the zero accumulator, at an entry: the sum over the contracted coordinate. -/
theorem mm4_apply (A : FVec Ideal S6272x1152 .bf16) (B : FVec Ideal S1152x128 .bf16) (a : Fin 6272) (b : Fin 128) :
    matmul dot_S6272x1152_S1152x128_S6272x128_1_0_0_1_n_n none A B (constant S6272x128 .f32 0x00000000#32) (ix2 a b)
      = ∑ c : Fin 1152, A (ix2 a c) * B (ix2 c b) := by
  show FloatOps.matmul dot_S6272x1152_S1152x128_S6272x128_1_0_0_1_n_n none A B _ (ix2 a b) = _
  rw [Ideal.matmul_constant_zero_apply, ← Equiv.sum_comp (contrEquiv1 dot_S6272x1152_S1152x128_S6272x128_1_0_0_1_n_n 1152 rfl rfl).symm]
  refine Finset.sum_congr rfl fun c _ => ?_
  have c2 := contrEquiv1_symm_val dot_S6272x1152_S1152x128_S6272x128_1_0_0_1_n_n 1152 rfl rfl c
  have l2 : (dot_S6272x1152_S1152x128_S6272x128_1_0_0_1_n_n).lhsIdx (ix2 a b) ((contrEquiv1 _ 1152 rfl rfl).symm c) = ix2 a c := by
    funext ax; apply Fin.ext
    match ax with
    | ⟨0, _⟩ => simp [DotDims.lhsIdx, dot_S6272x1152_S1152x128_S6272x128_1_0_0_1_n_n]; rfl
    | ⟨1, _⟩ => simp [DotDims.lhsIdx, dot_S6272x1152_S1152x128_S6272x128_1_0_0_1_n_n]; exact c2
  have r2 : (dot_S6272x1152_S1152x128_S6272x128_1_0_0_1_n_n).rhsIdx (ix2 a b) ((contrEquiv1 _ 1152 rfl rfl).symm c) = ix2 c b := by
    funext ax; apply Fin.ext
    match ax with
    | ⟨0, _⟩ => simp [DotDims.rhsIdx, dot_S6272x1152_S1152x128_S6272x128_1_0_0_1_n_n]; exact c2
    | ⟨1, _⟩ => simp [DotDims.rhsIdx, dot_S6272x1152_S1152x128_S6272x128_1_0_0_1_n_n]; rfl
  rw [l2, r2]

/-- One tap: the band `v` (the 58 rows of the padded block a tile reads) with its unit axis dropped, cut from row `dy`,
    at an entry. -/
theorem band4_apply (v : Vec Ideal S1x58x112x128 .bf16) (dy : ℕ) (hdy : dy ≤ 2) (h : S58x112x128.Slices ![dy, 0, 0] S56x112x128)
    (r : Fin 56) (j : Fin 112) (l : Fin 128) :
    extractStridedSlice S56x112x128 ![dy, 0, 0] (shapeCast S58x112x128 v shapeCasts_S1x58x112x128_S58x112x128) h (ix3 r j l)
      = arr4 v 0 (r.val + dy) j.val l.val := by
  have hR : r.val + dy < 58 := by omega
  refine (extractStridedSlice_apply _ _ h (ix3 r j l) (ix3 ⟨r.val + dy, hR⟩ j l) (fun a => ?_)).trans ?_
  · match a with
    | ⟨0, _⟩ => exact Nat.add_comm _ _
    | ⟨1, _⟩ => exact (Nat.zero_add _).symm
    | ⟨2, _⟩ => exact (Nat.zero_add _).symm
  · refine (shapeCast_1abc_abc_apply v _ ⟨r.val + dy, hR⟩ j l).trans ?_
    exact (arr4_apply v (0 : Fin 1) ⟨r.val + dy, hR⟩ j l).symm

/-- The maximum over an axis of extent two, started from `b`. -/
theorem fold_max_pair4 (b : EReal) (f : Fin 2 → EReal) :
    (Finset.univ : Finset (Fin 2)).fold max b f = max (f 0) (max (f 1) b) := by
  rw [show (Finset.univ : Finset (Fin 2)) = insert 0 {1} from by decide, Finset.fold_insert (by decide), Finset.fold_singleton]

variable (v3 v6 v9 : Vec Ideal S1x58x112x128 .bf16) (v22 : Vec Ideal S1152x128 .bf16) (v25 : Vec Ideal S1x128 .f32)

/-- The three loaded bands, by column offset, as one total function: band `dx` at row `R`, column `j`, channel `l`. -/
def tap4 (dx R j l : ℕ) : EReal :=
  if dx = 0 then arr4 v3 0 R j l else if dx = 1 then arr4 v6 0 R j l else arr4 v9 0 R j l

/-- The nine taps in the concatenation's order: tap `n` is the band at column offset `n % 3` cut from row `n / 3`. -/
def pieces4 : Fin 9 → (S56x112x128.Idx → EReal) :=
  ![extractStridedSlice S56x112x128 ![0, 0, 0] (shapeCast S58x112x128 v3 shapeCasts_S1x58x112x128_S58x112x128) slices_S58x112x128_o0_0_0_S56x112x128,
    extractStridedSlice S56x112x128 ![0, 0, 0] (shapeCast S58x112x128 v6 shapeCasts_S1x58x112x128_S58x112x128) slices_S58x112x128_o0_0_0_S56x112x128,
    extractStridedSlice S56x112x128 ![0, 0, 0] (shapeCast S58x112x128 v9 shapeCasts_S1x58x112x128_S58x112x128) slices_S58x112x128_o0_0_0_S56x112x128,
    extractStridedSlice S56x112x128 ![1, 0, 0] (shapeCast S58x112x128 v3 shapeCasts_S1x58x112x128_S58x112x128) slices_S58x112x128_o1_0_0_S56x112x128,
    extractStridedSlice S56x112x128 ![1, 0, 0] (shapeCast S58x112x128 v6 shapeCasts_S1x58x112x128_S58x112x128) slices_S58x112x128_o1_0_0_S56x112x128,
    extractStridedSlice S56x112x128 ![1, 0, 0] (shapeCast S58x112x128 v9 shapeCasts_S1x58x112x128_S58x112x128) slices_S58x112x128_o1_0_0_S56x112x128,
    extractStridedSlice S56x112x128 ![2, 0, 0] (shapeCast S58x112x128 v3 shapeCasts_S1x58x112x128_S58x112x128) slices_S58x112x128_o2_0_0_S56x112x128,
    extractStridedSlice S56x112x128 ![2, 0, 0] (shapeCast S58x112x128 v6 shapeCasts_S1x58x112x128_S58x112x128) slices_S58x112x128_o2_0_0_S56x112x128,
    extractStridedSlice S56x112x128 ![2, 0, 0] (shapeCast S58x112x128 v9 shapeCasts_S1x58x112x128_S58x112x128) slices_S58x112x128_o2_0_0_S56x112x128]

theorem pieces4_apply (n : Fin 9) (r : Fin 56) (j : Fin 112) (l : Fin 128) :
    pieces4 v3 v6 v9 n (ix3 r j l) = tap4 v3 v6 v9 (n.val % 3) (r.val + n.val / 3) j.val l.val := by
  match n with
  | ⟨0, _⟩ => exact (band4_apply v3 0 (by decide) slices_S58x112x128_o0_0_0_S56x112x128 r j l).trans (by simp [tap4])
  | ⟨1, _⟩ => exact (band4_apply v6 0 (by decide) slices_S58x112x128_o0_0_0_S56x112x128 r j l).trans (by simp [tap4])
  | ⟨2, _⟩ => exact (band4_apply v9 0 (by decide) slices_S58x112x128_o0_0_0_S56x112x128 r j l).trans (by simp [tap4])
  | ⟨3, _⟩ => exact (band4_apply v3 1 (by decide) slices_S58x112x128_o1_0_0_S56x112x128 r j l).trans (by simp [tap4])
  | ⟨4, _⟩ => exact (band4_apply v6 1 (by decide) slices_S58x112x128_o1_0_0_S56x112x128 r j l).trans (by simp [tap4])
  | ⟨5, _⟩ => exact (band4_apply v9 1 (by decide) slices_S58x112x128_o1_0_0_S56x112x128 r j l).trans (by simp [tap4])
  | ⟨6, _⟩ => exact (band4_apply v3 2 (by decide) slices_S58x112x128_o2_0_0_S56x112x128 r j l).trans (by simp [tap4])
  | ⟨7, _⟩ => exact (band4_apply v6 2 (by decide) slices_S58x112x128_o2_0_0_S56x112x128 r j l).trans (by simp [tap4])
  | ⟨8, _⟩ => exact (band4_apply v9 2 (by decide) slices_S58x112x128_o2_0_0_S56x112x128 r j l).trans (by simp [tap4])
  | ⟨_ + 9, h⟩ => exact absurd h (by omega)

/-- The concatenation of the nine taps along the lanes, at lane `c`: tap `c / 128` at channel `c % 128`. -/
theorem cat4_apply (r : Fin 56) (j : Fin 112) (c : Fin 1152) :
    concatenate S56x112x1152 2 [⟨S56x112x128, extractStridedSlice S56x112x128 ![0, 0, 0] (shapeCast S58x112x128 v3 shapeCasts_S1x58x112x128_S58x112x128) slices_S58x112x128_o0_0_0_S56x112x128⟩,
      ⟨S56x112x128, extractStridedSlice S56x112x128 ![0, 0, 0] (shapeCast S58x112x128 v6 shapeCasts_S1x58x112x128_S58x112x128) slices_S58x112x128_o0_0_0_S56x112x128⟩,
      ⟨S56x112x128, extractStridedSlice S56x112x128 ![0, 0, 0] (shapeCast S58x112x128 v9 shapeCasts_S1x58x112x128_S58x112x128) slices_S58x112x128_o0_0_0_S56x112x128⟩,
      ⟨S56x112x128, extractStridedSlice S56x112x128 ![1, 0, 0] (shapeCast S58x112x128 v3 shapeCasts_S1x58x112x128_S58x112x128) slices_S58x112x128_o1_0_0_S56x112x128⟩,
      ⟨S56x112x128, extractStridedSlice S56x112x128 ![1, 0, 0] (shapeCast S58x112x128 v6 shapeCasts_S1x58x112x128_S58x112x128) slices_S58x112x128_o1_0_0_S56x112x128⟩,
      ⟨S56x112x128, extractStridedSlice S56x112x128 ![1, 0, 0] (shapeCast S58x112x128 v9 shapeCasts_S1x58x112x128_S58x112x128) slices_S58x112x128_o1_0_0_S56x112x128⟩,
      ⟨S56x112x128, extractStridedSlice S56x112x128 ![2, 0, 0] (shapeCast S58x112x128 v3 shapeCasts_S1x58x112x128_S58x112x128) slices_S58x112x128_o2_0_0_S56x112x128⟩,
      ⟨S56x112x128, extractStridedSlice S56x112x128 ![2, 0, 0] (shapeCast S58x112x128 v6 shapeCasts_S1x58x112x128_S58x112x128) slices_S58x112x128_o2_0_0_S56x112x128⟩,
      ⟨S56x112x128, extractStridedSlice S56x112x128 ![2, 0, 0] (shapeCast S58x112x128 v9 shapeCasts_S1x58x112x128_S58x112x128) slices_S58x112x128_o2_0_0_S56x112x128⟩]
      concatenates_S56x112x128_S56x112x128_S56x112x128_S56x112x128_S56x112x128_S56x112x128_S56x112x128_S56x112x128_S56x112x128_S56x112x1152_d2 (ix3 r j c)
      = tap4 v3 v6 v9 (c.val / 128 % 3) (r.val + c.val / 128 / 3) j.val (c.val % 128) := by
  have hn : c.val / 128 < 9 := by have := c.isLt; omega
  have hl : c.val % 128 < 128 := Nat.mod_lt _ (by decide)
  refine (concatenate_ofFn_apply (t := S56x112x1152) (s₁ := S56x112x128) 2 (pieces4 v3 v6 v9) concatenates_S56x112x128_S56x112x128_S56x112x128_S56x112x128_S56x112x128_S56x112x128_S56x112x128_S56x112x128_S56x112x128_S56x112x1152_d2 rfl 128 rfl
    (ix3 r j c) ⟨c.val / 128, hn⟩ rfl (ix3 r j ⟨c.val % 128, hl⟩) rfl ?_).trans ?_
  · intro b hb
    match b with
    | ⟨0, _⟩ => rfl
    | ⟨1, _⟩ => rfl
    | ⟨2, _⟩ => exact absurd rfl hb
  · exact pieces4_apply v3 v6 v9 ⟨c.val / 128, hn⟩ r j ⟨c.val % 128, hl⟩

/-- One convolution row of the tile at column `j`, output channel `co`: bias plus the sum over the lanes, then ReLU. -/
def crow4 (h j co : ℕ) : EReal :=
  max ((∑ K ∈ Finset.range 1152, tap4 v3 v6 v9 (K / 128 % 3) (h + K / 128 / 3) j (K % 128) * arr2 v22 K co) + arr2 v25 0 co) 0

/-- The payload at an entry of the output block: the larger of convolution rows `2i` and `2i+1`. -/
theorem pay4_apply (i : Fin 28) (j : Fin 112) (co : Fin 128) :
    k4_pay1 v3 v6 v9 v22 v25 (ix4 (0 : Fin 1) i j co)
      = max (crow4 v3 v6 v9 v22 v25 (2 * i.val) j.val co.val) (crow4 v3 v6 v9 v22 v25 (2 * i.val + 1) j.val co.val) := by
  have hne : Ideal.ofBits .f32 0xFF800000#32 = ⊥ := by simp [Ideal.ofBits, Ideal.ieee]
  rw [Nat.mul_comm 2 i.val]
  unfold k4_pay1
  refine (shapeCast_abc_1abc_apply _ _ (0 : Fin 1) i j co).trans ?_
  -- the narrowing to bf16 is the identity at the ideal values; under it, the maximum over the row pair
  refine (truncf_apply (φ := .f32) (ψ := .bf16) _ bitsLt_bf16_f32 (ix3 i j co)).trans ?_
  refine (Ideal.multiReduction_maximumf_single _ _ reduces_S28x2x112x128_S28x112x128 _ _ (ix3 i j co)).trans ?_
  refine (fold_max_pair4 _ _).trans ?_
  suffices h : ∀ r : Fin 2, (Function.comp _ (Shape.Reduces.lift reduces_S28x2x112x128_S28x112x128 (ix3 i j co))) r
      = crow4 v3 v6 v9 v22 v25 (i.val * 2 + r.val) j.val co.val from
    congrArg₂ max (h 0) ((congrArg₂ max (h 1) hne).trans (max_bot_right _))
  intro r
  have hh : i.val * 2 + r.val < 56 := by have := i.isLt; have := r.isLt; omega
  have hp : (i.val * 2 + r.val) * 112 + j.val < 6272 := by have := j.isLt; omega
  unfold crow4
  -- row `2i + r` of the tile's convolution: position `(2i + r) * 112 + j` of the flattened product
  refine (shapeCast_apply _ _ (Shape.Reduces.lift reduces_S28x2x112x128_S28x112x128 (ix3 i j co) r) (ix2 ⟨(i.val * 2 + r.val) * 112 + j.val, hp⟩ co) ?_).trans ?_
  · rw [Shape.rowMajor_val_two, Shape.rowMajor_val_four]; rfl
  refine congrArg₂ max ?_ ?_
  swap
  · exact Ideal.ofBits_zero_f32
  refine congrArg₂ (· + ·) ?_ ?_
  swap
  · refine (broadcastTo_1b_ab_apply v25 _ ⟨(i.val * 2 + r.val) * 112 + j.val, hp⟩ co).trans ?_
    exact (arr2_apply v25 (0 : Fin 1) co).symm
  refine (mm4_apply _ _ ⟨(i.val * 2 + r.val) * 112 + j.val, hp⟩ co).trans ?_
  rw [← Fin.sum_univ_eq_sum_range (fun K => tap4 v3 v6 v9 (K / 128 % 3) (i.val * 2 + r.val + K / 128 / 3) j.val (K % 128) * arr2 v22 K co.val) 1152]
  refine Finset.sum_congr rfl fun c _ => ?_
  refine congrArg₂ (· * ·) ?_ ?_
  · refine (shapeCast_apply _ _ (ix2 ⟨(i.val * 2 + r.val) * 112 + j.val, hp⟩ c) (ix3 ⟨i.val * 2 + r.val, hh⟩ j c) ?_).trans ?_
    · rw [Shape.rowMajor_val_two, Shape.rowMajor_val_three]; rfl
    exact cat4_apply v3 v6 v9 ⟨i.val * 2 + r.val, hh⟩ j c
  · rw [shapeCast_self]
    exact (arr2_apply v22 c co).symm

end Cert.KernelIdeal.Val

end
-- ==== Proof.KV4.lean ====
/-
  The value of kernel region 4: its output array after the pipeline, entry by entry, at the ideal values. Point `t` of
  the grid is tile `t % 2` of image `t / 2`; its body loads three column-shifted bands of 58 rows of the image's
  padded block, from row `56 · (t % 2)`, and stores 28 pooled rows; entry `(i, j, co)` of what it stores is the larger
  of rows `2i` and `2i + 1` of the tile's convolution, which are rows `2 · (28 · (t % 2) + i)` and the next of the image's.
  The output blocks tile the output array, so every entry of the array is the row-pair maximum of the convolution.
-/
import proofs.«100114_g2000204297211070_pallasbulk_1265_19_alg».proof.Proof.KR4
import proofs.«100114_g2000204297211070_pallasbulk_1265_19_alg».proof.Proof.KV4Pay
import Idealize.ShloMosaic.Lib.Pipeline.Value
import Idealize.ShloMosaic.Lib.Tactic

set_option maxRecDepth 16384

noncomputable section

open scoped BigOperators

namespace Cert.KernelIdeal.Val

open Cert.KernelIdeal Cert.KernelIdeal.Gen Cert.KernelIdeal.Reg Cert.Spec
open Idealize.ShloMosaic Idealize.ShloMosaic.TcCoe Idealize.ShloMosaic.Tactic Idealize.ShloMosaic.ValueIdx
open Idealize.SL.Sem
open Idealize.ShloMosaic.Pipeline (Dat)

variable (V : (c : Dev nD) → (b : Ref sig .tc) → Buf (Elt Ideal) ((c : Thread nD τ).loc b))

private theorem hz4 : (![0, 0, 0, 0] : Fin 4 → Nat) = fun _ => 0 := funext fun a => by fin_cases a <;> rfl
private theorem hz2 : (![0, 0] : Fin 2 → Nat) = fun _ => 0 := funext fun a => by fin_cases a <;> rfl

/-- The region's arrays as it finds them, by their literal types: the padded input, the flattened weights, the bias. -/
abbrev xarr4 (c : Dev nD) : Vec Ideal S8x114x114x128 .bf16 := V c (Pipeline.arrRef spec4 0)
abbrev warr4 (c : Dev nD) : Vec Ideal S1152x128 .bf16 := V c (Pipeline.arrRef spec4 1)
abbrev barr4 (c : Dev nD) : Vec Ideal S1x128 .f32 := V c (Pipeline.arrRef spec4 2)

/-- Which block of its array each window is on at point `t`, and the point's second grid coordinate. -/
theorem idx4 : ∀ t : Fin grid4.N,
    (win4_0.index t 0 = t.val / 2 ∧ win4_0.index t 1 = 0 ∧ win4_0.index t 2 = 0 ∧ win4_0.index t 3 = 0)
    ∧ (win4_1.index t 0 = 0 ∧ win4_1.index t 1 = 0) ∧ (win4_2.index t 0 = 0 ∧ win4_2.index t 1 = 0)
    ∧ (win4_3.index t 0 = t.val / 2 ∧ win4_3.index t 1 = t.val % 2 ∧ win4_3.index t 2 = 0 ∧ win4_3.index t 3 = 0)
    ∧ (grid4.coords t 1).val = t.val % 2 := by decide +kernel

/-! ## What the run leaves in the output's staging buffer: the payload of the loaded blocks -/

theorem out4_eq (c : Dev nD) (i : grid4.Coords) (arg2 : Memref sig .tc .vmem S1x114x114x128 .bf16) (harg2 : arg2.IsWhole) (arg3 : Memref sig .tc .vmem S1152x128 .bf16) (harg3 : arg3.IsWhole) (arg4 : Memref sig .tc .vmem S1x128 .f32) (harg4 : arg4.IsWhole) (arg5 : Memref sig .tc .vmem S1x28x112x128 .bf16) (harg5 : arg5.IsWhole)
    (x0 : Vec Ideal S1x114x114x128 .bf16) (x1 : Vec Ideal S1152x128 .bf16) (x2 : Vec Ideal S1x128 .f32) :
    out4_A_3 (F := Ideal) c i arg2 harg2 arg3 harg3 arg4 harg4 arg5 harg5 x0 x1 x2
      = k4_pay1 (View.ld x0 (Rect.unit (s := S1x114x114x128) (k4_off1 i) S1x58x112x128.size (k4_off1_inb i)))
      (View.ld x0 (Rect.unit (s := S1x114x114x128) (k4_off2 i) S1x58x112x128.size (k4_off2_inb i)))
      (View.ld x0 (Rect.unit (s := S1x114x114x128) (k4_off3 i) S1x58x112x128.size (k4_off3_inb i))) x1 x2 := by
  unfold out4_A_3
  rw [View.read_writes_eq_canon _ _ _ (cover4_A_3 c i arg2 harg2 arg3 harg3 arg4 harg4 arg5 harg5 x0 x1 x2)]
  unfold kernelRun4_A
  dsimp only
  try sl_unfold_words
  rw [View.canon_unit_zero hz4]
  simp only [View.readAt_eq_ld, harg2.read_unread, harg3.read_unread, harg4.read_unread, View.ld_unit_zero (S := S1152x128) hz2, View.ld_unit_zero (S := S1x128) hz2]

/-! ## The loaded bands and blocks as entries of the arrays -/

/-- A band of the block loaded from row `ro`, column `dx`, read as a total function of its coordinates. -/
theorem ldband4 (x0 : Vec Ideal S1x114x114x128 .bf16) (off : Fin 4 → ℕ) (inb : ∀ a, off a + S1x58x112x128.size a ≤ S1x114x114x128.size a)
    (ro dx : ℕ) (hoff : off = ![0, ro, dx, 0]) (R j l : ℕ) (hR : R < 58) (hj : j < 112) (hl : l < 128) :
    arr4 (View.ld x0 (Rect.unit (s := S1x114x114x128) off S1x58x112x128.size inb) : Vec Ideal S1x58x112x128 .bf16) 0 R j l
      = arr4 x0 0 (ro + R) (dx + j) l := by
  subst hoff
  have hro : ro + 58 ≤ 114 := by have h := inb ⟨1, by decide⟩; exact h
  have hdx : dx + 112 ≤ 114 := by have h := inb ⟨2, by decide⟩; exact h
  refine (arr4_apply _ (0 : Fin 1) ⟨R, hR⟩ ⟨j, hj⟩ ⟨l, hl⟩).trans ?_
  refine Eq.trans ?_ (arr4_apply x0 (0 : Fin 1) ⟨ro + R, by omega⟩ ⟨dx + j, by omega⟩ ⟨l, hl⟩).symm
  show x0 _ = x0 _
  congr 1
  funext a
  apply Fin.ext
  match a with
  | ⟨0, _⟩ => rfl
  | ⟨1, _⟩ => show ro + 1 * R = ro + R; omega
  | ⟨2, _⟩ => show dx + 1 * j = dx + j; omega
  | ⟨3, _⟩ => show 0 + 1 * l = l; omega

/-- The three bands the body loads at grid position `i`, as entries of the block: band `dx` at `(R, j, l)` is the block at
    row `56 · i₁ + R`, column `dx + j`. -/
theorem tap4_ld (x0 : Vec Ideal S1x114x114x128 .bf16) (i : grid4.Coords) (dx R j l : ℕ) (hdx : dx < 3) (hR : R < 58) (hj : j < 112) (hl : l < 128) :
    tap4 (View.ld x0 (Rect.unit (s := S1x114x114x128) (k4_off1 i) S1x58x112x128.size (k4_off1_inb i)))
      (View.ld x0 (Rect.unit (s := S1x114x114x128) (k4_off2 i) S1x58x112x128.size (k4_off2_inb i)))
      (View.ld x0 (Rect.unit (s := S1x114x114x128) (k4_off3 i) S1x58x112x128.size (k4_off3_inb i))) dx R j l
      = arr4 x0 0 (56 * (i 1).val + R) (dx + j) l := by
  unfold tap4
  interval_cases dx
  · rw [if_pos rfl]; exact ldband4 x0 _ _ _ 0 (k4_off1_eq i) R j l hR hj hl
  · rw [if_neg (by decide), if_pos rfl]; exact ldband4 x0 _ _ _ 1 (k4_off2_eq i) R j l hR hj hl
  · rw [if_neg (by decide), if_neg (by decide)]; exact ldband4 x0 _ _ _ 2 (k4_off3_eq i) R j l hR hj hl

/-- The input window's block at point `t` is image `t / 2` of the padded input. -/
theorem iblk4_0_arr (c : Dev nD) (t : Fin cfg4.N) (R w l : ℕ) (hR : R < 114) (hw : w < 114) (hl : l < 128) :
    arr4 (iblk4 V c 0 t : Vec Ideal S1x114x114x128 .bf16) 0 R w l = arr4 (xarr4 V c) (t.val / 2) R w l := by
  have hb : t.val / 2 < 8 := by have : t.val < 8 * 2 := t.isLt; omega
  obtain ⟨⟨h0, h1, h2, h3⟩, -⟩ := idx4 t
  refine (arr4_apply _ (0 : Fin 1) ⟨R, hR⟩ ⟨w, hw⟩ ⟨l, hl⟩).trans ?_
  refine Eq.trans ?_ (arr4_apply (xarr4 V c) ⟨t.val / 2, hb⟩ ⟨R, hR⟩ ⟨w, hw⟩ ⟨l, hl⟩).symm
  unfold iblk4
  rw [View.read_apply]
  show V c (Pipeline.arrRef spec4 0) _ = V c (Pipeline.arrRef spec4 0) _
  congr 1
  funext a
  apply Fin.ext
  match a with
  | ⟨0, _⟩ => show win4_0.index t 0 * 1 + 1 * 0 = t.val / 2; rw [h0]; omega
  | ⟨1, _⟩ => show win4_0.index t 1 * 114 + 1 * R = R; rw [h1]; omega
  | ⟨2, _⟩ => show win4_0.index t 2 * 114 + 1 * w = w; rw [h2]; omega
  | ⟨3, _⟩ => show win4_0.index t 3 * 128 + 1 * l = l; rw [h3]; omega

/-- The weights' and the bias's blocks are their whole arrays at every point. -/
theorem iblk4_1_eq (c : Dev nD) (t : Fin cfg4.N) : (iblk4 V c 1 t : Vec Ideal S1152x128 .bf16) = warr4 V c := by
  obtain ⟨-, ⟨h0, h1⟩, -⟩ := idx4 t
  funext y
  unfold iblk4
  rw [View.read_apply]
  show V c (Pipeline.arrRef spec4 1) _ = V c (Pipeline.arrRef spec4 1) y
  congr 1
  funext a
  apply Fin.ext
  match a with
  | ⟨0, _⟩ => show win4_1.index t 0 * 1152 + 1 * (y 0).val = (y 0).val; rw [h0]; omega
  | ⟨1, _⟩ => show win4_1.index t 1 * 128 + 1 * (y 1).val = (y 1).val; rw [h1]; omega

theorem iblk4_2_eq (c : Dev nD) (t : Fin cfg4.N) : (iblk4 V c 2 t : Vec Ideal S1x128 .f32) = barr4 V c := by
  obtain ⟨-, -, ⟨h0, h1⟩, -⟩ := idx4 t
  funext y
  unfold iblk4
  rw [View.read_apply]
  show V c (Pipeline.arrRef spec4 2) _ = V c (Pipeline.arrRef spec4 2) y
  congr 1
  funext a
  apply Fin.ext
  match a with
  | ⟨0, _⟩ => show win4_2.index t 0 * 1 + 1 * (y 0).val = (y 0).val; rw [h0]; omega
  | ⟨1, _⟩ => show win4_2.index t 1 * 128 + 1 * (y 1).val = (y 1).val; rw [h1]; omega

/-! ## A row of the tile's convolution is a row of the image's -/

/-- Row `h` of the convolution the body computes at point `t` is row `56 · (t % 2) + h` of image `t / 2`'s. -/
theorem crow4_conv (c : Dev nD) (t : Fin cfg4.N) (h j co : ℕ) (hh : h < 56) (hj : j < 112) :
    crow4 (View.ld (iblk4 V c 0 t : Vec Ideal S1x114x114x128 .bf16) (Rect.unit (s := S1x114x114x128) (k4_off1 (grid4.coords t)) S1x58x112x128.size (k4_off1_inb (grid4.coords t))))
      (View.ld (iblk4 V c 0 t : Vec Ideal S1x114x114x128 .bf16) (Rect.unit (s := S1x114x114x128) (k4_off2 (grid4.coords t)) S1x58x112x128.size (k4_off2_inb (grid4.coords t))))
      (View.ld (iblk4 V c 0 t : Vec Ideal S1x114x114x128 .bf16) (Rect.unit (s := S1x114x114x128) (k4_off3 (grid4.coords t)) S1x58x112x128.size (k4_off3_inb (grid4.coords t))))
        (iblk4 V c 1 t : Vec Ideal S1152x128 .bf16) (iblk4 V c 2 t : Vec Ideal S1x128 .f32) h j co
      = (convFlat 128 (arr4 (xarr4 V c)) (arr2 (warr4 V c)) (arr2 (barr4 V c))) (t.val / 2) (56 * (t.val % 2) + h) j co := by
  obtain ⟨-, -, -, -, hc1⟩ := idx4 t
  have hi1 : (grid4.coords t 1).val < 2 := (grid4.coords t 1).isLt
  unfold crow4 convFlat
  show max ((∑ K ∈ Finset.range 1152, _) + _) 0 = max ((∑ K ∈ Finset.range 1152, _) + _) 0
  refine congrArg₂ max (congrArg₂ (· + ·) (Finset.sum_congr rfl fun K hK => ?_) ?_) rfl
  · have hK : K < 1152 := Finset.mem_range.mp hK
    have hdy : K / 128 / 3 < 3 := by omega
    refine congrArg₂ (· * ·) ?_ ?_
    · refine (tap4_ld (iblk4 V c 0 t) (grid4.coords t) (K / 128 % 3) (h + K / 128 / 3) j (K % 128) (Nat.mod_lt _ (by decide)) (by omega) hj (Nat.mod_lt _ (by decide))).trans ?_
      refine (iblk4_0_arr V c t (56 * (grid4.coords t 1).val + (h + K / 128 / 3)) (K / 128 % 3 + j) (K % 128) (by omega) (by omega) (Nat.mod_lt _ (by decide))).trans ?_
      rw [hc1, ← Nat.add_assoc, Nat.add_comm (K / 128 % 3) j]
    · exact congrArg (fun A : Vec Ideal S1152x128 .bf16 => arr2 A K co) (iblk4_1_eq V c t)
  · exact congrArg (fun A : Vec Ideal S1x128 .f32 => arr2 A 0 co) (iblk4_2_eq V c t)

/-! ## What the output's staging buffer holds after a point, entry by entry -/

theorem outsAt4_apply (c : Dev nD) (t : Fin cfg4.N) (i : Fin 28) (j : Fin 112) (co : Fin 128) :
    outsAt4 V c t (ix4 (0 : Fin 1) i j co)
      = hpool (convFlat 128 (arr4 (xarr4 V c)) (arr2 (warr4 V c)) (arr2 (barr4 V c))) (t.val / 2) (28 * (t.val % 2) + i.val) j.val co.val := by
  have hi := i.isLt
  unfold outsAt4
  rw [out4_eq]
  refine (pay4_apply _ _ _ _ _ i j co).trans ?_
  unfold hpool
  refine congrArg₂ max ((crow4_conv V c t (2 * i.val) j.val co.val (by omega) j.isLt).trans ?_)
    ((crow4_conv V c t (2 * i.val + 1) j.val co.val (by omega) j.isLt).trans ?_)
  · rw [show 56 * (t.val % 2) + 2 * i.val = 2 * (28 * (t.val % 2) + i.val) from by omega]
  · rw [show 56 * (t.val % 2) + (2 * i.val + 1) = 2 * (28 * (t.val % 2) + i.val) + 1 from by omega]

/-! ## The output array after the pipeline -/

/-- The array the region leaves: at every entry the row-pair maximum of the convolution of the padded input. -/
def G4 (c : Dev nD) : Vec Ideal S8x56x112x128 .bf16 := fun y =>
  hpool (convFlat 128 (arr4 (xarr4 V c)) (arr2 (warr4 V c)) (arr2 (barr4 V c))) (y 0).val (y 1).val (y 2).val (y 3).val

/-- Every write-back writes its block of that array. -/
theorem flushed4 (c : Dev nD) (t : Fin cfg4.N) (hf : (cfg4.win 3).flush t = true) :
    (dat4 (F := Ideal) V c).flushed 3 t = ((cfg4.win 3).blk t).view.read (Elt Ideal) (G4 V c) := by
  obtain ⟨-, -, -, ⟨h0, h1, h2, h3⟩, -⟩ := idx4 t
  show (dat4 (F := Ideal) V c).after 3 t = _
  rw [after4_3]
  funext y
  obtain ⟨y0, y1, y2, y3, rfl⟩ : ∃ (y0 : Fin 1) (y1 : Fin 28) (y2 : Fin 112) (y3 : Fin 128), y = ix4 y0 y1 y2 y3 :=
    ⟨y 0, y 1, y 2, y 3, eq_ix4 y⟩
  obtain rfl : y0 = 0 := Fin.ext (by have := y0.isLt; omega)
  rw [View.read_apply]
  refine (outsAt4_apply V c t y1 y2 y3).trans ?_
  show _ = hpool (convFlat 128 (arr4 (xarr4 V c)) (arr2 (warr4 V c)) (arr2 (barr4 V c)))
    (win4_3.index t 0 * 1 + 1 * 0) (win4_3.index t 1 * 28 + 1 * y1.val) (win4_3.index t 2 * 112 + 1 * y2.val) (win4_3.index t 3 * 128 + 1 * y3.val)
  rw [h0, h1, h2, h3,
    show t.val / 2 * 1 + 1 * 0 = t.val / 2 from by omega,
    show t.val % 2 * 28 + 1 * y1.val = 28 * (t.val % 2) + y1.val from by omega,
    show 0 * 112 + 1 * y2.val = y2.val from by omega,
    show 0 * 128 + 1 * y3.val = y3.val from by omega]

/-- The output blocks tile the output array. -/
theorem cover4 (c : Dev nD) (i : ((cfg4.win 3).arr.view.loc (c.tc : Thread nD τ)).2.ty.Idx) :
    ∃ t : Fin cfg4.N, (cfg4.win 3).flush t = true ∧ i ∈ ((cfg4.win 3).blk t).view.set := by
  have i0 : (i 0 : Nat) < 8 := (i 0).isLt
  have i1 : (i 1 : Nat) < 56 := (i 1).isLt
  have i2 : (i 2 : Nat) < 112 := (i 2).isLt
  have i3 : (i 3 : Nat) < 128 := (i 3).isLt
  have ht : (i 0 : Nat) * 2 + (i 1 : Nat) / 28 < grid4.N := by show _ < 8 * 2; omega
  obtain ⟨-, -, -, ⟨h0, h1, h2, h3⟩, -⟩ := idx4 ⟨(i 0 : Nat) * 2 + (i 1 : Nat) / 28, ht⟩
  refine ⟨⟨(i 0 : Nat) * 2 + (i 1 : Nat) / 28, ht⟩, flush4_3 _, ?_⟩
  show i ∈ ((View.whole (Pipeline.arrRef spec4 3)).slice (win4_3.rect ⟨(i 0 : Nat) * 2 + (i 1 : Nat) / 28, ht⟩)).set
  rw [View.set_slice_whole, Rect.mem_set_unit]
  intro a
  match a with
  | ⟨0, _⟩ => show win4_3.index _ 0 * 1 ≤ (i 0 : Nat) ∧ (i 0 : Nat) < win4_3.index _ 0 * 1 + 1; rw [h0]; dsimp only; omega
  | ⟨1, _⟩ => show win4_3.index _ 1 * 28 ≤ (i 1 : Nat) ∧ (i 1 : Nat) < win4_3.index _ 1 * 28 + 28; rw [h1]; dsimp only; omega
  | ⟨2, _⟩ => show win4_3.index _ 2 * 112 ≤ (i 2 : Nat) ∧ (i 2 : Nat) < win4_3.index _ 2 * 112 + 112; rw [h2]; omega
  | ⟨3, _⟩ => show win4_3.index _ 3 * 128 ≤ (i 3 : Nat) ∧ (i 3 : Nat) < win4_3.index _ 3 * 128 + 128; rw [h3]; omega

/-- So the output array ends holding it. -/
theorem final4 (c : Dev nD) : (dat4 (F := Ideal) V c).arrAt 3 cfg4.N = G4 V c :=
  (dat4 (F := Ideal) V c).arrAt_eq_of_cover 3 (G4 V c) (flushed4 V c) (cover4 c)

/-- The region's value: every entry of its output array is the row-pair maximum of the convolution, with bias and ReLU,
    of its padded input with its flattened weights. -/
theorem conv4_value (c : Dev nD) (b i j co : ℕ) (hb : b < 8) (hi : i < 56) (hj : j < 112) (hco : co < 128) :
    Cert.Spec.arr4 ((dat4 (F := Ideal) V c).arrAt 3 cfg4.N) b i j co = Cert.Spec.hpool (Cert.Spec.convFlat 128 (Cert.Spec.arr4 (V c (Pipeline.arrRef spec4 0))) (Cert.Spec.arr2 (V c (Pipeline.arrRef spec4 1))) (Cert.Spec.arr2 (V c (Pipeline.arrRef spec4 2)))) b i j co := by
  rw [final4]
  exact arr4_apply (G4 V c) ⟨b, hb⟩ ⟨i, hi⟩ ⟨j, hj⟩ ⟨co, hco⟩

end Cert.KernelIdeal.Val

end
-- ==== Proof.KV5.lean ====
/-
  The value of kernel region 5 (the lane-half maximum that finishes a 2x2 pooling). The body loads its input
  block whole — one batch image of 56 x 56 pixels with 256 lanes, the two members of a column pair side by side on the
  lanes — and stores the pointwise maximum of the block's two lane halves. Grid point t is batch t, and the output
  blocks tile the output array; so after the region the output array holds, at batch b, row i, column j, channel ch,
  the maximum of the input array's entries at lanes ch and ch + 128 of the same pixel.
-/
import proofs.«100114_g2000204297211070_pallasbulk_1265_19_alg».proof.Proof.KR5
import proofs.«100114_g2000204297211070_pallasbulk_1265_19_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Val

open Cert.KernelIdeal Cert.KernelIdeal.Gen Cert.KernelIdeal.Reg
open Idealize.ShloMosaic Idealize.ShloMosaic.TcCoe Idealize.ShloMosaic.ValueIdx
open Idealize.ShloMosaic.Pipeline (Dat)

section Generic

variable {F : FTy → Type} [FloatOps F]

variable (V : (c : Dev nD) → (b : Ref sig .tc) → Buf (Elt F) ((c : Thread nD τ).loc b))

/-- The region's input array as it finds it, at its literal type. -/
abbrev xarr5 (c : Dev nD) : FVec F S8x56x56x256 .bf16 := V c (Pipeline.arrRef spec5 0)

/-- What the output array ends holding: at every index the maximum of the input array's entries at the same pixel on
    lane ch and on lane ch + 128. -/
def G5 (X : FVec F S8x56x56x256 .bf16) : FVec F S8x56x56x128 .bf16 := fun i =>
  FloatOps.maximumf
    (X (ix4 (n0 := 8) (n1 := 56) (n2 := 56) (n3 := 256) (i 0) (i 1) (i 2) ⟨(i 3).val, Nat.lt_of_lt_of_le (i 3).isLt (by decide)⟩))
    (X (ix4 (n0 := 8) (n1 := 56) (n2 := 56) (n3 := 256) (i 0) (i 1) (i 2) ⟨(i 3).val + 128, Nat.add_lt_of_lt_sub (Nat.lt_of_lt_of_le (i 3).isLt (by decide))⟩))

private theorem hz5 : (![0, 0, 0, 0] : Fin 4 → Nat) = fun _ => 0 := funext fun a => by fin_cases a <;> rfl

/-- The body's payload at an index of its block: the maximum of the loaded block's entries on lane l and lane l + 128. -/
theorem pay5_apply (x : Vec F S1x56x56x256 .bf16) (z : Fin 1) (i : Fin 56) (j : Fin 56) (l : Fin 128) :
    k5_pay1 x (ix4 z i j l)
      = FloatOps.maximumf (x (ix4 (0 : Fin 1) i j ⟨l.val, Nat.lt_of_lt_of_le l.isLt (by decide)⟩))
          (x (ix4 (0 : Fin 1) i j ⟨l.val + 128, Nat.add_lt_of_lt_sub (Nat.lt_of_lt_of_le l.isLt (by decide))⟩)) := by
  unfold k5_pay1
  refine (shapeCast_abc_1abc_apply _ shapeCasts_S56x56x128_S1x56x56x128 z i j l).trans ?_
  show FloatOps.maximumf
      (extractStridedSlice S56x56x128 ![0, 0, 0] (shapeCast S56x56x256 x shapeCasts_S1x56x56x256_S56x56x256) slices_S56x56x256_o0_0_0_S56x56x128 (ix3 i j l))
      (extractStridedSlice S56x56x128 ![0, 0, 128] (shapeCast S56x56x256 x shapeCasts_S1x56x56x256_S56x56x256) slices_S56x56x256_o0_0_128_S56x56x128 (ix3 i j l)) = _
  -- the low lane half reads lane l, the high one lane l + 128
  have lo := extractStridedSlice_apply ![0, 0, 0] (shapeCast S56x56x256 x shapeCasts_S1x56x56x256_S56x56x256) slices_S56x56x256_o0_0_0_S56x56x128
    (ix3 i j l) (ix3 i j ⟨l.val, Nat.lt_of_lt_of_le l.isLt (by decide)⟩) (fun a => by
      match a with
      | ⟨0, _⟩ => exact (Nat.zero_add _).symm
      | ⟨1, _⟩ => exact (Nat.zero_add _).symm
      | ⟨2, _⟩ => exact (Nat.zero_add _).symm)
  have hi := extractStridedSlice_apply ![0, 0, 128] (shapeCast S56x56x256 x shapeCasts_S1x56x56x256_S56x56x256) slices_S56x56x256_o0_0_128_S56x56x128
    (ix3 i j l) (ix3 i j ⟨l.val + 128, Nat.add_lt_of_lt_sub (Nat.lt_of_lt_of_le l.isLt (by decide))⟩) (fun a => by
      match a with
      | ⟨0, _⟩ => exact (Nat.zero_add _).symm
      | ⟨1, _⟩ => exact (Nat.zero_add _).symm
      | ⟨2, _⟩ => exact Nat.add_comm _ _)
  -- and the block with its unit axis dropped reads the block at batch coordinate 0
  exact congrArg₂ FloatOps.maximumf
    (lo.trans (shapeCast_1abc_abc_apply x shapeCasts_S1x56x56x256_S56x56x256 i j _))
    (hi.trans (shapeCast_1abc_abc_apply x shapeCasts_S1x56x56x256_S56x56x256 i j _))

/-- The printed index maps, decided over the grid: both windows' block index at point t is (t, 0, 0, 0). -/
theorem idx_facts5 : ∀ t : Fin cfg5.N, win5_0.index t (0 : Fin 4) = t.val ∧ win5_0.index t (1 : Fin 4) = 0
    ∧ win5_0.index t (2 : Fin 4) = 0 ∧ win5_0.index t (3 : Fin 4) = 0
    ∧ win5_1.index t (0 : Fin 4) = t.val ∧ win5_1.index t (1 : Fin 4) = 0
    ∧ win5_1.index t (2 : Fin 4) = 0 ∧ win5_1.index t (3 : Fin 4) = 0 :=
  (by decide +kernel : ∀ t : Fin grid5.N, _)

/-- What point t writes back is block t of `G5` of the input array as the region finds it. -/
theorem flushed5_eq (c : Dev nD) (t : Fin cfg5.N) :
    (dat5 V c).flushed 1 t = ((cfg5.win 1).blk t).view.read (Elt F) (G5 (xarr5 V c)) := by
  show (cfg5.win 1).cut (grid5.coords t) ((dat5 V c).after 1 t) = _
  rw [after5_1]
  unfold out5_1
  rw [View.canon_unit_zero hz5]
  simp only [View.ld_unit_zero (S := S1x56x56x256) hz5]
  obtain ⟨e0, e1, e2, e3, e4, e5, e6, e7⟩ := idx_facts5 t
  funext y
  obtain ⟨z, i, j, l, rfl⟩ : ∃ (z : Fin 1) (i : Fin 56) (j : Fin 56) (l : Fin 128), y = ix4 z i j l :=
    ⟨_, _, _, _, eq_ix4 (n0 := 1) (n1 := 56) (n2 := 56) (n3 := 128) y⟩
  show k5_pay1 (iblk5 V c 0 t) (ix4 z i j l) = G5 (xarr5 V c) (((cfg5.win 1).blk t).view.emb (ix4 z i j l))
  refine (pay5_apply (iblk5 V c 0 t) z i j l).trans ?_
  show FloatOps.maximumf
      (xarr5 V c (((cfg5.win 0).blk t).view.emb (ix4 (0 : Fin 1) i j ⟨l.val, _⟩)))
      (xarr5 V c (((cfg5.win 0).blk t).view.emb (ix4 (0 : Fin 1) i j ⟨l.val + 128, _⟩))) = _
  unfold G5
  have hz : z.val = 0 := by have := z.isLt; omega
  refine congrArg₂ FloatOps.maximumf (congrArg (xarr5 V c) ?_) (congrArg (xarr5 V c) ?_)
  · funext a; apply Fin.ext
    match a with
    | ⟨0, _⟩ => show win5_0.index t (0 : Fin 4) * 1 + 1 * 0 = win5_1.index t (0 : Fin 4) * 1 + 1 * z.val; omega
    | ⟨1, _⟩ => show win5_0.index t (1 : Fin 4) * 56 + 1 * i.val = win5_1.index t (1 : Fin 4) * 56 + 1 * i.val; omega
    | ⟨2, _⟩ => show win5_0.index t (2 : Fin 4) * 56 + 1 * j.val = win5_1.index t (2 : Fin 4) * 56 + 1 * j.val; omega
    | ⟨3, _⟩ => show win5_0.index t (3 : Fin 4) * 256 + 1 * l.val = win5_1.index t (3 : Fin 4) * 128 + 1 * l.val; omega
  · funext a; apply Fin.ext
    match a with
    | ⟨0, _⟩ => show win5_0.index t (0 : Fin 4) * 1 + 1 * 0 = win5_1.index t (0 : Fin 4) * 1 + 1 * z.val; omega
    | ⟨1, _⟩ => show win5_0.index t (1 : Fin 4) * 56 + 1 * i.val = win5_1.index t (1 : Fin 4) * 56 + 1 * i.val; omega
    | ⟨2, _⟩ => show win5_0.index t (2 : Fin 4) * 56 + 1 * j.val = win5_1.index t (2 : Fin 4) * 56 + 1 * j.val; omega
    | ⟨3, _⟩ => show win5_0.index t (3 : Fin 4) * 256 + 1 * (l.val + 128) = win5_1.index t (3 : Fin 4) * 128 + 1 * l.val + 128; omega

/-- Every index of the output array is in the block of the point its batch coordinate names. -/
theorem cover5 (i : S8x56x56x128.Idx) :
    ∃ t : Fin cfg5.N, (cfg5.win 1).flush t = true ∧ i ∈ ((cfg5.win 1).blk t).view.set := by
  have h0 : (i 0).val < 8 := (i 0).isLt
  obtain ⟨t, ht⟩ : ∃ t : Fin cfg5.N, t.val = (i 0).val := ⟨⟨(i 0).val, by show (i 0).val < grid5.N; rw [N_5]; exact h0⟩, rfl⟩
  refine ⟨t, flush5_1 t, ?_⟩
  obtain ⟨e0, e1, e2, e3, e4, e5, e6, e7⟩ := idx_facts5 t
  have e : ((cfg5.win 1).blk t).view.emb (ix4 (n0 := 1) (n1 := 56) (n2 := 56) (n3 := 128) ⟨0, Nat.one_pos⟩ (i 1) (i 2) (i 3)) = i := by
    funext a; apply Fin.ext
    match a with
    | ⟨0, _⟩ => show win5_1.index t (0 : Fin 4) * 1 + 1 * 0 = (i 0).val; omega
    | ⟨1, _⟩ => show win5_1.index t (1 : Fin 4) * 56 + 1 * (i 1).val = (i 1).val; omega
    | ⟨2, _⟩ => show win5_1.index t (2 : Fin 4) * 56 + 1 * (i 2).val = (i 2).val; omega
    | ⟨3, _⟩ => show win5_1.index t (3 : Fin 4) * 128 + 1 * (i 3).val = (i 3).val; omega
  have hm := ((cfg5.win 1).blk t).view.emb_mem_set (ix4 (n0 := 1) (n1 := 56) (n2 := 56) (n3 := 128) ⟨0, Nat.one_pos⟩ (i 1) (i 2) (i 3))
  rw [e] at hm
  exact hm

/-- The output array after the region: `G5` of the input array. -/
theorem final5 (c : Dev nD) : (dat5 V c).arrAt 1 cfg5.N = G5 (xarr5 V c) :=
  (dat5 V c).arrAt_eq_of_cover 1 (G5 (xarr5 V c)) (fun t _ => flushed5_eq V c t) cover5

end Generic

/-- At the ideal values, in natural coordinates: the output array at batch b, row i, column j, channel ch is the maximum
    of the input array's entries at the same pixel on lanes ch and ch + 128. -/
theorem wpool5_value (V : (c : Dev nD) → (b : Ref sig .tc) → Buf (Elt Ideal) ((c : Thread nD τ).loc b)) (c : Dev nD)
    (b i j ch : ℕ) (hb : b < 8) (hi : i < 56) (hj : j < 56) (hch : ch < 128) :
    Cert.Spec.arr4 ((dat5 (F := Ideal) V c).arrAt 1 cfg5.N) b i j ch
      = max (Cert.Spec.arr4 (V c (Pipeline.arrRef spec5 0)) b i j ch) (Cert.Spec.arr4 (V c (Pipeline.arrRef spec5 0)) b i j (ch + 128)) := by
  rw [final5]
  refine (Cert.Spec.arr4_apply (n0 := 8) (n1 := 56) (n2 := 56) (n3 := 128) (G5 (xarr5 V c)) ⟨b, hb⟩ ⟨i, hi⟩ ⟨j, hj⟩ ⟨ch, hch⟩).trans ?_
  refine Eq.trans ?_ (congrArg₂ (max : EReal → EReal → EReal)
    (Cert.Spec.arr4_apply (n0 := 8) (n1 := 56) (n2 := 56) (n3 := 256) (xarr5 V c) ⟨b, hb⟩ ⟨i, hi⟩ ⟨j, hj⟩ ⟨ch, by omega⟩)
    (Cert.Spec.arr4_apply (n0 := 8) (n1 := 56) (n2 := 56) (n3 := 256) (xarr5 V c) ⟨b, hb⟩ ⟨i, hi⟩ ⟨j, hj⟩ ⟨ch + 128, by omega⟩)).symm
  rfl

end Cert.KernelIdeal.Val

end
-- ==== Proof.KV6Pay.lean ====
/-
  The interior payload of kernel region 6 read at one entry, at the ideal values: the body's interior store writes, at
  row r, column j, output channel co of its 56 x 56 block of pixels, the bias plus the sum over the 1152 lanes K of the
  nine lane-concatenated taps times row K of the flattened weights, clamped below at zero. Lane K is tap K / 128 (row
  offset K / 128 / 3, column band K / 128 % 3) at input channel K % 128; band dx is the padded input block read from
  column dx on. The four border payloads are zeros.
-/
import proofs.«100114_g2000204297211070_pallasbulk_1265_19_alg».proof.Proof.Gen.KernelIdeal.Skeleton
import proofs.«100114_g2000204297211070_pallasbulk_1265_19_alg».proof.Proof.Spec
import Idealize.ShloMosaic.Lib.Pipeline.Value
import Idealize.ShloMosaic.Lib.ValueLayout
import Idealize.ShloMosaic.Lib.IdealHost
import Idealize.ShloMosaic.PureOps.Ideal.Laws

set_option maxRecDepth 16384

noncomputable section

open scoped BigOperators

namespace Cert.KernelIdeal.Val

open Cert.KernelIdeal Cert.KernelIdeal.Gen Cert.Spec
open Idealize.ShloMosaic Idealize.ShloMosaic.ValueIdx

/-- The block product into the zero accumulator, at an entry: the sum over the contracted coordinate. -/
theorem mm6_apply (A : FVec Ideal S3136x1152 .bf16) (B : FVec Ideal S1152x256 .bf16) (a : Fin 3136) (b : Fin 256) :
    matmul dot_S3136x1152_S1152x256_S3136x256_1_0_0_1_n_n none A B (constant S3136x256 .f32 0x00000000#32) (ix2 a b)
      = ∑ c : Fin 1152, A (ix2 a c) * B (ix2 c b) := by
  refine (Ideal.matmul_constant_zero_apply (φ₁ := .bf16) (φ₂ := .bf16) _ _ _ _ _).trans ?_
  refine (Equiv.sum_comp (contrEquiv1 dot_S3136x1152_S1152x256_S3136x256_1_0_0_1_n_n 1152 rfl rfl).symm _).symm.trans ?_
  refine Finset.sum_congr rfl fun c _ => ?_
  have c2 := contrEquiv1_symm_val dot_S3136x1152_S1152x256_S3136x256_1_0_0_1_n_n 1152 rfl rfl c
  refine congrArg₂ (· * ·) (congrArg A (funext fun ax => Fin.ext ?_)) (congrArg B (funext fun ax => Fin.ext ?_))
  · fin_cases ax
    · rfl
    · exact c2
  · fin_cases ax
    · exact c2
    · rfl

/-- One tap: the band v (the 58 rows of the padded block) with its unit axis dropped, cut from row dy, at an entry. -/
theorem band6_apply (v : Vec Ideal S1x58x56x128 .bf16) (dy : ℕ) (hdy : dy ≤ 2) (h : S58x56x128.Slices ![dy, 0, 0] S56x56x128)
    (r : Fin 56) (j : Fin 56) (l : Fin 128) :
    extractStridedSlice S56x56x128 ![dy, 0, 0] (shapeCast S58x56x128 v shapeCasts_S1x58x56x128_S58x56x128) h (ix3 r j l)
      = arr4 v 0 (r.val + dy) j.val l.val := by
  have hR : r.val + dy < 58 := by have := r.isLt; omega
  refine (extractStridedSlice_apply _ _ h (ix3 r j l) (ix3 ⟨r.val + dy, hR⟩ j l) (fun a => ?_)).trans ?_
  · match a with
    | ⟨0, _⟩ => exact Nat.add_comm _ _
    | ⟨1, _⟩ => exact (Nat.zero_add _).symm
    | ⟨2, _⟩ => exact (Nat.zero_add _).symm
  · refine (shapeCast_1abc_abc_apply v _ ⟨r.val + dy, hR⟩ j l).trans ?_
    exact (arr4_apply v (0 : Fin 1) ⟨r.val + dy, hR⟩ j l).symm

section Payload

variable (v3 v6 v9 : Vec Ideal S1x58x56x128 .bf16) (v22 : Vec Ideal S1152x256 .bf16) (v25 : Vec Ideal S1x256 .f32)

/-- The three loaded bands, by column offset, as one total function: band dx at row R, column j, channel l. -/
def tap6 (dx R j l : ℕ) : EReal :=
  if dx = 0 then arr4 v3 0 R j l else if dx = 1 then arr4 v6 0 R j l else arr4 v9 0 R j l

/-- The nine taps in the concatenation's order: tap n is the band at column offset n % 3 cut from row n / 3. -/
def pieces6 : Fin 9 → (S56x56x128.Idx → EReal) :=
  ![extractStridedSlice S56x56x128 ![0, 0, 0] (shapeCast S58x56x128 v3 shapeCasts_S1x58x56x128_S58x56x128) slices_S58x56x128_o0_0_0_S56x56x128,
    extractStridedSlice S56x56x128 ![0, 0, 0] (shapeCast S58x56x128 v6 shapeCasts_S1x58x56x128_S58x56x128) slices_S58x56x128_o0_0_0_S56x56x128,
    extractStridedSlice S56x56x128 ![0, 0, 0] (shapeCast S58x56x128 v9 shapeCasts_S1x58x56x128_S58x56x128) slices_S58x56x128_o0_0_0_S56x56x128,
    extractStridedSlice S56x56x128 ![1, 0, 0] (shapeCast S58x56x128 v3 shapeCasts_S1x58x56x128_S58x56x128) slices_S58x56x128_o1_0_0_S56x56x128,
    extractStridedSlice S56x56x128 ![1, 0, 0] (shapeCast S58x56x128 v6 shapeCasts_S1x58x56x128_S58x56x128) slices_S58x56x128_o1_0_0_S56x56x128,
    extractStridedSlice S56x56x128 ![1, 0, 0] (shapeCast S58x56x128 v9 shapeCasts_S1x58x56x128_S58x56x128) slices_S58x56x128_o1_0_0_S56x56x128,
    extractStridedSlice S56x56x128 ![2, 0, 0] (shapeCast S58x56x128 v3 shapeCasts_S1x58x56x128_S58x56x128) slices_S58x56x128_o2_0_0_S56x56x128,
    extractStridedSlice S56x56x128 ![2, 0, 0] (shapeCast S58x56x128 v6 shapeCasts_S1x58x56x128_S58x56x128) slices_S58x56x128_o2_0_0_S56x56x128,
    extractStridedSlice S56x56x128 ![2, 0, 0] (shapeCast S58x56x128 v9 shapeCasts_S1x58x56x128_S58x56x128) slices_S58x56x128_o2_0_0_S56x56x128]

theorem tap6_zero (R j l : ℕ) : tap6 v3 v6 v9 0 R j l = arr4 v3 0 R j l := if_pos rfl
theorem tap6_one (R j l : ℕ) : tap6 v3 v6 v9 1 R j l = arr4 v6 0 R j l := (if_neg (by decide)).trans (if_pos rfl)
theorem tap6_two (R j l : ℕ) : tap6 v3 v6 v9 2 R j l = arr4 v9 0 R j l := (if_neg (by decide)).trans (if_neg (by decide))

theorem pieces6_apply (n : ℕ) (hn : n < 9) (r : Fin 56) (j : Fin 56) (l : Fin 128) :
    pieces6 v3 v6 v9 ⟨n, hn⟩ (ix3 r j l) = tap6 v3 v6 v9 (n % 3) (r.val + n / 3) j.val l.val := by
  interval_cases n
  · exact (band6_apply v3 0 (by decide) slices_S58x56x128_o0_0_0_S56x56x128 r j l).trans (tap6_zero v3 v6 v9 (r.val + 0) j.val l.val).symm
  · exact (band6_apply v6 0 (by decide) slices_S58x56x128_o0_0_0_S56x56x128 r j l).trans (tap6_one v3 v6 v9 (r.val + 0) j.val l.val).symm
  · exact (band6_apply v9 0 (by decide) slices_S58x56x128_o0_0_0_S56x56x128 r j l).trans (tap6_two v3 v6 v9 (r.val + 0) j.val l.val).symm
  · exact (band6_apply v3 1 (by decide) slices_S58x56x128_o1_0_0_S56x56x128 r j l).trans (tap6_zero v3 v6 v9 (r.val + 1) j.val l.val).symm
  · exact (band6_apply v6 1 (by decide) slices_S58x56x128_o1_0_0_S56x56x128 r j l).trans (tap6_one v3 v6 v9 (r.val + 1) j.val l.val).symm
  · exact (band6_apply v9 1 (by decide) slices_S58x56x128_o1_0_0_S56x56x128 r j l).trans (tap6_two v3 v6 v9 (r.val + 1) j.val l.val).symm
  · exact (band6_apply v3 2 (by decide) slices_S58x56x128_o2_0_0_S56x56x128 r j l).trans (tap6_zero v3 v6 v9 (r.val + 2) j.val l.val).symm
  · exact (band6_apply v6 2 (by decide) slices_S58x56x128_o2_0_0_S56x56x128 r j l).trans (tap6_one v3 v6 v9 (r.val + 2) j.val l.val).symm
  · exact (band6_apply v9 2 (by decide) slices_S58x56x128_o2_0_0_S56x56x128 r j l).trans (tap6_two v3 v6 v9 (r.val + 2) j.val l.val).symm

/-- The concatenation of the nine taps along the lanes, at lane c: tap c / 128 at channel c % 128. -/
theorem cat6_apply (r : Fin 56) (j : Fin 56) (c : Fin 1152) :
    concatenate S56x56x1152 2 [⟨S56x56x128, extractStridedSlice S56x56x128 ![0, 0, 0] (shapeCast S58x56x128 v3 shapeCasts_S1x58x56x128_S58x56x128) slices_S58x56x128_o0_0_0_S56x56x128⟩,
      ⟨S56x56x128, extractStridedSlice S56x56x128 ![0, 0, 0] (shapeCast S58x56x128 v6 shapeCasts_S1x58x56x128_S58x56x128) slices_S58x56x128_o0_0_0_S56x56x128⟩,
      ⟨S56x56x128, extractStridedSlice S56x56x128 ![0, 0, 0] (shapeCast S58x56x128 v9 shapeCasts_S1x58x56x128_S58x56x128) slices_S58x56x128_o0_0_0_S56x56x128⟩,
      ⟨S56x56x128, extractStridedSlice S56x56x128 ![1, 0, 0] (shapeCast S58x56x128 v3 shapeCasts_S1x58x56x128_S58x56x128) slices_S58x56x128_o1_0_0_S56x56x128⟩,
      ⟨S56x56x128, extractStridedSlice S56x56x128 ![1, 0, 0] (shapeCast S58x56x128 v6 shapeCasts_S1x58x56x128_S58x56x128) slices_S58x56x128_o1_0_0_S56x56x128⟩,
      ⟨S56x56x128, extractStridedSlice S56x56x128 ![1, 0, 0] (shapeCast S58x56x128 v9 shapeCasts_S1x58x56x128_S58x56x128) slices_S58x56x128_o1_0_0_S56x56x128⟩,
      ⟨S56x56x128, extractStridedSlice S56x56x128 ![2, 0, 0] (shapeCast S58x56x128 v3 shapeCasts_S1x58x56x128_S58x56x128) slices_S58x56x128_o2_0_0_S56x56x128⟩,
      ⟨S56x56x128, extractStridedSlice S56x56x128 ![2, 0, 0] (shapeCast S58x56x128 v6 shapeCasts_S1x58x56x128_S58x56x128) slices_S58x56x128_o2_0_0_S56x56x128⟩,
      ⟨S56x56x128, extractStridedSlice S56x56x128 ![2, 0, 0] (shapeCast S58x56x128 v9 shapeCasts_S1x58x56x128_S58x56x128) slices_S58x56x128_o2_0_0_S56x56x128⟩]
      concatenates_S56x56x128_S56x56x128_S56x56x128_S56x56x128_S56x56x128_S56x56x128_S56x56x128_S56x56x128_S56x56x128_S56x56x1152_d2 (ix3 r j c)
      = tap6 v3 v6 v9 (c.val / 128 % 3) (r.val + c.val / 128 / 3) j.val (c.val % 128) := by
  have hn : c.val / 128 < 9 := by have := c.isLt; omega
  have hl : c.val % 128 < 128 := Nat.mod_lt _ (by decide)
  refine (concatenate_ofFn_apply (t := S56x56x1152) (s₁ := S56x56x128) 2 (pieces6 v3 v6 v9) concatenates_S56x56x128_S56x56x128_S56x56x128_S56x56x128_S56x56x128_S56x56x128_S56x56x128_S56x56x128_S56x56x128_S56x56x1152_d2 rfl 128 rfl
    (ix3 r j c) ⟨c.val / 128, hn⟩ rfl (ix3 r j ⟨c.val % 128, hl⟩) rfl ?_).trans ?_
  · intro b hb
    match b with
    | ⟨0, _⟩ => rfl
    | ⟨1, _⟩ => rfl
    | ⟨2, _⟩ => exact absurd rfl hb
  · exact pieces6_apply v3 v6 v9 (c.val / 128) hn r j ⟨c.val % 128, hl⟩

/-- The interior payload at an entry of its block. -/
theorem conv6_pay_apply (r : Fin 56) (j : Fin 56) (co : Fin 256) :
    k6_pay5 v3 v6 v9 v22 v25 (ix4 (0 : Fin 1) r j co)
      = max ((∑ K ∈ Finset.range 1152, tap6 v3 v6 v9 (K / 128 % 3) (r.val + K / 128 / 3) j.val (K % 128) * arr2 v22 K co.val)
          + arr2 v25 0 co.val) 0 := by
  have hp : r.val * 56 + j.val < 3136 := by have := r.isLt; have := j.isLt; omega
  unfold k6_pay5
  refine (shapeCast_abc_1abc_apply _ _ (0 : Fin 1) r j co).trans ?_
  refine (truncf_apply (φ := .f32) (ψ := .bf16) _ bitsLt_bf16_f32 (ix3 r j co)).trans ?_
  refine (shapeCast_apply _ _ (ix3 r j co) (ix2 ⟨r.val * 56 + j.val, hp⟩ co) ?_).trans ?_
  · rw [Shape.rowMajor_val_two, Shape.rowMajor_val_three]; rfl
  refine congrArg₂ max ?_ ?_
  swap
  · exact Ideal.ofBits_zero_f32
  refine congrArg₂ (· + ·) ?_ ?_
  swap
  · refine (broadcastTo_1b_ab_apply v25 _ ⟨r.val * 56 + j.val, hp⟩ co).trans ?_
    exact (arr2_apply v25 (0 : Fin 1) co).symm
  refine (mm6_apply _ _ ⟨r.val * 56 + j.val, hp⟩ co).trans ?_
  rw [← Fin.sum_univ_eq_sum_range (fun K => tap6 v3 v6 v9 (K / 128 % 3) (r.val + K / 128 / 3) j.val (K % 128) * arr2 v22 K co.val) 1152]
  refine Finset.sum_congr rfl fun c _ => ?_
  refine congrArg₂ (· * ·) ?_ ?_
  · refine (shapeCast_apply _ _ (ix2 ⟨r.val * 56 + j.val, hp⟩ c) (ix3 r j c) ?_).trans ?_
    · rw [Shape.rowMajor_val_two, Shape.rowMajor_val_three]; rfl
    exact cat6_apply v3 v6 v9 r j c
  · refine (congrFun (shapeCast_self _ _) _).trans ?_
    exact (arr2_apply v22 c co).symm

end Payload

/-- The border payloads are zeros. -/
theorem conv6_pay1_apply (y : S1x1x58x256.Idx) : k6_pay1 (F := Ideal) (k6_pay6 (F := Ideal)) y = 0 := Ideal.ofBits_zero_bf16
theorem conv6_pay2_apply (y : S1x1x58x256.Idx) : k6_pay2 (F := Ideal) y = 0 := Ideal.ofBits_zero_bf16
theorem conv6_pay3_apply (y : S1x58x1x256.Idx) : k6_pay3 (F := Ideal) y = 0 := Ideal.ofBits_zero_bf16
theorem conv6_pay4_apply (y : S1x58x1x256.Idx) : k6_pay4 (F := Ideal) y = 0 := Ideal.ofBits_zero_bf16

end Cert.KernelIdeal.Val

end
-- ==== Proof.KVConvLib.lean ====
/-
  Small facts shared by the value modules of the 3x3 convolution regions: a statement about each of four axes from the
  four statements; the canonical contents of a list of stores, newest first, read at an index inside or outside the
  newest store's unit-stride rectangle; an index of a block with a unit leading axis, by its three coordinates; zero
  offsets spelled as a constant function.
-/
import Idealize.ShloMosaic.Lib.Pipeline.FrameBody
import Idealize.ShloMosaic.Lib.ValueIdx

namespace Cert.KVConvLib

open Idealize.ShloMosaic Idealize.ShloMosaic.ValueIdx

theorem fin4_all {P : Fin 4 → Prop} (h0 : P 0) (h1 : P 1) (h2 : P 2) (h3 : P 3) : ∀ a, P a := by
  intro a; fin_cases a <;> assumption

theorem fin2_all {P : Fin 2 → Prop} (h0 : P 0) (h1 : P 1) : ∀ a, P a := by
  intro a; fin_cases a <;> assumption

theorem hz4 : (![0, 0, 0, 0] : Fin 4 → Nat) = fun _ => 0 := funext fun a => by fin_cases a <;> rfl
theorem hz2 : (![0, 0] : Fin 2 → Nat) = fun _ => 0 := funext fun a => by fin_cases a <;> rfl

variable {s : Shape} {e : EltTy} {Val : EltTy → Type} [∀ e, Nonempty (Val e)]

/-- An index at position x of the newest store's rectangle reads that store's payload at x. -/
theorem canon_unit_of_mem {off size : Fin s.rank → ℕ} (inb : ∀ a, off a + size a ≤ s.size a)
    (w : (Rect.unit off size inb).shape.Idx → Val e) (L : List (View.Piece Val s e)) (y : s.Idx)
    (x : (Rect.unit off size inb).shape.Idx) (hx : ∀ a, (y a).val = off a + (x a).val) :
    View.canon ((⟨Rect.unit off size inb, w⟩ : View.Piece Val s e) :: L) y = w x := by
  have hy : (Rect.unit off size inb).emb x = y := funext fun a => Fin.ext (by
    show off a + 1 * (x a).val = (y a).val
    rw [hx a, Nat.one_mul])
  exact (congrArg (View.canon ((⟨Rect.unit off size inb, w⟩ : View.Piece Val s e) :: L)) hy.symm).trans
    (View.canon_cons_emb (Rect.unit off size inb) w L x)

/-- An index outside the newest store's rectangle on axis a reads what the earlier stores left. -/
theorem canon_unit_of_not_mem {off size : Fin s.rank → ℕ} (inb : ∀ a, off a + size a ≤ s.size a)
    (w : (Rect.unit off size inb).shape.Idx → Val e) (L : List (View.Piece Val s e)) (y : s.Idx)
    (a : Fin s.rank) (ha : (y a).val < off a ∨ off a + size a ≤ (y a).val) :
    View.canon ((⟨Rect.unit off size inb, w⟩ : View.Piece Val s e) :: L) y = View.canon L y := by
  refine View.canon_cons_of_not_mem _ L ?_
  show y ∉ (Rect.unit off size inb).set
  rw [Rect.mem_set_unit]
  intro hall
  have := hall a
  omega

/-- An index of a block whose leading axis has one entry is its three other coordinates. -/
theorem exists_ix4_one {a b c : ℕ} (y : (⟨4, ![1, a, b, c]⟩ : Shape).Idx) :
    ∃ (r : Fin a) (q : Fin b) (co : Fin c), y = ix4 (0 : Fin 1) r q co :=
  ⟨y 1, y 2, y 3, (eq_ix4 y).trans (by rw [Fin.fin_one_eq_zero (y 0)]; rfl)⟩

end Cert.KVConvLib
-- ==== Proof.KV6.lean ====
/-
  The value of kernel region 6 (a 3x3 convolution with bias and ReLU on a 56 x 56 image of 128 channels, stored in padded
  coordinates) at the ideal values: after the region, the output array holds at batch b, row I < 58, column J < 58 and
  channel co the convolution's result at pixel (I - 1, J - 1) on rows 1 … 56 and columns 1 … 56, and zero elsewhere. The
  convolution reads the input array in padded coordinates: the sum over K < 1152 of the input at row i + K / 128 / 3,
  column j + K / 128 % 3, channel K % 128, times the flattened weight (K, co), plus the bias, clamped at zero. Point t
  of the grid is image t: its blocks are the whole image; the blocks tile the arrays and every point writes its block back.
  The five stores the body's buffer ends at are read newest first: the right columns, the left column, the bottom row and
  the top row are zeros, the interior at (1, 1) is the convolution's result of the three column bands of the input block.
-/
import proofs.«100114_g2000204297211070_pallasbulk_1265_19_alg».proof.Proof.KR6
import proofs.«100114_g2000204297211070_pallasbulk_1265_19_alg».proof.Proof.KV6Pay
import proofs.«100114_g2000204297211070_pallasbulk_1265_19_alg».proof.Proof.KVConvLib
import proofs.«100114_g2000204297211070_pallasbulk_1265_19_alg».proof.Proof.Spec
import Idealize.ShloMosaic.Lib.Pipeline.Value

set_option maxRecDepth 16384
-- the buffers' types are looked up in the signature's table at every unfolding: the later the region, the longer the walk
set_option maxHeartbeats 2000000

noncomputable section

open scoped BigOperators

namespace Cert.KernelIdeal.Val

open Cert.KernelIdeal Cert.KernelIdeal.Gen Cert.KernelIdeal.Reg Cert.KVConvLib
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-! ## The arrays and the points' geometry -/

/-- The region's three input arrays as it finds them, by their literal extents. -/
abbrev xarr6 (c : Dev nD) : S8x58x58x128.Idx → EReal := V c (Pipeline.arrRef spec6 0)
abbrev warr6 (c : Dev nD) : S1152x256.Idx → EReal := V c (Pipeline.arrRef spec6 1)
abbrev barr6 (c : Dev nD) : S1x256.Idx → EReal := V c (Pipeline.arrRef spec6 2)

/-- Point t reads image t of the input, whole, -/
theorem geo6_0 : ∀ t : Fin cfg6.N, win6_0.index t 0 = t.val ∧ win6_0.index t 1 = 0 ∧ win6_0.index t 2 = 0 ∧ win6_0.index t 3 = 0 :=
  (by decide +kernel : ∀ t : Fin grid6.N, win6_0.index t 0 = t.val ∧ win6_0.index t 1 = 0 ∧ win6_0.index t 2 = 0 ∧ win6_0.index t 3 = 0)
/-- the weights and the bias, whole, -/
theorem geo6_1 : ∀ t : Fin cfg6.N, win6_1.index t 0 = 0 ∧ win6_1.index t 1 = 0 :=
  (by decide +kernel : ∀ t : Fin grid6.N, win6_1.index t 0 = 0 ∧ win6_1.index t 1 = 0)
theorem geo6_2 : ∀ t : Fin cfg6.N, win6_2.index t 0 = 0 ∧ win6_2.index t 1 = 0 :=
  (by decide +kernel : ∀ t : Fin grid6.N, win6_2.index t 0 = 0 ∧ win6_2.index t 1 = 0)
/-- and writes image t of the output, whole. -/
theorem geo6_3 : ∀ t : Fin cfg6.N, win6_3.index t 0 = t.val ∧ win6_3.index t 1 = 0 ∧ win6_3.index t 2 = 0 ∧ win6_3.index t 3 = 0
    ∧ win6_3.xsize (grid6.coords t) 0 = 1 ∧ win6_3.xsize (grid6.coords t) 1 = 58 ∧ win6_3.xsize (grid6.coords t) 2 = 58
    ∧ win6_3.xsize (grid6.coords t) 3 = 256 :=
  (by decide +kernel : ∀ t : Fin grid6.N, win6_3.index t 0 = t.val ∧ win6_3.index t 1 = 0 ∧ win6_3.index t 2 = 0 ∧ win6_3.index t 3 = 0
    ∧ win6_3.xsize (grid6.coords t) 0 = 1 ∧ win6_3.xsize (grid6.coords t) 1 = 58 ∧ win6_3.xsize (grid6.coords t) 2 = 58
    ∧ win6_3.xsize (grid6.coords t) 3 = 256)
/-- The three loads' offsets at every point: row 0, columns 0, 1, 2 (the grid's second axis has one entry). -/
theorem off6 : ∀ t : Fin cfg6.N, k6_off1 (grid6.coords t) = ![0, 0, 0, 0] ∧ k6_off2 (grid6.coords t) = ![0, 0, 1, 0]
    ∧ k6_off3 (grid6.coords t) = ![0, 0, 2, 0] :=
  (by decide +kernel : ∀ t : Fin grid6.N, k6_off1 (grid6.coords t) = ![0, 0, 0, 0] ∧ k6_off2 (grid6.coords t) = ![0, 0, 1, 0]
    ∧ k6_off3 (grid6.coords t) = ![0, 0, 2, 0])

/-! ## The input blocks, read off the arrays -/

/-- The input block at point t is image t of the input array. -/
theorem xblk6_apply (c : Dev nD) (t : Fin cfg6.N) (R : Fin 58) (J : Fin 58) (l : Fin 128) :
    (iblk6 V c 0 t : S1x58x58x128.Idx → EReal) (ix4 (0 : Fin 1) R J l)
      = Cert.Spec.arr4 (xarr6 V c) t.val R.val J.val l.val := by
  have hN : cfg6.N = 8 := N_6
  have ht : t.val < 8 := by have := t.isLt; omega
  obtain ⟨i0, i1, i2, i3⟩ := geo6_0 t
  refine Eq.trans ?_ (Cert.Spec.arr4_apply (xarr6 V c) (⟨t.val, ht⟩ : Fin 8) R J l).symm
  unfold iblk6
  rw [View.read_apply]
  show xarr6 V c _ = xarr6 V c _
  congr 1
  funext a
  apply Fin.ext
  match a with
  | ⟨0, _⟩ => show win6_0.index t 0 * 1 + 1 * 0 = t.val; rw [i0]; omega
  | ⟨1, _⟩ => show win6_0.index t 1 * 58 + 1 * R.val = R.val; rw [i1]; omega
  | ⟨2, _⟩ => show win6_0.index t 2 * 58 + 1 * J.val = J.val; rw [i2]; omega
  | ⟨3, _⟩ => show win6_0.index t 3 * 128 + 1 * l.val = l.val; rw [i3]; omega

/-- The weight block at any point is the weight array. -/
theorem wblk6_eq (c : Dev nD) (t : Fin cfg6.N) : (iblk6 V c 1 t : S1152x256.Idx → EReal) = warr6 V c := by
  obtain ⟨i0, i1⟩ := geo6_1 t
  funext y
  unfold iblk6
  rw [View.read_apply]
  show warr6 V c _ = warr6 V c y
  congr 1
  funext a
  apply Fin.ext
  match a with
  | ⟨0, _⟩ => show win6_1.index t 0 * 1152 + 1 * (y 0).val = (y 0).val; rw [i0]; omega
  | ⟨1, _⟩ => show win6_1.index t 1 * 256 + 1 * (y 1).val = (y 1).val; rw [i1]; omega

/-- The bias block at any point is the bias array. -/
theorem bblk6_eq (c : Dev nD) (t : Fin cfg6.N) : (iblk6 V c 2 t : S1x256.Idx → EReal) = barr6 V c := by
  obtain ⟨i0, i1⟩ := geo6_2 t
  funext y
  unfold iblk6
  rw [View.read_apply]
  show barr6 V c _ = barr6 V c y
  congr 1
  funext a
  apply Fin.ext
  match a with
  | ⟨0, _⟩ => show win6_2.index t 0 * 1 + 1 * (y 0).val = (y 0).val; rw [i0]; omega
  | ⟨1, _⟩ => show win6_2.index t 1 * 256 + 1 * (y 1).val = (y 1).val; rw [i1]; omega

/-- A column band of the input block, loaded from column dx on, at an entry: the input array at column j + dx. -/
theorem ldx6 (c : Dev nD) (t : Fin cfg6.N) (off : Fin 4 → ℕ) (inb : ∀ a, off a + S1x58x56x128.size a ≤ S1x58x58x128.size a)
    (dx : ℕ) (hoff : off = ![0, 0, dx, 0]) (R : Fin 58) (j : Fin 56) (hj : j.val + dx < 58) (l : Fin 128) :
    View.ld (iblk6 V c 0 t : S1x58x58x128.Idx → EReal) (Rect.unit (s := S1x58x58x128) off S1x58x56x128.size inb) (ix4 (0 : Fin 1) R j l)
      = Cert.Spec.arr4 (xarr6 V c) t.val R.val (j.val + dx) l.val := by
  subst hoff
  refine Eq.trans ?_ (xblk6_apply V c t R ⟨j.val + dx, hj⟩ l)
  show (iblk6 V c 0 t : S1x58x58x128.Idx → EReal) _ = (iblk6 V c 0 t : S1x58x58x128.Idx → EReal) _
  congr 1
  funext a
  apply Fin.ext
  match a with
  | ⟨0, _⟩ => show 0 + 1 * 0 = 0; rfl
  | ⟨1, _⟩ => show 0 + 1 * R.val = R.val; omega
  | ⟨2, _⟩ => show dx + 1 * j.val = j.val + dx; omega
  | ⟨3, _⟩ => show 0 + 1 * l.val = l.val; omega

/-! ## What a point leaves in the output block -/

/-- The region's result at (b, I, J, co), in padded coordinates. -/
def Gf6 (c : Dev nD) (b I J co : ℕ) : EReal :=
  Cert.Spec.pad1 56 56 (Cert.Spec.convFlat 128 (Cert.Spec.arr4 (xarr6 V c)) (Cert.Spec.arr2 (warr6 V c)) (Cert.Spec.arr2 (barr6 V c))) b I J co

/-- The interior store's block at point t, at (r, j, co): the convolution at pixel (r, j) of image t. -/
theorem conv6_apply (c : Dev nD) (t : Fin cfg6.N) (r : Fin 56) (j : Fin 56) (co : Fin 256) :
    conv6 (F := Ideal) (grid6.coords t) (iblk6 V c 0 t) (iblk6 V c 1 t) (iblk6 V c 2 t) (ix4 (0 : Fin 1) r j co)
      = Cert.Spec.convFlat 128 (Cert.Spec.arr4 (xarr6 V c)) (Cert.Spec.arr2 (warr6 V c)) (Cert.Spec.arr2 (barr6 V c))
          t.val r.val j.val co.val := by
  obtain ⟨o1, o2, o3⟩ := off6 t
  have hr := r.isLt
  have hj := j.isLt
  have hw : View.ld (iblk6 V c 1 t : S1152x256.Idx → EReal) r6_w = warr6 V c :=
    (View.ld_unit_zero (S := S1152x256) hz2 _ _).trans (wblk6_eq V c t)
  have hb : View.ld (iblk6 V c 2 t : S1x256.Idx → EReal) r6_b = barr6 V c :=
    (View.ld_unit_zero (S := S1x256) hz2 _ _).trans (bblk6_eq V c t)
  unfold conv6
  refine (conv6_pay_apply _ _ _ _ _ r j co).trans ?_
  unfold Cert.Spec.convFlat
  refine congrArg₂ max (congrArg₂ (· + ·) (Finset.sum_congr rfl fun K hK => ?_)
    (congrArg (fun B : S1x256.Idx → EReal => Cert.Spec.arr2 B 0 co.val) hb)) rfl
  have hK' : K < 1152 := Finset.mem_range.mp hK
  have hR : r.val + K / 128 / 3 < 58 := by omega
  have hl : K % 128 < 128 := Nat.mod_lt _ (by decide)
  refine congrArg₂ (· * ·) ?_ (congrArg (fun W : S1152x256.Idx → EReal => Cert.Spec.arr2 W K co.val) hw)
  obtain h | h | h : K / 128 % 3 = 0 ∨ K / 128 % 3 = 1 ∨ K / 128 % 3 = 2 := by omega
  · rw [h, tap6_zero]
    refine (Cert.Spec.arr4_apply _ (0 : Fin 1) (⟨r.val + K / 128 / 3, hR⟩ : Fin 58) j (⟨K % 128, hl⟩ : Fin 128)).trans ?_
    exact ldx6 V c t _ _ 0 o1 ⟨r.val + K / 128 / 3, hR⟩ j (by omega) ⟨K % 128, hl⟩
  · rw [h, tap6_one]
    refine (Cert.Spec.arr4_apply _ (0 : Fin 1) (⟨r.val + K / 128 / 3, hR⟩ : Fin 58) j (⟨K % 128, hl⟩ : Fin 128)).trans ?_
    exact ldx6 V c t _ _ 1 o2 ⟨r.val + K / 128 / 3, hR⟩ j (by omega) ⟨K % 128, hl⟩
  · rw [h, tap6_two]
    refine (Cert.Spec.arr4_apply _ (0 : Fin 1) (⟨r.val + K / 128 / 3, hR⟩ : Fin 58) j (⟨K % 128, hl⟩ : Fin 128)).trans ?_
    exact ldx6 V c t _ _ 2 o3 ⟨r.val + K / 128 / 3, hR⟩ j (by omega) ⟨K % 128, hl⟩

/-- What the output's staging buffer holds after point t, at (I, J, co): the region's result at image t. -/
theorem outs6_apply (c : Dev nD) (t : Fin cfg6.N) (I : Fin 58) (J : Fin 58) (co : Fin 256) :
    outsAt6 (F := Ideal) V c t (ix4 (0 : Fin 1) I J co) = Gf6 V c t.val I.val J.val co.val := by
  have hI := I.isLt
  have hJ := J.isLt
  unfold Gf6 Cert.Spec.pad1 outsAt6 out6_3
  by_cases hJr : 57 ≤ J.val
  · have hc : ¬(1 ≤ I.val ∧ I.val ≤ 56 ∧ 1 ≤ J.val ∧ J.val ≤ 56) := by omega
    rw [if_neg hc]
    refine (canon_unit_of_mem _ _ _ (ix4 (0 : Fin 1) I J co) (ix4 (0 : Fin 1) I (⟨J.val - 57, by omega⟩ : Fin 1) co)
      (fin4_all (by show (0 : ℕ) = 0 + 0; rfl) (by show I.val = 0 + I.val; omega) (by show J.val = 57 + (J.val - 57); omega)
        (by show co.val = 0 + co.val; omega))).trans ?_
    exact conv6_pay4_apply _
  refine (canon_unit_of_not_mem _ _ _ (ix4 (0 : Fin 1) I J co) (2 : Fin 4) (by show J.val < 57 ∨ 57 + 1 ≤ J.val; omega)).trans ?_
  by_cases hJ0 : J.val = 0
  · have hc : ¬(1 ≤ I.val ∧ I.val ≤ 56 ∧ 1 ≤ J.val ∧ J.val ≤ 56) := by omega
    rw [if_neg hc]
    refine (canon_unit_of_mem _ _ _ (ix4 (0 : Fin 1) I J co) (ix4 (0 : Fin 1) I (0 : Fin 1) co)
      (fin4_all (by show (0 : ℕ) = 0 + 0; rfl) (by show I.val = 0 + I.val; omega) (by show J.val = 0 + 0; omega)
        (by show co.val = 0 + co.val; omega))).trans ?_
    exact conv6_pay3_apply _
  refine (canon_unit_of_not_mem _ _ _ (ix4 (0 : Fin 1) I J co) (2 : Fin 4) (by show J.val < 0 ∨ 0 + 1 ≤ J.val; omega)).trans ?_
  by_cases hIb : I.val = 57
  · have hc : ¬(1 ≤ I.val ∧ I.val ≤ 56 ∧ 1 ≤ J.val ∧ J.val ≤ 56) := by omega
    rw [if_neg hc]
    refine (canon_unit_of_mem _ _ _ (ix4 (0 : Fin 1) I J co) (ix4 (0 : Fin 1) (0 : Fin 1) J co)
      (fin4_all (by show (0 : ℕ) = 0 + 0; rfl) (by show I.val = 57 + 0; omega) (by show J.val = 0 + J.val; omega)
        (by show co.val = 0 + co.val; omega))).trans ?_
    exact conv6_pay2_apply _
  refine (canon_unit_of_not_mem _ _ _ (ix4 (0 : Fin 1) I J co) (1 : Fin 4) (by show I.val < 57 ∨ 57 + 1 ≤ I.val; omega)).trans ?_
  by_cases hI0 : I.val = 0
  · have hc : ¬(1 ≤ I.val ∧ I.val ≤ 56 ∧ 1 ≤ J.val ∧ J.val ≤ 56) := by omega
    rw [if_neg hc]
    refine (canon_unit_of_mem _ _ _ (ix4 (0 : Fin 1) I J co) (ix4 (0 : Fin 1) (0 : Fin 1) J co)
      (fin4_all (by show (0 : ℕ) = 0 + 0; rfl) (by show I.val = 0 + 0; omega) (by show J.val = 0 + J.val; omega)
        (by show co.val = 0 + co.val; omega))).trans ?_
    exact conv6_pay1_apply _
  refine (canon_unit_of_not_mem _ _ _ (ix4 (0 : Fin 1) I J co) (1 : Fin 4) (by show I.val < 0 ∨ 0 + 1 ≤ I.val; omega)).trans ?_
  have hc : 1 ≤ I.val ∧ I.val ≤ 56 ∧ 1 ≤ J.val ∧ J.val ≤ 56 := by omega
  rw [if_pos hc]
  refine (canon_unit_of_mem _ _ _ (ix4 (0 : Fin 1) I J co)
    (ix4 (0 : Fin 1) (⟨I.val - 1, by omega⟩ : Fin 56) (⟨J.val - 1, by omega⟩ : Fin 56) co)
    (fin4_all (by show (0 : ℕ) = 0 + 0; rfl) (by show I.val = 1 + (I.val - 1); omega) (by show J.val = 1 + (J.val - 1); omega)
      (by show co.val = 0 + co.val; omega))).trans ?_
  exact conv6_apply V c t (⟨I.val - 1, by omega⟩ : Fin 56) (⟨J.val - 1, by omega⟩ : Fin 56) co

/-! ## The output array after the region -/

/-- The region's result as contents of the output array. -/
def G6 (c : Dev nD) : S8x58x58x256.Idx → EReal := fun k => Gf6 V c (k 0).val (k 1).val (k 2).val (k 3).val

/-- What point t writes back is its block of the result. -/
theorem flushed6_eq (c : Dev nD) (t : Fin cfg6.N) (hf : (cfg6.win 3).flush t = true) :
    (dat6 (F := Ideal) V c).flushed 3 t = ((cfg6.win 3).blk t).view.read (Elt Ideal) (G6 V c) := by
  obtain ⟨i0, i1, i2, i3, -⟩ := geo6_3 t
  funext y
  obtain ⟨I, J, co, rfl⟩ := exists_ix4_one (a := 58) (b := 58) (c := 256) y
  show (cfg6.win 3).cut (grid6.coords t) ((dat6 V c).after 3 t) (ix4 (0 : Fin 1) I J co) = _
  rw [after6_3, View.read_apply]
  show outsAt6 V c t (ix4 (0 : Fin 1) I J co) = G6 V c (((cfg6.win 3).blk t).view.emb (ix4 (0 : Fin 1) I J co))
  refine (outs6_apply V c t I J co).trans ?_
  have e0 : ((((cfg6.win 3).blk t).view.emb (ix4 (0 : Fin 1) I J co)) 0).val = t.val := by
    show win6_3.index t 0 * 1 + 1 * 0 = _; rw [i0]; omega
  have e1 : ((((cfg6.win 3).blk t).view.emb (ix4 (0 : Fin 1) I J co)) 1).val = I.val := by
    show win6_3.index t 1 * 58 + 1 * I.val = _; rw [i1]; omega
  have e2 : ((((cfg6.win 3).blk t).view.emb (ix4 (0 : Fin 1) I J co)) 2).val = J.val := by
    show win6_3.index t 2 * 58 + 1 * J.val = _; rw [i2]; omega
  have e3 : ((((cfg6.win 3).blk t).view.emb (ix4 (0 : Fin 1) I J co)) 3).val = co.val := by
    show win6_3.index t 3 * 256 + 1 * co.val = _; rw [i3]; omega
  unfold G6
  exact (congr (congr (congr (congrArg (Gf6 V c) e0) e1) e2) e3).symm

/-- Every index of the output array is in the block of its image's point. -/
theorem cover6 (c : Dev nD) (i : ((cfg6.win 3).arr.view.loc (c.tc : Thread nD τ)).2.ty.Idx) :
    ∃ t : Fin cfg6.N, (cfg6.win 3).flush t = true ∧ i ∈ ((cfg6.win 3).blk t).view.set := by
  have hN : cfg6.N = 8 := N_6
  have b0 : (i 0 : ℕ) < 8 := (i 0).isLt
  have b1 : (i 1 : ℕ) < 58 := (i 1).isLt
  have b2 : (i 2 : ℕ) < 58 := (i 2).isLt
  have b3 : (i 3 : ℕ) < 256 := (i 3).isLt
  have hlt : (i 0 : ℕ) < cfg6.N := by omega
  refine ⟨⟨(i 0 : ℕ), hlt⟩, flush6_3 _, ?_⟩
  obtain ⟨i0, i1, i2, i3, z0, z1, z2, z3⟩ := geo6_3 (⟨(i 0 : ℕ), hlt⟩ : Fin cfg6.N)
  show i ∈ ((View.whole (Pipeline.arrRef spec6 3)).slice (win6_3.rect (⟨(i 0 : ℕ), hlt⟩ : Fin cfg6.N))).set
  rw [View.set_slice_whole, Rect.mem_set_unit]
  intro a
  match a with
  | ⟨0, _⟩ =>
    show win6_3.index _ 0 * 1 ≤ (i 0 : ℕ) ∧ (i 0 : ℕ) < win6_3.index _ 0 * 1 + win6_3.xsize _ 0
    rw [i0, z0]; dsimp only; omega
  | ⟨1, _⟩ =>
    show win6_3.index _ 1 * win6_3.size 1 ≤ (i 1 : ℕ) ∧ (i 1 : ℕ) < win6_3.index _ 1 * win6_3.size 1 + win6_3.xsize _ 1
    rw [i1, z1]; omega
  | ⟨2, _⟩ =>
    show win6_3.index _ 2 * win6_3.size 2 ≤ (i 2 : ℕ) ∧ (i 2 : ℕ) < win6_3.index _ 2 * win6_3.size 2 + win6_3.xsize _ 2
    rw [i2, z2]; omega
  | ⟨3, _⟩ =>
    show win6_3.index _ 3 * win6_3.size 3 ≤ (i 3 : ℕ) ∧ (i 3 : ℕ) < win6_3.index _ 3 * win6_3.size 3 + win6_3.xsize _ 3
    rw [i3, z3]; omega

/-- So the output array ends holding the result. -/
theorem final6 (c : Dev nD) : (dat6 (F := Ideal) V c).arrAt 3 cfg6.N = G6 V c :=
  (dat6 (F := Ideal) V c).arrAt_eq_of_cover 3 (G6 V c) (flushed6_eq V c) (cover6 c)

/-- The region's value: the output array is the convolution of the input array, in padded coordinates, zero on the border. -/
theorem conv6_value (c : Dev nD) (b I J co : ℕ) (hb : b < 8) (hI : I < 58) (hJ : J < 58) (hco : co < 256) :
    Cert.Spec.arr4 ((dat6 (F := Ideal) V c).arrAt 3 cfg6.N : S8x58x58x256.Idx → EReal) b I J co
      = Cert.Spec.pad1 56 56 (Cert.Spec.convFlat 128 (Cert.Spec.arr4 (xarr6 V c)) (Cert.Spec.arr2 (warr6 V c))
          (Cert.Spec.arr2 (barr6 V c))) b I J co := by
  refine (congrArg (fun A : S8x58x58x256.Idx → EReal => Cert.Spec.arr4 A b I J co) (final6 V c)).trans ?_
  exact Cert.Spec.arr4_apply (G6 V c) (⟨b, hb⟩ : Fin 8) (⟨I, hI⟩ : Fin 58) (⟨J, hJ⟩ : Fin 58) (⟨co, hco⟩ : Fin 256)

end Cert.KernelIdeal.Val

end
-- ==== Proof.KV7Pay.lean ====
/-
  The interior payload of kernel region 7 read at one entry, at the ideal values: the body's interior store writes, at
  row r, column j, output channel co of its 56 x 56 block of pixels, the bias plus the sum over the 2304 lanes K of the
  nine lane-concatenated taps times row K of the flattened weights, clamped below at zero. Lane K is tap K / 256 (row
  offset K / 256 / 3, column band K / 256 % 3) at input channel K % 256; band dx is the padded input block read from
  column dx on. The four border payloads are zeros.
-/
import proofs.«100114_g2000204297211070_pallasbulk_1265_19_alg».proof.Proof.Gen.KernelIdeal.Skeleton
import proofs.«100114_g2000204297211070_pallasbulk_1265_19_alg».proof.Proof.Spec
import Idealize.ShloMosaic.Lib.Pipeline.Value
import Idealize.ShloMosaic.Lib.ValueLayout
import Idealize.ShloMosaic.Lib.IdealHost
import Idealize.ShloMosaic.PureOps.Ideal.Laws

set_option maxRecDepth 16384

noncomputable section

open scoped BigOperators

namespace Cert.KernelIdeal.Val

open Cert.KernelIdeal Cert.KernelIdeal.Gen Cert.Spec
open Idealize.ShloMosaic Idealize.ShloMosaic.ValueIdx

/-- The block product into the zero accumulator, at an entry: the sum over the contracted coordinate. -/
theorem mm7_apply (A : FVec Ideal S3136x2304 .bf16) (B : FVec Ideal S2304x256 .bf16) (a : Fin 3136) (b : Fin 256) :
    matmul dot_S3136x2304_S2304x256_S3136x256_1_0_0_1_n_n none A B (constant S3136x256 .f32 0x00000000#32) (ix2 a b)
      = ∑ c : Fin 2304, A (ix2 a c) * B (ix2 c b) := by
  refine (Ideal.matmul_constant_zero_apply (φ₁ := .bf16) (φ₂ := .bf16) _ _ _ _ _).trans ?_
  refine (Equiv.sum_comp (contrEquiv1 dot_S3136x2304_S2304x256_S3136x256_1_0_0_1_n_n 2304 rfl rfl).symm _).symm.trans ?_
  refine Finset.sum_congr rfl fun c _ => ?_
  have c2 := contrEquiv1_symm_val dot_S3136x2304_S2304x256_S3136x256_1_0_0_1_n_n 2304 rfl rfl c
  refine congrArg₂ (· * ·) (congrArg A (funext fun ax => Fin.ext ?_)) (congrArg B (funext fun ax => Fin.ext ?_))
  · fin_cases ax
    · rfl
    · exact c2
  · fin_cases ax
    · exact c2
    · rfl

/-- One tap: the band v (the 58 rows of the padded block) with its unit axis dropped, cut from row dy, at an entry. -/
theorem band7_apply (v : Vec Ideal S1x58x56x256 .bf16) (dy : ℕ) (hdy : dy ≤ 2) (h : S58x56x256.Slices ![dy, 0, 0] S56x56x256)
    (r : Fin 56) (j : Fin 56) (l : Fin 256) :
    extractStridedSlice S56x56x256 ![dy, 0, 0] (shapeCast S58x56x256 v shapeCasts_S1x58x56x256_S58x56x256) h (ix3 r j l)
      = arr4 v 0 (r.val + dy) j.val l.val := by
  have hR : r.val + dy < 58 := by have := r.isLt; omega
  refine (extractStridedSlice_apply _ _ h (ix3 r j l) (ix3 ⟨r.val + dy, hR⟩ j l) (fun a => ?_)).trans ?_
  · match a with
    | ⟨0, _⟩ => exact Nat.add_comm _ _
    | ⟨1, _⟩ => exact (Nat.zero_add _).symm
    | ⟨2, _⟩ => exact (Nat.zero_add _).symm
  · refine (shapeCast_1abc_abc_apply v _ ⟨r.val + dy, hR⟩ j l).trans ?_
    exact (arr4_apply v (0 : Fin 1) ⟨r.val + dy, hR⟩ j l).symm

section Payload

variable (v3 v6 v9 : Vec Ideal S1x58x56x256 .bf16) (v22 : Vec Ideal S2304x256 .bf16) (v25 : Vec Ideal S1x256 .f32)

/-- The three loaded bands, by column offset, as one total function: band dx at row R, column j, channel l. -/
def tap7 (dx R j l : ℕ) : EReal :=
  if dx = 0 then arr4 v3 0 R j l else if dx = 1 then arr4 v6 0 R j l else arr4 v9 0 R j l

/-- The nine taps in the concatenation's order: tap n is the band at column offset n % 3 cut from row n / 3. -/
def pieces7 : Fin 9 → (S56x56x256.Idx → EReal) :=
  ![extractStridedSlice S56x56x256 ![0, 0, 0] (shapeCast S58x56x256 v3 shapeCasts_S1x58x56x256_S58x56x256) slices_S58x56x256_o0_0_0_S56x56x256,
    extractStridedSlice S56x56x256 ![0, 0, 0] (shapeCast S58x56x256 v6 shapeCasts_S1x58x56x256_S58x56x256) slices_S58x56x256_o0_0_0_S56x56x256,
    extractStridedSlice S56x56x256 ![0, 0, 0] (shapeCast S58x56x256 v9 shapeCasts_S1x58x56x256_S58x56x256) slices_S58x56x256_o0_0_0_S56x56x256,
    extractStridedSlice S56x56x256 ![1, 0, 0] (shapeCast S58x56x256 v3 shapeCasts_S1x58x56x256_S58x56x256) slices_S58x56x256_o1_0_0_S56x56x256,
    extractStridedSlice S56x56x256 ![1, 0, 0] (shapeCast S58x56x256 v6 shapeCasts_S1x58x56x256_S58x56x256) slices_S58x56x256_o1_0_0_S56x56x256,
    extractStridedSlice S56x56x256 ![1, 0, 0] (shapeCast S58x56x256 v9 shapeCasts_S1x58x56x256_S58x56x256) slices_S58x56x256_o1_0_0_S56x56x256,
    extractStridedSlice S56x56x256 ![2, 0, 0] (shapeCast S58x56x256 v3 shapeCasts_S1x58x56x256_S58x56x256) slices_S58x56x256_o2_0_0_S56x56x256,
    extractStridedSlice S56x56x256 ![2, 0, 0] (shapeCast S58x56x256 v6 shapeCasts_S1x58x56x256_S58x56x256) slices_S58x56x256_o2_0_0_S56x56x256,
    extractStridedSlice S56x56x256 ![2, 0, 0] (shapeCast S58x56x256 v9 shapeCasts_S1x58x56x256_S58x56x256) slices_S58x56x256_o2_0_0_S56x56x256]

theorem tap7_zero (R j l : ℕ) : tap7 v3 v6 v9 0 R j l = arr4 v3 0 R j l := if_pos rfl
theorem tap7_one (R j l : ℕ) : tap7 v3 v6 v9 1 R j l = arr4 v6 0 R j l := (if_neg (by decide)).trans (if_pos rfl)
theorem tap7_two (R j l : ℕ) : tap7 v3 v6 v9 2 R j l = arr4 v9 0 R j l := (if_neg (by decide)).trans (if_neg (by decide))

theorem pieces7_apply (n : ℕ) (hn : n < 9) (r : Fin 56) (j : Fin 56) (l : Fin 256) :
    pieces7 v3 v6 v9 ⟨n, hn⟩ (ix3 r j l) = tap7 v3 v6 v9 (n % 3) (r.val + n / 3) j.val l.val := by
  interval_cases n
  · exact (band7_apply v3 0 (by decide) slices_S58x56x256_o0_0_0_S56x56x256 r j l).trans (tap7_zero v3 v6 v9 (r.val + 0) j.val l.val).symm
  · exact (band7_apply v6 0 (by decide) slices_S58x56x256_o0_0_0_S56x56x256 r j l).trans (tap7_one v3 v6 v9 (r.val + 0) j.val l.val).symm
  · exact (band7_apply v9 0 (by decide) slices_S58x56x256_o0_0_0_S56x56x256 r j l).trans (tap7_two v3 v6 v9 (r.val + 0) j.val l.val).symm
  · exact (band7_apply v3 1 (by decide) slices_S58x56x256_o1_0_0_S56x56x256 r j l).trans (tap7_zero v3 v6 v9 (r.val + 1) j.val l.val).symm
  · exact (band7_apply v6 1 (by decide) slices_S58x56x256_o1_0_0_S56x56x256 r j l).trans (tap7_one v3 v6 v9 (r.val + 1) j.val l.val).symm
  · exact (band7_apply v9 1 (by decide) slices_S58x56x256_o1_0_0_S56x56x256 r j l).trans (tap7_two v3 v6 v9 (r.val + 1) j.val l.val).symm
  · exact (band7_apply v3 2 (by decide) slices_S58x56x256_o2_0_0_S56x56x256 r j l).trans (tap7_zero v3 v6 v9 (r.val + 2) j.val l.val).symm
  · exact (band7_apply v6 2 (by decide) slices_S58x56x256_o2_0_0_S56x56x256 r j l).trans (tap7_one v3 v6 v9 (r.val + 2) j.val l.val).symm
  · exact (band7_apply v9 2 (by decide) slices_S58x56x256_o2_0_0_S56x56x256 r j l).trans (tap7_two v3 v6 v9 (r.val + 2) j.val l.val).symm

/-- The concatenation of the nine taps along the lanes, at lane c: tap c / 256 at channel c % 256. -/
theorem cat7_apply (r : Fin 56) (j : Fin 56) (c : Fin 2304) :
    concatenate S56x56x2304 2 [⟨S56x56x256, extractStridedSlice S56x56x256 ![0, 0, 0] (shapeCast S58x56x256 v3 shapeCasts_S1x58x56x256_S58x56x256) slices_S58x56x256_o0_0_0_S56x56x256⟩,
      ⟨S56x56x256, extractStridedSlice S56x56x256 ![0, 0, 0] (shapeCast S58x56x256 v6 shapeCasts_S1x58x56x256_S58x56x256) slices_S58x56x256_o0_0_0_S56x56x256⟩,
      ⟨S56x56x256, extractStridedSlice S56x56x256 ![0, 0, 0] (shapeCast S58x56x256 v9 shapeCasts_S1x58x56x256_S58x56x256) slices_S58x56x256_o0_0_0_S56x56x256⟩,
      ⟨S56x56x256, extractStridedSlice S56x56x256 ![1, 0, 0] (shapeCast S58x56x256 v3 shapeCasts_S1x58x56x256_S58x56x256) slices_S58x56x256_o1_0_0_S56x56x256⟩,
      ⟨S56x56x256, extractStridedSlice S56x56x256 ![1, 0, 0] (shapeCast S58x56x256 v6 shapeCasts_S1x58x56x256_S58x56x256) slices_S58x56x256_o1_0_0_S56x56x256⟩,
      ⟨S56x56x256, extractStridedSlice S56x56x256 ![1, 0, 0] (shapeCast S58x56x256 v9 shapeCasts_S1x58x56x256_S58x56x256) slices_S58x56x256_o1_0_0_S56x56x256⟩,
      ⟨S56x56x256, extractStridedSlice S56x56x256 ![2, 0, 0] (shapeCast S58x56x256 v3 shapeCasts_S1x58x56x256_S58x56x256) slices_S58x56x256_o2_0_0_S56x56x256⟩,
      ⟨S56x56x256, extractStridedSlice S56x56x256 ![2, 0, 0] (shapeCast S58x56x256 v6 shapeCasts_S1x58x56x256_S58x56x256) slices_S58x56x256_o2_0_0_S56x56x256⟩,
      ⟨S56x56x256, extractStridedSlice S56x56x256 ![2, 0, 0] (shapeCast S58x56x256 v9 shapeCasts_S1x58x56x256_S58x56x256) slices_S58x56x256_o2_0_0_S56x56x256⟩]
      concatenates_S56x56x256_S56x56x256_S56x56x256_S56x56x256_S56x56x256_S56x56x256_S56x56x256_S56x56x256_S56x56x256_S56x56x2304_d2 (ix3 r j c)
      = tap7 v3 v6 v9 (c.val / 256 % 3) (r.val + c.val / 256 / 3) j.val (c.val % 256) := by
  have hn : c.val / 256 < 9 := by have := c.isLt; omega
  have hl : c.val % 256 < 256 := Nat.mod_lt _ (by decide)
  refine (concatenate_ofFn_apply (t := S56x56x2304) (s₁ := S56x56x256) 2 (pieces7 v3 v6 v9) concatenates_S56x56x256_S56x56x256_S56x56x256_S56x56x256_S56x56x256_S56x56x256_S56x56x256_S56x56x256_S56x56x256_S56x56x2304_d2 rfl 256 rfl
    (ix3 r j c) ⟨c.val / 256, hn⟩ rfl (ix3 r j ⟨c.val % 256, hl⟩) rfl ?_).trans ?_
  · intro b hb
    match b with
    | ⟨0, _⟩ => rfl
    | ⟨1, _⟩ => rfl
    | ⟨2, _⟩ => exact absurd rfl hb
  · exact pieces7_apply v3 v6 v9 (c.val / 256) hn r j ⟨c.val % 256, hl⟩

/-- The interior payload at an entry of its block. -/
theorem conv7_pay_apply (r : Fin 56) (j : Fin 56) (co : Fin 256) :
    k7_pay5 v3 v6 v9 v22 v25 (ix4 (0 : Fin 1) r j co)
      = max ((∑ K ∈ Finset.range 2304, tap7 v3 v6 v9 (K / 256 % 3) (r.val + K / 256 / 3) j.val (K % 256) * arr2 v22 K co.val)
          + arr2 v25 0 co.val) 0 := by
  have hp : r.val * 56 + j.val < 3136 := by have := r.isLt; have := j.isLt; omega
  unfold k7_pay5
  refine (shapeCast_abc_1abc_apply _ _ (0 : Fin 1) r j co).trans ?_
  refine (truncf_apply (φ := .f32) (ψ := .bf16) _ bitsLt_bf16_f32 (ix3 r j co)).trans ?_
  refine (shapeCast_apply _ _ (ix3 r j co) (ix2 ⟨r.val * 56 + j.val, hp⟩ co) ?_).trans ?_
  · rw [Shape.rowMajor_val_two, Shape.rowMajor_val_three]; rfl
  refine congrArg₂ max ?_ ?_
  swap
  · exact Ideal.ofBits_zero_f32
  refine congrArg₂ (· + ·) ?_ ?_
  swap
  · refine (broadcastTo_1b_ab_apply v25 _ ⟨r.val * 56 + j.val, hp⟩ co).trans ?_
    exact (arr2_apply v25 (0 : Fin 1) co).symm
  refine (mm7_apply _ _ ⟨r.val * 56 + j.val, hp⟩ co).trans ?_
  rw [← Fin.sum_univ_eq_sum_range (fun K => tap7 v3 v6 v9 (K / 256 % 3) (r.val + K / 256 / 3) j.val (K % 256) * arr2 v22 K co.val) 2304]
  refine Finset.sum_congr rfl fun c _ => ?_
  refine congrArg₂ (· * ·) ?_ ?_
  · refine (shapeCast_apply _ _ (ix2 ⟨r.val * 56 + j.val, hp⟩ c) (ix3 r j c) ?_).trans ?_
    · rw [Shape.rowMajor_val_two, Shape.rowMajor_val_three]; rfl
    exact cat7_apply v3 v6 v9 r j c
  · refine (congrFun (shapeCast_self _ _) _).trans ?_
    exact (arr2_apply v22 c co).symm

end Payload

/-- The border payloads are zeros. -/
theorem conv7_pay1_apply (y : S1x1x58x256.Idx) : k7_pay1 (F := Ideal) (k7_pay6 (F := Ideal)) y = 0 := Ideal.ofBits_zero_bf16
theorem conv7_pay2_apply (y : S1x1x58x256.Idx) : k7_pay2 (F := Ideal) y = 0 := Ideal.ofBits_zero_bf16
theorem conv7_pay3_apply (y : S1x58x1x256.Idx) : k7_pay3 (F := Ideal) y = 0 := Ideal.ofBits_zero_bf16
theorem conv7_pay4_apply (y : S1x58x1x256.Idx) : k7_pay4 (F := Ideal) y = 0 := Ideal.ofBits_zero_bf16

end Cert.KernelIdeal.Val

end
-- ==== Proof.KV7.lean ====
/-
  The value of kernel region 7 (a 3x3 convolution with bias and ReLU on a 56 x 56 image of 256 channels, stored in padded
  coordinates) at the ideal values: after the region, the output array holds at batch b, row I < 58, column J < 58 and
  channel co the convolution's result at pixel (I - 1, J - 1) on rows 1 … 56 and columns 1 … 56, and zero elsewhere. The
  convolution reads the input array in padded coordinates: the sum over K < 2304 of the input at row i + K / 256 / 3,
  column j + K / 256 % 3, channel K % 256, times the flattened weight (K, co), plus the bias, clamped at zero. Point t
  of the grid is image t: its blocks are the whole image; the blocks tile the arrays and every point writes its block back.
  The five stores the body's buffer ends at are read newest first: the right columns, the left column, the bottom row and
  the top row are zeros, the interior at (1, 1) is the convolution's result of the three column bands of the input block.
-/
import proofs.«100114_g2000204297211070_pallasbulk_1265_19_alg».proof.Proof.KR7
import proofs.«100114_g2000204297211070_pallasbulk_1265_19_alg».proof.Proof.KV7Pay
import proofs.«100114_g2000204297211070_pallasbulk_1265_19_alg».proof.Proof.KVConvLib
import proofs.«100114_g2000204297211070_pallasbulk_1265_19_alg».proof.Proof.Spec
import Idealize.ShloMosaic.Lib.Pipeline.Value

set_option maxRecDepth 16384
-- the buffers' types are looked up in the signature's table at every unfolding: the later the region, the longer the walk
set_option maxHeartbeats 2000000

noncomputable section

open scoped BigOperators

namespace Cert.KernelIdeal.Val

open Cert.KernelIdeal Cert.KernelIdeal.Gen Cert.KernelIdeal.Reg Cert.KVConvLib
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-! ## The arrays and the points' geometry -/

/-- The region's three input arrays as it finds them, by their literal extents. -/
abbrev xarr7 (c : Dev nD) : S8x58x58x256.Idx → EReal := V c (Pipeline.arrRef spec7 0)
abbrev warr7 (c : Dev nD) : S2304x256.Idx → EReal := V c (Pipeline.arrRef spec7 1)
abbrev barr7 (c : Dev nD) : S1x256.Idx → EReal := V c (Pipeline.arrRef spec7 2)

/-- Point t reads image t of the input, whole, -/
theorem geo7_0 : ∀ t : Fin cfg7.N, win7_0.index t 0 = t.val ∧ win7_0.index t 1 = 0 ∧ win7_0.index t 2 = 0 ∧ win7_0.index t 3 = 0 :=
  (by decide +kernel : ∀ t : Fin grid7.N, win7_0.index t 0 = t.val ∧ win7_0.index t 1 = 0 ∧ win7_0.index t 2 = 0 ∧ win7_0.index t 3 = 0)
/-- the weights and the bias, whole, -/
theorem geo7_1 : ∀ t : Fin cfg7.N, win7_1.index t 0 = 0 ∧ win7_1.index t 1 = 0 :=
  (by decide +kernel : ∀ t : Fin grid7.N, win7_1.index t 0 = 0 ∧ win7_1.index t 1 = 0)
theorem geo7_2 : ∀ t : Fin cfg7.N, win7_2.index t 0 = 0 ∧ win7_2.index t 1 = 0 :=
  (by decide +kernel : ∀ t : Fin grid7.N, win7_2.index t 0 = 0 ∧ win7_2.index t 1 = 0)
/-- and writes image t of the output, whole. -/
theorem geo7_3 : ∀ t : Fin cfg7.N, win7_3.index t 0 = t.val ∧ win7_3.index t 1 = 0 ∧ win7_3.index t 2 = 0 ∧ win7_3.index t 3 = 0
    ∧ win7_3.xsize (grid7.coords t) 0 = 1 ∧ win7_3.xsize (grid7.coords t) 1 = 58 ∧ win7_3.xsize (grid7.coords t) 2 = 58
    ∧ win7_3.xsize (grid7.coords t) 3 = 256 :=
  (by decide +kernel : ∀ t : Fin grid7.N, win7_3.index t 0 = t.val ∧ win7_3.index t 1 = 0 ∧ win7_3.index t 2 = 0 ∧ win7_3.index t 3 = 0
    ∧ win7_3.xsize (grid7.coords t) 0 = 1 ∧ win7_3.xsize (grid7.coords t) 1 = 58 ∧ win7_3.xsize (grid7.coords t) 2 = 58
    ∧ win7_3.xsize (grid7.coords t) 3 = 256)
/-- The three loads' offsets at every point: row 0, columns 0, 1, 2 (the grid's second axis has one entry). -/
theorem off7 : ∀ t : Fin cfg7.N, k7_off1 (grid7.coords t) = ![0, 0, 0, 0] ∧ k7_off2 (grid7.coords t) = ![0, 0, 1, 0]
    ∧ k7_off3 (grid7.coords t) = ![0, 0, 2, 0] :=
  (by decide +kernel : ∀ t : Fin grid7.N, k7_off1 (grid7.coords t) = ![0, 0, 0, 0] ∧ k7_off2 (grid7.coords t) = ![0, 0, 1, 0]
    ∧ k7_off3 (grid7.coords t) = ![0, 0, 2, 0])

/-! ## The input blocks, read off the arrays -/

/-- The input block at point t is image t of the input array. -/
theorem xblk7_apply (c : Dev nD) (t : Fin cfg7.N) (R : Fin 58) (J : Fin 58) (l : Fin 256) :
    (iblk7 V c 0 t : S1x58x58x256.Idx → EReal) (ix4 (0 : Fin 1) R J l)
      = Cert.Spec.arr4 (xarr7 V c) t.val R.val J.val l.val := by
  have hN : cfg7.N = 8 := N_7
  have ht : t.val < 8 := by have := t.isLt; omega
  obtain ⟨i0, i1, i2, i3⟩ := geo7_0 t
  refine Eq.trans ?_ (Cert.Spec.arr4_apply (xarr7 V c) (⟨t.val, ht⟩ : Fin 8) R J l).symm
  unfold iblk7
  rw [View.read_apply]
  show xarr7 V c _ = xarr7 V c _
  congr 1
  funext a
  apply Fin.ext
  match a with
  | ⟨0, _⟩ => show win7_0.index t 0 * 1 + 1 * 0 = t.val; rw [i0]; omega
  | ⟨1, _⟩ => show win7_0.index t 1 * 58 + 1 * R.val = R.val; rw [i1]; omega
  | ⟨2, _⟩ => show win7_0.index t 2 * 58 + 1 * J.val = J.val; rw [i2]; omega
  | ⟨3, _⟩ => show win7_0.index t 3 * 256 + 1 * l.val = l.val; rw [i3]; omega

/-- The weight block at any point is the weight array. -/
theorem wblk7_eq (c : Dev nD) (t : Fin cfg7.N) : (iblk7 V c 1 t : S2304x256.Idx → EReal) = warr7 V c := by
  obtain ⟨i0, i1⟩ := geo7_1 t
  funext y
  unfold iblk7
  rw [View.read_apply]
  show warr7 V c _ = warr7 V c y
  congr 1
  funext a
  apply Fin.ext
  match a with
  | ⟨0, _⟩ => show win7_1.index t 0 * 2304 + 1 * (y 0).val = (y 0).val; rw [i0]; omega
  | ⟨1, _⟩ => show win7_1.index t 1 * 256 + 1 * (y 1).val = (y 1).val; rw [i1]; omega

/-- The bias block at any point is the bias array. -/
theorem bblk7_eq (c : Dev nD) (t : Fin cfg7.N) : (iblk7 V c 2 t : S1x256.Idx → EReal) = barr7 V c := by
  obtain ⟨i0, i1⟩ := geo7_2 t
  funext y
  unfold iblk7
  rw [View.read_apply]
  show barr7 V c _ = barr7 V c y
  congr 1
  funext a
  apply Fin.ext
  match a with
  | ⟨0, _⟩ => show win7_2.index t 0 * 1 + 1 * (y 0).val = (y 0).val; rw [i0]; omega
  | ⟨1, _⟩ => show win7_2.index t 1 * 256 + 1 * (y 1).val = (y 1).val; rw [i1]; omega

/-- A column band of the input block, loaded from column dx on, at an entry: the input array at column j + dx. -/
theorem ldx7 (c : Dev nD) (t : Fin cfg7.N) (off : Fin 4 → ℕ) (inb : ∀ a, off a + S1x58x56x256.size a ≤ S1x58x58x256.size a)
    (dx : ℕ) (hoff : off = ![0, 0, dx, 0]) (R : Fin 58) (j : Fin 56) (hj : j.val + dx < 58) (l : Fin 256) :
    View.ld (iblk7 V c 0 t : S1x58x58x256.Idx → EReal) (Rect.unit (s := S1x58x58x256) off S1x58x56x256.size inb) (ix4 (0 : Fin 1) R j l)
      = Cert.Spec.arr4 (xarr7 V c) t.val R.val (j.val + dx) l.val := by
  subst hoff
  refine Eq.trans ?_ (xblk7_apply V c t R ⟨j.val + dx, hj⟩ l)
  show (iblk7 V c 0 t : S1x58x58x256.Idx → EReal) _ = (iblk7 V c 0 t : S1x58x58x256.Idx → EReal) _
  congr 1
  funext a
  apply Fin.ext
  match a with
  | ⟨0, _⟩ => show 0 + 1 * 0 = 0; rfl
  | ⟨1, _⟩ => show 0 + 1 * R.val = R.val; omega
  | ⟨2, _⟩ => show dx + 1 * j.val = j.val + dx; omega
  | ⟨3, _⟩ => show 0 + 1 * l.val = l.val; omega

/-! ## What a point leaves in the output block -/

/-- The region's result at (b, I, J, co), in padded coordinates. -/
def Gf7 (c : Dev nD) (b I J co : ℕ) : EReal :=
  Cert.Spec.pad1 56 56 (Cert.Spec.convFlat 256 (Cert.Spec.arr4 (xarr7 V c)) (Cert.Spec.arr2 (warr7 V c)) (Cert.Spec.arr2 (barr7 V c))) b I J co

/-- The interior store's block at point t, at (r, j, co): the convolution at pixel (r, j) of image t. -/
theorem conv7_apply (c : Dev nD) (t : Fin cfg7.N) (r : Fin 56) (j : Fin 56) (co : Fin 256) :
    conv7 (F := Ideal) (grid7.coords t) (iblk7 V c 0 t) (iblk7 V c 1 t) (iblk7 V c 2 t) (ix4 (0 : Fin 1) r j co)
      = Cert.Spec.convFlat 256 (Cert.Spec.arr4 (xarr7 V c)) (Cert.Spec.arr2 (warr7 V c)) (Cert.Spec.arr2 (barr7 V c))
          t.val r.val j.val co.val := by
  obtain ⟨o1, o2, o3⟩ := off7 t
  have hr := r.isLt
  have hj := j.isLt
  have hw : View.ld (iblk7 V c 1 t : S2304x256.Idx → EReal) r7_w = warr7 V c :=
    (View.ld_unit_zero (S := S2304x256) hz2 _ _).trans (wblk7_eq V c t)
  have hb : View.ld (iblk7 V c 2 t : S1x256.Idx → EReal) r7_b = barr7 V c :=
    (View.ld_unit_zero (S := S1x256) hz2 _ _).trans (bblk7_eq V c t)
  unfold conv7
  refine (conv7_pay_apply _ _ _ _ _ r j co).trans ?_
  unfold Cert.Spec.convFlat
  refine congrArg₂ max (congrArg₂ (· + ·) (Finset.sum_congr rfl fun K hK => ?_)
    (congrArg (fun B : S1x256.Idx → EReal => Cert.Spec.arr2 B 0 co.val) hb)) rfl
  have hK' : K < 2304 := Finset.mem_range.mp hK
  have hR : r.val + K / 256 / 3 < 58 := by omega
  have hl : K % 256 < 256 := Nat.mod_lt _ (by decide)
  refine congrArg₂ (· * ·) ?_ (congrArg (fun W : S2304x256.Idx → EReal => Cert.Spec.arr2 W K co.val) hw)
  obtain h | h | h : K / 256 % 3 = 0 ∨ K / 256 % 3 = 1 ∨ K / 256 % 3 = 2 := by omega
  · rw [h, tap7_zero]
    refine (Cert.Spec.arr4_apply _ (0 : Fin 1) (⟨r.val + K / 256 / 3, hR⟩ : Fin 58) j (⟨K % 256, hl⟩ : Fin 256)).trans ?_
    exact ldx7 V c t _ _ 0 o1 ⟨r.val + K / 256 / 3, hR⟩ j (by omega) ⟨K % 256, hl⟩
  · rw [h, tap7_one]
    refine (Cert.Spec.arr4_apply _ (0 : Fin 1) (⟨r.val + K / 256 / 3, hR⟩ : Fin 58) j (⟨K % 256, hl⟩ : Fin 256)).trans ?_
    exact ldx7 V c t _ _ 1 o2 ⟨r.val + K / 256 / 3, hR⟩ j (by omega) ⟨K % 256, hl⟩
  · rw [h, tap7_two]
    refine (Cert.Spec.arr4_apply _ (0 : Fin 1) (⟨r.val + K / 256 / 3, hR⟩ : Fin 58) j (⟨K % 256, hl⟩ : Fin 256)).trans ?_
    exact ldx7 V c t _ _ 2 o3 ⟨r.val + K / 256 / 3, hR⟩ j (by omega) ⟨K % 256, hl⟩

/-- What the output's staging buffer holds after point t, at (I, J, co): the region's result at image t. -/
theorem outs7_apply (c : Dev nD) (t : Fin cfg7.N) (I : Fin 58) (J : Fin 58) (co : Fin 256) :
    outsAt7 (F := Ideal) V c t (ix4 (0 : Fin 1) I J co) = Gf7 V c t.val I.val J.val co.val := by
  have hI := I.isLt
  have hJ := J.isLt
  unfold Gf7 Cert.Spec.pad1 outsAt7 out7_3
  by_cases hJr : 57 ≤ J.val
  · have hc : ¬(1 ≤ I.val ∧ I.val ≤ 56 ∧ 1 ≤ J.val ∧ J.val ≤ 56) := by omega
    rw [if_neg hc]
    refine (canon_unit_of_mem _ _ _ (ix4 (0 : Fin 1) I J co) (ix4 (0 : Fin 1) I (⟨J.val - 57, by omega⟩ : Fin 1) co)
      (fin4_all (by show (0 : ℕ) = 0 + 0; rfl) (by show I.val = 0 + I.val; omega) (by show J.val = 57 + (J.val - 57); omega)
        (by show co.val = 0 + co.val; omega))).trans ?_
    exact conv7_pay4_apply _
  refine (canon_unit_of_not_mem _ _ _ (ix4 (0 : Fin 1) I J co) (2 : Fin 4) (by show J.val < 57 ∨ 57 + 1 ≤ J.val; omega)).trans ?_
  by_cases hJ0 : J.val = 0
  · have hc : ¬(1 ≤ I.val ∧ I.val ≤ 56 ∧ 1 ≤ J.val ∧ J.val ≤ 56) := by omega
    rw [if_neg hc]
    refine (canon_unit_of_mem _ _ _ (ix4 (0 : Fin 1) I J co) (ix4 (0 : Fin 1) I (0 : Fin 1) co)
      (fin4_all (by show (0 : ℕ) = 0 + 0; rfl) (by show I.val = 0 + I.val; omega) (by show J.val = 0 + 0; omega)
        (by show co.val = 0 + co.val; omega))).trans ?_
    exact conv7_pay3_apply _
  refine (canon_unit_of_not_mem _ _ _ (ix4 (0 : Fin 1) I J co) (2 : Fin 4) (by show J.val < 0 ∨ 0 + 1 ≤ J.val; omega)).trans ?_
  by_cases hIb : I.val = 57
  · have hc : ¬(1 ≤ I.val ∧ I.val ≤ 56 ∧ 1 ≤ J.val ∧ J.val ≤ 56) := by omega
    rw [if_neg hc]
    refine (canon_unit_of_mem _ _ _ (ix4 (0 : Fin 1) I J co) (ix4 (0 : Fin 1) (0 : Fin 1) J co)
      (fin4_all (by show (0 : ℕ) = 0 + 0; rfl) (by show I.val = 57 + 0; omega) (by show J.val = 0 + J.val; omega)
        (by show co.val = 0 + co.val; omega))).trans ?_
    exact conv7_pay2_apply _
  refine (canon_unit_of_not_mem _ _ _ (ix4 (0 : Fin 1) I J co) (1 : Fin 4) (by show I.val < 57 ∨ 57 + 1 ≤ I.val; omega)).trans ?_
  by_cases hI0 : I.val = 0
  · have hc : ¬(1 ≤ I.val ∧ I.val ≤ 56 ∧ 1 ≤ J.val ∧ J.val ≤ 56) := by omega
    rw [if_neg hc]
    refine (canon_unit_of_mem _ _ _ (ix4 (0 : Fin 1) I J co) (ix4 (0 : Fin 1) (0 : Fin 1) J co)
      (fin4_all (by show (0 : ℕ) = 0 + 0; rfl) (by show I.val = 0 + 0; omega) (by show J.val = 0 + J.val; omega)
        (by show co.val = 0 + co.val; omega))).trans ?_
    exact conv7_pay1_apply _
  refine (canon_unit_of_not_mem _ _ _ (ix4 (0 : Fin 1) I J co) (1 : Fin 4) (by show I.val < 0 ∨ 0 + 1 ≤ I.val; omega)).trans ?_
  have hc : 1 ≤ I.val ∧ I.val ≤ 56 ∧ 1 ≤ J.val ∧ J.val ≤ 56 := by omega
  rw [if_pos hc]
  refine (canon_unit_of_mem _ _ _ (ix4 (0 : Fin 1) I J co)
    (ix4 (0 : Fin 1) (⟨I.val - 1, by omega⟩ : Fin 56) (⟨J.val - 1, by omega⟩ : Fin 56) co)
    (fin4_all (by show (0 : ℕ) = 0 + 0; rfl) (by show I.val = 1 + (I.val - 1); omega) (by show J.val = 1 + (J.val - 1); omega)
      (by show co.val = 0 + co.val; omega))).trans ?_
  exact conv7_apply V c t (⟨I.val - 1, by omega⟩ : Fin 56) (⟨J.val - 1, by omega⟩ : Fin 56) co

/-! ## The output array after the region -/

/-- The region's result as contents of the output array. -/
def G7 (c : Dev nD) : S8x58x58x256.Idx → EReal := fun k => Gf7 V c (k 0).val (k 1).val (k 2).val (k 3).val

/-- What point t writes back is its block of the result. -/
theorem flushed7_eq (c : Dev nD) (t : Fin cfg7.N) (hf : (cfg7.win 3).flush t = true) :
    (dat7 (F := Ideal) V c).flushed 3 t = ((cfg7.win 3).blk t).view.read (Elt Ideal) (G7 V c) := by
  obtain ⟨i0, i1, i2, i3, -⟩ := geo7_3 t
  funext y
  obtain ⟨I, J, co, rfl⟩ := exists_ix4_one (a := 58) (b := 58) (c := 256) y
  show (cfg7.win 3).cut (grid7.coords t) ((dat7 V c).after 3 t) (ix4 (0 : Fin 1) I J co) = _
  rw [after7_3, View.read_apply]
  show outsAt7 V c t (ix4 (0 : Fin 1) I J co) = G7 V c (((cfg7.win 3).blk t).view.emb (ix4 (0 : Fin 1) I J co))
  refine (outs7_apply V c t I J co).trans ?_
  have e0 : ((((cfg7.win 3).blk t).view.emb (ix4 (0 : Fin 1) I J co)) 0).val = t.val := by
    show win7_3.index t 0 * 1 + 1 * 0 = _; rw [i0]; omega
  have e1 : ((((cfg7.win 3).blk t).view.emb (ix4 (0 : Fin 1) I J co)) 1).val = I.val := by
    show win7_3.index t 1 * 58 + 1 * I.val = _; rw [i1]; omega
  have e2 : ((((cfg7.win 3).blk t).view.emb (ix4 (0 : Fin 1) I J co)) 2).val = J.val := by
    show win7_3.index t 2 * 58 + 1 * J.val = _; rw [i2]; omega
  have e3 : ((((cfg7.win 3).blk t).view.emb (ix4 (0 : Fin 1) I J co)) 3).val = co.val := by
    show win7_3.index t 3 * 256 + 1 * co.val = _; rw [i3]; omega
  unfold G7
  exact (congr (congr (congr (congrArg (Gf7 V c) e0) e1) e2) e3).symm

/-- Every index of the output array is in the block of its image's point. -/
theorem cover7 (c : Dev nD) (i : ((cfg7.win 3).arr.view.loc (c.tc : Thread nD τ)).2.ty.Idx) :
    ∃ t : Fin cfg7.N, (cfg7.win 3).flush t = true ∧ i ∈ ((cfg7.win 3).blk t).view.set := by
  have hN : cfg7.N = 8 := N_7
  have b0 : (i 0 : ℕ) < 8 := (i 0).isLt
  have b1 : (i 1 : ℕ) < 58 := (i 1).isLt
  have b2 : (i 2 : ℕ) < 58 := (i 2).isLt
  have b3 : (i 3 : ℕ) < 256 := (i 3).isLt
  have hlt : (i 0 : ℕ) < cfg7.N := by omega
  refine ⟨⟨(i 0 : ℕ), hlt⟩, flush7_3 _, ?_⟩
  obtain ⟨i0, i1, i2, i3, z0, z1, z2, z3⟩ := geo7_3 (⟨(i 0 : ℕ), hlt⟩ : Fin cfg7.N)
  show i ∈ ((View.whole (Pipeline.arrRef spec7 3)).slice (win7_3.rect (⟨(i 0 : ℕ), hlt⟩ : Fin cfg7.N))).set
  rw [View.set_slice_whole, Rect.mem_set_unit]
  intro a
  match a with
  | ⟨0, _⟩ =>
    show win7_3.index _ 0 * 1 ≤ (i 0 : ℕ) ∧ (i 0 : ℕ) < win7_3.index _ 0 * 1 + win7_3.xsize _ 0
    rw [i0, z0]; dsimp only; omega
  | ⟨1, _⟩ =>
    show win7_3.index _ 1 * win7_3.size 1 ≤ (i 1 : ℕ) ∧ (i 1 : ℕ) < win7_3.index _ 1 * win7_3.size 1 + win7_3.xsize _ 1
    rw [i1, z1]; omega
  | ⟨2, _⟩ =>
    show win7_3.index _ 2 * win7_3.size 2 ≤ (i 2 : ℕ) ∧ (i 2 : ℕ) < win7_3.index _ 2 * win7_3.size 2 + win7_3.xsize _ 2
    rw [i2, z2]; omega
  | ⟨3, _⟩ =>
    show win7_3.index _ 3 * win7_3.size 3 ≤ (i 3 : ℕ) ∧ (i 3 : ℕ) < win7_3.index _ 3 * win7_3.size 3 + win7_3.xsize _ 3
    rw [i3, z3]; omega

/-- So the output array ends holding the result. -/
theorem final7 (c : Dev nD) : (dat7 (F := Ideal) V c).arrAt 3 cfg7.N = G7 V c :=
  (dat7 (F := Ideal) V c).arrAt_eq_of_cover 3 (G7 V c) (flushed7_eq V c) (cover7 c)

/-- The region's value: the output array is the convolution of the input array, in padded coordinates, zero on the border. -/
theorem conv7_value (c : Dev nD) (b I J co : ℕ) (hb : b < 8) (hI : I < 58) (hJ : J < 58) (hco : co < 256) :
    Cert.Spec.arr4 ((dat7 (F := Ideal) V c).arrAt 3 cfg7.N : S8x58x58x256.Idx → EReal) b I J co
      = Cert.Spec.pad1 56 56 (Cert.Spec.convFlat 256 (Cert.Spec.arr4 (xarr7 V c)) (Cert.Spec.arr2 (warr7 V c))
          (Cert.Spec.arr2 (barr7 V c))) b I J co := by
  refine (congrArg (fun A : S8x58x58x256.Idx → EReal => Cert.Spec.arr4 A b I J co) (final7 V c)).trans ?_
  exact Cert.Spec.arr4_apply (G7 V c) (⟨b, hb⟩ : Fin 8) (⟨I, hI⟩ : Fin 58) (⟨J, hJ⟩ : Fin 58) (⟨co, hco⟩ : Fin 256)

end Cert.KernelIdeal.Val

end
-- ==== Proof.KV8Pay.lean ====
/-
  The payload of kernel region 8 read at one entry, at the ideal values. The body's one whole-block store writes, at
  pooled row `i`, column `j`, output channel `co` of its block, the larger of the two convolution rows `2i` and `2i+1`
  there; a convolution row `h` at `(j, co)` is the ReLU of the bias plus the sum over the 2304 lanes `K` of the nine
  lane-concatenated taps — lane `K` is tap `K / 256` (row offset `K / 256 / 3`, column band `K / 256 % 3`) at input
  channel `K % 256` — times row `K` of the flattened weights. The row-pair maximum is a reduction over an axis of
  extent two started from minus infinity, which the maximum absorbs.
-/
import proofs.«100114_g2000204297211070_pallasbulk_1265_19_alg».proof.Proof.Gen.KernelIdeal.Skeleton
import proofs.«100114_g2000204297211070_pallasbulk_1265_19_alg».proof.Proof.Spec
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Val

open Cert.KernelIdeal Cert.KernelIdeal.Gen Cert.Spec
open Idealize.ShloMosaic Idealize.ShloMosaic.ValueIdx

/-- The block product into the zero accumulator, at an entry: the sum over the contracted coordinate. -/
theorem mm8_apply (A : FVec Ideal S3136x2304 .bf16) (B : FVec Ideal S2304x256 .bf16) (a : Fin 3136) (b : Fin 256) :
    matmul dot_S3136x2304_S2304x256_S3136x256_1_0_0_1_n_n none A B (constant S3136x256 .f32 0x00000000#32) (ix2 a b)
      = ∑ c : Fin 2304, A (ix2 a c) * B (ix2 c b) := by
  show FloatOps.matmul dot_S3136x2304_S2304x256_S3136x256_1_0_0_1_n_n none A B _ (ix2 a b) = _
  rw [Ideal.matmul_constant_zero_apply, ← Equiv.sum_comp (contrEquiv1 dot_S3136x2304_S2304x256_S3136x256_1_0_0_1_n_n 2304 rfl rfl).symm]
  refine Finset.sum_congr rfl fun c _ => ?_
  have c2 := contrEquiv1_symm_val dot_S3136x2304_S2304x256_S3136x256_1_0_0_1_n_n 2304 rfl rfl c
  have l2 : (dot_S3136x2304_S2304x256_S3136x256_1_0_0_1_n_n).lhsIdx (ix2 a b) ((contrEquiv1 _ 2304 rfl rfl).symm c) = ix2 a c := by
    funext ax; apply Fin.ext
    match ax with
    | ⟨0, _⟩ => simp [DotDims.lhsIdx, dot_S3136x2304_S2304x256_S3136x256_1_0_0_1_n_n]; rfl
    | ⟨1, _⟩ => simp [DotDims.lhsIdx, dot_S3136x2304_S2304x256_S3136x256_1_0_0_1_n_n]; exact c2
  have r2 : (dot_S3136x2304_S2304x256_S3136x256_1_0_0_1_n_n).rhsIdx (ix2 a b) ((contrEquiv1 _ 2304 rfl rfl).symm c) = ix2 c b := by
    funext ax; apply Fin.ext
    match ax with
    | ⟨0, _⟩ => simp [DotDims.rhsIdx, dot_S3136x2304_S2304x256_S3136x256_1_0_0_1_n_n]; exact c2
    | ⟨1, _⟩ => simp [DotDims.rhsIdx, dot_S3136x2304_S2304x256_S3136x256_1_0_0_1_n_n]; rfl
  rw [l2, r2]

/-- One tap: the band `v` (the 58 rows of the padded block a tile reads) with its unit axis dropped, cut from row `dy`,
    at an entry. -/
theorem band8_apply (v : Vec Ideal S1x58x56x256 .bf16) (dy : ℕ) (hdy : dy ≤ 2) (h : S58x56x256.Slices ![dy, 0, 0] S56x56x256)
    (r : Fin 56) (j : Fin 56) (l : Fin 256) :
    extractStridedSlice S56x56x256 ![dy, 0, 0] (shapeCast S58x56x256 v shapeCasts_S1x58x56x256_S58x56x256) h (ix3 r j l)
      = arr4 v 0 (r.val + dy) j.val l.val := by
  have hR : r.val + dy < 58 := by omega
  refine (extractStridedSlice_apply _ _ h (ix3 r j l) (ix3 ⟨r.val + dy, hR⟩ j l) (fun a => ?_)).trans ?_
  · match a with
    | ⟨0, _⟩ => exact Nat.add_comm _ _
    | ⟨1, _⟩ => exact (Nat.zero_add _).symm
    | ⟨2, _⟩ => exact (Nat.zero_add _).symm
  · refine (shapeCast_1abc_abc_apply v _ ⟨r.val + dy, hR⟩ j l).trans ?_
    exact (arr4_apply v (0 : Fin 1) ⟨r.val + dy, hR⟩ j l).symm

/-- The maximum over an axis of extent two, started from `b`. -/
theorem fold_max_pair8 (b : EReal) (f : Fin 2 → EReal) :
    (Finset.univ : Finset (Fin 2)).fold max b f = max (f 0) (max (f 1) b) := by
  rw [show (Finset.univ : Finset (Fin 2)) = insert 0 {1} from by decide, Finset.fold_insert (by decide), Finset.fold_singleton]

variable (v3 v6 v9 : Vec Ideal S1x58x56x256 .bf16) (v22 : Vec Ideal S2304x256 .bf16) (v25 : Vec Ideal S1x256 .f32)

/-- The three loaded bands, by column offset, as one total function: band `dx` at row `R`, column `j`, channel `l`. -/
def tap8 (dx R j l : ℕ) : EReal :=
  if dx = 0 then arr4 v3 0 R j l else if dx = 1 then arr4 v6 0 R j l else arr4 v9 0 R j l

/-- The nine taps in the concatenation's order: tap `n` is the band at column offset `n % 3` cut from row `n / 3`. -/
def pieces8 : Fin 9 → (S56x56x256.Idx → EReal) :=
  ![extractStridedSlice S56x56x256 ![0, 0, 0] (shapeCast S58x56x256 v3 shapeCasts_S1x58x56x256_S58x56x256) slices_S58x56x256_o0_0_0_S56x56x256,
    extractStridedSlice S56x56x256 ![0, 0, 0] (shapeCast S58x56x256 v6 shapeCasts_S1x58x56x256_S58x56x256) slices_S58x56x256_o0_0_0_S56x56x256,
    extractStridedSlice S56x56x256 ![0, 0, 0] (shapeCast S58x56x256 v9 shapeCasts_S1x58x56x256_S58x56x256) slices_S58x56x256_o0_0_0_S56x56x256,
    extractStridedSlice S56x56x256 ![1, 0, 0] (shapeCast S58x56x256 v3 shapeCasts_S1x58x56x256_S58x56x256) slices_S58x56x256_o1_0_0_S56x56x256,
    extractStridedSlice S56x56x256 ![1, 0, 0] (shapeCast S58x56x256 v6 shapeCasts_S1x58x56x256_S58x56x256) slices_S58x56x256_o1_0_0_S56x56x256,
    extractStridedSlice S56x56x256 ![1, 0, 0] (shapeCast S58x56x256 v9 shapeCasts_S1x58x56x256_S58x56x256) slices_S58x56x256_o1_0_0_S56x56x256,
    extractStridedSlice S56x56x256 ![2, 0, 0] (shapeCast S58x56x256 v3 shapeCasts_S1x58x56x256_S58x56x256) slices_S58x56x256_o2_0_0_S56x56x256,
    extractStridedSlice S56x56x256 ![2, 0, 0] (shapeCast S58x56x256 v6 shapeCasts_S1x58x56x256_S58x56x256) slices_S58x56x256_o2_0_0_S56x56x256,
    extractStridedSlice S56x56x256 ![2, 0, 0] (shapeCast S58x56x256 v9 shapeCasts_S1x58x56x256_S58x56x256) slices_S58x56x256_o2_0_0_S56x56x256]

theorem pieces8_apply (n : Fin 9) (r : Fin 56) (j : Fin 56) (l : Fin 256) :
    pieces8 v3 v6 v9 n (ix3 r j l) = tap8 v3 v6 v9 (n.val % 3) (r.val + n.val / 3) j.val l.val := by
  match n with
  | ⟨0, _⟩ => exact (band8_apply v3 0 (by decide) slices_S58x56x256_o0_0_0_S56x56x256 r j l).trans (by simp [tap8])
  | ⟨1, _⟩ => exact (band8_apply v6 0 (by decide) slices_S58x56x256_o0_0_0_S56x56x256 r j l).trans (by simp [tap8])
  | ⟨2, _⟩ => exact (band8_apply v9 0 (by decide) slices_S58x56x256_o0_0_0_S56x56x256 r j l).trans (by simp [tap8])
  | ⟨3, _⟩ => exact (band8_apply v3 1 (by decide) slices_S58x56x256_o1_0_0_S56x56x256 r j l).trans (by simp [tap8])
  | ⟨4, _⟩ => exact (band8_apply v6 1 (by decide) slices_S58x56x256_o1_0_0_S56x56x256 r j l).trans (by simp [tap8])
  | ⟨5, _⟩ => exact (band8_apply v9 1 (by decide) slices_S58x56x256_o1_0_0_S56x56x256 r j l).trans (by simp [tap8])
  | ⟨6, _⟩ => exact (band8_apply v3 2 (by decide) slices_S58x56x256_o2_0_0_S56x56x256 r j l).trans (by simp [tap8])
  | ⟨7, _⟩ => exact (band8_apply v6 2 (by decide) slices_S58x56x256_o2_0_0_S56x56x256 r j l).trans (by simp [tap8])
  | ⟨8, _⟩ => exact (band8_apply v9 2 (by decide) slices_S58x56x256_o2_0_0_S56x56x256 r j l).trans (by simp [tap8])
  | ⟨_ + 9, h⟩ => exact absurd h (by omega)

/-- The concatenation of the nine taps along the lanes, at lane `c`: tap `c / 256` at channel `c % 256`. -/
theorem cat8_apply (r : Fin 56) (j : Fin 56) (c : Fin 2304) :
    concatenate S56x56x2304 2 [⟨S56x56x256, extractStridedSlice S56x56x256 ![0, 0, 0] (shapeCast S58x56x256 v3 shapeCasts_S1x58x56x256_S58x56x256) slices_S58x56x256_o0_0_0_S56x56x256⟩,
      ⟨S56x56x256, extractStridedSlice S56x56x256 ![0, 0, 0] (shapeCast S58x56x256 v6 shapeCasts_S1x58x56x256_S58x56x256) slices_S58x56x256_o0_0_0_S56x56x256⟩,
      ⟨S56x56x256, extractStridedSlice S56x56x256 ![0, 0, 0] (shapeCast S58x56x256 v9 shapeCasts_S1x58x56x256_S58x56x256) slices_S58x56x256_o0_0_0_S56x56x256⟩,
      ⟨S56x56x256, extractStridedSlice S56x56x256 ![1, 0, 0] (shapeCast S58x56x256 v3 shapeCasts_S1x58x56x256_S58x56x256) slices_S58x56x256_o1_0_0_S56x56x256⟩,
      ⟨S56x56x256, extractStridedSlice S56x56x256 ![1, 0, 0] (shapeCast S58x56x256 v6 shapeCasts_S1x58x56x256_S58x56x256) slices_S58x56x256_o1_0_0_S56x56x256⟩,
      ⟨S56x56x256, extractStridedSlice S56x56x256 ![1, 0, 0] (shapeCast S58x56x256 v9 shapeCasts_S1x58x56x256_S58x56x256) slices_S58x56x256_o1_0_0_S56x56x256⟩,
      ⟨S56x56x256, extractStridedSlice S56x56x256 ![2, 0, 0] (shapeCast S58x56x256 v3 shapeCasts_S1x58x56x256_S58x56x256) slices_S58x56x256_o2_0_0_S56x56x256⟩,
      ⟨S56x56x256, extractStridedSlice S56x56x256 ![2, 0, 0] (shapeCast S58x56x256 v6 shapeCasts_S1x58x56x256_S58x56x256) slices_S58x56x256_o2_0_0_S56x56x256⟩,
      ⟨S56x56x256, extractStridedSlice S56x56x256 ![2, 0, 0] (shapeCast S58x56x256 v9 shapeCasts_S1x58x56x256_S58x56x256) slices_S58x56x256_o2_0_0_S56x56x256⟩]
      concatenates_S56x56x256_S56x56x256_S56x56x256_S56x56x256_S56x56x256_S56x56x256_S56x56x256_S56x56x256_S56x56x256_S56x56x2304_d2 (ix3 r j c)
      = tap8 v3 v6 v9 (c.val / 256 % 3) (r.val + c.val / 256 / 3) j.val (c.val % 256) := by
  have hn : c.val / 256 < 9 := by have := c.isLt; omega
  have hl : c.val % 256 < 256 := Nat.mod_lt _ (by decide)
  refine (concatenate_ofFn_apply (t := S56x56x2304) (s₁ := S56x56x256) 2 (pieces8 v3 v6 v9) concatenates_S56x56x256_S56x56x256_S56x56x256_S56x56x256_S56x56x256_S56x56x256_S56x56x256_S56x56x256_S56x56x256_S56x56x2304_d2 rfl 256 rfl
    (ix3 r j c) ⟨c.val / 256, hn⟩ rfl (ix3 r j ⟨c.val % 256, hl⟩) rfl ?_).trans ?_
  · intro b hb
    match b with
    | ⟨0, _⟩ => rfl
    | ⟨1, _⟩ => rfl
    | ⟨2, _⟩ => exact absurd rfl hb
  · exact pieces8_apply v3 v6 v9 ⟨c.val / 256, hn⟩ r j ⟨c.val % 256, hl⟩

/-- One convolution row of the tile at column `j`, output channel `co`: bias plus the sum over the lanes, then ReLU. -/
def crow8 (h j co : ℕ) : EReal :=
  max ((∑ K ∈ Finset.range 2304, tap8 v3 v6 v9 (K / 256 % 3) (h + K / 256 / 3) j (K % 256) * arr2 v22 K co) + arr2 v25 0 co) 0

/-- The payload at an entry of the output block: the larger of convolution rows `2i` and `2i+1`. -/
theorem pay8_apply (i : Fin 28) (j : Fin 56) (co : Fin 256) :
    k8_pay1 v3 v6 v9 v22 v25 (ix4 (0 : Fin 1) i j co)
      = max (crow8 v3 v6 v9 v22 v25 (2 * i.val) j.val co.val) (crow8 v3 v6 v9 v22 v25 (2 * i.val + 1) j.val co.val) := by
  have hne : Ideal.ofBits .f32 0xFF800000#32 = ⊥ := by simp [Ideal.ofBits, Ideal.ieee]
  rw [Nat.mul_comm 2 i.val]
  unfold k8_pay1
  refine (shapeCast_abc_1abc_apply _ _ (0 : Fin 1) i j co).trans ?_
  -- the narrowing to bf16 is the identity at the ideal values; under it, the maximum over the row pair
  refine (truncf_apply (φ := .f32) (ψ := .bf16) _ bitsLt_bf16_f32 (ix3 i j co)).trans ?_
  refine (Ideal.multiReduction_maximumf_single _ _ reduces_S28x2x56x256_S28x56x256 _ _ (ix3 i j co)).trans ?_
  refine (fold_max_pair8 _ _).trans ?_
  suffices h : ∀ r : Fin 2, (Function.comp _ (Shape.Reduces.lift reduces_S28x2x56x256_S28x56x256 (ix3 i j co))) r
      = crow8 v3 v6 v9 v22 v25 (i.val * 2 + r.val) j.val co.val from
    congrArg₂ max (h 0) ((congrArg₂ max (h 1) hne).trans (max_bot_right _))
  intro r
  have hh : i.val * 2 + r.val < 56 := by have := i.isLt; have := r.isLt; omega
  have hp : (i.val * 2 + r.val) * 56 + j.val < 3136 := by have := j.isLt; omega
  unfold crow8
  -- row `2i + r` of the tile's convolution: position `(2i + r) * 56 + j` of the flattened product
  refine (shapeCast_apply _ _ (Shape.Reduces.lift reduces_S28x2x56x256_S28x56x256 (ix3 i j co) r) (ix2 ⟨(i.val * 2 + r.val) * 56 + j.val, hp⟩ co) ?_).trans ?_
  · rw [Shape.rowMajor_val_two, Shape.rowMajor_val_four]; rfl
  refine congrArg₂ max ?_ ?_
  swap
  · exact Ideal.ofBits_zero_f32
  refine congrArg₂ (· + ·) ?_ ?_
  swap
  · refine (broadcastTo_1b_ab_apply v25 _ ⟨(i.val * 2 + r.val) * 56 + j.val, hp⟩ co).trans ?_
    exact (arr2_apply v25 (0 : Fin 1) co).symm
  refine (mm8_apply _ _ ⟨(i.val * 2 + r.val) * 56 + j.val, hp⟩ co).trans ?_
  rw [← Fin.sum_univ_eq_sum_range (fun K => tap8 v3 v6 v9 (K / 256 % 3) (i.val * 2 + r.val + K / 256 / 3) j.val (K % 256) * arr2 v22 K co.val) 2304]
  refine Finset.sum_congr rfl fun c _ => ?_
  refine congrArg₂ (· * ·) ?_ ?_
  · refine (shapeCast_apply _ _ (ix2 ⟨(i.val * 2 + r.val) * 56 + j.val, hp⟩ c) (ix3 ⟨i.val * 2 + r.val, hh⟩ j c) ?_).trans ?_
    · rw [Shape.rowMajor_val_two, Shape.rowMajor_val_three]; rfl
    exact cat8_apply v3 v6 v9 ⟨i.val * 2 + r.val, hh⟩ j c
  · rw [shapeCast_self]
    exact (arr2_apply v22 c co).symm

end Cert.KernelIdeal.Val

end
-- ==== Proof.KV8.lean ====
/-
  The value of kernel region 8: its output array after the pipeline, entry by entry, at the ideal values. Point `t` of
  the grid is tile `t % 1` of image `t / 1`; its body loads three column-shifted bands of 58 rows of the image's
  padded block, from row `56 · (t % 1)`, and stores 28 pooled rows; entry `(i, j, co)` of what it stores is the larger
  of rows `2i` and `2i + 1` of the tile's convolution, which are rows `2 · (28 · (t % 1) + i)` and the next of the image's.
  The output blocks tile the output array, so every entry of the array is the row-pair maximum of the convolution.
-/
import proofs.«100114_g2000204297211070_pallasbulk_1265_19_alg».proof.Proof.KR8
import proofs.«100114_g2000204297211070_pallasbulk_1265_19_alg».proof.Proof.KV8Pay
import Idealize.ShloMosaic.Lib.Pipeline.Value
import Idealize.ShloMosaic.Lib.Tactic

set_option maxRecDepth 16384

noncomputable section

open scoped BigOperators

namespace Cert.KernelIdeal.Val

open Cert.KernelIdeal Cert.KernelIdeal.Gen Cert.KernelIdeal.Reg Cert.Spec
open Idealize.ShloMosaic Idealize.ShloMosaic.TcCoe Idealize.ShloMosaic.Tactic Idealize.ShloMosaic.ValueIdx
open Idealize.SL.Sem
open Idealize.ShloMosaic.Pipeline (Dat)

variable (V : (c : Dev nD) → (b : Ref sig .tc) → Buf (Elt Ideal) ((c : Thread nD τ).loc b))

private theorem hz4 : (![0, 0, 0, 0] : Fin 4 → Nat) = fun _ => 0 := funext fun a => by fin_cases a <;> rfl
private theorem hz2 : (![0, 0] : Fin 2 → Nat) = fun _ => 0 := funext fun a => by fin_cases a <;> rfl

/-- The region's arrays as it finds them, by their literal types: the padded input, the flattened weights, the bias. -/
abbrev xarr8 (c : Dev nD) : Vec Ideal S8x58x58x256 .bf16 := V c (Pipeline.arrRef spec8 0)
abbrev warr8 (c : Dev nD) : Vec Ideal S2304x256 .bf16 := V c (Pipeline.arrRef spec8 1)
abbrev barr8 (c : Dev nD) : Vec Ideal S1x256 .f32 := V c (Pipeline.arrRef spec8 2)

/-- Which block of its array each window is on at point `t`, and the point's second grid coordinate. -/
theorem idx8 : ∀ t : Fin grid8.N,
    (win8_0.index t 0 = t.val / 1 ∧ win8_0.index t 1 = 0 ∧ win8_0.index t 2 = 0 ∧ win8_0.index t 3 = 0)
    ∧ (win8_1.index t 0 = 0 ∧ win8_1.index t 1 = 0) ∧ (win8_2.index t 0 = 0 ∧ win8_2.index t 1 = 0)
    ∧ (win8_3.index t 0 = t.val / 1 ∧ win8_3.index t 1 = t.val % 1 ∧ win8_3.index t 2 = 0 ∧ win8_3.index t 3 = 0)
    ∧ (grid8.coords t 1).val = t.val % 1 := by decide +kernel

/-! ## What the run leaves in the output's staging buffer: the payload of the loaded blocks -/

theorem out8_eq (c : Dev nD) (i : grid8.Coords) (arg2 : Memref sig .tc .vmem S1x58x58x256 .bf16) (harg2 : arg2.IsWhole) (arg3 : Memref sig .tc .vmem S2304x256 .bf16) (harg3 : arg3.IsWhole) (arg4 : Memref sig .tc .vmem S1x256 .f32) (harg4 : arg4.IsWhole) (arg5 : Memref sig .tc .vmem S1x28x56x256 .bf16) (harg5 : arg5.IsWhole)
    (x0 : Vec Ideal S1x58x58x256 .bf16) (x1 : Vec Ideal S2304x256 .bf16) (x2 : Vec Ideal S1x256 .f32) :
    out8_A_3 (F := Ideal) c i arg2 harg2 arg3 harg3 arg4 harg4 arg5 harg5 x0 x1 x2
      = k8_pay1 (View.ld x0 (Rect.unit (s := S1x58x58x256) (k8_off1 i) S1x58x56x256.size (k8_off1_inb i)))
      (View.ld x0 (Rect.unit (s := S1x58x58x256) (k8_off2 i) S1x58x56x256.size (k8_off2_inb i)))
      (View.ld x0 (Rect.unit (s := S1x58x58x256) (k8_off3 i) S1x58x56x256.size (k8_off3_inb i))) x1 x2 := by
  unfold out8_A_3
  rw [View.read_writes_eq_canon _ _ _ (cover8_A_3 c i arg2 harg2 arg3 harg3 arg4 harg4 arg5 harg5 x0 x1 x2)]
  unfold kernelRun8_A
  dsimp only
  try sl_unfold_words
  rw [View.canon_unit_zero hz4]
  simp only [View.readAt_eq_ld, harg2.read_unread, harg3.read_unread, harg4.read_unread, View.ld_unit_zero (S := S2304x256) hz2, View.ld_unit_zero (S := S1x256) hz2]

/-! ## The loaded bands and blocks as entries of the arrays -/

/-- A band of the block loaded from row `ro`, column `dx`, read as a total function of its coordinates. -/
theorem ldband8 (x0 : Vec Ideal S1x58x58x256 .bf16) (off : Fin 4 → ℕ) (inb : ∀ a, off a + S1x58x56x256.size a ≤ S1x58x58x256.size a)
    (ro dx : ℕ) (hoff : off = ![0, ro, dx, 0]) (R j l : ℕ) (hR : R < 58) (hj : j < 56) (hl : l < 256) :
    arr4 (View.ld x0 (Rect.unit (s := S1x58x58x256) off S1x58x56x256.size inb) : Vec Ideal S1x58x56x256 .bf16) 0 R j l
      = arr4 x0 0 (ro + R) (dx + j) l := by
  subst hoff
  have hro : ro + 58 ≤ 58 := by have h := inb ⟨1, by decide⟩; exact h
  have hdx : dx + 56 ≤ 58 := by have h := inb ⟨2, by decide⟩; exact h
  refine (arr4_apply _ (0 : Fin 1) ⟨R, hR⟩ ⟨j, hj⟩ ⟨l, hl⟩).trans ?_
  refine Eq.trans ?_ (arr4_apply x0 (0 : Fin 1) ⟨ro + R, by omega⟩ ⟨dx + j, by omega⟩ ⟨l, hl⟩).symm
  show x0 _ = x0 _
  congr 1
  funext a
  apply Fin.ext
  match a with
  | ⟨0, _⟩ => rfl
  | ⟨1, _⟩ => show ro + 1 * R = ro + R; omega
  | ⟨2, _⟩ => show dx + 1 * j = dx + j; omega
  | ⟨3, _⟩ => show 0 + 1 * l = l; omega

/-- The three bands the body loads at grid position `i`, as entries of the block: band `dx` at `(R, j, l)` is the block at
    row `56 · i₁ + R`, column `dx + j`. -/
theorem tap8_ld (x0 : Vec Ideal S1x58x58x256 .bf16) (i : grid8.Coords) (dx R j l : ℕ) (hdx : dx < 3) (hR : R < 58) (hj : j < 56) (hl : l < 256) :
    tap8 (View.ld x0 (Rect.unit (s := S1x58x58x256) (k8_off1 i) S1x58x56x256.size (k8_off1_inb i)))
      (View.ld x0 (Rect.unit (s := S1x58x58x256) (k8_off2 i) S1x58x56x256.size (k8_off2_inb i)))
      (View.ld x0 (Rect.unit (s := S1x58x58x256) (k8_off3 i) S1x58x56x256.size (k8_off3_inb i))) dx R j l
      = arr4 x0 0 (56 * (i 1).val + R) (dx + j) l := by
  unfold tap8
  interval_cases dx
  · rw [if_pos rfl]; exact ldband8 x0 _ _ _ 0 (k8_off1_eq i) R j l hR hj hl
  · rw [if_neg (by decide), if_pos rfl]; exact ldband8 x0 _ _ _ 1 (k8_off2_eq i) R j l hR hj hl
  · rw [if_neg (by decide), if_neg (by decide)]; exact ldband8 x0 _ _ _ 2 (k8_off3_eq i) R j l hR hj hl

/-- The input window's block at point `t` is image `t / 1` of the padded input. -/
theorem iblk8_0_arr (c : Dev nD) (t : Fin cfg8.N) (R w l : ℕ) (hR : R < 58) (hw : w < 58) (hl : l < 256) :
    arr4 (iblk8 V c 0 t : Vec Ideal S1x58x58x256 .bf16) 0 R w l = arr4 (xarr8 V c) (t.val / 1) R w l := by
  have hb : t.val / 1 < 8 := by have : t.val < 8 * 1 := t.isLt; omega
  obtain ⟨⟨h0, h1, h2, h3⟩, -⟩ := idx8 t
  refine (arr4_apply _ (0 : Fin 1) ⟨R, hR⟩ ⟨w, hw⟩ ⟨l, hl⟩).trans ?_
  refine Eq.trans ?_ (arr4_apply (xarr8 V c) ⟨t.val / 1, hb⟩ ⟨R, hR⟩ ⟨w, hw⟩ ⟨l, hl⟩).symm
  unfold iblk8
  rw [View.read_apply]
  show V c (Pipeline.arrRef spec8 0) _ = V c (Pipeline.arrRef spec8 0) _
  congr 1
  funext a
  apply Fin.ext
  match a with
  | ⟨0, _⟩ => show win8_0.index t 0 * 1 + 1 * 0 = t.val / 1; rw [h0]; omega
  | ⟨1, _⟩ => show win8_0.index t 1 * 58 + 1 * R = R; rw [h1]; omega
  | ⟨2, _⟩ => show win8_0.index t 2 * 58 + 1 * w = w; rw [h2]; omega
  | ⟨3, _⟩ => show win8_0.index t 3 * 256 + 1 * l = l; rw [h3]; omega

/-- The weights' and the bias's blocks are their whole arrays at every point. -/
theorem iblk8_1_eq (c : Dev nD) (t : Fin cfg8.N) : (iblk8 V c 1 t : Vec Ideal S2304x256 .bf16) = warr8 V c := by
  obtain ⟨-, ⟨h0, h1⟩, -⟩ := idx8 t
  funext y
  unfold iblk8
  rw [View.read_apply]
  show V c (Pipeline.arrRef spec8 1) _ = V c (Pipeline.arrRef spec8 1) y
  congr 1
  funext a
  apply Fin.ext
  match a with
  | ⟨0, _⟩ => show win8_1.index t 0 * 2304 + 1 * (y 0).val = (y 0).val; rw [h0]; omega
  | ⟨1, _⟩ => show win8_1.index t 1 * 256 + 1 * (y 1).val = (y 1).val; rw [h1]; omega

theorem iblk8_2_eq (c : Dev nD) (t : Fin cfg8.N) : (iblk8 V c 2 t : Vec Ideal S1x256 .f32) = barr8 V c := by
  obtain ⟨-, -, ⟨h0, h1⟩, -⟩ := idx8 t
  funext y
  unfold iblk8
  rw [View.read_apply]
  show V c (Pipeline.arrRef spec8 2) _ = V c (Pipeline.arrRef spec8 2) y
  congr 1
  funext a
  apply Fin.ext
  match a with
  | ⟨0, _⟩ => show win8_2.index t 0 * 1 + 1 * (y 0).val = (y 0).val; rw [h0]; omega
  | ⟨1, _⟩ => show win8_2.index t 1 * 256 + 1 * (y 1).val = (y 1).val; rw [h1]; omega

/-! ## A row of the tile's convolution is a row of the image's -/

/-- Row `h` of the convolution the body computes at point `t` is row `56 · (t % 1) + h` of image `t / 1`'s. -/
theorem crow8_conv (c : Dev nD) (t : Fin cfg8.N) (h j co : ℕ) (hh : h < 56) (hj : j < 56) :
    crow8 (View.ld (iblk8 V c 0 t : Vec Ideal S1x58x58x256 .bf16) (Rect.unit (s := S1x58x58x256) (k8_off1 (grid8.coords t)) S1x58x56x256.size (k8_off1_inb (grid8.coords t))))
      (View.ld (iblk8 V c 0 t : Vec Ideal S1x58x58x256 .bf16) (Rect.unit (s := S1x58x58x256) (k8_off2 (grid8.coords t)) S1x58x56x256.size (k8_off2_inb (grid8.coords t))))
      (View.ld (iblk8 V c 0 t : Vec Ideal S1x58x58x256 .bf16) (Rect.unit (s := S1x58x58x256) (k8_off3 (grid8.coords t)) S1x58x56x256.size (k8_off3_inb (grid8.coords t))))
        (iblk8 V c 1 t : Vec Ideal S2304x256 .bf16) (iblk8 V c 2 t : Vec Ideal S1x256 .f32) h j co
      = (convFlat 256 (arr4 (xarr8 V c)) (arr2 (warr8 V c)) (arr2 (barr8 V c))) (t.val / 1) (56 * (t.val % 1) + h) j co := by
  obtain ⟨-, -, -, -, hc1⟩ := idx8 t
  have hi1 : (grid8.coords t 1).val < 1 := (grid8.coords t 1).isLt
  unfold crow8 convFlat
  show max ((∑ K ∈ Finset.range 2304, _) + _) 0 = max ((∑ K ∈ Finset.range 2304, _) + _) 0
  refine congrArg₂ max (congrArg₂ (· + ·) (Finset.sum_congr rfl fun K hK => ?_) ?_) rfl
  · have hK : K < 2304 := Finset.mem_range.mp hK
    have hdy : K / 256 / 3 < 3 := by omega
    refine congrArg₂ (· * ·) ?_ ?_
    · refine (tap8_ld (iblk8 V c 0 t) (grid8.coords t) (K / 256 % 3) (h + K / 256 / 3) j (K % 256) (Nat.mod_lt _ (by decide)) (by omega) hj (Nat.mod_lt _ (by decide))).trans ?_
      refine (iblk8_0_arr V c t (56 * (grid8.coords t 1).val + (h + K / 256 / 3)) (K / 256 % 3 + j) (K % 256) (by omega) (by omega) (Nat.mod_lt _ (by decide))).trans ?_
      rw [hc1, ← Nat.add_assoc, Nat.add_comm (K / 256 % 3) j]
    · exact congrArg (fun A : Vec Ideal S2304x256 .bf16 => arr2 A K co) (iblk8_1_eq V c t)
  · exact congrArg (fun A : Vec Ideal S1x256 .f32 => arr2 A 0 co) (iblk8_2_eq V c t)

/-! ## What the output's staging buffer holds after a point, entry by entry -/

theorem outsAt8_apply (c : Dev nD) (t : Fin cfg8.N) (i : Fin 28) (j : Fin 56) (co : Fin 256) :
    outsAt8 V c t (ix4 (0 : Fin 1) i j co)
      = hpool (convFlat 256 (arr4 (xarr8 V c)) (arr2 (warr8 V c)) (arr2 (barr8 V c))) (t.val / 1) (28 * (t.val % 1) + i.val) j.val co.val := by
  have hi := i.isLt
  unfold outsAt8
  rw [out8_eq]
  refine (pay8_apply _ _ _ _ _ i j co).trans ?_
  unfold hpool
  refine congrArg₂ max ((crow8_conv V c t (2 * i.val) j.val co.val (by omega) j.isLt).trans ?_)
    ((crow8_conv V c t (2 * i.val + 1) j.val co.val (by omega) j.isLt).trans ?_)
  · rw [show 56 * (t.val % 1) + 2 * i.val = 2 * (28 * (t.val % 1) + i.val) from by omega]
  · rw [show 56 * (t.val % 1) + (2 * i.val + 1) = 2 * (28 * (t.val % 1) + i.val) + 1 from by omega]

/-! ## The output array after the pipeline -/

/-- The array the region leaves: at every entry the row-pair maximum of the convolution of the padded input. -/
def G8 (c : Dev nD) : Vec Ideal S8x28x56x256 .bf16 := fun y =>
  hpool (convFlat 256 (arr4 (xarr8 V c)) (arr2 (warr8 V c)) (arr2 (barr8 V c))) (y 0).val (y 1).val (y 2).val (y 3).val

/-- Every write-back writes its block of that array. -/
theorem flushed8 (c : Dev nD) (t : Fin cfg8.N) (hf : (cfg8.win 3).flush t = true) :
    (dat8 (F := Ideal) V c).flushed 3 t = ((cfg8.win 3).blk t).view.read (Elt Ideal) (G8 V c) := by
  obtain ⟨-, -, -, ⟨h0, h1, h2, h3⟩, -⟩ := idx8 t
  show (dat8 (F := Ideal) V c).after 3 t = _
  rw [after8_3]
  funext y
  obtain ⟨y0, y1, y2, y3, rfl⟩ : ∃ (y0 : Fin 1) (y1 : Fin 28) (y2 : Fin 56) (y3 : Fin 256), y = ix4 y0 y1 y2 y3 :=
    ⟨y 0, y 1, y 2, y 3, eq_ix4 y⟩
  obtain rfl : y0 = 0 := Fin.ext (by have := y0.isLt; omega)
  rw [View.read_apply]
  refine (outsAt8_apply V c t y1 y2 y3).trans ?_
  show _ = hpool (convFlat 256 (arr4 (xarr8 V c)) (arr2 (warr8 V c)) (arr2 (barr8 V c)))
    (win8_3.index t 0 * 1 + 1 * 0) (win8_3.index t 1 * 28 + 1 * y1.val) (win8_3.index t 2 * 56 + 1 * y2.val) (win8_3.index t 3 * 256 + 1 * y3.val)
  rw [h0, h1, h2, h3,
    show t.val / 1 * 1 + 1 * 0 = t.val / 1 from by omega,
    show t.val % 1 * 28 + 1 * y1.val = 28 * (t.val % 1) + y1.val from by omega,
    show 0 * 56 + 1 * y2.val = y2.val from by omega,
    show 0 * 256 + 1 * y3.val = y3.val from by omega]

/-- The output blocks tile the output array. -/
theorem cover8 (c : Dev nD) (i : ((cfg8.win 3).arr.view.loc (c.tc : Thread nD τ)).2.ty.Idx) :
    ∃ t : Fin cfg8.N, (cfg8.win 3).flush t = true ∧ i ∈ ((cfg8.win 3).blk t).view.set := by
  have i0 : (i 0 : Nat) < 8 := (i 0).isLt
  have i1 : (i 1 : Nat) < 28 := (i 1).isLt
  have i2 : (i 2 : Nat) < 56 := (i 2).isLt
  have i3 : (i 3 : Nat) < 256 := (i 3).isLt
  have ht : (i 0 : Nat) * 1 + (i 1 : Nat) / 28 < grid8.N := by show _ < 8 * 1; omega
  obtain ⟨-, -, -, ⟨h0, h1, h2, h3⟩, -⟩ := idx8 ⟨(i 0 : Nat) * 1 + (i 1 : Nat) / 28, ht⟩
  refine ⟨⟨(i 0 : Nat) * 1 + (i 1 : Nat) / 28, ht⟩, flush8_3 _, ?_⟩
  show i ∈ ((View.whole (Pipeline.arrRef spec8 3)).slice (win8_3.rect ⟨(i 0 : Nat) * 1 + (i 1 : Nat) / 28, ht⟩)).set
  rw [View.set_slice_whole, Rect.mem_set_unit]
  intro a
  match a with
  | ⟨0, _⟩ => show win8_3.index _ 0 * 1 ≤ (i 0 : Nat) ∧ (i 0 : Nat) < win8_3.index _ 0 * 1 + 1; rw [h0]; dsimp only; omega
  | ⟨1, _⟩ => show win8_3.index _ 1 * 28 ≤ (i 1 : Nat) ∧ (i 1 : Nat) < win8_3.index _ 1 * 28 + 28; rw [h1]; dsimp only; omega
  | ⟨2, _⟩ => show win8_3.index _ 2 * 56 ≤ (i 2 : Nat) ∧ (i 2 : Nat) < win8_3.index _ 2 * 56 + 56; rw [h2]; omega
  | ⟨3, _⟩ => show win8_3.index _ 3 * 256 ≤ (i 3 : Nat) ∧ (i 3 : Nat) < win8_3.index _ 3 * 256 + 256; rw [h3]; omega

/-- So the output array ends holding it. -/
theorem final8 (c : Dev nD) : (dat8 (F := Ideal) V c).arrAt 3 cfg8.N = G8 V c :=
  (dat8 (F := Ideal) V c).arrAt_eq_of_cover 3 (G8 V c) (flushed8 V c) (cover8 c)

/-- The region's value: every entry of its output array is the row-pair maximum of the convolution, with bias and ReLU,
    of its padded input with its flattened weights. -/
theorem conv8_value (c : Dev nD) (b i j co : ℕ) (hb : b < 8) (hi : i < 28) (hj : j < 56) (hco : co < 256) :
    Cert.Spec.arr4 ((dat8 (F := Ideal) V c).arrAt 3 cfg8.N) b i j co = Cert.Spec.hpool (Cert.Spec.convFlat 256 (Cert.Spec.arr4 (V c (Pipeline.arrRef spec8 0))) (Cert.Spec.arr2 (V c (Pipeline.arrRef spec8 1))) (Cert.Spec.arr2 (V c (Pipeline.arrRef spec8 2)))) b i j co := by
  rw [final8]
  exact arr4_apply (G8 V c) ⟨b, hb⟩ ⟨i, hi⟩ ⟨j, hj⟩ ⟨co, hco⟩

end Cert.KernelIdeal.Val

end
-- ==== Proof.KV9.lean ====
/-
  The value of kernel region 9 (the lane-half maximum that finishes a 2x2 pooling). The body loads its input
  block whole — one batch image of 28 x 28 pixels with 512 lanes, the two members of a column pair side by side on the
  lanes — and stores the pointwise maximum of the block's two lane halves. Grid point t is batch t, and the output
  blocks tile the output array; so after the region the output array holds, at batch b, row i, column j, channel ch,
  the maximum of the input array's entries at lanes ch and ch + 256 of the same pixel.
-/
import proofs.«100114_g2000204297211070_pallasbulk_1265_19_alg».proof.Proof.KR9
import proofs.«100114_g2000204297211070_pallasbulk_1265_19_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Val

open Cert.KernelIdeal Cert.KernelIdeal.Gen Cert.KernelIdeal.Reg
open Idealize.ShloMosaic Idealize.ShloMosaic.TcCoe Idealize.ShloMosaic.ValueIdx
open Idealize.ShloMosaic.Pipeline (Dat)

section Generic

variable {F : FTy → Type} [FloatOps F]

variable (V : (c : Dev nD) → (b : Ref sig .tc) → Buf (Elt F) ((c : Thread nD τ).loc b))

/-- The region's input array as it finds it, at its literal type. -/
abbrev xarr9 (c : Dev nD) : FVec F S8x28x28x512 .bf16 := V c (Pipeline.arrRef spec9 0)

/-- What the output array ends holding: at every index the maximum of the input array's entries at the same pixel on
    lane ch and on lane ch + 256. -/
def G9 (X : FVec F S8x28x28x512 .bf16) : FVec F S8x28x28x256 .bf16 := fun i =>
  FloatOps.maximumf
    (X (ix4 (n0 := 8) (n1 := 28) (n2 := 28) (n3 := 512) (i 0) (i 1) (i 2) ⟨(i 3).val, Nat.lt_of_lt_of_le (i 3).isLt (by decide)⟩))
    (X (ix4 (n0 := 8) (n1 := 28) (n2 := 28) (n3 := 512) (i 0) (i 1) (i 2) ⟨(i 3).val + 256, Nat.add_lt_of_lt_sub (Nat.lt_of_lt_of_le (i 3).isLt (by decide))⟩))

private theorem hz9 : (![0, 0, 0, 0] : Fin 4 → Nat) = fun _ => 0 := funext fun a => by fin_cases a <;> rfl

/-- The body's payload at an index of its block: the maximum of the loaded block's entries on lane l and lane l + 256. -/
theorem pay9_apply (x : Vec F S1x28x28x512 .bf16) (z : Fin 1) (i : Fin 28) (j : Fin 28) (l : Fin 256) :
    k9_pay1 x (ix4 z i j l)
      = FloatOps.maximumf (x (ix4 (0 : Fin 1) i j ⟨l.val, Nat.lt_of_lt_of_le l.isLt (by decide)⟩))
          (x (ix4 (0 : Fin 1) i j ⟨l.val + 256, Nat.add_lt_of_lt_sub (Nat.lt_of_lt_of_le l.isLt (by decide))⟩)) := by
  unfold k9_pay1
  refine (shapeCast_abc_1abc_apply _ shapeCasts_S28x28x256_S1x28x28x256 z i j l).trans ?_
  show FloatOps.maximumf
      (extractStridedSlice S28x28x256 ![0, 0, 0] (shapeCast S28x28x512 x shapeCasts_S1x28x28x512_S28x28x512) slices_S28x28x512_o0_0_0_S28x28x256 (ix3 i j l))
      (extractStridedSlice S28x28x256 ![0, 0, 256] (shapeCast S28x28x512 x shapeCasts_S1x28x28x512_S28x28x512) slices_S28x28x512_o0_0_256_S28x28x256 (ix3 i j l)) = _
  -- the low lane half reads lane l, the high one lane l + 256
  have lo := extractStridedSlice_apply ![0, 0, 0] (shapeCast S28x28x512 x shapeCasts_S1x28x28x512_S28x28x512) slices_S28x28x512_o0_0_0_S28x28x256
    (ix3 i j l) (ix3 i j ⟨l.val, Nat.lt_of_lt_of_le l.isLt (by decide)⟩) (fun a => by
      match a with
      | ⟨0, _⟩ => exact (Nat.zero_add _).symm
      | ⟨1, _⟩ => exact (Nat.zero_add _).symm
      | ⟨2, _⟩ => exact (Nat.zero_add _).symm)
  have hi := extractStridedSlice_apply ![0, 0, 256] (shapeCast S28x28x512 x shapeCasts_S1x28x28x512_S28x28x512) slices_S28x28x512_o0_0_256_S28x28x256
    (ix3 i j l) (ix3 i j ⟨l.val + 256, Nat.add_lt_of_lt_sub (Nat.lt_of_lt_of_le l.isLt (by decide))⟩) (fun a => by
      match a with
      | ⟨0, _⟩ => exact (Nat.zero_add _).symm
      | ⟨1, _⟩ => exact (Nat.zero_add _).symm
      | ⟨2, _⟩ => exact Nat.add_comm _ _)
  -- and the block with its unit axis dropped reads the block at batch coordinate 0
  exact congrArg₂ FloatOps.maximumf
    (lo.trans (shapeCast_1abc_abc_apply x shapeCasts_S1x28x28x512_S28x28x512 i j _))
    (hi.trans (shapeCast_1abc_abc_apply x shapeCasts_S1x28x28x512_S28x28x512 i j _))

/-- The printed index maps, decided over the grid: both windows' block index at point t is (t, 0, 0, 0). -/
theorem idx_facts9 : ∀ t : Fin cfg9.N, win9_0.index t (0 : Fin 4) = t.val ∧ win9_0.index t (1 : Fin 4) = 0
    ∧ win9_0.index t (2 : Fin 4) = 0 ∧ win9_0.index t (3 : Fin 4) = 0
    ∧ win9_1.index t (0 : Fin 4) = t.val ∧ win9_1.index t (1 : Fin 4) = 0
    ∧ win9_1.index t (2 : Fin 4) = 0 ∧ win9_1.index t (3 : Fin 4) = 0 :=
  (by decide +kernel : ∀ t : Fin grid9.N, _)

/-- What point t writes back is block t of `G9` of the input array as the region finds it. -/
theorem flushed9_eq (c : Dev nD) (t : Fin cfg9.N) :
    (dat9 V c).flushed 1 t = ((cfg9.win 1).blk t).view.read (Elt F) (G9 (xarr9 V c)) := by
  show (cfg9.win 1).cut (grid9.coords t) ((dat9 V c).after 1 t) = _
  rw [after9_1]
  unfold out9_1
  rw [View.canon_unit_zero hz9]
  simp only [View.ld_unit_zero (S := S1x28x28x512) hz9]
  obtain ⟨e0, e1, e2, e3, e4, e5, e6, e7⟩ := idx_facts9 t
  funext y
  obtain ⟨z, i, j, l, rfl⟩ : ∃ (z : Fin 1) (i : Fin 28) (j : Fin 28) (l : Fin 256), y = ix4 z i j l :=
    ⟨_, _, _, _, eq_ix4 (n0 := 1) (n1 := 28) (n2 := 28) (n3 := 256) y⟩
  show k9_pay1 (iblk9 V c 0 t) (ix4 z i j l) = G9 (xarr9 V c) (((cfg9.win 1).blk t).view.emb (ix4 z i j l))
  refine (pay9_apply (iblk9 V c 0 t) z i j l).trans ?_
  show FloatOps.maximumf
      (xarr9 V c (((cfg9.win 0).blk t).view.emb (ix4 (0 : Fin 1) i j ⟨l.val, _⟩)))
      (xarr9 V c (((cfg9.win 0).blk t).view.emb (ix4 (0 : Fin 1) i j ⟨l.val + 256, _⟩))) = _
  unfold G9
  have hz : z.val = 0 := by have := z.isLt; omega
  refine congrArg₂ FloatOps.maximumf (congrArg (xarr9 V c) ?_) (congrArg (xarr9 V c) ?_)
  · funext a; apply Fin.ext
    match a with
    | ⟨0, _⟩ => show win9_0.index t (0 : Fin 4) * 1 + 1 * 0 = win9_1.index t (0 : Fin 4) * 1 + 1 * z.val; omega
    | ⟨1, _⟩ => show win9_0.index t (1 : Fin 4) * 28 + 1 * i.val = win9_1.index t (1 : Fin 4) * 28 + 1 * i.val; omega
    | ⟨2, _⟩ => show win9_0.index t (2 : Fin 4) * 28 + 1 * j.val = win9_1.index t (2 : Fin 4) * 28 + 1 * j.val; omega
    | ⟨3, _⟩ => show win9_0.index t (3 : Fin 4) * 512 + 1 * l.val = win9_1.index t (3 : Fin 4) * 256 + 1 * l.val; omega
  · funext a; apply Fin.ext
    match a with
    | ⟨0, _⟩ => show win9_0.index t (0 : Fin 4) * 1 + 1 * 0 = win9_1.index t (0 : Fin 4) * 1 + 1 * z.val; omega
    | ⟨1, _⟩ => show win9_0.index t (1 : Fin 4) * 28 + 1 * i.val = win9_1.index t (1 : Fin 4) * 28 + 1 * i.val; omega
    | ⟨2, _⟩ => show win9_0.index t (2 : Fin 4) * 28 + 1 * j.val = win9_1.index t (2 : Fin 4) * 28 + 1 * j.val; omega
    | ⟨3, _⟩ => show win9_0.index t (3 : Fin 4) * 512 + 1 * (l.val + 256) = win9_1.index t (3 : Fin 4) * 256 + 1 * l.val + 256; omega

/-- Every index of the output array is in the block of the point its batch coordinate names. -/
theorem cover9 (i : S8x28x28x256.Idx) :
    ∃ t : Fin cfg9.N, (cfg9.win 1).flush t = true ∧ i ∈ ((cfg9.win 1).blk t).view.set := by
  have h0 : (i 0).val < 8 := (i 0).isLt
  obtain ⟨t, ht⟩ : ∃ t : Fin cfg9.N, t.val = (i 0).val := ⟨⟨(i 0).val, by show (i 0).val < grid9.N; rw [N_9]; exact h0⟩, rfl⟩
  refine ⟨t, flush9_1 t, ?_⟩
  obtain ⟨e0, e1, e2, e3, e4, e5, e6, e7⟩ := idx_facts9 t
  have e : ((cfg9.win 1).blk t).view.emb (ix4 (n0 := 1) (n1 := 28) (n2 := 28) (n3 := 256) ⟨0, Nat.one_pos⟩ (i 1) (i 2) (i 3)) = i := by
    funext a; apply Fin.ext
    match a with
    | ⟨0, _⟩ => show win9_1.index t (0 : Fin 4) * 1 + 1 * 0 = (i 0).val; omega
    | ⟨1, _⟩ => show win9_1.index t (1 : Fin 4) * 28 + 1 * (i 1).val = (i 1).val; omega
    | ⟨2, _⟩ => show win9_1.index t (2 : Fin 4) * 28 + 1 * (i 2).val = (i 2).val; omega
    | ⟨3, _⟩ => show win9_1.index t (3 : Fin 4) * 256 + 1 * (i 3).val = (i 3).val; omega
  have hm := ((cfg9.win 1).blk t).view.emb_mem_set (ix4 (n0 := 1) (n1 := 28) (n2 := 28) (n3 := 256) ⟨0, Nat.one_pos⟩ (i 1) (i 2) (i 3))
  rw [e] at hm
  exact hm

/-- The output array after the region: `G9` of the input array. -/
theorem final9 (c : Dev nD) : (dat9 V c).arrAt 1 cfg9.N = G9 (xarr9 V c) :=
  (dat9 V c).arrAt_eq_of_cover 1 (G9 (xarr9 V c)) (fun t _ => flushed9_eq V c t) cover9

end Generic

/-- At the ideal values, in natural coordinates: the output array at batch b, row i, column j, channel ch is the maximum
    of the input array's entries at the same pixel on lanes ch and ch + 256. -/
theorem wpool9_value (V : (c : Dev nD) → (b : Ref sig .tc) → Buf (Elt Ideal) ((c : Thread nD τ).loc b)) (c : Dev nD)
    (b i j ch : ℕ) (hb : b < 8) (hi : i < 28) (hj : j < 28) (hch : ch < 256) :
    Cert.Spec.arr4 ((dat9 (F := Ideal) V c).arrAt 1 cfg9.N) b i j ch
      = max (Cert.Spec.arr4 (V c (Pipeline.arrRef spec9 0)) b i j ch) (Cert.Spec.arr4 (V c (Pipeline.arrRef spec9 0)) b i j (ch + 256)) := by
  rw [final9]
  refine (Cert.Spec.arr4_apply (n0 := 8) (n1 := 28) (n2 := 28) (n3 := 256) (G9 (xarr9 V c)) ⟨b, hb⟩ ⟨i, hi⟩ ⟨j, hj⟩ ⟨ch, hch⟩).trans ?_
  refine Eq.trans ?_ (congrArg₂ (max : EReal → EReal → EReal)
    (Cert.Spec.arr4_apply (n0 := 8) (n1 := 28) (n2 := 28) (n3 := 512) (xarr9 V c) ⟨b, hb⟩ ⟨i, hi⟩ ⟨j, hj⟩ ⟨ch, by omega⟩)
    (Cert.Spec.arr4_apply (n0 := 8) (n1 := 28) (n2 := 28) (n3 := 512) (xarr9 V c) ⟨b, hb⟩ ⟨i, hi⟩ ⟨j, hj⟩ ⟨ch + 256, by omega⟩)).symm
  rfl

end Cert.KernelIdeal.Val

end
-- ==== Proof.KV10Pay.lean ====
/-
  The interior payload of kernel region 10 read at one entry, at the ideal values: the body's interior store writes, at
  row r, column j, output channel co of its 28 x 32 block of pixels, the bias plus the sum over the 2304 lanes K of the
  nine lane-concatenated taps times row K of the flattened weights, clamped below at zero. Lane K is tap K / 256 (row
  offset K / 256 / 3, column band K / 256 % 3) at input channel K % 256; band dx is the padded input block read from
  column dx on. The four border payloads are zeros.
-/
import proofs.«100114_g2000204297211070_pallasbulk_1265_19_alg».proof.Proof.Gen.KernelIdeal.Skeleton
import proofs.«100114_g2000204297211070_pallasbulk_1265_19_alg».proof.Proof.Spec
import Idealize.ShloMosaic.Lib.Pipeline.Value
import Idealize.ShloMosaic.Lib.ValueLayout
import Idealize.ShloMosaic.Lib.IdealHost
import Idealize.ShloMosaic.PureOps.Ideal.Laws

set_option maxRecDepth 16384

noncomputable section

open scoped BigOperators

namespace Cert.KernelIdeal.Val

open Cert.KernelIdeal Cert.KernelIdeal.Gen Cert.Spec
open Idealize.ShloMosaic Idealize.ShloMosaic.ValueIdx

/-- The block product into the zero accumulator, at an entry: the sum over the contracted coordinate. -/
theorem mm10_apply (A : FVec Ideal S896x2304 .bf16) (B : FVec Ideal S2304x512 .bf16) (a : Fin 896) (b : Fin 512) :
    matmul dot_S896x2304_S2304x512_S896x512_1_0_0_1_n_n none A B (constant S896x512 .f32 0x00000000#32) (ix2 a b)
      = ∑ c : Fin 2304, A (ix2 a c) * B (ix2 c b) := by
  refine (Ideal.matmul_constant_zero_apply (φ₁ := .bf16) (φ₂ := .bf16) _ _ _ _ _).trans ?_
  refine (Equiv.sum_comp (contrEquiv1 dot_S896x2304_S2304x512_S896x512_1_0_0_1_n_n 2304 rfl rfl).symm _).symm.trans ?_
  refine Finset.sum_congr rfl fun c _ => ?_
  have c2 := contrEquiv1_symm_val dot_S896x2304_S2304x512_S896x512_1_0_0_1_n_n 2304 rfl rfl c
  refine congrArg₂ (· * ·) (congrArg A (funext fun ax => Fin.ext ?_)) (congrArg B (funext fun ax => Fin.ext ?_))
  · fin_cases ax
    · rfl
    · exact c2
  · fin_cases ax
    · exact c2
    · rfl

/-- One tap: the band v (the 30 rows of the padded block) with its unit axis dropped, cut from row dy, at an entry. -/
theorem band10_apply (v : Vec Ideal S1x30x32x256 .bf16) (dy : ℕ) (hdy : dy ≤ 2) (h : S30x32x256.Slices ![dy, 0, 0] S28x32x256)
    (r : Fin 28) (j : Fin 32) (l : Fin 256) :
    extractStridedSlice S28x32x256 ![dy, 0, 0] (shapeCast S30x32x256 v shapeCasts_S1x30x32x256_S30x32x256) h (ix3 r j l)
      = arr4 v 0 (r.val + dy) j.val l.val := by
  have hR : r.val + dy < 30 := by have := r.isLt; omega
  refine (extractStridedSlice_apply _ _ h (ix3 r j l) (ix3 ⟨r.val + dy, hR⟩ j l) (fun a => ?_)).trans ?_
  · match a with
    | ⟨0, _⟩ => exact Nat.add_comm _ _
    | ⟨1, _⟩ => exact (Nat.zero_add _).symm
    | ⟨2, _⟩ => exact (Nat.zero_add _).symm
  · refine (shapeCast_1abc_abc_apply v _ ⟨r.val + dy, hR⟩ j l).trans ?_
    exact (arr4_apply v (0 : Fin 1) ⟨r.val + dy, hR⟩ j l).symm

section Payload

variable (v3 v6 v9 : Vec Ideal S1x30x32x256 .bf16) (v22 : Vec Ideal S2304x512 .bf16) (v25 : Vec Ideal S1x512 .f32)

/-- The three loaded bands, by column offset, as one total function: band dx at row R, column j, channel l. -/
def tap10 (dx R j l : ℕ) : EReal :=
  if dx = 0 then arr4 v3 0 R j l else if dx = 1 then arr4 v6 0 R j l else arr4 v9 0 R j l

/-- The nine taps in the concatenation's order: tap n is the band at column offset n % 3 cut from row n / 3. -/
def pieces10 : Fin 9 → (S28x32x256.Idx → EReal) :=
  ![extractStridedSlice S28x32x256 ![0, 0, 0] (shapeCast S30x32x256 v3 shapeCasts_S1x30x32x256_S30x32x256) slices_S30x32x256_o0_0_0_S28x32x256,
    extractStridedSlice S28x32x256 ![0, 0, 0] (shapeCast S30x32x256 v6 shapeCasts_S1x30x32x256_S30x32x256) slices_S30x32x256_o0_0_0_S28x32x256,
    extractStridedSlice S28x32x256 ![0, 0, 0] (shapeCast S30x32x256 v9 shapeCasts_S1x30x32x256_S30x32x256) slices_S30x32x256_o0_0_0_S28x32x256,
    extractStridedSlice S28x32x256 ![1, 0, 0] (shapeCast S30x32x256 v3 shapeCasts_S1x30x32x256_S30x32x256) slices_S30x32x256_o1_0_0_S28x32x256,
    extractStridedSlice S28x32x256 ![1, 0, 0] (shapeCast S30x32x256 v6 shapeCasts_S1x30x32x256_S30x32x256) slices_S30x32x256_o1_0_0_S28x32x256,
    extractStridedSlice S28x32x256 ![1, 0, 0] (shapeCast S30x32x256 v9 shapeCasts_S1x30x32x256_S30x32x256) slices_S30x32x256_o1_0_0_S28x32x256,
    extractStridedSlice S28x32x256 ![2, 0, 0] (shapeCast S30x32x256 v3 shapeCasts_S1x30x32x256_S30x32x256) slices_S30x32x256_o2_0_0_S28x32x256,
    extractStridedSlice S28x32x256 ![2, 0, 0] (shapeCast S30x32x256 v6 shapeCasts_S1x30x32x256_S30x32x256) slices_S30x32x256_o2_0_0_S28x32x256,
    extractStridedSlice S28x32x256 ![2, 0, 0] (shapeCast S30x32x256 v9 shapeCasts_S1x30x32x256_S30x32x256) slices_S30x32x256_o2_0_0_S28x32x256]

theorem tap10_zero (R j l : ℕ) : tap10 v3 v6 v9 0 R j l = arr4 v3 0 R j l := if_pos rfl
theorem tap10_one (R j l : ℕ) : tap10 v3 v6 v9 1 R j l = arr4 v6 0 R j l := (if_neg (by decide)).trans (if_pos rfl)
theorem tap10_two (R j l : ℕ) : tap10 v3 v6 v9 2 R j l = arr4 v9 0 R j l := (if_neg (by decide)).trans (if_neg (by decide))

theorem pieces10_apply (n : ℕ) (hn : n < 9) (r : Fin 28) (j : Fin 32) (l : Fin 256) :
    pieces10 v3 v6 v9 ⟨n, hn⟩ (ix3 r j l) = tap10 v3 v6 v9 (n % 3) (r.val + n / 3) j.val l.val := by
  interval_cases n
  · exact (band10_apply v3 0 (by decide) slices_S30x32x256_o0_0_0_S28x32x256 r j l).trans (tap10_zero v3 v6 v9 (r.val + 0) j.val l.val).symm
  · exact (band10_apply v6 0 (by decide) slices_S30x32x256_o0_0_0_S28x32x256 r j l).trans (tap10_one v3 v6 v9 (r.val + 0) j.val l.val).symm
  · exact (band10_apply v9 0 (by decide) slices_S30x32x256_o0_0_0_S28x32x256 r j l).trans (tap10_two v3 v6 v9 (r.val + 0) j.val l.val).symm
  · exact (band10_apply v3 1 (by decide) slices_S30x32x256_o1_0_0_S28x32x256 r j l).trans (tap10_zero v3 v6 v9 (r.val + 1) j.val l.val).symm
  · exact (band10_apply v6 1 (by decide) slices_S30x32x256_o1_0_0_S28x32x256 r j l).trans (tap10_one v3 v6 v9 (r.val + 1) j.val l.val).symm
  · exact (band10_apply v9 1 (by decide) slices_S30x32x256_o1_0_0_S28x32x256 r j l).trans (tap10_two v3 v6 v9 (r.val + 1) j.val l.val).symm
  · exact (band10_apply v3 2 (by decide) slices_S30x32x256_o2_0_0_S28x32x256 r j l).trans (tap10_zero v3 v6 v9 (r.val + 2) j.val l.val).symm
  · exact (band10_apply v6 2 (by decide) slices_S30x32x256_o2_0_0_S28x32x256 r j l).trans (tap10_one v3 v6 v9 (r.val + 2) j.val l.val).symm
  · exact (band10_apply v9 2 (by decide) slices_S30x32x256_o2_0_0_S28x32x256 r j l).trans (tap10_two v3 v6 v9 (r.val + 2) j.val l.val).symm

/-- The concatenation of the nine taps along the lanes, at lane c: tap c / 256 at channel c % 256. -/
theorem cat10_apply (r : Fin 28) (j : Fin 32) (c : Fin 2304) :
    concatenate S28x32x2304 2 [⟨S28x32x256, extractStridedSlice S28x32x256 ![0, 0, 0] (shapeCast S30x32x256 v3 shapeCasts_S1x30x32x256_S30x32x256) slices_S30x32x256_o0_0_0_S28x32x256⟩,
      ⟨S28x32x256, extractStridedSlice S28x32x256 ![0, 0, 0] (shapeCast S30x32x256 v6 shapeCasts_S1x30x32x256_S30x32x256) slices_S30x32x256_o0_0_0_S28x32x256⟩,
      ⟨S28x32x256, extractStridedSlice S28x32x256 ![0, 0, 0] (shapeCast S30x32x256 v9 shapeCasts_S1x30x32x256_S30x32x256) slices_S30x32x256_o0_0_0_S28x32x256⟩,
      ⟨S28x32x256, extractStridedSlice S28x32x256 ![1, 0, 0] (shapeCast S30x32x256 v3 shapeCasts_S1x30x32x256_S30x32x256) slices_S30x32x256_o1_0_0_S28x32x256⟩,
      ⟨S28x32x256, extractStridedSlice S28x32x256 ![1, 0, 0] (shapeCast S30x32x256 v6 shapeCasts_S1x30x32x256_S30x32x256) slices_S30x32x256_o1_0_0_S28x32x256⟩,
      ⟨S28x32x256, extractStridedSlice S28x32x256 ![1, 0, 0] (shapeCast S30x32x256 v9 shapeCasts_S1x30x32x256_S30x32x256) slices_S30x32x256_o1_0_0_S28x32x256⟩,
      ⟨S28x32x256, extractStridedSlice S28x32x256 ![2, 0, 0] (shapeCast S30x32x256 v3 shapeCasts_S1x30x32x256_S30x32x256) slices_S30x32x256_o2_0_0_S28x32x256⟩,
      ⟨S28x32x256, extractStridedSlice S28x32x256 ![2, 0, 0] (shapeCast S30x32x256 v6 shapeCasts_S1x30x32x256_S30x32x256) slices_S30x32x256_o2_0_0_S28x32x256⟩,
      ⟨S28x32x256, extractStridedSlice S28x32x256 ![2, 0, 0] (shapeCast S30x32x256 v9 shapeCasts_S1x30x32x256_S30x32x256) slices_S30x32x256_o2_0_0_S28x32x256⟩]
      concatenates_S28x32x256_S28x32x256_S28x32x256_S28x32x256_S28x32x256_S28x32x256_S28x32x256_S28x32x256_S28x32x256_S28x32x2304_d2 (ix3 r j c)
      = tap10 v3 v6 v9 (c.val / 256 % 3) (r.val + c.val / 256 / 3) j.val (c.val % 256) := by
  have hn : c.val / 256 < 9 := by have := c.isLt; omega
  have hl : c.val % 256 < 256 := Nat.mod_lt _ (by decide)
  refine (concatenate_ofFn_apply (t := S28x32x2304) (s₁ := S28x32x256) 2 (pieces10 v3 v6 v9) concatenates_S28x32x256_S28x32x256_S28x32x256_S28x32x256_S28x32x256_S28x32x256_S28x32x256_S28x32x256_S28x32x256_S28x32x2304_d2 rfl 256 rfl
    (ix3 r j c) ⟨c.val / 256, hn⟩ rfl (ix3 r j ⟨c.val % 256, hl⟩) rfl ?_).trans ?_
  · intro b hb
    match b with
    | ⟨0, _⟩ => rfl
    | ⟨1, _⟩ => rfl
    | ⟨2, _⟩ => exact absurd rfl hb
  · exact pieces10_apply v3 v6 v9 (c.val / 256) hn r j ⟨c.val % 256, hl⟩

/-- The interior payload at an entry of its block. -/
theorem conv10_pay_apply (r : Fin 28) (j : Fin 32) (co : Fin 512) :
    k10_pay5 v3 v6 v9 v22 v25 (ix4 (0 : Fin 1) r j co)
      = max ((∑ K ∈ Finset.range 2304, tap10 v3 v6 v9 (K / 256 % 3) (r.val + K / 256 / 3) j.val (K % 256) * arr2 v22 K co.val)
          + arr2 v25 0 co.val) 0 := by
  have hp : r.val * 32 + j.val < 896 := by have := r.isLt; have := j.isLt; omega
  unfold k10_pay5
  refine (shapeCast_abc_1abc_apply _ _ (0 : Fin 1) r j co).trans ?_
  refine (truncf_apply (φ := .f32) (ψ := .bf16) _ bitsLt_bf16_f32 (ix3 r j co)).trans ?_
  refine (shapeCast_apply _ _ (ix3 r j co) (ix2 ⟨r.val * 32 + j.val, hp⟩ co) ?_).trans ?_
  · rw [Shape.rowMajor_val_two, Shape.rowMajor_val_three]; rfl
  refine congrArg₂ max ?_ ?_
  swap
  · exact Ideal.ofBits_zero_f32
  refine congrArg₂ (· + ·) ?_ ?_
  swap
  · refine (broadcastTo_1b_ab_apply v25 _ ⟨r.val * 32 + j.val, hp⟩ co).trans ?_
    exact (arr2_apply v25 (0 : Fin 1) co).symm
  refine (mm10_apply _ _ ⟨r.val * 32 + j.val, hp⟩ co).trans ?_
  rw [← Fin.sum_univ_eq_sum_range (fun K => tap10 v3 v6 v9 (K / 256 % 3) (r.val + K / 256 / 3) j.val (K % 256) * arr2 v22 K co.val) 2304]
  refine Finset.sum_congr rfl fun c _ => ?_
  refine congrArg₂ (· * ·) ?_ ?_
  · refine (shapeCast_apply _ _ (ix2 ⟨r.val * 32 + j.val, hp⟩ c) (ix3 r j c) ?_).trans ?_
    · rw [Shape.rowMajor_val_two, Shape.rowMajor_val_three]; rfl
    exact cat10_apply v3 v6 v9 r j c
  · refine (congrFun (shapeCast_self _ _) _).trans ?_
    exact (arr2_apply v22 c co).symm

end Payload

/-- The border payloads are zeros. -/
theorem conv10_pay1_apply (y : S1x1x34x512.Idx) : k10_pay1 (F := Ideal) (k10_pay6 (F := Ideal)) y = 0 := Ideal.ofBits_zero_bf16
theorem conv10_pay2_apply (y : S1x1x34x512.Idx) : k10_pay2 (F := Ideal) y = 0 := Ideal.ofBits_zero_bf16
theorem conv10_pay3_apply (y : S1x30x1x512.Idx) : k10_pay3 (F := Ideal) y = 0 := Ideal.ofBits_zero_bf16
theorem conv10_pay4_apply (y : S1x30x5x512.Idx) : k10_pay4 (F := Ideal) y = 0 := Ideal.ofBits_zero_bf16

end Cert.KernelIdeal.Val

end
-- ==== Proof.KV10.lean ====
/-
  The value of kernel region 10 (a 3x3 convolution with bias and ReLU on a 28 x 28 image of 256 channels, stored in padded
  coordinates) at the ideal values: after the region, the output array holds at batch b, row I < 30, column J < 34 and
  channel co the convolution's result at pixel (I - 1, J - 1) on rows 1 … 28 and columns 1 … 28, and zero elsewhere. The
  convolution reads the input array in padded coordinates: the sum over K < 2304 of the input at row i + K / 256 / 3,
  column j + K / 256 % 3, channel K % 256, times the flattened weight (K, co), plus the bias, clamped at zero. Point t
  of the grid is image t: its blocks are the whole image; the blocks tile the arrays and every point writes its block back.
  The five stores the body's buffer ends at are read newest first: the right columns, the left column, the bottom row and
  the top row are zeros, the interior at (1, 1) is the convolution's result of the three column bands of the input block.
-/
import proofs.«100114_g2000204297211070_pallasbulk_1265_19_alg».proof.Proof.KR10
import proofs.«100114_g2000204297211070_pallasbulk_1265_19_alg».proof.Proof.KV10Pay
import proofs.«100114_g2000204297211070_pallasbulk_1265_19_alg».proof.Proof.KVConvLib
import proofs.«100114_g2000204297211070_pallasbulk_1265_19_alg».proof.Proof.Spec
import Idealize.ShloMosaic.Lib.Pipeline.Value

set_option maxRecDepth 16384
-- the buffers' types are looked up in the signature's table at every unfolding: the later the region, the longer the walk
set_option maxHeartbeats 2000000

noncomputable section

open scoped BigOperators

namespace Cert.KernelIdeal.Val

open Cert.KernelIdeal Cert.KernelIdeal.Gen Cert.KernelIdeal.Reg Cert.KVConvLib
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-! ## The arrays and the points' geometry -/

/-- The region's three input arrays as it finds them, by their literal extents. -/
abbrev xarr10 (c : Dev nD) : S8x30x34x256.Idx → EReal := V c (Pipeline.arrRef spec10 0)
abbrev warr10 (c : Dev nD) : S2304x512.Idx → EReal := V c (Pipeline.arrRef spec10 1)
abbrev barr10 (c : Dev nD) : S1x512.Idx → EReal := V c (Pipeline.arrRef spec10 2)

/-- Point t reads image t of the input, whole, -/
theorem geo10_0 : ∀ t : Fin cfg10.N, win10_0.index t 0 = t.val ∧ win10_0.index t 1 = 0 ∧ win10_0.index t 2 = 0 ∧ win10_0.index t 3 = 0 :=
  (by decide +kernel : ∀ t : Fin grid10.N, win10_0.index t 0 = t.val ∧ win10_0.index t 1 = 0 ∧ win10_0.index t 2 = 0 ∧ win10_0.index t 3 = 0)
/-- the weights and the bias, whole, -/
theorem geo10_1 : ∀ t : Fin cfg10.N, win10_1.index t 0 = 0 ∧ win10_1.index t 1 = 0 :=
  (by decide +kernel : ∀ t : Fin grid10.N, win10_1.index t 0 = 0 ∧ win10_1.index t 1 = 0)
theorem geo10_2 : ∀ t : Fin cfg10.N, win10_2.index t 0 = 0 ∧ win10_2.index t 1 = 0 :=
  (by decide +kernel : ∀ t : Fin grid10.N, win10_2.index t 0 = 0 ∧ win10_2.index t 1 = 0)
/-- and writes image t of the output, whole. -/
theorem geo10_3 : ∀ t : Fin cfg10.N, win10_3.index t 0 = t.val ∧ win10_3.index t 1 = 0 ∧ win10_3.index t 2 = 0 ∧ win10_3.index t 3 = 0
    ∧ win10_3.xsize (grid10.coords t) 0 = 1 ∧ win10_3.xsize (grid10.coords t) 1 = 30 ∧ win10_3.xsize (grid10.coords t) 2 = 34
    ∧ win10_3.xsize (grid10.coords t) 3 = 512 :=
  (by decide +kernel : ∀ t : Fin grid10.N, win10_3.index t 0 = t.val ∧ win10_3.index t 1 = 0 ∧ win10_3.index t 2 = 0 ∧ win10_3.index t 3 = 0
    ∧ win10_3.xsize (grid10.coords t) 0 = 1 ∧ win10_3.xsize (grid10.coords t) 1 = 30 ∧ win10_3.xsize (grid10.coords t) 2 = 34
    ∧ win10_3.xsize (grid10.coords t) 3 = 512)
/-- The three loads' offsets at every point: row 0, columns 0, 1, 2 (the grid's second axis has one entry). -/
theorem off10 : ∀ t : Fin cfg10.N, k10_off1 (grid10.coords t) = ![0, 0, 0, 0] ∧ k10_off2 (grid10.coords t) = ![0, 0, 1, 0]
    ∧ k10_off3 (grid10.coords t) = ![0, 0, 2, 0] :=
  (by decide +kernel : ∀ t : Fin grid10.N, k10_off1 (grid10.coords t) = ![0, 0, 0, 0] ∧ k10_off2 (grid10.coords t) = ![0, 0, 1, 0]
    ∧ k10_off3 (grid10.coords t) = ![0, 0, 2, 0])

/-! ## The input blocks, read off the arrays -/

/-- The input block at point t is image t of the input array. -/
theorem xblk10_apply (c : Dev nD) (t : Fin cfg10.N) (R : Fin 30) (J : Fin 34) (l : Fin 256) :
    (iblk10 V c 0 t : S1x30x34x256.Idx → EReal) (ix4 (0 : Fin 1) R J l)
      = Cert.Spec.arr4 (xarr10 V c) t.val R.val J.val l.val := by
  have hN : cfg10.N = 8 := N_10
  have ht : t.val < 8 := by have := t.isLt; omega
  obtain ⟨i0, i1, i2, i3⟩ := geo10_0 t
  refine Eq.trans ?_ (Cert.Spec.arr4_apply (xarr10 V c) (⟨t.val, ht⟩ : Fin 8) R J l).symm
  unfold iblk10
  rw [View.read_apply]
  show xarr10 V c _ = xarr10 V c _
  congr 1
  funext a
  apply Fin.ext
  match a with
  | ⟨0, _⟩ => show win10_0.index t 0 * 1 + 1 * 0 = t.val; rw [i0]; omega
  | ⟨1, _⟩ => show win10_0.index t 1 * 30 + 1 * R.val = R.val; rw [i1]; omega
  | ⟨2, _⟩ => show win10_0.index t 2 * 34 + 1 * J.val = J.val; rw [i2]; omega
  | ⟨3, _⟩ => show win10_0.index t 3 * 256 + 1 * l.val = l.val; rw [i3]; omega

/-- The weight block at any point is the weight array. -/
theorem wblk10_eq (c : Dev nD) (t : Fin cfg10.N) : (iblk10 V c 1 t : S2304x512.Idx → EReal) = warr10 V c := by
  obtain ⟨i0, i1⟩ := geo10_1 t
  funext y
  unfold iblk10
  rw [View.read_apply]
  show warr10 V c _ = warr10 V c y
  congr 1
  funext a
  apply Fin.ext
  match a with
  | ⟨0, _⟩ => show win10_1.index t 0 * 2304 + 1 * (y 0).val = (y 0).val; rw [i0]; omega
  | ⟨1, _⟩ => show win10_1.index t 1 * 512 + 1 * (y 1).val = (y 1).val; rw [i1]; omega

/-- The bias block at any point is the bias array. -/
theorem bblk10_eq (c : Dev nD) (t : Fin cfg10.N) : (iblk10 V c 2 t : S1x512.Idx → EReal) = barr10 V c := by
  obtain ⟨i0, i1⟩ := geo10_2 t
  funext y
  unfold iblk10
  rw [View.read_apply]
  show barr10 V c _ = barr10 V c y
  congr 1
  funext a
  apply Fin.ext
  match a with
  | ⟨0, _⟩ => show win10_2.index t 0 * 1 + 1 * (y 0).val = (y 0).val; rw [i0]; omega
  | ⟨1, _⟩ => show win10_2.index t 1 * 512 + 1 * (y 1).val = (y 1).val; rw [i1]; omega

/-- A column band of the input block, loaded from column dx on, at an entry: the input array at column j + dx. -/
theorem ldx10 (c : Dev nD) (t : Fin cfg10.N) (off : Fin 4 → ℕ) (inb : ∀ a, off a + S1x30x32x256.size a ≤ S1x30x34x256.size a)
    (dx : ℕ) (hoff : off = ![0, 0, dx, 0]) (R : Fin 30) (j : Fin 32) (hj : j.val + dx < 34) (l : Fin 256) :
    View.ld (iblk10 V c 0 t : S1x30x34x256.Idx → EReal) (Rect.unit (s := S1x30x34x256) off S1x30x32x256.size inb) (ix4 (0 : Fin 1) R j l)
      = Cert.Spec.arr4 (xarr10 V c) t.val R.val (j.val + dx) l.val := by
  subst hoff
  refine Eq.trans ?_ (xblk10_apply V c t R ⟨j.val + dx, hj⟩ l)
  show (iblk10 V c 0 t : S1x30x34x256.Idx → EReal) _ = (iblk10 V c 0 t : S1x30x34x256.Idx → EReal) _
  congr 1
  funext a
  apply Fin.ext
  match a with
  | ⟨0, _⟩ => show 0 + 1 * 0 = 0; rfl
  | ⟨1, _⟩ => show 0 + 1 * R.val = R.val; omega
  | ⟨2, _⟩ => show dx + 1 * j.val = j.val + dx; omega
  | ⟨3, _⟩ => show 0 + 1 * l.val = l.val; omega

/-! ## What a point leaves in the output block -/

/-- The region's result at (b, I, J, co), in padded coordinates. -/
def Gf10 (c : Dev nD) (b I J co : ℕ) : EReal :=
  Cert.Spec.pad1 28 28 (Cert.Spec.convFlat 256 (Cert.Spec.arr4 (xarr10 V c)) (Cert.Spec.arr2 (warr10 V c)) (Cert.Spec.arr2 (barr10 V c))) b I J co

/-- The interior store's block at point t, at (r, j, co): the convolution at pixel (r, j) of image t. -/
theorem conv10_apply (c : Dev nD) (t : Fin cfg10.N) (r : Fin 28) (j : Fin 32) (co : Fin 512) :
    conv10 (F := Ideal) (grid10.coords t) (iblk10 V c 0 t) (iblk10 V c 1 t) (iblk10 V c 2 t) (ix4 (0 : Fin 1) r j co)
      = Cert.Spec.convFlat 256 (Cert.Spec.arr4 (xarr10 V c)) (Cert.Spec.arr2 (warr10 V c)) (Cert.Spec.arr2 (barr10 V c))
          t.val r.val j.val co.val := by
  obtain ⟨o1, o2, o3⟩ := off10 t
  have hr := r.isLt
  have hj := j.isLt
  have hw : View.ld (iblk10 V c 1 t : S2304x512.Idx → EReal) r10_w = warr10 V c :=
    (View.ld_unit_zero (S := S2304x512) hz2 _ _).trans (wblk10_eq V c t)
  have hb : View.ld (iblk10 V c 2 t : S1x512.Idx → EReal) r10_b = barr10 V c :=
    (View.ld_unit_zero (S := S1x512) hz2 _ _).trans (bblk10_eq V c t)
  unfold conv10
  refine (conv10_pay_apply _ _ _ _ _ r j co).trans ?_
  unfold Cert.Spec.convFlat
  refine congrArg₂ max (congrArg₂ (· + ·) (Finset.sum_congr rfl fun K hK => ?_)
    (congrArg (fun B : S1x512.Idx → EReal => Cert.Spec.arr2 B 0 co.val) hb)) rfl
  have hK' : K < 2304 := Finset.mem_range.mp hK
  have hR : r.val + K / 256 / 3 < 30 := by omega
  have hl : K % 256 < 256 := Nat.mod_lt _ (by decide)
  refine congrArg₂ (· * ·) ?_ (congrArg (fun W : S2304x512.Idx → EReal => Cert.Spec.arr2 W K co.val) hw)
  obtain h | h | h : K / 256 % 3 = 0 ∨ K / 256 % 3 = 1 ∨ K / 256 % 3 = 2 := by omega
  · rw [h, tap10_zero]
    refine (Cert.Spec.arr4_apply _ (0 : Fin 1) (⟨r.val + K / 256 / 3, hR⟩ : Fin 30) j (⟨K % 256, hl⟩ : Fin 256)).trans ?_
    exact ldx10 V c t _ _ 0 o1 ⟨r.val + K / 256 / 3, hR⟩ j (by omega) ⟨K % 256, hl⟩
  · rw [h, tap10_one]
    refine (Cert.Spec.arr4_apply _ (0 : Fin 1) (⟨r.val + K / 256 / 3, hR⟩ : Fin 30) j (⟨K % 256, hl⟩ : Fin 256)).trans ?_
    exact ldx10 V c t _ _ 1 o2 ⟨r.val + K / 256 / 3, hR⟩ j (by omega) ⟨K % 256, hl⟩
  · rw [h, tap10_two]
    refine (Cert.Spec.arr4_apply _ (0 : Fin 1) (⟨r.val + K / 256 / 3, hR⟩ : Fin 30) j (⟨K % 256, hl⟩ : Fin 256)).trans ?_
    exact ldx10 V c t _ _ 2 o3 ⟨r.val + K / 256 / 3, hR⟩ j (by omega) ⟨K % 256, hl⟩

/-- What the output's staging buffer holds after point t, at (I, J, co): the region's result at image t. -/
theorem outs10_apply (c : Dev nD) (t : Fin cfg10.N) (I : Fin 30) (J : Fin 34) (co : Fin 512) :
    outsAt10 (F := Ideal) V c t (ix4 (0 : Fin 1) I J co) = Gf10 V c t.val I.val J.val co.val := by
  have hI := I.isLt
  have hJ := J.isLt
  unfold Gf10 Cert.Spec.pad1 outsAt10 out10_3
  by_cases hJr : 29 ≤ J.val
  · have hc : ¬(1 ≤ I.val ∧ I.val ≤ 28 ∧ 1 ≤ J.val ∧ J.val ≤ 28) := by omega
    rw [if_neg hc]
    refine (canon_unit_of_mem _ _ _ (ix4 (0 : Fin 1) I J co) (ix4 (0 : Fin 1) I (⟨J.val - 29, by omega⟩ : Fin 5) co)
      (fin4_all (by show (0 : ℕ) = 0 + 0; rfl) (by show I.val = 0 + I.val; omega) (by show J.val = 29 + (J.val - 29); omega)
        (by show co.val = 0 + co.val; omega))).trans ?_
    exact conv10_pay4_apply _
  refine (canon_unit_of_not_mem _ _ _ (ix4 (0 : Fin 1) I J co) (2 : Fin 4) (by show J.val < 29 ∨ 29 + 5 ≤ J.val; omega)).trans ?_
  by_cases hJ0 : J.val = 0
  · have hc : ¬(1 ≤ I.val ∧ I.val ≤ 28 ∧ 1 ≤ J.val ∧ J.val ≤ 28) := by omega
    rw [if_neg hc]
    refine (canon_unit_of_mem _ _ _ (ix4 (0 : Fin 1) I J co) (ix4 (0 : Fin 1) I (0 : Fin 1) co)
      (fin4_all (by show (0 : ℕ) = 0 + 0; rfl) (by show I.val = 0 + I.val; omega) (by show J.val = 0 + 0; omega)
        (by show co.val = 0 + co.val; omega))).trans ?_
    exact conv10_pay3_apply _
  refine (canon_unit_of_not_mem _ _ _ (ix4 (0 : Fin 1) I J co) (2 : Fin 4) (by show J.val < 0 ∨ 0 + 1 ≤ J.val; omega)).trans ?_
  by_cases hIb : I.val = 29
  · have hc : ¬(1 ≤ I.val ∧ I.val ≤ 28 ∧ 1 ≤ J.val ∧ J.val ≤ 28) := by omega
    rw [if_neg hc]
    refine (canon_unit_of_mem _ _ _ (ix4 (0 : Fin 1) I J co) (ix4 (0 : Fin 1) (0 : Fin 1) J co)
      (fin4_all (by show (0 : ℕ) = 0 + 0; rfl) (by show I.val = 29 + 0; omega) (by show J.val = 0 + J.val; omega)
        (by show co.val = 0 + co.val; omega))).trans ?_
    exact conv10_pay2_apply _
  refine (canon_unit_of_not_mem _ _ _ (ix4 (0 : Fin 1) I J co) (1 : Fin 4) (by show I.val < 29 ∨ 29 + 1 ≤ I.val; omega)).trans ?_
  by_cases hI0 : I.val = 0
  · have hc : ¬(1 ≤ I.val ∧ I.val ≤ 28 ∧ 1 ≤ J.val ∧ J.val ≤ 28) := by omega
    rw [if_neg hc]
    refine (canon_unit_of_mem _ _ _ (ix4 (0 : Fin 1) I J co) (ix4 (0 : Fin 1) (0 : Fin 1) J co)
      (fin4_all (by show (0 : ℕ) = 0 + 0; rfl) (by show I.val = 0 + 0; omega) (by show J.val = 0 + J.val; omega)
        (by show co.val = 0 + co.val; omega))).trans ?_
    exact conv10_pay1_apply _
  refine (canon_unit_of_not_mem _ _ _ (ix4 (0 : Fin 1) I J co) (1 : Fin 4) (by show I.val < 0 ∨ 0 + 1 ≤ I.val; omega)).trans ?_
  have hc : 1 ≤ I.val ∧ I.val ≤ 28 ∧ 1 ≤ J.val ∧ J.val ≤ 28 := by omega
  rw [if_pos hc]
  refine (canon_unit_of_mem _ _ _ (ix4 (0 : Fin 1) I J co)
    (ix4 (0 : Fin 1) (⟨I.val - 1, by omega⟩ : Fin 28) (⟨J.val - 1, by omega⟩ : Fin 32) co)
    (fin4_all (by show (0 : ℕ) = 0 + 0; rfl) (by show I.val = 1 + (I.val - 1); omega) (by show J.val = 1 + (J.val - 1); omega)
      (by show co.val = 0 + co.val; omega))).trans ?_
  exact conv10_apply V c t (⟨I.val - 1, by omega⟩ : Fin 28) (⟨J.val - 1, by omega⟩ : Fin 32) co

/-! ## The output array after the region -/

/-- The region's result as contents of the output array. -/
def G10 (c : Dev nD) : S8x30x34x512.Idx → EReal := fun k => Gf10 V c (k 0).val (k 1).val (k 2).val (k 3).val

/-- What point t writes back is its block of the result. -/
theorem flushed10_eq (c : Dev nD) (t : Fin cfg10.N) (hf : (cfg10.win 3).flush t = true) :
    (dat10 (F := Ideal) V c).flushed 3 t = ((cfg10.win 3).blk t).view.read (Elt Ideal) (G10 V c) := by
  obtain ⟨i0, i1, i2, i3, -⟩ := geo10_3 t
  funext y
  obtain ⟨I, J, co, rfl⟩ := exists_ix4_one (a := 30) (b := 34) (c := 512) y
  show (cfg10.win 3).cut (grid10.coords t) ((dat10 V c).after 3 t) (ix4 (0 : Fin 1) I J co) = _
  rw [after10_3, View.read_apply]
  show outsAt10 V c t (ix4 (0 : Fin 1) I J co) = G10 V c (((cfg10.win 3).blk t).view.emb (ix4 (0 : Fin 1) I J co))
  refine (outs10_apply V c t I J co).trans ?_
  have e0 : ((((cfg10.win 3).blk t).view.emb (ix4 (0 : Fin 1) I J co)) 0).val = t.val := by
    show win10_3.index t 0 * 1 + 1 * 0 = _; rw [i0]; omega
  have e1 : ((((cfg10.win 3).blk t).view.emb (ix4 (0 : Fin 1) I J co)) 1).val = I.val := by
    show win10_3.index t 1 * 30 + 1 * I.val = _; rw [i1]; omega
  have e2 : ((((cfg10.win 3).blk t).view.emb (ix4 (0 : Fin 1) I J co)) 2).val = J.val := by
    show win10_3.index t 2 * 34 + 1 * J.val = _; rw [i2]; omega
  have e3 : ((((cfg10.win 3).blk t).view.emb (ix4 (0 : Fin 1) I J co)) 3).val = co.val := by
    show win10_3.index t 3 * 512 + 1 * co.val = _; rw [i3]; omega
  unfold G10
  exact (congr (congr (congr (congrArg (Gf10 V c) e0) e1) e2) e3).symm

/-- Every index of the output array is in the block of its image's point. -/
theorem cover10 (c : Dev nD) (i : ((cfg10.win 3).arr.view.loc (c.tc : Thread nD τ)).2.ty.Idx) :
    ∃ t : Fin cfg10.N, (cfg10.win 3).flush t = true ∧ i ∈ ((cfg10.win 3).blk t).view.set := by
  have hN : cfg10.N = 8 := N_10
  have b0 : (i 0 : ℕ) < 8 := (i 0).isLt
  have b1 : (i 1 : ℕ) < 30 := (i 1).isLt
  have b2 : (i 2 : ℕ) < 34 := (i 2).isLt
  have b3 : (i 3 : ℕ) < 512 := (i 3).isLt
  have hlt : (i 0 : ℕ) < cfg10.N := by omega
  refine ⟨⟨(i 0 : ℕ), hlt⟩, flush10_3 _, ?_⟩
  obtain ⟨i0, i1, i2, i3, z0, z1, z2, z3⟩ := geo10_3 (⟨(i 0 : ℕ), hlt⟩ : Fin cfg10.N)
  show i ∈ ((View.whole (Pipeline.arrRef spec10 3)).slice (win10_3.rect (⟨(i 0 : ℕ), hlt⟩ : Fin cfg10.N))).set
  rw [View.set_slice_whole, Rect.mem_set_unit]
  intro a
  match a with
  | ⟨0, _⟩ =>
    show win10_3.index _ 0 * 1 ≤ (i 0 : ℕ) ∧ (i 0 : ℕ) < win10_3.index _ 0 * 1 + win10_3.xsize _ 0
    rw [i0, z0]; dsimp only; omega
  | ⟨1, _⟩ =>
    show win10_3.index _ 1 * win10_3.size 1 ≤ (i 1 : ℕ) ∧ (i 1 : ℕ) < win10_3.index _ 1 * win10_3.size 1 + win10_3.xsize _ 1
    rw [i1, z1]; omega
  | ⟨2, _⟩ =>
    show win10_3.index _ 2 * win10_3.size 2 ≤ (i 2 : ℕ) ∧ (i 2 : ℕ) < win10_3.index _ 2 * win10_3.size 2 + win10_3.xsize _ 2
    rw [i2, z2]; omega
  | ⟨3, _⟩ =>
    show win10_3.index _ 3 * win10_3.size 3 ≤ (i 3 : ℕ) ∧ (i 3 : ℕ) < win10_3.index _ 3 * win10_3.size 3 + win10_3.xsize _ 3
    rw [i3, z3]; omega

/-- So the output array ends holding the result. -/
theorem final10 (c : Dev nD) : (dat10 (F := Ideal) V c).arrAt 3 cfg10.N = G10 V c :=
  (dat10 (F := Ideal) V c).arrAt_eq_of_cover 3 (G10 V c) (flushed10_eq V c) (cover10 c)

/-- The region's value: the output array is the convolution of the input array, in padded coordinates, zero on the border. -/
theorem conv10_value (c : Dev nD) (b I J co : ℕ) (hb : b < 8) (hI : I < 30) (hJ : J < 34) (hco : co < 512) :
    Cert.Spec.arr4 ((dat10 (F := Ideal) V c).arrAt 3 cfg10.N : S8x30x34x512.Idx → EReal) b I J co
      = Cert.Spec.pad1 28 28 (Cert.Spec.convFlat 256 (Cert.Spec.arr4 (xarr10 V c)) (Cert.Spec.arr2 (warr10 V c))
          (Cert.Spec.arr2 (barr10 V c))) b I J co := by
  refine (congrArg (fun A : S8x30x34x512.Idx → EReal => Cert.Spec.arr4 A b I J co) (final10 V c)).trans ?_
  exact Cert.Spec.arr4_apply (G10 V c) (⟨b, hb⟩ : Fin 8) (⟨I, hI⟩ : Fin 30) (⟨J, hJ⟩ : Fin 34) (⟨co, hco⟩ : Fin 512)

end Cert.KernelIdeal.Val

end
-- ==== Proof.KV11Pay.lean ====
/-
  The interior payload of kernel region 11 read at one entry, at the ideal values: the body's interior store writes, at
  row r, column j, output channel co of its 28 x 32 block of pixels, the bias plus the sum over the 4608 lanes K of the
  nine lane-concatenated taps times row K of the flattened weights, clamped below at zero. Lane K is tap K / 512 (row
  offset K / 512 / 3, column band K / 512 % 3) at input channel K % 512; band dx is the padded input block read from
  column dx on. The four border payloads are zeros.
-/
import proofs.«100114_g2000204297211070_pallasbulk_1265_19_alg».proof.Proof.Gen.KernelIdeal.Skeleton
import proofs.«100114_g2000204297211070_pallasbulk_1265_19_alg».proof.Proof.Spec
import Idealize.ShloMosaic.Lib.Pipeline.Value
import Idealize.ShloMosaic.Lib.ValueLayout
import Idealize.ShloMosaic.Lib.IdealHost
import Idealize.ShloMosaic.PureOps.Ideal.Laws

set_option maxRecDepth 16384

noncomputable section

open scoped BigOperators

namespace Cert.KernelIdeal.Val

open Cert.KernelIdeal Cert.KernelIdeal.Gen Cert.Spec
open Idealize.ShloMosaic Idealize.ShloMosaic.ValueIdx

/-- The block product into the zero accumulator, at an entry: the sum over the contracted coordinate. -/
theorem mm11_apply (A : FVec Ideal S896x4608 .bf16) (B : FVec Ideal S4608x512 .bf16) (a : Fin 896) (b : Fin 512) :
    matmul dot_S896x4608_S4608x512_S896x512_1_0_0_1_n_n none A B (constant S896x512 .f32 0x00000000#32) (ix2 a b)
      = ∑ c : Fin 4608, A (ix2 a c) * B (ix2 c b) := by
  refine (Ideal.matmul_constant_zero_apply (φ₁ := .bf16) (φ₂ := .bf16) _ _ _ _ _).trans ?_
  refine (Equiv.sum_comp (contrEquiv1 dot_S896x4608_S4608x512_S896x512_1_0_0_1_n_n 4608 rfl rfl).symm _).symm.trans ?_
  refine Finset.sum_congr rfl fun c _ => ?_
  have c2 := contrEquiv1_symm_val dot_S896x4608_S4608x512_S896x512_1_0_0_1_n_n 4608 rfl rfl c
  refine congrArg₂ (· * ·) (congrArg A (funext fun ax => Fin.ext ?_)) (congrArg B (funext fun ax => Fin.ext ?_))
  · fin_cases ax
    · rfl
    · exact c2
  · fin_cases ax
    · exact c2
    · rfl

/-- One tap: the band v (the 30 rows of the padded block) with its unit axis dropped, cut from row dy, at an entry. -/
theorem band11_apply (v : Vec Ideal S1x30x32x512 .bf16) (dy : ℕ) (hdy : dy ≤ 2) (h : S30x32x512.Slices ![dy, 0, 0] S28x32x512)
    (r : Fin 28) (j : Fin 32) (l : Fin 512) :
    extractStridedSlice S28x32x512 ![dy, 0, 0] (shapeCast S30x32x512 v shapeCasts_S1x30x32x512_S30x32x512) h (ix3 r j l)
      = arr4 v 0 (r.val + dy) j.val l.val := by
  have hR : r.val + dy < 30 := by have := r.isLt; omega
  refine (extractStridedSlice_apply _ _ h (ix3 r j l) (ix3 ⟨r.val + dy, hR⟩ j l) (fun a => ?_)).trans ?_
  · match a with
    | ⟨0, _⟩ => exact Nat.add_comm _ _
    | ⟨1, _⟩ => exact (Nat.zero_add _).symm
    | ⟨2, _⟩ => exact (Nat.zero_add _).symm
  · refine (shapeCast_1abc_abc_apply v _ ⟨r.val + dy, hR⟩ j l).trans ?_
    exact (arr4_apply v (0 : Fin 1) ⟨r.val + dy, hR⟩ j l).symm

section Payload

variable (v3 v6 v9 : Vec Ideal S1x30x32x512 .bf16) (v22 : Vec Ideal S4608x512 .bf16) (v25 : Vec Ideal S1x512 .f32)

/-- The three loaded bands, by column offset, as one total function: band dx at row R, column j, channel l. -/
def tap11 (dx R j l : ℕ) : EReal :=
  if dx = 0 then arr4 v3 0 R j l else if dx = 1 then arr4 v6 0 R j l else arr4 v9 0 R j l

/-- The nine taps in the concatenation's order: tap n is the band at column offset n % 3 cut from row n / 3. -/
def pieces11 : Fin 9 → (S28x32x512.Idx → EReal) :=
  ![extractStridedSlice S28x32x512 ![0, 0, 0] (shapeCast S30x32x512 v3 shapeCasts_S1x30x32x512_S30x32x512) slices_S30x32x512_o0_0_0_S28x32x512,
    extractStridedSlice S28x32x512 ![0, 0, 0] (shapeCast S30x32x512 v6 shapeCasts_S1x30x32x512_S30x32x512) slices_S30x32x512_o0_0_0_S28x32x512,
    extractStridedSlice S28x32x512 ![0, 0, 0] (shapeCast S30x32x512 v9 shapeCasts_S1x30x32x512_S30x32x512) slices_S30x32x512_o0_0_0_S28x32x512,
    extractStridedSlice S28x32x512 ![1, 0, 0] (shapeCast S30x32x512 v3 shapeCasts_S1x30x32x512_S30x32x512) slices_S30x32x512_o1_0_0_S28x32x512,
    extractStridedSlice S28x32x512 ![1, 0, 0] (shapeCast S30x32x512 v6 shapeCasts_S1x30x32x512_S30x32x512) slices_S30x32x512_o1_0_0_S28x32x512,
    extractStridedSlice S28x32x512 ![1, 0, 0] (shapeCast S30x32x512 v9 shapeCasts_S1x30x32x512_S30x32x512) slices_S30x32x512_o1_0_0_S28x32x512,
    extractStridedSlice S28x32x512 ![2, 0, 0] (shapeCast S30x32x512 v3 shapeCasts_S1x30x32x512_S30x32x512) slices_S30x32x512_o2_0_0_S28x32x512,
    extractStridedSlice S28x32x512 ![2, 0, 0] (shapeCast S30x32x512 v6 shapeCasts_S1x30x32x512_S30x32x512) slices_S30x32x512_o2_0_0_S28x32x512,
    extractStridedSlice S28x32x512 ![2, 0, 0] (shapeCast S30x32x512 v9 shapeCasts_S1x30x32x512_S30x32x512) slices_S30x32x512_o2_0_0_S28x32x512]

theorem tap11_zero (R j l : ℕ) : tap11 v3 v6 v9 0 R j l = arr4 v3 0 R j l := if_pos rfl
theorem tap11_one (R j l : ℕ) : tap11 v3 v6 v9 1 R j l = arr4 v6 0 R j l := (if_neg (by decide)).trans (if_pos rfl)
theorem tap11_two (R j l : ℕ) : tap11 v3 v6 v9 2 R j l = arr4 v9 0 R j l := (if_neg (by decide)).trans (if_neg (by decide))

theorem pieces11_apply (n : ℕ) (hn : n < 9) (r : Fin 28) (j : Fin 32) (l : Fin 512) :
    pieces11 v3 v6 v9 ⟨n, hn⟩ (ix3 r j l) = tap11 v3 v6 v9 (n % 3) (r.val + n / 3) j.val l.val := by
  interval_cases n
  · exact (band11_apply v3 0 (by decide) slices_S30x32x512_o0_0_0_S28x32x512 r j l).trans (tap11_zero v3 v6 v9 (r.val + 0) j.val l.val).symm
  · exact (band11_apply v6 0 (by decide) slices_S30x32x512_o0_0_0_S28x32x512 r j l).trans (tap11_one v3 v6 v9 (r.val + 0) j.val l.val).symm
  · exact (band11_apply v9 0 (by decide) slices_S30x32x512_o0_0_0_S28x32x512 r j l).trans (tap11_two v3 v6 v9 (r.val + 0) j.val l.val).symm
  · exact (band11_apply v3 1 (by decide) slices_S30x32x512_o1_0_0_S28x32x512 r j l).trans (tap11_zero v3 v6 v9 (r.val + 1) j.val l.val).symm
  · exact (band11_apply v6 1 (by decide) slices_S30x32x512_o1_0_0_S28x32x512 r j l).trans (tap11_one v3 v6 v9 (r.val + 1) j.val l.val).symm
  · exact (band11_apply v9 1 (by decide) slices_S30x32x512_o1_0_0_S28x32x512 r j l).trans (tap11_two v3 v6 v9 (r.val + 1) j.val l.val).symm
  · exact (band11_apply v3 2 (by decide) slices_S30x32x512_o2_0_0_S28x32x512 r j l).trans (tap11_zero v3 v6 v9 (r.val + 2) j.val l.val).symm
  · exact (band11_apply v6 2 (by decide) slices_S30x32x512_o2_0_0_S28x32x512 r j l).trans (tap11_one v3 v6 v9 (r.val + 2) j.val l.val).symm
  · exact (band11_apply v9 2 (by decide) slices_S30x32x512_o2_0_0_S28x32x512 r j l).trans (tap11_two v3 v6 v9 (r.val + 2) j.val l.val).symm

/-- The concatenation of the nine taps along the lanes, at lane c: tap c / 512 at channel c % 512. -/
theorem cat11_apply (r : Fin 28) (j : Fin 32) (c : Fin 4608) :
    concatenate S28x32x4608 2 [⟨S28x32x512, extractStridedSlice S28x32x512 ![0, 0, 0] (shapeCast S30x32x512 v3 shapeCasts_S1x30x32x512_S30x32x512) slices_S30x32x512_o0_0_0_S28x32x512⟩,
      ⟨S28x32x512, extractStridedSlice S28x32x512 ![0, 0, 0] (shapeCast S30x32x512 v6 shapeCasts_S1x30x32x512_S30x32x512) slices_S30x32x512_o0_0_0_S28x32x512⟩,
      ⟨S28x32x512, extractStridedSlice S28x32x512 ![0, 0, 0] (shapeCast S30x32x512 v9 shapeCasts_S1x30x32x512_S30x32x512) slices_S30x32x512_o0_0_0_S28x32x512⟩,
      ⟨S28x32x512, extractStridedSlice S28x32x512 ![1, 0, 0] (shapeCast S30x32x512 v3 shapeCasts_S1x30x32x512_S30x32x512) slices_S30x32x512_o1_0_0_S28x32x512⟩,
      ⟨S28x32x512, extractStridedSlice S28x32x512 ![1, 0, 0] (shapeCast S30x32x512 v6 shapeCasts_S1x30x32x512_S30x32x512) slices_S30x32x512_o1_0_0_S28x32x512⟩,
      ⟨S28x32x512, extractStridedSlice S28x32x512 ![1, 0, 0] (shapeCast S30x32x512 v9 shapeCasts_S1x30x32x512_S30x32x512) slices_S30x32x512_o1_0_0_S28x32x512⟩,
      ⟨S28x32x512, extractStridedSlice S28x32x512 ![2, 0, 0] (shapeCast S30x32x512 v3 shapeCasts_S1x30x32x512_S30x32x512) slices_S30x32x512_o2_0_0_S28x32x512⟩,
      ⟨S28x32x512, extractStridedSlice S28x32x512 ![2, 0, 0] (shapeCast S30x32x512 v6 shapeCasts_S1x30x32x512_S30x32x512) slices_S30x32x512_o2_0_0_S28x32x512⟩,
      ⟨S28x32x512, extractStridedSlice S28x32x512 ![2, 0, 0] (shapeCast S30x32x512 v9 shapeCasts_S1x30x32x512_S30x32x512) slices_S30x32x512_o2_0_0_S28x32x512⟩]
      concatenates_S28x32x512_S28x32x512_S28x32x512_S28x32x512_S28x32x512_S28x32x512_S28x32x512_S28x32x512_S28x32x512_S28x32x4608_d2 (ix3 r j c)
      = tap11 v3 v6 v9 (c.val / 512 % 3) (r.val + c.val / 512 / 3) j.val (c.val % 512) := by
  have hn : c.val / 512 < 9 := by have := c.isLt; omega
  have hl : c.val % 512 < 512 := Nat.mod_lt _ (by decide)
  refine (concatenate_ofFn_apply (t := S28x32x4608) (s₁ := S28x32x512) 2 (pieces11 v3 v6 v9) concatenates_S28x32x512_S28x32x512_S28x32x512_S28x32x512_S28x32x512_S28x32x512_S28x32x512_S28x32x512_S28x32x512_S28x32x4608_d2 rfl 512 rfl
    (ix3 r j c) ⟨c.val / 512, hn⟩ rfl (ix3 r j ⟨c.val % 512, hl⟩) rfl ?_).trans ?_
  · intro b hb
    match b with
    | ⟨0, _⟩ => rfl
    | ⟨1, _⟩ => rfl
    | ⟨2, _⟩ => exact absurd rfl hb
  · exact pieces11_apply v3 v6 v9 (c.val / 512) hn r j ⟨c.val % 512, hl⟩

/-- The interior payload at an entry of its block. -/
theorem conv11_pay_apply (r : Fin 28) (j : Fin 32) (co : Fin 512) :
    k11_pay5 v3 v6 v9 v22 v25 (ix4 (0 : Fin 1) r j co)
      = max ((∑ K ∈ Finset.range 4608, tap11 v3 v6 v9 (K / 512 % 3) (r.val + K / 512 / 3) j.val (K % 512) * arr2 v22 K co.val)
          + arr2 v25 0 co.val) 0 := by
  have hp : r.val * 32 + j.val < 896 := by have := r.isLt; have := j.isLt; omega
  unfold k11_pay5
  refine (shapeCast_abc_1abc_apply _ _ (0 : Fin 1) r j co).trans ?_
  refine (truncf_apply (φ := .f32) (ψ := .bf16) _ bitsLt_bf16_f32 (ix3 r j co)).trans ?_
  refine (shapeCast_apply _ _ (ix3 r j co) (ix2 ⟨r.val * 32 + j.val, hp⟩ co) ?_).trans ?_
  · rw [Shape.rowMajor_val_two, Shape.rowMajor_val_three]; rfl
  refine congrArg₂ max ?_ ?_
  swap
  · exact Ideal.ofBits_zero_f32
  refine congrArg₂ (· + ·) ?_ ?_
  swap
  · refine (broadcastTo_1b_ab_apply v25 _ ⟨r.val * 32 + j.val, hp⟩ co).trans ?_
    exact (arr2_apply v25 (0 : Fin 1) co).symm
  refine (mm11_apply _ _ ⟨r.val * 32 + j.val, hp⟩ co).trans ?_
  rw [← Fin.sum_univ_eq_sum_range (fun K => tap11 v3 v6 v9 (K / 512 % 3) (r.val + K / 512 / 3) j.val (K % 512) * arr2 v22 K co.val) 4608]
  refine Finset.sum_congr rfl fun c _ => ?_
  refine congrArg₂ (· * ·) ?_ ?_
  · refine (shapeCast_apply _ _ (ix2 ⟨r.val * 32 + j.val, hp⟩ c) (ix3 r j c) ?_).trans ?_
    · rw [Shape.rowMajor_val_two, Shape.rowMajor_val_three]; rfl
    exact cat11_apply v3 v6 v9 r j c
  · refine (congrFun (shapeCast_self _ _) _).trans ?_
    exact (arr2_apply v22 c co).symm

end Payload

/-- The border payloads are zeros. -/
theorem conv11_pay1_apply (y : S1x1x34x512.Idx) : k11_pay1 (F := Ideal) (k11_pay6 (F := Ideal)) y = 0 := Ideal.ofBits_zero_bf16
theorem conv11_pay2_apply (y : S1x1x34x512.Idx) : k11_pay2 (F := Ideal) y = 0 := Ideal.ofBits_zero_bf16
theorem conv11_pay3_apply (y : S1x30x1x512.Idx) : k11_pay3 (F := Ideal) y = 0 := Ideal.ofBits_zero_bf16
theorem conv11_pay4_apply (y : S1x30x5x512.Idx) : k11_pay4 (F := Ideal) y = 0 := Ideal.ofBits_zero_bf16

end Cert.KernelIdeal.Val

end
-- ==== Proof.KV11.lean ====
/-
  The value of kernel region 11 (a 3x3 convolution with bias and ReLU on a 28 x 28 image of 512 channels, stored in padded
  coordinates) at the ideal values: after the region, the output array holds at batch b, row I < 30, column J < 34 and
  channel co the convolution's result at pixel (I - 1, J - 1) on rows 1 … 28 and columns 1 … 28, and zero elsewhere. The
  convolution reads the input array in padded coordinates: the sum over K < 4608 of the input at row i + K / 512 / 3,
  column j + K / 512 % 3, channel K % 512, times the flattened weight (K, co), plus the bias, clamped at zero. Point t
  of the grid is image t: its blocks are the whole image; the blocks tile the arrays and every point writes its block back.
  The five stores the body's buffer ends at are read newest first: the right columns, the left column, the bottom row and
  the top row are zeros, the interior at (1, 1) is the convolution's result of the three column bands of the input block.
-/
import proofs.«100114_g2000204297211070_pallasbulk_1265_19_alg».proof.Proof.KR11
import proofs.«100114_g2000204297211070_pallasbulk_1265_19_alg».proof.Proof.KV11Pay
import proofs.«100114_g2000204297211070_pallasbulk_1265_19_alg».proof.Proof.KVConvLib
import proofs.«100114_g2000204297211070_pallasbulk_1265_19_alg».proof.Proof.Spec
import Idealize.ShloMosaic.Lib.Pipeline.Value

set_option maxRecDepth 16384
-- the buffers' types are looked up in the signature's table at every unfolding: the later the region, the longer the walk
set_option maxHeartbeats 2000000

noncomputable section

open scoped BigOperators

namespace Cert.KernelIdeal.Val

open Cert.KernelIdeal Cert.KernelIdeal.Gen Cert.KernelIdeal.Reg Cert.KVConvLib
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-! ## The arrays and the points' geometry -/

/-- The region's three input arrays as it finds them, by their literal extents. -/
abbrev xarr11 (c : Dev nD) : S8x30x34x512.Idx → EReal := V c (Pipeline.arrRef spec11 0)
abbrev warr11 (c : Dev nD) : S4608x512.Idx → EReal := V c (Pipeline.arrRef spec11 1)
abbrev barr11 (c : Dev nD) : S1x512.Idx → EReal := V c (Pipeline.arrRef spec11 2)

/-- Point t reads image t of the input, whole, -/
theorem geo11_0 : ∀ t : Fin cfg11.N, win11_0.index t 0 = t.val ∧ win11_0.index t 1 = 0 ∧ win11_0.index t 2 = 0 ∧ win11_0.index t 3 = 0 :=
  (by decide +kernel : ∀ t : Fin grid11.N, win11_0.index t 0 = t.val ∧ win11_0.index t 1 = 0 ∧ win11_0.index t 2 = 0 ∧ win11_0.index t 3 = 0)
/-- the weights and the bias, whole, -/
theorem geo11_1 : ∀ t : Fin cfg11.N, win11_1.index t 0 = 0 ∧ win11_1.index t 1 = 0 :=
  (by decide +kernel : ∀ t : Fin grid11.N, win11_1.index t 0 = 0 ∧ win11_1.index t 1 = 0)
theorem geo11_2 : ∀ t : Fin cfg11.N, win11_2.index t 0 = 0 ∧ win11_2.index t 1 = 0 :=
  (by decide +kernel : ∀ t : Fin grid11.N, win11_2.index t 0 = 0 ∧ win11_2.index t 1 = 0)
/-- and writes image t of the output, whole. -/
theorem geo11_3 : ∀ t : Fin cfg11.N, win11_3.index t 0 = t.val ∧ win11_3.index t 1 = 0 ∧ win11_3.index t 2 = 0 ∧ win11_3.index t 3 = 0
    ∧ win11_3.xsize (grid11.coords t) 0 = 1 ∧ win11_3.xsize (grid11.coords t) 1 = 30 ∧ win11_3.xsize (grid11.coords t) 2 = 34
    ∧ win11_3.xsize (grid11.coords t) 3 = 512 :=
  (by decide +kernel : ∀ t : Fin grid11.N, win11_3.index t 0 = t.val ∧ win11_3.index t 1 = 0 ∧ win11_3.index t 2 = 0 ∧ win11_3.index t 3 = 0
    ∧ win11_3.xsize (grid11.coords t) 0 = 1 ∧ win11_3.xsize (grid11.coords t) 1 = 30 ∧ win11_3.xsize (grid11.coords t) 2 = 34
    ∧ win11_3.xsize (grid11.coords t) 3 = 512)
/-- The three loads' offsets at every point: row 0, columns 0, 1, 2 (the grid's second axis has one entry). -/
theorem off11 : ∀ t : Fin cfg11.N, k11_off1 (grid11.coords t) = ![0, 0, 0, 0] ∧ k11_off2 (grid11.coords t) = ![0, 0, 1, 0]
    ∧ k11_off3 (grid11.coords t) = ![0, 0, 2, 0] :=
  (by decide +kernel : ∀ t : Fin grid11.N, k11_off1 (grid11.coords t) = ![0, 0, 0, 0] ∧ k11_off2 (grid11.coords t) = ![0, 0, 1, 0]
    ∧ k11_off3 (grid11.coords t) = ![0, 0, 2, 0])

/-! ## The input blocks, read off the arrays -/

/-- The input block at point t is image t of the input array. -/
theorem xblk11_apply (c : Dev nD) (t : Fin cfg11.N) (R : Fin 30) (J : Fin 34) (l : Fin 512) :
    (iblk11 V c 0 t : S1x30x34x512.Idx → EReal) (ix4 (0 : Fin 1) R J l)
      = Cert.Spec.arr4 (xarr11 V c) t.val R.val J.val l.val := by
  have hN : cfg11.N = 8 := N_11
  have ht : t.val < 8 := by have := t.isLt; omega
  obtain ⟨i0, i1, i2, i3⟩ := geo11_0 t
  refine Eq.trans ?_ (Cert.Spec.arr4_apply (xarr11 V c) (⟨t.val, ht⟩ : Fin 8) R J l).symm
  unfold iblk11
  rw [View.read_apply]
  show xarr11 V c _ = xarr11 V c _
  congr 1
  funext a
  apply Fin.ext
  match a with
  | ⟨0, _⟩ => show win11_0.index t 0 * 1 + 1 * 0 = t.val; rw [i0]; omega
  | ⟨1, _⟩ => show win11_0.index t 1 * 30 + 1 * R.val = R.val; rw [i1]; omega
  | ⟨2, _⟩ => show win11_0.index t 2 * 34 + 1 * J.val = J.val; rw [i2]; omega
  | ⟨3, _⟩ => show win11_0.index t 3 * 512 + 1 * l.val = l.val; rw [i3]; omega

/-- The weight block at any point is the weight array. -/
theorem wblk11_eq (c : Dev nD) (t : Fin cfg11.N) : (iblk11 V c 1 t : S4608x512.Idx → EReal) = warr11 V c := by
  obtain ⟨i0, i1⟩ := geo11_1 t
  funext y
  unfold iblk11
  rw [View.read_apply]
  show warr11 V c _ = warr11 V c y
  congr 1
  funext a
  apply Fin.ext
  match a with
  | ⟨0, _⟩ => show win11_1.index t 0 * 4608 + 1 * (y 0).val = (y 0).val; rw [i0]; omega
  | ⟨1, _⟩ => show win11_1.index t 1 * 512 + 1 * (y 1).val = (y 1).val; rw [i1]; omega

/-- The bias block at any point is the bias array. -/
theorem bblk11_eq (c : Dev nD) (t : Fin cfg11.N) : (iblk11 V c 2 t : S1x512.Idx → EReal) = barr11 V c := by
  obtain ⟨i0, i1⟩ := geo11_2 t
  funext y
  unfold iblk11
  rw [View.read_apply]
  show barr11 V c _ = barr11 V c y
  congr 1
  funext a
  apply Fin.ext
  match a with
  | ⟨0, _⟩ => show win11_2.index t 0 * 1 + 1 * (y 0).val = (y 0).val; rw [i0]; omega
  | ⟨1, _⟩ => show win11_2.index t 1 * 512 + 1 * (y 1).val = (y 1).val; rw [i1]; omega

/-- A column band of the input block, loaded from column dx on, at an entry: the input array at column j + dx. -/
theorem ldx11 (c : Dev nD) (t : Fin cfg11.N) (off : Fin 4 → ℕ) (inb : ∀ a, off a + S1x30x32x512.size a ≤ S1x30x34x512.size a)
    (dx : ℕ) (hoff : off = ![0, 0, dx, 0]) (R : Fin 30) (j : Fin 32) (hj : j.val + dx < 34) (l : Fin 512) :
    View.ld (iblk11 V c 0 t : S1x30x34x512.Idx → EReal) (Rect.unit (s := S1x30x34x512) off S1x30x32x512.size inb) (ix4 (0 : Fin 1) R j l)
      = Cert.Spec.arr4 (xarr11 V c) t.val R.val (j.val + dx) l.val := by
  subst hoff
  refine Eq.trans ?_ (xblk11_apply V c t R ⟨j.val + dx, hj⟩ l)
  show (iblk11 V c 0 t : S1x30x34x512.Idx → EReal) _ = (iblk11 V c 0 t : S1x30x34x512.Idx → EReal) _
  congr 1
  funext a
  apply Fin.ext
  match a with
  | ⟨0, _⟩ => show 0 + 1 * 0 = 0; rfl
  | ⟨1, _⟩ => show 0 + 1 * R.val = R.val; omega
  | ⟨2, _⟩ => show dx + 1 * j.val = j.val + dx; omega
  | ⟨3, _⟩ => show 0 + 1 * l.val = l.val; omega

/-! ## What a point leaves in the output block -/

/-- The region's result at (b, I, J, co), in padded coordinates. -/
def Gf11 (c : Dev nD) (b I J co : ℕ) : EReal :=
  Cert.Spec.pad1 28 28 (Cert.Spec.convFlat 512 (Cert.Spec.arr4 (xarr11 V c)) (Cert.Spec.arr2 (warr11 V c)) (Cert.Spec.arr2 (barr11 V c))) b I J co

/-- The interior store's block at point t, at (r, j, co): the convolution at pixel (r, j) of image t. -/
theorem conv11_apply (c : Dev nD) (t : Fin cfg11.N) (r : Fin 28) (j : Fin 32) (co : Fin 512) :
    conv11 (F := Ideal) (grid11.coords t) (iblk11 V c 0 t) (iblk11 V c 1 t) (iblk11 V c 2 t) (ix4 (0 : Fin 1) r j co)
      = Cert.Spec.convFlat 512 (Cert.Spec.arr4 (xarr11 V c)) (Cert.Spec.arr2 (warr11 V c)) (Cert.Spec.arr2 (barr11 V c))
          t.val r.val j.val co.val := by
  obtain ⟨o1, o2, o3⟩ := off11 t
  have hr := r.isLt
  have hj := j.isLt
  have hw : View.ld (iblk11 V c 1 t : S4608x512.Idx → EReal) r11_w = warr11 V c :=
    (View.ld_unit_zero (S := S4608x512) hz2 _ _).trans (wblk11_eq V c t)
  have hb : View.ld (iblk11 V c 2 t : S1x512.Idx → EReal) r11_b = barr11 V c :=
    (View.ld_unit_zero (S := S1x512) hz2 _ _).trans (bblk11_eq V c t)
  unfold conv11
  refine (conv11_pay_apply _ _ _ _ _ r j co).trans ?_
  unfold Cert.Spec.convFlat
  refine congrArg₂ max (congrArg₂ (· + ·) (Finset.sum_congr rfl fun K hK => ?_)
    (congrArg (fun B : S1x512.Idx → EReal => Cert.Spec.arr2 B 0 co.val) hb)) rfl
  have hK' : K < 4608 := Finset.mem_range.mp hK
  have hR : r.val + K / 512 / 3 < 30 := by omega
  have hl : K % 512 < 512 := Nat.mod_lt _ (by decide)
  refine congrArg₂ (· * ·) ?_ (congrArg (fun W : S4608x512.Idx → EReal => Cert.Spec.arr2 W K co.val) hw)
  obtain h | h | h : K / 512 % 3 = 0 ∨ K / 512 % 3 = 1 ∨ K / 512 % 3 = 2 := by omega
  · rw [h, tap11_zero]
    refine (Cert.Spec.arr4_apply _ (0 : Fin 1) (⟨r.val + K / 512 / 3, hR⟩ : Fin 30) j (⟨K % 512, hl⟩ : Fin 512)).trans ?_
    exact ldx11 V c t _ _ 0 o1 ⟨r.val + K / 512 / 3, hR⟩ j (by omega) ⟨K % 512, hl⟩
  · rw [h, tap11_one]
    refine (Cert.Spec.arr4_apply _ (0 : Fin 1) (⟨r.val + K / 512 / 3, hR⟩ : Fin 30) j (⟨K % 512, hl⟩ : Fin 512)).trans ?_
    exact ldx11 V c t _ _ 1 o2 ⟨r.val + K / 512 / 3, hR⟩ j (by omega) ⟨K % 512, hl⟩
  · rw [h, tap11_two]
    refine (Cert.Spec.arr4_apply _ (0 : Fin 1) (⟨r.val + K / 512 / 3, hR⟩ : Fin 30) j (⟨K % 512, hl⟩ : Fin 512)).trans ?_
    exact ldx11 V c t _ _ 2 o3 ⟨r.val + K / 512 / 3, hR⟩ j (by omega) ⟨K % 512, hl⟩

/-- What the output's staging buffer holds after point t, at (I, J, co): the region's result at image t. -/
theorem outs11_apply (c : Dev nD) (t : Fin cfg11.N) (I : Fin 30) (J : Fin 34) (co : Fin 512) :
    outsAt11 (F := Ideal) V c t (ix4 (0 : Fin 1) I J co) = Gf11 V c t.val I.val J.val co.val := by
  have hI := I.isLt
  have hJ := J.isLt
  unfold Gf11 Cert.Spec.pad1 outsAt11 out11_3
  by_cases hJr : 29 ≤ J.val
  · have hc : ¬(1 ≤ I.val ∧ I.val ≤ 28 ∧ 1 ≤ J.val ∧ J.val ≤ 28) := by omega
    rw [if_neg hc]
    refine (canon_unit_of_mem _ _ _ (ix4 (0 : Fin 1) I J co) (ix4 (0 : Fin 1) I (⟨J.val - 29, by omega⟩ : Fin 5) co)
      (fin4_all (by show (0 : ℕ) = 0 + 0; rfl) (by show I.val = 0 + I.val; omega) (by show J.val = 29 + (J.val - 29); omega)
        (by show co.val = 0 + co.val; omega))).trans ?_
    exact conv11_pay4_apply _
  refine (canon_unit_of_not_mem _ _ _ (ix4 (0 : Fin 1) I J co) (2 : Fin 4) (by show J.val < 29 ∨ 29 + 5 ≤ J.val; omega)).trans ?_
  by_cases hJ0 : J.val = 0
  · have hc : ¬(1 ≤ I.val ∧ I.val ≤ 28 ∧ 1 ≤ J.val ∧ J.val ≤ 28) := by omega
    rw [if_neg hc]
    refine (canon_unit_of_mem _ _ _ (ix4 (0 : Fin 1) I J co) (ix4 (0 : Fin 1) I (0 : Fin 1) co)
      (fin4_all (by show (0 : ℕ) = 0 + 0; rfl) (by show I.val = 0 + I.val; omega) (by show J.val = 0 + 0; omega)
        (by show co.val = 0 + co.val; omega))).trans ?_
    exact conv11_pay3_apply _
  refine (canon_unit_of_not_mem _ _ _ (ix4 (0 : Fin 1) I J co) (2 : Fin 4) (by show J.val < 0 ∨ 0 + 1 ≤ J.val; omega)).trans ?_
  by_cases hIb : I.val = 29
  · have hc : ¬(1 ≤ I.val ∧ I.val ≤ 28 ∧ 1 ≤ J.val ∧ J.val ≤ 28) := by omega
    rw [if_neg hc]
    refine (canon_unit_of_mem _ _ _ (ix4 (0 : Fin 1) I J co) (ix4 (0 : Fin 1) (0 : Fin 1) J co)
      (fin4_all (by show (0 : ℕ) = 0 + 0; rfl) (by show I.val = 29 + 0; omega) (by show J.val = 0 + J.val; omega)
        (by show co.val = 0 + co.val; omega))).trans ?_
    exact conv11_pay2_apply _
  refine (canon_unit_of_not_mem _ _ _ (ix4 (0 : Fin 1) I J co) (1 : Fin 4) (by show I.val < 29 ∨ 29 + 1 ≤ I.val; omega)).trans ?_
  by_cases hI0 : I.val = 0
  · have hc : ¬(1 ≤ I.val ∧ I.val ≤ 28 ∧ 1 ≤ J.val ∧ J.val ≤ 28) := by omega
    rw [if_neg hc]
    refine (canon_unit_of_mem _ _ _ (ix4 (0 : Fin 1) I J co) (ix4 (0 : Fin 1) (0 : Fin 1) J co)
      (fin4_all (by show (0 : ℕ) = 0 + 0; rfl) (by show I.val = 0 + 0; omega) (by show J.val = 0 + J.val; omega)
        (by show co.val = 0 + co.val; omega))).trans ?_
    exact conv11_pay1_apply _
  refine (canon_unit_of_not_mem _ _ _ (ix4 (0 : Fin 1) I J co) (1 : Fin 4) (by show I.val < 0 ∨ 0 + 1 ≤ I.val; omega)).trans ?_
  have hc : 1 ≤ I.val ∧ I.val ≤ 28 ∧ 1 ≤ J.val ∧ J.val ≤ 28 := by omega
  rw [if_pos hc]
  refine (canon_unit_of_mem _ _ _ (ix4 (0 : Fin 1) I J co)
    (ix4 (0 : Fin 1) (⟨I.val - 1, by omega⟩ : Fin 28) (⟨J.val - 1, by omega⟩ : Fin 32) co)
    (fin4_all (by show (0 : ℕ) = 0 + 0; rfl) (by show I.val = 1 + (I.val - 1); omega) (by show J.val = 1 + (J.val - 1); omega)
      (by show co.val = 0 + co.val; omega))).trans ?_
  exact conv11_apply V c t (⟨I.val - 1, by omega⟩ : Fin 28) (⟨J.val - 1, by omega⟩ : Fin 32) co

/-! ## The output array after the region -/

/-- The region's result as contents of the output array. -/
def G11 (c : Dev nD) : S8x30x34x512.Idx → EReal := fun k => Gf11 V c (k 0).val (k 1).val (k 2).val (k 3).val

/-- What point t writes back is its block of the result. -/
theorem flushed11_eq (c : Dev nD) (t : Fin cfg11.N) (hf : (cfg11.win 3).flush t = true) :
    (dat11 (F := Ideal) V c).flushed 3 t = ((cfg11.win 3).blk t).view.read (Elt Ideal) (G11 V c) := by
  obtain ⟨i0, i1, i2, i3, -⟩ := geo11_3 t
  funext y
  obtain ⟨I, J, co, rfl⟩ := exists_ix4_one (a := 30) (b := 34) (c := 512) y
  show (cfg11.win 3).cut (grid11.coords t) ((dat11 V c).after 3 t) (ix4 (0 : Fin 1) I J co) = _
  rw [after11_3, View.read_apply]
  show outsAt11 V c t (ix4 (0 : Fin 1) I J co) = G11 V c (((cfg11.win 3).blk t).view.emb (ix4 (0 : Fin 1) I J co))
  refine (outs11_apply V c t I J co).trans ?_
  have e0 : ((((cfg11.win 3).blk t).view.emb (ix4 (0 : Fin 1) I J co)) 0).val = t.val := by
    show win11_3.index t 0 * 1 + 1 * 0 = _; rw [i0]; omega
  have e1 : ((((cfg11.win 3).blk t).view.emb (ix4 (0 : Fin 1) I J co)) 1).val = I.val := by
    show win11_3.index t 1 * 30 + 1 * I.val = _; rw [i1]; omega
  have e2 : ((((cfg11.win 3).blk t).view.emb (ix4 (0 : Fin 1) I J co)) 2).val = J.val := by
    show win11_3.index t 2 * 34 + 1 * J.val = _; rw [i2]; omega
  have e3 : ((((cfg11.win 3).blk t).view.emb (ix4 (0 : Fin 1) I J co)) 3).val = co.val := by
    show win11_3.index t 3 * 512 + 1 * co.val = _; rw [i3]; omega
  unfold G11
  exact (congr (congr (congr (congrArg (Gf11 V c) e0) e1) e2) e3).symm

/-- Every index of the output array is in the block of its image's point. -/
theorem cover11 (c : Dev nD) (i : ((cfg11.win 3).arr.view.loc (c.tc : Thread nD τ)).2.ty.Idx) :
    ∃ t : Fin cfg11.N, (cfg11.win 3).flush t = true ∧ i ∈ ((cfg11.win 3).blk t).view.set := by
  have hN : cfg11.N = 8 := N_11
  have b0 : (i 0 : ℕ) < 8 := (i 0).isLt
  have b1 : (i 1 : ℕ) < 30 := (i 1).isLt
  have b2 : (i 2 : ℕ) < 34 := (i 2).isLt
  have b3 : (i 3 : ℕ) < 512 := (i 3).isLt
  have hlt : (i 0 : ℕ) < cfg11.N := by omega
  refine ⟨⟨(i 0 : ℕ), hlt⟩, flush11_3 _, ?_⟩
  obtain ⟨i0, i1, i2, i3, z0, z1, z2, z3⟩ := geo11_3 (⟨(i 0 : ℕ), hlt⟩ : Fin cfg11.N)
  show i ∈ ((View.whole (Pipeline.arrRef spec11 3)).slice (win11_3.rect (⟨(i 0 : ℕ), hlt⟩ : Fin cfg11.N))).set
  rw [View.set_slice_whole, Rect.mem_set_unit]
  intro a
  match a with
  | ⟨0, _⟩ =>
    show win11_3.index _ 0 * 1 ≤ (i 0 : ℕ) ∧ (i 0 : ℕ) < win11_3.index _ 0 * 1 + win11_3.xsize _ 0
    rw [i0, z0]; dsimp only; omega
  | ⟨1, _⟩ =>
    show win11_3.index _ 1 * win11_3.size 1 ≤ (i 1 : ℕ) ∧ (i 1 : ℕ) < win11_3.index _ 1 * win11_3.size 1 + win11_3.xsize _ 1
    rw [i1, z1]; omega
  | ⟨2, _⟩ =>
    show win11_3.index _ 2 * win11_3.size 2 ≤ (i 2 : ℕ) ∧ (i 2 : ℕ) < win11_3.index _ 2 * win11_3.size 2 + win11_3.xsize _ 2
    rw [i2, z2]; omega
  | ⟨3, _⟩ =>
    show win11_3.index _ 3 * win11_3.size 3 ≤ (i 3 : ℕ) ∧ (i 3 : ℕ) < win11_3.index _ 3 * win11_3.size 3 + win11_3.xsize _ 3
    rw [i3, z3]; omega

/-- So the output array ends holding the result. -/
theorem final11 (c : Dev nD) : (dat11 (F := Ideal) V c).arrAt 3 cfg11.N = G11 V c :=
  (dat11 (F := Ideal) V c).arrAt_eq_of_cover 3 (G11 V c) (flushed11_eq V c) (cover11 c)

/-- The region's value: the output array is the convolution of the input array, in padded coordinates, zero on the border. -/
theorem conv11_value (c : Dev nD) (b I J co : ℕ) (hb : b < 8) (hI : I < 30) (hJ : J < 34) (hco : co < 512) :
    Cert.Spec.arr4 ((dat11 (F := Ideal) V c).arrAt 3 cfg11.N : S8x30x34x512.Idx → EReal) b I J co
      = Cert.Spec.pad1 28 28 (Cert.Spec.convFlat 512 (Cert.Spec.arr4 (xarr11 V c)) (Cert.Spec.arr2 (warr11 V c))
          (Cert.Spec.arr2 (barr11 V c))) b I J co := by
  refine (congrArg (fun A : S8x30x34x512.Idx → EReal => Cert.Spec.arr4 A b I J co) (final11 V c)).trans ?_
  exact Cert.Spec.arr4_apply (G11 V c) (⟨b, hb⟩ : Fin 8) (⟨I, hI⟩ : Fin 30) (⟨J, hJ⟩ : Fin 34) (⟨co, hco⟩ : Fin 512)

end Cert.KernelIdeal.Val

end
-- ==== Proof.KV12Pay.lean ====
/-
  The payload of kernel region 12 read at one entry, at the ideal values. The body's whole-block store writes, at
  pooled row `i`, column `j`, output channel `co` of its block, the larger of the two convolution rows `2i` and `2i+1`
  there; a convolution row `h` at `(j, co)` is the ReLU of the bias plus the sum over the 4608 lanes `K` of the nine
  lane-concatenated taps — lane `K` is tap `K / 512` (row offset `K / 512 / 3`, column band `K / 512 % 3`) at input
  channel `K % 512` — times row `K` of the flattened weights. The row-pair maximum is a reduction over an axis of
  extent two started from minus infinity, which the maximum absorbs. The body's second store writes zeros over the strip of
  padding columns.
-/
import proofs.«100114_g2000204297211070_pallasbulk_1265_19_alg».proof.Proof.Gen.KernelIdeal.Skeleton
import proofs.«100114_g2000204297211070_pallasbulk_1265_19_alg».proof.Proof.Spec
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Val

open Cert.KernelIdeal Cert.KernelIdeal.Gen Cert.Spec
open Idealize.ShloMosaic Idealize.ShloMosaic.ValueIdx

/-- The block product into the zero accumulator, at an entry: the sum over the contracted coordinate. -/
theorem mm12_apply (A : FVec Ideal S896x4608 .bf16) (B : FVec Ideal S4608x512 .bf16) (a : Fin 896) (b : Fin 512) :
    matmul dot_S896x4608_S4608x512_S896x512_1_0_0_1_n_n none A B (constant S896x512 .f32 0x00000000#32) (ix2 a b)
      = ∑ c : Fin 4608, A (ix2 a c) * B (ix2 c b) := by
  show FloatOps.matmul dot_S896x4608_S4608x512_S896x512_1_0_0_1_n_n none A B _ (ix2 a b) = _
  rw [Ideal.matmul_constant_zero_apply, ← Equiv.sum_comp (contrEquiv1 dot_S896x4608_S4608x512_S896x512_1_0_0_1_n_n 4608 rfl rfl).symm]
  refine Finset.sum_congr rfl fun c _ => ?_
  have c2 := contrEquiv1_symm_val dot_S896x4608_S4608x512_S896x512_1_0_0_1_n_n 4608 rfl rfl c
  have l2 : (dot_S896x4608_S4608x512_S896x512_1_0_0_1_n_n).lhsIdx (ix2 a b) ((contrEquiv1 _ 4608 rfl rfl).symm c) = ix2 a c := by
    funext ax; apply Fin.ext
    match ax with
    | ⟨0, _⟩ => simp [DotDims.lhsIdx, dot_S896x4608_S4608x512_S896x512_1_0_0_1_n_n]; rfl
    | ⟨1, _⟩ => simp [DotDims.lhsIdx, dot_S896x4608_S4608x512_S896x512_1_0_0_1_n_n]; exact c2
  have r2 : (dot_S896x4608_S4608x512_S896x512_1_0_0_1_n_n).rhsIdx (ix2 a b) ((contrEquiv1 _ 4608 rfl rfl).symm c) = ix2 c b := by
    funext ax; apply Fin.ext
    match ax with
    | ⟨0, _⟩ => simp [DotDims.rhsIdx, dot_S896x4608_S4608x512_S896x512_1_0_0_1_n_n]; exact c2
    | ⟨1, _⟩ => simp [DotDims.rhsIdx, dot_S896x4608_S4608x512_S896x512_1_0_0_1_n_n]; rfl
  rw [l2, r2]

/-- One tap: the band `v` (the 30 rows of the padded block a tile reads) with its unit axis dropped, cut from row `dy`,
    at an entry. -/
theorem band12_apply (v : Vec Ideal S1x30x32x512 .bf16) (dy : ℕ) (hdy : dy ≤ 2) (h : S30x32x512.Slices ![dy, 0, 0] S28x32x512)
    (r : Fin 28) (j : Fin 32) (l : Fin 512) :
    extractStridedSlice S28x32x512 ![dy, 0, 0] (shapeCast S30x32x512 v shapeCasts_S1x30x32x512_S30x32x512) h (ix3 r j l)
      = arr4 v 0 (r.val + dy) j.val l.val := by
  have hR : r.val + dy < 30 := by omega
  refine (extractStridedSlice_apply _ _ h (ix3 r j l) (ix3 ⟨r.val + dy, hR⟩ j l) (fun a => ?_)).trans ?_
  · match a with
    | ⟨0, _⟩ => exact Nat.add_comm _ _
    | ⟨1, _⟩ => exact (Nat.zero_add _).symm
    | ⟨2, _⟩ => exact (Nat.zero_add _).symm
  · refine (shapeCast_1abc_abc_apply v _ ⟨r.val + dy, hR⟩ j l).trans ?_
    exact (arr4_apply v (0 : Fin 1) ⟨r.val + dy, hR⟩ j l).symm

/-- The maximum over an axis of extent two, started from `b`. -/
theorem fold_max_pair12 (b : EReal) (f : Fin 2 → EReal) :
    (Finset.univ : Finset (Fin 2)).fold max b f = max (f 0) (max (f 1) b) := by
  rw [show (Finset.univ : Finset (Fin 2)) = insert 0 {1} from by decide, Finset.fold_insert (by decide), Finset.fold_singleton]

variable (v3 v6 v9 : Vec Ideal S1x30x32x512 .bf16) (v22 : Vec Ideal S4608x512 .bf16) (v25 : Vec Ideal S1x512 .f32)

/-- The three loaded bands, by column offset, as one total function: band `dx` at row `R`, column `j`, channel `l`. -/
def tap12 (dx R j l : ℕ) : EReal :=
  if dx = 0 then arr4 v3 0 R j l else if dx = 1 then arr4 v6 0 R j l else arr4 v9 0 R j l

/-- The nine taps in the concatenation's order: tap `n` is the band at column offset `n % 3` cut from row `n / 3`. -/
def pieces12 : Fin 9 → (S28x32x512.Idx → EReal) :=
  ![extractStridedSlice S28x32x512 ![0, 0, 0] (shapeCast S30x32x512 v3 shapeCasts_S1x30x32x512_S30x32x512) slices_S30x32x512_o0_0_0_S28x32x512,
    extractStridedSlice S28x32x512 ![0, 0, 0] (shapeCast S30x32x512 v6 shapeCasts_S1x30x32x512_S30x32x512) slices_S30x32x512_o0_0_0_S28x32x512,
    extractStridedSlice S28x32x512 ![0, 0, 0] (shapeCast S30x32x512 v9 shapeCasts_S1x30x32x512_S30x32x512) slices_S30x32x512_o0_0_0_S28x32x512,
    extractStridedSlice S28x32x512 ![1, 0, 0] (shapeCast S30x32x512 v3 shapeCasts_S1x30x32x512_S30x32x512) slices_S30x32x512_o1_0_0_S28x32x512,
    extractStridedSlice S28x32x512 ![1, 0, 0] (shapeCast S30x32x512 v6 shapeCasts_S1x30x32x512_S30x32x512) slices_S30x32x512_o1_0_0_S28x32x512,
    extractStridedSlice S28x32x512 ![1, 0, 0] (shapeCast S30x32x512 v9 shapeCasts_S1x30x32x512_S30x32x512) slices_S30x32x512_o1_0_0_S28x32x512,
    extractStridedSlice S28x32x512 ![2, 0, 0] (shapeCast S30x32x512 v3 shapeCasts_S1x30x32x512_S30x32x512) slices_S30x32x512_o2_0_0_S28x32x512,
    extractStridedSlice S28x32x512 ![2, 0, 0] (shapeCast S30x32x512 v6 shapeCasts_S1x30x32x512_S30x32x512) slices_S30x32x512_o2_0_0_S28x32x512,
    extractStridedSlice S28x32x512 ![2, 0, 0] (shapeCast S30x32x512 v9 shapeCasts_S1x30x32x512_S30x32x512) slices_S30x32x512_o2_0_0_S28x32x512]

theorem pieces12_apply (n : Fin 9) (r : Fin 28) (j : Fin 32) (l : Fin 512) :
    pieces12 v3 v6 v9 n (ix3 r j l) = tap12 v3 v6 v9 (n.val % 3) (r.val + n.val / 3) j.val l.val := by
  match n with
  | ⟨0, _⟩ => exact (band12_apply v3 0 (by decide) slices_S30x32x512_o0_0_0_S28x32x512 r j l).trans (by simp [tap12])
  | ⟨1, _⟩ => exact (band12_apply v6 0 (by decide) slices_S30x32x512_o0_0_0_S28x32x512 r j l).trans (by simp [tap12])
  | ⟨2, _⟩ => exact (band12_apply v9 0 (by decide) slices_S30x32x512_o0_0_0_S28x32x512 r j l).trans (by simp [tap12])
  | ⟨3, _⟩ => exact (band12_apply v3 1 (by decide) slices_S30x32x512_o1_0_0_S28x32x512 r j l).trans (by simp [tap12])
  | ⟨4, _⟩ => exact (band12_apply v6 1 (by decide) slices_S30x32x512_o1_0_0_S28x32x512 r j l).trans (by simp [tap12])
  | ⟨5, _⟩ => exact (band12_apply v9 1 (by decide) slices_S30x32x512_o1_0_0_S28x32x512 r j l).trans (by simp [tap12])
  | ⟨6, _⟩ => exact (band12_apply v3 2 (by decide) slices_S30x32x512_o2_0_0_S28x32x512 r j l).trans (by simp [tap12])
  | ⟨7, _⟩ => exact (band12_apply v6 2 (by decide) slices_S30x32x512_o2_0_0_S28x32x512 r j l).trans (by simp [tap12])
  | ⟨8, _⟩ => exact (band12_apply v9 2 (by decide) slices_S30x32x512_o2_0_0_S28x32x512 r j l).trans (by simp [tap12])
  | ⟨_ + 9, h⟩ => exact absurd h (by omega)

/-- The concatenation of the nine taps along the lanes, at lane `c`: tap `c / 512` at channel `c % 512`. -/
theorem cat12_apply (r : Fin 28) (j : Fin 32) (c : Fin 4608) :
    concatenate S28x32x4608 2 [⟨S28x32x512, extractStridedSlice S28x32x512 ![0, 0, 0] (shapeCast S30x32x512 v3 shapeCasts_S1x30x32x512_S30x32x512) slices_S30x32x512_o0_0_0_S28x32x512⟩,
      ⟨S28x32x512, extractStridedSlice S28x32x512 ![0, 0, 0] (shapeCast S30x32x512 v6 shapeCasts_S1x30x32x512_S30x32x512) slices_S30x32x512_o0_0_0_S28x32x512⟩,
      ⟨S28x32x512, extractStridedSlice S28x32x512 ![0, 0, 0] (shapeCast S30x32x512 v9 shapeCasts_S1x30x32x512_S30x32x512) slices_S30x32x512_o0_0_0_S28x32x512⟩,
      ⟨S28x32x512, extractStridedSlice S28x32x512 ![1, 0, 0] (shapeCast S30x32x512 v3 shapeCasts_S1x30x32x512_S30x32x512) slices_S30x32x512_o1_0_0_S28x32x512⟩,
      ⟨S28x32x512, extractStridedSlice S28x32x512 ![1, 0, 0] (shapeCast S30x32x512 v6 shapeCasts_S1x30x32x512_S30x32x512) slices_S30x32x512_o1_0_0_S28x32x512⟩,
      ⟨S28x32x512, extractStridedSlice S28x32x512 ![1, 0, 0] (shapeCast S30x32x512 v9 shapeCasts_S1x30x32x512_S30x32x512) slices_S30x32x512_o1_0_0_S28x32x512⟩,
      ⟨S28x32x512, extractStridedSlice S28x32x512 ![2, 0, 0] (shapeCast S30x32x512 v3 shapeCasts_S1x30x32x512_S30x32x512) slices_S30x32x512_o2_0_0_S28x32x512⟩,
      ⟨S28x32x512, extractStridedSlice S28x32x512 ![2, 0, 0] (shapeCast S30x32x512 v6 shapeCasts_S1x30x32x512_S30x32x512) slices_S30x32x512_o2_0_0_S28x32x512⟩,
      ⟨S28x32x512, extractStridedSlice S28x32x512 ![2, 0, 0] (shapeCast S30x32x512 v9 shapeCasts_S1x30x32x512_S30x32x512) slices_S30x32x512_o2_0_0_S28x32x512⟩]
      concatenates_S28x32x512_S28x32x512_S28x32x512_S28x32x512_S28x32x512_S28x32x512_S28x32x512_S28x32x512_S28x32x512_S28x32x4608_d2 (ix3 r j c)
      = tap12 v3 v6 v9 (c.val / 512 % 3) (r.val + c.val / 512 / 3) j.val (c.val % 512) := by
  have hn : c.val / 512 < 9 := by have := c.isLt; omega
  have hl : c.val % 512 < 512 := Nat.mod_lt _ (by decide)
  refine (concatenate_ofFn_apply (t := S28x32x4608) (s₁ := S28x32x512) 2 (pieces12 v3 v6 v9) concatenates_S28x32x512_S28x32x512_S28x32x512_S28x32x512_S28x32x512_S28x32x512_S28x32x512_S28x32x512_S28x32x512_S28x32x4608_d2 rfl 512 rfl
    (ix3 r j c) ⟨c.val / 512, hn⟩ rfl (ix3 r j ⟨c.val % 512, hl⟩) rfl ?_).trans ?_
  · intro b hb
    match b with
    | ⟨0, _⟩ => rfl
    | ⟨1, _⟩ => rfl
    | ⟨2, _⟩ => exact absurd rfl hb
  · exact pieces12_apply v3 v6 v9 ⟨c.val / 512, hn⟩ r j ⟨c.val % 512, hl⟩

/-- One convolution row of the tile at column `j`, output channel `co`: bias plus the sum over the lanes, then ReLU. -/
def crow12 (h j co : ℕ) : EReal :=
  max ((∑ K ∈ Finset.range 4608, tap12 v3 v6 v9 (K / 512 % 3) (h + K / 512 / 3) j (K % 512) * arr2 v22 K co) + arr2 v25 0 co) 0

/-- The payload at an entry of the output block: the larger of convolution rows `2i` and `2i+1`. -/
theorem pay12_apply (i : Fin 14) (j : Fin 32) (co : Fin 512) :
    k12_pay2 v3 v6 v9 v22 v25 (ix4 (0 : Fin 1) i j co)
      = max (crow12 v3 v6 v9 v22 v25 (2 * i.val) j.val co.val) (crow12 v3 v6 v9 v22 v25 (2 * i.val + 1) j.val co.val) := by
  have hne : Ideal.ofBits .f32 0xFF800000#32 = ⊥ := by simp [Ideal.ofBits, Ideal.ieee]
  rw [Nat.mul_comm 2 i.val]
  unfold k12_pay2
  refine (shapeCast_abc_1abc_apply _ _ (0 : Fin 1) i j co).trans ?_
  -- the narrowing to bf16 is the identity at the ideal values; under it, the maximum over the row pair
  refine (truncf_apply (φ := .f32) (ψ := .bf16) _ bitsLt_bf16_f32 (ix3 i j co)).trans ?_
  refine (Ideal.multiReduction_maximumf_single _ _ reduces_S14x2x32x512_S14x32x512 _ _ (ix3 i j co)).trans ?_
  refine (fold_max_pair12 _ _).trans ?_
  suffices h : ∀ r : Fin 2, (Function.comp _ (Shape.Reduces.lift reduces_S14x2x32x512_S14x32x512 (ix3 i j co))) r
      = crow12 v3 v6 v9 v22 v25 (i.val * 2 + r.val) j.val co.val from
    congrArg₂ max (h 0) ((congrArg₂ max (h 1) hne).trans (max_bot_right _))
  intro r
  have hh : i.val * 2 + r.val < 28 := by have := i.isLt; have := r.isLt; omega
  have hp : (i.val * 2 + r.val) * 32 + j.val < 896 := by have := j.isLt; omega
  unfold crow12
  -- row `2i + r` of the tile's convolution: position `(2i + r) * 32 + j` of the flattened product
  refine (shapeCast_apply _ _ (Shape.Reduces.lift reduces_S14x2x32x512_S14x32x512 (ix3 i j co) r) (ix2 ⟨(i.val * 2 + r.val) * 32 + j.val, hp⟩ co) ?_).trans ?_
  · rw [Shape.rowMajor_val_two, Shape.rowMajor_val_four]; rfl
  refine congrArg₂ max ?_ ?_
  swap
  · exact Ideal.ofBits_zero_f32
  refine congrArg₂ (· + ·) ?_ ?_
  swap
  · refine (broadcastTo_1b_ab_apply v25 _ ⟨(i.val * 2 + r.val) * 32 + j.val, hp⟩ co).trans ?_
    exact (arr2_apply v25 (0 : Fin 1) co).symm
  refine (mm12_apply _ _ ⟨(i.val * 2 + r.val) * 32 + j.val, hp⟩ co).trans ?_
  rw [← Fin.sum_univ_eq_sum_range (fun K => tap12 v3 v6 v9 (K / 512 % 3) (i.val * 2 + r.val + K / 512 / 3) j.val (K % 512) * arr2 v22 K co.val) 4608]
  refine Finset.sum_congr rfl fun c _ => ?_
  refine congrArg₂ (· * ·) ?_ ?_
  · refine (shapeCast_apply _ _ (ix2 ⟨(i.val * 2 + r.val) * 32 + j.val, hp⟩ c) (ix3 ⟨i.val * 2 + r.val, hh⟩ j c) ?_).trans ?_
    · rw [Shape.rowMajor_val_two, Shape.rowMajor_val_three]; rfl
    exact cat12_apply v3 v6 v9 ⟨i.val * 2 + r.val, hh⟩ j c
  · rw [shapeCast_self]
    exact (arr2_apply v22 c co).symm

/-- The strip the body stores over the padding columns is zero everywhere. -/
theorem strip12_zero (x : S1x14x4x512.Idx) : k12_pay1 (F := Ideal) x = 0 := by
  show Ideal.ofBits .bf16 0x0000#16 = 0
  simp [Ideal.ofBits, Ideal.ieee]

end Cert.KernelIdeal.Val

end
-- ==== Proof.KV12.lean ====
/-
  The value of kernel region 12: its output array after the pipeline, entry by entry, at the ideal values. Point `t` of
  the grid is tile `t % 1` of image `t / 1`; its body loads three column-shifted bands of 30 rows of the image's
  padded block, from row `28 · (t % 1)`, and stores 14 pooled rows, then zeros over the padding columns `28` and up; entry `(i, j, co)` of what it stores is the larger
  of rows `2i` and `2i + 1` of the tile's convolution, which are rows `2 · (14 · (t % 1) + i)` and the next of the image's.
  The output blocks tile the output array, so every entry of the array left of column 28 is the row-pair maximum of the
  convolution, and every entry from column 28 on is zero.
-/
import proofs.«100114_g2000204297211070_pallasbulk_1265_19_alg».proof.Proof.KR12
import proofs.«100114_g2000204297211070_pallasbulk_1265_19_alg».proof.Proof.KV12Pay
import Idealize.ShloMosaic.Lib.Pipeline.Value
import Idealize.ShloMosaic.Lib.Tactic

set_option maxRecDepth 16384

noncomputable section

open scoped BigOperators

namespace Cert.KernelIdeal.Val

open Cert.KernelIdeal Cert.KernelIdeal.Gen Cert.KernelIdeal.Reg Cert.Spec
open Idealize.ShloMosaic Idealize.ShloMosaic.TcCoe Idealize.ShloMosaic.Tactic Idealize.ShloMosaic.ValueIdx
open Idealize.SL.Sem
open Idealize.ShloMosaic.Pipeline (Dat)

variable (V : (c : Dev nD) → (b : Ref sig .tc) → Buf (Elt Ideal) ((c : Thread nD τ).loc b))

private theorem hz4 : (![0, 0, 0, 0] : Fin 4 → Nat) = fun _ => 0 := funext fun a => by fin_cases a <;> rfl
private theorem hz2 : (![0, 0] : Fin 2 → Nat) = fun _ => 0 := funext fun a => by fin_cases a <;> rfl

/-- The region's arrays as it finds them, by their literal types: the padded input, the flattened weights, the bias. -/
abbrev xarr12 (c : Dev nD) : Vec Ideal S8x30x34x512 .bf16 := V c (Pipeline.arrRef spec12 0)
abbrev warr12 (c : Dev nD) : Vec Ideal S4608x512 .bf16 := V c (Pipeline.arrRef spec12 1)
abbrev barr12 (c : Dev nD) : Vec Ideal S1x512 .f32 := V c (Pipeline.arrRef spec12 2)

/-- Which block of its array each window is on at point `t`, and the point's second grid coordinate. -/
theorem idx12 : ∀ t : Fin grid12.N,
    (win12_0.index t 0 = t.val / 1 ∧ win12_0.index t 1 = 0 ∧ win12_0.index t 2 = 0 ∧ win12_0.index t 3 = 0)
    ∧ (win12_1.index t 0 = 0 ∧ win12_1.index t 1 = 0) ∧ (win12_2.index t 0 = 0 ∧ win12_2.index t 1 = 0)
    ∧ (win12_3.index t 0 = t.val / 1 ∧ win12_3.index t 1 = t.val % 1 ∧ win12_3.index t 2 = 0 ∧ win12_3.index t 3 = 0)
    ∧ (grid12.coords t 1).val = t.val % 1 := by decide +kernel

/-! ## What the run leaves in the output's staging buffer: the payload of the loaded blocks -/

theorem out12_eq (c : Dev nD) (i : grid12.Coords) (arg2 : Memref sig .tc .vmem S1x30x34x512 .bf16) (harg2 : arg2.IsWhole) (arg3 : Memref sig .tc .vmem S4608x512 .bf16) (harg3 : arg3.IsWhole) (arg4 : Memref sig .tc .vmem S1x512 .f32) (harg4 : arg4.IsWhole) (arg5 : Memref sig .tc .vmem S1x14x32x512 .bf16) (harg5 : arg5.IsWhole)
    (x0 : Vec Ideal S1x30x34x512 .bf16) (x1 : Vec Ideal S4608x512 .bf16) (x2 : Vec Ideal S1x512 .f32) (y : S1x14x32x512.Idx) :
    out12_A_3 (F := Ideal) c i arg2 harg2 arg3 harg3 arg4 harg4 arg5 harg5 x0 x1 x2 y
      = if (y 2).val < 28 then k12_pay2 (View.ld x0 (Rect.unit (s := S1x30x34x512) (k12_off1 i) S1x30x32x512.size (k12_off1_inb i)))
      (View.ld x0 (Rect.unit (s := S1x30x34x512) (k12_off2 i) S1x30x32x512.size (k12_off2_inb i)))
      (View.ld x0 (Rect.unit (s := S1x30x34x512) (k12_off3 i) S1x30x32x512.size (k12_off3_inb i))) x1 x2 y else 0 := by
  unfold out12_A_3
  rw [View.read_writes_eq_canon _ _ _ (cover12_A_3 c i arg2 harg2 arg3 harg3 arg4 harg4 arg5 harg5 x0 x1 x2)]
  unfold kernelRun12_A
  dsimp only
  try sl_unfold_words
  simp only [View.readAt_eq_ld, harg2.read_unread, harg3.read_unread, harg4.read_unread, View.ld_unit_zero (S := S4608x512) hz2, View.ld_unit_zero (S := S1x512) hz2]
  have y0 : (y 0).val < 1 := (y 0).isLt
  have y1 : (y 1).val < 14 := (y 1).isLt
  have y2 : (y 2).val < 32 := (y 2).isLt
  have y3 : (y 3).val < 512 := (y 3).isLt
  by_cases hlt : (y 2).val < 28
  · -- left of the strip: off the later store, under the whole-block one
    rw [if_pos hlt]
    have hnm : y ∉ (Rect.unit (s := S1x14x32x512) ![0, 0, 28, 0] S1x14x4x512.size inb_S1x14x32x512_S1x14x4x512_0_0_28_0).set := fun hm => by
      have h2 := (Rect.mem_set_unit.mp hm (2 : Fin 4)).1
      have : 28 ≤ (y 2).val := h2
      omega
    refine (View.canon_cons_of_not_mem (⟨(Rect.unit (s := S1x14x32x512) ![0, 0, 28, 0] S1x14x4x512.size inb_S1x14x32x512_S1x14x4x512_0_0_28_0), k12_pay1 (F := Ideal)⟩ : View.Piece (Elt Ideal) S1x14x32x512 .bf16) _ hnm).trans ?_
    rw [View.canon_unit_zero hz4]
  · -- on the strip: the later store's zeros
    rw [if_neg hlt]
    have hm : y ∈ (Rect.unit (s := S1x14x32x512) ![0, 0, 28, 0] S1x14x4x512.size inb_S1x14x32x512_S1x14x4x512_0_0_28_0).set := by
      rw [Rect.mem_set_unit]
      intro a
      match a with
      | ⟨0, _⟩ => exact ⟨Nat.zero_le _, by show (y 0).val < 0 + 1; omega⟩
      | ⟨1, _⟩ => exact ⟨Nat.zero_le _, by show (y 1).val < 0 + 14; omega⟩
      | ⟨2, _⟩ => exact ⟨by show 28 ≤ (y 2).val; omega, by show (y 2).val < 32; omega⟩
      | ⟨3, _⟩ => exact ⟨Nat.zero_le _, by show (y 3).val < 0 + 512; omega⟩
    obtain ⟨x, rfl⟩ := (Rect.unit (s := S1x14x32x512) ![0, 0, 28, 0] S1x14x4x512.size inb_S1x14x32x512_S1x14x4x512_0_0_28_0).exists_idx_of_mem hm
    exact (View.canon_cons_emb (Rect.unit (s := S1x14x32x512) ![0, 0, 28, 0] S1x14x4x512.size inb_S1x14x32x512_S1x14x4x512_0_0_28_0) _ _ x).trans (strip12_zero x)

/-! ## The loaded bands and blocks as entries of the arrays -/

/-- A band of the block loaded from row `ro`, column `dx`, read as a total function of its coordinates. -/
theorem ldband12 (x0 : Vec Ideal S1x30x34x512 .bf16) (off : Fin 4 → ℕ) (inb : ∀ a, off a + S1x30x32x512.size a ≤ S1x30x34x512.size a)
    (ro dx : ℕ) (hoff : off = ![0, ro, dx, 0]) (R j l : ℕ) (hR : R < 30) (hj : j < 32) (hl : l < 512) :
    arr4 (View.ld x0 (Rect.unit (s := S1x30x34x512) off S1x30x32x512.size inb) : Vec Ideal S1x30x32x512 .bf16) 0 R j l
      = arr4 x0 0 (ro + R) (dx + j) l := by
  subst hoff
  have hro : ro + 30 ≤ 30 := by have h := inb ⟨1, by decide⟩; exact h
  have hdx : dx + 32 ≤ 34 := by have h := inb ⟨2, by decide⟩; exact h
  refine (arr4_apply _ (0 : Fin 1) ⟨R, hR⟩ ⟨j, hj⟩ ⟨l, hl⟩).trans ?_
  refine Eq.trans ?_ (arr4_apply x0 (0 : Fin 1) ⟨ro + R, by omega⟩ ⟨dx + j, by omega⟩ ⟨l, hl⟩).symm
  show x0 _ = x0 _
  congr 1
  funext a
  apply Fin.ext
  match a with
  | ⟨0, _⟩ => rfl
  | ⟨1, _⟩ => show ro + 1 * R = ro + R; omega
  | ⟨2, _⟩ => show dx + 1 * j = dx + j; omega
  | ⟨3, _⟩ => show 0 + 1 * l = l; omega

/-- The three bands the body loads at grid position `i`, as entries of the block: band `dx` at `(R, j, l)` is the block at
    row `28 · i₁ + R`, column `dx + j`. -/
theorem tap12_ld (x0 : Vec Ideal S1x30x34x512 .bf16) (i : grid12.Coords) (dx R j l : ℕ) (hdx : dx < 3) (hR : R < 30) (hj : j < 32) (hl : l < 512) :
    tap12 (View.ld x0 (Rect.unit (s := S1x30x34x512) (k12_off1 i) S1x30x32x512.size (k12_off1_inb i)))
      (View.ld x0 (Rect.unit (s := S1x30x34x512) (k12_off2 i) S1x30x32x512.size (k12_off2_inb i)))
      (View.ld x0 (Rect.unit (s := S1x30x34x512) (k12_off3 i) S1x30x32x512.size (k12_off3_inb i))) dx R j l
      = arr4 x0 0 (28 * (i 1).val + R) (dx + j) l := by
  unfold tap12
  interval_cases dx
  · rw [if_pos rfl]; exact ldband12 x0 _ _ _ 0 (k12_off1_eq i) R j l hR hj hl
  · rw [if_neg (by decide), if_pos rfl]; exact ldband12 x0 _ _ _ 1 (k12_off2_eq i) R j l hR hj hl
  · rw [if_neg (by decide), if_neg (by decide)]; exact ldband12 x0 _ _ _ 2 (k12_off3_eq i) R j l hR hj hl

/-- The input window's block at point `t` is image `t / 1` of the padded input. -/
theorem iblk12_0_arr (c : Dev nD) (t : Fin cfg12.N) (R w l : ℕ) (hR : R < 30) (hw : w < 34) (hl : l < 512) :
    arr4 (iblk12 V c 0 t : Vec Ideal S1x30x34x512 .bf16) 0 R w l = arr4 (xarr12 V c) (t.val / 1) R w l := by
  have hb : t.val / 1 < 8 := by have : t.val < 8 * 1 := t.isLt; omega
  obtain ⟨⟨h0, h1, h2, h3⟩, -⟩ := idx12 t
  refine (arr4_apply _ (0 : Fin 1) ⟨R, hR⟩ ⟨w, hw⟩ ⟨l, hl⟩).trans ?_
  refine Eq.trans ?_ (arr4_apply (xarr12 V c) ⟨t.val / 1, hb⟩ ⟨R, hR⟩ ⟨w, hw⟩ ⟨l, hl⟩).symm
  unfold iblk12
  rw [View.read_apply]
  show V c (Pipeline.arrRef spec12 0) _ = V c (Pipeline.arrRef spec12 0) _
  congr 1
  funext a
  apply Fin.ext
  match a with
  | ⟨0, _⟩ => show win12_0.index t 0 * 1 + 1 * 0 = t.val / 1; rw [h0]; omega
  | ⟨1, _⟩ => show win12_0.index t 1 * 30 + 1 * R = R; rw [h1]; omega
  | ⟨2, _⟩ => show win12_0.index t 2 * 34 + 1 * w = w; rw [h2]; omega
  | ⟨3, _⟩ => show win12_0.index t 3 * 512 + 1 * l = l; rw [h3]; omega

/-- The weights' and the bias's blocks are their whole arrays at every point. -/
theorem iblk12_1_eq (c : Dev nD) (t : Fin cfg12.N) : (iblk12 V c 1 t : Vec Ideal S4608x512 .bf16) = warr12 V c := by
  obtain ⟨-, ⟨h0, h1⟩, -⟩ := idx12 t
  funext y
  unfold iblk12
  rw [View.read_apply]
  show V c (Pipeline.arrRef spec12 1) _ = V c (Pipeline.arrRef spec12 1) y
  congr 1
  funext a
  apply Fin.ext
  match a with
  | ⟨0, _⟩ => show win12_1.index t 0 * 4608 + 1 * (y 0).val = (y 0).val; rw [h0]; omega
  | ⟨1, _⟩ => show win12_1.index t 1 * 512 + 1 * (y 1).val = (y 1).val; rw [h1]; omega

theorem iblk12_2_eq (c : Dev nD) (t : Fin cfg12.N) : (iblk12 V c 2 t : Vec Ideal S1x512 .f32) = barr12 V c := by
  obtain ⟨-, -, ⟨h0, h1⟩, -⟩ := idx12 t
  funext y
  unfold iblk12
  rw [View.read_apply]
  show V c (Pipeline.arrRef spec12 2) _ = V c (Pipeline.arrRef spec12 2) y
  congr 1
  funext a
  apply Fin.ext
  match a with
  | ⟨0, _⟩ => show win12_2.index t 0 * 1 + 1 * (y 0).val = (y 0).val; rw [h0]; omega
  | ⟨1, _⟩ => show win12_2.index t 1 * 512 + 1 * (y 1).val = (y 1).val; rw [h1]; omega

/-! ## A row of the tile's convolution is a row of the image's -/

/-- Row `h` of the convolution the body computes at point `t` is row `28 · (t % 1) + h` of image `t / 1`'s. -/
theorem crow12_conv (c : Dev nD) (t : Fin cfg12.N) (h j co : ℕ) (hh : h < 28) (hj : j < 32) :
    crow12 (View.ld (iblk12 V c 0 t : Vec Ideal S1x30x34x512 .bf16) (Rect.unit (s := S1x30x34x512) (k12_off1 (grid12.coords t)) S1x30x32x512.size (k12_off1_inb (grid12.coords t))))
      (View.ld (iblk12 V c 0 t : Vec Ideal S1x30x34x512 .bf16) (Rect.unit (s := S1x30x34x512) (k12_off2 (grid12.coords t)) S1x30x32x512.size (k12_off2_inb (grid12.coords t))))
      (View.ld (iblk12 V c 0 t : Vec Ideal S1x30x34x512 .bf16) (Rect.unit (s := S1x30x34x512) (k12_off3 (grid12.coords t)) S1x30x32x512.size (k12_off3_inb (grid12.coords t))))
        (iblk12 V c 1 t : Vec Ideal S4608x512 .bf16) (iblk12 V c 2 t : Vec Ideal S1x512 .f32) h j co
      = (convFlat 512 (arr4 (xarr12 V c)) (arr2 (warr12 V c)) (arr2 (barr12 V c))) (t.val / 1) (28 * (t.val % 1) + h) j co := by
  obtain ⟨-, -, -, -, hc1⟩ := idx12 t
  have hi1 : (grid12.coords t 1).val < 1 := (grid12.coords t 1).isLt
  unfold crow12 convFlat
  show max ((∑ K ∈ Finset.range 4608, _) + _) 0 = max ((∑ K ∈ Finset.range 4608, _) + _) 0
  refine congrArg₂ max (congrArg₂ (· + ·) (Finset.sum_congr rfl fun K hK => ?_) ?_) rfl
  · have hK : K < 4608 := Finset.mem_range.mp hK
    have hdy : K / 512 / 3 < 3 := by omega
    refine congrArg₂ (· * ·) ?_ ?_
    · refine (tap12_ld (iblk12 V c 0 t) (grid12.coords t) (K / 512 % 3) (h + K / 512 / 3) j (K % 512) (Nat.mod_lt _ (by decide)) (by omega) hj (Nat.mod_lt _ (by decide))).trans ?_
      refine (iblk12_0_arr V c t (28 * (grid12.coords t 1).val + (h + K / 512 / 3)) (K / 512 % 3 + j) (K % 512) (by omega) (by omega) (Nat.mod_lt _ (by decide))).trans ?_
      rw [hc1, ← Nat.add_assoc, Nat.add_comm (K / 512 % 3) j]
    · exact congrArg (fun A : Vec Ideal S4608x512 .bf16 => arr2 A K co) (iblk12_1_eq V c t)
  · exact congrArg (fun A : Vec Ideal S1x512 .f32 => arr2 A 0 co) (iblk12_2_eq V c t)

/-! ## What the output's staging buffer holds after a point, entry by entry -/

theorem outsAt12_apply (c : Dev nD) (t : Fin cfg12.N) (i : Fin 14) (j : Fin 32) (co : Fin 512) :
    outsAt12 V c t (ix4 (0 : Fin 1) i j co)
      = if j.val < 28 then hpool (convFlat 512 (arr4 (xarr12 V c)) (arr2 (warr12 V c)) (arr2 (barr12 V c))) (t.val / 1) (14 * (t.val % 1) + i.val) j.val co.val else 0 := by
  have hi := i.isLt
  unfold outsAt12
  rw [out12_eq]
  show (if j.val < 28 then _ else _) = _
  refine if_congr Iff.rfl ?_ rfl
  refine (pay12_apply _ _ _ _ _ i j co).trans ?_
  unfold hpool
  refine congrArg₂ max ((crow12_conv V c t (2 * i.val) j.val co.val (by omega) j.isLt).trans ?_)
    ((crow12_conv V c t (2 * i.val + 1) j.val co.val (by omega) j.isLt).trans ?_)
  · rw [show 28 * (t.val % 1) + 2 * i.val = 2 * (14 * (t.val % 1) + i.val) from by omega]
  · rw [show 28 * (t.val % 1) + (2 * i.val + 1) = 2 * (14 * (t.val % 1) + i.val) + 1 from by omega]

/-! ## The output array after the pipeline -/

/-- The array the region leaves: left of column 28 the row-pair maximum of the convolution of the padded input, zero from
    column 28 on. -/
def G12 (c : Dev nD) : Vec Ideal S8x14x32x512 .bf16 := fun y =>
  if (y 2).val < 28 then hpool (convFlat 512 (arr4 (xarr12 V c)) (arr2 (warr12 V c)) (arr2 (barr12 V c))) (y 0).val (y 1).val (y 2).val (y 3).val else 0

/-- Every write-back writes its block of that array. -/
theorem flushed12 (c : Dev nD) (t : Fin cfg12.N) (hf : (cfg12.win 3).flush t = true) :
    (dat12 (F := Ideal) V c).flushed 3 t = ((cfg12.win 3).blk t).view.read (Elt Ideal) (G12 V c) := by
  obtain ⟨-, -, -, ⟨h0, h1, h2, h3⟩, -⟩ := idx12 t
  show (dat12 (F := Ideal) V c).after 3 t = _
  rw [after12_3]
  funext y
  obtain ⟨y0, y1, y2, y3, rfl⟩ : ∃ (y0 : Fin 1) (y1 : Fin 14) (y2 : Fin 32) (y3 : Fin 512), y = ix4 y0 y1 y2 y3 :=
    ⟨y 0, y 1, y 2, y 3, eq_ix4 y⟩
  obtain rfl : y0 = 0 := Fin.ext (by have := y0.isLt; omega)
  rw [View.read_apply]
  refine (outsAt12_apply V c t y1 y2 y3).trans ?_
  show _ = if win12_3.index t 2 * 32 + 1 * y2.val < 28 then hpool (convFlat 512 (arr4 (xarr12 V c)) (arr2 (warr12 V c)) (arr2 (barr12 V c)))
    (win12_3.index t 0 * 1 + 1 * 0) (win12_3.index t 1 * 14 + 1 * y1.val) (win12_3.index t 2 * 32 + 1 * y2.val) (win12_3.index t 3 * 512 + 1 * y3.val) else 0
  rw [h0, h1, h2, h3,
    show t.val / 1 * 1 + 1 * 0 = t.val / 1 from by omega,
    show t.val % 1 * 14 + 1 * y1.val = 14 * (t.val % 1) + y1.val from by omega,
    show 0 * 32 + 1 * y2.val = y2.val from by omega,
    show 0 * 512 + 1 * y3.val = y3.val from by omega]

/-- An index of the output array is in point `t`'s block iff each coordinate is in the block's range on its axis. -/
theorem mem_blk12 (t : Fin cfg12.N) (i : S8x14x32x512.Idx) :
    i ∈ ((cfg12.win 3).blk t).view.set ↔ ∀ a : Fin 4, win12_3.index t a * S1x14x32x512.size a ≤ (i a).val ∧ (i a).val < win12_3.index t a * S1x14x32x512.size a + S1x14x32x512.size a := by
  show i ∈ ((View.whole (Pipeline.arrRef spec12 3)).slice (win12_3.rect t)).set ↔ _
  rw [View.set_slice_whole, Rect.mem_set_unit]
  exact Iff.rfl

/-- The output blocks tile the output array, so it ends holding that array. -/
theorem final12 (c : Dev nD) : (dat12 (F := Ideal) V c).arrAt 3 cfg12.N = G12 V c :=
  (dat12 (F := Ideal) V c).arrAt_eq_of_cover 3 (G12 V c) (fun t hf => flushed12 V c t hf) (fun i => by
    have i0 : (i 0).val < 8 := (i 0).isLt
    have i1 : (i 1).val < 14 := (i 1).isLt
    have i2 : (i 2).val < 32 := (i 2).isLt
    have i3 : (i 3).val < 512 := (i 3).isLt
    have ht : (i 0).val * 1 + (i 1).val / 14 < cfg12.N := by show _ < 8 * 1; omega
    obtain ⟨-, -, -, ⟨h0, h1, h2, h3⟩, -⟩ := idx12 ⟨(i 0).val * 1 + (i 1).val / 14, ht⟩
    refine ⟨⟨(i 0).val * 1 + (i 1).val / 14, ht⟩, flush12_3 _, ?_⟩
    rw [mem_blk12]
    intro a
    match a with
    | ⟨0, _⟩ => show win12_3.index _ (0 : Fin 4) * 1 ≤ (i 0).val ∧ (i 0).val < win12_3.index _ (0 : Fin 4) * 1 + 1; simp only [] at h0; omega
    | ⟨1, _⟩ => show win12_3.index _ (1 : Fin 4) * 14 ≤ (i 1).val ∧ (i 1).val < win12_3.index _ (1 : Fin 4) * 14 + 14; simp only [] at h1; omega
    | ⟨2, _⟩ => show win12_3.index _ (2 : Fin 4) * 32 ≤ (i 2).val ∧ (i 2).val < win12_3.index _ (2 : Fin 4) * 32 + 32; omega
    | ⟨3, _⟩ => show win12_3.index _ (3 : Fin 4) * 512 ≤ (i 3).val ∧ (i 3).val < win12_3.index _ (3 : Fin 4) * 512 + 512; omega)

/-- The region's value: every entry of its output array left of column 28 is the row-pair maximum of the convolution, with
    bias and ReLU, of its padded input with its flattened weights; every entry from column 28 on is zero. -/
theorem conv12_value (c : Dev nD) (b i j co : ℕ) (hb : b < 8) (hi : i < 14) (hj : j < 32) (hco : co < 512) :
    Cert.Spec.arr4 ((dat12 (F := Ideal) V c).arrAt 3 cfg12.N : Vec Ideal S8x14x32x512 .bf16) b i j co
      = if j < 28 then Cert.Spec.hpool (Cert.Spec.convFlat 512 (Cert.Spec.arr4 (V c (Pipeline.arrRef spec12 0) : Vec Ideal S8x30x34x512 .bf16))
          (Cert.Spec.arr2 (V c (Pipeline.arrRef spec12 1) : Vec Ideal S4608x512 .bf16))
          (Cert.Spec.arr2 (V c (Pipeline.arrRef spec12 2) : Vec Ideal S1x512 .f32))) b i j co else 0 := by
  rw [final12]
  exact arr4_apply (G12 V c) ⟨b, hb⟩ ⟨i, hi⟩ ⟨j, hj⟩ ⟨co, hco⟩

end Cert.KernelIdeal.Val

end
-- ==== Proof.KV13.lean ====
/-
  The value of kernel region 13 (the lane-half maximum that finishes a 2x2 pooling). The body loads its input
  block whole — one batch image of 14 x 16 pixels with 1024 lanes, the two members of a column pair side by side on the
  lanes — and stores the pointwise maximum of the block's two lane halves. Grid point t is batch t, and the output
  blocks tile the output array; so after the region the output array holds, at batch b, row i, column j, channel ch,
  the maximum of the input array's entries at lanes ch and ch + 512 of the same pixel.
-/
import proofs.«100114_g2000204297211070_pallasbulk_1265_19_alg».proof.Proof.KR13
import proofs.«100114_g2000204297211070_pallasbulk_1265_19_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Val

open Cert.KernelIdeal Cert.KernelIdeal.Gen Cert.KernelIdeal.Reg
open Idealize.ShloMosaic Idealize.ShloMosaic.TcCoe Idealize.ShloMosaic.ValueIdx
open Idealize.ShloMosaic.Pipeline (Dat)

section Generic

variable {F : FTy → Type} [FloatOps F]

variable (V : (c : Dev nD) → (b : Ref sig .tc) → Buf (Elt F) ((c : Thread nD τ).loc b))

/-- The region's input array as it finds it, at its literal type. -/
abbrev xarr13 (c : Dev nD) : FVec F S8x14x16x1024 .bf16 := V c (Pipeline.arrRef spec13 0)

/-- What the output array ends holding: at every index the maximum of the input array's entries at the same pixel on
    lane ch and on lane ch + 512. -/
def G13 (X : FVec F S8x14x16x1024 .bf16) : FVec F S8x14x16x512 .bf16 := fun i =>
  FloatOps.maximumf
    (X (ix4 (n0 := 8) (n1 := 14) (n2 := 16) (n3 := 1024) (i 0) (i 1) (i 2) ⟨(i 3).val, Nat.lt_of_lt_of_le (i 3).isLt (by decide)⟩))
    (X (ix4 (n0 := 8) (n1 := 14) (n2 := 16) (n3 := 1024) (i 0) (i 1) (i 2) ⟨(i 3).val + 512, Nat.add_lt_of_lt_sub (Nat.lt_of_lt_of_le (i 3).isLt (by decide))⟩))

private theorem hz13 : (![0, 0, 0, 0] : Fin 4 → Nat) = fun _ => 0 := funext fun a => by fin_cases a <;> rfl

/-- The body's payload at an index of its block: the maximum of the loaded block's entries on lane l and lane l + 512. -/
theorem pay13_apply (x : Vec F S1x14x16x1024 .bf16) (z : Fin 1) (i : Fin 14) (j : Fin 16) (l : Fin 512) :
    k13_pay1 x (ix4 z i j l)
      = FloatOps.maximumf (x (ix4 (0 : Fin 1) i j ⟨l.val, Nat.lt_of_lt_of_le l.isLt (by decide)⟩))
          (x (ix4 (0 : Fin 1) i j ⟨l.val + 512, Nat.add_lt_of_lt_sub (Nat.lt_of_lt_of_le l.isLt (by decide))⟩)) := by
  unfold k13_pay1
  refine (shapeCast_abc_1abc_apply _ shapeCasts_S14x16x512_S1x14x16x512 z i j l).trans ?_
  show FloatOps.maximumf
      (extractStridedSlice S14x16x512 ![0, 0, 0] (shapeCast S14x16x1024 x shapeCasts_S1x14x16x1024_S14x16x1024) slices_S14x16x1024_o0_0_0_S14x16x512 (ix3 i j l))
      (extractStridedSlice S14x16x512 ![0, 0, 512] (shapeCast S14x16x1024 x shapeCasts_S1x14x16x1024_S14x16x1024) slices_S14x16x1024_o0_0_512_S14x16x512 (ix3 i j l)) = _
  -- the low lane half reads lane l, the high one lane l + 512
  have lo := extractStridedSlice_apply ![0, 0, 0] (shapeCast S14x16x1024 x shapeCasts_S1x14x16x1024_S14x16x1024) slices_S14x16x1024_o0_0_0_S14x16x512
    (ix3 i j l) (ix3 i j ⟨l.val, Nat.lt_of_lt_of_le l.isLt (by decide)⟩) (fun a => by
      match a with
      | ⟨0, _⟩ => exact (Nat.zero_add _).symm
      | ⟨1, _⟩ => exact (Nat.zero_add _).symm
      | ⟨2, _⟩ => exact (Nat.zero_add _).symm)
  have hi := extractStridedSlice_apply ![0, 0, 512] (shapeCast S14x16x1024 x shapeCasts_S1x14x16x1024_S14x16x1024) slices_S14x16x1024_o0_0_512_S14x16x512
    (ix3 i j l) (ix3 i j ⟨l.val + 512, Nat.add_lt_of_lt_sub (Nat.lt_of_lt_of_le l.isLt (by decide))⟩) (fun a => by
      match a with
      | ⟨0, _⟩ => exact (Nat.zero_add _).symm
      | ⟨1, _⟩ => exact (Nat.zero_add _).symm
      | ⟨2, _⟩ => exact Nat.add_comm _ _)
  -- and the block with its unit axis dropped reads the block at batch coordinate 0
  exact congrArg₂ FloatOps.maximumf
    (lo.trans (shapeCast_1abc_abc_apply x shapeCasts_S1x14x16x1024_S14x16x1024 i j _))
    (hi.trans (shapeCast_1abc_abc_apply x shapeCasts_S1x14x16x1024_S14x16x1024 i j _))

/-- The printed index maps, decided over the grid: both windows' block index at point t is (t, 0, 0, 0). -/
theorem idx_facts13 : ∀ t : Fin cfg13.N, win13_0.index t (0 : Fin 4) = t.val ∧ win13_0.index t (1 : Fin 4) = 0
    ∧ win13_0.index t (2 : Fin 4) = 0 ∧ win13_0.index t (3 : Fin 4) = 0
    ∧ win13_1.index t (0 : Fin 4) = t.val ∧ win13_1.index t (1 : Fin 4) = 0
    ∧ win13_1.index t (2 : Fin 4) = 0 ∧ win13_1.index t (3 : Fin 4) = 0 :=
  (by decide +kernel : ∀ t : Fin grid13.N, _)

/-- What point t writes back is block t of `G13` of the input array as the region finds it. -/
theorem flushed13_eq (c : Dev nD) (t : Fin cfg13.N) :
    (dat13 V c).flushed 1 t = ((cfg13.win 1).blk t).view.read (Elt F) (G13 (xarr13 V c)) := by
  show (cfg13.win 1).cut (grid13.coords t) ((dat13 V c).after 1 t) = _
  rw [after13_1]
  unfold out13_1
  rw [View.canon_unit_zero hz13]
  simp only [View.ld_unit_zero (S := S1x14x16x1024) hz13]
  obtain ⟨e0, e1, e2, e3, e4, e5, e6, e7⟩ := idx_facts13 t
  funext y
  obtain ⟨z, i, j, l, rfl⟩ : ∃ (z : Fin 1) (i : Fin 14) (j : Fin 16) (l : Fin 512), y = ix4 z i j l :=
    ⟨_, _, _, _, eq_ix4 (n0 := 1) (n1 := 14) (n2 := 16) (n3 := 512) y⟩
  show k13_pay1 (iblk13 V c 0 t) (ix4 z i j l) = G13 (xarr13 V c) (((cfg13.win 1).blk t).view.emb (ix4 z i j l))
  refine (pay13_apply (iblk13 V c 0 t) z i j l).trans ?_
  show FloatOps.maximumf
      (xarr13 V c (((cfg13.win 0).blk t).view.emb (ix4 (0 : Fin 1) i j ⟨l.val, _⟩)))
      (xarr13 V c (((cfg13.win 0).blk t).view.emb (ix4 (0 : Fin 1) i j ⟨l.val + 512, _⟩))) = _
  unfold G13
  have hz : z.val = 0 := by have := z.isLt; omega
  refine congrArg₂ FloatOps.maximumf (congrArg (xarr13 V c) ?_) (congrArg (xarr13 V c) ?_)
  · funext a; apply Fin.ext
    match a with
    | ⟨0, _⟩ => show win13_0.index t (0 : Fin 4) * 1 + 1 * 0 = win13_1.index t (0 : Fin 4) * 1 + 1 * z.val; omega
    | ⟨1, _⟩ => show win13_0.index t (1 : Fin 4) * 14 + 1 * i.val = win13_1.index t (1 : Fin 4) * 14 + 1 * i.val; omega
    | ⟨2, _⟩ => show win13_0.index t (2 : Fin 4) * 16 + 1 * j.val = win13_1.index t (2 : Fin 4) * 16 + 1 * j.val; omega
    | ⟨3, _⟩ => show win13_0.index t (3 : Fin 4) * 1024 + 1 * l.val = win13_1.index t (3 : Fin 4) * 512 + 1 * l.val; omega
  · funext a; apply Fin.ext
    match a with
    | ⟨0, _⟩ => show win13_0.index t (0 : Fin 4) * 1 + 1 * 0 = win13_1.index t (0 : Fin 4) * 1 + 1 * z.val; omega
    | ⟨1, _⟩ => show win13_0.index t (1 : Fin 4) * 14 + 1 * i.val = win13_1.index t (1 : Fin 4) * 14 + 1 * i.val; omega
    | ⟨2, _⟩ => show win13_0.index t (2 : Fin 4) * 16 + 1 * j.val = win13_1.index t (2 : Fin 4) * 16 + 1 * j.val; omega
    | ⟨3, _⟩ => show win13_0.index t (3 : Fin 4) * 1024 + 1 * (l.val + 512) = win13_1.index t (3 : Fin 4) * 512 + 1 * l.val + 512; omega

/-- Every index of the output array is in the block of the point its batch coordinate names. -/
theorem cover13 (i : S8x14x16x512.Idx) :
    ∃ t : Fin cfg13.N, (cfg13.win 1).flush t = true ∧ i ∈ ((cfg13.win 1).blk t).view.set := by
  have h0 : (i 0).val < 8 := (i 0).isLt
  obtain ⟨t, ht⟩ : ∃ t : Fin cfg13.N, t.val = (i 0).val := ⟨⟨(i 0).val, by show (i 0).val < grid13.N; rw [N_13]; exact h0⟩, rfl⟩
  refine ⟨t, flush13_1 t, ?_⟩
  obtain ⟨e0, e1, e2, e3, e4, e5, e6, e7⟩ := idx_facts13 t
  have e : ((cfg13.win 1).blk t).view.emb (ix4 (n0 := 1) (n1 := 14) (n2 := 16) (n3 := 512) ⟨0, Nat.one_pos⟩ (i 1) (i 2) (i 3)) = i := by
    funext a; apply Fin.ext
    match a with
    | ⟨0, _⟩ => show win13_1.index t (0 : Fin 4) * 1 + 1 * 0 = (i 0).val; omega
    | ⟨1, _⟩ => show win13_1.index t (1 : Fin 4) * 14 + 1 * (i 1).val = (i 1).val; omega
    | ⟨2, _⟩ => show win13_1.index t (2 : Fin 4) * 16 + 1 * (i 2).val = (i 2).val; omega
    | ⟨3, _⟩ => show win13_1.index t (3 : Fin 4) * 512 + 1 * (i 3).val = (i 3).val; omega
  have hm := ((cfg13.win 1).blk t).view.emb_mem_set (ix4 (n0 := 1) (n1 := 14) (n2 := 16) (n3 := 512) ⟨0, Nat.one_pos⟩ (i 1) (i 2) (i 3))
  rw [e] at hm
  exact hm

/-- The output array after the region: `G13` of the input array. -/
theorem final13 (c : Dev nD) : (dat13 V c).arrAt 1 cfg13.N = G13 (xarr13 V c) :=
  (dat13 V c).arrAt_eq_of_cover 1 (G13 (xarr13 V c)) (fun t _ => flushed13_eq V c t) cover13

end Generic

/-- At the ideal values, in natural coordinates: the output array at batch b, row i, column j, channel ch is the maximum
    of the input array's entries at the same pixel on lanes ch and ch + 512. -/
theorem wpool13_value (V : (c : Dev nD) → (b : Ref sig .tc) → Buf (Elt Ideal) ((c : Thread nD τ).loc b)) (c : Dev nD)
    (b i j ch : ℕ) (hb : b < 8) (hi : i < 14) (hj : j < 16) (hch : ch < 512) :
    Cert.Spec.arr4 ((dat13 (F := Ideal) V c).arrAt 1 cfg13.N) b i j ch
      = max (Cert.Spec.arr4 (V c (Pipeline.arrRef spec13 0)) b i j ch) (Cert.Spec.arr4 (V c (Pipeline.arrRef spec13 0)) b i j (ch + 512)) := by
  rw [final13]
  refine (Cert.Spec.arr4_apply (n0 := 8) (n1 := 14) (n2 := 16) (n3 := 512) (G13 (xarr13 V c)) ⟨b, hb⟩ ⟨i, hi⟩ ⟨j, hj⟩ ⟨ch, hch⟩).trans ?_
  refine Eq.trans ?_ (congrArg₂ (max : EReal → EReal → EReal)
    (Cert.Spec.arr4_apply (n0 := 8) (n1 := 14) (n2 := 16) (n3 := 1024) (xarr13 V c) ⟨b, hb⟩ ⟨i, hi⟩ ⟨j, hj⟩ ⟨ch, by omega⟩)
    (Cert.Spec.arr4_apply (n0 := 8) (n1 := 14) (n2 := 16) (n3 := 1024) (xarr13 V c) ⟨b, hb⟩ ⟨i, hi⟩ ⟨j, hj⟩ ⟨ch + 512, by omega⟩)).symm
  rfl

end Cert.KernelIdeal.Val

end
-- ==== Proof.KV14Pay.lean ====
/-
  The interior payload of kernel region 14 read at one entry, at the ideal values: the body's interior store writes, at
  row r, column j, output channel co of its 14 x 16 block of pixels, the bias plus the sum over the 4608 lanes K of the
  nine lane-concatenated taps times row K of the flattened weights, clamped below at zero. Lane K is tap K / 512 (row
  offset K / 512 / 3, column band K / 512 % 3) at input channel K % 512; band dx is the padded input block read from
  column dx on. The four border payloads are zeros.
-/
import proofs.«100114_g2000204297211070_pallasbulk_1265_19_alg».proof.Proof.Gen.KernelIdeal.Skeleton
import proofs.«100114_g2000204297211070_pallasbulk_1265_19_alg».proof.Proof.Spec
import Idealize.ShloMosaic.Lib.Pipeline.Value
import Idealize.ShloMosaic.Lib.ValueLayout
import Idealize.ShloMosaic.Lib.IdealHost
import Idealize.ShloMosaic.PureOps.Ideal.Laws

set_option maxRecDepth 16384

noncomputable section

open scoped BigOperators

namespace Cert.KernelIdeal.Val

open Cert.KernelIdeal Cert.KernelIdeal.Gen Cert.Spec
open Idealize.ShloMosaic Idealize.ShloMosaic.ValueIdx

/-- The block product into the zero accumulator, at an entry: the sum over the contracted coordinate. -/
theorem mm14_apply (A : FVec Ideal S224x4608 .bf16) (B : FVec Ideal S4608x512 .bf16) (a : Fin 224) (b : Fin 512) :
    matmul dot_S224x4608_S4608x512_S224x512_1_0_0_1_n_n none A B (constant S224x512 .f32 0x00000000#32) (ix2 a b)
      = ∑ c : Fin 4608, A (ix2 a c) * B (ix2 c b) := by
  refine (Ideal.matmul_constant_zero_apply (φ₁ := .bf16) (φ₂ := .bf16) _ _ _ _ _).trans ?_
  refine (Equiv.sum_comp (contrEquiv1 dot_S224x4608_S4608x512_S224x512_1_0_0_1_n_n 4608 rfl rfl).symm _).symm.trans ?_
  refine Finset.sum_congr rfl fun c _ => ?_
  have c2 := contrEquiv1_symm_val dot_S224x4608_S4608x512_S224x512_1_0_0_1_n_n 4608 rfl rfl c
  refine congrArg₂ (· * ·) (congrArg A (funext fun ax => Fin.ext ?_)) (congrArg B (funext fun ax => Fin.ext ?_))
  · fin_cases ax
    · rfl
    · exact c2
  · fin_cases ax
    · exact c2
    · rfl

/-- One tap: the band v (the 16 rows of the padded block) with its unit axis dropped, cut from row dy, at an entry. -/
theorem band14_apply (v : Vec Ideal S1x16x16x512 .bf16) (dy : ℕ) (hdy : dy ≤ 2) (h : S16x16x512.Slices ![dy, 0, 0] S14x16x512)
    (r : Fin 14) (j : Fin 16) (l : Fin 512) :
    extractStridedSlice S14x16x512 ![dy, 0, 0] (shapeCast S16x16x512 v shapeCasts_S1x16x16x512_S16x16x512) h (ix3 r j l)
      = arr4 v 0 (r.val + dy) j.val l.val := by
  have hR : r.val + dy < 16 := by have := r.isLt; omega
  refine (extractStridedSlice_apply _ _ h (ix3 r j l) (ix3 ⟨r.val + dy, hR⟩ j l) (fun a => ?_)).trans ?_
  · match a with
    | ⟨0, _⟩ => exact Nat.add_comm _ _
    | ⟨1, _⟩ => exact (Nat.zero_add _).symm
    | ⟨2, _⟩ => exact (Nat.zero_add _).symm
  · refine (shapeCast_1abc_abc_apply v _ ⟨r.val + dy, hR⟩ j l).trans ?_
    exact (arr4_apply v (0 : Fin 1) ⟨r.val + dy, hR⟩ j l).symm

section Payload

variable (v3 v6 v9 : Vec Ideal S1x16x16x512 .bf16) (v22 : Vec Ideal S4608x512 .bf16) (v25 : Vec Ideal S1x512 .f32)

/-- The three loaded bands, by column offset, as one total function: band dx at row R, column j, channel l. -/
def tap14 (dx R j l : ℕ) : EReal :=
  if dx = 0 then arr4 v3 0 R j l else if dx = 1 then arr4 v6 0 R j l else arr4 v9 0 R j l

/-- The nine taps in the concatenation's order: tap n is the band at column offset n % 3 cut from row n / 3. -/
def pieces14 : Fin 9 → (S14x16x512.Idx → EReal) :=
  ![extractStridedSlice S14x16x512 ![0, 0, 0] (shapeCast S16x16x512 v3 shapeCasts_S1x16x16x512_S16x16x512) slices_S16x16x512_o0_0_0_S14x16x512,
    extractStridedSlice S14x16x512 ![0, 0, 0] (shapeCast S16x16x512 v6 shapeCasts_S1x16x16x512_S16x16x512) slices_S16x16x512_o0_0_0_S14x16x512,
    extractStridedSlice S14x16x512 ![0, 0, 0] (shapeCast S16x16x512 v9 shapeCasts_S1x16x16x512_S16x16x512) slices_S16x16x512_o0_0_0_S14x16x512,
    extractStridedSlice S14x16x512 ![1, 0, 0] (shapeCast S16x16x512 v3 shapeCasts_S1x16x16x512_S16x16x512) slices_S16x16x512_o1_0_0_S14x16x512,
    extractStridedSlice S14x16x512 ![1, 0, 0] (shapeCast S16x16x512 v6 shapeCasts_S1x16x16x512_S16x16x512) slices_S16x16x512_o1_0_0_S14x16x512,
    extractStridedSlice S14x16x512 ![1, 0, 0] (shapeCast S16x16x512 v9 shapeCasts_S1x16x16x512_S16x16x512) slices_S16x16x512_o1_0_0_S14x16x512,
    extractStridedSlice S14x16x512 ![2, 0, 0] (shapeCast S16x16x512 v3 shapeCasts_S1x16x16x512_S16x16x512) slices_S16x16x512_o2_0_0_S14x16x512,
    extractStridedSlice S14x16x512 ![2, 0, 0] (shapeCast S16x16x512 v6 shapeCasts_S1x16x16x512_S16x16x512) slices_S16x16x512_o2_0_0_S14x16x512,
    extractStridedSlice S14x16x512 ![2, 0, 0] (shapeCast S16x16x512 v9 shapeCasts_S1x16x16x512_S16x16x512) slices_S16x16x512_o2_0_0_S14x16x512]

theorem tap14_zero (R j l : ℕ) : tap14 v3 v6 v9 0 R j l = arr4 v3 0 R j l := if_pos rfl
theorem tap14_one (R j l : ℕ) : tap14 v3 v6 v9 1 R j l = arr4 v6 0 R j l := (if_neg (by decide)).trans (if_pos rfl)
theorem tap14_two (R j l : ℕ) : tap14 v3 v6 v9 2 R j l = arr4 v9 0 R j l := (if_neg (by decide)).trans (if_neg (by decide))

theorem pieces14_apply (n : ℕ) (hn : n < 9) (r : Fin 14) (j : Fin 16) (l : Fin 512) :
    pieces14 v3 v6 v9 ⟨n, hn⟩ (ix3 r j l) = tap14 v3 v6 v9 (n % 3) (r.val + n / 3) j.val l.val := by
  interval_cases n
  · exact (band14_apply v3 0 (by decide) slices_S16x16x512_o0_0_0_S14x16x512 r j l).trans (tap14_zero v3 v6 v9 (r.val + 0) j.val l.val).symm
  · exact (band14_apply v6 0 (by decide) slices_S16x16x512_o0_0_0_S14x16x512 r j l).trans (tap14_one v3 v6 v9 (r.val + 0) j.val l.val).symm
  · exact (band14_apply v9 0 (by decide) slices_S16x16x512_o0_0_0_S14x16x512 r j l).trans (tap14_two v3 v6 v9 (r.val + 0) j.val l.val).symm
  · exact (band14_apply v3 1 (by decide) slices_S16x16x512_o1_0_0_S14x16x512 r j l).trans (tap14_zero v3 v6 v9 (r.val + 1) j.val l.val).symm
  · exact (band14_apply v6 1 (by decide) slices_S16x16x512_o1_0_0_S14x16x512 r j l).trans (tap14_one v3 v6 v9 (r.val + 1) j.val l.val).symm
  · exact (band14_apply v9 1 (by decide) slices_S16x16x512_o1_0_0_S14x16x512 r j l).trans (tap14_two v3 v6 v9 (r.val + 1) j.val l.val).symm
  · exact (band14_apply v3 2 (by decide) slices_S16x16x512_o2_0_0_S14x16x512 r j l).trans (tap14_zero v3 v6 v9 (r.val + 2) j.val l.val).symm
  · exact (band14_apply v6 2 (by decide) slices_S16x16x512_o2_0_0_S14x16x512 r j l).trans (tap14_one v3 v6 v9 (r.val + 2) j.val l.val).symm
  · exact (band14_apply v9 2 (by decide) slices_S16x16x512_o2_0_0_S14x16x512 r j l).trans (tap14_two v3 v6 v9 (r.val + 2) j.val l.val).symm

/-- The concatenation of the nine taps along the lanes, at lane c: tap c / 512 at channel c % 512. -/
theorem cat14_apply (r : Fin 14) (j : Fin 16) (c : Fin 4608) :
    concatenate S14x16x4608 2 [⟨S14x16x512, extractStridedSlice S14x16x512 ![0, 0, 0] (shapeCast S16x16x512 v3 shapeCasts_S1x16x16x512_S16x16x512) slices_S16x16x512_o0_0_0_S14x16x512⟩,
      ⟨S14x16x512, extractStridedSlice S14x16x512 ![0, 0, 0] (shapeCast S16x16x512 v6 shapeCasts_S1x16x16x512_S16x16x512) slices_S16x16x512_o0_0_0_S14x16x512⟩,
      ⟨S14x16x512, extractStridedSlice S14x16x512 ![0, 0, 0] (shapeCast S16x16x512 v9 shapeCasts_S1x16x16x512_S16x16x512) slices_S16x16x512_o0_0_0_S14x16x512⟩,
      ⟨S14x16x512, extractStridedSlice S14x16x512 ![1, 0, 0] (shapeCast S16x16x512 v3 shapeCasts_S1x16x16x512_S16x16x512) slices_S16x16x512_o1_0_0_S14x16x512⟩,
      ⟨S14x16x512, extractStridedSlice S14x16x512 ![1, 0, 0] (shapeCast S16x16x512 v6 shapeCasts_S1x16x16x512_S16x16x512) slices_S16x16x512_o1_0_0_S14x16x512⟩,
      ⟨S14x16x512, extractStridedSlice S14x16x512 ![1, 0, 0] (shapeCast S16x16x512 v9 shapeCasts_S1x16x16x512_S16x16x512) slices_S16x16x512_o1_0_0_S14x16x512⟩,
      ⟨S14x16x512, extractStridedSlice S14x16x512 ![2, 0, 0] (shapeCast S16x16x512 v3 shapeCasts_S1x16x16x512_S16x16x512) slices_S16x16x512_o2_0_0_S14x16x512⟩,
      ⟨S14x16x512, extractStridedSlice S14x16x512 ![2, 0, 0] (shapeCast S16x16x512 v6 shapeCasts_S1x16x16x512_S16x16x512) slices_S16x16x512_o2_0_0_S14x16x512⟩,
      ⟨S14x16x512, extractStridedSlice S14x16x512 ![2, 0, 0] (shapeCast S16x16x512 v9 shapeCasts_S1x16x16x512_S16x16x512) slices_S16x16x512_o2_0_0_S14x16x512⟩]
      concatenates_S14x16x512_S14x16x512_S14x16x512_S14x16x512_S14x16x512_S14x16x512_S14x16x512_S14x16x512_S14x16x512_S14x16x4608_d2 (ix3 r j c)
      = tap14 v3 v6 v9 (c.val / 512 % 3) (r.val + c.val / 512 / 3) j.val (c.val % 512) := by
  have hn : c.val / 512 < 9 := by have := c.isLt; omega
  have hl : c.val % 512 < 512 := Nat.mod_lt _ (by decide)
  refine (concatenate_ofFn_apply (t := S14x16x4608) (s₁ := S14x16x512) 2 (pieces14 v3 v6 v9) concatenates_S14x16x512_S14x16x512_S14x16x512_S14x16x512_S14x16x512_S14x16x512_S14x16x512_S14x16x512_S14x16x512_S14x16x4608_d2 rfl 512 rfl
    (ix3 r j c) ⟨c.val / 512, hn⟩ rfl (ix3 r j ⟨c.val % 512, hl⟩) rfl ?_).trans ?_
  · intro b hb
    match b with
    | ⟨0, _⟩ => rfl
    | ⟨1, _⟩ => rfl
    | ⟨2, _⟩ => exact absurd rfl hb
  · exact pieces14_apply v3 v6 v9 (c.val / 512) hn r j ⟨c.val % 512, hl⟩

/-- The interior payload at an entry of its block. -/
theorem conv14_pay_apply (r : Fin 14) (j : Fin 16) (co : Fin 512) :
    k14_pay5 v3 v6 v9 v22 v25 (ix4 (0 : Fin 1) r j co)
      = max ((∑ K ∈ Finset.range 4608, tap14 v3 v6 v9 (K / 512 % 3) (r.val + K / 512 / 3) j.val (K % 512) * arr2 v22 K co.val)
          + arr2 v25 0 co.val) 0 := by
  have hp : r.val * 16 + j.val < 224 := by have := r.isLt; have := j.isLt; omega
  unfold k14_pay5
  refine (shapeCast_abc_1abc_apply _ _ (0 : Fin 1) r j co).trans ?_
  refine (truncf_apply (φ := .f32) (ψ := .bf16) _ bitsLt_bf16_f32 (ix3 r j co)).trans ?_
  refine (shapeCast_apply _ _ (ix3 r j co) (ix2 ⟨r.val * 16 + j.val, hp⟩ co) ?_).trans ?_
  · rw [Shape.rowMajor_val_two, Shape.rowMajor_val_three]; rfl
  refine congrArg₂ max ?_ ?_
  swap
  · exact Ideal.ofBits_zero_f32
  refine congrArg₂ (· + ·) ?_ ?_
  swap
  · refine (broadcastTo_1b_ab_apply v25 _ ⟨r.val * 16 + j.val, hp⟩ co).trans ?_
    exact (arr2_apply v25 (0 : Fin 1) co).symm
  refine (mm14_apply _ _ ⟨r.val * 16 + j.val, hp⟩ co).trans ?_
  rw [← Fin.sum_univ_eq_sum_range (fun K => tap14 v3 v6 v9 (K / 512 % 3) (r.val + K / 512 / 3) j.val (K % 512) * arr2 v22 K co.val) 4608]
  refine Finset.sum_congr rfl fun c _ => ?_
  refine congrArg₂ (· * ·) ?_ ?_
  · refine (shapeCast_apply _ _ (ix2 ⟨r.val * 16 + j.val, hp⟩ c) (ix3 r j c) ?_).trans ?_
    · rw [Shape.rowMajor_val_two, Shape.rowMajor_val_three]; rfl
    exact cat14_apply v3 v6 v9 r j c
  · refine (congrFun (shapeCast_self _ _) _).trans ?_
    exact (arr2_apply v22 c co).symm

end Payload

/-- The border payloads are zeros. -/
theorem conv14_pay1_apply (y : S1x1x18x512.Idx) : k14_pay1 (F := Ideal) (k14_pay6 (F := Ideal)) y = 0 := Ideal.ofBits_zero_bf16
theorem conv14_pay2_apply (y : S1x1x18x512.Idx) : k14_pay2 (F := Ideal) y = 0 := Ideal.ofBits_zero_bf16
theorem conv14_pay3_apply (y : S1x16x1x512.Idx) : k14_pay3 (F := Ideal) y = 0 := Ideal.ofBits_zero_bf16
theorem conv14_pay4_apply (y : S1x16x3x512.Idx) : k14_pay4 (F := Ideal) y = 0 := Ideal.ofBits_zero_bf16

end Cert.KernelIdeal.Val

end
-- ==== Proof.KV14.lean ====
/-
  The value of kernel region 14 (a 3x3 convolution with bias and ReLU on a 14 x 14 image of 512 channels, stored in padded
  coordinates) at the ideal values: after the region, the output array holds at batch b, row I < 16, column J < 18 and
  channel co the convolution's result at pixel (I - 1, J - 1) on rows 1 … 14 and columns 1 … 14, and zero elsewhere. The
  convolution reads the input array in padded coordinates: the sum over K < 4608 of the input at row i + K / 512 / 3,
  column j + K / 512 % 3, channel K % 512, times the flattened weight (K, co), plus the bias, clamped at zero. Point t
  of the grid is image t: its blocks are the whole image; the blocks tile the arrays and every point writes its block back.
  The five stores the body's buffer ends at are read newest first: the right columns, the left column, the bottom row and
  the top row are zeros, the interior at (1, 1) is the convolution's result of the three column bands of the input block.
-/
import proofs.«100114_g2000204297211070_pallasbulk_1265_19_alg».proof.Proof.KR14
import proofs.«100114_g2000204297211070_pallasbulk_1265_19_alg».proof.Proof.KV14Pay
import proofs.«100114_g2000204297211070_pallasbulk_1265_19_alg».proof.Proof.KVConvLib
import proofs.«100114_g2000204297211070_pallasbulk_1265_19_alg».proof.Proof.Spec
import Idealize.ShloMosaic.Lib.Pipeline.Value

set_option maxRecDepth 16384
-- the buffers' types are looked up in the signature's table at every unfolding: the later the region, the longer the walk
set_option maxHeartbeats 2000000

noncomputable section

open scoped BigOperators

namespace Cert.KernelIdeal.Val

open Cert.KernelIdeal Cert.KernelIdeal.Gen Cert.KernelIdeal.Reg Cert.KVConvLib
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-! ## The arrays and the points' geometry -/

/-- The region's three input arrays as it finds them, by their literal extents. -/
abbrev xarr14 (c : Dev nD) : S8x16x18x512.Idx → EReal := V c (Pipeline.arrRef spec14 0)
abbrev warr14 (c : Dev nD) : S4608x512.Idx → EReal := V c (Pipeline.arrRef spec14 1)
abbrev barr14 (c : Dev nD) : S1x512.Idx → EReal := V c (Pipeline.arrRef spec14 2)

/-- Point t reads image t of the input, whole, -/
theorem geo14_0 : ∀ t : Fin cfg14.N, win14_0.index t 0 = t.val ∧ win14_0.index t 1 = 0 ∧ win14_0.index t 2 = 0 ∧ win14_0.index t 3 = 0 :=
  (by decide +kernel : ∀ t : Fin grid14.N, win14_0.index t 0 = t.val ∧ win14_0.index t 1 = 0 ∧ win14_0.index t 2 = 0 ∧ win14_0.index t 3 = 0)
/-- the weights and the bias, whole, -/
theorem geo14_1 : ∀ t : Fin cfg14.N, win14_1.index t 0 = 0 ∧ win14_1.index t 1 = 0 :=
  (by decide +kernel : ∀ t : Fin grid14.N, win14_1.index t 0 = 0 ∧ win14_1.index t 1 = 0)
theorem geo14_2 : ∀ t : Fin cfg14.N, win14_2.index t 0 = 0 ∧ win14_2.index t 1 = 0 :=
  (by decide +kernel : ∀ t : Fin grid14.N, win14_2.index t 0 = 0 ∧ win14_2.index t 1 = 0)
/-- and writes image t of the output, whole. -/
theorem geo14_3 : ∀ t : Fin cfg14.N, win14_3.index t 0 = t.val ∧ win14_3.index t 1 = 0 ∧ win14_3.index t 2 = 0 ∧ win14_3.index t 3 = 0
    ∧ win14_3.xsize (grid14.coords t) 0 = 1 ∧ win14_3.xsize (grid14.coords t) 1 = 16 ∧ win14_3.xsize (grid14.coords t) 2 = 18
    ∧ win14_3.xsize (grid14.coords t) 3 = 512 :=
  (by decide +kernel : ∀ t : Fin grid14.N, win14_3.index t 0 = t.val ∧ win14_3.index t 1 = 0 ∧ win14_3.index t 2 = 0 ∧ win14_3.index t 3 = 0
    ∧ win14_3.xsize (grid14.coords t) 0 = 1 ∧ win14_3.xsize (grid14.coords t) 1 = 16 ∧ win14_3.xsize (grid14.coords t) 2 = 18
    ∧ win14_3.xsize (grid14.coords t) 3 = 512)
/-- The three loads' offsets at every point: row 0, columns 0, 1, 2 (the grid's second axis has one entry). -/
theorem off14 : ∀ t : Fin cfg14.N, k14_off1 (grid14.coords t) = ![0, 0, 0, 0] ∧ k14_off2 (grid14.coords t) = ![0, 0, 1, 0]
    ∧ k14_off3 (grid14.coords t) = ![0, 0, 2, 0] :=
  (by decide +kernel : ∀ t : Fin grid14.N, k14_off1 (grid14.coords t) = ![0, 0, 0, 0] ∧ k14_off2 (grid14.coords t) = ![0, 0, 1, 0]
    ∧ k14_off3 (grid14.coords t) = ![0, 0, 2, 0])

/-! ## The input blocks, read off the arrays -/

/-- The input block at point t is image t of the input array. -/
theorem xblk14_apply (c : Dev nD) (t : Fin cfg14.N) (R : Fin 16) (J : Fin 18) (l : Fin 512) :
    (iblk14 V c 0 t : S1x16x18x512.Idx → EReal) (ix4 (0 : Fin 1) R J l)
      = Cert.Spec.arr4 (xarr14 V c) t.val R.val J.val l.val := by
  have hN : cfg14.N = 8 := N_14
  have ht : t.val < 8 := by have := t.isLt; omega
  obtain ⟨i0, i1, i2, i3⟩ := geo14_0 t
  refine Eq.trans ?_ (Cert.Spec.arr4_apply (xarr14 V c) (⟨t.val, ht⟩ : Fin 8) R J l).symm
  unfold iblk14
  rw [View.read_apply]
  show xarr14 V c _ = xarr14 V c _
  congr 1
  funext a
  apply Fin.ext
  match a with
  | ⟨0, _⟩ => show win14_0.index t 0 * 1 + 1 * 0 = t.val; rw [i0]; omega
  | ⟨1, _⟩ => show win14_0.index t 1 * 16 + 1 * R.val = R.val; rw [i1]; omega
  | ⟨2, _⟩ => show win14_0.index t 2 * 18 + 1 * J.val = J.val; rw [i2]; omega
  | ⟨3, _⟩ => show win14_0.index t 3 * 512 + 1 * l.val = l.val; rw [i3]; omega

/-- The weight block at any point is the weight array. -/
theorem wblk14_eq (c : Dev nD) (t : Fin cfg14.N) : (iblk14 V c 1 t : S4608x512.Idx → EReal) = warr14 V c := by
  obtain ⟨i0, i1⟩ := geo14_1 t
  funext y
  unfold iblk14
  rw [View.read_apply]
  show warr14 V c _ = warr14 V c y
  congr 1
  funext a
  apply Fin.ext
  match a with
  | ⟨0, _⟩ => show win14_1.index t 0 * 4608 + 1 * (y 0).val = (y 0).val; rw [i0]; omega
  | ⟨1, _⟩ => show win14_1.index t 1 * 512 + 1 * (y 1).val = (y 1).val; rw [i1]; omega

/-- The bias block at any point is the bias array. -/
theorem bblk14_eq (c : Dev nD) (t : Fin cfg14.N) : (iblk14 V c 2 t : S1x512.Idx → EReal) = barr14 V c := by
  obtain ⟨i0, i1⟩ := geo14_2 t
  funext y
  unfold iblk14
  rw [View.read_apply]
  show barr14 V c _ = barr14 V c y
  congr 1
  funext a
  apply Fin.ext
  match a with
  | ⟨0, _⟩ => show win14_2.index t 0 * 1 + 1 * (y 0).val = (y 0).val; rw [i0]; omega
  | ⟨1, _⟩ => show win14_2.index t 1 * 512 + 1 * (y 1).val = (y 1).val; rw [i1]; omega

/-- A column band of the input block, loaded from column dx on, at an entry: the input array at column j + dx. -/
theorem ldx14 (c : Dev nD) (t : Fin cfg14.N) (off : Fin 4 → ℕ) (inb : ∀ a, off a + S1x16x16x512.size a ≤ S1x16x18x512.size a)
    (dx : ℕ) (hoff : off = ![0, 0, dx, 0]) (R : Fin 16) (j : Fin 16) (hj : j.val + dx < 18) (l : Fin 512) :
    View.ld (iblk14 V c 0 t : S1x16x18x512.Idx → EReal) (Rect.unit (s := S1x16x18x512) off S1x16x16x512.size inb) (ix4 (0 : Fin 1) R j l)
      = Cert.Spec.arr4 (xarr14 V c) t.val R.val (j.val + dx) l.val := by
  subst hoff
  refine Eq.trans ?_ (xblk14_apply V c t R ⟨j.val + dx, hj⟩ l)
  show (iblk14 V c 0 t : S1x16x18x512.Idx → EReal) _ = (iblk14 V c 0 t : S1x16x18x512.Idx → EReal) _
  congr 1
  funext a
  apply Fin.ext
  match a with
  | ⟨0, _⟩ => show 0 + 1 * 0 = 0; rfl
  | ⟨1, _⟩ => show 0 + 1 * R.val = R.val; omega
  | ⟨2, _⟩ => show dx + 1 * j.val = j.val + dx; omega
  | ⟨3, _⟩ => show 0 + 1 * l.val = l.val; omega

/-! ## What a point leaves in the output block -/

/-- The region's result at (b, I, J, co), in padded coordinates. -/
def Gf14 (c : Dev nD) (b I J co : ℕ) : EReal :=
  Cert.Spec.pad1 14 14 (Cert.Spec.convFlat 512 (Cert.Spec.arr4 (xarr14 V c)) (Cert.Spec.arr2 (warr14 V c)) (Cert.Spec.arr2 (barr14 V c))) b I J co

/-- The interior store's block at point t, at (r, j, co): the convolution at pixel (r, j) of image t. -/
theorem conv14_apply (c : Dev nD) (t : Fin cfg14.N) (r : Fin 14) (j : Fin 16) (co : Fin 512) :
    conv14 (F := Ideal) (grid14.coords t) (iblk14 V c 0 t) (iblk14 V c 1 t) (iblk14 V c 2 t) (ix4 (0 : Fin 1) r j co)
      = Cert.Spec.convFlat 512 (Cert.Spec.arr4 (xarr14 V c)) (Cert.Spec.arr2 (warr14 V c)) (Cert.Spec.arr2 (barr14 V c))
          t.val r.val j.val co.val := by
  obtain ⟨o1, o2, o3⟩ := off14 t
  have hr := r.isLt
  have hj := j.isLt
  have hw : View.ld (iblk14 V c 1 t : S4608x512.Idx → EReal) r14_w = warr14 V c :=
    (View.ld_unit_zero (S := S4608x512) hz2 _ _).trans (wblk14_eq V c t)
  have hb : View.ld (iblk14 V c 2 t : S1x512.Idx → EReal) r14_b = barr14 V c :=
    (View.ld_unit_zero (S := S1x512) hz2 _ _).trans (bblk14_eq V c t)
  unfold conv14
  refine (conv14_pay_apply _ _ _ _ _ r j co).trans ?_
  unfold Cert.Spec.convFlat
  refine congrArg₂ max (congrArg₂ (· + ·) (Finset.sum_congr rfl fun K hK => ?_)
    (congrArg (fun B : S1x512.Idx → EReal => Cert.Spec.arr2 B 0 co.val) hb)) rfl
  have hK' : K < 4608 := Finset.mem_range.mp hK
  have hR : r.val + K / 512 / 3 < 16 := by omega
  have hl : K % 512 < 512 := Nat.mod_lt _ (by decide)
  refine congrArg₂ (· * ·) ?_ (congrArg (fun W : S4608x512.Idx → EReal => Cert.Spec.arr2 W K co.val) hw)
  obtain h | h | h : K / 512 % 3 = 0 ∨ K / 512 % 3 = 1 ∨ K / 512 % 3 = 2 := by omega
  · rw [h, tap14_zero]
    refine (Cert.Spec.arr4_apply _ (0 : Fin 1) (⟨r.val + K / 512 / 3, hR⟩ : Fin 16) j (⟨K % 512, hl⟩ : Fin 512)).trans ?_
    exact ldx14 V c t _ _ 0 o1 ⟨r.val + K / 512 / 3, hR⟩ j (by omega) ⟨K % 512, hl⟩
  · rw [h, tap14_one]
    refine (Cert.Spec.arr4_apply _ (0 : Fin 1) (⟨r.val + K / 512 / 3, hR⟩ : Fin 16) j (⟨K % 512, hl⟩ : Fin 512)).trans ?_
    exact ldx14 V c t _ _ 1 o2 ⟨r.val + K / 512 / 3, hR⟩ j (by omega) ⟨K % 512, hl⟩
  · rw [h, tap14_two]
    refine (Cert.Spec.arr4_apply _ (0 : Fin 1) (⟨r.val + K / 512 / 3, hR⟩ : Fin 16) j (⟨K % 512, hl⟩ : Fin 512)).trans ?_
    exact ldx14 V c t _ _ 2 o3 ⟨r.val + K / 512 / 3, hR⟩ j (by omega) ⟨K % 512, hl⟩

/-- What the output's staging buffer holds after point t, at (I, J, co): the region's result at image t. -/
theorem outs14_apply (c : Dev nD) (t : Fin cfg14.N) (I : Fin 16) (J : Fin 18) (co : Fin 512) :
    outsAt14 (F := Ideal) V c t (ix4 (0 : Fin 1) I J co) = Gf14 V c t.val I.val J.val co.val := by
  have hI := I.isLt
  have hJ := J.isLt
  unfold Gf14 Cert.Spec.pad1 outsAt14 out14_3
  by_cases hJr : 15 ≤ J.val
  · have hc : ¬(1 ≤ I.val ∧ I.val ≤ 14 ∧ 1 ≤ J.val ∧ J.val ≤ 14) := by omega
    rw [if_neg hc]
    refine (canon_unit_of_mem _ _ _ (ix4 (0 : Fin 1) I J co) (ix4 (0 : Fin 1) I (⟨J.val - 15, by omega⟩ : Fin 3) co)
      (fin4_all (by show (0 : ℕ) = 0 + 0; rfl) (by show I.val = 0 + I.val; omega) (by show J.val = 15 + (J.val - 15); omega)
        (by show co.val = 0 + co.val; omega))).trans ?_
    exact conv14_pay4_apply _
  refine (canon_unit_of_not_mem _ _ _ (ix4 (0 : Fin 1) I J co) (2 : Fin 4) (by show J.val < 15 ∨ 15 + 3 ≤ J.val; omega)).trans ?_
  by_cases hJ0 : J.val = 0
  · have hc : ¬(1 ≤ I.val ∧ I.val ≤ 14 ∧ 1 ≤ J.val ∧ J.val ≤ 14) := by omega
    rw [if_neg hc]
    refine (canon_unit_of_mem _ _ _ (ix4 (0 : Fin 1) I J co) (ix4 (0 : Fin 1) I (0 : Fin 1) co)
      (fin4_all (by show (0 : ℕ) = 0 + 0; rfl) (by show I.val = 0 + I.val; omega) (by show J.val = 0 + 0; omega)
        (by show co.val = 0 + co.val; omega))).trans ?_
    exact conv14_pay3_apply _
  refine (canon_unit_of_not_mem _ _ _ (ix4 (0 : Fin 1) I J co) (2 : Fin 4) (by show J.val < 0 ∨ 0 + 1 ≤ J.val; omega)).trans ?_
  by_cases hIb : I.val = 15
  · have hc : ¬(1 ≤ I.val ∧ I.val ≤ 14 ∧ 1 ≤ J.val ∧ J.val ≤ 14) := by omega
    rw [if_neg hc]
    refine (canon_unit_of_mem _ _ _ (ix4 (0 : Fin 1) I J co) (ix4 (0 : Fin 1) (0 : Fin 1) J co)
      (fin4_all (by show (0 : ℕ) = 0 + 0; rfl) (by show I.val = 15 + 0; omega) (by show J.val = 0 + J.val; omega)
        (by show co.val = 0 + co.val; omega))).trans ?_
    exact conv14_pay2_apply _
  refine (canon_unit_of_not_mem _ _ _ (ix4 (0 : Fin 1) I J co) (1 : Fin 4) (by show I.val < 15 ∨ 15 + 1 ≤ I.val; omega)).trans ?_
  by_cases hI0 : I.val = 0
  · have hc : ¬(1 ≤ I.val ∧ I.val ≤ 14 ∧ 1 ≤ J.val ∧ J.val ≤ 14) := by omega
    rw [if_neg hc]
    refine (canon_unit_of_mem _ _ _ (ix4 (0 : Fin 1) I J co) (ix4 (0 : Fin 1) (0 : Fin 1) J co)
      (fin4_all (by show (0 : ℕ) = 0 + 0; rfl) (by show I.val = 0 + 0; omega) (by show J.val = 0 + J.val; omega)
        (by show co.val = 0 + co.val; omega))).trans ?_
    exact conv14_pay1_apply _
  refine (canon_unit_of_not_mem _ _ _ (ix4 (0 : Fin 1) I J co) (1 : Fin 4) (by show I.val < 0 ∨ 0 + 1 ≤ I.val; omega)).trans ?_
  have hc : 1 ≤ I.val ∧ I.val ≤ 14 ∧ 1 ≤ J.val ∧ J.val ≤ 14 := by omega
  rw [if_pos hc]
  refine (canon_unit_of_mem _ _ _ (ix4 (0 : Fin 1) I J co)
    (ix4 (0 : Fin 1) (⟨I.val - 1, by omega⟩ : Fin 14) (⟨J.val - 1, by omega⟩ : Fin 16) co)
    (fin4_all (by show (0 : ℕ) = 0 + 0; rfl) (by show I.val = 1 + (I.val - 1); omega) (by show J.val = 1 + (J.val - 1); omega)
      (by show co.val = 0 + co.val; omega))).trans ?_
  exact conv14_apply V c t (⟨I.val - 1, by omega⟩ : Fin 14) (⟨J.val - 1, by omega⟩ : Fin 16) co

/-! ## The output array after the region -/

/-- The region's result as contents of the output array. -/
def G14 (c : Dev nD) : S8x16x18x512.Idx → EReal := fun k => Gf14 V c (k 0).val (k 1).val (k 2).val (k 3).val

/-- What point t writes back is its block of the result. -/
theorem flushed14_eq (c : Dev nD) (t : Fin cfg14.N) (hf : (cfg14.win 3).flush t = true) :
    (dat14 (F := Ideal) V c).flushed 3 t = ((cfg14.win 3).blk t).view.read (Elt Ideal) (G14 V c) := by
  obtain ⟨i0, i1, i2, i3, -⟩ := geo14_3 t
  funext y
  obtain ⟨I, J, co, rfl⟩ := exists_ix4_one (a := 16) (b := 18) (c := 512) y
  show (cfg14.win 3).cut (grid14.coords t) ((dat14 V c).after 3 t) (ix4 (0 : Fin 1) I J co) = _
  rw [after14_3, View.read_apply]
  show outsAt14 V c t (ix4 (0 : Fin 1) I J co) = G14 V c (((cfg14.win 3).blk t).view.emb (ix4 (0 : Fin 1) I J co))
  refine (outs14_apply V c t I J co).trans ?_
  have e0 : ((((cfg14.win 3).blk t).view.emb (ix4 (0 : Fin 1) I J co)) 0).val = t.val := by
    show win14_3.index t 0 * 1 + 1 * 0 = _; rw [i0]; omega
  have e1 : ((((cfg14.win 3).blk t).view.emb (ix4 (0 : Fin 1) I J co)) 1).val = I.val := by
    show win14_3.index t 1 * 16 + 1 * I.val = _; rw [i1]; omega
  have e2 : ((((cfg14.win 3).blk t).view.emb (ix4 (0 : Fin 1) I J co)) 2).val = J.val := by
    show win14_3.index t 2 * 18 + 1 * J.val = _; rw [i2]; omega
  have e3 : ((((cfg14.win 3).blk t).view.emb (ix4 (0 : Fin 1) I J co)) 3).val = co.val := by
    show win14_3.index t 3 * 512 + 1 * co.val = _; rw [i3]; omega
  unfold G14
  exact (congr (congr (congr (congrArg (Gf14 V c) e0) e1) e2) e3).symm

/-- Every index of the output array is in the block of its image's point. -/
theorem cover14 (c : Dev nD) (i : ((cfg14.win 3).arr.view.loc (c.tc : Thread nD τ)).2.ty.Idx) :
    ∃ t : Fin cfg14.N, (cfg14.win 3).flush t = true ∧ i ∈ ((cfg14.win 3).blk t).view.set := by
  have hN : cfg14.N = 8 := N_14
  have b0 : (i 0 : ℕ) < 8 := (i 0).isLt
  have b1 : (i 1 : ℕ) < 16 := (i 1).isLt
  have b2 : (i 2 : ℕ) < 18 := (i 2).isLt
  have b3 : (i 3 : ℕ) < 512 := (i 3).isLt
  have hlt : (i 0 : ℕ) < cfg14.N := by omega
  refine ⟨⟨(i 0 : ℕ), hlt⟩, flush14_3 _, ?_⟩
  obtain ⟨i0, i1, i2, i3, z0, z1, z2, z3⟩ := geo14_3 (⟨(i 0 : ℕ), hlt⟩ : Fin cfg14.N)
  show i ∈ ((View.whole (Pipeline.arrRef spec14 3)).slice (win14_3.rect (⟨(i 0 : ℕ), hlt⟩ : Fin cfg14.N))).set
  rw [View.set_slice_whole, Rect.mem_set_unit]
  intro a
  match a with
  | ⟨0, _⟩ =>
    show win14_3.index _ 0 * 1 ≤ (i 0 : ℕ) ∧ (i 0 : ℕ) < win14_3.index _ 0 * 1 + win14_3.xsize _ 0
    rw [i0, z0]; dsimp only; omega
  | ⟨1, _⟩ =>
    show win14_3.index _ 1 * win14_3.size 1 ≤ (i 1 : ℕ) ∧ (i 1 : ℕ) < win14_3.index _ 1 * win14_3.size 1 + win14_3.xsize _ 1
    rw [i1, z1]; omega
  | ⟨2, _⟩ =>
    show win14_3.index _ 2 * win14_3.size 2 ≤ (i 2 : ℕ) ∧ (i 2 : ℕ) < win14_3.index _ 2 * win14_3.size 2 + win14_3.xsize _ 2
    rw [i2, z2]; omega
  | ⟨3, _⟩ =>
    show win14_3.index _ 3 * win14_3.size 3 ≤ (i 3 : ℕ) ∧ (i 3 : ℕ) < win14_3.index _ 3 * win14_3.size 3 + win14_3.xsize _ 3
    rw [i3, z3]; omega

/-- So the output array ends holding the result. -/
theorem final14 (c : Dev nD) : (dat14 (F := Ideal) V c).arrAt 3 cfg14.N = G14 V c :=
  (dat14 (F := Ideal) V c).arrAt_eq_of_cover 3 (G14 V c) (flushed14_eq V c) (cover14 c)

/-- The region's value: the output array is the convolution of the input array, in padded coordinates, zero on the border. -/
theorem conv14_value (c : Dev nD) (b I J co : ℕ) (hb : b < 8) (hI : I < 16) (hJ : J < 18) (hco : co < 512) :
    Cert.Spec.arr4 ((dat14 (F := Ideal) V c).arrAt 3 cfg14.N : S8x16x18x512.Idx → EReal) b I J co
      = Cert.Spec.pad1 14 14 (Cert.Spec.convFlat 512 (Cert.Spec.arr4 (xarr14 V c)) (Cert.Spec.arr2 (warr14 V c))
          (Cert.Spec.arr2 (barr14 V c))) b I J co := by
  refine (congrArg (fun A : S8x16x18x512.Idx → EReal => Cert.Spec.arr4 A b I J co) (final14 V c)).trans ?_
  exact Cert.Spec.arr4_apply (G14 V c) (⟨b, hb⟩ : Fin 8) (⟨I, hI⟩ : Fin 16) (⟨J, hJ⟩ : Fin 18) (⟨co, hco⟩ : Fin 512)

end Cert.KernelIdeal.Val

end
-- ==== Proof.KV15Pay.lean ====
/-
  The interior payload of kernel region 15 read at one entry, at the ideal values: the body's interior store writes, at
  row r, column j, output channel co of its 14 x 16 block of pixels, the bias plus the sum over the 4608 lanes K of the
  nine lane-concatenated taps times row K of the flattened weights, clamped below at zero. Lane K is tap K / 512 (row
  offset K / 512 / 3, column band K / 512 % 3) at input channel K % 512; band dx is the padded input block read from
  column dx on. The four border payloads are zeros.
-/
import proofs.«100114_g2000204297211070_pallasbulk_1265_19_alg».proof.Proof.Gen.KernelIdeal.Skeleton
import proofs.«100114_g2000204297211070_pallasbulk_1265_19_alg».proof.Proof.Spec
import Idealize.ShloMosaic.Lib.Pipeline.Value
import Idealize.ShloMosaic.Lib.ValueLayout
import Idealize.ShloMosaic.Lib.IdealHost
import Idealize.ShloMosaic.PureOps.Ideal.Laws

set_option maxRecDepth 16384

noncomputable section

open scoped BigOperators

namespace Cert.KernelIdeal.Val

open Cert.KernelIdeal Cert.KernelIdeal.Gen Cert.Spec
open Idealize.ShloMosaic Idealize.ShloMosaic.ValueIdx

/-- The block product into the zero accumulator, at an entry: the sum over the contracted coordinate. -/
theorem mm15_apply (A : FVec Ideal S224x4608 .bf16) (B : FVec Ideal S4608x512 .bf16) (a : Fin 224) (b : Fin 512) :
    matmul dot_S224x4608_S4608x512_S224x512_1_0_0_1_n_n none A B (constant S224x512 .f32 0x00000000#32) (ix2 a b)
      = ∑ c : Fin 4608, A (ix2 a c) * B (ix2 c b) := by
  refine (Ideal.matmul_constant_zero_apply (φ₁ := .bf16) (φ₂ := .bf16) _ _ _ _ _).trans ?_
  refine (Equiv.sum_comp (contrEquiv1 dot_S224x4608_S4608x512_S224x512_1_0_0_1_n_n 4608 rfl rfl).symm _).symm.trans ?_
  refine Finset.sum_congr rfl fun c _ => ?_
  have c2 := contrEquiv1_symm_val dot_S224x4608_S4608x512_S224x512_1_0_0_1_n_n 4608 rfl rfl c
  refine congrArg₂ (· * ·) (congrArg A (funext fun ax => Fin.ext ?_)) (congrArg B (funext fun ax => Fin.ext ?_))
  · fin_cases ax
    · rfl
    · exact c2
  · fin_cases ax
    · exact c2
    · rfl

/-- One tap: the band v (the 16 rows of the padded block) with its unit axis dropped, cut from row dy, at an entry. -/
theorem band15_apply (v : Vec Ideal S1x16x16x512 .bf16) (dy : ℕ) (hdy : dy ≤ 2) (h : S16x16x512.Slices ![dy, 0, 0] S14x16x512)
    (r : Fin 14) (j : Fin 16) (l : Fin 512) :
    extractStridedSlice S14x16x512 ![dy, 0, 0] (shapeCast S16x16x512 v shapeCasts_S1x16x16x512_S16x16x512) h (ix3 r j l)
      = arr4 v 0 (r.val + dy) j.val l.val := by
  have hR : r.val + dy < 16 := by have := r.isLt; omega
  refine (extractStridedSlice_apply _ _ h (ix3 r j l) (ix3 ⟨r.val + dy, hR⟩ j l) (fun a => ?_)).trans ?_
  · match a with
    | ⟨0, _⟩ => exact Nat.add_comm _ _
    | ⟨1, _⟩ => exact (Nat.zero_add _).symm
    | ⟨2, _⟩ => exact (Nat.zero_add _).symm
  · refine (shapeCast_1abc_abc_apply v _ ⟨r.val + dy, hR⟩ j l).trans ?_
    exact (arr4_apply v (0 : Fin 1) ⟨r.val + dy, hR⟩ j l).symm

section Payload

variable (v3 v6 v9 : Vec Ideal S1x16x16x512 .bf16) (v22 : Vec Ideal S4608x512 .bf16) (v25 : Vec Ideal S1x512 .f32)

/-- The three loaded bands, by column offset, as one total function: band dx at row R, column j, channel l. -/
def tap15 (dx R j l : ℕ) : EReal :=
  if dx = 0 then arr4 v3 0 R j l else if dx = 1 then arr4 v6 0 R j l else arr4 v9 0 R j l

/-- The nine taps in the concatenation's order: tap n is the band at column offset n % 3 cut from row n / 3. -/
def pieces15 : Fin 9 → (S14x16x512.Idx → EReal) :=
  ![extractStridedSlice S14x16x512 ![0, 0, 0] (shapeCast S16x16x512 v3 shapeCasts_S1x16x16x512_S16x16x512) slices_S16x16x512_o0_0_0_S14x16x512,
    extractStridedSlice S14x16x512 ![0, 0, 0] (shapeCast S16x16x512 v6 shapeCasts_S1x16x16x512_S16x16x512) slices_S16x16x512_o0_0_0_S14x16x512,
    extractStridedSlice S14x16x512 ![0, 0, 0] (shapeCast S16x16x512 v9 shapeCasts_S1x16x16x512_S16x16x512) slices_S16x16x512_o0_0_0_S14x16x512,
    extractStridedSlice S14x16x512 ![1, 0, 0] (shapeCast S16x16x512 v3 shapeCasts_S1x16x16x512_S16x16x512) slices_S16x16x512_o1_0_0_S14x16x512,
    extractStridedSlice S14x16x512 ![1, 0, 0] (shapeCast S16x16x512 v6 shapeCasts_S1x16x16x512_S16x16x512) slices_S16x16x512_o1_0_0_S14x16x512,
    extractStridedSlice S14x16x512 ![1, 0, 0] (shapeCast S16x16x512 v9 shapeCasts_S1x16x16x512_S16x16x512) slices_S16x16x512_o1_0_0_S14x16x512,
    extractStridedSlice S14x16x512 ![2, 0, 0] (shapeCast S16x16x512 v3 shapeCasts_S1x16x16x512_S16x16x512) slices_S16x16x512_o2_0_0_S14x16x512,
    extractStridedSlice S14x16x512 ![2, 0, 0] (shapeCast S16x16x512 v6 shapeCasts_S1x16x16x512_S16x16x512) slices_S16x16x512_o2_0_0_S14x16x512,
    extractStridedSlice S14x16x512 ![2, 0, 0] (shapeCast S16x16x512 v9 shapeCasts_S1x16x16x512_S16x16x512) slices_S16x16x512_o2_0_0_S14x16x512]

theorem tap15_zero (R j l : ℕ) : tap15 v3 v6 v9 0 R j l = arr4 v3 0 R j l := if_pos rfl
theorem tap15_one (R j l : ℕ) : tap15 v3 v6 v9 1 R j l = arr4 v6 0 R j l := (if_neg (by decide)).trans (if_pos rfl)
theorem tap15_two (R j l : ℕ) : tap15 v3 v6 v9 2 R j l = arr4 v9 0 R j l := (if_neg (by decide)).trans (if_neg (by decide))

theorem pieces15_apply (n : ℕ) (hn : n < 9) (r : Fin 14) (j : Fin 16) (l : Fin 512) :
    pieces15 v3 v6 v9 ⟨n, hn⟩ (ix3 r j l) = tap15 v3 v6 v9 (n % 3) (r.val + n / 3) j.val l.val := by
  interval_cases n
  · exact (band15_apply v3 0 (by decide) slices_S16x16x512_o0_0_0_S14x16x512 r j l).trans (tap15_zero v3 v6 v9 (r.val + 0) j.val l.val).symm
  · exact (band15_apply v6 0 (by decide) slices_S16x16x512_o0_0_0_S14x16x512 r j l).trans (tap15_one v3 v6 v9 (r.val + 0) j.val l.val).symm
  · exact (band15_apply v9 0 (by decide) slices_S16x16x512_o0_0_0_S14x16x512 r j l).trans (tap15_two v3 v6 v9 (r.val + 0) j.val l.val).symm
  · exact (band15_apply v3 1 (by decide) slices_S16x16x512_o1_0_0_S14x16x512 r j l).trans (tap15_zero v3 v6 v9 (r.val + 1) j.val l.val).symm
  · exact (band15_apply v6 1 (by decide) slices_S16x16x512_o1_0_0_S14x16x512 r j l).trans (tap15_one v3 v6 v9 (r.val + 1) j.val l.val).symm
  · exact (band15_apply v9 1 (by decide) slices_S16x16x512_o1_0_0_S14x16x512 r j l).trans (tap15_two v3 v6 v9 (r.val + 1) j.val l.val).symm
  · exact (band15_apply v3 2 (by decide) slices_S16x16x512_o2_0_0_S14x16x512 r j l).trans (tap15_zero v3 v6 v9 (r.val + 2) j.val l.val).symm
  · exact (band15_apply v6 2 (by decide) slices_S16x16x512_o2_0_0_S14x16x512 r j l).trans (tap15_one v3 v6 v9 (r.val + 2) j.val l.val).symm
  · exact (band15_apply v9 2 (by decide) slices_S16x16x512_o2_0_0_S14x16x512 r j l).trans (tap15_two v3 v6 v9 (r.val + 2) j.val l.val).symm

/-- The concatenation of the nine taps along the lanes, at lane c: tap c / 512 at channel c % 512. -/
theorem cat15_apply (r : Fin 14) (j : Fin 16) (c : Fin 4608) :
    concatenate S14x16x4608 2 [⟨S14x16x512, extractStridedSlice S14x16x512 ![0, 0, 0] (shapeCast S16x16x512 v3 shapeCasts_S1x16x16x512_S16x16x512) slices_S16x16x512_o0_0_0_S14x16x512⟩,
      ⟨S14x16x512, extractStridedSlice S14x16x512 ![0, 0, 0] (shapeCast S16x16x512 v6 shapeCasts_S1x16x16x512_S16x16x512) slices_S16x16x512_o0_0_0_S14x16x512⟩,
      ⟨S14x16x512, extractStridedSlice S14x16x512 ![0, 0, 0] (shapeCast S16x16x512 v9 shapeCasts_S1x16x16x512_S16x16x512) slices_S16x16x512_o0_0_0_S14x16x512⟩,
      ⟨S14x16x512, extractStridedSlice S14x16x512 ![1, 0, 0] (shapeCast S16x16x512 v3 shapeCasts_S1x16x16x512_S16x16x512) slices_S16x16x512_o1_0_0_S14x16x512⟩,
      ⟨S14x16x512, extractStridedSlice S14x16x512 ![1, 0, 0] (shapeCast S16x16x512 v6 shapeCasts_S1x16x16x512_S16x16x512) slices_S16x16x512_o1_0_0_S14x16x512⟩,
      ⟨S14x16x512, extractStridedSlice S14x16x512 ![1, 0, 0] (shapeCast S16x16x512 v9 shapeCasts_S1x16x16x512_S16x16x512) slices_S16x16x512_o1_0_0_S14x16x512⟩,
      ⟨S14x16x512, extractStridedSlice S14x16x512 ![2, 0, 0] (shapeCast S16x16x512 v3 shapeCasts_S1x16x16x512_S16x16x512) slices_S16x16x512_o2_0_0_S14x16x512⟩,
      ⟨S14x16x512, extractStridedSlice S14x16x512 ![2, 0, 0] (shapeCast S16x16x512 v6 shapeCasts_S1x16x16x512_S16x16x512) slices_S16x16x512_o2_0_0_S14x16x512⟩,
      ⟨S14x16x512, extractStridedSlice S14x16x512 ![2, 0, 0] (shapeCast S16x16x512 v9 shapeCasts_S1x16x16x512_S16x16x512) slices_S16x16x512_o2_0_0_S14x16x512⟩]
      concatenates_S14x16x512_S14x16x512_S14x16x512_S14x16x512_S14x16x512_S14x16x512_S14x16x512_S14x16x512_S14x16x512_S14x16x4608_d2 (ix3 r j c)
      = tap15 v3 v6 v9 (c.val / 512 % 3) (r.val + c.val / 512 / 3) j.val (c.val % 512) := by
  have hn : c.val / 512 < 9 := by have := c.isLt; omega
  have hl : c.val % 512 < 512 := Nat.mod_lt _ (by decide)
  refine (concatenate_ofFn_apply (t := S14x16x4608) (s₁ := S14x16x512) 2 (pieces15 v3 v6 v9) concatenates_S14x16x512_S14x16x512_S14x16x512_S14x16x512_S14x16x512_S14x16x512_S14x16x512_S14x16x512_S14x16x512_S14x16x4608_d2 rfl 512 rfl
    (ix3 r j c) ⟨c.val / 512, hn⟩ rfl (ix3 r j ⟨c.val % 512, hl⟩) rfl ?_).trans ?_
  · intro b hb
    match b with
    | ⟨0, _⟩ => rfl
    | ⟨1, _⟩ => rfl
    | ⟨2, _⟩ => exact absurd rfl hb
  · exact pieces15_apply v3 v6 v9 (c.val / 512) hn r j ⟨c.val % 512, hl⟩

/-- The interior payload at an entry of its block. -/
theorem conv15_pay_apply (r : Fin 14) (j : Fin 16) (co : Fin 512) :
    k15_pay5 v3 v6 v9 v22 v25 (ix4 (0 : Fin 1) r j co)
      = max ((∑ K ∈ Finset.range 4608, tap15 v3 v6 v9 (K / 512 % 3) (r.val + K / 512 / 3) j.val (K % 512) * arr2 v22 K co.val)
          + arr2 v25 0 co.val) 0 := by
  have hp : r.val * 16 + j.val < 224 := by have := r.isLt; have := j.isLt; omega
  unfold k15_pay5
  refine (shapeCast_abc_1abc_apply _ _ (0 : Fin 1) r j co).trans ?_
  refine (truncf_apply (φ := .f32) (ψ := .bf16) _ bitsLt_bf16_f32 (ix3 r j co)).trans ?_
  refine (shapeCast_apply _ _ (ix3 r j co) (ix2 ⟨r.val * 16 + j.val, hp⟩ co) ?_).trans ?_
  · rw [Shape.rowMajor_val_two, Shape.rowMajor_val_three]; rfl
  refine congrArg₂ max ?_ ?_
  swap
  · exact Ideal.ofBits_zero_f32
  refine congrArg₂ (· + ·) ?_ ?_
  swap
  · refine (broadcastTo_1b_ab_apply v25 _ ⟨r.val * 16 + j.val, hp⟩ co).trans ?_
    exact (arr2_apply v25 (0 : Fin 1) co).symm
  refine (mm15_apply _ _ ⟨r.val * 16 + j.val, hp⟩ co).trans ?_
  rw [← Fin.sum_univ_eq_sum_range (fun K => tap15 v3 v6 v9 (K / 512 % 3) (r.val + K / 512 / 3) j.val (K % 512) * arr2 v22 K co.val) 4608]
  refine Finset.sum_congr rfl fun c _ => ?_
  refine congrArg₂ (· * ·) ?_ ?_
  · refine (shapeCast_apply _ _ (ix2 ⟨r.val * 16 + j.val, hp⟩ c) (ix3 r j c) ?_).trans ?_
    · rw [Shape.rowMajor_val_two, Shape.rowMajor_val_three]; rfl
    exact cat15_apply v3 v6 v9 r j c
  · refine (congrFun (shapeCast_self _ _) _).trans ?_
    exact (arr2_apply v22 c co).symm

end Payload

/-- The border payloads are zeros. -/
theorem conv15_pay1_apply (y : S1x1x18x512.Idx) : k15_pay1 (F := Ideal) (k15_pay6 (F := Ideal)) y = 0 := Ideal.ofBits_zero_bf16
theorem conv15_pay2_apply (y : S1x1x18x512.Idx) : k15_pay2 (F := Ideal) y = 0 := Ideal.ofBits_zero_bf16
theorem conv15_pay3_apply (y : S1x16x1x512.Idx) : k15_pay3 (F := Ideal) y = 0 := Ideal.ofBits_zero_bf16
theorem conv15_pay4_apply (y : S1x16x3x512.Idx) : k15_pay4 (F := Ideal) y = 0 := Ideal.ofBits_zero_bf16

end Cert.KernelIdeal.Val

end
-- ==== Proof.KV15.lean ====
/-
  The value of kernel region 15 (a 3x3 convolution with bias and ReLU on a 14 x 14 image of 512 channels, stored in padded
  coordinates) at the ideal values: after the region, the output array holds at batch b, row I < 16, column J < 18 and
  channel co the convolution's result at pixel (I - 1, J - 1) on rows 1 … 14 and columns 1 … 14, and zero elsewhere. The
  convolution reads the input array in padded coordinates: the sum over K < 4608 of the input at row i + K / 512 / 3,
  column j + K / 512 % 3, channel K % 512, times the flattened weight (K, co), plus the bias, clamped at zero. Point t
  of the grid is image t: its blocks are the whole image; the blocks tile the arrays and every point writes its block back.
  The five stores the body's buffer ends at are read newest first: the right columns, the left column, the bottom row and
  the top row are zeros, the interior at (1, 1) is the convolution's result of the three column bands of the input block.
-/
import proofs.«100114_g2000204297211070_pallasbulk_1265_19_alg».proof.Proof.KR15
import proofs.«100114_g2000204297211070_pallasbulk_1265_19_alg».proof.Proof.KV15Pay
import proofs.«100114_g2000204297211070_pallasbulk_1265_19_alg».proof.Proof.KVConvLib
import proofs.«100114_g2000204297211070_pallasbulk_1265_19_alg».proof.Proof.Spec
import Idealize.ShloMosaic.Lib.Pipeline.Value

set_option maxRecDepth 16384
-- the buffers' types are looked up in the signature's table at every unfolding: the later the region, the longer the walk
set_option maxHeartbeats 2000000

noncomputable section

open scoped BigOperators

namespace Cert.KernelIdeal.Val

open Cert.KernelIdeal Cert.KernelIdeal.Gen Cert.KernelIdeal.Reg Cert.KVConvLib
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-! ## The arrays and the points' geometry -/

/-- The region's three input arrays as it finds them, by their literal extents. -/
abbrev xarr15 (c : Dev nD) : S8x16x18x512.Idx → EReal := V c (Pipeline.arrRef spec15 0)
abbrev warr15 (c : Dev nD) : S4608x512.Idx → EReal := V c (Pipeline.arrRef spec15 1)
abbrev barr15 (c : Dev nD) : S1x512.Idx → EReal := V c (Pipeline.arrRef spec15 2)

/-- Point t reads image t of the input, whole, -/
theorem geo15_0 : ∀ t : Fin cfg15.N, win15_0.index t 0 = t.val ∧ win15_0.index t 1 = 0 ∧ win15_0.index t 2 = 0 ∧ win15_0.index t 3 = 0 :=
  (by decide +kernel : ∀ t : Fin grid15.N, win15_0.index t 0 = t.val ∧ win15_0.index t 1 = 0 ∧ win15_0.index t 2 = 0 ∧ win15_0.index t 3 = 0)
/-- the weights and the bias, whole, -/
theorem geo15_1 : ∀ t : Fin cfg15.N, win15_1.index t 0 = 0 ∧ win15_1.index t 1 = 0 :=
  (by decide +kernel : ∀ t : Fin grid15.N, win15_1.index t 0 = 0 ∧ win15_1.index t 1 = 0)
theorem geo15_2 : ∀ t : Fin cfg15.N, win15_2.index t 0 = 0 ∧ win15_2.index t 1 = 0 :=
  (by decide +kernel : ∀ t : Fin grid15.N, win15_2.index t 0 = 0 ∧ win15_2.index t 1 = 0)
/-- and writes image t of the output, whole. -/
theorem geo15_3 : ∀ t : Fin cfg15.N, win15_3.index t 0 = t.val ∧ win15_3.index t 1 = 0 ∧ win15_3.index t 2 = 0 ∧ win15_3.index t 3 = 0
    ∧ win15_3.xsize (grid15.coords t) 0 = 1 ∧ win15_3.xsize (grid15.coords t) 1 = 16 ∧ win15_3.xsize (grid15.coords t) 2 = 18
    ∧ win15_3.xsize (grid15.coords t) 3 = 512 :=
  (by decide +kernel : ∀ t : Fin grid15.N, win15_3.index t 0 = t.val ∧ win15_3.index t 1 = 0 ∧ win15_3.index t 2 = 0 ∧ win15_3.index t 3 = 0
    ∧ win15_3.xsize (grid15.coords t) 0 = 1 ∧ win15_3.xsize (grid15.coords t) 1 = 16 ∧ win15_3.xsize (grid15.coords t) 2 = 18
    ∧ win15_3.xsize (grid15.coords t) 3 = 512)
/-- The three loads' offsets at every point: row 0, columns 0, 1, 2 (the grid's second axis has one entry). -/
theorem off15 : ∀ t : Fin cfg15.N, k15_off1 (grid15.coords t) = ![0, 0, 0, 0] ∧ k15_off2 (grid15.coords t) = ![0, 0, 1, 0]
    ∧ k15_off3 (grid15.coords t) = ![0, 0, 2, 0] :=
  (by decide +kernel : ∀ t : Fin grid15.N, k15_off1 (grid15.coords t) = ![0, 0, 0, 0] ∧ k15_off2 (grid15.coords t) = ![0, 0, 1, 0]
    ∧ k15_off3 (grid15.coords t) = ![0, 0, 2, 0])

/-! ## The input blocks, read off the arrays -/

/-- The input block at point t is image t of the input array. -/
theorem xblk15_apply (c : Dev nD) (t : Fin cfg15.N) (R : Fin 16) (J : Fin 18) (l : Fin 512) :
    (iblk15 V c 0 t : S1x16x18x512.Idx → EReal) (ix4 (0 : Fin 1) R J l)
      = Cert.Spec.arr4 (xarr15 V c) t.val R.val J.val l.val := by
  have hN : cfg15.N = 8 := N_15
  have ht : t.val < 8 := by have := t.isLt; omega
  obtain ⟨i0, i1, i2, i3⟩ := geo15_0 t
  refine Eq.trans ?_ (Cert.Spec.arr4_apply (xarr15 V c) (⟨t.val, ht⟩ : Fin 8) R J l).symm
  unfold iblk15
  rw [View.read_apply]
  show xarr15 V c _ = xarr15 V c _
  congr 1
  funext a
  apply Fin.ext
  match a with
  | ⟨0, _⟩ => show win15_0.index t 0 * 1 + 1 * 0 = t.val; rw [i0]; omega
  | ⟨1, _⟩ => show win15_0.index t 1 * 16 + 1 * R.val = R.val; rw [i1]; omega
  | ⟨2, _⟩ => show win15_0.index t 2 * 18 + 1 * J.val = J.val; rw [i2]; omega
  | ⟨3, _⟩ => show win15_0.index t 3 * 512 + 1 * l.val = l.val; rw [i3]; omega

/-- The weight block at any point is the weight array. -/
theorem wblk15_eq (c : Dev nD) (t : Fin cfg15.N) : (iblk15 V c 1 t : S4608x512.Idx → EReal) = warr15 V c := by
  obtain ⟨i0, i1⟩ := geo15_1 t
  funext y
  unfold iblk15
  rw [View.read_apply]
  show warr15 V c _ = warr15 V c y
  congr 1
  funext a
  apply Fin.ext
  match a with
  | ⟨0, _⟩ => show win15_1.index t 0 * 4608 + 1 * (y 0).val = (y 0).val; rw [i0]; omega
  | ⟨1, _⟩ => show win15_1.index t 1 * 512 + 1 * (y 1).val = (y 1).val; rw [i1]; omega

/-- The bias block at any point is the bias array. -/
theorem bblk15_eq (c : Dev nD) (t : Fin cfg15.N) : (iblk15 V c 2 t : S1x512.Idx → EReal) = barr15 V c := by
  obtain ⟨i0, i1⟩ := geo15_2 t
  funext y
  unfold iblk15
  rw [View.read_apply]
  show barr15 V c _ = barr15 V c y
  congr 1
  funext a
  apply Fin.ext
  match a with
  | ⟨0, _⟩ => show win15_2.index t 0 * 1 + 1 * (y 0).val = (y 0).val; rw [i0]; omega
  | ⟨1, _⟩ => show win15_2.index t 1 * 512 + 1 * (y 1).val = (y 1).val; rw [i1]; omega

/-- A column band of the input block, loaded from column dx on, at an entry: the input array at column j + dx. -/
theorem ldx15 (c : Dev nD) (t : Fin cfg15.N) (off : Fin 4 → ℕ) (inb : ∀ a, off a + S1x16x16x512.size a ≤ S1x16x18x512.size a)
    (dx : ℕ) (hoff : off = ![0, 0, dx, 0]) (R : Fin 16) (j : Fin 16) (hj : j.val + dx < 18) (l : Fin 512) :
    View.ld (iblk15 V c 0 t : S1x16x18x512.Idx → EReal) (Rect.unit (s := S1x16x18x512) off S1x16x16x512.size inb) (ix4 (0 : Fin 1) R j l)
      = Cert.Spec.arr4 (xarr15 V c) t.val R.val (j.val + dx) l.val := by
  subst hoff
  refine Eq.trans ?_ (xblk15_apply V c t R ⟨j.val + dx, hj⟩ l)
  show (iblk15 V c 0 t : S1x16x18x512.Idx → EReal) _ = (iblk15 V c 0 t : S1x16x18x512.Idx → EReal) _
  congr 1
  funext a
  apply Fin.ext
  match a with
  | ⟨0, _⟩ => show 0 + 1 * 0 = 0; rfl
  | ⟨1, _⟩ => show 0 + 1 * R.val = R.val; omega
  | ⟨2, _⟩ => show dx + 1 * j.val = j.val + dx; omega
  | ⟨3, _⟩ => show 0 + 1 * l.val = l.val; omega

/-! ## What a point leaves in the output block -/

/-- The region's result at (b, I, J, co), in padded coordinates. -/
def Gf15 (c : Dev nD) (b I J co : ℕ) : EReal :=
  Cert.Spec.pad1 14 14 (Cert.Spec.convFlat 512 (Cert.Spec.arr4 (xarr15 V c)) (Cert.Spec.arr2 (warr15 V c)) (Cert.Spec.arr2 (barr15 V c))) b I J co

/-- The interior store's block at point t, at (r, j, co): the convolution at pixel (r, j) of image t. -/
theorem conv15_apply (c : Dev nD) (t : Fin cfg15.N) (r : Fin 14) (j : Fin 16) (co : Fin 512) :
    conv15 (F := Ideal) (grid15.coords t) (iblk15 V c 0 t) (iblk15 V c 1 t) (iblk15 V c 2 t) (ix4 (0 : Fin 1) r j co)
      = Cert.Spec.convFlat 512 (Cert.Spec.arr4 (xarr15 V c)) (Cert.Spec.arr2 (warr15 V c)) (Cert.Spec.arr2 (barr15 V c))
          t.val r.val j.val co.val := by
  obtain ⟨o1, o2, o3⟩ := off15 t
  have hr := r.isLt
  have hj := j.isLt
  have hw : View.ld (iblk15 V c 1 t : S4608x512.Idx → EReal) r15_w = warr15 V c :=
    (View.ld_unit_zero (S := S4608x512) hz2 _ _).trans (wblk15_eq V c t)
  have hb : View.ld (iblk15 V c 2 t : S1x512.Idx → EReal) r15_b = barr15 V c :=
    (View.ld_unit_zero (S := S1x512) hz2 _ _).trans (bblk15_eq V c t)
  unfold conv15
  refine (conv15_pay_apply _ _ _ _ _ r j co).trans ?_
  unfold Cert.Spec.convFlat
  refine congrArg₂ max (congrArg₂ (· + ·) (Finset.sum_congr rfl fun K hK => ?_)
    (congrArg (fun B : S1x512.Idx → EReal => Cert.Spec.arr2 B 0 co.val) hb)) rfl
  have hK' : K < 4608 := Finset.mem_range.mp hK
  have hR : r.val + K / 512 / 3 < 16 := by omega
  have hl : K % 512 < 512 := Nat.mod_lt _ (by decide)
  refine congrArg₂ (· * ·) ?_ (congrArg (fun W : S4608x512.Idx → EReal => Cert.Spec.arr2 W K co.val) hw)
  obtain h | h | h : K / 512 % 3 = 0 ∨ K / 512 % 3 = 1 ∨ K / 512 % 3 = 2 := by omega
  · rw [h, tap15_zero]
    refine (Cert.Spec.arr4_apply _ (0 : Fin 1) (⟨r.val + K / 512 / 3, hR⟩ : Fin 16) j (⟨K % 512, hl⟩ : Fin 512)).trans ?_
    exact ldx15 V c t _ _ 0 o1 ⟨r.val + K / 512 / 3, hR⟩ j (by omega) ⟨K % 512, hl⟩
  · rw [h, tap15_one]
    refine (Cert.Spec.arr4_apply _ (0 : Fin 1) (⟨r.val + K / 512 / 3, hR⟩ : Fin 16) j (⟨K % 512, hl⟩ : Fin 512)).trans ?_
    exact ldx15 V c t _ _ 1 o2 ⟨r.val + K / 512 / 3, hR⟩ j (by omega) ⟨K % 512, hl⟩
  · rw [h, tap15_two]
    refine (Cert.Spec.arr4_apply _ (0 : Fin 1) (⟨r.val + K / 512 / 3, hR⟩ : Fin 16) j (⟨K % 512, hl⟩ : Fin 512)).trans ?_
    exact ldx15 V c t _ _ 2 o3 ⟨r.val + K / 512 / 3, hR⟩ j (by omega) ⟨K % 512, hl⟩

/-- What the output's staging buffer holds after point t, at (I, J, co): the region's result at image t. -/
theorem outs15_apply (c : Dev nD) (t : Fin cfg15.N) (I : Fin 16) (J : Fin 18) (co : Fin 512) :
    outsAt15 (F := Ideal) V c t (ix4 (0 : Fin 1) I J co) = Gf15 V c t.val I.val J.val co.val := by
  have hI := I.isLt
  have hJ := J.isLt
  unfold Gf15 Cert.Spec.pad1 outsAt15 out15_3
  by_cases hJr : 15 ≤ J.val
  · have hc : ¬(1 ≤ I.val ∧ I.val ≤ 14 ∧ 1 ≤ J.val ∧ J.val ≤ 14) := by omega
    rw [if_neg hc]
    refine (canon_unit_of_mem _ _ _ (ix4 (0 : Fin 1) I J co) (ix4 (0 : Fin 1) I (⟨J.val - 15, by omega⟩ : Fin 3) co)
      (fin4_all (by show (0 : ℕ) = 0 + 0; rfl) (by show I.val = 0 + I.val; omega) (by show J.val = 15 + (J.val - 15); omega)
        (by show co.val = 0 + co.val; omega))).trans ?_
    exact conv15_pay4_apply _
  refine (canon_unit_of_not_mem _ _ _ (ix4 (0 : Fin 1) I J co) (2 : Fin 4) (by show J.val < 15 ∨ 15 + 3 ≤ J.val; omega)).trans ?_
  by_cases hJ0 : J.val = 0
  · have hc : ¬(1 ≤ I.val ∧ I.val ≤ 14 ∧ 1 ≤ J.val ∧ J.val ≤ 14) := by omega
    rw [if_neg hc]
    refine (canon_unit_of_mem _ _ _ (ix4 (0 : Fin 1) I J co) (ix4 (0 : Fin 1) I (0 : Fin 1) co)
      (fin4_all (by show (0 : ℕ) = 0 + 0; rfl) (by show I.val = 0 + I.val; omega) (by show J.val = 0 + 0; omega)
        (by show co.val = 0 + co.val; omega))).trans ?_
    exact conv15_pay3_apply _
  refine (canon_unit_of_not_mem _ _ _ (ix4 (0 : Fin 1) I J co) (2 : Fin 4) (by show J.val < 0 ∨ 0 + 1 ≤ J.val; omega)).trans ?_
  by_cases hIb : I.val = 15
  · have hc : ¬(1 ≤ I.val ∧ I.val ≤ 14 ∧ 1 ≤ J.val ∧ J.val ≤ 14) := by omega
    rw [if_neg hc]
    refine (canon_unit_of_mem _ _ _ (ix4 (0 : Fin 1) I J co) (ix4 (0 : Fin 1) (0 : Fin 1) J co)
      (fin4_all (by show (0 : ℕ) = 0 + 0; rfl) (by show I.val = 15 + 0; omega) (by show J.val = 0 + J.val; omega)
        (by show co.val = 0 + co.val; omega))).trans ?_
    exact conv15_pay2_apply _
  refine (canon_unit_of_not_mem _ _ _ (ix4 (0 : Fin 1) I J co) (1 : Fin 4) (by show I.val < 15 ∨ 15 + 1 ≤ I.val; omega)).trans ?_
  by_cases hI0 : I.val = 0
  · have hc : ¬(1 ≤ I.val ∧ I.val ≤ 14 ∧ 1 ≤ J.val ∧ J.val ≤ 14) := by omega
    rw [if_neg hc]
    refine (canon_unit_of_mem _ _ _ (ix4 (0 : Fin 1) I J co) (ix4 (0 : Fin 1) (0 : Fin 1) J co)
      (fin4_all (by show (0 : ℕ) = 0 + 0; rfl) (by show I.val = 0 + 0; omega) (by show J.val = 0 + J.val; omega)
        (by show co.val = 0 + co.val; omega))).trans ?_
    exact conv15_pay1_apply _
  refine (canon_unit_of_not_mem _ _ _ (ix4 (0 : Fin 1) I J co) (1 : Fin 4) (by show I.val < 0 ∨ 0 + 1 ≤ I.val; omega)).trans ?_
  have hc : 1 ≤ I.val ∧ I.val ≤ 14 ∧ 1 ≤ J.val ∧ J.val ≤ 14 := by omega
  rw [if_pos hc]
  refine (canon_unit_of_mem _ _ _ (ix4 (0 : Fin 1) I J co)
    (ix4 (0 : Fin 1) (⟨I.val - 1, by omega⟩ : Fin 14) (⟨J.val - 1, by omega⟩ : Fin 16) co)
    (fin4_all (by show (0 : ℕ) = 0 + 0; rfl) (by show I.val = 1 + (I.val - 1); omega) (by show J.val = 1 + (J.val - 1); omega)
      (by show co.val = 0 + co.val; omega))).trans ?_
  exact conv15_apply V c t (⟨I.val - 1, by omega⟩ : Fin 14) (⟨J.val - 1, by omega⟩ : Fin 16) co

/-! ## The output array after the region -/

/-- The region's result as contents of the output array. -/
def G15 (c : Dev nD) : S8x16x18x512.Idx → EReal := fun k => Gf15 V c (k 0).val (k 1).val (k 2).val (k 3).val

/-- What point t writes back is its block of the result. -/
theorem flushed15_eq (c : Dev nD) (t : Fin cfg15.N) (hf : (cfg15.win 3).flush t = true) :
    (dat15 (F := Ideal) V c).flushed 3 t = ((cfg15.win 3).blk t).view.read (Elt Ideal) (G15 V c) := by
  obtain ⟨i0, i1, i2, i3, -⟩ := geo15_3 t
  funext y
  obtain ⟨I, J, co, rfl⟩ := exists_ix4_one (a := 16) (b := 18) (c := 512) y
  show (cfg15.win 3).cut (grid15.coords t) ((dat15 V c).after 3 t) (ix4 (0 : Fin 1) I J co) = _
  rw [after15_3, View.read_apply]
  show outsAt15 V c t (ix4 (0 : Fin 1) I J co) = G15 V c (((cfg15.win 3).blk t).view.emb (ix4 (0 : Fin 1) I J co))
  refine (outs15_apply V c t I J co).trans ?_
  have e0 : ((((cfg15.win 3).blk t).view.emb (ix4 (0 : Fin 1) I J co)) 0).val = t.val := by
    show win15_3.index t 0 * 1 + 1 * 0 = _; rw [i0]; omega
  have e1 : ((((cfg15.win 3).blk t).view.emb (ix4 (0 : Fin 1) I J co)) 1).val = I.val := by
    show win15_3.index t 1 * 16 + 1 * I.val = _; rw [i1]; omega
  have e2 : ((((cfg15.win 3).blk t).view.emb (ix4 (0 : Fin 1) I J co)) 2).val = J.val := by
    show win15_3.index t 2 * 18 + 1 * J.val = _; rw [i2]; omega
  have e3 : ((((cfg15.win 3).blk t).view.emb (ix4 (0 : Fin 1) I J co)) 3).val = co.val := by
    show win15_3.index t 3 * 512 + 1 * co.val = _; rw [i3]; omega
  unfold G15
  exact (congr (congr (congr (congrArg (Gf15 V c) e0) e1) e2) e3).symm

/-- Every index of the output array is in the block of its image's point. -/
theorem cover15 (c : Dev nD) (i : ((cfg15.win 3).arr.view.loc (c.tc : Thread nD τ)).2.ty.Idx) :
    ∃ t : Fin cfg15.N, (cfg15.win 3).flush t = true ∧ i ∈ ((cfg15.win 3).blk t).view.set := by
  have hN : cfg15.N = 8 := N_15
  have b0 : (i 0 : ℕ) < 8 := (i 0).isLt
  have b1 : (i 1 : ℕ) < 16 := (i 1).isLt
  have b2 : (i 2 : ℕ) < 18 := (i 2).isLt
  have b3 : (i 3 : ℕ) < 512 := (i 3).isLt
  have hlt : (i 0 : ℕ) < cfg15.N := by omega
  refine ⟨⟨(i 0 : ℕ), hlt⟩, flush15_3 _, ?_⟩
  obtain ⟨i0, i1, i2, i3, z0, z1, z2, z3⟩ := geo15_3 (⟨(i 0 : ℕ), hlt⟩ : Fin cfg15.N)
  show i ∈ ((View.whole (Pipeline.arrRef spec15 3)).slice (win15_3.rect (⟨(i 0 : ℕ), hlt⟩ : Fin cfg15.N))).set
  rw [View.set_slice_whole, Rect.mem_set_unit]
  intro a
  match a with
  | ⟨0, _⟩ =>
    show win15_3.index _ 0 * 1 ≤ (i 0 : ℕ) ∧ (i 0 : ℕ) < win15_3.index _ 0 * 1 + win15_3.xsize _ 0
    rw [i0, z0]; dsimp only; omega
  | ⟨1, _⟩ =>
    show win15_3.index _ 1 * win15_3.size 1 ≤ (i 1 : ℕ) ∧ (i 1 : ℕ) < win15_3.index _ 1 * win15_3.size 1 + win15_3.xsize _ 1
    rw [i1, z1]; omega
  | ⟨2, _⟩ =>
    show win15_3.index _ 2 * win15_3.size 2 ≤ (i 2 : ℕ) ∧ (i 2 : ℕ) < win15_3.index _ 2 * win15_3.size 2 + win15_3.xsize _ 2
    rw [i2, z2]; omega
  | ⟨3, _⟩ =>
    show win15_3.index _ 3 * win15_3.size 3 ≤ (i 3 : ℕ) ∧ (i 3 : ℕ) < win15_3.index _ 3 * win15_3.size 3 + win15_3.xsize _ 3
    rw [i3, z3]; omega

/-- So the output array ends holding the result. -/
theorem final15 (c : Dev nD) : (dat15 (F := Ideal) V c).arrAt 3 cfg15.N = G15 V c :=
  (dat15 (F := Ideal) V c).arrAt_eq_of_cover 3 (G15 V c) (flushed15_eq V c) (cover15 c)

/-- The region's value: the output array is the convolution of the input array, in padded coordinates, zero on the border. -/
theorem conv15_value (c : Dev nD) (b I J co : ℕ) (hb : b < 8) (hI : I < 16) (hJ : J < 18) (hco : co < 512) :
    Cert.Spec.arr4 ((dat15 (F := Ideal) V c).arrAt 3 cfg15.N : S8x16x18x512.Idx → EReal) b I J co
      = Cert.Spec.pad1 14 14 (Cert.Spec.convFlat 512 (Cert.Spec.arr4 (xarr15 V c)) (Cert.Spec.arr2 (warr15 V c))
          (Cert.Spec.arr2 (barr15 V c))) b I J co := by
  refine (congrArg (fun A : S8x16x18x512.Idx → EReal => Cert.Spec.arr4 A b I J co) (final15 V c)).trans ?_
  exact Cert.Spec.arr4_apply (G15 V c) (⟨b, hb⟩ : Fin 8) (⟨I, hI⟩ : Fin 16) (⟨J, hJ⟩ : Fin 18) (⟨co, hco⟩ : Fin 512)

end Cert.KernelIdeal.Val

end
-- ==== Proof.KV16Pay.lean ====
/-
  The payload of kernel region 16 read at one entry, at the ideal values. The body's whole-block store writes, at
  pooled row `i`, column `j`, output channel `co` of its block, the larger of the two convolution rows `2i` and `2i+1`
  there; a convolution row `h` at `(j, co)` is the ReLU of the bias plus the sum over the 4608 lanes `K` of the nine
  lane-concatenated taps — lane `K` is tap `K / 512` (row offset `K / 512 / 3`, column band `K / 512 % 3`) at input
  channel `K % 512` — times row `K` of the flattened weights. The row-pair maximum is a reduction over an axis of
  extent two started from minus infinity, which the maximum absorbs. The body's second store writes zeros over the strip of
  padding columns.
-/
import proofs.«100114_g2000204297211070_pallasbulk_1265_19_alg».proof.Proof.Gen.KernelIdeal.Skeleton
import proofs.«100114_g2000204297211070_pallasbulk_1265_19_alg».proof.Proof.Spec
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Val

open Cert.KernelIdeal Cert.KernelIdeal.Gen Cert.Spec
open Idealize.ShloMosaic Idealize.ShloMosaic.ValueIdx

/-- The block product into the zero accumulator, at an entry: the sum over the contracted coordinate. -/
theorem mm16_apply (A : FVec Ideal S224x4608 .bf16) (B : FVec Ideal S4608x512 .bf16) (a : Fin 224) (b : Fin 512) :
    matmul dot_S224x4608_S4608x512_S224x512_1_0_0_1_n_n none A B (constant S224x512 .f32 0x00000000#32) (ix2 a b)
      = ∑ c : Fin 4608, A (ix2 a c) * B (ix2 c b) := by
  show FloatOps.matmul dot_S224x4608_S4608x512_S224x512_1_0_0_1_n_n none A B _ (ix2 a b) = _
  rw [Ideal.matmul_constant_zero_apply, ← Equiv.sum_comp (contrEquiv1 dot_S224x4608_S4608x512_S224x512_1_0_0_1_n_n 4608 rfl rfl).symm]
  refine Finset.sum_congr rfl fun c _ => ?_
  have c2 := contrEquiv1_symm_val dot_S224x4608_S4608x512_S224x512_1_0_0_1_n_n 4608 rfl rfl c
  have l2 : (dot_S224x4608_S4608x512_S224x512_1_0_0_1_n_n).lhsIdx (ix2 a b) ((contrEquiv1 _ 4608 rfl rfl).symm c) = ix2 a c := by
    funext ax; apply Fin.ext
    match ax with
    | ⟨0, _⟩ => simp [DotDims.lhsIdx, dot_S224x4608_S4608x512_S224x512_1_0_0_1_n_n]; rfl
    | ⟨1, _⟩ => simp [DotDims.lhsIdx, dot_S224x4608_S4608x512_S224x512_1_0_0_1_n_n]; exact c2
  have r2 : (dot_S224x4608_S4608x512_S224x512_1_0_0_1_n_n).rhsIdx (ix2 a b) ((contrEquiv1 _ 4608 rfl rfl).symm c) = ix2 c b := by
    funext ax; apply Fin.ext
    match ax with
    | ⟨0, _⟩ => simp [DotDims.rhsIdx, dot_S224x4608_S4608x512_S224x512_1_0_0_1_n_n]; exact c2
    | ⟨1, _⟩ => simp [DotDims.rhsIdx, dot_S224x4608_S4608x512_S224x512_1_0_0_1_n_n]; rfl
  rw [l2, r2]

/-- One tap: the band `v` (the 16 rows of the padded block a tile reads) with its unit axis dropped, cut from row `dy`,
    at an entry. -/
theorem band16_apply (v : Vec Ideal S1x16x16x512 .bf16) (dy : ℕ) (hdy : dy ≤ 2) (h : S16x16x512.Slices ![dy, 0, 0] S14x16x512)
    (r : Fin 14) (j : Fin 16) (l : Fin 512) :
    extractStridedSlice S14x16x512 ![dy, 0, 0] (shapeCast S16x16x512 v shapeCasts_S1x16x16x512_S16x16x512) h (ix3 r j l)
      = arr4 v 0 (r.val + dy) j.val l.val := by
  have hR : r.val + dy < 16 := by omega
  refine (extractStridedSlice_apply _ _ h (ix3 r j l) (ix3 ⟨r.val + dy, hR⟩ j l) (fun a => ?_)).trans ?_
  · match a with
    | ⟨0, _⟩ => exact Nat.add_comm _ _
    | ⟨1, _⟩ => exact (Nat.zero_add _).symm
    | ⟨2, _⟩ => exact (Nat.zero_add _).symm
  · refine (shapeCast_1abc_abc_apply v _ ⟨r.val + dy, hR⟩ j l).trans ?_
    exact (arr4_apply v (0 : Fin 1) ⟨r.val + dy, hR⟩ j l).symm

/-- The maximum over an axis of extent two, started from `b`. -/
theorem fold_max_pair16 (b : EReal) (f : Fin 2 → EReal) :
    (Finset.univ : Finset (Fin 2)).fold max b f = max (f 0) (max (f 1) b) := by
  rw [show (Finset.univ : Finset (Fin 2)) = insert 0 {1} from by decide, Finset.fold_insert (by decide), Finset.fold_singleton]

variable (v3 v6 v9 : Vec Ideal S1x16x16x512 .bf16) (v22 : Vec Ideal S4608x512 .bf16) (v25 : Vec Ideal S1x512 .f32)

/-- The three loaded bands, by column offset, as one total function: band `dx` at row `R`, column `j`, channel `l`. -/
def tap16 (dx R j l : ℕ) : EReal :=
  if dx = 0 then arr4 v3 0 R j l else if dx = 1 then arr4 v6 0 R j l else arr4 v9 0 R j l

/-- The nine taps in the concatenation's order: tap `n` is the band at column offset `n % 3` cut from row `n / 3`. -/
def pieces16 : Fin 9 → (S14x16x512.Idx → EReal) :=
  ![extractStridedSlice S14x16x512 ![0, 0, 0] (shapeCast S16x16x512 v3 shapeCasts_S1x16x16x512_S16x16x512) slices_S16x16x512_o0_0_0_S14x16x512,
    extractStridedSlice S14x16x512 ![0, 0, 0] (shapeCast S16x16x512 v6 shapeCasts_S1x16x16x512_S16x16x512) slices_S16x16x512_o0_0_0_S14x16x512,
    extractStridedSlice S14x16x512 ![0, 0, 0] (shapeCast S16x16x512 v9 shapeCasts_S1x16x16x512_S16x16x512) slices_S16x16x512_o0_0_0_S14x16x512,
    extractStridedSlice S14x16x512 ![1, 0, 0] (shapeCast S16x16x512 v3 shapeCasts_S1x16x16x512_S16x16x512) slices_S16x16x512_o1_0_0_S14x16x512,
    extractStridedSlice S14x16x512 ![1, 0, 0] (shapeCast S16x16x512 v6 shapeCasts_S1x16x16x512_S16x16x512) slices_S16x16x512_o1_0_0_S14x16x512,
    extractStridedSlice S14x16x512 ![1, 0, 0] (shapeCast S16x16x512 v9 shapeCasts_S1x16x16x512_S16x16x512) slices_S16x16x512_o1_0_0_S14x16x512,
    extractStridedSlice S14x16x512 ![2, 0, 0] (shapeCast S16x16x512 v3 shapeCasts_S1x16x16x512_S16x16x512) slices_S16x16x512_o2_0_0_S14x16x512,
    extractStridedSlice S14x16x512 ![2, 0, 0] (shapeCast S16x16x512 v6 shapeCasts_S1x16x16x512_S16x16x512) slices_S16x16x512_o2_0_0_S14x16x512,
    extractStridedSlice S14x16x512 ![2, 0, 0] (shapeCast S16x16x512 v9 shapeCasts_S1x16x16x512_S16x16x512) slices_S16x16x512_o2_0_0_S14x16x512]

theorem pieces16_apply (n : Fin 9) (r : Fin 14) (j : Fin 16) (l : Fin 512) :
    pieces16 v3 v6 v9 n (ix3 r j l) = tap16 v3 v6 v9 (n.val % 3) (r.val + n.val / 3) j.val l.val := by
  match n with
  | ⟨0, _⟩ => exact (band16_apply v3 0 (by decide) slices_S16x16x512_o0_0_0_S14x16x512 r j l).trans (by simp [tap16])
  | ⟨1, _⟩ => exact (band16_apply v6 0 (by decide) slices_S16x16x512_o0_0_0_S14x16x512 r j l).trans (by simp [tap16])
  | ⟨2, _⟩ => exact (band16_apply v9 0 (by decide) slices_S16x16x512_o0_0_0_S14x16x512 r j l).trans (by simp [tap16])
  | ⟨3, _⟩ => exact (band16_apply v3 1 (by decide) slices_S16x16x512_o1_0_0_S14x16x512 r j l).trans (by simp [tap16])
  | ⟨4, _⟩ => exact (band16_apply v6 1 (by decide) slices_S16x16x512_o1_0_0_S14x16x512 r j l).trans (by simp [tap16])
  | ⟨5, _⟩ => exact (band16_apply v9 1 (by decide) slices_S16x16x512_o1_0_0_S14x16x512 r j l).trans (by simp [tap16])
  | ⟨6, _⟩ => exact (band16_apply v3 2 (by decide) slices_S16x16x512_o2_0_0_S14x16x512 r j l).trans (by simp [tap16])
  | ⟨7, _⟩ => exact (band16_apply v6 2 (by decide) slices_S16x16x512_o2_0_0_S14x16x512 r j l).trans (by simp [tap16])
  | ⟨8, _⟩ => exact (band16_apply v9 2 (by decide) slices_S16x16x512_o2_0_0_S14x16x512 r j l).trans (by simp [tap16])
  | ⟨_ + 9, h⟩ => exact absurd h (by omega)

/-- The concatenation of the nine taps along the lanes, at lane `c`: tap `c / 512` at channel `c % 512`. -/
theorem cat16_apply (r : Fin 14) (j : Fin 16) (c : Fin 4608) :
    concatenate S14x16x4608 2 [⟨S14x16x512, extractStridedSlice S14x16x512 ![0, 0, 0] (shapeCast S16x16x512 v3 shapeCasts_S1x16x16x512_S16x16x512) slices_S16x16x512_o0_0_0_S14x16x512⟩,
      ⟨S14x16x512, extractStridedSlice S14x16x512 ![0, 0, 0] (shapeCast S16x16x512 v6 shapeCasts_S1x16x16x512_S16x16x512) slices_S16x16x512_o0_0_0_S14x16x512⟩,
      ⟨S14x16x512, extractStridedSlice S14x16x512 ![0, 0, 0] (shapeCast S16x16x512 v9 shapeCasts_S1x16x16x512_S16x16x512) slices_S16x16x512_o0_0_0_S14x16x512⟩,
      ⟨S14x16x512, extractStridedSlice S14x16x512 ![1, 0, 0] (shapeCast S16x16x512 v3 shapeCasts_S1x16x16x512_S16x16x512) slices_S16x16x512_o1_0_0_S14x16x512⟩,
      ⟨S14x16x512, extractStridedSlice S14x16x512 ![1, 0, 0] (shapeCast S16x16x512 v6 shapeCasts_S1x16x16x512_S16x16x512) slices_S16x16x512_o1_0_0_S14x16x512⟩,
      ⟨S14x16x512, extractStridedSlice S14x16x512 ![1, 0, 0] (shapeCast S16x16x512 v9 shapeCasts_S1x16x16x512_S16x16x512) slices_S16x16x512_o1_0_0_S14x16x512⟩,
      ⟨S14x16x512, extractStridedSlice S14x16x512 ![2, 0, 0] (shapeCast S16x16x512 v3 shapeCasts_S1x16x16x512_S16x16x512) slices_S16x16x512_o2_0_0_S14x16x512⟩,
      ⟨S14x16x512, extractStridedSlice S14x16x512 ![2, 0, 0] (shapeCast S16x16x512 v6 shapeCasts_S1x16x16x512_S16x16x512) slices_S16x16x512_o2_0_0_S14x16x512⟩,
      ⟨S14x16x512, extractStridedSlice S14x16x512 ![2, 0, 0] (shapeCast S16x16x512 v9 shapeCasts_S1x16x16x512_S16x16x512) slices_S16x16x512_o2_0_0_S14x16x512⟩]
      concatenates_S14x16x512_S14x16x512_S14x16x512_S14x16x512_S14x16x512_S14x16x512_S14x16x512_S14x16x512_S14x16x512_S14x16x4608_d2 (ix3 r j c)
      = tap16 v3 v6 v9 (c.val / 512 % 3) (r.val + c.val / 512 / 3) j.val (c.val % 512) := by
  have hn : c.val / 512 < 9 := by have := c.isLt; omega
  have hl : c.val % 512 < 512 := Nat.mod_lt _ (by decide)
  refine (concatenate_ofFn_apply (t := S14x16x4608) (s₁ := S14x16x512) 2 (pieces16 v3 v6 v9) concatenates_S14x16x512_S14x16x512_S14x16x512_S14x16x512_S14x16x512_S14x16x512_S14x16x512_S14x16x512_S14x16x512_S14x16x4608_d2 rfl 512 rfl
    (ix3 r j c) ⟨c.val / 512, hn⟩ rfl (ix3 r j ⟨c.val % 512, hl⟩) rfl ?_).trans ?_
  · intro b hb
    match b with
    | ⟨0, _⟩ => rfl
    | ⟨1, _⟩ => rfl
    | ⟨2, _⟩ => exact absurd rfl hb
  · exact pieces16_apply v3 v6 v9 ⟨c.val / 512, hn⟩ r j ⟨c.val % 512, hl⟩

/-- One convolution row of the tile at column `j`, output channel `co`: bias plus the sum over the lanes, then ReLU. -/
def crow16 (h j co : ℕ) : EReal :=
  max ((∑ K ∈ Finset.range 4608, tap16 v3 v6 v9 (K / 512 % 3) (h + K / 512 / 3) j (K % 512) * arr2 v22 K co) + arr2 v25 0 co) 0

/-- The payload at an entry of the output block: the larger of convolution rows `2i` and `2i+1`. -/
theorem pay16_apply (i : Fin 7) (j : Fin 16) (co : Fin 512) :
    k16_pay2 v3 v6 v9 v22 v25 (ix4 (0 : Fin 1) i j co)
      = max (crow16 v3 v6 v9 v22 v25 (2 * i.val) j.val co.val) (crow16 v3 v6 v9 v22 v25 (2 * i.val + 1) j.val co.val) := by
  have hne : Ideal.ofBits .f32 0xFF800000#32 = ⊥ := by simp [Ideal.ofBits, Ideal.ieee]
  rw [Nat.mul_comm 2 i.val]
  unfold k16_pay2
  refine (shapeCast_abc_1abc_apply _ _ (0 : Fin 1) i j co).trans ?_
  -- the narrowing to bf16 is the identity at the ideal values; under it, the maximum over the row pair
  refine (truncf_apply (φ := .f32) (ψ := .bf16) _ bitsLt_bf16_f32 (ix3 i j co)).trans ?_
  refine (Ideal.multiReduction_maximumf_single _ _ reduces_S7x2x16x512_S7x16x512 _ _ (ix3 i j co)).trans ?_
  refine (fold_max_pair16 _ _).trans ?_
  suffices h : ∀ r : Fin 2, (Function.comp _ (Shape.Reduces.lift reduces_S7x2x16x512_S7x16x512 (ix3 i j co))) r
      = crow16 v3 v6 v9 v22 v25 (i.val * 2 + r.val) j.val co.val from
    congrArg₂ max (h 0) ((congrArg₂ max (h 1) hne).trans (max_bot_right _))
  intro r
  have hh : i.val * 2 + r.val < 14 := by have := i.isLt; have := r.isLt; omega
  have hp : (i.val * 2 + r.val) * 16 + j.val < 224 := by have := j.isLt; omega
  unfold crow16
  -- row `2i + r` of the tile's convolution: position `(2i + r) * 16 + j` of the flattened product
  refine (shapeCast_apply _ _ (Shape.Reduces.lift reduces_S7x2x16x512_S7x16x512 (ix3 i j co) r) (ix2 ⟨(i.val * 2 + r.val) * 16 + j.val, hp⟩ co) ?_).trans ?_
  · rw [Shape.rowMajor_val_two, Shape.rowMajor_val_four]; rfl
  refine congrArg₂ max ?_ ?_
  swap
  · exact Ideal.ofBits_zero_f32
  refine congrArg₂ (· + ·) ?_ ?_
  swap
  · refine (broadcastTo_1b_ab_apply v25 _ ⟨(i.val * 2 + r.val) * 16 + j.val, hp⟩ co).trans ?_
    exact (arr2_apply v25 (0 : Fin 1) co).symm
  refine (mm16_apply _ _ ⟨(i.val * 2 + r.val) * 16 + j.val, hp⟩ co).trans ?_
  rw [← Fin.sum_univ_eq_sum_range (fun K => tap16 v3 v6 v9 (K / 512 % 3) (i.val * 2 + r.val + K / 512 / 3) j.val (K % 512) * arr2 v22 K co.val) 4608]
  refine Finset.sum_congr rfl fun c _ => ?_
  refine congrArg₂ (· * ·) ?_ ?_
  · refine (shapeCast_apply _ _ (ix2 ⟨(i.val * 2 + r.val) * 16 + j.val, hp⟩ c) (ix3 ⟨i.val * 2 + r.val, hh⟩ j c) ?_).trans ?_
    · rw [Shape.rowMajor_val_two, Shape.rowMajor_val_three]; rfl
    exact cat16_apply v3 v6 v9 ⟨i.val * 2 + r.val, hh⟩ j c
  · rw [shapeCast_self]
    exact (arr2_apply v22 c co).symm

/-- The strip the body stores over the padding columns is zero everywhere. -/
theorem strip16_zero (x : S1x7x2x512.Idx) : k16_pay1 (F := Ideal) x = 0 := by
  show Ideal.ofBits .bf16 0x0000#16 = 0
  simp [Ideal.ofBits, Ideal.ieee]

end Cert.KernelIdeal.Val

end
-- ==== Proof.KV16.lean ====
/-
  The value of kernel region 16: its output array after the pipeline, entry by entry, at the ideal values. Point `t` of
  the grid is tile `t % 1` of image `t / 1`; its body loads three column-shifted bands of 16 rows of the image's
  padded block, from row `14 · (t % 1)`, and stores 7 pooled rows, then zeros over the padding columns `14` and up; entry `(i, j, co)` of what it stores is the larger
  of rows `2i` and `2i + 1` of the tile's convolution, which are rows `2 · (7 · (t % 1) + i)` and the next of the image's.
  The output blocks tile the output array, so every entry of the array left of column 14 is the row-pair maximum of the
  convolution, and every entry from column 14 on is zero.
-/
import proofs.«100114_g2000204297211070_pallasbulk_1265_19_alg».proof.Proof.KR16
import proofs.«100114_g2000204297211070_pallasbulk_1265_19_alg».proof.Proof.KV16Pay
import Idealize.ShloMosaic.Lib.Pipeline.Value
import Idealize.ShloMosaic.Lib.Tactic

set_option maxRecDepth 16384

noncomputable section

open scoped BigOperators

namespace Cert.KernelIdeal.Val

open Cert.KernelIdeal Cert.KernelIdeal.Gen Cert.KernelIdeal.Reg Cert.Spec
open Idealize.ShloMosaic Idealize.ShloMosaic.TcCoe Idealize.ShloMosaic.Tactic Idealize.ShloMosaic.ValueIdx
open Idealize.SL.Sem
open Idealize.ShloMosaic.Pipeline (Dat)

variable (V : (c : Dev nD) → (b : Ref sig .tc) → Buf (Elt Ideal) ((c : Thread nD τ).loc b))

private theorem hz4 : (![0, 0, 0, 0] : Fin 4 → Nat) = fun _ => 0 := funext fun a => by fin_cases a <;> rfl
private theorem hz2 : (![0, 0] : Fin 2 → Nat) = fun _ => 0 := funext fun a => by fin_cases a <;> rfl

/-- The region's arrays as it finds them, by their literal types: the padded input, the flattened weights, the bias. -/
abbrev xarr16 (c : Dev nD) : Vec Ideal S8x16x18x512 .bf16 := V c (Pipeline.arrRef spec16 0)
abbrev warr16 (c : Dev nD) : Vec Ideal S4608x512 .bf16 := V c (Pipeline.arrRef spec16 1)
abbrev barr16 (c : Dev nD) : Vec Ideal S1x512 .f32 := V c (Pipeline.arrRef spec16 2)

/-- Which block of its array each window is on at point `t`, and the point's second grid coordinate. -/
theorem idx16 : ∀ t : Fin grid16.N,
    (win16_0.index t 0 = t.val / 1 ∧ win16_0.index t 1 = 0 ∧ win16_0.index t 2 = 0 ∧ win16_0.index t 3 = 0)
    ∧ (win16_1.index t 0 = 0 ∧ win16_1.index t 1 = 0) ∧ (win16_2.index t 0 = 0 ∧ win16_2.index t 1 = 0)
    ∧ (win16_3.index t 0 = t.val / 1 ∧ win16_3.index t 1 = t.val % 1 ∧ win16_3.index t 2 = 0 ∧ win16_3.index t 3 = 0)
    ∧ (grid16.coords t 1).val = t.val % 1 := by decide +kernel

/-! ## What the run leaves in the output's staging buffer: the payload of the loaded blocks -/

theorem out16_eq (c : Dev nD) (i : grid16.Coords) (arg2 : Memref sig .tc .vmem S1x16x18x512 .bf16) (harg2 : arg2.IsWhole) (arg3 : Memref sig .tc .vmem S4608x512 .bf16) (harg3 : arg3.IsWhole) (arg4 : Memref sig .tc .vmem S1x512 .f32) (harg4 : arg4.IsWhole) (arg5 : Memref sig .tc .vmem S1x7x16x512 .bf16) (harg5 : arg5.IsWhole)
    (x0 : Vec Ideal S1x16x18x512 .bf16) (x1 : Vec Ideal S4608x512 .bf16) (x2 : Vec Ideal S1x512 .f32) (y : S1x7x16x512.Idx) :
    out16_A_3 (F := Ideal) c i arg2 harg2 arg3 harg3 arg4 harg4 arg5 harg5 x0 x1 x2 y
      = if (y 2).val < 14 then k16_pay2 (View.ld x0 (Rect.unit (s := S1x16x18x512) (k16_off1 i) S1x16x16x512.size (k16_off1_inb i)))
      (View.ld x0 (Rect.unit (s := S1x16x18x512) (k16_off2 i) S1x16x16x512.size (k16_off2_inb i)))
      (View.ld x0 (Rect.unit (s := S1x16x18x512) (k16_off3 i) S1x16x16x512.size (k16_off3_inb i))) x1 x2 y else 0 := by
  unfold out16_A_3
  rw [View.read_writes_eq_canon _ _ _ (cover16_A_3 c i arg2 harg2 arg3 harg3 arg4 harg4 arg5 harg5 x0 x1 x2)]
  unfold kernelRun16_A
  dsimp only
  try sl_unfold_words
  simp only [View.readAt_eq_ld, harg2.read_unread, harg3.read_unread, harg4.read_unread, View.ld_unit_zero (S := S4608x512) hz2, View.ld_unit_zero (S := S1x512) hz2]
  have y0 : (y 0).val < 1 := (y 0).isLt
  have y1 : (y 1).val < 7 := (y 1).isLt
  have y2 : (y 2).val < 16 := (y 2).isLt
  have y3 : (y 3).val < 512 := (y 3).isLt
  by_cases hlt : (y 2).val < 14
  · -- left of the strip: off the later store, under the whole-block one
    rw [if_pos hlt]
    have hnm : y ∉ (Rect.unit (s := S1x7x16x512) ![0, 0, 14, 0] S1x7x2x512.size inb_S1x7x16x512_S1x7x2x512_0_0_14_0).set := fun hm => by
      have h2 := (Rect.mem_set_unit.mp hm (2 : Fin 4)).1
      have : 14 ≤ (y 2).val := h2
      omega
    refine (View.canon_cons_of_not_mem (⟨(Rect.unit (s := S1x7x16x512) ![0, 0, 14, 0] S1x7x2x512.size inb_S1x7x16x512_S1x7x2x512_0_0_14_0), k16_pay1 (F := Ideal)⟩ : View.Piece (Elt Ideal) S1x7x16x512 .bf16) _ hnm).trans ?_
    rw [View.canon_unit_zero hz4]
  · -- on the strip: the later store's zeros
    rw [if_neg hlt]
    have hm : y ∈ (Rect.unit (s := S1x7x16x512) ![0, 0, 14, 0] S1x7x2x512.size inb_S1x7x16x512_S1x7x2x512_0_0_14_0).set := by
      rw [Rect.mem_set_unit]
      intro a
      match a with
      | ⟨0, _⟩ => exact ⟨Nat.zero_le _, by show (y 0).val < 0 + 1; omega⟩
      | ⟨1, _⟩ => exact ⟨Nat.zero_le _, by show (y 1).val < 0 + 7; omega⟩
      | ⟨2, _⟩ => exact ⟨by show 14 ≤ (y 2).val; omega, by show (y 2).val < 16; omega⟩
      | ⟨3, _⟩ => exact ⟨Nat.zero_le _, by show (y 3).val < 0 + 512; omega⟩
    obtain ⟨x, rfl⟩ := (Rect.unit (s := S1x7x16x512) ![0, 0, 14, 0] S1x7x2x512.size inb_S1x7x16x512_S1x7x2x512_0_0_14_0).exists_idx_of_mem hm
    exact (View.canon_cons_emb (Rect.unit (s := S1x7x16x512) ![0, 0, 14, 0] S1x7x2x512.size inb_S1x7x16x512_S1x7x2x512_0_0_14_0) _ _ x).trans (strip16_zero x)

/-! ## The loaded bands and blocks as entries of the arrays -/

/-- A band of the block loaded from row `ro`, column `dx`, read as a total function of its coordinates. -/
theorem ldband16 (x0 : Vec Ideal S1x16x18x512 .bf16) (off : Fin 4 → ℕ) (inb : ∀ a, off a + S1x16x16x512.size a ≤ S1x16x18x512.size a)
    (ro dx : ℕ) (hoff : off = ![0, ro, dx, 0]) (R j l : ℕ) (hR : R < 16) (hj : j < 16) (hl : l < 512) :
    arr4 (View.ld x0 (Rect.unit (s := S1x16x18x512) off S1x16x16x512.size inb) : Vec Ideal S1x16x16x512 .bf16) 0 R j l
      = arr4 x0 0 (ro + R) (dx + j) l := by
  subst hoff
  have hro : ro + 16 ≤ 16 := by have h := inb ⟨1, by decide⟩; exact h
  have hdx : dx + 16 ≤ 18 := by have h := inb ⟨2, by decide⟩; exact h
  refine (arr4_apply _ (0 : Fin 1) ⟨R, hR⟩ ⟨j, hj⟩ ⟨l, hl⟩).trans ?_
  refine Eq.trans ?_ (arr4_apply x0 (0 : Fin 1) ⟨ro + R, by omega⟩ ⟨dx + j, by omega⟩ ⟨l, hl⟩).symm
  show x0 _ = x0 _
  congr 1
  funext a
  apply Fin.ext
  match a with
  | ⟨0, _⟩ => rfl
  | ⟨1, _⟩ => show ro + 1 * R = ro + R; omega
  | ⟨2, _⟩ => show dx + 1 * j = dx + j; omega
  | ⟨3, _⟩ => show 0 + 1 * l = l; omega

/-- The three bands the body loads at grid position `i`, as entries of the block: band `dx` at `(R, j, l)` is the block at
    row `14 · i₁ + R`, column `dx + j`. -/
theorem tap16_ld (x0 : Vec Ideal S1x16x18x512 .bf16) (i : grid16.Coords) (dx R j l : ℕ) (hdx : dx < 3) (hR : R < 16) (hj : j < 16) (hl : l < 512) :
    tap16 (View.ld x0 (Rect.unit (s := S1x16x18x512) (k16_off1 i) S1x16x16x512.size (k16_off1_inb i)))
      (View.ld x0 (Rect.unit (s := S1x16x18x512) (k16_off2 i) S1x16x16x512.size (k16_off2_inb i)))
      (View.ld x0 (Rect.unit (s := S1x16x18x512) (k16_off3 i) S1x16x16x512.size (k16_off3_inb i))) dx R j l
      = arr4 x0 0 (14 * (i 1).val + R) (dx + j) l := by
  unfold tap16
  interval_cases dx
  · rw [if_pos rfl]; exact ldband16 x0 _ _ _ 0 (k16_off1_eq i) R j l hR hj hl
  · rw [if_neg (by decide), if_pos rfl]; exact ldband16 x0 _ _ _ 1 (k16_off2_eq i) R j l hR hj hl
  · rw [if_neg (by decide), if_neg (by decide)]; exact ldband16 x0 _ _ _ 2 (k16_off3_eq i) R j l hR hj hl

/-- The input window's block at point `t` is image `t / 1` of the padded input. -/
theorem iblk16_0_arr (c : Dev nD) (t : Fin cfg16.N) (R w l : ℕ) (hR : R < 16) (hw : w < 18) (hl : l < 512) :
    arr4 (iblk16 V c 0 t : Vec Ideal S1x16x18x512 .bf16) 0 R w l = arr4 (xarr16 V c) (t.val / 1) R w l := by
  have hb : t.val / 1 < 8 := by have : t.val < 8 * 1 := t.isLt; omega
  obtain ⟨⟨h0, h1, h2, h3⟩, -⟩ := idx16 t
  refine (arr4_apply _ (0 : Fin 1) ⟨R, hR⟩ ⟨w, hw⟩ ⟨l, hl⟩).trans ?_
  refine Eq.trans ?_ (arr4_apply (xarr16 V c) ⟨t.val / 1, hb⟩ ⟨R, hR⟩ ⟨w, hw⟩ ⟨l, hl⟩).symm
  unfold iblk16
  rw [View.read_apply]
  show V c (Pipeline.arrRef spec16 0) _ = V c (Pipeline.arrRef spec16 0) _
  congr 1
  funext a
  apply Fin.ext
  match a with
  | ⟨0, _⟩ => show win16_0.index t 0 * 1 + 1 * 0 = t.val / 1; rw [h0]; omega
  | ⟨1, _⟩ => show win16_0.index t 1 * 16 + 1 * R = R; rw [h1]; omega
  | ⟨2, _⟩ => show win16_0.index t 2 * 18 + 1 * w = w; rw [h2]; omega
  | ⟨3, _⟩ => show win16_0.index t 3 * 512 + 1 * l = l; rw [h3]; omega

/-- The weights' and the bias's blocks are their whole arrays at every point. -/
theorem iblk16_1_eq (c : Dev nD) (t : Fin cfg16.N) : (iblk16 V c 1 t : Vec Ideal S4608x512 .bf16) = warr16 V c := by
  obtain ⟨-, ⟨h0, h1⟩, -⟩ := idx16 t
  funext y
  unfold iblk16
  rw [View.read_apply]
  show V c (Pipeline.arrRef spec16 1) _ = V c (Pipeline.arrRef spec16 1) y
  congr 1
  funext a
  apply Fin.ext
  match a with
  | ⟨0, _⟩ => show win16_1.index t 0 * 4608 + 1 * (y 0).val = (y 0).val; rw [h0]; omega
  | ⟨1, _⟩ => show win16_1.index t 1 * 512 + 1 * (y 1).val = (y 1).val; rw [h1]; omega

theorem iblk16_2_eq (c : Dev nD) (t : Fin cfg16.N) : (iblk16 V c 2 t : Vec Ideal S1x512 .f32) = barr16 V c := by
  obtain ⟨-, -, ⟨h0, h1⟩, -⟩ := idx16 t
  funext y
  unfold iblk16
  rw [View.read_apply]
  show V c (Pipeline.arrRef spec16 2) _ = V c (Pipeline.arrRef spec16 2) y
  congr 1
  funext a
  apply Fin.ext
  match a with
  | ⟨0, _⟩ => show win16_2.index t 0 * 1 + 1 * (y 0).val = (y 0).val; rw [h0]; omega
  | ⟨1, _⟩ => show win16_2.index t 1 * 512 + 1 * (y 1).val = (y 1).val; rw [h1]; omega

/-! ## A row of the tile's convolution is a row of the image's -/

/-- Row `h` of the convolution the body computes at point `t` is row `14 · (t % 1) + h` of image `t / 1`'s. -/
theorem crow16_conv (c : Dev nD) (t : Fin cfg16.N) (h j co : ℕ) (hh : h < 14) (hj : j < 16) :
    crow16 (View.ld (iblk16 V c 0 t : Vec Ideal S1x16x18x512 .bf16) (Rect.unit (s := S1x16x18x512) (k16_off1 (grid16.coords t)) S1x16x16x512.size (k16_off1_inb (grid16.coords t))))
      (View.ld (iblk16 V c 0 t : Vec Ideal S1x16x18x512 .bf16) (Rect.unit (s := S1x16x18x512) (k16_off2 (grid16.coords t)) S1x16x16x512.size (k16_off2_inb (grid16.coords t))))
      (View.ld (iblk16 V c 0 t : Vec Ideal S1x16x18x512 .bf16) (Rect.unit (s := S1x16x18x512) (k16_off3 (grid16.coords t)) S1x16x16x512.size (k16_off3_inb (grid16.coords t))))
        (iblk16 V c 1 t : Vec Ideal S4608x512 .bf16) (iblk16 V c 2 t : Vec Ideal S1x512 .f32) h j co
      = (convFlat 512 (arr4 (xarr16 V c)) (arr2 (warr16 V c)) (arr2 (barr16 V c))) (t.val / 1) (14 * (t.val % 1) + h) j co := by
  obtain ⟨-, -, -, -, hc1⟩ := idx16 t
  have hi1 : (grid16.coords t 1).val < 1 := (grid16.coords t 1).isLt
  unfold crow16 convFlat
  show max ((∑ K ∈ Finset.range 4608, _) + _) 0 = max ((∑ K ∈ Finset.range 4608, _) + _) 0
  refine congrArg₂ max (congrArg₂ (· + ·) (Finset.sum_congr rfl fun K hK => ?_) ?_) rfl
  · have hK : K < 4608 := Finset.mem_range.mp hK
    have hdy : K / 512 / 3 < 3 := by omega
    refine congrArg₂ (· * ·) ?_ ?_
    · refine (tap16_ld (iblk16 V c 0 t) (grid16.coords t) (K / 512 % 3) (h + K / 512 / 3) j (K % 512) (Nat.mod_lt _ (by decide)) (by omega) hj (Nat.mod_lt _ (by decide))).trans ?_
      refine (iblk16_0_arr V c t (14 * (grid16.coords t 1).val + (h + K / 512 / 3)) (K / 512 % 3 + j) (K % 512) (by omega) (by omega) (Nat.mod_lt _ (by decide))).trans ?_
      rw [hc1, ← Nat.add_assoc, Nat.add_comm (K / 512 % 3) j]
    · exact congrArg (fun A : Vec Ideal S4608x512 .bf16 => arr2 A K co) (iblk16_1_eq V c t)
  · exact congrArg (fun A : Vec Ideal S1x512 .f32 => arr2 A 0 co) (iblk16_2_eq V c t)

/-! ## What the output's staging buffer holds after a point, entry by entry -/

theorem outsAt16_apply (c : Dev nD) (t : Fin cfg16.N) (i : Fin 7) (j : Fin 16) (co : Fin 512) :
    outsAt16 V c t (ix4 (0 : Fin 1) i j co)
      = if j.val < 14 then hpool (convFlat 512 (arr4 (xarr16 V c)) (arr2 (warr16 V c)) (arr2 (barr16 V c))) (t.val / 1) (7 * (t.val % 1) + i.val) j.val co.val else 0 := by
  have hi := i.isLt
  unfold outsAt16
  rw [out16_eq]
  show (if j.val < 14 then _ else _) = _
  refine if_congr Iff.rfl ?_ rfl
  refine (pay16_apply _ _ _ _ _ i j co).trans ?_
  unfold hpool
  refine congrArg₂ max ((crow16_conv V c t (2 * i.val) j.val co.val (by omega) j.isLt).trans ?_)
    ((crow16_conv V c t (2 * i.val + 1) j.val co.val (by omega) j.isLt).trans ?_)
  · rw [show 14 * (t.val % 1) + 2 * i.val = 2 * (7 * (t.val % 1) + i.val) from by omega]
  · rw [show 14 * (t.val % 1) + (2 * i.val + 1) = 2 * (7 * (t.val % 1) + i.val) + 1 from by omega]

/-! ## The output array after the pipeline -/

/-- The array the region leaves: left of column 14 the row-pair maximum of the convolution of the padded input, zero from
    column 14 on. -/
def G16 (c : Dev nD) : Vec Ideal S8x7x16x512 .bf16 := fun y =>
  if (y 2).val < 14 then hpool (convFlat 512 (arr4 (xarr16 V c)) (arr2 (warr16 V c)) (arr2 (barr16 V c))) (y 0).val (y 1).val (y 2).val (y 3).val else 0

/-- Every write-back writes its block of that array. -/
theorem flushed16 (c : Dev nD) (t : Fin cfg16.N) (hf : (cfg16.win 3).flush t = true) :
    (dat16 (F := Ideal) V c).flushed 3 t = ((cfg16.win 3).blk t).view.read (Elt Ideal) (G16 V c) := by
  obtain ⟨-, -, -, ⟨h0, h1, h2, h3⟩, -⟩ := idx16 t
  show (dat16 (F := Ideal) V c).after 3 t = _
  rw [after16_3]
  funext y
  obtain ⟨y0, y1, y2, y3, rfl⟩ : ∃ (y0 : Fin 1) (y1 : Fin 7) (y2 : Fin 16) (y3 : Fin 512), y = ix4 y0 y1 y2 y3 :=
    ⟨y 0, y 1, y 2, y 3, eq_ix4 y⟩
  obtain rfl : y0 = 0 := Fin.ext (by have := y0.isLt; omega)
  rw [View.read_apply]
  refine (outsAt16_apply V c t y1 y2 y3).trans ?_
  show _ = if win16_3.index t 2 * 16 + 1 * y2.val < 14 then hpool (convFlat 512 (arr4 (xarr16 V c)) (arr2 (warr16 V c)) (arr2 (barr16 V c)))
    (win16_3.index t 0 * 1 + 1 * 0) (win16_3.index t 1 * 7 + 1 * y1.val) (win16_3.index t 2 * 16 + 1 * y2.val) (win16_3.index t 3 * 512 + 1 * y3.val) else 0
  rw [h0, h1, h2, h3,
    show t.val / 1 * 1 + 1 * 0 = t.val / 1 from by omega,
    show t.val % 1 * 7 + 1 * y1.val = 7 * (t.val % 1) + y1.val from by omega,
    show 0 * 16 + 1 * y2.val = y2.val from by omega,
    show 0 * 512 + 1 * y3.val = y3.val from by omega]

/-- An index of the output array is in point `t`'s block iff each coordinate is in the block's range on its axis. -/
theorem mem_blk16 (t : Fin cfg16.N) (i : S8x7x16x512.Idx) :
    i ∈ ((cfg16.win 3).blk t).view.set ↔ ∀ a : Fin 4, win16_3.index t a * S1x7x16x512.size a ≤ (i a).val ∧ (i a).val < win16_3.index t a * S1x7x16x512.size a + S1x7x16x512.size a := by
  show i ∈ ((View.whole (Pipeline.arrRef spec16 3)).slice (win16_3.rect t)).set ↔ _
  rw [View.set_slice_whole, Rect.mem_set_unit]
  exact Iff.rfl

/-- The output blocks tile the output array, so it ends holding that array. -/
theorem final16 (c : Dev nD) : (dat16 (F := Ideal) V c).arrAt 3 cfg16.N = G16 V c :=
  (dat16 (F := Ideal) V c).arrAt_eq_of_cover 3 (G16 V c) (fun t hf => flushed16 V c t hf) (fun i => by
    have i0 : (i 0).val < 8 := (i 0).isLt
    have i1 : (i 1).val < 7 := (i 1).isLt
    have i2 : (i 2).val < 16 := (i 2).isLt
    have i3 : (i 3).val < 512 := (i 3).isLt
    have ht : (i 0).val * 1 + (i 1).val / 7 < cfg16.N := by show _ < 8 * 1; omega
    obtain ⟨-, -, -, ⟨h0, h1, h2, h3⟩, -⟩ := idx16 ⟨(i 0).val * 1 + (i 1).val / 7, ht⟩
    refine ⟨⟨(i 0).val * 1 + (i 1).val / 7, ht⟩, flush16_3 _, ?_⟩
    rw [mem_blk16]
    intro a
    match a with
    | ⟨0, _⟩ => show win16_3.index _ (0 : Fin 4) * 1 ≤ (i 0).val ∧ (i 0).val < win16_3.index _ (0 : Fin 4) * 1 + 1; simp only [] at h0; omega
    | ⟨1, _⟩ => show win16_3.index _ (1 : Fin 4) * 7 ≤ (i 1).val ∧ (i 1).val < win16_3.index _ (1 : Fin 4) * 7 + 7; simp only [] at h1; omega
    | ⟨2, _⟩ => show win16_3.index _ (2 : Fin 4) * 16 ≤ (i 2).val ∧ (i 2).val < win16_3.index _ (2 : Fin 4) * 16 + 16; omega
    | ⟨3, _⟩ => show win16_3.index _ (3 : Fin 4) * 512 ≤ (i 3).val ∧ (i 3).val < win16_3.index _ (3 : Fin 4) * 512 + 512; omega)

/-- The region's value: every entry of its output array left of column 14 is the row-pair maximum of the convolution, with
    bias and ReLU, of its padded input with its flattened weights; every entry from column 14 on is zero. -/
theorem conv16_value (c : Dev nD) (b i j co : ℕ) (hb : b < 8) (hi : i < 7) (hj : j < 16) (hco : co < 512) :
    Cert.Spec.arr4 ((dat16 (F := Ideal) V c).arrAt 3 cfg16.N : Vec Ideal S8x7x16x512 .bf16) b i j co
      = if j < 14 then Cert.Spec.hpool (Cert.Spec.convFlat 512 (Cert.Spec.arr4 (V c (Pipeline.arrRef spec16 0) : Vec Ideal S8x16x18x512 .bf16))
          (Cert.Spec.arr2 (V c (Pipeline.arrRef spec16 1) : Vec Ideal S4608x512 .bf16))
          (Cert.Spec.arr2 (V c (Pipeline.arrRef spec16 2) : Vec Ideal S1x512 .f32))) b i j co else 0 := by
  rw [final16]
  exact arr4_apply (G16 V c) ⟨b, hb⟩ ⟨i, hi⟩ ⟨j, hj⟩ ⟨co, hco⟩

end Cert.KernelIdeal.Val

end
-- ==== Proof.KV17.lean ====
/-
  The value of kernel region 17 (the lane-half maximum that finishes a 2x2 pooling). The body loads its input
  block whole — one batch image of 7 x 8 pixels with 1024 lanes, the two members of a column pair side by side on the
  lanes — and stores the pointwise maximum of the block's two lane halves. Grid point t is batch t, and the output
  blocks tile the output array; so after the region the output array holds, at batch b, row i, column j, channel ch,
  the maximum of the input array's entries at lanes ch and ch + 512 of the same pixel.
-/
import proofs.«100114_g2000204297211070_pallasbulk_1265_19_alg».proof.Proof.KR17
import proofs.«100114_g2000204297211070_pallasbulk_1265_19_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Val

open Cert.KernelIdeal Cert.KernelIdeal.Gen Cert.KernelIdeal.Reg
open Idealize.ShloMosaic Idealize.ShloMosaic.TcCoe Idealize.ShloMosaic.ValueIdx
open Idealize.ShloMosaic.Pipeline (Dat)

section Generic

variable {F : FTy → Type} [FloatOps F]

variable (V : (c : Dev nD) → (b : Ref sig .tc) → Buf (Elt F) ((c : Thread nD τ).loc b))

/-- The region's input array as it finds it, at its literal type. -/
abbrev xarr17 (c : Dev nD) : FVec F S8x7x8x1024 .bf16 := V c (Pipeline.arrRef spec17 0)

/-- What the output array ends holding: at every index the maximum of the input array's entries at the same pixel on
    lane ch and on lane ch + 512. -/
def G17 (X : FVec F S8x7x8x1024 .bf16) : FVec F S8x7x8x512 .bf16 := fun i =>
  FloatOps.maximumf
    (X (ix4 (n0 := 8) (n1 := 7) (n2 := 8) (n3 := 1024) (i 0) (i 1) (i 2) ⟨(i 3).val, Nat.lt_of_lt_of_le (i 3).isLt (by decide)⟩))
    (X (ix4 (n0 := 8) (n1 := 7) (n2 := 8) (n3 := 1024) (i 0) (i 1) (i 2) ⟨(i 3).val + 512, Nat.add_lt_of_lt_sub (Nat.lt_of_lt_of_le (i 3).isLt (by decide))⟩))

private theorem hz17 : (![0, 0, 0, 0] : Fin 4 → Nat) = fun _ => 0 := funext fun a => by fin_cases a <;> rfl

/-- The body's payload at an index of its block: the maximum of the loaded block's entries on lane l and lane l + 512. -/
theorem pay17_apply (x : Vec F S1x7x8x1024 .bf16) (z : Fin 1) (i : Fin 7) (j : Fin 8) (l : Fin 512) :
    k17_pay1 x (ix4 z i j l)
      = FloatOps.maximumf (x (ix4 (0 : Fin 1) i j ⟨l.val, Nat.lt_of_lt_of_le l.isLt (by decide)⟩))
          (x (ix4 (0 : Fin 1) i j ⟨l.val + 512, Nat.add_lt_of_lt_sub (Nat.lt_of_lt_of_le l.isLt (by decide))⟩)) := by
  unfold k17_pay1
  refine (shapeCast_abc_1abc_apply _ shapeCasts_S7x8x512_S1x7x8x512 z i j l).trans ?_
  show FloatOps.maximumf
      (extractStridedSlice S7x8x512 ![0, 0, 0] (shapeCast S7x8x1024 x shapeCasts_S1x7x8x1024_S7x8x1024) slices_S7x8x1024_o0_0_0_S7x8x512 (ix3 i j l))
      (extractStridedSlice S7x8x512 ![0, 0, 512] (shapeCast S7x8x1024 x shapeCasts_S1x7x8x1024_S7x8x1024) slices_S7x8x1024_o0_0_512_S7x8x512 (ix3 i j l)) = _
  -- the low lane half reads lane l, the high one lane l + 512
  have lo := extractStridedSlice_apply ![0, 0, 0] (shapeCast S7x8x1024 x shapeCasts_S1x7x8x1024_S7x8x1024) slices_S7x8x1024_o0_0_0_S7x8x512
    (ix3 i j l) (ix3 i j ⟨l.val, Nat.lt_of_lt_of_le l.isLt (by decide)⟩) (fun a => by
      match a with
      | ⟨0, _⟩ => exact (Nat.zero_add _).symm
      | ⟨1, _⟩ => exact (Nat.zero_add _).symm
      | ⟨2, _⟩ => exact (Nat.zero_add _).symm)
  have hi := extractStridedSlice_apply ![0, 0, 512] (shapeCast S7x8x1024 x shapeCasts_S1x7x8x1024_S7x8x1024) slices_S7x8x1024_o0_0_512_S7x8x512
    (ix3 i j l) (ix3 i j ⟨l.val + 512, Nat.add_lt_of_lt_sub (Nat.lt_of_lt_of_le l.isLt (by decide))⟩) (fun a => by
      match a with
      | ⟨0, _⟩ => exact (Nat.zero_add _).symm
      | ⟨1, _⟩ => exact (Nat.zero_add _).symm
      | ⟨2, _⟩ => exact Nat.add_comm _ _)
  -- and the block with its unit axis dropped reads the block at batch coordinate 0
  exact congrArg₂ FloatOps.maximumf
    (lo.trans (shapeCast_1abc_abc_apply x shapeCasts_S1x7x8x1024_S7x8x1024 i j _))
    (hi.trans (shapeCast_1abc_abc_apply x shapeCasts_S1x7x8x1024_S7x8x1024 i j _))

/-- The printed index maps, decided over the grid: both windows' block index at point t is (t, 0, 0, 0). -/
theorem idx_facts17 : ∀ t : Fin cfg17.N, win17_0.index t (0 : Fin 4) = t.val ∧ win17_0.index t (1 : Fin 4) = 0
    ∧ win17_0.index t (2 : Fin 4) = 0 ∧ win17_0.index t (3 : Fin 4) = 0
    ∧ win17_1.index t (0 : Fin 4) = t.val ∧ win17_1.index t (1 : Fin 4) = 0
    ∧ win17_1.index t (2 : Fin 4) = 0 ∧ win17_1.index t (3 : Fin 4) = 0 :=
  (by decide +kernel : ∀ t : Fin grid17.N, _)

/-- What point t writes back is block t of `G17` of the input array as the region finds it. -/
theorem flushed17_eq (c : Dev nD) (t : Fin cfg17.N) :
    (dat17 V c).flushed 1 t = ((cfg17.win 1).blk t).view.read (Elt F) (G17 (xarr17 V c)) := by
  show (cfg17.win 1).cut (grid17.coords t) ((dat17 V c).after 1 t) = _
  rw [after17_1]
  unfold out17_1
  rw [View.canon_unit_zero hz17]
  simp only [View.ld_unit_zero (S := S1x7x8x1024) hz17]
  obtain ⟨e0, e1, e2, e3, e4, e5, e6, e7⟩ := idx_facts17 t
  funext y
  obtain ⟨z, i, j, l, rfl⟩ : ∃ (z : Fin 1) (i : Fin 7) (j : Fin 8) (l : Fin 512), y = ix4 z i j l :=
    ⟨_, _, _, _, eq_ix4 (n0 := 1) (n1 := 7) (n2 := 8) (n3 := 512) y⟩
  show k17_pay1 (iblk17 V c 0 t) (ix4 z i j l) = G17 (xarr17 V c) (((cfg17.win 1).blk t).view.emb (ix4 z i j l))
  refine (pay17_apply (iblk17 V c 0 t) z i j l).trans ?_
  show FloatOps.maximumf
      (xarr17 V c (((cfg17.win 0).blk t).view.emb (ix4 (0 : Fin 1) i j ⟨l.val, _⟩)))
      (xarr17 V c (((cfg17.win 0).blk t).view.emb (ix4 (0 : Fin 1) i j ⟨l.val + 512, _⟩))) = _
  unfold G17
  have hz : z.val = 0 := by have := z.isLt; omega
  refine congrArg₂ FloatOps.maximumf (congrArg (xarr17 V c) ?_) (congrArg (xarr17 V c) ?_)
  · funext a; apply Fin.ext
    match a with
    | ⟨0, _⟩ => show win17_0.index t (0 : Fin 4) * 1 + 1 * 0 = win17_1.index t (0 : Fin 4) * 1 + 1 * z.val; omega
    | ⟨1, _⟩ => show win17_0.index t (1 : Fin 4) * 7 + 1 * i.val = win17_1.index t (1 : Fin 4) * 7 + 1 * i.val; omega
    | ⟨2, _⟩ => show win17_0.index t (2 : Fin 4) * 8 + 1 * j.val = win17_1.index t (2 : Fin 4) * 8 + 1 * j.val; omega
    | ⟨3, _⟩ => show win17_0.index t (3 : Fin 4) * 1024 + 1 * l.val = win17_1.index t (3 : Fin 4) * 512 + 1 * l.val; omega
  · funext a; apply Fin.ext
    match a with
    | ⟨0, _⟩ => show win17_0.index t (0 : Fin 4) * 1 + 1 * 0 = win17_1.index t (0 : Fin 4) * 1 + 1 * z.val; omega
    | ⟨1, _⟩ => show win17_0.index t (1 : Fin 4) * 7 + 1 * i.val = win17_1.index t (1 : Fin 4) * 7 + 1 * i.val; omega
    | ⟨2, _⟩ => show win17_0.index t (2 : Fin 4) * 8 + 1 * j.val = win17_1.index t (2 : Fin 4) * 8 + 1 * j.val; omega
    | ⟨3, _⟩ => show win17_0.index t (3 : Fin 4) * 1024 + 1 * (l.val + 512) = win17_1.index t (3 : Fin 4) * 512 + 1 * l.val + 512; omega

/-- Every index of the output array is in the block of the point its batch coordinate names. -/
theorem cover17 (i : S8x7x8x512.Idx) :
    ∃ t : Fin cfg17.N, (cfg17.win 1).flush t = true ∧ i ∈ ((cfg17.win 1).blk t).view.set := by
  have h0 : (i 0).val < 8 := (i 0).isLt
  obtain ⟨t, ht⟩ : ∃ t : Fin cfg17.N, t.val = (i 0).val := ⟨⟨(i 0).val, by show (i 0).val < grid17.N; rw [N_17]; exact h0⟩, rfl⟩
  refine ⟨t, flush17_1 t, ?_⟩
  obtain ⟨e0, e1, e2, e3, e4, e5, e6, e7⟩ := idx_facts17 t
  have e : ((cfg17.win 1).blk t).view.emb (ix4 (n0 := 1) (n1 := 7) (n2 := 8) (n3 := 512) ⟨0, Nat.one_pos⟩ (i 1) (i 2) (i 3)) = i := by
    funext a; apply Fin.ext
    match a with
    | ⟨0, _⟩ => show win17_1.index t (0 : Fin 4) * 1 + 1 * 0 = (i 0).val; omega
    | ⟨1, _⟩ => show win17_1.index t (1 : Fin 4) * 7 + 1 * (i 1).val = (i 1).val; omega
    | ⟨2, _⟩ => show win17_1.index t (2 : Fin 4) * 8 + 1 * (i 2).val = (i 2).val; omega
    | ⟨3, _⟩ => show win17_1.index t (3 : Fin 4) * 512 + 1 * (i 3).val = (i 3).val; omega
  have hm := ((cfg17.win 1).blk t).view.emb_mem_set (ix4 (n0 := 1) (n1 := 7) (n2 := 8) (n3 := 512) ⟨0, Nat.one_pos⟩ (i 1) (i 2) (i 3))
  rw [e] at hm
  exact hm

/-- The output array after the region: `G17` of the input array. -/
theorem final17 (c : Dev nD) : (dat17 V c).arrAt 1 cfg17.N = G17 (xarr17 V c) :=
  (dat17 V c).arrAt_eq_of_cover 1 (G17 (xarr17 V c)) (fun t _ => flushed17_eq V c t) cover17

end Generic

/-- At the ideal values, in natural coordinates: the output array at batch b, row i, column j, channel ch is the maximum
    of the input array's entries at the same pixel on lanes ch and ch + 512. -/
theorem wpool17_value (V : (c : Dev nD) → (b : Ref sig .tc) → Buf (Elt Ideal) ((c : Thread nD τ).loc b)) (c : Dev nD)
    (b i j ch : ℕ) (hb : b < 8) (hi : i < 7) (hj : j < 8) (hch : ch < 512) :
    Cert.Spec.arr4 ((dat17 (F := Ideal) V c).arrAt 1 cfg17.N) b i j ch
      = max (Cert.Spec.arr4 (V c (Pipeline.arrRef spec17 0)) b i j ch) (Cert.Spec.arr4 (V c (Pipeline.arrRef spec17 0)) b i j (ch + 512)) := by
  rw [final17]
  refine (Cert.Spec.arr4_apply (n0 := 8) (n1 := 7) (n2 := 8) (n3 := 512) (G17 (xarr17 V c)) ⟨b, hb⟩ ⟨i, hi⟩ ⟨j, hj⟩ ⟨ch, hch⟩).trans ?_
  refine Eq.trans ?_ (congrArg₂ (max : EReal → EReal → EReal)
    (Cert.Spec.arr4_apply (n0 := 8) (n1 := 7) (n2 := 8) (n3 := 1024) (xarr17 V c) ⟨b, hb⟩ ⟨i, hi⟩ ⟨j, hj⟩ ⟨ch, by omega⟩)
    (Cert.Spec.arr4_apply (n0 := 8) (n1 := 7) (n2 := 8) (n3 := 1024) (xarr17 V c) ⟨b, hb⟩ ⟨i, hi⟩ ⟨j, hj⟩ ⟨ch + 512, by omega⟩)).symm
  rfl

end Cert.KernelIdeal.Val

end
-- ==== Proof.KGlueArgs.lean ====
/-
  No item of the kernel's @main writes one of its 27 arguments: a host stretch writes only the tensor values its
  operations define, a region only its output. So at every boundary an argument's buffer holds its launch contents.
-/
import proofs.«100114_g2000204297211070_pallasbulk_1265_19_alg».proof.Proof.KRegionsP

set_option maxRecDepth 16384

noncomputable section

namespace Cert.KernelIdeal.Glue

open Cert.KernelIdeal Cert.KernelIdeal.Gen Cert.KernelIdeal.GenP
open Idealize.ShloMosaic Idealize.ShloMosaic.TcCoe

variable {F : FTy → Type} [FloatOps F]
variable (m : (ℓ : Loc nD τ sig) → Buf (Elt F) ℓ) (outs : Outs (F := F))

/-- @main's arguments. -/
abbrev args : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26]

theorem V0_arg (c : Dev nD) (r : Ref sig .tc) (h : r ∈ args) : V0 m c r = m ((c : Thread nD τ).loc r) := rfl
theorem V1_arg (c : Dev nD) (r : Ref sig .tc) (h : r ∈ args) : V1 m c r = m ((c : Thread nD τ).loc r) :=
  (V1_of m c r ((by decide : ∀ a ∈ args, a ∉ hostOps0_W) r h)).trans (V0_arg m c r h)
theorem V2_arg (c : Dev nD) (r : Ref sig .tc) (h : r ∈ args) : V2 m c r = m ((c : Thread nD τ).loc r) :=
  (V2_of m c r ((by decide : ∀ a ∈ args, a ∉ hostOps0_1_W) r h)).trans (V1_arg m c r h)
theorem V3_arg (c : Dev nD) (r : Ref sig .tc) (h : r ∈ args) : V3 m c r = m ((c : Thread nD τ).loc r) :=
  (V3_of m c r ((by decide : ∀ a ∈ args, a ∉ hostOps0_2_W) r h)).trans (V2_arg m c r h)
theorem V4_arg (c : Dev nD) (r : Ref sig .tc) (h : r ∈ args) : V4 m outs c r = m ((c : Thread nD τ).loc r) :=
  (V4_of m outs c r ((by decide : ∀ a ∈ args, a ∉ ([main_v15] : List (Ref sig .tc))) r h)).trans (V3_arg m c r h)
theorem V5_arg (c : Dev nD) (r : Ref sig .tc) (h : r ∈ args) : V5 m outs c r = m ((c : Thread nD τ).loc r) :=
  (V5_of m outs c r ((by decide : ∀ a ∈ args, a ∉ hostOps1_W) r h)).trans (V4_arg m outs c r h)
theorem V6_arg (c : Dev nD) (r : Ref sig .tc) (h : r ∈ args) : V6 m outs c r = m ((c : Thread nD τ).loc r) :=
  (V6_of m outs c r ((by decide : ∀ a ∈ args, a ∉ ([main_v18] : List (Ref sig .tc))) r h)).trans (V5_arg m outs c r h)
theorem V7_arg (c : Dev nD) (r : Ref sig .tc) (h : r ∈ args) : V7 m outs c r = m ((c : Thread nD τ).loc r) :=
  (V7_of m outs c r ((by decide : ∀ a ∈ args, a ∉ hostOps2_W) r h)).trans (V6_arg m outs c r h)
theorem V8_arg (c : Dev nD) (r : Ref sig .tc) (h : r ∈ args) : V8 m outs c r = m ((c : Thread nD τ).loc r) :=
  (V8_of m outs c r ((by decide : ∀ a ∈ args, a ∉ ([main_v20] : List (Ref sig .tc))) r h)).trans (V7_arg m outs c r h)
theorem V9_arg (c : Dev nD) (r : Ref sig .tc) (h : r ∈ args) : V9 m outs c r = m ((c : Thread nD τ).loc r) :=
  (V9_of m outs c r ((by decide : ∀ a ∈ args, a ∉ hostOps3_W) r h)).trans (V8_arg m outs c r h)
theorem V10_arg (c : Dev nD) (r : Ref sig .tc) (h : r ∈ args) : V10 m outs c r = m ((c : Thread nD τ).loc r) :=
  (V10_of m outs c r ((by decide : ∀ a ∈ args, a ∉ hostOps3_1_W) r h)).trans (V9_arg m outs c r h)
theorem V11_arg (c : Dev nD) (r : Ref sig .tc) (h : r ∈ args) : V11 m outs c r = m ((c : Thread nD τ).loc r) :=
  (V11_of m outs c r ((by decide : ∀ a ∈ args, a ∉ hostOps3_2_W) r h)).trans (V10_arg m outs c r h)
theorem V12_arg (c : Dev nD) (r : Ref sig .tc) (h : r ∈ args) : V12 m outs c r = m ((c : Thread nD τ).loc r) :=
  (V12_of m outs c r ((by decide : ∀ a ∈ args, a ∉ ([main_v24] : List (Ref sig .tc))) r h)).trans (V11_arg m outs c r h)
theorem V13_arg (c : Dev nD) (r : Ref sig .tc) (h : r ∈ args) : V13 m outs c r = m ((c : Thread nD τ).loc r) :=
  (V13_of m outs c r ((by decide : ∀ a ∈ args, a ∉ hostOps4_W) r h)).trans (V12_arg m outs c r h)
theorem V14_arg (c : Dev nD) (r : Ref sig .tc) (h : r ∈ args) : V14 m outs c r = m ((c : Thread nD τ).loc r) :=
  (V14_of m outs c r ((by decide : ∀ a ∈ args, a ∉ hostOps4_1_W) r h)).trans (V13_arg m outs c r h)
theorem V15_arg (c : Dev nD) (r : Ref sig .tc) (h : r ∈ args) : V15 m outs c r = m ((c : Thread nD τ).loc r) :=
  (V15_of m outs c r ((by decide : ∀ a ∈ args, a ∉ hostOps4_2_W) r h)).trans (V14_arg m outs c r h)
theorem V16_arg (c : Dev nD) (r : Ref sig .tc) (h : r ∈ args) : V16 m outs c r = m ((c : Thread nD τ).loc r) :=
  (V16_of m outs c r ((by decide : ∀ a ∈ args, a ∉ ([main_v28] : List (Ref sig .tc))) r h)).trans (V15_arg m outs c r h)
theorem V17_arg (c : Dev nD) (r : Ref sig .tc) (h : r ∈ args) : V17 m outs c r = m ((c : Thread nD τ).loc r) :=
  (V17_of m outs c r ((by decide : ∀ a ∈ args, a ∉ hostOps5_W) r h)).trans (V16_arg m outs c r h)
theorem V18_arg (c : Dev nD) (r : Ref sig .tc) (h : r ∈ args) : V18 m outs c r = m ((c : Thread nD τ).loc r) :=
  (V18_of m outs c r ((by decide : ∀ a ∈ args, a ∉ ([main_v30] : List (Ref sig .tc))) r h)).trans (V17_arg m outs c r h)
theorem V19_arg (c : Dev nD) (r : Ref sig .tc) (h : r ∈ args) : V19 m outs c r = m ((c : Thread nD τ).loc r) :=
  (V19_of m outs c r ((by decide : ∀ a ∈ args, a ∉ hostOps6_W) r h)).trans (V18_arg m outs c r h)
theorem V20_arg (c : Dev nD) (r : Ref sig .tc) (h : r ∈ args) : V20 m outs c r = m ((c : Thread nD τ).loc r) :=
  (V20_of m outs c r ((by decide : ∀ a ∈ args, a ∉ hostOps6_1_W) r h)).trans (V19_arg m outs c r h)
theorem V21_arg (c : Dev nD) (r : Ref sig .tc) (h : r ∈ args) : V21 m outs c r = m ((c : Thread nD τ).loc r) :=
  (V21_of m outs c r ((by decide : ∀ a ∈ args, a ∉ hostOps6_2_W) r h)).trans (V20_arg m outs c r h)
theorem V22_arg (c : Dev nD) (r : Ref sig .tc) (h : r ∈ args) : V22 m outs c r = m ((c : Thread nD τ).loc r) :=
  (V22_of m outs c r ((by decide : ∀ a ∈ args, a ∉ ([main_v34] : List (Ref sig .tc))) r h)).trans (V21_arg m outs c r h)
theorem V23_arg (c : Dev nD) (r : Ref sig .tc) (h : r ∈ args) : V23 m outs c r = m ((c : Thread nD τ).loc r) :=
  (V23_of m outs c r ((by decide : ∀ a ∈ args, a ∉ hostOps7_W) r h)).trans (V22_arg m outs c r h)
theorem V24_arg (c : Dev nD) (r : Ref sig .tc) (h : r ∈ args) : V24 m outs c r = m ((c : Thread nD τ).loc r) :=
  (V24_of m outs c r ((by decide : ∀ a ∈ args, a ∉ ([main_v37] : List (Ref sig .tc))) r h)).trans (V23_arg m outs c r h)
theorem V25_arg (c : Dev nD) (r : Ref sig .tc) (h : r ∈ args) : V25 m outs c r = m ((c : Thread nD τ).loc r) :=
  (V25_of m outs c r ((by decide : ∀ a ∈ args, a ∉ hostOps8_W) r h)).trans (V24_arg m outs c r h)
theorem V26_arg (c : Dev nD) (r : Ref sig .tc) (h : r ∈ args) : V26 m outs c r = m ((c : Thread nD τ).loc r) :=
  (V26_of m outs c r ((by decide : ∀ a ∈ args, a ∉ ([main_v40] : List (Ref sig .tc))) r h)).trans (V25_arg m outs c r h)
theorem V27_arg (c : Dev nD) (r : Ref sig .tc) (h : r ∈ args) : V27 m outs c r = m ((c : Thread nD τ).loc r) :=
  (V27_of m outs c r ((by decide : ∀ a ∈ args, a ∉ hostOps9_W) r h)).trans (V26_arg m outs c r h)
theorem V28_arg (c : Dev nD) (r : Ref sig .tc) (h : r ∈ args) : V28 m outs c r = m ((c : Thread nD τ).loc r) :=
  (V28_of m outs c r ((by decide : ∀ a ∈ args, a ∉ ([main_v42] : List (Ref sig .tc))) r h)).trans (V27_arg m outs c r h)
theorem V29_arg (c : Dev nD) (r : Ref sig .tc) (h : r ∈ args) : V29 m outs c r = m ((c : Thread nD τ).loc r) :=
  (V29_of m outs c r ((by decide : ∀ a ∈ args, a ∉ hostOps10_W) r h)).trans (V28_arg m outs c r h)
theorem V30_arg (c : Dev nD) (r : Ref sig .tc) (h : r ∈ args) : V30 m outs c r = m ((c : Thread nD τ).loc r) :=
  (V30_of m outs c r ((by decide : ∀ a ∈ args, a ∉ hostOps10_1_W) r h)).trans (V29_arg m outs c r h)
theorem V31_arg (c : Dev nD) (r : Ref sig .tc) (h : r ∈ args) : V31 m outs c r = m ((c : Thread nD τ).loc r) :=
  (V31_of m outs c r ((by decide : ∀ a ∈ args, a ∉ hostOps10_2_W) r h)).trans (V30_arg m outs c r h)
theorem V32_arg (c : Dev nD) (r : Ref sig .tc) (h : r ∈ args) : V32 m outs c r = m ((c : Thread nD τ).loc r) :=
  (V32_of m outs c r ((by decide : ∀ a ∈ args, a ∉ ([main_v46] : List (Ref sig .tc))) r h)).trans (V31_arg m outs c r h)
theorem V33_arg (c : Dev nD) (r : Ref sig .tc) (h : r ∈ args) : V33 m outs c r = m ((c : Thread nD τ).loc r) :=
  (V33_of m outs c r ((by decide : ∀ a ∈ args, a ∉ hostOps11_W) r h)).trans (V32_arg m outs c r h)
theorem V34_arg (c : Dev nD) (r : Ref sig .tc) (h : r ∈ args) : V34 m outs c r = m ((c : Thread nD τ).loc r) :=
  (V34_of m outs c r ((by decide : ∀ a ∈ args, a ∉ ([main_v49] : List (Ref sig .tc))) r h)).trans (V33_arg m outs c r h)
theorem V35_arg (c : Dev nD) (r : Ref sig .tc) (h : r ∈ args) : V35 m outs c r = m ((c : Thread nD τ).loc r) :=
  (V35_of m outs c r ((by decide : ∀ a ∈ args, a ∉ hostOps12_W) r h)).trans (V34_arg m outs c r h)
theorem V36_arg (c : Dev nD) (r : Ref sig .tc) (h : r ∈ args) : V36 m outs c r = m ((c : Thread nD τ).loc r) :=
  (V36_of m outs c r ((by decide : ∀ a ∈ args, a ∉ ([main_v52] : List (Ref sig .tc))) r h)).trans (V35_arg m outs c r h)
theorem V37_arg (c : Dev nD) (r : Ref sig .tc) (h : r ∈ args) : V37 m outs c r = m ((c : Thread nD τ).loc r) :=
  (V37_of m outs c r ((by decide : ∀ a ∈ args, a ∉ hostOps13_W) r h)).trans (V36_arg m outs c r h)
theorem V38_arg (c : Dev nD) (r : Ref sig .tc) (h : r ∈ args) : V38 m outs c r = m ((c : Thread nD τ).loc r) :=
  (V38_of m outs c r ((by decide : ∀ a ∈ args, a ∉ ([main_v54] : List (Ref sig .tc))) r h)).trans (V37_arg m outs c r h)
theorem V39_arg (c : Dev nD) (r : Ref sig .tc) (h : r ∈ args) : V39 m outs c r = m ((c : Thread nD τ).loc r) :=
  (V39_of m outs c r ((by decide : ∀ a ∈ args, a ∉ hostOps14_W) r h)).trans (V38_arg m outs c r h)
theorem V40_arg (c : Dev nD) (r : Ref sig .tc) (h : r ∈ args) : V40 m outs c r = m ((c : Thread nD τ).loc r) :=
  (V40_of m outs c r ((by decide : ∀ a ∈ args, a ∉ hostOps14_1_W) r h)).trans (V39_arg m outs c r h)
theorem V41_arg (c : Dev nD) (r : Ref sig .tc) (h : r ∈ args) : V41 m outs c r = m ((c : Thread nD τ).loc r) :=
  (V41_of m outs c r ((by decide : ∀ a ∈ args, a ∉ hostOps14_2_W) r h)).trans (V40_arg m outs c r h)
theorem V42_arg (c : Dev nD) (r : Ref sig .tc) (h : r ∈ args) : V42 m outs c r = m ((c : Thread nD τ).loc r) :=
  (V42_of m outs c r ((by decide : ∀ a ∈ args, a ∉ ([main_v58] : List (Ref sig .tc))) r h)).trans (V41_arg m outs c r h)
theorem V43_arg (c : Dev nD) (r : Ref sig .tc) (h : r ∈ args) : V43 m outs c r = m ((c : Thread nD τ).loc r) :=
  (V43_of m outs c r ((by decide : ∀ a ∈ args, a ∉ hostOps15_W) r h)).trans (V42_arg m outs c r h)
theorem V44_arg (c : Dev nD) (r : Ref sig .tc) (h : r ∈ args) : V44 m outs c r = m ((c : Thread nD τ).loc r) :=
  (V44_of m outs c r ((by decide : ∀ a ∈ args, a ∉ ([main_v61] : List (Ref sig .tc))) r h)).trans (V43_arg m outs c r h)
theorem V45_arg (c : Dev nD) (r : Ref sig .tc) (h : r ∈ args) : V45 m outs c r = m ((c : Thread nD τ).loc r) :=
  (V45_of m outs c r ((by decide : ∀ a ∈ args, a ∉ hostOps16_W) r h)).trans (V44_arg m outs c r h)
theorem V46_arg (c : Dev nD) (r : Ref sig .tc) (h : r ∈ args) : V46 m outs c r = m ((c : Thread nD τ).loc r) :=
  (V46_of m outs c r ((by decide : ∀ a ∈ args, a ∉ ([main_v64] : List (Ref sig .tc))) r h)).trans (V45_arg m outs c r h)
theorem V47_arg (c : Dev nD) (r : Ref sig .tc) (h : r ∈ args) : V47 m outs c r = m ((c : Thread nD τ).loc r) :=
  (V47_of m outs c r ((by decide : ∀ a ∈ args, a ∉ hostOps17_W) r h)).trans (V46_arg m outs c r h)
theorem V48_arg (c : Dev nD) (r : Ref sig .tc) (h : r ∈ args) : V48 m outs c r = m ((c : Thread nD τ).loc r) :=
  (V48_of m outs c r ((by decide : ∀ a ∈ args, a ∉ ([main_v66] : List (Ref sig .tc))) r h)).trans (V47_arg m outs c r h)
theorem V49_arg (c : Dev nD) (r : Ref sig .tc) (h : r ∈ args) : V49 m outs c r = m ((c : Thread nD τ).loc r) :=
  (V49_of m outs c r ((by decide : ∀ a ∈ args, a ∉ hostOps18_W) r h)).trans (V48_arg m outs c r h)

end Cert.KernelIdeal.Glue

end
-- ==== Proof.KGlueLib.lean ====
/-
  Reads of the host's layout operations at natural coordinates, over the total-function view of arrays (arr2, arr3,
  arr4: zero outside the extents): a stack of weight slabs flattened, a column pair folded into the channels, a zero
  border, the channels moved first or last, a window of rows and columns.
-/
import proofs.«100114_g2000204297211070_pallasbulk_1265_19_alg».proof.Proof.Spec
import Idealize.ShloMosaic.Lib.Pipeline.Value
import Idealize.ShloMosaic.Lib.ValueLayout
import Idealize.ShloMosaic.Lib.KernelVsHost
import Mathlib.Tactic.Ring

set_option maxRecDepth 16384

noncomputable section

namespace Cert.KernelIdeal.Glue

open Cert.Spec
open Idealize.ShloMosaic Idealize.ShloMosaic.ValueIdx

/-! ## Arrays read inside their extents -/

theorem arr4_of_lt {n0 n1 n2 n3 : ℕ} (x : (⟨4, ![n0, n1, n2, n3]⟩ : Shape).Idx → EReal) {b i j c : ℕ}
    (hb : b < n0) (hi : i < n1) (hj : j < n2) (hc : c < n3) :
    arr4 x b i j c = x (ix4 ⟨b, hb⟩ ⟨i, hi⟩ ⟨j, hj⟩ ⟨c, hc⟩) := by
  unfold arr4; rw [dif_pos ⟨hb, hi, hj, hc⟩]

theorem arr3_of_lt {n0 n1 n2 : ℕ} (x : (⟨3, ![n0, n1, n2]⟩ : Shape).Idx → EReal) {a b c : ℕ}
    (ha : a < n0) (hb : b < n1) (hc : c < n2) :
    arr3 x a b c = x (ix3 ⟨a, ha⟩ ⟨b, hb⟩ ⟨c, hc⟩) := by
  unfold arr3; rw [dif_pos ⟨ha, hb, hc⟩]

theorem arr2_of_lt {n0 n1 : ℕ} (x : (⟨2, ![n0, n1]⟩ : Shape).Idx → EReal) {a b : ℕ} (ha : a < n0) (hb : b < n1) :
    arr2 x a b = x (ix2 ⟨a, ha⟩ ⟨b, hb⟩) := by
  unfold arr2; rw [dif_pos ⟨ha, hb⟩]

/-! ## A weight stack flattened: slab k, input channel ci at row k·Cin + ci -/

/-- Reading the [9, Cin, Cout] → [9·Cin, Cout] reshape at row k, column co: slab k / Cin, input channel k % Cin
    (the two entries have the same row-major position, (k / Cin · Cin + k % Cin) · Cout + co = k · Cout + co). -/
theorem flat_apply {Cin Cout n : ℕ} (hn : n = 9 * Cin) (x : (⟨3, ![9, Cin, Cout]⟩ : Shape).Idx → EReal)
    (h : (⟨3, ![9, Cin, Cout]⟩ : Shape).ShapeCasts ⟨2, ![n, Cout]⟩) (k co : ℕ) (hk : k < n) (hco : co < Cout) :
    arr2 (shapeCast ⟨2, ![n, Cout]⟩ x h) k co = arr3 x (k / Cin) (k % Cin) co := by
  have hC : 0 < Cin := by
    rcases Nat.eq_zero_or_pos Cin with h0 | h0
    · subst h0; omega
    · exact h0
  have h1 : k / Cin < 9 := by rw [Nat.div_lt_iff_lt_mul hC]; omega
  have h2 : k % Cin < Cin := Nat.mod_lt _ hC
  rw [arr2_of_lt _ hk hco, arr3_of_lt x h1 h2 hco]
  refine shapeCast_apply x h _ _ ?_
  rw [Shape.rowMajor_val_three, Shape.rowMajor_val_two]
  show ((k / Cin) * Cin + k % Cin) * Cout + co = k * Cout + co
  rw [Nat.div_add_mod']

/-! ## A column pair folded into the channels -/

/-- Reading the [B, H, 2·W2, C] → [B, H, W2, 2·C] reshape at column j, channel c': column 2j + c' / C, channel c' % C. -/
theorem fold_apply {B H W2 C Wb C2 : ℕ} (hW : Wb = 2 * W2) (hC2 : C2 = 2 * C)
    (x : (⟨4, ![B, H, Wb, C]⟩ : Shape).Idx → EReal)
    (h : (⟨4, ![B, H, Wb, C]⟩ : Shape).ShapeCasts ⟨4, ![B, H, W2, C2]⟩)
    (b i j c' : ℕ) (hb : b < B) (hi : i < H) (hj : j < W2) (hc : c' < C2) :
    arr4 (shapeCast ⟨4, ![B, H, W2, C2]⟩ x h) b i j c' = arr4 x b i (2 * j + c' / C) (c' % C) := by
  have hC : 0 < C := by
    rcases Nat.eq_zero_or_pos C with h0 | h0
    · subst h0; omega
    · exact h0
  have h1 : c' / C < 2 := by rw [Nat.div_lt_iff_lt_mul hC]; omega
  have h2 : c' % C < C := Nat.mod_lt _ hC
  have h3 : 2 * j + c' / C < Wb := by omega
  rw [arr4_of_lt _ hb hi hj hc, arr4_of_lt x hb hi h3 h2]
  refine shapeCast_apply x h _ _ ?_
  rw [Shape.rowMajor_val_four, Shape.rowMajor_val_four]
  show ((b * H + i) * Wb + (2 * j + c' / C)) * C + c' % C = ((b * H + i) * W2 + j) * C2 + c'
  have key : ∀ A q r : ℕ, (A * (2 * W2) + (2 * j + q)) * C + r = (A * W2 + j) * (2 * C) + (q * C + r) := by
    intro A q r; ring
  have e := key (b * H + i) (c' / C) (c' % C)
  rw [Nat.div_add_mod'] at e
  rw [hW, hC2]; exact e

/-! ## The zero border -/

/-- The integer zero converted is the float zero, at every index. -/
theorem sitofp_zero_apply {s : Shape} (φ : FTy) (i : s.Idx) : (sitofp (F := Ideal) φ (constantI s 32 0#32)) i = 0 :=
  Idealize.ShloMosaic.sitofp_zero

/-- A pad by p rows above and q columns left (any padding below and right) with a zero, read at (I, J): pixel
    (I - p, J - q) of the image inside rows p … p + H - 1 and columns q … q + W - 1, zero elsewhere. -/
theorem padHW_apply {B H W C H' W' : ℕ} (p q : ℕ) (hi : Fin 4 → ℕ)
    (x : (⟨4, ![B, H, W, C]⟩ : Shape).Idx → EReal) {u : Shape} (v : u.Idx → EReal) (hv : ∀ i, v i = 0)
    (h : (⟨4, ![B, H, W, C]⟩ : Shape).Pads ![0, p, q, 0] hi ![0, 0, 0, 0] ⟨4, ![B, H', W', C]⟩) (hu : 0 < u.numel)
    (b I J ch : ℕ) (hb : b < B) (hI : I < H') (hJ : J < W') (hch : ch < C) :
    arr4 (pad ⟨4, ![B, H', W', C]⟩ ![0, p, q, 0] hi ![0, 0, 0, 0] x v h hu) b I J ch
      = if p ≤ I ∧ I < p + H ∧ q ≤ J ∧ J < q + W then arr4 x b (I - p) (J - q) ch else 0 := by
  rw [arr4_of_lt _ hb hI hJ hch]
  by_cases hin : p ≤ I ∧ I < p + H ∧ q ≤ J ∧ J < q + W
  · rw [if_pos hin, arr4_of_lt x hb (by omega : I - p < H) (by omega : J - q < W) hch]
    refine pad_apply_of_inside _ _ _ x v h hu _ _ (fun a => ?_)
    match a with
    | ⟨0, _⟩ => show b = 0 + b * (0 + 1); omega
    | ⟨1, _⟩ => show I = p + (I - p) * (0 + 1); omega
    | ⟨2, _⟩ => show J = q + (J - q) * (0 + 1); omega
    | ⟨3, _⟩ => show ch = 0 + ch * (0 + 1); omega
  · rw [if_neg hin]
    by_cases hI' : p ≤ I ∧ I < p + H
    · rw [pad_apply_of_not_inside _ _ _ x v h hu _ (⟨2, by decide⟩ : Fin 4) (by
        show ¬(q ≤ J ∧ (J - q) % (0 + 1) = 0 ∧ (J - q) / (0 + 1) < W); omega), hv]
    · rw [pad_apply_of_not_inside _ _ _ x v h hu _ (⟨1, by decide⟩ : Fin 4) (by
        show ¬(p ≤ I ∧ (I - p) % (0 + 1) = 0 ∧ (I - p) / (0 + 1) < H); omega), hv]

/-- A pad by one row above and one column left (any padding below and right) with a zero, read at (I, J): the image in
    padded coordinates, pixel (I - 1, J - 1) inside rows 1 … H and columns 1 … W and zero elsewhere. -/
theorem pad_apply {B H W C H' W' : ℕ} (hi : Fin 4 → ℕ)
    (x : (⟨4, ![B, H, W, C]⟩ : Shape).Idx → EReal) {u : Shape} (v : u.Idx → EReal) (hv : ∀ i, v i = 0)
    (h : (⟨4, ![B, H, W, C]⟩ : Shape).Pads ![0, 1, 1, 0] hi ![0, 0, 0, 0] ⟨4, ![B, H', W', C]⟩) (hu : 0 < u.numel)
    (b I J ch : ℕ) (hb : b < B) (hI : I < H') (hJ : J < W') (hch : ch < C) :
    arr4 (pad ⟨4, ![B, H', W', C]⟩ ![0, 1, 1, 0] hi ![0, 0, 0, 0] x v h hu) b I J ch = pad1 H W (arr4 x) b I J ch := by
  rw [padHW_apply 1 1 hi x v hv h hu b I J ch hb hI hJ hch]
  unfold pad1
  by_cases hin : 1 ≤ I ∧ I ≤ H ∧ 1 ≤ J ∧ J ≤ W
  · rw [if_pos hin, if_pos (by omega)]
  · rw [if_neg hin, if_neg (by omega)]

/-! ## Channels first -/

/-- The NHWC → NCHW transpose read at (b, ch, i, j): entry (b, i, j, ch). -/
theorem nchw_apply {B H W C : ℕ} (x : (⟨4, ![B, H, W, C]⟩ : Shape).Idx → EReal)
    (h : (⟨4, ![B, H, W, C]⟩ : Shape).Transposes ([0, 3, 1, 2] : List (Fin 4)) ⟨4, ![B, C, H, W]⟩)
    (b ch i j : ℕ) (hb : b < B) (hch : ch < C) (hi : i < H) (hj : j < W) :
    arr4 (transpose ⟨4, ![B, C, H, W]⟩ ([0, 3, 1, 2] : List (Fin 4)) x h) b ch i j = arr4 x b i j ch := by
  rw [arr4_of_lt _ hb hch hi hj, arr4_of_lt x hb hi hj hch]
  refine transpose_apply _ x h _ _ (fun a => ?_)
  match a with
  | ⟨0, _⟩ => rfl
  | ⟨1, _⟩ => rfl
  | ⟨2, _⟩ => rfl
  | ⟨3, _⟩ => rfl

/-- The NCHW → NHWC transpose read at (b, i, j, ch): entry (b, ch, i, j). -/
theorem nhwc_apply {B C H W : ℕ} (x : (⟨4, ![B, C, H, W]⟩ : Shape).Idx → EReal)
    (h : (⟨4, ![B, C, H, W]⟩ : Shape).Transposes ([0, 2, 3, 1] : List (Fin 4)) ⟨4, ![B, H, W, C]⟩)
    (b i j ch : ℕ) (hb : b < B) (hi : i < H) (hj : j < W) (hch : ch < C) :
    arr4 (transpose ⟨4, ![B, H, W, C]⟩ ([0, 2, 3, 1] : List (Fin 4)) x h) b i j ch = arr4 x b ch i j := by
  rw [arr4_of_lt _ hb hi hj hch, arr4_of_lt x hb hch hi hj]
  refine transpose_apply _ x h _ _ (fun a => ?_)
  match a with
  | ⟨0, _⟩ => rfl
  | ⟨1, _⟩ => rfl
  | ⟨2, _⟩ => rfl
  | ⟨3, _⟩ => rfl

/-! ## A window of rows and columns -/

/-- A slice at row offset dy and column offset dx (whole batch and channels) read at (b, i, j, c): entry
    (b, dy + i, dx + j, c). -/
theorem sliceHW_apply {n0 n1 n2 n3 k0 k1 k2 k3 : ℕ} (dy dx : ℕ) (x : (⟨4, ![n0, n1, n2, n3]⟩ : Shape).Idx → EReal)
    (h : (⟨4, ![n0, n1, n2, n3]⟩ : Shape).Slices ![0, dy, dx, 0] ⟨4, ![k0, k1, k2, k3]⟩)
    (b i j c : ℕ) (hb : b < k0) (hi : i < k1) (hj : j < k2) (hc : c < k3) :
    arr4 (extractStridedSlice ⟨4, ![k0, k1, k2, k3]⟩ ![0, dy, dx, 0] x h) b i j c = arr4 x b (dy + i) (dx + j) c := by
  have l0 : (0 : ℕ) < 4 := by decide
  have l1 : (1 : ℕ) < 4 := by decide
  have l2 : (2 : ℕ) < 4 := by decide
  have l3 : (3 : ℕ) < 4 := by decide
  have h0 : 0 + k0 ≤ n0 := h.2 ⟨0, l0⟩
  have h1 : dy + k1 ≤ n1 := h.2 ⟨1, l1⟩
  have h2 : dx + k2 ≤ n2 := h.2 ⟨2, l2⟩
  have h3 : 0 + k3 ≤ n3 := h.2 ⟨3, l3⟩
  rw [arr4_of_lt _ hb hi hj hc,
    arr4_of_lt x (by omega : b < n0) (by omega : dy + i < n1) (by omega : dx + j < n2) (by omega : c < n3)]
  refine extractStridedSlice_apply _ x h _ _ (fun a => ?_)
  match a with
  | ⟨0, _⟩ => show b = 0 + b; omega
  | ⟨1, _⟩ => rfl
  | ⟨2, _⟩ => rfl
  | ⟨3, _⟩ => show c = 0 + c; omega

/-- A slice at zero offsets read inside its extents: the same entry. -/
theorem slice0_apply {n0 n1 n2 n3 k0 k1 k2 k3 : ℕ} (x : (⟨4, ![n0, n1, n2, n3]⟩ : Shape).Idx → EReal)
    (h : (⟨4, ![n0, n1, n2, n3]⟩ : Shape).Slices ![0, 0, 0, 0] ⟨4, ![k0, k1, k2, k3]⟩)
    (b i j c : ℕ) (hb : b < k0) (hi : i < k1) (hj : j < k2) (hc : c < k3) :
    arr4 (extractStridedSlice ⟨4, ![k0, k1, k2, k3]⟩ ![0, 0, 0, 0] x h) b i j c = arr4 x b i j c := by
  rw [sliceHW_apply 0 0 x h b i j c hb hi hj hc, Nat.zero_add, Nat.zero_add]

end Cert.KernelIdeal.Glue

end
-- ==== Proof.KGlueW1.lean ====
/-
  What the thirteen convolution regions of the kernel's @main find in their bias and weight buffers: the bias is an
  argument no item writes; the weights are the launch's stack of nine [Cin, Cout] slabs reshaped to one matrix of
  9·Cin rows and converted (the conversion is the identity on the ideal values).
-/
import proofs.«100114_g2000204297211070_pallasbulk_1265_19_alg».proof.Proof.KGlueArgs
import proofs.«100114_g2000204297211070_pallasbulk_1265_19_alg».proof.Proof.KGlueLib

set_option maxRecDepth 16384

noncomputable section

namespace Cert.KernelIdeal.Glue

open Cert.KernelIdeal Cert.KernelIdeal.Gen Cert.KernelIdeal.GenP
open Idealize.ShloMosaic Idealize.ShloMosaic.TcCoe

open Cert.Spec

variable (m : (ℓ : Loc nD τ sig) → Buf (Elt Ideal) ℓ) (outs : Outs (F := Ideal))

/-- Region 0's bias at its entry: the launch contents of its argument. -/
theorem bias_0 (c : Dev nD) : V3 m c main_arg2 = m ((c : Thread nD τ).loc main_arg2) :=
  V3_arg m c main_arg2 (by decide)

/-- Region 0's weights at its entry, the reshape of the launch's stack of nine slabs: row k of the flattened matrix is
    slab k / 3, input channel k % 3. -/
theorem weights_0 (c : Dev nD) (k co : ℕ) (hk : k < 27) (hco : co < 64) :
    arr2 (V3 m c main_v14 : S27x64.Idx → EReal) k co
      = arr3 (m ((c : Thread nD τ).loc main_arg1) : S9x3x64.Idx → EReal) (k / 3) (k % 3) co := by
  have e : (V3 m c main_v14 : S27x64.Idx → EReal)
      = shapeCast S27x64 (m ((c : Thread nD τ).loc main_arg1) : S9x3x64.Idx → EReal) shapeCasts_S9x3x64_S27x64 := by
    show StableHlo.after hostOps0_2 (V2 m c) (Proc.devRef .tc main_v14) = _
    generalize hW : V2 m c = W
    after_results
    subst hW
    rw [V2_arg m c main_arg1 (by decide)]
    try rfl
  rw [e]
  exact flat_apply (by norm_num) _ _ k co hk hco

/-- Region 1's bias at its entry: the launch contents of its argument. -/
theorem bias_1 (c : Dev nD) : V5 m outs c main_arg4 = m ((c : Thread nD τ).loc main_arg4) :=
  V5_arg m outs c main_arg4 (by decide)

/-- Region 1's weights at its entry, the reshape of the launch's stack of nine slabs: row k of the flattened matrix is
    slab k / 64, input channel k % 64. -/
theorem weights_1 (c : Dev nD) (k co : ℕ) (hk : k < 576) (hco : co < 64) :
    arr2 (V5 m outs c main_v17 : S576x64.Idx → EReal) k co
      = arr3 (m ((c : Thread nD τ).loc main_arg3) : S9x64x64.Idx → EReal) (k / 64) (k % 64) co := by
  have e : (V5 m outs c main_v17 : S576x64.Idx → EReal)
      = shapeCast S576x64 (m ((c : Thread nD τ).loc main_arg3) : S9x64x64.Idx → EReal) shapeCasts_S9x64x64_S576x64 := by
    show StableHlo.after hostOps1 (V4 m outs c) (Proc.devRef .tc main_v17) = _
    generalize hW : V4 m outs c = W
    after_results
    subst hW
    rw [V4_arg m outs c main_arg3 (by decide)]
    try rfl
  rw [e]
  exact flat_apply (by norm_num) _ _ k co hk hco

/-- Region 3's bias at its entry: the launch contents of its argument. -/
theorem bias_3 (c : Dev nD) : V11 m outs c main_arg6 = m ((c : Thread nD τ).loc main_arg6) :=
  V11_arg m outs c main_arg6 (by decide)

/-- Region 3's weights at its entry, the reshape of the launch's stack of nine slabs: row k of the flattened matrix is
    slab k / 64, input channel k % 64. -/
theorem weights_3 (c : Dev nD) (k co : ℕ) (hk : k < 576) (hco : co < 128) :
    arr2 (V11 m outs c main_v23 : S576x128.Idx → EReal) k co
      = arr3 (m ((c : Thread nD τ).loc main_arg5) : S9x64x128.Idx → EReal) (k / 64) (k % 64) co := by
  have e : (V11 m outs c main_v23 : S576x128.Idx → EReal)
      = shapeCast S576x128 (m ((c : Thread nD τ).loc main_arg5) : S9x64x128.Idx → EReal) shapeCasts_S9x64x128_S576x128 := by
    show StableHlo.after hostOps3_2 (V10 m outs c) (Proc.devRef .tc main_v23) = _
    generalize hW : V10 m outs c = W
    after_results
    subst hW
    rw [V10_arg m outs c main_arg5 (by decide)]
    try rfl
  rw [e]
  exact flat_apply (by norm_num) _ _ k co hk hco

/-- Region 4's bias at its entry: the launch contents of its argument. -/
theorem bias_4 (c : Dev nD) : V15 m outs c main_arg8 = m ((c : Thread nD τ).loc main_arg8) :=
  V15_arg m outs c main_arg8 (by decide)

/-- Region 4's weights at its entry, the reshape of the launch's stack of nine slabs: row k of the flattened matrix is
    slab k / 128, input channel k % 128. -/
theorem weights_4 (c : Dev nD) (k co : ℕ) (hk : k < 1152) (hco : co < 128) :
    arr2 (V15 m outs c main_v27 : S1152x128.Idx → EReal) k co
      = arr3 (m ((c : Thread nD τ).loc main_arg7) : S9x128x128.Idx → EReal) (k / 128) (k % 128) co := by
  have e : (V15 m outs c main_v27 : S1152x128.Idx → EReal)
      = shapeCast S1152x128 (m ((c : Thread nD τ).loc main_arg7) : S9x128x128.Idx → EReal) shapeCasts_S9x128x128_S1152x128 := by
    show StableHlo.after hostOps4_2 (V14 m outs c) (Proc.devRef .tc main_v27) = _
    generalize hW : V14 m outs c = W
    after_results
    subst hW
    rw [V14_arg m outs c main_arg7 (by decide)]
    try rfl
  rw [e]
  exact flat_apply (by norm_num) _ _ k co hk hco

/-- Region 6's bias at its entry: the launch contents of its argument. -/
theorem bias_6 (c : Dev nD) : V21 m outs c main_arg10 = m ((c : Thread nD τ).loc main_arg10) :=
  V21_arg m outs c main_arg10 (by decide)

/-- Region 6's weights at its entry, the reshape of the launch's stack of nine slabs: row k of the flattened matrix is
    slab k / 128, input channel k % 128. -/
theorem weights_6 (c : Dev nD) (k co : ℕ) (hk : k < 1152) (hco : co < 256) :
    arr2 (V21 m outs c main_v33 : S1152x256.Idx → EReal) k co
      = arr3 (m ((c : Thread nD τ).loc main_arg9) : S9x128x256.Idx → EReal) (k / 128) (k % 128) co := by
  have e : (V21 m outs c main_v33 : S1152x256.Idx → EReal)
      = shapeCast S1152x256 (m ((c : Thread nD τ).loc main_arg9) : S9x128x256.Idx → EReal) shapeCasts_S9x128x256_S1152x256 := by
    show StableHlo.after hostOps6_2 (V20 m outs c) (Proc.devRef .tc main_v33) = _
    generalize hW : V20 m outs c = W
    after_results
    subst hW
    rw [V20_arg m outs c main_arg9 (by decide)]
    try rfl
  rw [e]
  exact flat_apply (by norm_num) _ _ k co hk hco

/-- Region 7's bias at its entry: the launch contents of its argument. -/
theorem bias_7 (c : Dev nD) : V23 m outs c main_arg12 = m ((c : Thread nD τ).loc main_arg12) :=
  V23_arg m outs c main_arg12 (by decide)

/-- Region 7's weights at its entry, the reshape of the launch's stack of nine slabs: row k of the flattened matrix is
    slab k / 256, input channel k % 256. -/
theorem weights_7 (c : Dev nD) (k co : ℕ) (hk : k < 2304) (hco : co < 256) :
    arr2 (V23 m outs c main_v36 : S2304x256.Idx → EReal) k co
      = arr3 (m ((c : Thread nD τ).loc main_arg11) : S9x256x256.Idx → EReal) (k / 256) (k % 256) co := by
  have e : (V23 m outs c main_v36 : S2304x256.Idx → EReal)
      = shapeCast S2304x256 (m ((c : Thread nD τ).loc main_arg11) : S9x256x256.Idx → EReal) shapeCasts_S9x256x256_S2304x256 := by
    show StableHlo.after hostOps7 (V22 m outs c) (Proc.devRef .tc main_v36) = _
    generalize hW : V22 m outs c = W
    after_results
    subst hW
    rw [V22_arg m outs c main_arg11 (by decide)]
    try rfl
  rw [e]
  exact flat_apply (by norm_num) _ _ k co hk hco

end Cert.KernelIdeal.Glue

end
-- ==== Proof.KGlueW2.lean ====
/-
  What the thirteen convolution regions of the kernel's @main find in their bias and weight buffers: the bias is an
  argument no item writes; the weights are the launch's stack of nine [Cin, Cout] slabs reshaped to one matrix of
  9·Cin rows and converted (the conversion is the identity on the ideal values).
-/
import proofs.«100114_g2000204297211070_pallasbulk_1265_19_alg».proof.Proof.KGlueArgs
import proofs.«100114_g2000204297211070_pallasbulk_1265_19_alg».proof.Proof.KGlueLib

set_option maxRecDepth 16384

noncomputable section

namespace Cert.KernelIdeal.Glue

open Cert.KernelIdeal Cert.KernelIdeal.Gen Cert.KernelIdeal.GenP
open Idealize.ShloMosaic Idealize.ShloMosaic.TcCoe

open Cert.Spec

variable (m : (ℓ : Loc nD τ sig) → Buf (Elt Ideal) ℓ) (outs : Outs (F := Ideal))

/-- Region 8's bias at its entry: the launch contents of its argument. -/
theorem bias_8 (c : Dev nD) : V25 m outs c main_arg14 = m ((c : Thread nD τ).loc main_arg14) :=
  V25_arg m outs c main_arg14 (by decide)

/-- Region 8's weights at its entry, the reshape of the launch's stack of nine slabs: row k of the flattened matrix is
    slab k / 256, input channel k % 256. -/
theorem weights_8 (c : Dev nD) (k co : ℕ) (hk : k < 2304) (hco : co < 256) :
    arr2 (V25 m outs c main_v39 : S2304x256.Idx → EReal) k co
      = arr3 (m ((c : Thread nD τ).loc main_arg13) : S9x256x256.Idx → EReal) (k / 256) (k % 256) co := by
  have e : (V25 m outs c main_v39 : S2304x256.Idx → EReal)
      = shapeCast S2304x256 (m ((c : Thread nD τ).loc main_arg13) : S9x256x256.Idx → EReal) shapeCasts_S9x256x256_S2304x256 := by
    show StableHlo.after hostOps8 (V24 m outs c) (Proc.devRef .tc main_v39) = _
    generalize hW : V24 m outs c = W
    after_results
    subst hW
    rw [V24_arg m outs c main_arg13 (by decide)]
    try rfl
  rw [e]
  exact flat_apply (by norm_num) _ _ k co hk hco

/-- Region 10's bias at its entry: the launch contents of its argument. -/
theorem bias_10 (c : Dev nD) : V31 m outs c main_arg16 = m ((c : Thread nD τ).loc main_arg16) :=
  V31_arg m outs c main_arg16 (by decide)

/-- Region 10's weights at its entry, the reshape of the launch's stack of nine slabs: row k of the flattened matrix is
    slab k / 256, input channel k % 256. -/
theorem weights_10 (c : Dev nD) (k co : ℕ) (hk : k < 2304) (hco : co < 512) :
    arr2 (V31 m outs c main_v45 : S2304x512.Idx → EReal) k co
      = arr3 (m ((c : Thread nD τ).loc main_arg15) : S9x256x512.Idx → EReal) (k / 256) (k % 256) co := by
  have e : (V31 m outs c main_v45 : S2304x512.Idx → EReal)
      = shapeCast S2304x512 (m ((c : Thread nD τ).loc main_arg15) : S9x256x512.Idx → EReal) shapeCasts_S9x256x512_S2304x512 := by
    show StableHlo.after hostOps10_2 (V30 m outs c) (Proc.devRef .tc main_v45) = _
    generalize hW : V30 m outs c = W
    after_results
    subst hW
    rw [V30_arg m outs c main_arg15 (by decide)]
    try rfl
  rw [e]
  exact flat_apply (by norm_num) _ _ k co hk hco

/-- Region 11's bias at its entry: the launch contents of its argument. -/
theorem bias_11 (c : Dev nD) : V33 m outs c main_arg18 = m ((c : Thread nD τ).loc main_arg18) :=
  V33_arg m outs c main_arg18 (by decide)

/-- Region 11's weights at its entry, the reshape of the launch's stack of nine slabs: row k of the flattened matrix is
    slab k / 512, input channel k % 512. -/
theorem weights_11 (c : Dev nD) (k co : ℕ) (hk : k < 4608) (hco : co < 512) :
    arr2 (V33 m outs c main_v48 : S4608x512.Idx → EReal) k co
      = arr3 (m ((c : Thread nD τ).loc main_arg17) : S9x512x512.Idx → EReal) (k / 512) (k % 512) co := by
  have e : (V33 m outs c main_v48 : S4608x512.Idx → EReal)
      = shapeCast S4608x512 (m ((c : Thread nD τ).loc main_arg17) : S9x512x512.Idx → EReal) shapeCasts_S9x512x512_S4608x512 := by
    show StableHlo.after hostOps11 (V32 m outs c) (Proc.devRef .tc main_v48) = _
    generalize hW : V32 m outs c = W
    after_results
    subst hW
    rw [V32_arg m outs c main_arg17 (by decide)]
    try rfl
  rw [e]
  exact flat_apply (by norm_num) _ _ k co hk hco

/-- Region 12's bias at its entry: the launch contents of its argument. -/
theorem bias_12 (c : Dev nD) : V35 m outs c main_arg20 = m ((c : Thread nD τ).loc main_arg20) :=
  V35_arg m outs c main_arg20 (by decide)

/-- Region 12's weights at its entry, the reshape of the launch's stack of nine slabs: row k of the flattened matrix is
    slab k / 512, input channel k % 512. -/
theorem weights_12 (c : Dev nD) (k co : ℕ) (hk : k < 4608) (hco : co < 512) :
    arr2 (V35 m outs c main_v51 : S4608x512.Idx → EReal) k co
      = arr3 (m ((c : Thread nD τ).loc main_arg19) : S9x512x512.Idx → EReal) (k / 512) (k % 512) co := by
  have e : (V35 m outs c main_v51 : S4608x512.Idx → EReal)
      = shapeCast S4608x512 (m ((c : Thread nD τ).loc main_arg19) : S9x512x512.Idx → EReal) shapeCasts_S9x512x512_S4608x512 := by
    show StableHlo.after hostOps12 (V34 m outs c) (Proc.devRef .tc main_v51) = _
    generalize hW : V34 m outs c = W
    after_results
    subst hW
    rw [V34_arg m outs c main_arg19 (by decide)]
    try rfl
  rw [e]
  exact flat_apply (by norm_num) _ _ k co hk hco

/-- Region 14's bias at its entry: the launch contents of its argument. -/
theorem bias_14 (c : Dev nD) : V41 m outs c main_arg22 = m ((c : Thread nD τ).loc main_arg22) :=
  V41_arg m outs c main_arg22 (by decide)

/-- Region 14's weights at its entry, the reshape of the launch's stack of nine slabs: row k of the flattened matrix is
    slab k / 512, input channel k % 512. -/
theorem weights_14 (c : Dev nD) (k co : ℕ) (hk : k < 4608) (hco : co < 512) :
    arr2 (V41 m outs c main_v57 : S4608x512.Idx → EReal) k co
      = arr3 (m ((c : Thread nD τ).loc main_arg21) : S9x512x512.Idx → EReal) (k / 512) (k % 512) co := by
  have e : (V41 m outs c main_v57 : S4608x512.Idx → EReal)
      = shapeCast S4608x512 (m ((c : Thread nD τ).loc main_arg21) : S9x512x512.Idx → EReal) shapeCasts_S9x512x512_S4608x512 := by
    show StableHlo.after hostOps14_2 (V40 m outs c) (Proc.devRef .tc main_v57) = _
    generalize hW : V40 m outs c = W
    after_results
    subst hW
    rw [V40_arg m outs c main_arg21 (by decide)]
    try rfl
  rw [e]
  exact flat_apply (by norm_num) _ _ k co hk hco

/-- Region 15's bias at its entry: the launch contents of its argument. -/
theorem bias_15 (c : Dev nD) : V43 m outs c main_arg24 = m ((c : Thread nD τ).loc main_arg24) :=
  V43_arg m outs c main_arg24 (by decide)

/-- Region 15's weights at its entry, the reshape of the launch's stack of nine slabs: row k of the flattened matrix is
    slab k / 512, input channel k % 512. -/
theorem weights_15 (c : Dev nD) (k co : ℕ) (hk : k < 4608) (hco : co < 512) :
    arr2 (V43 m outs c main_v60 : S4608x512.Idx → EReal) k co
      = arr3 (m ((c : Thread nD τ).loc main_arg23) : S9x512x512.Idx → EReal) (k / 512) (k % 512) co := by
  have e : (V43 m outs c main_v60 : S4608x512.Idx → EReal)
      = shapeCast S4608x512 (m ((c : Thread nD τ).loc main_arg23) : S9x512x512.Idx → EReal) shapeCasts_S9x512x512_S4608x512 := by
    show StableHlo.after hostOps15 (V42 m outs c) (Proc.devRef .tc main_v60) = _
    generalize hW : V42 m outs c = W
    after_results
    subst hW
    rw [V42_arg m outs c main_arg23 (by decide)]
    try rfl
  rw [e]
  exact flat_apply (by norm_num) _ _ k co hk hco

/-- Region 16's bias at its entry: the launch contents of its argument. -/
theorem bias_16 (c : Dev nD) : V45 m outs c main_arg26 = m ((c : Thread nD τ).loc main_arg26) :=
  V45_arg m outs c main_arg26 (by decide)

/-- Region 16's weights at its entry, the reshape of the launch's stack of nine slabs: row k of the flattened matrix is
    slab k / 512, input channel k % 512. -/
theorem weights_16 (c : Dev nD) (k co : ℕ) (hk : k < 4608) (hco : co < 512) :
    arr2 (V45 m outs c main_v63 : S4608x512.Idx → EReal) k co
      = arr3 (m ((c : Thread nD τ).loc main_arg25) : S9x512x512.Idx → EReal) (k / 512) (k % 512) co := by
  have e : (V45 m outs c main_v63 : S4608x512.Idx → EReal)
      = shapeCast S4608x512 (m ((c : Thread nD τ).loc main_arg25) : S9x512x512.Idx → EReal) shapeCasts_S9x512x512_S4608x512 := by
    show StableHlo.after hostOps16 (V44 m outs c) (Proc.devRef .tc main_v63) = _
    generalize hW : V44 m outs c = W
    after_results
    subst hW
    rw [V44_arg m outs c main_arg25 (by decide)]
    try rfl
  rw [e]
  exact flat_apply (by norm_num) _ _ k co hk hco

end Cert.KernelIdeal.Glue

end
-- ==== Proof.KGlueCF.lean ====
/-
  What the regions of the kernel's @main that read a previous region's output find there: unchanged (the stretch between
  writes other buffers), or reshaped so that each pair of columns lies side by side on the channel axis (the row-major
  position of an entry does not change).
-/
import proofs.«100114_g2000204297211070_pallasbulk_1265_19_alg».proof.Proof.KGlueArgs
import proofs.«100114_g2000204297211070_pallasbulk_1265_19_alg».proof.Proof.KGlueLib

set_option maxRecDepth 16384

noncomputable section

namespace Cert.KernelIdeal.Glue

open Cert.KernelIdeal Cert.KernelIdeal.Gen Cert.KernelIdeal.GenP
open Idealize.ShloMosaic Idealize.ShloMosaic.TcCoe

open Cert.Spec

variable (m : (ℓ : Loc nD τ sig) → Buf (Elt Ideal) ℓ) (outs : Outs (F := Ideal))

/-- Region 1 reads the previous region's output as that region left it: the stretch between them writes other buffers. -/
theorem carried_1 (c : Dev nD) : V5 m outs c main_v15 = outs 4 main_v15 c :=
  (V5_of m outs c main_v15 (by decide)).trans (by simp only [V4, Function.update_self])

/-- Region 7 reads the previous region's output as that region left it: the stretch between them writes other buffers. -/
theorem carried_7 (c : Dev nD) : V23 m outs c main_v34 = outs 22 main_v34 c :=
  (V23_of m outs c main_v34 (by decide)).trans (by simp only [V22, Function.update_self])

/-- Region 8 reads the previous region's output as that region left it: the stretch between them writes other buffers. -/
theorem carried_8 (c : Dev nD) : V25 m outs c main_v37 = outs 24 main_v37 c :=
  (V25_of m outs c main_v37 (by decide)).trans (by simp only [V24, Function.update_self])

/-- Region 11 reads the previous region's output as that region left it: the stretch between them writes other buffers. -/
theorem carried_11 (c : Dev nD) : V33 m outs c main_v46 = outs 32 main_v46 c :=
  (V33_of m outs c main_v46 (by decide)).trans (by simp only [V32, Function.update_self])

/-- Region 12 reads the previous region's output as that region left it: the stretch between them writes other buffers. -/
theorem carried_12 (c : Dev nD) : V35 m outs c main_v49 = outs 34 main_v49 c :=
  (V35_of m outs c main_v49 (by decide)).trans (by simp only [V34, Function.update_self])

/-- Region 15 reads the previous region's output as that region left it: the stretch between them writes other buffers. -/
theorem carried_15 (c : Dev nD) : V43 m outs c main_v58 = outs 42 main_v58 c :=
  (V43_of m outs c main_v58 (by decide)).trans (by simp only [V42, Function.update_self])

/-- Region 16 reads the previous region's output as that region left it: the stretch between them writes other buffers. -/
theorem carried_16 (c : Dev nD) : V45 m outs c main_v61 = outs 44 main_v61 c :=
  (V45_of m outs c main_v61 (by decide)).trans (by simp only [V44, Function.update_self])

/-- Region 2 reads the previous region's output with each pair of columns folded into the channels: column j, channel c'
    is column 2j + c' / 64, channel c' % 64 of that output. -/
theorem fold_2 (c : Dev nD) (b i j c' : ℕ) (hb : b < 8) (hi : i < 112) (hj : j < 112) (hc : c' < 128) :
    arr4 (V7 m outs c main_v19 : S8x112x112x128.Idx → EReal) b i j c'
      = arr4 (outs 6 main_v18 c : S8x112x224x64.Idx → EReal) b i (2 * j + c' / 64) (c' % 64) := by
  have e : (V7 m outs c main_v19 : S8x112x112x128.Idx → EReal)
      = shapeCast S8x112x112x128 (outs 6 main_v18 c : S8x112x224x64.Idx → EReal) shapeCasts_S8x112x224x64_S8x112x112x128 := by
    show StableHlo.after hostOps2 (V6 m outs c) (Proc.devRef .tc main_v19) = _
    after_results
    simp only [V6, Function.update_self]
    try rfl
  rw [e]
  exact fold_apply (by norm_num) (by norm_num) _ _ b i j c' hb hi hj hc

/-- Region 5 reads the previous region's output with each pair of columns folded into the channels: column j, channel c'
    is column 2j + c' / 128, channel c' % 128 of that output. -/
theorem fold_5 (c : Dev nD) (b i j c' : ℕ) (hb : b < 8) (hi : i < 56) (hj : j < 56) (hc : c' < 256) :
    arr4 (V17 m outs c main_v29 : S8x56x56x256.Idx → EReal) b i j c'
      = arr4 (outs 16 main_v28 c : S8x56x112x128.Idx → EReal) b i (2 * j + c' / 128) (c' % 128) := by
  have e : (V17 m outs c main_v29 : S8x56x56x256.Idx → EReal)
      = shapeCast S8x56x56x256 (outs 16 main_v28 c : S8x56x112x128.Idx → EReal) shapeCasts_S8x56x112x128_S8x56x56x256 := by
    show StableHlo.after hostOps5 (V16 m outs c) (Proc.devRef .tc main_v29) = _
    after_results
    simp only [V16, Function.update_self]
    try rfl
  rw [e]
  exact fold_apply (by norm_num) (by norm_num) _ _ b i j c' hb hi hj hc

/-- Region 9 reads the previous region's output with each pair of columns folded into the channels: column j, channel c'
    is column 2j + c' / 256, channel c' % 256 of that output. -/
theorem fold_9 (c : Dev nD) (b i j c' : ℕ) (hb : b < 8) (hi : i < 28) (hj : j < 28) (hc : c' < 512) :
    arr4 (V27 m outs c main_v41 : S8x28x28x512.Idx → EReal) b i j c'
      = arr4 (outs 26 main_v40 c : S8x28x56x256.Idx → EReal) b i (2 * j + c' / 256) (c' % 256) := by
  have e : (V27 m outs c main_v41 : S8x28x28x512.Idx → EReal)
      = shapeCast S8x28x28x512 (outs 26 main_v40 c : S8x28x56x256.Idx → EReal) shapeCasts_S8x28x56x256_S8x28x28x512 := by
    show StableHlo.after hostOps9 (V26 m outs c) (Proc.devRef .tc main_v41) = _
    after_results
    simp only [V26, Function.update_self]
    try rfl
  rw [e]
  exact fold_apply (by norm_num) (by norm_num) _ _ b i j c' hb hi hj hc

/-- Region 13 reads the previous region's output with each pair of columns folded into the channels: column j, channel c'
    is column 2j + c' / 512, channel c' % 512 of that output. -/
theorem fold_13 (c : Dev nD) (b i j c' : ℕ) (hb : b < 8) (hi : i < 14) (hj : j < 16) (hc : c' < 1024) :
    arr4 (V37 m outs c main_v53 : S8x14x16x1024.Idx → EReal) b i j c'
      = arr4 (outs 36 main_v52 c : S8x14x32x512.Idx → EReal) b i (2 * j + c' / 512) (c' % 512) := by
  have e : (V37 m outs c main_v53 : S8x14x16x1024.Idx → EReal)
      = shapeCast S8x14x16x1024 (outs 36 main_v52 c : S8x14x32x512.Idx → EReal) shapeCasts_S8x14x32x512_S8x14x16x1024 := by
    show StableHlo.after hostOps13 (V36 m outs c) (Proc.devRef .tc main_v53) = _
    after_results
    simp only [V36, Function.update_self]
    try rfl
  rw [e]
  exact fold_apply (by norm_num) (by norm_num) _ _ b i j c' hb hi hj hc

/-- Region 17 reads the previous region's output with each pair of columns folded into the channels: column j, channel c'
    is column 2j + c' / 512, channel c' % 512 of that output. -/
theorem fold_17 (c : Dev nD) (b i j c' : ℕ) (hb : b < 8) (hi : i < 7) (hj : j < 8) (hc : c' < 1024) :
    arr4 (V47 m outs c main_v65 : S8x7x8x1024.Idx → EReal) b i j c'
      = arr4 (outs 46 main_v64 c : S8x7x16x512.Idx → EReal) b i (2 * j + c' / 512) (c' % 512) := by
  have e : (V47 m outs c main_v65 : S8x7x8x1024.Idx → EReal)
      = shapeCast S8x7x8x1024 (outs 46 main_v64 c : S8x7x16x512.Idx → EReal) shapeCasts_S8x7x16x512_S8x7x8x1024 := by
    show StableHlo.after hostOps17 (V46 m outs c) (Proc.devRef .tc main_v65) = _
    after_results
    simp only [V46, Function.update_self]
    try rfl
  rw [e]
  exact fold_apply (by norm_num) (by norm_num) _ _ b i j c' hb hi hj hc

end Cert.KernelIdeal.Glue

end
-- ==== Proof.KGluePad.lean ====
/-
  What the convolution regions of the kernel's @main that follow a pooling find in their input buffer: the previous
  region's output inside a zero border of one row above and below and one column left (one or more right).
-/
import proofs.«100114_g2000204297211070_pallasbulk_1265_19_alg».proof.Proof.KGlueArgs
import proofs.«100114_g2000204297211070_pallasbulk_1265_19_alg».proof.Proof.KGlueLib

set_option maxRecDepth 16384

noncomputable section

namespace Cert.KernelIdeal.Glue

open Cert.KernelIdeal Cert.KernelIdeal.Gen Cert.KernelIdeal.GenP
open Idealize.ShloMosaic Idealize.ShloMosaic.TcCoe

open Cert.Spec

variable (m : (ℓ : Loc nD τ sig) → Buf (Elt Ideal) ℓ) (outs : Outs (F := Ideal))

/-- Region 3 reads the previous region's output inside a zero border: in padded coordinates, pixel (I - 1, J - 1) on rows
    1 … 112 and columns 1 … 112, zero elsewhere (the border value is the integer zero converted). -/
theorem pad_3 (c : Dev nD) (b I J ch : ℕ) (hb : b < 8) (hI : I < 114) (hJ : J < 114) (hch : ch < 64) :
    arr4 (V11 m outs c main_v21 : S8x114x114x64.Idx → EReal) b I J ch
      = pad1 112 112 (arr4 (outs 8 main_v20 c : S8x112x112x64.Idx → EReal)) b I J ch := by
  have e : (V11 m outs c main_v21 : S8x114x114x64.Idx → EReal)
      = pad S8x114x114x64 ![0, 1, 1, 0] ![0, 1, 1, 0] ![0, 0, 0, 0] (outs 8 main_v20 c : S8x112x112x64.Idx → EReal)
          (sitofp (F := Ideal) .bf16 (constantI S_ 32 0#32)) pads_S8x112x112x64_S8x114x114x64_000_110_110_000 h_S_ := by
    rw [V11_of m outs c main_v21 (by decide)]
    show StableHlo.after hostOps3_1 (V9 m outs c) (Proc.devRef .tc main_v21) = _
    generalize hW : V9 m outs c = W
    after_results
    subst hW
    have e0 : V9 m outs c (Proc.devRef .tc main_c_0) = constantI S_ 32 0#32 := by
      show StableHlo.after hostOps3 (V8 m outs c) (Proc.devRef .tc main_c_0) = _
      generalize V8 m outs c = W
      after_results
    have e1 : V9 m outs c (Proc.devRef .tc main_v20) = outs 8 main_v20 c :=
      (V9_of m outs c main_v20 (by decide)).trans (by simp only [V8, Function.update_self])
    rw [e0, e1]
    try rfl
  rw [e]
  exact pad_apply _ _ _ (sitofp_zero_apply .bf16) _ _ b I J ch hb hI hJ hch

/-- Region 4 reads the previous region's output inside a zero border: in padded coordinates, pixel (I - 1, J - 1) on rows
    1 … 112 and columns 1 … 112, zero elsewhere (the border value is the integer zero converted). -/
theorem pad_4 (c : Dev nD) (b I J ch : ℕ) (hb : b < 8) (hI : I < 114) (hJ : J < 114) (hch : ch < 128) :
    arr4 (V15 m outs c main_v25 : S8x114x114x128.Idx → EReal) b I J ch
      = pad1 112 112 (arr4 (outs 12 main_v24 c : S8x112x112x128.Idx → EReal)) b I J ch := by
  have e : (V15 m outs c main_v25 : S8x114x114x128.Idx → EReal)
      = pad S8x114x114x128 ![0, 1, 1, 0] ![0, 1, 1, 0] ![0, 0, 0, 0] (outs 12 main_v24 c : S8x112x112x128.Idx → EReal)
          (sitofp (F := Ideal) .bf16 (constantI S_ 32 0#32)) pads_S8x112x112x128_S8x114x114x128_000_110_110_000 h_S_ := by
    rw [V15_of m outs c main_v25 (by decide)]
    show StableHlo.after hostOps4_1 (V13 m outs c) (Proc.devRef .tc main_v25) = _
    generalize hW : V13 m outs c = W
    after_results
    subst hW
    have e0 : V13 m outs c (Proc.devRef .tc main_c_1) = constantI S_ 32 0#32 := by
      show StableHlo.after hostOps4 (V12 m outs c) (Proc.devRef .tc main_c_1) = _
      generalize V12 m outs c = W
      after_results
    have e1 : V13 m outs c (Proc.devRef .tc main_v24) = outs 12 main_v24 c :=
      (V13_of m outs c main_v24 (by decide)).trans (by simp only [V12, Function.update_self])
    rw [e0, e1]
    try rfl
  rw [e]
  exact pad_apply _ _ _ (sitofp_zero_apply .bf16) _ _ b I J ch hb hI hJ hch

/-- Region 6 reads the previous region's output inside a zero border: in padded coordinates, pixel (I - 1, J - 1) on rows
    1 … 56 and columns 1 … 56, zero elsewhere (the border value is the integer zero converted). -/
theorem pad_6 (c : Dev nD) (b I J ch : ℕ) (hb : b < 8) (hI : I < 58) (hJ : J < 58) (hch : ch < 128) :
    arr4 (V21 m outs c main_v31 : S8x58x58x128.Idx → EReal) b I J ch
      = pad1 56 56 (arr4 (outs 18 main_v30 c : S8x56x56x128.Idx → EReal)) b I J ch := by
  have e : (V21 m outs c main_v31 : S8x58x58x128.Idx → EReal)
      = pad S8x58x58x128 ![0, 1, 1, 0] ![0, 1, 1, 0] ![0, 0, 0, 0] (outs 18 main_v30 c : S8x56x56x128.Idx → EReal)
          (sitofp (F := Ideal) .bf16 (constantI S_ 32 0#32)) pads_S8x56x56x128_S8x58x58x128_000_110_110_000 h_S_ := by
    rw [V21_of m outs c main_v31 (by decide)]
    show StableHlo.after hostOps6_1 (V19 m outs c) (Proc.devRef .tc main_v31) = _
    generalize hW : V19 m outs c = W
    after_results
    subst hW
    have e0 : V19 m outs c (Proc.devRef .tc main_c_2) = constantI S_ 32 0#32 := by
      show StableHlo.after hostOps6 (V18 m outs c) (Proc.devRef .tc main_c_2) = _
      generalize V18 m outs c = W
      after_results
    have e1 : V19 m outs c (Proc.devRef .tc main_v30) = outs 18 main_v30 c :=
      (V19_of m outs c main_v30 (by decide)).trans (by simp only [V18, Function.update_self])
    rw [e0, e1]
    try rfl
  rw [e]
  exact pad_apply _ _ _ (sitofp_zero_apply .bf16) _ _ b I J ch hb hI hJ hch

/-- Region 10 reads the previous region's output inside a zero border: in padded coordinates, pixel (I - 1, J - 1) on rows
    1 … 28 and columns 1 … 28, zero elsewhere (the border value is the integer zero converted). -/
theorem pad_10 (c : Dev nD) (b I J ch : ℕ) (hb : b < 8) (hI : I < 30) (hJ : J < 34) (hch : ch < 256) :
    arr4 (V31 m outs c main_v43 : S8x30x34x256.Idx → EReal) b I J ch
      = pad1 28 28 (arr4 (outs 28 main_v42 c : S8x28x28x256.Idx → EReal)) b I J ch := by
  have e : (V31 m outs c main_v43 : S8x30x34x256.Idx → EReal)
      = pad S8x30x34x256 ![0, 1, 1, 0] ![0, 1, 5, 0] ![0, 0, 0, 0] (outs 28 main_v42 c : S8x28x28x256.Idx → EReal)
          (sitofp (F := Ideal) .bf16 (constantI S_ 32 0#32)) pads_S8x28x28x256_S8x30x34x256_000_110_150_000 h_S_ := by
    rw [V31_of m outs c main_v43 (by decide)]
    show StableHlo.after hostOps10_1 (V29 m outs c) (Proc.devRef .tc main_v43) = _
    generalize hW : V29 m outs c = W
    after_results
    subst hW
    have e0 : V29 m outs c (Proc.devRef .tc main_c_3) = constantI S_ 32 0#32 := by
      show StableHlo.after hostOps10 (V28 m outs c) (Proc.devRef .tc main_c_3) = _
      generalize V28 m outs c = W
      after_results
    have e1 : V29 m outs c (Proc.devRef .tc main_v42) = outs 28 main_v42 c :=
      (V29_of m outs c main_v42 (by decide)).trans (by simp only [V28, Function.update_self])
    rw [e0, e1]
    try rfl
  rw [e]
  exact pad_apply _ _ _ (sitofp_zero_apply .bf16) _ _ b I J ch hb hI hJ hch

/-- Region 14 reads the previous region's output inside a zero border: in padded coordinates, pixel (I - 1, J - 1) on rows
    1 … 14 and columns 1 … 16, zero elsewhere (the border value is the integer zero converted). -/
theorem pad_14 (c : Dev nD) (b I J ch : ℕ) (hb : b < 8) (hI : I < 16) (hJ : J < 18) (hch : ch < 512) :
    arr4 (V41 m outs c main_v55 : S8x16x18x512.Idx → EReal) b I J ch
      = pad1 14 16 (arr4 (outs 38 main_v54 c : S8x14x16x512.Idx → EReal)) b I J ch := by
  have e : (V41 m outs c main_v55 : S8x16x18x512.Idx → EReal)
      = pad S8x16x18x512 ![0, 1, 1, 0] ![0, 1, 1, 0] ![0, 0, 0, 0] (outs 38 main_v54 c : S8x14x16x512.Idx → EReal)
          (sitofp (F := Ideal) .bf16 (constantI S_ 32 0#32)) pads_S8x14x16x512_S8x16x18x512_000_110_110_000 h_S_ := by
    rw [V41_of m outs c main_v55 (by decide)]
    show StableHlo.after hostOps14_1 (V39 m outs c) (Proc.devRef .tc main_v55) = _
    generalize hW : V39 m outs c = W
    after_results
    subst hW
    have e0 : V39 m outs c (Proc.devRef .tc main_c_4) = constantI S_ 32 0#32 := by
      show StableHlo.after hostOps14 (V38 m outs c) (Proc.devRef .tc main_c_4) = _
      generalize V38 m outs c = W
      after_results
    have e1 : V39 m outs c (Proc.devRef .tc main_v54) = outs 38 main_v54 c :=
      (V39_of m outs c main_v54 (by decide)).trans (by simp only [V38, Function.update_self])
    rw [e0, e1]
    try rfl
  rw [e]
  exact pad_apply _ _ _ (sitofp_zero_apply .bf16) _ _ b I J ch hb hI hJ hch

end Cert.KernelIdeal.Glue

end
-- ==== Proof.KGlueRes.lean ====
/-
  The four results of the kernel's @main at its last boundary: each is a pooling region's output — which no later
  item writes —, the last two cut to the columns that are no layout padding, with the channels moved in front of the
  rows and columns (the conversion to f32 is the identity on the ideal values).
-/
import proofs.«100114_g2000204297211070_pallasbulk_1265_19_alg».proof.Proof.KGlueArgs
import proofs.«100114_g2000204297211070_pallasbulk_1265_19_alg».proof.Proof.KGlueLib

set_option maxRecDepth 16384

noncomputable section

namespace Cert.KernelIdeal.Glue

open Cert.KernelIdeal Cert.KernelIdeal.Gen Cert.KernelIdeal.GenP
open Idealize.ShloMosaic Idealize.ShloMosaic.TcCoe

open Cert.Spec

variable (m : (ℓ : Loc nD τ sig) → Buf (Elt Ideal) ℓ) (outs : Outs (F := Ideal))

/-- The output main_v30 reaches the last region boundary as the region that wrote it left it. -/
theorem V48_main_v30 (c : Dev nD) : V48 m outs c main_v30 = outs 18 main_v30 c :=
  (V48_of m outs c main_v30 (by decide)).trans <|
  (V47_of m outs c main_v30 (by decide)).trans <|
  (V46_of m outs c main_v30 (by decide)).trans <|
  (V45_of m outs c main_v30 (by decide)).trans <|
  (V44_of m outs c main_v30 (by decide)).trans <|
  (V43_of m outs c main_v30 (by decide)).trans <|
  (V42_of m outs c main_v30 (by decide)).trans <|
  (V41_of m outs c main_v30 (by decide)).trans <|
  (V40_of m outs c main_v30 (by decide)).trans <|
  (V39_of m outs c main_v30 (by decide)).trans <|
  (V38_of m outs c main_v30 (by decide)).trans <|
  (V37_of m outs c main_v30 (by decide)).trans <|
  (V36_of m outs c main_v30 (by decide)).trans <|
  (V35_of m outs c main_v30 (by decide)).trans <|
  (V34_of m outs c main_v30 (by decide)).trans <|
  (V33_of m outs c main_v30 (by decide)).trans <|
  (V32_of m outs c main_v30 (by decide)).trans <|
  (V31_of m outs c main_v30 (by decide)).trans <|
  (V30_of m outs c main_v30 (by decide)).trans <|
  (V29_of m outs c main_v30 (by decide)).trans <|
  (V28_of m outs c main_v30 (by decide)).trans <|
  (V27_of m outs c main_v30 (by decide)).trans <|
  (V26_of m outs c main_v30 (by decide)).trans <|
  (V25_of m outs c main_v30 (by decide)).trans <|
  (V24_of m outs c main_v30 (by decide)).trans <|
  (V23_of m outs c main_v30 (by decide)).trans <|
  (V22_of m outs c main_v30 (by decide)).trans <|
  (V21_of m outs c main_v30 (by decide)).trans <|
  (V20_of m outs c main_v30 (by decide)).trans <|
  (V19_of m outs c main_v30 (by decide)).trans <|
  (by simp only [V18, Function.update_self])

/-- The output main_v42 reaches the last region boundary as the region that wrote it left it. -/
theorem V48_main_v42 (c : Dev nD) : V48 m outs c main_v42 = outs 28 main_v42 c :=
  (V48_of m outs c main_v42 (by decide)).trans <|
  (V47_of m outs c main_v42 (by decide)).trans <|
  (V46_of m outs c main_v42 (by decide)).trans <|
  (V45_of m outs c main_v42 (by decide)).trans <|
  (V44_of m outs c main_v42 (by decide)).trans <|
  (V43_of m outs c main_v42 (by decide)).trans <|
  (V42_of m outs c main_v42 (by decide)).trans <|
  (V41_of m outs c main_v42 (by decide)).trans <|
  (V40_of m outs c main_v42 (by decide)).trans <|
  (V39_of m outs c main_v42 (by decide)).trans <|
  (V38_of m outs c main_v42 (by decide)).trans <|
  (V37_of m outs c main_v42 (by decide)).trans <|
  (V36_of m outs c main_v42 (by decide)).trans <|
  (V35_of m outs c main_v42 (by decide)).trans <|
  (V34_of m outs c main_v42 (by decide)).trans <|
  (V33_of m outs c main_v42 (by decide)).trans <|
  (V32_of m outs c main_v42 (by decide)).trans <|
  (V31_of m outs c main_v42 (by decide)).trans <|
  (V30_of m outs c main_v42 (by decide)).trans <|
  (V29_of m outs c main_v42 (by decide)).trans <|
  (by simp only [V28, Function.update_self])

/-- The output main_v54 reaches the last region boundary as the region that wrote it left it. -/
theorem V48_main_v54 (c : Dev nD) : V48 m outs c main_v54 = outs 38 main_v54 c :=
  (V48_of m outs c main_v54 (by decide)).trans <|
  (V47_of m outs c main_v54 (by decide)).trans <|
  (V46_of m outs c main_v54 (by decide)).trans <|
  (V45_of m outs c main_v54 (by decide)).trans <|
  (V44_of m outs c main_v54 (by decide)).trans <|
  (V43_of m outs c main_v54 (by decide)).trans <|
  (V42_of m outs c main_v54 (by decide)).trans <|
  (V41_of m outs c main_v54 (by decide)).trans <|
  (V40_of m outs c main_v54 (by decide)).trans <|
  (V39_of m outs c main_v54 (by decide)).trans <|
  (by simp only [V38, Function.update_self])

/-- The last pooling's output at the last region boundary: what that region left. -/
theorem V48_main_v66 (c : Dev nD) : V48 m outs c main_v66 = outs 48 main_v66 c := by
  simp only [V48, Function.update_self]

/-- The first result: the second pooling's output, channels first. -/
theorem result_68 (c : Dev nD) (b ch h w : ℕ) (hb : b < 8) (hch : ch < 128) (hh : h < 56) (hw : w < 56) :
    arr4 (V49 m outs c main_v68 : S8x128x56x56.Idx → EReal) b ch h w
      = arr4 (outs 18 main_v30 c : S8x56x56x128.Idx → EReal) b h w ch := by
  have e : (V49 m outs c main_v68 : S8x128x56x56.Idx → EReal)
      = transpose S8x128x56x56 [0, 3, 1, 2] (outs 18 main_v30 c : S8x56x56x128.Idx → EReal)
          transposes_S8x56x56x128_S8x128x56x56_0_3_1_2 := by
    show StableHlo.after hostOps18 (V48 m outs c) (Proc.devRef .tc main_v68) = _
    after_results
    rw [V48_main_v30 m outs c]
    try rfl
  rw [e]
  exact nchw_apply _ _ b ch h w hb hch hh hw

/-- The second result: the third pooling's output, channels first. -/
theorem result_70 (c : Dev nD) (b ch h w : ℕ) (hb : b < 8) (hch : ch < 256) (hh : h < 28) (hw : w < 28) :
    arr4 (V49 m outs c main_v70 : S8x256x28x28.Idx → EReal) b ch h w
      = arr4 (outs 28 main_v42 c : S8x28x28x256.Idx → EReal) b h w ch := by
  have e : (V49 m outs c main_v70 : S8x256x28x28.Idx → EReal)
      = transpose S8x256x28x28 [0, 3, 1, 2] (outs 28 main_v42 c : S8x28x28x256.Idx → EReal)
          transposes_S8x28x28x256_S8x256x28x28_0_3_1_2 := by
    show StableHlo.after hostOps18 (V48 m outs c) (Proc.devRef .tc main_v70) = _
    after_results
    rw [V48_main_v42 m outs c]
    try rfl
  rw [e]
  exact nchw_apply _ _ b ch h w hb hch hh hw

/-- The third result: the fourth pooling's output cut to its 14 columns, channels first. -/
theorem result_73 (c : Dev nD) (b ch h w : ℕ) (hb : b < 8) (hch : ch < 512) (hh : h < 14) (hw : w < 14) :
    arr4 (V49 m outs c main_v73 : S8x512x14x14.Idx → EReal) b ch h w
      = arr4 (outs 38 main_v54 c : S8x14x16x512.Idx → EReal) b h w ch := by
  have e : (V49 m outs c main_v73 : S8x512x14x14.Idx → EReal)
      = transpose S8x512x14x14 [0, 3, 1, 2]
          (extractStridedSlice S8x14x14x512 ![0, 0, 0, 0] (outs 38 main_v54 c : S8x14x16x512.Idx → EReal)
            slices_S8x14x16x512_S8x14x14x512_0_0_0_0)
          transposes_S8x14x14x512_S8x512x14x14_0_3_1_2 := by
    show StableHlo.after hostOps18 (V48 m outs c) (Proc.devRef .tc main_v73) = _
    after_results
    rw [V48_main_v54 m outs c]
    try rfl
  rw [e]
  refine (nchw_apply _ _ b ch h w hb hch hh hw).trans ?_
  exact slice0_apply _ _ b h w ch hb hh hw hch

/-- The fourth result: the fifth pooling's output cut to its 7 columns, channels first. -/
theorem result_76 (c : Dev nD) (b ch h w : ℕ) (hb : b < 8) (hch : ch < 512) (hh : h < 7) (hw : w < 7) :
    arr4 (V49 m outs c main_v76 : S8x512x7x7.Idx → EReal) b ch h w
      = arr4 (outs 48 main_v66 c : S8x7x8x512.Idx → EReal) b h w ch := by
  have e : (V49 m outs c main_v76 : S8x512x7x7.Idx → EReal)
      = transpose S8x512x7x7 [0, 3, 1, 2]
          (extractStridedSlice S8x7x7x512 ![0, 0, 0, 0] (outs 48 main_v66 c : S8x7x8x512.Idx → EReal)
            slices_S8x7x8x512_S8x7x7x512_0_0_0_0)
          transposes_S8x7x7x512_S8x512x7x7_0_3_1_2 := by
    show StableHlo.after hostOps18 (V48 m outs c) (Proc.devRef .tc main_v76) = _
    after_results
    rw [V48_main_v66 m outs c]
    try rfl
  rw [e]
  refine (nchw_apply _ _ b ch h w hb hch hh hw).trans ?_
  exact slice0_apply _ _ b h w ch hb hh hw hch

end Cert.KernelIdeal.Glue

end
-- ==== Proof.KGlueStem.lean ====
/-
  What region 0 of the kernel's @main (the stem convolution as one dense layer over 27 stacked taps) finds in its
  input buffer: the image moved to channels-last, padded by two rows above and below and two columns left (eight
  right) with zeros, cut into the nine windows of 226 rows and 232 columns that start at row dy and column dx
  (dy, dx ≤ 2), and the nine windows laid side by side on the channel axis. Lane K = 9·dy + 3·dx + ch of pixel (I, J)
  is therefore channel ch of the image at (I + dy − 2, J + dx − 2), and zero outside the image.
-/
import proofs.«100114_g2000204297211070_pallasbulk_1265_19_alg».proof.Proof.KGlueArgs
import proofs.«100114_g2000204297211070_pallasbulk_1265_19_alg».proof.Proof.KGlueLib

set_option maxRecDepth 16384

noncomputable section

namespace Cert.KernelIdeal.Glue

open Cert.KernelIdeal Cert.KernelIdeal.Gen Cert.KernelIdeal.GenP
open Idealize.ShloMosaic Idealize.ShloMosaic.TcCoe Idealize.ShloMosaic.ValueIdx
open Cert.Spec

variable (m : (ℓ : Loc nD τ sig) → Buf (Elt Ideal) ℓ)

/-! ## The padded image -/

/-- The padded image: the launch's image with the channels last, inside its zero border. -/
theorem V2_v1 (c : Dev nD) : (V2 m c main_v1 : S8x228x234x3.Idx → EReal)
    = pad S8x228x234x3 ![0, 2, 2, 0] ![0, 2, 8, 0] ![0, 0, 0, 0]
        (transpose S8x224x224x3 [0, 2, 3, 1] (m ((c : Thread nD τ).loc main_arg0) : S8x3x224x224.Idx → EReal)
          transposes_S8x3x224x224_S8x224x224x3_0_2_3_1)
        (sitofp (F := Ideal) .f32 (constantI S_ 32 0#32)) pads_S8x224x224x3_S8x228x234x3_000_220_280_000 h_S_ := by
  show StableHlo.after hostOps0_1 (V1 m c) (Proc.devRef .tc main_v1) = _
  generalize hW : V1 m c = W
  after_results
  subst hW
  have e0 : V1 m c (Proc.devRef .tc main_c) = constantI S_ 32 0#32 := by
    show StableHlo.after hostOps0 (V0 m c) (Proc.devRef .tc main_c) = _
    after_results
  have e1 : (V1 m c (Proc.devRef .tc main_v0) : S8x224x224x3.Idx → EReal)
      = transpose S8x224x224x3 [0, 2, 3, 1] (m ((c : Thread nD τ).loc main_arg0) : S8x3x224x224.Idx → EReal)
          transposes_S8x3x224x224_S8x224x224x3_0_2_3_1 := by
    show StableHlo.after hostOps0 (V0 m c) (Proc.devRef .tc main_v0) = _
    after_results
    try rfl
  rw [e0, e1]
  try rfl

/-! ## Its nine windows -/

/-- Window n starts at row n / 3 and column n % 3 of the padded image, and lies inside it. -/
theorem win_slices (n : Fin 9) : S8x228x234x3.Slices ![0, n.val / 3, n.val % 3, 0] S8x226x232x3 :=
  ⟨rfl, fun a => by
    have hn := n.isLt
    match a with
    | ⟨0, _⟩ => show 0 + 8 ≤ 8; omega
    | ⟨1, _⟩ => show n.val / 3 + 226 ≤ 228; omega
    | ⟨2, _⟩ => show n.val % 3 + 232 ≤ 234; omega
    | ⟨3, _⟩ => show 0 + 3 ≤ 3; omega⟩

/-- Window n of a padded image. -/
abbrev win (X : S8x228x234x3.Idx → EReal) (n : Fin 9) : S8x226x232x3.Idx → EReal :=
  extractStridedSlice S8x226x232x3 ![0, n.val / 3, n.val % 3, 0] X (win_slices n)

/-- The stretch before region 0, cut after its nine window operations. -/
theorem split9 (W : Valuation τ sig (Elt Ideal)) :
    StableHlo.after hostOps0_2 W = StableHlo.after (hostOps0_2.drop 9) (StableHlo.after (hostOps0_2.take 9) W) := rfl

/-- After the nine window operations, window buffer n holds window n of what the padded image's buffer held. -/
theorem windows (W : Valuation τ sig (Elt Ideal)) :
    (StableHlo.after (hostOps0_2.take 9) W (Proc.devRef .tc main_v2) : S8x226x232x3.Idx → EReal) = win (W (Proc.devRef .tc main_v1)) 0
    ∧ (StableHlo.after (hostOps0_2.take 9) W (Proc.devRef .tc main_v3) : S8x226x232x3.Idx → EReal) = win (W (Proc.devRef .tc main_v1)) 1
    ∧ (StableHlo.after (hostOps0_2.take 9) W (Proc.devRef .tc main_v4) : S8x226x232x3.Idx → EReal) = win (W (Proc.devRef .tc main_v1)) 2
    ∧ (StableHlo.after (hostOps0_2.take 9) W (Proc.devRef .tc main_v5) : S8x226x232x3.Idx → EReal) = win (W (Proc.devRef .tc main_v1)) 3
    ∧ (StableHlo.after (hostOps0_2.take 9) W (Proc.devRef .tc main_v6) : S8x226x232x3.Idx → EReal) = win (W (Proc.devRef .tc main_v1)) 4
    ∧ (StableHlo.after (hostOps0_2.take 9) W (Proc.devRef .tc main_v7) : S8x226x232x3.Idx → EReal) = win (W (Proc.devRef .tc main_v1)) 5
    ∧ (StableHlo.after (hostOps0_2.take 9) W (Proc.devRef .tc main_v8) : S8x226x232x3.Idx → EReal) = win (W (Proc.devRef .tc main_v1)) 6
    ∧ (StableHlo.after (hostOps0_2.take 9) W (Proc.devRef .tc main_v9) : S8x226x232x3.Idx → EReal) = win (W (Proc.devRef .tc main_v1)) 7
    ∧ (StableHlo.after (hostOps0_2.take 9) W (Proc.devRef .tc main_v10) : S8x226x232x3.Idx → EReal) = win (W (Proc.devRef .tc main_v1)) 8 := by
  simp only [hostOps0_2, List.take_succ_cons, List.take_zero]
  refine ⟨?_, ?_, ?_, ?_, ?_, ?_, ?_, ?_, ?_⟩ <;> (after_results; try rfl)

/-- The rest of the stretch lays the nine window buffers side by side on the channel axis. -/
theorem lanes (W : Valuation τ sig (Elt Ideal)) :
    (StableHlo.after (hostOps0_2.drop 9) W (Proc.devRef .tc main_v12) : S8x226x232x27.Idx → EReal)
      = concatenate S8x226x232x27 3
          [⟨S8x226x232x3, (W (Proc.devRef .tc main_v2) : S8x226x232x3.Idx → EReal)⟩, ⟨S8x226x232x3, (W (Proc.devRef .tc main_v3) : S8x226x232x3.Idx → EReal)⟩,
           ⟨S8x226x232x3, (W (Proc.devRef .tc main_v4) : S8x226x232x3.Idx → EReal)⟩, ⟨S8x226x232x3, (W (Proc.devRef .tc main_v5) : S8x226x232x3.Idx → EReal)⟩,
           ⟨S8x226x232x3, (W (Proc.devRef .tc main_v6) : S8x226x232x3.Idx → EReal)⟩, ⟨S8x226x232x3, (W (Proc.devRef .tc main_v7) : S8x226x232x3.Idx → EReal)⟩,
           ⟨S8x226x232x3, (W (Proc.devRef .tc main_v8) : S8x226x232x3.Idx → EReal)⟩, ⟨S8x226x232x3, (W (Proc.devRef .tc main_v9) : S8x226x232x3.Idx → EReal)⟩,
           ⟨S8x226x232x3, (W (Proc.devRef .tc main_v10) : S8x226x232x3.Idx → EReal)⟩]
          concatenates_S8x226x232x3_S8x226x232x3_S8x226x232x3_S8x226x232x3_S8x226x232x3_S8x226x232x3_S8x226x232x3_S8x226x232x3_S8x226x232x3_S8x226x232x27_d3 := by
  simp only [hostOps0_2, List.drop_succ_cons, List.drop_zero]
  after_results
  try rfl

/-- Region 0's input buffer: the nine windows of the padded image, window n on lanes 3n … 3n + 2. -/
theorem V3_v12 (c : Dev nD) : (V3 m c main_v12 : S8x226x232x27.Idx → EReal)
    = concatenate S8x226x232x27 3
        (List.ofFn fun n : Fin 9 => (⟨S8x226x232x3, win (V2 m c main_v1 : S8x228x234x3.Idx → EReal) n⟩ : (s : Shape) × (s.Idx → EReal)))
        concatenates_S8x226x232x3_S8x226x232x3_S8x226x232x3_S8x226x232x3_S8x226x232x3_S8x226x232x3_S8x226x232x3_S8x226x232x3_S8x226x232x3_S8x226x232x27_d3 := by
  show StableHlo.after hostOps0_2 (V2 m c) (Proc.devRef .tc main_v12) = _
  rw [split9, lanes]
  obtain ⟨w0, w1, w2, w3, w4, w5, w6, w7, w8⟩ := windows (V2 m c)
  rw [w0, w1, w2, w3, w4, w5, w6, w7, w8]
  rfl

/-! ## A lane of a pixel -/

/-- Region 0's input at pixel (I, J), lane K: tap (K / 9, K / 3 % 3), channel K % 3 of the image, zero outside it. -/
theorem stem_0 (c : Dev nD) (b I J K : ℕ) (hb : b < 8) (hI : I < 226) (hJ : J < 232) (hK : K < 27) :
    arr4 (V3 m c main_v12 : S8x226x232x27.Idx → EReal) b I J K
      = if 2 ≤ I + K / 9 ∧ I + K / 9 < 226 ∧ 2 ≤ J + K / 3 % 3 ∧ J + K / 3 % 3 < 226 then
          arr4 (m ((c : Thread nD τ).loc main_arg0) : S8x3x224x224.Idx → EReal) b (K % 3) (I + K / 9 - 2) (J + K / 3 % 3 - 2)
        else 0 := by
  have hK3 : K / 3 < 9 := by omega
  have hKm : K % 3 < 3 := by omega
  rw [V3_v12 m c, arr4_of_lt _ hb hI hJ hK]
  -- the lane's window, at the lane's channel
  refine (concatenate_ofFn_apply (t := S8x226x232x27) (s₁ := S8x226x232x3) (3 : Fin 4)
    (fun n : Fin 9 => win (V2 m c main_v1 : S8x228x234x3.Idx → EReal) n) _ rfl 3 rfl (ix4 ⟨b, hb⟩ ⟨I, hI⟩ ⟨J, hJ⟩ ⟨K, hK⟩)
    ⟨K / 3, hK3⟩ rfl (ix4 ⟨b, hb⟩ ⟨I, hI⟩ ⟨J, hJ⟩ ⟨K % 3, hKm⟩) rfl (fun a => ?_)).trans ?_
  · match a with
    | ⟨0, _⟩ => exact fun _ => rfl
    | ⟨1, _⟩ => exact fun _ => rfl
    | ⟨2, _⟩ => exact fun _ => rfl
    | ⟨3, _⟩ => exact fun h => absurd rfl h
  refine (arr4_of_lt (win (V2 m c main_v1 : S8x228x234x3.Idx → EReal) ⟨K / 3, hK3⟩) hb hI hJ hKm).symm.trans ?_
  -- the window is a shift of the padded image
  rw [sliceHW_apply (K / 3 / 3) (K / 3 % 3) _ _ b I J (K % 3) hb hI hJ hKm]
  have r1 : K / 3 / 3 + I = I + K / 9 := by omega
  have r2 : K / 3 % 3 + J = J + K / 3 % 3 := by omega
  rw [r1, r2, V2_v1 m c,
    padHW_apply 2 2 _ _ _ (sitofp_zero_apply .f32) _ _ b (I + K / 9) (J + K / 3 % 3) (K % 3) hb (by omega) (by omega) hKm]
  by_cases hc : 2 ≤ I + K / 9 ∧ I + K / 9 < 226 ∧ 2 ≤ J + K / 3 % 3 ∧ J + K / 3 % 3 < 226
  · rw [if_pos hc, if_pos (by omega)]
    exact nhwc_apply _ _ b (I + K / 9 - 2) (J + K / 3 % 3 - 2) (K % 3) hb (by omega) (by omega) hKm
  · rw [if_neg hc, if_neg (by omega)]

end Cert.KernelIdeal.Glue

end
-- ==== Proof.KChain.lean ====
/-
  The kernel program's chain of values: over arbitrary region outputs that are what the regions' proof data write
  (OutsSpec), every region's output array is the specification's activation at that depth — in the layout the next
  region reads it in (padded frame, row-pair maximum, zero columns beyond the image) — and the four results are the
  last four pooled maps in NCHW order. Each step is the region's value statement, the host glue for its operands, and
  the previous step's invariant, put together by the buffer-free algebra of one layer.
-/
import proofs.«100114_g2000204297211070_pallasbulk_1265_19_alg».proof.Proof.KRegionsP
import proofs.«100114_g2000204297211070_pallasbulk_1265_19_alg».proof.Proof.KR0
import proofs.«100114_g2000204297211070_pallasbulk_1265_19_alg».proof.Proof.KR1
import proofs.«100114_g2000204297211070_pallasbulk_1265_19_alg».proof.Proof.KR2
import proofs.«100114_g2000204297211070_pallasbulk_1265_19_alg».proof.Proof.KR3
import proofs.«100114_g2000204297211070_pallasbulk_1265_19_alg».proof.Proof.KR4
import proofs.«100114_g2000204297211070_pallasbulk_1265_19_alg».proof.Proof.KR5
import proofs.«100114_g2000204297211070_pallasbulk_1265_19_alg».proof.Proof.KR6
import proofs.«100114_g2000204297211070_pallasbulk_1265_19_alg».proof.Proof.KR7
import proofs.«100114_g2000204297211070_pallasbulk_1265_19_alg».proof.Proof.KR8
import proofs.«100114_g2000204297211070_pallasbulk_1265_19_alg».proof.Proof.KR9
import proofs.«100114_g2000204297211070_pallasbulk_1265_19_alg».proof.Proof.KR10
import proofs.«100114_g2000204297211070_pallasbulk_1265_19_alg».proof.Proof.KR11
import proofs.«100114_g2000204297211070_pallasbulk_1265_19_alg».proof.Proof.KR12
import proofs.«100114_g2000204297211070_pallasbulk_1265_19_alg».proof.Proof.KR13
import proofs.«100114_g2000204297211070_pallasbulk_1265_19_alg».proof.Proof.KR14
import proofs.«100114_g2000204297211070_pallasbulk_1265_19_alg».proof.Proof.KR15
import proofs.«100114_g2000204297211070_pallasbulk_1265_19_alg».proof.Proof.KR16
import proofs.«100114_g2000204297211070_pallasbulk_1265_19_alg».proof.Proof.KR17
import proofs.«100114_g2000204297211070_pallasbulk_1265_19_alg».proof.Proof.Net
import proofs.«100114_g2000204297211070_pallasbulk_1265_19_alg».proof.Proof.KChainAlg
import proofs.«100114_g2000204297211070_pallasbulk_1265_19_alg».proof.Proof.KV0
import proofs.«100114_g2000204297211070_pallasbulk_1265_19_alg».proof.Proof.KV1
import proofs.«100114_g2000204297211070_pallasbulk_1265_19_alg».proof.Proof.KV2
import proofs.«100114_g2000204297211070_pallasbulk_1265_19_alg».proof.Proof.KV3
import proofs.«100114_g2000204297211070_pallasbulk_1265_19_alg».proof.Proof.KV4
import proofs.«100114_g2000204297211070_pallasbulk_1265_19_alg».proof.Proof.KV5
import proofs.«100114_g2000204297211070_pallasbulk_1265_19_alg».proof.Proof.KV6
import proofs.«100114_g2000204297211070_pallasbulk_1265_19_alg».proof.Proof.KV7
import proofs.«100114_g2000204297211070_pallasbulk_1265_19_alg».proof.Proof.KV8
import proofs.«100114_g2000204297211070_pallasbulk_1265_19_alg».proof.Proof.KV9
import proofs.«100114_g2000204297211070_pallasbulk_1265_19_alg».proof.Proof.KV10
import proofs.«100114_g2000204297211070_pallasbulk_1265_19_alg».proof.Proof.KV11
import proofs.«100114_g2000204297211070_pallasbulk_1265_19_alg».proof.Proof.KV12
import proofs.«100114_g2000204297211070_pallasbulk_1265_19_alg».proof.Proof.KV13
import proofs.«100114_g2000204297211070_pallasbulk_1265_19_alg».proof.Proof.KV14
import proofs.«100114_g2000204297211070_pallasbulk_1265_19_alg».proof.Proof.KV15
import proofs.«100114_g2000204297211070_pallasbulk_1265_19_alg».proof.Proof.KV16
import proofs.«100114_g2000204297211070_pallasbulk_1265_19_alg».proof.Proof.KV17
import proofs.«100114_g2000204297211070_pallasbulk_1265_19_alg».proof.Proof.KGlueW1
import proofs.«100114_g2000204297211070_pallasbulk_1265_19_alg».proof.Proof.KGlueW2
import proofs.«100114_g2000204297211070_pallasbulk_1265_19_alg».proof.Proof.KGlueCF
import proofs.«100114_g2000204297211070_pallasbulk_1265_19_alg».proof.Proof.KGluePad
import proofs.«100114_g2000204297211070_pallasbulk_1265_19_alg».proof.Proof.KGlueRes
import proofs.«100114_g2000204297211070_pallasbulk_1265_19_alg».proof.Proof.KGlueStem
import Idealize.ShloMosaic.Lib.Pipeline.Value

set_option maxRecDepth 16384
-- the buffers' types are looked up in the signature's table at every unfolding: the later the region, the longer the walk
set_option maxHeartbeats 2000000

noncomputable section

namespace Cert.KernelIdeal.Chain

open Cert.KernelIdeal Cert.KernelIdeal.Gen Cert.KernelIdeal.GenP Cert.KernelIdeal.Reg
open Idealize.ShloMosaic Idealize.ShloMosaic.TcCoe
open Idealize.ShloMosaic.Pipeline (Dat)

variable (m : (ℓ : Loc nD τ sig) → Buf (Elt Ideal) ℓ)

/-- The network's parameters as core `c` finds them in the launch memory: the image (NCHW) read in NHWC coordinates,
    layer ℓ's nine weight slabs and its bias row. -/
def params (c : Dev nD) : Cert.Spec.Params where
  x := fun b i j ch => Cert.Spec.arr4 (m ((c : Thread nD τ).loc main_arg0)) b ch i j
  w := fun ℓ => match ℓ with
    | 0 => Cert.Spec.arr3 (m ((c : Thread nD τ).loc main_arg1))
    | 1 => Cert.Spec.arr3 (m ((c : Thread nD τ).loc main_arg3))
    | 2 => Cert.Spec.arr3 (m ((c : Thread nD τ).loc main_arg5))
    | 3 => Cert.Spec.arr3 (m ((c : Thread nD τ).loc main_arg7))
    | 4 => Cert.Spec.arr3 (m ((c : Thread nD τ).loc main_arg9))
    | 5 => Cert.Spec.arr3 (m ((c : Thread nD τ).loc main_arg11))
    | 6 => Cert.Spec.arr3 (m ((c : Thread nD τ).loc main_arg13))
    | 7 => Cert.Spec.arr3 (m ((c : Thread nD τ).loc main_arg15))
    | 8 => Cert.Spec.arr3 (m ((c : Thread nD τ).loc main_arg17))
    | 9 => Cert.Spec.arr3 (m ((c : Thread nD τ).loc main_arg19))
    | 10 => Cert.Spec.arr3 (m ((c : Thread nD τ).loc main_arg21))
    | 11 => Cert.Spec.arr3 (m ((c : Thread nD τ).loc main_arg23))
    | 12 => Cert.Spec.arr3 (m ((c : Thread nD τ).loc main_arg25))
    | _ => fun _ _ _ => 0
  bi := fun ℓ => match ℓ with
    | 0 => Cert.Spec.arr2 (m ((c : Thread nD τ).loc main_arg2))
    | 1 => Cert.Spec.arr2 (m ((c : Thread nD τ).loc main_arg4))
    | 2 => Cert.Spec.arr2 (m ((c : Thread nD τ).loc main_arg6))
    | 3 => Cert.Spec.arr2 (m ((c : Thread nD τ).loc main_arg8))
    | 4 => Cert.Spec.arr2 (m ((c : Thread nD τ).loc main_arg10))
    | 5 => Cert.Spec.arr2 (m ((c : Thread nD τ).loc main_arg12))
    | 6 => Cert.Spec.arr2 (m ((c : Thread nD τ).loc main_arg14))
    | 7 => Cert.Spec.arr2 (m ((c : Thread nD τ).loc main_arg16))
    | 8 => Cert.Spec.arr2 (m ((c : Thread nD τ).loc main_arg18))
    | 9 => Cert.Spec.arr2 (m ((c : Thread nD τ).loc main_arg20))
    | 10 => Cert.Spec.arr2 (m ((c : Thread nD τ).loc main_arg22))
    | 11 => Cert.Spec.arr2 (m ((c : Thread nD τ).loc main_arg24))
    | 12 => Cert.Spec.arr2 (m ((c : Thread nD τ).loc main_arg26))
    | _ => fun _ _ => 0

variable (outs : Outs (F := Ideal))

/-- The region outputs are what the regions write: each output array is the fold of the region's write-backs over its
    proof data at the contents the region is entered with. -/
structure OutsSpec : Prop where
  h0 : ∀ c, outs 4 main_v15 c = (dat0 (fun c b => V3 m c b) c).arrAt 3 cfg0.N
  h1 : ∀ c, outs 6 main_v18 c = (dat1 (fun c b => V5 m outs c b) c).arrAt 3 cfg1.N
  h2 : ∀ c, outs 8 main_v20 c = (dat2 (fun c b => V7 m outs c b) c).arrAt 1 cfg2.N
  h3 : ∀ c, outs 12 main_v24 c = (dat3 (fun c b => V11 m outs c b) c).arrAt 3 cfg3.N
  h4 : ∀ c, outs 16 main_v28 c = (dat4 (fun c b => V15 m outs c b) c).arrAt 3 cfg4.N
  h5 : ∀ c, outs 18 main_v30 c = (dat5 (fun c b => V17 m outs c b) c).arrAt 1 cfg5.N
  h6 : ∀ c, outs 22 main_v34 c = (dat6 (fun c b => V21 m outs c b) c).arrAt 3 cfg6.N
  h7 : ∀ c, outs 24 main_v37 c = (dat7 (fun c b => V23 m outs c b) c).arrAt 3 cfg7.N
  h8 : ∀ c, outs 26 main_v40 c = (dat8 (fun c b => V25 m outs c b) c).arrAt 3 cfg8.N
  h9 : ∀ c, outs 28 main_v42 c = (dat9 (fun c b => V27 m outs c b) c).arrAt 1 cfg9.N
  h10 : ∀ c, outs 32 main_v46 c = (dat10 (fun c b => V31 m outs c b) c).arrAt 3 cfg10.N
  h11 : ∀ c, outs 34 main_v49 c = (dat11 (fun c b => V33 m outs c b) c).arrAt 3 cfg11.N
  h12 : ∀ c, outs 36 main_v52 c = (dat12 (fun c b => V35 m outs c b) c).arrAt 3 cfg12.N
  h13 : ∀ c, outs 38 main_v54 c = (dat13 (fun c b => V37 m outs c b) c).arrAt 1 cfg13.N
  h14 : ∀ c, outs 42 main_v58 c = (dat14 (fun c b => V41 m outs c b) c).arrAt 3 cfg14.N
  h15 : ∀ c, outs 44 main_v61 c = (dat15 (fun c b => V43 m outs c b) c).arrAt 3 cfg15.N
  h16 : ∀ c, outs 46 main_v64 c = (dat16 (fun c b => V45 m outs c b) c).arrAt 3 cfg16.N
  h17 : ∀ c, outs 48 main_v66 c = (dat17 (fun c b => V47 m outs c b) c).arrAt 1 cfg17.N

variable {m outs}

/-- Region 0's bias row is layer 0's bias. -/
theorem bias0 (c : Dev nD) (co : ℕ) :
    Cert.Spec.arr2 (V3 m c main_arg2) 0 co = (params m c).bi 0 0 co := by
  have e := Glue.bias_0 m c
  show Cert.Spec.arr2 (V3 m c main_arg2) 0 co = Cert.Spec.arr2 (m ((c : Thread nD τ).loc main_arg2)) 0 co
  rw [e]

/-- Region 0's weight matrix has layer 0's slabs as its row groups. -/
theorem weights0 (c : Dev nD) (co : ℕ) (hco : co < 64) :
    ∀ K < 27, Cert.Spec.arr2 (V3 m c main_v14) K co = (params m c).w 0 (K / 3) (K % 3) co :=
  fun K hK => Glue.weights_0 m c K co (by omega) hco

/-- Region 0 (the stem) leaves the first activation in padded coordinates. -/
theorem K0 (hO : OutsSpec m outs) (c : Dev nD) (b I J co : ℕ) (hb : b < 8) (hI : I < 226) (hJ : J < 226) (hco : co < 64) :
    Cert.Spec.arr4 (outs 4 main_v15 c) b I J co = Cert.Spec.pad1 224 224 (Cert.Spec.C0 (params m c)) b I J co := by
  rw [hO.h0 c]
  refine (Val.stem_value (fun c b => V3 m c b) c b I J co hb hI hJ hco).trans ?_
  exact Cert.Spec.stem_eq_layer (Cert.Spec.arr4 (V3 m c main_v12)) (params m c).x (Cert.Spec.arr2 (V3 m c main_v14)) (Cert.Spec.arr2 (V3 m c main_arg2)) ((params m c).w 0) ((params m c).bi 0) b I J co
    (fun K hK => Glue.stem_0 m c b I J K hb hI (by omega) hK)
    (weights0 c co hco)
    (bias0 c co)

/-- Region 1's bias row is layer 1's bias. -/
theorem bias1 (c : Dev nD) (co : ℕ) :
    Cert.Spec.arr2 (V5 m outs c main_arg4) 0 co = (params m c).bi 1 0 co := by
  have e := Glue.bias_1 m outs c
  show Cert.Spec.arr2 (V5 m outs c main_arg4) 0 co = Cert.Spec.arr2 (m ((c : Thread nD τ).loc main_arg4)) 0 co
  rw [e]

/-- Region 1's weight matrix has layer 1's slabs as its row groups. -/
theorem weights1 (c : Dev nD) (co : ℕ) (hco : co < 64) :
    ∀ K < 9 * 64, Cert.Spec.arr2 (V5 m outs c main_v17) K co = (params m c).w 1 (K / 64) (K % 64) co :=
  fun K hK => Glue.weights_1 m outs c K co (by omega) hco

/-- Region 1 reads the padded activation C0 on its whole 226×226 frame. -/
theorem in1 (hO : OutsSpec m outs) (c : Dev nD) (b : ℕ) (hb : b < 8) :
    ∀ I < 224 + 2, ∀ J < 224 + 2, ∀ ci < 64, Cert.Spec.arr4 (V5 m outs c main_v15) b I J ci = Cert.Spec.pad1 224 224 (Cert.Spec.C0 (params m c)) b I J ci := by
  intro I hI J hJ ci hci
  rw [Glue.carried_1 m outs c]
  exact K0 hO c b I J ci hb (by omega) (by omega) hci

/-- Region 1 leaves the row-pair maximum of activation C1. -/
theorem K1 (hO : OutsSpec m outs) (c : Dev nD) (b i j co : ℕ) (hb : b < 8) (hi : i < 112) (hj : j < 224) (hco : co < 64) :
    Cert.Spec.arr4 (outs 6 main_v18 c) b i j co = Cert.Spec.hpool (Cert.Spec.C1 (params m c)) b i j co := by
  rw [hO.h1 c]
  refine (Val.conv1_value (fun c b => V5 m outs c b) c b i j co hb hi hj hco).trans ?_
  exact Cert.Spec.hpool_convFlat_eq_layer 224 224 64 (by norm_num) (Cert.Spec.arr4 (V5 m outs c main_v15)) (Cert.Spec.C0 (params m c)) (Cert.Spec.arr2 (V5 m outs c main_v17)) ((params m c).w 1) (Cert.Spec.arr2 (V5 m outs c main_arg4)) ((params m c).bi 1) b i j co (by omega) hj
    (in1 hO c b hb) (weights1 c co hco) (bias1 c co)

/-- Region 2 leaves the pooled map P1. -/
theorem K2 (hO : OutsSpec m outs) (c : Dev nD) (b i j ch : ℕ) (hb : b < 8) (hi : i < 112) (hj : j < 112) (hch : ch < 64) :
    Cert.Spec.arr4 (outs 8 main_v20 c) b i j ch = Cert.Spec.P1 (params m c) b i j ch := by
  rw [hO.h2 c]
  refine (Val.wpool2_value (fun c b => V7 m outs c b) c b i j ch hb hi hj hch).trans ?_
  exact Cert.Spec.lanehalf_max_eq_pool 64 (by norm_num) (Cert.Spec.arr4 (V7 m outs c main_v19)) (Cert.Spec.arr4 (outs 6 main_v18 c)) (Cert.Spec.C1 (params m c)) b i j ch hch
    (fun c' hc' => Glue.fold_2 m outs c b i j c' hb hi hj (by omega))
    (fun j' hj' => K1 hO c b i j' ch hb hi (by omega) hch)

/-- Region 3's bias row is layer 2's bias. -/
theorem bias3 (c : Dev nD) (co : ℕ) :
    Cert.Spec.arr2 (V11 m outs c main_arg6) 0 co = (params m c).bi 2 0 co := by
  have e := Glue.bias_3 m outs c
  show Cert.Spec.arr2 (V11 m outs c main_arg6) 0 co = Cert.Spec.arr2 (m ((c : Thread nD τ).loc main_arg6)) 0 co
  rw [e]

/-- Region 3's weight matrix has layer 2's slabs as its row groups. -/
theorem weights3 (c : Dev nD) (co : ℕ) (hco : co < 128) :
    ∀ K < 9 * 64, Cert.Spec.arr2 (V11 m outs c main_v23) K co = (params m c).w 2 (K / 64) (K % 64) co :=
  fun K hK => Glue.weights_3 m outs c K co (by omega) hco

/-- Region 3 reads the padded activation P1 on its whole 114×114 frame. -/
theorem in3 (hO : OutsSpec m outs) (c : Dev nD) (b : ℕ) (hb : b < 8) :
    ∀ I < 112 + 2, ∀ J < 112 + 2, ∀ ci < 64, Cert.Spec.arr4 (V11 m outs c main_v21) b I J ci = Cert.Spec.pad1 112 112 (Cert.Spec.P1 (params m c)) b I J ci := by
  intro I hI J hJ ci hci
  rw [Glue.pad_3 m outs c b I J ci hb (by omega) (by omega) hci]
  exact Cert.Spec.pad1_congr 112 112 _ _ b I J ci (fun i hi j hj => K2 hO c b i j ci hb hi hj hci)

/-- Region 3 leaves activation C2. -/
theorem K3 (hO : OutsSpec m outs) (c : Dev nD) (b i j co : ℕ) (hb : b < 8) (hi : i < 112) (hj : j < 112) (hco : co < 128) :
    Cert.Spec.arr4 (outs 12 main_v24 c) b i j co = Cert.Spec.C2 (params m c) b i j co := by
  rw [hO.h3 c]
  refine (Val.conv3_value (fun c b => V11 m outs c b) c b i j co hb hi hj hco).trans ?_
  exact Cert.Spec.convFlat_eq_layer 112 112 64 (by norm_num) (Cert.Spec.arr4 (V11 m outs c main_v21)) (Cert.Spec.P1 (params m c)) (Cert.Spec.arr2 (V11 m outs c main_v23)) ((params m c).w 2) (Cert.Spec.arr2 (V11 m outs c main_arg6)) ((params m c).bi 2) b i j co hi hj
    (in3 hO c b hb) (weights3 c co hco) (bias3 c co)

/-- Region 4's bias row is layer 3's bias. -/
theorem bias4 (c : Dev nD) (co : ℕ) :
    Cert.Spec.arr2 (V15 m outs c main_arg8) 0 co = (params m c).bi 3 0 co := by
  have e := Glue.bias_4 m outs c
  show Cert.Spec.arr2 (V15 m outs c main_arg8) 0 co = Cert.Spec.arr2 (m ((c : Thread nD τ).loc main_arg8)) 0 co
  rw [e]

/-- Region 4's weight matrix has layer 3's slabs as its row groups. -/
theorem weights4 (c : Dev nD) (co : ℕ) (hco : co < 128) :
    ∀ K < 9 * 128, Cert.Spec.arr2 (V15 m outs c main_v27) K co = (params m c).w 3 (K / 128) (K % 128) co :=
  fun K hK => Glue.weights_4 m outs c K co (by omega) hco

/-- Region 4 reads the padded activation C2 on its whole 114×114 frame. -/
theorem in4 (hO : OutsSpec m outs) (c : Dev nD) (b : ℕ) (hb : b < 8) :
    ∀ I < 112 + 2, ∀ J < 112 + 2, ∀ ci < 128, Cert.Spec.arr4 (V15 m outs c main_v25) b I J ci = Cert.Spec.pad1 112 112 (Cert.Spec.C2 (params m c)) b I J ci := by
  intro I hI J hJ ci hci
  rw [Glue.pad_4 m outs c b I J ci hb (by omega) (by omega) hci]
  exact Cert.Spec.pad1_congr 112 112 _ _ b I J ci (fun i hi j hj => K3 hO c b i j ci hb hi hj hci)

/-- Region 4 leaves the row-pair maximum of activation C3. -/
theorem K4 (hO : OutsSpec m outs) (c : Dev nD) (b i j co : ℕ) (hb : b < 8) (hi : i < 56) (hj : j < 112) (hco : co < 128) :
    Cert.Spec.arr4 (outs 16 main_v28 c) b i j co = Cert.Spec.hpool (Cert.Spec.C3 (params m c)) b i j co := by
  rw [hO.h4 c]
  refine (Val.conv4_value (fun c b => V15 m outs c b) c b i j co hb hi hj hco).trans ?_
  exact Cert.Spec.hpool_convFlat_eq_layer 112 112 128 (by norm_num) (Cert.Spec.arr4 (V15 m outs c main_v25)) (Cert.Spec.C2 (params m c)) (Cert.Spec.arr2 (V15 m outs c main_v27)) ((params m c).w 3) (Cert.Spec.arr2 (V15 m outs c main_arg8)) ((params m c).bi 3) b i j co (by omega) hj
    (in4 hO c b hb) (weights4 c co hco) (bias4 c co)

/-- Region 5 leaves the pooled map P2. -/
theorem K5 (hO : OutsSpec m outs) (c : Dev nD) (b i j ch : ℕ) (hb : b < 8) (hi : i < 56) (hj : j < 56) (hch : ch < 128) :
    Cert.Spec.arr4 (outs 18 main_v30 c) b i j ch = Cert.Spec.P2 (params m c) b i j ch := by
  rw [hO.h5 c]
  refine (Val.wpool5_value (fun c b => V17 m outs c b) c b i j ch hb hi hj hch).trans ?_
  exact Cert.Spec.lanehalf_max_eq_pool 128 (by norm_num) (Cert.Spec.arr4 (V17 m outs c main_v29)) (Cert.Spec.arr4 (outs 16 main_v28 c)) (Cert.Spec.C3 (params m c)) b i j ch hch
    (fun c' hc' => Glue.fold_5 m outs c b i j c' hb hi hj (by omega))
    (fun j' hj' => K4 hO c b i j' ch hb hi (by omega) hch)

/-- Region 6's bias row is layer 4's bias. -/
theorem bias6 (c : Dev nD) (co : ℕ) :
    Cert.Spec.arr2 (V21 m outs c main_arg10) 0 co = (params m c).bi 4 0 co := by
  have e := Glue.bias_6 m outs c
  show Cert.Spec.arr2 (V21 m outs c main_arg10) 0 co = Cert.Spec.arr2 (m ((c : Thread nD τ).loc main_arg10)) 0 co
  rw [e]

/-- Region 6's weight matrix has layer 4's slabs as its row groups. -/
theorem weights6 (c : Dev nD) (co : ℕ) (hco : co < 256) :
    ∀ K < 9 * 128, Cert.Spec.arr2 (V21 m outs c main_v33) K co = (params m c).w 4 (K / 128) (K % 128) co :=
  fun K hK => Glue.weights_6 m outs c K co (by omega) hco

/-- Region 6 reads the padded activation P2 on its whole 58×58 frame. -/
theorem in6 (hO : OutsSpec m outs) (c : Dev nD) (b : ℕ) (hb : b < 8) :
    ∀ I < 56 + 2, ∀ J < 56 + 2, ∀ ci < 128, Cert.Spec.arr4 (V21 m outs c main_v31) b I J ci = Cert.Spec.pad1 56 56 (Cert.Spec.P2 (params m c)) b I J ci := by
  intro I hI J hJ ci hci
  rw [Glue.pad_6 m outs c b I J ci hb (by omega) (by omega) hci]
  exact Cert.Spec.pad1_congr 56 56 _ _ b I J ci (fun i hi j hj => K5 hO c b i j ci hb hi hj hci)

/-- Region 6 leaves activation C4 in padded coordinates. -/
theorem K6 (hO : OutsSpec m outs) (c : Dev nD) (b I J co : ℕ) (hb : b < 8) (hI : I < 58) (hJ : J < 58) (hco : co < 256) :
    Cert.Spec.arr4 (outs 22 main_v34 c) b I J co = Cert.Spec.pad1 56 56 (Cert.Spec.C4 (params m c)) b I J co := by
  rw [hO.h6 c]
  refine (Val.conv6_value (fun c b => V21 m outs c b) c b I J co hb hI hJ hco).trans ?_
  exact Cert.Spec.pad1_convFlat_eq_layer 56 56 128 (by norm_num) (Cert.Spec.arr4 (V21 m outs c main_v31)) (Cert.Spec.P2 (params m c)) (Cert.Spec.arr2 (V21 m outs c main_v33)) ((params m c).w 4) (Cert.Spec.arr2 (V21 m outs c main_arg10)) ((params m c).bi 4) b I J co
    (in6 hO c b hb) (weights6 c co hco) (bias6 c co)

/-- Region 7's bias row is layer 5's bias. -/
theorem bias7 (c : Dev nD) (co : ℕ) :
    Cert.Spec.arr2 (V23 m outs c main_arg12) 0 co = (params m c).bi 5 0 co := by
  have e := Glue.bias_7 m outs c
  show Cert.Spec.arr2 (V23 m outs c main_arg12) 0 co = Cert.Spec.arr2 (m ((c : Thread nD τ).loc main_arg12)) 0 co
  rw [e]

/-- Region 7's weight matrix has layer 5's slabs as its row groups. -/
theorem weights7 (c : Dev nD) (co : ℕ) (hco : co < 256) :
    ∀ K < 9 * 256, Cert.Spec.arr2 (V23 m outs c main_v36) K co = (params m c).w 5 (K / 256) (K % 256) co :=
  fun K hK => Glue.weights_7 m outs c K co (by omega) hco

/-- Region 7 reads the padded activation C4 on its whole 58×58 frame. -/
theorem in7 (hO : OutsSpec m outs) (c : Dev nD) (b : ℕ) (hb : b < 8) :
    ∀ I < 56 + 2, ∀ J < 56 + 2, ∀ ci < 256, Cert.Spec.arr4 (V23 m outs c main_v34) b I J ci = Cert.Spec.pad1 56 56 (Cert.Spec.C4 (params m c)) b I J ci := by
  intro I hI J hJ ci hci
  rw [Glue.carried_7 m outs c]
  exact K6 hO c b I J ci hb (by omega) (by omega) hci

/-- Region 7 leaves activation C5 in padded coordinates. -/
theorem K7 (hO : OutsSpec m outs) (c : Dev nD) (b I J co : ℕ) (hb : b < 8) (hI : I < 58) (hJ : J < 58) (hco : co < 256) :
    Cert.Spec.arr4 (outs 24 main_v37 c) b I J co = Cert.Spec.pad1 56 56 (Cert.Spec.C5 (params m c)) b I J co := by
  rw [hO.h7 c]
  refine (Val.conv7_value (fun c b => V23 m outs c b) c b I J co hb hI hJ hco).trans ?_
  exact Cert.Spec.pad1_convFlat_eq_layer 56 56 256 (by norm_num) (Cert.Spec.arr4 (V23 m outs c main_v34)) (Cert.Spec.C4 (params m c)) (Cert.Spec.arr2 (V23 m outs c main_v36)) ((params m c).w 5) (Cert.Spec.arr2 (V23 m outs c main_arg12)) ((params m c).bi 5) b I J co
    (in7 hO c b hb) (weights7 c co hco) (bias7 c co)

/-- Region 8's bias row is layer 6's bias. -/
theorem bias8 (c : Dev nD) (co : ℕ) :
    Cert.Spec.arr2 (V25 m outs c main_arg14) 0 co = (params m c).bi 6 0 co := by
  have e := Glue.bias_8 m outs c
  show Cert.Spec.arr2 (V25 m outs c main_arg14) 0 co = Cert.Spec.arr2 (m ((c : Thread nD τ).loc main_arg14)) 0 co
  rw [e]

/-- Region 8's weight matrix has layer 6's slabs as its row groups. -/
theorem weights8 (c : Dev nD) (co : ℕ) (hco : co < 256) :
    ∀ K < 9 * 256, Cert.Spec.arr2 (V25 m outs c main_v39) K co = (params m c).w 6 (K / 256) (K % 256) co :=
  fun K hK => Glue.weights_8 m outs c K co (by omega) hco

/-- Region 8 reads the padded activation C5 on its whole 58×58 frame. -/
theorem in8 (hO : OutsSpec m outs) (c : Dev nD) (b : ℕ) (hb : b < 8) :
    ∀ I < 56 + 2, ∀ J < 56 + 2, ∀ ci < 256, Cert.Spec.arr4 (V25 m outs c main_v37) b I J ci = Cert.Spec.pad1 56 56 (Cert.Spec.C5 (params m c)) b I J ci := by
  intro I hI J hJ ci hci
  rw [Glue.carried_8 m outs c]
  exact K7 hO c b I J ci hb (by omega) (by omega) hci

/-- Region 8 leaves the row-pair maximum of activation C6. -/
theorem K8 (hO : OutsSpec m outs) (c : Dev nD) (b i j co : ℕ) (hb : b < 8) (hi : i < 28) (hj : j < 56) (hco : co < 256) :
    Cert.Spec.arr4 (outs 26 main_v40 c) b i j co = Cert.Spec.hpool (Cert.Spec.C6 (params m c)) b i j co := by
  rw [hO.h8 c]
  refine (Val.conv8_value (fun c b => V25 m outs c b) c b i j co hb hi hj hco).trans ?_
  exact Cert.Spec.hpool_convFlat_eq_layer 56 56 256 (by norm_num) (Cert.Spec.arr4 (V25 m outs c main_v37)) (Cert.Spec.C5 (params m c)) (Cert.Spec.arr2 (V25 m outs c main_v39)) ((params m c).w 6) (Cert.Spec.arr2 (V25 m outs c main_arg14)) ((params m c).bi 6) b i j co (by omega) hj
    (in8 hO c b hb) (weights8 c co hco) (bias8 c co)

/-- Region 9 leaves the pooled map P3. -/
theorem K9 (hO : OutsSpec m outs) (c : Dev nD) (b i j ch : ℕ) (hb : b < 8) (hi : i < 28) (hj : j < 28) (hch : ch < 256) :
    Cert.Spec.arr4 (outs 28 main_v42 c) b i j ch = Cert.Spec.P3 (params m c) b i j ch := by
  rw [hO.h9 c]
  refine (Val.wpool9_value (fun c b => V27 m outs c b) c b i j ch hb hi hj hch).trans ?_
  exact Cert.Spec.lanehalf_max_eq_pool 256 (by norm_num) (Cert.Spec.arr4 (V27 m outs c main_v41)) (Cert.Spec.arr4 (outs 26 main_v40 c)) (Cert.Spec.C6 (params m c)) b i j ch hch
    (fun c' hc' => Glue.fold_9 m outs c b i j c' hb hi hj (by omega))
    (fun j' hj' => K8 hO c b i j' ch hb hi (by omega) hch)

/-- Region 10's bias row is layer 7's bias. -/
theorem bias10 (c : Dev nD) (co : ℕ) :
    Cert.Spec.arr2 (V31 m outs c main_arg16) 0 co = (params m c).bi 7 0 co := by
  have e := Glue.bias_10 m outs c
  show Cert.Spec.arr2 (V31 m outs c main_arg16) 0 co = Cert.Spec.arr2 (m ((c : Thread nD τ).loc main_arg16)) 0 co
  rw [e]

/-- Region 10's weight matrix has layer 7's slabs as its row groups. -/
theorem weights10 (c : Dev nD) (co : ℕ) (hco : co < 512) :
    ∀ K < 9 * 256, Cert.Spec.arr2 (V31 m outs c main_v45) K co = (params m c).w 7 (K / 256) (K % 256) co :=
  fun K hK => Glue.weights_10 m outs c K co (by omega) hco

/-- Region 10 reads the padded activation P3 on its whole 30×30 frame. -/
theorem in10 (hO : OutsSpec m outs) (c : Dev nD) (b : ℕ) (hb : b < 8) :
    ∀ I < 28 + 2, ∀ J < 28 + 2, ∀ ci < 256, Cert.Spec.arr4 (V31 m outs c main_v43) b I J ci = Cert.Spec.pad1 28 28 (Cert.Spec.P3 (params m c)) b I J ci := by
  intro I hI J hJ ci hci
  rw [Glue.pad_10 m outs c b I J ci hb (by omega) (by omega) hci]
  exact Cert.Spec.pad1_congr 28 28 _ _ b I J ci (fun i hi j hj => K9 hO c b i j ci hb hi hj hci)

/-- Region 10 leaves activation C7 in padded coordinates. -/
theorem K10 (hO : OutsSpec m outs) (c : Dev nD) (b I J co : ℕ) (hb : b < 8) (hI : I < 30) (hJ : J < 34) (hco : co < 512) :
    Cert.Spec.arr4 (outs 32 main_v46 c) b I J co = Cert.Spec.pad1 28 28 (Cert.Spec.C7 (params m c)) b I J co := by
  rw [hO.h10 c]
  refine (Val.conv10_value (fun c b => V31 m outs c b) c b I J co hb hI hJ hco).trans ?_
  exact Cert.Spec.pad1_convFlat_eq_layer 28 28 256 (by norm_num) (Cert.Spec.arr4 (V31 m outs c main_v43)) (Cert.Spec.P3 (params m c)) (Cert.Spec.arr2 (V31 m outs c main_v45)) ((params m c).w 7) (Cert.Spec.arr2 (V31 m outs c main_arg16)) ((params m c).bi 7) b I J co
    (in10 hO c b hb) (weights10 c co hco) (bias10 c co)

/-- Region 11's bias row is layer 8's bias. -/
theorem bias11 (c : Dev nD) (co : ℕ) :
    Cert.Spec.arr2 (V33 m outs c main_arg18) 0 co = (params m c).bi 8 0 co := by
  have e := Glue.bias_11 m outs c
  show Cert.Spec.arr2 (V33 m outs c main_arg18) 0 co = Cert.Spec.arr2 (m ((c : Thread nD τ).loc main_arg18)) 0 co
  rw [e]

/-- Region 11's weight matrix has layer 8's slabs as its row groups. -/
theorem weights11 (c : Dev nD) (co : ℕ) (hco : co < 512) :
    ∀ K < 9 * 512, Cert.Spec.arr2 (V33 m outs c main_v48) K co = (params m c).w 8 (K / 512) (K % 512) co :=
  fun K hK => Glue.weights_11 m outs c K co (by omega) hco

/-- Region 11 reads the padded activation C7 on its whole 30×30 frame. -/
theorem in11 (hO : OutsSpec m outs) (c : Dev nD) (b : ℕ) (hb : b < 8) :
    ∀ I < 28 + 2, ∀ J < 28 + 2, ∀ ci < 512, Cert.Spec.arr4 (V33 m outs c main_v46) b I J ci = Cert.Spec.pad1 28 28 (Cert.Spec.C7 (params m c)) b I J ci := by
  intro I hI J hJ ci hci
  rw [Glue.carried_11 m outs c]
  exact K10 hO c b I J ci hb (by omega) (by omega) hci

/-- Region 11 leaves activation C8 in padded coordinates. -/
theorem K11 (hO : OutsSpec m outs) (c : Dev nD) (b I J co : ℕ) (hb : b < 8) (hI : I < 30) (hJ : J < 34) (hco : co < 512) :
    Cert.Spec.arr4 (outs 34 main_v49 c) b I J co = Cert.Spec.pad1 28 28 (Cert.Spec.C8 (params m c)) b I J co := by
  rw [hO.h11 c]
  refine (Val.conv11_value (fun c b => V33 m outs c b) c b I J co hb hI hJ hco).trans ?_
  exact Cert.Spec.pad1_convFlat_eq_layer 28 28 512 (by norm_num) (Cert.Spec.arr4 (V33 m outs c main_v46)) (Cert.Spec.C7 (params m c)) (Cert.Spec.arr2 (V33 m outs c main_v48)) ((params m c).w 8) (Cert.Spec.arr2 (V33 m outs c main_arg18)) ((params m c).bi 8) b I J co
    (in11 hO c b hb) (weights11 c co hco) (bias11 c co)

/-- Region 12's bias row is layer 9's bias. -/
theorem bias12 (c : Dev nD) (co : ℕ) :
    Cert.Spec.arr2 (V35 m outs c main_arg20) 0 co = (params m c).bi 9 0 co := by
  have e := Glue.bias_12 m outs c
  show Cert.Spec.arr2 (V35 m outs c main_arg20) 0 co = Cert.Spec.arr2 (m ((c : Thread nD τ).loc main_arg20)) 0 co
  rw [e]

/-- Region 12's weight matrix has layer 9's slabs as its row groups. -/
theorem weights12 (c : Dev nD) (co : ℕ) (hco : co < 512) :
    ∀ K < 9 * 512, Cert.Spec.arr2 (V35 m outs c main_v51) K co = (params m c).w 9 (K / 512) (K % 512) co :=
  fun K hK => Glue.weights_12 m outs c K co (by omega) hco

/-- Region 12 reads the padded activation C8 on its whole 30×30 frame. -/
theorem in12 (hO : OutsSpec m outs) (c : Dev nD) (b : ℕ) (hb : b < 8) :
    ∀ I < 28 + 2, ∀ J < 28 + 2, ∀ ci < 512, Cert.Spec.arr4 (V35 m outs c main_v49) b I J ci = Cert.Spec.pad1 28 28 (Cert.Spec.C8 (params m c)) b I J ci := by
  intro I hI J hJ ci hci
  rw [Glue.carried_12 m outs c]
  exact K11 hO c b I J ci hb (by omega) (by omega) hci

/-- Region 12 leaves the row-pair maximum of activation C9, and zero in the columns beyond the image. -/
theorem K12 (hO : OutsSpec m outs) (c : Dev nD) (b i j co : ℕ) (hb : b < 8) (hi : i < 14) (hj : j < 32) (hco : co < 512) :
    Cert.Spec.arr4 (outs 36 main_v52 c) b i j co = if j < 28 then Cert.Spec.hpool (Cert.Spec.C9 (params m c)) b i j co else 0 := by
  rw [hO.h12 c]
  refine (Val.conv12_value (fun c b => V35 m outs c b) c b i j co hb hi hj hco).trans ?_
  by_cases hj' : j < 28
  · rw [if_pos hj', if_pos hj']
    exact Cert.Spec.hpool_convFlat_eq_layer 28 28 512 (by norm_num) (Cert.Spec.arr4 (V35 m outs c main_v49)) (Cert.Spec.C8 (params m c)) (Cert.Spec.arr2 (V35 m outs c main_v51)) ((params m c).w 9) (Cert.Spec.arr2 (V35 m outs c main_arg20)) ((params m c).bi 9) b i j co (by omega) hj'
      (in12 hO c b hb) (weights12 c co hco) (bias12 c co)
  · rw [if_neg hj', if_neg hj']

/-- Region 13 leaves the pooled map P4, and zero in the columns beyond the image. -/
theorem K13 (hO : OutsSpec m outs) (c : Dev nD) (b i j ch : ℕ) (hb : b < 8) (hi : i < 14) (hj : j < 16) (hch : ch < 512) :
    Cert.Spec.arr4 (outs 38 main_v54 c) b i j ch = if j < 14 then Cert.Spec.P4 (params m c) b i j ch else 0 := by
  rw [hO.h13 c]
  refine (Val.wpool13_value (fun c b => V37 m outs c b) c b i j ch hb hi hj hch).trans ?_
  exact Cert.Spec.lanehalf_max_eq_pool_junk 512 (by norm_num) 14 28 (by norm_num) (Cert.Spec.arr4 (V37 m outs c main_v53)) (Cert.Spec.arr4 (outs 36 main_v52 c)) (Cert.Spec.C9 (params m c)) b i j ch hch
    (fun c' hc' => Glue.fold_13 m outs c b i j c' hb hi hj (by omega))
    (fun j' hj' => K12 hO c b i j' ch hb hi (by omega) hch)

/-- Region 14's bias row is layer 10's bias. -/
theorem bias14 (c : Dev nD) (co : ℕ) :
    Cert.Spec.arr2 (V41 m outs c main_arg22) 0 co = (params m c).bi 10 0 co := by
  have e := Glue.bias_14 m outs c
  show Cert.Spec.arr2 (V41 m outs c main_arg22) 0 co = Cert.Spec.arr2 (m ((c : Thread nD τ).loc main_arg22)) 0 co
  rw [e]

/-- Region 14's weight matrix has layer 10's slabs as its row groups. -/
theorem weights14 (c : Dev nD) (co : ℕ) (hco : co < 512) :
    ∀ K < 9 * 512, Cert.Spec.arr2 (V41 m outs c main_v57) K co = (params m c).w 10 (K / 512) (K % 512) co :=
  fun K hK => Glue.weights_14 m outs c K co (by omega) hco

/-- Region 14 reads the padded activation P4 on its whole 16×16 frame. -/
theorem in14 (hO : OutsSpec m outs) (c : Dev nD) (b : ℕ) (hb : b < 8) :
    ∀ I < 14 + 2, ∀ J < 14 + 2, ∀ ci < 512, Cert.Spec.arr4 (V41 m outs c main_v55) b I J ci = Cert.Spec.pad1 14 14 (Cert.Spec.P4 (params m c)) b I J ci := by
  intro I hI J hJ ci hci
  rw [Glue.pad_14 m outs c b I J ci hb (by omega) (by omega) hci]
  exact Cert.Spec.pad1_junk 14 14 16 (by norm_num) _ _ b I J ci (fun i hi j hj => K13 hO c b i j ci hb hi hj hci)

/-- Region 14 leaves activation C10 in padded coordinates. -/
theorem K14 (hO : OutsSpec m outs) (c : Dev nD) (b I J co : ℕ) (hb : b < 8) (hI : I < 16) (hJ : J < 18) (hco : co < 512) :
    Cert.Spec.arr4 (outs 42 main_v58 c) b I J co = Cert.Spec.pad1 14 14 (Cert.Spec.C10 (params m c)) b I J co := by
  rw [hO.h14 c]
  refine (Val.conv14_value (fun c b => V41 m outs c b) c b I J co hb hI hJ hco).trans ?_
  exact Cert.Spec.pad1_convFlat_eq_layer 14 14 512 (by norm_num) (Cert.Spec.arr4 (V41 m outs c main_v55)) (Cert.Spec.P4 (params m c)) (Cert.Spec.arr2 (V41 m outs c main_v57)) ((params m c).w 10) (Cert.Spec.arr2 (V41 m outs c main_arg22)) ((params m c).bi 10) b I J co
    (in14 hO c b hb) (weights14 c co hco) (bias14 c co)

/-- Region 15's bias row is layer 11's bias. -/
theorem bias15 (c : Dev nD) (co : ℕ) :
    Cert.Spec.arr2 (V43 m outs c main_arg24) 0 co = (params m c).bi 11 0 co := by
  have e := Glue.bias_15 m outs c
  show Cert.Spec.arr2 (V43 m outs c main_arg24) 0 co = Cert.Spec.arr2 (m ((c : Thread nD τ).loc main_arg24)) 0 co
  rw [e]

/-- Region 15's weight matrix has layer 11's slabs as its row groups. -/
theorem weights15 (c : Dev nD) (co : ℕ) (hco : co < 512) :
    ∀ K < 9 * 512, Cert.Spec.arr2 (V43 m outs c main_v60) K co = (params m c).w 11 (K / 512) (K % 512) co :=
  fun K hK => Glue.weights_15 m outs c K co (by omega) hco

/-- Region 15 reads the padded activation C10 on its whole 16×16 frame. -/
theorem in15 (hO : OutsSpec m outs) (c : Dev nD) (b : ℕ) (hb : b < 8) :
    ∀ I < 14 + 2, ∀ J < 14 + 2, ∀ ci < 512, Cert.Spec.arr4 (V43 m outs c main_v58) b I J ci = Cert.Spec.pad1 14 14 (Cert.Spec.C10 (params m c)) b I J ci := by
  intro I hI J hJ ci hci
  rw [Glue.carried_15 m outs c]
  exact K14 hO c b I J ci hb (by omega) (by omega) hci

/-- Region 15 leaves activation C11 in padded coordinates. -/
theorem K15 (hO : OutsSpec m outs) (c : Dev nD) (b I J co : ℕ) (hb : b < 8) (hI : I < 16) (hJ : J < 18) (hco : co < 512) :
    Cert.Spec.arr4 (outs 44 main_v61 c) b I J co = Cert.Spec.pad1 14 14 (Cert.Spec.C11 (params m c)) b I J co := by
  rw [hO.h15 c]
  refine (Val.conv15_value (fun c b => V43 m outs c b) c b I J co hb hI hJ hco).trans ?_
  exact Cert.Spec.pad1_convFlat_eq_layer 14 14 512 (by norm_num) (Cert.Spec.arr4 (V43 m outs c main_v58)) (Cert.Spec.C10 (params m c)) (Cert.Spec.arr2 (V43 m outs c main_v60)) ((params m c).w 11) (Cert.Spec.arr2 (V43 m outs c main_arg24)) ((params m c).bi 11) b I J co
    (in15 hO c b hb) (weights15 c co hco) (bias15 c co)

/-- Region 16's bias row is layer 12's bias. -/
theorem bias16 (c : Dev nD) (co : ℕ) :
    Cert.Spec.arr2 (V45 m outs c main_arg26) 0 co = (params m c).bi 12 0 co := by
  have e := Glue.bias_16 m outs c
  show Cert.Spec.arr2 (V45 m outs c main_arg26) 0 co = Cert.Spec.arr2 (m ((c : Thread nD τ).loc main_arg26)) 0 co
  rw [e]

/-- Region 16's weight matrix has layer 12's slabs as its row groups. -/
theorem weights16 (c : Dev nD) (co : ℕ) (hco : co < 512) :
    ∀ K < 9 * 512, Cert.Spec.arr2 (V45 m outs c main_v63) K co = (params m c).w 12 (K / 512) (K % 512) co :=
  fun K hK => Glue.weights_16 m outs c K co (by omega) hco

/-- Region 16 reads the padded activation C11 on its whole 16×16 frame. -/
theorem in16 (hO : OutsSpec m outs) (c : Dev nD) (b : ℕ) (hb : b < 8) :
    ∀ I < 14 + 2, ∀ J < 14 + 2, ∀ ci < 512, Cert.Spec.arr4 (V45 m outs c main_v61) b I J ci = Cert.Spec.pad1 14 14 (Cert.Spec.C11 (params m c)) b I J ci := by
  intro I hI J hJ ci hci
  rw [Glue.carried_16 m outs c]
  exact K15 hO c b I J ci hb (by omega) (by omega) hci

/-- Region 16 leaves the row-pair maximum of activation C12, and zero in the columns beyond the image. -/
theorem K16 (hO : OutsSpec m outs) (c : Dev nD) (b i j co : ℕ) (hb : b < 8) (hi : i < 7) (hj : j < 16) (hco : co < 512) :
    Cert.Spec.arr4 (outs 46 main_v64 c) b i j co = if j < 14 then Cert.Spec.hpool (Cert.Spec.C12 (params m c)) b i j co else 0 := by
  rw [hO.h16 c]
  refine (Val.conv16_value (fun c b => V45 m outs c b) c b i j co hb hi hj hco).trans ?_
  by_cases hj' : j < 14
  · rw [if_pos hj', if_pos hj']
    exact Cert.Spec.hpool_convFlat_eq_layer 14 14 512 (by norm_num) (Cert.Spec.arr4 (V45 m outs c main_v61)) (Cert.Spec.C11 (params m c)) (Cert.Spec.arr2 (V45 m outs c main_v63)) ((params m c).w 12) (Cert.Spec.arr2 (V45 m outs c main_arg26)) ((params m c).bi 12) b i j co (by omega) hj'
      (in16 hO c b hb) (weights16 c co hco) (bias16 c co)
  · rw [if_neg hj', if_neg hj']

/-- Region 17 leaves the pooled map P5, and zero in the columns beyond the image. -/
theorem K17 (hO : OutsSpec m outs) (c : Dev nD) (b i j ch : ℕ) (hb : b < 8) (hi : i < 7) (hj : j < 8) (hch : ch < 512) :
    Cert.Spec.arr4 (outs 48 main_v66 c) b i j ch = if j < 7 then Cert.Spec.P5 (params m c) b i j ch else 0 := by
  rw [hO.h17 c]
  refine (Val.wpool17_value (fun c b => V47 m outs c b) c b i j ch hb hi hj hch).trans ?_
  exact Cert.Spec.lanehalf_max_eq_pool_junk 512 (by norm_num) 7 14 (by norm_num) (Cert.Spec.arr4 (V47 m outs c main_v65)) (Cert.Spec.arr4 (outs 46 main_v64 c)) (Cert.Spec.C12 (params m c)) b i j ch hch
    (fun c' hc' => Glue.fold_17 m outs c b i j c' hb hi hj (by omega))
    (fun j' hj' => K16 hO c b i j' ch hb hi (by omega) hch)

/-! ## The four results -/

/-- The result main_v68 is the pooled map P2 in NCHW order. -/
theorem result_P2 (hO : OutsSpec m outs) (c : Dev nD) (b ch y x : ℕ) (hb : b < 8) (hch : ch < 128) (hy : y < 56) (hx : x < 56) :
    Cert.Spec.arr4 (V49 m outs c main_v68) b ch y x = Cert.Spec.P2 (params m c) b y x ch := by
  rw [Glue.result_68 m outs c b ch y x hb hch hy hx]
  exact K5 hO c b y x ch hb hy hx hch

/-- The result main_v70 is the pooled map P3 in NCHW order. -/
theorem result_P3 (hO : OutsSpec m outs) (c : Dev nD) (b ch y x : ℕ) (hb : b < 8) (hch : ch < 256) (hy : y < 28) (hx : x < 28) :
    Cert.Spec.arr4 (V49 m outs c main_v70) b ch y x = Cert.Spec.P3 (params m c) b y x ch := by
  rw [Glue.result_70 m outs c b ch y x hb hch hy hx]
  exact K9 hO c b y x ch hb hy hx hch

/-- The result main_v73 is the pooled map P4 in NCHW order. -/
theorem result_P4 (hO : OutsSpec m outs) (c : Dev nD) (b ch y x : ℕ) (hb : b < 8) (hch : ch < 512) (hy : y < 14) (hx : x < 14) :
    Cert.Spec.arr4 (V49 m outs c main_v73) b ch y x = Cert.Spec.P4 (params m c) b y x ch := by
  rw [Glue.result_73 m outs c b ch y x hb hch hy hx, K13 hO c b y x ch hb hy (by omega) hch, if_pos hx]

/-- The result main_v76 is the pooled map P5 in NCHW order. -/
theorem result_P5 (hO : OutsSpec m outs) (c : Dev nD) (b ch y x : ℕ) (hb : b < 8) (hch : ch < 512) (hy : y < 7) (hx : x < 7) :
    Cert.Spec.arr4 (V49 m outs c main_v76) b ch y x = Cert.Spec.P5 (params m c) b y x ch := by
  rw [Glue.result_76 m outs c b ch y x hb hch hy hx, K17 hO c b y x ch hb hy (by omega) hch, if_pos hx]

end Cert.KernelIdeal.Chain

end
-- ==== Proof.ConvAlg.lean ====
/-
  Index facts shared by the convolution regions, over the extended reals.
  A plain M×K by K×N product read at (i, j) is the accumulator there plus the sum over the contraction coordinate q
  of lhs (i, q) · rhs (q, j). A block of TH rows of W pixels with C channels, read as a matrix of TH·W rows, has pixel
  (r, j) on row r·W + j; the same for a matrix of TH·W rows read back as a block. A sum over `Fin n` of a function of
  the coordinate's value is the sum over `Finset.range n`. A load through a unit-stride rectangle reads the source at the shifted
  coordinates; so one tap over a loaded block and a loaded weight slab is a sum over the input channels of the two total
  functions.
-/
import proofs.«100114_g2000204297211070_pallasbulk_1265_19_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Pipeline.FrameBody

noncomputable section

open scoped BigOperators

namespace Cert.Spec

open Idealize.ShloMosaic Idealize.ShloMosaic.ValueIdx

/-- A dot record of two matrices whose dimension numbers are those of the plain product is the plain product's. -/
theorem dot_eq_plain {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) : d = DotDims.plain M K N := by
  cases d
  simp only at h1 h2 h3 h4 h5 h6
  subst h1 h2 h3 h4 h5 h6
  rfl

/-- The plain product at (i, j): the accumulator there plus the sum over q of lhs (i, q) · rhs (q, j). -/
theorem matmul_plain_apply {M K N : ℕ} {φ₁ φ₂ : FTy} (prec : Option ContractPrecision)
    (lhs : FVec Ideal ⟨2, ![M, K]⟩ φ₁) (rhs : FVec Ideal ⟨2, ![K, N]⟩ φ₂) (acc : FVec Ideal ⟨2, ![M, N]⟩ .f32)
    (i : Fin M) (j : Fin N) :
    FloatOps.matmul (DotDims.plain M K N) prec lhs rhs acc (ix2 i j)
      = acc (ix2 i j) + ∑ q : Fin K, lhs (ix2 i q) * rhs (ix2 q j) := by
  rw [Ideal.matmul_apply]
  congr 1
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun q _ => ?_
  have hq := contrEquiv1_symm_val (DotDims.plain M K N) K hr hs q
  congr 2
  · funext a
    apply Fin.ext
    match a with
    | ⟨0, _⟩ => rfl
    | ⟨1, _⟩ => exact hq
  · funext a
    apply Fin.ext
    match a with
    | ⟨0, _⟩ => exact hq
    | ⟨1, _⟩ => rfl

/-- A block of TH rows of W pixels read as a matrix of P = TH·W rows: row r·W + j is pixel (r, j). -/
theorem rows_in_apply {α : Type} {TH W C P : ℕ} (x : (⟨4, ![1, TH, W, C]⟩ : Shape).Idx → α)
    (h1 : (⟨4, ![1, TH, W, C]⟩ : Shape).ShapeCasts ⟨3, ![TH, W, C]⟩)
    (h2 : (⟨3, ![TH, W, C]⟩ : Shape).ShapeCasts ⟨2, ![P, C]⟩)
    (r : Fin TH) (j : Fin W) (ci : Fin C) (p : Fin P) (hp : p.val = r.val * W + j.val) :
    shapeCast ⟨2, ![P, C]⟩ (shapeCast ⟨3, ![TH, W, C]⟩ x h1) h2 (ix2 p ci) = x (ix4 (0 : Fin 1) r j ci) := by
  refine (shapeCast_apply _ h2 (ix2 p ci) (ix3 r j ci) ?_).trans (shapeCast_1abc_abc_apply x h1 r j ci)
  rw [Shape.rowMajor_val_three, Shape.rowMajor_val_two]
  show (r.val * W + j.val) * C + ci.val = p.val * C + ci.val
  rw [hp]

/-- A matrix of P = TH·W rows read back as a block of TH rows of W pixels: pixel (r, j) is row r·W + j. -/
theorem rows_out_apply {α : Type} {TH W C P : ℕ} (y : (⟨2, ![P, C]⟩ : Shape).Idx → α)
    (h1 : (⟨2, ![P, C]⟩ : Shape).ShapeCasts ⟨3, ![TH, W, C]⟩)
    (h2 : (⟨3, ![TH, W, C]⟩ : Shape).ShapeCasts ⟨4, ![1, TH, W, C]⟩)
    (u : Fin 1) (r : Fin TH) (j : Fin W) (co : Fin C) (p : Fin P) (hp : p.val = r.val * W + j.val) :
    shapeCast ⟨4, ![1, TH, W, C]⟩ (shapeCast ⟨3, ![TH, W, C]⟩ y h1) h2 (ix4 u r j co) = y (ix2 p co) := by
  refine (shapeCast_abc_1abc_apply _ h2 u r j co).trans (shapeCast_apply y h1 (ix3 r j co) (ix2 p co) ?_)
  rw [Shape.rowMajor_val_three, Shape.rowMajor_val_two]
  show p.val * C + co.val = (r.val * W + j.val) * C + co.val
  rw [hp]

/-- One weight slab read as a matrix. -/
theorem slab_apply {α : Type} {C N : ℕ} (w : (⟨3, ![1, C, N]⟩ : Shape).Idx → α)
    (h : (⟨3, ![1, C, N]⟩ : Shape).ShapeCasts ⟨2, ![C, N]⟩) (ci : Fin C) (co : Fin N) :
    shapeCast ⟨2, ![C, N]⟩ w h (ix2 ci co) = w (ix3 (0 : Fin 1) ci co) :=
  shapeCast_1ab_ab_apply w h ci co

/-- One tap of the convolution at output pixel (r, j) and output channel co: Σ_ci l (0, r, j, ci) · w (0, ci, co). -/
def tap {TH W C N : ℕ} (l : (⟨4, ![1, TH, W, C]⟩ : Shape).Idx → EReal) (w : (⟨3, ![1, C, N]⟩ : Shape).Idx → EReal)
    (r : Fin TH) (j : Fin W) (co : Fin N) : EReal :=
  ∑ ci : Fin C, l (ix4 (0 : Fin 1) r j ci) * w (ix3 (0 : Fin 1) ci co)

/-- The product of a block of TH rows of W pixels, read as a matrix of P = TH·W rows, with one weight slab, read as a
    matrix, at row r·W + j and column co: the accumulator there plus the tap. -/
theorem tap_matmul {TH W C N P : ℕ} (d : DotDims ⟨2, ![P, C]⟩ ⟨2, ![C, N]⟩ ⟨2, ![P, N]⟩) (hd : d = DotDims.plain P C N)
    (prec : Option ContractPrecision)
    (l : FVec Ideal ⟨4, ![1, TH, W, C]⟩ .f32) (w : FVec Ideal ⟨3, ![1, C, N]⟩ .f32)
    (h1 : (⟨4, ![1, TH, W, C]⟩ : Shape).ShapeCasts ⟨3, ![TH, W, C]⟩)
    (h2 : (⟨3, ![TH, W, C]⟩ : Shape).ShapeCasts ⟨2, ![P, C]⟩)
    (h3 : (⟨3, ![1, C, N]⟩ : Shape).ShapeCasts ⟨2, ![C, N]⟩)
    (acc : FVec Ideal ⟨2, ![P, N]⟩ .f32) (r : Fin TH) (j : Fin W) (co : Fin N) (p : Fin P) (hp : p.val = r.val * W + j.val) :
    FloatOps.matmul d prec (shapeCast ⟨2, ![P, C]⟩ (shapeCast ⟨3, ![TH, W, C]⟩ l h1) h2) (shapeCast ⟨2, ![C, N]⟩ w h3) acc (ix2 p co)
      = acc (ix2 p co) + tap l w r j co := by
  subst hd
  rw [matmul_plain_apply]
  unfold tap
  congr 1
  refine Finset.sum_congr rfl fun ci _ => ?_
  rw [rows_in_apply l h1 h2 r j ci p hp, slab_apply w h3 ci co]

/-- The f32 zero pattern is the extended real zero. -/
theorem ofBits_zero : (FloatOps.ofBits (F := Ideal) FTy.f32 0x00000000#32) = (0 : EReal) := Ideal.ofBits_zero_f32

/-- The same product into the zero splat: the tap alone. -/
theorem tap_matmul_zero {TH W C N P : ℕ} (d : DotDims ⟨2, ![P, C]⟩ ⟨2, ![C, N]⟩ ⟨2, ![P, N]⟩) (hd : d = DotDims.plain P C N)
    (prec : Option ContractPrecision)
    (l : FVec Ideal ⟨4, ![1, TH, W, C]⟩ .f32) (w : FVec Ideal ⟨3, ![1, C, N]⟩ .f32)
    (h1 : (⟨4, ![1, TH, W, C]⟩ : Shape).ShapeCasts ⟨3, ![TH, W, C]⟩)
    (h2 : (⟨3, ![TH, W, C]⟩ : Shape).ShapeCasts ⟨2, ![P, C]⟩)
    (h3 : (⟨3, ![1, C, N]⟩ : Shape).ShapeCasts ⟨2, ![C, N]⟩)
    (r : Fin TH) (j : Fin W) (co : Fin N) (p : Fin P) (hp : p.val = r.val * W + j.val) :
    FloatOps.matmul d prec (shapeCast ⟨2, ![P, C]⟩ (shapeCast ⟨3, ![TH, W, C]⟩ l h1) h2) (shapeCast ⟨2, ![C, N]⟩ w h3)
        (constant ⟨2, ![P, N]⟩ .f32 0x00000000#32) (ix2 p co)
      = tap l w r j co := by
  rw [tap_matmul d hd prec l w h1 h2 h3 _ r j co p hp]
  show Ideal.ofBits .f32 0x00000000#32 + _ = _
  rw [Ideal.ofBits_zero_f32, zero_add]

/-- The nine taps added in order from zero are the sum over the taps. -/
theorem chain9 {M : Type*} [AddCommMonoid M] (f : ℕ → M) :
    0 + f 0 + f 1 + f 2 + f 3 + f 4 + f 5 + f 6 + f 7 + f 8 = ∑ k ∈ Finset.range 9, f k := by
  simp only [Finset.sum_range_succ, Finset.sum_range_zero]

/-- A sum over `Fin n` of a function of the coordinate's value is the sum over the range. -/
theorem sum_fin_eq_range {M : Type*} [AddCommMonoid M] (n : ℕ) (f : ℕ → M) :
    ∑ q : Fin n, f q.val = ∑ q ∈ Finset.range n, f q :=
  (Finset.sum_range f).symm

/-- A load through a unit-stride rectangle of a rank-4 source, at an index: the source, as a total function, at the
    coordinates shifted by the rectangle's offsets. -/
theorem ld_arr4 {n0 n1 n2 n3 : ℕ} (X : Vec Ideal ⟨4, ![n0, n1, n2, n3]⟩ .f32) (off size : Fin 4 → ℕ)
    (inb : ∀ a, off a + size a ≤ (⟨4, ![n0, n1, n2, n3]⟩ : Shape).size a)
    (y : (Rect.unit (s := ⟨4, ![n0, n1, n2, n3]⟩) off size inb).shape.Idx) :
    View.ld (Val := Elt Ideal) (e' := EltTy.f32) X (Rect.unit off size inb) y
      = arr4 X (off 0 + (y 0).val) (off 1 + (y 1).val) (off 2 + (y 2).val) (off 3 + (y 3).val) := by
  have hlt : ∀ a : Fin 4, off a + (y a).val < (⟨4, ![n0, n1, n2, n3]⟩ : Shape).size a := fun a => by
    have h1 := inb a
    have h2 : (y a).val < size a := (y a).isLt
    omega
  have hc : off 0 + (y 0).val < n0 ∧ off 1 + (y 1).val < n1 ∧ off 2 + (y 2).val < n2 ∧ off 3 + (y 3).val < n3 :=
    ⟨hlt 0, hlt 1, hlt 2, hlt 3⟩
  unfold arr4
  rw [dif_pos hc]
  show X _ = X _
  congr 1
  funext a
  apply Fin.ext
  match a with
  | ⟨0, _⟩ => show off 0 + 1 * (y 0).val = off 0 + (y 0).val; omega
  | ⟨1, _⟩ => show off 1 + 1 * (y 1).val = off 1 + (y 1).val; omega
  | ⟨2, _⟩ => show off 2 + 1 * (y 2).val = off 2 + (y 2).val; omega
  | ⟨3, _⟩ => show off 3 + 1 * (y 3).val = off 3 + (y 3).val; omega

/-- The same for a rank-3 source. -/
theorem ld_arr3 {n0 n1 n2 : ℕ} (X : Vec Ideal ⟨3, ![n0, n1, n2]⟩ .f32) (off size : Fin 3 → ℕ)
    (inb : ∀ a, off a + size a ≤ (⟨3, ![n0, n1, n2]⟩ : Shape).size a)
    (y : (Rect.unit (s := ⟨3, ![n0, n1, n2]⟩) off size inb).shape.Idx) :
    View.ld (Val := Elt Ideal) (e' := EltTy.f32) X (Rect.unit off size inb) y = arr3 X (off 0 + (y 0).val) (off 1 + (y 1).val) (off 2 + (y 2).val) := by
  have hlt : ∀ a : Fin 3, off a + (y a).val < (⟨3, ![n0, n1, n2]⟩ : Shape).size a := fun a => by
    have h1 := inb a
    have h2 : (y a).val < size a := (y a).isLt
    omega
  have hc : off 0 + (y 0).val < n0 ∧ off 1 + (y 1).val < n1 ∧ off 2 + (y 2).val < n2 := ⟨hlt 0, hlt 1, hlt 2⟩
  unfold arr3
  rw [dif_pos hc]
  show X _ = X _
  congr 1
  funext a
  apply Fin.ext
  match a with
  | ⟨0, _⟩ => show off 0 + 1 * (y 0).val = off 0 + (y 0).val; omega
  | ⟨1, _⟩ => show off 1 + 1 * (y 1).val = off 1 + (y 1).val; omega
  | ⟨2, _⟩ => show off 2 + 1 * (y 2).val = off 2 + (y 2).val; omega

/-- One tap over a loaded block of the padded image (rows from R, columns from Cc) and a loaded weight slab k: the sum
    over the input channels of image · weight, both as total functions. -/
theorem tap_ld {n1 n2 C K N TH W : ℕ} (x0 : Vec Ideal ⟨4, ![1, n1, n2, C]⟩ .f32) (x1 : Vec Ideal ⟨3, ![K, C, N]⟩ .f32)
    (off0 : Fin 4 → ℕ) (inb0 : ∀ a, off0 a + (![1, TH, W, C] : Fin 4 → ℕ) a ≤ (⟨4, ![1, n1, n2, C]⟩ : Shape).size a)
    (off1 : Fin 3 → ℕ) (inb1 : ∀ a, off1 a + (![1, C, N] : Fin 3 → ℕ) a ≤ (⟨3, ![K, C, N]⟩ : Shape).size a)
    (r : Fin TH) (j : Fin W) (co : Fin N) (R Cc k : ℕ)
    (h00 : off0 0 = 0) (h01 : off0 1 = R) (h02 : off0 2 = Cc) (h03 : off0 3 = 0)
    (h10 : off1 0 = k) (h11 : off1 1 = 0) (h12 : off1 2 = 0) :
    tap (View.ld (Val := Elt Ideal) (e' := EltTy.f32) x0 (Rect.unit off0 ![1, TH, W, C] inb0))
        (View.ld (Val := Elt Ideal) (e' := EltTy.f32) x1 (Rect.unit off1 ![1, C, N] inb1)) r j co
      = ∑ ci ∈ Finset.range C, arr4 x0 0 (R + r.val) (Cc + j.val) ci * arr3 x1 k ci co.val := by
  unfold tap
  rw [← sum_fin_eq_range C (fun ci => arr4 x0 0 (R + r.val) (Cc + j.val) ci * arr3 x1 k ci co.val)]
  refine Finset.sum_congr rfl fun ci _ => ?_
  rw [ld_arr4, ld_arr3]
  show arr4 x0 (off0 0 + 0) (off0 1 + r.val) (off0 2 + j.val) (off0 3 + ci.val)
      * arr3 x1 (off1 0 + 0) (off1 1 + ci.val) (off1 2 + co.val) = _
  rw [h00, h01, h02, h03, h10, h11, h12]
  simp only [Nat.zero_add, Nat.add_zero]

/-- The zero offsets of a rank-4 and of a rank-2 whole-block access, however spelt. -/
theorem hz4 : (![0, 0, 0, 0] : Fin 4 → Nat) = fun _ => 0 := funext fun a => by fin_cases a <;> rfl
theorem hz2 : (![0, 0] : Fin 2 → Nat) = fun _ => 0 := funext fun a => by fin_cases a <;> rfl

/-- A grid coordinate, as a 32-bit word, is itself. -/
theorem toNat_coord {n : ℕ} (x : Fin n) (h : n ≤ 2 ^ 32) : (BitVec.ofNat 32 x.val).toNat = x.val := by
  rw [BitVec.toNat_ofNat]; exact Nat.mod_eq_of_lt (lt_of_lt_of_le x.isLt h)

end Cert.Spec

end
-- ==== Proof.RConv0Pay.lean ====
/-
  Reference region 0: the body's payload read at an index, over the extended reals. The body adds nine products — the
  image rows at row offset dy and column offset dx, as a matrix of 224 rows of 3 channels, times weight slab 3·dy + dx —
  in order from zero, adds the bias row and takes the maximum with zero; so at pixel (r, j) and output channel co the
  payload is the nine taps summed, plus the bias, against zero.
-/
import proofs.«100114_g2000204297211070_pallasbulk_1265_19_alg».proof.Proof.Gen.ReferenceIdeal.Skeleton
import proofs.«100114_g2000204297211070_pallasbulk_1265_19_alg».proof.Proof.ConvAlg

noncomputable section

namespace Cert.ReferenceIdeal.Val

open Cert.ReferenceIdeal Cert.ReferenceIdeal.Gen
open Idealize.ShloMosaic Idealize.ShloMosaic.ValueIdx
open Cert.Spec

theorem dot0_plain : dot_S224x3_S3x64_S224x64_1_0_0_1_n_n = DotDims.plain 224 3 64 := rfl

/-- The first three taps, added in order from zero, at row r·224 + j of the accumulator. -/
theorem pay0_1_apply (v5 : Vec Ideal S1x1x224x3 .f32) (v8 : Vec Ideal S1x3x64 .f32) (v14 : Vec Ideal S1x1x224x3 .f32) (v17 : Vec Ideal S1x3x64 .f32) (v23 : Vec Ideal S1x1x224x3 .f32) (v26 : Vec Ideal S1x3x64 .f32)
    (r : Fin 1) (j : Fin 224) (co : Fin 64) (p : Fin 224) (hp : p.val = r.val * 224 + j.val) :
    k0_pay1 v5 v8 v14 v17 v23 v26 (ix2 p co) = 0 + tap v5 v8 r j co + tap v14 v17 r j co + tap v23 v26 r j co := by
  unfold k0_pay1
  simp only [matmul, addf_apply, broadcast_apply]
  rw [tap_matmul_zero _ dot0_plain none v5 v8 _ _ _ r j co p hp, tap_matmul_zero _ dot0_plain none v14 v17 _ _ _ r j co p hp,
    tap_matmul_zero _ dot0_plain none v23 v26 _ _ _ r j co p hp, ofBits_zero]

/-- The next three taps added onto the accumulator. -/
theorem pay0_2_apply (v29 : FVec Ideal S224x64 .f32) (v32 : Vec Ideal S1x1x224x3 .f32) (v35 : Vec Ideal S1x3x64 .f32) (v41 : Vec Ideal S1x1x224x3 .f32) (v44 : Vec Ideal S1x3x64 .f32) (v50 : Vec Ideal S1x1x224x3 .f32) (v53 : Vec Ideal S1x3x64 .f32)
    (r : Fin 1) (j : Fin 224) (co : Fin 64) (p : Fin 224) (hp : p.val = r.val * 224 + j.val) :
    k0_pay2 v29 v32 v35 v41 v44 v50 v53 (ix2 p co) = v29 (ix2 p co) + tap v32 v35 r j co + tap v41 v44 r j co + tap v50 v53 r j co := by
  unfold k0_pay2
  simp only [matmul, addf_apply]
  rw [tap_matmul_zero _ dot0_plain none v32 v35 _ _ _ r j co p hp, tap_matmul_zero _ dot0_plain none v41 v44 _ _ _ r j co p hp,
    tap_matmul_zero _ dot0_plain none v50 v53 _ _ _ r j co p hp]

/-- The last three taps added onto the accumulator, then the bias, then the maximum with zero, read back as a block. -/
theorem pay0_4_apply (v56 : FVec Ideal S224x64 .f32) (v59 : Vec Ideal S1x1x224x3 .f32) (v62 : Vec Ideal S1x3x64 .f32) (v68 : Vec Ideal S1x1x224x3 .f32) (v71 : Vec Ideal S1x3x64 .f32) (v77 : Vec Ideal S1x1x224x3 .f32) (v80 : Vec Ideal S1x3x64 .f32) (v84 : Vec Ideal S1x64 .f32)
    (u : Fin 1) (r : Fin 1) (j : Fin 224) (co : Fin 64) (p : Fin 224) (hp : p.val = r.val * 224 + j.val) :
    k0_pay4 v56 (k0_pay3 v59) v62 v68 v71 v77 v80 v84 (ix4 u r j co)
      = max (v56 (ix2 p co) + tap v59 v62 r j co + tap v68 v71 r j co + tap v77 v80 r j co + v84 (ix2 (0 : Fin 1) co)) 0 := by
  unfold k0_pay4 k0_pay3
  rw [rows_out_apply _ _ _ u r j co p hp]
  simp only [matmul, addf_apply, maximumf_apply, broadcast_apply]
  rw [tap_matmul_zero _ dot0_plain none v59 v62 _ _ _ r j co p hp, tap_matmul_zero _ dot0_plain none v68 v71 _ _ _ r j co p hp,
    tap_matmul_zero _ dot0_plain none v77 v80 _ _ _ r j co p hp, broadcastTo_1b_ab_apply, ofBits_zero]

/-- The whole payload at pixel (r, j), output channel co: the nine taps summed, plus the bias, against zero. -/
theorem pay0_apply (v5 : Vec Ideal S1x1x224x3 .f32) (v8 : Vec Ideal S1x3x64 .f32) (v14 : Vec Ideal S1x1x224x3 .f32) (v17 : Vec Ideal S1x3x64 .f32) (v23 : Vec Ideal S1x1x224x3 .f32) (v26 : Vec Ideal S1x3x64 .f32)
    (v32 : Vec Ideal S1x1x224x3 .f32) (v35 : Vec Ideal S1x3x64 .f32) (v41 : Vec Ideal S1x1x224x3 .f32) (v44 : Vec Ideal S1x3x64 .f32) (v50 : Vec Ideal S1x1x224x3 .f32) (v53 : Vec Ideal S1x3x64 .f32)
    (v59 : Vec Ideal S1x1x224x3 .f32) (v62 : Vec Ideal S1x3x64 .f32) (v68 : Vec Ideal S1x1x224x3 .f32) (v71 : Vec Ideal S1x3x64 .f32) (v77 : Vec Ideal S1x1x224x3 .f32) (v80 : Vec Ideal S1x3x64 .f32) (v84 : Vec Ideal S1x64 .f32)
    (u : Fin 1) (r : Fin 1) (j : Fin 224) (co : Fin 64) :
    k0_pay4 (k0_pay2 (k0_pay1 v5 v8 v14 v17 v23 v26) v32 v35 v41 v44 v50 v53) (k0_pay3 v59) v62 v68 v71 v77 v80 v84 (ix4 u r j co)
      = max (0 + tap v5 v8 r j co + tap v14 v17 r j co + tap v23 v26 r j co + tap v32 v35 r j co + tap v41 v44 r j co + tap v50 v53 r j co
          + tap v59 v62 r j co + tap v68 v71 r j co + tap v77 v80 r j co + v84 (ix2 (0 : Fin 1) co)) 0 := by
  have hlt : r.val * 224 + j.val < 224 := by have := r.isLt; have := j.isLt; omega
  rw [pay0_4_apply _ v59 v62 v68 v71 v77 v80 v84 u r j co ⟨r.val * 224 + j.val, hlt⟩ rfl,
    pay0_2_apply _ v32 v35 v41 v44 v50 v53 r j co ⟨r.val * 224 + j.val, hlt⟩ rfl,
    pay0_1_apply v5 v8 v14 v17 v23 v26 r j co ⟨r.val * 224 + j.val, hlt⟩ rfl]

end Cert.ReferenceIdeal.Val

end
-- ==== Proof.RConv0Blk.lean ====
/-
  Reference region 0: what the body leaves in the output's staging buffer, as a function of the three input blocks.
  The body loads nine windows of the image block (rows from (i 2).val + dy, columns from dx), the nine weight slabs and
  the bias block, and stores one value over the whole output block: the payload of those loads.
-/
import proofs.«100114_g2000204297211070_pallasbulk_1265_19_alg».proof.Proof.Gen.ReferenceIdeal.Frame
import proofs.«100114_g2000204297211070_pallasbulk_1265_19_alg».proof.Proof.ConvAlg
import Idealize.ShloMosaic.Lib.Pipeline.Value
import Idealize.ShloMosaic.Lib.Tactic

set_option maxRecDepth 16384

noncomputable section

namespace Cert.ReferenceIdeal.Val

open Cert.ReferenceIdeal Cert.ReferenceIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Spec

variable {F : FTy → Type} [FloatOps F]

/-- The body's one store, as a function of the three input blocks: the payload of the nine loaded image rows (row
    offset dy = 0, 1, 2, column offset dx = 0, 1, 2), the nine loaded weight slabs and the bias block. -/
def conv0_pay (i : grid0.Coords) (x0 : Vec F S1x226x226x3 .f32) (x1 : Vec F S9x3x64 .f32) (x2 : Vec F S1x64 .f32) : Vec F S1x1x224x64 .f32 :=
  k0_pay4
    (k0_pay2
      (k0_pay1
        (View.ld x0 (Rect.unit (s := S1x226x226x3) (k0_off1 i 0#32) S1x1x224x3.size (k0_off1_inb i 0)))
        (View.ld x1 (Rect.unit (s := S9x3x64) ![0, 0, 0] S1x3x64.size inb_S9x3x64_S1x3x64_0_0_0))
        (View.ld x0 (Rect.unit (s := S1x226x226x3) (k0_off2 i 0#32) S1x1x224x3.size (k0_off2_inb i 0)))
        (View.ld x1 (Rect.unit (s := S9x3x64) ![1, 0, 0] S1x3x64.size inb_S9x3x64_S1x3x64_1_0_0))
        (View.ld x0 (Rect.unit (s := S1x226x226x3) (k0_off3 i 0#32) S1x1x224x3.size (k0_off3_inb i 0)))
        (View.ld x1 (Rect.unit (s := S9x3x64) ![2, 0, 0] S1x3x64.size inb_S9x3x64_S1x3x64_2_0_0)))
      (View.ld x0 (Rect.unit (s := S1x226x226x3) (k0_off1 i 1#32) S1x1x224x3.size (k0_off1_inb i 1)))
      (View.ld x1 (Rect.unit (s := S9x3x64) ![3, 0, 0] S1x3x64.size inb_S9x3x64_S1x3x64_3_0_0))
      (View.ld x0 (Rect.unit (s := S1x226x226x3) (k0_off2 i 1#32) S1x1x224x3.size (k0_off2_inb i 1)))
      (View.ld x1 (Rect.unit (s := S9x3x64) ![4, 0, 0] S1x3x64.size inb_S9x3x64_S1x3x64_4_0_0))
      (View.ld x0 (Rect.unit (s := S1x226x226x3) (k0_off3 i 1#32) S1x1x224x3.size (k0_off3_inb i 1)))
      (View.ld x1 (Rect.unit (s := S9x3x64) ![5, 0, 0] S1x3x64.size inb_S9x3x64_S1x3x64_5_0_0)))
    (k0_pay3 (View.ld x0 (Rect.unit (s := S1x226x226x3) (k0_off1 i 2#32) S1x1x224x3.size (k0_off1_inb i 2))))
    (View.ld x1 (Rect.unit (s := S9x3x64) ![6, 0, 0] S1x3x64.size inb_S9x3x64_S1x3x64_6_0_0))
    (View.ld x0 (Rect.unit (s := S1x226x226x3) (k0_off2 i 2#32) S1x1x224x3.size (k0_off2_inb i 2)))
    (View.ld x1 (Rect.unit (s := S9x3x64) ![7, 0, 0] S1x3x64.size inb_S9x3x64_S1x3x64_7_0_0))
    (View.ld x0 (Rect.unit (s := S1x226x226x3) (k0_off3 i 2#32) S1x1x224x3.size (k0_off3_inb i 2)))
    (View.ld x1 (Rect.unit (s := S9x3x64) ![8, 0, 0] S1x3x64.size inb_S9x3x64_S1x3x64_8_0_0))
    x2

set_option maxHeartbeats 1000000 in
/-- What the run leaves in the output's staging buffer is that payload of the input blocks. -/
theorem out0_eq (c : Dev nD) (i : grid0.Coords) (arg3 : Memref sig .tc .vmem S1x226x226x3 .f32) (harg3 : arg3.IsWhole) (arg4 : Memref sig .tc .vmem S9x3x64 .f32) (harg4 : arg4.IsWhole) (arg5 : Memref sig .tc .vmem S1x64 .f32) (harg5 : arg5.IsWhole) (arg6 : Memref sig .tc .vmem S1x1x224x64 .f32) (harg6 : arg6.IsWhole)
    (x0 : Vec F S1x226x226x3 .f32) (x1 : Vec F S9x3x64 .f32) (x2 : Vec F S1x64 .f32) :
    out0_A_3 c i arg3 harg3 arg4 harg4 arg5 harg5 arg6 harg6 x0 x1 x2 = conv0_pay i x0 x1 x2 := by
  unfold out0_A_3 conv0_pay
  rw [View.read_writes_eq_canon _ _ _ (cover0_A_3 c i arg3 harg3 arg4 harg4 arg5 harg5 arg6 harg6 x0 x1 x2)]
  unfold kernelRun0_A
  dsimp only
  sl_unfold_words
  rw [View.canon_unit_zero hz4]
  simp only [View.readAt_eq_ld, harg3.read_unread, harg4.read_unread, harg5.read_unread, View.ld_unit_zero (S := S1x64) hz2]

end Cert.ReferenceIdeal.Val

end
-- ==== Proof.RConv0.lean ====
/-
  Reference region 0: THE VALUE of its output array after the region, over the extended reals. Point (b, ct, r) of the
  grid works on batch b, output-channel tile ct and row chunk r: its image block is batch b of the padded input, its
  weights' and bias's blocks are tile ct, and its output block is rows 1·r … of batch b, channels of tile ct. What
  the body leaves there is the convolution's value (nine taps, bias, maximum with zero); every point writes its block
  back and the blocks cover the array; so the array, as a total function, is the 3×3 convolution with bias and ReLU of
  the region's padded input against its weights.
-/
import proofs.«100114_g2000204297211070_pallasbulk_1265_19_alg».proof.Proof.RConv0Pay
import proofs.«100114_g2000204297211070_pallasbulk_1265_19_alg».proof.Proof.RConv0Blk

set_option maxRecDepth 16384

noncomputable section

namespace Cert.ReferenceIdeal.Val

open Cert.ReferenceIdeal Cert.ReferenceIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Spec

variable (V : (c : Dev nD) → (b : Ref sig .tc) → Buf (Elt Ideal) ((c : Thread nD τ).loc b))

/-- The region's three input arrays and its blocks at a point, at their literal types. -/
abbrev X0 (c : Dev nD) : Vec Ideal S8x226x226x3 .f32 := V c (Pipeline.arrRef spec0 0)
abbrev W0 (c : Dev nD) : Vec Ideal S9x3x64 .f32 := V c (Pipeline.arrRef spec0 1)
abbrev B0 (c : Dev nD) : Vec Ideal S1x64 .f32 := V c (Pipeline.arrRef spec0 2)
abbrev xb0 (c : Dev nD) (t : Fin cfg0.N) : Vec Ideal S1x226x226x3 .f32 := iblk0 V c 0 t
abbrev wb0 (c : Dev nD) (t : Fin cfg0.N) : Vec Ideal S9x3x64 .f32 := iblk0 V c 1 t
abbrev bb0 (c : Dev nD) (t : Fin cfg0.N) : Vec Ideal S1x64 .f32 := iblk0 V c 2 t

/-- The four index maps at a point (b, ct, r): the image block is batch b; the weights' and the bias's block is output
    channel tile ct; the output block is row chunk r of batch b, channel tile ct. -/
theorem idx0_0 (t : Fin cfg0.N) : win0_0.index t = ![(grid0.coords t 0).val, 0, 0, 0] := by
  funext a
  show cc0_transform_0 (grid0.coords t) a = _
  match a with
  | ⟨0, _⟩ => exact toNat_coord (grid0.coords t 0) (by decide)
  | ⟨1, _⟩ => rfl
  | ⟨2, _⟩ => rfl
  | ⟨3, _⟩ => rfl
theorem idx0_1 (t : Fin cfg0.N) : win0_1.index t = ![0, 0, (grid0.coords t 1).val] := by
  funext a
  show cc0_transform_1 (grid0.coords t) a = _
  match a with
  | ⟨0, _⟩ => rfl
  | ⟨1, _⟩ => rfl
  | ⟨2, _⟩ => exact toNat_coord (grid0.coords t 1) (by decide)
theorem idx0_2 (t : Fin cfg0.N) : win0_2.index t = ![0, (grid0.coords t 1).val] := by
  funext a
  show cc0_transform_2 (grid0.coords t) a = _
  match a with
  | ⟨0, _⟩ => rfl
  | ⟨1, _⟩ => exact toNat_coord (grid0.coords t 1) (by decide)
theorem idx0_3 (t : Fin cfg0.N) : win0_3.index t = ![(grid0.coords t 0).val, (grid0.coords t 2).val, 0, (grid0.coords t 1).val] := by
  funext a
  show cc0_transform_3 (grid0.coords t) a = _
  match a with
  | ⟨0, _⟩ => exact toNat_coord (grid0.coords t 0) (by decide)
  | ⟨1, _⟩ => exact toNat_coord (grid0.coords t 2) (by decide)
  | ⟨2, _⟩ => rfl
  | ⟨3, _⟩ => exact toNat_coord (grid0.coords t 1) (by decide)

/-- The image block at a point is the point's batch of the padded image. -/
theorem xb0_apply (c : Dev nD) (t : Fin cfg0.N) (y0 : Fin 1) (I : Fin 226) (J : Fin 226) (ci : Fin 3) :
    xb0 V c t (ix4 y0 I J ci) = X0 V c (ix4 ⟨(grid0.coords t 0).val, (grid0.coords t 0).isLt⟩ I J ci) := by
  unfold xb0 iblk0
  rw [View.read_apply]
  show V c (Pipeline.arrRef spec0 0) _ = V c (Pipeline.arrRef spec0 0) _
  congr 1
  funext a
  apply Fin.ext
  have hi := idx0_0 t
  have h0 := y0.isLt
  match a with
  | ⟨0, _⟩ => show win0_0.index t 0 * 1 + 1 * y0.val = (grid0.coords t 0).val; rw [hi]; show (grid0.coords t 0).val * 1 + 1 * y0.val = _; omega
  | ⟨1, _⟩ => show win0_0.index t 1 * 226 + 1 * I.val = I.val; rw [hi]; show 0 * 226 + 1 * I.val = _; omega
  | ⟨2, _⟩ => show win0_0.index t 2 * 226 + 1 * J.val = J.val; rw [hi]; show 0 * 226 + 1 * J.val = _; omega
  | ⟨3, _⟩ => show win0_0.index t 3 * 3 + 1 * ci.val = ci.val; rw [hi]; show 0 * 3 + 1 * ci.val = _; omega

/-- The weights' block at a point is the point's tile of output channels of the weights. -/
theorem wb0_apply (c : Dev nD) (t : Fin cfg0.N) (k : Fin 9) (ci : Fin 3) (co : Fin 64) :
    wb0 V c t (ix3 k ci co) = W0 V c (ix3 k ci ⟨(grid0.coords t 1).val * 64 + co.val, by
      have h1 : (grid0.coords t 1).val < 1 := (grid0.coords t 1).isLt
      have := co.isLt; omega⟩) := by
  unfold wb0 iblk0
  rw [View.read_apply]
  show V c (Pipeline.arrRef spec0 1) _ = V c (Pipeline.arrRef spec0 1) _
  congr 1
  funext a
  apply Fin.ext
  have hi := idx0_1 t
  match a with
  | ⟨0, _⟩ => show win0_1.index t 0 * 9 + 1 * k.val = k.val; rw [hi]; show 0 * 9 + 1 * k.val = _; omega
  | ⟨1, _⟩ => show win0_1.index t 1 * 3 + 1 * ci.val = ci.val; rw [hi]; show 0 * 3 + 1 * ci.val = _; omega
  | ⟨2, _⟩ => show win0_1.index t 2 * 64 + 1 * co.val = (grid0.coords t 1).val * 64 + co.val; rw [hi]; show (grid0.coords t 1).val * 64 + 1 * co.val = _; omega

/-- The bias block at a point is the point's tile of output channels of the bias. -/
theorem bb0_apply (c : Dev nD) (t : Fin cfg0.N) (u : Fin 1) (co : Fin 64) :
    bb0 V c t (ix2 u co) = B0 V c (ix2 (0 : Fin 1) ⟨(grid0.coords t 1).val * 64 + co.val, by
      have h1 : (grid0.coords t 1).val < 1 := (grid0.coords t 1).isLt
      have := co.isLt; omega⟩) := by
  unfold bb0 iblk0
  rw [View.read_apply]
  show V c (Pipeline.arrRef spec0 2) _ = V c (Pipeline.arrRef spec0 2) _
  congr 1
  funext a
  apply Fin.ext
  have hi := idx0_2 t
  have h0 := u.isLt
  match a with
  | ⟨0, _⟩ => show win0_2.index t 0 * 1 + 1 * u.val = 0; rw [hi]; show 0 * 1 + 1 * u.val = _; omega
  | ⟨1, _⟩ => show win0_2.index t 1 * 64 + 1 * co.val = (grid0.coords t 1).val * 64 + co.val; rw [hi]; show (grid0.coords t 1).val * 64 + 1 * co.val = _; omega

/-- The same three facts over total functions of natural coordinates. -/
theorem arr4_xb0 (c : Dev nD) (t : Fin cfg0.N) (I J ci : ℕ) :
    arr4 (xb0 V c t) 0 I J ci = arr4 (X0 V c) (grid0.coords t 0).val I J ci := by
  unfold arr4
  by_cases h : I < 226 ∧ J < 226 ∧ ci < 3
  · have hl : 0 < 1 ∧ I < 226 ∧ J < 226 ∧ ci < 3 := ⟨by decide, h⟩
    have hr : (grid0.coords t 0).val < 8 ∧ I < 226 ∧ J < 226 ∧ ci < 3 := ⟨(grid0.coords t 0).isLt, h⟩
    rw [dif_pos hl, dif_pos hr]
    exact xb0_apply V c t _ _ _ _
  · have hl : ¬(0 < 1 ∧ I < 226 ∧ J < 226 ∧ ci < 3) := fun h' => h h'.2
    have hr : ¬((grid0.coords t 0).val < 8 ∧ I < 226 ∧ J < 226 ∧ ci < 3) := fun h' => h h'.2
    rw [dif_neg hl, dif_neg hr]

theorem arr3_wb0 (c : Dev nD) (t : Fin cfg0.N) (k ci co : ℕ) (hco : co < 64) :
    arr3 (wb0 V c t) k ci co = arr3 (W0 V c) k ci ((grid0.coords t 1).val * 64 + co) := by
  have h1 : (grid0.coords t 1).val < 1 := (grid0.coords t 1).isLt
  unfold arr3
  by_cases h : k < 9 ∧ ci < 3
  · have hl : k < 9 ∧ ci < 3 ∧ co < 64 := ⟨h.1, h.2, hco⟩
    have hr : k < 9 ∧ ci < 3 ∧ (grid0.coords t 1).val * 64 + co < 64 := ⟨h.1, h.2, by omega⟩
    rw [dif_pos hl, dif_pos hr]
    exact wb0_apply V c t ⟨k, h.1⟩ ⟨ci, h.2⟩ ⟨co, hco⟩
  · have hl : ¬(k < 9 ∧ ci < 3 ∧ co < 64) := fun h' => h ⟨h'.1, h'.2.1⟩
    have hr : ¬(k < 9 ∧ ci < 3 ∧ (grid0.coords t 1).val * 64 + co < 64) := fun h' => h ⟨h'.1, h'.2.1⟩
    rw [dif_neg hl, dif_neg hr]

theorem arr2_bb0 (c : Dev nD) (t : Fin cfg0.N) (u : Fin 1) (co : Fin 64) :
    bb0 V c t (ix2 u co) = arr2 (B0 V c) 0 ((grid0.coords t 1).val * 64 + co.val) := by
  have h1 : (grid0.coords t 1).val < 1 := (grid0.coords t 1).isLt
  have h2 := co.isLt
  have hc : 0 < 1 ∧ (grid0.coords t 1).val * 64 + co.val < 64 := ⟨by decide, by omega⟩
  rw [bb0_apply]
  unfold arr2
  rw [dif_pos hc]
  rfl

/-- One tap of the body at a point, for each of the three column offsets: the load at rows from `(i 2).val + dy`, columns
    from dx, against weight slab k. -/
theorem tap0_1 (i : grid0.Coords) (x0 : Vec Ideal S1x226x226x3 .f32) (x1 : Vec Ideal S9x3x64 .f32) (dy : Fin 3) (k : ℕ)
    (inbw : ∀ a, (![k, 0, 0] : Fin 3 → ℕ) a + S1x3x64.size a ≤ S9x3x64.size a) (r : Fin 1) (j : Fin 224) (co : Fin 64) :
    tap (View.ld x0 (Rect.unit (s := S1x226x226x3) (k0_off1 i (BitVec.ofNat 32 dy.val)) S1x1x224x3.size (k0_off1_inb i dy)))
        (View.ld x1 (Rect.unit (s := S9x3x64) ![k, 0, 0] S1x3x64.size inbw)) r j co
      = ∑ ci ∈ Finset.range 3, arr4 x0 0 ((i 2).val + dy.val + r.val) (0 + j.val) ci * arr3 x1 k ci co.val :=
  tap_ld x0 x1 _ _ _ _ r j co _ _ k (congrFun (k0_off1_eq i dy) 0) (congrFun (k0_off1_eq i dy) 1) (congrFun (k0_off1_eq i dy) 2)
    (congrFun (k0_off1_eq i dy) 3) rfl rfl rfl
theorem tap0_2 (i : grid0.Coords) (x0 : Vec Ideal S1x226x226x3 .f32) (x1 : Vec Ideal S9x3x64 .f32) (dy : Fin 3) (k : ℕ)
    (inbw : ∀ a, (![k, 0, 0] : Fin 3 → ℕ) a + S1x3x64.size a ≤ S9x3x64.size a) (r : Fin 1) (j : Fin 224) (co : Fin 64) :
    tap (View.ld x0 (Rect.unit (s := S1x226x226x3) (k0_off2 i (BitVec.ofNat 32 dy.val)) S1x1x224x3.size (k0_off2_inb i dy)))
        (View.ld x1 (Rect.unit (s := S9x3x64) ![k, 0, 0] S1x3x64.size inbw)) r j co
      = ∑ ci ∈ Finset.range 3, arr4 x0 0 ((i 2).val + dy.val + r.val) (1 + j.val) ci * arr3 x1 k ci co.val :=
  tap_ld x0 x1 _ _ _ _ r j co _ _ k (congrFun (k0_off2_eq i dy) 0) (congrFun (k0_off2_eq i dy) 1) (congrFun (k0_off2_eq i dy) 2)
    (congrFun (k0_off2_eq i dy) 3) rfl rfl rfl
theorem tap0_3 (i : grid0.Coords) (x0 : Vec Ideal S1x226x226x3 .f32) (x1 : Vec Ideal S9x3x64 .f32) (dy : Fin 3) (k : ℕ)
    (inbw : ∀ a, (![k, 0, 0] : Fin 3 → ℕ) a + S1x3x64.size a ≤ S9x3x64.size a) (r : Fin 1) (j : Fin 224) (co : Fin 64) :
    tap (View.ld x0 (Rect.unit (s := S1x226x226x3) (k0_off3 i (BitVec.ofNat 32 dy.val)) S1x1x224x3.size (k0_off3_inb i dy)))
        (View.ld x1 (Rect.unit (s := S9x3x64) ![k, 0, 0] S1x3x64.size inbw)) r j co
      = ∑ ci ∈ Finset.range 3, arr4 x0 0 ((i 2).val + dy.val + r.val) (2 + j.val) ci * arr3 x1 k ci co.val :=
  tap_ld x0 x1 _ _ _ _ r j co _ _ k (congrFun (k0_off3_eq i dy) 0) (congrFun (k0_off3_eq i dy) 1) (congrFun (k0_off3_eq i dy) 2)
    (congrFun (k0_off3_eq i dy) 3) rfl rfl rfl

/-- Tap k of the convolution at output pixel (i, j), channel co, of batch b. -/
abbrev tapf0 (c : Dev nD) (b i j co : ℕ) (k : ℕ) : EReal :=
  ∑ ci ∈ Finset.range 3, arr4 (X0 V c) b (i + k / 3) (j + k % 3) ci * arr3 (W0 V c) k ci co

/-- A tap read off the blocks at a point is the convolution's tap k = 3·dy + dx. -/
theorem tap_blocks0 (c : Dev nD) (t : Fin cfg0.N) (r : Fin 1) (j : Fin 224) (co : Fin 64) (k dy dx : ℕ) (hdy : k / 3 = dy) (hdx : k % 3 = dx) :
    (∑ ci ∈ Finset.range 3, arr4 (xb0 V c t) 0 ((grid0.coords t 2).val + dy + r.val) (dx + j.val) ci * arr3 (wb0 V c t) k ci co.val)
      = tapf0 V c (grid0.coords t 0).val ((grid0.coords t 2).val + r.val) j.val ((grid0.coords t 1).val * 64 + co.val) k := by
  unfold tapf0
  rw [hdy, hdx]
  have hR : (grid0.coords t 2).val + dy + r.val = (grid0.coords t 2).val + r.val + dy := by omega
  have hC : dx + j.val = j.val + dx := by omega
  refine Finset.sum_congr rfl fun ci _ => ?_
  rw [arr4_xb0, arr3_wb0 V c t k ci co.val co.isLt, hR, hC]

/-- THE BLOCK'S VALUE: after the body at a point, the output's staging buffer at pixel (r, j), channel co holds the
    convolution of the padded image at the point's batch, row and channel tile. -/
theorem blk_value0 (c : Dev nD) (t : Fin cfg0.N) (u : Fin 1) (r : Fin 1) (j : Fin 224) (co : Fin 64) :
    outsAt0 (F := Ideal) V c t (ix4 u r j co)
      = conv 3 (arr4 (X0 V c)) (arr3 (W0 V c)) (arr2 (B0 V c)) (grid0.coords t 0).val ((grid0.coords t 2).val + r.val) j.val ((grid0.coords t 1).val * 64 + co.val) := by
  unfold outsAt0
  rw [out0_eq]
  unfold conv0_pay
  rw [pay0_apply]
  have T0 := tap0_1 (grid0.coords t) (xb0 V c t) (wb0 V c t) 0 0 inb_S9x3x64_S1x3x64_0_0_0 r j co
  have T1 := tap0_2 (grid0.coords t) (xb0 V c t) (wb0 V c t) 0 1 inb_S9x3x64_S1x3x64_1_0_0 r j co
  have T2 := tap0_3 (grid0.coords t) (xb0 V c t) (wb0 V c t) 0 2 inb_S9x3x64_S1x3x64_2_0_0 r j co
  have T3 := tap0_1 (grid0.coords t) (xb0 V c t) (wb0 V c t) 1 3 inb_S9x3x64_S1x3x64_3_0_0 r j co
  have T4 := tap0_2 (grid0.coords t) (xb0 V c t) (wb0 V c t) 1 4 inb_S9x3x64_S1x3x64_4_0_0 r j co
  have T5 := tap0_3 (grid0.coords t) (xb0 V c t) (wb0 V c t) 1 5 inb_S9x3x64_S1x3x64_5_0_0 r j co
  have T6 := tap0_1 (grid0.coords t) (xb0 V c t) (wb0 V c t) 2 6 inb_S9x3x64_S1x3x64_6_0_0 r j co
  have T7 := tap0_2 (grid0.coords t) (xb0 V c t) (wb0 V c t) 2 7 inb_S9x3x64_S1x3x64_7_0_0 r j co
  have T8 := tap0_3 (grid0.coords t) (xb0 V c t) (wb0 V c t) 2 8 inb_S9x3x64_S1x3x64_8_0_0 r j co
  refine (congrArg (fun s => max s 0) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) rfl
      (T0.trans (tap_blocks0 V c t r j co 0 0 0 rfl rfl)))
      (T1.trans (tap_blocks0 V c t r j co 1 0 1 rfl rfl)))
      (T2.trans (tap_blocks0 V c t r j co 2 0 2 rfl rfl)))
      (T3.trans (tap_blocks0 V c t r j co 3 1 0 rfl rfl)))
      (T4.trans (tap_blocks0 V c t r j co 4 1 1 rfl rfl)))
      (T5.trans (tap_blocks0 V c t r j co 5 1 2 rfl rfl)))
      (T6.trans (tap_blocks0 V c t r j co 6 2 0 rfl rfl)))
      (T7.trans (tap_blocks0 V c t r j co 7 2 1 rfl rfl)))
      (T8.trans (tap_blocks0 V c t r j co 8 2 2 rfl rfl)))
      (arr2_bb0 V c t 0 co))).trans ?_
  unfold conv
  rw [← chain9 (tapf0 V c (grid0.coords t 0).val ((grid0.coords t 2).val + r.val) j.val ((grid0.coords t 1).val * 64 + co.val))]

/-- The convolution as an array of the output's extents. -/
def G0 (c : Dev nD) : Vec Ideal S8x224x224x64 .f32 := fun idx =>
  conv 3 (arr4 (X0 V c)) (arr3 (W0 V c)) (arr2 (B0 V c)) (idx 0).val (idx 1).val (idx 2).val (idx 3).val

/-- Every write-back writes the convolution's block: the block of point (b, ct, r) is row chunk r of batch b, channel tile ct. -/
theorem flushed_eq0 (c : Dev nD) (t : Fin cfg0.N) (hf : (cfg0.win 3).flush t = true) :
    (dat0 V c).flushed 3 t = ((cfg0.win 3).blk t).view.read (Elt Ideal) (G0 V c) := by
  show (cfg0.win 3).cut (grid0.coords t) ((dat0 V c).after 3 t) = _
  rw [after0_3]
  refine funext fun (y : S1x1x224x64.Idx) => ?_
  rw [View.read_apply]
  show outsAt0 V c t ((cfg0.win 3).xinj (grid0.coords t) y) = G0 V c (((cfg0.win 3).blk t).view.emb y)
  have hy : (cfg0.win 3).xinj (grid0.coords t) y = ix4 (n0 := 1) (n1 := 1) (n2 := 224) (n3 := 64) (y 0) (y 1) (y 2) (y 3) := funext fun (a : Fin 4) => by
    match a with
    | ⟨0, _⟩ => rfl
    | ⟨1, _⟩ => rfl
    | ⟨2, _⟩ => rfl
    | ⟨3, _⟩ => rfl
  rw [hy]
  refine (blk_value0 V c t (y 0) (y 1) (y 2) (y 3)).trans ?_
  unfold G0
  have hi := idx0_3 t
  have h0 : (y 0).val < 1 := (y 0).isLt
  refine congr (congr (congr (congrArg (conv 3 _ _ _) ?_) ?_) ?_) ?_
  · symm; show win0_3.index t 0 * 1 + 1 * (y 0).val = _; rw [hi]; show (grid0.coords t 0).val * 1 + 1 * (y 0).val = _; omega
  · symm; show win0_3.index t 1 * 1 + 1 * (y 1).val = _; rw [hi]; show (grid0.coords t 2).val * 1 + 1 * (y 1).val = _; omega
  · symm; show win0_3.index t 2 * 224 + 1 * (y 2).val = _; rw [hi]; show 0 * 224 + 1 * (y 2).val = _; omega
  · symm; show win0_3.index t 3 * 64 + 1 * (y 3).val = _; rw [hi]; show (grid0.coords t 1).val * 64 + 1 * (y 3).val = _; omega

/-- The blocks cover the output: pixel (b, i, j, co) lies in the block of point (b, co / 64, i / 1). -/
theorem cover0 (c : Dev nD) (idx : S8x224x224x64.Idx) :
    ∃ t : Fin cfg0.N, (cfg0.win 3).flush t = true ∧ idx ∈ ((cfg0.win 3).blk t).view.set := by
  have h0 : (idx 0).val < 8 := (idx 0).isLt
  have h1 : (idx 1).val < 224 := (idx 1).isLt
  have h2 : (idx 2).val < 224 := (idx 2).isLt
  have h3 : (idx 3).val < 64 := (idx 3).isLt
  have hN : cfg0.N = 1792 := N_0
  have hlt : ((idx 0).val * 1 + (idx 3).val / 64) * 224 + (idx 1).val / 1 < cfg0.N := by rw [hN]; omega
  obtain ⟨t, ht⟩ : ∃ t : Fin cfg0.N, t.val = ((idx 0).val * 1 + (idx 3).val / 64) * 224 + (idx 1).val / 1 := ⟨⟨_, hlt⟩, rfl⟩
  refine ⟨t, flush0_3 t, ?_⟩
  have hset : ((cfg0.win 3).blk t).view.set = (win0_3.rect t).set := View.set_slice_whole main_v2 (win0_3.rect t)
  rw [hset, Rect.mem_set_unit]
  have hi := idx0_3 t
  have c0 : (grid0.coords t 0).val = (idx 0).val := by
    show t.val / 224 % 8 = _; rw [ht]; omega
  have c1 : (grid0.coords t 1).val = (idx 3).val / 64 := by
    show t.val / 224 % 1 = _; rw [ht]; omega
  have c2 : (grid0.coords t 2).val = (idx 1).val / 1 := by
    show t.val / 1 % 224 = _; rw [ht]; omega
  intro a
  match a with
  | ⟨0, _⟩ =>
    show win0_3.index t 0 * 1 ≤ (idx 0 : ℕ) ∧ (idx 0 : ℕ) < win0_3.index t 0 * 1 + 1
    rw [hi]; show (grid0.coords t 0).val * 1 ≤ (idx 0 : ℕ) ∧ (idx 0 : ℕ) < (grid0.coords t 0).val * 1 + 1
    rw [c0]; omega
  | ⟨1, _⟩ =>
    show win0_3.index t 1 * 1 ≤ (idx 1 : ℕ) ∧ (idx 1 : ℕ) < win0_3.index t 1 * 1 + 1
    rw [hi]; show (grid0.coords t 2).val * 1 ≤ (idx 1 : ℕ) ∧ (idx 1 : ℕ) < (grid0.coords t 2).val * 1 + 1
    rw [c2]; omega
  | ⟨2, _⟩ =>
    show win0_3.index t 2 * 224 ≤ (idx 2 : ℕ) ∧ (idx 2 : ℕ) < win0_3.index t 2 * 224 + 224
    rw [hi]; show 0 * 224 ≤ (idx 2 : ℕ) ∧ (idx 2 : ℕ) < 0 * 224 + 224
    omega
  | ⟨3, _⟩ =>
    show win0_3.index t 3 * 64 ≤ (idx 3 : ℕ) ∧ (idx 3 : ℕ) < win0_3.index t 3 * 64 + 64
    rw [hi]; show (grid0.coords t 1).val * 64 ≤ (idx 3 : ℕ) ∧ (idx 3 : ℕ) < (grid0.coords t 1).val * 64 + 64
    rw [c1]; omega

/-- So the output array after the region is the convolution. -/
theorem conv0_array (c : Dev nD) : (dat0 V c).arrAt 3 cfg0.N = G0 V c :=
  (dat0 V c).arrAt_eq_of_cover 3 (G0 V c) (flushed_eq0 V c) (cover0 c)

/-- THE REGION'S VALUE: the output array, as a total function, is the 3×3 convolution with bias and ReLU of the region's
    padded input against its weights. -/
theorem conv0_value (c : Dev nD) (b i j co : ℕ) (hb : b < 8) (hi : i < 224) (hj : j < 224) (hco : co < 64) :
    arr4 ((dat0 (F := Ideal) V c).arrAt 3 cfg0.N : Vec Ideal S8x224x224x64 .f32) b i j co
      = conv 3 (arr4 (X0 V c)) (arr3 (W0 V c)) (arr2 (B0 V c)) b i j co := by
  have hc : b < 8 ∧ i < 224 ∧ j < 224 ∧ co < 64 := ⟨hb, hi, hj, hco⟩
  rw [conv0_array]
  unfold arr4
  rw [dif_pos hc]
  rfl

end Cert.ReferenceIdeal.Val

end
-- ==== Proof.RConv1Pay.lean ====
/-
  Reference region 1: the body's payload read at an index, over the extended reals. The body adds nine products — the
  image rows at row offset dy and column offset dx, as a matrix of 224 rows of 64 channels, times weight slab 3·dy + dx —
  in order from zero, adds the bias row and takes the maximum with zero; so at pixel (r, j) and output channel co the
  payload is the nine taps summed, plus the bias, against zero.
-/
import proofs.«100114_g2000204297211070_pallasbulk_1265_19_alg».proof.Proof.Gen.ReferenceIdeal.Skeleton
import proofs.«100114_g2000204297211070_pallasbulk_1265_19_alg».proof.Proof.ConvAlg

noncomputable section

namespace Cert.ReferenceIdeal.Val

open Cert.ReferenceIdeal Cert.ReferenceIdeal.Gen
open Idealize.ShloMosaic Idealize.ShloMosaic.ValueIdx
open Cert.Spec

theorem dot1_plain : dot_S224x64_S64x64_S224x64_1_0_0_1_n_n = DotDims.plain 224 64 64 := rfl

/-- The first three taps, added in order from zero, at row r·224 + j of the accumulator. -/
theorem pay1_1_apply (v5 : Vec Ideal S1x1x224x64 .f32) (v8 : Vec Ideal S1x64x64 .f32) (v14 : Vec Ideal S1x1x224x64 .f32) (v17 : Vec Ideal S1x64x64 .f32) (v23 : Vec Ideal S1x1x224x64 .f32) (v26 : Vec Ideal S1x64x64 .f32)
    (r : Fin 1) (j : Fin 224) (co : Fin 64) (p : Fin 224) (hp : p.val = r.val * 224 + j.val) :
    k1_pay1 v5 v8 v14 v17 v23 v26 (ix2 p co) = 0 + tap v5 v8 r j co + tap v14 v17 r j co + tap v23 v26 r j co := by
  unfold k1_pay1
  simp only [matmul, addf_apply, broadcast_apply]
  rw [tap_matmul_zero _ dot1_plain none v5 v8 _ _ _ r j co p hp, tap_matmul_zero _ dot1_plain none v14 v17 _ _ _ r j co p hp,
    tap_matmul_zero _ dot1_plain none v23 v26 _ _ _ r j co p hp, ofBits_zero]

/-- The next three taps added onto the accumulator. -/
theorem pay1_2_apply (v29 : FVec Ideal S224x64 .f32) (v32 : Vec Ideal S1x1x224x64 .f32) (v35 : Vec Ideal S1x64x64 .f32) (v41 : Vec Ideal S1x1x224x64 .f32) (v44 : Vec Ideal S1x64x64 .f32) (v50 : Vec Ideal S1x1x224x64 .f32) (v53 : Vec Ideal S1x64x64 .f32)
    (r : Fin 1) (j : Fin 224) (co : Fin 64) (p : Fin 224) (hp : p.val = r.val * 224 + j.val) :
    k1_pay2 v29 v32 v35 v41 v44 v50 v53 (ix2 p co) = v29 (ix2 p co) + tap v32 v35 r j co + tap v41 v44 r j co + tap v50 v53 r j co := by
  unfold k1_pay2
  simp only [matmul, addf_apply]
  rw [tap_matmul_zero _ dot1_plain none v32 v35 _ _ _ r j co p hp, tap_matmul_zero _ dot1_plain none v41 v44 _ _ _ r j co p hp,
    tap_matmul_zero _ dot1_plain none v50 v53 _ _ _ r j co p hp]

/-- The last three taps added onto the accumulator, then the bias, then the maximum with zero, read back as a block. -/
theorem pay1_4_apply (v56 : FVec Ideal S224x64 .f32) (v59 : Vec Ideal S1x1x224x64 .f32) (v62 : Vec Ideal S1x64x64 .f32) (v68 : Vec Ideal S1x1x224x64 .f32) (v71 : Vec Ideal S1x64x64 .f32) (v77 : Vec Ideal S1x1x224x64 .f32) (v80 : Vec Ideal S1x64x64 .f32) (v84 : Vec Ideal S1x64 .f32)
    (u : Fin 1) (r : Fin 1) (j : Fin 224) (co : Fin 64) (p : Fin 224) (hp : p.val = r.val * 224 + j.val) :
    k1_pay4 v56 (k1_pay3 v59) v62 v68 v71 v77 v80 v84 (ix4 u r j co)
      = max (v56 (ix2 p co) + tap v59 v62 r j co + tap v68 v71 r j co + tap v77 v80 r j co + v84 (ix2 (0 : Fin 1) co)) 0 := by
  unfold k1_pay4 k1_pay3
  rw [rows_out_apply _ _ _ u r j co p hp]
  simp only [matmul, addf_apply, maximumf_apply, broadcast_apply]
  rw [tap_matmul_zero _ dot1_plain none v59 v62 _ _ _ r j co p hp, tap_matmul_zero _ dot1_plain none v68 v71 _ _ _ r j co p hp,
    tap_matmul_zero _ dot1_plain none v77 v80 _ _ _ r j co p hp, broadcastTo_1b_ab_apply, ofBits_zero]

/-- The whole payload at pixel (r, j), output channel co: the nine taps summed, plus the bias, against zero. -/
theorem pay1_apply (v5 : Vec Ideal S1x1x224x64 .f32) (v8 : Vec Ideal S1x64x64 .f32) (v14 : Vec Ideal S1x1x224x64 .f32) (v17 : Vec Ideal S1x64x64 .f32) (v23 : Vec Ideal S1x1x224x64 .f32) (v26 : Vec Ideal S1x64x64 .f32)
    (v32 : Vec Ideal S1x1x224x64 .f32) (v35 : Vec Ideal S1x64x64 .f32) (v41 : Vec Ideal S1x1x224x64 .f32) (v44 : Vec Ideal S1x64x64 .f32) (v50 : Vec Ideal S1x1x224x64 .f32) (v53 : Vec Ideal S1x64x64 .f32)
    (v59 : Vec Ideal S1x1x224x64 .f32) (v62 : Vec Ideal S1x64x64 .f32) (v68 : Vec Ideal S1x1x224x64 .f32) (v71 : Vec Ideal S1x64x64 .f32) (v77 : Vec Ideal S1x1x224x64 .f32) (v80 : Vec Ideal S1x64x64 .f32) (v84 : Vec Ideal S1x64 .f32)
    (u : Fin 1) (r : Fin 1) (j : Fin 224) (co : Fin 64) :
    k1_pay4 (k1_pay2 (k1_pay1 v5 v8 v14 v17 v23 v26) v32 v35 v41 v44 v50 v53) (k1_pay3 v59) v62 v68 v71 v77 v80 v84 (ix4 u r j co)
      = max (0 + tap v5 v8 r j co + tap v14 v17 r j co + tap v23 v26 r j co + tap v32 v35 r j co + tap v41 v44 r j co + tap v50 v53 r j co
          + tap v59 v62 r j co + tap v68 v71 r j co + tap v77 v80 r j co + v84 (ix2 (0 : Fin 1) co)) 0 := by
  have hlt : r.val * 224 + j.val < 224 := by have := r.isLt; have := j.isLt; omega
  rw [pay1_4_apply _ v59 v62 v68 v71 v77 v80 v84 u r j co ⟨r.val * 224 + j.val, hlt⟩ rfl,
    pay1_2_apply _ v32 v35 v41 v44 v50 v53 r j co ⟨r.val * 224 + j.val, hlt⟩ rfl,
    pay1_1_apply v5 v8 v14 v17 v23 v26 r j co ⟨r.val * 224 + j.val, hlt⟩ rfl]

end Cert.ReferenceIdeal.Val

end
-- ==== Proof.RConv1Blk.lean ====
/-
  Reference region 1: what the body leaves in the output's staging buffer, as a function of the three input blocks.
  The body loads nine windows of the image block (rows from (i 2).val + dy, columns from dx), the nine weight slabs and
  the bias block, and stores one value over the whole output block: the payload of those loads.
-/
import proofs.«100114_g2000204297211070_pallasbulk_1265_19_alg».proof.Proof.Gen.ReferenceIdeal.Frame
import proofs.«100114_g2000204297211070_pallasbulk_1265_19_alg».proof.Proof.ConvAlg
import Idealize.ShloMosaic.Lib.Pipeline.Value
import Idealize.ShloMosaic.Lib.Tactic

set_option maxRecDepth 16384

noncomputable section

namespace Cert.ReferenceIdeal.Val

open Cert.ReferenceIdeal Cert.ReferenceIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Spec

variable {F : FTy → Type} [FloatOps F]

/-- The body's one store, as a function of the three input blocks: the payload of the nine loaded image rows (row
    offset dy = 0, 1, 2, column offset dx = 0, 1, 2), the nine loaded weight slabs and the bias block. -/
def conv1_pay (i : grid1.Coords) (x0 : Vec F S1x226x226x64 .f32) (x1 : Vec F S9x64x64 .f32) (x2 : Vec F S1x64 .f32) : Vec F S1x1x224x64 .f32 :=
  k1_pay4
    (k1_pay2
      (k1_pay1
        (View.ld x0 (Rect.unit (s := S1x226x226x64) (k1_off1 i 0#32) S1x1x224x64.size (k1_off1_inb i 0)))
        (View.ld x1 (Rect.unit (s := S9x64x64) ![0, 0, 0] S1x64x64.size inb_S9x64x64_S1x64x64_0_0_0))
        (View.ld x0 (Rect.unit (s := S1x226x226x64) (k1_off2 i 0#32) S1x1x224x64.size (k1_off2_inb i 0)))
        (View.ld x1 (Rect.unit (s := S9x64x64) ![1, 0, 0] S1x64x64.size inb_S9x64x64_S1x64x64_1_0_0))
        (View.ld x0 (Rect.unit (s := S1x226x226x64) (k1_off3 i 0#32) S1x1x224x64.size (k1_off3_inb i 0)))
        (View.ld x1 (Rect.unit (s := S9x64x64) ![2, 0, 0] S1x64x64.size inb_S9x64x64_S1x64x64_2_0_0)))
      (View.ld x0 (Rect.unit (s := S1x226x226x64) (k1_off1 i 1#32) S1x1x224x64.size (k1_off1_inb i 1)))
      (View.ld x1 (Rect.unit (s := S9x64x64) ![3, 0, 0] S1x64x64.size inb_S9x64x64_S1x64x64_3_0_0))
      (View.ld x0 (Rect.unit (s := S1x226x226x64) (k1_off2 i 1#32) S1x1x224x64.size (k1_off2_inb i 1)))
      (View.ld x1 (Rect.unit (s := S9x64x64) ![4, 0, 0] S1x64x64.size inb_S9x64x64_S1x64x64_4_0_0))
      (View.ld x0 (Rect.unit (s := S1x226x226x64) (k1_off3 i 1#32) S1x1x224x64.size (k1_off3_inb i 1)))
      (View.ld x1 (Rect.unit (s := S9x64x64) ![5, 0, 0] S1x64x64.size inb_S9x64x64_S1x64x64_5_0_0)))
    (k1_pay3 (View.ld x0 (Rect.unit (s := S1x226x226x64) (k1_off1 i 2#32) S1x1x224x64.size (k1_off1_inb i 2))))
    (View.ld x1 (Rect.unit (s := S9x64x64) ![6, 0, 0] S1x64x64.size inb_S9x64x64_S1x64x64_6_0_0))
    (View.ld x0 (Rect.unit (s := S1x226x226x64) (k1_off2 i 2#32) S1x1x224x64.size (k1_off2_inb i 2)))
    (View.ld x1 (Rect.unit (s := S9x64x64) ![7, 0, 0] S1x64x64.size inb_S9x64x64_S1x64x64_7_0_0))
    (View.ld x0 (Rect.unit (s := S1x226x226x64) (k1_off3 i 2#32) S1x1x224x64.size (k1_off3_inb i 2)))
    (View.ld x1 (Rect.unit (s := S9x64x64) ![8, 0, 0] S1x64x64.size inb_S9x64x64_S1x64x64_8_0_0))
    x2

set_option maxHeartbeats 1000000 in
/-- What the run leaves in the output's staging buffer is that payload of the input blocks. -/
theorem out1_eq (c : Dev nD) (i : grid1.Coords) (arg3 : Memref sig .tc .vmem S1x226x226x64 .f32) (harg3 : arg3.IsWhole) (arg4 : Memref sig .tc .vmem S9x64x64 .f32) (harg4 : arg4.IsWhole) (arg5 : Memref sig .tc .vmem S1x64 .f32) (harg5 : arg5.IsWhole) (arg6 : Memref sig .tc .vmem S1x1x224x64 .f32) (harg6 : arg6.IsWhole)
    (x0 : Vec F S1x226x226x64 .f32) (x1 : Vec F S9x64x64 .f32) (x2 : Vec F S1x64 .f32) :
    out1_A_3 c i arg3 harg3 arg4 harg4 arg5 harg5 arg6 harg6 x0 x1 x2 = conv1_pay i x0 x1 x2 := by
  unfold out1_A_3 conv1_pay
  rw [View.read_writes_eq_canon _ _ _ (cover1_A_3 c i arg3 harg3 arg4 harg4 arg5 harg5 arg6 harg6 x0 x1 x2)]
  unfold kernelRun1_A
  dsimp only
  sl_unfold_words
  rw [View.canon_unit_zero hz4]
  simp only [View.readAt_eq_ld, harg3.read_unread, harg4.read_unread, harg5.read_unread, View.ld_unit_zero (S := S1x64) hz2]

end Cert.ReferenceIdeal.Val

end
-- ==== Proof.RConv1.lean ====
/-
  Reference region 1: THE VALUE of its output array after the region, over the extended reals. Point (b, ct, r) of the
  grid works on batch b, output-channel tile ct and row chunk r: its image block is batch b of the padded input, its
  weights' and bias's blocks are tile ct, and its output block is rows 1·r … of batch b, channels of tile ct. What
  the body leaves there is the convolution's value (nine taps, bias, maximum with zero); every point writes its block
  back and the blocks cover the array; so the array, as a total function, is the 3×3 convolution with bias and ReLU of
  the region's padded input against its weights.
-/
import proofs.«100114_g2000204297211070_pallasbulk_1265_19_alg».proof.Proof.RConv1Pay
import proofs.«100114_g2000204297211070_pallasbulk_1265_19_alg».proof.Proof.RConv1Blk

set_option maxRecDepth 16384

noncomputable section

namespace Cert.ReferenceIdeal.Val

open Cert.ReferenceIdeal Cert.ReferenceIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Spec

variable (V : (c : Dev nD) → (b : Ref sig .tc) → Buf (Elt Ideal) ((c : Thread nD τ).loc b))

/-- The region's three input arrays and its blocks at a point, at their literal types. -/
abbrev X1 (c : Dev nD) : Vec Ideal S8x226x226x64 .f32 := V c (Pipeline.arrRef spec1 0)
abbrev W1 (c : Dev nD) : Vec Ideal S9x64x64 .f32 := V c (Pipeline.arrRef spec1 1)
abbrev B1 (c : Dev nD) : Vec Ideal S1x64 .f32 := V c (Pipeline.arrRef spec1 2)
abbrev xb1 (c : Dev nD) (t : Fin cfg1.N) : Vec Ideal S1x226x226x64 .f32 := iblk1 V c 0 t
abbrev wb1 (c : Dev nD) (t : Fin cfg1.N) : Vec Ideal S9x64x64 .f32 := iblk1 V c 1 t
abbrev bb1 (c : Dev nD) (t : Fin cfg1.N) : Vec Ideal S1x64 .f32 := iblk1 V c 2 t

/-- The four index maps at a point (b, ct, r): the image block is batch b; the weights' and the bias's block is output
    channel tile ct; the output block is row chunk r of batch b, channel tile ct. -/
theorem idx1_0 (t : Fin cfg1.N) : win1_0.index t = ![(grid1.coords t 0).val, 0, 0, 0] := by
  funext a
  show cc1_transform_0 (grid1.coords t) a = _
  match a with
  | ⟨0, _⟩ => exact toNat_coord (grid1.coords t 0) (by decide)
  | ⟨1, _⟩ => rfl
  | ⟨2, _⟩ => rfl
  | ⟨3, _⟩ => rfl
theorem idx1_1 (t : Fin cfg1.N) : win1_1.index t = ![0, 0, (grid1.coords t 1).val] := by
  funext a
  show cc1_transform_1 (grid1.coords t) a = _
  match a with
  | ⟨0, _⟩ => rfl
  | ⟨1, _⟩ => rfl
  | ⟨2, _⟩ => exact toNat_coord (grid1.coords t 1) (by decide)
theorem idx1_2 (t : Fin cfg1.N) : win1_2.index t = ![0, (grid1.coords t 1).val] := by
  funext a
  show cc1_transform_2 (grid1.coords t) a = _
  match a with
  | ⟨0, _⟩ => rfl
  | ⟨1, _⟩ => exact toNat_coord (grid1.coords t 1) (by decide)
theorem idx1_3 (t : Fin cfg1.N) : win1_3.index t = ![(grid1.coords t 0).val, (grid1.coords t 2).val, 0, (grid1.coords t 1).val] := by
  funext a
  show cc1_transform_3 (grid1.coords t) a = _
  match a with
  | ⟨0, _⟩ => exact toNat_coord (grid1.coords t 0) (by decide)
  | ⟨1, _⟩ => exact toNat_coord (grid1.coords t 2) (by decide)
  | ⟨2, _⟩ => rfl
  | ⟨3, _⟩ => exact toNat_coord (grid1.coords t 1) (by decide)

/-- The image block at a point is the point's batch of the padded image. -/
theorem xb1_apply (c : Dev nD) (t : Fin cfg1.N) (y0 : Fin 1) (I : Fin 226) (J : Fin 226) (ci : Fin 64) :
    xb1 V c t (ix4 y0 I J ci) = X1 V c (ix4 ⟨(grid1.coords t 0).val, (grid1.coords t 0).isLt⟩ I J ci) := by
  unfold xb1 iblk1
  rw [View.read_apply]
  show V c (Pipeline.arrRef spec1 0) _ = V c (Pipeline.arrRef spec1 0) _
  congr 1
  funext a
  apply Fin.ext
  have hi := idx1_0 t
  have h0 := y0.isLt
  match a with
  | ⟨0, _⟩ => show win1_0.index t 0 * 1 + 1 * y0.val = (grid1.coords t 0).val; rw [hi]; show (grid1.coords t 0).val * 1 + 1 * y0.val = _; omega
  | ⟨1, _⟩ => show win1_0.index t 1 * 226 + 1 * I.val = I.val; rw [hi]; show 0 * 226 + 1 * I.val = _; omega
  | ⟨2, _⟩ => show win1_0.index t 2 * 226 + 1 * J.val = J.val; rw [hi]; show 0 * 226 + 1 * J.val = _; omega
  | ⟨3, _⟩ => show win1_0.index t 3 * 64 + 1 * ci.val = ci.val; rw [hi]; show 0 * 64 + 1 * ci.val = _; omega

/-- The weights' block at a point is the point's tile of output channels of the weights. -/
theorem wb1_apply (c : Dev nD) (t : Fin cfg1.N) (k : Fin 9) (ci : Fin 64) (co : Fin 64) :
    wb1 V c t (ix3 k ci co) = W1 V c (ix3 k ci ⟨(grid1.coords t 1).val * 64 + co.val, by
      have h1 : (grid1.coords t 1).val < 1 := (grid1.coords t 1).isLt
      have := co.isLt; omega⟩) := by
  unfold wb1 iblk1
  rw [View.read_apply]
  show V c (Pipeline.arrRef spec1 1) _ = V c (Pipeline.arrRef spec1 1) _
  congr 1
  funext a
  apply Fin.ext
  have hi := idx1_1 t
  match a with
  | ⟨0, _⟩ => show win1_1.index t 0 * 9 + 1 * k.val = k.val; rw [hi]; show 0 * 9 + 1 * k.val = _; omega
  | ⟨1, _⟩ => show win1_1.index t 1 * 64 + 1 * ci.val = ci.val; rw [hi]; show 0 * 64 + 1 * ci.val = _; omega
  | ⟨2, _⟩ => show win1_1.index t 2 * 64 + 1 * co.val = (grid1.coords t 1).val * 64 + co.val; rw [hi]; show (grid1.coords t 1).val * 64 + 1 * co.val = _; omega

/-- The bias block at a point is the point's tile of output channels of the bias. -/
theorem bb1_apply (c : Dev nD) (t : Fin cfg1.N) (u : Fin 1) (co : Fin 64) :
    bb1 V c t (ix2 u co) = B1 V c (ix2 (0 : Fin 1) ⟨(grid1.coords t 1).val * 64 + co.val, by
      have h1 : (grid1.coords t 1).val < 1 := (grid1.coords t 1).isLt
      have := co.isLt; omega⟩) := by
  unfold bb1 iblk1
  rw [View.read_apply]
  show V c (Pipeline.arrRef spec1 2) _ = V c (Pipeline.arrRef spec1 2) _
  congr 1
  funext a
  apply Fin.ext
  have hi := idx1_2 t
  have h0 := u.isLt
  match a with
  | ⟨0, _⟩ => show win1_2.index t 0 * 1 + 1 * u.val = 0; rw [hi]; show 0 * 1 + 1 * u.val = _; omega
  | ⟨1, _⟩ => show win1_2.index t 1 * 64 + 1 * co.val = (grid1.coords t 1).val * 64 + co.val; rw [hi]; show (grid1.coords t 1).val * 64 + 1 * co.val = _; omega

/-- The same three facts over total functions of natural coordinates. -/
theorem arr4_xb1 (c : Dev nD) (t : Fin cfg1.N) (I J ci : ℕ) :
    arr4 (xb1 V c t) 0 I J ci = arr4 (X1 V c) (grid1.coords t 0).val I J ci := by
  unfold arr4
  by_cases h : I < 226 ∧ J < 226 ∧ ci < 64
  · have hl : 0 < 1 ∧ I < 226 ∧ J < 226 ∧ ci < 64 := ⟨by decide, h⟩
    have hr : (grid1.coords t 0).val < 8 ∧ I < 226 ∧ J < 226 ∧ ci < 64 := ⟨(grid1.coords t 0).isLt, h⟩
    rw [dif_pos hl, dif_pos hr]
    exact xb1_apply V c t _ _ _ _
  · have hl : ¬(0 < 1 ∧ I < 226 ∧ J < 226 ∧ ci < 64) := fun h' => h h'.2
    have hr : ¬((grid1.coords t 0).val < 8 ∧ I < 226 ∧ J < 226 ∧ ci < 64) := fun h' => h h'.2
    rw [dif_neg hl, dif_neg hr]

theorem arr3_wb1 (c : Dev nD) (t : Fin cfg1.N) (k ci co : ℕ) (hco : co < 64) :
    arr3 (wb1 V c t) k ci co = arr3 (W1 V c) k ci ((grid1.coords t 1).val * 64 + co) := by
  have h1 : (grid1.coords t 1).val < 1 := (grid1.coords t 1).isLt
  unfold arr3
  by_cases h : k < 9 ∧ ci < 64
  · have hl : k < 9 ∧ ci < 64 ∧ co < 64 := ⟨h.1, h.2, hco⟩
    have hr : k < 9 ∧ ci < 64 ∧ (grid1.coords t 1).val * 64 + co < 64 := ⟨h.1, h.2, by omega⟩
    rw [dif_pos hl, dif_pos hr]
    exact wb1_apply V c t ⟨k, h.1⟩ ⟨ci, h.2⟩ ⟨co, hco⟩
  · have hl : ¬(k < 9 ∧ ci < 64 ∧ co < 64) := fun h' => h ⟨h'.1, h'.2.1⟩
    have hr : ¬(k < 9 ∧ ci < 64 ∧ (grid1.coords t 1).val * 64 + co < 64) := fun h' => h ⟨h'.1, h'.2.1⟩
    rw [dif_neg hl, dif_neg hr]

theorem arr2_bb1 (c : Dev nD) (t : Fin cfg1.N) (u : Fin 1) (co : Fin 64) :
    bb1 V c t (ix2 u co) = arr2 (B1 V c) 0 ((grid1.coords t 1).val * 64 + co.val) := by
  have h1 : (grid1.coords t 1).val < 1 := (grid1.coords t 1).isLt
  have h2 := co.isLt
  have hc : 0 < 1 ∧ (grid1.coords t 1).val * 64 + co.val < 64 := ⟨by decide, by omega⟩
  rw [bb1_apply]
  unfold arr2
  rw [dif_pos hc]
  rfl

/-- One tap of the body at a point, for each of the three column offsets: the load at rows from `(i 2).val + dy`, columns
    from dx, against weight slab k. -/
theorem tap1_1 (i : grid1.Coords) (x0 : Vec Ideal S1x226x226x64 .f32) (x1 : Vec Ideal S9x64x64 .f32) (dy : Fin 3) (k : ℕ)
    (inbw : ∀ a, (![k, 0, 0] : Fin 3 → ℕ) a + S1x64x64.size a ≤ S9x64x64.size a) (r : Fin 1) (j : Fin 224) (co : Fin 64) :
    tap (View.ld x0 (Rect.unit (s := S1x226x226x64) (k1_off1 i (BitVec.ofNat 32 dy.val)) S1x1x224x64.size (k1_off1_inb i dy)))
        (View.ld x1 (Rect.unit (s := S9x64x64) ![k, 0, 0] S1x64x64.size inbw)) r j co
      = ∑ ci ∈ Finset.range 64, arr4 x0 0 ((i 2).val + dy.val + r.val) (0 + j.val) ci * arr3 x1 k ci co.val :=
  tap_ld x0 x1 _ _ _ _ r j co _ _ k (congrFun (k1_off1_eq i dy) 0) (congrFun (k1_off1_eq i dy) 1) (congrFun (k1_off1_eq i dy) 2)
    (congrFun (k1_off1_eq i dy) 3) rfl rfl rfl
theorem tap1_2 (i : grid1.Coords) (x0 : Vec Ideal S1x226x226x64 .f32) (x1 : Vec Ideal S9x64x64 .f32) (dy : Fin 3) (k : ℕ)
    (inbw : ∀ a, (![k, 0, 0] : Fin 3 → ℕ) a + S1x64x64.size a ≤ S9x64x64.size a) (r : Fin 1) (j : Fin 224) (co : Fin 64) :
    tap (View.ld x0 (Rect.unit (s := S1x226x226x64) (k1_off2 i (BitVec.ofNat 32 dy.val)) S1x1x224x64.size (k1_off2_inb i dy)))
        (View.ld x1 (Rect.unit (s := S9x64x64) ![k, 0, 0] S1x64x64.size inbw)) r j co
      = ∑ ci ∈ Finset.range 64, arr4 x0 0 ((i 2).val + dy.val + r.val) (1 + j.val) ci * arr3 x1 k ci co.val :=
  tap_ld x0 x1 _ _ _ _ r j co _ _ k (congrFun (k1_off2_eq i dy) 0) (congrFun (k1_off2_eq i dy) 1) (congrFun (k1_off2_eq i dy) 2)
    (congrFun (k1_off2_eq i dy) 3) rfl rfl rfl
theorem tap1_3 (i : grid1.Coords) (x0 : Vec Ideal S1x226x226x64 .f32) (x1 : Vec Ideal S9x64x64 .f32) (dy : Fin 3) (k : ℕ)
    (inbw : ∀ a, (![k, 0, 0] : Fin 3 → ℕ) a + S1x64x64.size a ≤ S9x64x64.size a) (r : Fin 1) (j : Fin 224) (co : Fin 64) :
    tap (View.ld x0 (Rect.unit (s := S1x226x226x64) (k1_off3 i (BitVec.ofNat 32 dy.val)) S1x1x224x64.size (k1_off3_inb i dy)))
        (View.ld x1 (Rect.unit (s := S9x64x64) ![k, 0, 0] S1x64x64.size inbw)) r j co
      = ∑ ci ∈ Finset.range 64, arr4 x0 0 ((i 2).val + dy.val + r.val) (2 + j.val) ci * arr3 x1 k ci co.val :=
  tap_ld x0 x1 _ _ _ _ r j co _ _ k (congrFun (k1_off3_eq i dy) 0) (congrFun (k1_off3_eq i dy) 1) (congrFun (k1_off3_eq i dy) 2)
    (congrFun (k1_off3_eq i dy) 3) rfl rfl rfl

/-- Tap k of the convolution at output pixel (i, j), channel co, of batch b. -/
abbrev tapf1 (c : Dev nD) (b i j co : ℕ) (k : ℕ) : EReal :=
  ∑ ci ∈ Finset.range 64, arr4 (X1 V c) b (i + k / 3) (j + k % 3) ci * arr3 (W1 V c) k ci co

/-- A tap read off the blocks at a point is the convolution's tap k = 3·dy + dx. -/
theorem tap_blocks1 (c : Dev nD) (t : Fin cfg1.N) (r : Fin 1) (j : Fin 224) (co : Fin 64) (k dy dx : ℕ) (hdy : k / 3 = dy) (hdx : k % 3 = dx) :
    (∑ ci ∈ Finset.range 64, arr4 (xb1 V c t) 0 ((grid1.coords t 2).val + dy + r.val) (dx + j.val) ci * arr3 (wb1 V c t) k ci co.val)
      = tapf1 V c (grid1.coords t 0).val ((grid1.coords t 2).val + r.val) j.val ((grid1.coords t 1).val * 64 + co.val) k := by
  unfold tapf1
  rw [hdy, hdx]
  have hR : (grid1.coords t 2).val + dy + r.val = (grid1.coords t 2).val + r.val + dy := by omega
  have hC : dx + j.val = j.val + dx := by omega
  refine Finset.sum_congr rfl fun ci _ => ?_
  rw [arr4_xb1, arr3_wb1 V c t k ci co.val co.isLt, hR, hC]

/-- THE BLOCK'S VALUE: after the body at a point, the output's staging buffer at pixel (r, j), channel co holds the
    convolution of the padded image at the point's batch, row and channel tile. -/
theorem blk_value1 (c : Dev nD) (t : Fin cfg1.N) (u : Fin 1) (r : Fin 1) (j : Fin 224) (co : Fin 64) :
    outsAt1 (F := Ideal) V c t (ix4 u r j co)
      = conv 64 (arr4 (X1 V c)) (arr3 (W1 V c)) (arr2 (B1 V c)) (grid1.coords t 0).val ((grid1.coords t 2).val + r.val) j.val ((grid1.coords t 1).val * 64 + co.val) := by
  unfold outsAt1
  rw [out1_eq]
  unfold conv1_pay
  rw [pay1_apply]
  have T0 := tap1_1 (grid1.coords t) (xb1 V c t) (wb1 V c t) 0 0 inb_S9x64x64_S1x64x64_0_0_0 r j co
  have T1 := tap1_2 (grid1.coords t) (xb1 V c t) (wb1 V c t) 0 1 inb_S9x64x64_S1x64x64_1_0_0 r j co
  have T2 := tap1_3 (grid1.coords t) (xb1 V c t) (wb1 V c t) 0 2 inb_S9x64x64_S1x64x64_2_0_0 r j co
  have T3 := tap1_1 (grid1.coords t) (xb1 V c t) (wb1 V c t) 1 3 inb_S9x64x64_S1x64x64_3_0_0 r j co
  have T4 := tap1_2 (grid1.coords t) (xb1 V c t) (wb1 V c t) 1 4 inb_S9x64x64_S1x64x64_4_0_0 r j co
  have T5 := tap1_3 (grid1.coords t) (xb1 V c t) (wb1 V c t) 1 5 inb_S9x64x64_S1x64x64_5_0_0 r j co
  have T6 := tap1_1 (grid1.coords t) (xb1 V c t) (wb1 V c t) 2 6 inb_S9x64x64_S1x64x64_6_0_0 r j co
  have T7 := tap1_2 (grid1.coords t) (xb1 V c t) (wb1 V c t) 2 7 inb_S9x64x64_S1x64x64_7_0_0 r j co
  have T8 := tap1_3 (grid1.coords t) (xb1 V c t) (wb1 V c t) 2 8 inb_S9x64x64_S1x64x64_8_0_0 r j co
  refine (congrArg (fun s => max s 0) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) rfl
      (T0.trans (tap_blocks1 V c t r j co 0 0 0 rfl rfl)))
      (T1.trans (tap_blocks1 V c t r j co 1 0 1 rfl rfl)))
      (T2.trans (tap_blocks1 V c t r j co 2 0 2 rfl rfl)))
      (T3.trans (tap_blocks1 V c t r j co 3 1 0 rfl rfl)))
      (T4.trans (tap_blocks1 V c t r j co 4 1 1 rfl rfl)))
      (T5.trans (tap_blocks1 V c t r j co 5 1 2 rfl rfl)))
      (T6.trans (tap_blocks1 V c t r j co 6 2 0 rfl rfl)))
      (T7.trans (tap_blocks1 V c t r j co 7 2 1 rfl rfl)))
      (T8.trans (tap_blocks1 V c t r j co 8 2 2 rfl rfl)))
      (arr2_bb1 V c t 0 co))).trans ?_
  unfold conv
  rw [← chain9 (tapf1 V c (grid1.coords t 0).val ((grid1.coords t 2).val + r.val) j.val ((grid1.coords t 1).val * 64 + co.val))]

/-- The convolution as an array of the output's extents. -/
def G1 (c : Dev nD) : Vec Ideal S8x224x224x64 .f32 := fun idx =>
  conv 64 (arr4 (X1 V c)) (arr3 (W1 V c)) (arr2 (B1 V c)) (idx 0).val (idx 1).val (idx 2).val (idx 3).val

/-- Every write-back writes the convolution's block: the block of point (b, ct, r) is row chunk r of batch b, channel tile ct. -/
theorem flushed_eq1 (c : Dev nD) (t : Fin cfg1.N) (hf : (cfg1.win 3).flush t = true) :
    (dat1 V c).flushed 3 t = ((cfg1.win 3).blk t).view.read (Elt Ideal) (G1 V c) := by
  show (cfg1.win 3).cut (grid1.coords t) ((dat1 V c).after 3 t) = _
  rw [after1_3]
  refine funext fun (y : S1x1x224x64.Idx) => ?_
  rw [View.read_apply]
  show outsAt1 V c t ((cfg1.win 3).xinj (grid1.coords t) y) = G1 V c (((cfg1.win 3).blk t).view.emb y)
  have hy : (cfg1.win 3).xinj (grid1.coords t) y = ix4 (n0 := 1) (n1 := 1) (n2 := 224) (n3 := 64) (y 0) (y 1) (y 2) (y 3) := funext fun (a : Fin 4) => by
    match a with
    | ⟨0, _⟩ => rfl
    | ⟨1, _⟩ => rfl
    | ⟨2, _⟩ => rfl
    | ⟨3, _⟩ => rfl
  rw [hy]
  refine (blk_value1 V c t (y 0) (y 1) (y 2) (y 3)).trans ?_
  unfold G1
  have hi := idx1_3 t
  have h0 : (y 0).val < 1 := (y 0).isLt
  refine congr (congr (congr (congrArg (conv 64 _ _ _) ?_) ?_) ?_) ?_
  · symm; show win1_3.index t 0 * 1 + 1 * (y 0).val = _; rw [hi]; show (grid1.coords t 0).val * 1 + 1 * (y 0).val = _; omega
  · symm; show win1_3.index t 1 * 1 + 1 * (y 1).val = _; rw [hi]; show (grid1.coords t 2).val * 1 + 1 * (y 1).val = _; omega
  · symm; show win1_3.index t 2 * 224 + 1 * (y 2).val = _; rw [hi]; show 0 * 224 + 1 * (y 2).val = _; omega
  · symm; show win1_3.index t 3 * 64 + 1 * (y 3).val = _; rw [hi]; show (grid1.coords t 1).val * 64 + 1 * (y 3).val = _; omega

/-- The blocks cover the output: pixel (b, i, j, co) lies in the block of point (b, co / 64, i / 1). -/
theorem cover1 (c : Dev nD) (idx : S8x224x224x64.Idx) :
    ∃ t : Fin cfg1.N, (cfg1.win 3).flush t = true ∧ idx ∈ ((cfg1.win 3).blk t).view.set := by
  have h0 : (idx 0).val < 8 := (idx 0).isLt
  have h1 : (idx 1).val < 224 := (idx 1).isLt
  have h2 : (idx 2).val < 224 := (idx 2).isLt
  have h3 : (idx 3).val < 64 := (idx 3).isLt
  have hN : cfg1.N = 1792 := N_1
  have hlt : ((idx 0).val * 1 + (idx 3).val / 64) * 224 + (idx 1).val / 1 < cfg1.N := by rw [hN]; omega
  obtain ⟨t, ht⟩ : ∃ t : Fin cfg1.N, t.val = ((idx 0).val * 1 + (idx 3).val / 64) * 224 + (idx 1).val / 1 := ⟨⟨_, hlt⟩, rfl⟩
  refine ⟨t, flush1_3 t, ?_⟩
  have hset : ((cfg1.win 3).blk t).view.set = (win1_3.rect t).set := View.set_slice_whole main_v4 (win1_3.rect t)
  rw [hset, Rect.mem_set_unit]
  have hi := idx1_3 t
  have c0 : (grid1.coords t 0).val = (idx 0).val := by
    show t.val / 224 % 8 = _; rw [ht]; omega
  have c1 : (grid1.coords t 1).val = (idx 3).val / 64 := by
    show t.val / 224 % 1 = _; rw [ht]; omega
  have c2 : (grid1.coords t 2).val = (idx 1).val / 1 := by
    show t.val / 1 % 224 = _; rw [ht]; omega
  intro a
  match a with
  | ⟨0, _⟩ =>
    show win1_3.index t 0 * 1 ≤ (idx 0 : ℕ) ∧ (idx 0 : ℕ) < win1_3.index t 0 * 1 + 1
    rw [hi]; show (grid1.coords t 0).val * 1 ≤ (idx 0 : ℕ) ∧ (idx 0 : ℕ) < (grid1.coords t 0).val * 1 + 1
    rw [c0]; omega
  | ⟨1, _⟩ =>
    show win1_3.index t 1 * 1 ≤ (idx 1 : ℕ) ∧ (idx 1 : ℕ) < win1_3.index t 1 * 1 + 1
    rw [hi]; show (grid1.coords t 2).val * 1 ≤ (idx 1 : ℕ) ∧ (idx 1 : ℕ) < (grid1.coords t 2).val * 1 + 1
    rw [c2]; omega
  | ⟨2, _⟩ =>
    show win1_3.index t 2 * 224 ≤ (idx 2 : ℕ) ∧ (idx 2 : ℕ) < win1_3.index t 2 * 224 + 224
    rw [hi]; show 0 * 224 ≤ (idx 2 : ℕ) ∧ (idx 2 : ℕ) < 0 * 224 + 224
    omega
  | ⟨3, _⟩ =>
    show win1_3.index t 3 * 64 ≤ (idx 3 : ℕ) ∧ (idx 3 : ℕ) < win1_3.index t 3 * 64 + 64
    rw [hi]; show (grid1.coords t 1).val * 64 ≤ (idx 3 : ℕ) ∧ (idx 3 : ℕ) < (grid1.coords t 1).val * 64 + 64
    rw [c1]; omega

/-- So the output array after the region is the convolution. -/
theorem conv1_array (c : Dev nD) : (dat1 V c).arrAt 3 cfg1.N = G1 V c :=
  (dat1 V c).arrAt_eq_of_cover 3 (G1 V c) (flushed_eq1 V c) (cover1 c)

/-- THE REGION'S VALUE: the output array, as a total function, is the 3×3 convolution with bias and ReLU of the region's
    padded input against its weights. -/
theorem conv1_value (c : Dev nD) (b i j co : ℕ) (hb : b < 8) (hi : i < 224) (hj : j < 224) (hco : co < 64) :
    arr4 ((dat1 (F := Ideal) V c).arrAt 3 cfg1.N : Vec Ideal S8x224x224x64 .f32) b i j co
      = conv 64 (arr4 (X1 V c)) (arr3 (W1 V c)) (arr2 (B1 V c)) b i j co := by
  have hc : b < 8 ∧ i < 224 ∧ j < 224 ∧ co < 64 := ⟨hb, hi, hj, hco⟩
  rw [conv1_array]
  unfold arr4
  rw [dif_pos hc]
  rfl

end Cert.ReferenceIdeal.Val

end
-- ==== Proof.RConv3Pay.lean ====
/-
  Reference region 3: the body's payload read at an index, over the extended reals. The body adds nine products — the
  image rows at row offset dy and column offset dx, as a matrix of 224 rows of 64 channels, times weight slab 3·dy + dx —
  in order from zero, adds the bias row and takes the maximum with zero; so at pixel (r, j) and output channel co the
  payload is the nine taps summed, plus the bias, against zero.
-/
import proofs.«100114_g2000204297211070_pallasbulk_1265_19_alg».proof.Proof.Gen.ReferenceIdeal.Skeleton
import proofs.«100114_g2000204297211070_pallasbulk_1265_19_alg».proof.Proof.ConvAlg

noncomputable section

namespace Cert.ReferenceIdeal.Val

open Cert.ReferenceIdeal Cert.ReferenceIdeal.Gen
open Idealize.ShloMosaic Idealize.ShloMosaic.ValueIdx
open Cert.Spec

theorem dot3_plain : dot_S224x64_S64x128_S224x128_1_0_0_1_n_n = DotDims.plain 224 64 128 := rfl

/-- The first three taps, added in order from zero, at row r·112 + j of the accumulator. -/
theorem pay3_1_apply (v5 : Vec Ideal S1x2x112x64 .f32) (v8 : Vec Ideal S1x64x128 .f32) (v14 : Vec Ideal S1x2x112x64 .f32) (v17 : Vec Ideal S1x64x128 .f32) (v23 : Vec Ideal S1x2x112x64 .f32) (v26 : Vec Ideal S1x64x128 .f32)
    (r : Fin 2) (j : Fin 112) (co : Fin 128) (p : Fin 224) (hp : p.val = r.val * 112 + j.val) :
    k3_pay1 v5 v8 v14 v17 v23 v26 (ix2 p co) = 0 + tap v5 v8 r j co + tap v14 v17 r j co + tap v23 v26 r j co := by
  unfold k3_pay1
  simp only [matmul, addf_apply, broadcast_apply]
  rw [tap_matmul_zero _ dot3_plain none v5 v8 _ _ _ r j co p hp, tap_matmul_zero _ dot3_plain none v14 v17 _ _ _ r j co p hp,
    tap_matmul_zero _ dot3_plain none v23 v26 _ _ _ r j co p hp, ofBits_zero]

/-- The next three taps added onto the accumulator. -/
theorem pay3_2_apply (v29 : FVec Ideal S224x128 .f32) (v32 : Vec Ideal S1x2x112x64 .f32) (v35 : Vec Ideal S1x64x128 .f32) (v41 : Vec Ideal S1x2x112x64 .f32) (v44 : Vec Ideal S1x64x128 .f32) (v50 : Vec Ideal S1x2x112x64 .f32) (v53 : Vec Ideal S1x64x128 .f32)
    (r : Fin 2) (j : Fin 112) (co : Fin 128) (p : Fin 224) (hp : p.val = r.val * 112 + j.val) :
    k3_pay2 v29 v32 v35 v41 v44 v50 v53 (ix2 p co) = v29 (ix2 p co) + tap v32 v35 r j co + tap v41 v44 r j co + tap v50 v53 r j co := by
  unfold k3_pay2
  simp only [matmul, addf_apply]
  rw [tap_matmul_zero _ dot3_plain none v32 v35 _ _ _ r j co p hp, tap_matmul_zero _ dot3_plain none v41 v44 _ _ _ r j co p hp,
    tap_matmul_zero _ dot3_plain none v50 v53 _ _ _ r j co p hp]

/-- The last three taps added onto the accumulator, then the bias, then the maximum with zero, read back as a block. -/
theorem pay3_4_apply (v56 : FVec Ideal S224x128 .f32) (v59 : Vec Ideal S1x2x112x64 .f32) (v62 : Vec Ideal S1x64x128 .f32) (v68 : Vec Ideal S1x2x112x64 .f32) (v71 : Vec Ideal S1x64x128 .f32) (v77 : Vec Ideal S1x2x112x64 .f32) (v80 : Vec Ideal S1x64x128 .f32) (v84 : Vec Ideal S1x128 .f32)
    (u : Fin 1) (r : Fin 2) (j : Fin 112) (co : Fin 128) (p : Fin 224) (hp : p.val = r.val * 112 + j.val) :
    k3_pay4 v56 (k3_pay3 v59) v62 v68 v71 v77 v80 v84 (ix4 u r j co)
      = max (v56 (ix2 p co) + tap v59 v62 r j co + tap v68 v71 r j co + tap v77 v80 r j co + v84 (ix2 (0 : Fin 1) co)) 0 := by
  unfold k3_pay4 k3_pay3
  rw [rows_out_apply _ _ _ u r j co p hp]
  simp only [matmul, addf_apply, maximumf_apply, broadcast_apply]
  rw [tap_matmul_zero _ dot3_plain none v59 v62 _ _ _ r j co p hp, tap_matmul_zero _ dot3_plain none v68 v71 _ _ _ r j co p hp,
    tap_matmul_zero _ dot3_plain none v77 v80 _ _ _ r j co p hp, broadcastTo_1b_ab_apply, ofBits_zero]

/-- The whole payload at pixel (r, j), output channel co: the nine taps summed, plus the bias, against zero. -/
theorem pay3_apply (v5 : Vec Ideal S1x2x112x64 .f32) (v8 : Vec Ideal S1x64x128 .f32) (v14 : Vec Ideal S1x2x112x64 .f32) (v17 : Vec Ideal S1x64x128 .f32) (v23 : Vec Ideal S1x2x112x64 .f32) (v26 : Vec Ideal S1x64x128 .f32)
    (v32 : Vec Ideal S1x2x112x64 .f32) (v35 : Vec Ideal S1x64x128 .f32) (v41 : Vec Ideal S1x2x112x64 .f32) (v44 : Vec Ideal S1x64x128 .f32) (v50 : Vec Ideal S1x2x112x64 .f32) (v53 : Vec Ideal S1x64x128 .f32)
    (v59 : Vec Ideal S1x2x112x64 .f32) (v62 : Vec Ideal S1x64x128 .f32) (v68 : Vec Ideal S1x2x112x64 .f32) (v71 : Vec Ideal S1x64x128 .f32) (v77 : Vec Ideal S1x2x112x64 .f32) (v80 : Vec Ideal S1x64x128 .f32) (v84 : Vec Ideal S1x128 .f32)
    (u : Fin 1) (r : Fin 2) (j : Fin 112) (co : Fin 128) :
    k3_pay4 (k3_pay2 (k3_pay1 v5 v8 v14 v17 v23 v26) v32 v35 v41 v44 v50 v53) (k3_pay3 v59) v62 v68 v71 v77 v80 v84 (ix4 u r j co)
      = max (0 + tap v5 v8 r j co + tap v14 v17 r j co + tap v23 v26 r j co + tap v32 v35 r j co + tap v41 v44 r j co + tap v50 v53 r j co
          + tap v59 v62 r j co + tap v68 v71 r j co + tap v77 v80 r j co + v84 (ix2 (0 : Fin 1) co)) 0 := by
  have hlt : r.val * 112 + j.val < 224 := by have := r.isLt; have := j.isLt; omega
  rw [pay3_4_apply _ v59 v62 v68 v71 v77 v80 v84 u r j co ⟨r.val * 112 + j.val, hlt⟩ rfl,
    pay3_2_apply _ v32 v35 v41 v44 v50 v53 r j co ⟨r.val * 112 + j.val, hlt⟩ rfl,
    pay3_1_apply v5 v8 v14 v17 v23 v26 r j co ⟨r.val * 112 + j.val, hlt⟩ rfl]

end Cert.ReferenceIdeal.Val

end
-- ==== Proof.RConv3Blk.lean ====
/-
  Reference region 3: what the body leaves in the output's staging buffer, as a function of the three input blocks.
  The body loads nine windows of the image block (rows from 2 * (i 2).val + dy, columns from dx), the nine weight slabs and
  the bias block, and stores one value over the whole output block: the payload of those loads.
-/
import proofs.«100114_g2000204297211070_pallasbulk_1265_19_alg».proof.Proof.Gen.ReferenceIdeal.Frame
import proofs.«100114_g2000204297211070_pallasbulk_1265_19_alg».proof.Proof.ConvAlg
import Idealize.ShloMosaic.Lib.Pipeline.Value
import Idealize.ShloMosaic.Lib.Tactic

set_option maxRecDepth 16384

noncomputable section

namespace Cert.ReferenceIdeal.Val

open Cert.ReferenceIdeal Cert.ReferenceIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Spec

variable {F : FTy → Type} [FloatOps F]

/-- The body's one store, as a function of the three input blocks: the payload of the nine loaded image rows (row
    offset dy = 0, 1, 2, column offset dx = 0, 1, 2), the nine loaded weight slabs and the bias block. -/
def conv3_pay (i : grid3.Coords) (x0 : Vec F S1x114x114x64 .f32) (x1 : Vec F S9x64x128 .f32) (x2 : Vec F S1x128 .f32) : Vec F S1x2x112x128 .f32 :=
  k3_pay4
    (k3_pay2
      (k3_pay1
        (View.ld x0 (Rect.unit (s := S1x114x114x64) (k3_off1 i 0#32) S1x2x112x64.size (k3_off1_inb i 0)))
        (View.ld x1 (Rect.unit (s := S9x64x128) ![0, 0, 0] S1x64x128.size inb_S9x64x128_S1x64x128_0_0_0))
        (View.ld x0 (Rect.unit (s := S1x114x114x64) (k3_off2 i 0#32) S1x2x112x64.size (k3_off2_inb i 0)))
        (View.ld x1 (Rect.unit (s := S9x64x128) ![1, 0, 0] S1x64x128.size inb_S9x64x128_S1x64x128_1_0_0))
        (View.ld x0 (Rect.unit (s := S1x114x114x64) (k3_off3 i 0#32) S1x2x112x64.size (k3_off3_inb i 0)))
        (View.ld x1 (Rect.unit (s := S9x64x128) ![2, 0, 0] S1x64x128.size inb_S9x64x128_S1x64x128_2_0_0)))
      (View.ld x0 (Rect.unit (s := S1x114x114x64) (k3_off1 i 1#32) S1x2x112x64.size (k3_off1_inb i 1)))
      (View.ld x1 (Rect.unit (s := S9x64x128) ![3, 0, 0] S1x64x128.size inb_S9x64x128_S1x64x128_3_0_0))
      (View.ld x0 (Rect.unit (s := S1x114x114x64) (k3_off2 i 1#32) S1x2x112x64.size (k3_off2_inb i 1)))
      (View.ld x1 (Rect.unit (s := S9x64x128) ![4, 0, 0] S1x64x128.size inb_S9x64x128_S1x64x128_4_0_0))
      (View.ld x0 (Rect.unit (s := S1x114x114x64) (k3_off3 i 1#32) S1x2x112x64.size (k3_off3_inb i 1)))
      (View.ld x1 (Rect.unit (s := S9x64x128) ![5, 0, 0] S1x64x128.size inb_S9x64x128_S1x64x128_5_0_0)))
    (k3_pay3 (View.ld x0 (Rect.unit (s := S1x114x114x64) (k3_off1 i 2#32) S1x2x112x64.size (k3_off1_inb i 2))))
    (View.ld x1 (Rect.unit (s := S9x64x128) ![6, 0, 0] S1x64x128.size inb_S9x64x128_S1x64x128_6_0_0))
    (View.ld x0 (Rect.unit (s := S1x114x114x64) (k3_off2 i 2#32) S1x2x112x64.size (k3_off2_inb i 2)))
    (View.ld x1 (Rect.unit (s := S9x64x128) ![7, 0, 0] S1x64x128.size inb_S9x64x128_S1x64x128_7_0_0))
    (View.ld x0 (Rect.unit (s := S1x114x114x64) (k3_off3 i 2#32) S1x2x112x64.size (k3_off3_inb i 2)))
    (View.ld x1 (Rect.unit (s := S9x64x128) ![8, 0, 0] S1x64x128.size inb_S9x64x128_S1x64x128_8_0_0))
    x2

set_option maxHeartbeats 1000000 in
/-- What the run leaves in the output's staging buffer is that payload of the input blocks. -/
theorem out3_eq (c : Dev nD) (i : grid3.Coords) (arg3 : Memref sig .tc .vmem S1x114x114x64 .f32) (harg3 : arg3.IsWhole) (arg4 : Memref sig .tc .vmem S9x64x128 .f32) (harg4 : arg4.IsWhole) (arg5 : Memref sig .tc .vmem S1x128 .f32) (harg5 : arg5.IsWhole) (arg6 : Memref sig .tc .vmem S1x2x112x128 .f32) (harg6 : arg6.IsWhole)
    (x0 : Vec F S1x114x114x64 .f32) (x1 : Vec F S9x64x128 .f32) (x2 : Vec F S1x128 .f32) :
    out3_A_3 c i arg3 harg3 arg4 harg4 arg5 harg5 arg6 harg6 x0 x1 x2 = conv3_pay i x0 x1 x2 := by
  unfold out3_A_3 conv3_pay
  rw [View.read_writes_eq_canon _ _ _ (cover3_A_3 c i arg3 harg3 arg4 harg4 arg5 harg5 arg6 harg6 x0 x1 x2)]
  unfold kernelRun3_A
  dsimp only
  sl_unfold_words
  rw [View.canon_unit_zero hz4]
  simp only [View.readAt_eq_ld, harg3.read_unread, harg4.read_unread, harg5.read_unread, View.ld_unit_zero (S := S1x128) hz2]

end Cert.ReferenceIdeal.Val

end
-- ==== Proof.RConv3.lean ====
/-
  Reference region 3: THE VALUE of its output array after the region, over the extended reals. Point (b, ct, r) of the
  grid works on batch b, output-channel tile ct and row chunk r: its image block is batch b of the padded input, its
  weights' and bias's blocks are tile ct, and its output block is rows 2·r … of batch b, channels of tile ct. What
  the body leaves there is the convolution's value (nine taps, bias, maximum with zero); every point writes its block
  back and the blocks cover the array; so the array, as a total function, is the 3×3 convolution with bias and ReLU of
  the region's padded input against its weights.
-/
import proofs.«100114_g2000204297211070_pallasbulk_1265_19_alg».proof.Proof.RConv3Pay
import proofs.«100114_g2000204297211070_pallasbulk_1265_19_alg».proof.Proof.RConv3Blk

set_option maxRecDepth 16384

noncomputable section

namespace Cert.ReferenceIdeal.Val

open Cert.ReferenceIdeal Cert.ReferenceIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Spec

variable (V : (c : Dev nD) → (b : Ref sig .tc) → Buf (Elt Ideal) ((c : Thread nD τ).loc b))

/-- The region's three input arrays and its blocks at a point, at their literal types. -/
abbrev X3 (c : Dev nD) : Vec Ideal S8x114x114x64 .f32 := V c (Pipeline.arrRef spec3 0)
abbrev W3 (c : Dev nD) : Vec Ideal S9x64x128 .f32 := V c (Pipeline.arrRef spec3 1)
abbrev B3 (c : Dev nD) : Vec Ideal S1x128 .f32 := V c (Pipeline.arrRef spec3 2)
abbrev xb3 (c : Dev nD) (t : Fin cfg3.N) : Vec Ideal S1x114x114x64 .f32 := iblk3 V c 0 t
abbrev wb3 (c : Dev nD) (t : Fin cfg3.N) : Vec Ideal S9x64x128 .f32 := iblk3 V c 1 t
abbrev bb3 (c : Dev nD) (t : Fin cfg3.N) : Vec Ideal S1x128 .f32 := iblk3 V c 2 t

/-- The four index maps at a point (b, ct, r): the image block is batch b; the weights' and the bias's block is output
    channel tile ct; the output block is row chunk r of batch b, channel tile ct. -/
theorem idx3_0 (t : Fin cfg3.N) : win3_0.index t = ![(grid3.coords t 0).val, 0, 0, 0] := by
  funext a
  show cc3_transform_0 (grid3.coords t) a = _
  match a with
  | ⟨0, _⟩ => exact toNat_coord (grid3.coords t 0) (by decide)
  | ⟨1, _⟩ => rfl
  | ⟨2, _⟩ => rfl
  | ⟨3, _⟩ => rfl
theorem idx3_1 (t : Fin cfg3.N) : win3_1.index t = ![0, 0, (grid3.coords t 1).val] := by
  funext a
  show cc3_transform_1 (grid3.coords t) a = _
  match a with
  | ⟨0, _⟩ => rfl
  | ⟨1, _⟩ => rfl
  | ⟨2, _⟩ => exact toNat_coord (grid3.coords t 1) (by decide)
theorem idx3_2 (t : Fin cfg3.N) : win3_2.index t = ![0, (grid3.coords t 1).val] := by
  funext a
  show cc3_transform_2 (grid3.coords t) a = _
  match a with
  | ⟨0, _⟩ => rfl
  | ⟨1, _⟩ => exact toNat_coord (grid3.coords t 1) (by decide)
theorem idx3_3 (t : Fin cfg3.N) : win3_3.index t = ![(grid3.coords t 0).val, (grid3.coords t 2).val, 0, (grid3.coords t 1).val] := by
  funext a
  show cc3_transform_3 (grid3.coords t) a = _
  match a with
  | ⟨0, _⟩ => exact toNat_coord (grid3.coords t 0) (by decide)
  | ⟨1, _⟩ => exact toNat_coord (grid3.coords t 2) (by decide)
  | ⟨2, _⟩ => rfl
  | ⟨3, _⟩ => exact toNat_coord (grid3.coords t 1) (by decide)

/-- The image block at a point is the point's batch of the padded image. -/
theorem xb3_apply (c : Dev nD) (t : Fin cfg3.N) (y0 : Fin 1) (I : Fin 114) (J : Fin 114) (ci : Fin 64) :
    xb3 V c t (ix4 y0 I J ci) = X3 V c (ix4 ⟨(grid3.coords t 0).val, (grid3.coords t 0).isLt⟩ I J ci) := by
  unfold xb3 iblk3
  rw [View.read_apply]
  show V c (Pipeline.arrRef spec3 0) _ = V c (Pipeline.arrRef spec3 0) _
  congr 1
  funext a
  apply Fin.ext
  have hi := idx3_0 t
  have h0 := y0.isLt
  match a with
  | ⟨0, _⟩ => show win3_0.index t 0 * 1 + 1 * y0.val = (grid3.coords t 0).val; rw [hi]; show (grid3.coords t 0).val * 1 + 1 * y0.val = _; omega
  | ⟨1, _⟩ => show win3_0.index t 1 * 114 + 1 * I.val = I.val; rw [hi]; show 0 * 114 + 1 * I.val = _; omega
  | ⟨2, _⟩ => show win3_0.index t 2 * 114 + 1 * J.val = J.val; rw [hi]; show 0 * 114 + 1 * J.val = _; omega
  | ⟨3, _⟩ => show win3_0.index t 3 * 64 + 1 * ci.val = ci.val; rw [hi]; show 0 * 64 + 1 * ci.val = _; omega

/-- The weights' block at a point is the point's tile of output channels of the weights. -/
theorem wb3_apply (c : Dev nD) (t : Fin cfg3.N) (k : Fin 9) (ci : Fin 64) (co : Fin 128) :
    wb3 V c t (ix3 k ci co) = W3 V c (ix3 k ci ⟨(grid3.coords t 1).val * 128 + co.val, by
      have h1 : (grid3.coords t 1).val < 1 := (grid3.coords t 1).isLt
      have := co.isLt; omega⟩) := by
  unfold wb3 iblk3
  rw [View.read_apply]
  show V c (Pipeline.arrRef spec3 1) _ = V c (Pipeline.arrRef spec3 1) _
  congr 1
  funext a
  apply Fin.ext
  have hi := idx3_1 t
  match a with
  | ⟨0, _⟩ => show win3_1.index t 0 * 9 + 1 * k.val = k.val; rw [hi]; show 0 * 9 + 1 * k.val = _; omega
  | ⟨1, _⟩ => show win3_1.index t 1 * 64 + 1 * ci.val = ci.val; rw [hi]; show 0 * 64 + 1 * ci.val = _; omega
  | ⟨2, _⟩ => show win3_1.index t 2 * 128 + 1 * co.val = (grid3.coords t 1).val * 128 + co.val; rw [hi]; show (grid3.coords t 1).val * 128 + 1 * co.val = _; omega

/-- The bias block at a point is the point's tile of output channels of the bias. -/
theorem bb3_apply (c : Dev nD) (t : Fin cfg3.N) (u : Fin 1) (co : Fin 128) :
    bb3 V c t (ix2 u co) = B3 V c (ix2 (0 : Fin 1) ⟨(grid3.coords t 1).val * 128 + co.val, by
      have h1 : (grid3.coords t 1).val < 1 := (grid3.coords t 1).isLt
      have := co.isLt; omega⟩) := by
  unfold bb3 iblk3
  rw [View.read_apply]
  show V c (Pipeline.arrRef spec3 2) _ = V c (Pipeline.arrRef spec3 2) _
  congr 1
  funext a
  apply Fin.ext
  have hi := idx3_2 t
  have h0 := u.isLt
  match a with
  | ⟨0, _⟩ => show win3_2.index t 0 * 1 + 1 * u.val = 0; rw [hi]; show 0 * 1 + 1 * u.val = _; omega
  | ⟨1, _⟩ => show win3_2.index t 1 * 128 + 1 * co.val = (grid3.coords t 1).val * 128 + co.val; rw [hi]; show (grid3.coords t 1).val * 128 + 1 * co.val = _; omega

/-- The same three facts over total functions of natural coordinates. -/
theorem arr4_xb3 (c : Dev nD) (t : Fin cfg3.N) (I J ci : ℕ) :
    arr4 (xb3 V c t) 0 I J ci = arr4 (X3 V c) (grid3.coords t 0).val I J ci := by
  unfold arr4
  by_cases h : I < 114 ∧ J < 114 ∧ ci < 64
  · have hl : 0 < 1 ∧ I < 114 ∧ J < 114 ∧ ci < 64 := ⟨by decide, h⟩
    have hr : (grid3.coords t 0).val < 8 ∧ I < 114 ∧ J < 114 ∧ ci < 64 := ⟨(grid3.coords t 0).isLt, h⟩
    rw [dif_pos hl, dif_pos hr]
    exact xb3_apply V c t _ _ _ _
  · have hl : ¬(0 < 1 ∧ I < 114 ∧ J < 114 ∧ ci < 64) := fun h' => h h'.2
    have hr : ¬((grid3.coords t 0).val < 8 ∧ I < 114 ∧ J < 114 ∧ ci < 64) := fun h' => h h'.2
    rw [dif_neg hl, dif_neg hr]

theorem arr3_wb3 (c : Dev nD) (t : Fin cfg3.N) (k ci co : ℕ) (hco : co < 128) :
    arr3 (wb3 V c t) k ci co = arr3 (W3 V c) k ci ((grid3.coords t 1).val * 128 + co) := by
  have h1 : (grid3.coords t 1).val < 1 := (grid3.coords t 1).isLt
  unfold arr3
  by_cases h : k < 9 ∧ ci < 64
  · have hl : k < 9 ∧ ci < 64 ∧ co < 128 := ⟨h.1, h.2, hco⟩
    have hr : k < 9 ∧ ci < 64 ∧ (grid3.coords t 1).val * 128 + co < 128 := ⟨h.1, h.2, by omega⟩
    rw [dif_pos hl, dif_pos hr]
    exact wb3_apply V c t ⟨k, h.1⟩ ⟨ci, h.2⟩ ⟨co, hco⟩
  · have hl : ¬(k < 9 ∧ ci < 64 ∧ co < 128) := fun h' => h ⟨h'.1, h'.2.1⟩
    have hr : ¬(k < 9 ∧ ci < 64 ∧ (grid3.coords t 1).val * 128 + co < 128) := fun h' => h ⟨h'.1, h'.2.1⟩
    rw [dif_neg hl, dif_neg hr]

theorem arr2_bb3 (c : Dev nD) (t : Fin cfg3.N) (u : Fin 1) (co : Fin 128) :
    bb3 V c t (ix2 u co) = arr2 (B3 V c) 0 ((grid3.coords t 1).val * 128 + co.val) := by
  have h1 : (grid3.coords t 1).val < 1 := (grid3.coords t 1).isLt
  have h2 := co.isLt
  have hc : 0 < 1 ∧ (grid3.coords t 1).val * 128 + co.val < 128 := ⟨by decide, by omega⟩
  rw [bb3_apply]
  unfold arr2
  rw [dif_pos hc]
  rfl

/-- One tap of the body at a point, for each of the three column offsets: the load at rows from `2 * (i 2).val + dy`, columns
    from dx, against weight slab k. -/
theorem tap3_1 (i : grid3.Coords) (x0 : Vec Ideal S1x114x114x64 .f32) (x1 : Vec Ideal S9x64x128 .f32) (dy : Fin 3) (k : ℕ)
    (inbw : ∀ a, (![k, 0, 0] : Fin 3 → ℕ) a + S1x64x128.size a ≤ S9x64x128.size a) (r : Fin 2) (j : Fin 112) (co : Fin 128) :
    tap (View.ld x0 (Rect.unit (s := S1x114x114x64) (k3_off1 i (BitVec.ofNat 32 dy.val)) S1x2x112x64.size (k3_off1_inb i dy)))
        (View.ld x1 (Rect.unit (s := S9x64x128) ![k, 0, 0] S1x64x128.size inbw)) r j co
      = ∑ ci ∈ Finset.range 64, arr4 x0 0 (2 * (i 2).val + dy.val + r.val) (0 + j.val) ci * arr3 x1 k ci co.val :=
  tap_ld x0 x1 _ _ _ _ r j co _ _ k (congrFun (k3_off1_eq i dy) 0) (congrFun (k3_off1_eq i dy) 1) (congrFun (k3_off1_eq i dy) 2)
    (congrFun (k3_off1_eq i dy) 3) rfl rfl rfl
theorem tap3_2 (i : grid3.Coords) (x0 : Vec Ideal S1x114x114x64 .f32) (x1 : Vec Ideal S9x64x128 .f32) (dy : Fin 3) (k : ℕ)
    (inbw : ∀ a, (![k, 0, 0] : Fin 3 → ℕ) a + S1x64x128.size a ≤ S9x64x128.size a) (r : Fin 2) (j : Fin 112) (co : Fin 128) :
    tap (View.ld x0 (Rect.unit (s := S1x114x114x64) (k3_off2 i (BitVec.ofNat 32 dy.val)) S1x2x112x64.size (k3_off2_inb i dy)))
        (View.ld x1 (Rect.unit (s := S9x64x128) ![k, 0, 0] S1x64x128.size inbw)) r j co
      = ∑ ci ∈ Finset.range 64, arr4 x0 0 (2 * (i 2).val + dy.val + r.val) (1 + j.val) ci * arr3 x1 k ci co.val :=
  tap_ld x0 x1 _ _ _ _ r j co _ _ k (congrFun (k3_off2_eq i dy) 0) (congrFun (k3_off2_eq i dy) 1) (congrFun (k3_off2_eq i dy) 2)
    (congrFun (k3_off2_eq i dy) 3) rfl rfl rfl
theorem tap3_3 (i : grid3.Coords) (x0 : Vec Ideal S1x114x114x64 .f32) (x1 : Vec Ideal S9x64x128 .f32) (dy : Fin 3) (k : ℕ)
    (inbw : ∀ a, (![k, 0, 0] : Fin 3 → ℕ) a + S1x64x128.size a ≤ S9x64x128.size a) (r : Fin 2) (j : Fin 112) (co : Fin 128) :
    tap (View.ld x0 (Rect.unit (s := S1x114x114x64) (k3_off3 i (BitVec.ofNat 32 dy.val)) S1x2x112x64.size (k3_off3_inb i dy)))
        (View.ld x1 (Rect.unit (s := S9x64x128) ![k, 0, 0] S1x64x128.size inbw)) r j co
      = ∑ ci ∈ Finset.range 64, arr4 x0 0 (2 * (i 2).val + dy.val + r.val) (2 + j.val) ci * arr3 x1 k ci co.val :=
  tap_ld x0 x1 _ _ _ _ r j co _ _ k (congrFun (k3_off3_eq i dy) 0) (congrFun (k3_off3_eq i dy) 1) (congrFun (k3_off3_eq i dy) 2)
    (congrFun (k3_off3_eq i dy) 3) rfl rfl rfl

/-- Tap k of the convolution at output pixel (i, j), channel co, of batch b. -/
abbrev tapf3 (c : Dev nD) (b i j co : ℕ) (k : ℕ) : EReal :=
  ∑ ci ∈ Finset.range 64, arr4 (X3 V c) b (i + k / 3) (j + k % 3) ci * arr3 (W3 V c) k ci co

/-- A tap read off the blocks at a point is the convolution's tap k = 3·dy + dx. -/
theorem tap_blocks3 (c : Dev nD) (t : Fin cfg3.N) (r : Fin 2) (j : Fin 112) (co : Fin 128) (k dy dx : ℕ) (hdy : k / 3 = dy) (hdx : k % 3 = dx) :
    (∑ ci ∈ Finset.range 64, arr4 (xb3 V c t) 0 (2 * (grid3.coords t 2).val + dy + r.val) (dx + j.val) ci * arr3 (wb3 V c t) k ci co.val)
      = tapf3 V c (grid3.coords t 0).val (2 * (grid3.coords t 2).val + r.val) j.val ((grid3.coords t 1).val * 128 + co.val) k := by
  unfold tapf3
  rw [hdy, hdx]
  have hR : 2 * (grid3.coords t 2).val + dy + r.val = 2 * (grid3.coords t 2).val + r.val + dy := by omega
  have hC : dx + j.val = j.val + dx := by omega
  refine Finset.sum_congr rfl fun ci _ => ?_
  rw [arr4_xb3, arr3_wb3 V c t k ci co.val co.isLt, hR, hC]

/-- THE BLOCK'S VALUE: after the body at a point, the output's staging buffer at pixel (r, j), channel co holds the
    convolution of the padded image at the point's batch, row and channel tile. -/
theorem blk_value3 (c : Dev nD) (t : Fin cfg3.N) (u : Fin 1) (r : Fin 2) (j : Fin 112) (co : Fin 128) :
    outsAt3 (F := Ideal) V c t (ix4 u r j co)
      = conv 64 (arr4 (X3 V c)) (arr3 (W3 V c)) (arr2 (B3 V c)) (grid3.coords t 0).val (2 * (grid3.coords t 2).val + r.val) j.val ((grid3.coords t 1).val * 128 + co.val) := by
  unfold outsAt3
  rw [out3_eq]
  unfold conv3_pay
  rw [pay3_apply]
  have T0 := tap3_1 (grid3.coords t) (xb3 V c t) (wb3 V c t) 0 0 inb_S9x64x128_S1x64x128_0_0_0 r j co
  have T1 := tap3_2 (grid3.coords t) (xb3 V c t) (wb3 V c t) 0 1 inb_S9x64x128_S1x64x128_1_0_0 r j co
  have T2 := tap3_3 (grid3.coords t) (xb3 V c t) (wb3 V c t) 0 2 inb_S9x64x128_S1x64x128_2_0_0 r j co
  have T3 := tap3_1 (grid3.coords t) (xb3 V c t) (wb3 V c t) 1 3 inb_S9x64x128_S1x64x128_3_0_0 r j co
  have T4 := tap3_2 (grid3.coords t) (xb3 V c t) (wb3 V c t) 1 4 inb_S9x64x128_S1x64x128_4_0_0 r j co
  have T5 := tap3_3 (grid3.coords t) (xb3 V c t) (wb3 V c t) 1 5 inb_S9x64x128_S1x64x128_5_0_0 r j co
  have T6 := tap3_1 (grid3.coords t) (xb3 V c t) (wb3 V c t) 2 6 inb_S9x64x128_S1x64x128_6_0_0 r j co
  have T7 := tap3_2 (grid3.coords t) (xb3 V c t) (wb3 V c t) 2 7 inb_S9x64x128_S1x64x128_7_0_0 r j co
  have T8 := tap3_3 (grid3.coords t) (xb3 V c t) (wb3 V c t) 2 8 inb_S9x64x128_S1x64x128_8_0_0 r j co
  refine (congrArg (fun s => max s 0) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) rfl
      (T0.trans (tap_blocks3 V c t r j co 0 0 0 rfl rfl)))
      (T1.trans (tap_blocks3 V c t r j co 1 0 1 rfl rfl)))
      (T2.trans (tap_blocks3 V c t r j co 2 0 2 rfl rfl)))
      (T3.trans (tap_blocks3 V c t r j co 3 1 0 rfl rfl)))
      (T4.trans (tap_blocks3 V c t r j co 4 1 1 rfl rfl)))
      (T5.trans (tap_blocks3 V c t r j co 5 1 2 rfl rfl)))
      (T6.trans (tap_blocks3 V c t r j co 6 2 0 rfl rfl)))
      (T7.trans (tap_blocks3 V c t r j co 7 2 1 rfl rfl)))
      (T8.trans (tap_blocks3 V c t r j co 8 2 2 rfl rfl)))
      (arr2_bb3 V c t 0 co))).trans ?_
  unfold conv
  rw [← chain9 (tapf3 V c (grid3.coords t 0).val (2 * (grid3.coords t 2).val + r.val) j.val ((grid3.coords t 1).val * 128 + co.val))]

/-- The convolution as an array of the output's extents. -/
def G3 (c : Dev nD) : Vec Ideal S8x112x112x128 .f32 := fun idx =>
  conv 64 (arr4 (X3 V c)) (arr3 (W3 V c)) (arr2 (B3 V c)) (idx 0).val (idx 1).val (idx 2).val (idx 3).val

/-- Every write-back writes the convolution's block: the block of point (b, ct, r) is row chunk r of batch b, channel tile ct. -/
theorem flushed_eq3 (c : Dev nD) (t : Fin cfg3.N) (hf : (cfg3.win 3).flush t = true) :
    (dat3 V c).flushed 3 t = ((cfg3.win 3).blk t).view.read (Elt Ideal) (G3 V c) := by
  show (cfg3.win 3).cut (grid3.coords t) ((dat3 V c).after 3 t) = _
  rw [after3_3]
  refine funext fun (y : S1x2x112x128.Idx) => ?_
  rw [View.read_apply]
  show outsAt3 V c t ((cfg3.win 3).xinj (grid3.coords t) y) = G3 V c (((cfg3.win 3).blk t).view.emb y)
  have hy : (cfg3.win 3).xinj (grid3.coords t) y = ix4 (n0 := 1) (n1 := 2) (n2 := 112) (n3 := 128) (y 0) (y 1) (y 2) (y 3) := funext fun (a : Fin 4) => by
    match a with
    | ⟨0, _⟩ => rfl
    | ⟨1, _⟩ => rfl
    | ⟨2, _⟩ => rfl
    | ⟨3, _⟩ => rfl
  rw [hy]
  refine (blk_value3 V c t (y 0) (y 1) (y 2) (y 3)).trans ?_
  unfold G3
  have hi := idx3_3 t
  have h0 : (y 0).val < 1 := (y 0).isLt
  refine congr (congr (congr (congrArg (conv 64 _ _ _) ?_) ?_) ?_) ?_
  · symm; show win3_3.index t 0 * 1 + 1 * (y 0).val = _; rw [hi]; show (grid3.coords t 0).val * 1 + 1 * (y 0).val = _; omega
  · symm; show win3_3.index t 1 * 2 + 1 * (y 1).val = _; rw [hi]; show (grid3.coords t 2).val * 2 + 1 * (y 1).val = _; omega
  · symm; show win3_3.index t 2 * 112 + 1 * (y 2).val = _; rw [hi]; show 0 * 112 + 1 * (y 2).val = _; omega
  · symm; show win3_3.index t 3 * 128 + 1 * (y 3).val = _; rw [hi]; show (grid3.coords t 1).val * 128 + 1 * (y 3).val = _; omega

/-- The blocks cover the output: pixel (b, i, j, co) lies in the block of point (b, co / 128, i / 2). -/
theorem cover3 (c : Dev nD) (idx : S8x112x112x128.Idx) :
    ∃ t : Fin cfg3.N, (cfg3.win 3).flush t = true ∧ idx ∈ ((cfg3.win 3).blk t).view.set := by
  have h0 : (idx 0).val < 8 := (idx 0).isLt
  have h1 : (idx 1).val < 112 := (idx 1).isLt
  have h2 : (idx 2).val < 112 := (idx 2).isLt
  have h3 : (idx 3).val < 128 := (idx 3).isLt
  have hN : cfg3.N = 448 := N_3
  have hlt : ((idx 0).val * 1 + (idx 3).val / 128) * 56 + (idx 1).val / 2 < cfg3.N := by rw [hN]; omega
  obtain ⟨t, ht⟩ : ∃ t : Fin cfg3.N, t.val = ((idx 0).val * 1 + (idx 3).val / 128) * 56 + (idx 1).val / 2 := ⟨⟨_, hlt⟩, rfl⟩
  refine ⟨t, flush3_3 t, ?_⟩
  have hset : ((cfg3.win 3).blk t).view.set = (win3_3.rect t).set := View.set_slice_whole main_v8 (win3_3.rect t)
  rw [hset, Rect.mem_set_unit]
  have hi := idx3_3 t
  have c0 : (grid3.coords t 0).val = (idx 0).val := by
    show t.val / 56 % 8 = _; rw [ht]; omega
  have c1 : (grid3.coords t 1).val = (idx 3).val / 128 := by
    show t.val / 56 % 1 = _; rw [ht]; omega
  have c2 : (grid3.coords t 2).val = (idx 1).val / 2 := by
    show t.val / 1 % 56 = _; rw [ht]; omega
  intro a
  match a with
  | ⟨0, _⟩ =>
    show win3_3.index t 0 * 1 ≤ (idx 0 : ℕ) ∧ (idx 0 : ℕ) < win3_3.index t 0 * 1 + 1
    rw [hi]; show (grid3.coords t 0).val * 1 ≤ (idx 0 : ℕ) ∧ (idx 0 : ℕ) < (grid3.coords t 0).val * 1 + 1
    rw [c0]; omega
  | ⟨1, _⟩ =>
    show win3_3.index t 1 * 2 ≤ (idx 1 : ℕ) ∧ (idx 1 : ℕ) < win3_3.index t 1 * 2 + 2
    rw [hi]; show (grid3.coords t 2).val * 2 ≤ (idx 1 : ℕ) ∧ (idx 1 : ℕ) < (grid3.coords t 2).val * 2 + 2
    rw [c2]; omega
  | ⟨2, _⟩ =>
    show win3_3.index t 2 * 112 ≤ (idx 2 : ℕ) ∧ (idx 2 : ℕ) < win3_3.index t 2 * 112 + 112
    rw [hi]; show 0 * 112 ≤ (idx 2 : ℕ) ∧ (idx 2 : ℕ) < 0 * 112 + 112
    omega
  | ⟨3, _⟩ =>
    show win3_3.index t 3 * 128 ≤ (idx 3 : ℕ) ∧ (idx 3 : ℕ) < win3_3.index t 3 * 128 + 128
    rw [hi]; show (grid3.coords t 1).val * 128 ≤ (idx 3 : ℕ) ∧ (idx 3 : ℕ) < (grid3.coords t 1).val * 128 + 128
    rw [c1]; omega

/-- So the output array after the region is the convolution. -/
theorem conv3_array (c : Dev nD) : (dat3 V c).arrAt 3 cfg3.N = G3 V c :=
  (dat3 V c).arrAt_eq_of_cover 3 (G3 V c) (flushed_eq3 V c) (cover3 c)

/-- THE REGION'S VALUE: the output array, as a total function, is the 3×3 convolution with bias and ReLU of the region's
    padded input against its weights. -/
theorem conv3_value (c : Dev nD) (b i j co : ℕ) (hb : b < 8) (hi : i < 112) (hj : j < 112) (hco : co < 128) :
    arr4 ((dat3 (F := Ideal) V c).arrAt 3 cfg3.N : Vec Ideal S8x112x112x128 .f32) b i j co
      = conv 64 (arr4 (X3 V c)) (arr3 (W3 V c)) (arr2 (B3 V c)) b i j co := by
  have hc : b < 8 ∧ i < 112 ∧ j < 112 ∧ co < 128 := ⟨hb, hi, hj, hco⟩
  rw [conv3_array]
  unfold arr4
  rw [dif_pos hc]
  rfl

end Cert.ReferenceIdeal.Val

end
-- ==== Proof.RConv4Pay.lean ====
/-
  Reference region 4: the body's payload read at an index, over the extended reals. The body adds nine products — the
  image rows at row offset dy and column offset dx, as a matrix of 224 rows of 128 channels, times weight slab 3·dy + dx —
  in order from zero, adds the bias row and takes the maximum with zero; so at pixel (r, j) and output channel co the
  payload is the nine taps summed, plus the bias, against zero.
-/
import proofs.«100114_g2000204297211070_pallasbulk_1265_19_alg».proof.Proof.Gen.ReferenceIdeal.Skeleton
import proofs.«100114_g2000204297211070_pallasbulk_1265_19_alg».proof.Proof.ConvAlg

noncomputable section

namespace Cert.ReferenceIdeal.Val

open Cert.ReferenceIdeal Cert.ReferenceIdeal.Gen
open Idealize.ShloMosaic Idealize.ShloMosaic.ValueIdx
open Cert.Spec

theorem dot4_plain : dot_S224x128_S128x128_S224x128_1_0_0_1_n_n = DotDims.plain 224 128 128 := rfl

/-- The first three taps, added in order from zero, at row r·112 + j of the accumulator. -/
theorem pay4_1_apply (v5 : Vec Ideal S1x2x112x128 .f32) (v8 : Vec Ideal S1x128x128 .f32) (v14 : Vec Ideal S1x2x112x128 .f32) (v17 : Vec Ideal S1x128x128 .f32) (v23 : Vec Ideal S1x2x112x128 .f32) (v26 : Vec Ideal S1x128x128 .f32)
    (r : Fin 2) (j : Fin 112) (co : Fin 128) (p : Fin 224) (hp : p.val = r.val * 112 + j.val) :
    k4_pay1 v5 v8 v14 v17 v23 v26 (ix2 p co) = 0 + tap v5 v8 r j co + tap v14 v17 r j co + tap v23 v26 r j co := by
  unfold k4_pay1
  simp only [matmul, addf_apply, broadcast_apply]
  rw [tap_matmul_zero _ dot4_plain none v5 v8 _ _ _ r j co p hp, tap_matmul_zero _ dot4_plain none v14 v17 _ _ _ r j co p hp,
    tap_matmul_zero _ dot4_plain none v23 v26 _ _ _ r j co p hp, ofBits_zero]

/-- The next three taps added onto the accumulator. -/
theorem pay4_2_apply (v29 : FVec Ideal S224x128 .f32) (v32 : Vec Ideal S1x2x112x128 .f32) (v35 : Vec Ideal S1x128x128 .f32) (v41 : Vec Ideal S1x2x112x128 .f32) (v44 : Vec Ideal S1x128x128 .f32) (v50 : Vec Ideal S1x2x112x128 .f32) (v53 : Vec Ideal S1x128x128 .f32)
    (r : Fin 2) (j : Fin 112) (co : Fin 128) (p : Fin 224) (hp : p.val = r.val * 112 + j.val) :
    k4_pay2 v29 v32 v35 v41 v44 v50 v53 (ix2 p co) = v29 (ix2 p co) + tap v32 v35 r j co + tap v41 v44 r j co + tap v50 v53 r j co := by
  unfold k4_pay2
  simp only [matmul, addf_apply]
  rw [tap_matmul_zero _ dot4_plain none v32 v35 _ _ _ r j co p hp, tap_matmul_zero _ dot4_plain none v41 v44 _ _ _ r j co p hp,
    tap_matmul_zero _ dot4_plain none v50 v53 _ _ _ r j co p hp]

/-- The last three taps added onto the accumulator, then the bias, then the maximum with zero, read back as a block. -/
theorem pay4_4_apply (v56 : FVec Ideal S224x128 .f32) (v59 : Vec Ideal S1x2x112x128 .f32) (v62 : Vec Ideal S1x128x128 .f32) (v68 : Vec Ideal S1x2x112x128 .f32) (v71 : Vec Ideal S1x128x128 .f32) (v77 : Vec Ideal S1x2x112x128 .f32) (v80 : Vec Ideal S1x128x128 .f32) (v84 : Vec Ideal S1x128 .f32)
    (u : Fin 1) (r : Fin 2) (j : Fin 112) (co : Fin 128) (p : Fin 224) (hp : p.val = r.val * 112 + j.val) :
    k4_pay4 v56 (k4_pay3 v59) v62 v68 v71 v77 v80 v84 (ix4 u r j co)
      = max (v56 (ix2 p co) + tap v59 v62 r j co + tap v68 v71 r j co + tap v77 v80 r j co + v84 (ix2 (0 : Fin 1) co)) 0 := by
  unfold k4_pay4 k4_pay3
  rw [rows_out_apply _ _ _ u r j co p hp]
  simp only [matmul, addf_apply, maximumf_apply, broadcast_apply]
  rw [tap_matmul_zero _ dot4_plain none v59 v62 _ _ _ r j co p hp, tap_matmul_zero _ dot4_plain none v68 v71 _ _ _ r j co p hp,
    tap_matmul_zero _ dot4_plain none v77 v80 _ _ _ r j co p hp, broadcastTo_1b_ab_apply, ofBits_zero]

/-- The whole payload at pixel (r, j), output channel co: the nine taps summed, plus the bias, against zero. -/
theorem pay4_apply (v5 : Vec Ideal S1x2x112x128 .f32) (v8 : Vec Ideal S1x128x128 .f32) (v14 : Vec Ideal S1x2x112x128 .f32) (v17 : Vec Ideal S1x128x128 .f32) (v23 : Vec Ideal S1x2x112x128 .f32) (v26 : Vec Ideal S1x128x128 .f32)
    (v32 : Vec Ideal S1x2x112x128 .f32) (v35 : Vec Ideal S1x128x128 .f32) (v41 : Vec Ideal S1x2x112x128 .f32) (v44 : Vec Ideal S1x128x128 .f32) (v50 : Vec Ideal S1x2x112x128 .f32) (v53 : Vec Ideal S1x128x128 .f32)
    (v59 : Vec Ideal S1x2x112x128 .f32) (v62 : Vec Ideal S1x128x128 .f32) (v68 : Vec Ideal S1x2x112x128 .f32) (v71 : Vec Ideal S1x128x128 .f32) (v77 : Vec Ideal S1x2x112x128 .f32) (v80 : Vec Ideal S1x128x128 .f32) (v84 : Vec Ideal S1x128 .f32)
    (u : Fin 1) (r : Fin 2) (j : Fin 112) (co : Fin 128) :
    k4_pay4 (k4_pay2 (k4_pay1 v5 v8 v14 v17 v23 v26) v32 v35 v41 v44 v50 v53) (k4_pay3 v59) v62 v68 v71 v77 v80 v84 (ix4 u r j co)
      = max (0 + tap v5 v8 r j co + tap v14 v17 r j co + tap v23 v26 r j co + tap v32 v35 r j co + tap v41 v44 r j co + tap v50 v53 r j co
          + tap v59 v62 r j co + tap v68 v71 r j co + tap v77 v80 r j co + v84 (ix2 (0 : Fin 1) co)) 0 := by
  have hlt : r.val * 112 + j.val < 224 := by have := r.isLt; have := j.isLt; omega
  rw [pay4_4_apply _ v59 v62 v68 v71 v77 v80 v84 u r j co ⟨r.val * 112 + j.val, hlt⟩ rfl,
    pay4_2_apply _ v32 v35 v41 v44 v50 v53 r j co ⟨r.val * 112 + j.val, hlt⟩ rfl,
    pay4_1_apply v5 v8 v14 v17 v23 v26 r j co ⟨r.val * 112 + j.val, hlt⟩ rfl]

end Cert.ReferenceIdeal.Val

end
-- ==== Proof.RConv4Blk.lean ====
/-
  Reference region 4: what the body leaves in the output's staging buffer, as a function of the three input blocks.
  The body loads nine windows of the image block (rows from 2 * (i 2).val + dy, columns from dx), the nine weight slabs and
  the bias block, and stores one value over the whole output block: the payload of those loads.
-/
import proofs.«100114_g2000204297211070_pallasbulk_1265_19_alg».proof.Proof.Gen.ReferenceIdeal.Frame
import proofs.«100114_g2000204297211070_pallasbulk_1265_19_alg».proof.Proof.ConvAlg
import Idealize.ShloMosaic.Lib.Pipeline.Value
import Idealize.ShloMosaic.Lib.Tactic

set_option maxRecDepth 16384

noncomputable section

namespace Cert.ReferenceIdeal.Val

open Cert.ReferenceIdeal Cert.ReferenceIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Spec

variable {F : FTy → Type} [FloatOps F]

/-- The body's one store, as a function of the three input blocks: the payload of the nine loaded image rows (row
    offset dy = 0, 1, 2, column offset dx = 0, 1, 2), the nine loaded weight slabs and the bias block. -/
def conv4_pay (i : grid4.Coords) (x0 : Vec F S1x114x114x128 .f32) (x1 : Vec F S9x128x128 .f32) (x2 : Vec F S1x128 .f32) : Vec F S1x2x112x128 .f32 :=
  k4_pay4
    (k4_pay2
      (k4_pay1
        (View.ld x0 (Rect.unit (s := S1x114x114x128) (k4_off1 i 0#32) S1x2x112x128.size (k4_off1_inb i 0)))
        (View.ld x1 (Rect.unit (s := S9x128x128) ![0, 0, 0] S1x128x128.size inb_S9x128x128_S1x128x128_0_0_0))
        (View.ld x0 (Rect.unit (s := S1x114x114x128) (k4_off2 i 0#32) S1x2x112x128.size (k4_off2_inb i 0)))
        (View.ld x1 (Rect.unit (s := S9x128x128) ![1, 0, 0] S1x128x128.size inb_S9x128x128_S1x128x128_1_0_0))
        (View.ld x0 (Rect.unit (s := S1x114x114x128) (k4_off3 i 0#32) S1x2x112x128.size (k4_off3_inb i 0)))
        (View.ld x1 (Rect.unit (s := S9x128x128) ![2, 0, 0] S1x128x128.size inb_S9x128x128_S1x128x128_2_0_0)))
      (View.ld x0 (Rect.unit (s := S1x114x114x128) (k4_off1 i 1#32) S1x2x112x128.size (k4_off1_inb i 1)))
      (View.ld x1 (Rect.unit (s := S9x128x128) ![3, 0, 0] S1x128x128.size inb_S9x128x128_S1x128x128_3_0_0))
      (View.ld x0 (Rect.unit (s := S1x114x114x128) (k4_off2 i 1#32) S1x2x112x128.size (k4_off2_inb i 1)))
      (View.ld x1 (Rect.unit (s := S9x128x128) ![4, 0, 0] S1x128x128.size inb_S9x128x128_S1x128x128_4_0_0))
      (View.ld x0 (Rect.unit (s := S1x114x114x128) (k4_off3 i 1#32) S1x2x112x128.size (k4_off3_inb i 1)))
      (View.ld x1 (Rect.unit (s := S9x128x128) ![5, 0, 0] S1x128x128.size inb_S9x128x128_S1x128x128_5_0_0)))
    (k4_pay3 (View.ld x0 (Rect.unit (s := S1x114x114x128) (k4_off1 i 2#32) S1x2x112x128.size (k4_off1_inb i 2))))
    (View.ld x1 (Rect.unit (s := S9x128x128) ![6, 0, 0] S1x128x128.size inb_S9x128x128_S1x128x128_6_0_0))
    (View.ld x0 (Rect.unit (s := S1x114x114x128) (k4_off2 i 2#32) S1x2x112x128.size (k4_off2_inb i 2)))
    (View.ld x1 (Rect.unit (s := S9x128x128) ![7, 0, 0] S1x128x128.size inb_S9x128x128_S1x128x128_7_0_0))
    (View.ld x0 (Rect.unit (s := S1x114x114x128) (k4_off3 i 2#32) S1x2x112x128.size (k4_off3_inb i 2)))
    (View.ld x1 (Rect.unit (s := S9x128x128) ![8, 0, 0] S1x128x128.size inb_S9x128x128_S1x128x128_8_0_0))
    x2

set_option maxHeartbeats 1000000 in
/-- What the run leaves in the output's staging buffer is that payload of the input blocks. -/
theorem out4_eq (c : Dev nD) (i : grid4.Coords) (arg3 : Memref sig .tc .vmem S1x114x114x128 .f32) (harg3 : arg3.IsWhole) (arg4 : Memref sig .tc .vmem S9x128x128 .f32) (harg4 : arg4.IsWhole) (arg5 : Memref sig .tc .vmem S1x128 .f32) (harg5 : arg5.IsWhole) (arg6 : Memref sig .tc .vmem S1x2x112x128 .f32) (harg6 : arg6.IsWhole)
    (x0 : Vec F S1x114x114x128 .f32) (x1 : Vec F S9x128x128 .f32) (x2 : Vec F S1x128 .f32) :
    out4_A_3 c i arg3 harg3 arg4 harg4 arg5 harg5 arg6 harg6 x0 x1 x2 = conv4_pay i x0 x1 x2 := by
  unfold out4_A_3 conv4_pay
  rw [View.read_writes_eq_canon _ _ _ (cover4_A_3 c i arg3 harg3 arg4 harg4 arg5 harg5 arg6 harg6 x0 x1 x2)]
  unfold kernelRun4_A
  dsimp only
  sl_unfold_words
  rw [View.canon_unit_zero hz4]
  simp only [View.readAt_eq_ld, harg3.read_unread, harg4.read_unread, harg5.read_unread, View.ld_unit_zero (S := S1x128) hz2]

end Cert.ReferenceIdeal.Val

end
-- ==== Proof.RConv4.lean ====
/-
  Reference region 4: THE VALUE of its output array after the region, over the extended reals. Point (b, ct, r) of the
  grid works on batch b, output-channel tile ct and row chunk r: its image block is batch b of the padded input, its
  weights' and bias's blocks are tile ct, and its output block is rows 2·r … of batch b, channels of tile ct. What
  the body leaves there is the convolution's value (nine taps, bias, maximum with zero); every point writes its block
  back and the blocks cover the array; so the array, as a total function, is the 3×3 convolution with bias and ReLU of
  the region's padded input against its weights.
-/
import proofs.«100114_g2000204297211070_pallasbulk_1265_19_alg».proof.Proof.RConv4Pay
import proofs.«100114_g2000204297211070_pallasbulk_1265_19_alg».proof.Proof.RConv4Blk

set_option maxRecDepth 16384

noncomputable section

namespace Cert.ReferenceIdeal.Val

open Cert.ReferenceIdeal Cert.ReferenceIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Spec

variable (V : (c : Dev nD) → (b : Ref sig .tc) → Buf (Elt Ideal) ((c : Thread nD τ).loc b))

/-- The region's three input arrays and its blocks at a point, at their literal types. -/
abbrev X4 (c : Dev nD) : Vec Ideal S8x114x114x128 .f32 := V c (Pipeline.arrRef spec4 0)
abbrev W4 (c : Dev nD) : Vec Ideal S9x128x128 .f32 := V c (Pipeline.arrRef spec4 1)
abbrev B4 (c : Dev nD) : Vec Ideal S1x128 .f32 := V c (Pipeline.arrRef spec4 2)
abbrev xb4 (c : Dev nD) (t : Fin cfg4.N) : Vec Ideal S1x114x114x128 .f32 := iblk4 V c 0 t
abbrev wb4 (c : Dev nD) (t : Fin cfg4.N) : Vec Ideal S9x128x128 .f32 := iblk4 V c 1 t
abbrev bb4 (c : Dev nD) (t : Fin cfg4.N) : Vec Ideal S1x128 .f32 := iblk4 V c 2 t

/-- The four index maps at a point (b, ct, r): the image block is batch b; the weights' and the bias's block is output
    channel tile ct; the output block is row chunk r of batch b, channel tile ct. -/
theorem idx4_0 (t : Fin cfg4.N) : win4_0.index t = ![(grid4.coords t 0).val, 0, 0, 0] := by
  funext a
  show cc4_transform_0 (grid4.coords t) a = _
  match a with
  | ⟨0, _⟩ => exact toNat_coord (grid4.coords t 0) (by decide)
  | ⟨1, _⟩ => rfl
  | ⟨2, _⟩ => rfl
  | ⟨3, _⟩ => rfl
theorem idx4_1 (t : Fin cfg4.N) : win4_1.index t = ![0, 0, (grid4.coords t 1).val] := by
  funext a
  show cc4_transform_1 (grid4.coords t) a = _
  match a with
  | ⟨0, _⟩ => rfl
  | ⟨1, _⟩ => rfl
  | ⟨2, _⟩ => exact toNat_coord (grid4.coords t 1) (by decide)
theorem idx4_2 (t : Fin cfg4.N) : win4_2.index t = ![0, (grid4.coords t 1).val] := by
  funext a
  show cc4_transform_2 (grid4.coords t) a = _
  match a with
  | ⟨0, _⟩ => rfl
  | ⟨1, _⟩ => exact toNat_coord (grid4.coords t 1) (by decide)
theorem idx4_3 (t : Fin cfg4.N) : win4_3.index t = ![(grid4.coords t 0).val, (grid4.coords t 2).val, 0, (grid4.coords t 1).val] := by
  funext a
  show cc4_transform_3 (grid4.coords t) a = _
  match a with
  | ⟨0, _⟩ => exact toNat_coord (grid4.coords t 0) (by decide)
  | ⟨1, _⟩ => exact toNat_coord (grid4.coords t 2) (by decide)
  | ⟨2, _⟩ => rfl
  | ⟨3, _⟩ => exact toNat_coord (grid4.coords t 1) (by decide)

/-- The image block at a point is the point's batch of the padded image. -/
theorem xb4_apply (c : Dev nD) (t : Fin cfg4.N) (y0 : Fin 1) (I : Fin 114) (J : Fin 114) (ci : Fin 128) :
    xb4 V c t (ix4 y0 I J ci) = X4 V c (ix4 ⟨(grid4.coords t 0).val, (grid4.coords t 0).isLt⟩ I J ci) := by
  unfold xb4 iblk4
  rw [View.read_apply]
  show V c (Pipeline.arrRef spec4 0) _ = V c (Pipeline.arrRef spec4 0) _
  congr 1
  funext a
  apply Fin.ext
  have hi := idx4_0 t
  have h0 := y0.isLt
  match a with
  | ⟨0, _⟩ => show win4_0.index t 0 * 1 + 1 * y0.val = (grid4.coords t 0).val; rw [hi]; show (grid4.coords t 0).val * 1 + 1 * y0.val = _; omega
  | ⟨1, _⟩ => show win4_0.index t 1 * 114 + 1 * I.val = I.val; rw [hi]; show 0 * 114 + 1 * I.val = _; omega
  | ⟨2, _⟩ => show win4_0.index t 2 * 114 + 1 * J.val = J.val; rw [hi]; show 0 * 114 + 1 * J.val = _; omega
  | ⟨3, _⟩ => show win4_0.index t 3 * 128 + 1 * ci.val = ci.val; rw [hi]; show 0 * 128 + 1 * ci.val = _; omega

/-- The weights' block at a point is the point's tile of output channels of the weights. -/
theorem wb4_apply (c : Dev nD) (t : Fin cfg4.N) (k : Fin 9) (ci : Fin 128) (co : Fin 128) :
    wb4 V c t (ix3 k ci co) = W4 V c (ix3 k ci ⟨(grid4.coords t 1).val * 128 + co.val, by
      have h1 : (grid4.coords t 1).val < 1 := (grid4.coords t 1).isLt
      have := co.isLt; omega⟩) := by
  unfold wb4 iblk4
  rw [View.read_apply]
  show V c (Pipeline.arrRef spec4 1) _ = V c (Pipeline.arrRef spec4 1) _
  congr 1
  funext a
  apply Fin.ext
  have hi := idx4_1 t
  match a with
  | ⟨0, _⟩ => show win4_1.index t 0 * 9 + 1 * k.val = k.val; rw [hi]; show 0 * 9 + 1 * k.val = _; omega
  | ⟨1, _⟩ => show win4_1.index t 1 * 128 + 1 * ci.val = ci.val; rw [hi]; show 0 * 128 + 1 * ci.val = _; omega
  | ⟨2, _⟩ => show win4_1.index t 2 * 128 + 1 * co.val = (grid4.coords t 1).val * 128 + co.val; rw [hi]; show (grid4.coords t 1).val * 128 + 1 * co.val = _; omega

/-- The bias block at a point is the point's tile of output channels of the bias. -/
theorem bb4_apply (c : Dev nD) (t : Fin cfg4.N) (u : Fin 1) (co : Fin 128) :
    bb4 V c t (ix2 u co) = B4 V c (ix2 (0 : Fin 1) ⟨(grid4.coords t 1).val * 128 + co.val, by
      have h1 : (grid4.coords t 1).val < 1 := (grid4.coords t 1).isLt
      have := co.isLt; omega⟩) := by
  unfold bb4 iblk4
  rw [View.read_apply]
  show V c (Pipeline.arrRef spec4 2) _ = V c (Pipeline.arrRef spec4 2) _
  congr 1
  funext a
  apply Fin.ext
  have hi := idx4_2 t
  have h0 := u.isLt
  match a with
  | ⟨0, _⟩ => show win4_2.index t 0 * 1 + 1 * u.val = 0; rw [hi]; show 0 * 1 + 1 * u.val = _; omega
  | ⟨1, _⟩ => show win4_2.index t 1 * 128 + 1 * co.val = (grid4.coords t 1).val * 128 + co.val; rw [hi]; show (grid4.coords t 1).val * 128 + 1 * co.val = _; omega

/-- The same three facts over total functions of natural coordinates. -/
theorem arr4_xb4 (c : Dev nD) (t : Fin cfg4.N) (I J ci : ℕ) :
    arr4 (xb4 V c t) 0 I J ci = arr4 (X4 V c) (grid4.coords t 0).val I J ci := by
  unfold arr4
  by_cases h : I < 114 ∧ J < 114 ∧ ci < 128
  · have hl : 0 < 1 ∧ I < 114 ∧ J < 114 ∧ ci < 128 := ⟨by decide, h⟩
    have hr : (grid4.coords t 0).val < 8 ∧ I < 114 ∧ J < 114 ∧ ci < 128 := ⟨(grid4.coords t 0).isLt, h⟩
    rw [dif_pos hl, dif_pos hr]
    exact xb4_apply V c t _ _ _ _
  · have hl : ¬(0 < 1 ∧ I < 114 ∧ J < 114 ∧ ci < 128) := fun h' => h h'.2
    have hr : ¬((grid4.coords t 0).val < 8 ∧ I < 114 ∧ J < 114 ∧ ci < 128) := fun h' => h h'.2
    rw [dif_neg hl, dif_neg hr]

theorem arr3_wb4 (c : Dev nD) (t : Fin cfg4.N) (k ci co : ℕ) (hco : co < 128) :
    arr3 (wb4 V c t) k ci co = arr3 (W4 V c) k ci ((grid4.coords t 1).val * 128 + co) := by
  have h1 : (grid4.coords t 1).val < 1 := (grid4.coords t 1).isLt
  unfold arr3
  by_cases h : k < 9 ∧ ci < 128
  · have hl : k < 9 ∧ ci < 128 ∧ co < 128 := ⟨h.1, h.2, hco⟩
    have hr : k < 9 ∧ ci < 128 ∧ (grid4.coords t 1).val * 128 + co < 128 := ⟨h.1, h.2, by omega⟩
    rw [dif_pos hl, dif_pos hr]
    exact wb4_apply V c t ⟨k, h.1⟩ ⟨ci, h.2⟩ ⟨co, hco⟩
  · have hl : ¬(k < 9 ∧ ci < 128 ∧ co < 128) := fun h' => h ⟨h'.1, h'.2.1⟩
    have hr : ¬(k < 9 ∧ ci < 128 ∧ (grid4.coords t 1).val * 128 + co < 128) := fun h' => h ⟨h'.1, h'.2.1⟩
    rw [dif_neg hl, dif_neg hr]

theorem arr2_bb4 (c : Dev nD) (t : Fin cfg4.N) (u : Fin 1) (co : Fin 128) :
    bb4 V c t (ix2 u co) = arr2 (B4 V c) 0 ((grid4.coords t 1).val * 128 + co.val) := by
  have h1 : (grid4.coords t 1).val < 1 := (grid4.coords t 1).isLt
  have h2 := co.isLt
  have hc : 0 < 1 ∧ (grid4.coords t 1).val * 128 + co.val < 128 := ⟨by decide, by omega⟩
  rw [bb4_apply]
  unfold arr2
  rw [dif_pos hc]
  rfl

/-- One tap of the body at a point, for each of the three column offsets: the load at rows from `2 * (i 2).val + dy`, columns
    from dx, against weight slab k. -/
theorem tap4_1 (i : grid4.Coords) (x0 : Vec Ideal S1x114x114x128 .f32) (x1 : Vec Ideal S9x128x128 .f32) (dy : Fin 3) (k : ℕ)
    (inbw : ∀ a, (![k, 0, 0] : Fin 3 → ℕ) a + S1x128x128.size a ≤ S9x128x128.size a) (r : Fin 2) (j : Fin 112) (co : Fin 128) :
    tap (View.ld x0 (Rect.unit (s := S1x114x114x128) (k4_off1 i (BitVec.ofNat 32 dy.val)) S1x2x112x128.size (k4_off1_inb i dy)))
        (View.ld x1 (Rect.unit (s := S9x128x128) ![k, 0, 0] S1x128x128.size inbw)) r j co
      = ∑ ci ∈ Finset.range 128, arr4 x0 0 (2 * (i 2).val + dy.val + r.val) (0 + j.val) ci * arr3 x1 k ci co.val :=
  tap_ld x0 x1 _ _ _ _ r j co _ _ k (congrFun (k4_off1_eq i dy) 0) (congrFun (k4_off1_eq i dy) 1) (congrFun (k4_off1_eq i dy) 2)
    (congrFun (k4_off1_eq i dy) 3) rfl rfl rfl
theorem tap4_2 (i : grid4.Coords) (x0 : Vec Ideal S1x114x114x128 .f32) (x1 : Vec Ideal S9x128x128 .f32) (dy : Fin 3) (k : ℕ)
    (inbw : ∀ a, (![k, 0, 0] : Fin 3 → ℕ) a + S1x128x128.size a ≤ S9x128x128.size a) (r : Fin 2) (j : Fin 112) (co : Fin 128) :
    tap (View.ld x0 (Rect.unit (s := S1x114x114x128) (k4_off2 i (BitVec.ofNat 32 dy.val)) S1x2x112x128.size (k4_off2_inb i dy)))
        (View.ld x1 (Rect.unit (s := S9x128x128) ![k, 0, 0] S1x128x128.size inbw)) r j co
      = ∑ ci ∈ Finset.range 128, arr4 x0 0 (2 * (i 2).val + dy.val + r.val) (1 + j.val) ci * arr3 x1 k ci co.val :=
  tap_ld x0 x1 _ _ _ _ r j co _ _ k (congrFun (k4_off2_eq i dy) 0) (congrFun (k4_off2_eq i dy) 1) (congrFun (k4_off2_eq i dy) 2)
    (congrFun (k4_off2_eq i dy) 3) rfl rfl rfl
theorem tap4_3 (i : grid4.Coords) (x0 : Vec Ideal S1x114x114x128 .f32) (x1 : Vec Ideal S9x128x128 .f32) (dy : Fin 3) (k : ℕ)
    (inbw : ∀ a, (![k, 0, 0] : Fin 3 → ℕ) a + S1x128x128.size a ≤ S9x128x128.size a) (r : Fin 2) (j : Fin 112) (co : Fin 128) :
    tap (View.ld x0 (Rect.unit (s := S1x114x114x128) (k4_off3 i (BitVec.ofNat 32 dy.val)) S1x2x112x128.size (k4_off3_inb i dy)))
        (View.ld x1 (Rect.unit (s := S9x128x128) ![k, 0, 0] S1x128x128.size inbw)) r j co
      = ∑ ci ∈ Finset.range 128, arr4 x0 0 (2 * (i 2).val + dy.val + r.val) (2 + j.val) ci * arr3 x1 k ci co.val :=
  tap_ld x0 x1 _ _ _ _ r j co _ _ k (congrFun (k4_off3_eq i dy) 0) (congrFun (k4_off3_eq i dy) 1) (congrFun (k4_off3_eq i dy) 2)
    (congrFun (k4_off3_eq i dy) 3) rfl rfl rfl

/-- Tap k of the convolution at output pixel (i, j), channel co, of batch b. -/
abbrev tapf4 (c : Dev nD) (b i j co : ℕ) (k : ℕ) : EReal :=
  ∑ ci ∈ Finset.range 128, arr4 (X4 V c) b (i + k / 3) (j + k % 3) ci * arr3 (W4 V c) k ci co

/-- A tap read off the blocks at a point is the convolution's tap k = 3·dy + dx. -/
theorem tap_blocks4 (c : Dev nD) (t : Fin cfg4.N) (r : Fin 2) (j : Fin 112) (co : Fin 128) (k dy dx : ℕ) (hdy : k / 3 = dy) (hdx : k % 3 = dx) :
    (∑ ci ∈ Finset.range 128, arr4 (xb4 V c t) 0 (2 * (grid4.coords t 2).val + dy + r.val) (dx + j.val) ci * arr3 (wb4 V c t) k ci co.val)
      = tapf4 V c (grid4.coords t 0).val (2 * (grid4.coords t 2).val + r.val) j.val ((grid4.coords t 1).val * 128 + co.val) k := by
  unfold tapf4
  rw [hdy, hdx]
  have hR : 2 * (grid4.coords t 2).val + dy + r.val = 2 * (grid4.coords t 2).val + r.val + dy := by omega
  have hC : dx + j.val = j.val + dx := by omega
  refine Finset.sum_congr rfl fun ci _ => ?_
  rw [arr4_xb4, arr3_wb4 V c t k ci co.val co.isLt, hR, hC]

/-- THE BLOCK'S VALUE: after the body at a point, the output's staging buffer at pixel (r, j), channel co holds the
    convolution of the padded image at the point's batch, row and channel tile. -/
theorem blk_value4 (c : Dev nD) (t : Fin cfg4.N) (u : Fin 1) (r : Fin 2) (j : Fin 112) (co : Fin 128) :
    outsAt4 (F := Ideal) V c t (ix4 u r j co)
      = conv 128 (arr4 (X4 V c)) (arr3 (W4 V c)) (arr2 (B4 V c)) (grid4.coords t 0).val (2 * (grid4.coords t 2).val + r.val) j.val ((grid4.coords t 1).val * 128 + co.val) := by
  unfold outsAt4
  rw [out4_eq]
  unfold conv4_pay
  rw [pay4_apply]
  have T0 := tap4_1 (grid4.coords t) (xb4 V c t) (wb4 V c t) 0 0 inb_S9x128x128_S1x128x128_0_0_0 r j co
  have T1 := tap4_2 (grid4.coords t) (xb4 V c t) (wb4 V c t) 0 1 inb_S9x128x128_S1x128x128_1_0_0 r j co
  have T2 := tap4_3 (grid4.coords t) (xb4 V c t) (wb4 V c t) 0 2 inb_S9x128x128_S1x128x128_2_0_0 r j co
  have T3 := tap4_1 (grid4.coords t) (xb4 V c t) (wb4 V c t) 1 3 inb_S9x128x128_S1x128x128_3_0_0 r j co
  have T4 := tap4_2 (grid4.coords t) (xb4 V c t) (wb4 V c t) 1 4 inb_S9x128x128_S1x128x128_4_0_0 r j co
  have T5 := tap4_3 (grid4.coords t) (xb4 V c t) (wb4 V c t) 1 5 inb_S9x128x128_S1x128x128_5_0_0 r j co
  have T6 := tap4_1 (grid4.coords t) (xb4 V c t) (wb4 V c t) 2 6 inb_S9x128x128_S1x128x128_6_0_0 r j co
  have T7 := tap4_2 (grid4.coords t) (xb4 V c t) (wb4 V c t) 2 7 inb_S9x128x128_S1x128x128_7_0_0 r j co
  have T8 := tap4_3 (grid4.coords t) (xb4 V c t) (wb4 V c t) 2 8 inb_S9x128x128_S1x128x128_8_0_0 r j co
  refine (congrArg (fun s => max s 0) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) rfl
      (T0.trans (tap_blocks4 V c t r j co 0 0 0 rfl rfl)))
      (T1.trans (tap_blocks4 V c t r j co 1 0 1 rfl rfl)))
      (T2.trans (tap_blocks4 V c t r j co 2 0 2 rfl rfl)))
      (T3.trans (tap_blocks4 V c t r j co 3 1 0 rfl rfl)))
      (T4.trans (tap_blocks4 V c t r j co 4 1 1 rfl rfl)))
      (T5.trans (tap_blocks4 V c t r j co 5 1 2 rfl rfl)))
      (T6.trans (tap_blocks4 V c t r j co 6 2 0 rfl rfl)))
      (T7.trans (tap_blocks4 V c t r j co 7 2 1 rfl rfl)))
      (T8.trans (tap_blocks4 V c t r j co 8 2 2 rfl rfl)))
      (arr2_bb4 V c t 0 co))).trans ?_
  unfold conv
  rw [← chain9 (tapf4 V c (grid4.coords t 0).val (2 * (grid4.coords t 2).val + r.val) j.val ((grid4.coords t 1).val * 128 + co.val))]

/-- The convolution as an array of the output's extents. -/
def G4 (c : Dev nD) : Vec Ideal S8x112x112x128 .f32 := fun idx =>
  conv 128 (arr4 (X4 V c)) (arr3 (W4 V c)) (arr2 (B4 V c)) (idx 0).val (idx 1).val (idx 2).val (idx 3).val

/-- Every write-back writes the convolution's block: the block of point (b, ct, r) is row chunk r of batch b, channel tile ct. -/
theorem flushed_eq4 (c : Dev nD) (t : Fin cfg4.N) (hf : (cfg4.win 3).flush t = true) :
    (dat4 V c).flushed 3 t = ((cfg4.win 3).blk t).view.read (Elt Ideal) (G4 V c) := by
  show (cfg4.win 3).cut (grid4.coords t) ((dat4 V c).after 3 t) = _
  rw [after4_3]
  refine funext fun (y : S1x2x112x128.Idx) => ?_
  rw [View.read_apply]
  show outsAt4 V c t ((cfg4.win 3).xinj (grid4.coords t) y) = G4 V c (((cfg4.win 3).blk t).view.emb y)
  have hy : (cfg4.win 3).xinj (grid4.coords t) y = ix4 (n0 := 1) (n1 := 2) (n2 := 112) (n3 := 128) (y 0) (y 1) (y 2) (y 3) := funext fun (a : Fin 4) => by
    match a with
    | ⟨0, _⟩ => rfl
    | ⟨1, _⟩ => rfl
    | ⟨2, _⟩ => rfl
    | ⟨3, _⟩ => rfl
  rw [hy]
  refine (blk_value4 V c t (y 0) (y 1) (y 2) (y 3)).trans ?_
  unfold G4
  have hi := idx4_3 t
  have h0 : (y 0).val < 1 := (y 0).isLt
  refine congr (congr (congr (congrArg (conv 128 _ _ _) ?_) ?_) ?_) ?_
  · symm; show win4_3.index t 0 * 1 + 1 * (y 0).val = _; rw [hi]; show (grid4.coords t 0).val * 1 + 1 * (y 0).val = _; omega
  · symm; show win4_3.index t 1 * 2 + 1 * (y 1).val = _; rw [hi]; show (grid4.coords t 2).val * 2 + 1 * (y 1).val = _; omega
  · symm; show win4_3.index t 2 * 112 + 1 * (y 2).val = _; rw [hi]; show 0 * 112 + 1 * (y 2).val = _; omega
  · symm; show win4_3.index t 3 * 128 + 1 * (y 3).val = _; rw [hi]; show (grid4.coords t 1).val * 128 + 1 * (y 3).val = _; omega

/-- The blocks cover the output: pixel (b, i, j, co) lies in the block of point (b, co / 128, i / 2). -/
theorem cover4 (c : Dev nD) (idx : S8x112x112x128.Idx) :
    ∃ t : Fin cfg4.N, (cfg4.win 3).flush t = true ∧ idx ∈ ((cfg4.win 3).blk t).view.set := by
  have h0 : (idx 0).val < 8 := (idx 0).isLt
  have h1 : (idx 1).val < 112 := (idx 1).isLt
  have h2 : (idx 2).val < 112 := (idx 2).isLt
  have h3 : (idx 3).val < 128 := (idx 3).isLt
  have hN : cfg4.N = 448 := N_4
  have hlt : ((idx 0).val * 1 + (idx 3).val / 128) * 56 + (idx 1).val / 2 < cfg4.N := by rw [hN]; omega
  obtain ⟨t, ht⟩ : ∃ t : Fin cfg4.N, t.val = ((idx 0).val * 1 + (idx 3).val / 128) * 56 + (idx 1).val / 2 := ⟨⟨_, hlt⟩, rfl⟩
  refine ⟨t, flush4_3 t, ?_⟩
  have hset : ((cfg4.win 3).blk t).view.set = (win4_3.rect t).set := View.set_slice_whole main_v10 (win4_3.rect t)
  rw [hset, Rect.mem_set_unit]
  have hi := idx4_3 t
  have c0 : (grid4.coords t 0).val = (idx 0).val := by
    show t.val / 56 % 8 = _; rw [ht]; omega
  have c1 : (grid4.coords t 1).val = (idx 3).val / 128 := by
    show t.val / 56 % 1 = _; rw [ht]; omega
  have c2 : (grid4.coords t 2).val = (idx 1).val / 2 := by
    show t.val / 1 % 56 = _; rw [ht]; omega
  intro a
  match a with
  | ⟨0, _⟩ =>
    show win4_3.index t 0 * 1 ≤ (idx 0 : ℕ) ∧ (idx 0 : ℕ) < win4_3.index t 0 * 1 + 1
    rw [hi]; show (grid4.coords t 0).val * 1 ≤ (idx 0 : ℕ) ∧ (idx 0 : ℕ) < (grid4.coords t 0).val * 1 + 1
    rw [c0]; omega
  | ⟨1, _⟩ =>
    show win4_3.index t 1 * 2 ≤ (idx 1 : ℕ) ∧ (idx 1 : ℕ) < win4_3.index t 1 * 2 + 2
    rw [hi]; show (grid4.coords t 2).val * 2 ≤ (idx 1 : ℕ) ∧ (idx 1 : ℕ) < (grid4.coords t 2).val * 2 + 2
    rw [c2]; omega
  | ⟨2, _⟩ =>
    show win4_3.index t 2 * 112 ≤ (idx 2 : ℕ) ∧ (idx 2 : ℕ) < win4_3.index t 2 * 112 + 112
    rw [hi]; show 0 * 112 ≤ (idx 2 : ℕ) ∧ (idx 2 : ℕ) < 0 * 112 + 112
    omega
  | ⟨3, _⟩ =>
    show win4_3.index t 3 * 128 ≤ (idx 3 : ℕ) ∧ (idx 3 : ℕ) < win4_3.index t 3 * 128 + 128
    rw [hi]; show (grid4.coords t 1).val * 128 ≤ (idx 3 : ℕ) ∧ (idx 3 : ℕ) < (grid4.coords t 1).val * 128 + 128
    rw [c1]; omega

/-- So the output array after the region is the convolution. -/
theorem conv4_array (c : Dev nD) : (dat4 V c).arrAt 3 cfg4.N = G4 V c :=
  (dat4 V c).arrAt_eq_of_cover 3 (G4 V c) (flushed_eq4 V c) (cover4 c)

/-- THE REGION'S VALUE: the output array, as a total function, is the 3×3 convolution with bias and ReLU of the region's
    padded input against its weights. -/
theorem conv4_value (c : Dev nD) (b i j co : ℕ) (hb : b < 8) (hi : i < 112) (hj : j < 112) (hco : co < 128) :
    arr4 ((dat4 (F := Ideal) V c).arrAt 3 cfg4.N : Vec Ideal S8x112x112x128 .f32) b i j co
      = conv 128 (arr4 (X4 V c)) (arr3 (W4 V c)) (arr2 (B4 V c)) b i j co := by
  have hc : b < 8 ∧ i < 112 ∧ j < 112 ∧ co < 128 := ⟨hb, hi, hj, hco⟩
  rw [conv4_array]
  unfold arr4
  rw [dif_pos hc]
  rfl

end Cert.ReferenceIdeal.Val

end
-- ==== Proof.RConv6Pay.lean ====
/-
  Reference region 6: the body's payload read at an index, over the extended reals. The body adds nine products — the
  image rows at row offset dy and column offset dx, as a matrix of 224 rows of 128 channels, times weight slab 3·dy + dx —
  in order from zero, adds the bias row and takes the maximum with zero; so at pixel (r, j) and output channel co the
  payload is the nine taps summed, plus the bias, against zero.
-/
import proofs.«100114_g2000204297211070_pallasbulk_1265_19_alg».proof.Proof.Gen.ReferenceIdeal.Skeleton
import proofs.«100114_g2000204297211070_pallasbulk_1265_19_alg».proof.Proof.ConvAlg

noncomputable section

namespace Cert.ReferenceIdeal.Val

open Cert.ReferenceIdeal Cert.ReferenceIdeal.Gen
open Idealize.ShloMosaic Idealize.ShloMosaic.ValueIdx
open Cert.Spec

theorem dot6_plain : dot_S224x128_S128x128_S224x128_1_0_0_1_n_n = DotDims.plain 224 128 128 := rfl

/-- The first three taps, added in order from zero, at row r·56 + j of the accumulator. -/
theorem pay6_1_apply (v5 : Vec Ideal S1x4x56x128 .f32) (v8 : Vec Ideal S1x128x128 .f32) (v14 : Vec Ideal S1x4x56x128 .f32) (v17 : Vec Ideal S1x128x128 .f32) (v23 : Vec Ideal S1x4x56x128 .f32) (v26 : Vec Ideal S1x128x128 .f32)
    (r : Fin 4) (j : Fin 56) (co : Fin 128) (p : Fin 224) (hp : p.val = r.val * 56 + j.val) :
    k6_pay1 v5 v8 v14 v17 v23 v26 (ix2 p co) = 0 + tap v5 v8 r j co + tap v14 v17 r j co + tap v23 v26 r j co := by
  unfold k6_pay1
  simp only [matmul, addf_apply, broadcast_apply]
  rw [tap_matmul_zero _ dot6_plain none v5 v8 _ _ _ r j co p hp, tap_matmul_zero _ dot6_plain none v14 v17 _ _ _ r j co p hp,
    tap_matmul_zero _ dot6_plain none v23 v26 _ _ _ r j co p hp, ofBits_zero]

/-- The next three taps added onto the accumulator. -/
theorem pay6_2_apply (v29 : FVec Ideal S224x128 .f32) (v32 : Vec Ideal S1x4x56x128 .f32) (v35 : Vec Ideal S1x128x128 .f32) (v41 : Vec Ideal S1x4x56x128 .f32) (v44 : Vec Ideal S1x128x128 .f32) (v50 : Vec Ideal S1x4x56x128 .f32) (v53 : Vec Ideal S1x128x128 .f32)
    (r : Fin 4) (j : Fin 56) (co : Fin 128) (p : Fin 224) (hp : p.val = r.val * 56 + j.val) :
    k6_pay2 v29 v32 v35 v41 v44 v50 v53 (ix2 p co) = v29 (ix2 p co) + tap v32 v35 r j co + tap v41 v44 r j co + tap v50 v53 r j co := by
  unfold k6_pay2
  simp only [matmul, addf_apply]
  rw [tap_matmul_zero _ dot6_plain none v32 v35 _ _ _ r j co p hp, tap_matmul_zero _ dot6_plain none v41 v44 _ _ _ r j co p hp,
    tap_matmul_zero _ dot6_plain none v50 v53 _ _ _ r j co p hp]

/-- The last three taps added onto the accumulator, then the bias, then the maximum with zero, read back as a block. -/
theorem pay6_4_apply (v56 : FVec Ideal S224x128 .f32) (v59 : Vec Ideal S1x4x56x128 .f32) (v62 : Vec Ideal S1x128x128 .f32) (v68 : Vec Ideal S1x4x56x128 .f32) (v71 : Vec Ideal S1x128x128 .f32) (v77 : Vec Ideal S1x4x56x128 .f32) (v80 : Vec Ideal S1x128x128 .f32) (v84 : Vec Ideal S1x128 .f32)
    (u : Fin 1) (r : Fin 4) (j : Fin 56) (co : Fin 128) (p : Fin 224) (hp : p.val = r.val * 56 + j.val) :
    k6_pay4 v56 (k6_pay3 v59) v62 v68 v71 v77 v80 v84 (ix4 u r j co)
      = max (v56 (ix2 p co) + tap v59 v62 r j co + tap v68 v71 r j co + tap v77 v80 r j co + v84 (ix2 (0 : Fin 1) co)) 0 := by
  unfold k6_pay4 k6_pay3
  rw [rows_out_apply _ _ _ u r j co p hp]
  simp only [matmul, addf_apply, maximumf_apply, broadcast_apply]
  rw [tap_matmul_zero _ dot6_plain none v59 v62 _ _ _ r j co p hp, tap_matmul_zero _ dot6_plain none v68 v71 _ _ _ r j co p hp,
    tap_matmul_zero _ dot6_plain none v77 v80 _ _ _ r j co p hp, broadcastTo_1b_ab_apply, ofBits_zero]

/-- The whole payload at pixel (r, j), output channel co: the nine taps summed, plus the bias, against zero. -/
theorem pay6_apply (v5 : Vec Ideal S1x4x56x128 .f32) (v8 : Vec Ideal S1x128x128 .f32) (v14 : Vec Ideal S1x4x56x128 .f32) (v17 : Vec Ideal S1x128x128 .f32) (v23 : Vec Ideal S1x4x56x128 .f32) (v26 : Vec Ideal S1x128x128 .f32)
    (v32 : Vec Ideal S1x4x56x128 .f32) (v35 : Vec Ideal S1x128x128 .f32) (v41 : Vec Ideal S1x4x56x128 .f32) (v44 : Vec Ideal S1x128x128 .f32) (v50 : Vec Ideal S1x4x56x128 .f32) (v53 : Vec Ideal S1x128x128 .f32)
    (v59 : Vec Ideal S1x4x56x128 .f32) (v62 : Vec Ideal S1x128x128 .f32) (v68 : Vec Ideal S1x4x56x128 .f32) (v71 : Vec Ideal S1x128x128 .f32) (v77 : Vec Ideal S1x4x56x128 .f32) (v80 : Vec Ideal S1x128x128 .f32) (v84 : Vec Ideal S1x128 .f32)
    (u : Fin 1) (r : Fin 4) (j : Fin 56) (co : Fin 128) :
    k6_pay4 (k6_pay2 (k6_pay1 v5 v8 v14 v17 v23 v26) v32 v35 v41 v44 v50 v53) (k6_pay3 v59) v62 v68 v71 v77 v80 v84 (ix4 u r j co)
      = max (0 + tap v5 v8 r j co + tap v14 v17 r j co + tap v23 v26 r j co + tap v32 v35 r j co + tap v41 v44 r j co + tap v50 v53 r j co
          + tap v59 v62 r j co + tap v68 v71 r j co + tap v77 v80 r j co + v84 (ix2 (0 : Fin 1) co)) 0 := by
  have hlt : r.val * 56 + j.val < 224 := by have := r.isLt; have := j.isLt; omega
  rw [pay6_4_apply _ v59 v62 v68 v71 v77 v80 v84 u r j co ⟨r.val * 56 + j.val, hlt⟩ rfl,
    pay6_2_apply _ v32 v35 v41 v44 v50 v53 r j co ⟨r.val * 56 + j.val, hlt⟩ rfl,
    pay6_1_apply v5 v8 v14 v17 v23 v26 r j co ⟨r.val * 56 + j.val, hlt⟩ rfl]

end Cert.ReferenceIdeal.Val

end
-- ==== Proof.RConv6Blk.lean ====
/-
  Reference region 6: what the body leaves in the output's staging buffer, as a function of the three input blocks.
  The body loads nine windows of the image block (rows from 4 * (i 2).val + dy, columns from dx), the nine weight slabs and
  the bias block, and stores one value over the whole output block: the payload of those loads.
-/
import proofs.«100114_g2000204297211070_pallasbulk_1265_19_alg».proof.Proof.Gen.ReferenceIdeal.Frame
import proofs.«100114_g2000204297211070_pallasbulk_1265_19_alg».proof.Proof.ConvAlg
import Idealize.ShloMosaic.Lib.Pipeline.Value
import Idealize.ShloMosaic.Lib.Tactic

set_option maxRecDepth 16384

noncomputable section

namespace Cert.ReferenceIdeal.Val

open Cert.ReferenceIdeal Cert.ReferenceIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Spec

variable {F : FTy → Type} [FloatOps F]

/-- The body's one store, as a function of the three input blocks: the payload of the nine loaded image rows (row
    offset dy = 0, 1, 2, column offset dx = 0, 1, 2), the nine loaded weight slabs and the bias block. -/
def conv6_pay (i : grid6.Coords) (x0 : Vec F S1x58x58x128 .f32) (x1 : Vec F S9x128x128 .f32) (x2 : Vec F S1x128 .f32) : Vec F S1x4x56x128 .f32 :=
  k6_pay4
    (k6_pay2
      (k6_pay1
        (View.ld x0 (Rect.unit (s := S1x58x58x128) (k6_off1 i 0#32) S1x4x56x128.size (k6_off1_inb i 0)))
        (View.ld x1 (Rect.unit (s := S9x128x128) ![0, 0, 0] S1x128x128.size inb_S9x128x128_S1x128x128_0_0_0))
        (View.ld x0 (Rect.unit (s := S1x58x58x128) (k6_off2 i 0#32) S1x4x56x128.size (k6_off2_inb i 0)))
        (View.ld x1 (Rect.unit (s := S9x128x128) ![1, 0, 0] S1x128x128.size inb_S9x128x128_S1x128x128_1_0_0))
        (View.ld x0 (Rect.unit (s := S1x58x58x128) (k6_off3 i 0#32) S1x4x56x128.size (k6_off3_inb i 0)))
        (View.ld x1 (Rect.unit (s := S9x128x128) ![2, 0, 0] S1x128x128.size inb_S9x128x128_S1x128x128_2_0_0)))
      (View.ld x0 (Rect.unit (s := S1x58x58x128) (k6_off1 i 1#32) S1x4x56x128.size (k6_off1_inb i 1)))
      (View.ld x1 (Rect.unit (s := S9x128x128) ![3, 0, 0] S1x128x128.size inb_S9x128x128_S1x128x128_3_0_0))
      (View.ld x0 (Rect.unit (s := S1x58x58x128) (k6_off2 i 1#32) S1x4x56x128.size (k6_off2_inb i 1)))
      (View.ld x1 (Rect.unit (s := S9x128x128) ![4, 0, 0] S1x128x128.size inb_S9x128x128_S1x128x128_4_0_0))
      (View.ld x0 (Rect.unit (s := S1x58x58x128) (k6_off3 i 1#32) S1x4x56x128.size (k6_off3_inb i 1)))
      (View.ld x1 (Rect.unit (s := S9x128x128) ![5, 0, 0] S1x128x128.size inb_S9x128x128_S1x128x128_5_0_0)))
    (k6_pay3 (View.ld x0 (Rect.unit (s := S1x58x58x128) (k6_off1 i 2#32) S1x4x56x128.size (k6_off1_inb i 2))))
    (View.ld x1 (Rect.unit (s := S9x128x128) ![6, 0, 0] S1x128x128.size inb_S9x128x128_S1x128x128_6_0_0))
    (View.ld x0 (Rect.unit (s := S1x58x58x128) (k6_off2 i 2#32) S1x4x56x128.size (k6_off2_inb i 2)))
    (View.ld x1 (Rect.unit (s := S9x128x128) ![7, 0, 0] S1x128x128.size inb_S9x128x128_S1x128x128_7_0_0))
    (View.ld x0 (Rect.unit (s := S1x58x58x128) (k6_off3 i 2#32) S1x4x56x128.size (k6_off3_inb i 2)))
    (View.ld x1 (Rect.unit (s := S9x128x128) ![8, 0, 0] S1x128x128.size inb_S9x128x128_S1x128x128_8_0_0))
    x2

set_option maxHeartbeats 1000000 in
/-- What the run leaves in the output's staging buffer is that payload of the input blocks. -/
theorem out6_eq (c : Dev nD) (i : grid6.Coords) (arg3 : Memref sig .tc .vmem S1x58x58x128 .f32) (harg3 : arg3.IsWhole) (arg4 : Memref sig .tc .vmem S9x128x128 .f32) (harg4 : arg4.IsWhole) (arg5 : Memref sig .tc .vmem S1x128 .f32) (harg5 : arg5.IsWhole) (arg6 : Memref sig .tc .vmem S1x4x56x128 .f32) (harg6 : arg6.IsWhole)
    (x0 : Vec F S1x58x58x128 .f32) (x1 : Vec F S9x128x128 .f32) (x2 : Vec F S1x128 .f32) :
    out6_A_3 c i arg3 harg3 arg4 harg4 arg5 harg5 arg6 harg6 x0 x1 x2 = conv6_pay i x0 x1 x2 := by
  unfold out6_A_3 conv6_pay
  rw [View.read_writes_eq_canon _ _ _ (cover6_A_3 c i arg3 harg3 arg4 harg4 arg5 harg5 arg6 harg6 x0 x1 x2)]
  unfold kernelRun6_A
  dsimp only
  sl_unfold_words
  rw [View.canon_unit_zero hz4]
  simp only [View.readAt_eq_ld, harg3.read_unread, harg4.read_unread, harg5.read_unread, View.ld_unit_zero (S := S1x128) hz2]

end Cert.ReferenceIdeal.Val

end
-- ==== Proof.RConv6.lean ====
/-
  Reference region 6: THE VALUE of its output array after the region, over the extended reals. Point (b, ct, r) of the
  grid works on batch b, output-channel tile ct and row chunk r: its image block is batch b of the padded input, its
  weights' and bias's blocks are tile ct, and its output block is rows 4·r … of batch b, channels of tile ct. What
  the body leaves there is the convolution's value (nine taps, bias, maximum with zero); every point writes its block
  back and the blocks cover the array; so the array, as a total function, is the 3×3 convolution with bias and ReLU of
  the region's padded input against its weights.
-/
import proofs.«100114_g2000204297211070_pallasbulk_1265_19_alg».proof.Proof.RConv6Pay
import proofs.«100114_g2000204297211070_pallasbulk_1265_19_alg».proof.Proof.RConv6Blk

set_option maxRecDepth 16384

noncomputable section

namespace Cert.ReferenceIdeal.Val

open Cert.ReferenceIdeal Cert.ReferenceIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Spec

variable (V : (c : Dev nD) → (b : Ref sig .tc) → Buf (Elt Ideal) ((c : Thread nD τ).loc b))

/-- The region's three input arrays and its blocks at a point, at their literal types. -/
abbrev X6 (c : Dev nD) : Vec Ideal S8x58x58x128 .f32 := V c (Pipeline.arrRef spec6 0)
abbrev W6 (c : Dev nD) : Vec Ideal S9x128x256 .f32 := V c (Pipeline.arrRef spec6 1)
abbrev B6 (c : Dev nD) : Vec Ideal S1x256 .f32 := V c (Pipeline.arrRef spec6 2)
abbrev xb6 (c : Dev nD) (t : Fin cfg6.N) : Vec Ideal S1x58x58x128 .f32 := iblk6 V c 0 t
abbrev wb6 (c : Dev nD) (t : Fin cfg6.N) : Vec Ideal S9x128x128 .f32 := iblk6 V c 1 t
abbrev bb6 (c : Dev nD) (t : Fin cfg6.N) : Vec Ideal S1x128 .f32 := iblk6 V c 2 t

/-- The four index maps at a point (b, ct, r): the image block is batch b; the weights' and the bias's block is output
    channel tile ct; the output block is row chunk r of batch b, channel tile ct. -/
theorem idx6_0 (t : Fin cfg6.N) : win6_0.index t = ![(grid6.coords t 0).val, 0, 0, 0] := by
  funext a
  show cc6_transform_0 (grid6.coords t) a = _
  match a with
  | ⟨0, _⟩ => exact toNat_coord (grid6.coords t 0) (by decide)
  | ⟨1, _⟩ => rfl
  | ⟨2, _⟩ => rfl
  | ⟨3, _⟩ => rfl
theorem idx6_1 (t : Fin cfg6.N) : win6_1.index t = ![0, 0, (grid6.coords t 1).val] := by
  funext a
  show cc6_transform_1 (grid6.coords t) a = _
  match a with
  | ⟨0, _⟩ => rfl
  | ⟨1, _⟩ => rfl
  | ⟨2, _⟩ => exact toNat_coord (grid6.coords t 1) (by decide)
theorem idx6_2 (t : Fin cfg6.N) : win6_2.index t = ![0, (grid6.coords t 1).val] := by
  funext a
  show cc6_transform_2 (grid6.coords t) a = _
  match a with
  | ⟨0, _⟩ => rfl
  | ⟨1, _⟩ => exact toNat_coord (grid6.coords t 1) (by decide)
theorem idx6_3 (t : Fin cfg6.N) : win6_3.index t = ![(grid6.coords t 0).val, (grid6.coords t 2).val, 0, (grid6.coords t 1).val] := by
  funext a
  show cc6_transform_3 (grid6.coords t) a = _
  match a with
  | ⟨0, _⟩ => exact toNat_coord (grid6.coords t 0) (by decide)
  | ⟨1, _⟩ => exact toNat_coord (grid6.coords t 2) (by decide)
  | ⟨2, _⟩ => rfl
  | ⟨3, _⟩ => exact toNat_coord (grid6.coords t 1) (by decide)

/-- The image block at a point is the point's batch of the padded image. -/
theorem xb6_apply (c : Dev nD) (t : Fin cfg6.N) (y0 : Fin 1) (I : Fin 58) (J : Fin 58) (ci : Fin 128) :
    xb6 V c t (ix4 y0 I J ci) = X6 V c (ix4 ⟨(grid6.coords t 0).val, (grid6.coords t 0).isLt⟩ I J ci) := by
  unfold xb6 iblk6
  rw [View.read_apply]
  show V c (Pipeline.arrRef spec6 0) _ = V c (Pipeline.arrRef spec6 0) _
  congr 1
  funext a
  apply Fin.ext
  have hi := idx6_0 t
  have h0 := y0.isLt
  match a with
  | ⟨0, _⟩ => show win6_0.index t 0 * 1 + 1 * y0.val = (grid6.coords t 0).val; rw [hi]; show (grid6.coords t 0).val * 1 + 1 * y0.val = _; omega
  | ⟨1, _⟩ => show win6_0.index t 1 * 58 + 1 * I.val = I.val; rw [hi]; show 0 * 58 + 1 * I.val = _; omega
  | ⟨2, _⟩ => show win6_0.index t 2 * 58 + 1 * J.val = J.val; rw [hi]; show 0 * 58 + 1 * J.val = _; omega
  | ⟨3, _⟩ => show win6_0.index t 3 * 128 + 1 * ci.val = ci.val; rw [hi]; show 0 * 128 + 1 * ci.val = _; omega

/-- The weights' block at a point is the point's tile of output channels of the weights. -/
theorem wb6_apply (c : Dev nD) (t : Fin cfg6.N) (k : Fin 9) (ci : Fin 128) (co : Fin 128) :
    wb6 V c t (ix3 k ci co) = W6 V c (ix3 k ci ⟨(grid6.coords t 1).val * 128 + co.val, by
      have h1 : (grid6.coords t 1).val < 2 := (grid6.coords t 1).isLt
      have := co.isLt; omega⟩) := by
  unfold wb6 iblk6
  rw [View.read_apply]
  show V c (Pipeline.arrRef spec6 1) _ = V c (Pipeline.arrRef spec6 1) _
  congr 1
  funext a
  apply Fin.ext
  have hi := idx6_1 t
  match a with
  | ⟨0, _⟩ => show win6_1.index t 0 * 9 + 1 * k.val = k.val; rw [hi]; show 0 * 9 + 1 * k.val = _; omega
  | ⟨1, _⟩ => show win6_1.index t 1 * 128 + 1 * ci.val = ci.val; rw [hi]; show 0 * 128 + 1 * ci.val = _; omega
  | ⟨2, _⟩ => show win6_1.index t 2 * 128 + 1 * co.val = (grid6.coords t 1).val * 128 + co.val; rw [hi]; show (grid6.coords t 1).val * 128 + 1 * co.val = _; omega

/-- The bias block at a point is the point's tile of output channels of the bias. -/
theorem bb6_apply (c : Dev nD) (t : Fin cfg6.N) (u : Fin 1) (co : Fin 128) :
    bb6 V c t (ix2 u co) = B6 V c (ix2 (0 : Fin 1) ⟨(grid6.coords t 1).val * 128 + co.val, by
      have h1 : (grid6.coords t 1).val < 2 := (grid6.coords t 1).isLt
      have := co.isLt; omega⟩) := by
  unfold bb6 iblk6
  rw [View.read_apply]
  show V c (Pipeline.arrRef spec6 2) _ = V c (Pipeline.arrRef spec6 2) _
  congr 1
  funext a
  apply Fin.ext
  have hi := idx6_2 t
  have h0 := u.isLt
  match a with
  | ⟨0, _⟩ => show win6_2.index t 0 * 1 + 1 * u.val = 0; rw [hi]; show 0 * 1 + 1 * u.val = _; omega
  | ⟨1, _⟩ => show win6_2.index t 1 * 128 + 1 * co.val = (grid6.coords t 1).val * 128 + co.val; rw [hi]; show (grid6.coords t 1).val * 128 + 1 * co.val = _; omega

/-- The same three facts over total functions of natural coordinates. -/
theorem arr4_xb6 (c : Dev nD) (t : Fin cfg6.N) (I J ci : ℕ) :
    arr4 (xb6 V c t) 0 I J ci = arr4 (X6 V c) (grid6.coords t 0).val I J ci := by
  unfold arr4
  by_cases h : I < 58 ∧ J < 58 ∧ ci < 128
  · have hl : 0 < 1 ∧ I < 58 ∧ J < 58 ∧ ci < 128 := ⟨by decide, h⟩
    have hr : (grid6.coords t 0).val < 8 ∧ I < 58 ∧ J < 58 ∧ ci < 128 := ⟨(grid6.coords t 0).isLt, h⟩
    rw [dif_pos hl, dif_pos hr]
    exact xb6_apply V c t _ _ _ _
  · have hl : ¬(0 < 1 ∧ I < 58 ∧ J < 58 ∧ ci < 128) := fun h' => h h'.2
    have hr : ¬((grid6.coords t 0).val < 8 ∧ I < 58 ∧ J < 58 ∧ ci < 128) := fun h' => h h'.2
    rw [dif_neg hl, dif_neg hr]

theorem arr3_wb6 (c : Dev nD) (t : Fin cfg6.N) (k ci co : ℕ) (hco : co < 128) :
    arr3 (wb6 V c t) k ci co = arr3 (W6 V c) k ci ((grid6.coords t 1).val * 128 + co) := by
  have h1 : (grid6.coords t 1).val < 2 := (grid6.coords t 1).isLt
  unfold arr3
  by_cases h : k < 9 ∧ ci < 128
  · have hl : k < 9 ∧ ci < 128 ∧ co < 128 := ⟨h.1, h.2, hco⟩
    have hr : k < 9 ∧ ci < 128 ∧ (grid6.coords t 1).val * 128 + co < 256 := ⟨h.1, h.2, by omega⟩
    rw [dif_pos hl, dif_pos hr]
    exact wb6_apply V c t ⟨k, h.1⟩ ⟨ci, h.2⟩ ⟨co, hco⟩
  · have hl : ¬(k < 9 ∧ ci < 128 ∧ co < 128) := fun h' => h ⟨h'.1, h'.2.1⟩
    have hr : ¬(k < 9 ∧ ci < 128 ∧ (grid6.coords t 1).val * 128 + co < 256) := fun h' => h ⟨h'.1, h'.2.1⟩
    rw [dif_neg hl, dif_neg hr]

theorem arr2_bb6 (c : Dev nD) (t : Fin cfg6.N) (u : Fin 1) (co : Fin 128) :
    bb6 V c t (ix2 u co) = arr2 (B6 V c) 0 ((grid6.coords t 1).val * 128 + co.val) := by
  have h1 : (grid6.coords t 1).val < 2 := (grid6.coords t 1).isLt
  have h2 := co.isLt
  have hc : 0 < 1 ∧ (grid6.coords t 1).val * 128 + co.val < 256 := ⟨by decide, by omega⟩
  rw [bb6_apply]
  unfold arr2
  rw [dif_pos hc]
  rfl

/-- One tap of the body at a point, for each of the three column offsets: the load at rows from `4 * (i 2).val + dy`, columns
    from dx, against weight slab k. -/
theorem tap6_1 (i : grid6.Coords) (x0 : Vec Ideal S1x58x58x128 .f32) (x1 : Vec Ideal S9x128x128 .f32) (dy : Fin 3) (k : ℕ)
    (inbw : ∀ a, (![k, 0, 0] : Fin 3 → ℕ) a + S1x128x128.size a ≤ S9x128x128.size a) (r : Fin 4) (j : Fin 56) (co : Fin 128) :
    tap (View.ld x0 (Rect.unit (s := S1x58x58x128) (k6_off1 i (BitVec.ofNat 32 dy.val)) S1x4x56x128.size (k6_off1_inb i dy)))
        (View.ld x1 (Rect.unit (s := S9x128x128) ![k, 0, 0] S1x128x128.size inbw)) r j co
      = ∑ ci ∈ Finset.range 128, arr4 x0 0 (4 * (i 2).val + dy.val + r.val) (0 + j.val) ci * arr3 x1 k ci co.val :=
  tap_ld x0 x1 _ _ _ _ r j co _ _ k (congrFun (k6_off1_eq i dy) 0) (congrFun (k6_off1_eq i dy) 1) (congrFun (k6_off1_eq i dy) 2)
    (congrFun (k6_off1_eq i dy) 3) rfl rfl rfl
theorem tap6_2 (i : grid6.Coords) (x0 : Vec Ideal S1x58x58x128 .f32) (x1 : Vec Ideal S9x128x128 .f32) (dy : Fin 3) (k : ℕ)
    (inbw : ∀ a, (![k, 0, 0] : Fin 3 → ℕ) a + S1x128x128.size a ≤ S9x128x128.size a) (r : Fin 4) (j : Fin 56) (co : Fin 128) :
    tap (View.ld x0 (Rect.unit (s := S1x58x58x128) (k6_off2 i (BitVec.ofNat 32 dy.val)) S1x4x56x128.size (k6_off2_inb i dy)))
        (View.ld x1 (Rect.unit (s := S9x128x128) ![k, 0, 0] S1x128x128.size inbw)) r j co
      = ∑ ci ∈ Finset.range 128, arr4 x0 0 (4 * (i 2).val + dy.val + r.val) (1 + j.val) ci * arr3 x1 k ci co.val :=
  tap_ld x0 x1 _ _ _ _ r j co _ _ k (congrFun (k6_off2_eq i dy) 0) (congrFun (k6_off2_eq i dy) 1) (congrFun (k6_off2_eq i dy) 2)
    (congrFun (k6_off2_eq i dy) 3) rfl rfl rfl
theorem tap6_3 (i : grid6.Coords) (x0 : Vec Ideal S1x58x58x128 .f32) (x1 : Vec Ideal S9x128x128 .f32) (dy : Fin 3) (k : ℕ)
    (inbw : ∀ a, (![k, 0, 0] : Fin 3 → ℕ) a + S1x128x128.size a ≤ S9x128x128.size a) (r : Fin 4) (j : Fin 56) (co : Fin 128) :
    tap (View.ld x0 (Rect.unit (s := S1x58x58x128) (k6_off3 i (BitVec.ofNat 32 dy.val)) S1x4x56x128.size (k6_off3_inb i dy)))
        (View.ld x1 (Rect.unit (s := S9x128x128) ![k, 0, 0] S1x128x128.size inbw)) r j co
      = ∑ ci ∈ Finset.range 128, arr4 x0 0 (4 * (i 2).val + dy.val + r.val) (2 + j.val) ci * arr3 x1 k ci co.val :=
  tap_ld x0 x1 _ _ _ _ r j co _ _ k (congrFun (k6_off3_eq i dy) 0) (congrFun (k6_off3_eq i dy) 1) (congrFun (k6_off3_eq i dy) 2)
    (congrFun (k6_off3_eq i dy) 3) rfl rfl rfl

/-- Tap k of the convolution at output pixel (i, j), channel co, of batch b. -/
abbrev tapf6 (c : Dev nD) (b i j co : ℕ) (k : ℕ) : EReal :=
  ∑ ci ∈ Finset.range 128, arr4 (X6 V c) b (i + k / 3) (j + k % 3) ci * arr3 (W6 V c) k ci co

/-- A tap read off the blocks at a point is the convolution's tap k = 3·dy + dx. -/
theorem tap_blocks6 (c : Dev nD) (t : Fin cfg6.N) (r : Fin 4) (j : Fin 56) (co : Fin 128) (k dy dx : ℕ) (hdy : k / 3 = dy) (hdx : k % 3 = dx) :
    (∑ ci ∈ Finset.range 128, arr4 (xb6 V c t) 0 (4 * (grid6.coords t 2).val + dy + r.val) (dx + j.val) ci * arr3 (wb6 V c t) k ci co.val)
      = tapf6 V c (grid6.coords t 0).val (4 * (grid6.coords t 2).val + r.val) j.val ((grid6.coords t 1).val * 128 + co.val) k := by
  unfold tapf6
  rw [hdy, hdx]
  have hR : 4 * (grid6.coords t 2).val + dy + r.val = 4 * (grid6.coords t 2).val + r.val + dy := by omega
  have hC : dx + j.val = j.val + dx := by omega
  refine Finset.sum_congr rfl fun ci _ => ?_
  rw [arr4_xb6, arr3_wb6 V c t k ci co.val co.isLt, hR, hC]

/-- THE BLOCK'S VALUE: after the body at a point, the output's staging buffer at pixel (r, j), channel co holds the
    convolution of the padded image at the point's batch, row and channel tile. -/
theorem blk_value6 (c : Dev nD) (t : Fin cfg6.N) (u : Fin 1) (r : Fin 4) (j : Fin 56) (co : Fin 128) :
    outsAt6 (F := Ideal) V c t (ix4 u r j co)
      = conv 128 (arr4 (X6 V c)) (arr3 (W6 V c)) (arr2 (B6 V c)) (grid6.coords t 0).val (4 * (grid6.coords t 2).val + r.val) j.val ((grid6.coords t 1).val * 128 + co.val) := by
  unfold outsAt6
  rw [out6_eq]
  unfold conv6_pay
  rw [pay6_apply]
  have T0 := tap6_1 (grid6.coords t) (xb6 V c t) (wb6 V c t) 0 0 inb_S9x128x128_S1x128x128_0_0_0 r j co
  have T1 := tap6_2 (grid6.coords t) (xb6 V c t) (wb6 V c t) 0 1 inb_S9x128x128_S1x128x128_1_0_0 r j co
  have T2 := tap6_3 (grid6.coords t) (xb6 V c t) (wb6 V c t) 0 2 inb_S9x128x128_S1x128x128_2_0_0 r j co
  have T3 := tap6_1 (grid6.coords t) (xb6 V c t) (wb6 V c t) 1 3 inb_S9x128x128_S1x128x128_3_0_0 r j co
  have T4 := tap6_2 (grid6.coords t) (xb6 V c t) (wb6 V c t) 1 4 inb_S9x128x128_S1x128x128_4_0_0 r j co
  have T5 := tap6_3 (grid6.coords t) (xb6 V c t) (wb6 V c t) 1 5 inb_S9x128x128_S1x128x128_5_0_0 r j co
  have T6 := tap6_1 (grid6.coords t) (xb6 V c t) (wb6 V c t) 2 6 inb_S9x128x128_S1x128x128_6_0_0 r j co
  have T7 := tap6_2 (grid6.coords t) (xb6 V c t) (wb6 V c t) 2 7 inb_S9x128x128_S1x128x128_7_0_0 r j co
  have T8 := tap6_3 (grid6.coords t) (xb6 V c t) (wb6 V c t) 2 8 inb_S9x128x128_S1x128x128_8_0_0 r j co
  refine (congrArg (fun s => max s 0) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) rfl
      (T0.trans (tap_blocks6 V c t r j co 0 0 0 rfl rfl)))
      (T1.trans (tap_blocks6 V c t r j co 1 0 1 rfl rfl)))
      (T2.trans (tap_blocks6 V c t r j co 2 0 2 rfl rfl)))
      (T3.trans (tap_blocks6 V c t r j co 3 1 0 rfl rfl)))
      (T4.trans (tap_blocks6 V c t r j co 4 1 1 rfl rfl)))
      (T5.trans (tap_blocks6 V c t r j co 5 1 2 rfl rfl)))
      (T6.trans (tap_blocks6 V c t r j co 6 2 0 rfl rfl)))
      (T7.trans (tap_blocks6 V c t r j co 7 2 1 rfl rfl)))
      (T8.trans (tap_blocks6 V c t r j co 8 2 2 rfl rfl)))
      (arr2_bb6 V c t 0 co))).trans ?_
  unfold conv
  rw [← chain9 (tapf6 V c (grid6.coords t 0).val (4 * (grid6.coords t 2).val + r.val) j.val ((grid6.coords t 1).val * 128 + co.val))]

/-- The convolution as an array of the output's extents. -/
def G6 (c : Dev nD) : Vec Ideal S8x56x56x256 .f32 := fun idx =>
  conv 128 (arr4 (X6 V c)) (arr3 (W6 V c)) (arr2 (B6 V c)) (idx 0).val (idx 1).val (idx 2).val (idx 3).val

/-- Every write-back writes the convolution's block: the block of point (b, ct, r) is row chunk r of batch b, channel tile ct. -/
theorem flushed_eq6 (c : Dev nD) (t : Fin cfg6.N) (hf : (cfg6.win 3).flush t = true) :
    (dat6 V c).flushed 3 t = ((cfg6.win 3).blk t).view.read (Elt Ideal) (G6 V c) := by
  show (cfg6.win 3).cut (grid6.coords t) ((dat6 V c).after 3 t) = _
  rw [after6_3]
  refine funext fun (y : S1x4x56x128.Idx) => ?_
  rw [View.read_apply]
  show outsAt6 V c t ((cfg6.win 3).xinj (grid6.coords t) y) = G6 V c (((cfg6.win 3).blk t).view.emb y)
  have hy : (cfg6.win 3).xinj (grid6.coords t) y = ix4 (n0 := 1) (n1 := 4) (n2 := 56) (n3 := 128) (y 0) (y 1) (y 2) (y 3) := funext fun (a : Fin 4) => by
    match a with
    | ⟨0, _⟩ => rfl
    | ⟨1, _⟩ => rfl
    | ⟨2, _⟩ => rfl
    | ⟨3, _⟩ => rfl
  rw [hy]
  refine (blk_value6 V c t (y 0) (y 1) (y 2) (y 3)).trans ?_
  unfold G6
  have hi := idx6_3 t
  have h0 : (y 0).val < 1 := (y 0).isLt
  refine congr (congr (congr (congrArg (conv 128 _ _ _) ?_) ?_) ?_) ?_
  · symm; show win6_3.index t 0 * 1 + 1 * (y 0).val = _; rw [hi]; show (grid6.coords t 0).val * 1 + 1 * (y 0).val = _; omega
  · symm; show win6_3.index t 1 * 4 + 1 * (y 1).val = _; rw [hi]; show (grid6.coords t 2).val * 4 + 1 * (y 1).val = _; omega
  · symm; show win6_3.index t 2 * 56 + 1 * (y 2).val = _; rw [hi]; show 0 * 56 + 1 * (y 2).val = _; omega
  · symm; show win6_3.index t 3 * 128 + 1 * (y 3).val = _; rw [hi]; show (grid6.coords t 1).val * 128 + 1 * (y 3).val = _; omega

/-- The blocks cover the output: pixel (b, i, j, co) lies in the block of point (b, co / 128, i / 4). -/
theorem cover6 (c : Dev nD) (idx : S8x56x56x256.Idx) :
    ∃ t : Fin cfg6.N, (cfg6.win 3).flush t = true ∧ idx ∈ ((cfg6.win 3).blk t).view.set := by
  have h0 : (idx 0).val < 8 := (idx 0).isLt
  have h1 : (idx 1).val < 56 := (idx 1).isLt
  have h2 : (idx 2).val < 56 := (idx 2).isLt
  have h3 : (idx 3).val < 256 := (idx 3).isLt
  have hN : cfg6.N = 224 := N_6
  have hlt : ((idx 0).val * 2 + (idx 3).val / 128) * 14 + (idx 1).val / 4 < cfg6.N := by rw [hN]; omega
  obtain ⟨t, ht⟩ : ∃ t : Fin cfg6.N, t.val = ((idx 0).val * 2 + (idx 3).val / 128) * 14 + (idx 1).val / 4 := ⟨⟨_, hlt⟩, rfl⟩
  refine ⟨t, flush6_3 t, ?_⟩
  have hset : ((cfg6.win 3).blk t).view.set = (win6_3.rect t).set := View.set_slice_whole main_v14 (win6_3.rect t)
  rw [hset, Rect.mem_set_unit]
  have hi := idx6_3 t
  have c0 : (grid6.coords t 0).val = (idx 0).val := by
    show t.val / 28 % 8 = _; rw [ht]; omega
  have c1 : (grid6.coords t 1).val = (idx 3).val / 128 := by
    show t.val / 14 % 2 = _; rw [ht]; omega
  have c2 : (grid6.coords t 2).val = (idx 1).val / 4 := by
    show t.val / 1 % 14 = _; rw [ht]; omega
  intro a
  match a with
  | ⟨0, _⟩ =>
    show win6_3.index t 0 * 1 ≤ (idx 0 : ℕ) ∧ (idx 0 : ℕ) < win6_3.index t 0 * 1 + 1
    rw [hi]; show (grid6.coords t 0).val * 1 ≤ (idx 0 : ℕ) ∧ (idx 0 : ℕ) < (grid6.coords t 0).val * 1 + 1
    rw [c0]; omega
  | ⟨1, _⟩ =>
    show win6_3.index t 1 * 4 ≤ (idx 1 : ℕ) ∧ (idx 1 : ℕ) < win6_3.index t 1 * 4 + 4
    rw [hi]; show (grid6.coords t 2).val * 4 ≤ (idx 1 : ℕ) ∧ (idx 1 : ℕ) < (grid6.coords t 2).val * 4 + 4
    rw [c2]; omega
  | ⟨2, _⟩ =>
    show win6_3.index t 2 * 56 ≤ (idx 2 : ℕ) ∧ (idx 2 : ℕ) < win6_3.index t 2 * 56 + 56
    rw [hi]; show 0 * 56 ≤ (idx 2 : ℕ) ∧ (idx 2 : ℕ) < 0 * 56 + 56
    omega
  | ⟨3, _⟩ =>
    show win6_3.index t 3 * 128 ≤ (idx 3 : ℕ) ∧ (idx 3 : ℕ) < win6_3.index t 3 * 128 + 128
    rw [hi]; show (grid6.coords t 1).val * 128 ≤ (idx 3 : ℕ) ∧ (idx 3 : ℕ) < (grid6.coords t 1).val * 128 + 128
    rw [c1]; omega

/-- So the output array after the region is the convolution. -/
theorem conv6_array (c : Dev nD) : (dat6 V c).arrAt 3 cfg6.N = G6 V c :=
  (dat6 V c).arrAt_eq_of_cover 3 (G6 V c) (flushed_eq6 V c) (cover6 c)

/-- THE REGION'S VALUE: the output array, as a total function, is the 3×3 convolution with bias and ReLU of the region's
    padded input against its weights. -/
theorem conv6_value (c : Dev nD) (b i j co : ℕ) (hb : b < 8) (hi : i < 56) (hj : j < 56) (hco : co < 256) :
    arr4 ((dat6 (F := Ideal) V c).arrAt 3 cfg6.N : Vec Ideal S8x56x56x256 .f32) b i j co
      = conv 128 (arr4 (X6 V c)) (arr3 (W6 V c)) (arr2 (B6 V c)) b i j co := by
  have hc : b < 8 ∧ i < 56 ∧ j < 56 ∧ co < 256 := ⟨hb, hi, hj, hco⟩
  rw [conv6_array]
  unfold arr4
  rw [dif_pos hc]
  rfl

end Cert.ReferenceIdeal.Val

end
-- ==== Proof.RConv7Pay.lean ====
/-
  Reference region 7: the body's payload read at an index, over the extended reals. The body adds nine products — the
  image rows at row offset dy and column offset dx, as a matrix of 224 rows of 256 channels, times weight slab 3·dy + dx —
  in order from zero, adds the bias row and takes the maximum with zero; so at pixel (r, j) and output channel co the
  payload is the nine taps summed, plus the bias, against zero.
-/
import proofs.«100114_g2000204297211070_pallasbulk_1265_19_alg».proof.Proof.Gen.ReferenceIdeal.Skeleton
import proofs.«100114_g2000204297211070_pallasbulk_1265_19_alg».proof.Proof.ConvAlg

noncomputable section

namespace Cert.ReferenceIdeal.Val

open Cert.ReferenceIdeal Cert.ReferenceIdeal.Gen
open Idealize.ShloMosaic Idealize.ShloMosaic.ValueIdx
open Cert.Spec

theorem dot7_plain : dot_S224x256_S256x128_S224x128_1_0_0_1_n_n = DotDims.plain 224 256 128 := rfl

/-- The first three taps, added in order from zero, at row r·56 + j of the accumulator. -/
theorem pay7_1_apply (v5 : Vec Ideal S1x4x56x256 .f32) (v8 : Vec Ideal S1x256x128 .f32) (v14 : Vec Ideal S1x4x56x256 .f32) (v17 : Vec Ideal S1x256x128 .f32) (v23 : Vec Ideal S1x4x56x256 .f32) (v26 : Vec Ideal S1x256x128 .f32)
    (r : Fin 4) (j : Fin 56) (co : Fin 128) (p : Fin 224) (hp : p.val = r.val * 56 + j.val) :
    k7_pay1 v5 v8 v14 v17 v23 v26 (ix2 p co) = 0 + tap v5 v8 r j co + tap v14 v17 r j co + tap v23 v26 r j co := by
  unfold k7_pay1
  simp only [matmul, addf_apply, broadcast_apply]
  rw [tap_matmul_zero _ dot7_plain none v5 v8 _ _ _ r j co p hp, tap_matmul_zero _ dot7_plain none v14 v17 _ _ _ r j co p hp,
    tap_matmul_zero _ dot7_plain none v23 v26 _ _ _ r j co p hp, ofBits_zero]

/-- The next three taps added onto the accumulator. -/
theorem pay7_2_apply (v29 : FVec Ideal S224x128 .f32) (v32 : Vec Ideal S1x4x56x256 .f32) (v35 : Vec Ideal S1x256x128 .f32) (v41 : Vec Ideal S1x4x56x256 .f32) (v44 : Vec Ideal S1x256x128 .f32) (v50 : Vec Ideal S1x4x56x256 .f32) (v53 : Vec Ideal S1x256x128 .f32)
    (r : Fin 4) (j : Fin 56) (co : Fin 128) (p : Fin 224) (hp : p.val = r.val * 56 + j.val) :
    k7_pay2 v29 v32 v35 v41 v44 v50 v53 (ix2 p co) = v29 (ix2 p co) + tap v32 v35 r j co + tap v41 v44 r j co + tap v50 v53 r j co := by
  unfold k7_pay2
  simp only [matmul, addf_apply]
  rw [tap_matmul_zero _ dot7_plain none v32 v35 _ _ _ r j co p hp, tap_matmul_zero _ dot7_plain none v41 v44 _ _ _ r j co p hp,
    tap_matmul_zero _ dot7_plain none v50 v53 _ _ _ r j co p hp]

/-- The last three taps added onto the accumulator, then the bias, then the maximum with zero, read back as a block. -/
theorem pay7_4_apply (v56 : FVec Ideal S224x128 .f32) (v59 : Vec Ideal S1x4x56x256 .f32) (v62 : Vec Ideal S1x256x128 .f32) (v68 : Vec Ideal S1x4x56x256 .f32) (v71 : Vec Ideal S1x256x128 .f32) (v77 : Vec Ideal S1x4x56x256 .f32) (v80 : Vec Ideal S1x256x128 .f32) (v84 : Vec Ideal S1x128 .f32)
    (u : Fin 1) (r : Fin 4) (j : Fin 56) (co : Fin 128) (p : Fin 224) (hp : p.val = r.val * 56 + j.val) :
    k7_pay4 v56 (k7_pay3 v59) v62 v68 v71 v77 v80 v84 (ix4 u r j co)
      = max (v56 (ix2 p co) + tap v59 v62 r j co + tap v68 v71 r j co + tap v77 v80 r j co + v84 (ix2 (0 : Fin 1) co)) 0 := by
  unfold k7_pay4 k7_pay3
  rw [rows_out_apply _ _ _ u r j co p hp]
  simp only [matmul, addf_apply, maximumf_apply, broadcast_apply]
  rw [tap_matmul_zero _ dot7_plain none v59 v62 _ _ _ r j co p hp, tap_matmul_zero _ dot7_plain none v68 v71 _ _ _ r j co p hp,
    tap_matmul_zero _ dot7_plain none v77 v80 _ _ _ r j co p hp, broadcastTo_1b_ab_apply, ofBits_zero]

/-- The whole payload at pixel (r, j), output channel co: the nine taps summed, plus the bias, against zero. -/
theorem pay7_apply (v5 : Vec Ideal S1x4x56x256 .f32) (v8 : Vec Ideal S1x256x128 .f32) (v14 : Vec Ideal S1x4x56x256 .f32) (v17 : Vec Ideal S1x256x128 .f32) (v23 : Vec Ideal S1x4x56x256 .f32) (v26 : Vec Ideal S1x256x128 .f32)
    (v32 : Vec Ideal S1x4x56x256 .f32) (v35 : Vec Ideal S1x256x128 .f32) (v41 : Vec Ideal S1x4x56x256 .f32) (v44 : Vec Ideal S1x256x128 .f32) (v50 : Vec Ideal S1x4x56x256 .f32) (v53 : Vec Ideal S1x256x128 .f32)
    (v59 : Vec Ideal S1x4x56x256 .f32) (v62 : Vec Ideal S1x256x128 .f32) (v68 : Vec Ideal S1x4x56x256 .f32) (v71 : Vec Ideal S1x256x128 .f32) (v77 : Vec Ideal S1x4x56x256 .f32) (v80 : Vec Ideal S1x256x128 .f32) (v84 : Vec Ideal S1x128 .f32)
    (u : Fin 1) (r : Fin 4) (j : Fin 56) (co : Fin 128) :
    k7_pay4 (k7_pay2 (k7_pay1 v5 v8 v14 v17 v23 v26) v32 v35 v41 v44 v50 v53) (k7_pay3 v59) v62 v68 v71 v77 v80 v84 (ix4 u r j co)
      = max (0 + tap v5 v8 r j co + tap v14 v17 r j co + tap v23 v26 r j co + tap v32 v35 r j co + tap v41 v44 r j co + tap v50 v53 r j co
          + tap v59 v62 r j co + tap v68 v71 r j co + tap v77 v80 r j co + v84 (ix2 (0 : Fin 1) co)) 0 := by
  have hlt : r.val * 56 + j.val < 224 := by have := r.isLt; have := j.isLt; omega
  rw [pay7_4_apply _ v59 v62 v68 v71 v77 v80 v84 u r j co ⟨r.val * 56 + j.val, hlt⟩ rfl,
    pay7_2_apply _ v32 v35 v41 v44 v50 v53 r j co ⟨r.val * 56 + j.val, hlt⟩ rfl,
    pay7_1_apply v5 v8 v14 v17 v23 v26 r j co ⟨r.val * 56 + j.val, hlt⟩ rfl]

end Cert.ReferenceIdeal.Val

end
-- ==== Proof.RConv7Blk.lean ====
/-
  Reference region 7: what the body leaves in the output's staging buffer, as a function of the three input blocks.
  The body loads nine windows of the image block (rows from 4 * (i 2).val + dy, columns from dx), the nine weight slabs and
  the bias block, and stores one value over the whole output block: the payload of those loads.
-/
import proofs.«100114_g2000204297211070_pallasbulk_1265_19_alg».proof.Proof.Gen.ReferenceIdeal.Frame
import proofs.«100114_g2000204297211070_pallasbulk_1265_19_alg».proof.Proof.ConvAlg
import Idealize.ShloMosaic.Lib.Pipeline.Value
import Idealize.ShloMosaic.Lib.Tactic

set_option maxRecDepth 16384

noncomputable section

namespace Cert.ReferenceIdeal.Val

open Cert.ReferenceIdeal Cert.ReferenceIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Spec

variable {F : FTy → Type} [FloatOps F]

/-- The body's one store, as a function of the three input blocks: the payload of the nine loaded image rows (row
    offset dy = 0, 1, 2, column offset dx = 0, 1, 2), the nine loaded weight slabs and the bias block. -/
def conv7_pay (i : grid7.Coords) (x0 : Vec F S1x58x58x256 .f32) (x1 : Vec F S9x256x128 .f32) (x2 : Vec F S1x128 .f32) : Vec F S1x4x56x128 .f32 :=
  k7_pay4
    (k7_pay2
      (k7_pay1
        (View.ld x0 (Rect.unit (s := S1x58x58x256) (k7_off1 i 0#32) S1x4x56x256.size (k7_off1_inb i 0)))
        (View.ld x1 (Rect.unit (s := S9x256x128) ![0, 0, 0] S1x256x128.size inb_S9x256x128_S1x256x128_0_0_0))
        (View.ld x0 (Rect.unit (s := S1x58x58x256) (k7_off2 i 0#32) S1x4x56x256.size (k7_off2_inb i 0)))
        (View.ld x1 (Rect.unit (s := S9x256x128) ![1, 0, 0] S1x256x128.size inb_S9x256x128_S1x256x128_1_0_0))
        (View.ld x0 (Rect.unit (s := S1x58x58x256) (k7_off3 i 0#32) S1x4x56x256.size (k7_off3_inb i 0)))
        (View.ld x1 (Rect.unit (s := S9x256x128) ![2, 0, 0] S1x256x128.size inb_S9x256x128_S1x256x128_2_0_0)))
      (View.ld x0 (Rect.unit (s := S1x58x58x256) (k7_off1 i 1#32) S1x4x56x256.size (k7_off1_inb i 1)))
      (View.ld x1 (Rect.unit (s := S9x256x128) ![3, 0, 0] S1x256x128.size inb_S9x256x128_S1x256x128_3_0_0))
      (View.ld x0 (Rect.unit (s := S1x58x58x256) (k7_off2 i 1#32) S1x4x56x256.size (k7_off2_inb i 1)))
      (View.ld x1 (Rect.unit (s := S9x256x128) ![4, 0, 0] S1x256x128.size inb_S9x256x128_S1x256x128_4_0_0))
      (View.ld x0 (Rect.unit (s := S1x58x58x256) (k7_off3 i 1#32) S1x4x56x256.size (k7_off3_inb i 1)))
      (View.ld x1 (Rect.unit (s := S9x256x128) ![5, 0, 0] S1x256x128.size inb_S9x256x128_S1x256x128_5_0_0)))
    (k7_pay3 (View.ld x0 (Rect.unit (s := S1x58x58x256) (k7_off1 i 2#32) S1x4x56x256.size (k7_off1_inb i 2))))
    (View.ld x1 (Rect.unit (s := S9x256x128) ![6, 0, 0] S1x256x128.size inb_S9x256x128_S1x256x128_6_0_0))
    (View.ld x0 (Rect.unit (s := S1x58x58x256) (k7_off2 i 2#32) S1x4x56x256.size (k7_off2_inb i 2)))
    (View.ld x1 (Rect.unit (s := S9x256x128) ![7, 0, 0] S1x256x128.size inb_S9x256x128_S1x256x128_7_0_0))
    (View.ld x0 (Rect.unit (s := S1x58x58x256) (k7_off3 i 2#32) S1x4x56x256.size (k7_off3_inb i 2)))
    (View.ld x1 (Rect.unit (s := S9x256x128) ![8, 0, 0] S1x256x128.size inb_S9x256x128_S1x256x128_8_0_0))
    x2

set_option maxHeartbeats 1000000 in
/-- What the run leaves in the output's staging buffer is that payload of the input blocks. -/
theorem out7_eq (c : Dev nD) (i : grid7.Coords) (arg3 : Memref sig .tc .vmem S1x58x58x256 .f32) (harg3 : arg3.IsWhole) (arg4 : Memref sig .tc .vmem S9x256x128 .f32) (harg4 : arg4.IsWhole) (arg5 : Memref sig .tc .vmem S1x128 .f32) (harg5 : arg5.IsWhole) (arg6 : Memref sig .tc .vmem S1x4x56x128 .f32) (harg6 : arg6.IsWhole)
    (x0 : Vec F S1x58x58x256 .f32) (x1 : Vec F S9x256x128 .f32) (x2 : Vec F S1x128 .f32) :
    out7_A_3 c i arg3 harg3 arg4 harg4 arg5 harg5 arg6 harg6 x0 x1 x2 = conv7_pay i x0 x1 x2 := by
  unfold out7_A_3 conv7_pay
  rw [View.read_writes_eq_canon _ _ _ (cover7_A_3 c i arg3 harg3 arg4 harg4 arg5 harg5 arg6 harg6 x0 x1 x2)]
  unfold kernelRun7_A
  dsimp only
  sl_unfold_words
  rw [View.canon_unit_zero hz4]
  simp only [View.readAt_eq_ld, harg3.read_unread, harg4.read_unread, harg5.read_unread, View.ld_unit_zero (S := S1x128) hz2]

end Cert.ReferenceIdeal.Val

end
-- ==== Proof.RConv7.lean ====
/-
  Reference region 7: THE VALUE of its output array after the region, over the extended reals. Point (b, ct, r) of the
  grid works on batch b, output-channel tile ct and row chunk r: its image block is batch b of the padded input, its
  weights' and bias's blocks are tile ct, and its output block is rows 4·r … of batch b, channels of tile ct. What
  the body leaves there is the convolution's value (nine taps, bias, maximum with zero); every point writes its block
  back and the blocks cover the array; so the array, as a total function, is the 3×3 convolution with bias and ReLU of
  the region's padded input against its weights.
-/
import proofs.«100114_g2000204297211070_pallasbulk_1265_19_alg».proof.Proof.RConv7Pay
import proofs.«100114_g2000204297211070_pallasbulk_1265_19_alg».proof.Proof.RConv7Blk

set_option maxRecDepth 16384

noncomputable section

namespace Cert.ReferenceIdeal.Val

open Cert.ReferenceIdeal Cert.ReferenceIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Spec

variable (V : (c : Dev nD) → (b : Ref sig .tc) → Buf (Elt Ideal) ((c : Thread nD τ).loc b))

/-- The region's three input arrays and its blocks at a point, at their literal types. -/
abbrev X7 (c : Dev nD) : Vec Ideal S8x58x58x256 .f32 := V c (Pipeline.arrRef spec7 0)
abbrev W7 (c : Dev nD) : Vec Ideal S9x256x256 .f32 := V c (Pipeline.arrRef spec7 1)
abbrev B7 (c : Dev nD) : Vec Ideal S1x256 .f32 := V c (Pipeline.arrRef spec7 2)
abbrev xb7 (c : Dev nD) (t : Fin cfg7.N) : Vec Ideal S1x58x58x256 .f32 := iblk7 V c 0 t
abbrev wb7 (c : Dev nD) (t : Fin cfg7.N) : Vec Ideal S9x256x128 .f32 := iblk7 V c 1 t
abbrev bb7 (c : Dev nD) (t : Fin cfg7.N) : Vec Ideal S1x128 .f32 := iblk7 V c 2 t

/-- The four index maps at a point (b, ct, r): the image block is batch b; the weights' and the bias's block is output
    channel tile ct; the output block is row chunk r of batch b, channel tile ct. -/
theorem idx7_0 (t : Fin cfg7.N) : win7_0.index t = ![(grid7.coords t 0).val, 0, 0, 0] := by
  funext a
  show cc7_transform_0 (grid7.coords t) a = _
  match a with
  | ⟨0, _⟩ => exact toNat_coord (grid7.coords t 0) (by decide)
  | ⟨1, _⟩ => rfl
  | ⟨2, _⟩ => rfl
  | ⟨3, _⟩ => rfl
theorem idx7_1 (t : Fin cfg7.N) : win7_1.index t = ![0, 0, (grid7.coords t 1).val] := by
  funext a
  show cc7_transform_1 (grid7.coords t) a = _
  match a with
  | ⟨0, _⟩ => rfl
  | ⟨1, _⟩ => rfl
  | ⟨2, _⟩ => exact toNat_coord (grid7.coords t 1) (by decide)
theorem idx7_2 (t : Fin cfg7.N) : win7_2.index t = ![0, (grid7.coords t 1).val] := by
  funext a
  show cc7_transform_2 (grid7.coords t) a = _
  match a with
  | ⟨0, _⟩ => rfl
  | ⟨1, _⟩ => exact toNat_coord (grid7.coords t 1) (by decide)
theorem idx7_3 (t : Fin cfg7.N) : win7_3.index t = ![(grid7.coords t 0).val, (grid7.coords t 2).val, 0, (grid7.coords t 1).val] := by
  funext a
  show cc7_transform_3 (grid7.coords t) a = _
  match a with
  | ⟨0, _⟩ => exact toNat_coord (grid7.coords t 0) (by decide)
  | ⟨1, _⟩ => exact toNat_coord (grid7.coords t 2) (by decide)
  | ⟨2, _⟩ => rfl
  | ⟨3, _⟩ => exact toNat_coord (grid7.coords t 1) (by decide)

/-- The image block at a point is the point's batch of the padded image. -/
theorem xb7_apply (c : Dev nD) (t : Fin cfg7.N) (y0 : Fin 1) (I : Fin 58) (J : Fin 58) (ci : Fin 256) :
    xb7 V c t (ix4 y0 I J ci) = X7 V c (ix4 ⟨(grid7.coords t 0).val, (grid7.coords t 0).isLt⟩ I J ci) := by
  unfold xb7 iblk7
  rw [View.read_apply]
  show V c (Pipeline.arrRef spec7 0) _ = V c (Pipeline.arrRef spec7 0) _
  congr 1
  funext a
  apply Fin.ext
  have hi := idx7_0 t
  have h0 := y0.isLt
  match a with
  | ⟨0, _⟩ => show win7_0.index t 0 * 1 + 1 * y0.val = (grid7.coords t 0).val; rw [hi]; show (grid7.coords t 0).val * 1 + 1 * y0.val = _; omega
  | ⟨1, _⟩ => show win7_0.index t 1 * 58 + 1 * I.val = I.val; rw [hi]; show 0 * 58 + 1 * I.val = _; omega
  | ⟨2, _⟩ => show win7_0.index t 2 * 58 + 1 * J.val = J.val; rw [hi]; show 0 * 58 + 1 * J.val = _; omega
  | ⟨3, _⟩ => show win7_0.index t 3 * 256 + 1 * ci.val = ci.val; rw [hi]; show 0 * 256 + 1 * ci.val = _; omega

/-- The weights' block at a point is the point's tile of output channels of the weights. -/
theorem wb7_apply (c : Dev nD) (t : Fin cfg7.N) (k : Fin 9) (ci : Fin 256) (co : Fin 128) :
    wb7 V c t (ix3 k ci co) = W7 V c (ix3 k ci ⟨(grid7.coords t 1).val * 128 + co.val, by
      have h1 : (grid7.coords t 1).val < 2 := (grid7.coords t 1).isLt
      have := co.isLt; omega⟩) := by
  unfold wb7 iblk7
  rw [View.read_apply]
  show V c (Pipeline.arrRef spec7 1) _ = V c (Pipeline.arrRef spec7 1) _
  congr 1
  funext a
  apply Fin.ext
  have hi := idx7_1 t
  match a with
  | ⟨0, _⟩ => show win7_1.index t 0 * 9 + 1 * k.val = k.val; rw [hi]; show 0 * 9 + 1 * k.val = _; omega
  | ⟨1, _⟩ => show win7_1.index t 1 * 256 + 1 * ci.val = ci.val; rw [hi]; show 0 * 256 + 1 * ci.val = _; omega
  | ⟨2, _⟩ => show win7_1.index t 2 * 128 + 1 * co.val = (grid7.coords t 1).val * 128 + co.val; rw [hi]; show (grid7.coords t 1).val * 128 + 1 * co.val = _; omega

/-- The bias block at a point is the point's tile of output channels of the bias. -/
theorem bb7_apply (c : Dev nD) (t : Fin cfg7.N) (u : Fin 1) (co : Fin 128) :
    bb7 V c t (ix2 u co) = B7 V c (ix2 (0 : Fin 1) ⟨(grid7.coords t 1).val * 128 + co.val, by
      have h1 : (grid7.coords t 1).val < 2 := (grid7.coords t 1).isLt
      have := co.isLt; omega⟩) := by
  unfold bb7 iblk7
  rw [View.read_apply]
  show V c (Pipeline.arrRef spec7 2) _ = V c (Pipeline.arrRef spec7 2) _
  congr 1
  funext a
  apply Fin.ext
  have hi := idx7_2 t
  have h0 := u.isLt
  match a with
  | ⟨0, _⟩ => show win7_2.index t 0 * 1 + 1 * u.val = 0; rw [hi]; show 0 * 1 + 1 * u.val = _; omega
  | ⟨1, _⟩ => show win7_2.index t 1 * 128 + 1 * co.val = (grid7.coords t 1).val * 128 + co.val; rw [hi]; show (grid7.coords t 1).val * 128 + 1 * co.val = _; omega

/-- The same three facts over total functions of natural coordinates. -/
theorem arr4_xb7 (c : Dev nD) (t : Fin cfg7.N) (I J ci : ℕ) :
    arr4 (xb7 V c t) 0 I J ci = arr4 (X7 V c) (grid7.coords t 0).val I J ci := by
  unfold arr4
  by_cases h : I < 58 ∧ J < 58 ∧ ci < 256
  · have hl : 0 < 1 ∧ I < 58 ∧ J < 58 ∧ ci < 256 := ⟨by decide, h⟩
    have hr : (grid7.coords t 0).val < 8 ∧ I < 58 ∧ J < 58 ∧ ci < 256 := ⟨(grid7.coords t 0).isLt, h⟩
    rw [dif_pos hl, dif_pos hr]
    exact xb7_apply V c t _ _ _ _
  · have hl : ¬(0 < 1 ∧ I < 58 ∧ J < 58 ∧ ci < 256) := fun h' => h h'.2
    have hr : ¬((grid7.coords t 0).val < 8 ∧ I < 58 ∧ J < 58 ∧ ci < 256) := fun h' => h h'.2
    rw [dif_neg hl, dif_neg hr]

theorem arr3_wb7 (c : Dev nD) (t : Fin cfg7.N) (k ci co : ℕ) (hco : co < 128) :
    arr3 (wb7 V c t) k ci co = arr3 (W7 V c) k ci ((grid7.coords t 1).val * 128 + co) := by
  have h1 : (grid7.coords t 1).val < 2 := (grid7.coords t 1).isLt
  unfold arr3
  by_cases h : k < 9 ∧ ci < 256
  · have hl : k < 9 ∧ ci < 256 ∧ co < 128 := ⟨h.1, h.2, hco⟩
    have hr : k < 9 ∧ ci < 256 ∧ (grid7.coords t 1).val * 128 + co < 256 := ⟨h.1, h.2, by omega⟩
    rw [dif_pos hl, dif_pos hr]
    exact wb7_apply V c t ⟨k, h.1⟩ ⟨ci, h.2⟩ ⟨co, hco⟩
  · have hl : ¬(k < 9 ∧ ci < 256 ∧ co < 128) := fun h' => h ⟨h'.1, h'.2.1⟩
    have hr : ¬(k < 9 ∧ ci < 256 ∧ (grid7.coords t 1).val * 128 + co < 256) := fun h' => h ⟨h'.1, h'.2.1⟩
    rw [dif_neg hl, dif_neg hr]

theorem arr2_bb7 (c : Dev nD) (t : Fin cfg7.N) (u : Fin 1) (co : Fin 128) :
    bb7 V c t (ix2 u co) = arr2 (B7 V c) 0 ((grid7.coords t 1).val * 128 + co.val) := by
  have h1 : (grid7.coords t 1).val < 2 := (grid7.coords t 1).isLt
  have h2 := co.isLt
  have hc : 0 < 1 ∧ (grid7.coords t 1).val * 128 + co.val < 256 := ⟨by decide, by omega⟩
  rw [bb7_apply]
  unfold arr2
  rw [dif_pos hc]
  rfl

/-- One tap of the body at a point, for each of the three column offsets: the load at rows from `4 * (i 2).val + dy`, columns
    from dx, against weight slab k. -/
theorem tap7_1 (i : grid7.Coords) (x0 : Vec Ideal S1x58x58x256 .f32) (x1 : Vec Ideal S9x256x128 .f32) (dy : Fin 3) (k : ℕ)
    (inbw : ∀ a, (![k, 0, 0] : Fin 3 → ℕ) a + S1x256x128.size a ≤ S9x256x128.size a) (r : Fin 4) (j : Fin 56) (co : Fin 128) :
    tap (View.ld x0 (Rect.unit (s := S1x58x58x256) (k7_off1 i (BitVec.ofNat 32 dy.val)) S1x4x56x256.size (k7_off1_inb i dy)))
        (View.ld x1 (Rect.unit (s := S9x256x128) ![k, 0, 0] S1x256x128.size inbw)) r j co
      = ∑ ci ∈ Finset.range 256, arr4 x0 0 (4 * (i 2).val + dy.val + r.val) (0 + j.val) ci * arr3 x1 k ci co.val :=
  tap_ld x0 x1 _ _ _ _ r j co _ _ k (congrFun (k7_off1_eq i dy) 0) (congrFun (k7_off1_eq i dy) 1) (congrFun (k7_off1_eq i dy) 2)
    (congrFun (k7_off1_eq i dy) 3) rfl rfl rfl
theorem tap7_2 (i : grid7.Coords) (x0 : Vec Ideal S1x58x58x256 .f32) (x1 : Vec Ideal S9x256x128 .f32) (dy : Fin 3) (k : ℕ)
    (inbw : ∀ a, (![k, 0, 0] : Fin 3 → ℕ) a + S1x256x128.size a ≤ S9x256x128.size a) (r : Fin 4) (j : Fin 56) (co : Fin 128) :
    tap (View.ld x0 (Rect.unit (s := S1x58x58x256) (k7_off2 i (BitVec.ofNat 32 dy.val)) S1x4x56x256.size (k7_off2_inb i dy)))
        (View.ld x1 (Rect.unit (s := S9x256x128) ![k, 0, 0] S1x256x128.size inbw)) r j co
      = ∑ ci ∈ Finset.range 256, arr4 x0 0 (4 * (i 2).val + dy.val + r.val) (1 + j.val) ci * arr3 x1 k ci co.val :=
  tap_ld x0 x1 _ _ _ _ r j co _ _ k (congrFun (k7_off2_eq i dy) 0) (congrFun (k7_off2_eq i dy) 1) (congrFun (k7_off2_eq i dy) 2)
    (congrFun (k7_off2_eq i dy) 3) rfl rfl rfl
theorem tap7_3 (i : grid7.Coords) (x0 : Vec Ideal S1x58x58x256 .f32) (x1 : Vec Ideal S9x256x128 .f32) (dy : Fin 3) (k : ℕ)
    (inbw : ∀ a, (![k, 0, 0] : Fin 3 → ℕ) a + S1x256x128.size a ≤ S9x256x128.size a) (r : Fin 4) (j : Fin 56) (co : Fin 128) :
    tap (View.ld x0 (Rect.unit (s := S1x58x58x256) (k7_off3 i (BitVec.ofNat 32 dy.val)) S1x4x56x256.size (k7_off3_inb i dy)))
        (View.ld x1 (Rect.unit (s := S9x256x128) ![k, 0, 0] S1x256x128.size inbw)) r j co
      = ∑ ci ∈ Finset.range 256, arr4 x0 0 (4 * (i 2).val + dy.val + r.val) (2 + j.val) ci * arr3 x1 k ci co.val :=
  tap_ld x0 x1 _ _ _ _ r j co _ _ k (congrFun (k7_off3_eq i dy) 0) (congrFun (k7_off3_eq i dy) 1) (congrFun (k7_off3_eq i dy) 2)
    (congrFun (k7_off3_eq i dy) 3) rfl rfl rfl

/-- Tap k of the convolution at output pixel (i, j), channel co, of batch b. -/
abbrev tapf7 (c : Dev nD) (b i j co : ℕ) (k : ℕ) : EReal :=
  ∑ ci ∈ Finset.range 256, arr4 (X7 V c) b (i + k / 3) (j + k % 3) ci * arr3 (W7 V c) k ci co

/-- A tap read off the blocks at a point is the convolution's tap k = 3·dy + dx. -/
theorem tap_blocks7 (c : Dev nD) (t : Fin cfg7.N) (r : Fin 4) (j : Fin 56) (co : Fin 128) (k dy dx : ℕ) (hdy : k / 3 = dy) (hdx : k % 3 = dx) :
    (∑ ci ∈ Finset.range 256, arr4 (xb7 V c t) 0 (4 * (grid7.coords t 2).val + dy + r.val) (dx + j.val) ci * arr3 (wb7 V c t) k ci co.val)
      = tapf7 V c (grid7.coords t 0).val (4 * (grid7.coords t 2).val + r.val) j.val ((grid7.coords t 1).val * 128 + co.val) k := by
  unfold tapf7
  rw [hdy, hdx]
  have hR : 4 * (grid7.coords t 2).val + dy + r.val = 4 * (grid7.coords t 2).val + r.val + dy := by omega
  have hC : dx + j.val = j.val + dx := by omega
  refine Finset.sum_congr rfl fun ci _ => ?_
  rw [arr4_xb7, arr3_wb7 V c t k ci co.val co.isLt, hR, hC]

/-- THE BLOCK'S VALUE: after the body at a point, the output's staging buffer at pixel (r, j), channel co holds the
    convolution of the padded image at the point's batch, row and channel tile. -/
theorem blk_value7 (c : Dev nD) (t : Fin cfg7.N) (u : Fin 1) (r : Fin 4) (j : Fin 56) (co : Fin 128) :
    outsAt7 (F := Ideal) V c t (ix4 u r j co)
      = conv 256 (arr4 (X7 V c)) (arr3 (W7 V c)) (arr2 (B7 V c)) (grid7.coords t 0).val (4 * (grid7.coords t 2).val + r.val) j.val ((grid7.coords t 1).val * 128 + co.val) := by
  unfold outsAt7
  rw [out7_eq]
  unfold conv7_pay
  rw [pay7_apply]
  have T0 := tap7_1 (grid7.coords t) (xb7 V c t) (wb7 V c t) 0 0 inb_S9x256x128_S1x256x128_0_0_0 r j co
  have T1 := tap7_2 (grid7.coords t) (xb7 V c t) (wb7 V c t) 0 1 inb_S9x256x128_S1x256x128_1_0_0 r j co
  have T2 := tap7_3 (grid7.coords t) (xb7 V c t) (wb7 V c t) 0 2 inb_S9x256x128_S1x256x128_2_0_0 r j co
  have T3 := tap7_1 (grid7.coords t) (xb7 V c t) (wb7 V c t) 1 3 inb_S9x256x128_S1x256x128_3_0_0 r j co
  have T4 := tap7_2 (grid7.coords t) (xb7 V c t) (wb7 V c t) 1 4 inb_S9x256x128_S1x256x128_4_0_0 r j co
  have T5 := tap7_3 (grid7.coords t) (xb7 V c t) (wb7 V c t) 1 5 inb_S9x256x128_S1x256x128_5_0_0 r j co
  have T6 := tap7_1 (grid7.coords t) (xb7 V c t) (wb7 V c t) 2 6 inb_S9x256x128_S1x256x128_6_0_0 r j co
  have T7 := tap7_2 (grid7.coords t) (xb7 V c t) (wb7 V c t) 2 7 inb_S9x256x128_S1x256x128_7_0_0 r j co
  have T8 := tap7_3 (grid7.coords t) (xb7 V c t) (wb7 V c t) 2 8 inb_S9x256x128_S1x256x128_8_0_0 r j co
  refine (congrArg (fun s => max s 0) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) rfl
      (T0.trans (tap_blocks7 V c t r j co 0 0 0 rfl rfl)))
      (T1.trans (tap_blocks7 V c t r j co 1 0 1 rfl rfl)))
      (T2.trans (tap_blocks7 V c t r j co 2 0 2 rfl rfl)))
      (T3.trans (tap_blocks7 V c t r j co 3 1 0 rfl rfl)))
      (T4.trans (tap_blocks7 V c t r j co 4 1 1 rfl rfl)))
      (T5.trans (tap_blocks7 V c t r j co 5 1 2 rfl rfl)))
      (T6.trans (tap_blocks7 V c t r j co 6 2 0 rfl rfl)))
      (T7.trans (tap_blocks7 V c t r j co 7 2 1 rfl rfl)))
      (T8.trans (tap_blocks7 V c t r j co 8 2 2 rfl rfl)))
      (arr2_bb7 V c t 0 co))).trans ?_
  unfold conv
  rw [← chain9 (tapf7 V c (grid7.coords t 0).val (4 * (grid7.coords t 2).val + r.val) j.val ((grid7.coords t 1).val * 128 + co.val))]

/-- The convolution as an array of the output's extents. -/
def G7 (c : Dev nD) : Vec Ideal S8x56x56x256 .f32 := fun idx =>
  conv 256 (arr4 (X7 V c)) (arr3 (W7 V c)) (arr2 (B7 V c)) (idx 0).val (idx 1).val (idx 2).val (idx 3).val

/-- Every write-back writes the convolution's block: the block of point (b, ct, r) is row chunk r of batch b, channel tile ct. -/
theorem flushed_eq7 (c : Dev nD) (t : Fin cfg7.N) (hf : (cfg7.win 3).flush t = true) :
    (dat7 V c).flushed 3 t = ((cfg7.win 3).blk t).view.read (Elt Ideal) (G7 V c) := by
  show (cfg7.win 3).cut (grid7.coords t) ((dat7 V c).after 3 t) = _
  rw [after7_3]
  refine funext fun (y : S1x4x56x128.Idx) => ?_
  rw [View.read_apply]
  show outsAt7 V c t ((cfg7.win 3).xinj (grid7.coords t) y) = G7 V c (((cfg7.win 3).blk t).view.emb y)
  have hy : (cfg7.win 3).xinj (grid7.coords t) y = ix4 (n0 := 1) (n1 := 4) (n2 := 56) (n3 := 128) (y 0) (y 1) (y 2) (y 3) := funext fun (a : Fin 4) => by
    match a with
    | ⟨0, _⟩ => rfl
    | ⟨1, _⟩ => rfl
    | ⟨2, _⟩ => rfl
    | ⟨3, _⟩ => rfl
  rw [hy]
  refine (blk_value7 V c t (y 0) (y 1) (y 2) (y 3)).trans ?_
  unfold G7
  have hi := idx7_3 t
  have h0 : (y 0).val < 1 := (y 0).isLt
  refine congr (congr (congr (congrArg (conv 256 _ _ _) ?_) ?_) ?_) ?_
  · symm; show win7_3.index t 0 * 1 + 1 * (y 0).val = _; rw [hi]; show (grid7.coords t 0).val * 1 + 1 * (y 0).val = _; omega
  · symm; show win7_3.index t 1 * 4 + 1 * (y 1).val = _; rw [hi]; show (grid7.coords t 2).val * 4 + 1 * (y 1).val = _; omega
  · symm; show win7_3.index t 2 * 56 + 1 * (y 2).val = _; rw [hi]; show 0 * 56 + 1 * (y 2).val = _; omega
  · symm; show win7_3.index t 3 * 128 + 1 * (y 3).val = _; rw [hi]; show (grid7.coords t 1).val * 128 + 1 * (y 3).val = _; omega

/-- The blocks cover the output: pixel (b, i, j, co) lies in the block of point (b, co / 128, i / 4). -/
theorem cover7 (c : Dev nD) (idx : S8x56x56x256.Idx) :
    ∃ t : Fin cfg7.N, (cfg7.win 3).flush t = true ∧ idx ∈ ((cfg7.win 3).blk t).view.set := by
  have h0 : (idx 0).val < 8 := (idx 0).isLt
  have h1 : (idx 1).val < 56 := (idx 1).isLt
  have h2 : (idx 2).val < 56 := (idx 2).isLt
  have h3 : (idx 3).val < 256 := (idx 3).isLt
  have hN : cfg7.N = 224 := N_7
  have hlt : ((idx 0).val * 2 + (idx 3).val / 128) * 14 + (idx 1).val / 4 < cfg7.N := by rw [hN]; omega
  obtain ⟨t, ht⟩ : ∃ t : Fin cfg7.N, t.val = ((idx 0).val * 2 + (idx 3).val / 128) * 14 + (idx 1).val / 4 := ⟨⟨_, hlt⟩, rfl⟩
  refine ⟨t, flush7_3 t, ?_⟩
  have hset : ((cfg7.win 3).blk t).view.set = (win7_3.rect t).set := View.set_slice_whole main_v16 (win7_3.rect t)
  rw [hset, Rect.mem_set_unit]
  have hi := idx7_3 t
  have c0 : (grid7.coords t 0).val = (idx 0).val := by
    show t.val / 28 % 8 = _; rw [ht]; omega
  have c1 : (grid7.coords t 1).val = (idx 3).val / 128 := by
    show t.val / 14 % 2 = _; rw [ht]; omega
  have c2 : (grid7.coords t 2).val = (idx 1).val / 4 := by
    show t.val / 1 % 14 = _; rw [ht]; omega
  intro a
  match a with
  | ⟨0, _⟩ =>
    show win7_3.index t 0 * 1 ≤ (idx 0 : ℕ) ∧ (idx 0 : ℕ) < win7_3.index t 0 * 1 + 1
    rw [hi]; show (grid7.coords t 0).val * 1 ≤ (idx 0 : ℕ) ∧ (idx 0 : ℕ) < (grid7.coords t 0).val * 1 + 1
    rw [c0]; omega
  | ⟨1, _⟩ =>
    show win7_3.index t 1 * 4 ≤ (idx 1 : ℕ) ∧ (idx 1 : ℕ) < win7_3.index t 1 * 4 + 4
    rw [hi]; show (grid7.coords t 2).val * 4 ≤ (idx 1 : ℕ) ∧ (idx 1 : ℕ) < (grid7.coords t 2).val * 4 + 4
    rw [c2]; omega
  | ⟨2, _⟩ =>
    show win7_3.index t 2 * 56 ≤ (idx 2 : ℕ) ∧ (idx 2 : ℕ) < win7_3.index t 2 * 56 + 56
    rw [hi]; show 0 * 56 ≤ (idx 2 : ℕ) ∧ (idx 2 : ℕ) < 0 * 56 + 56
    omega
  | ⟨3, _⟩ =>
    show win7_3.index t 3 * 128 ≤ (idx 3 : ℕ) ∧ (idx 3 : ℕ) < win7_3.index t 3 * 128 + 128
    rw [hi]; show (grid7.coords t 1).val * 128 ≤ (idx 3 : ℕ) ∧ (idx 3 : ℕ) < (grid7.coords t 1).val * 128 + 128
    rw [c1]; omega

/-- So the output array after the region is the convolution. -/
theorem conv7_array (c : Dev nD) : (dat7 V c).arrAt 3 cfg7.N = G7 V c :=
  (dat7 V c).arrAt_eq_of_cover 3 (G7 V c) (flushed_eq7 V c) (cover7 c)

/-- THE REGION'S VALUE: the output array, as a total function, is the 3×3 convolution with bias and ReLU of the region's
    padded input against its weights. -/
theorem conv7_value (c : Dev nD) (b i j co : ℕ) (hb : b < 8) (hi : i < 56) (hj : j < 56) (hco : co < 256) :
    arr4 ((dat7 (F := Ideal) V c).arrAt 3 cfg7.N : Vec Ideal S8x56x56x256 .f32) b i j co
      = conv 256 (arr4 (X7 V c)) (arr3 (W7 V c)) (arr2 (B7 V c)) b i j co := by
  have hc : b < 8 ∧ i < 56 ∧ j < 56 ∧ co < 256 := ⟨hb, hi, hj, hco⟩
  rw [conv7_array]
  unfold arr4
  rw [dif_pos hc]
  rfl

end Cert.ReferenceIdeal.Val

end
-- ==== Proof.RConv8Pay.lean ====
/-
  Reference region 8: the body's payload read at an index, over the extended reals. The body adds nine products — the
  image rows at row offset dy and column offset dx, as a matrix of 224 rows of 256 channels, times weight slab 3·dy + dx —
  in order from zero, adds the bias row and takes the maximum with zero; so at pixel (r, j) and output channel co the
  payload is the nine taps summed, plus the bias, against zero.
-/
import proofs.«100114_g2000204297211070_pallasbulk_1265_19_alg».proof.Proof.Gen.ReferenceIdeal.Skeleton
import proofs.«100114_g2000204297211070_pallasbulk_1265_19_alg».proof.Proof.ConvAlg

noncomputable section

namespace Cert.ReferenceIdeal.Val

open Cert.ReferenceIdeal Cert.ReferenceIdeal.Gen
open Idealize.ShloMosaic Idealize.ShloMosaic.ValueIdx
open Cert.Spec

theorem dot8_plain : dot_S224x256_S256x128_S224x128_1_0_0_1_n_n = DotDims.plain 224 256 128 := rfl

/-- The first three taps, added in order from zero, at row r·56 + j of the accumulator. -/
theorem pay8_1_apply (v5 : Vec Ideal S1x4x56x256 .f32) (v8 : Vec Ideal S1x256x128 .f32) (v14 : Vec Ideal S1x4x56x256 .f32) (v17 : Vec Ideal S1x256x128 .f32) (v23 : Vec Ideal S1x4x56x256 .f32) (v26 : Vec Ideal S1x256x128 .f32)
    (r : Fin 4) (j : Fin 56) (co : Fin 128) (p : Fin 224) (hp : p.val = r.val * 56 + j.val) :
    k8_pay1 v5 v8 v14 v17 v23 v26 (ix2 p co) = 0 + tap v5 v8 r j co + tap v14 v17 r j co + tap v23 v26 r j co := by
  unfold k8_pay1
  simp only [matmul, addf_apply, broadcast_apply]
  rw [tap_matmul_zero _ dot8_plain none v5 v8 _ _ _ r j co p hp, tap_matmul_zero _ dot8_plain none v14 v17 _ _ _ r j co p hp,
    tap_matmul_zero _ dot8_plain none v23 v26 _ _ _ r j co p hp, ofBits_zero]

/-- The next three taps added onto the accumulator. -/
theorem pay8_2_apply (v29 : FVec Ideal S224x128 .f32) (v32 : Vec Ideal S1x4x56x256 .f32) (v35 : Vec Ideal S1x256x128 .f32) (v41 : Vec Ideal S1x4x56x256 .f32) (v44 : Vec Ideal S1x256x128 .f32) (v50 : Vec Ideal S1x4x56x256 .f32) (v53 : Vec Ideal S1x256x128 .f32)
    (r : Fin 4) (j : Fin 56) (co : Fin 128) (p : Fin 224) (hp : p.val = r.val * 56 + j.val) :
    k8_pay2 v29 v32 v35 v41 v44 v50 v53 (ix2 p co) = v29 (ix2 p co) + tap v32 v35 r j co + tap v41 v44 r j co + tap v50 v53 r j co := by
  unfold k8_pay2
  simp only [matmul, addf_apply]
  rw [tap_matmul_zero _ dot8_plain none v32 v35 _ _ _ r j co p hp, tap_matmul_zero _ dot8_plain none v41 v44 _ _ _ r j co p hp,
    tap_matmul_zero _ dot8_plain none v50 v53 _ _ _ r j co p hp]

/-- The last three taps added onto the accumulator, then the bias, then the maximum with zero, read back as a block. -/
theorem pay8_4_apply (v56 : FVec Ideal S224x128 .f32) (v59 : Vec Ideal S1x4x56x256 .f32) (v62 : Vec Ideal S1x256x128 .f32) (v68 : Vec Ideal S1x4x56x256 .f32) (v71 : Vec Ideal S1x256x128 .f32) (v77 : Vec Ideal S1x4x56x256 .f32) (v80 : Vec Ideal S1x256x128 .f32) (v84 : Vec Ideal S1x128 .f32)
    (u : Fin 1) (r : Fin 4) (j : Fin 56) (co : Fin 128) (p : Fin 224) (hp : p.val = r.val * 56 + j.val) :
    k8_pay4 v56 (k8_pay3 v59) v62 v68 v71 v77 v80 v84 (ix4 u r j co)
      = max (v56 (ix2 p co) + tap v59 v62 r j co + tap v68 v71 r j co + tap v77 v80 r j co + v84 (ix2 (0 : Fin 1) co)) 0 := by
  unfold k8_pay4 k8_pay3
  rw [rows_out_apply _ _ _ u r j co p hp]
  simp only [matmul, addf_apply, maximumf_apply, broadcast_apply]
  rw [tap_matmul_zero _ dot8_plain none v59 v62 _ _ _ r j co p hp, tap_matmul_zero _ dot8_plain none v68 v71 _ _ _ r j co p hp,
    tap_matmul_zero _ dot8_plain none v77 v80 _ _ _ r j co p hp, broadcastTo_1b_ab_apply, ofBits_zero]

/-- The whole payload at pixel (r, j), output channel co: the nine taps summed, plus the bias, against zero. -/
theorem pay8_apply (v5 : Vec Ideal S1x4x56x256 .f32) (v8 : Vec Ideal S1x256x128 .f32) (v14 : Vec Ideal S1x4x56x256 .f32) (v17 : Vec Ideal S1x256x128 .f32) (v23 : Vec Ideal S1x4x56x256 .f32) (v26 : Vec Ideal S1x256x128 .f32)
    (v32 : Vec Ideal S1x4x56x256 .f32) (v35 : Vec Ideal S1x256x128 .f32) (v41 : Vec Ideal S1x4x56x256 .f32) (v44 : Vec Ideal S1x256x128 .f32) (v50 : Vec Ideal S1x4x56x256 .f32) (v53 : Vec Ideal S1x256x128 .f32)
    (v59 : Vec Ideal S1x4x56x256 .f32) (v62 : Vec Ideal S1x256x128 .f32) (v68 : Vec Ideal S1x4x56x256 .f32) (v71 : Vec Ideal S1x256x128 .f32) (v77 : Vec Ideal S1x4x56x256 .f32) (v80 : Vec Ideal S1x256x128 .f32) (v84 : Vec Ideal S1x128 .f32)
    (u : Fin 1) (r : Fin 4) (j : Fin 56) (co : Fin 128) :
    k8_pay4 (k8_pay2 (k8_pay1 v5 v8 v14 v17 v23 v26) v32 v35 v41 v44 v50 v53) (k8_pay3 v59) v62 v68 v71 v77 v80 v84 (ix4 u r j co)
      = max (0 + tap v5 v8 r j co + tap v14 v17 r j co + tap v23 v26 r j co + tap v32 v35 r j co + tap v41 v44 r j co + tap v50 v53 r j co
          + tap v59 v62 r j co + tap v68 v71 r j co + tap v77 v80 r j co + v84 (ix2 (0 : Fin 1) co)) 0 := by
  have hlt : r.val * 56 + j.val < 224 := by have := r.isLt; have := j.isLt; omega
  rw [pay8_4_apply _ v59 v62 v68 v71 v77 v80 v84 u r j co ⟨r.val * 56 + j.val, hlt⟩ rfl,
    pay8_2_apply _ v32 v35 v41 v44 v50 v53 r j co ⟨r.val * 56 + j.val, hlt⟩ rfl,
    pay8_1_apply v5 v8 v14 v17 v23 v26 r j co ⟨r.val * 56 + j.val, hlt⟩ rfl]

end Cert.ReferenceIdeal.Val

end
-- ==== Proof.RConv8Blk.lean ====
/-
  Reference region 8: what the body leaves in the output's staging buffer, as a function of the three input blocks.
  The body loads nine windows of the image block (rows from 4 * (i 2).val + dy, columns from dx), the nine weight slabs and
  the bias block, and stores one value over the whole output block: the payload of those loads.
-/
import proofs.«100114_g2000204297211070_pallasbulk_1265_19_alg».proof.Proof.Gen.ReferenceIdeal.Frame
import proofs.«100114_g2000204297211070_pallasbulk_1265_19_alg».proof.Proof.ConvAlg
import Idealize.ShloMosaic.Lib.Pipeline.Value
import Idealize.ShloMosaic.Lib.Tactic

set_option maxRecDepth 16384

noncomputable section

namespace Cert.ReferenceIdeal.Val

open Cert.ReferenceIdeal Cert.ReferenceIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Spec

variable {F : FTy → Type} [FloatOps F]

/-- The body's one store, as a function of the three input blocks: the payload of the nine loaded image rows (row
    offset dy = 0, 1, 2, column offset dx = 0, 1, 2), the nine loaded weight slabs and the bias block. -/
def conv8_pay (i : grid8.Coords) (x0 : Vec F S1x58x58x256 .f32) (x1 : Vec F S9x256x128 .f32) (x2 : Vec F S1x128 .f32) : Vec F S1x4x56x128 .f32 :=
  k8_pay4
    (k8_pay2
      (k8_pay1
        (View.ld x0 (Rect.unit (s := S1x58x58x256) (k8_off1 i 0#32) S1x4x56x256.size (k8_off1_inb i 0)))
        (View.ld x1 (Rect.unit (s := S9x256x128) ![0, 0, 0] S1x256x128.size inb_S9x256x128_S1x256x128_0_0_0))
        (View.ld x0 (Rect.unit (s := S1x58x58x256) (k8_off2 i 0#32) S1x4x56x256.size (k8_off2_inb i 0)))
        (View.ld x1 (Rect.unit (s := S9x256x128) ![1, 0, 0] S1x256x128.size inb_S9x256x128_S1x256x128_1_0_0))
        (View.ld x0 (Rect.unit (s := S1x58x58x256) (k8_off3 i 0#32) S1x4x56x256.size (k8_off3_inb i 0)))
        (View.ld x1 (Rect.unit (s := S9x256x128) ![2, 0, 0] S1x256x128.size inb_S9x256x128_S1x256x128_2_0_0)))
      (View.ld x0 (Rect.unit (s := S1x58x58x256) (k8_off1 i 1#32) S1x4x56x256.size (k8_off1_inb i 1)))
      (View.ld x1 (Rect.unit (s := S9x256x128) ![3, 0, 0] S1x256x128.size inb_S9x256x128_S1x256x128_3_0_0))
      (View.ld x0 (Rect.unit (s := S1x58x58x256) (k8_off2 i 1#32) S1x4x56x256.size (k8_off2_inb i 1)))
      (View.ld x1 (Rect.unit (s := S9x256x128) ![4, 0, 0] S1x256x128.size inb_S9x256x128_S1x256x128_4_0_0))
      (View.ld x0 (Rect.unit (s := S1x58x58x256) (k8_off3 i 1#32) S1x4x56x256.size (k8_off3_inb i 1)))
      (View.ld x1 (Rect.unit (s := S9x256x128) ![5, 0, 0] S1x256x128.size inb_S9x256x128_S1x256x128_5_0_0)))
    (k8_pay3 (View.ld x0 (Rect.unit (s := S1x58x58x256) (k8_off1 i 2#32) S1x4x56x256.size (k8_off1_inb i 2))))
    (View.ld x1 (Rect.unit (s := S9x256x128) ![6, 0, 0] S1x256x128.size inb_S9x256x128_S1x256x128_6_0_0))
    (View.ld x0 (Rect.unit (s := S1x58x58x256) (k8_off2 i 2#32) S1x4x56x256.size (k8_off2_inb i 2)))
    (View.ld x1 (Rect.unit (s := S9x256x128) ![7, 0, 0] S1x256x128.size inb_S9x256x128_S1x256x128_7_0_0))
    (View.ld x0 (Rect.unit (s := S1x58x58x256) (k8_off3 i 2#32) S1x4x56x256.size (k8_off3_inb i 2)))
    (View.ld x1 (Rect.unit (s := S9x256x128) ![8, 0, 0] S1x256x128.size inb_S9x256x128_S1x256x128_8_0_0))
    x2

set_option maxHeartbeats 1000000 in
/-- What the run leaves in the output's staging buffer is that payload of the input blocks. -/
theorem out8_eq (c : Dev nD) (i : grid8.Coords) (arg3 : Memref sig .tc .vmem S1x58x58x256 .f32) (harg3 : arg3.IsWhole) (arg4 : Memref sig .tc .vmem S9x256x128 .f32) (harg4 : arg4.IsWhole) (arg5 : Memref sig .tc .vmem S1x128 .f32) (harg5 : arg5.IsWhole) (arg6 : Memref sig .tc .vmem S1x4x56x128 .f32) (harg6 : arg6.IsWhole)
    (x0 : Vec F S1x58x58x256 .f32) (x1 : Vec F S9x256x128 .f32) (x2 : Vec F S1x128 .f32) :
    out8_A_3 c i arg3 harg3 arg4 harg4 arg5 harg5 arg6 harg6 x0 x1 x2 = conv8_pay i x0 x1 x2 := by
  unfold out8_A_3 conv8_pay
  rw [View.read_writes_eq_canon _ _ _ (cover8_A_3 c i arg3 harg3 arg4 harg4 arg5 harg5 arg6 harg6 x0 x1 x2)]
  unfold kernelRun8_A
  dsimp only
  sl_unfold_words
  rw [View.canon_unit_zero hz4]
  simp only [View.readAt_eq_ld, harg3.read_unread, harg4.read_unread, harg5.read_unread, View.ld_unit_zero (S := S1x128) hz2]

end Cert.ReferenceIdeal.Val

end
-- ==== Proof.RConv8.lean ====
/-
  Reference region 8: THE VALUE of its output array after the region, over the extended reals. Point (b, ct, r) of the
  grid works on batch b, output-channel tile ct and row chunk r: its image block is batch b of the padded input, its
  weights' and bias's blocks are tile ct, and its output block is rows 4·r … of batch b, channels of tile ct. What
  the body leaves there is the convolution's value (nine taps, bias, maximum with zero); every point writes its block
  back and the blocks cover the array; so the array, as a total function, is the 3×3 convolution with bias and ReLU of
  the region's padded input against its weights.
-/
import proofs.«100114_g2000204297211070_pallasbulk_1265_19_alg».proof.Proof.RConv8Pay
import proofs.«100114_g2000204297211070_pallasbulk_1265_19_alg».proof.Proof.RConv8Blk

set_option maxRecDepth 16384

noncomputable section

namespace Cert.ReferenceIdeal.Val

open Cert.ReferenceIdeal Cert.ReferenceIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Spec

variable (V : (c : Dev nD) → (b : Ref sig .tc) → Buf (Elt Ideal) ((c : Thread nD τ).loc b))

/-- The region's three input arrays and its blocks at a point, at their literal types. -/
abbrev X8 (c : Dev nD) : Vec Ideal S8x58x58x256 .f32 := V c (Pipeline.arrRef spec8 0)
abbrev W8 (c : Dev nD) : Vec Ideal S9x256x256 .f32 := V c (Pipeline.arrRef spec8 1)
abbrev B8 (c : Dev nD) : Vec Ideal S1x256 .f32 := V c (Pipeline.arrRef spec8 2)
abbrev xb8 (c : Dev nD) (t : Fin cfg8.N) : Vec Ideal S1x58x58x256 .f32 := iblk8 V c 0 t
abbrev wb8 (c : Dev nD) (t : Fin cfg8.N) : Vec Ideal S9x256x128 .f32 := iblk8 V c 1 t
abbrev bb8 (c : Dev nD) (t : Fin cfg8.N) : Vec Ideal S1x128 .f32 := iblk8 V c 2 t

/-- The four index maps at a point (b, ct, r): the image block is batch b; the weights' and the bias's block is output
    channel tile ct; the output block is row chunk r of batch b, channel tile ct. -/
theorem idx8_0 (t : Fin cfg8.N) : win8_0.index t = ![(grid8.coords t 0).val, 0, 0, 0] := by
  funext a
  show cc8_transform_0 (grid8.coords t) a = _
  match a with
  | ⟨0, _⟩ => exact toNat_coord (grid8.coords t 0) (by decide)
  | ⟨1, _⟩ => rfl
  | ⟨2, _⟩ => rfl
  | ⟨3, _⟩ => rfl
theorem idx8_1 (t : Fin cfg8.N) : win8_1.index t = ![0, 0, (grid8.coords t 1).val] := by
  funext a
  show cc8_transform_1 (grid8.coords t) a = _
  match a with
  | ⟨0, _⟩ => rfl
  | ⟨1, _⟩ => rfl
  | ⟨2, _⟩ => exact toNat_coord (grid8.coords t 1) (by decide)
theorem idx8_2 (t : Fin cfg8.N) : win8_2.index t = ![0, (grid8.coords t 1).val] := by
  funext a
  show cc8_transform_2 (grid8.coords t) a = _
  match a with
  | ⟨0, _⟩ => rfl
  | ⟨1, _⟩ => exact toNat_coord (grid8.coords t 1) (by decide)
theorem idx8_3 (t : Fin cfg8.N) : win8_3.index t = ![(grid8.coords t 0).val, (grid8.coords t 2).val, 0, (grid8.coords t 1).val] := by
  funext a
  show cc8_transform_3 (grid8.coords t) a = _
  match a with
  | ⟨0, _⟩ => exact toNat_coord (grid8.coords t 0) (by decide)
  | ⟨1, _⟩ => exact toNat_coord (grid8.coords t 2) (by decide)
  | ⟨2, _⟩ => rfl
  | ⟨3, _⟩ => exact toNat_coord (grid8.coords t 1) (by decide)

/-- The image block at a point is the point's batch of the padded image. -/
theorem xb8_apply (c : Dev nD) (t : Fin cfg8.N) (y0 : Fin 1) (I : Fin 58) (J : Fin 58) (ci : Fin 256) :
    xb8 V c t (ix4 y0 I J ci) = X8 V c (ix4 ⟨(grid8.coords t 0).val, (grid8.coords t 0).isLt⟩ I J ci) := by
  unfold xb8 iblk8
  rw [View.read_apply]
  show V c (Pipeline.arrRef spec8 0) _ = V c (Pipeline.arrRef spec8 0) _
  congr 1
  funext a
  apply Fin.ext
  have hi := idx8_0 t
  have h0 := y0.isLt
  match a with
  | ⟨0, _⟩ => show win8_0.index t 0 * 1 + 1 * y0.val = (grid8.coords t 0).val; rw [hi]; show (grid8.coords t 0).val * 1 + 1 * y0.val = _; omega
  | ⟨1, _⟩ => show win8_0.index t 1 * 58 + 1 * I.val = I.val; rw [hi]; show 0 * 58 + 1 * I.val = _; omega
  | ⟨2, _⟩ => show win8_0.index t 2 * 58 + 1 * J.val = J.val; rw [hi]; show 0 * 58 + 1 * J.val = _; omega
  | ⟨3, _⟩ => show win8_0.index t 3 * 256 + 1 * ci.val = ci.val; rw [hi]; show 0 * 256 + 1 * ci.val = _; omega

/-- The weights' block at a point is the point's tile of output channels of the weights. -/
theorem wb8_apply (c : Dev nD) (t : Fin cfg8.N) (k : Fin 9) (ci : Fin 256) (co : Fin 128) :
    wb8 V c t (ix3 k ci co) = W8 V c (ix3 k ci ⟨(grid8.coords t 1).val * 128 + co.val, by
      have h1 : (grid8.coords t 1).val < 2 := (grid8.coords t 1).isLt
      have := co.isLt; omega⟩) := by
  unfold wb8 iblk8
  rw [View.read_apply]
  show V c (Pipeline.arrRef spec8 1) _ = V c (Pipeline.arrRef spec8 1) _
  congr 1
  funext a
  apply Fin.ext
  have hi := idx8_1 t
  match a with
  | ⟨0, _⟩ => show win8_1.index t 0 * 9 + 1 * k.val = k.val; rw [hi]; show 0 * 9 + 1 * k.val = _; omega
  | ⟨1, _⟩ => show win8_1.index t 1 * 256 + 1 * ci.val = ci.val; rw [hi]; show 0 * 256 + 1 * ci.val = _; omega
  | ⟨2, _⟩ => show win8_1.index t 2 * 128 + 1 * co.val = (grid8.coords t 1).val * 128 + co.val; rw [hi]; show (grid8.coords t 1).val * 128 + 1 * co.val = _; omega

/-- The bias block at a point is the point's tile of output channels of the bias. -/
theorem bb8_apply (c : Dev nD) (t : Fin cfg8.N) (u : Fin 1) (co : Fin 128) :
    bb8 V c t (ix2 u co) = B8 V c (ix2 (0 : Fin 1) ⟨(grid8.coords t 1).val * 128 + co.val, by
      have h1 : (grid8.coords t 1).val < 2 := (grid8.coords t 1).isLt
      have := co.isLt; omega⟩) := by
  unfold bb8 iblk8
  rw [View.read_apply]
  show V c (Pipeline.arrRef spec8 2) _ = V c (Pipeline.arrRef spec8 2) _
  congr 1
  funext a
  apply Fin.ext
  have hi := idx8_2 t
  have h0 := u.isLt
  match a with
  | ⟨0, _⟩ => show win8_2.index t 0 * 1 + 1 * u.val = 0; rw [hi]; show 0 * 1 + 1 * u.val = _; omega
  | ⟨1, _⟩ => show win8_2.index t 1 * 128 + 1 * co.val = (grid8.coords t 1).val * 128 + co.val; rw [hi]; show (grid8.coords t 1).val * 128 + 1 * co.val = _; omega

/-- The same three facts over total functions of natural coordinates. -/
theorem arr4_xb8 (c : Dev nD) (t : Fin cfg8.N) (I J ci : ℕ) :
    arr4 (xb8 V c t) 0 I J ci = arr4 (X8 V c) (grid8.coords t 0).val I J ci := by
  unfold arr4
  by_cases h : I < 58 ∧ J < 58 ∧ ci < 256
  · have hl : 0 < 1 ∧ I < 58 ∧ J < 58 ∧ ci < 256 := ⟨by decide, h⟩
    have hr : (grid8.coords t 0).val < 8 ∧ I < 58 ∧ J < 58 ∧ ci < 256 := ⟨(grid8.coords t 0).isLt, h⟩
    rw [dif_pos hl, dif_pos hr]
    exact xb8_apply V c t _ _ _ _
  · have hl : ¬(0 < 1 ∧ I < 58 ∧ J < 58 ∧ ci < 256) := fun h' => h h'.2
    have hr : ¬((grid8.coords t 0).val < 8 ∧ I < 58 ∧ J < 58 ∧ ci < 256) := fun h' => h h'.2
    rw [dif_neg hl, dif_neg hr]

theorem arr3_wb8 (c : Dev nD) (t : Fin cfg8.N) (k ci co : ℕ) (hco : co < 128) :
    arr3 (wb8 V c t) k ci co = arr3 (W8 V c) k ci ((grid8.coords t 1).val * 128 + co) := by
  have h1 : (grid8.coords t 1).val < 2 := (grid8.coords t 1).isLt
  unfold arr3
  by_cases h : k < 9 ∧ ci < 256
  · have hl : k < 9 ∧ ci < 256 ∧ co < 128 := ⟨h.1, h.2, hco⟩
    have hr : k < 9 ∧ ci < 256 ∧ (grid8.coords t 1).val * 128 + co < 256 := ⟨h.1, h.2, by omega⟩
    rw [dif_pos hl, dif_pos hr]
    exact wb8_apply V c t ⟨k, h.1⟩ ⟨ci, h.2⟩ ⟨co, hco⟩
  · have hl : ¬(k < 9 ∧ ci < 256 ∧ co < 128) := fun h' => h ⟨h'.1, h'.2.1⟩
    have hr : ¬(k < 9 ∧ ci < 256 ∧ (grid8.coords t 1).val * 128 + co < 256) := fun h' => h ⟨h'.1, h'.2.1⟩
    rw [dif_neg hl, dif_neg hr]

theorem arr2_bb8 (c : Dev nD) (t : Fin cfg8.N) (u : Fin 1) (co : Fin 128) :
    bb8 V c t (ix2 u co) = arr2 (B8 V c) 0 ((grid8.coords t 1).val * 128 + co.val) := by
  have h1 : (grid8.coords t 1).val < 2 := (grid8.coords t 1).isLt
  have h2 := co.isLt
  have hc : 0 < 1 ∧ (grid8.coords t 1).val * 128 + co.val < 256 := ⟨by decide, by omega⟩
  rw [bb8_apply]
  unfold arr2
  rw [dif_pos hc]
  rfl

/-- One tap of the body at a point, for each of the three column offsets: the load at rows from `4 * (i 2).val + dy`, columns
    from dx, against weight slab k. -/
theorem tap8_1 (i : grid8.Coords) (x0 : Vec Ideal S1x58x58x256 .f32) (x1 : Vec Ideal S9x256x128 .f32) (dy : Fin 3) (k : ℕ)
    (inbw : ∀ a, (![k, 0, 0] : Fin 3 → ℕ) a + S1x256x128.size a ≤ S9x256x128.size a) (r : Fin 4) (j : Fin 56) (co : Fin 128) :
    tap (View.ld x0 (Rect.unit (s := S1x58x58x256) (k8_off1 i (BitVec.ofNat 32 dy.val)) S1x4x56x256.size (k8_off1_inb i dy)))
        (View.ld x1 (Rect.unit (s := S9x256x128) ![k, 0, 0] S1x256x128.size inbw)) r j co
      = ∑ ci ∈ Finset.range 256, arr4 x0 0 (4 * (i 2).val + dy.val + r.val) (0 + j.val) ci * arr3 x1 k ci co.val :=
  tap_ld x0 x1 _ _ _ _ r j co _ _ k (congrFun (k8_off1_eq i dy) 0) (congrFun (k8_off1_eq i dy) 1) (congrFun (k8_off1_eq i dy) 2)
    (congrFun (k8_off1_eq i dy) 3) rfl rfl rfl
theorem tap8_2 (i : grid8.Coords) (x0 : Vec Ideal S1x58x58x256 .f32) (x1 : Vec Ideal S9x256x128 .f32) (dy : Fin 3) (k : ℕ)
    (inbw : ∀ a, (![k, 0, 0] : Fin 3 → ℕ) a + S1x256x128.size a ≤ S9x256x128.size a) (r : Fin 4) (j : Fin 56) (co : Fin 128) :
    tap (View.ld x0 (Rect.unit (s := S1x58x58x256) (k8_off2 i (BitVec.ofNat 32 dy.val)) S1x4x56x256.size (k8_off2_inb i dy)))
        (View.ld x1 (Rect.unit (s := S9x256x128) ![k, 0, 0] S1x256x128.size inbw)) r j co
      = ∑ ci ∈ Finset.range 256, arr4 x0 0 (4 * (i 2).val + dy.val + r.val) (1 + j.val) ci * arr3 x1 k ci co.val :=
  tap_ld x0 x1 _ _ _ _ r j co _ _ k (congrFun (k8_off2_eq i dy) 0) (congrFun (k8_off2_eq i dy) 1) (congrFun (k8_off2_eq i dy) 2)
    (congrFun (k8_off2_eq i dy) 3) rfl rfl rfl
theorem tap8_3 (i : grid8.Coords) (x0 : Vec Ideal S1x58x58x256 .f32) (x1 : Vec Ideal S9x256x128 .f32) (dy : Fin 3) (k : ℕ)
    (inbw : ∀ a, (![k, 0, 0] : Fin 3 → ℕ) a + S1x256x128.size a ≤ S9x256x128.size a) (r : Fin 4) (j : Fin 56) (co : Fin 128) :
    tap (View.ld x0 (Rect.unit (s := S1x58x58x256) (k8_off3 i (BitVec.ofNat 32 dy.val)) S1x4x56x256.size (k8_off3_inb i dy)))
        (View.ld x1 (Rect.unit (s := S9x256x128) ![k, 0, 0] S1x256x128.size inbw)) r j co
      = ∑ ci ∈ Finset.range 256, arr4 x0 0 (4 * (i 2).val + dy.val + r.val) (2 + j.val) ci * arr3 x1 k ci co.val :=
  tap_ld x0 x1 _ _ _ _ r j co _ _ k (congrFun (k8_off3_eq i dy) 0) (congrFun (k8_off3_eq i dy) 1) (congrFun (k8_off3_eq i dy) 2)
    (congrFun (k8_off3_eq i dy) 3) rfl rfl rfl

/-- Tap k of the convolution at output pixel (i, j), channel co, of batch b. -/
abbrev tapf8 (c : Dev nD) (b i j co : ℕ) (k : ℕ) : EReal :=
  ∑ ci ∈ Finset.range 256, arr4 (X8 V c) b (i + k / 3) (j + k % 3) ci * arr3 (W8 V c) k ci co

/-- A tap read off the blocks at a point is the convolution's tap k = 3·dy + dx. -/
theorem tap_blocks8 (c : Dev nD) (t : Fin cfg8.N) (r : Fin 4) (j : Fin 56) (co : Fin 128) (k dy dx : ℕ) (hdy : k / 3 = dy) (hdx : k % 3 = dx) :
    (∑ ci ∈ Finset.range 256, arr4 (xb8 V c t) 0 (4 * (grid8.coords t 2).val + dy + r.val) (dx + j.val) ci * arr3 (wb8 V c t) k ci co.val)
      = tapf8 V c (grid8.coords t 0).val (4 * (grid8.coords t 2).val + r.val) j.val ((grid8.coords t 1).val * 128 + co.val) k := by
  unfold tapf8
  rw [hdy, hdx]
  have hR : 4 * (grid8.coords t 2).val + dy + r.val = 4 * (grid8.coords t 2).val + r.val + dy := by omega
  have hC : dx + j.val = j.val + dx := by omega
  refine Finset.sum_congr rfl fun ci _ => ?_
  rw [arr4_xb8, arr3_wb8 V c t k ci co.val co.isLt, hR, hC]

/-- THE BLOCK'S VALUE: after the body at a point, the output's staging buffer at pixel (r, j), channel co holds the
    convolution of the padded image at the point's batch, row and channel tile. -/
theorem blk_value8 (c : Dev nD) (t : Fin cfg8.N) (u : Fin 1) (r : Fin 4) (j : Fin 56) (co : Fin 128) :
    outsAt8 (F := Ideal) V c t (ix4 u r j co)
      = conv 256 (arr4 (X8 V c)) (arr3 (W8 V c)) (arr2 (B8 V c)) (grid8.coords t 0).val (4 * (grid8.coords t 2).val + r.val) j.val ((grid8.coords t 1).val * 128 + co.val) := by
  unfold outsAt8
  rw [out8_eq]
  unfold conv8_pay
  rw [pay8_apply]
  have T0 := tap8_1 (grid8.coords t) (xb8 V c t) (wb8 V c t) 0 0 inb_S9x256x128_S1x256x128_0_0_0 r j co
  have T1 := tap8_2 (grid8.coords t) (xb8 V c t) (wb8 V c t) 0 1 inb_S9x256x128_S1x256x128_1_0_0 r j co
  have T2 := tap8_3 (grid8.coords t) (xb8 V c t) (wb8 V c t) 0 2 inb_S9x256x128_S1x256x128_2_0_0 r j co
  have T3 := tap8_1 (grid8.coords t) (xb8 V c t) (wb8 V c t) 1 3 inb_S9x256x128_S1x256x128_3_0_0 r j co
  have T4 := tap8_2 (grid8.coords t) (xb8 V c t) (wb8 V c t) 1 4 inb_S9x256x128_S1x256x128_4_0_0 r j co
  have T5 := tap8_3 (grid8.coords t) (xb8 V c t) (wb8 V c t) 1 5 inb_S9x256x128_S1x256x128_5_0_0 r j co
  have T6 := tap8_1 (grid8.coords t) (xb8 V c t) (wb8 V c t) 2 6 inb_S9x256x128_S1x256x128_6_0_0 r j co
  have T7 := tap8_2 (grid8.coords t) (xb8 V c t) (wb8 V c t) 2 7 inb_S9x256x128_S1x256x128_7_0_0 r j co
  have T8 := tap8_3 (grid8.coords t) (xb8 V c t) (wb8 V c t) 2 8 inb_S9x256x128_S1x256x128_8_0_0 r j co
  refine (congrArg (fun s => max s 0) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) rfl
      (T0.trans (tap_blocks8 V c t r j co 0 0 0 rfl rfl)))
      (T1.trans (tap_blocks8 V c t r j co 1 0 1 rfl rfl)))
      (T2.trans (tap_blocks8 V c t r j co 2 0 2 rfl rfl)))
      (T3.trans (tap_blocks8 V c t r j co 3 1 0 rfl rfl)))
      (T4.trans (tap_blocks8 V c t r j co 4 1 1 rfl rfl)))
      (T5.trans (tap_blocks8 V c t r j co 5 1 2 rfl rfl)))
      (T6.trans (tap_blocks8 V c t r j co 6 2 0 rfl rfl)))
      (T7.trans (tap_blocks8 V c t r j co 7 2 1 rfl rfl)))
      (T8.trans (tap_blocks8 V c t r j co 8 2 2 rfl rfl)))
      (arr2_bb8 V c t 0 co))).trans ?_
  unfold conv
  rw [← chain9 (tapf8 V c (grid8.coords t 0).val (4 * (grid8.coords t 2).val + r.val) j.val ((grid8.coords t 1).val * 128 + co.val))]

/-- The convolution as an array of the output's extents. -/
def G8 (c : Dev nD) : Vec Ideal S8x56x56x256 .f32 := fun idx =>
  conv 256 (arr4 (X8 V c)) (arr3 (W8 V c)) (arr2 (B8 V c)) (idx 0).val (idx 1).val (idx 2).val (idx 3).val

/-- Every write-back writes the convolution's block: the block of point (b, ct, r) is row chunk r of batch b, channel tile ct. -/
theorem flushed_eq8 (c : Dev nD) (t : Fin cfg8.N) (hf : (cfg8.win 3).flush t = true) :
    (dat8 V c).flushed 3 t = ((cfg8.win 3).blk t).view.read (Elt Ideal) (G8 V c) := by
  show (cfg8.win 3).cut (grid8.coords t) ((dat8 V c).after 3 t) = _
  rw [after8_3]
  refine funext fun (y : S1x4x56x128.Idx) => ?_
  rw [View.read_apply]
  show outsAt8 V c t ((cfg8.win 3).xinj (grid8.coords t) y) = G8 V c (((cfg8.win 3).blk t).view.emb y)
  have hy : (cfg8.win 3).xinj (grid8.coords t) y = ix4 (n0 := 1) (n1 := 4) (n2 := 56) (n3 := 128) (y 0) (y 1) (y 2) (y 3) := funext fun (a : Fin 4) => by
    match a with
    | ⟨0, _⟩ => rfl
    | ⟨1, _⟩ => rfl
    | ⟨2, _⟩ => rfl
    | ⟨3, _⟩ => rfl
  rw [hy]
  refine (blk_value8 V c t (y 0) (y 1) (y 2) (y 3)).trans ?_
  unfold G8
  have hi := idx8_3 t
  have h0 : (y 0).val < 1 := (y 0).isLt
  refine congr (congr (congr (congrArg (conv 256 _ _ _) ?_) ?_) ?_) ?_
  · symm; show win8_3.index t 0 * 1 + 1 * (y 0).val = _; rw [hi]; show (grid8.coords t 0).val * 1 + 1 * (y 0).val = _; omega
  · symm; show win8_3.index t 1 * 4 + 1 * (y 1).val = _; rw [hi]; show (grid8.coords t 2).val * 4 + 1 * (y 1).val = _; omega
  · symm; show win8_3.index t 2 * 56 + 1 * (y 2).val = _; rw [hi]; show 0 * 56 + 1 * (y 2).val = _; omega
  · symm; show win8_3.index t 3 * 128 + 1 * (y 3).val = _; rw [hi]; show (grid8.coords t 1).val * 128 + 1 * (y 3).val = _; omega

/-- The blocks cover the output: pixel (b, i, j, co) lies in the block of point (b, co / 128, i / 4). -/
theorem cover8 (c : Dev nD) (idx : S8x56x56x256.Idx) :
    ∃ t : Fin cfg8.N, (cfg8.win 3).flush t = true ∧ idx ∈ ((cfg8.win 3).blk t).view.set := by
  have h0 : (idx 0).val < 8 := (idx 0).isLt
  have h1 : (idx 1).val < 56 := (idx 1).isLt
  have h2 : (idx 2).val < 56 := (idx 2).isLt
  have h3 : (idx 3).val < 256 := (idx 3).isLt
  have hN : cfg8.N = 224 := N_8
  have hlt : ((idx 0).val * 2 + (idx 3).val / 128) * 14 + (idx 1).val / 4 < cfg8.N := by rw [hN]; omega
  obtain ⟨t, ht⟩ : ∃ t : Fin cfg8.N, t.val = ((idx 0).val * 2 + (idx 3).val / 128) * 14 + (idx 1).val / 4 := ⟨⟨_, hlt⟩, rfl⟩
  refine ⟨t, flush8_3 t, ?_⟩
  have hset : ((cfg8.win 3).blk t).view.set = (win8_3.rect t).set := View.set_slice_whole main_v18 (win8_3.rect t)
  rw [hset, Rect.mem_set_unit]
  have hi := idx8_3 t
  have c0 : (grid8.coords t 0).val = (idx 0).val := by
    show t.val / 28 % 8 = _; rw [ht]; omega
  have c1 : (grid8.coords t 1).val = (idx 3).val / 128 := by
    show t.val / 14 % 2 = _; rw [ht]; omega
  have c2 : (grid8.coords t 2).val = (idx 1).val / 4 := by
    show t.val / 1 % 14 = _; rw [ht]; omega
  intro a
  match a with
  | ⟨0, _⟩ =>
    show win8_3.index t 0 * 1 ≤ (idx 0 : ℕ) ∧ (idx 0 : ℕ) < win8_3.index t 0 * 1 + 1
    rw [hi]; show (grid8.coords t 0).val * 1 ≤ (idx 0 : ℕ) ∧ (idx 0 : ℕ) < (grid8.coords t 0).val * 1 + 1
    rw [c0]; omega
  | ⟨1, _⟩ =>
    show win8_3.index t 1 * 4 ≤ (idx 1 : ℕ) ∧ (idx 1 : ℕ) < win8_3.index t 1 * 4 + 4
    rw [hi]; show (grid8.coords t 2).val * 4 ≤ (idx 1 : ℕ) ∧ (idx 1 : ℕ) < (grid8.coords t 2).val * 4 + 4
    rw [c2]; omega
  | ⟨2, _⟩ =>
    show win8_3.index t 2 * 56 ≤ (idx 2 : ℕ) ∧ (idx 2 : ℕ) < win8_3.index t 2 * 56 + 56
    rw [hi]; show 0 * 56 ≤ (idx 2 : ℕ) ∧ (idx 2 : ℕ) < 0 * 56 + 56
    omega
  | ⟨3, _⟩ =>
    show win8_3.index t 3 * 128 ≤ (idx 3 : ℕ) ∧ (idx 3 : ℕ) < win8_3.index t 3 * 128 + 128
    rw [hi]; show (grid8.coords t 1).val * 128 ≤ (idx 3 : ℕ) ∧ (idx 3 : ℕ) < (grid8.coords t 1).val * 128 + 128
    rw [c1]; omega

/-- So the output array after the region is the convolution. -/
theorem conv8_array (c : Dev nD) : (dat8 V c).arrAt 3 cfg8.N = G8 V c :=
  (dat8 V c).arrAt_eq_of_cover 3 (G8 V c) (flushed_eq8 V c) (cover8 c)

/-- THE REGION'S VALUE: the output array, as a total function, is the 3×3 convolution with bias and ReLU of the region's
    padded input against its weights. -/
theorem conv8_value (c : Dev nD) (b i j co : ℕ) (hb : b < 8) (hi : i < 56) (hj : j < 56) (hco : co < 256) :
    arr4 ((dat8 (F := Ideal) V c).arrAt 3 cfg8.N : Vec Ideal S8x56x56x256 .f32) b i j co
      = conv 256 (arr4 (X8 V c)) (arr3 (W8 V c)) (arr2 (B8 V c)) b i j co := by
  have hc : b < 8 ∧ i < 56 ∧ j < 56 ∧ co < 256 := ⟨hb, hi, hj, hco⟩
  rw [conv8_array]
  unfold arr4
  rw [dif_pos hc]
  rfl

end Cert.ReferenceIdeal.Val

end
-- ==== Proof.RConv10Pay.lean ====
/-
  Reference region 10: the body's payload read at an index, over the extended reals. The body adds nine products — the
  image rows at row offset dy and column offset dx, as a matrix of 196 rows of 256 channels, times weight slab 3·dy + dx —
  in order from zero, adds the bias row and takes the maximum with zero; so at pixel (r, j) and output channel co the
  payload is the nine taps summed, plus the bias, against zero.
-/
import proofs.«100114_g2000204297211070_pallasbulk_1265_19_alg».proof.Proof.Gen.ReferenceIdeal.Skeleton
import proofs.«100114_g2000204297211070_pallasbulk_1265_19_alg».proof.Proof.ConvAlg

noncomputable section

namespace Cert.ReferenceIdeal.Val

open Cert.ReferenceIdeal Cert.ReferenceIdeal.Gen
open Idealize.ShloMosaic Idealize.ShloMosaic.ValueIdx
open Cert.Spec

theorem dot10_plain : dot_S196x256_S256x128_S196x128_1_0_0_1_n_n = DotDims.plain 196 256 128 := rfl

/-- The first three taps, added in order from zero, at row r·28 + j of the accumulator. -/
theorem pay10_1_apply (v5 : Vec Ideal S1x7x28x256 .f32) (v8 : Vec Ideal S1x256x128 .f32) (v14 : Vec Ideal S1x7x28x256 .f32) (v17 : Vec Ideal S1x256x128 .f32) (v23 : Vec Ideal S1x7x28x256 .f32) (v26 : Vec Ideal S1x256x128 .f32)
    (r : Fin 7) (j : Fin 28) (co : Fin 128) (p : Fin 196) (hp : p.val = r.val * 28 + j.val) :
    k10_pay1 v5 v8 v14 v17 v23 v26 (ix2 p co) = 0 + tap v5 v8 r j co + tap v14 v17 r j co + tap v23 v26 r j co := by
  unfold k10_pay1
  simp only [matmul, addf_apply, broadcast_apply]
  rw [tap_matmul_zero _ dot10_plain none v5 v8 _ _ _ r j co p hp, tap_matmul_zero _ dot10_plain none v14 v17 _ _ _ r j co p hp,
    tap_matmul_zero _ dot10_plain none v23 v26 _ _ _ r j co p hp, ofBits_zero]

/-- The next three taps added onto the accumulator. -/
theorem pay10_2_apply (v29 : FVec Ideal S196x128 .f32) (v32 : Vec Ideal S1x7x28x256 .f32) (v35 : Vec Ideal S1x256x128 .f32) (v41 : Vec Ideal S1x7x28x256 .f32) (v44 : Vec Ideal S1x256x128 .f32) (v50 : Vec Ideal S1x7x28x256 .f32) (v53 : Vec Ideal S1x256x128 .f32)
    (r : Fin 7) (j : Fin 28) (co : Fin 128) (p : Fin 196) (hp : p.val = r.val * 28 + j.val) :
    k10_pay2 v29 v32 v35 v41 v44 v50 v53 (ix2 p co) = v29 (ix2 p co) + tap v32 v35 r j co + tap v41 v44 r j co + tap v50 v53 r j co := by
  unfold k10_pay2
  simp only [matmul, addf_apply]
  rw [tap_matmul_zero _ dot10_plain none v32 v35 _ _ _ r j co p hp, tap_matmul_zero _ dot10_plain none v41 v44 _ _ _ r j co p hp,
    tap_matmul_zero _ dot10_plain none v50 v53 _ _ _ r j co p hp]

/-- The last three taps added onto the accumulator, then the bias, then the maximum with zero, read back as a block. -/
theorem pay10_4_apply (v56 : FVec Ideal S196x128 .f32) (v59 : Vec Ideal S1x7x28x256 .f32) (v62 : Vec Ideal S1x256x128 .f32) (v68 : Vec Ideal S1x7x28x256 .f32) (v71 : Vec Ideal S1x256x128 .f32) (v77 : Vec Ideal S1x7x28x256 .f32) (v80 : Vec Ideal S1x256x128 .f32) (v84 : Vec Ideal S1x128 .f32)
    (u : Fin 1) (r : Fin 7) (j : Fin 28) (co : Fin 128) (p : Fin 196) (hp : p.val = r.val * 28 + j.val) :
    k10_pay4 v56 (k10_pay3 v59) v62 v68 v71 v77 v80 v84 (ix4 u r j co)
      = max (v56 (ix2 p co) + tap v59 v62 r j co + tap v68 v71 r j co + tap v77 v80 r j co + v84 (ix2 (0 : Fin 1) co)) 0 := by
  unfold k10_pay4 k10_pay3
  rw [rows_out_apply _ _ _ u r j co p hp]
  simp only [matmul, addf_apply, maximumf_apply, broadcast_apply]
  rw [tap_matmul_zero _ dot10_plain none v59 v62 _ _ _ r j co p hp, tap_matmul_zero _ dot10_plain none v68 v71 _ _ _ r j co p hp,
    tap_matmul_zero _ dot10_plain none v77 v80 _ _ _ r j co p hp, broadcastTo_1b_ab_apply, ofBits_zero]

/-- The whole payload at pixel (r, j), output channel co: the nine taps summed, plus the bias, against zero. -/
theorem pay10_apply (v5 : Vec Ideal S1x7x28x256 .f32) (v8 : Vec Ideal S1x256x128 .f32) (v14 : Vec Ideal S1x7x28x256 .f32) (v17 : Vec Ideal S1x256x128 .f32) (v23 : Vec Ideal S1x7x28x256 .f32) (v26 : Vec Ideal S1x256x128 .f32)
    (v32 : Vec Ideal S1x7x28x256 .f32) (v35 : Vec Ideal S1x256x128 .f32) (v41 : Vec Ideal S1x7x28x256 .f32) (v44 : Vec Ideal S1x256x128 .f32) (v50 : Vec Ideal S1x7x28x256 .f32) (v53 : Vec Ideal S1x256x128 .f32)
    (v59 : Vec Ideal S1x7x28x256 .f32) (v62 : Vec Ideal S1x256x128 .f32) (v68 : Vec Ideal S1x7x28x256 .f32) (v71 : Vec Ideal S1x256x128 .f32) (v77 : Vec Ideal S1x7x28x256 .f32) (v80 : Vec Ideal S1x256x128 .f32) (v84 : Vec Ideal S1x128 .f32)
    (u : Fin 1) (r : Fin 7) (j : Fin 28) (co : Fin 128) :
    k10_pay4 (k10_pay2 (k10_pay1 v5 v8 v14 v17 v23 v26) v32 v35 v41 v44 v50 v53) (k10_pay3 v59) v62 v68 v71 v77 v80 v84 (ix4 u r j co)
      = max (0 + tap v5 v8 r j co + tap v14 v17 r j co + tap v23 v26 r j co + tap v32 v35 r j co + tap v41 v44 r j co + tap v50 v53 r j co
          + tap v59 v62 r j co + tap v68 v71 r j co + tap v77 v80 r j co + v84 (ix2 (0 : Fin 1) co)) 0 := by
  have hlt : r.val * 28 + j.val < 196 := by have := r.isLt; have := j.isLt; omega
  rw [pay10_4_apply _ v59 v62 v68 v71 v77 v80 v84 u r j co ⟨r.val * 28 + j.val, hlt⟩ rfl,
    pay10_2_apply _ v32 v35 v41 v44 v50 v53 r j co ⟨r.val * 28 + j.val, hlt⟩ rfl,
    pay10_1_apply v5 v8 v14 v17 v23 v26 r j co ⟨r.val * 28 + j.val, hlt⟩ rfl]

end Cert.ReferenceIdeal.Val

end
-- ==== Proof.RConv10Blk.lean ====
/-
  Reference region 10: what the body leaves in the output's staging buffer, as a function of the three input blocks.
  The body loads nine windows of the image block (rows from 7 * (i 2).val + dy, columns from dx), the nine weight slabs and
  the bias block, and stores one value over the whole output block: the payload of those loads.
-/
import proofs.«100114_g2000204297211070_pallasbulk_1265_19_alg».proof.Proof.Gen.ReferenceIdeal.Frame
import proofs.«100114_g2000204297211070_pallasbulk_1265_19_alg».proof.Proof.ConvAlg
import Idealize.ShloMosaic.Lib.Pipeline.Value
import Idealize.ShloMosaic.Lib.Tactic

set_option maxRecDepth 16384

noncomputable section

namespace Cert.ReferenceIdeal.Val

open Cert.ReferenceIdeal Cert.ReferenceIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Spec

variable {F : FTy → Type} [FloatOps F]

/-- The body's one store, as a function of the three input blocks: the payload of the nine loaded image rows (row
    offset dy = 0, 1, 2, column offset dx = 0, 1, 2), the nine loaded weight slabs and the bias block. -/
def conv10_pay (i : grid10.Coords) (x0 : Vec F S1x30x30x256 .f32) (x1 : Vec F S9x256x128 .f32) (x2 : Vec F S1x128 .f32) : Vec F S1x7x28x128 .f32 :=
  k10_pay4
    (k10_pay2
      (k10_pay1
        (View.ld x0 (Rect.unit (s := S1x30x30x256) (k10_off1 i 0#32) S1x7x28x256.size (k10_off1_inb i 0)))
        (View.ld x1 (Rect.unit (s := S9x256x128) ![0, 0, 0] S1x256x128.size inb_S9x256x128_S1x256x128_0_0_0))
        (View.ld x0 (Rect.unit (s := S1x30x30x256) (k10_off2 i 0#32) S1x7x28x256.size (k10_off2_inb i 0)))
        (View.ld x1 (Rect.unit (s := S9x256x128) ![1, 0, 0] S1x256x128.size inb_S9x256x128_S1x256x128_1_0_0))
        (View.ld x0 (Rect.unit (s := S1x30x30x256) (k10_off3 i 0#32) S1x7x28x256.size (k10_off3_inb i 0)))
        (View.ld x1 (Rect.unit (s := S9x256x128) ![2, 0, 0] S1x256x128.size inb_S9x256x128_S1x256x128_2_0_0)))
      (View.ld x0 (Rect.unit (s := S1x30x30x256) (k10_off1 i 1#32) S1x7x28x256.size (k10_off1_inb i 1)))
      (View.ld x1 (Rect.unit (s := S9x256x128) ![3, 0, 0] S1x256x128.size inb_S9x256x128_S1x256x128_3_0_0))
      (View.ld x0 (Rect.unit (s := S1x30x30x256) (k10_off2 i 1#32) S1x7x28x256.size (k10_off2_inb i 1)))
      (View.ld x1 (Rect.unit (s := S9x256x128) ![4, 0, 0] S1x256x128.size inb_S9x256x128_S1x256x128_4_0_0))
      (View.ld x0 (Rect.unit (s := S1x30x30x256) (k10_off3 i 1#32) S1x7x28x256.size (k10_off3_inb i 1)))
      (View.ld x1 (Rect.unit (s := S9x256x128) ![5, 0, 0] S1x256x128.size inb_S9x256x128_S1x256x128_5_0_0)))
    (k10_pay3 (View.ld x0 (Rect.unit (s := S1x30x30x256) (k10_off1 i 2#32) S1x7x28x256.size (k10_off1_inb i 2))))
    (View.ld x1 (Rect.unit (s := S9x256x128) ![6, 0, 0] S1x256x128.size inb_S9x256x128_S1x256x128_6_0_0))
    (View.ld x0 (Rect.unit (s := S1x30x30x256) (k10_off2 i 2#32) S1x7x28x256.size (k10_off2_inb i 2)))
    (View.ld x1 (Rect.unit (s := S9x256x128) ![7, 0, 0] S1x256x128.size inb_S9x256x128_S1x256x128_7_0_0))
    (View.ld x0 (Rect.unit (s := S1x30x30x256) (k10_off3 i 2#32) S1x7x28x256.size (k10_off3_inb i 2)))
    (View.ld x1 (Rect.unit (s := S9x256x128) ![8, 0, 0] S1x256x128.size inb_S9x256x128_S1x256x128_8_0_0))
    x2

set_option maxHeartbeats 1000000 in
/-- What the run leaves in the output's staging buffer is that payload of the input blocks. -/
theorem out10_eq (c : Dev nD) (i : grid10.Coords) (arg3 : Memref sig .tc .vmem S1x30x30x256 .f32) (harg3 : arg3.IsWhole) (arg4 : Memref sig .tc .vmem S9x256x128 .f32) (harg4 : arg4.IsWhole) (arg5 : Memref sig .tc .vmem S1x128 .f32) (harg5 : arg5.IsWhole) (arg6 : Memref sig .tc .vmem S1x7x28x128 .f32) (harg6 : arg6.IsWhole)
    (x0 : Vec F S1x30x30x256 .f32) (x1 : Vec F S9x256x128 .f32) (x2 : Vec F S1x128 .f32) :
    out10_A_3 c i arg3 harg3 arg4 harg4 arg5 harg5 arg6 harg6 x0 x1 x2 = conv10_pay i x0 x1 x2 := by
  unfold out10_A_3 conv10_pay
  rw [View.read_writes_eq_canon _ _ _ (cover10_A_3 c i arg3 harg3 arg4 harg4 arg5 harg5 arg6 harg6 x0 x1 x2)]
  unfold kernelRun10_A
  dsimp only
  sl_unfold_words
  rw [View.canon_unit_zero hz4]
  simp only [View.readAt_eq_ld, harg3.read_unread, harg4.read_unread, harg5.read_unread, View.ld_unit_zero (S := S1x128) hz2]

end Cert.ReferenceIdeal.Val

end
-- ==== Proof.RConv10.lean ====
/-
  Reference region 10: THE VALUE of its output array after the region, over the extended reals. Point (b, ct, r) of the
  grid works on batch b, output-channel tile ct and row chunk r: its image block is batch b of the padded input, its
  weights' and bias's blocks are tile ct, and its output block is rows 7·r … of batch b, channels of tile ct. What
  the body leaves there is the convolution's value (nine taps, bias, maximum with zero); every point writes its block
  back and the blocks cover the array; so the array, as a total function, is the 3×3 convolution with bias and ReLU of
  the region's padded input against its weights.
-/
import proofs.«100114_g2000204297211070_pallasbulk_1265_19_alg».proof.Proof.RConv10Pay
import proofs.«100114_g2000204297211070_pallasbulk_1265_19_alg».proof.Proof.RConv10Blk

set_option maxRecDepth 16384

noncomputable section

namespace Cert.ReferenceIdeal.Val

open Cert.ReferenceIdeal Cert.ReferenceIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Spec

variable (V : (c : Dev nD) → (b : Ref sig .tc) → Buf (Elt Ideal) ((c : Thread nD τ).loc b))

/-- The region's three input arrays and its blocks at a point, at their literal types. -/
abbrev X10 (c : Dev nD) : Vec Ideal S8x30x30x256 .f32 := V c (Pipeline.arrRef spec10 0)
abbrev W10 (c : Dev nD) : Vec Ideal S9x256x512 .f32 := V c (Pipeline.arrRef spec10 1)
abbrev B10 (c : Dev nD) : Vec Ideal S1x512 .f32 := V c (Pipeline.arrRef spec10 2)
abbrev xb10 (c : Dev nD) (t : Fin cfg10.N) : Vec Ideal S1x30x30x256 .f32 := iblk10 V c 0 t
abbrev wb10 (c : Dev nD) (t : Fin cfg10.N) : Vec Ideal S9x256x128 .f32 := iblk10 V c 1 t
abbrev bb10 (c : Dev nD) (t : Fin cfg10.N) : Vec Ideal S1x128 .f32 := iblk10 V c 2 t

/-- The four index maps at a point (b, ct, r): the image block is batch b; the weights' and the bias's block is output
    channel tile ct; the output block is row chunk r of batch b, channel tile ct. -/
theorem idx10_0 (t : Fin cfg10.N) : win10_0.index t = ![(grid10.coords t 0).val, 0, 0, 0] := by
  funext a
  show cc10_transform_0 (grid10.coords t) a = _
  match a with
  | ⟨0, _⟩ => exact toNat_coord (grid10.coords t 0) (by decide)
  | ⟨1, _⟩ => rfl
  | ⟨2, _⟩ => rfl
  | ⟨3, _⟩ => rfl
theorem idx10_1 (t : Fin cfg10.N) : win10_1.index t = ![0, 0, (grid10.coords t 1).val] := by
  funext a
  show cc10_transform_1 (grid10.coords t) a = _
  match a with
  | ⟨0, _⟩ => rfl
  | ⟨1, _⟩ => rfl
  | ⟨2, _⟩ => exact toNat_coord (grid10.coords t 1) (by decide)
theorem idx10_2 (t : Fin cfg10.N) : win10_2.index t = ![0, (grid10.coords t 1).val] := by
  funext a
  show cc10_transform_2 (grid10.coords t) a = _
  match a with
  | ⟨0, _⟩ => rfl
  | ⟨1, _⟩ => exact toNat_coord (grid10.coords t 1) (by decide)
theorem idx10_3 (t : Fin cfg10.N) : win10_3.index t = ![(grid10.coords t 0).val, (grid10.coords t 2).val, 0, (grid10.coords t 1).val] := by
  funext a
  show cc10_transform_3 (grid10.coords t) a = _
  match a with
  | ⟨0, _⟩ => exact toNat_coord (grid10.coords t 0) (by decide)
  | ⟨1, _⟩ => exact toNat_coord (grid10.coords t 2) (by decide)
  | ⟨2, _⟩ => rfl
  | ⟨3, _⟩ => exact toNat_coord (grid10.coords t 1) (by decide)

/-- The image block at a point is the point's batch of the padded image. -/
theorem xb10_apply (c : Dev nD) (t : Fin cfg10.N) (y0 : Fin 1) (I : Fin 30) (J : Fin 30) (ci : Fin 256) :
    xb10 V c t (ix4 y0 I J ci) = X10 V c (ix4 ⟨(grid10.coords t 0).val, (grid10.coords t 0).isLt⟩ I J ci) := by
  unfold xb10 iblk10
  rw [View.read_apply]
  show V c (Pipeline.arrRef spec10 0) _ = V c (Pipeline.arrRef spec10 0) _
  congr 1
  funext a
  apply Fin.ext
  have hi := idx10_0 t
  have h0 := y0.isLt
  match a with
  | ⟨0, _⟩ => show win10_0.index t 0 * 1 + 1 * y0.val = (grid10.coords t 0).val; rw [hi]; show (grid10.coords t 0).val * 1 + 1 * y0.val = _; omega
  | ⟨1, _⟩ => show win10_0.index t 1 * 30 + 1 * I.val = I.val; rw [hi]; show 0 * 30 + 1 * I.val = _; omega
  | ⟨2, _⟩ => show win10_0.index t 2 * 30 + 1 * J.val = J.val; rw [hi]; show 0 * 30 + 1 * J.val = _; omega
  | ⟨3, _⟩ => show win10_0.index t 3 * 256 + 1 * ci.val = ci.val; rw [hi]; show 0 * 256 + 1 * ci.val = _; omega

/-- The weights' block at a point is the point's tile of output channels of the weights. -/
theorem wb10_apply (c : Dev nD) (t : Fin cfg10.N) (k : Fin 9) (ci : Fin 256) (co : Fin 128) :
    wb10 V c t (ix3 k ci co) = W10 V c (ix3 k ci ⟨(grid10.coords t 1).val * 128 + co.val, by
      have h1 : (grid10.coords t 1).val < 4 := (grid10.coords t 1).isLt
      have := co.isLt; omega⟩) := by
  unfold wb10 iblk10
  rw [View.read_apply]
  show V c (Pipeline.arrRef spec10 1) _ = V c (Pipeline.arrRef spec10 1) _
  congr 1
  funext a
  apply Fin.ext
  have hi := idx10_1 t
  match a with
  | ⟨0, _⟩ => show win10_1.index t 0 * 9 + 1 * k.val = k.val; rw [hi]; show 0 * 9 + 1 * k.val = _; omega
  | ⟨1, _⟩ => show win10_1.index t 1 * 256 + 1 * ci.val = ci.val; rw [hi]; show 0 * 256 + 1 * ci.val = _; omega
  | ⟨2, _⟩ => show win10_1.index t 2 * 128 + 1 * co.val = (grid10.coords t 1).val * 128 + co.val; rw [hi]; show (grid10.coords t 1).val * 128 + 1 * co.val = _; omega

/-- The bias block at a point is the point's tile of output channels of the bias. -/
theorem bb10_apply (c : Dev nD) (t : Fin cfg10.N) (u : Fin 1) (co : Fin 128) :
    bb10 V c t (ix2 u co) = B10 V c (ix2 (0 : Fin 1) ⟨(grid10.coords t 1).val * 128 + co.val, by
      have h1 : (grid10.coords t 1).val < 4 := (grid10.coords t 1).isLt
      have := co.isLt; omega⟩) := by
  unfold bb10 iblk10
  rw [View.read_apply]
  show V c (Pipeline.arrRef spec10 2) _ = V c (Pipeline.arrRef spec10 2) _
  congr 1
  funext a
  apply Fin.ext
  have hi := idx10_2 t
  have h0 := u.isLt
  match a with
  | ⟨0, _⟩ => show win10_2.index t 0 * 1 + 1 * u.val = 0; rw [hi]; show 0 * 1 + 1 * u.val = _; omega
  | ⟨1, _⟩ => show win10_2.index t 1 * 128 + 1 * co.val = (grid10.coords t 1).val * 128 + co.val; rw [hi]; show (grid10.coords t 1).val * 128 + 1 * co.val = _; omega

/-- The same three facts over total functions of natural coordinates. -/
theorem arr4_xb10 (c : Dev nD) (t : Fin cfg10.N) (I J ci : ℕ) :
    arr4 (xb10 V c t) 0 I J ci = arr4 (X10 V c) (grid10.coords t 0).val I J ci := by
  unfold arr4
  by_cases h : I < 30 ∧ J < 30 ∧ ci < 256
  · have hl : 0 < 1 ∧ I < 30 ∧ J < 30 ∧ ci < 256 := ⟨by decide, h⟩
    have hr : (grid10.coords t 0).val < 8 ∧ I < 30 ∧ J < 30 ∧ ci < 256 := ⟨(grid10.coords t 0).isLt, h⟩
    rw [dif_pos hl, dif_pos hr]
    exact xb10_apply V c t _ _ _ _
  · have hl : ¬(0 < 1 ∧ I < 30 ∧ J < 30 ∧ ci < 256) := fun h' => h h'.2
    have hr : ¬((grid10.coords t 0).val < 8 ∧ I < 30 ∧ J < 30 ∧ ci < 256) := fun h' => h h'.2
    rw [dif_neg hl, dif_neg hr]

theorem arr3_wb10 (c : Dev nD) (t : Fin cfg10.N) (k ci co : ℕ) (hco : co < 128) :
    arr3 (wb10 V c t) k ci co = arr3 (W10 V c) k ci ((grid10.coords t 1).val * 128 + co) := by
  have h1 : (grid10.coords t 1).val < 4 := (grid10.coords t 1).isLt
  unfold arr3
  by_cases h : k < 9 ∧ ci < 256
  · have hl : k < 9 ∧ ci < 256 ∧ co < 128 := ⟨h.1, h.2, hco⟩
    have hr : k < 9 ∧ ci < 256 ∧ (grid10.coords t 1).val * 128 + co < 512 := ⟨h.1, h.2, by omega⟩
    rw [dif_pos hl, dif_pos hr]
    exact wb10_apply V c t ⟨k, h.1⟩ ⟨ci, h.2⟩ ⟨co, hco⟩
  · have hl : ¬(k < 9 ∧ ci < 256 ∧ co < 128) := fun h' => h ⟨h'.1, h'.2.1⟩
    have hr : ¬(k < 9 ∧ ci < 256 ∧ (grid10.coords t 1).val * 128 + co < 512) := fun h' => h ⟨h'.1, h'.2.1⟩
    rw [dif_neg hl, dif_neg hr]

theorem arr2_bb10 (c : Dev nD) (t : Fin cfg10.N) (u : Fin 1) (co : Fin 128) :
    bb10 V c t (ix2 u co) = arr2 (B10 V c) 0 ((grid10.coords t 1).val * 128 + co.val) := by
  have h1 : (grid10.coords t 1).val < 4 := (grid10.coords t 1).isLt
  have h2 := co.isLt
  have hc : 0 < 1 ∧ (grid10.coords t 1).val * 128 + co.val < 512 := ⟨by decide, by omega⟩
  rw [bb10_apply]
  unfold arr2
  rw [dif_pos hc]
  rfl

/-- One tap of the body at a point, for each of the three column offsets: the load at rows from `7 * (i 2).val + dy`, columns
    from dx, against weight slab k. -/
theorem tap10_1 (i : grid10.Coords) (x0 : Vec Ideal S1x30x30x256 .f32) (x1 : Vec Ideal S9x256x128 .f32) (dy : Fin 3) (k : ℕ)
    (inbw : ∀ a, (![k, 0, 0] : Fin 3 → ℕ) a + S1x256x128.size a ≤ S9x256x128.size a) (r : Fin 7) (j : Fin 28) (co : Fin 128) :
    tap (View.ld x0 (Rect.unit (s := S1x30x30x256) (k10_off1 i (BitVec.ofNat 32 dy.val)) S1x7x28x256.size (k10_off1_inb i dy)))
        (View.ld x1 (Rect.unit (s := S9x256x128) ![k, 0, 0] S1x256x128.size inbw)) r j co
      = ∑ ci ∈ Finset.range 256, arr4 x0 0 (7 * (i 2).val + dy.val + r.val) (0 + j.val) ci * arr3 x1 k ci co.val :=
  tap_ld x0 x1 _ _ _ _ r j co _ _ k (congrFun (k10_off1_eq i dy) 0) (congrFun (k10_off1_eq i dy) 1) (congrFun (k10_off1_eq i dy) 2)
    (congrFun (k10_off1_eq i dy) 3) rfl rfl rfl
theorem tap10_2 (i : grid10.Coords) (x0 : Vec Ideal S1x30x30x256 .f32) (x1 : Vec Ideal S9x256x128 .f32) (dy : Fin 3) (k : ℕ)
    (inbw : ∀ a, (![k, 0, 0] : Fin 3 → ℕ) a + S1x256x128.size a ≤ S9x256x128.size a) (r : Fin 7) (j : Fin 28) (co : Fin 128) :
    tap (View.ld x0 (Rect.unit (s := S1x30x30x256) (k10_off2 i (BitVec.ofNat 32 dy.val)) S1x7x28x256.size (k10_off2_inb i dy)))
        (View.ld x1 (Rect.unit (s := S9x256x128) ![k, 0, 0] S1x256x128.size inbw)) r j co
      = ∑ ci ∈ Finset.range 256, arr4 x0 0 (7 * (i 2).val + dy.val + r.val) (1 + j.val) ci * arr3 x1 k ci co.val :=
  tap_ld x0 x1 _ _ _ _ r j co _ _ k (congrFun (k10_off2_eq i dy) 0) (congrFun (k10_off2_eq i dy) 1) (congrFun (k10_off2_eq i dy) 2)
    (congrFun (k10_off2_eq i dy) 3) rfl rfl rfl
theorem tap10_3 (i : grid10.Coords) (x0 : Vec Ideal S1x30x30x256 .f32) (x1 : Vec Ideal S9x256x128 .f32) (dy : Fin 3) (k : ℕ)
    (inbw : ∀ a, (![k, 0, 0] : Fin 3 → ℕ) a + S1x256x128.size a ≤ S9x256x128.size a) (r : Fin 7) (j : Fin 28) (co : Fin 128) :
    tap (View.ld x0 (Rect.unit (s := S1x30x30x256) (k10_off3 i (BitVec.ofNat 32 dy.val)) S1x7x28x256.size (k10_off3_inb i dy)))
        (View.ld x1 (Rect.unit (s := S9x256x128) ![k, 0, 0] S1x256x128.size inbw)) r j co
      = ∑ ci ∈ Finset.range 256, arr4 x0 0 (7 * (i 2).val + dy.val + r.val) (2 + j.val) ci * arr3 x1 k ci co.val :=
  tap_ld x0 x1 _ _ _ _ r j co _ _ k (congrFun (k10_off3_eq i dy) 0) (congrFun (k10_off3_eq i dy) 1) (congrFun (k10_off3_eq i dy) 2)
    (congrFun (k10_off3_eq i dy) 3) rfl rfl rfl

/-- Tap k of the convolution at output pixel (i, j), channel co, of batch b. -/
abbrev tapf10 (c : Dev nD) (b i j co : ℕ) (k : ℕ) : EReal :=
  ∑ ci ∈ Finset.range 256, arr4 (X10 V c) b (i + k / 3) (j + k % 3) ci * arr3 (W10 V c) k ci co

/-- A tap read off the blocks at a point is the convolution's tap k = 3·dy + dx. -/
theorem tap_blocks10 (c : Dev nD) (t : Fin cfg10.N) (r : Fin 7) (j : Fin 28) (co : Fin 128) (k dy dx : ℕ) (hdy : k / 3 = dy) (hdx : k % 3 = dx) :
    (∑ ci ∈ Finset.range 256, arr4 (xb10 V c t) 0 (7 * (grid10.coords t 2).val + dy + r.val) (dx + j.val) ci * arr3 (wb10 V c t) k ci co.val)
      = tapf10 V c (grid10.coords t 0).val (7 * (grid10.coords t 2).val + r.val) j.val ((grid10.coords t 1).val * 128 + co.val) k := by
  unfold tapf10
  rw [hdy, hdx]
  have hR : 7 * (grid10.coords t 2).val + dy + r.val = 7 * (grid10.coords t 2).val + r.val + dy := by omega
  have hC : dx + j.val = j.val + dx := by omega
  refine Finset.sum_congr rfl fun ci _ => ?_
  rw [arr4_xb10, arr3_wb10 V c t k ci co.val co.isLt, hR, hC]

/-- THE BLOCK'S VALUE: after the body at a point, the output's staging buffer at pixel (r, j), channel co holds the
    convolution of the padded image at the point's batch, row and channel tile. -/
theorem blk_value10 (c : Dev nD) (t : Fin cfg10.N) (u : Fin 1) (r : Fin 7) (j : Fin 28) (co : Fin 128) :
    outsAt10 (F := Ideal) V c t (ix4 u r j co)
      = conv 256 (arr4 (X10 V c)) (arr3 (W10 V c)) (arr2 (B10 V c)) (grid10.coords t 0).val (7 * (grid10.coords t 2).val + r.val) j.val ((grid10.coords t 1).val * 128 + co.val) := by
  unfold outsAt10
  rw [out10_eq]
  unfold conv10_pay
  rw [pay10_apply]
  have T0 := tap10_1 (grid10.coords t) (xb10 V c t) (wb10 V c t) 0 0 inb_S9x256x128_S1x256x128_0_0_0 r j co
  have T1 := tap10_2 (grid10.coords t) (xb10 V c t) (wb10 V c t) 0 1 inb_S9x256x128_S1x256x128_1_0_0 r j co
  have T2 := tap10_3 (grid10.coords t) (xb10 V c t) (wb10 V c t) 0 2 inb_S9x256x128_S1x256x128_2_0_0 r j co
  have T3 := tap10_1 (grid10.coords t) (xb10 V c t) (wb10 V c t) 1 3 inb_S9x256x128_S1x256x128_3_0_0 r j co
  have T4 := tap10_2 (grid10.coords t) (xb10 V c t) (wb10 V c t) 1 4 inb_S9x256x128_S1x256x128_4_0_0 r j co
  have T5 := tap10_3 (grid10.coords t) (xb10 V c t) (wb10 V c t) 1 5 inb_S9x256x128_S1x256x128_5_0_0 r j co
  have T6 := tap10_1 (grid10.coords t) (xb10 V c t) (wb10 V c t) 2 6 inb_S9x256x128_S1x256x128_6_0_0 r j co
  have T7 := tap10_2 (grid10.coords t) (xb10 V c t) (wb10 V c t) 2 7 inb_S9x256x128_S1x256x128_7_0_0 r j co
  have T8 := tap10_3 (grid10.coords t) (xb10 V c t) (wb10 V c t) 2 8 inb_S9x256x128_S1x256x128_8_0_0 r j co
  refine (congrArg (fun s => max s 0) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) rfl
      (T0.trans (tap_blocks10 V c t r j co 0 0 0 rfl rfl)))
      (T1.trans (tap_blocks10 V c t r j co 1 0 1 rfl rfl)))
      (T2.trans (tap_blocks10 V c t r j co 2 0 2 rfl rfl)))
      (T3.trans (tap_blocks10 V c t r j co 3 1 0 rfl rfl)))
      (T4.trans (tap_blocks10 V c t r j co 4 1 1 rfl rfl)))
      (T5.trans (tap_blocks10 V c t r j co 5 1 2 rfl rfl)))
      (T6.trans (tap_blocks10 V c t r j co 6 2 0 rfl rfl)))
      (T7.trans (tap_blocks10 V c t r j co 7 2 1 rfl rfl)))
      (T8.trans (tap_blocks10 V c t r j co 8 2 2 rfl rfl)))
      (arr2_bb10 V c t 0 co))).trans ?_
  unfold conv
  rw [← chain9 (tapf10 V c (grid10.coords t 0).val (7 * (grid10.coords t 2).val + r.val) j.val ((grid10.coords t 1).val * 128 + co.val))]

/-- The convolution as an array of the output's extents. -/
def G10 (c : Dev nD) : Vec Ideal S8x28x28x512 .f32 := fun idx =>
  conv 256 (arr4 (X10 V c)) (arr3 (W10 V c)) (arr2 (B10 V c)) (idx 0).val (idx 1).val (idx 2).val (idx 3).val

/-- Every write-back writes the convolution's block: the block of point (b, ct, r) is row chunk r of batch b, channel tile ct. -/
theorem flushed_eq10 (c : Dev nD) (t : Fin cfg10.N) (hf : (cfg10.win 3).flush t = true) :
    (dat10 V c).flushed 3 t = ((cfg10.win 3).blk t).view.read (Elt Ideal) (G10 V c) := by
  show (cfg10.win 3).cut (grid10.coords t) ((dat10 V c).after 3 t) = _
  rw [after10_3]
  refine funext fun (y : S1x7x28x128.Idx) => ?_
  rw [View.read_apply]
  show outsAt10 V c t ((cfg10.win 3).xinj (grid10.coords t) y) = G10 V c (((cfg10.win 3).blk t).view.emb y)
  have hy : (cfg10.win 3).xinj (grid10.coords t) y = ix4 (n0 := 1) (n1 := 7) (n2 := 28) (n3 := 128) (y 0) (y 1) (y 2) (y 3) := funext fun (a : Fin 4) => by
    match a with
    | ⟨0, _⟩ => rfl
    | ⟨1, _⟩ => rfl
    | ⟨2, _⟩ => rfl
    | ⟨3, _⟩ => rfl
  rw [hy]
  refine (blk_value10 V c t (y 0) (y 1) (y 2) (y 3)).trans ?_
  unfold G10
  have hi := idx10_3 t
  have h0 : (y 0).val < 1 := (y 0).isLt
  refine congr (congr (congr (congrArg (conv 256 _ _ _) ?_) ?_) ?_) ?_
  · symm; show win10_3.index t 0 * 1 + 1 * (y 0).val = _; rw [hi]; show (grid10.coords t 0).val * 1 + 1 * (y 0).val = _; omega
  · symm; show win10_3.index t 1 * 7 + 1 * (y 1).val = _; rw [hi]; show (grid10.coords t 2).val * 7 + 1 * (y 1).val = _; omega
  · symm; show win10_3.index t 2 * 28 + 1 * (y 2).val = _; rw [hi]; show 0 * 28 + 1 * (y 2).val = _; omega
  · symm; show win10_3.index t 3 * 128 + 1 * (y 3).val = _; rw [hi]; show (grid10.coords t 1).val * 128 + 1 * (y 3).val = _; omega

/-- The blocks cover the output: pixel (b, i, j, co) lies in the block of point (b, co / 128, i / 7). -/
theorem cover10 (c : Dev nD) (idx : S8x28x28x512.Idx) :
    ∃ t : Fin cfg10.N, (cfg10.win 3).flush t = true ∧ idx ∈ ((cfg10.win 3).blk t).view.set := by
  have h0 : (idx 0).val < 8 := (idx 0).isLt
  have h1 : (idx 1).val < 28 := (idx 1).isLt
  have h2 : (idx 2).val < 28 := (idx 2).isLt
  have h3 : (idx 3).val < 512 := (idx 3).isLt
  have hN : cfg10.N = 128 := N_10
  have hlt : ((idx 0).val * 4 + (idx 3).val / 128) * 4 + (idx 1).val / 7 < cfg10.N := by rw [hN]; omega
  obtain ⟨t, ht⟩ : ∃ t : Fin cfg10.N, t.val = ((idx 0).val * 4 + (idx 3).val / 128) * 4 + (idx 1).val / 7 := ⟨⟨_, hlt⟩, rfl⟩
  refine ⟨t, flush10_3 t, ?_⟩
  have hset : ((cfg10.win 3).blk t).view.set = (win10_3.rect t).set := View.set_slice_whole main_v22 (win10_3.rect t)
  rw [hset, Rect.mem_set_unit]
  have hi := idx10_3 t
  have c0 : (grid10.coords t 0).val = (idx 0).val := by
    show t.val / 16 % 8 = _; rw [ht]; omega
  have c1 : (grid10.coords t 1).val = (idx 3).val / 128 := by
    show t.val / 4 % 4 = _; rw [ht]; omega
  have c2 : (grid10.coords t 2).val = (idx 1).val / 7 := by
    show t.val / 1 % 4 = _; rw [ht]; omega
  intro a
  match a with
  | ⟨0, _⟩ =>
    show win10_3.index t 0 * 1 ≤ (idx 0 : ℕ) ∧ (idx 0 : ℕ) < win10_3.index t 0 * 1 + 1
    rw [hi]; show (grid10.coords t 0).val * 1 ≤ (idx 0 : ℕ) ∧ (idx 0 : ℕ) < (grid10.coords t 0).val * 1 + 1
    rw [c0]; omega
  | ⟨1, _⟩ =>
    show win10_3.index t 1 * 7 ≤ (idx 1 : ℕ) ∧ (idx 1 : ℕ) < win10_3.index t 1 * 7 + 7
    rw [hi]; show (grid10.coords t 2).val * 7 ≤ (idx 1 : ℕ) ∧ (idx 1 : ℕ) < (grid10.coords t 2).val * 7 + 7
    rw [c2]; omega
  | ⟨2, _⟩ =>
    show win10_3.index t 2 * 28 ≤ (idx 2 : ℕ) ∧ (idx 2 : ℕ) < win10_3.index t 2 * 28 + 28
    rw [hi]; show 0 * 28 ≤ (idx 2 : ℕ) ∧ (idx 2 : ℕ) < 0 * 28 + 28
    omega
  | ⟨3, _⟩ =>
    show win10_3.index t 3 * 128 ≤ (idx 3 : ℕ) ∧ (idx 3 : ℕ) < win10_3.index t 3 * 128 + 128
    rw [hi]; show (grid10.coords t 1).val * 128 ≤ (idx 3 : ℕ) ∧ (idx 3 : ℕ) < (grid10.coords t 1).val * 128 + 128
    rw [c1]; omega

/-- So the output array after the region is the convolution. -/
theorem conv10_array (c : Dev nD) : (dat10 V c).arrAt 3 cfg10.N = G10 V c :=
  (dat10 V c).arrAt_eq_of_cover 3 (G10 V c) (flushed_eq10 V c) (cover10 c)

/-- THE REGION'S VALUE: the output array, as a total function, is the 3×3 convolution with bias and ReLU of the region's
    padded input against its weights. -/
theorem conv10_value (c : Dev nD) (b i j co : ℕ) (hb : b < 8) (hi : i < 28) (hj : j < 28) (hco : co < 512) :
    arr4 ((dat10 (F := Ideal) V c).arrAt 3 cfg10.N : Vec Ideal S8x28x28x512 .f32) b i j co
      = conv 256 (arr4 (X10 V c)) (arr3 (W10 V c)) (arr2 (B10 V c)) b i j co := by
  have hc : b < 8 ∧ i < 28 ∧ j < 28 ∧ co < 512 := ⟨hb, hi, hj, hco⟩
  rw [conv10_array]
  unfold arr4
  rw [dif_pos hc]
  rfl

end Cert.ReferenceIdeal.Val

end
-- ==== Proof.RConv11Pay.lean ====
/-
  Reference region 11: the body's payload read at an index, over the extended reals. The body adds nine products — the
  image rows at row offset dy and column offset dx, as a matrix of 196 rows of 512 channels, times weight slab 3·dy + dx —
  in order from zero, adds the bias row and takes the maximum with zero; so at pixel (r, j) and output channel co the
  payload is the nine taps summed, plus the bias, against zero.
-/
import proofs.«100114_g2000204297211070_pallasbulk_1265_19_alg».proof.Proof.Gen.ReferenceIdeal.Skeleton
import proofs.«100114_g2000204297211070_pallasbulk_1265_19_alg».proof.Proof.ConvAlg

noncomputable section

namespace Cert.ReferenceIdeal.Val

open Cert.ReferenceIdeal Cert.ReferenceIdeal.Gen
open Idealize.ShloMosaic Idealize.ShloMosaic.ValueIdx
open Cert.Spec

theorem dot11_plain : dot_S196x512_S512x128_S196x128_1_0_0_1_n_n = DotDims.plain 196 512 128 := rfl

/-- The first three taps, added in order from zero, at row r·28 + j of the accumulator. -/
theorem pay11_1_apply (v5 : Vec Ideal S1x7x28x512 .f32) (v8 : Vec Ideal S1x512x128 .f32) (v14 : Vec Ideal S1x7x28x512 .f32) (v17 : Vec Ideal S1x512x128 .f32) (v23 : Vec Ideal S1x7x28x512 .f32) (v26 : Vec Ideal S1x512x128 .f32)
    (r : Fin 7) (j : Fin 28) (co : Fin 128) (p : Fin 196) (hp : p.val = r.val * 28 + j.val) :
    k11_pay1 v5 v8 v14 v17 v23 v26 (ix2 p co) = 0 + tap v5 v8 r j co + tap v14 v17 r j co + tap v23 v26 r j co := by
  unfold k11_pay1
  simp only [matmul, addf_apply, broadcast_apply]
  rw [tap_matmul_zero _ dot11_plain none v5 v8 _ _ _ r j co p hp, tap_matmul_zero _ dot11_plain none v14 v17 _ _ _ r j co p hp,
    tap_matmul_zero _ dot11_plain none v23 v26 _ _ _ r j co p hp, ofBits_zero]

/-- The next three taps added onto the accumulator. -/
theorem pay11_2_apply (v29 : FVec Ideal S196x128 .f32) (v32 : Vec Ideal S1x7x28x512 .f32) (v35 : Vec Ideal S1x512x128 .f32) (v41 : Vec Ideal S1x7x28x512 .f32) (v44 : Vec Ideal S1x512x128 .f32) (v50 : Vec Ideal S1x7x28x512 .f32) (v53 : Vec Ideal S1x512x128 .f32)
    (r : Fin 7) (j : Fin 28) (co : Fin 128) (p : Fin 196) (hp : p.val = r.val * 28 + j.val) :
    k11_pay2 v29 v32 v35 v41 v44 v50 v53 (ix2 p co) = v29 (ix2 p co) + tap v32 v35 r j co + tap v41 v44 r j co + tap v50 v53 r j co := by
  unfold k11_pay2
  simp only [matmul, addf_apply]
  rw [tap_matmul_zero _ dot11_plain none v32 v35 _ _ _ r j co p hp, tap_matmul_zero _ dot11_plain none v41 v44 _ _ _ r j co p hp,
    tap_matmul_zero _ dot11_plain none v50 v53 _ _ _ r j co p hp]

/-- The last three taps added onto the accumulator, then the bias, then the maximum with zero, read back as a block. -/
theorem pay11_4_apply (v56 : FVec Ideal S196x128 .f32) (v59 : Vec Ideal S1x7x28x512 .f32) (v62 : Vec Ideal S1x512x128 .f32) (v68 : Vec Ideal S1x7x28x512 .f32) (v71 : Vec Ideal S1x512x128 .f32) (v77 : Vec Ideal S1x7x28x512 .f32) (v80 : Vec Ideal S1x512x128 .f32) (v84 : Vec Ideal S1x128 .f32)
    (u : Fin 1) (r : Fin 7) (j : Fin 28) (co : Fin 128) (p : Fin 196) (hp : p.val = r.val * 28 + j.val) :
    k11_pay4 v56 (k11_pay3 v59) v62 v68 v71 v77 v80 v84 (ix4 u r j co)
      = max (v56 (ix2 p co) + tap v59 v62 r j co + tap v68 v71 r j co + tap v77 v80 r j co + v84 (ix2 (0 : Fin 1) co)) 0 := by
  unfold k11_pay4 k11_pay3
  rw [rows_out_apply _ _ _ u r j co p hp]
  simp only [matmul, addf_apply, maximumf_apply, broadcast_apply]
  rw [tap_matmul_zero _ dot11_plain none v59 v62 _ _ _ r j co p hp, tap_matmul_zero _ dot11_plain none v68 v71 _ _ _ r j co p hp,
    tap_matmul_zero _ dot11_plain none v77 v80 _ _ _ r j co p hp, broadcastTo_1b_ab_apply, ofBits_zero]

/-- The whole payload at pixel (r, j), output channel co: the nine taps summed, plus the bias, against zero. -/
theorem pay11_apply (v5 : Vec Ideal S1x7x28x512 .f32) (v8 : Vec Ideal S1x512x128 .f32) (v14 : Vec Ideal S1x7x28x512 .f32) (v17 : Vec Ideal S1x512x128 .f32) (v23 : Vec Ideal S1x7x28x512 .f32) (v26 : Vec Ideal S1x512x128 .f32)
    (v32 : Vec Ideal S1x7x28x512 .f32) (v35 : Vec Ideal S1x512x128 .f32) (v41 : Vec Ideal S1x7x28x512 .f32) (v44 : Vec Ideal S1x512x128 .f32) (v50 : Vec Ideal S1x7x28x512 .f32) (v53 : Vec Ideal S1x512x128 .f32)
    (v59 : Vec Ideal S1x7x28x512 .f32) (v62 : Vec Ideal S1x512x128 .f32) (v68 : Vec Ideal S1x7x28x512 .f32) (v71 : Vec Ideal S1x512x128 .f32) (v77 : Vec Ideal S1x7x28x512 .f32) (v80 : Vec Ideal S1x512x128 .f32) (v84 : Vec Ideal S1x128 .f32)
    (u : Fin 1) (r : Fin 7) (j : Fin 28) (co : Fin 128) :
    k11_pay4 (k11_pay2 (k11_pay1 v5 v8 v14 v17 v23 v26) v32 v35 v41 v44 v50 v53) (k11_pay3 v59) v62 v68 v71 v77 v80 v84 (ix4 u r j co)
      = max (0 + tap v5 v8 r j co + tap v14 v17 r j co + tap v23 v26 r j co + tap v32 v35 r j co + tap v41 v44 r j co + tap v50 v53 r j co
          + tap v59 v62 r j co + tap v68 v71 r j co + tap v77 v80 r j co + v84 (ix2 (0 : Fin 1) co)) 0 := by
  have hlt : r.val * 28 + j.val < 196 := by have := r.isLt; have := j.isLt; omega
  rw [pay11_4_apply _ v59 v62 v68 v71 v77 v80 v84 u r j co ⟨r.val * 28 + j.val, hlt⟩ rfl,
    pay11_2_apply _ v32 v35 v41 v44 v50 v53 r j co ⟨r.val * 28 + j.val, hlt⟩ rfl,
    pay11_1_apply v5 v8 v14 v17 v23 v26 r j co ⟨r.val * 28 + j.val, hlt⟩ rfl]

end Cert.ReferenceIdeal.Val

end
-- ==== Proof.RConv11Blk.lean ====
/-
  Reference region 11: what the body leaves in the output's staging buffer, as a function of the three input blocks.
  The body loads nine windows of the image block (rows from 7 * (i 2).val + dy, columns from dx), the nine weight slabs and
  the bias block, and stores one value over the whole output block: the payload of those loads.
-/
import proofs.«100114_g2000204297211070_pallasbulk_1265_19_alg».proof.Proof.Gen.ReferenceIdeal.Frame
import proofs.«100114_g2000204297211070_pallasbulk_1265_19_alg».proof.Proof.ConvAlg
import Idealize.ShloMosaic.Lib.Pipeline.Value
import Idealize.ShloMosaic.Lib.Tactic

set_option maxRecDepth 16384

noncomputable section

namespace Cert.ReferenceIdeal.Val

open Cert.ReferenceIdeal Cert.ReferenceIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Spec

variable {F : FTy → Type} [FloatOps F]

/-- The body's one store, as a function of the three input blocks: the payload of the nine loaded image rows (row
    offset dy = 0, 1, 2, column offset dx = 0, 1, 2), the nine loaded weight slabs and the bias block. -/
def conv11_pay (i : grid11.Coords) (x0 : Vec F S1x30x30x512 .f32) (x1 : Vec F S9x512x128 .f32) (x2 : Vec F S1x128 .f32) : Vec F S1x7x28x128 .f32 :=
  k11_pay4
    (k11_pay2
      (k11_pay1
        (View.ld x0 (Rect.unit (s := S1x30x30x512) (k11_off1 i 0#32) S1x7x28x512.size (k11_off1_inb i 0)))
        (View.ld x1 (Rect.unit (s := S9x512x128) ![0, 0, 0] S1x512x128.size inb_S9x512x128_S1x512x128_0_0_0))
        (View.ld x0 (Rect.unit (s := S1x30x30x512) (k11_off2 i 0#32) S1x7x28x512.size (k11_off2_inb i 0)))
        (View.ld x1 (Rect.unit (s := S9x512x128) ![1, 0, 0] S1x512x128.size inb_S9x512x128_S1x512x128_1_0_0))
        (View.ld x0 (Rect.unit (s := S1x30x30x512) (k11_off3 i 0#32) S1x7x28x512.size (k11_off3_inb i 0)))
        (View.ld x1 (Rect.unit (s := S9x512x128) ![2, 0, 0] S1x512x128.size inb_S9x512x128_S1x512x128_2_0_0)))
      (View.ld x0 (Rect.unit (s := S1x30x30x512) (k11_off1 i 1#32) S1x7x28x512.size (k11_off1_inb i 1)))
      (View.ld x1 (Rect.unit (s := S9x512x128) ![3, 0, 0] S1x512x128.size inb_S9x512x128_S1x512x128_3_0_0))
      (View.ld x0 (Rect.unit (s := S1x30x30x512) (k11_off2 i 1#32) S1x7x28x512.size (k11_off2_inb i 1)))
      (View.ld x1 (Rect.unit (s := S9x512x128) ![4, 0, 0] S1x512x128.size inb_S9x512x128_S1x512x128_4_0_0))
      (View.ld x0 (Rect.unit (s := S1x30x30x512) (k11_off3 i 1#32) S1x7x28x512.size (k11_off3_inb i 1)))
      (View.ld x1 (Rect.unit (s := S9x512x128) ![5, 0, 0] S1x512x128.size inb_S9x512x128_S1x512x128_5_0_0)))
    (k11_pay3 (View.ld x0 (Rect.unit (s := S1x30x30x512) (k11_off1 i 2#32) S1x7x28x512.size (k11_off1_inb i 2))))
    (View.ld x1 (Rect.unit (s := S9x512x128) ![6, 0, 0] S1x512x128.size inb_S9x512x128_S1x512x128_6_0_0))
    (View.ld x0 (Rect.unit (s := S1x30x30x512) (k11_off2 i 2#32) S1x7x28x512.size (k11_off2_inb i 2)))
    (View.ld x1 (Rect.unit (s := S9x512x128) ![7, 0, 0] S1x512x128.size inb_S9x512x128_S1x512x128_7_0_0))
    (View.ld x0 (Rect.unit (s := S1x30x30x512) (k11_off3 i 2#32) S1x7x28x512.size (k11_off3_inb i 2)))
    (View.ld x1 (Rect.unit (s := S9x512x128) ![8, 0, 0] S1x512x128.size inb_S9x512x128_S1x512x128_8_0_0))
    x2

set_option maxHeartbeats 1000000 in
/-- What the run leaves in the output's staging buffer is that payload of the input blocks. -/
theorem out11_eq (c : Dev nD) (i : grid11.Coords) (arg3 : Memref sig .tc .vmem S1x30x30x512 .f32) (harg3 : arg3.IsWhole) (arg4 : Memref sig .tc .vmem S9x512x128 .f32) (harg4 : arg4.IsWhole) (arg5 : Memref sig .tc .vmem S1x128 .f32) (harg5 : arg5.IsWhole) (arg6 : Memref sig .tc .vmem S1x7x28x128 .f32) (harg6 : arg6.IsWhole)
    (x0 : Vec F S1x30x30x512 .f32) (x1 : Vec F S9x512x128 .f32) (x2 : Vec F S1x128 .f32) :
    out11_A_3 c i arg3 harg3 arg4 harg4 arg5 harg5 arg6 harg6 x0 x1 x2 = conv11_pay i x0 x1 x2 := by
  unfold out11_A_3 conv11_pay
  rw [View.read_writes_eq_canon _ _ _ (cover11_A_3 c i arg3 harg3 arg4 harg4 arg5 harg5 arg6 harg6 x0 x1 x2)]
  unfold kernelRun11_A
  dsimp only
  sl_unfold_words
  rw [View.canon_unit_zero hz4]
  simp only [View.readAt_eq_ld, harg3.read_unread, harg4.read_unread, harg5.read_unread, View.ld_unit_zero (S := S1x128) hz2]

end Cert.ReferenceIdeal.Val

end
-- ==== Proof.RConv11.lean ====
/-
  Reference region 11: THE VALUE of its output array after the region, over the extended reals. Point (b, ct, r) of the
  grid works on batch b, output-channel tile ct and row chunk r: its image block is batch b of the padded input, its
  weights' and bias's blocks are tile ct, and its output block is rows 7·r … of batch b, channels of tile ct. What
  the body leaves there is the convolution's value (nine taps, bias, maximum with zero); every point writes its block
  back and the blocks cover the array; so the array, as a total function, is the 3×3 convolution with bias and ReLU of
  the region's padded input against its weights.
-/
import proofs.«100114_g2000204297211070_pallasbulk_1265_19_alg».proof.Proof.RConv11Pay
import proofs.«100114_g2000204297211070_pallasbulk_1265_19_alg».proof.Proof.RConv11Blk

set_option maxRecDepth 16384

noncomputable section

namespace Cert.ReferenceIdeal.Val

open Cert.ReferenceIdeal Cert.ReferenceIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Spec

variable (V : (c : Dev nD) → (b : Ref sig .tc) → Buf (Elt Ideal) ((c : Thread nD τ).loc b))

/-- The region's three input arrays and its blocks at a point, at their literal types. -/
abbrev X11 (c : Dev nD) : Vec Ideal S8x30x30x512 .f32 := V c (Pipeline.arrRef spec11 0)
abbrev W11 (c : Dev nD) : Vec Ideal S9x512x512 .f32 := V c (Pipeline.arrRef spec11 1)
abbrev B11 (c : Dev nD) : Vec Ideal S1x512 .f32 := V c (Pipeline.arrRef spec11 2)
abbrev xb11 (c : Dev nD) (t : Fin cfg11.N) : Vec Ideal S1x30x30x512 .f32 := iblk11 V c 0 t
abbrev wb11 (c : Dev nD) (t : Fin cfg11.N) : Vec Ideal S9x512x128 .f32 := iblk11 V c 1 t
abbrev bb11 (c : Dev nD) (t : Fin cfg11.N) : Vec Ideal S1x128 .f32 := iblk11 V c 2 t

/-- The four index maps at a point (b, ct, r): the image block is batch b; the weights' and the bias's block is output
    channel tile ct; the output block is row chunk r of batch b, channel tile ct. -/
theorem idx11_0 (t : Fin cfg11.N) : win11_0.index t = ![(grid11.coords t 0).val, 0, 0, 0] := by
  funext a
  show cc11_transform_0 (grid11.coords t) a = _
  match a with
  | ⟨0, _⟩ => exact toNat_coord (grid11.coords t 0) (by decide)
  | ⟨1, _⟩ => rfl
  | ⟨2, _⟩ => rfl
  | ⟨3, _⟩ => rfl
theorem idx11_1 (t : Fin cfg11.N) : win11_1.index t = ![0, 0, (grid11.coords t 1).val] := by
  funext a
  show cc11_transform_1 (grid11.coords t) a = _
  match a with
  | ⟨0, _⟩ => rfl
  | ⟨1, _⟩ => rfl
  | ⟨2, _⟩ => exact toNat_coord (grid11.coords t 1) (by decide)
theorem idx11_2 (t : Fin cfg11.N) : win11_2.index t = ![0, (grid11.coords t 1).val] := by
  funext a
  show cc11_transform_2 (grid11.coords t) a = _
  match a with
  | ⟨0, _⟩ => rfl
  | ⟨1, _⟩ => exact toNat_coord (grid11.coords t 1) (by decide)
theorem idx11_3 (t : Fin cfg11.N) : win11_3.index t = ![(grid11.coords t 0).val, (grid11.coords t 2).val, 0, (grid11.coords t 1).val] := by
  funext a
  show cc11_transform_3 (grid11.coords t) a = _
  match a with
  | ⟨0, _⟩ => exact toNat_coord (grid11.coords t 0) (by decide)
  | ⟨1, _⟩ => exact toNat_coord (grid11.coords t 2) (by decide)
  | ⟨2, _⟩ => rfl
  | ⟨3, _⟩ => exact toNat_coord (grid11.coords t 1) (by decide)

/-- The image block at a point is the point's batch of the padded image. -/
theorem xb11_apply (c : Dev nD) (t : Fin cfg11.N) (y0 : Fin 1) (I : Fin 30) (J : Fin 30) (ci : Fin 512) :
    xb11 V c t (ix4 y0 I J ci) = X11 V c (ix4 ⟨(grid11.coords t 0).val, (grid11.coords t 0).isLt⟩ I J ci) := by
  unfold xb11 iblk11
  rw [View.read_apply]
  show V c (Pipeline.arrRef spec11 0) _ = V c (Pipeline.arrRef spec11 0) _
  congr 1
  funext a
  apply Fin.ext
  have hi := idx11_0 t
  have h0 := y0.isLt
  match a with
  | ⟨0, _⟩ => show win11_0.index t 0 * 1 + 1 * y0.val = (grid11.coords t 0).val; rw [hi]; show (grid11.coords t 0).val * 1 + 1 * y0.val = _; omega
  | ⟨1, _⟩ => show win11_0.index t 1 * 30 + 1 * I.val = I.val; rw [hi]; show 0 * 30 + 1 * I.val = _; omega
  | ⟨2, _⟩ => show win11_0.index t 2 * 30 + 1 * J.val = J.val; rw [hi]; show 0 * 30 + 1 * J.val = _; omega
  | ⟨3, _⟩ => show win11_0.index t 3 * 512 + 1 * ci.val = ci.val; rw [hi]; show 0 * 512 + 1 * ci.val = _; omega

/-- The weights' block at a point is the point's tile of output channels of the weights. -/
theorem wb11_apply (c : Dev nD) (t : Fin cfg11.N) (k : Fin 9) (ci : Fin 512) (co : Fin 128) :
    wb11 V c t (ix3 k ci co) = W11 V c (ix3 k ci ⟨(grid11.coords t 1).val * 128 + co.val, by
      have h1 : (grid11.coords t 1).val < 4 := (grid11.coords t 1).isLt
      have := co.isLt; omega⟩) := by
  unfold wb11 iblk11
  rw [View.read_apply]
  show V c (Pipeline.arrRef spec11 1) _ = V c (Pipeline.arrRef spec11 1) _
  congr 1
  funext a
  apply Fin.ext
  have hi := idx11_1 t
  match a with
  | ⟨0, _⟩ => show win11_1.index t 0 * 9 + 1 * k.val = k.val; rw [hi]; show 0 * 9 + 1 * k.val = _; omega
  | ⟨1, _⟩ => show win11_1.index t 1 * 512 + 1 * ci.val = ci.val; rw [hi]; show 0 * 512 + 1 * ci.val = _; omega
  | ⟨2, _⟩ => show win11_1.index t 2 * 128 + 1 * co.val = (grid11.coords t 1).val * 128 + co.val; rw [hi]; show (grid11.coords t 1).val * 128 + 1 * co.val = _; omega

/-- The bias block at a point is the point's tile of output channels of the bias. -/
theorem bb11_apply (c : Dev nD) (t : Fin cfg11.N) (u : Fin 1) (co : Fin 128) :
    bb11 V c t (ix2 u co) = B11 V c (ix2 (0 : Fin 1) ⟨(grid11.coords t 1).val * 128 + co.val, by
      have h1 : (grid11.coords t 1).val < 4 := (grid11.coords t 1).isLt
      have := co.isLt; omega⟩) := by
  unfold bb11 iblk11
  rw [View.read_apply]
  show V c (Pipeline.arrRef spec11 2) _ = V c (Pipeline.arrRef spec11 2) _
  congr 1
  funext a
  apply Fin.ext
  have hi := idx11_2 t
  have h0 := u.isLt
  match a with
  | ⟨0, _⟩ => show win11_2.index t 0 * 1 + 1 * u.val = 0; rw [hi]; show 0 * 1 + 1 * u.val = _; omega
  | ⟨1, _⟩ => show win11_2.index t 1 * 128 + 1 * co.val = (grid11.coords t 1).val * 128 + co.val; rw [hi]; show (grid11.coords t 1).val * 128 + 1 * co.val = _; omega

/-- The same three facts over total functions of natural coordinates. -/
theorem arr4_xb11 (c : Dev nD) (t : Fin cfg11.N) (I J ci : ℕ) :
    arr4 (xb11 V c t) 0 I J ci = arr4 (X11 V c) (grid11.coords t 0).val I J ci := by
  unfold arr4
  by_cases h : I < 30 ∧ J < 30 ∧ ci < 512
  · have hl : 0 < 1 ∧ I < 30 ∧ J < 30 ∧ ci < 512 := ⟨by decide, h⟩
    have hr : (grid11.coords t 0).val < 8 ∧ I < 30 ∧ J < 30 ∧ ci < 512 := ⟨(grid11.coords t 0).isLt, h⟩
    rw [dif_pos hl, dif_pos hr]
    exact xb11_apply V c t _ _ _ _
  · have hl : ¬(0 < 1 ∧ I < 30 ∧ J < 30 ∧ ci < 512) := fun h' => h h'.2
    have hr : ¬((grid11.coords t 0).val < 8 ∧ I < 30 ∧ J < 30 ∧ ci < 512) := fun h' => h h'.2
    rw [dif_neg hl, dif_neg hr]

theorem arr3_wb11 (c : Dev nD) (t : Fin cfg11.N) (k ci co : ℕ) (hco : co < 128) :
    arr3 (wb11 V c t) k ci co = arr3 (W11 V c) k ci ((grid11.coords t 1).val * 128 + co) := by
  have h1 : (grid11.coords t 1).val < 4 := (grid11.coords t 1).isLt
  unfold arr3
  by_cases h : k < 9 ∧ ci < 512
  · have hl : k < 9 ∧ ci < 512 ∧ co < 128 := ⟨h.1, h.2, hco⟩
    have hr : k < 9 ∧ ci < 512 ∧ (grid11.coords t 1).val * 128 + co < 512 := ⟨h.1, h.2, by omega⟩
    rw [dif_pos hl, dif_pos hr]
    exact wb11_apply V c t ⟨k, h.1⟩ ⟨ci, h.2⟩ ⟨co, hco⟩
  · have hl : ¬(k < 9 ∧ ci < 512 ∧ co < 128) := fun h' => h ⟨h'.1, h'.2.1⟩
    have hr : ¬(k < 9 ∧ ci < 512 ∧ (grid11.coords t 1).val * 128 + co < 512) := fun h' => h ⟨h'.1, h'.2.1⟩
    rw [dif_neg hl, dif_neg hr]

theorem arr2_bb11 (c : Dev nD) (t : Fin cfg11.N) (u : Fin 1) (co : Fin 128) :
    bb11 V c t (ix2 u co) = arr2 (B11 V c) 0 ((grid11.coords t 1).val * 128 + co.val) := by
  have h1 : (grid11.coords t 1).val < 4 := (grid11.coords t 1).isLt
  have h2 := co.isLt
  have hc : 0 < 1 ∧ (grid11.coords t 1).val * 128 + co.val < 512 := ⟨by decide, by omega⟩
  rw [bb11_apply]
  unfold arr2
  rw [dif_pos hc]
  rfl

/-- One tap of the body at a point, for each of the three column offsets: the load at rows from `7 * (i 2).val + dy`, columns
    from dx, against weight slab k. -/
theorem tap11_1 (i : grid11.Coords) (x0 : Vec Ideal S1x30x30x512 .f32) (x1 : Vec Ideal S9x512x128 .f32) (dy : Fin 3) (k : ℕ)
    (inbw : ∀ a, (![k, 0, 0] : Fin 3 → ℕ) a + S1x512x128.size a ≤ S9x512x128.size a) (r : Fin 7) (j : Fin 28) (co : Fin 128) :
    tap (View.ld x0 (Rect.unit (s := S1x30x30x512) (k11_off1 i (BitVec.ofNat 32 dy.val)) S1x7x28x512.size (k11_off1_inb i dy)))
        (View.ld x1 (Rect.unit (s := S9x512x128) ![k, 0, 0] S1x512x128.size inbw)) r j co
      = ∑ ci ∈ Finset.range 512, arr4 x0 0 (7 * (i 2).val + dy.val + r.val) (0 + j.val) ci * arr3 x1 k ci co.val :=
  tap_ld x0 x1 _ _ _ _ r j co _ _ k (congrFun (k11_off1_eq i dy) 0) (congrFun (k11_off1_eq i dy) 1) (congrFun (k11_off1_eq i dy) 2)
    (congrFun (k11_off1_eq i dy) 3) rfl rfl rfl
theorem tap11_2 (i : grid11.Coords) (x0 : Vec Ideal S1x30x30x512 .f32) (x1 : Vec Ideal S9x512x128 .f32) (dy : Fin 3) (k : ℕ)
    (inbw : ∀ a, (![k, 0, 0] : Fin 3 → ℕ) a + S1x512x128.size a ≤ S9x512x128.size a) (r : Fin 7) (j : Fin 28) (co : Fin 128) :
    tap (View.ld x0 (Rect.unit (s := S1x30x30x512) (k11_off2 i (BitVec.ofNat 32 dy.val)) S1x7x28x512.size (k11_off2_inb i dy)))
        (View.ld x1 (Rect.unit (s := S9x512x128) ![k, 0, 0] S1x512x128.size inbw)) r j co
      = ∑ ci ∈ Finset.range 512, arr4 x0 0 (7 * (i 2).val + dy.val + r.val) (1 + j.val) ci * arr3 x1 k ci co.val :=
  tap_ld x0 x1 _ _ _ _ r j co _ _ k (congrFun (k11_off2_eq i dy) 0) (congrFun (k11_off2_eq i dy) 1) (congrFun (k11_off2_eq i dy) 2)
    (congrFun (k11_off2_eq i dy) 3) rfl rfl rfl
theorem tap11_3 (i : grid11.Coords) (x0 : Vec Ideal S1x30x30x512 .f32) (x1 : Vec Ideal S9x512x128 .f32) (dy : Fin 3) (k : ℕ)
    (inbw : ∀ a, (![k, 0, 0] : Fin 3 → ℕ) a + S1x512x128.size a ≤ S9x512x128.size a) (r : Fin 7) (j : Fin 28) (co : Fin 128) :
    tap (View.ld x0 (Rect.unit (s := S1x30x30x512) (k11_off3 i (BitVec.ofNat 32 dy.val)) S1x7x28x512.size (k11_off3_inb i dy)))
        (View.ld x1 (Rect.unit (s := S9x512x128) ![k, 0, 0] S1x512x128.size inbw)) r j co
      = ∑ ci ∈ Finset.range 512, arr4 x0 0 (7 * (i 2).val + dy.val + r.val) (2 + j.val) ci * arr3 x1 k ci co.val :=
  tap_ld x0 x1 _ _ _ _ r j co _ _ k (congrFun (k11_off3_eq i dy) 0) (congrFun (k11_off3_eq i dy) 1) (congrFun (k11_off3_eq i dy) 2)
    (congrFun (k11_off3_eq i dy) 3) rfl rfl rfl

/-- Tap k of the convolution at output pixel (i, j), channel co, of batch b. -/
abbrev tapf11 (c : Dev nD) (b i j co : ℕ) (k : ℕ) : EReal :=
  ∑ ci ∈ Finset.range 512, arr4 (X11 V c) b (i + k / 3) (j + k % 3) ci * arr3 (W11 V c) k ci co

/-- A tap read off the blocks at a point is the convolution's tap k = 3·dy + dx. -/
theorem tap_blocks11 (c : Dev nD) (t : Fin cfg11.N) (r : Fin 7) (j : Fin 28) (co : Fin 128) (k dy dx : ℕ) (hdy : k / 3 = dy) (hdx : k % 3 = dx) :
    (∑ ci ∈ Finset.range 512, arr4 (xb11 V c t) 0 (7 * (grid11.coords t 2).val + dy + r.val) (dx + j.val) ci * arr3 (wb11 V c t) k ci co.val)
      = tapf11 V c (grid11.coords t 0).val (7 * (grid11.coords t 2).val + r.val) j.val ((grid11.coords t 1).val * 128 + co.val) k := by
  unfold tapf11
  rw [hdy, hdx]
  have hR : 7 * (grid11.coords t 2).val + dy + r.val = 7 * (grid11.coords t 2).val + r.val + dy := by omega
  have hC : dx + j.val = j.val + dx := by omega
  refine Finset.sum_congr rfl fun ci _ => ?_
  rw [arr4_xb11, arr3_wb11 V c t k ci co.val co.isLt, hR, hC]

/-- THE BLOCK'S VALUE: after the body at a point, the output's staging buffer at pixel (r, j), channel co holds the
    convolution of the padded image at the point's batch, row and channel tile. -/
theorem blk_value11 (c : Dev nD) (t : Fin cfg11.N) (u : Fin 1) (r : Fin 7) (j : Fin 28) (co : Fin 128) :
    outsAt11 (F := Ideal) V c t (ix4 u r j co)
      = conv 512 (arr4 (X11 V c)) (arr3 (W11 V c)) (arr2 (B11 V c)) (grid11.coords t 0).val (7 * (grid11.coords t 2).val + r.val) j.val ((grid11.coords t 1).val * 128 + co.val) := by
  unfold outsAt11
  rw [out11_eq]
  unfold conv11_pay
  rw [pay11_apply]
  have T0 := tap11_1 (grid11.coords t) (xb11 V c t) (wb11 V c t) 0 0 inb_S9x512x128_S1x512x128_0_0_0 r j co
  have T1 := tap11_2 (grid11.coords t) (xb11 V c t) (wb11 V c t) 0 1 inb_S9x512x128_S1x512x128_1_0_0 r j co
  have T2 := tap11_3 (grid11.coords t) (xb11 V c t) (wb11 V c t) 0 2 inb_S9x512x128_S1x512x128_2_0_0 r j co
  have T3 := tap11_1 (grid11.coords t) (xb11 V c t) (wb11 V c t) 1 3 inb_S9x512x128_S1x512x128_3_0_0 r j co
  have T4 := tap11_2 (grid11.coords t) (xb11 V c t) (wb11 V c t) 1 4 inb_S9x512x128_S1x512x128_4_0_0 r j co
  have T5 := tap11_3 (grid11.coords t) (xb11 V c t) (wb11 V c t) 1 5 inb_S9x512x128_S1x512x128_5_0_0 r j co
  have T6 := tap11_1 (grid11.coords t) (xb11 V c t) (wb11 V c t) 2 6 inb_S9x512x128_S1x512x128_6_0_0 r j co
  have T7 := tap11_2 (grid11.coords t) (xb11 V c t) (wb11 V c t) 2 7 inb_S9x512x128_S1x512x128_7_0_0 r j co
  have T8 := tap11_3 (grid11.coords t) (xb11 V c t) (wb11 V c t) 2 8 inb_S9x512x128_S1x512x128_8_0_0 r j co
  refine (congrArg (fun s => max s 0) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) rfl
      (T0.trans (tap_blocks11 V c t r j co 0 0 0 rfl rfl)))
      (T1.trans (tap_blocks11 V c t r j co 1 0 1 rfl rfl)))
      (T2.trans (tap_blocks11 V c t r j co 2 0 2 rfl rfl)))
      (T3.trans (tap_blocks11 V c t r j co 3 1 0 rfl rfl)))
      (T4.trans (tap_blocks11 V c t r j co 4 1 1 rfl rfl)))
      (T5.trans (tap_blocks11 V c t r j co 5 1 2 rfl rfl)))
      (T6.trans (tap_blocks11 V c t r j co 6 2 0 rfl rfl)))
      (T7.trans (tap_blocks11 V c t r j co 7 2 1 rfl rfl)))
      (T8.trans (tap_blocks11 V c t r j co 8 2 2 rfl rfl)))
      (arr2_bb11 V c t 0 co))).trans ?_
  unfold conv
  rw [← chain9 (tapf11 V c (grid11.coords t 0).val (7 * (grid11.coords t 2).val + r.val) j.val ((grid11.coords t 1).val * 128 + co.val))]

/-- The convolution as an array of the output's extents. -/
def G11 (c : Dev nD) : Vec Ideal S8x28x28x512 .f32 := fun idx =>
  conv 512 (arr4 (X11 V c)) (arr3 (W11 V c)) (arr2 (B11 V c)) (idx 0).val (idx 1).val (idx 2).val (idx 3).val

/-- Every write-back writes the convolution's block: the block of point (b, ct, r) is row chunk r of batch b, channel tile ct. -/
theorem flushed_eq11 (c : Dev nD) (t : Fin cfg11.N) (hf : (cfg11.win 3).flush t = true) :
    (dat11 V c).flushed 3 t = ((cfg11.win 3).blk t).view.read (Elt Ideal) (G11 V c) := by
  show (cfg11.win 3).cut (grid11.coords t) ((dat11 V c).after 3 t) = _
  rw [after11_3]
  refine funext fun (y : S1x7x28x128.Idx) => ?_
  rw [View.read_apply]
  show outsAt11 V c t ((cfg11.win 3).xinj (grid11.coords t) y) = G11 V c (((cfg11.win 3).blk t).view.emb y)
  have hy : (cfg11.win 3).xinj (grid11.coords t) y = ix4 (n0 := 1) (n1 := 7) (n2 := 28) (n3 := 128) (y 0) (y 1) (y 2) (y 3) := funext fun (a : Fin 4) => by
    match a with
    | ⟨0, _⟩ => rfl
    | ⟨1, _⟩ => rfl
    | ⟨2, _⟩ => rfl
    | ⟨3, _⟩ => rfl
  rw [hy]
  refine (blk_value11 V c t (y 0) (y 1) (y 2) (y 3)).trans ?_
  unfold G11
  have hi := idx11_3 t
  have h0 : (y 0).val < 1 := (y 0).isLt
  refine congr (congr (congr (congrArg (conv 512 _ _ _) ?_) ?_) ?_) ?_
  · symm; show win11_3.index t 0 * 1 + 1 * (y 0).val = _; rw [hi]; show (grid11.coords t 0).val * 1 + 1 * (y 0).val = _; omega
  · symm; show win11_3.index t 1 * 7 + 1 * (y 1).val = _; rw [hi]; show (grid11.coords t 2).val * 7 + 1 * (y 1).val = _; omega
  · symm; show win11_3.index t 2 * 28 + 1 * (y 2).val = _; rw [hi]; show 0 * 28 + 1 * (y 2).val = _; omega
  · symm; show win11_3.index t 3 * 128 + 1 * (y 3).val = _; rw [hi]; show (grid11.coords t 1).val * 128 + 1 * (y 3).val = _; omega

/-- The blocks cover the output: pixel (b, i, j, co) lies in the block of point (b, co / 128, i / 7). -/
theorem cover11 (c : Dev nD) (idx : S8x28x28x512.Idx) :
    ∃ t : Fin cfg11.N, (cfg11.win 3).flush t = true ∧ idx ∈ ((cfg11.win 3).blk t).view.set := by
  have h0 : (idx 0).val < 8 := (idx 0).isLt
  have h1 : (idx 1).val < 28 := (idx 1).isLt
  have h2 : (idx 2).val < 28 := (idx 2).isLt
  have h3 : (idx 3).val < 512 := (idx 3).isLt
  have hN : cfg11.N = 128 := N_11
  have hlt : ((idx 0).val * 4 + (idx 3).val / 128) * 4 + (idx 1).val / 7 < cfg11.N := by rw [hN]; omega
  obtain ⟨t, ht⟩ : ∃ t : Fin cfg11.N, t.val = ((idx 0).val * 4 + (idx 3).val / 128) * 4 + (idx 1).val / 7 := ⟨⟨_, hlt⟩, rfl⟩
  refine ⟨t, flush11_3 t, ?_⟩
  have hset : ((cfg11.win 3).blk t).view.set = (win11_3.rect t).set := View.set_slice_whole main_v24 (win11_3.rect t)
  rw [hset, Rect.mem_set_unit]
  have hi := idx11_3 t
  have c0 : (grid11.coords t 0).val = (idx 0).val := by
    show t.val / 16 % 8 = _; rw [ht]; omega
  have c1 : (grid11.coords t 1).val = (idx 3).val / 128 := by
    show t.val / 4 % 4 = _; rw [ht]; omega
  have c2 : (grid11.coords t 2).val = (idx 1).val / 7 := by
    show t.val / 1 % 4 = _; rw [ht]; omega
  intro a
  match a with
  | ⟨0, _⟩ =>
    show win11_3.index t 0 * 1 ≤ (idx 0 : ℕ) ∧ (idx 0 : ℕ) < win11_3.index t 0 * 1 + 1
    rw [hi]; show (grid11.coords t 0).val * 1 ≤ (idx 0 : ℕ) ∧ (idx 0 : ℕ) < (grid11.coords t 0).val * 1 + 1
    rw [c0]; omega
  | ⟨1, _⟩ =>
    show win11_3.index t 1 * 7 ≤ (idx 1 : ℕ) ∧ (idx 1 : ℕ) < win11_3.index t 1 * 7 + 7
    rw [hi]; show (grid11.coords t 2).val * 7 ≤ (idx 1 : ℕ) ∧ (idx 1 : ℕ) < (grid11.coords t 2).val * 7 + 7
    rw [c2]; omega
  | ⟨2, _⟩ =>
    show win11_3.index t 2 * 28 ≤ (idx 2 : ℕ) ∧ (idx 2 : ℕ) < win11_3.index t 2 * 28 + 28
    rw [hi]; show 0 * 28 ≤ (idx 2 : ℕ) ∧ (idx 2 : ℕ) < 0 * 28 + 28
    omega
  | ⟨3, _⟩ =>
    show win11_3.index t 3 * 128 ≤ (idx 3 : ℕ) ∧ (idx 3 : ℕ) < win11_3.index t 3 * 128 + 128
    rw [hi]; show (grid11.coords t 1).val * 128 ≤ (idx 3 : ℕ) ∧ (idx 3 : ℕ) < (grid11.coords t 1).val * 128 + 128
    rw [c1]; omega

/-- So the output array after the region is the convolution. -/
theorem conv11_array (c : Dev nD) : (dat11 V c).arrAt 3 cfg11.N = G11 V c :=
  (dat11 V c).arrAt_eq_of_cover 3 (G11 V c) (flushed_eq11 V c) (cover11 c)

/-- THE REGION'S VALUE: the output array, as a total function, is the 3×3 convolution with bias and ReLU of the region's
    padded input against its weights. -/
theorem conv11_value (c : Dev nD) (b i j co : ℕ) (hb : b < 8) (hi : i < 28) (hj : j < 28) (hco : co < 512) :
    arr4 ((dat11 (F := Ideal) V c).arrAt 3 cfg11.N : Vec Ideal S8x28x28x512 .f32) b i j co
      = conv 512 (arr4 (X11 V c)) (arr3 (W11 V c)) (arr2 (B11 V c)) b i j co := by
  have hc : b < 8 ∧ i < 28 ∧ j < 28 ∧ co < 512 := ⟨hb, hi, hj, hco⟩
  rw [conv11_array]
  unfold arr4
  rw [dif_pos hc]
  rfl

end Cert.ReferenceIdeal.Val

end
-- ==== Proof.RConv12Pay.lean ====
/-
  Reference region 12: the body's payload read at an index, over the extended reals. The body adds nine products — the
  image rows at row offset dy and column offset dx, as a matrix of 196 rows of 512 channels, times weight slab 3·dy + dx —
  in order from zero, adds the bias row and takes the maximum with zero; so at pixel (r, j) and output channel co the
  payload is the nine taps summed, plus the bias, against zero.
-/
import proofs.«100114_g2000204297211070_pallasbulk_1265_19_alg».proof.Proof.Gen.ReferenceIdeal.Skeleton
import proofs.«100114_g2000204297211070_pallasbulk_1265_19_alg».proof.Proof.ConvAlg

noncomputable section

namespace Cert.ReferenceIdeal.Val

open Cert.ReferenceIdeal Cert.ReferenceIdeal.Gen
open Idealize.ShloMosaic Idealize.ShloMosaic.ValueIdx
open Cert.Spec

theorem dot12_plain : dot_S196x512_S512x128_S196x128_1_0_0_1_n_n = DotDims.plain 196 512 128 := rfl

/-- The first three taps, added in order from zero, at row r·28 + j of the accumulator. -/
theorem pay12_1_apply (v5 : Vec Ideal S1x7x28x512 .f32) (v8 : Vec Ideal S1x512x128 .f32) (v14 : Vec Ideal S1x7x28x512 .f32) (v17 : Vec Ideal S1x512x128 .f32) (v23 : Vec Ideal S1x7x28x512 .f32) (v26 : Vec Ideal S1x512x128 .f32)
    (r : Fin 7) (j : Fin 28) (co : Fin 128) (p : Fin 196) (hp : p.val = r.val * 28 + j.val) :
    k12_pay1 v5 v8 v14 v17 v23 v26 (ix2 p co) = 0 + tap v5 v8 r j co + tap v14 v17 r j co + tap v23 v26 r j co := by
  unfold k12_pay1
  simp only [matmul, addf_apply, broadcast_apply]
  rw [tap_matmul_zero _ dot12_plain none v5 v8 _ _ _ r j co p hp, tap_matmul_zero _ dot12_plain none v14 v17 _ _ _ r j co p hp,
    tap_matmul_zero _ dot12_plain none v23 v26 _ _ _ r j co p hp, ofBits_zero]

/-- The next three taps added onto the accumulator. -/
theorem pay12_2_apply (v29 : FVec Ideal S196x128 .f32) (v32 : Vec Ideal S1x7x28x512 .f32) (v35 : Vec Ideal S1x512x128 .f32) (v41 : Vec Ideal S1x7x28x512 .f32) (v44 : Vec Ideal S1x512x128 .f32) (v50 : Vec Ideal S1x7x28x512 .f32) (v53 : Vec Ideal S1x512x128 .f32)
    (r : Fin 7) (j : Fin 28) (co : Fin 128) (p : Fin 196) (hp : p.val = r.val * 28 + j.val) :
    k12_pay2 v29 v32 v35 v41 v44 v50 v53 (ix2 p co) = v29 (ix2 p co) + tap v32 v35 r j co + tap v41 v44 r j co + tap v50 v53 r j co := by
  unfold k12_pay2
  simp only [matmul, addf_apply]
  rw [tap_matmul_zero _ dot12_plain none v32 v35 _ _ _ r j co p hp, tap_matmul_zero _ dot12_plain none v41 v44 _ _ _ r j co p hp,
    tap_matmul_zero _ dot12_plain none v50 v53 _ _ _ r j co p hp]

/-- The last three taps added onto the accumulator, then the bias, then the maximum with zero, read back as a block. -/
theorem pay12_4_apply (v56 : FVec Ideal S196x128 .f32) (v59 : Vec Ideal S1x7x28x512 .f32) (v62 : Vec Ideal S1x512x128 .f32) (v68 : Vec Ideal S1x7x28x512 .f32) (v71 : Vec Ideal S1x512x128 .f32) (v77 : Vec Ideal S1x7x28x512 .f32) (v80 : Vec Ideal S1x512x128 .f32) (v84 : Vec Ideal S1x128 .f32)
    (u : Fin 1) (r : Fin 7) (j : Fin 28) (co : Fin 128) (p : Fin 196) (hp : p.val = r.val * 28 + j.val) :
    k12_pay4 v56 (k12_pay3 v59) v62 v68 v71 v77 v80 v84 (ix4 u r j co)
      = max (v56 (ix2 p co) + tap v59 v62 r j co + tap v68 v71 r j co + tap v77 v80 r j co + v84 (ix2 (0 : Fin 1) co)) 0 := by
  unfold k12_pay4 k12_pay3
  rw [rows_out_apply _ _ _ u r j co p hp]
  simp only [matmul, addf_apply, maximumf_apply, broadcast_apply]
  rw [tap_matmul_zero _ dot12_plain none v59 v62 _ _ _ r j co p hp, tap_matmul_zero _ dot12_plain none v68 v71 _ _ _ r j co p hp,
    tap_matmul_zero _ dot12_plain none v77 v80 _ _ _ r j co p hp, broadcastTo_1b_ab_apply, ofBits_zero]

/-- The whole payload at pixel (r, j), output channel co: the nine taps summed, plus the bias, against zero. -/
theorem pay12_apply (v5 : Vec Ideal S1x7x28x512 .f32) (v8 : Vec Ideal S1x512x128 .f32) (v14 : Vec Ideal S1x7x28x512 .f32) (v17 : Vec Ideal S1x512x128 .f32) (v23 : Vec Ideal S1x7x28x512 .f32) (v26 : Vec Ideal S1x512x128 .f32)
    (v32 : Vec Ideal S1x7x28x512 .f32) (v35 : Vec Ideal S1x512x128 .f32) (v41 : Vec Ideal S1x7x28x512 .f32) (v44 : Vec Ideal S1x512x128 .f32) (v50 : Vec Ideal S1x7x28x512 .f32) (v53 : Vec Ideal S1x512x128 .f32)
    (v59 : Vec Ideal S1x7x28x512 .f32) (v62 : Vec Ideal S1x512x128 .f32) (v68 : Vec Ideal S1x7x28x512 .f32) (v71 : Vec Ideal S1x512x128 .f32) (v77 : Vec Ideal S1x7x28x512 .f32) (v80 : Vec Ideal S1x512x128 .f32) (v84 : Vec Ideal S1x128 .f32)
    (u : Fin 1) (r : Fin 7) (j : Fin 28) (co : Fin 128) :
    k12_pay4 (k12_pay2 (k12_pay1 v5 v8 v14 v17 v23 v26) v32 v35 v41 v44 v50 v53) (k12_pay3 v59) v62 v68 v71 v77 v80 v84 (ix4 u r j co)
      = max (0 + tap v5 v8 r j co + tap v14 v17 r j co + tap v23 v26 r j co + tap v32 v35 r j co + tap v41 v44 r j co + tap v50 v53 r j co
          + tap v59 v62 r j co + tap v68 v71 r j co + tap v77 v80 r j co + v84 (ix2 (0 : Fin 1) co)) 0 := by
  have hlt : r.val * 28 + j.val < 196 := by have := r.isLt; have := j.isLt; omega
  rw [pay12_4_apply _ v59 v62 v68 v71 v77 v80 v84 u r j co ⟨r.val * 28 + j.val, hlt⟩ rfl,
    pay12_2_apply _ v32 v35 v41 v44 v50 v53 r j co ⟨r.val * 28 + j.val, hlt⟩ rfl,
    pay12_1_apply v5 v8 v14 v17 v23 v26 r j co ⟨r.val * 28 + j.val, hlt⟩ rfl]

end Cert.ReferenceIdeal.Val

end
-- ==== Proof.RConv12Blk.lean ====
/-
  Reference region 12: what the body leaves in the output's staging buffer, as a function of the three input blocks.
  The body loads nine windows of the image block (rows from 7 * (i 2).val + dy, columns from dx), the nine weight slabs and
  the bias block, and stores one value over the whole output block: the payload of those loads.
-/
import proofs.«100114_g2000204297211070_pallasbulk_1265_19_alg».proof.Proof.Gen.ReferenceIdeal.Frame
import proofs.«100114_g2000204297211070_pallasbulk_1265_19_alg».proof.Proof.ConvAlg
import Idealize.ShloMosaic.Lib.Pipeline.Value
import Idealize.ShloMosaic.Lib.Tactic

set_option maxRecDepth 16384

noncomputable section

namespace Cert.ReferenceIdeal.Val

open Cert.ReferenceIdeal Cert.ReferenceIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Spec

variable {F : FTy → Type} [FloatOps F]

/-- The body's one store, as a function of the three input blocks: the payload of the nine loaded image rows (row
    offset dy = 0, 1, 2, column offset dx = 0, 1, 2), the nine loaded weight slabs and the bias block. -/
def conv12_pay (i : grid12.Coords) (x0 : Vec F S1x30x30x512 .f32) (x1 : Vec F S9x512x128 .f32) (x2 : Vec F S1x128 .f32) : Vec F S1x7x28x128 .f32 :=
  k12_pay4
    (k12_pay2
      (k12_pay1
        (View.ld x0 (Rect.unit (s := S1x30x30x512) (k12_off1 i 0#32) S1x7x28x512.size (k12_off1_inb i 0)))
        (View.ld x1 (Rect.unit (s := S9x512x128) ![0, 0, 0] S1x512x128.size inb_S9x512x128_S1x512x128_0_0_0))
        (View.ld x0 (Rect.unit (s := S1x30x30x512) (k12_off2 i 0#32) S1x7x28x512.size (k12_off2_inb i 0)))
        (View.ld x1 (Rect.unit (s := S9x512x128) ![1, 0, 0] S1x512x128.size inb_S9x512x128_S1x512x128_1_0_0))
        (View.ld x0 (Rect.unit (s := S1x30x30x512) (k12_off3 i 0#32) S1x7x28x512.size (k12_off3_inb i 0)))
        (View.ld x1 (Rect.unit (s := S9x512x128) ![2, 0, 0] S1x512x128.size inb_S9x512x128_S1x512x128_2_0_0)))
      (View.ld x0 (Rect.unit (s := S1x30x30x512) (k12_off1 i 1#32) S1x7x28x512.size (k12_off1_inb i 1)))
      (View.ld x1 (Rect.unit (s := S9x512x128) ![3, 0, 0] S1x512x128.size inb_S9x512x128_S1x512x128_3_0_0))
      (View.ld x0 (Rect.unit (s := S1x30x30x512) (k12_off2 i 1#32) S1x7x28x512.size (k12_off2_inb i 1)))
      (View.ld x1 (Rect.unit (s := S9x512x128) ![4, 0, 0] S1x512x128.size inb_S9x512x128_S1x512x128_4_0_0))
      (View.ld x0 (Rect.unit (s := S1x30x30x512) (k12_off3 i 1#32) S1x7x28x512.size (k12_off3_inb i 1)))
      (View.ld x1 (Rect.unit (s := S9x512x128) ![5, 0, 0] S1x512x128.size inb_S9x512x128_S1x512x128_5_0_0)))
    (k12_pay3 (View.ld x0 (Rect.unit (s := S1x30x30x512) (k12_off1 i 2#32) S1x7x28x512.size (k12_off1_inb i 2))))
    (View.ld x1 (Rect.unit (s := S9x512x128) ![6, 0, 0] S1x512x128.size inb_S9x512x128_S1x512x128_6_0_0))
    (View.ld x0 (Rect.unit (s := S1x30x30x512) (k12_off2 i 2#32) S1x7x28x512.size (k12_off2_inb i 2)))
    (View.ld x1 (Rect.unit (s := S9x512x128) ![7, 0, 0] S1x512x128.size inb_S9x512x128_S1x512x128_7_0_0))
    (View.ld x0 (Rect.unit (s := S1x30x30x512) (k12_off3 i 2#32) S1x7x28x512.size (k12_off3_inb i 2)))
    (View.ld x1 (Rect.unit (s := S9x512x128) ![8, 0, 0] S1x512x128.size inb_S9x512x128_S1x512x128_8_0_0))
    x2

set_option maxHeartbeats 1000000 in
/-- What the run leaves in the output's staging buffer is that payload of the input blocks. -/
theorem out12_eq (c : Dev nD) (i : grid12.Coords) (arg3 : Memref sig .tc .vmem S1x30x30x512 .f32) (harg3 : arg3.IsWhole) (arg4 : Memref sig .tc .vmem S9x512x128 .f32) (harg4 : arg4.IsWhole) (arg5 : Memref sig .tc .vmem S1x128 .f32) (harg5 : arg5.IsWhole) (arg6 : Memref sig .tc .vmem S1x7x28x128 .f32) (harg6 : arg6.IsWhole)
    (x0 : Vec F S1x30x30x512 .f32) (x1 : Vec F S9x512x128 .f32) (x2 : Vec F S1x128 .f32) :
    out12_A_3 c i arg3 harg3 arg4 harg4 arg5 harg5 arg6 harg6 x0 x1 x2 = conv12_pay i x0 x1 x2 := by
  unfold out12_A_3 conv12_pay
  rw [View.read_writes_eq_canon _ _ _ (cover12_A_3 c i arg3 harg3 arg4 harg4 arg5 harg5 arg6 harg6 x0 x1 x2)]
  unfold kernelRun12_A
  dsimp only
  sl_unfold_words
  rw [View.canon_unit_zero hz4]
  simp only [View.readAt_eq_ld, harg3.read_unread, harg4.read_unread, harg5.read_unread, View.ld_unit_zero (S := S1x128) hz2]

end Cert.ReferenceIdeal.Val

end
-- ==== Proof.RConv12.lean ====
/-
  Reference region 12: THE VALUE of its output array after the region, over the extended reals. Point (b, ct, r) of the
  grid works on batch b, output-channel tile ct and row chunk r: its image block is batch b of the padded input, its
  weights' and bias's blocks are tile ct, and its output block is rows 7·r … of batch b, channels of tile ct. What
  the body leaves there is the convolution's value (nine taps, bias, maximum with zero); every point writes its block
  back and the blocks cover the array; so the array, as a total function, is the 3×3 convolution with bias and ReLU of
  the region's padded input against its weights.
-/
import proofs.«100114_g2000204297211070_pallasbulk_1265_19_alg».proof.Proof.RConv12Pay
import proofs.«100114_g2000204297211070_pallasbulk_1265_19_alg».proof.Proof.RConv12Blk

set_option maxRecDepth 16384

noncomputable section

namespace Cert.ReferenceIdeal.Val

open Cert.ReferenceIdeal Cert.ReferenceIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Spec

variable (V : (c : Dev nD) → (b : Ref sig .tc) → Buf (Elt Ideal) ((c : Thread nD τ).loc b))

/-- The region's three input arrays and its blocks at a point, at their literal types. -/
abbrev X12 (c : Dev nD) : Vec Ideal S8x30x30x512 .f32 := V c (Pipeline.arrRef spec12 0)
abbrev W12 (c : Dev nD) : Vec Ideal S9x512x512 .f32 := V c (Pipeline.arrRef spec12 1)
abbrev B12 (c : Dev nD) : Vec Ideal S1x512 .f32 := V c (Pipeline.arrRef spec12 2)
abbrev xb12 (c : Dev nD) (t : Fin cfg12.N) : Vec Ideal S1x30x30x512 .f32 := iblk12 V c 0 t
abbrev wb12 (c : Dev nD) (t : Fin cfg12.N) : Vec Ideal S9x512x128 .f32 := iblk12 V c 1 t
abbrev bb12 (c : Dev nD) (t : Fin cfg12.N) : Vec Ideal S1x128 .f32 := iblk12 V c 2 t

/-- The four index maps at a point (b, ct, r): the image block is batch b; the weights' and the bias's block is output
    channel tile ct; the output block is row chunk r of batch b, channel tile ct. -/
theorem idx12_0 (t : Fin cfg12.N) : win12_0.index t = ![(grid12.coords t 0).val, 0, 0, 0] := by
  funext a
  show cc12_transform_0 (grid12.coords t) a = _
  match a with
  | ⟨0, _⟩ => exact toNat_coord (grid12.coords t 0) (by decide)
  | ⟨1, _⟩ => rfl
  | ⟨2, _⟩ => rfl
  | ⟨3, _⟩ => rfl
theorem idx12_1 (t : Fin cfg12.N) : win12_1.index t = ![0, 0, (grid12.coords t 1).val] := by
  funext a
  show cc12_transform_1 (grid12.coords t) a = _
  match a with
  | ⟨0, _⟩ => rfl
  | ⟨1, _⟩ => rfl
  | ⟨2, _⟩ => exact toNat_coord (grid12.coords t 1) (by decide)
theorem idx12_2 (t : Fin cfg12.N) : win12_2.index t = ![0, (grid12.coords t 1).val] := by
  funext a
  show cc12_transform_2 (grid12.coords t) a = _
  match a with
  | ⟨0, _⟩ => rfl
  | ⟨1, _⟩ => exact toNat_coord (grid12.coords t 1) (by decide)
theorem idx12_3 (t : Fin cfg12.N) : win12_3.index t = ![(grid12.coords t 0).val, (grid12.coords t 2).val, 0, (grid12.coords t 1).val] := by
  funext a
  show cc12_transform_3 (grid12.coords t) a = _
  match a with
  | ⟨0, _⟩ => exact toNat_coord (grid12.coords t 0) (by decide)
  | ⟨1, _⟩ => exact toNat_coord (grid12.coords t 2) (by decide)
  | ⟨2, _⟩ => rfl
  | ⟨3, _⟩ => exact toNat_coord (grid12.coords t 1) (by decide)

/-- The image block at a point is the point's batch of the padded image. -/
theorem xb12_apply (c : Dev nD) (t : Fin cfg12.N) (y0 : Fin 1) (I : Fin 30) (J : Fin 30) (ci : Fin 512) :
    xb12 V c t (ix4 y0 I J ci) = X12 V c (ix4 ⟨(grid12.coords t 0).val, (grid12.coords t 0).isLt⟩ I J ci) := by
  unfold xb12 iblk12
  rw [View.read_apply]
  show V c (Pipeline.arrRef spec12 0) _ = V c (Pipeline.arrRef spec12 0) _
  congr 1
  funext a
  apply Fin.ext
  have hi := idx12_0 t
  have h0 := y0.isLt
  match a with
  | ⟨0, _⟩ => show win12_0.index t 0 * 1 + 1 * y0.val = (grid12.coords t 0).val; rw [hi]; show (grid12.coords t 0).val * 1 + 1 * y0.val = _; omega
  | ⟨1, _⟩ => show win12_0.index t 1 * 30 + 1 * I.val = I.val; rw [hi]; show 0 * 30 + 1 * I.val = _; omega
  | ⟨2, _⟩ => show win12_0.index t 2 * 30 + 1 * J.val = J.val; rw [hi]; show 0 * 30 + 1 * J.val = _; omega
  | ⟨3, _⟩ => show win12_0.index t 3 * 512 + 1 * ci.val = ci.val; rw [hi]; show 0 * 512 + 1 * ci.val = _; omega

/-- The weights' block at a point is the point's tile of output channels of the weights. -/
theorem wb12_apply (c : Dev nD) (t : Fin cfg12.N) (k : Fin 9) (ci : Fin 512) (co : Fin 128) :
    wb12 V c t (ix3 k ci co) = W12 V c (ix3 k ci ⟨(grid12.coords t 1).val * 128 + co.val, by
      have h1 : (grid12.coords t 1).val < 4 := (grid12.coords t 1).isLt
      have := co.isLt; omega⟩) := by
  unfold wb12 iblk12
  rw [View.read_apply]
  show V c (Pipeline.arrRef spec12 1) _ = V c (Pipeline.arrRef spec12 1) _
  congr 1
  funext a
  apply Fin.ext
  have hi := idx12_1 t
  match a with
  | ⟨0, _⟩ => show win12_1.index t 0 * 9 + 1 * k.val = k.val; rw [hi]; show 0 * 9 + 1 * k.val = _; omega
  | ⟨1, _⟩ => show win12_1.index t 1 * 512 + 1 * ci.val = ci.val; rw [hi]; show 0 * 512 + 1 * ci.val = _; omega
  | ⟨2, _⟩ => show win12_1.index t 2 * 128 + 1 * co.val = (grid12.coords t 1).val * 128 + co.val; rw [hi]; show (grid12.coords t 1).val * 128 + 1 * co.val = _; omega

/-- The bias block at a point is the point's tile of output channels of the bias. -/
theorem bb12_apply (c : Dev nD) (t : Fin cfg12.N) (u : Fin 1) (co : Fin 128) :
    bb12 V c t (ix2 u co) = B12 V c (ix2 (0 : Fin 1) ⟨(grid12.coords t 1).val * 128 + co.val, by
      have h1 : (grid12.coords t 1).val < 4 := (grid12.coords t 1).isLt
      have := co.isLt; omega⟩) := by
  unfold bb12 iblk12
  rw [View.read_apply]
  show V c (Pipeline.arrRef spec12 2) _ = V c (Pipeline.arrRef spec12 2) _
  congr 1
  funext a
  apply Fin.ext
  have hi := idx12_2 t
  have h0 := u.isLt
  match a with
  | ⟨0, _⟩ => show win12_2.index t 0 * 1 + 1 * u.val = 0; rw [hi]; show 0 * 1 + 1 * u.val = _; omega
  | ⟨1, _⟩ => show win12_2.index t 1 * 128 + 1 * co.val = (grid12.coords t 1).val * 128 + co.val; rw [hi]; show (grid12.coords t 1).val * 128 + 1 * co.val = _; omega

/-- The same three facts over total functions of natural coordinates. -/
theorem arr4_xb12 (c : Dev nD) (t : Fin cfg12.N) (I J ci : ℕ) :
    arr4 (xb12 V c t) 0 I J ci = arr4 (X12 V c) (grid12.coords t 0).val I J ci := by
  unfold arr4
  by_cases h : I < 30 ∧ J < 30 ∧ ci < 512
  · have hl : 0 < 1 ∧ I < 30 ∧ J < 30 ∧ ci < 512 := ⟨by decide, h⟩
    have hr : (grid12.coords t 0).val < 8 ∧ I < 30 ∧ J < 30 ∧ ci < 512 := ⟨(grid12.coords t 0).isLt, h⟩
    rw [dif_pos hl, dif_pos hr]
    exact xb12_apply V c t _ _ _ _
  · have hl : ¬(0 < 1 ∧ I < 30 ∧ J < 30 ∧ ci < 512) := fun h' => h h'.2
    have hr : ¬((grid12.coords t 0).val < 8 ∧ I < 30 ∧ J < 30 ∧ ci < 512) := fun h' => h h'.2
    rw [dif_neg hl, dif_neg hr]

theorem arr3_wb12 (c : Dev nD) (t : Fin cfg12.N) (k ci co : ℕ) (hco : co < 128) :
    arr3 (wb12 V c t) k ci co = arr3 (W12 V c) k ci ((grid12.coords t 1).val * 128 + co) := by
  have h1 : (grid12.coords t 1).val < 4 := (grid12.coords t 1).isLt
  unfold arr3
  by_cases h : k < 9 ∧ ci < 512
  · have hl : k < 9 ∧ ci < 512 ∧ co < 128 := ⟨h.1, h.2, hco⟩
    have hr : k < 9 ∧ ci < 512 ∧ (grid12.coords t 1).val * 128 + co < 512 := ⟨h.1, h.2, by omega⟩
    rw [dif_pos hl, dif_pos hr]
    exact wb12_apply V c t ⟨k, h.1⟩ ⟨ci, h.2⟩ ⟨co, hco⟩
  · have hl : ¬(k < 9 ∧ ci < 512 ∧ co < 128) := fun h' => h ⟨h'.1, h'.2.1⟩
    have hr : ¬(k < 9 ∧ ci < 512 ∧ (grid12.coords t 1).val * 128 + co < 512) := fun h' => h ⟨h'.1, h'.2.1⟩
    rw [dif_neg hl, dif_neg hr]

theorem arr2_bb12 (c : Dev nD) (t : Fin cfg12.N) (u : Fin 1) (co : Fin 128) :
    bb12 V c t (ix2 u co) = arr2 (B12 V c) 0 ((grid12.coords t 1).val * 128 + co.val) := by
  have h1 : (grid12.coords t 1).val < 4 := (grid12.coords t 1).isLt
  have h2 := co.isLt
  have hc : 0 < 1 ∧ (grid12.coords t 1).val * 128 + co.val < 512 := ⟨by decide, by omega⟩
  rw [bb12_apply]
  unfold arr2
  rw [dif_pos hc]
  rfl

/-- One tap of the body at a point, for each of the three column offsets: the load at rows from `7 * (i 2).val + dy`, columns
    from dx, against weight slab k. -/
theorem tap12_1 (i : grid12.Coords) (x0 : Vec Ideal S1x30x30x512 .f32) (x1 : Vec Ideal S9x512x128 .f32) (dy : Fin 3) (k : ℕ)
    (inbw : ∀ a, (![k, 0, 0] : Fin 3 → ℕ) a + S1x512x128.size a ≤ S9x512x128.size a) (r : Fin 7) (j : Fin 28) (co : Fin 128) :
    tap (View.ld x0 (Rect.unit (s := S1x30x30x512) (k12_off1 i (BitVec.ofNat 32 dy.val)) S1x7x28x512.size (k12_off1_inb i dy)))
        (View.ld x1 (Rect.unit (s := S9x512x128) ![k, 0, 0] S1x512x128.size inbw)) r j co
      = ∑ ci ∈ Finset.range 512, arr4 x0 0 (7 * (i 2).val + dy.val + r.val) (0 + j.val) ci * arr3 x1 k ci co.val :=
  tap_ld x0 x1 _ _ _ _ r j co _ _ k (congrFun (k12_off1_eq i dy) 0) (congrFun (k12_off1_eq i dy) 1) (congrFun (k12_off1_eq i dy) 2)
    (congrFun (k12_off1_eq i dy) 3) rfl rfl rfl
theorem tap12_2 (i : grid12.Coords) (x0 : Vec Ideal S1x30x30x512 .f32) (x1 : Vec Ideal S9x512x128 .f32) (dy : Fin 3) (k : ℕ)
    (inbw : ∀ a, (![k, 0, 0] : Fin 3 → ℕ) a + S1x512x128.size a ≤ S9x512x128.size a) (r : Fin 7) (j : Fin 28) (co : Fin 128) :
    tap (View.ld x0 (Rect.unit (s := S1x30x30x512) (k12_off2 i (BitVec.ofNat 32 dy.val)) S1x7x28x512.size (k12_off2_inb i dy)))
        (View.ld x1 (Rect.unit (s := S9x512x128) ![k, 0, 0] S1x512x128.size inbw)) r j co
      = ∑ ci ∈ Finset.range 512, arr4 x0 0 (7 * (i 2).val + dy.val + r.val) (1 + j.val) ci * arr3 x1 k ci co.val :=
  tap_ld x0 x1 _ _ _ _ r j co _ _ k (congrFun (k12_off2_eq i dy) 0) (congrFun (k12_off2_eq i dy) 1) (congrFun (k12_off2_eq i dy) 2)
    (congrFun (k12_off2_eq i dy) 3) rfl rfl rfl
theorem tap12_3 (i : grid12.Coords) (x0 : Vec Ideal S1x30x30x512 .f32) (x1 : Vec Ideal S9x512x128 .f32) (dy : Fin 3) (k : ℕ)
    (inbw : ∀ a, (![k, 0, 0] : Fin 3 → ℕ) a + S1x512x128.size a ≤ S9x512x128.size a) (r : Fin 7) (j : Fin 28) (co : Fin 128) :
    tap (View.ld x0 (Rect.unit (s := S1x30x30x512) (k12_off3 i (BitVec.ofNat 32 dy.val)) S1x7x28x512.size (k12_off3_inb i dy)))
        (View.ld x1 (Rect.unit (s := S9x512x128) ![k, 0, 0] S1x512x128.size inbw)) r j co
      = ∑ ci ∈ Finset.range 512, arr4 x0 0 (7 * (i 2).val + dy.val + r.val) (2 + j.val) ci * arr3 x1 k ci co.val :=
  tap_ld x0 x1 _ _ _ _ r j co _ _ k (congrFun (k12_off3_eq i dy) 0) (congrFun (k12_off3_eq i dy) 1) (congrFun (k12_off3_eq i dy) 2)
    (congrFun (k12_off3_eq i dy) 3) rfl rfl rfl

/-- Tap k of the convolution at output pixel (i, j), channel co, of batch b. -/
abbrev tapf12 (c : Dev nD) (b i j co : ℕ) (k : ℕ) : EReal :=
  ∑ ci ∈ Finset.range 512, arr4 (X12 V c) b (i + k / 3) (j + k % 3) ci * arr3 (W12 V c) k ci co

/-- A tap read off the blocks at a point is the convolution's tap k = 3·dy + dx. -/
theorem tap_blocks12 (c : Dev nD) (t : Fin cfg12.N) (r : Fin 7) (j : Fin 28) (co : Fin 128) (k dy dx : ℕ) (hdy : k / 3 = dy) (hdx : k % 3 = dx) :
    (∑ ci ∈ Finset.range 512, arr4 (xb12 V c t) 0 (7 * (grid12.coords t 2).val + dy + r.val) (dx + j.val) ci * arr3 (wb12 V c t) k ci co.val)
      = tapf12 V c (grid12.coords t 0).val (7 * (grid12.coords t 2).val + r.val) j.val ((grid12.coords t 1).val * 128 + co.val) k := by
  unfold tapf12
  rw [hdy, hdx]
  have hR : 7 * (grid12.coords t 2).val + dy + r.val = 7 * (grid12.coords t 2).val + r.val + dy := by omega
  have hC : dx + j.val = j.val + dx := by omega
  refine Finset.sum_congr rfl fun ci _ => ?_
  rw [arr4_xb12, arr3_wb12 V c t k ci co.val co.isLt, hR, hC]

/-- THE BLOCK'S VALUE: after the body at a point, the output's staging buffer at pixel (r, j), channel co holds the
    convolution of the padded image at the point's batch, row and channel tile. -/
theorem blk_value12 (c : Dev nD) (t : Fin cfg12.N) (u : Fin 1) (r : Fin 7) (j : Fin 28) (co : Fin 128) :
    outsAt12 (F := Ideal) V c t (ix4 u r j co)
      = conv 512 (arr4 (X12 V c)) (arr3 (W12 V c)) (arr2 (B12 V c)) (grid12.coords t 0).val (7 * (grid12.coords t 2).val + r.val) j.val ((grid12.coords t 1).val * 128 + co.val) := by
  unfold outsAt12
  rw [out12_eq]
  unfold conv12_pay
  rw [pay12_apply]
  have T0 := tap12_1 (grid12.coords t) (xb12 V c t) (wb12 V c t) 0 0 inb_S9x512x128_S1x512x128_0_0_0 r j co
  have T1 := tap12_2 (grid12.coords t) (xb12 V c t) (wb12 V c t) 0 1 inb_S9x512x128_S1x512x128_1_0_0 r j co
  have T2 := tap12_3 (grid12.coords t) (xb12 V c t) (wb12 V c t) 0 2 inb_S9x512x128_S1x512x128_2_0_0 r j co
  have T3 := tap12_1 (grid12.coords t) (xb12 V c t) (wb12 V c t) 1 3 inb_S9x512x128_S1x512x128_3_0_0 r j co
  have T4 := tap12_2 (grid12.coords t) (xb12 V c t) (wb12 V c t) 1 4 inb_S9x512x128_S1x512x128_4_0_0 r j co
  have T5 := tap12_3 (grid12.coords t) (xb12 V c t) (wb12 V c t) 1 5 inb_S9x512x128_S1x512x128_5_0_0 r j co
  have T6 := tap12_1 (grid12.coords t) (xb12 V c t) (wb12 V c t) 2 6 inb_S9x512x128_S1x512x128_6_0_0 r j co
  have T7 := tap12_2 (grid12.coords t) (xb12 V c t) (wb12 V c t) 2 7 inb_S9x512x128_S1x512x128_7_0_0 r j co
  have T8 := tap12_3 (grid12.coords t) (xb12 V c t) (wb12 V c t) 2 8 inb_S9x512x128_S1x512x128_8_0_0 r j co
  refine (congrArg (fun s => max s 0) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) rfl
      (T0.trans (tap_blocks12 V c t r j co 0 0 0 rfl rfl)))
      (T1.trans (tap_blocks12 V c t r j co 1 0 1 rfl rfl)))
      (T2.trans (tap_blocks12 V c t r j co 2 0 2 rfl rfl)))
      (T3.trans (tap_blocks12 V c t r j co 3 1 0 rfl rfl)))
      (T4.trans (tap_blocks12 V c t r j co 4 1 1 rfl rfl)))
      (T5.trans (tap_blocks12 V c t r j co 5 1 2 rfl rfl)))
      (T6.trans (tap_blocks12 V c t r j co 6 2 0 rfl rfl)))
      (T7.trans (tap_blocks12 V c t r j co 7 2 1 rfl rfl)))
      (T8.trans (tap_blocks12 V c t r j co 8 2 2 rfl rfl)))
      (arr2_bb12 V c t 0 co))).trans ?_
  unfold conv
  rw [← chain9 (tapf12 V c (grid12.coords t 0).val (7 * (grid12.coords t 2).val + r.val) j.val ((grid12.coords t 1).val * 128 + co.val))]

/-- The convolution as an array of the output's extents. -/
def G12 (c : Dev nD) : Vec Ideal S8x28x28x512 .f32 := fun idx =>
  conv 512 (arr4 (X12 V c)) (arr3 (W12 V c)) (arr2 (B12 V c)) (idx 0).val (idx 1).val (idx 2).val (idx 3).val

/-- Every write-back writes the convolution's block: the block of point (b, ct, r) is row chunk r of batch b, channel tile ct. -/
theorem flushed_eq12 (c : Dev nD) (t : Fin cfg12.N) (hf : (cfg12.win 3).flush t = true) :
    (dat12 V c).flushed 3 t = ((cfg12.win 3).blk t).view.read (Elt Ideal) (G12 V c) := by
  show (cfg12.win 3).cut (grid12.coords t) ((dat12 V c).after 3 t) = _
  rw [after12_3]
  refine funext fun (y : S1x7x28x128.Idx) => ?_
  rw [View.read_apply]
  show outsAt12 V c t ((cfg12.win 3).xinj (grid12.coords t) y) = G12 V c (((cfg12.win 3).blk t).view.emb y)
  have hy : (cfg12.win 3).xinj (grid12.coords t) y = ix4 (n0 := 1) (n1 := 7) (n2 := 28) (n3 := 128) (y 0) (y 1) (y 2) (y 3) := funext fun (a : Fin 4) => by
    match a with
    | ⟨0, _⟩ => rfl
    | ⟨1, _⟩ => rfl
    | ⟨2, _⟩ => rfl
    | ⟨3, _⟩ => rfl
  rw [hy]
  refine (blk_value12 V c t (y 0) (y 1) (y 2) (y 3)).trans ?_
  unfold G12
  have hi := idx12_3 t
  have h0 : (y 0).val < 1 := (y 0).isLt
  refine congr (congr (congr (congrArg (conv 512 _ _ _) ?_) ?_) ?_) ?_
  · symm; show win12_3.index t 0 * 1 + 1 * (y 0).val = _; rw [hi]; show (grid12.coords t 0).val * 1 + 1 * (y 0).val = _; omega
  · symm; show win12_3.index t 1 * 7 + 1 * (y 1).val = _; rw [hi]; show (grid12.coords t 2).val * 7 + 1 * (y 1).val = _; omega
  · symm; show win12_3.index t 2 * 28 + 1 * (y 2).val = _; rw [hi]; show 0 * 28 + 1 * (y 2).val = _; omega
  · symm; show win12_3.index t 3 * 128 + 1 * (y 3).val = _; rw [hi]; show (grid12.coords t 1).val * 128 + 1 * (y 3).val = _; omega

/-- The blocks cover the output: pixel (b, i, j, co) lies in the block of point (b, co / 128, i / 7). -/
theorem cover12 (c : Dev nD) (idx : S8x28x28x512.Idx) :
    ∃ t : Fin cfg12.N, (cfg12.win 3).flush t = true ∧ idx ∈ ((cfg12.win 3).blk t).view.set := by
  have h0 : (idx 0).val < 8 := (idx 0).isLt
  have h1 : (idx 1).val < 28 := (idx 1).isLt
  have h2 : (idx 2).val < 28 := (idx 2).isLt
  have h3 : (idx 3).val < 512 := (idx 3).isLt
  have hN : cfg12.N = 128 := N_12
  have hlt : ((idx 0).val * 4 + (idx 3).val / 128) * 4 + (idx 1).val / 7 < cfg12.N := by rw [hN]; omega
  obtain ⟨t, ht⟩ : ∃ t : Fin cfg12.N, t.val = ((idx 0).val * 4 + (idx 3).val / 128) * 4 + (idx 1).val / 7 := ⟨⟨_, hlt⟩, rfl⟩
  refine ⟨t, flush12_3 t, ?_⟩
  have hset : ((cfg12.win 3).blk t).view.set = (win12_3.rect t).set := View.set_slice_whole main_v26 (win12_3.rect t)
  rw [hset, Rect.mem_set_unit]
  have hi := idx12_3 t
  have c0 : (grid12.coords t 0).val = (idx 0).val := by
    show t.val / 16 % 8 = _; rw [ht]; omega
  have c1 : (grid12.coords t 1).val = (idx 3).val / 128 := by
    show t.val / 4 % 4 = _; rw [ht]; omega
  have c2 : (grid12.coords t 2).val = (idx 1).val / 7 := by
    show t.val / 1 % 4 = _; rw [ht]; omega
  intro a
  match a with
  | ⟨0, _⟩ =>
    show win12_3.index t 0 * 1 ≤ (idx 0 : ℕ) ∧ (idx 0 : ℕ) < win12_3.index t 0 * 1 + 1
    rw [hi]; show (grid12.coords t 0).val * 1 ≤ (idx 0 : ℕ) ∧ (idx 0 : ℕ) < (grid12.coords t 0).val * 1 + 1
    rw [c0]; omega
  | ⟨1, _⟩ =>
    show win12_3.index t 1 * 7 ≤ (idx 1 : ℕ) ∧ (idx 1 : ℕ) < win12_3.index t 1 * 7 + 7
    rw [hi]; show (grid12.coords t 2).val * 7 ≤ (idx 1 : ℕ) ∧ (idx 1 : ℕ) < (grid12.coords t 2).val * 7 + 7
    rw [c2]; omega
  | ⟨2, _⟩ =>
    show win12_3.index t 2 * 28 ≤ (idx 2 : ℕ) ∧ (idx 2 : ℕ) < win12_3.index t 2 * 28 + 28
    rw [hi]; show 0 * 28 ≤ (idx 2 : ℕ) ∧ (idx 2 : ℕ) < 0 * 28 + 28
    omega
  | ⟨3, _⟩ =>
    show win12_3.index t 3 * 128 ≤ (idx 3 : ℕ) ∧ (idx 3 : ℕ) < win12_3.index t 3 * 128 + 128
    rw [hi]; show (grid12.coords t 1).val * 128 ≤ (idx 3 : ℕ) ∧ (idx 3 : ℕ) < (grid12.coords t 1).val * 128 + 128
    rw [c1]; omega

/-- So the output array after the region is the convolution. -/
theorem conv12_array (c : Dev nD) : (dat12 V c).arrAt 3 cfg12.N = G12 V c :=
  (dat12 V c).arrAt_eq_of_cover 3 (G12 V c) (flushed_eq12 V c) (cover12 c)

/-- THE REGION'S VALUE: the output array, as a total function, is the 3×3 convolution with bias and ReLU of the region's
    padded input against its weights. -/
theorem conv12_value (c : Dev nD) (b i j co : ℕ) (hb : b < 8) (hi : i < 28) (hj : j < 28) (hco : co < 512) :
    arr4 ((dat12 (F := Ideal) V c).arrAt 3 cfg12.N : Vec Ideal S8x28x28x512 .f32) b i j co
      = conv 512 (arr4 (X12 V c)) (arr3 (W12 V c)) (arr2 (B12 V c)) b i j co := by
  have hc : b < 8 ∧ i < 28 ∧ j < 28 ∧ co < 512 := ⟨hb, hi, hj, hco⟩
  rw [conv12_array]
  unfold arr4
  rw [dif_pos hc]
  rfl

end Cert.ReferenceIdeal.Val

end
-- ==== Proof.RConv14Pay.lean ====
/-
  Reference region 14: the body's payload read at an index, over the extended reals. The body adds nine products — the
  image rows at row offset dy and column offset dx, as a matrix of 196 rows of 512 channels, times weight slab 3·dy + dx —
  in order from zero, adds the bias row and takes the maximum with zero; so at pixel (r, j) and output channel co the
  payload is the nine taps summed, plus the bias, against zero.
-/
import proofs.«100114_g2000204297211070_pallasbulk_1265_19_alg».proof.Proof.Gen.ReferenceIdeal.Skeleton
import proofs.«100114_g2000204297211070_pallasbulk_1265_19_alg».proof.Proof.ConvAlg

noncomputable section

namespace Cert.ReferenceIdeal.Val

open Cert.ReferenceIdeal Cert.ReferenceIdeal.Gen
open Idealize.ShloMosaic Idealize.ShloMosaic.ValueIdx
open Cert.Spec

theorem dot14_plain : dot_S196x512_S512x128_S196x128_1_0_0_1_n_n = DotDims.plain 196 512 128 := rfl

/-- The first three taps, added in order from zero, at row r·14 + j of the accumulator. -/
theorem pay14_1_apply (v5 : Vec Ideal S1x14x14x512 .f32) (v8 : Vec Ideal S1x512x128 .f32) (v14 : Vec Ideal S1x14x14x512 .f32) (v17 : Vec Ideal S1x512x128 .f32) (v23 : Vec Ideal S1x14x14x512 .f32) (v26 : Vec Ideal S1x512x128 .f32)
    (r : Fin 14) (j : Fin 14) (co : Fin 128) (p : Fin 196) (hp : p.val = r.val * 14 + j.val) :
    k14_pay1 v5 v8 v14 v17 v23 v26 (ix2 p co) = 0 + tap v5 v8 r j co + tap v14 v17 r j co + tap v23 v26 r j co := by
  unfold k14_pay1
  simp only [matmul, addf_apply, broadcast_apply]
  rw [tap_matmul_zero _ dot14_plain none v5 v8 _ _ _ r j co p hp, tap_matmul_zero _ dot14_plain none v14 v17 _ _ _ r j co p hp,
    tap_matmul_zero _ dot14_plain none v23 v26 _ _ _ r j co p hp, ofBits_zero]

/-- The next three taps added onto the accumulator. -/
theorem pay14_2_apply (v29 : FVec Ideal S196x128 .f32) (v32 : Vec Ideal S1x14x14x512 .f32) (v35 : Vec Ideal S1x512x128 .f32) (v41 : Vec Ideal S1x14x14x512 .f32) (v44 : Vec Ideal S1x512x128 .f32) (v50 : Vec Ideal S1x14x14x512 .f32) (v53 : Vec Ideal S1x512x128 .f32)
    (r : Fin 14) (j : Fin 14) (co : Fin 128) (p : Fin 196) (hp : p.val = r.val * 14 + j.val) :
    k14_pay2 v29 v32 v35 v41 v44 v50 v53 (ix2 p co) = v29 (ix2 p co) + tap v32 v35 r j co + tap v41 v44 r j co + tap v50 v53 r j co := by
  unfold k14_pay2
  simp only [matmul, addf_apply]
  rw [tap_matmul_zero _ dot14_plain none v32 v35 _ _ _ r j co p hp, tap_matmul_zero _ dot14_plain none v41 v44 _ _ _ r j co p hp,
    tap_matmul_zero _ dot14_plain none v50 v53 _ _ _ r j co p hp]

/-- The last three taps added onto the accumulator, then the bias, then the maximum with zero, read back as a block. -/
theorem pay14_4_apply (v56 : FVec Ideal S196x128 .f32) (v59 : Vec Ideal S1x14x14x512 .f32) (v62 : Vec Ideal S1x512x128 .f32) (v68 : Vec Ideal S1x14x14x512 .f32) (v71 : Vec Ideal S1x512x128 .f32) (v77 : Vec Ideal S1x14x14x512 .f32) (v80 : Vec Ideal S1x512x128 .f32) (v84 : Vec Ideal S1x128 .f32)
    (u : Fin 1) (r : Fin 14) (j : Fin 14) (co : Fin 128) (p : Fin 196) (hp : p.val = r.val * 14 + j.val) :
    k14_pay4 v56 (k14_pay3 v59) v62 v68 v71 v77 v80 v84 (ix4 u r j co)
      = max (v56 (ix2 p co) + tap v59 v62 r j co + tap v68 v71 r j co + tap v77 v80 r j co + v84 (ix2 (0 : Fin 1) co)) 0 := by
  unfold k14_pay4 k14_pay3
  rw [rows_out_apply _ _ _ u r j co p hp]
  simp only [matmul, addf_apply, maximumf_apply, broadcast_apply]
  rw [tap_matmul_zero _ dot14_plain none v59 v62 _ _ _ r j co p hp, tap_matmul_zero _ dot14_plain none v68 v71 _ _ _ r j co p hp,
    tap_matmul_zero _ dot14_plain none v77 v80 _ _ _ r j co p hp, broadcastTo_1b_ab_apply, ofBits_zero]

/-- The whole payload at pixel (r, j), output channel co: the nine taps summed, plus the bias, against zero. -/
theorem pay14_apply (v5 : Vec Ideal S1x14x14x512 .f32) (v8 : Vec Ideal S1x512x128 .f32) (v14 : Vec Ideal S1x14x14x512 .f32) (v17 : Vec Ideal S1x512x128 .f32) (v23 : Vec Ideal S1x14x14x512 .f32) (v26 : Vec Ideal S1x512x128 .f32)
    (v32 : Vec Ideal S1x14x14x512 .f32) (v35 : Vec Ideal S1x512x128 .f32) (v41 : Vec Ideal S1x14x14x512 .f32) (v44 : Vec Ideal S1x512x128 .f32) (v50 : Vec Ideal S1x14x14x512 .f32) (v53 : Vec Ideal S1x512x128 .f32)
    (v59 : Vec Ideal S1x14x14x512 .f32) (v62 : Vec Ideal S1x512x128 .f32) (v68 : Vec Ideal S1x14x14x512 .f32) (v71 : Vec Ideal S1x512x128 .f32) (v77 : Vec Ideal S1x14x14x512 .f32) (v80 : Vec Ideal S1x512x128 .f32) (v84 : Vec Ideal S1x128 .f32)
    (u : Fin 1) (r : Fin 14) (j : Fin 14) (co : Fin 128) :
    k14_pay4 (k14_pay2 (k14_pay1 v5 v8 v14 v17 v23 v26) v32 v35 v41 v44 v50 v53) (k14_pay3 v59) v62 v68 v71 v77 v80 v84 (ix4 u r j co)
      = max (0 + tap v5 v8 r j co + tap v14 v17 r j co + tap v23 v26 r j co + tap v32 v35 r j co + tap v41 v44 r j co + tap v50 v53 r j co
          + tap v59 v62 r j co + tap v68 v71 r j co + tap v77 v80 r j co + v84 (ix2 (0 : Fin 1) co)) 0 := by
  have hlt : r.val * 14 + j.val < 196 := by have := r.isLt; have := j.isLt; omega
  rw [pay14_4_apply _ v59 v62 v68 v71 v77 v80 v84 u r j co ⟨r.val * 14 + j.val, hlt⟩ rfl,
    pay14_2_apply _ v32 v35 v41 v44 v50 v53 r j co ⟨r.val * 14 + j.val, hlt⟩ rfl,
    pay14_1_apply v5 v8 v14 v17 v23 v26 r j co ⟨r.val * 14 + j.val, hlt⟩ rfl]

end Cert.ReferenceIdeal.Val

end
-- ==== Proof.RConv14Blk.lean ====
/-
  Reference region 14: what the body leaves in the output's staging buffer, as a function of the three input blocks.
  The body loads nine windows of the image block (rows from 14 * (i 2).val + dy, columns from dx), the nine weight slabs and
  the bias block, and stores one value over the whole output block: the payload of those loads.
-/
import proofs.«100114_g2000204297211070_pallasbulk_1265_19_alg».proof.Proof.Gen.ReferenceIdeal.Frame
import proofs.«100114_g2000204297211070_pallasbulk_1265_19_alg».proof.Proof.ConvAlg
import Idealize.ShloMosaic.Lib.Pipeline.Value
import Idealize.ShloMosaic.Lib.Tactic

set_option maxRecDepth 16384

noncomputable section

namespace Cert.ReferenceIdeal.Val

open Cert.ReferenceIdeal Cert.ReferenceIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Spec

variable {F : FTy → Type} [FloatOps F]

/-- The body's one store, as a function of the three input blocks: the payload of the nine loaded image rows (row
    offset dy = 0, 1, 2, column offset dx = 0, 1, 2), the nine loaded weight slabs and the bias block. -/
def conv14_pay (i : grid14.Coords) (x0 : Vec F S1x16x16x512 .f32) (x1 : Vec F S9x512x128 .f32) (x2 : Vec F S1x128 .f32) : Vec F S1x14x14x128 .f32 :=
  k14_pay4
    (k14_pay2
      (k14_pay1
        (View.ld x0 (Rect.unit (s := S1x16x16x512) (k14_off1 i 0#32) S1x14x14x512.size (k14_off1_inb i 0)))
        (View.ld x1 (Rect.unit (s := S9x512x128) ![0, 0, 0] S1x512x128.size inb_S9x512x128_S1x512x128_0_0_0))
        (View.ld x0 (Rect.unit (s := S1x16x16x512) (k14_off2 i 0#32) S1x14x14x512.size (k14_off2_inb i 0)))
        (View.ld x1 (Rect.unit (s := S9x512x128) ![1, 0, 0] S1x512x128.size inb_S9x512x128_S1x512x128_1_0_0))
        (View.ld x0 (Rect.unit (s := S1x16x16x512) (k14_off3 i 0#32) S1x14x14x512.size (k14_off3_inb i 0)))
        (View.ld x1 (Rect.unit (s := S9x512x128) ![2, 0, 0] S1x512x128.size inb_S9x512x128_S1x512x128_2_0_0)))
      (View.ld x0 (Rect.unit (s := S1x16x16x512) (k14_off1 i 1#32) S1x14x14x512.size (k14_off1_inb i 1)))
      (View.ld x1 (Rect.unit (s := S9x512x128) ![3, 0, 0] S1x512x128.size inb_S9x512x128_S1x512x128_3_0_0))
      (View.ld x0 (Rect.unit (s := S1x16x16x512) (k14_off2 i 1#32) S1x14x14x512.size (k14_off2_inb i 1)))
      (View.ld x1 (Rect.unit (s := S9x512x128) ![4, 0, 0] S1x512x128.size inb_S9x512x128_S1x512x128_4_0_0))
      (View.ld x0 (Rect.unit (s := S1x16x16x512) (k14_off3 i 1#32) S1x14x14x512.size (k14_off3_inb i 1)))
      (View.ld x1 (Rect.unit (s := S9x512x128) ![5, 0, 0] S1x512x128.size inb_S9x512x128_S1x512x128_5_0_0)))
    (k14_pay3 (View.ld x0 (Rect.unit (s := S1x16x16x512) (k14_off1 i 2#32) S1x14x14x512.size (k14_off1_inb i 2))))
    (View.ld x1 (Rect.unit (s := S9x512x128) ![6, 0, 0] S1x512x128.size inb_S9x512x128_S1x512x128_6_0_0))
    (View.ld x0 (Rect.unit (s := S1x16x16x512) (k14_off2 i 2#32) S1x14x14x512.size (k14_off2_inb i 2)))
    (View.ld x1 (Rect.unit (s := S9x512x128) ![7, 0, 0] S1x512x128.size inb_S9x512x128_S1x512x128_7_0_0))
    (View.ld x0 (Rect.unit (s := S1x16x16x512) (k14_off3 i 2#32) S1x14x14x512.size (k14_off3_inb i 2)))
    (View.ld x1 (Rect.unit (s := S9x512x128) ![8, 0, 0] S1x512x128.size inb_S9x512x128_S1x512x128_8_0_0))
    x2

set_option maxHeartbeats 1000000 in
/-- What the run leaves in the output's staging buffer is that payload of the input blocks. -/
theorem out14_eq (c : Dev nD) (i : grid14.Coords) (arg3 : Memref sig .tc .vmem S1x16x16x512 .f32) (harg3 : arg3.IsWhole) (arg4 : Memref sig .tc .vmem S9x512x128 .f32) (harg4 : arg4.IsWhole) (arg5 : Memref sig .tc .vmem S1x128 .f32) (harg5 : arg5.IsWhole) (arg6 : Memref sig .tc .vmem S1x14x14x128 .f32) (harg6 : arg6.IsWhole)
    (x0 : Vec F S1x16x16x512 .f32) (x1 : Vec F S9x512x128 .f32) (x2 : Vec F S1x128 .f32) :
    out14_A_3 c i arg3 harg3 arg4 harg4 arg5 harg5 arg6 harg6 x0 x1 x2 = conv14_pay i x0 x1 x2 := by
  unfold out14_A_3 conv14_pay
  rw [View.read_writes_eq_canon _ _ _ (cover14_A_3 c i arg3 harg3 arg4 harg4 arg5 harg5 arg6 harg6 x0 x1 x2)]
  unfold kernelRun14_A
  dsimp only
  sl_unfold_words
  rw [View.canon_unit_zero hz4]
  simp only [View.readAt_eq_ld, harg3.read_unread, harg4.read_unread, harg5.read_unread, View.ld_unit_zero (S := S1x128) hz2]

end Cert.ReferenceIdeal.Val

end
-- ==== Proof.RConv14.lean ====
/-
  Reference region 14: THE VALUE of its output array after the region, over the extended reals. Point (b, ct, r) of the
  grid works on batch b, output-channel tile ct and row chunk r: its image block is batch b of the padded input, its
  weights' and bias's blocks are tile ct, and its output block is rows 14·r … of batch b, channels of tile ct. What
  the body leaves there is the convolution's value (nine taps, bias, maximum with zero); every point writes its block
  back and the blocks cover the array; so the array, as a total function, is the 3×3 convolution with bias and ReLU of
  the region's padded input against its weights.
-/
import proofs.«100114_g2000204297211070_pallasbulk_1265_19_alg».proof.Proof.RConv14Pay
import proofs.«100114_g2000204297211070_pallasbulk_1265_19_alg».proof.Proof.RConv14Blk

set_option maxRecDepth 16384

noncomputable section

namespace Cert.ReferenceIdeal.Val

open Cert.ReferenceIdeal Cert.ReferenceIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Spec

variable (V : (c : Dev nD) → (b : Ref sig .tc) → Buf (Elt Ideal) ((c : Thread nD τ).loc b))

/-- The region's three input arrays and its blocks at a point, at their literal types. -/
abbrev X14 (c : Dev nD) : Vec Ideal S8x16x16x512 .f32 := V c (Pipeline.arrRef spec14 0)
abbrev W14 (c : Dev nD) : Vec Ideal S9x512x512 .f32 := V c (Pipeline.arrRef spec14 1)
abbrev B14 (c : Dev nD) : Vec Ideal S1x512 .f32 := V c (Pipeline.arrRef spec14 2)
abbrev xb14 (c : Dev nD) (t : Fin cfg14.N) : Vec Ideal S1x16x16x512 .f32 := iblk14 V c 0 t
abbrev wb14 (c : Dev nD) (t : Fin cfg14.N) : Vec Ideal S9x512x128 .f32 := iblk14 V c 1 t
abbrev bb14 (c : Dev nD) (t : Fin cfg14.N) : Vec Ideal S1x128 .f32 := iblk14 V c 2 t

/-- The four index maps at a point (b, ct, r): the image block is batch b; the weights' and the bias's block is output
    channel tile ct; the output block is row chunk r of batch b, channel tile ct. -/
theorem idx14_0 (t : Fin cfg14.N) : win14_0.index t = ![(grid14.coords t 0).val, 0, 0, 0] := by
  funext a
  show cc14_transform_0 (grid14.coords t) a = _
  match a with
  | ⟨0, _⟩ => exact toNat_coord (grid14.coords t 0) (by decide)
  | ⟨1, _⟩ => rfl
  | ⟨2, _⟩ => rfl
  | ⟨3, _⟩ => rfl
theorem idx14_1 (t : Fin cfg14.N) : win14_1.index t = ![0, 0, (grid14.coords t 1).val] := by
  funext a
  show cc14_transform_1 (grid14.coords t) a = _
  match a with
  | ⟨0, _⟩ => rfl
  | ⟨1, _⟩ => rfl
  | ⟨2, _⟩ => exact toNat_coord (grid14.coords t 1) (by decide)
theorem idx14_2 (t : Fin cfg14.N) : win14_2.index t = ![0, (grid14.coords t 1).val] := by
  funext a
  show cc14_transform_2 (grid14.coords t) a = _
  match a with
  | ⟨0, _⟩ => rfl
  | ⟨1, _⟩ => exact toNat_coord (grid14.coords t 1) (by decide)
theorem idx14_3 (t : Fin cfg14.N) : win14_3.index t = ![(grid14.coords t 0).val, (grid14.coords t 2).val, 0, (grid14.coords t 1).val] := by
  funext a
  show cc14_transform_3 (grid14.coords t) a = _
  match a with
  | ⟨0, _⟩ => exact toNat_coord (grid14.coords t 0) (by decide)
  | ⟨1, _⟩ => exact toNat_coord (grid14.coords t 2) (by decide)
  | ⟨2, _⟩ => rfl
  | ⟨3, _⟩ => exact toNat_coord (grid14.coords t 1) (by decide)

/-- The image block at a point is the point's batch of the padded image. -/
theorem xb14_apply (c : Dev nD) (t : Fin cfg14.N) (y0 : Fin 1) (I : Fin 16) (J : Fin 16) (ci : Fin 512) :
    xb14 V c t (ix4 y0 I J ci) = X14 V c (ix4 ⟨(grid14.coords t 0).val, (grid14.coords t 0).isLt⟩ I J ci) := by
  unfold xb14 iblk14
  rw [View.read_apply]
  show V c (Pipeline.arrRef spec14 0) _ = V c (Pipeline.arrRef spec14 0) _
  congr 1
  funext a
  apply Fin.ext
  have hi := idx14_0 t
  have h0 := y0.isLt
  match a with
  | ⟨0, _⟩ => show win14_0.index t 0 * 1 + 1 * y0.val = (grid14.coords t 0).val; rw [hi]; show (grid14.coords t 0).val * 1 + 1 * y0.val = _; omega
  | ⟨1, _⟩ => show win14_0.index t 1 * 16 + 1 * I.val = I.val; rw [hi]; show 0 * 16 + 1 * I.val = _; omega
  | ⟨2, _⟩ => show win14_0.index t 2 * 16 + 1 * J.val = J.val; rw [hi]; show 0 * 16 + 1 * J.val = _; omega
  | ⟨3, _⟩ => show win14_0.index t 3 * 512 + 1 * ci.val = ci.val; rw [hi]; show 0 * 512 + 1 * ci.val = _; omega

/-- The weights' block at a point is the point's tile of output channels of the weights. -/
theorem wb14_apply (c : Dev nD) (t : Fin cfg14.N) (k : Fin 9) (ci : Fin 512) (co : Fin 128) :
    wb14 V c t (ix3 k ci co) = W14 V c (ix3 k ci ⟨(grid14.coords t 1).val * 128 + co.val, by
      have h1 : (grid14.coords t 1).val < 4 := (grid14.coords t 1).isLt
      have := co.isLt; omega⟩) := by
  unfold wb14 iblk14
  rw [View.read_apply]
  show V c (Pipeline.arrRef spec14 1) _ = V c (Pipeline.arrRef spec14 1) _
  congr 1
  funext a
  apply Fin.ext
  have hi := idx14_1 t
  match a with
  | ⟨0, _⟩ => show win14_1.index t 0 * 9 + 1 * k.val = k.val; rw [hi]; show 0 * 9 + 1 * k.val = _; omega
  | ⟨1, _⟩ => show win14_1.index t 1 * 512 + 1 * ci.val = ci.val; rw [hi]; show 0 * 512 + 1 * ci.val = _; omega
  | ⟨2, _⟩ => show win14_1.index t 2 * 128 + 1 * co.val = (grid14.coords t 1).val * 128 + co.val; rw [hi]; show (grid14.coords t 1).val * 128 + 1 * co.val = _; omega

/-- The bias block at a point is the point's tile of output channels of the bias. -/
theorem bb14_apply (c : Dev nD) (t : Fin cfg14.N) (u : Fin 1) (co : Fin 128) :
    bb14 V c t (ix2 u co) = B14 V c (ix2 (0 : Fin 1) ⟨(grid14.coords t 1).val * 128 + co.val, by
      have h1 : (grid14.coords t 1).val < 4 := (grid14.coords t 1).isLt
      have := co.isLt; omega⟩) := by
  unfold bb14 iblk14
  rw [View.read_apply]
  show V c (Pipeline.arrRef spec14 2) _ = V c (Pipeline.arrRef spec14 2) _
  congr 1
  funext a
  apply Fin.ext
  have hi := idx14_2 t
  have h0 := u.isLt
  match a with
  | ⟨0, _⟩ => show win14_2.index t 0 * 1 + 1 * u.val = 0; rw [hi]; show 0 * 1 + 1 * u.val = _; omega
  | ⟨1, _⟩ => show win14_2.index t 1 * 128 + 1 * co.val = (grid14.coords t 1).val * 128 + co.val; rw [hi]; show (grid14.coords t 1).val * 128 + 1 * co.val = _; omega

/-- The same three facts over total functions of natural coordinates. -/
theorem arr4_xb14 (c : Dev nD) (t : Fin cfg14.N) (I J ci : ℕ) :
    arr4 (xb14 V c t) 0 I J ci = arr4 (X14 V c) (grid14.coords t 0).val I J ci := by
  unfold arr4
  by_cases h : I < 16 ∧ J < 16 ∧ ci < 512
  · have hl : 0 < 1 ∧ I < 16 ∧ J < 16 ∧ ci < 512 := ⟨by decide, h⟩
    have hr : (grid14.coords t 0).val < 8 ∧ I < 16 ∧ J < 16 ∧ ci < 512 := ⟨(grid14.coords t 0).isLt, h⟩
    rw [dif_pos hl, dif_pos hr]
    exact xb14_apply V c t _ _ _ _
  · have hl : ¬(0 < 1 ∧ I < 16 ∧ J < 16 ∧ ci < 512) := fun h' => h h'.2
    have hr : ¬((grid14.coords t 0).val < 8 ∧ I < 16 ∧ J < 16 ∧ ci < 512) := fun h' => h h'.2
    rw [dif_neg hl, dif_neg hr]

theorem arr3_wb14 (c : Dev nD) (t : Fin cfg14.N) (k ci co : ℕ) (hco : co < 128) :
    arr3 (wb14 V c t) k ci co = arr3 (W14 V c) k ci ((grid14.coords t 1).val * 128 + co) := by
  have h1 : (grid14.coords t 1).val < 4 := (grid14.coords t 1).isLt
  unfold arr3
  by_cases h : k < 9 ∧ ci < 512
  · have hl : k < 9 ∧ ci < 512 ∧ co < 128 := ⟨h.1, h.2, hco⟩
    have hr : k < 9 ∧ ci < 512 ∧ (grid14.coords t 1).val * 128 + co < 512 := ⟨h.1, h.2, by omega⟩
    rw [dif_pos hl, dif_pos hr]
    exact wb14_apply V c t ⟨k, h.1⟩ ⟨ci, h.2⟩ ⟨co, hco⟩
  · have hl : ¬(k < 9 ∧ ci < 512 ∧ co < 128) := fun h' => h ⟨h'.1, h'.2.1⟩
    have hr : ¬(k < 9 ∧ ci < 512 ∧ (grid14.coords t 1).val * 128 + co < 512) := fun h' => h ⟨h'.1, h'.2.1⟩
    rw [dif_neg hl, dif_neg hr]

theorem arr2_bb14 (c : Dev nD) (t : Fin cfg14.N) (u : Fin 1) (co : Fin 128) :
    bb14 V c t (ix2 u co) = arr2 (B14 V c) 0 ((grid14.coords t 1).val * 128 + co.val) := by
  have h1 : (grid14.coords t 1).val < 4 := (grid14.coords t 1).isLt
  have h2 := co.isLt
  have hc : 0 < 1 ∧ (grid14.coords t 1).val * 128 + co.val < 512 := ⟨by decide, by omega⟩
  rw [bb14_apply]
  unfold arr2
  rw [dif_pos hc]
  rfl

/-- One tap of the body at a point, for each of the three column offsets: the load at rows from `14 * (i 2).val + dy`, columns
    from dx, against weight slab k. -/
theorem tap14_1 (i : grid14.Coords) (x0 : Vec Ideal S1x16x16x512 .f32) (x1 : Vec Ideal S9x512x128 .f32) (dy : Fin 3) (k : ℕ)
    (inbw : ∀ a, (![k, 0, 0] : Fin 3 → ℕ) a + S1x512x128.size a ≤ S9x512x128.size a) (r : Fin 14) (j : Fin 14) (co : Fin 128) :
    tap (View.ld x0 (Rect.unit (s := S1x16x16x512) (k14_off1 i (BitVec.ofNat 32 dy.val)) S1x14x14x512.size (k14_off1_inb i dy)))
        (View.ld x1 (Rect.unit (s := S9x512x128) ![k, 0, 0] S1x512x128.size inbw)) r j co
      = ∑ ci ∈ Finset.range 512, arr4 x0 0 (14 * (i 2).val + dy.val + r.val) (0 + j.val) ci * arr3 x1 k ci co.val :=
  tap_ld x0 x1 _ _ _ _ r j co _ _ k (congrFun (k14_off1_eq i dy) 0) (congrFun (k14_off1_eq i dy) 1) (congrFun (k14_off1_eq i dy) 2)
    (congrFun (k14_off1_eq i dy) 3) rfl rfl rfl
theorem tap14_2 (i : grid14.Coords) (x0 : Vec Ideal S1x16x16x512 .f32) (x1 : Vec Ideal S9x512x128 .f32) (dy : Fin 3) (k : ℕ)
    (inbw : ∀ a, (![k, 0, 0] : Fin 3 → ℕ) a + S1x512x128.size a ≤ S9x512x128.size a) (r : Fin 14) (j : Fin 14) (co : Fin 128) :
    tap (View.ld x0 (Rect.unit (s := S1x16x16x512) (k14_off2 i (BitVec.ofNat 32 dy.val)) S1x14x14x512.size (k14_off2_inb i dy)))
        (View.ld x1 (Rect.unit (s := S9x512x128) ![k, 0, 0] S1x512x128.size inbw)) r j co
      = ∑ ci ∈ Finset.range 512, arr4 x0 0 (14 * (i 2).val + dy.val + r.val) (1 + j.val) ci * arr3 x1 k ci co.val :=
  tap_ld x0 x1 _ _ _ _ r j co _ _ k (congrFun (k14_off2_eq i dy) 0) (congrFun (k14_off2_eq i dy) 1) (congrFun (k14_off2_eq i dy) 2)
    (congrFun (k14_off2_eq i dy) 3) rfl rfl rfl
theorem tap14_3 (i : grid14.Coords) (x0 : Vec Ideal S1x16x16x512 .f32) (x1 : Vec Ideal S9x512x128 .f32) (dy : Fin 3) (k : ℕ)
    (inbw : ∀ a, (![k, 0, 0] : Fin 3 → ℕ) a + S1x512x128.size a ≤ S9x512x128.size a) (r : Fin 14) (j : Fin 14) (co : Fin 128) :
    tap (View.ld x0 (Rect.unit (s := S1x16x16x512) (k14_off3 i (BitVec.ofNat 32 dy.val)) S1x14x14x512.size (k14_off3_inb i dy)))
        (View.ld x1 (Rect.unit (s := S9x512x128) ![k, 0, 0] S1x512x128.size inbw)) r j co
      = ∑ ci ∈ Finset.range 512, arr4 x0 0 (14 * (i 2).val + dy.val + r.val) (2 + j.val) ci * arr3 x1 k ci co.val :=
  tap_ld x0 x1 _ _ _ _ r j co _ _ k (congrFun (k14_off3_eq i dy) 0) (congrFun (k14_off3_eq i dy) 1) (congrFun (k14_off3_eq i dy) 2)
    (congrFun (k14_off3_eq i dy) 3) rfl rfl rfl

/-- Tap k of the convolution at output pixel (i, j), channel co, of batch b. -/
abbrev tapf14 (c : Dev nD) (b i j co : ℕ) (k : ℕ) : EReal :=
  ∑ ci ∈ Finset.range 512, arr4 (X14 V c) b (i + k / 3) (j + k % 3) ci * arr3 (W14 V c) k ci co

/-- A tap read off the blocks at a point is the convolution's tap k = 3·dy + dx. -/
theorem tap_blocks14 (c : Dev nD) (t : Fin cfg14.N) (r : Fin 14) (j : Fin 14) (co : Fin 128) (k dy dx : ℕ) (hdy : k / 3 = dy) (hdx : k % 3 = dx) :
    (∑ ci ∈ Finset.range 512, arr4 (xb14 V c t) 0 (14 * (grid14.coords t 2).val + dy + r.val) (dx + j.val) ci * arr3 (wb14 V c t) k ci co.val)
      = tapf14 V c (grid14.coords t 0).val (14 * (grid14.coords t 2).val + r.val) j.val ((grid14.coords t 1).val * 128 + co.val) k := by
  unfold tapf14
  rw [hdy, hdx]
  have hR : 14 * (grid14.coords t 2).val + dy + r.val = 14 * (grid14.coords t 2).val + r.val + dy := by omega
  have hC : dx + j.val = j.val + dx := by omega
  refine Finset.sum_congr rfl fun ci _ => ?_
  rw [arr4_xb14, arr3_wb14 V c t k ci co.val co.isLt, hR, hC]

/-- THE BLOCK'S VALUE: after the body at a point, the output's staging buffer at pixel (r, j), channel co holds the
    convolution of the padded image at the point's batch, row and channel tile. -/
theorem blk_value14 (c : Dev nD) (t : Fin cfg14.N) (u : Fin 1) (r : Fin 14) (j : Fin 14) (co : Fin 128) :
    outsAt14 (F := Ideal) V c t (ix4 u r j co)
      = conv 512 (arr4 (X14 V c)) (arr3 (W14 V c)) (arr2 (B14 V c)) (grid14.coords t 0).val (14 * (grid14.coords t 2).val + r.val) j.val ((grid14.coords t 1).val * 128 + co.val) := by
  unfold outsAt14
  rw [out14_eq]
  unfold conv14_pay
  rw [pay14_apply]
  have T0 := tap14_1 (grid14.coords t) (xb14 V c t) (wb14 V c t) 0 0 inb_S9x512x128_S1x512x128_0_0_0 r j co
  have T1 := tap14_2 (grid14.coords t) (xb14 V c t) (wb14 V c t) 0 1 inb_S9x512x128_S1x512x128_1_0_0 r j co
  have T2 := tap14_3 (grid14.coords t) (xb14 V c t) (wb14 V c t) 0 2 inb_S9x512x128_S1x512x128_2_0_0 r j co
  have T3 := tap14_1 (grid14.coords t) (xb14 V c t) (wb14 V c t) 1 3 inb_S9x512x128_S1x512x128_3_0_0 r j co
  have T4 := tap14_2 (grid14.coords t) (xb14 V c t) (wb14 V c t) 1 4 inb_S9x512x128_S1x512x128_4_0_0 r j co
  have T5 := tap14_3 (grid14.coords t) (xb14 V c t) (wb14 V c t) 1 5 inb_S9x512x128_S1x512x128_5_0_0 r j co
  have T6 := tap14_1 (grid14.coords t) (xb14 V c t) (wb14 V c t) 2 6 inb_S9x512x128_S1x512x128_6_0_0 r j co
  have T7 := tap14_2 (grid14.coords t) (xb14 V c t) (wb14 V c t) 2 7 inb_S9x512x128_S1x512x128_7_0_0 r j co
  have T8 := tap14_3 (grid14.coords t) (xb14 V c t) (wb14 V c t) 2 8 inb_S9x512x128_S1x512x128_8_0_0 r j co
  refine (congrArg (fun s => max s 0) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) rfl
      (T0.trans (tap_blocks14 V c t r j co 0 0 0 rfl rfl)))
      (T1.trans (tap_blocks14 V c t r j co 1 0 1 rfl rfl)))
      (T2.trans (tap_blocks14 V c t r j co 2 0 2 rfl rfl)))
      (T3.trans (tap_blocks14 V c t r j co 3 1 0 rfl rfl)))
      (T4.trans (tap_blocks14 V c t r j co 4 1 1 rfl rfl)))
      (T5.trans (tap_blocks14 V c t r j co 5 1 2 rfl rfl)))
      (T6.trans (tap_blocks14 V c t r j co 6 2 0 rfl rfl)))
      (T7.trans (tap_blocks14 V c t r j co 7 2 1 rfl rfl)))
      (T8.trans (tap_blocks14 V c t r j co 8 2 2 rfl rfl)))
      (arr2_bb14 V c t 0 co))).trans ?_
  unfold conv
  rw [← chain9 (tapf14 V c (grid14.coords t 0).val (14 * (grid14.coords t 2).val + r.val) j.val ((grid14.coords t 1).val * 128 + co.val))]

/-- The convolution as an array of the output's extents. -/
def G14 (c : Dev nD) : Vec Ideal S8x14x14x512 .f32 := fun idx =>
  conv 512 (arr4 (X14 V c)) (arr3 (W14 V c)) (arr2 (B14 V c)) (idx 0).val (idx 1).val (idx 2).val (idx 3).val

/-- Every write-back writes the convolution's block: the block of point (b, ct, r) is row chunk r of batch b, channel tile ct. -/
theorem flushed_eq14 (c : Dev nD) (t : Fin cfg14.N) (hf : (cfg14.win 3).flush t = true) :
    (dat14 V c).flushed 3 t = ((cfg14.win 3).blk t).view.read (Elt Ideal) (G14 V c) := by
  show (cfg14.win 3).cut (grid14.coords t) ((dat14 V c).after 3 t) = _
  rw [after14_3]
  refine funext fun (y : S1x14x14x128.Idx) => ?_
  rw [View.read_apply]
  show outsAt14 V c t ((cfg14.win 3).xinj (grid14.coords t) y) = G14 V c (((cfg14.win 3).blk t).view.emb y)
  have hy : (cfg14.win 3).xinj (grid14.coords t) y = ix4 (n0 := 1) (n1 := 14) (n2 := 14) (n3 := 128) (y 0) (y 1) (y 2) (y 3) := funext fun (a : Fin 4) => by
    match a with
    | ⟨0, _⟩ => rfl
    | ⟨1, _⟩ => rfl
    | ⟨2, _⟩ => rfl
    | ⟨3, _⟩ => rfl
  rw [hy]
  refine (blk_value14 V c t (y 0) (y 1) (y 2) (y 3)).trans ?_
  unfold G14
  have hi := idx14_3 t
  have h0 : (y 0).val < 1 := (y 0).isLt
  refine congr (congr (congr (congrArg (conv 512 _ _ _) ?_) ?_) ?_) ?_
  · symm; show win14_3.index t 0 * 1 + 1 * (y 0).val = _; rw [hi]; show (grid14.coords t 0).val * 1 + 1 * (y 0).val = _; omega
  · symm; show win14_3.index t 1 * 14 + 1 * (y 1).val = _; rw [hi]; show (grid14.coords t 2).val * 14 + 1 * (y 1).val = _; omega
  · symm; show win14_3.index t 2 * 14 + 1 * (y 2).val = _; rw [hi]; show 0 * 14 + 1 * (y 2).val = _; omega
  · symm; show win14_3.index t 3 * 128 + 1 * (y 3).val = _; rw [hi]; show (grid14.coords t 1).val * 128 + 1 * (y 3).val = _; omega

/-- The blocks cover the output: pixel (b, i, j, co) lies in the block of point (b, co / 128, i / 14). -/
theorem cover14 (c : Dev nD) (idx : S8x14x14x512.Idx) :
    ∃ t : Fin cfg14.N, (cfg14.win 3).flush t = true ∧ idx ∈ ((cfg14.win 3).blk t).view.set := by
  have h0 : (idx 0).val < 8 := (idx 0).isLt
  have h1 : (idx 1).val < 14 := (idx 1).isLt
  have h2 : (idx 2).val < 14 := (idx 2).isLt
  have h3 : (idx 3).val < 512 := (idx 3).isLt
  have hN : cfg14.N = 32 := N_14
  have hlt : ((idx 0).val * 4 + (idx 3).val / 128) * 1 + (idx 1).val / 14 < cfg14.N := by rw [hN]; omega
  obtain ⟨t, ht⟩ : ∃ t : Fin cfg14.N, t.val = ((idx 0).val * 4 + (idx 3).val / 128) * 1 + (idx 1).val / 14 := ⟨⟨_, hlt⟩, rfl⟩
  refine ⟨t, flush14_3 t, ?_⟩
  have hset : ((cfg14.win 3).blk t).view.set = (win14_3.rect t).set := View.set_slice_whole main_v30 (win14_3.rect t)
  rw [hset, Rect.mem_set_unit]
  have hi := idx14_3 t
  have c0 : (grid14.coords t 0).val = (idx 0).val := by
    show t.val / 4 % 8 = _; rw [ht]; omega
  have c1 : (grid14.coords t 1).val = (idx 3).val / 128 := by
    show t.val / 1 % 4 = _; rw [ht]; omega
  have c2 : (grid14.coords t 2).val = (idx 1).val / 14 := by
    show t.val / 1 % 1 = _; rw [ht]; omega
  intro a
  match a with
  | ⟨0, _⟩ =>
    show win14_3.index t 0 * 1 ≤ (idx 0 : ℕ) ∧ (idx 0 : ℕ) < win14_3.index t 0 * 1 + 1
    rw [hi]; show (grid14.coords t 0).val * 1 ≤ (idx 0 : ℕ) ∧ (idx 0 : ℕ) < (grid14.coords t 0).val * 1 + 1
    rw [c0]; omega
  | ⟨1, _⟩ =>
    show win14_3.index t 1 * 14 ≤ (idx 1 : ℕ) ∧ (idx 1 : ℕ) < win14_3.index t 1 * 14 + 14
    rw [hi]; show (grid14.coords t 2).val * 14 ≤ (idx 1 : ℕ) ∧ (idx 1 : ℕ) < (grid14.coords t 2).val * 14 + 14
    rw [c2]; omega
  | ⟨2, _⟩ =>
    show win14_3.index t 2 * 14 ≤ (idx 2 : ℕ) ∧ (idx 2 : ℕ) < win14_3.index t 2 * 14 + 14
    rw [hi]; show 0 * 14 ≤ (idx 2 : ℕ) ∧ (idx 2 : ℕ) < 0 * 14 + 14
    omega
  | ⟨3, _⟩ =>
    show win14_3.index t 3 * 128 ≤ (idx 3 : ℕ) ∧ (idx 3 : ℕ) < win14_3.index t 3 * 128 + 128
    rw [hi]; show (grid14.coords t 1).val * 128 ≤ (idx 3 : ℕ) ∧ (idx 3 : ℕ) < (grid14.coords t 1).val * 128 + 128
    rw [c1]; omega

/-- So the output array after the region is the convolution. -/
theorem conv14_array (c : Dev nD) : (dat14 V c).arrAt 3 cfg14.N = G14 V c :=
  (dat14 V c).arrAt_eq_of_cover 3 (G14 V c) (flushed_eq14 V c) (cover14 c)

/-- THE REGION'S VALUE: the output array, as a total function, is the 3×3 convolution with bias and ReLU of the region's
    padded input against its weights. -/
theorem conv14_value (c : Dev nD) (b i j co : ℕ) (hb : b < 8) (hi : i < 14) (hj : j < 14) (hco : co < 512) :
    arr4 ((dat14 (F := Ideal) V c).arrAt 3 cfg14.N : Vec Ideal S8x14x14x512 .f32) b i j co
      = conv 512 (arr4 (X14 V c)) (arr3 (W14 V c)) (arr2 (B14 V c)) b i j co := by
  have hc : b < 8 ∧ i < 14 ∧ j < 14 ∧ co < 512 := ⟨hb, hi, hj, hco⟩
  rw [conv14_array]
  unfold arr4
  rw [dif_pos hc]
  rfl

end Cert.ReferenceIdeal.Val

end
-- ==== Proof.RConv15Pay.lean ====
/-
  Reference region 15: the body's payload read at an index, over the extended reals. The body adds nine products — the
  image rows at row offset dy and column offset dx, as a matrix of 196 rows of 512 channels, times weight slab 3·dy + dx —
  in order from zero, adds the bias row and takes the maximum with zero; so at pixel (r, j) and output channel co the
  payload is the nine taps summed, plus the bias, against zero.
-/
import proofs.«100114_g2000204297211070_pallasbulk_1265_19_alg».proof.Proof.Gen.ReferenceIdeal.Skeleton
import proofs.«100114_g2000204297211070_pallasbulk_1265_19_alg».proof.Proof.ConvAlg

noncomputable section

namespace Cert.ReferenceIdeal.Val

open Cert.ReferenceIdeal Cert.ReferenceIdeal.Gen
open Idealize.ShloMosaic Idealize.ShloMosaic.ValueIdx
open Cert.Spec

theorem dot15_plain : dot_S196x512_S512x128_S196x128_1_0_0_1_n_n = DotDims.plain 196 512 128 := rfl

/-- The first three taps, added in order from zero, at row r·14 + j of the accumulator. -/
theorem pay15_1_apply (v5 : Vec Ideal S1x14x14x512 .f32) (v8 : Vec Ideal S1x512x128 .f32) (v14 : Vec Ideal S1x14x14x512 .f32) (v17 : Vec Ideal S1x512x128 .f32) (v23 : Vec Ideal S1x14x14x512 .f32) (v26 : Vec Ideal S1x512x128 .f32)
    (r : Fin 14) (j : Fin 14) (co : Fin 128) (p : Fin 196) (hp : p.val = r.val * 14 + j.val) :
    k15_pay1 v5 v8 v14 v17 v23 v26 (ix2 p co) = 0 + tap v5 v8 r j co + tap v14 v17 r j co + tap v23 v26 r j co := by
  unfold k15_pay1
  simp only [matmul, addf_apply, broadcast_apply]
  rw [tap_matmul_zero _ dot15_plain none v5 v8 _ _ _ r j co p hp, tap_matmul_zero _ dot15_plain none v14 v17 _ _ _ r j co p hp,
    tap_matmul_zero _ dot15_plain none v23 v26 _ _ _ r j co p hp, ofBits_zero]

/-- The next three taps added onto the accumulator. -/
theorem pay15_2_apply (v29 : FVec Ideal S196x128 .f32) (v32 : Vec Ideal S1x14x14x512 .f32) (v35 : Vec Ideal S1x512x128 .f32) (v41 : Vec Ideal S1x14x14x512 .f32) (v44 : Vec Ideal S1x512x128 .f32) (v50 : Vec Ideal S1x14x14x512 .f32) (v53 : Vec Ideal S1x512x128 .f32)
    (r : Fin 14) (j : Fin 14) (co : Fin 128) (p : Fin 196) (hp : p.val = r.val * 14 + j.val) :
    k15_pay2 v29 v32 v35 v41 v44 v50 v53 (ix2 p co) = v29 (ix2 p co) + tap v32 v35 r j co + tap v41 v44 r j co + tap v50 v53 r j co := by
  unfold k15_pay2
  simp only [matmul, addf_apply]
  rw [tap_matmul_zero _ dot15_plain none v32 v35 _ _ _ r j co p hp, tap_matmul_zero _ dot15_plain none v41 v44 _ _ _ r j co p hp,
    tap_matmul_zero _ dot15_plain none v50 v53 _ _ _ r j co p hp]

/-- The last three taps added onto the accumulator, then the bias, then the maximum with zero, read back as a block. -/
theorem pay15_4_apply (v56 : FVec Ideal S196x128 .f32) (v59 : Vec Ideal S1x14x14x512 .f32) (v62 : Vec Ideal S1x512x128 .f32) (v68 : Vec Ideal S1x14x14x512 .f32) (v71 : Vec Ideal S1x512x128 .f32) (v77 : Vec Ideal S1x14x14x512 .f32) (v80 : Vec Ideal S1x512x128 .f32) (v84 : Vec Ideal S1x128 .f32)
    (u : Fin 1) (r : Fin 14) (j : Fin 14) (co : Fin 128) (p : Fin 196) (hp : p.val = r.val * 14 + j.val) :
    k15_pay4 v56 (k15_pay3 v59) v62 v68 v71 v77 v80 v84 (ix4 u r j co)
      = max (v56 (ix2 p co) + tap v59 v62 r j co + tap v68 v71 r j co + tap v77 v80 r j co + v84 (ix2 (0 : Fin 1) co)) 0 := by
  unfold k15_pay4 k15_pay3
  rw [rows_out_apply _ _ _ u r j co p hp]
  simp only [matmul, addf_apply, maximumf_apply, broadcast_apply]
  rw [tap_matmul_zero _ dot15_plain none v59 v62 _ _ _ r j co p hp, tap_matmul_zero _ dot15_plain none v68 v71 _ _ _ r j co p hp,
    tap_matmul_zero _ dot15_plain none v77 v80 _ _ _ r j co p hp, broadcastTo_1b_ab_apply, ofBits_zero]

/-- The whole payload at pixel (r, j), output channel co: the nine taps summed, plus the bias, against zero. -/
theorem pay15_apply (v5 : Vec Ideal S1x14x14x512 .f32) (v8 : Vec Ideal S1x512x128 .f32) (v14 : Vec Ideal S1x14x14x512 .f32) (v17 : Vec Ideal S1x512x128 .f32) (v23 : Vec Ideal S1x14x14x512 .f32) (v26 : Vec Ideal S1x512x128 .f32)
    (v32 : Vec Ideal S1x14x14x512 .f32) (v35 : Vec Ideal S1x512x128 .f32) (v41 : Vec Ideal S1x14x14x512 .f32) (v44 : Vec Ideal S1x512x128 .f32) (v50 : Vec Ideal S1x14x14x512 .f32) (v53 : Vec Ideal S1x512x128 .f32)
    (v59 : Vec Ideal S1x14x14x512 .f32) (v62 : Vec Ideal S1x512x128 .f32) (v68 : Vec Ideal S1x14x14x512 .f32) (v71 : Vec Ideal S1x512x128 .f32) (v77 : Vec Ideal S1x14x14x512 .f32) (v80 : Vec Ideal S1x512x128 .f32) (v84 : Vec Ideal S1x128 .f32)
    (u : Fin 1) (r : Fin 14) (j : Fin 14) (co : Fin 128) :
    k15_pay4 (k15_pay2 (k15_pay1 v5 v8 v14 v17 v23 v26) v32 v35 v41 v44 v50 v53) (k15_pay3 v59) v62 v68 v71 v77 v80 v84 (ix4 u r j co)
      = max (0 + tap v5 v8 r j co + tap v14 v17 r j co + tap v23 v26 r j co + tap v32 v35 r j co + tap v41 v44 r j co + tap v50 v53 r j co
          + tap v59 v62 r j co + tap v68 v71 r j co + tap v77 v80 r j co + v84 (ix2 (0 : Fin 1) co)) 0 := by
  have hlt : r.val * 14 + j.val < 196 := by have := r.isLt; have := j.isLt; omega
  rw [pay15_4_apply _ v59 v62 v68 v71 v77 v80 v84 u r j co ⟨r.val * 14 + j.val, hlt⟩ rfl,
    pay15_2_apply _ v32 v35 v41 v44 v50 v53 r j co ⟨r.val * 14 + j.val, hlt⟩ rfl,
    pay15_1_apply v5 v8 v14 v17 v23 v26 r j co ⟨r.val * 14 + j.val, hlt⟩ rfl]

end Cert.ReferenceIdeal.Val

end
-- ==== Proof.RConv15Blk.lean ====
/-
  Reference region 15: what the body leaves in the output's staging buffer, as a function of the three input blocks.
  The body loads nine windows of the image block (rows from 14 * (i 2).val + dy, columns from dx), the nine weight slabs and
  the bias block, and stores one value over the whole output block: the payload of those loads.
-/
import proofs.«100114_g2000204297211070_pallasbulk_1265_19_alg».proof.Proof.Gen.ReferenceIdeal.Frame
import proofs.«100114_g2000204297211070_pallasbulk_1265_19_alg».proof.Proof.ConvAlg
import Idealize.ShloMosaic.Lib.Pipeline.Value
import Idealize.ShloMosaic.Lib.Tactic

set_option maxRecDepth 16384

noncomputable section

namespace Cert.ReferenceIdeal.Val

open Cert.ReferenceIdeal Cert.ReferenceIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Spec

variable {F : FTy → Type} [FloatOps F]

/-- The body's one store, as a function of the three input blocks: the payload of the nine loaded image rows (row
    offset dy = 0, 1, 2, column offset dx = 0, 1, 2), the nine loaded weight slabs and the bias block. -/
def conv15_pay (i : grid15.Coords) (x0 : Vec F S1x16x16x512 .f32) (x1 : Vec F S9x512x128 .f32) (x2 : Vec F S1x128 .f32) : Vec F S1x14x14x128 .f32 :=
  k15_pay4
    (k15_pay2
      (k15_pay1
        (View.ld x0 (Rect.unit (s := S1x16x16x512) (k15_off1 i 0#32) S1x14x14x512.size (k15_off1_inb i 0)))
        (View.ld x1 (Rect.unit (s := S9x512x128) ![0, 0, 0] S1x512x128.size inb_S9x512x128_S1x512x128_0_0_0))
        (View.ld x0 (Rect.unit (s := S1x16x16x512) (k15_off2 i 0#32) S1x14x14x512.size (k15_off2_inb i 0)))
        (View.ld x1 (Rect.unit (s := S9x512x128) ![1, 0, 0] S1x512x128.size inb_S9x512x128_S1x512x128_1_0_0))
        (View.ld x0 (Rect.unit (s := S1x16x16x512) (k15_off3 i 0#32) S1x14x14x512.size (k15_off3_inb i 0)))
        (View.ld x1 (Rect.unit (s := S9x512x128) ![2, 0, 0] S1x512x128.size inb_S9x512x128_S1x512x128_2_0_0)))
      (View.ld x0 (Rect.unit (s := S1x16x16x512) (k15_off1 i 1#32) S1x14x14x512.size (k15_off1_inb i 1)))
      (View.ld x1 (Rect.unit (s := S9x512x128) ![3, 0, 0] S1x512x128.size inb_S9x512x128_S1x512x128_3_0_0))
      (View.ld x0 (Rect.unit (s := S1x16x16x512) (k15_off2 i 1#32) S1x14x14x512.size (k15_off2_inb i 1)))
      (View.ld x1 (Rect.unit (s := S9x512x128) ![4, 0, 0] S1x512x128.size inb_S9x512x128_S1x512x128_4_0_0))
      (View.ld x0 (Rect.unit (s := S1x16x16x512) (k15_off3 i 1#32) S1x14x14x512.size (k15_off3_inb i 1)))
      (View.ld x1 (Rect.unit (s := S9x512x128) ![5, 0, 0] S1x512x128.size inb_S9x512x128_S1x512x128_5_0_0)))
    (k15_pay3 (View.ld x0 (Rect.unit (s := S1x16x16x512) (k15_off1 i 2#32) S1x14x14x512.size (k15_off1_inb i 2))))
    (View.ld x1 (Rect.unit (s := S9x512x128) ![6, 0, 0] S1x512x128.size inb_S9x512x128_S1x512x128_6_0_0))
    (View.ld x0 (Rect.unit (s := S1x16x16x512) (k15_off2 i 2#32) S1x14x14x512.size (k15_off2_inb i 2)))
    (View.ld x1 (Rect.unit (s := S9x512x128) ![7, 0, 0] S1x512x128.size inb_S9x512x128_S1x512x128_7_0_0))
    (View.ld x0 (Rect.unit (s := S1x16x16x512) (k15_off3 i 2#32) S1x14x14x512.size (k15_off3_inb i 2)))
    (View.ld x1 (Rect.unit (s := S9x512x128) ![8, 0, 0] S1x512x128.size inb_S9x512x128_S1x512x128_8_0_0))
    x2

set_option maxHeartbeats 1000000 in
/-- What the run leaves in the output's staging buffer is that payload of the input blocks. -/
theorem out15_eq (c : Dev nD) (i : grid15.Coords) (arg3 : Memref sig .tc .vmem S1x16x16x512 .f32) (harg3 : arg3.IsWhole) (arg4 : Memref sig .tc .vmem S9x512x128 .f32) (harg4 : arg4.IsWhole) (arg5 : Memref sig .tc .vmem S1x128 .f32) (harg5 : arg5.IsWhole) (arg6 : Memref sig .tc .vmem S1x14x14x128 .f32) (harg6 : arg6.IsWhole)
    (x0 : Vec F S1x16x16x512 .f32) (x1 : Vec F S9x512x128 .f32) (x2 : Vec F S1x128 .f32) :
    out15_A_3 c i arg3 harg3 arg4 harg4 arg5 harg5 arg6 harg6 x0 x1 x2 = conv15_pay i x0 x1 x2 := by
  unfold out15_A_3 conv15_pay
  rw [View.read_writes_eq_canon _ _ _ (cover15_A_3 c i arg3 harg3 arg4 harg4 arg5 harg5 arg6 harg6 x0 x1 x2)]
  unfold kernelRun15_A
  dsimp only
  sl_unfold_words
  rw [View.canon_unit_zero hz4]
  simp only [View.readAt_eq_ld, harg3.read_unread, harg4.read_unread, harg5.read_unread, View.ld_unit_zero (S := S1x128) hz2]

end Cert.ReferenceIdeal.Val

end
-- ==== Proof.RConv15.lean ====
/-
  Reference region 15: THE VALUE of its output array after the region, over the extended reals. Point (b, ct, r) of the
  grid works on batch b, output-channel tile ct and row chunk r: its image block is batch b of the padded input, its
  weights' and bias's blocks are tile ct, and its output block is rows 14·r … of batch b, channels of tile ct. What
  the body leaves there is the convolution's value (nine taps, bias, maximum with zero); every point writes its block
  back and the blocks cover the array; so the array, as a total function, is the 3×3 convolution with bias and ReLU of
  the region's padded input against its weights.
-/
import proofs.«100114_g2000204297211070_pallasbulk_1265_19_alg».proof.Proof.RConv15Pay
import proofs.«100114_g2000204297211070_pallasbulk_1265_19_alg».proof.Proof.RConv15Blk

set_option maxRecDepth 16384

noncomputable section

namespace Cert.ReferenceIdeal.Val

open Cert.ReferenceIdeal Cert.ReferenceIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Spec

variable (V : (c : Dev nD) → (b : Ref sig .tc) → Buf (Elt Ideal) ((c : Thread nD τ).loc b))

/-- The region's three input arrays and its blocks at a point, at their literal types. -/
abbrev X15 (c : Dev nD) : Vec Ideal S8x16x16x512 .f32 := V c (Pipeline.arrRef spec15 0)
abbrev W15 (c : Dev nD) : Vec Ideal S9x512x512 .f32 := V c (Pipeline.arrRef spec15 1)
abbrev B15 (c : Dev nD) : Vec Ideal S1x512 .f32 := V c (Pipeline.arrRef spec15 2)
abbrev xb15 (c : Dev nD) (t : Fin cfg15.N) : Vec Ideal S1x16x16x512 .f32 := iblk15 V c 0 t
abbrev wb15 (c : Dev nD) (t : Fin cfg15.N) : Vec Ideal S9x512x128 .f32 := iblk15 V c 1 t
abbrev bb15 (c : Dev nD) (t : Fin cfg15.N) : Vec Ideal S1x128 .f32 := iblk15 V c 2 t

/-- The four index maps at a point (b, ct, r): the image block is batch b; the weights' and the bias's block is output
    channel tile ct; the output block is row chunk r of batch b, channel tile ct. -/
theorem idx15_0 (t : Fin cfg15.N) : win15_0.index t = ![(grid15.coords t 0).val, 0, 0, 0] := by
  funext a
  show cc15_transform_0 (grid15.coords t) a = _
  match a with
  | ⟨0, _⟩ => exact toNat_coord (grid15.coords t 0) (by decide)
  | ⟨1, _⟩ => rfl
  | ⟨2, _⟩ => rfl
  | ⟨3, _⟩ => rfl
theorem idx15_1 (t : Fin cfg15.N) : win15_1.index t = ![0, 0, (grid15.coords t 1).val] := by
  funext a
  show cc15_transform_1 (grid15.coords t) a = _
  match a with
  | ⟨0, _⟩ => rfl
  | ⟨1, _⟩ => rfl
  | ⟨2, _⟩ => exact toNat_coord (grid15.coords t 1) (by decide)
theorem idx15_2 (t : Fin cfg15.N) : win15_2.index t = ![0, (grid15.coords t 1).val] := by
  funext a
  show cc15_transform_2 (grid15.coords t) a = _
  match a with
  | ⟨0, _⟩ => rfl
  | ⟨1, _⟩ => exact toNat_coord (grid15.coords t 1) (by decide)
theorem idx15_3 (t : Fin cfg15.N) : win15_3.index t = ![(grid15.coords t 0).val, (grid15.coords t 2).val, 0, (grid15.coords t 1).val] := by
  funext a
  show cc15_transform_3 (grid15.coords t) a = _
  match a with
  | ⟨0, _⟩ => exact toNat_coord (grid15.coords t 0) (by decide)
  | ⟨1, _⟩ => exact toNat_coord (grid15.coords t 2) (by decide)
  | ⟨2, _⟩ => rfl
  | ⟨3, _⟩ => exact toNat_coord (grid15.coords t 1) (by decide)

/-- The image block at a point is the point's batch of the padded image. -/
theorem xb15_apply (c : Dev nD) (t : Fin cfg15.N) (y0 : Fin 1) (I : Fin 16) (J : Fin 16) (ci : Fin 512) :
    xb15 V c t (ix4 y0 I J ci) = X15 V c (ix4 ⟨(grid15.coords t 0).val, (grid15.coords t 0).isLt⟩ I J ci) := by
  unfold xb15 iblk15
  rw [View.read_apply]
  show V c (Pipeline.arrRef spec15 0) _ = V c (Pipeline.arrRef spec15 0) _
  congr 1
  funext a
  apply Fin.ext
  have hi := idx15_0 t
  have h0 := y0.isLt
  match a with
  | ⟨0, _⟩ => show win15_0.index t 0 * 1 + 1 * y0.val = (grid15.coords t 0).val; rw [hi]; show (grid15.coords t 0).val * 1 + 1 * y0.val = _; omega
  | ⟨1, _⟩ => show win15_0.index t 1 * 16 + 1 * I.val = I.val; rw [hi]; show 0 * 16 + 1 * I.val = _; omega
  | ⟨2, _⟩ => show win15_0.index t 2 * 16 + 1 * J.val = J.val; rw [hi]; show 0 * 16 + 1 * J.val = _; omega
  | ⟨3, _⟩ => show win15_0.index t 3 * 512 + 1 * ci.val = ci.val; rw [hi]; show 0 * 512 + 1 * ci.val = _; omega

/-- The weights' block at a point is the point's tile of output channels of the weights. -/
theorem wb15_apply (c : Dev nD) (t : Fin cfg15.N) (k : Fin 9) (ci : Fin 512) (co : Fin 128) :
    wb15 V c t (ix3 k ci co) = W15 V c (ix3 k ci ⟨(grid15.coords t 1).val * 128 + co.val, by
      have h1 : (grid15.coords t 1).val < 4 := (grid15.coords t 1).isLt
      have := co.isLt; omega⟩) := by
  unfold wb15 iblk15
  rw [View.read_apply]
  show V c (Pipeline.arrRef spec15 1) _ = V c (Pipeline.arrRef spec15 1) _
  congr 1
  funext a
  apply Fin.ext
  have hi := idx15_1 t
  match a with
  | ⟨0, _⟩ => show win15_1.index t 0 * 9 + 1 * k.val = k.val; rw [hi]; show 0 * 9 + 1 * k.val = _; omega
  | ⟨1, _⟩ => show win15_1.index t 1 * 512 + 1 * ci.val = ci.val; rw [hi]; show 0 * 512 + 1 * ci.val = _; omega
  | ⟨2, _⟩ => show win15_1.index t 2 * 128 + 1 * co.val = (grid15.coords t 1).val * 128 + co.val; rw [hi]; show (grid15.coords t 1).val * 128 + 1 * co.val = _; omega

/-- The bias block at a point is the point's tile of output channels of the bias. -/
theorem bb15_apply (c : Dev nD) (t : Fin cfg15.N) (u : Fin 1) (co : Fin 128) :
    bb15 V c t (ix2 u co) = B15 V c (ix2 (0 : Fin 1) ⟨(grid15.coords t 1).val * 128 + co.val, by
      have h1 : (grid15.coords t 1).val < 4 := (grid15.coords t 1).isLt
      have := co.isLt; omega⟩) := by
  unfold bb15 iblk15
  rw [View.read_apply]
  show V c (Pipeline.arrRef spec15 2) _ = V c (Pipeline.arrRef spec15 2) _
  congr 1
  funext a
  apply Fin.ext
  have hi := idx15_2 t
  have h0 := u.isLt
  match a with
  | ⟨0, _⟩ => show win15_2.index t 0 * 1 + 1 * u.val = 0; rw [hi]; show 0 * 1 + 1 * u.val = _; omega
  | ⟨1, _⟩ => show win15_2.index t 1 * 128 + 1 * co.val = (grid15.coords t 1).val * 128 + co.val; rw [hi]; show (grid15.coords t 1).val * 128 + 1 * co.val = _; omega

/-- The same three facts over total functions of natural coordinates. -/
theorem arr4_xb15 (c : Dev nD) (t : Fin cfg15.N) (I J ci : ℕ) :
    arr4 (xb15 V c t) 0 I J ci = arr4 (X15 V c) (grid15.coords t 0).val I J ci := by
  unfold arr4
  by_cases h : I < 16 ∧ J < 16 ∧ ci < 512
  · have hl : 0 < 1 ∧ I < 16 ∧ J < 16 ∧ ci < 512 := ⟨by decide, h⟩
    have hr : (grid15.coords t 0).val < 8 ∧ I < 16 ∧ J < 16 ∧ ci < 512 := ⟨(grid15.coords t 0).isLt, h⟩
    rw [dif_pos hl, dif_pos hr]
    exact xb15_apply V c t _ _ _ _
  · have hl : ¬(0 < 1 ∧ I < 16 ∧ J < 16 ∧ ci < 512) := fun h' => h h'.2
    have hr : ¬((grid15.coords t 0).val < 8 ∧ I < 16 ∧ J < 16 ∧ ci < 512) := fun h' => h h'.2
    rw [dif_neg hl, dif_neg hr]

theorem arr3_wb15 (c : Dev nD) (t : Fin cfg15.N) (k ci co : ℕ) (hco : co < 128) :
    arr3 (wb15 V c t) k ci co = arr3 (W15 V c) k ci ((grid15.coords t 1).val * 128 + co) := by
  have h1 : (grid15.coords t 1).val < 4 := (grid15.coords t 1).isLt
  unfold arr3
  by_cases h : k < 9 ∧ ci < 512
  · have hl : k < 9 ∧ ci < 512 ∧ co < 128 := ⟨h.1, h.2, hco⟩
    have hr : k < 9 ∧ ci < 512 ∧ (grid15.coords t 1).val * 128 + co < 512 := ⟨h.1, h.2, by omega⟩
    rw [dif_pos hl, dif_pos hr]
    exact wb15_apply V c t ⟨k, h.1⟩ ⟨ci, h.2⟩ ⟨co, hco⟩
  · have hl : ¬(k < 9 ∧ ci < 512 ∧ co < 128) := fun h' => h ⟨h'.1, h'.2.1⟩
    have hr : ¬(k < 9 ∧ ci < 512 ∧ (grid15.coords t 1).val * 128 + co < 512) := fun h' => h ⟨h'.1, h'.2.1⟩
    rw [dif_neg hl, dif_neg hr]

theorem arr2_bb15 (c : Dev nD) (t : Fin cfg15.N) (u : Fin 1) (co : Fin 128) :
    bb15 V c t (ix2 u co) = arr2 (B15 V c) 0 ((grid15.coords t 1).val * 128 + co.val) := by
  have h1 : (grid15.coords t 1).val < 4 := (grid15.coords t 1).isLt
  have h2 := co.isLt
  have hc : 0 < 1 ∧ (grid15.coords t 1).val * 128 + co.val < 512 := ⟨by decide, by omega⟩
  rw [bb15_apply]
  unfold arr2
  rw [dif_pos hc]
  rfl

/-- One tap of the body at a point, for each of the three column offsets: the load at rows from `14 * (i 2).val + dy`, columns
    from dx, against weight slab k. -/
theorem tap15_1 (i : grid15.Coords) (x0 : Vec Ideal S1x16x16x512 .f32) (x1 : Vec Ideal S9x512x128 .f32) (dy : Fin 3) (k : ℕ)
    (inbw : ∀ a, (![k, 0, 0] : Fin 3 → ℕ) a + S1x512x128.size a ≤ S9x512x128.size a) (r : Fin 14) (j : Fin 14) (co : Fin 128) :
    tap (View.ld x0 (Rect.unit (s := S1x16x16x512) (k15_off1 i (BitVec.ofNat 32 dy.val)) S1x14x14x512.size (k15_off1_inb i dy)))
        (View.ld x1 (Rect.unit (s := S9x512x128) ![k, 0, 0] S1x512x128.size inbw)) r j co
      = ∑ ci ∈ Finset.range 512, arr4 x0 0 (14 * (i 2).val + dy.val + r.val) (0 + j.val) ci * arr3 x1 k ci co.val :=
  tap_ld x0 x1 _ _ _ _ r j co _ _ k (congrFun (k15_off1_eq i dy) 0) (congrFun (k15_off1_eq i dy) 1) (congrFun (k15_off1_eq i dy) 2)
    (congrFun (k15_off1_eq i dy) 3) rfl rfl rfl
theorem tap15_2 (i : grid15.Coords) (x0 : Vec Ideal S1x16x16x512 .f32) (x1 : Vec Ideal S9x512x128 .f32) (dy : Fin 3) (k : ℕ)
    (inbw : ∀ a, (![k, 0, 0] : Fin 3 → ℕ) a + S1x512x128.size a ≤ S9x512x128.size a) (r : Fin 14) (j : Fin 14) (co : Fin 128) :
    tap (View.ld x0 (Rect.unit (s := S1x16x16x512) (k15_off2 i (BitVec.ofNat 32 dy.val)) S1x14x14x512.size (k15_off2_inb i dy)))
        (View.ld x1 (Rect.unit (s := S9x512x128) ![k, 0, 0] S1x512x128.size inbw)) r j co
      = ∑ ci ∈ Finset.range 512, arr4 x0 0 (14 * (i 2).val + dy.val + r.val) (1 + j.val) ci * arr3 x1 k ci co.val :=
  tap_ld x0 x1 _ _ _ _ r j co _ _ k (congrFun (k15_off2_eq i dy) 0) (congrFun (k15_off2_eq i dy) 1) (congrFun (k15_off2_eq i dy) 2)
    (congrFun (k15_off2_eq i dy) 3) rfl rfl rfl
theorem tap15_3 (i : grid15.Coords) (x0 : Vec Ideal S1x16x16x512 .f32) (x1 : Vec Ideal S9x512x128 .f32) (dy : Fin 3) (k : ℕ)
    (inbw : ∀ a, (![k, 0, 0] : Fin 3 → ℕ) a + S1x512x128.size a ≤ S9x512x128.size a) (r : Fin 14) (j : Fin 14) (co : Fin 128) :
    tap (View.ld x0 (Rect.unit (s := S1x16x16x512) (k15_off3 i (BitVec.ofNat 32 dy.val)) S1x14x14x512.size (k15_off3_inb i dy)))
        (View.ld x1 (Rect.unit (s := S9x512x128) ![k, 0, 0] S1x512x128.size inbw)) r j co
      = ∑ ci ∈ Finset.range 512, arr4 x0 0 (14 * (i 2).val + dy.val + r.val) (2 + j.val) ci * arr3 x1 k ci co.val :=
  tap_ld x0 x1 _ _ _ _ r j co _ _ k (congrFun (k15_off3_eq i dy) 0) (congrFun (k15_off3_eq i dy) 1) (congrFun (k15_off3_eq i dy) 2)
    (congrFun (k15_off3_eq i dy) 3) rfl rfl rfl

/-- Tap k of the convolution at output pixel (i, j), channel co, of batch b. -/
abbrev tapf15 (c : Dev nD) (b i j co : ℕ) (k : ℕ) : EReal :=
  ∑ ci ∈ Finset.range 512, arr4 (X15 V c) b (i + k / 3) (j + k % 3) ci * arr3 (W15 V c) k ci co

/-- A tap read off the blocks at a point is the convolution's tap k = 3·dy + dx. -/
theorem tap_blocks15 (c : Dev nD) (t : Fin cfg15.N) (r : Fin 14) (j : Fin 14) (co : Fin 128) (k dy dx : ℕ) (hdy : k / 3 = dy) (hdx : k % 3 = dx) :
    (∑ ci ∈ Finset.range 512, arr4 (xb15 V c t) 0 (14 * (grid15.coords t 2).val + dy + r.val) (dx + j.val) ci * arr3 (wb15 V c t) k ci co.val)
      = tapf15 V c (grid15.coords t 0).val (14 * (grid15.coords t 2).val + r.val) j.val ((grid15.coords t 1).val * 128 + co.val) k := by
  unfold tapf15
  rw [hdy, hdx]
  have hR : 14 * (grid15.coords t 2).val + dy + r.val = 14 * (grid15.coords t 2).val + r.val + dy := by omega
  have hC : dx + j.val = j.val + dx := by omega
  refine Finset.sum_congr rfl fun ci _ => ?_
  rw [arr4_xb15, arr3_wb15 V c t k ci co.val co.isLt, hR, hC]

/-- THE BLOCK'S VALUE: after the body at a point, the output's staging buffer at pixel (r, j), channel co holds the
    convolution of the padded image at the point's batch, row and channel tile. -/
theorem blk_value15 (c : Dev nD) (t : Fin cfg15.N) (u : Fin 1) (r : Fin 14) (j : Fin 14) (co : Fin 128) :
    outsAt15 (F := Ideal) V c t (ix4 u r j co)
      = conv 512 (arr4 (X15 V c)) (arr3 (W15 V c)) (arr2 (B15 V c)) (grid15.coords t 0).val (14 * (grid15.coords t 2).val + r.val) j.val ((grid15.coords t 1).val * 128 + co.val) := by
  unfold outsAt15
  rw [out15_eq]
  unfold conv15_pay
  rw [pay15_apply]
  have T0 := tap15_1 (grid15.coords t) (xb15 V c t) (wb15 V c t) 0 0 inb_S9x512x128_S1x512x128_0_0_0 r j co
  have T1 := tap15_2 (grid15.coords t) (xb15 V c t) (wb15 V c t) 0 1 inb_S9x512x128_S1x512x128_1_0_0 r j co
  have T2 := tap15_3 (grid15.coords t) (xb15 V c t) (wb15 V c t) 0 2 inb_S9x512x128_S1x512x128_2_0_0 r j co
  have T3 := tap15_1 (grid15.coords t) (xb15 V c t) (wb15 V c t) 1 3 inb_S9x512x128_S1x512x128_3_0_0 r j co
  have T4 := tap15_2 (grid15.coords t) (xb15 V c t) (wb15 V c t) 1 4 inb_S9x512x128_S1x512x128_4_0_0 r j co
  have T5 := tap15_3 (grid15.coords t) (xb15 V c t) (wb15 V c t) 1 5 inb_S9x512x128_S1x512x128_5_0_0 r j co
  have T6 := tap15_1 (grid15.coords t) (xb15 V c t) (wb15 V c t) 2 6 inb_S9x512x128_S1x512x128_6_0_0 r j co
  have T7 := tap15_2 (grid15.coords t) (xb15 V c t) (wb15 V c t) 2 7 inb_S9x512x128_S1x512x128_7_0_0 r j co
  have T8 := tap15_3 (grid15.coords t) (xb15 V c t) (wb15 V c t) 2 8 inb_S9x512x128_S1x512x128_8_0_0 r j co
  refine (congrArg (fun s => max s 0) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) rfl
      (T0.trans (tap_blocks15 V c t r j co 0 0 0 rfl rfl)))
      (T1.trans (tap_blocks15 V c t r j co 1 0 1 rfl rfl)))
      (T2.trans (tap_blocks15 V c t r j co 2 0 2 rfl rfl)))
      (T3.trans (tap_blocks15 V c t r j co 3 1 0 rfl rfl)))
      (T4.trans (tap_blocks15 V c t r j co 4 1 1 rfl rfl)))
      (T5.trans (tap_blocks15 V c t r j co 5 1 2 rfl rfl)))
      (T6.trans (tap_blocks15 V c t r j co 6 2 0 rfl rfl)))
      (T7.trans (tap_blocks15 V c t r j co 7 2 1 rfl rfl)))
      (T8.trans (tap_blocks15 V c t r j co 8 2 2 rfl rfl)))
      (arr2_bb15 V c t 0 co))).trans ?_
  unfold conv
  rw [← chain9 (tapf15 V c (grid15.coords t 0).val (14 * (grid15.coords t 2).val + r.val) j.val ((grid15.coords t 1).val * 128 + co.val))]

/-- The convolution as an array of the output's extents. -/
def G15 (c : Dev nD) : Vec Ideal S8x14x14x512 .f32 := fun idx =>
  conv 512 (arr4 (X15 V c)) (arr3 (W15 V c)) (arr2 (B15 V c)) (idx 0).val (idx 1).val (idx 2).val (idx 3).val

/-- Every write-back writes the convolution's block: the block of point (b, ct, r) is row chunk r of batch b, channel tile ct. -/
theorem flushed_eq15 (c : Dev nD) (t : Fin cfg15.N) (hf : (cfg15.win 3).flush t = true) :
    (dat15 V c).flushed 3 t = ((cfg15.win 3).blk t).view.read (Elt Ideal) (G15 V c) := by
  show (cfg15.win 3).cut (grid15.coords t) ((dat15 V c).after 3 t) = _
  rw [after15_3]
  refine funext fun (y : S1x14x14x128.Idx) => ?_
  rw [View.read_apply]
  show outsAt15 V c t ((cfg15.win 3).xinj (grid15.coords t) y) = G15 V c (((cfg15.win 3).blk t).view.emb y)
  have hy : (cfg15.win 3).xinj (grid15.coords t) y = ix4 (n0 := 1) (n1 := 14) (n2 := 14) (n3 := 128) (y 0) (y 1) (y 2) (y 3) := funext fun (a : Fin 4) => by
    match a with
    | ⟨0, _⟩ => rfl
    | ⟨1, _⟩ => rfl
    | ⟨2, _⟩ => rfl
    | ⟨3, _⟩ => rfl
  rw [hy]
  refine (blk_value15 V c t (y 0) (y 1) (y 2) (y 3)).trans ?_
  unfold G15
  have hi := idx15_3 t
  have h0 : (y 0).val < 1 := (y 0).isLt
  refine congr (congr (congr (congrArg (conv 512 _ _ _) ?_) ?_) ?_) ?_
  · symm; show win15_3.index t 0 * 1 + 1 * (y 0).val = _; rw [hi]; show (grid15.coords t 0).val * 1 + 1 * (y 0).val = _; omega
  · symm; show win15_3.index t 1 * 14 + 1 * (y 1).val = _; rw [hi]; show (grid15.coords t 2).val * 14 + 1 * (y 1).val = _; omega
  · symm; show win15_3.index t 2 * 14 + 1 * (y 2).val = _; rw [hi]; show 0 * 14 + 1 * (y 2).val = _; omega
  · symm; show win15_3.index t 3 * 128 + 1 * (y 3).val = _; rw [hi]; show (grid15.coords t 1).val * 128 + 1 * (y 3).val = _; omega

/-- The blocks cover the output: pixel (b, i, j, co) lies in the block of point (b, co / 128, i / 14). -/
theorem cover15 (c : Dev nD) (idx : S8x14x14x512.Idx) :
    ∃ t : Fin cfg15.N, (cfg15.win 3).flush t = true ∧ idx ∈ ((cfg15.win 3).blk t).view.set := by
  have h0 : (idx 0).val < 8 := (idx 0).isLt
  have h1 : (idx 1).val < 14 := (idx 1).isLt
  have h2 : (idx 2).val < 14 := (idx 2).isLt
  have h3 : (idx 3).val < 512 := (idx 3).isLt
  have hN : cfg15.N = 32 := N_15
  have hlt : ((idx 0).val * 4 + (idx 3).val / 128) * 1 + (idx 1).val / 14 < cfg15.N := by rw [hN]; omega
  obtain ⟨t, ht⟩ : ∃ t : Fin cfg15.N, t.val = ((idx 0).val * 4 + (idx 3).val / 128) * 1 + (idx 1).val / 14 := ⟨⟨_, hlt⟩, rfl⟩
  refine ⟨t, flush15_3 t, ?_⟩
  have hset : ((cfg15.win 3).blk t).view.set = (win15_3.rect t).set := View.set_slice_whole main_v32 (win15_3.rect t)
  rw [hset, Rect.mem_set_unit]
  have hi := idx15_3 t
  have c0 : (grid15.coords t 0).val = (idx 0).val := by
    show t.val / 4 % 8 = _; rw [ht]; omega
  have c1 : (grid15.coords t 1).val = (idx 3).val / 128 := by
    show t.val / 1 % 4 = _; rw [ht]; omega
  have c2 : (grid15.coords t 2).val = (idx 1).val / 14 := by
    show t.val / 1 % 1 = _; rw [ht]; omega
  intro a
  match a with
  | ⟨0, _⟩ =>
    show win15_3.index t 0 * 1 ≤ (idx 0 : ℕ) ∧ (idx 0 : ℕ) < win15_3.index t 0 * 1 + 1
    rw [hi]; show (grid15.coords t 0).val * 1 ≤ (idx 0 : ℕ) ∧ (idx 0 : ℕ) < (grid15.coords t 0).val * 1 + 1
    rw [c0]; omega
  | ⟨1, _⟩ =>
    show win15_3.index t 1 * 14 ≤ (idx 1 : ℕ) ∧ (idx 1 : ℕ) < win15_3.index t 1 * 14 + 14
    rw [hi]; show (grid15.coords t 2).val * 14 ≤ (idx 1 : ℕ) ∧ (idx 1 : ℕ) < (grid15.coords t 2).val * 14 + 14
    rw [c2]; omega
  | ⟨2, _⟩ =>
    show win15_3.index t 2 * 14 ≤ (idx 2 : ℕ) ∧ (idx 2 : ℕ) < win15_3.index t 2 * 14 + 14
    rw [hi]; show 0 * 14 ≤ (idx 2 : ℕ) ∧ (idx 2 : ℕ) < 0 * 14 + 14
    omega
  | ⟨3, _⟩ =>
    show win15_3.index t 3 * 128 ≤ (idx 3 : ℕ) ∧ (idx 3 : ℕ) < win15_3.index t 3 * 128 + 128
    rw [hi]; show (grid15.coords t 1).val * 128 ≤ (idx 3 : ℕ) ∧ (idx 3 : ℕ) < (grid15.coords t 1).val * 128 + 128
    rw [c1]; omega

/-- So the output array after the region is the convolution. -/
theorem conv15_array (c : Dev nD) : (dat15 V c).arrAt 3 cfg15.N = G15 V c :=
  (dat15 V c).arrAt_eq_of_cover 3 (G15 V c) (flushed_eq15 V c) (cover15 c)

/-- THE REGION'S VALUE: the output array, as a total function, is the 3×3 convolution with bias and ReLU of the region's
    padded input against its weights. -/
theorem conv15_value (c : Dev nD) (b i j co : ℕ) (hb : b < 8) (hi : i < 14) (hj : j < 14) (hco : co < 512) :
    arr4 ((dat15 (F := Ideal) V c).arrAt 3 cfg15.N : Vec Ideal S8x14x14x512 .f32) b i j co
      = conv 512 (arr4 (X15 V c)) (arr3 (W15 V c)) (arr2 (B15 V c)) b i j co := by
  have hc : b < 8 ∧ i < 14 ∧ j < 14 ∧ co < 512 := ⟨hb, hi, hj, hco⟩
  rw [conv15_array]
  unfold arr4
  rw [dif_pos hc]
  rfl

end Cert.ReferenceIdeal.Val

end
-- ==== Proof.RConv16Pay.lean ====
/-
  Reference region 16: the body's payload read at an index, over the extended reals. The body adds nine products — the
  image rows at row offset dy and column offset dx, as a matrix of 196 rows of 512 channels, times weight slab 3·dy + dx —
  in order from zero, adds the bias row and takes the maximum with zero; so at pixel (r, j) and output channel co the
  payload is the nine taps summed, plus the bias, against zero.
-/
import proofs.«100114_g2000204297211070_pallasbulk_1265_19_alg».proof.Proof.Gen.ReferenceIdeal.Skeleton
import proofs.«100114_g2000204297211070_pallasbulk_1265_19_alg».proof.Proof.ConvAlg

noncomputable section

namespace Cert.ReferenceIdeal.Val

open Cert.ReferenceIdeal Cert.ReferenceIdeal.Gen
open Idealize.ShloMosaic Idealize.ShloMosaic.ValueIdx
open Cert.Spec

theorem dot16_plain : dot_S196x512_S512x128_S196x128_1_0_0_1_n_n = DotDims.plain 196 512 128 := rfl

/-- The first three taps, added in order from zero, at row r·14 + j of the accumulator. -/
theorem pay16_1_apply (v5 : Vec Ideal S1x14x14x512 .f32) (v8 : Vec Ideal S1x512x128 .f32) (v14 : Vec Ideal S1x14x14x512 .f32) (v17 : Vec Ideal S1x512x128 .f32) (v23 : Vec Ideal S1x14x14x512 .f32) (v26 : Vec Ideal S1x512x128 .f32)
    (r : Fin 14) (j : Fin 14) (co : Fin 128) (p : Fin 196) (hp : p.val = r.val * 14 + j.val) :
    k16_pay1 v5 v8 v14 v17 v23 v26 (ix2 p co) = 0 + tap v5 v8 r j co + tap v14 v17 r j co + tap v23 v26 r j co := by
  unfold k16_pay1
  simp only [matmul, addf_apply, broadcast_apply]
  rw [tap_matmul_zero _ dot16_plain none v5 v8 _ _ _ r j co p hp, tap_matmul_zero _ dot16_plain none v14 v17 _ _ _ r j co p hp,
    tap_matmul_zero _ dot16_plain none v23 v26 _ _ _ r j co p hp, ofBits_zero]

/-- The next three taps added onto the accumulator. -/
theorem pay16_2_apply (v29 : FVec Ideal S196x128 .f32) (v32 : Vec Ideal S1x14x14x512 .f32) (v35 : Vec Ideal S1x512x128 .f32) (v41 : Vec Ideal S1x14x14x512 .f32) (v44 : Vec Ideal S1x512x128 .f32) (v50 : Vec Ideal S1x14x14x512 .f32) (v53 : Vec Ideal S1x512x128 .f32)
    (r : Fin 14) (j : Fin 14) (co : Fin 128) (p : Fin 196) (hp : p.val = r.val * 14 + j.val) :
    k16_pay2 v29 v32 v35 v41 v44 v50 v53 (ix2 p co) = v29 (ix2 p co) + tap v32 v35 r j co + tap v41 v44 r j co + tap v50 v53 r j co := by
  unfold k16_pay2
  simp only [matmul, addf_apply]
  rw [tap_matmul_zero _ dot16_plain none v32 v35 _ _ _ r j co p hp, tap_matmul_zero _ dot16_plain none v41 v44 _ _ _ r j co p hp,
    tap_matmul_zero _ dot16_plain none v50 v53 _ _ _ r j co p hp]

/-- The last three taps added onto the accumulator, then the bias, then the maximum with zero, read back as a block. -/
theorem pay16_4_apply (v56 : FVec Ideal S196x128 .f32) (v59 : Vec Ideal S1x14x14x512 .f32) (v62 : Vec Ideal S1x512x128 .f32) (v68 : Vec Ideal S1x14x14x512 .f32) (v71 : Vec Ideal S1x512x128 .f32) (v77 : Vec Ideal S1x14x14x512 .f32) (v80 : Vec Ideal S1x512x128 .f32) (v84 : Vec Ideal S1x128 .f32)
    (u : Fin 1) (r : Fin 14) (j : Fin 14) (co : Fin 128) (p : Fin 196) (hp : p.val = r.val * 14 + j.val) :
    k16_pay4 v56 (k16_pay3 v59) v62 v68 v71 v77 v80 v84 (ix4 u r j co)
      = max (v56 (ix2 p co) + tap v59 v62 r j co + tap v68 v71 r j co + tap v77 v80 r j co + v84 (ix2 (0 : Fin 1) co)) 0 := by
  unfold k16_pay4 k16_pay3
  rw [rows_out_apply _ _ _ u r j co p hp]
  simp only [matmul, addf_apply, maximumf_apply, broadcast_apply]
  rw [tap_matmul_zero _ dot16_plain none v59 v62 _ _ _ r j co p hp, tap_matmul_zero _ dot16_plain none v68 v71 _ _ _ r j co p hp,
    tap_matmul_zero _ dot16_plain none v77 v80 _ _ _ r j co p hp, broadcastTo_1b_ab_apply, ofBits_zero]

/-- The whole payload at pixel (r, j), output channel co: the nine taps summed, plus the bias, against zero. -/
theorem pay16_apply (v5 : Vec Ideal S1x14x14x512 .f32) (v8 : Vec Ideal S1x512x128 .f32) (v14 : Vec Ideal S1x14x14x512 .f32) (v17 : Vec Ideal S1x512x128 .f32) (v23 : Vec Ideal S1x14x14x512 .f32) (v26 : Vec Ideal S1x512x128 .f32)
    (v32 : Vec Ideal S1x14x14x512 .f32) (v35 : Vec Ideal S1x512x128 .f32) (v41 : Vec Ideal S1x14x14x512 .f32) (v44 : Vec Ideal S1x512x128 .f32) (v50 : Vec Ideal S1x14x14x512 .f32) (v53 : Vec Ideal S1x512x128 .f32)
    (v59 : Vec Ideal S1x14x14x512 .f32) (v62 : Vec Ideal S1x512x128 .f32) (v68 : Vec Ideal S1x14x14x512 .f32) (v71 : Vec Ideal S1x512x128 .f32) (v77 : Vec Ideal S1x14x14x512 .f32) (v80 : Vec Ideal S1x512x128 .f32) (v84 : Vec Ideal S1x128 .f32)
    (u : Fin 1) (r : Fin 14) (j : Fin 14) (co : Fin 128) :
    k16_pay4 (k16_pay2 (k16_pay1 v5 v8 v14 v17 v23 v26) v32 v35 v41 v44 v50 v53) (k16_pay3 v59) v62 v68 v71 v77 v80 v84 (ix4 u r j co)
      = max (0 + tap v5 v8 r j co + tap v14 v17 r j co + tap v23 v26 r j co + tap v32 v35 r j co + tap v41 v44 r j co + tap v50 v53 r j co
          + tap v59 v62 r j co + tap v68 v71 r j co + tap v77 v80 r j co + v84 (ix2 (0 : Fin 1) co)) 0 := by
  have hlt : r.val * 14 + j.val < 196 := by have := r.isLt; have := j.isLt; omega
  rw [pay16_4_apply _ v59 v62 v68 v71 v77 v80 v84 u r j co ⟨r.val * 14 + j.val, hlt⟩ rfl,
    pay16_2_apply _ v32 v35 v41 v44 v50 v53 r j co ⟨r.val * 14 + j.val, hlt⟩ rfl,
    pay16_1_apply v5 v8 v14 v17 v23 v26 r j co ⟨r.val * 14 + j.val, hlt⟩ rfl]

end Cert.ReferenceIdeal.Val

end
-- ==== Proof.RConv16Blk.lean ====
/-
  Reference region 16: what the body leaves in the output's staging buffer, as a function of the three input blocks.
  The body loads nine windows of the image block (rows from 14 * (i 2).val + dy, columns from dx), the nine weight slabs and
  the bias block, and stores one value over the whole output block: the payload of those loads.
-/
import proofs.«100114_g2000204297211070_pallasbulk_1265_19_alg».proof.Proof.Gen.ReferenceIdeal.Frame
import proofs.«100114_g2000204297211070_pallasbulk_1265_19_alg».proof.Proof.ConvAlg
import Idealize.ShloMosaic.Lib.Pipeline.Value
import Idealize.ShloMosaic.Lib.Tactic

set_option maxRecDepth 16384

noncomputable section

namespace Cert.ReferenceIdeal.Val

open Cert.ReferenceIdeal Cert.ReferenceIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Spec

variable {F : FTy → Type} [FloatOps F]

/-- The body's one store, as a function of the three input blocks: the payload of the nine loaded image rows (row
    offset dy = 0, 1, 2, column offset dx = 0, 1, 2), the nine loaded weight slabs and the bias block. -/
def conv16_pay (i : grid16.Coords) (x0 : Vec F S1x16x16x512 .f32) (x1 : Vec F S9x512x128 .f32) (x2 : Vec F S1x128 .f32) : Vec F S1x14x14x128 .f32 :=
  k16_pay4
    (k16_pay2
      (k16_pay1
        (View.ld x0 (Rect.unit (s := S1x16x16x512) (k16_off1 i 0#32) S1x14x14x512.size (k16_off1_inb i 0)))
        (View.ld x1 (Rect.unit (s := S9x512x128) ![0, 0, 0] S1x512x128.size inb_S9x512x128_S1x512x128_0_0_0))
        (View.ld x0 (Rect.unit (s := S1x16x16x512) (k16_off2 i 0#32) S1x14x14x512.size (k16_off2_inb i 0)))
        (View.ld x1 (Rect.unit (s := S9x512x128) ![1, 0, 0] S1x512x128.size inb_S9x512x128_S1x512x128_1_0_0))
        (View.ld x0 (Rect.unit (s := S1x16x16x512) (k16_off3 i 0#32) S1x14x14x512.size (k16_off3_inb i 0)))
        (View.ld x1 (Rect.unit (s := S9x512x128) ![2, 0, 0] S1x512x128.size inb_S9x512x128_S1x512x128_2_0_0)))
      (View.ld x0 (Rect.unit (s := S1x16x16x512) (k16_off1 i 1#32) S1x14x14x512.size (k16_off1_inb i 1)))
      (View.ld x1 (Rect.unit (s := S9x512x128) ![3, 0, 0] S1x512x128.size inb_S9x512x128_S1x512x128_3_0_0))
      (View.ld x0 (Rect.unit (s := S1x16x16x512) (k16_off2 i 1#32) S1x14x14x512.size (k16_off2_inb i 1)))
      (View.ld x1 (Rect.unit (s := S9x512x128) ![4, 0, 0] S1x512x128.size inb_S9x512x128_S1x512x128_4_0_0))
      (View.ld x0 (Rect.unit (s := S1x16x16x512) (k16_off3 i 1#32) S1x14x14x512.size (k16_off3_inb i 1)))
      (View.ld x1 (Rect.unit (s := S9x512x128) ![5, 0, 0] S1x512x128.size inb_S9x512x128_S1x512x128_5_0_0)))
    (k16_pay3 (View.ld x0 (Rect.unit (s := S1x16x16x512) (k16_off1 i 2#32) S1x14x14x512.size (k16_off1_inb i 2))))
    (View.ld x1 (Rect.unit (s := S9x512x128) ![6, 0, 0] S1x512x128.size inb_S9x512x128_S1x512x128_6_0_0))
    (View.ld x0 (Rect.unit (s := S1x16x16x512) (k16_off2 i 2#32) S1x14x14x512.size (k16_off2_inb i 2)))
    (View.ld x1 (Rect.unit (s := S9x512x128) ![7, 0, 0] S1x512x128.size inb_S9x512x128_S1x512x128_7_0_0))
    (View.ld x0 (Rect.unit (s := S1x16x16x512) (k16_off3 i 2#32) S1x14x14x512.size (k16_off3_inb i 2)))
    (View.ld x1 (Rect.unit (s := S9x512x128) ![8, 0, 0] S1x512x128.size inb_S9x512x128_S1x512x128_8_0_0))
    x2

set_option maxHeartbeats 1000000 in
/-- What the run leaves in the output's staging buffer is that payload of the input blocks. -/
theorem out16_eq (c : Dev nD) (i : grid16.Coords) (arg3 : Memref sig .tc .vmem S1x16x16x512 .f32) (harg3 : arg3.IsWhole) (arg4 : Memref sig .tc .vmem S9x512x128 .f32) (harg4 : arg4.IsWhole) (arg5 : Memref sig .tc .vmem S1x128 .f32) (harg5 : arg5.IsWhole) (arg6 : Memref sig .tc .vmem S1x14x14x128 .f32) (harg6 : arg6.IsWhole)
    (x0 : Vec F S1x16x16x512 .f32) (x1 : Vec F S9x512x128 .f32) (x2 : Vec F S1x128 .f32) :
    out16_A_3 c i arg3 harg3 arg4 harg4 arg5 harg5 arg6 harg6 x0 x1 x2 = conv16_pay i x0 x1 x2 := by
  unfold out16_A_3 conv16_pay
  rw [View.read_writes_eq_canon _ _ _ (cover16_A_3 c i arg3 harg3 arg4 harg4 arg5 harg5 arg6 harg6 x0 x1 x2)]
  unfold kernelRun16_A
  dsimp only
  sl_unfold_words
  rw [View.canon_unit_zero hz4]
  simp only [View.readAt_eq_ld, harg3.read_unread, harg4.read_unread, harg5.read_unread, View.ld_unit_zero (S := S1x128) hz2]

end Cert.ReferenceIdeal.Val

end
-- ==== Proof.RConv16.lean ====
/-
  Reference region 16: THE VALUE of its output array after the region, over the extended reals. Point (b, ct, r) of the
  grid works on batch b, output-channel tile ct and row chunk r: its image block is batch b of the padded input, its
  weights' and bias's blocks are tile ct, and its output block is rows 14·r … of batch b, channels of tile ct. What
  the body leaves there is the convolution's value (nine taps, bias, maximum with zero); every point writes its block
  back and the blocks cover the array; so the array, as a total function, is the 3×3 convolution with bias and ReLU of
  the region's padded input against its weights.
-/
import proofs.«100114_g2000204297211070_pallasbulk_1265_19_alg».proof.Proof.RConv16Pay
import proofs.«100114_g2000204297211070_pallasbulk_1265_19_alg».proof.Proof.RConv16Blk

set_option maxRecDepth 16384

noncomputable section

namespace Cert.ReferenceIdeal.Val

open Cert.ReferenceIdeal Cert.ReferenceIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Spec

variable (V : (c : Dev nD) → (b : Ref sig .tc) → Buf (Elt Ideal) ((c : Thread nD τ).loc b))

/-- The region's three input arrays and its blocks at a point, at their literal types. -/
abbrev X16 (c : Dev nD) : Vec Ideal S8x16x16x512 .f32 := V c (Pipeline.arrRef spec16 0)
abbrev W16 (c : Dev nD) : Vec Ideal S9x512x512 .f32 := V c (Pipeline.arrRef spec16 1)
abbrev B16 (c : Dev nD) : Vec Ideal S1x512 .f32 := V c (Pipeline.arrRef spec16 2)
abbrev xb16 (c : Dev nD) (t : Fin cfg16.N) : Vec Ideal S1x16x16x512 .f32 := iblk16 V c 0 t
abbrev wb16 (c : Dev nD) (t : Fin cfg16.N) : Vec Ideal S9x512x128 .f32 := iblk16 V c 1 t
abbrev bb16 (c : Dev nD) (t : Fin cfg16.N) : Vec Ideal S1x128 .f32 := iblk16 V c 2 t

/-- The four index maps at a point (b, ct, r): the image block is batch b; the weights' and the bias's block is output
    channel tile ct; the output block is row chunk r of batch b, channel tile ct. -/
theorem idx16_0 (t : Fin cfg16.N) : win16_0.index t = ![(grid16.coords t 0).val, 0, 0, 0] := by
  funext a
  show cc16_transform_0 (grid16.coords t) a = _
  match a with
  | ⟨0, _⟩ => exact toNat_coord (grid16.coords t 0) (by decide)
  | ⟨1, _⟩ => rfl
  | ⟨2, _⟩ => rfl
  | ⟨3, _⟩ => rfl
theorem idx16_1 (t : Fin cfg16.N) : win16_1.index t = ![0, 0, (grid16.coords t 1).val] := by
  funext a
  show cc16_transform_1 (grid16.coords t) a = _
  match a with
  | ⟨0, _⟩ => rfl
  | ⟨1, _⟩ => rfl
  | ⟨2, _⟩ => exact toNat_coord (grid16.coords t 1) (by decide)
theorem idx16_2 (t : Fin cfg16.N) : win16_2.index t = ![0, (grid16.coords t 1).val] := by
  funext a
  show cc16_transform_2 (grid16.coords t) a = _
  match a with
  | ⟨0, _⟩ => rfl
  | ⟨1, _⟩ => exact toNat_coord (grid16.coords t 1) (by decide)
theorem idx16_3 (t : Fin cfg16.N) : win16_3.index t = ![(grid16.coords t 0).val, (grid16.coords t 2).val, 0, (grid16.coords t 1).val] := by
  funext a
  show cc16_transform_3 (grid16.coords t) a = _
  match a with
  | ⟨0, _⟩ => exact toNat_coord (grid16.coords t 0) (by decide)
  | ⟨1, _⟩ => exact toNat_coord (grid16.coords t 2) (by decide)
  | ⟨2, _⟩ => rfl
  | ⟨3, _⟩ => exact toNat_coord (grid16.coords t 1) (by decide)

/-- The image block at a point is the point's batch of the padded image. -/
theorem xb16_apply (c : Dev nD) (t : Fin cfg16.N) (y0 : Fin 1) (I : Fin 16) (J : Fin 16) (ci : Fin 512) :
    xb16 V c t (ix4 y0 I J ci) = X16 V c (ix4 ⟨(grid16.coords t 0).val, (grid16.coords t 0).isLt⟩ I J ci) := by
  unfold xb16 iblk16
  rw [View.read_apply]
  show V c (Pipeline.arrRef spec16 0) _ = V c (Pipeline.arrRef spec16 0) _
  congr 1
  funext a
  apply Fin.ext
  have hi := idx16_0 t
  have h0 := y0.isLt
  match a with
  | ⟨0, _⟩ => show win16_0.index t 0 * 1 + 1 * y0.val = (grid16.coords t 0).val; rw [hi]; show (grid16.coords t 0).val * 1 + 1 * y0.val = _; omega
  | ⟨1, _⟩ => show win16_0.index t 1 * 16 + 1 * I.val = I.val; rw [hi]; show 0 * 16 + 1 * I.val = _; omega
  | ⟨2, _⟩ => show win16_0.index t 2 * 16 + 1 * J.val = J.val; rw [hi]; show 0 * 16 + 1 * J.val = _; omega
  | ⟨3, _⟩ => show win16_0.index t 3 * 512 + 1 * ci.val = ci.val; rw [hi]; show 0 * 512 + 1 * ci.val = _; omega

/-- The weights' block at a point is the point's tile of output channels of the weights. -/
theorem wb16_apply (c : Dev nD) (t : Fin cfg16.N) (k : Fin 9) (ci : Fin 512) (co : Fin 128) :
    wb16 V c t (ix3 k ci co) = W16 V c (ix3 k ci ⟨(grid16.coords t 1).val * 128 + co.val, by
      have h1 : (grid16.coords t 1).val < 4 := (grid16.coords t 1).isLt
      have := co.isLt; omega⟩) := by
  unfold wb16 iblk16
  rw [View.read_apply]
  show V c (Pipeline.arrRef spec16 1) _ = V c (Pipeline.arrRef spec16 1) _
  congr 1
  funext a
  apply Fin.ext
  have hi := idx16_1 t
  match a with
  | ⟨0, _⟩ => show win16_1.index t 0 * 9 + 1 * k.val = k.val; rw [hi]; show 0 * 9 + 1 * k.val = _; omega
  | ⟨1, _⟩ => show win16_1.index t 1 * 512 + 1 * ci.val = ci.val; rw [hi]; show 0 * 512 + 1 * ci.val = _; omega
  | ⟨2, _⟩ => show win16_1.index t 2 * 128 + 1 * co.val = (grid16.coords t 1).val * 128 + co.val; rw [hi]; show (grid16.coords t 1).val * 128 + 1 * co.val = _; omega

/-- The bias block at a point is the point's tile of output channels of the bias. -/
theorem bb16_apply (c : Dev nD) (t : Fin cfg16.N) (u : Fin 1) (co : Fin 128) :
    bb16 V c t (ix2 u co) = B16 V c (ix2 (0 : Fin 1) ⟨(grid16.coords t 1).val * 128 + co.val, by
      have h1 : (grid16.coords t 1).val < 4 := (grid16.coords t 1).isLt
      have := co.isLt; omega⟩) := by
  unfold bb16 iblk16
  rw [View.read_apply]
  show V c (Pipeline.arrRef spec16 2) _ = V c (Pipeline.arrRef spec16 2) _
  congr 1
  funext a
  apply Fin.ext
  have hi := idx16_2 t
  have h0 := u.isLt
  match a with
  | ⟨0, _⟩ => show win16_2.index t 0 * 1 + 1 * u.val = 0; rw [hi]; show 0 * 1 + 1 * u.val = _; omega
  | ⟨1, _⟩ => show win16_2.index t 1 * 128 + 1 * co.val = (grid16.coords t 1).val * 128 + co.val; rw [hi]; show (grid16.coords t 1).val * 128 + 1 * co.val = _; omega

/-- The same three facts over total functions of natural coordinates. -/
theorem arr4_xb16 (c : Dev nD) (t : Fin cfg16.N) (I J ci : ℕ) :
    arr4 (xb16 V c t) 0 I J ci = arr4 (X16 V c) (grid16.coords t 0).val I J ci := by
  unfold arr4
  by_cases h : I < 16 ∧ J < 16 ∧ ci < 512
  · have hl : 0 < 1 ∧ I < 16 ∧ J < 16 ∧ ci < 512 := ⟨by decide, h⟩
    have hr : (grid16.coords t 0).val < 8 ∧ I < 16 ∧ J < 16 ∧ ci < 512 := ⟨(grid16.coords t 0).isLt, h⟩
    rw [dif_pos hl, dif_pos hr]
    exact xb16_apply V c t _ _ _ _
  · have hl : ¬(0 < 1 ∧ I < 16 ∧ J < 16 ∧ ci < 512) := fun h' => h h'.2
    have hr : ¬((grid16.coords t 0).val < 8 ∧ I < 16 ∧ J < 16 ∧ ci < 512) := fun h' => h h'.2
    rw [dif_neg hl, dif_neg hr]

theorem arr3_wb16 (c : Dev nD) (t : Fin cfg16.N) (k ci co : ℕ) (hco : co < 128) :
    arr3 (wb16 V c t) k ci co = arr3 (W16 V c) k ci ((grid16.coords t 1).val * 128 + co) := by
  have h1 : (grid16.coords t 1).val < 4 := (grid16.coords t 1).isLt
  unfold arr3
  by_cases h : k < 9 ∧ ci < 512
  · have hl : k < 9 ∧ ci < 512 ∧ co < 128 := ⟨h.1, h.2, hco⟩
    have hr : k < 9 ∧ ci < 512 ∧ (grid16.coords t 1).val * 128 + co < 512 := ⟨h.1, h.2, by omega⟩
    rw [dif_pos hl, dif_pos hr]
    exact wb16_apply V c t ⟨k, h.1⟩ ⟨ci, h.2⟩ ⟨co, hco⟩
  · have hl : ¬(k < 9 ∧ ci < 512 ∧ co < 128) := fun h' => h ⟨h'.1, h'.2.1⟩
    have hr : ¬(k < 9 ∧ ci < 512 ∧ (grid16.coords t 1).val * 128 + co < 512) := fun h' => h ⟨h'.1, h'.2.1⟩
    rw [dif_neg hl, dif_neg hr]

theorem arr2_bb16 (c : Dev nD) (t : Fin cfg16.N) (u : Fin 1) (co : Fin 128) :
    bb16 V c t (ix2 u co) = arr2 (B16 V c) 0 ((grid16.coords t 1).val * 128 + co.val) := by
  have h1 : (grid16.coords t 1).val < 4 := (grid16.coords t 1).isLt
  have h2 := co.isLt
  have hc : 0 < 1 ∧ (grid16.coords t 1).val * 128 + co.val < 512 := ⟨by decide, by omega⟩
  rw [bb16_apply]
  unfold arr2
  rw [dif_pos hc]
  rfl

/-- One tap of the body at a point, for each of the three column offsets: the load at rows from `14 * (i 2).val + dy`, columns
    from dx, against weight slab k. -/
theorem tap16_1 (i : grid16.Coords) (x0 : Vec Ideal S1x16x16x512 .f32) (x1 : Vec Ideal S9x512x128 .f32) (dy : Fin 3) (k : ℕ)
    (inbw : ∀ a, (![k, 0, 0] : Fin 3 → ℕ) a + S1x512x128.size a ≤ S9x512x128.size a) (r : Fin 14) (j : Fin 14) (co : Fin 128) :
    tap (View.ld x0 (Rect.unit (s := S1x16x16x512) (k16_off1 i (BitVec.ofNat 32 dy.val)) S1x14x14x512.size (k16_off1_inb i dy)))
        (View.ld x1 (Rect.unit (s := S9x512x128) ![k, 0, 0] S1x512x128.size inbw)) r j co
      = ∑ ci ∈ Finset.range 512, arr4 x0 0 (14 * (i 2).val + dy.val + r.val) (0 + j.val) ci * arr3 x1 k ci co.val :=
  tap_ld x0 x1 _ _ _ _ r j co _ _ k (congrFun (k16_off1_eq i dy) 0) (congrFun (k16_off1_eq i dy) 1) (congrFun (k16_off1_eq i dy) 2)
    (congrFun (k16_off1_eq i dy) 3) rfl rfl rfl
theorem tap16_2 (i : grid16.Coords) (x0 : Vec Ideal S1x16x16x512 .f32) (x1 : Vec Ideal S9x512x128 .f32) (dy : Fin 3) (k : ℕ)
    (inbw : ∀ a, (![k, 0, 0] : Fin 3 → ℕ) a + S1x512x128.size a ≤ S9x512x128.size a) (r : Fin 14) (j : Fin 14) (co : Fin 128) :
    tap (View.ld x0 (Rect.unit (s := S1x16x16x512) (k16_off2 i (BitVec.ofNat 32 dy.val)) S1x14x14x512.size (k16_off2_inb i dy)))
        (View.ld x1 (Rect.unit (s := S9x512x128) ![k, 0, 0] S1x512x128.size inbw)) r j co
      = ∑ ci ∈ Finset.range 512, arr4 x0 0 (14 * (i 2).val + dy.val + r.val) (1 + j.val) ci * arr3 x1 k ci co.val :=
  tap_ld x0 x1 _ _ _ _ r j co _ _ k (congrFun (k16_off2_eq i dy) 0) (congrFun (k16_off2_eq i dy) 1) (congrFun (k16_off2_eq i dy) 2)
    (congrFun (k16_off2_eq i dy) 3) rfl rfl rfl
theorem tap16_3 (i : grid16.Coords) (x0 : Vec Ideal S1x16x16x512 .f32) (x1 : Vec Ideal S9x512x128 .f32) (dy : Fin 3) (k : ℕ)
    (inbw : ∀ a, (![k, 0, 0] : Fin 3 → ℕ) a + S1x512x128.size a ≤ S9x512x128.size a) (r : Fin 14) (j : Fin 14) (co : Fin 128) :
    tap (View.ld x0 (Rect.unit (s := S1x16x16x512) (k16_off3 i (BitVec.ofNat 32 dy.val)) S1x14x14x512.size (k16_off3_inb i dy)))
        (View.ld x1 (Rect.unit (s := S9x512x128) ![k, 0, 0] S1x512x128.size inbw)) r j co
      = ∑ ci ∈ Finset.range 512, arr4 x0 0 (14 * (i 2).val + dy.val + r.val) (2 + j.val) ci * arr3 x1 k ci co.val :=
  tap_ld x0 x1 _ _ _ _ r j co _ _ k (congrFun (k16_off3_eq i dy) 0) (congrFun (k16_off3_eq i dy) 1) (congrFun (k16_off3_eq i dy) 2)
    (congrFun (k16_off3_eq i dy) 3) rfl rfl rfl

/-- Tap k of the convolution at output pixel (i, j), channel co, of batch b. -/
abbrev tapf16 (c : Dev nD) (b i j co : ℕ) (k : ℕ) : EReal :=
  ∑ ci ∈ Finset.range 512, arr4 (X16 V c) b (i + k / 3) (j + k % 3) ci * arr3 (W16 V c) k ci co

/-- A tap read off the blocks at a point is the convolution's tap k = 3·dy + dx. -/
theorem tap_blocks16 (c : Dev nD) (t : Fin cfg16.N) (r : Fin 14) (j : Fin 14) (co : Fin 128) (k dy dx : ℕ) (hdy : k / 3 = dy) (hdx : k % 3 = dx) :
    (∑ ci ∈ Finset.range 512, arr4 (xb16 V c t) 0 (14 * (grid16.coords t 2).val + dy + r.val) (dx + j.val) ci * arr3 (wb16 V c t) k ci co.val)
      = tapf16 V c (grid16.coords t 0).val (14 * (grid16.coords t 2).val + r.val) j.val ((grid16.coords t 1).val * 128 + co.val) k := by
  unfold tapf16
  rw [hdy, hdx]
  have hR : 14 * (grid16.coords t 2).val + dy + r.val = 14 * (grid16.coords t 2).val + r.val + dy := by omega
  have hC : dx + j.val = j.val + dx := by omega
  refine Finset.sum_congr rfl fun ci _ => ?_
  rw [arr4_xb16, arr3_wb16 V c t k ci co.val co.isLt, hR, hC]

/-- THE BLOCK'S VALUE: after the body at a point, the output's staging buffer at pixel (r, j), channel co holds the
    convolution of the padded image at the point's batch, row and channel tile. -/
theorem blk_value16 (c : Dev nD) (t : Fin cfg16.N) (u : Fin 1) (r : Fin 14) (j : Fin 14) (co : Fin 128) :
    outsAt16 (F := Ideal) V c t (ix4 u r j co)
      = conv 512 (arr4 (X16 V c)) (arr3 (W16 V c)) (arr2 (B16 V c)) (grid16.coords t 0).val (14 * (grid16.coords t 2).val + r.val) j.val ((grid16.coords t 1).val * 128 + co.val) := by
  unfold outsAt16
  rw [out16_eq]
  unfold conv16_pay
  rw [pay16_apply]
  have T0 := tap16_1 (grid16.coords t) (xb16 V c t) (wb16 V c t) 0 0 inb_S9x512x128_S1x512x128_0_0_0 r j co
  have T1 := tap16_2 (grid16.coords t) (xb16 V c t) (wb16 V c t) 0 1 inb_S9x512x128_S1x512x128_1_0_0 r j co
  have T2 := tap16_3 (grid16.coords t) (xb16 V c t) (wb16 V c t) 0 2 inb_S9x512x128_S1x512x128_2_0_0 r j co
  have T3 := tap16_1 (grid16.coords t) (xb16 V c t) (wb16 V c t) 1 3 inb_S9x512x128_S1x512x128_3_0_0 r j co
  have T4 := tap16_2 (grid16.coords t) (xb16 V c t) (wb16 V c t) 1 4 inb_S9x512x128_S1x512x128_4_0_0 r j co
  have T5 := tap16_3 (grid16.coords t) (xb16 V c t) (wb16 V c t) 1 5 inb_S9x512x128_S1x512x128_5_0_0 r j co
  have T6 := tap16_1 (grid16.coords t) (xb16 V c t) (wb16 V c t) 2 6 inb_S9x512x128_S1x512x128_6_0_0 r j co
  have T7 := tap16_2 (grid16.coords t) (xb16 V c t) (wb16 V c t) 2 7 inb_S9x512x128_S1x512x128_7_0_0 r j co
  have T8 := tap16_3 (grid16.coords t) (xb16 V c t) (wb16 V c t) 2 8 inb_S9x512x128_S1x512x128_8_0_0 r j co
  refine (congrArg (fun s => max s 0) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) rfl
      (T0.trans (tap_blocks16 V c t r j co 0 0 0 rfl rfl)))
      (T1.trans (tap_blocks16 V c t r j co 1 0 1 rfl rfl)))
      (T2.trans (tap_blocks16 V c t r j co 2 0 2 rfl rfl)))
      (T3.trans (tap_blocks16 V c t r j co 3 1 0 rfl rfl)))
      (T4.trans (tap_blocks16 V c t r j co 4 1 1 rfl rfl)))
      (T5.trans (tap_blocks16 V c t r j co 5 1 2 rfl rfl)))
      (T6.trans (tap_blocks16 V c t r j co 6 2 0 rfl rfl)))
      (T7.trans (tap_blocks16 V c t r j co 7 2 1 rfl rfl)))
      (T8.trans (tap_blocks16 V c t r j co 8 2 2 rfl rfl)))
      (arr2_bb16 V c t 0 co))).trans ?_
  unfold conv
  rw [← chain9 (tapf16 V c (grid16.coords t 0).val (14 * (grid16.coords t 2).val + r.val) j.val ((grid16.coords t 1).val * 128 + co.val))]

/-- The convolution as an array of the output's extents. -/
def G16 (c : Dev nD) : Vec Ideal S8x14x14x512 .f32 := fun idx =>
  conv 512 (arr4 (X16 V c)) (arr3 (W16 V c)) (arr2 (B16 V c)) (idx 0).val (idx 1).val (idx 2).val (idx 3).val

/-- Every write-back writes the convolution's block: the block of point (b, ct, r) is row chunk r of batch b, channel tile ct. -/
theorem flushed_eq16 (c : Dev nD) (t : Fin cfg16.N) (hf : (cfg16.win 3).flush t = true) :
    (dat16 V c).flushed 3 t = ((cfg16.win 3).blk t).view.read (Elt Ideal) (G16 V c) := by
  show (cfg16.win 3).cut (grid16.coords t) ((dat16 V c).after 3 t) = _
  rw [after16_3]
  refine funext fun (y : S1x14x14x128.Idx) => ?_
  rw [View.read_apply]
  show outsAt16 V c t ((cfg16.win 3).xinj (grid16.coords t) y) = G16 V c (((cfg16.win 3).blk t).view.emb y)
  have hy : (cfg16.win 3).xinj (grid16.coords t) y = ix4 (n0 := 1) (n1 := 14) (n2 := 14) (n3 := 128) (y 0) (y 1) (y 2) (y 3) := funext fun (a : Fin 4) => by
    match a with
    | ⟨0, _⟩ => rfl
    | ⟨1, _⟩ => rfl
    | ⟨2, _⟩ => rfl
    | ⟨3, _⟩ => rfl
  rw [hy]
  refine (blk_value16 V c t (y 0) (y 1) (y 2) (y 3)).trans ?_
  unfold G16
  have hi := idx16_3 t
  have h0 : (y 0).val < 1 := (y 0).isLt
  refine congr (congr (congr (congrArg (conv 512 _ _ _) ?_) ?_) ?_) ?_
  · symm; show win16_3.index t 0 * 1 + 1 * (y 0).val = _; rw [hi]; show (grid16.coords t 0).val * 1 + 1 * (y 0).val = _; omega
  · symm; show win16_3.index t 1 * 14 + 1 * (y 1).val = _; rw [hi]; show (grid16.coords t 2).val * 14 + 1 * (y 1).val = _; omega
  · symm; show win16_3.index t 2 * 14 + 1 * (y 2).val = _; rw [hi]; show 0 * 14 + 1 * (y 2).val = _; omega
  · symm; show win16_3.index t 3 * 128 + 1 * (y 3).val = _; rw [hi]; show (grid16.coords t 1).val * 128 + 1 * (y 3).val = _; omega

/-- The blocks cover the output: pixel (b, i, j, co) lies in the block of point (b, co / 128, i / 14). -/
theorem cover16 (c : Dev nD) (idx : S8x14x14x512.Idx) :
    ∃ t : Fin cfg16.N, (cfg16.win 3).flush t = true ∧ idx ∈ ((cfg16.win 3).blk t).view.set := by
  have h0 : (idx 0).val < 8 := (idx 0).isLt
  have h1 : (idx 1).val < 14 := (idx 1).isLt
  have h2 : (idx 2).val < 14 := (idx 2).isLt
  have h3 : (idx 3).val < 512 := (idx 3).isLt
  have hN : cfg16.N = 32 := N_16
  have hlt : ((idx 0).val * 4 + (idx 3).val / 128) * 1 + (idx 1).val / 14 < cfg16.N := by rw [hN]; omega
  obtain ⟨t, ht⟩ : ∃ t : Fin cfg16.N, t.val = ((idx 0).val * 4 + (idx 3).val / 128) * 1 + (idx 1).val / 14 := ⟨⟨_, hlt⟩, rfl⟩
  refine ⟨t, flush16_3 t, ?_⟩
  have hset : ((cfg16.win 3).blk t).view.set = (win16_3.rect t).set := View.set_slice_whole main_v34 (win16_3.rect t)
  rw [hset, Rect.mem_set_unit]
  have hi := idx16_3 t
  have c0 : (grid16.coords t 0).val = (idx 0).val := by
    show t.val / 4 % 8 = _; rw [ht]; omega
  have c1 : (grid16.coords t 1).val = (idx 3).val / 128 := by
    show t.val / 1 % 4 = _; rw [ht]; omega
  have c2 : (grid16.coords t 2).val = (idx 1).val / 14 := by
    show t.val / 1 % 1 = _; rw [ht]; omega
  intro a
  match a with
  | ⟨0, _⟩ =>
    show win16_3.index t 0 * 1 ≤ (idx 0 : ℕ) ∧ (idx 0 : ℕ) < win16_3.index t 0 * 1 + 1
    rw [hi]; show (grid16.coords t 0).val * 1 ≤ (idx 0 : ℕ) ∧ (idx 0 : ℕ) < (grid16.coords t 0).val * 1 + 1
    rw [c0]; omega
  | ⟨1, _⟩ =>
    show win16_3.index t 1 * 14 ≤ (idx 1 : ℕ) ∧ (idx 1 : ℕ) < win16_3.index t 1 * 14 + 14
    rw [hi]; show (grid16.coords t 2).val * 14 ≤ (idx 1 : ℕ) ∧ (idx 1 : ℕ) < (grid16.coords t 2).val * 14 + 14
    rw [c2]; omega
  | ⟨2, _⟩ =>
    show win16_3.index t 2 * 14 ≤ (idx 2 : ℕ) ∧ (idx 2 : ℕ) < win16_3.index t 2 * 14 + 14
    rw [hi]; show 0 * 14 ≤ (idx 2 : ℕ) ∧ (idx 2 : ℕ) < 0 * 14 + 14
    omega
  | ⟨3, _⟩ =>
    show win16_3.index t 3 * 128 ≤ (idx 3 : ℕ) ∧ (idx 3 : ℕ) < win16_3.index t 3 * 128 + 128
    rw [hi]; show (grid16.coords t 1).val * 128 ≤ (idx 3 : ℕ) ∧ (idx 3 : ℕ) < (grid16.coords t 1).val * 128 + 128
    rw [c1]; omega

/-- So the output array after the region is the convolution. -/
theorem conv16_array (c : Dev nD) : (dat16 V c).arrAt 3 cfg16.N = G16 V c :=
  (dat16 V c).arrAt_eq_of_cover 3 (G16 V c) (flushed_eq16 V c) (cover16 c)

/-- THE REGION'S VALUE: the output array, as a total function, is the 3×3 convolution with bias and ReLU of the region's
    padded input against its weights. -/
theorem conv16_value (c : Dev nD) (b i j co : ℕ) (hb : b < 8) (hi : i < 14) (hj : j < 14) (hco : co < 512) :
    arr4 ((dat16 (F := Ideal) V c).arrAt 3 cfg16.N : Vec Ideal S8x14x14x512 .f32) b i j co
      = conv 512 (arr4 (X16 V c)) (arr3 (W16 V c)) (arr2 (B16 V c)) b i j co := by
  have hc : b < 8 ∧ i < 14 ∧ j < 14 ∧ co < 512 := ⟨hb, hi, hj, hco⟩
  rw [conv16_array]
  unfold arr4
  rw [dif_pos hc]
  rfl

end Cert.ReferenceIdeal.Val

end
-- ==== Proof.RPool2.lean ====
/-
  The value of region 2 of the reference's @main (a 2x2 pooling) at the ideal values. The region's input is the
  [8, 224, 112, 128] array in which each image row holds its 112 column PAIRS, a pair's two 64-channel pixels side by
  side on the 128 lanes; its grid has one point per image, whose input block is that image whole and whose output
  block is the [112, 112, 64] image of the result. The body views the block's 224 rows as 112 row pairs, takes the
  maximum over each pair, and then the maximum of the two lane halves. So element (b, i, j, ch) of the result is the
  maximum of the input at rows 2i, 2i + 1 of image b, column pair j, lanes ch and ch + 64.
-/
import proofs.«100114_g2000204297211070_pallasbulk_1265_19_alg».proof.Proof.Gen.ReferenceIdeal.Frame
import proofs.«100114_g2000204297211070_pallasbulk_1265_19_alg».proof.Proof.Spec
import Idealize.ShloMosaic.Lib.Pipeline.Value
import Idealize.ShloMosaic.Lib.ValueIdx
import Idealize.ShloMosaic.PureOps.Ideal.Laws

set_option maxRecDepth 16384

noncomputable section

namespace Cert.ReferenceIdeal.Val

open Cert.ReferenceIdeal Cert.ReferenceIdeal.Gen Cert.Spec
open Idealize.ShloMosaic Idealize.ShloMosaic.TcCoe Idealize.ShloMosaic.ValueIdx
open Idealize.SL.Sem
open Idealize.ShloMosaic.Pipeline (Dat)

/-! ## The body's arithmetic at an element -/

/-- The accumulator of a maximum, the pattern of minus infinity, is the least extended real. -/
private theorem pool_negInf : Ideal.ofBits .f32 0xFF800000#32 = (⊥ : EReal) := by simp [Ideal.ofBits, Ideal.ieee]

/-- The fold of the maximum from the least element over a two-element axis is the maximum of its two entries. -/
private theorem pool_fold_pair (b : EReal) (hb : b = ⊥) (f : Fin 2 → EReal) : (Finset.univ : Finset (Fin 2)).fold max b f = max (f 0) (f 1) := by
  subst hb
  apply le_antisymm
  · rw [Finset.fold_max_le]
    refine ⟨bot_le, fun x _ => ?_⟩
    fin_cases x
    · exact le_max_left _ _
    · exact le_max_right _ _
  · exact max_le ((Finset.le_fold_max _).2 (Or.inr ⟨0, Finset.mem_univ _, le_refl _⟩))
      ((Finset.le_fold_max _).2 (Or.inr ⟨1, Finset.mem_univ _, le_refl _⟩))

/-- The maximum over the pair axis of a [112, 2, 112, 128] vector, at (i, j, l): the larger of entries (i, 0, j, l) and
    (i, 1, j, l). -/
private theorem pool_rowmax (src : FVec Ideal S112x2x112x128 .f32) (h : S112x2x112x128.Reduces [1] S112x112x128) (hφ : FKind.Formats .f32)
    (hacc : (0xFF800000#32 : BitVec 32) = FKind.maximumf.neutral .f32 hφ) (i : Fin 112) (j : Fin 112) (l : Fin 128) :
    multiReduction .maximumf [1] S112x112x128 src 0xFF800000#32 h hφ hacc (ix3 i j l)
      = max (src (ix4 i (0 : Fin 2) j l)) (src (ix4 i (1 : Fin 2) j l)) := by
  refine (Ideal.multiReduction_maximumf_single src _ h hφ hacc (ix3 i j l)).trans ?_
  refine (pool_fold_pair _ pool_negInf (src ∘ h.lift (ix3 i j l))).trans ?_
  have e0 : h.lift (ix3 i j l) (0 : Fin 2) = ix4 i (0 : Fin 2) j l := by
    funext a; apply Fin.ext; match a with | ⟨0, _⟩ => rfl | ⟨1, _⟩ => rfl | ⟨2, _⟩ => rfl | ⟨3, _⟩ => rfl
  have e1 : h.lift (ix3 i j l) (1 : Fin 2) = ix4 i (1 : Fin 2) j l := by
    funext a; apply Fin.ext; match a with | ⟨0, _⟩ => rfl | ⟨1, _⟩ => rfl | ⟨2, _⟩ => rfl | ⟨3, _⟩ => rfl
  exact congrArg₂ max (congrArg src e0) (congrArg src e1)

/-- Dropping the unit axis in front. -/
private theorem pool_cast1 {α : Type} (x : S1x224x112x128.Idx → α) (h1 : S1x224x112x128.ShapeCasts S224x112x128) (r : Fin 224) (j : Fin 112) (l : Fin 128) :
    shapeCast S224x112x128 x h1 (ix3 r j l) = x (ix4 (0 : Fin 1) r j l) := by
  refine shapeCast_apply x h1 (ix3 r j l) (ix4 (0 : Fin 1) r j l) ?_
  rw [Shape.rowMajor_val_three, Shape.rowMajor_val_four]
  show ((0 * 224 + r.val) * 112 + j.val) * 128 + l.val = (r.val * 112 + j.val) * 128 + l.val
  omega

/-- The rows viewed as row pairs: entry (i, 0, j, l) of the view is row 2i, -/
private theorem pool_cast2_0 {α : Type} (y : S224x112x128.Idx → α) (h2 : S224x112x128.ShapeCasts S112x2x112x128) (i : Fin 112) (j : Fin 112) (l : Fin 128) :
    shapeCast S112x2x112x128 y h2 (ix4 i (0 : Fin 2) j l) = y (ix3 (⟨2 * i.val, by omega⟩ : Fin 224) j l) := by
  refine shapeCast_apply y h2 (ix4 i (0 : Fin 2) j l) (ix3 (⟨2 * i.val, by omega⟩ : Fin 224) j l) ?_
  rw [Shape.rowMajor_val_three, Shape.rowMajor_val_four]
  show ((2 * i.val) * 112 + j.val) * 128 + l.val = ((i.val * 2 + 0) * 112 + j.val) * 128 + l.val
  omega

/-- and entry (i, 1, j, l) is row 2i + 1. -/
private theorem pool_cast2_1 {α : Type} (y : S224x112x128.Idx → α) (h2 : S224x112x128.ShapeCasts S112x2x112x128) (i : Fin 112) (j : Fin 112) (l : Fin 128) :
    shapeCast S112x2x112x128 y h2 (ix4 i (1 : Fin 2) j l) = y (ix3 (⟨2 * i.val + 1, by omega⟩ : Fin 224) j l) := by
  refine shapeCast_apply y h2 (ix4 i (1 : Fin 2) j l) (ix3 (⟨2 * i.val + 1, by omega⟩ : Fin 224) j l) ?_
  rw [Shape.rowMajor_val_three, Shape.rowMajor_val_four]
  show ((2 * i.val + 1) * 112 + j.val) * 128 + l.val = ((i.val * 2 + 1) * 112 + j.val) * 128 + l.val
  omega

/-- The unit axis put back in front. -/
private theorem pool_cast3 {α : Type} (z : S112x112x64.Idx → α) (h6 : S112x112x64.ShapeCasts S1x112x112x64) (i : Fin 112) (j : Fin 112) (ch : Fin 64) :
    shapeCast S1x112x112x64 z h6 (ix4 (0 : Fin 1) i j ch) = z (ix3 i j ch) := by
  refine shapeCast_apply z h6 (ix4 (0 : Fin 1) i j ch) (ix3 i j ch) ?_
  rw [Shape.rowMajor_val_three, Shape.rowMajor_val_four]
  show (i.val * 112 + j.val) * 64 + ch.val = ((0 * 112 + i.val) * 112 + j.val) * 64 + ch.val
  omega

/-- The low lane half. -/
private theorem pool_sliceLo {α : Type} (v : S112x112x128.Idx → α) (h4 : S112x112x128.Slices ![0, 0, 0] S112x112x64) (i : Fin 112) (j : Fin 112) (ch : Fin 64) :
    extractStridedSlice S112x112x64 ![0, 0, 0] v h4 (ix3 i j ch) = v (ix3 i j (⟨ch.val, by omega⟩ : Fin 128)) := by
  refine extractStridedSlice_apply _ v h4 (ix3 i j ch) (ix3 i j (⟨ch.val, by omega⟩ : Fin 128)) fun a => ?_
  match a with
  | ⟨0, _⟩ => show i.val = 0 + i.val; omega
  | ⟨1, _⟩ => show j.val = 0 + j.val; omega
  | ⟨2, _⟩ => show ch.val = 0 + ch.val; omega

/-- The high lane half. -/
private theorem pool_sliceHi {α : Type} (v : S112x112x128.Idx → α) (h5 : S112x112x128.Slices ![0, 0, 64] S112x112x64) (i : Fin 112) (j : Fin 112) (ch : Fin 64) :
    extractStridedSlice S112x112x64 ![0, 0, 64] v h5 (ix3 i j ch) = v (ix3 i j (⟨ch.val + 64, by omega⟩ : Fin 128)) := by
  refine extractStridedSlice_apply _ v h5 (ix3 i j ch) (ix3 i j (⟨ch.val + 64, by omega⟩ : Fin 128)) fun a => ?_
  match a with
  | ⟨0, _⟩ => show i.val = 0 + i.val; omega
  | ⟨1, _⟩ => show j.val = 0 + j.val; omega
  | ⟨2, _⟩ => show ch.val + 64 = 64 + ch.val; omega

/-- The pooling body's arithmetic at an output element (i, j, ch): the block's rows viewed as row pairs, the maximum over
    each pair, then the maximum of lanes ch and ch + 64; in the block's own coordinates, rows 2i and 2i + 1. -/
private theorem pool_pay_arith (x : FVec Ideal S1x224x112x128 .f32)
    (h1 : S1x224x112x128.ShapeCasts S224x112x128) (h2 : S224x112x128.ShapeCasts S112x2x112x128)
    (h3 : S112x2x112x128.Reduces [1] S112x112x128) (hφ : FKind.Formats .f32)
    (hacc : (0xFF800000#32 : BitVec 32) = FKind.maximumf.neutral .f32 hφ)
    (h4 : S112x112x128.Slices ![0, 0, 0] S112x112x64) (h5 : S112x112x128.Slices ![0, 0, 64] S112x112x64)
    (h6 : S112x112x64.ShapeCasts S1x112x112x64) (i : Fin 112) (j : Fin 112) (ch : Fin 64) :
    shapeCast S1x112x112x64
      (maximumf
        (extractStridedSlice S112x112x64 ![0, 0, 0]
          (multiReduction .maximumf [1] S112x112x128 (shapeCast S112x2x112x128 (shapeCast S224x112x128 x h1) h2) 0xFF800000#32 h3 hφ hacc) h4)
        (extractStridedSlice S112x112x64 ![0, 0, 64]
          (multiReduction .maximumf [1] S112x112x128 (shapeCast S112x2x112x128 (shapeCast S224x112x128 x h1) h2) 0xFF800000#32 h3 hφ hacc) h5))
      h6 (ix4 (0 : Fin 1) i j ch)
    = max (max (x (ix4 (0 : Fin 1) (⟨2 * i.val, by omega⟩ : Fin 224) j (⟨ch.val, by omega⟩ : Fin 128)))
               (x (ix4 (0 : Fin 1) (⟨2 * i.val + 1, by omega⟩ : Fin 224) j (⟨ch.val, by omega⟩ : Fin 128))))
          (max (x (ix4 (0 : Fin 1) (⟨2 * i.val, by omega⟩ : Fin 224) j (⟨ch.val + 64, by omega⟩ : Fin 128)))
               (x (ix4 (0 : Fin 1) (⟨2 * i.val + 1, by omega⟩ : Fin 224) j (⟨ch.val + 64, by omega⟩ : Fin 128)))) := by
  have hrow : ∀ l : Fin 128,
      multiReduction .maximumf [1] S112x112x128 (shapeCast S112x2x112x128 (shapeCast S224x112x128 x h1) h2) 0xFF800000#32 h3 hφ hacc (ix3 i j l)
        = max (x (ix4 (0 : Fin 1) (⟨2 * i.val, by omega⟩ : Fin 224) j l)) (x (ix4 (0 : Fin 1) (⟨2 * i.val + 1, by omega⟩ : Fin 224) j l)) := fun l =>
    (pool_rowmax _ h3 hφ hacc i j l).trans
      (congrArg₂ max ((pool_cast2_0 _ h2 i j l).trans (pool_cast1 x h1 _ j l)) ((pool_cast2_1 _ h2 i j l).trans (pool_cast1 x h1 _ j l)))
  refine (pool_cast3 _ h6 i j ch).trans ?_
  refine (maximumf_apply _ _ _).trans ?_
  exact congrArg₂ max ((pool_sliceLo _ h4 i j ch).trans (hrow _)) ((pool_sliceHi _ h5 i j ch).trans (hrow _))

/-- The generated payload of the body's one store, read at an output element. -/
private theorem pool_pay_apply (x : Vec Ideal S1x224x112x128 .f32) (i : Fin 112) (j : Fin 112) (ch : Fin 64) :
    k2_pay1 (F := Ideal) x (ix4 (0 : Fin 1) i j ch)
    = max (max (x (ix4 (0 : Fin 1) (⟨2 * i.val, by omega⟩ : Fin 224) j (⟨ch.val, by omega⟩ : Fin 128)))
               (x (ix4 (0 : Fin 1) (⟨2 * i.val + 1, by omega⟩ : Fin 224) j (⟨ch.val, by omega⟩ : Fin 128))))
          (max (x (ix4 (0 : Fin 1) (⟨2 * i.val, by omega⟩ : Fin 224) j (⟨ch.val + 64, by omega⟩ : Fin 128)))
               (x (ix4 (0 : Fin 1) (⟨2 * i.val + 1, by omega⟩ : Fin 224) j (⟨ch.val + 64, by omega⟩ : Fin 128)))) := by
  unfold k2_pay1
  exact pool_pay_arith x _ _ _ _ _ _ _ _ i j ch

/-! ## The region's blocks and its result -/

variable (V : (c : Dev nD) → (b : Ref sig .tc) → Buf (Elt Ideal) ((c : Thread nD τ).loc b))

/-- The region's input array, at its literal type. -/
private abbrev poolX (c : Dev nD) : Vec Ideal S8x224x112x128 .f32 := V c (Pipeline.arrRef spec2 0)

/-- What the region leaves at element (b, i, j, ch) of its result, over natural coordinates: the maximum of the input at
    rows 2i and 2i + 1 of image b, column pair j, lanes ch and ch + 64. -/
private def poolP (c : Dev nD) (b i j ch : ℕ) : EReal :=
  max (max (arr4 (poolX V c) b (2 * i) j ch) (arr4 (poolX V c) b (2 * i + 1) j ch))
      (max (arr4 (poolX V c) b (2 * i) j (ch + 64)) (arr4 (poolX V c) b (2 * i + 1) j (ch + 64)))

/-- The result array: `poolP` at each index's coordinates. -/
private def poolG (c : Dev nD) (y : S8x112x112x64.Idx) : EReal := poolP V c (y 0).val (y 1).val (y 2).val (y 3).val

/-- Both windows' block index at every point: the point's number on the image axis, zero on the other three. -/
private theorem pool_geom : ∀ t : Fin grid2.N,
    (win2_0.index t 0 = t.val ∧ win2_0.index t 1 = 0 ∧ win2_0.index t 2 = 0 ∧ win2_0.index t 3 = 0)
    ∧ (win2_1.index t 0 = t.val ∧ win2_1.index t 1 = 0 ∧ win2_1.index t 2 = 0 ∧ win2_1.index t 3 = 0) := by
  decide +kernel

private theorem pool_hz : (![0, 0, 0, 0] : Fin 4 → Nat) = fun _ => 0 := funext fun a => by fin_cases a <;> rfl

/-- Two functions of a rank-4 index agree when they agree at every tuple of coordinates. -/
private theorem pool_ext4 {n0 n1 n2 n3 : ℕ} {α : Type} (f g : (⟨4, ![n0, n1, n2, n3]⟩ : Shape).Idx → α)
    (h : ∀ a b c d, f (ix4 a b c d) = g (ix4 a b c d)) : f = g :=
  funext fun y => (congrArg f (eq_ix4 y)).trans ((h _ _ _ _).trans (congrArg g (eq_ix4 y)).symm)

/-- The input block at point `t` is image `t` of the input array. -/
private theorem pool_iblk_apply (c : Dev nD) (t : Fin cfg2.N) (r : Fin 224) (j : Fin 112) (l : Fin 128) :
    (iblk2 (F := Ideal) V c 0 t) (ix4 (0 : Fin 1) r j l) = arr4 (poolX V c) t.val r.val j.val l.val := by
  obtain ⟨⟨i0, i1, i2, i3⟩, -⟩ := pool_geom t
  have ht : t.val < 8 := lt_of_lt_of_eq t.isLt N_2
  refine Eq.trans ?_ (arr4_apply (poolX V c) ⟨t.val, ht⟩ r j l).symm
  unfold iblk2
  rw [View.read_apply]
  show V c main_v5 _ = V c main_v5 _
  congr 1
  funext a; apply Fin.ext
  match a with
  | ⟨0, _⟩ => show win2_0.index t 0 * 1 + 1 * 0 = t.val; rw [i0]; omega
  | ⟨1, _⟩ => show win2_0.index t 1 * 224 + 1 * r.val = r.val; rw [i1]; omega
  | ⟨2, _⟩ => show win2_0.index t 2 * 112 + 1 * j.val = j.val; rw [i2]; omega
  | ⟨3, _⟩ => show win2_0.index t 3 * 128 + 1 * l.val = l.val; rw [i3]; omega

/-- The body loads its input block whole and stores its payload whole: the output's staging buffer holds the payload of
    the block. -/
private theorem pool_out_eq (x0 : Vec Ideal S1x224x112x128 .f32) : out2_1 x0 = k2_pay1 x0 := by
  unfold out2_1
  rw [View.canon_unit_zero (S := S1x112x112x64) pool_hz, View.ld_unit_zero (S := S1x224x112x128) pool_hz]

/-- What the write-back at point `t` writes, at element (i, j, ch) of the block: `poolP` at image `t`. -/
private theorem pool_flushed_apply (c : Dev nD) (t : Fin cfg2.N) (i : Fin 112) (j : Fin 112) (ch : Fin 64) :
    (dat2 (F := Ideal) V c).flushed 1 t (ix4 (0 : Fin 1) i j ch) = poolP V c t.val i.val j.val ch.val := by
  show (dat2 (F := Ideal) V c).after 1 t (ix4 (0 : Fin 1) i j ch) = _
  rw [after2_1, pool_out_eq]
  refine (pool_pay_apply (iblk2 (F := Ideal) V c 0 t) i j ch).trans ?_
  unfold poolP
  exact congrArg₂ max (congrArg₂ max (pool_iblk_apply V c t _ j _) (pool_iblk_apply V c t _ j _))
    (congrArg₂ max (pool_iblk_apply V c t _ j _) (pool_iblk_apply V c t _ j _))

/-- Every point writes back its block of `poolG`: block `t` of the result array is image `t`. -/
private theorem pool_flushed_eq (c : Dev nD) (t : Fin cfg2.N) (hf : (cfg2.win 1).flush t = true) :
    (dat2 (F := Ideal) V c).flushed 1 t = ((cfg2.win 1).blk t).view.read (Elt Ideal) (poolG V c) := by
  obtain ⟨-, i0, i1, i2, i3⟩ := pool_geom t
  refine pool_ext4 (n0 := 1) (n1 := 112) (n2 := 112) (n3 := 64) _ _ fun y0 i j ch => ?_
  obtain rfl : y0 = 0 := Subsingleton.elim _ _
  refine (pool_flushed_apply V c t i j ch).trans ?_
  rw [View.read_apply]
  have ht : t.val < 8 := lt_of_lt_of_eq t.isLt N_2
  -- element (0, i, j, ch) of block `t` sits at (t, i, j, ch) in the array
  have ey : ((cfg2.win 1).blk t).view.emb (ix4 (0 : Fin 1) i j ch) = ix4 (⟨t.val, ht⟩ : Fin 8) i j ch := by
    funext a; apply Fin.ext
    match a with
    | ⟨0, _⟩ => show win2_1.index t 0 * 1 + 1 * 0 = t.val; rw [i0]; omega
    | ⟨1, _⟩ => show win2_1.index t 1 * 112 + 1 * i.val = i.val; rw [i1]; omega
    | ⟨2, _⟩ => show win2_1.index t 2 * 112 + 1 * j.val = j.val; rw [i2]; omega
    | ⟨3, _⟩ => show win2_1.index t 3 * 64 + 1 * ch.val = ch.val; rw [i3]; omega
  exact (show poolP V c t.val i.val j.val ch.val = poolG V c (ix4 (⟨t.val, ht⟩ : Fin 8) i j ch) from rfl).trans
    (congrArg (poolG V c) ey.symm)

/-- So the result array ends at `poolG`: the eight blocks, one per image, cover it. -/
private theorem pool_final (c : Dev nD) : (dat2 (F := Ideal) V c).arrAt 1 cfg2.N = poolG V c :=
  (dat2 (F := Ideal) V c).arrAt_eq_of_cover 1 (poolG V c) (pool_flushed_eq V c) fun y => by
    have h0 : (y 0 : Nat) < 8 := (y 0).isLt
    have h1 : (y 1 : Nat) < 112 := (y 1).isLt
    have h2 : (y 2 : Nat) < 112 := (y 2).isLt
    have h3 : (y 3 : Nat) < 64 := (y 3).isLt
    obtain ⟨t, ht⟩ : ∃ t : Fin cfg2.N, t.val = (y 0 : Nat) := ⟨⟨(y 0 : Nat), lt_of_lt_of_eq h0 N_2.symm⟩, rfl⟩
    obtain ⟨-, i0, i1, i2, i3⟩ := pool_geom t
    refine ⟨t, flush2_1 t, ?_⟩
    show y ∈ ((View.whole main_v6).slice (win2_1.rect t)).set
    rw [View.set_slice_whole, Rect.mem_set_unit]
    intro a
    match a with
    | ⟨0, _⟩ => show win2_1.index t 0 * 1 ≤ (y 0 : Nat) ∧ (y 0 : Nat) < win2_1.index t 0 * 1 + 1; rw [i0]; omega
    | ⟨1, _⟩ => show win2_1.index t 1 * 112 ≤ (y 1 : Nat) ∧ (y 1 : Nat) < win2_1.index t 1 * 112 + 112; rw [i1]; omega
    | ⟨2, _⟩ => show win2_1.index t 2 * 112 ≤ (y 2 : Nat) ∧ (y 2 : Nat) < win2_1.index t 2 * 112 + 112; rw [i2]; omega
    | ⟨3, _⟩ => show win2_1.index t 3 * 64 ≤ (y 3 : Nat) ∧ (y 3 : Nat) < win2_1.index t 3 * 64 + 64; rw [i3]; omega

/-- THE VALUE OF REGION 2: element (b, i, j, ch) of the array the region writes is the maximum of its input array at
    rows 2i and 2i + 1 of image b, column pair j, lanes ch and ch + 64 — the row pair first, then the two lane halves. -/
theorem pool2_value (c : Dev nD) (b i j ch : ℕ) (hb : b < 8) (hi : i < 112) (hj : j < 112) (hch : ch < 64) :
    arr4 ((dat2 (F := Ideal) V c).arrAt 1 cfg2.N : Vec Ideal S8x112x112x64 .f32) b i j ch
      = max (max (arr4 (V c (Pipeline.arrRef spec2 0) : Vec Ideal S8x224x112x128 .f32) b (2 * i) j ch)
                 (arr4 (V c (Pipeline.arrRef spec2 0) : Vec Ideal S8x224x112x128 .f32) b (2 * i + 1) j ch))
            (max (arr4 (V c (Pipeline.arrRef spec2 0) : Vec Ideal S8x224x112x128 .f32) b (2 * i) j (ch + 64))
                 (arr4 (V c (Pipeline.arrRef spec2 0) : Vec Ideal S8x224x112x128 .f32) b (2 * i + 1) j (ch + 64))) := by
  rw [pool_final V c]
  exact arr4_apply (poolG V c) ⟨b, hb⟩ ⟨i, hi⟩ ⟨j, hj⟩ ⟨ch, hch⟩

end Cert.ReferenceIdeal.Val

end
-- ==== Proof.RPool5.lean ====
/-
  The value of region 5 of the reference's @main (a 2x2 pooling) at the ideal values. The region's input is the
  [8, 112, 56, 256] array in which each image row holds its 56 column PAIRS, a pair's two 128-channel pixels side by
  side on the 256 lanes; its grid has one point per image, whose input block is that image whole and whose output
  block is the [56, 56, 128] image of the result. The body views the block's 112 rows as 56 row pairs, takes the
  maximum over each pair, and then the maximum of the two lane halves. So element (b, i, j, ch) of the result is the
  maximum of the input at rows 2i, 2i + 1 of image b, column pair j, lanes ch and ch + 128.
-/
import proofs.«100114_g2000204297211070_pallasbulk_1265_19_alg».proof.Proof.Gen.ReferenceIdeal.Frame
import proofs.«100114_g2000204297211070_pallasbulk_1265_19_alg».proof.Proof.Spec
import Idealize.ShloMosaic.Lib.Pipeline.Value
import Idealize.ShloMosaic.Lib.ValueIdx
import Idealize.ShloMosaic.PureOps.Ideal.Laws

set_option maxRecDepth 16384

noncomputable section

namespace Cert.ReferenceIdeal.Val

open Cert.ReferenceIdeal Cert.ReferenceIdeal.Gen Cert.Spec
open Idealize.ShloMosaic Idealize.ShloMosaic.TcCoe Idealize.ShloMosaic.ValueIdx
open Idealize.SL.Sem
open Idealize.ShloMosaic.Pipeline (Dat)

/-! ## The body's arithmetic at an element -/

/-- The accumulator of a maximum, the pattern of minus infinity, is the least extended real. -/
private theorem pool_negInf : Ideal.ofBits .f32 0xFF800000#32 = (⊥ : EReal) := by simp [Ideal.ofBits, Ideal.ieee]

/-- The fold of the maximum from the least element over a two-element axis is the maximum of its two entries. -/
private theorem pool_fold_pair (b : EReal) (hb : b = ⊥) (f : Fin 2 → EReal) : (Finset.univ : Finset (Fin 2)).fold max b f = max (f 0) (f 1) := by
  subst hb
  apply le_antisymm
  · rw [Finset.fold_max_le]
    refine ⟨bot_le, fun x _ => ?_⟩
    fin_cases x
    · exact le_max_left _ _
    · exact le_max_right _ _
  · exact max_le ((Finset.le_fold_max _).2 (Or.inr ⟨0, Finset.mem_univ _, le_refl _⟩))
      ((Finset.le_fold_max _).2 (Or.inr ⟨1, Finset.mem_univ _, le_refl _⟩))

/-- The maximum over the pair axis of a [56, 2, 56, 256] vector, at (i, j, l): the larger of entries (i, 0, j, l) and
    (i, 1, j, l). -/
private theorem pool_rowmax (src : FVec Ideal S56x2x56x256 .f32) (h : S56x2x56x256.Reduces [1] S56x56x256) (hφ : FKind.Formats .f32)
    (hacc : (0xFF800000#32 : BitVec 32) = FKind.maximumf.neutral .f32 hφ) (i : Fin 56) (j : Fin 56) (l : Fin 256) :
    multiReduction .maximumf [1] S56x56x256 src 0xFF800000#32 h hφ hacc (ix3 i j l)
      = max (src (ix4 i (0 : Fin 2) j l)) (src (ix4 i (1 : Fin 2) j l)) := by
  refine (Ideal.multiReduction_maximumf_single src _ h hφ hacc (ix3 i j l)).trans ?_
  refine (pool_fold_pair _ pool_negInf (src ∘ h.lift (ix3 i j l))).trans ?_
  have e0 : h.lift (ix3 i j l) (0 : Fin 2) = ix4 i (0 : Fin 2) j l := by
    funext a; apply Fin.ext; match a with | ⟨0, _⟩ => rfl | ⟨1, _⟩ => rfl | ⟨2, _⟩ => rfl | ⟨3, _⟩ => rfl
  have e1 : h.lift (ix3 i j l) (1 : Fin 2) = ix4 i (1 : Fin 2) j l := by
    funext a; apply Fin.ext; match a with | ⟨0, _⟩ => rfl | ⟨1, _⟩ => rfl | ⟨2, _⟩ => rfl | ⟨3, _⟩ => rfl
  exact congrArg₂ max (congrArg src e0) (congrArg src e1)

/-- Dropping the unit axis in front. -/
private theorem pool_cast1 {α : Type} (x : S1x112x56x256.Idx → α) (h1 : S1x112x56x256.ShapeCasts S112x56x256) (r : Fin 112) (j : Fin 56) (l : Fin 256) :
    shapeCast S112x56x256 x h1 (ix3 r j l) = x (ix4 (0 : Fin 1) r j l) := by
  refine shapeCast_apply x h1 (ix3 r j l) (ix4 (0 : Fin 1) r j l) ?_
  rw [Shape.rowMajor_val_three, Shape.rowMajor_val_four]
  show ((0 * 112 + r.val) * 56 + j.val) * 256 + l.val = (r.val * 56 + j.val) * 256 + l.val
  omega

/-- The rows viewed as row pairs: entry (i, 0, j, l) of the view is row 2i, -/
private theorem pool_cast2_0 {α : Type} (y : S112x56x256.Idx → α) (h2 : S112x56x256.ShapeCasts S56x2x56x256) (i : Fin 56) (j : Fin 56) (l : Fin 256) :
    shapeCast S56x2x56x256 y h2 (ix4 i (0 : Fin 2) j l) = y (ix3 (⟨2 * i.val, by omega⟩ : Fin 112) j l) := by
  refine shapeCast_apply y h2 (ix4 i (0 : Fin 2) j l) (ix3 (⟨2 * i.val, by omega⟩ : Fin 112) j l) ?_
  rw [Shape.rowMajor_val_three, Shape.rowMajor_val_four]
  show ((2 * i.val) * 56 + j.val) * 256 + l.val = ((i.val * 2 + 0) * 56 + j.val) * 256 + l.val
  omega

/-- and entry (i, 1, j, l) is row 2i + 1. -/
private theorem pool_cast2_1 {α : Type} (y : S112x56x256.Idx → α) (h2 : S112x56x256.ShapeCasts S56x2x56x256) (i : Fin 56) (j : Fin 56) (l : Fin 256) :
    shapeCast S56x2x56x256 y h2 (ix4 i (1 : Fin 2) j l) = y (ix3 (⟨2 * i.val + 1, by omega⟩ : Fin 112) j l) := by
  refine shapeCast_apply y h2 (ix4 i (1 : Fin 2) j l) (ix3 (⟨2 * i.val + 1, by omega⟩ : Fin 112) j l) ?_
  rw [Shape.rowMajor_val_three, Shape.rowMajor_val_four]
  show ((2 * i.val + 1) * 56 + j.val) * 256 + l.val = ((i.val * 2 + 1) * 56 + j.val) * 256 + l.val
  omega

/-- The unit axis put back in front. -/
private theorem pool_cast3 {α : Type} (z : S56x56x128.Idx → α) (h6 : S56x56x128.ShapeCasts S1x56x56x128) (i : Fin 56) (j : Fin 56) (ch : Fin 128) :
    shapeCast S1x56x56x128 z h6 (ix4 (0 : Fin 1) i j ch) = z (ix3 i j ch) := by
  refine shapeCast_apply z h6 (ix4 (0 : Fin 1) i j ch) (ix3 i j ch) ?_
  rw [Shape.rowMajor_val_three, Shape.rowMajor_val_four]
  show (i.val * 56 + j.val) * 128 + ch.val = ((0 * 56 + i.val) * 56 + j.val) * 128 + ch.val
  omega

/-- The low lane half. -/
private theorem pool_sliceLo {α : Type} (v : S56x56x256.Idx → α) (h4 : S56x56x256.Slices ![0, 0, 0] S56x56x128) (i : Fin 56) (j : Fin 56) (ch : Fin 128) :
    extractStridedSlice S56x56x128 ![0, 0, 0] v h4 (ix3 i j ch) = v (ix3 i j (⟨ch.val, by omega⟩ : Fin 256)) := by
  refine extractStridedSlice_apply _ v h4 (ix3 i j ch) (ix3 i j (⟨ch.val, by omega⟩ : Fin 256)) fun a => ?_
  match a with
  | ⟨0, _⟩ => show i.val = 0 + i.val; omega
  | ⟨1, _⟩ => show j.val = 0 + j.val; omega
  | ⟨2, _⟩ => show ch.val = 0 + ch.val; omega

/-- The high lane half. -/
private theorem pool_sliceHi {α : Type} (v : S56x56x256.Idx → α) (h5 : S56x56x256.Slices ![0, 0, 128] S56x56x128) (i : Fin 56) (j : Fin 56) (ch : Fin 128) :
    extractStridedSlice S56x56x128 ![0, 0, 128] v h5 (ix3 i j ch) = v (ix3 i j (⟨ch.val + 128, by omega⟩ : Fin 256)) := by
  refine extractStridedSlice_apply _ v h5 (ix3 i j ch) (ix3 i j (⟨ch.val + 128, by omega⟩ : Fin 256)) fun a => ?_
  match a with
  | ⟨0, _⟩ => show i.val = 0 + i.val; omega
  | ⟨1, _⟩ => show j.val = 0 + j.val; omega
  | ⟨2, _⟩ => show ch.val + 128 = 128 + ch.val; omega

/-- The pooling body's arithmetic at an output element (i, j, ch): the block's rows viewed as row pairs, the maximum over
    each pair, then the maximum of lanes ch and ch + 128; in the block's own coordinates, rows 2i and 2i + 1. -/
private theorem pool_pay_arith (x : FVec Ideal S1x112x56x256 .f32)
    (h1 : S1x112x56x256.ShapeCasts S112x56x256) (h2 : S112x56x256.ShapeCasts S56x2x56x256)
    (h3 : S56x2x56x256.Reduces [1] S56x56x256) (hφ : FKind.Formats .f32)
    (hacc : (0xFF800000#32 : BitVec 32) = FKind.maximumf.neutral .f32 hφ)
    (h4 : S56x56x256.Slices ![0, 0, 0] S56x56x128) (h5 : S56x56x256.Slices ![0, 0, 128] S56x56x128)
    (h6 : S56x56x128.ShapeCasts S1x56x56x128) (i : Fin 56) (j : Fin 56) (ch : Fin 128) :
    shapeCast S1x56x56x128
      (maximumf
        (extractStridedSlice S56x56x128 ![0, 0, 0]
          (multiReduction .maximumf [1] S56x56x256 (shapeCast S56x2x56x256 (shapeCast S112x56x256 x h1) h2) 0xFF800000#32 h3 hφ hacc) h4)
        (extractStridedSlice S56x56x128 ![0, 0, 128]
          (multiReduction .maximumf [1] S56x56x256 (shapeCast S56x2x56x256 (shapeCast S112x56x256 x h1) h2) 0xFF800000#32 h3 hφ hacc) h5))
      h6 (ix4 (0 : Fin 1) i j ch)
    = max (max (x (ix4 (0 : Fin 1) (⟨2 * i.val, by omega⟩ : Fin 112) j (⟨ch.val, by omega⟩ : Fin 256)))
               (x (ix4 (0 : Fin 1) (⟨2 * i.val + 1, by omega⟩ : Fin 112) j (⟨ch.val, by omega⟩ : Fin 256))))
          (max (x (ix4 (0 : Fin 1) (⟨2 * i.val, by omega⟩ : Fin 112) j (⟨ch.val + 128, by omega⟩ : Fin 256)))
               (x (ix4 (0 : Fin 1) (⟨2 * i.val + 1, by omega⟩ : Fin 112) j (⟨ch.val + 128, by omega⟩ : Fin 256)))) := by
  have hrow : ∀ l : Fin 256,
      multiReduction .maximumf [1] S56x56x256 (shapeCast S56x2x56x256 (shapeCast S112x56x256 x h1) h2) 0xFF800000#32 h3 hφ hacc (ix3 i j l)
        = max (x (ix4 (0 : Fin 1) (⟨2 * i.val, by omega⟩ : Fin 112) j l)) (x (ix4 (0 : Fin 1) (⟨2 * i.val + 1, by omega⟩ : Fin 112) j l)) := fun l =>
    (pool_rowmax _ h3 hφ hacc i j l).trans
      (congrArg₂ max ((pool_cast2_0 _ h2 i j l).trans (pool_cast1 x h1 _ j l)) ((pool_cast2_1 _ h2 i j l).trans (pool_cast1 x h1 _ j l)))
  refine (pool_cast3 _ h6 i j ch).trans ?_
  refine (maximumf_apply _ _ _).trans ?_
  exact congrArg₂ max ((pool_sliceLo _ h4 i j ch).trans (hrow _)) ((pool_sliceHi _ h5 i j ch).trans (hrow _))

/-- The generated payload of the body's one store, read at an output element. -/
private theorem pool_pay_apply (x : Vec Ideal S1x112x56x256 .f32) (i : Fin 56) (j : Fin 56) (ch : Fin 128) :
    k5_pay1 (F := Ideal) x (ix4 (0 : Fin 1) i j ch)
    = max (max (x (ix4 (0 : Fin 1) (⟨2 * i.val, by omega⟩ : Fin 112) j (⟨ch.val, by omega⟩ : Fin 256)))
               (x (ix4 (0 : Fin 1) (⟨2 * i.val + 1, by omega⟩ : Fin 112) j (⟨ch.val, by omega⟩ : Fin 256))))
          (max (x (ix4 (0 : Fin 1) (⟨2 * i.val, by omega⟩ : Fin 112) j (⟨ch.val + 128, by omega⟩ : Fin 256)))
               (x (ix4 (0 : Fin 1) (⟨2 * i.val + 1, by omega⟩ : Fin 112) j (⟨ch.val + 128, by omega⟩ : Fin 256)))) := by
  unfold k5_pay1
  exact pool_pay_arith x _ _ _ _ _ _ _ _ i j ch

/-! ## The region's blocks and its result -/

variable (V : (c : Dev nD) → (b : Ref sig .tc) → Buf (Elt Ideal) ((c : Thread nD τ).loc b))

/-- The region's input array, at its literal type. -/
private abbrev poolX (c : Dev nD) : Vec Ideal S8x112x56x256 .f32 := V c (Pipeline.arrRef spec5 0)

/-- What the region leaves at element (b, i, j, ch) of its result, over natural coordinates: the maximum of the input at
    rows 2i and 2i + 1 of image b, column pair j, lanes ch and ch + 128. -/
private def poolP (c : Dev nD) (b i j ch : ℕ) : EReal :=
  max (max (arr4 (poolX V c) b (2 * i) j ch) (arr4 (poolX V c) b (2 * i + 1) j ch))
      (max (arr4 (poolX V c) b (2 * i) j (ch + 128)) (arr4 (poolX V c) b (2 * i + 1) j (ch + 128)))

/-- The result array: `poolP` at each index's coordinates. -/
private def poolG (c : Dev nD) (y : S8x56x56x128.Idx) : EReal := poolP V c (y 0).val (y 1).val (y 2).val (y 3).val

/-- Both windows' block index at every point: the point's number on the image axis, zero on the other three. -/
private theorem pool_geom : ∀ t : Fin grid5.N,
    (win5_0.index t 0 = t.val ∧ win5_0.index t 1 = 0 ∧ win5_0.index t 2 = 0 ∧ win5_0.index t 3 = 0)
    ∧ (win5_1.index t 0 = t.val ∧ win5_1.index t 1 = 0 ∧ win5_1.index t 2 = 0 ∧ win5_1.index t 3 = 0) := by
  decide +kernel

private theorem pool_hz : (![0, 0, 0, 0] : Fin 4 → Nat) = fun _ => 0 := funext fun a => by fin_cases a <;> rfl

/-- Two functions of a rank-4 index agree when they agree at every tuple of coordinates. -/
private theorem pool_ext4 {n0 n1 n2 n3 : ℕ} {α : Type} (f g : (⟨4, ![n0, n1, n2, n3]⟩ : Shape).Idx → α)
    (h : ∀ a b c d, f (ix4 a b c d) = g (ix4 a b c d)) : f = g :=
  funext fun y => (congrArg f (eq_ix4 y)).trans ((h _ _ _ _).trans (congrArg g (eq_ix4 y)).symm)

/-- The input block at point `t` is image `t` of the input array. -/
private theorem pool_iblk_apply (c : Dev nD) (t : Fin cfg5.N) (r : Fin 112) (j : Fin 56) (l : Fin 256) :
    (iblk5 (F := Ideal) V c 0 t) (ix4 (0 : Fin 1) r j l) = arr4 (poolX V c) t.val r.val j.val l.val := by
  obtain ⟨⟨i0, i1, i2, i3⟩, -⟩ := pool_geom t
  have ht : t.val < 8 := lt_of_lt_of_eq t.isLt N_5
  refine Eq.trans ?_ (arr4_apply (poolX V c) ⟨t.val, ht⟩ r j l).symm
  unfold iblk5
  rw [View.read_apply]
  show V c main_v11 _ = V c main_v11 _
  congr 1
  funext a; apply Fin.ext
  match a with
  | ⟨0, _⟩ => show win5_0.index t 0 * 1 + 1 * 0 = t.val; rw [i0]; omega
  | ⟨1, _⟩ => show win5_0.index t 1 * 112 + 1 * r.val = r.val; rw [i1]; omega
  | ⟨2, _⟩ => show win5_0.index t 2 * 56 + 1 * j.val = j.val; rw [i2]; omega
  | ⟨3, _⟩ => show win5_0.index t 3 * 256 + 1 * l.val = l.val; rw [i3]; omega

/-- The body loads its input block whole and stores its payload whole: the output's staging buffer holds the payload of
    the block. -/
private theorem pool_out_eq (x0 : Vec Ideal S1x112x56x256 .f32) : out5_1 x0 = k5_pay1 x0 := by
  unfold out5_1
  rw [View.canon_unit_zero (S := S1x56x56x128) pool_hz, View.ld_unit_zero (S := S1x112x56x256) pool_hz]

/-- What the write-back at point `t` writes, at element (i, j, ch) of the block: `poolP` at image `t`. -/
private theorem pool_flushed_apply (c : Dev nD) (t : Fin cfg5.N) (i : Fin 56) (j : Fin 56) (ch : Fin 128) :
    (dat5 (F := Ideal) V c).flushed 1 t (ix4 (0 : Fin 1) i j ch) = poolP V c t.val i.val j.val ch.val := by
  show (dat5 (F := Ideal) V c).after 1 t (ix4 (0 : Fin 1) i j ch) = _
  rw [after5_1, pool_out_eq]
  refine (pool_pay_apply (iblk5 (F := Ideal) V c 0 t) i j ch).trans ?_
  unfold poolP
  exact congrArg₂ max (congrArg₂ max (pool_iblk_apply V c t _ j _) (pool_iblk_apply V c t _ j _))
    (congrArg₂ max (pool_iblk_apply V c t _ j _) (pool_iblk_apply V c t _ j _))

/-- Every point writes back its block of `poolG`: block `t` of the result array is image `t`. -/
private theorem pool_flushed_eq (c : Dev nD) (t : Fin cfg5.N) (hf : (cfg5.win 1).flush t = true) :
    (dat5 (F := Ideal) V c).flushed 1 t = ((cfg5.win 1).blk t).view.read (Elt Ideal) (poolG V c) := by
  obtain ⟨-, i0, i1, i2, i3⟩ := pool_geom t
  refine pool_ext4 (n0 := 1) (n1 := 56) (n2 := 56) (n3 := 128) _ _ fun y0 i j ch => ?_
  obtain rfl : y0 = 0 := Subsingleton.elim _ _
  refine (pool_flushed_apply V c t i j ch).trans ?_
  rw [View.read_apply]
  have ht : t.val < 8 := lt_of_lt_of_eq t.isLt N_5
  -- element (0, i, j, ch) of block `t` sits at (t, i, j, ch) in the array
  have ey : ((cfg5.win 1).blk t).view.emb (ix4 (0 : Fin 1) i j ch) = ix4 (⟨t.val, ht⟩ : Fin 8) i j ch := by
    funext a; apply Fin.ext
    match a with
    | ⟨0, _⟩ => show win5_1.index t 0 * 1 + 1 * 0 = t.val; rw [i0]; omega
    | ⟨1, _⟩ => show win5_1.index t 1 * 56 + 1 * i.val = i.val; rw [i1]; omega
    | ⟨2, _⟩ => show win5_1.index t 2 * 56 + 1 * j.val = j.val; rw [i2]; omega
    | ⟨3, _⟩ => show win5_1.index t 3 * 128 + 1 * ch.val = ch.val; rw [i3]; omega
  exact (show poolP V c t.val i.val j.val ch.val = poolG V c (ix4 (⟨t.val, ht⟩ : Fin 8) i j ch) from rfl).trans
    (congrArg (poolG V c) ey.symm)

/-- So the result array ends at `poolG`: the eight blocks, one per image, cover it. -/
private theorem pool_final (c : Dev nD) : (dat5 (F := Ideal) V c).arrAt 1 cfg5.N = poolG V c :=
  (dat5 (F := Ideal) V c).arrAt_eq_of_cover 1 (poolG V c) (pool_flushed_eq V c) fun y => by
    have h0 : (y 0 : Nat) < 8 := (y 0).isLt
    have h1 : (y 1 : Nat) < 56 := (y 1).isLt
    have h2 : (y 2 : Nat) < 56 := (y 2).isLt
    have h3 : (y 3 : Nat) < 128 := (y 3).isLt
    obtain ⟨t, ht⟩ : ∃ t : Fin cfg5.N, t.val = (y 0 : Nat) := ⟨⟨(y 0 : Nat), lt_of_lt_of_eq h0 N_5.symm⟩, rfl⟩
    obtain ⟨-, i0, i1, i2, i3⟩ := pool_geom t
    refine ⟨t, flush5_1 t, ?_⟩
    show y ∈ ((View.whole main_v12).slice (win5_1.rect t)).set
    rw [View.set_slice_whole, Rect.mem_set_unit]
    intro a
    match a with
    | ⟨0, _⟩ => show win5_1.index t 0 * 1 ≤ (y 0 : Nat) ∧ (y 0 : Nat) < win5_1.index t 0 * 1 + 1; rw [i0]; omega
    | ⟨1, _⟩ => show win5_1.index t 1 * 56 ≤ (y 1 : Nat) ∧ (y 1 : Nat) < win5_1.index t 1 * 56 + 56; rw [i1]; omega
    | ⟨2, _⟩ => show win5_1.index t 2 * 56 ≤ (y 2 : Nat) ∧ (y 2 : Nat) < win5_1.index t 2 * 56 + 56; rw [i2]; omega
    | ⟨3, _⟩ => show win5_1.index t 3 * 128 ≤ (y 3 : Nat) ∧ (y 3 : Nat) < win5_1.index t 3 * 128 + 128; rw [i3]; omega

/-- THE VALUE OF REGION 5: element (b, i, j, ch) of the array the region writes is the maximum of its input array at
    rows 2i and 2i + 1 of image b, column pair j, lanes ch and ch + 128 — the row pair first, then the two lane halves. -/
theorem pool5_value (c : Dev nD) (b i j ch : ℕ) (hb : b < 8) (hi : i < 56) (hj : j < 56) (hch : ch < 128) :
    arr4 ((dat5 (F := Ideal) V c).arrAt 1 cfg5.N : Vec Ideal S8x56x56x128 .f32) b i j ch
      = max (max (arr4 (V c (Pipeline.arrRef spec5 0) : Vec Ideal S8x112x56x256 .f32) b (2 * i) j ch)
                 (arr4 (V c (Pipeline.arrRef spec5 0) : Vec Ideal S8x112x56x256 .f32) b (2 * i + 1) j ch))
            (max (arr4 (V c (Pipeline.arrRef spec5 0) : Vec Ideal S8x112x56x256 .f32) b (2 * i) j (ch + 128))
                 (arr4 (V c (Pipeline.arrRef spec5 0) : Vec Ideal S8x112x56x256 .f32) b (2 * i + 1) j (ch + 128))) := by
  rw [pool_final V c]
  exact arr4_apply (poolG V c) ⟨b, hb⟩ ⟨i, hi⟩ ⟨j, hj⟩ ⟨ch, hch⟩

end Cert.ReferenceIdeal.Val

end
-- ==== Proof.RPool9.lean ====
/-
  The value of region 9 of the reference's @main (a 2x2 pooling) at the ideal values. The region's input is the
  [8, 56, 28, 512] array in which each image row holds its 28 column PAIRS, a pair's two 256-channel pixels side by
  side on the 512 lanes; its grid has one point per image, whose input block is that image whole and whose output
  block is the [28, 28, 256] image of the result. The body views the block's 56 rows as 28 row pairs, takes the
  maximum over each pair, and then the maximum of the two lane halves. So element (b, i, j, ch) of the result is the
  maximum of the input at rows 2i, 2i + 1 of image b, column pair j, lanes ch and ch + 256.
-/
import proofs.«100114_g2000204297211070_pallasbulk_1265_19_alg».proof.Proof.Gen.ReferenceIdeal.Frame
import proofs.«100114_g2000204297211070_pallasbulk_1265_19_alg».proof.Proof.Spec
import Idealize.ShloMosaic.Lib.Pipeline.Value
import Idealize.ShloMosaic.Lib.ValueIdx
import Idealize.ShloMosaic.PureOps.Ideal.Laws

set_option maxRecDepth 16384

noncomputable section

namespace Cert.ReferenceIdeal.Val

open Cert.ReferenceIdeal Cert.ReferenceIdeal.Gen Cert.Spec
open Idealize.ShloMosaic Idealize.ShloMosaic.TcCoe Idealize.ShloMosaic.ValueIdx
open Idealize.SL.Sem
open Idealize.ShloMosaic.Pipeline (Dat)

/-! ## The body's arithmetic at an element -/

/-- The accumulator of a maximum, the pattern of minus infinity, is the least extended real. -/
private theorem pool_negInf : Ideal.ofBits .f32 0xFF800000#32 = (⊥ : EReal) := by simp [Ideal.ofBits, Ideal.ieee]

/-- The fold of the maximum from the least element over a two-element axis is the maximum of its two entries. -/
private theorem pool_fold_pair (b : EReal) (hb : b = ⊥) (f : Fin 2 → EReal) : (Finset.univ : Finset (Fin 2)).fold max b f = max (f 0) (f 1) := by
  subst hb
  apply le_antisymm
  · rw [Finset.fold_max_le]
    refine ⟨bot_le, fun x _ => ?_⟩
    fin_cases x
    · exact le_max_left _ _
    · exact le_max_right _ _
  · exact max_le ((Finset.le_fold_max _).2 (Or.inr ⟨0, Finset.mem_univ _, le_refl _⟩))
      ((Finset.le_fold_max _).2 (Or.inr ⟨1, Finset.mem_univ _, le_refl _⟩))

/-- The maximum over the pair axis of a [28, 2, 28, 512] vector, at (i, j, l): the larger of entries (i, 0, j, l) and
    (i, 1, j, l). -/
private theorem pool_rowmax (src : FVec Ideal S28x2x28x512 .f32) (h : S28x2x28x512.Reduces [1] S28x28x512) (hφ : FKind.Formats .f32)
    (hacc : (0xFF800000#32 : BitVec 32) = FKind.maximumf.neutral .f32 hφ) (i : Fin 28) (j : Fin 28) (l : Fin 512) :
    multiReduction .maximumf [1] S28x28x512 src 0xFF800000#32 h hφ hacc (ix3 i j l)
      = max (src (ix4 i (0 : Fin 2) j l)) (src (ix4 i (1 : Fin 2) j l)) := by
  refine (Ideal.multiReduction_maximumf_single src _ h hφ hacc (ix3 i j l)).trans ?_
  refine (pool_fold_pair _ pool_negInf (src ∘ h.lift (ix3 i j l))).trans ?_
  have e0 : h.lift (ix3 i j l) (0 : Fin 2) = ix4 i (0 : Fin 2) j l := by
    funext a; apply Fin.ext; match a with | ⟨0, _⟩ => rfl | ⟨1, _⟩ => rfl | ⟨2, _⟩ => rfl | ⟨3, _⟩ => rfl
  have e1 : h.lift (ix3 i j l) (1 : Fin 2) = ix4 i (1 : Fin 2) j l := by
    funext a; apply Fin.ext; match a with | ⟨0, _⟩ => rfl | ⟨1, _⟩ => rfl | ⟨2, _⟩ => rfl | ⟨3, _⟩ => rfl
  exact congrArg₂ max (congrArg src e0) (congrArg src e1)

/-- Dropping the unit axis in front. -/
private theorem pool_cast1 {α : Type} (x : S1x56x28x512.Idx → α) (h1 : S1x56x28x512.ShapeCasts S56x28x512) (r : Fin 56) (j : Fin 28) (l : Fin 512) :
    shapeCast S56x28x512 x h1 (ix3 r j l) = x (ix4 (0 : Fin 1) r j l) := by
  refine shapeCast_apply x h1 (ix3 r j l) (ix4 (0 : Fin 1) r j l) ?_
  rw [Shape.rowMajor_val_three, Shape.rowMajor_val_four]
  show ((0 * 56 + r.val) * 28 + j.val) * 512 + l.val = (r.val * 28 + j.val) * 512 + l.val
  omega

/-- The rows viewed as row pairs: entry (i, 0, j, l) of the view is row 2i, -/
private theorem pool_cast2_0 {α : Type} (y : S56x28x512.Idx → α) (h2 : S56x28x512.ShapeCasts S28x2x28x512) (i : Fin 28) (j : Fin 28) (l : Fin 512) :
    shapeCast S28x2x28x512 y h2 (ix4 i (0 : Fin 2) j l) = y (ix3 (⟨2 * i.val, by omega⟩ : Fin 56) j l) := by
  refine shapeCast_apply y h2 (ix4 i (0 : Fin 2) j l) (ix3 (⟨2 * i.val, by omega⟩ : Fin 56) j l) ?_
  rw [Shape.rowMajor_val_three, Shape.rowMajor_val_four]
  show ((2 * i.val) * 28 + j.val) * 512 + l.val = ((i.val * 2 + 0) * 28 + j.val) * 512 + l.val
  omega

/-- and entry (i, 1, j, l) is row 2i + 1. -/
private theorem pool_cast2_1 {α : Type} (y : S56x28x512.Idx → α) (h2 : S56x28x512.ShapeCasts S28x2x28x512) (i : Fin 28) (j : Fin 28) (l : Fin 512) :
    shapeCast S28x2x28x512 y h2 (ix4 i (1 : Fin 2) j l) = y (ix3 (⟨2 * i.val + 1, by omega⟩ : Fin 56) j l) := by
  refine shapeCast_apply y h2 (ix4 i (1 : Fin 2) j l) (ix3 (⟨2 * i.val + 1, by omega⟩ : Fin 56) j l) ?_
  rw [Shape.rowMajor_val_three, Shape.rowMajor_val_four]
  show ((2 * i.val + 1) * 28 + j.val) * 512 + l.val = ((i.val * 2 + 1) * 28 + j.val) * 512 + l.val
  omega

/-- The unit axis put back in front. -/
private theorem pool_cast3 {α : Type} (z : S28x28x256.Idx → α) (h6 : S28x28x256.ShapeCasts S1x28x28x256) (i : Fin 28) (j : Fin 28) (ch : Fin 256) :
    shapeCast S1x28x28x256 z h6 (ix4 (0 : Fin 1) i j ch) = z (ix3 i j ch) := by
  refine shapeCast_apply z h6 (ix4 (0 : Fin 1) i j ch) (ix3 i j ch) ?_
  rw [Shape.rowMajor_val_three, Shape.rowMajor_val_four]
  show (i.val * 28 + j.val) * 256 + ch.val = ((0 * 28 + i.val) * 28 + j.val) * 256 + ch.val
  omega

/-- The low lane half. -/
private theorem pool_sliceLo {α : Type} (v : S28x28x512.Idx → α) (h4 : S28x28x512.Slices ![0, 0, 0] S28x28x256) (i : Fin 28) (j : Fin 28) (ch : Fin 256) :
    extractStridedSlice S28x28x256 ![0, 0, 0] v h4 (ix3 i j ch) = v (ix3 i j (⟨ch.val, by omega⟩ : Fin 512)) := by
  refine extractStridedSlice_apply _ v h4 (ix3 i j ch) (ix3 i j (⟨ch.val, by omega⟩ : Fin 512)) fun a => ?_
  match a with
  | ⟨0, _⟩ => show i.val = 0 + i.val; omega
  | ⟨1, _⟩ => show j.val = 0 + j.val; omega
  | ⟨2, _⟩ => show ch.val = 0 + ch.val; omega

/-- The high lane half. -/
private theorem pool_sliceHi {α : Type} (v : S28x28x512.Idx → α) (h5 : S28x28x512.Slices ![0, 0, 256] S28x28x256) (i : Fin 28) (j : Fin 28) (ch : Fin 256) :
    extractStridedSlice S28x28x256 ![0, 0, 256] v h5 (ix3 i j ch) = v (ix3 i j (⟨ch.val + 256, by omega⟩ : Fin 512)) := by
  refine extractStridedSlice_apply _ v h5 (ix3 i j ch) (ix3 i j (⟨ch.val + 256, by omega⟩ : Fin 512)) fun a => ?_
  match a with
  | ⟨0, _⟩ => show i.val = 0 + i.val; omega
  | ⟨1, _⟩ => show j.val = 0 + j.val; omega
  | ⟨2, _⟩ => show ch.val + 256 = 256 + ch.val; omega

/-- The pooling body's arithmetic at an output element (i, j, ch): the block's rows viewed as row pairs, the maximum over
    each pair, then the maximum of lanes ch and ch + 256; in the block's own coordinates, rows 2i and 2i + 1. -/
private theorem pool_pay_arith (x : FVec Ideal S1x56x28x512 .f32)
    (h1 : S1x56x28x512.ShapeCasts S56x28x512) (h2 : S56x28x512.ShapeCasts S28x2x28x512)
    (h3 : S28x2x28x512.Reduces [1] S28x28x512) (hφ : FKind.Formats .f32)
    (hacc : (0xFF800000#32 : BitVec 32) = FKind.maximumf.neutral .f32 hφ)
    (h4 : S28x28x512.Slices ![0, 0, 0] S28x28x256) (h5 : S28x28x512.Slices ![0, 0, 256] S28x28x256)
    (h6 : S28x28x256.ShapeCasts S1x28x28x256) (i : Fin 28) (j : Fin 28) (ch : Fin 256) :
    shapeCast S1x28x28x256
      (maximumf
        (extractStridedSlice S28x28x256 ![0, 0, 0]
          (multiReduction .maximumf [1] S28x28x512 (shapeCast S28x2x28x512 (shapeCast S56x28x512 x h1) h2) 0xFF800000#32 h3 hφ hacc) h4)
        (extractStridedSlice S28x28x256 ![0, 0, 256]
          (multiReduction .maximumf [1] S28x28x512 (shapeCast S28x2x28x512 (shapeCast S56x28x512 x h1) h2) 0xFF800000#32 h3 hφ hacc) h5))
      h6 (ix4 (0 : Fin 1) i j ch)
    = max (max (x (ix4 (0 : Fin 1) (⟨2 * i.val, by omega⟩ : Fin 56) j (⟨ch.val, by omega⟩ : Fin 512)))
               (x (ix4 (0 : Fin 1) (⟨2 * i.val + 1, by omega⟩ : Fin 56) j (⟨ch.val, by omega⟩ : Fin 512))))
          (max (x (ix4 (0 : Fin 1) (⟨2 * i.val, by omega⟩ : Fin 56) j (⟨ch.val + 256, by omega⟩ : Fin 512)))
               (x (ix4 (0 : Fin 1) (⟨2 * i.val + 1, by omega⟩ : Fin 56) j (⟨ch.val + 256, by omega⟩ : Fin 512)))) := by
  have hrow : ∀ l : Fin 512,
      multiReduction .maximumf [1] S28x28x512 (shapeCast S28x2x28x512 (shapeCast S56x28x512 x h1) h2) 0xFF800000#32 h3 hφ hacc (ix3 i j l)
        = max (x (ix4 (0 : Fin 1) (⟨2 * i.val, by omega⟩ : Fin 56) j l)) (x (ix4 (0 : Fin 1) (⟨2 * i.val + 1, by omega⟩ : Fin 56) j l)) := fun l =>
    (pool_rowmax _ h3 hφ hacc i j l).trans
      (congrArg₂ max ((pool_cast2_0 _ h2 i j l).trans (pool_cast1 x h1 _ j l)) ((pool_cast2_1 _ h2 i j l).trans (pool_cast1 x h1 _ j l)))
  refine (pool_cast3 _ h6 i j ch).trans ?_
  refine (maximumf_apply _ _ _).trans ?_
  exact congrArg₂ max ((pool_sliceLo _ h4 i j ch).trans (hrow _)) ((pool_sliceHi _ h5 i j ch).trans (hrow _))

/-- The generated payload of the body's one store, read at an output element. -/
private theorem pool_pay_apply (x : Vec Ideal S1x56x28x512 .f32) (i : Fin 28) (j : Fin 28) (ch : Fin 256) :
    k9_pay1 (F := Ideal) x (ix4 (0 : Fin 1) i j ch)
    = max (max (x (ix4 (0 : Fin 1) (⟨2 * i.val, by omega⟩ : Fin 56) j (⟨ch.val, by omega⟩ : Fin 512)))
               (x (ix4 (0 : Fin 1) (⟨2 * i.val + 1, by omega⟩ : Fin 56) j (⟨ch.val, by omega⟩ : Fin 512))))
          (max (x (ix4 (0 : Fin 1) (⟨2 * i.val, by omega⟩ : Fin 56) j (⟨ch.val + 256, by omega⟩ : Fin 512)))
               (x (ix4 (0 : Fin 1) (⟨2 * i.val + 1, by omega⟩ : Fin 56) j (⟨ch.val + 256, by omega⟩ : Fin 512)))) := by
  unfold k9_pay1
  exact pool_pay_arith x _ _ _ _ _ _ _ _ i j ch

/-! ## The region's blocks and its result -/

variable (V : (c : Dev nD) → (b : Ref sig .tc) → Buf (Elt Ideal) ((c : Thread nD τ).loc b))

/-- The region's input array, at its literal type. -/
private abbrev poolX (c : Dev nD) : Vec Ideal S8x56x28x512 .f32 := V c (Pipeline.arrRef spec9 0)

/-- What the region leaves at element (b, i, j, ch) of its result, over natural coordinates: the maximum of the input at
    rows 2i and 2i + 1 of image b, column pair j, lanes ch and ch + 256. -/
private def poolP (c : Dev nD) (b i j ch : ℕ) : EReal :=
  max (max (arr4 (poolX V c) b (2 * i) j ch) (arr4 (poolX V c) b (2 * i + 1) j ch))
      (max (arr4 (poolX V c) b (2 * i) j (ch + 256)) (arr4 (poolX V c) b (2 * i + 1) j (ch + 256)))

/-- The result array: `poolP` at each index's coordinates. -/
private def poolG (c : Dev nD) (y : S8x28x28x256.Idx) : EReal := poolP V c (y 0).val (y 1).val (y 2).val (y 3).val

/-- Both windows' block index at every point: the point's number on the image axis, zero on the other three. -/
private theorem pool_geom : ∀ t : Fin grid9.N,
    (win9_0.index t 0 = t.val ∧ win9_0.index t 1 = 0 ∧ win9_0.index t 2 = 0 ∧ win9_0.index t 3 = 0)
    ∧ (win9_1.index t 0 = t.val ∧ win9_1.index t 1 = 0 ∧ win9_1.index t 2 = 0 ∧ win9_1.index t 3 = 0) := by
  decide +kernel

private theorem pool_hz : (![0, 0, 0, 0] : Fin 4 → Nat) = fun _ => 0 := funext fun a => by fin_cases a <;> rfl

/-- Two functions of a rank-4 index agree when they agree at every tuple of coordinates. -/
private theorem pool_ext4 {n0 n1 n2 n3 : ℕ} {α : Type} (f g : (⟨4, ![n0, n1, n2, n3]⟩ : Shape).Idx → α)
    (h : ∀ a b c d, f (ix4 a b c d) = g (ix4 a b c d)) : f = g :=
  funext fun y => (congrArg f (eq_ix4 y)).trans ((h _ _ _ _).trans (congrArg g (eq_ix4 y)).symm)

/-- The input block at point `t` is image `t` of the input array. -/
private theorem pool_iblk_apply (c : Dev nD) (t : Fin cfg9.N) (r : Fin 56) (j : Fin 28) (l : Fin 512) :
    (iblk9 (F := Ideal) V c 0 t) (ix4 (0 : Fin 1) r j l) = arr4 (poolX V c) t.val r.val j.val l.val := by
  obtain ⟨⟨i0, i1, i2, i3⟩, -⟩ := pool_geom t
  have ht : t.val < 8 := lt_of_lt_of_eq t.isLt N_9
  refine Eq.trans ?_ (arr4_apply (poolX V c) ⟨t.val, ht⟩ r j l).symm
  unfold iblk9
  rw [View.read_apply]
  show V c main_v19 _ = V c main_v19 _
  congr 1
  funext a; apply Fin.ext
  match a with
  | ⟨0, _⟩ => show win9_0.index t 0 * 1 + 1 * 0 = t.val; rw [i0]; omega
  | ⟨1, _⟩ => show win9_0.index t 1 * 56 + 1 * r.val = r.val; rw [i1]; omega
  | ⟨2, _⟩ => show win9_0.index t 2 * 28 + 1 * j.val = j.val; rw [i2]; omega
  | ⟨3, _⟩ => show win9_0.index t 3 * 512 + 1 * l.val = l.val; rw [i3]; omega

/-- The body loads its input block whole and stores its payload whole: the output's staging buffer holds the payload of
    the block. -/
private theorem pool_out_eq (x0 : Vec Ideal S1x56x28x512 .f32) : out9_1 x0 = k9_pay1 x0 := by
  unfold out9_1
  rw [View.canon_unit_zero (S := S1x28x28x256) pool_hz, View.ld_unit_zero (S := S1x56x28x512) pool_hz]

/-- What the write-back at point `t` writes, at element (i, j, ch) of the block: `poolP` at image `t`. -/
private theorem pool_flushed_apply (c : Dev nD) (t : Fin cfg9.N) (i : Fin 28) (j : Fin 28) (ch : Fin 256) :
    (dat9 (F := Ideal) V c).flushed 1 t (ix4 (0 : Fin 1) i j ch) = poolP V c t.val i.val j.val ch.val := by
  show (dat9 (F := Ideal) V c).after 1 t (ix4 (0 : Fin 1) i j ch) = _
  rw [after9_1, pool_out_eq]
  refine (pool_pay_apply (iblk9 (F := Ideal) V c 0 t) i j ch).trans ?_
  unfold poolP
  exact congrArg₂ max (congrArg₂ max (pool_iblk_apply V c t _ j _) (pool_iblk_apply V c t _ j _))
    (congrArg₂ max (pool_iblk_apply V c t _ j _) (pool_iblk_apply V c t _ j _))

/-- Every point writes back its block of `poolG`: block `t` of the result array is image `t`. -/
private theorem pool_flushed_eq (c : Dev nD) (t : Fin cfg9.N) (hf : (cfg9.win 1).flush t = true) :
    (dat9 (F := Ideal) V c).flushed 1 t = ((cfg9.win 1).blk t).view.read (Elt Ideal) (poolG V c) := by
  obtain ⟨-, i0, i1, i2, i3⟩ := pool_geom t
  refine pool_ext4 (n0 := 1) (n1 := 28) (n2 := 28) (n3 := 256) _ _ fun y0 i j ch => ?_
  obtain rfl : y0 = 0 := Subsingleton.elim _ _
  refine (pool_flushed_apply V c t i j ch).trans ?_
  rw [View.read_apply]
  have ht : t.val < 8 := lt_of_lt_of_eq t.isLt N_9
  -- element (0, i, j, ch) of block `t` sits at (t, i, j, ch) in the array
  have ey : ((cfg9.win 1).blk t).view.emb (ix4 (0 : Fin 1) i j ch) = ix4 (⟨t.val, ht⟩ : Fin 8) i j ch := by
    funext a; apply Fin.ext
    match a with
    | ⟨0, _⟩ => show win9_1.index t 0 * 1 + 1 * 0 = t.val; rw [i0]; omega
    | ⟨1, _⟩ => show win9_1.index t 1 * 28 + 1 * i.val = i.val; rw [i1]; omega
    | ⟨2, _⟩ => show win9_1.index t 2 * 28 + 1 * j.val = j.val; rw [i2]; omega
    | ⟨3, _⟩ => show win9_1.index t 3 * 256 + 1 * ch.val = ch.val; rw [i3]; omega
  exact (show poolP V c t.val i.val j.val ch.val = poolG V c (ix4 (⟨t.val, ht⟩ : Fin 8) i j ch) from rfl).trans
    (congrArg (poolG V c) ey.symm)

/-- So the result array ends at `poolG`: the eight blocks, one per image, cover it. -/
private theorem pool_final (c : Dev nD) : (dat9 (F := Ideal) V c).arrAt 1 cfg9.N = poolG V c :=
  (dat9 (F := Ideal) V c).arrAt_eq_of_cover 1 (poolG V c) (pool_flushed_eq V c) fun y => by
    have h0 : (y 0 : Nat) < 8 := (y 0).isLt
    have h1 : (y 1 : Nat) < 28 := (y 1).isLt
    have h2 : (y 2 : Nat) < 28 := (y 2).isLt
    have h3 : (y 3 : Nat) < 256 := (y 3).isLt
    obtain ⟨t, ht⟩ : ∃ t : Fin cfg9.N, t.val = (y 0 : Nat) := ⟨⟨(y 0 : Nat), lt_of_lt_of_eq h0 N_9.symm⟩, rfl⟩
    obtain ⟨-, i0, i1, i2, i3⟩ := pool_geom t
    refine ⟨t, flush9_1 t, ?_⟩
    show y ∈ ((View.whole main_v20).slice (win9_1.rect t)).set
    rw [View.set_slice_whole, Rect.mem_set_unit]
    intro a
    match a with
    | ⟨0, _⟩ => show win9_1.index t 0 * 1 ≤ (y 0 : Nat) ∧ (y 0 : Nat) < win9_1.index t 0 * 1 + 1; rw [i0]; omega
    | ⟨1, _⟩ => show win9_1.index t 1 * 28 ≤ (y 1 : Nat) ∧ (y 1 : Nat) < win9_1.index t 1 * 28 + 28; rw [i1]; omega
    | ⟨2, _⟩ => show win9_1.index t 2 * 28 ≤ (y 2 : Nat) ∧ (y 2 : Nat) < win9_1.index t 2 * 28 + 28; rw [i2]; omega
    | ⟨3, _⟩ => show win9_1.index t 3 * 256 ≤ (y 3 : Nat) ∧ (y 3 : Nat) < win9_1.index t 3 * 256 + 256; rw [i3]; omega

/-- THE VALUE OF REGION 9: element (b, i, j, ch) of the array the region writes is the maximum of its input array at
    rows 2i and 2i + 1 of image b, column pair j, lanes ch and ch + 256 — the row pair first, then the two lane halves. -/
theorem pool9_value (c : Dev nD) (b i j ch : ℕ) (hb : b < 8) (hi : i < 28) (hj : j < 28) (hch : ch < 256) :
    arr4 ((dat9 (F := Ideal) V c).arrAt 1 cfg9.N : Vec Ideal S8x28x28x256 .f32) b i j ch
      = max (max (arr4 (V c (Pipeline.arrRef spec9 0) : Vec Ideal S8x56x28x512 .f32) b (2 * i) j ch)
                 (arr4 (V c (Pipeline.arrRef spec9 0) : Vec Ideal S8x56x28x512 .f32) b (2 * i + 1) j ch))
            (max (arr4 (V c (Pipeline.arrRef spec9 0) : Vec Ideal S8x56x28x512 .f32) b (2 * i) j (ch + 256))
                 (arr4 (V c (Pipeline.arrRef spec9 0) : Vec Ideal S8x56x28x512 .f32) b (2 * i + 1) j (ch + 256))) := by
  rw [pool_final V c]
  exact arr4_apply (poolG V c) ⟨b, hb⟩ ⟨i, hi⟩ ⟨j, hj⟩ ⟨ch, hch⟩

end Cert.ReferenceIdeal.Val

end
-- ==== Proof.RPool13.lean ====
/-
  The value of region 13 of the reference's @main (a 2x2 pooling) at the ideal values. The region's input is the
  [8, 28, 14, 1024] array in which each image row holds its 14 column PAIRS, a pair's two 512-channel pixels side by
  side on the 1024 lanes; its grid has one point per image, whose input block is that image whole and whose output
  block is the [14, 14, 512] image of the result. The body views the block's 28 rows as 14 row pairs, takes the
  maximum over each pair, and then the maximum of the two lane halves. So element (b, i, j, ch) of the result is the
  maximum of the input at rows 2i, 2i + 1 of image b, column pair j, lanes ch and ch + 512.
-/
import proofs.«100114_g2000204297211070_pallasbulk_1265_19_alg».proof.Proof.Gen.ReferenceIdeal.Frame
import proofs.«100114_g2000204297211070_pallasbulk_1265_19_alg».proof.Proof.Spec
import Idealize.ShloMosaic.Lib.Pipeline.Value
import Idealize.ShloMosaic.Lib.ValueIdx
import Idealize.ShloMosaic.PureOps.Ideal.Laws

set_option maxRecDepth 16384

noncomputable section

namespace Cert.ReferenceIdeal.Val

open Cert.ReferenceIdeal Cert.ReferenceIdeal.Gen Cert.Spec
open Idealize.ShloMosaic Idealize.ShloMosaic.TcCoe Idealize.ShloMosaic.ValueIdx
open Idealize.SL.Sem
open Idealize.ShloMosaic.Pipeline (Dat)

/-! ## The body's arithmetic at an element -/

/-- The accumulator of a maximum, the pattern of minus infinity, is the least extended real. -/
private theorem pool_negInf : Ideal.ofBits .f32 0xFF800000#32 = (⊥ : EReal) := by simp [Ideal.ofBits, Ideal.ieee]

/-- The fold of the maximum from the least element over a two-element axis is the maximum of its two entries. -/
private theorem pool_fold_pair (b : EReal) (hb : b = ⊥) (f : Fin 2 → EReal) : (Finset.univ : Finset (Fin 2)).fold max b f = max (f 0) (f 1) := by
  subst hb
  apply le_antisymm
  · rw [Finset.fold_max_le]
    refine ⟨bot_le, fun x _ => ?_⟩
    fin_cases x
    · exact le_max_left _ _
    · exact le_max_right _ _
  · exact max_le ((Finset.le_fold_max _).2 (Or.inr ⟨0, Finset.mem_univ _, le_refl _⟩))
      ((Finset.le_fold_max _).2 (Or.inr ⟨1, Finset.mem_univ _, le_refl _⟩))

/-- The maximum over the pair axis of a [14, 2, 14, 1024] vector, at (i, j, l): the larger of entries (i, 0, j, l) and
    (i, 1, j, l). -/
private theorem pool_rowmax (src : FVec Ideal S14x2x14x1024 .f32) (h : S14x2x14x1024.Reduces [1] S14x14x1024) (hφ : FKind.Formats .f32)
    (hacc : (0xFF800000#32 : BitVec 32) = FKind.maximumf.neutral .f32 hφ) (i : Fin 14) (j : Fin 14) (l : Fin 1024) :
    multiReduction .maximumf [1] S14x14x1024 src 0xFF800000#32 h hφ hacc (ix3 i j l)
      = max (src (ix4 i (0 : Fin 2) j l)) (src (ix4 i (1 : Fin 2) j l)) := by
  refine (Ideal.multiReduction_maximumf_single src _ h hφ hacc (ix3 i j l)).trans ?_
  refine (pool_fold_pair _ pool_negInf (src ∘ h.lift (ix3 i j l))).trans ?_
  have e0 : h.lift (ix3 i j l) (0 : Fin 2) = ix4 i (0 : Fin 2) j l := by
    funext a; apply Fin.ext; match a with | ⟨0, _⟩ => rfl | ⟨1, _⟩ => rfl | ⟨2, _⟩ => rfl | ⟨3, _⟩ => rfl
  have e1 : h.lift (ix3 i j l) (1 : Fin 2) = ix4 i (1 : Fin 2) j l := by
    funext a; apply Fin.ext; match a with | ⟨0, _⟩ => rfl | ⟨1, _⟩ => rfl | ⟨2, _⟩ => rfl | ⟨3, _⟩ => rfl
  exact congrArg₂ max (congrArg src e0) (congrArg src e1)

/-- Dropping the unit axis in front. -/
private theorem pool_cast1 {α : Type} (x : S1x28x14x1024.Idx → α) (h1 : S1x28x14x1024.ShapeCasts S28x14x1024) (r : Fin 28) (j : Fin 14) (l : Fin 1024) :
    shapeCast S28x14x1024 x h1 (ix3 r j l) = x (ix4 (0 : Fin 1) r j l) := by
  refine shapeCast_apply x h1 (ix3 r j l) (ix4 (0 : Fin 1) r j l) ?_
  rw [Shape.rowMajor_val_three, Shape.rowMajor_val_four]
  show ((0 * 28 + r.val) * 14 + j.val) * 1024 + l.val = (r.val * 14 + j.val) * 1024 + l.val
  omega

/-- The rows viewed as row pairs: entry (i, 0, j, l) of the view is row 2i, -/
private theorem pool_cast2_0 {α : Type} (y : S28x14x1024.Idx → α) (h2 : S28x14x1024.ShapeCasts S14x2x14x1024) (i : Fin 14) (j : Fin 14) (l : Fin 1024) :
    shapeCast S14x2x14x1024 y h2 (ix4 i (0 : Fin 2) j l) = y (ix3 (⟨2 * i.val, by omega⟩ : Fin 28) j l) := by
  refine shapeCast_apply y h2 (ix4 i (0 : Fin 2) j l) (ix3 (⟨2 * i.val, by omega⟩ : Fin 28) j l) ?_
  rw [Shape.rowMajor_val_three, Shape.rowMajor_val_four]
  show ((2 * i.val) * 14 + j.val) * 1024 + l.val = ((i.val * 2 + 0) * 14 + j.val) * 1024 + l.val
  omega

/-- and entry (i, 1, j, l) is row 2i + 1. -/
private theorem pool_cast2_1 {α : Type} (y : S28x14x1024.Idx → α) (h2 : S28x14x1024.ShapeCasts S14x2x14x1024) (i : Fin 14) (j : Fin 14) (l : Fin 1024) :
    shapeCast S14x2x14x1024 y h2 (ix4 i (1 : Fin 2) j l) = y (ix3 (⟨2 * i.val + 1, by omega⟩ : Fin 28) j l) := by
  refine shapeCast_apply y h2 (ix4 i (1 : Fin 2) j l) (ix3 (⟨2 * i.val + 1, by omega⟩ : Fin 28) j l) ?_
  rw [Shape.rowMajor_val_three, Shape.rowMajor_val_four]
  show ((2 * i.val + 1) * 14 + j.val) * 1024 + l.val = ((i.val * 2 + 1) * 14 + j.val) * 1024 + l.val
  omega

/-- The unit axis put back in front. -/
private theorem pool_cast3 {α : Type} (z : S14x14x512.Idx → α) (h6 : S14x14x512.ShapeCasts S1x14x14x512) (i : Fin 14) (j : Fin 14) (ch : Fin 512) :
    shapeCast S1x14x14x512 z h6 (ix4 (0 : Fin 1) i j ch) = z (ix3 i j ch) := by
  refine shapeCast_apply z h6 (ix4 (0 : Fin 1) i j ch) (ix3 i j ch) ?_
  rw [Shape.rowMajor_val_three, Shape.rowMajor_val_four]
  show (i.val * 14 + j.val) * 512 + ch.val = ((0 * 14 + i.val) * 14 + j.val) * 512 + ch.val
  omega

/-- The low lane half. -/
private theorem pool_sliceLo {α : Type} (v : S14x14x1024.Idx → α) (h4 : S14x14x1024.Slices ![0, 0, 0] S14x14x512) (i : Fin 14) (j : Fin 14) (ch : Fin 512) :
    extractStridedSlice S14x14x512 ![0, 0, 0] v h4 (ix3 i j ch) = v (ix3 i j (⟨ch.val, by omega⟩ : Fin 1024)) := by
  refine extractStridedSlice_apply _ v h4 (ix3 i j ch) (ix3 i j (⟨ch.val, by omega⟩ : Fin 1024)) fun a => ?_
  match a with
  | ⟨0, _⟩ => show i.val = 0 + i.val; omega
  | ⟨1, _⟩ => show j.val = 0 + j.val; omega
  | ⟨2, _⟩ => show ch.val = 0 + ch.val; omega

/-- The high lane half. -/
private theorem pool_sliceHi {α : Type} (v : S14x14x1024.Idx → α) (h5 : S14x14x1024.Slices ![0, 0, 512] S14x14x512) (i : Fin 14) (j : Fin 14) (ch : Fin 512) :
    extractStridedSlice S14x14x512 ![0, 0, 512] v h5 (ix3 i j ch) = v (ix3 i j (⟨ch.val + 512, by omega⟩ : Fin 1024)) := by
  refine extractStridedSlice_apply _ v h5 (ix3 i j ch) (ix3 i j (⟨ch.val + 512, by omega⟩ : Fin 1024)) fun a => ?_
  match a with
  | ⟨0, _⟩ => show i.val = 0 + i.val; omega
  | ⟨1, _⟩ => show j.val = 0 + j.val; omega
  | ⟨2, _⟩ => show ch.val + 512 = 512 + ch.val; omega

/-- The pooling body's arithmetic at an output element (i, j, ch): the block's rows viewed as row pairs, the maximum over
    each pair, then the maximum of lanes ch and ch + 512; in the block's own coordinates, rows 2i and 2i + 1. -/
private theorem pool_pay_arith (x : FVec Ideal S1x28x14x1024 .f32)
    (h1 : S1x28x14x1024.ShapeCasts S28x14x1024) (h2 : S28x14x1024.ShapeCasts S14x2x14x1024)
    (h3 : S14x2x14x1024.Reduces [1] S14x14x1024) (hφ : FKind.Formats .f32)
    (hacc : (0xFF800000#32 : BitVec 32) = FKind.maximumf.neutral .f32 hφ)
    (h4 : S14x14x1024.Slices ![0, 0, 0] S14x14x512) (h5 : S14x14x1024.Slices ![0, 0, 512] S14x14x512)
    (h6 : S14x14x512.ShapeCasts S1x14x14x512) (i : Fin 14) (j : Fin 14) (ch : Fin 512) :
    shapeCast S1x14x14x512
      (maximumf
        (extractStridedSlice S14x14x512 ![0, 0, 0]
          (multiReduction .maximumf [1] S14x14x1024 (shapeCast S14x2x14x1024 (shapeCast S28x14x1024 x h1) h2) 0xFF800000#32 h3 hφ hacc) h4)
        (extractStridedSlice S14x14x512 ![0, 0, 512]
          (multiReduction .maximumf [1] S14x14x1024 (shapeCast S14x2x14x1024 (shapeCast S28x14x1024 x h1) h2) 0xFF800000#32 h3 hφ hacc) h5))
      h6 (ix4 (0 : Fin 1) i j ch)
    = max (max (x (ix4 (0 : Fin 1) (⟨2 * i.val, by omega⟩ : Fin 28) j (⟨ch.val, by omega⟩ : Fin 1024)))
               (x (ix4 (0 : Fin 1) (⟨2 * i.val + 1, by omega⟩ : Fin 28) j (⟨ch.val, by omega⟩ : Fin 1024))))
          (max (x (ix4 (0 : Fin 1) (⟨2 * i.val, by omega⟩ : Fin 28) j (⟨ch.val + 512, by omega⟩ : Fin 1024)))
               (x (ix4 (0 : Fin 1) (⟨2 * i.val + 1, by omega⟩ : Fin 28) j (⟨ch.val + 512, by omega⟩ : Fin 1024)))) := by
  have hrow : ∀ l : Fin 1024,
      multiReduction .maximumf [1] S14x14x1024 (shapeCast S14x2x14x1024 (shapeCast S28x14x1024 x h1) h2) 0xFF800000#32 h3 hφ hacc (ix3 i j l)
        = max (x (ix4 (0 : Fin 1) (⟨2 * i.val, by omega⟩ : Fin 28) j l)) (x (ix4 (0 : Fin 1) (⟨2 * i.val + 1, by omega⟩ : Fin 28) j l)) := fun l =>
    (pool_rowmax _ h3 hφ hacc i j l).trans
      (congrArg₂ max ((pool_cast2_0 _ h2 i j l).trans (pool_cast1 x h1 _ j l)) ((pool_cast2_1 _ h2 i j l).trans (pool_cast1 x h1 _ j l)))
  refine (pool_cast3 _ h6 i j ch).trans ?_
  refine (maximumf_apply _ _ _).trans ?_
  exact congrArg₂ max ((pool_sliceLo _ h4 i j ch).trans (hrow _)) ((pool_sliceHi _ h5 i j ch).trans (hrow _))

/-- The generated payload of the body's one store, read at an output element. -/
private theorem pool_pay_apply (x : Vec Ideal S1x28x14x1024 .f32) (i : Fin 14) (j : Fin 14) (ch : Fin 512) :
    k13_pay1 (F := Ideal) x (ix4 (0 : Fin 1) i j ch)
    = max (max (x (ix4 (0 : Fin 1) (⟨2 * i.val, by omega⟩ : Fin 28) j (⟨ch.val, by omega⟩ : Fin 1024)))
               (x (ix4 (0 : Fin 1) (⟨2 * i.val + 1, by omega⟩ : Fin 28) j (⟨ch.val, by omega⟩ : Fin 1024))))
          (max (x (ix4 (0 : Fin 1) (⟨2 * i.val, by omega⟩ : Fin 28) j (⟨ch.val + 512, by omega⟩ : Fin 1024)))
               (x (ix4 (0 : Fin 1) (⟨2 * i.val + 1, by omega⟩ : Fin 28) j (⟨ch.val + 512, by omega⟩ : Fin 1024)))) := by
  unfold k13_pay1
  exact pool_pay_arith x _ _ _ _ _ _ _ _ i j ch

/-! ## The region's blocks and its result -/

variable (V : (c : Dev nD) → (b : Ref sig .tc) → Buf (Elt Ideal) ((c : Thread nD τ).loc b))

/-- The region's input array, at its literal type. -/
private abbrev poolX (c : Dev nD) : Vec Ideal S8x28x14x1024 .f32 := V c (Pipeline.arrRef spec13 0)

/-- What the region leaves at element (b, i, j, ch) of its result, over natural coordinates: the maximum of the input at
    rows 2i and 2i + 1 of image b, column pair j, lanes ch and ch + 512. -/
private def poolP (c : Dev nD) (b i j ch : ℕ) : EReal :=
  max (max (arr4 (poolX V c) b (2 * i) j ch) (arr4 (poolX V c) b (2 * i + 1) j ch))
      (max (arr4 (poolX V c) b (2 * i) j (ch + 512)) (arr4 (poolX V c) b (2 * i + 1) j (ch + 512)))

/-- The result array: `poolP` at each index's coordinates. -/
private def poolG (c : Dev nD) (y : S8x14x14x512.Idx) : EReal := poolP V c (y 0).val (y 1).val (y 2).val (y 3).val

/-- Both windows' block index at every point: the point's number on the image axis, zero on the other three. -/
private theorem pool_geom : ∀ t : Fin grid13.N,
    (win13_0.index t 0 = t.val ∧ win13_0.index t 1 = 0 ∧ win13_0.index t 2 = 0 ∧ win13_0.index t 3 = 0)
    ∧ (win13_1.index t 0 = t.val ∧ win13_1.index t 1 = 0 ∧ win13_1.index t 2 = 0 ∧ win13_1.index t 3 = 0) := by
  decide +kernel

private theorem pool_hz : (![0, 0, 0, 0] : Fin 4 → Nat) = fun _ => 0 := funext fun a => by fin_cases a <;> rfl

/-- Two functions of a rank-4 index agree when they agree at every tuple of coordinates. -/
private theorem pool_ext4 {n0 n1 n2 n3 : ℕ} {α : Type} (f g : (⟨4, ![n0, n1, n2, n3]⟩ : Shape).Idx → α)
    (h : ∀ a b c d, f (ix4 a b c d) = g (ix4 a b c d)) : f = g :=
  funext fun y => (congrArg f (eq_ix4 y)).trans ((h _ _ _ _).trans (congrArg g (eq_ix4 y)).symm)

/-- The input block at point `t` is image `t` of the input array. -/
private theorem pool_iblk_apply (c : Dev nD) (t : Fin cfg13.N) (r : Fin 28) (j : Fin 14) (l : Fin 1024) :
    (iblk13 (F := Ideal) V c 0 t) (ix4 (0 : Fin 1) r j l) = arr4 (poolX V c) t.val r.val j.val l.val := by
  obtain ⟨⟨i0, i1, i2, i3⟩, -⟩ := pool_geom t
  have ht : t.val < 8 := lt_of_lt_of_eq t.isLt N_13
  refine Eq.trans ?_ (arr4_apply (poolX V c) ⟨t.val, ht⟩ r j l).symm
  unfold iblk13
  rw [View.read_apply]
  show V c main_v27 _ = V c main_v27 _
  congr 1
  funext a; apply Fin.ext
  match a with
  | ⟨0, _⟩ => show win13_0.index t 0 * 1 + 1 * 0 = t.val; rw [i0]; omega
  | ⟨1, _⟩ => show win13_0.index t 1 * 28 + 1 * r.val = r.val; rw [i1]; omega
  | ⟨2, _⟩ => show win13_0.index t 2 * 14 + 1 * j.val = j.val; rw [i2]; omega
  | ⟨3, _⟩ => show win13_0.index t 3 * 1024 + 1 * l.val = l.val; rw [i3]; omega

/-- The body loads its input block whole and stores its payload whole: the output's staging buffer holds the payload of
    the block. -/
private theorem pool_out_eq (x0 : Vec Ideal S1x28x14x1024 .f32) : out13_1 x0 = k13_pay1 x0 := by
  unfold out13_1
  rw [View.canon_unit_zero (S := S1x14x14x512) pool_hz, View.ld_unit_zero (S := S1x28x14x1024) pool_hz]

/-- What the write-back at point `t` writes, at element (i, j, ch) of the block: `poolP` at image `t`. -/
private theorem pool_flushed_apply (c : Dev nD) (t : Fin cfg13.N) (i : Fin 14) (j : Fin 14) (ch : Fin 512) :
    (dat13 (F := Ideal) V c).flushed 1 t (ix4 (0 : Fin 1) i j ch) = poolP V c t.val i.val j.val ch.val := by
  show (dat13 (F := Ideal) V c).after 1 t (ix4 (0 : Fin 1) i j ch) = _
  rw [after13_1, pool_out_eq]
  refine (pool_pay_apply (iblk13 (F := Ideal) V c 0 t) i j ch).trans ?_
  unfold poolP
  exact congrArg₂ max (congrArg₂ max (pool_iblk_apply V c t _ j _) (pool_iblk_apply V c t _ j _))
    (congrArg₂ max (pool_iblk_apply V c t _ j _) (pool_iblk_apply V c t _ j _))

/-- Every point writes back its block of `poolG`: block `t` of the result array is image `t`. -/
private theorem pool_flushed_eq (c : Dev nD) (t : Fin cfg13.N) (hf : (cfg13.win 1).flush t = true) :
    (dat13 (F := Ideal) V c).flushed 1 t = ((cfg13.win 1).blk t).view.read (Elt Ideal) (poolG V c) := by
  obtain ⟨-, i0, i1, i2, i3⟩ := pool_geom t
  refine pool_ext4 (n0 := 1) (n1 := 14) (n2 := 14) (n3 := 512) _ _ fun y0 i j ch => ?_
  obtain rfl : y0 = 0 := Subsingleton.elim _ _
  refine (pool_flushed_apply V c t i j ch).trans ?_
  rw [View.read_apply]
  have ht : t.val < 8 := lt_of_lt_of_eq t.isLt N_13
  -- element (0, i, j, ch) of block `t` sits at (t, i, j, ch) in the array
  have ey : ((cfg13.win 1).blk t).view.emb (ix4 (0 : Fin 1) i j ch) = ix4 (⟨t.val, ht⟩ : Fin 8) i j ch := by
    funext a; apply Fin.ext
    match a with
    | ⟨0, _⟩ => show win13_1.index t 0 * 1 + 1 * 0 = t.val; rw [i0]; omega
    | ⟨1, _⟩ => show win13_1.index t 1 * 14 + 1 * i.val = i.val; rw [i1]; omega
    | ⟨2, _⟩ => show win13_1.index t 2 * 14 + 1 * j.val = j.val; rw [i2]; omega
    | ⟨3, _⟩ => show win13_1.index t 3 * 512 + 1 * ch.val = ch.val; rw [i3]; omega
  exact (show poolP V c t.val i.val j.val ch.val = poolG V c (ix4 (⟨t.val, ht⟩ : Fin 8) i j ch) from rfl).trans
    (congrArg (poolG V c) ey.symm)

/-- So the result array ends at `poolG`: the eight blocks, one per image, cover it. -/
private theorem pool_final (c : Dev nD) : (dat13 (F := Ideal) V c).arrAt 1 cfg13.N = poolG V c :=
  (dat13 (F := Ideal) V c).arrAt_eq_of_cover 1 (poolG V c) (pool_flushed_eq V c) fun y => by
    have h0 : (y 0 : Nat) < 8 := (y 0).isLt
    have h1 : (y 1 : Nat) < 14 := (y 1).isLt
    have h2 : (y 2 : Nat) < 14 := (y 2).isLt
    have h3 : (y 3 : Nat) < 512 := (y 3).isLt
    obtain ⟨t, ht⟩ : ∃ t : Fin cfg13.N, t.val = (y 0 : Nat) := ⟨⟨(y 0 : Nat), lt_of_lt_of_eq h0 N_13.symm⟩, rfl⟩
    obtain ⟨-, i0, i1, i2, i3⟩ := pool_geom t
    refine ⟨t, flush13_1 t, ?_⟩
    show y ∈ ((View.whole main_v28).slice (win13_1.rect t)).set
    rw [View.set_slice_whole, Rect.mem_set_unit]
    intro a
    match a with
    | ⟨0, _⟩ => show win13_1.index t 0 * 1 ≤ (y 0 : Nat) ∧ (y 0 : Nat) < win13_1.index t 0 * 1 + 1; rw [i0]; omega
    | ⟨1, _⟩ => show win13_1.index t 1 * 14 ≤ (y 1 : Nat) ∧ (y 1 : Nat) < win13_1.index t 1 * 14 + 14; rw [i1]; omega
    | ⟨2, _⟩ => show win13_1.index t 2 * 14 ≤ (y 2 : Nat) ∧ (y 2 : Nat) < win13_1.index t 2 * 14 + 14; rw [i2]; omega
    | ⟨3, _⟩ => show win13_1.index t 3 * 512 ≤ (y 3 : Nat) ∧ (y 3 : Nat) < win13_1.index t 3 * 512 + 512; rw [i3]; omega

/-- THE VALUE OF REGION 13: element (b, i, j, ch) of the array the region writes is the maximum of its input array at
    rows 2i and 2i + 1 of image b, column pair j, lanes ch and ch + 512 — the row pair first, then the two lane halves. -/
theorem pool13_value (c : Dev nD) (b i j ch : ℕ) (hb : b < 8) (hi : i < 14) (hj : j < 14) (hch : ch < 512) :
    arr4 ((dat13 (F := Ideal) V c).arrAt 1 cfg13.N : Vec Ideal S8x14x14x512 .f32) b i j ch
      = max (max (arr4 (V c (Pipeline.arrRef spec13 0) : Vec Ideal S8x28x14x1024 .f32) b (2 * i) j ch)
                 (arr4 (V c (Pipeline.arrRef spec13 0) : Vec Ideal S8x28x14x1024 .f32) b (2 * i + 1) j ch))
            (max (arr4 (V c (Pipeline.arrRef spec13 0) : Vec Ideal S8x28x14x1024 .f32) b (2 * i) j (ch + 512))
                 (arr4 (V c (Pipeline.arrRef spec13 0) : Vec Ideal S8x28x14x1024 .f32) b (2 * i + 1) j (ch + 512))) := by
  rw [pool_final V c]
  exact arr4_apply (poolG V c) ⟨b, hb⟩ ⟨i, hi⟩ ⟨j, hj⟩ ⟨ch, hch⟩

end Cert.ReferenceIdeal.Val

end
-- ==== Proof.RPool17.lean ====
/-
  The value of region 17 of the reference's @main (a 2x2 pooling) at the ideal values. The region's input is the
  [8, 14, 7, 1024] array in which each image row holds its 7 column PAIRS, a pair's two 512-channel pixels side by
  side on the 1024 lanes; its grid has one point per image, whose input block is that image whole and whose output
  block is the [7, 7, 512] image of the result. The body views the block's 14 rows as 7 row pairs, takes the
  maximum over each pair, and then the maximum of the two lane halves. So element (b, i, j, ch) of the result is the
  maximum of the input at rows 2i, 2i + 1 of image b, column pair j, lanes ch and ch + 512.
-/
import proofs.«100114_g2000204297211070_pallasbulk_1265_19_alg».proof.Proof.Gen.ReferenceIdeal.Frame
import proofs.«100114_g2000204297211070_pallasbulk_1265_19_alg».proof.Proof.Spec
import Idealize.ShloMosaic.Lib.Pipeline.Value
import Idealize.ShloMosaic.Lib.ValueIdx
import Idealize.ShloMosaic.PureOps.Ideal.Laws

set_option maxRecDepth 16384

noncomputable section

namespace Cert.ReferenceIdeal.Val

open Cert.ReferenceIdeal Cert.ReferenceIdeal.Gen Cert.Spec
open Idealize.ShloMosaic Idealize.ShloMosaic.TcCoe Idealize.ShloMosaic.ValueIdx
open Idealize.SL.Sem
open Idealize.ShloMosaic.Pipeline (Dat)

/-! ## The body's arithmetic at an element -/

/-- The accumulator of a maximum, the pattern of minus infinity, is the least extended real. -/
private theorem pool_negInf : Ideal.ofBits .f32 0xFF800000#32 = (⊥ : EReal) := by simp [Ideal.ofBits, Ideal.ieee]

/-- The fold of the maximum from the least element over a two-element axis is the maximum of its two entries. -/
private theorem pool_fold_pair (b : EReal) (hb : b = ⊥) (f : Fin 2 → EReal) : (Finset.univ : Finset (Fin 2)).fold max b f = max (f 0) (f 1) := by
  subst hb
  apply le_antisymm
  · rw [Finset.fold_max_le]
    refine ⟨bot_le, fun x _ => ?_⟩
    fin_cases x
    · exact le_max_left _ _
    · exact le_max_right _ _
  · exact max_le ((Finset.le_fold_max _).2 (Or.inr ⟨0, Finset.mem_univ _, le_refl _⟩))
      ((Finset.le_fold_max _).2 (Or.inr ⟨1, Finset.mem_univ _, le_refl _⟩))

/-- The maximum over the pair axis of a [7, 2, 7, 1024] vector, at (i, j, l): the larger of entries (i, 0, j, l) and
    (i, 1, j, l). -/
private theorem pool_rowmax (src : FVec Ideal S7x2x7x1024 .f32) (h : S7x2x7x1024.Reduces [1] S7x7x1024) (hφ : FKind.Formats .f32)
    (hacc : (0xFF800000#32 : BitVec 32) = FKind.maximumf.neutral .f32 hφ) (i : Fin 7) (j : Fin 7) (l : Fin 1024) :
    multiReduction .maximumf [1] S7x7x1024 src 0xFF800000#32 h hφ hacc (ix3 i j l)
      = max (src (ix4 i (0 : Fin 2) j l)) (src (ix4 i (1 : Fin 2) j l)) := by
  refine (Ideal.multiReduction_maximumf_single src _ h hφ hacc (ix3 i j l)).trans ?_
  refine (pool_fold_pair _ pool_negInf (src ∘ h.lift (ix3 i j l))).trans ?_
  have e0 : h.lift (ix3 i j l) (0 : Fin 2) = ix4 i (0 : Fin 2) j l := by
    funext a; apply Fin.ext; match a with | ⟨0, _⟩ => rfl | ⟨1, _⟩ => rfl | ⟨2, _⟩ => rfl | ⟨3, _⟩ => rfl
  have e1 : h.lift (ix3 i j l) (1 : Fin 2) = ix4 i (1 : Fin 2) j l := by
    funext a; apply Fin.ext; match a with | ⟨0, _⟩ => rfl | ⟨1, _⟩ => rfl | ⟨2, _⟩ => rfl | ⟨3, _⟩ => rfl
  exact congrArg₂ max (congrArg src e0) (congrArg src e1)

/-- Dropping the unit axis in front. -/
private theorem pool_cast1 {α : Type} (x : S1x14x7x1024.Idx → α) (h1 : S1x14x7x1024.ShapeCasts S14x7x1024) (r : Fin 14) (j : Fin 7) (l : Fin 1024) :
    shapeCast S14x7x1024 x h1 (ix3 r j l) = x (ix4 (0 : Fin 1) r j l) := by
  refine shapeCast_apply x h1 (ix3 r j l) (ix4 (0 : Fin 1) r j l) ?_
  rw [Shape.rowMajor_val_three, Shape.rowMajor_val_four]
  show ((0 * 14 + r.val) * 7 + j.val) * 1024 + l.val = (r.val * 7 + j.val) * 1024 + l.val
  omega

/-- The rows viewed as row pairs: entry (i, 0, j, l) of the view is row 2i, -/
private theorem pool_cast2_0 {α : Type} (y : S14x7x1024.Idx → α) (h2 : S14x7x1024.ShapeCasts S7x2x7x1024) (i : Fin 7) (j : Fin 7) (l : Fin 1024) :
    shapeCast S7x2x7x1024 y h2 (ix4 i (0 : Fin 2) j l) = y (ix3 (⟨2 * i.val, by omega⟩ : Fin 14) j l) := by
  refine shapeCast_apply y h2 (ix4 i (0 : Fin 2) j l) (ix3 (⟨2 * i.val, by omega⟩ : Fin 14) j l) ?_
  rw [Shape.rowMajor_val_three, Shape.rowMajor_val_four]
  show ((2 * i.val) * 7 + j.val) * 1024 + l.val = ((i.val * 2 + 0) * 7 + j.val) * 1024 + l.val
  omega

/-- and entry (i, 1, j, l) is row 2i + 1. -/
private theorem pool_cast2_1 {α : Type} (y : S14x7x1024.Idx → α) (h2 : S14x7x1024.ShapeCasts S7x2x7x1024) (i : Fin 7) (j : Fin 7) (l : Fin 1024) :
    shapeCast S7x2x7x1024 y h2 (ix4 i (1 : Fin 2) j l) = y (ix3 (⟨2 * i.val + 1, by omega⟩ : Fin 14) j l) := by
  refine shapeCast_apply y h2 (ix4 i (1 : Fin 2) j l) (ix3 (⟨2 * i.val + 1, by omega⟩ : Fin 14) j l) ?_
  rw [Shape.rowMajor_val_three, Shape.rowMajor_val_four]
  show ((2 * i.val + 1) * 7 + j.val) * 1024 + l.val = ((i.val * 2 + 1) * 7 + j.val) * 1024 + l.val
  omega

/-- The unit axis put back in front. -/
private theorem pool_cast3 {α : Type} (z : S7x7x512.Idx → α) (h6 : S7x7x512.ShapeCasts S1x7x7x512) (i : Fin 7) (j : Fin 7) (ch : Fin 512) :
    shapeCast S1x7x7x512 z h6 (ix4 (0 : Fin 1) i j ch) = z (ix3 i j ch) := by
  refine shapeCast_apply z h6 (ix4 (0 : Fin 1) i j ch) (ix3 i j ch) ?_
  rw [Shape.rowMajor_val_three, Shape.rowMajor_val_four]
  show (i.val * 7 + j.val) * 512 + ch.val = ((0 * 7 + i.val) * 7 + j.val) * 512 + ch.val
  omega

/-- The low lane half. -/
private theorem pool_sliceLo {α : Type} (v : S7x7x1024.Idx → α) (h4 : S7x7x1024.Slices ![0, 0, 0] S7x7x512) (i : Fin 7) (j : Fin 7) (ch : Fin 512) :
    extractStridedSlice S7x7x512 ![0, 0, 0] v h4 (ix3 i j ch) = v (ix3 i j (⟨ch.val, by omega⟩ : Fin 1024)) := by
  refine extractStridedSlice_apply _ v h4 (ix3 i j ch) (ix3 i j (⟨ch.val, by omega⟩ : Fin 1024)) fun a => ?_
  match a with
  | ⟨0, _⟩ => show i.val = 0 + i.val; omega
  | ⟨1, _⟩ => show j.val = 0 + j.val; omega
  | ⟨2, _⟩ => show ch.val = 0 + ch.val; omega

/-- The high lane half. -/
private theorem pool_sliceHi {α : Type} (v : S7x7x1024.Idx → α) (h5 : S7x7x1024.Slices ![0, 0, 512] S7x7x512) (i : Fin 7) (j : Fin 7) (ch : Fin 512) :
    extractStridedSlice S7x7x512 ![0, 0, 512] v h5 (ix3 i j ch) = v (ix3 i j (⟨ch.val + 512, by omega⟩ : Fin 1024)) := by
  refine extractStridedSlice_apply _ v h5 (ix3 i j ch) (ix3 i j (⟨ch.val + 512, by omega⟩ : Fin 1024)) fun a => ?_
  match a with
  | ⟨0, _⟩ => show i.val = 0 + i.val; omega
  | ⟨1, _⟩ => show j.val = 0 + j.val; omega
  | ⟨2, _⟩ => show ch.val + 512 = 512 + ch.val; omega

/-- The pooling body's arithmetic at an output element (i, j, ch): the block's rows viewed as row pairs, the maximum over
    each pair, then the maximum of lanes ch and ch + 512; in the block's own coordinates, rows 2i and 2i + 1. -/
private theorem pool_pay_arith (x : FVec Ideal S1x14x7x1024 .f32)
    (h1 : S1x14x7x1024.ShapeCasts S14x7x1024) (h2 : S14x7x1024.ShapeCasts S7x2x7x1024)
    (h3 : S7x2x7x1024.Reduces [1] S7x7x1024) (hφ : FKind.Formats .f32)
    (hacc : (0xFF800000#32 : BitVec 32) = FKind.maximumf.neutral .f32 hφ)
    (h4 : S7x7x1024.Slices ![0, 0, 0] S7x7x512) (h5 : S7x7x1024.Slices ![0, 0, 512] S7x7x512)
    (h6 : S7x7x512.ShapeCasts S1x7x7x512) (i : Fin 7) (j : Fin 7) (ch : Fin 512) :
    shapeCast S1x7x7x512
      (maximumf
        (extractStridedSlice S7x7x512 ![0, 0, 0]
          (multiReduction .maximumf [1] S7x7x1024 (shapeCast S7x2x7x1024 (shapeCast S14x7x1024 x h1) h2) 0xFF800000#32 h3 hφ hacc) h4)
        (extractStridedSlice S7x7x512 ![0, 0, 512]
          (multiReduction .maximumf [1] S7x7x1024 (shapeCast S7x2x7x1024 (shapeCast S14x7x1024 x h1) h2) 0xFF800000#32 h3 hφ hacc) h5))
      h6 (ix4 (0 : Fin 1) i j ch)
    = max (max (x (ix4 (0 : Fin 1) (⟨2 * i.val, by omega⟩ : Fin 14) j (⟨ch.val, by omega⟩ : Fin 1024)))
               (x (ix4 (0 : Fin 1) (⟨2 * i.val + 1, by omega⟩ : Fin 14) j (⟨ch.val, by omega⟩ : Fin 1024))))
          (max (x (ix4 (0 : Fin 1) (⟨2 * i.val, by omega⟩ : Fin 14) j (⟨ch.val + 512, by omega⟩ : Fin 1024)))
               (x (ix4 (0 : Fin 1) (⟨2 * i.val + 1, by omega⟩ : Fin 14) j (⟨ch.val + 512, by omega⟩ : Fin 1024)))) := by
  have hrow : ∀ l : Fin 1024,
      multiReduction .maximumf [1] S7x7x1024 (shapeCast S7x2x7x1024 (shapeCast S14x7x1024 x h1) h2) 0xFF800000#32 h3 hφ hacc (ix3 i j l)
        = max (x (ix4 (0 : Fin 1) (⟨2 * i.val, by omega⟩ : Fin 14) j l)) (x (ix4 (0 : Fin 1) (⟨2 * i.val + 1, by omega⟩ : Fin 14) j l)) := fun l =>
    (pool_rowmax _ h3 hφ hacc i j l).trans
      (congrArg₂ max ((pool_cast2_0 _ h2 i j l).trans (pool_cast1 x h1 _ j l)) ((pool_cast2_1 _ h2 i j l).trans (pool_cast1 x h1 _ j l)))
  refine (pool_cast3 _ h6 i j ch).trans ?_
  refine (maximumf_apply _ _ _).trans ?_
  exact congrArg₂ max ((pool_sliceLo _ h4 i j ch).trans (hrow _)) ((pool_sliceHi _ h5 i j ch).trans (hrow _))

/-- The generated payload of the body's one store, read at an output element. -/
private theorem pool_pay_apply (x : Vec Ideal S1x14x7x1024 .f32) (i : Fin 7) (j : Fin 7) (ch : Fin 512) :
    k17_pay1 (F := Ideal) x (ix4 (0 : Fin 1) i j ch)
    = max (max (x (ix4 (0 : Fin 1) (⟨2 * i.val, by omega⟩ : Fin 14) j (⟨ch.val, by omega⟩ : Fin 1024)))
               (x (ix4 (0 : Fin 1) (⟨2 * i.val + 1, by omega⟩ : Fin 14) j (⟨ch.val, by omega⟩ : Fin 1024))))
          (max (x (ix4 (0 : Fin 1) (⟨2 * i.val, by omega⟩ : Fin 14) j (⟨ch.val + 512, by omega⟩ : Fin 1024)))
               (x (ix4 (0 : Fin 1) (⟨2 * i.val + 1, by omega⟩ : Fin 14) j (⟨ch.val + 512, by omega⟩ : Fin 1024)))) := by
  unfold k17_pay1
  exact pool_pay_arith x _ _ _ _ _ _ _ _ i j ch

/-! ## The region's blocks and its result -/

variable (V : (c : Dev nD) → (b : Ref sig .tc) → Buf (Elt Ideal) ((c : Thread nD τ).loc b))

/-- The region's input array, at its literal type. -/
private abbrev poolX (c : Dev nD) : Vec Ideal S8x14x7x1024 .f32 := V c (Pipeline.arrRef spec17 0)

/-- What the region leaves at element (b, i, j, ch) of its result, over natural coordinates: the maximum of the input at
    rows 2i and 2i + 1 of image b, column pair j, lanes ch and ch + 512. -/
private def poolP (c : Dev nD) (b i j ch : ℕ) : EReal :=
  max (max (arr4 (poolX V c) b (2 * i) j ch) (arr4 (poolX V c) b (2 * i + 1) j ch))
      (max (arr4 (poolX V c) b (2 * i) j (ch + 512)) (arr4 (poolX V c) b (2 * i + 1) j (ch + 512)))

/-- The result array: `poolP` at each index's coordinates. -/
private def poolG (c : Dev nD) (y : S8x7x7x512.Idx) : EReal := poolP V c (y 0).val (y 1).val (y 2).val (y 3).val

/-- Both windows' block index at every point: the point's number on the image axis, zero on the other three. -/
private theorem pool_geom : ∀ t : Fin grid17.N,
    (win17_0.index t 0 = t.val ∧ win17_0.index t 1 = 0 ∧ win17_0.index t 2 = 0 ∧ win17_0.index t 3 = 0)
    ∧ (win17_1.index t 0 = t.val ∧ win17_1.index t 1 = 0 ∧ win17_1.index t 2 = 0 ∧ win17_1.index t 3 = 0) := by
  decide +kernel

private theorem pool_hz : (![0, 0, 0, 0] : Fin 4 → Nat) = fun _ => 0 := funext fun a => by fin_cases a <;> rfl

/-- Two functions of a rank-4 index agree when they agree at every tuple of coordinates. -/
private theorem pool_ext4 {n0 n1 n2 n3 : ℕ} {α : Type} (f g : (⟨4, ![n0, n1, n2, n3]⟩ : Shape).Idx → α)
    (h : ∀ a b c d, f (ix4 a b c d) = g (ix4 a b c d)) : f = g :=
  funext fun y => (congrArg f (eq_ix4 y)).trans ((h _ _ _ _).trans (congrArg g (eq_ix4 y)).symm)

/-- The input block at point `t` is image `t` of the input array. -/
private theorem pool_iblk_apply (c : Dev nD) (t : Fin cfg17.N) (r : Fin 14) (j : Fin 7) (l : Fin 1024) :
    (iblk17 (F := Ideal) V c 0 t) (ix4 (0 : Fin 1) r j l) = arr4 (poolX V c) t.val r.val j.val l.val := by
  obtain ⟨⟨i0, i1, i2, i3⟩, -⟩ := pool_geom t
  have ht : t.val < 8 := lt_of_lt_of_eq t.isLt N_17
  refine Eq.trans ?_ (arr4_apply (poolX V c) ⟨t.val, ht⟩ r j l).symm
  unfold iblk17
  rw [View.read_apply]
  show V c main_v35 _ = V c main_v35 _
  congr 1
  funext a; apply Fin.ext
  match a with
  | ⟨0, _⟩ => show win17_0.index t 0 * 1 + 1 * 0 = t.val; rw [i0]; omega
  | ⟨1, _⟩ => show win17_0.index t 1 * 14 + 1 * r.val = r.val; rw [i1]; omega
  | ⟨2, _⟩ => show win17_0.index t 2 * 7 + 1 * j.val = j.val; rw [i2]; omega
  | ⟨3, _⟩ => show win17_0.index t 3 * 1024 + 1 * l.val = l.val; rw [i3]; omega

/-- The body loads its input block whole and stores its payload whole: the output's staging buffer holds the payload of
    the block. -/
private theorem pool_out_eq (x0 : Vec Ideal S1x14x7x1024 .f32) : out17_1 x0 = k17_pay1 x0 := by
  unfold out17_1
  rw [View.canon_unit_zero (S := S1x7x7x512) pool_hz, View.ld_unit_zero (S := S1x14x7x1024) pool_hz]

/-- What the write-back at point `t` writes, at element (i, j, ch) of the block: `poolP` at image `t`. -/
private theorem pool_flushed_apply (c : Dev nD) (t : Fin cfg17.N) (i : Fin 7) (j : Fin 7) (ch : Fin 512) :
    (dat17 (F := Ideal) V c).flushed 1 t (ix4 (0 : Fin 1) i j ch) = poolP V c t.val i.val j.val ch.val := by
  show (dat17 (F := Ideal) V c).after 1 t (ix4 (0 : Fin 1) i j ch) = _
  rw [after17_1, pool_out_eq]
  refine (pool_pay_apply (iblk17 (F := Ideal) V c 0 t) i j ch).trans ?_
  unfold poolP
  exact congrArg₂ max (congrArg₂ max (pool_iblk_apply V c t _ j _) (pool_iblk_apply V c t _ j _))
    (congrArg₂ max (pool_iblk_apply V c t _ j _) (pool_iblk_apply V c t _ j _))

/-- Every point writes back its block of `poolG`: block `t` of the result array is image `t`. -/
private theorem pool_flushed_eq (c : Dev nD) (t : Fin cfg17.N) (hf : (cfg17.win 1).flush t = true) :
    (dat17 (F := Ideal) V c).flushed 1 t = ((cfg17.win 1).blk t).view.read (Elt Ideal) (poolG V c) := by
  obtain ⟨-, i0, i1, i2, i3⟩ := pool_geom t
  refine pool_ext4 (n0 := 1) (n1 := 7) (n2 := 7) (n3 := 512) _ _ fun y0 i j ch => ?_
  obtain rfl : y0 = 0 := Subsingleton.elim _ _
  refine (pool_flushed_apply V c t i j ch).trans ?_
  rw [View.read_apply]
  have ht : t.val < 8 := lt_of_lt_of_eq t.isLt N_17
  -- element (0, i, j, ch) of block `t` sits at (t, i, j, ch) in the array
  have ey : ((cfg17.win 1).blk t).view.emb (ix4 (0 : Fin 1) i j ch) = ix4 (⟨t.val, ht⟩ : Fin 8) i j ch := by
    funext a; apply Fin.ext
    match a with
    | ⟨0, _⟩ => show win17_1.index t 0 * 1 + 1 * 0 = t.val; rw [i0]; omega
    | ⟨1, _⟩ => show win17_1.index t 1 * 7 + 1 * i.val = i.val; rw [i1]; omega
    | ⟨2, _⟩ => show win17_1.index t 2 * 7 + 1 * j.val = j.val; rw [i2]; omega
    | ⟨3, _⟩ => show win17_1.index t 3 * 512 + 1 * ch.val = ch.val; rw [i3]; omega
  exact (show poolP V c t.val i.val j.val ch.val = poolG V c (ix4 (⟨t.val, ht⟩ : Fin 8) i j ch) from rfl).trans
    (congrArg (poolG V c) ey.symm)

/-- So the result array ends at `poolG`: the eight blocks, one per image, cover it. -/
private theorem pool_final (c : Dev nD) : (dat17 (F := Ideal) V c).arrAt 1 cfg17.N = poolG V c :=
  (dat17 (F := Ideal) V c).arrAt_eq_of_cover 1 (poolG V c) (pool_flushed_eq V c) fun y => by
    have h0 : (y 0 : Nat) < 8 := (y 0).isLt
    have h1 : (y 1 : Nat) < 7 := (y 1).isLt
    have h2 : (y 2 : Nat) < 7 := (y 2).isLt
    have h3 : (y 3 : Nat) < 512 := (y 3).isLt
    obtain ⟨t, ht⟩ : ∃ t : Fin cfg17.N, t.val = (y 0 : Nat) := ⟨⟨(y 0 : Nat), lt_of_lt_of_eq h0 N_17.symm⟩, rfl⟩
    obtain ⟨-, i0, i1, i2, i3⟩ := pool_geom t
    refine ⟨t, flush17_1 t, ?_⟩
    show y ∈ ((View.whole main_v36).slice (win17_1.rect t)).set
    rw [View.set_slice_whole, Rect.mem_set_unit]
    intro a
    match a with
    | ⟨0, _⟩ => show win17_1.index t 0 * 1 ≤ (y 0 : Nat) ∧ (y 0 : Nat) < win17_1.index t 0 * 1 + 1; rw [i0]; omega
    | ⟨1, _⟩ => show win17_1.index t 1 * 7 ≤ (y 1 : Nat) ∧ (y 1 : Nat) < win17_1.index t 1 * 7 + 7; rw [i1]; omega
    | ⟨2, _⟩ => show win17_1.index t 2 * 7 ≤ (y 2 : Nat) ∧ (y 2 : Nat) < win17_1.index t 2 * 7 + 7; rw [i2]; omega
    | ⟨3, _⟩ => show win17_1.index t 3 * 512 ≤ (y 3 : Nat) ∧ (y 3 : Nat) < win17_1.index t 3 * 512 + 512; rw [i3]; omega

/-- THE VALUE OF REGION 17: element (b, i, j, ch) of the array the region writes is the maximum of its input array at
    rows 2i and 2i + 1 of image b, column pair j, lanes ch and ch + 512 — the row pair first, then the two lane halves. -/
theorem pool17_value (c : Dev nD) (b i j ch : ℕ) (hb : b < 8) (hi : i < 7) (hj : j < 7) (hch : ch < 512) :
    arr4 ((dat17 (F := Ideal) V c).arrAt 1 cfg17.N : Vec Ideal S8x7x7x512 .f32) b i j ch
      = max (max (arr4 (V c (Pipeline.arrRef spec17 0) : Vec Ideal S8x14x7x1024 .f32) b (2 * i) j ch)
                 (arr4 (V c (Pipeline.arrRef spec17 0) : Vec Ideal S8x14x7x1024 .f32) b (2 * i + 1) j ch))
            (max (arr4 (V c (Pipeline.arrRef spec17 0) : Vec Ideal S8x14x7x1024 .f32) b (2 * i) j (ch + 512))
                 (arr4 (V c (Pipeline.arrRef spec17 0) : Vec Ideal S8x14x7x1024 .f32) b (2 * i + 1) j (ch + 512))) := by
  rw [pool_final V c]
  exact arr4_apply (poolG V c) ⟨b, hb⟩ ⟨i, hi⟩ ⟨j, hj⟩ ⟨ch, hch⟩

end Cert.ReferenceIdeal.Val

end
-- ==== Proof.RGlue0.lean ====
/-
  The reference program's argument buffers at every segment boundary of @main, up to the last convolution's entry:
  no host operation writes an argument, and a region before the one that reads it leaves every buffer that is not one
  of its own arrays as entered; so the fold of the boundaries' contents, read at an argument, walks back to the launch
  memory. The list argLJ holds every reference written by a step up to boundary J; a reference outside it holds its launch
  contents at boundary J (argAllJ), and each convolution's two arguments are outside the list of its entry boundary.
-/
import proofs.«100114_g2000204297211070_pallasbulk_1265_19_alg».proof.Proof.Gen.ReferenceIdeal.Frame
import Idealize.ShloMosaic.Lib.StableHlo.Run

set_option maxRecDepth 16384

noncomputable section

namespace Cert.ReferenceIdeal.Glue

open Cert.ReferenceIdeal Cert.ReferenceIdeal.Gen
open Idealize.ShloMosaic Idealize.ShloMosaic.TcCoe

variable {F : FTy → Type} [FloatOps F]
variable (m : (ℓ : Loc nD τ sig) → Buf (Elt F) ℓ) (ρ : Dev nD → PrngReg)

/-! ## What each host stretch writes -/

abbrev argW_hostOps0 : List (Ref sig .tc) := [main_v0, main_c]
theorem argWrites_hostOps0 : (hostOps0 : List (HloOp τ sig (Elt F))).Forall fun op => op.writes ⊆ (argW_hostOps0.map (Proc.devRef (τ := τ) .tc)).toFinset := by
  simp only [List.Forall, StableHlo.nullary_writes, StableHlo.unary_writes, StableHlo.binary_writes, StableHlo.reshape_writes, Finset.singleton_subset_iff, List.mem_toFinset]
  repeat' apply And.intro
  all_goals exact List.mem_map_of_mem (by decide)
abbrev argW_hostOps0_1 : List (Ref sig .tc) := [main_call0_v0, main_v1]
theorem argWrites_hostOps0_1 : (hostOps0_1 : List (HloOp τ sig (Elt F))).Forall fun op => op.writes ⊆ (argW_hostOps0_1.map (Proc.devRef (τ := τ) .tc)).toFinset := by
  simp only [List.Forall, StableHlo.nullary_writes, StableHlo.unary_writes, StableHlo.binary_writes, StableHlo.reshape_writes, Finset.singleton_subset_iff, List.mem_toFinset]
  repeat' apply And.intro
  all_goals exact List.mem_map_of_mem (by decide)
abbrev argW_hostOps1 : List (Ref sig .tc) := [main_c_0]
theorem argWrites_hostOps1 : (hostOps1 : List (HloOp τ sig (Elt F))).Forall fun op => op.writes ⊆ (argW_hostOps1.map (Proc.devRef (τ := τ) .tc)).toFinset := by
  simp only [List.Forall, StableHlo.nullary_writes, StableHlo.unary_writes, StableHlo.binary_writes, StableHlo.reshape_writes, Finset.singleton_subset_iff, List.mem_toFinset]
  repeat' apply And.intro
  all_goals exact List.mem_map_of_mem (by decide)
abbrev argW_hostOps1_1 : List (Ref sig .tc) := [main_call1_v0, main_v3]
theorem argWrites_hostOps1_1 : (hostOps1_1 : List (HloOp τ sig (Elt F))).Forall fun op => op.writes ⊆ (argW_hostOps1_1.map (Proc.devRef (τ := τ) .tc)).toFinset := by
  simp only [List.Forall, StableHlo.nullary_writes, StableHlo.unary_writes, StableHlo.binary_writes, StableHlo.reshape_writes, Finset.singleton_subset_iff, List.mem_toFinset]
  repeat' apply And.intro
  all_goals exact List.mem_map_of_mem (by decide)
abbrev argW_hostOps2 : List (Ref sig .tc) := [main_v5]
theorem argWrites_hostOps2 : (hostOps2 : List (HloOp τ sig (Elt F))).Forall fun op => op.writes ⊆ (argW_hostOps2.map (Proc.devRef (τ := τ) .tc)).toFinset := by
  simp only [List.Forall, StableHlo.nullary_writes, StableHlo.unary_writes, StableHlo.binary_writes, StableHlo.reshape_writes, Finset.singleton_subset_iff, List.mem_toFinset]
  repeat' apply And.intro
  all_goals exact List.mem_map_of_mem (by decide)
abbrev argW_hostOps3 : List (Ref sig .tc) := [main_c_1]
theorem argWrites_hostOps3 : (hostOps3 : List (HloOp τ sig (Elt F))).Forall fun op => op.writes ⊆ (argW_hostOps3.map (Proc.devRef (τ := τ) .tc)).toFinset := by
  simp only [List.Forall, StableHlo.nullary_writes, StableHlo.unary_writes, StableHlo.binary_writes, StableHlo.reshape_writes, Finset.singleton_subset_iff, List.mem_toFinset]
  repeat' apply And.intro
  all_goals exact List.mem_map_of_mem (by decide)
abbrev argW_hostOps3_1 : List (Ref sig .tc) := [main_call2_v0, main_v7]
theorem argWrites_hostOps3_1 : (hostOps3_1 : List (HloOp τ sig (Elt F))).Forall fun op => op.writes ⊆ (argW_hostOps3_1.map (Proc.devRef (τ := τ) .tc)).toFinset := by
  simp only [List.Forall, StableHlo.nullary_writes, StableHlo.unary_writes, StableHlo.binary_writes, StableHlo.reshape_writes, Finset.singleton_subset_iff, List.mem_toFinset]
  repeat' apply And.intro
  all_goals exact List.mem_map_of_mem (by decide)
abbrev argW_hostOps4 : List (Ref sig .tc) := [main_c_2]
theorem argWrites_hostOps4 : (hostOps4 : List (HloOp τ sig (Elt F))).Forall fun op => op.writes ⊆ (argW_hostOps4.map (Proc.devRef (τ := τ) .tc)).toFinset := by
  simp only [List.Forall, StableHlo.nullary_writes, StableHlo.unary_writes, StableHlo.binary_writes, StableHlo.reshape_writes, Finset.singleton_subset_iff, List.mem_toFinset]
  repeat' apply And.intro
  all_goals exact List.mem_map_of_mem (by decide)
abbrev argW_hostOps4_1 : List (Ref sig .tc) := [main_call3_v0, main_v9]
theorem argWrites_hostOps4_1 : (hostOps4_1 : List (HloOp τ sig (Elt F))).Forall fun op => op.writes ⊆ (argW_hostOps4_1.map (Proc.devRef (τ := τ) .tc)).toFinset := by
  simp only [List.Forall, StableHlo.nullary_writes, StableHlo.unary_writes, StableHlo.binary_writes, StableHlo.reshape_writes, Finset.singleton_subset_iff, List.mem_toFinset]
  repeat' apply And.intro
  all_goals exact List.mem_map_of_mem (by decide)
abbrev argW_hostOps5 : List (Ref sig .tc) := [main_v11]
theorem argWrites_hostOps5 : (hostOps5 : List (HloOp τ sig (Elt F))).Forall fun op => op.writes ⊆ (argW_hostOps5.map (Proc.devRef (τ := τ) .tc)).toFinset := by
  simp only [List.Forall, StableHlo.nullary_writes, StableHlo.unary_writes, StableHlo.binary_writes, StableHlo.reshape_writes, Finset.singleton_subset_iff, List.mem_toFinset]
  repeat' apply And.intro
  all_goals exact List.mem_map_of_mem (by decide)
abbrev argW_hostOps6 : List (Ref sig .tc) := [main_c_3]
theorem argWrites_hostOps6 : (hostOps6 : List (HloOp τ sig (Elt F))).Forall fun op => op.writes ⊆ (argW_hostOps6.map (Proc.devRef (τ := τ) .tc)).toFinset := by
  simp only [List.Forall, StableHlo.nullary_writes, StableHlo.unary_writes, StableHlo.binary_writes, StableHlo.reshape_writes, Finset.singleton_subset_iff, List.mem_toFinset]
  repeat' apply And.intro
  all_goals exact List.mem_map_of_mem (by decide)
abbrev argW_hostOps6_1 : List (Ref sig .tc) := [main_call4_v0, main_v13]
theorem argWrites_hostOps6_1 : (hostOps6_1 : List (HloOp τ sig (Elt F))).Forall fun op => op.writes ⊆ (argW_hostOps6_1.map (Proc.devRef (τ := τ) .tc)).toFinset := by
  simp only [List.Forall, StableHlo.nullary_writes, StableHlo.unary_writes, StableHlo.binary_writes, StableHlo.reshape_writes, Finset.singleton_subset_iff, List.mem_toFinset]
  repeat' apply And.intro
  all_goals exact List.mem_map_of_mem (by decide)
abbrev argW_hostOps7 : List (Ref sig .tc) := [main_c_4]
theorem argWrites_hostOps7 : (hostOps7 : List (HloOp τ sig (Elt F))).Forall fun op => op.writes ⊆ (argW_hostOps7.map (Proc.devRef (τ := τ) .tc)).toFinset := by
  simp only [List.Forall, StableHlo.nullary_writes, StableHlo.unary_writes, StableHlo.binary_writes, StableHlo.reshape_writes, Finset.singleton_subset_iff, List.mem_toFinset]
  repeat' apply And.intro
  all_goals exact List.mem_map_of_mem (by decide)
abbrev argW_hostOps7_1 : List (Ref sig .tc) := [main_call5_v0, main_v15]
theorem argWrites_hostOps7_1 : (hostOps7_1 : List (HloOp τ sig (Elt F))).Forall fun op => op.writes ⊆ (argW_hostOps7_1.map (Proc.devRef (τ := τ) .tc)).toFinset := by
  simp only [List.Forall, StableHlo.nullary_writes, StableHlo.unary_writes, StableHlo.binary_writes, StableHlo.reshape_writes, Finset.singleton_subset_iff, List.mem_toFinset]
  repeat' apply And.intro
  all_goals exact List.mem_map_of_mem (by decide)
abbrev argW_hostOps8 : List (Ref sig .tc) := [main_c_5]
theorem argWrites_hostOps8 : (hostOps8 : List (HloOp τ sig (Elt F))).Forall fun op => op.writes ⊆ (argW_hostOps8.map (Proc.devRef (τ := τ) .tc)).toFinset := by
  simp only [List.Forall, StableHlo.nullary_writes, StableHlo.unary_writes, StableHlo.binary_writes, StableHlo.reshape_writes, Finset.singleton_subset_iff, List.mem_toFinset]
  repeat' apply And.intro
  all_goals exact List.mem_map_of_mem (by decide)
abbrev argW_hostOps8_1 : List (Ref sig .tc) := [main_call6_v0, main_v17]
theorem argWrites_hostOps8_1 : (hostOps8_1 : List (HloOp τ sig (Elt F))).Forall fun op => op.writes ⊆ (argW_hostOps8_1.map (Proc.devRef (τ := τ) .tc)).toFinset := by
  simp only [List.Forall, StableHlo.nullary_writes, StableHlo.unary_writes, StableHlo.binary_writes, StableHlo.reshape_writes, Finset.singleton_subset_iff, List.mem_toFinset]
  repeat' apply And.intro
  all_goals exact List.mem_map_of_mem (by decide)
abbrev argW_hostOps9 : List (Ref sig .tc) := [main_v19]
theorem argWrites_hostOps9 : (hostOps9 : List (HloOp τ sig (Elt F))).Forall fun op => op.writes ⊆ (argW_hostOps9.map (Proc.devRef (τ := τ) .tc)).toFinset := by
  simp only [List.Forall, StableHlo.nullary_writes, StableHlo.unary_writes, StableHlo.binary_writes, StableHlo.reshape_writes, Finset.singleton_subset_iff, List.mem_toFinset]
  repeat' apply And.intro
  all_goals exact List.mem_map_of_mem (by decide)
abbrev argW_hostOps10 : List (Ref sig .tc) := [main_c_6]
theorem argWrites_hostOps10 : (hostOps10 : List (HloOp τ sig (Elt F))).Forall fun op => op.writes ⊆ (argW_hostOps10.map (Proc.devRef (τ := τ) .tc)).toFinset := by
  simp only [List.Forall, StableHlo.nullary_writes, StableHlo.unary_writes, StableHlo.binary_writes, StableHlo.reshape_writes, Finset.singleton_subset_iff, List.mem_toFinset]
  repeat' apply And.intro
  all_goals exact List.mem_map_of_mem (by decide)
abbrev argW_hostOps10_1 : List (Ref sig .tc) := [main_call7_v0, main_v21]
theorem argWrites_hostOps10_1 : (hostOps10_1 : List (HloOp τ sig (Elt F))).Forall fun op => op.writes ⊆ (argW_hostOps10_1.map (Proc.devRef (τ := τ) .tc)).toFinset := by
  simp only [List.Forall, StableHlo.nullary_writes, StableHlo.unary_writes, StableHlo.binary_writes, StableHlo.reshape_writes, Finset.singleton_subset_iff, List.mem_toFinset]
  repeat' apply And.intro
  all_goals exact List.mem_map_of_mem (by decide)
abbrev argW_hostOps11 : List (Ref sig .tc) := [main_c_7]
theorem argWrites_hostOps11 : (hostOps11 : List (HloOp τ sig (Elt F))).Forall fun op => op.writes ⊆ (argW_hostOps11.map (Proc.devRef (τ := τ) .tc)).toFinset := by
  simp only [List.Forall, StableHlo.nullary_writes, StableHlo.unary_writes, StableHlo.binary_writes, StableHlo.reshape_writes, Finset.singleton_subset_iff, List.mem_toFinset]
  repeat' apply And.intro
  all_goals exact List.mem_map_of_mem (by decide)
abbrev argW_hostOps11_1 : List (Ref sig .tc) := [main_call8_v0, main_v23]
theorem argWrites_hostOps11_1 : (hostOps11_1 : List (HloOp τ sig (Elt F))).Forall fun op => op.writes ⊆ (argW_hostOps11_1.map (Proc.devRef (τ := τ) .tc)).toFinset := by
  simp only [List.Forall, StableHlo.nullary_writes, StableHlo.unary_writes, StableHlo.binary_writes, StableHlo.reshape_writes, Finset.singleton_subset_iff, List.mem_toFinset]
  repeat' apply And.intro
  all_goals exact List.mem_map_of_mem (by decide)
abbrev argW_hostOps12 : List (Ref sig .tc) := [main_c_8]
theorem argWrites_hostOps12 : (hostOps12 : List (HloOp τ sig (Elt F))).Forall fun op => op.writes ⊆ (argW_hostOps12.map (Proc.devRef (τ := τ) .tc)).toFinset := by
  simp only [List.Forall, StableHlo.nullary_writes, StableHlo.unary_writes, StableHlo.binary_writes, StableHlo.reshape_writes, Finset.singleton_subset_iff, List.mem_toFinset]
  repeat' apply And.intro
  all_goals exact List.mem_map_of_mem (by decide)
abbrev argW_hostOps12_1 : List (Ref sig .tc) := [main_call9_v0, main_v25]
theorem argWrites_hostOps12_1 : (hostOps12_1 : List (HloOp τ sig (Elt F))).Forall fun op => op.writes ⊆ (argW_hostOps12_1.map (Proc.devRef (τ := τ) .tc)).toFinset := by
  simp only [List.Forall, StableHlo.nullary_writes, StableHlo.unary_writes, StableHlo.binary_writes, StableHlo.reshape_writes, Finset.singleton_subset_iff, List.mem_toFinset]
  repeat' apply And.intro
  all_goals exact List.mem_map_of_mem (by decide)
abbrev argW_hostOps13 : List (Ref sig .tc) := [main_v27]
theorem argWrites_hostOps13 : (hostOps13 : List (HloOp τ sig (Elt F))).Forall fun op => op.writes ⊆ (argW_hostOps13.map (Proc.devRef (τ := τ) .tc)).toFinset := by
  simp only [List.Forall, StableHlo.nullary_writes, StableHlo.unary_writes, StableHlo.binary_writes, StableHlo.reshape_writes, Finset.singleton_subset_iff, List.mem_toFinset]
  repeat' apply And.intro
  all_goals exact List.mem_map_of_mem (by decide)
abbrev argW_hostOps14 : List (Ref sig .tc) := [main_c_9]
theorem argWrites_hostOps14 : (hostOps14 : List (HloOp τ sig (Elt F))).Forall fun op => op.writes ⊆ (argW_hostOps14.map (Proc.devRef (τ := τ) .tc)).toFinset := by
  simp only [List.Forall, StableHlo.nullary_writes, StableHlo.unary_writes, StableHlo.binary_writes, StableHlo.reshape_writes, Finset.singleton_subset_iff, List.mem_toFinset]
  repeat' apply And.intro
  all_goals exact List.mem_map_of_mem (by decide)
abbrev argW_hostOps14_1 : List (Ref sig .tc) := [main_call10_v0, main_v29]
theorem argWrites_hostOps14_1 : (hostOps14_1 : List (HloOp τ sig (Elt F))).Forall fun op => op.writes ⊆ (argW_hostOps14_1.map (Proc.devRef (τ := τ) .tc)).toFinset := by
  simp only [List.Forall, StableHlo.nullary_writes, StableHlo.unary_writes, StableHlo.binary_writes, StableHlo.reshape_writes, Finset.singleton_subset_iff, List.mem_toFinset]
  repeat' apply And.intro
  all_goals exact List.mem_map_of_mem (by decide)
abbrev argW_hostOps15 : List (Ref sig .tc) := [main_c_10]
theorem argWrites_hostOps15 : (hostOps15 : List (HloOp τ sig (Elt F))).Forall fun op => op.writes ⊆ (argW_hostOps15.map (Proc.devRef (τ := τ) .tc)).toFinset := by
  simp only [List.Forall, StableHlo.nullary_writes, StableHlo.unary_writes, StableHlo.binary_writes, StableHlo.reshape_writes, Finset.singleton_subset_iff, List.mem_toFinset]
  repeat' apply And.intro
  all_goals exact List.mem_map_of_mem (by decide)
abbrev argW_hostOps15_1 : List (Ref sig .tc) := [main_call11_v0, main_v31]
theorem argWrites_hostOps15_1 : (hostOps15_1 : List (HloOp τ sig (Elt F))).Forall fun op => op.writes ⊆ (argW_hostOps15_1.map (Proc.devRef (τ := τ) .tc)).toFinset := by
  simp only [List.Forall, StableHlo.nullary_writes, StableHlo.unary_writes, StableHlo.binary_writes, StableHlo.reshape_writes, Finset.singleton_subset_iff, List.mem_toFinset]
  repeat' apply And.intro
  all_goals exact List.mem_map_of_mem (by decide)
abbrev argW_hostOps16 : List (Ref sig .tc) := [main_c_11]
theorem argWrites_hostOps16 : (hostOps16 : List (HloOp τ sig (Elt F))).Forall fun op => op.writes ⊆ (argW_hostOps16.map (Proc.devRef (τ := τ) .tc)).toFinset := by
  simp only [List.Forall, StableHlo.nullary_writes, StableHlo.unary_writes, StableHlo.binary_writes, StableHlo.reshape_writes, Finset.singleton_subset_iff, List.mem_toFinset]
  repeat' apply And.intro
  all_goals exact List.mem_map_of_mem (by decide)
abbrev argW_hostOps16_1 : List (Ref sig .tc) := [main_call12_v0, main_v33]
theorem argWrites_hostOps16_1 : (hostOps16_1 : List (HloOp τ sig (Elt F))).Forall fun op => op.writes ⊆ (argW_hostOps16_1.map (Proc.devRef (τ := τ) .tc)).toFinset := by
  simp only [List.Forall, StableHlo.nullary_writes, StableHlo.unary_writes, StableHlo.binary_writes, StableHlo.reshape_writes, Finset.singleton_subset_iff, List.mem_toFinset]
  repeat' apply And.intro
  all_goals exact List.mem_map_of_mem (by decide)

/-! ## Each region's arrays -/

abbrev argReg0_W : List (Ref sig .tc) := [main_v1, main_arg1, main_arg2, main_v2]
theorem argReg0_mem : ∀ w : Fin cfg0.W, Pipeline.arrRef spec0 w ∈ argReg0_W := by decide
abbrev argReg1_W : List (Ref sig .tc) := [main_v3, main_arg3, main_arg4, main_v4]
theorem argReg1_mem : ∀ w : Fin cfg1.W, Pipeline.arrRef spec1 w ∈ argReg1_W := by decide
abbrev argReg2_W : List (Ref sig .tc) := [main_v5, main_v6]
theorem argReg2_mem : ∀ w : Fin cfg2.W, Pipeline.arrRef spec2 w ∈ argReg2_W := by decide
abbrev argReg3_W : List (Ref sig .tc) := [main_v7, main_arg5, main_arg6, main_v8]
theorem argReg3_mem : ∀ w : Fin cfg3.W, Pipeline.arrRef spec3 w ∈ argReg3_W := by decide
abbrev argReg4_W : List (Ref sig .tc) := [main_v9, main_arg7, main_arg8, main_v10]
theorem argReg4_mem : ∀ w : Fin cfg4.W, Pipeline.arrRef spec4 w ∈ argReg4_W := by decide
abbrev argReg5_W : List (Ref sig .tc) := [main_v11, main_v12]
theorem argReg5_mem : ∀ w : Fin cfg5.W, Pipeline.arrRef spec5 w ∈ argReg5_W := by decide
abbrev argReg6_W : List (Ref sig .tc) := [main_v13, main_arg9, main_arg10, main_v14]
theorem argReg6_mem : ∀ w : Fin cfg6.W, Pipeline.arrRef spec6 w ∈ argReg6_W := by decide
abbrev argReg7_W : List (Ref sig .tc) := [main_v15, main_arg11, main_arg12, main_v16]
theorem argReg7_mem : ∀ w : Fin cfg7.W, Pipeline.arrRef spec7 w ∈ argReg7_W := by decide
abbrev argReg8_W : List (Ref sig .tc) := [main_v17, main_arg13, main_arg14, main_v18]
theorem argReg8_mem : ∀ w : Fin cfg8.W, Pipeline.arrRef spec8 w ∈ argReg8_W := by decide
abbrev argReg9_W : List (Ref sig .tc) := [main_v19, main_v20]
theorem argReg9_mem : ∀ w : Fin cfg9.W, Pipeline.arrRef spec9 w ∈ argReg9_W := by decide
abbrev argReg10_W : List (Ref sig .tc) := [main_v21, main_arg15, main_arg16, main_v22]
theorem argReg10_mem : ∀ w : Fin cfg10.W, Pipeline.arrRef spec10 w ∈ argReg10_W := by decide
abbrev argReg11_W : List (Ref sig .tc) := [main_v23, main_arg17, main_arg18, main_v24]
theorem argReg11_mem : ∀ w : Fin cfg11.W, Pipeline.arrRef spec11 w ∈ argReg11_W := by decide
abbrev argReg12_W : List (Ref sig .tc) := [main_v25, main_arg19, main_arg20, main_v26]
theorem argReg12_mem : ∀ w : Fin cfg12.W, Pipeline.arrRef spec12 w ∈ argReg12_W := by decide
abbrev argReg13_W : List (Ref sig .tc) := [main_v27, main_v28]
theorem argReg13_mem : ∀ w : Fin cfg13.W, Pipeline.arrRef spec13 w ∈ argReg13_W := by decide
abbrev argReg14_W : List (Ref sig .tc) := [main_v29, main_arg21, main_arg22, main_v30]
theorem argReg14_mem : ∀ w : Fin cfg14.W, Pipeline.arrRef spec14 w ∈ argReg14_W := by decide
abbrev argReg15_W : List (Ref sig .tc) := [main_v31, main_arg23, main_arg24, main_v32]
theorem argReg15_mem : ∀ w : Fin cfg15.W, Pipeline.arrRef spec15 w ∈ argReg15_W := by decide

/-! ## The fold at a reference no step has written -/

abbrev argL0 : List (Ref sig .tc) := []
theorem argAll0 (c : Dev nD) (r : Ref sig .tc) (h : r ∉ argL0) : W0 m ρ c (Proc.devRef .tc r) = m ((c : Thread nD τ).loc r) := rfl
abbrev argL1 : List (Ref sig .tc) := argW_hostOps0 ++ argL0
theorem argKeep1 (c : Dev nD) (r : Ref sig .tc) (h : r ∉ argW_hostOps0) : W1 m ρ c (Proc.devRef .tc r) = W0 m ρ c (Proc.devRef .tc r) :=
  StableHlo.after_of_writes_sub hostOps0 _ argWrites_hostOps0 h
theorem argAll1 (c : Dev nD) (r : Ref sig .tc) (h : r ∉ argL1) : W1 m ρ c (Proc.devRef .tc r) = m ((c : Thread nD τ).loc r) :=
  (argKeep1 m ρ c r fun hh => h (List.mem_append_left _ hh)).trans (argAll0 m ρ c r fun hh => h (List.mem_append_right _ hh))
abbrev argL2 : List (Ref sig .tc) := argW_hostOps0_1 ++ argL1
theorem argKeep2 (c : Dev nD) (r : Ref sig .tc) (h : r ∉ argW_hostOps0_1) : W2 m ρ c (Proc.devRef .tc r) = W1 m ρ c (Proc.devRef .tc r) :=
  StableHlo.after_of_writes_sub hostOps0_1 _ argWrites_hostOps0_1 h
theorem argAll2 (c : Dev nD) (r : Ref sig .tc) (h : r ∉ argL2) : W2 m ρ c (Proc.devRef .tc r) = m ((c : Thread nD τ).loc r) :=
  (argKeep2 m ρ c r fun hh => h (List.mem_append_left _ hh)).trans (argAll1 m ρ c r fun hh => h (List.mem_append_right _ hh))
abbrev argL3 : List (Ref sig .tc) := argReg0_W ++ argL2
theorem argKeep3 (c : Dev nD) (r : Ref sig .tc) (h : r ∉ argReg0_W) : W3 m ρ c (Proc.devRef .tc r) = W2 m ρ c (Proc.devRef .tc r) :=
  W3_of_ne m ρ c r fun w e => h (e ▸ argReg0_mem w)
theorem argAll3 (c : Dev nD) (r : Ref sig .tc) (h : r ∉ argL3) : W3 m ρ c (Proc.devRef .tc r) = m ((c : Thread nD τ).loc r) :=
  (argKeep3 m ρ c r fun hh => h (List.mem_append_left _ hh)).trans (argAll2 m ρ c r fun hh => h (List.mem_append_right _ hh))
abbrev argL4 : List (Ref sig .tc) := argW_hostOps1 ++ argL3
theorem argKeep4 (c : Dev nD) (r : Ref sig .tc) (h : r ∉ argW_hostOps1) : W4 m ρ c (Proc.devRef .tc r) = W3 m ρ c (Proc.devRef .tc r) :=
  StableHlo.after_of_writes_sub hostOps1 _ argWrites_hostOps1 h
theorem argAll4 (c : Dev nD) (r : Ref sig .tc) (h : r ∉ argL4) : W4 m ρ c (Proc.devRef .tc r) = m ((c : Thread nD τ).loc r) :=
  (argKeep4 m ρ c r fun hh => h (List.mem_append_left _ hh)).trans (argAll3 m ρ c r fun hh => h (List.mem_append_right _ hh))
abbrev argL5 : List (Ref sig .tc) := argW_hostOps1_1 ++ argL4
theorem argKeep5 (c : Dev nD) (r : Ref sig .tc) (h : r ∉ argW_hostOps1_1) : W5 m ρ c (Proc.devRef .tc r) = W4 m ρ c (Proc.devRef .tc r) :=
  StableHlo.after_of_writes_sub hostOps1_1 _ argWrites_hostOps1_1 h
theorem argAll5 (c : Dev nD) (r : Ref sig .tc) (h : r ∉ argL5) : W5 m ρ c (Proc.devRef .tc r) = m ((c : Thread nD τ).loc r) :=
  (argKeep5 m ρ c r fun hh => h (List.mem_append_left _ hh)).trans (argAll4 m ρ c r fun hh => h (List.mem_append_right _ hh))
abbrev argL6 : List (Ref sig .tc) := argReg1_W ++ argL5
theorem argKeep6 (c : Dev nD) (r : Ref sig .tc) (h : r ∉ argReg1_W) : W6 m ρ c (Proc.devRef .tc r) = W5 m ρ c (Proc.devRef .tc r) :=
  W6_of_ne m ρ c r fun w e => h (e ▸ argReg1_mem w)
theorem argAll6 (c : Dev nD) (r : Ref sig .tc) (h : r ∉ argL6) : W6 m ρ c (Proc.devRef .tc r) = m ((c : Thread nD τ).loc r) :=
  (argKeep6 m ρ c r fun hh => h (List.mem_append_left _ hh)).trans (argAll5 m ρ c r fun hh => h (List.mem_append_right _ hh))
abbrev argL7 : List (Ref sig .tc) := argW_hostOps2 ++ argL6
theorem argKeep7 (c : Dev nD) (r : Ref sig .tc) (h : r ∉ argW_hostOps2) : W7 m ρ c (Proc.devRef .tc r) = W6 m ρ c (Proc.devRef .tc r) :=
  StableHlo.after_of_writes_sub hostOps2 _ argWrites_hostOps2 h
theorem argAll7 (c : Dev nD) (r : Ref sig .tc) (h : r ∉ argL7) : W7 m ρ c (Proc.devRef .tc r) = m ((c : Thread nD τ).loc r) :=
  (argKeep7 m ρ c r fun hh => h (List.mem_append_left _ hh)).trans (argAll6 m ρ c r fun hh => h (List.mem_append_right _ hh))
abbrev argL8 : List (Ref sig .tc) := argReg2_W ++ argL7
theorem argKeep8 (c : Dev nD) (r : Ref sig .tc) (h : r ∉ argReg2_W) : W8 m ρ c (Proc.devRef .tc r) = W7 m ρ c (Proc.devRef .tc r) :=
  W8_of_ne m ρ c r fun w e => h (e ▸ argReg2_mem w)
theorem argAll8 (c : Dev nD) (r : Ref sig .tc) (h : r ∉ argL8) : W8 m ρ c (Proc.devRef .tc r) = m ((c : Thread nD τ).loc r) :=
  (argKeep8 m ρ c r fun hh => h (List.mem_append_left _ hh)).trans (argAll7 m ρ c r fun hh => h (List.mem_append_right _ hh))
abbrev argL9 : List (Ref sig .tc) := argW_hostOps3 ++ argL8
theorem argKeep9 (c : Dev nD) (r : Ref sig .tc) (h : r ∉ argW_hostOps3) : W9 m ρ c (Proc.devRef .tc r) = W8 m ρ c (Proc.devRef .tc r) :=
  StableHlo.after_of_writes_sub hostOps3 _ argWrites_hostOps3 h
theorem argAll9 (c : Dev nD) (r : Ref sig .tc) (h : r ∉ argL9) : W9 m ρ c (Proc.devRef .tc r) = m ((c : Thread nD τ).loc r) :=
  (argKeep9 m ρ c r fun hh => h (List.mem_append_left _ hh)).trans (argAll8 m ρ c r fun hh => h (List.mem_append_right _ hh))
abbrev argL10 : List (Ref sig .tc) := argW_hostOps3_1 ++ argL9
theorem argKeep10 (c : Dev nD) (r : Ref sig .tc) (h : r ∉ argW_hostOps3_1) : W10 m ρ c (Proc.devRef .tc r) = W9 m ρ c (Proc.devRef .tc r) :=
  StableHlo.after_of_writes_sub hostOps3_1 _ argWrites_hostOps3_1 h
theorem argAll10 (c : Dev nD) (r : Ref sig .tc) (h : r ∉ argL10) : W10 m ρ c (Proc.devRef .tc r) = m ((c : Thread nD τ).loc r) :=
  (argKeep10 m ρ c r fun hh => h (List.mem_append_left _ hh)).trans (argAll9 m ρ c r fun hh => h (List.mem_append_right _ hh))
abbrev argL11 : List (Ref sig .tc) := argReg3_W ++ argL10
theorem argKeep11 (c : Dev nD) (r : Ref sig .tc) (h : r ∉ argReg3_W) : W11 m ρ c (Proc.devRef .tc r) = W10 m ρ c (Proc.devRef .tc r) :=
  W11_of_ne m ρ c r fun w e => h (e ▸ argReg3_mem w)
theorem argAll11 (c : Dev nD) (r : Ref sig .tc) (h : r ∉ argL11) : W11 m ρ c (Proc.devRef .tc r) = m ((c : Thread nD τ).loc r) :=
  (argKeep11 m ρ c r fun hh => h (List.mem_append_left _ hh)).trans (argAll10 m ρ c r fun hh => h (List.mem_append_right _ hh))
abbrev argL12 : List (Ref sig .tc) := argW_hostOps4 ++ argL11
theorem argKeep12 (c : Dev nD) (r : Ref sig .tc) (h : r ∉ argW_hostOps4) : W12 m ρ c (Proc.devRef .tc r) = W11 m ρ c (Proc.devRef .tc r) :=
  StableHlo.after_of_writes_sub hostOps4 _ argWrites_hostOps4 h
theorem argAll12 (c : Dev nD) (r : Ref sig .tc) (h : r ∉ argL12) : W12 m ρ c (Proc.devRef .tc r) = m ((c : Thread nD τ).loc r) :=
  (argKeep12 m ρ c r fun hh => h (List.mem_append_left _ hh)).trans (argAll11 m ρ c r fun hh => h (List.mem_append_right _ hh))
abbrev argL13 : List (Ref sig .tc) := argW_hostOps4_1 ++ argL12
theorem argKeep13 (c : Dev nD) (r : Ref sig .tc) (h : r ∉ argW_hostOps4_1) : W13 m ρ c (Proc.devRef .tc r) = W12 m ρ c (Proc.devRef .tc r) :=
  StableHlo.after_of_writes_sub hostOps4_1 _ argWrites_hostOps4_1 h
theorem argAll13 (c : Dev nD) (r : Ref sig .tc) (h : r ∉ argL13) : W13 m ρ c (Proc.devRef .tc r) = m ((c : Thread nD τ).loc r) :=
  (argKeep13 m ρ c r fun hh => h (List.mem_append_left _ hh)).trans (argAll12 m ρ c r fun hh => h (List.mem_append_right _ hh))
abbrev argL14 : List (Ref sig .tc) := argReg4_W ++ argL13
theorem argKeep14 (c : Dev nD) (r : Ref sig .tc) (h : r ∉ argReg4_W) : W14 m ρ c (Proc.devRef .tc r) = W13 m ρ c (Proc.devRef .tc r) :=
  W14_of_ne m ρ c r fun w e => h (e ▸ argReg4_mem w)
theorem argAll14 (c : Dev nD) (r : Ref sig .tc) (h : r ∉ argL14) : W14 m ρ c (Proc.devRef .tc r) = m ((c : Thread nD τ).loc r) :=
  (argKeep14 m ρ c r fun hh => h (List.mem_append_left _ hh)).trans (argAll13 m ρ c r fun hh => h (List.mem_append_right _ hh))
abbrev argL15 : List (Ref sig .tc) := argW_hostOps5 ++ argL14
theorem argKeep15 (c : Dev nD) (r : Ref sig .tc) (h : r ∉ argW_hostOps5) : W15 m ρ c (Proc.devRef .tc r) = W14 m ρ c (Proc.devRef .tc r) :=
  StableHlo.after_of_writes_sub hostOps5 _ argWrites_hostOps5 h
theorem argAll15 (c : Dev nD) (r : Ref sig .tc) (h : r ∉ argL15) : W15 m ρ c (Proc.devRef .tc r) = m ((c : Thread nD τ).loc r) :=
  (argKeep15 m ρ c r fun hh => h (List.mem_append_left _ hh)).trans (argAll14 m ρ c r fun hh => h (List.mem_append_right _ hh))
abbrev argL16 : List (Ref sig .tc) := argReg5_W ++ argL15
theorem argKeep16 (c : Dev nD) (r : Ref sig .tc) (h : r ∉ argReg5_W) : W16 m ρ c (Proc.devRef .tc r) = W15 m ρ c (Proc.devRef .tc r) :=
  W16_of_ne m ρ c r fun w e => h (e ▸ argReg5_mem w)
theorem argAll16 (c : Dev nD) (r : Ref sig .tc) (h : r ∉ argL16) : W16 m ρ c (Proc.devRef .tc r) = m ((c : Thread nD τ).loc r) :=
  (argKeep16 m ρ c r fun hh => h (List.mem_append_left _ hh)).trans (argAll15 m ρ c r fun hh => h (List.mem_append_right _ hh))
abbrev argL17 : List (Ref sig .tc) := argW_hostOps6 ++ argL16
theorem argKeep17 (c : Dev nD) (r : Ref sig .tc) (h : r ∉ argW_hostOps6) : W17 m ρ c (Proc.devRef .tc r) = W16 m ρ c (Proc.devRef .tc r) :=
  StableHlo.after_of_writes_sub hostOps6 _ argWrites_hostOps6 h
theorem argAll17 (c : Dev nD) (r : Ref sig .tc) (h : r ∉ argL17) : W17 m ρ c (Proc.devRef .tc r) = m ((c : Thread nD τ).loc r) :=
  (argKeep17 m ρ c r fun hh => h (List.mem_append_left _ hh)).trans (argAll16 m ρ c r fun hh => h (List.mem_append_right _ hh))
abbrev argL18 : List (Ref sig .tc) := argW_hostOps6_1 ++ argL17
theorem argKeep18 (c : Dev nD) (r : Ref sig .tc) (h : r ∉ argW_hostOps6_1) : W18 m ρ c (Proc.devRef .tc r) = W17 m ρ c (Proc.devRef .tc r) :=
  StableHlo.after_of_writes_sub hostOps6_1 _ argWrites_hostOps6_1 h
theorem argAll18 (c : Dev nD) (r : Ref sig .tc) (h : r ∉ argL18) : W18 m ρ c (Proc.devRef .tc r) = m ((c : Thread nD τ).loc r) :=
  (argKeep18 m ρ c r fun hh => h (List.mem_append_left _ hh)).trans (argAll17 m ρ c r fun hh => h (List.mem_append_right _ hh))
abbrev argL19 : List (Ref sig .tc) := argReg6_W ++ argL18
theorem argKeep19 (c : Dev nD) (r : Ref sig .tc) (h : r ∉ argReg6_W) : W19 m ρ c (Proc.devRef .tc r) = W18 m ρ c (Proc.devRef .tc r) :=
  W19_of_ne m ρ c r fun w e => h (e ▸ argReg6_mem w)
theorem argAll19 (c : Dev nD) (r : Ref sig .tc) (h : r ∉ argL19) : W19 m ρ c (Proc.devRef .tc r) = m ((c : Thread nD τ).loc r) :=
  (argKeep19 m ρ c r fun hh => h (List.mem_append_left _ hh)).trans (argAll18 m ρ c r fun hh => h (List.mem_append_right _ hh))
abbrev argL20 : List (Ref sig .tc) := argW_hostOps7 ++ argL19
theorem argKeep20 (c : Dev nD) (r : Ref sig .tc) (h : r ∉ argW_hostOps7) : W20 m ρ c (Proc.devRef .tc r) = W19 m ρ c (Proc.devRef .tc r) :=
  StableHlo.after_of_writes_sub hostOps7 _ argWrites_hostOps7 h
theorem argAll20 (c : Dev nD) (r : Ref sig .tc) (h : r ∉ argL20) : W20 m ρ c (Proc.devRef .tc r) = m ((c : Thread nD τ).loc r) :=
  (argKeep20 m ρ c r fun hh => h (List.mem_append_left _ hh)).trans (argAll19 m ρ c r fun hh => h (List.mem_append_right _ hh))
abbrev argL21 : List (Ref sig .tc) := argW_hostOps7_1 ++ argL20
theorem argKeep21 (c : Dev nD) (r : Ref sig .tc) (h : r ∉ argW_hostOps7_1) : W21 m ρ c (Proc.devRef .tc r) = W20 m ρ c (Proc.devRef .tc r) :=
  StableHlo.after_of_writes_sub hostOps7_1 _ argWrites_hostOps7_1 h
theorem argAll21 (c : Dev nD) (r : Ref sig .tc) (h : r ∉ argL21) : W21 m ρ c (Proc.devRef .tc r) = m ((c : Thread nD τ).loc r) :=
  (argKeep21 m ρ c r fun hh => h (List.mem_append_left _ hh)).trans (argAll20 m ρ c r fun hh => h (List.mem_append_right _ hh))
abbrev argL22 : List (Ref sig .tc) := argReg7_W ++ argL21
theorem argKeep22 (c : Dev nD) (r : Ref sig .tc) (h : r ∉ argReg7_W) : W22 m ρ c (Proc.devRef .tc r) = W21 m ρ c (Proc.devRef .tc r) :=
  W22_of_ne m ρ c r fun w e => h (e ▸ argReg7_mem w)
theorem argAll22 (c : Dev nD) (r : Ref sig .tc) (h : r ∉ argL22) : W22 m ρ c (Proc.devRef .tc r) = m ((c : Thread nD τ).loc r) :=
  (argKeep22 m ρ c r fun hh => h (List.mem_append_left _ hh)).trans (argAll21 m ρ c r fun hh => h (List.mem_append_right _ hh))
abbrev argL23 : List (Ref sig .tc) := argW_hostOps8 ++ argL22
theorem argKeep23 (c : Dev nD) (r : Ref sig .tc) (h : r ∉ argW_hostOps8) : W23 m ρ c (Proc.devRef .tc r) = W22 m ρ c (Proc.devRef .tc r) :=
  StableHlo.after_of_writes_sub hostOps8 _ argWrites_hostOps8 h
theorem argAll23 (c : Dev nD) (r : Ref sig .tc) (h : r ∉ argL23) : W23 m ρ c (Proc.devRef .tc r) = m ((c : Thread nD τ).loc r) :=
  (argKeep23 m ρ c r fun hh => h (List.mem_append_left _ hh)).trans (argAll22 m ρ c r fun hh => h (List.mem_append_right _ hh))
abbrev argL24 : List (Ref sig .tc) := argW_hostOps8_1 ++ argL23
theorem argKeep24 (c : Dev nD) (r : Ref sig .tc) (h : r ∉ argW_hostOps8_1) : W24 m ρ c (Proc.devRef .tc r) = W23 m ρ c (Proc.devRef .tc r) :=
  StableHlo.after_of_writes_sub hostOps8_1 _ argWrites_hostOps8_1 h
theorem argAll24 (c : Dev nD) (r : Ref sig .tc) (h : r ∉ argL24) : W24 m ρ c (Proc.devRef .tc r) = m ((c : Thread nD τ).loc r) :=
  (argKeep24 m ρ c r fun hh => h (List.mem_append_left _ hh)).trans (argAll23 m ρ c r fun hh => h (List.mem_append_right _ hh))
abbrev argL25 : List (Ref sig .tc) := argReg8_W ++ argL24
theorem argKeep25 (c : Dev nD) (r : Ref sig .tc) (h : r ∉ argReg8_W) : W25 m ρ c (Proc.devRef .tc r) = W24 m ρ c (Proc.devRef .tc r) :=
  W25_of_ne m ρ c r fun w e => h (e ▸ argReg8_mem w)
theorem argAll25 (c : Dev nD) (r : Ref sig .tc) (h : r ∉ argL25) : W25 m ρ c (Proc.devRef .tc r) = m ((c : Thread nD τ).loc r) :=
  (argKeep25 m ρ c r fun hh => h (List.mem_append_left _ hh)).trans (argAll24 m ρ c r fun hh => h (List.mem_append_right _ hh))
abbrev argL26 : List (Ref sig .tc) := argW_hostOps9 ++ argL25
theorem argKeep26 (c : Dev nD) (r : Ref sig .tc) (h : r ∉ argW_hostOps9) : W26 m ρ c (Proc.devRef .tc r) = W25 m ρ c (Proc.devRef .tc r) :=
  StableHlo.after_of_writes_sub hostOps9 _ argWrites_hostOps9 h
theorem argAll26 (c : Dev nD) (r : Ref sig .tc) (h : r ∉ argL26) : W26 m ρ c (Proc.devRef .tc r) = m ((c : Thread nD τ).loc r) :=
  (argKeep26 m ρ c r fun hh => h (List.mem_append_left _ hh)).trans (argAll25 m ρ c r fun hh => h (List.mem_append_right _ hh))
abbrev argL27 : List (Ref sig .tc) := argReg9_W ++ argL26
theorem argKeep27 (c : Dev nD) (r : Ref sig .tc) (h : r ∉ argReg9_W) : W27 m ρ c (Proc.devRef .tc r) = W26 m ρ c (Proc.devRef .tc r) :=
  W27_of_ne m ρ c r fun w e => h (e ▸ argReg9_mem w)
theorem argAll27 (c : Dev nD) (r : Ref sig .tc) (h : r ∉ argL27) : W27 m ρ c (Proc.devRef .tc r) = m ((c : Thread nD τ).loc r) :=
  (argKeep27 m ρ c r fun hh => h (List.mem_append_left _ hh)).trans (argAll26 m ρ c r fun hh => h (List.mem_append_right _ hh))
abbrev argL28 : List (Ref sig .tc) := argW_hostOps10 ++ argL27
theorem argKeep28 (c : Dev nD) (r : Ref sig .tc) (h : r ∉ argW_hostOps10) : W28 m ρ c (Proc.devRef .tc r) = W27 m ρ c (Proc.devRef .tc r) :=
  StableHlo.after_of_writes_sub hostOps10 _ argWrites_hostOps10 h
theorem argAll28 (c : Dev nD) (r : Ref sig .tc) (h : r ∉ argL28) : W28 m ρ c (Proc.devRef .tc r) = m ((c : Thread nD τ).loc r) :=
  (argKeep28 m ρ c r fun hh => h (List.mem_append_left _ hh)).trans (argAll27 m ρ c r fun hh => h (List.mem_append_right _ hh))
abbrev argL29 : List (Ref sig .tc) := argW_hostOps10_1 ++ argL28
theorem argKeep29 (c : Dev nD) (r : Ref sig .tc) (h : r ∉ argW_hostOps10_1) : W29 m ρ c (Proc.devRef .tc r) = W28 m ρ c (Proc.devRef .tc r) :=
  StableHlo.after_of_writes_sub hostOps10_1 _ argWrites_hostOps10_1 h
theorem argAll29 (c : Dev nD) (r : Ref sig .tc) (h : r ∉ argL29) : W29 m ρ c (Proc.devRef .tc r) = m ((c : Thread nD τ).loc r) :=
  (argKeep29 m ρ c r fun hh => h (List.mem_append_left _ hh)).trans (argAll28 m ρ c r fun hh => h (List.mem_append_right _ hh))
abbrev argL30 : List (Ref sig .tc) := argReg10_W ++ argL29
theorem argKeep30 (c : Dev nD) (r : Ref sig .tc) (h : r ∉ argReg10_W) : W30 m ρ c (Proc.devRef .tc r) = W29 m ρ c (Proc.devRef .tc r) :=
  W30_of_ne m ρ c r fun w e => h (e ▸ argReg10_mem w)
theorem argAll30 (c : Dev nD) (r : Ref sig .tc) (h : r ∉ argL30) : W30 m ρ c (Proc.devRef .tc r) = m ((c : Thread nD τ).loc r) :=
  (argKeep30 m ρ c r fun hh => h (List.mem_append_left _ hh)).trans (argAll29 m ρ c r fun hh => h (List.mem_append_right _ hh))
abbrev argL31 : List (Ref sig .tc) := argW_hostOps11 ++ argL30
theorem argKeep31 (c : Dev nD) (r : Ref sig .tc) (h : r ∉ argW_hostOps11) : W31 m ρ c (Proc.devRef .tc r) = W30 m ρ c (Proc.devRef .tc r) :=
  StableHlo.after_of_writes_sub hostOps11 _ argWrites_hostOps11 h
theorem argAll31 (c : Dev nD) (r : Ref sig .tc) (h : r ∉ argL31) : W31 m ρ c (Proc.devRef .tc r) = m ((c : Thread nD τ).loc r) :=
  (argKeep31 m ρ c r fun hh => h (List.mem_append_left _ hh)).trans (argAll30 m ρ c r fun hh => h (List.mem_append_right _ hh))
abbrev argL32 : List (Ref sig .tc) := argW_hostOps11_1 ++ argL31
theorem argKeep32 (c : Dev nD) (r : Ref sig .tc) (h : r ∉ argW_hostOps11_1) : W32 m ρ c (Proc.devRef .tc r) = W31 m ρ c (Proc.devRef .tc r) :=
  StableHlo.after_of_writes_sub hostOps11_1 _ argWrites_hostOps11_1 h
theorem argAll32 (c : Dev nD) (r : Ref sig .tc) (h : r ∉ argL32) : W32 m ρ c (Proc.devRef .tc r) = m ((c : Thread nD τ).loc r) :=
  (argKeep32 m ρ c r fun hh => h (List.mem_append_left _ hh)).trans (argAll31 m ρ c r fun hh => h (List.mem_append_right _ hh))
abbrev argL33 : List (Ref sig .tc) := argReg11_W ++ argL32
theorem argKeep33 (c : Dev nD) (r : Ref sig .tc) (h : r ∉ argReg11_W) : W33 m ρ c (Proc.devRef .tc r) = W32 m ρ c (Proc.devRef .tc r) :=
  W33_of_ne m ρ c r fun w e => h (e ▸ argReg11_mem w)
theorem argAll33 (c : Dev nD) (r : Ref sig .tc) (h : r ∉ argL33) : W33 m ρ c (Proc.devRef .tc r) = m ((c : Thread nD τ).loc r) :=
  (argKeep33 m ρ c r fun hh => h (List.mem_append_left _ hh)).trans (argAll32 m ρ c r fun hh => h (List.mem_append_right _ hh))
abbrev argL34 : List (Ref sig .tc) := argW_hostOps12 ++ argL33
theorem argKeep34 (c : Dev nD) (r : Ref sig .tc) (h : r ∉ argW_hostOps12) : W34 m ρ c (Proc.devRef .tc r) = W33 m ρ c (Proc.devRef .tc r) :=
  StableHlo.after_of_writes_sub hostOps12 _ argWrites_hostOps12 h
theorem argAll34 (c : Dev nD) (r : Ref sig .tc) (h : r ∉ argL34) : W34 m ρ c (Proc.devRef .tc r) = m ((c : Thread nD τ).loc r) :=
  (argKeep34 m ρ c r fun hh => h (List.mem_append_left _ hh)).trans (argAll33 m ρ c r fun hh => h (List.mem_append_right _ hh))
abbrev argL35 : List (Ref sig .tc) := argW_hostOps12_1 ++ argL34
theorem argKeep35 (c : Dev nD) (r : Ref sig .tc) (h : r ∉ argW_hostOps12_1) : W35 m ρ c (Proc.devRef .tc r) = W34 m ρ c (Proc.devRef .tc r) :=
  StableHlo.after_of_writes_sub hostOps12_1 _ argWrites_hostOps12_1 h
theorem argAll35 (c : Dev nD) (r : Ref sig .tc) (h : r ∉ argL35) : W35 m ρ c (Proc.devRef .tc r) = m ((c : Thread nD τ).loc r) :=
  (argKeep35 m ρ c r fun hh => h (List.mem_append_left _ hh)).trans (argAll34 m ρ c r fun hh => h (List.mem_append_right _ hh))
abbrev argL36 : List (Ref sig .tc) := argReg12_W ++ argL35
theorem argKeep36 (c : Dev nD) (r : Ref sig .tc) (h : r ∉ argReg12_W) : W36 m ρ c (Proc.devRef .tc r) = W35 m ρ c (Proc.devRef .tc r) :=
  W36_of_ne m ρ c r fun w e => h (e ▸ argReg12_mem w)
theorem argAll36 (c : Dev nD) (r : Ref sig .tc) (h : r ∉ argL36) : W36 m ρ c (Proc.devRef .tc r) = m ((c : Thread nD τ).loc r) :=
  (argKeep36 m ρ c r fun hh => h (List.mem_append_left _ hh)).trans (argAll35 m ρ c r fun hh => h (List.mem_append_right _ hh))
abbrev argL37 : List (Ref sig .tc) := argW_hostOps13 ++ argL36
theorem argKeep37 (c : Dev nD) (r : Ref sig .tc) (h : r ∉ argW_hostOps13) : W37 m ρ c (Proc.devRef .tc r) = W36 m ρ c (Proc.devRef .tc r) :=
  StableHlo.after_of_writes_sub hostOps13 _ argWrites_hostOps13 h
theorem argAll37 (c : Dev nD) (r : Ref sig .tc) (h : r ∉ argL37) : W37 m ρ c (Proc.devRef .tc r) = m ((c : Thread nD τ).loc r) :=
  (argKeep37 m ρ c r fun hh => h (List.mem_append_left _ hh)).trans (argAll36 m ρ c r fun hh => h (List.mem_append_right _ hh))
abbrev argL38 : List (Ref sig .tc) := argReg13_W ++ argL37
theorem argKeep38 (c : Dev nD) (r : Ref sig .tc) (h : r ∉ argReg13_W) : W38 m ρ c (Proc.devRef .tc r) = W37 m ρ c (Proc.devRef .tc r) :=
  W38_of_ne m ρ c r fun w e => h (e ▸ argReg13_mem w)
theorem argAll38 (c : Dev nD) (r : Ref sig .tc) (h : r ∉ argL38) : W38 m ρ c (Proc.devRef .tc r) = m ((c : Thread nD τ).loc r) :=
  (argKeep38 m ρ c r fun hh => h (List.mem_append_left _ hh)).trans (argAll37 m ρ c r fun hh => h (List.mem_append_right _ hh))
abbrev argL39 : List (Ref sig .tc) := argW_hostOps14 ++ argL38
theorem argKeep39 (c : Dev nD) (r : Ref sig .tc) (h : r ∉ argW_hostOps14) : W39 m ρ c (Proc.devRef .tc r) = W38 m ρ c (Proc.devRef .tc r) :=
  StableHlo.after_of_writes_sub hostOps14 _ argWrites_hostOps14 h
theorem argAll39 (c : Dev nD) (r : Ref sig .tc) (h : r ∉ argL39) : W39 m ρ c (Proc.devRef .tc r) = m ((c : Thread nD τ).loc r) :=
  (argKeep39 m ρ c r fun hh => h (List.mem_append_left _ hh)).trans (argAll38 m ρ c r fun hh => h (List.mem_append_right _ hh))
abbrev argL40 : List (Ref sig .tc) := argW_hostOps14_1 ++ argL39
theorem argKeep40 (c : Dev nD) (r : Ref sig .tc) (h : r ∉ argW_hostOps14_1) : W40 m ρ c (Proc.devRef .tc r) = W39 m ρ c (Proc.devRef .tc r) :=
  StableHlo.after_of_writes_sub hostOps14_1 _ argWrites_hostOps14_1 h
theorem argAll40 (c : Dev nD) (r : Ref sig .tc) (h : r ∉ argL40) : W40 m ρ c (Proc.devRef .tc r) = m ((c : Thread nD τ).loc r) :=
  (argKeep40 m ρ c r fun hh => h (List.mem_append_left _ hh)).trans (argAll39 m ρ c r fun hh => h (List.mem_append_right _ hh))
abbrev argL41 : List (Ref sig .tc) := argReg14_W ++ argL40
theorem argKeep41 (c : Dev nD) (r : Ref sig .tc) (h : r ∉ argReg14_W) : W41 m ρ c (Proc.devRef .tc r) = W40 m ρ c (Proc.devRef .tc r) :=
  W41_of_ne m ρ c r fun w e => h (e ▸ argReg14_mem w)
theorem argAll41 (c : Dev nD) (r : Ref sig .tc) (h : r ∉ argL41) : W41 m ρ c (Proc.devRef .tc r) = m ((c : Thread nD τ).loc r) :=
  (argKeep41 m ρ c r fun hh => h (List.mem_append_left _ hh)).trans (argAll40 m ρ c r fun hh => h (List.mem_append_right _ hh))
abbrev argL42 : List (Ref sig .tc) := argW_hostOps15 ++ argL41
theorem argKeep42 (c : Dev nD) (r : Ref sig .tc) (h : r ∉ argW_hostOps15) : W42 m ρ c (Proc.devRef .tc r) = W41 m ρ c (Proc.devRef .tc r) :=
  StableHlo.after_of_writes_sub hostOps15 _ argWrites_hostOps15 h
theorem argAll42 (c : Dev nD) (r : Ref sig .tc) (h : r ∉ argL42) : W42 m ρ c (Proc.devRef .tc r) = m ((c : Thread nD τ).loc r) :=
  (argKeep42 m ρ c r fun hh => h (List.mem_append_left _ hh)).trans (argAll41 m ρ c r fun hh => h (List.mem_append_right _ hh))
abbrev argL43 : List (Ref sig .tc) := argW_hostOps15_1 ++ argL42
theorem argKeep43 (c : Dev nD) (r : Ref sig .tc) (h : r ∉ argW_hostOps15_1) : W43 m ρ c (Proc.devRef .tc r) = W42 m ρ c (Proc.devRef .tc r) :=
  StableHlo.after_of_writes_sub hostOps15_1 _ argWrites_hostOps15_1 h
theorem argAll43 (c : Dev nD) (r : Ref sig .tc) (h : r ∉ argL43) : W43 m ρ c (Proc.devRef .tc r) = m ((c : Thread nD τ).loc r) :=
  (argKeep43 m ρ c r fun hh => h (List.mem_append_left _ hh)).trans (argAll42 m ρ c r fun hh => h (List.mem_append_right _ hh))
abbrev argL44 : List (Ref sig .tc) := argReg15_W ++ argL43
theorem argKeep44 (c : Dev nD) (r : Ref sig .tc) (h : r ∉ argReg15_W) : W44 m ρ c (Proc.devRef .tc r) = W43 m ρ c (Proc.devRef .tc r) :=
  W44_of_ne m ρ c r fun w e => h (e ▸ argReg15_mem w)
theorem argAll44 (c : Dev nD) (r : Ref sig .tc) (h : r ∉ argL44) : W44 m ρ c (Proc.devRef .tc r) = m ((c : Thread nD τ).loc r) :=
  (argKeep44 m ρ c r fun hh => h (List.mem_append_left _ hh)).trans (argAll43 m ρ c r fun hh => h (List.mem_append_right _ hh))
abbrev argL45 : List (Ref sig .tc) := argW_hostOps16 ++ argL44
theorem argKeep45 (c : Dev nD) (r : Ref sig .tc) (h : r ∉ argW_hostOps16) : W45 m ρ c (Proc.devRef .tc r) = W44 m ρ c (Proc.devRef .tc r) :=
  StableHlo.after_of_writes_sub hostOps16 _ argWrites_hostOps16 h
theorem argAll45 (c : Dev nD) (r : Ref sig .tc) (h : r ∉ argL45) : W45 m ρ c (Proc.devRef .tc r) = m ((c : Thread nD τ).loc r) :=
  (argKeep45 m ρ c r fun hh => h (List.mem_append_left _ hh)).trans (argAll44 m ρ c r fun hh => h (List.mem_append_right _ hh))
abbrev argL46 : List (Ref sig .tc) := argW_hostOps16_1 ++ argL45
theorem argKeep46 (c : Dev nD) (r : Ref sig .tc) (h : r ∉ argW_hostOps16_1) : W46 m ρ c (Proc.devRef .tc r) = W45 m ρ c (Proc.devRef .tc r) :=
  StableHlo.after_of_writes_sub hostOps16_1 _ argWrites_hostOps16_1 h
theorem argAll46 (c : Dev nD) (r : Ref sig .tc) (h : r ∉ argL46) : W46 m ρ c (Proc.devRef .tc r) = m ((c : Thread nD τ).loc r) :=
  (argKeep46 m ρ c r fun hh => h (List.mem_append_left _ hh)).trans (argAll45 m ρ c r fun hh => h (List.mem_append_right _ hh))

/-! ## Each convolution's weight and bias at its region's entry -/

theorem arg_0_1 (c : Dev nD) : V2 m ρ c main_arg1 = m ((c : Thread nD τ).loc main_arg1) :=
  argAll2 m ρ c main_arg1 (by decide)
theorem arg_0_2 (c : Dev nD) : V2 m ρ c main_arg2 = m ((c : Thread nD τ).loc main_arg2) :=
  argAll2 m ρ c main_arg2 (by decide)
theorem arg_1_3 (c : Dev nD) : V5 m ρ c main_arg3 = m ((c : Thread nD τ).loc main_arg3) :=
  argAll5 m ρ c main_arg3 (by decide)
theorem arg_1_4 (c : Dev nD) : V5 m ρ c main_arg4 = m ((c : Thread nD τ).loc main_arg4) :=
  argAll5 m ρ c main_arg4 (by decide)
theorem arg_3_5 (c : Dev nD) : V10 m ρ c main_arg5 = m ((c : Thread nD τ).loc main_arg5) :=
  argAll10 m ρ c main_arg5 (by decide)
theorem arg_3_6 (c : Dev nD) : V10 m ρ c main_arg6 = m ((c : Thread nD τ).loc main_arg6) :=
  argAll10 m ρ c main_arg6 (by decide)
theorem arg_4_7 (c : Dev nD) : V13 m ρ c main_arg7 = m ((c : Thread nD τ).loc main_arg7) :=
  argAll13 m ρ c main_arg7 (by decide)
theorem arg_4_8 (c : Dev nD) : V13 m ρ c main_arg8 = m ((c : Thread nD τ).loc main_arg8) :=
  argAll13 m ρ c main_arg8 (by decide)
theorem arg_6_9 (c : Dev nD) : V18 m ρ c main_arg9 = m ((c : Thread nD τ).loc main_arg9) :=
  argAll18 m ρ c main_arg9 (by decide)
theorem arg_6_10 (c : Dev nD) : V18 m ρ c main_arg10 = m ((c : Thread nD τ).loc main_arg10) :=
  argAll18 m ρ c main_arg10 (by decide)
theorem arg_7_11 (c : Dev nD) : V21 m ρ c main_arg11 = m ((c : Thread nD τ).loc main_arg11) :=
  argAll21 m ρ c main_arg11 (by decide)
theorem arg_7_12 (c : Dev nD) : V21 m ρ c main_arg12 = m ((c : Thread nD τ).loc main_arg12) :=
  argAll21 m ρ c main_arg12 (by decide)
theorem arg_8_13 (c : Dev nD) : V24 m ρ c main_arg13 = m ((c : Thread nD τ).loc main_arg13) :=
  argAll24 m ρ c main_arg13 (by decide)
theorem arg_8_14 (c : Dev nD) : V24 m ρ c main_arg14 = m ((c : Thread nD τ).loc main_arg14) :=
  argAll24 m ρ c main_arg14 (by decide)
theorem arg_10_15 (c : Dev nD) : V29 m ρ c main_arg15 = m ((c : Thread nD τ).loc main_arg15) :=
  argAll29 m ρ c main_arg15 (by decide)
theorem arg_10_16 (c : Dev nD) : V29 m ρ c main_arg16 = m ((c : Thread nD τ).loc main_arg16) :=
  argAll29 m ρ c main_arg16 (by decide)
theorem arg_11_17 (c : Dev nD) : V32 m ρ c main_arg17 = m ((c : Thread nD τ).loc main_arg17) :=
  argAll32 m ρ c main_arg17 (by decide)
theorem arg_11_18 (c : Dev nD) : V32 m ρ c main_arg18 = m ((c : Thread nD τ).loc main_arg18) :=
  argAll32 m ρ c main_arg18 (by decide)
theorem arg_12_19 (c : Dev nD) : V35 m ρ c main_arg19 = m ((c : Thread nD τ).loc main_arg19) :=
  argAll35 m ρ c main_arg19 (by decide)
theorem arg_12_20 (c : Dev nD) : V35 m ρ c main_arg20 = m ((c : Thread nD τ).loc main_arg20) :=
  argAll35 m ρ c main_arg20 (by decide)
theorem arg_14_21 (c : Dev nD) : V40 m ρ c main_arg21 = m ((c : Thread nD τ).loc main_arg21) :=
  argAll40 m ρ c main_arg21 (by decide)
theorem arg_14_22 (c : Dev nD) : V40 m ρ c main_arg22 = m ((c : Thread nD τ).loc main_arg22) :=
  argAll40 m ρ c main_arg22 (by decide)
theorem arg_15_23 (c : Dev nD) : V43 m ρ c main_arg23 = m ((c : Thread nD τ).loc main_arg23) :=
  argAll43 m ρ c main_arg23 (by decide)
theorem arg_15_24 (c : Dev nD) : V43 m ρ c main_arg24 = m ((c : Thread nD τ).loc main_arg24) :=
  argAll43 m ρ c main_arg24 (by decide)
theorem arg_16_25 (c : Dev nD) : V46 m ρ c main_arg25 = m ((c : Thread nD τ).loc main_arg25) :=
  argAll46 m ρ c main_arg25 (by decide)
theorem arg_16_26 (c : Dev nD) : V46 m ρ c main_arg26 = m ((c : Thread nD τ).loc main_arg26) :=
  argAll46 m ρ c main_arg26 (by decide)

end Cert.ReferenceIdeal.Glue

end
-- ==== Proof.RGlue1.lean ====
/-
  The host operations between the reference program's regions, read at an index. Each is stated over ANY contents W of
  the buffers before the stretch, so that it applies at whichever segment boundary the stretch starts from:
  the stem's input is the NCHW image transposed to NHWC and then put into padded coordinates (a zero border of one
  pixel); a convolution's input is the previous region's output put into padded coordinates; a pooling region's input
  is the previous convolution's output with column pairs folded into the channel axis (a reshape: same row-major
  position), so entry (b, i, j, c') is pixel (i, 2 j + c' / C) at channel c' % C.
-/
import proofs.«100114_g2000204297211070_pallasbulk_1265_19_alg».proof.Proof.Gen.ReferenceIdeal.Launch
import proofs.«100114_g2000204297211070_pallasbulk_1265_19_alg».proof.Proof.Spec
import Idealize.ShloMosaic.PureOps.Ideal
import Idealize.ShloMosaic.Lib.ValueIdx
import Idealize.ShloMosaic.Lib.ValueLayout
import Idealize.ShloMosaic.Lib.KernelVsHost
import Idealize.ShloMosaic.Lib.Pipeline.Value
import Idealize.ShloMosaic.Lib.StableHlo.Run

set_option maxRecDepth 16384

noncomputable section

namespace Cert.ReferenceIdeal.Glue

open Cert.ReferenceIdeal Cert.ReferenceIdeal.Gen
open Idealize.ShloMosaic Idealize.ShloMosaic.TcCoe Idealize.ShloMosaic.ValueIdx

/-- The padding value, the integer zero converted, is zero. -/
theorem padval (i : S_.Idx) : (sitofp .f32 (constantI S_ 32 0#32) : FVec Ideal S_ .f32) i = 0 := by
  rw [sitofp_apply, constantI_apply]; exact sitofp_zero

/-- The stem's input after the first two stretches: the launch image, channels moved last, in padded coordinates. -/
theorem stem_read (W : Valuation τ sig (Elt Ideal)) (b I J ch : ℕ) (hb : b < 8) (hI : I < 226) (hJ : J < 226) (hch : ch < 3) :
    Spec.arr4 (StableHlo.after (hostOps0_1 (F := Ideal)) (StableHlo.after (hostOps0 (F := Ideal)) W) (Proc.devRef .tc main_v1) : S8x226x226x3.Idx → EReal) b I J ch
      = Spec.pad1 224 224 (fun b i j ch => Spec.arr4 (W (Proc.devRef .tc main_arg0) : S8x3x224x224.Idx → EReal) b ch i j) b I J ch := by
  have e : (StableHlo.after (hostOps0_1 (F := Ideal)) (StableHlo.after (hostOps0 (F := Ideal)) W) (Proc.devRef .tc main_v1) : S8x226x226x3.Idx → EReal)
      = pad S8x226x226x3 ![0, 1, 1, 0] ![0, 1, 1, 0] ![0, 0, 0, 0]
          (transpose S8x224x224x3 [0, 2, 3, 1] (W (Proc.devRef .tc main_arg0) : S8x3x224x224.Idx → EReal) transposes_S8x3x224x224_S8x224x224x3_0_2_3_1)
          (sitofp .f32 (constantI S_ 32 0#32) : FVec Ideal S_ .f32) pads_S8x224x224x3_S8x226x226x3_000_110_110_000 h_S_ := by
    after_results; rfl
  rw [e]
  unfold Spec.pad1
  by_cases hin : 1 ≤ I ∧ I ≤ 224 ∧ 1 ≤ J ∧ J ≤ 224
  · rw [if_pos hin]
    unfold Spec.arr4
    beta_reduce
    rw [dif_pos (show b < 8 ∧ I < 226 ∧ J < 226 ∧ ch < 3 from ⟨hb, hI, hJ, hch⟩),
      dif_pos (show b < 8 ∧ ch < 3 ∧ I - 1 < 224 ∧ J - 1 < 224 from ⟨hb, hch, by omega, by omega⟩)]
    refine (pad_apply_of_inside _ _ _ _ _ _ _ _ (ix4 (⟨b, hb⟩ : Fin 8) (⟨I - 1, by omega⟩ : Fin 224) (⟨J - 1, by omega⟩ : Fin 224) (⟨ch, hch⟩ : Fin 3)) (by
      intro a
      match a with
      | ⟨0, _⟩ => show b = 0 + b * (0 + 1); omega
      | ⟨1, _⟩ => show I = 1 + (I - 1) * (0 + 1); omega
      | ⟨2, _⟩ => show J = 1 + (J - 1) * (0 + 1); omega
      | ⟨3, _⟩ => show ch = 0 + ch * (0 + 1); omega)).trans ?_
    exact transpose_apply _ _ _ _ (ix4 (⟨b, hb⟩ : Fin 8) (⟨ch, hch⟩ : Fin 3) (⟨I - 1, by omega⟩ : Fin 224) (⟨J - 1, by omega⟩ : Fin 224)) (by
      intro a
      match a with
      | ⟨0, _⟩ => rfl
      | ⟨1, _⟩ => rfl
      | ⟨2, _⟩ => rfl
      | ⟨3, _⟩ => rfl)
  · rw [if_neg hin]
    unfold Spec.arr4
    rw [dif_pos (show b < 8 ∧ I < 226 ∧ J < 226 ∧ ch < 3 from ⟨hb, hI, hJ, hch⟩)]
    by_cases hI' : 1 ≤ I ∧ I ≤ 224
    · refine (pad_apply_of_not_inside _ _ _ _ _ _ _ _ (2 : Fin 4) (by
        intro h
        have h1 : 1 ≤ J := h.1
        have h2 : (J - 1) / (0 + 1) < 224 := h.2.2
        rw [Nat.div_one] at h2
        exact hin ⟨hI'.1, hI'.2, h1, by omega⟩)).trans (padval _)
    · refine (pad_apply_of_not_inside _ _ _ _ _ _ _ _ (1 : Fin 4) (by
        intro h
        have h1 : 1 ≤ I := h.1
        have h2 : (I - 1) / (0 + 1) < 224 := h.2.2
        rw [Nat.div_one] at h2
        exact hI' ⟨h1, by omega⟩)).trans (padval _)

/-- Region 1's input after the two stretches before it: the previous output in padded coordinates. -/
theorem pad_read1 (W : Valuation τ sig (Elt Ideal)) (b I J ch : ℕ) (hb : b < 8) (hI : I < 226) (hJ : J < 226) (hch : ch < 64) :
    Spec.arr4 (StableHlo.after (hostOps1_1 (F := Ideal)) (StableHlo.after (hostOps1 (F := Ideal)) W) (Proc.devRef .tc main_v3) : S8x226x226x64.Idx → EReal) b I J ch
      = Spec.pad1 224 224 (Spec.arr4 (W (Proc.devRef .tc main_v2) : S8x224x224x64.Idx → EReal)) b I J ch := by
  have e : (StableHlo.after (hostOps1_1 (F := Ideal)) (StableHlo.after (hostOps1 (F := Ideal)) W) (Proc.devRef .tc main_v3) : S8x226x226x64.Idx → EReal)
      = pad S8x226x226x64 ![0, 1, 1, 0] ![0, 1, 1, 0] ![0, 0, 0, 0] (W (Proc.devRef .tc main_v2) : S8x224x224x64.Idx → EReal)
          (sitofp .f32 (constantI S_ 32 0#32) : FVec Ideal S_ .f32) pads_S8x224x224x64_S8x226x226x64_000_110_110_000 h_S_ := by
    after_results; rfl
  rw [e]
  unfold Spec.pad1
  by_cases hin : 1 ≤ I ∧ I ≤ 224 ∧ 1 ≤ J ∧ J ≤ 224
  · rw [if_pos hin]
    unfold Spec.arr4
    rw [dif_pos (show b < 8 ∧ I < 226 ∧ J < 226 ∧ ch < 64 from ⟨hb, hI, hJ, hch⟩),
      dif_pos (show b < 8 ∧ I - 1 < 224 ∧ J - 1 < 224 ∧ ch < 64 from ⟨hb, by omega, by omega, hch⟩)]
    exact pad_apply_of_inside _ _ _ _ _ _ _ _ (ix4 (⟨b, hb⟩ : Fin 8) (⟨I - 1, by omega⟩ : Fin 224) (⟨J - 1, by omega⟩ : Fin 224) (⟨ch, hch⟩ : Fin 64)) (by
      intro a
      match a with
      | ⟨0, _⟩ => show b = 0 + b * (0 + 1); omega
      | ⟨1, _⟩ => show I = 1 + (I - 1) * (0 + 1); omega
      | ⟨2, _⟩ => show J = 1 + (J - 1) * (0 + 1); omega
      | ⟨3, _⟩ => show ch = 0 + ch * (0 + 1); omega)
  · rw [if_neg hin]
    unfold Spec.arr4
    rw [dif_pos (show b < 8 ∧ I < 226 ∧ J < 226 ∧ ch < 64 from ⟨hb, hI, hJ, hch⟩)]
    by_cases hI' : 1 ≤ I ∧ I ≤ 224
    · refine (pad_apply_of_not_inside _ _ _ _ _ _ _ _ (2 : Fin 4) (by
        intro h
        have h1 : 1 ≤ J := h.1
        have h2 : (J - 1) / (0 + 1) < 224 := h.2.2
        rw [Nat.div_one] at h2
        exact hin ⟨hI'.1, hI'.2, h1, by omega⟩)).trans (padval _)
    · refine (pad_apply_of_not_inside _ _ _ _ _ _ _ _ (1 : Fin 4) (by
        intro h
        have h1 : 1 ≤ I := h.1
        have h2 : (I - 1) / (0 + 1) < 224 := h.2.2
        rw [Nat.div_one] at h2
        exact hI' ⟨h1, by omega⟩)).trans (padval _)

/-- Region 2's input after the stretch before it: the previous output with column pairs folded into the channels. -/
theorem fold_read2 (W : Valuation τ sig (Elt Ideal)) (b i j c' : ℕ) (hb : b < 8) (hi : i < 224) (hj : j < 112) (hc : c' < 128) :
    Spec.arr4 (StableHlo.after (hostOps2 (F := Ideal)) W (Proc.devRef .tc main_v5) : S8x224x112x128.Idx → EReal) b i j c'
      = Spec.arr4 (W (Proc.devRef .tc main_v4) : S8x224x224x64.Idx → EReal) b i (2 * j + c' / 64) (c' % 64) := by
  have e : (StableHlo.after (hostOps2 (F := Ideal)) W (Proc.devRef .tc main_v5) : S8x224x112x128.Idx → EReal)
      = shapeCast S8x224x112x128 (W (Proc.devRef .tc main_v4) : S8x224x224x64.Idx → EReal) shapeCasts_S8x224x224x64_S8x224x112x128 := by
    after_results; rfl
  rw [e]
  unfold Spec.arr4
  rw [dif_pos (show b < 8 ∧ i < 224 ∧ j < 112 ∧ c' < 128 from ⟨hb, hi, hj, hc⟩),
    dif_pos (show b < 8 ∧ i < 224 ∧ 2 * j + c' / 64 < 224 ∧ c' % 64 < 64 from ⟨hb, hi, by omega, by omega⟩)]
  refine shapeCast_apply _ _ _ _ ?_
  refine (Shape.rowMajor_val_four (d := ![8, 224, 224, 64]) _).trans ?_
  refine Eq.trans ?_ (Shape.rowMajor_val_four (d := ![8, 224, 112, 128]) _).symm
  show ((b * 224 + i) * 224 + (2 * j + c' / 64)) * 64 + c' % 64 = ((b * 224 + i) * 112 + j) * 128 + c'
  omega

end Cert.ReferenceIdeal.Glue

end
-- ==== Proof.RGlue3.lean ====
/-
  The reference program's host glue at the generated boundary contents: what each region's input buffer holds when
  the region is entered, in terms of the launch memory (the stem) or of the previous region's output as its
  write-backs leave it (every later region). Each is the stretch's reading over any contents, taken at the boundary
  the stretch starts from, with the previous region's exit contents read at its output array.
-/
import proofs.«100114_g2000204297211070_pallasbulk_1265_19_alg».proof.Proof.Gen.ReferenceIdeal.Frame
import proofs.«100114_g2000204297211070_pallasbulk_1265_19_alg».proof.Proof.Spec
import proofs.«100114_g2000204297211070_pallasbulk_1265_19_alg».proof.Proof.RGlue1

set_option maxRecDepth 16384

noncomputable section

namespace Cert.ReferenceIdeal.Glue

open Cert.ReferenceIdeal Cert.ReferenceIdeal.Gen
open Idealize.ShloMosaic Idealize.ShloMosaic.TcCoe Idealize.ShloMosaic.ValueIdx

variable (m : (ℓ : Loc nD τ sig) → Buf (Elt Ideal) ℓ) (ρ : Dev nD → PrngReg)

/-- The stem's input at its entry: the launch image, channels moved last, in padded coordinates. -/
theorem stem_0 (c : Dev nD) (b I J ch : ℕ) (hb : b < 8) (hI : I < 226) (hJ : J < 226) (hch : ch < 3) :
    Spec.arr4 (V2 m ρ c main_v1 : S8x226x226x3.Idx → EReal) b I J ch
      = Spec.pad1 224 224 (fun b i j ch => Spec.arr4 (m ((c : Thread nD τ).loc main_arg0) : S8x3x224x224.Idx → EReal) b ch i j) b I J ch :=
  stem_read (W0 m ρ c) b I J ch hb hI hJ hch

/-- Region 1's input at its entry: the previous region's output, as its write-backs leave it, in padded coordinates. -/
theorem pad_1 (c : Dev nD) (b I J ch : ℕ) (hb : b < 8) (hI : I < 226) (hJ : J < 226) (hch : ch < 64) :
    Spec.arr4 (V5 m ρ c main_v3 : S8x226x226x64.Idx → EReal) b I J ch
      = Spec.pad1 224 224 (Spec.arr4 ((dat0 (V2 m ρ) c).arrAt 3 cfg0.N : S8x224x224x64.Idx → EReal)) b I J ch :=
  (pad_read1 (W3 m ρ c) b I J ch hb hI hJ hch).trans
    (congrArg (fun X : S8x224x224x64.Idx → EReal => Spec.pad1 224 224 (Spec.arr4 X) b I J ch) (W3_arr m ρ c 3))

/-- Region 2's input at its entry: the previous convolution's output, as its write-backs leave it, with column pairs
    folded into the channels. -/
theorem fold_2 (c : Dev nD) (b i j c' : ℕ) (hb : b < 8) (hi : i < 224) (hj : j < 112) (hc : c' < 128) :
    Spec.arr4 (V7 m ρ c main_v5 : S8x224x112x128.Idx → EReal) b i j c'
      = Spec.arr4 ((dat1 (V5 m ρ) c).arrAt 3 cfg1.N : S8x224x224x64.Idx → EReal) b i (2 * j + c' / 64) (c' % 64) :=
  (fold_read2 (W6 m ρ c) b i j c' hb hi hj hc).trans
    (congrArg (fun X : S8x224x224x64.Idx → EReal => Spec.arr4 X b i (2 * j + c' / 64) (c' % 64)) (W6_arr m ρ c 3))

end Cert.ReferenceIdeal.Glue

end
-- ==== Proof.RGlue2.lean ====
/-
  The host operations before the remaining regions of the reference program, read at an index: the sibling
  regions of region 1 (an input in padded coordinates) and of region 2 (column pairs folded into the channels),
  each over any contents of the buffers before the stretch.
-/
import proofs.«100114_g2000204297211070_pallasbulk_1265_19_alg».proof.Proof.RGlue1

set_option maxRecDepth 16384

noncomputable section

namespace Cert.ReferenceIdeal.Glue

open Cert.ReferenceIdeal Cert.ReferenceIdeal.Gen
open Idealize.ShloMosaic Idealize.ShloMosaic.TcCoe Idealize.ShloMosaic.ValueIdx

/-- Region 3's input after the two stretches before it: the previous output in padded coordinates. -/
theorem pad_read3 (W : Valuation τ sig (Elt Ideal)) (b I J ch : ℕ) (hb : b < 8) (hI : I < 114) (hJ : J < 114) (hch : ch < 64) :
    Spec.arr4 (StableHlo.after (hostOps3_1 (F := Ideal)) (StableHlo.after (hostOps3 (F := Ideal)) W) (Proc.devRef .tc main_v7) : S8x114x114x64.Idx → EReal) b I J ch
      = Spec.pad1 112 112 (Spec.arr4 (W (Proc.devRef .tc main_v6) : S8x112x112x64.Idx → EReal)) b I J ch := by
  have e : (StableHlo.after (hostOps3_1 (F := Ideal)) (StableHlo.after (hostOps3 (F := Ideal)) W) (Proc.devRef .tc main_v7) : S8x114x114x64.Idx → EReal)
      = pad S8x114x114x64 ![0, 1, 1, 0] ![0, 1, 1, 0] ![0, 0, 0, 0] (W (Proc.devRef .tc main_v6) : S8x112x112x64.Idx → EReal)
          (sitofp .f32 (constantI S_ 32 0#32) : FVec Ideal S_ .f32) pads_S8x112x112x64_S8x114x114x64_000_110_110_000 h_S_ := by
    after_results; rfl
  rw [e]
  unfold Spec.pad1
  by_cases hin : 1 ≤ I ∧ I ≤ 112 ∧ 1 ≤ J ∧ J ≤ 112
  · rw [if_pos hin]
    unfold Spec.arr4
    rw [dif_pos (show b < 8 ∧ I < 114 ∧ J < 114 ∧ ch < 64 from ⟨hb, hI, hJ, hch⟩),
      dif_pos (show b < 8 ∧ I - 1 < 112 ∧ J - 1 < 112 ∧ ch < 64 from ⟨hb, by omega, by omega, hch⟩)]
    exact pad_apply_of_inside _ _ _ _ _ _ _ _ (ix4 (⟨b, hb⟩ : Fin 8) (⟨I - 1, by omega⟩ : Fin 112) (⟨J - 1, by omega⟩ : Fin 112) (⟨ch, hch⟩ : Fin 64)) (by
      intro a
      match a with
      | ⟨0, _⟩ => show b = 0 + b * (0 + 1); omega
      | ⟨1, _⟩ => show I = 1 + (I - 1) * (0 + 1); omega
      | ⟨2, _⟩ => show J = 1 + (J - 1) * (0 + 1); omega
      | ⟨3, _⟩ => show ch = 0 + ch * (0 + 1); omega)
  · rw [if_neg hin]
    unfold Spec.arr4
    rw [dif_pos (show b < 8 ∧ I < 114 ∧ J < 114 ∧ ch < 64 from ⟨hb, hI, hJ, hch⟩)]
    by_cases hI' : 1 ≤ I ∧ I ≤ 112
    · refine (pad_apply_of_not_inside _ _ _ _ _ _ _ _ (2 : Fin 4) (by
        intro h
        have h1 : 1 ≤ J := h.1
        have h2 : (J - 1) / (0 + 1) < 112 := h.2.2
        rw [Nat.div_one] at h2
        exact hin ⟨hI'.1, hI'.2, h1, by omega⟩)).trans (padval _)
    · refine (pad_apply_of_not_inside _ _ _ _ _ _ _ _ (1 : Fin 4) (by
        intro h
        have h1 : 1 ≤ I := h.1
        have h2 : (I - 1) / (0 + 1) < 112 := h.2.2
        rw [Nat.div_one] at h2
        exact hI' ⟨h1, by omega⟩)).trans (padval _)

/-- Region 4's input after the two stretches before it: the previous output in padded coordinates. -/
theorem pad_read4 (W : Valuation τ sig (Elt Ideal)) (b I J ch : ℕ) (hb : b < 8) (hI : I < 114) (hJ : J < 114) (hch : ch < 128) :
    Spec.arr4 (StableHlo.after (hostOps4_1 (F := Ideal)) (StableHlo.after (hostOps4 (F := Ideal)) W) (Proc.devRef .tc main_v9) : S8x114x114x128.Idx → EReal) b I J ch
      = Spec.pad1 112 112 (Spec.arr4 (W (Proc.devRef .tc main_v8) : S8x112x112x128.Idx → EReal)) b I J ch := by
  have e : (StableHlo.after (hostOps4_1 (F := Ideal)) (StableHlo.after (hostOps4 (F := Ideal)) W) (Proc.devRef .tc main_v9) : S8x114x114x128.Idx → EReal)
      = pad S8x114x114x128 ![0, 1, 1, 0] ![0, 1, 1, 0] ![0, 0, 0, 0] (W (Proc.devRef .tc main_v8) : S8x112x112x128.Idx → EReal)
          (sitofp .f32 (constantI S_ 32 0#32) : FVec Ideal S_ .f32) pads_S8x112x112x128_S8x114x114x128_000_110_110_000 h_S_ := by
    after_results; rfl
  rw [e]
  unfold Spec.pad1
  by_cases hin : 1 ≤ I ∧ I ≤ 112 ∧ 1 ≤ J ∧ J ≤ 112
  · rw [if_pos hin]
    unfold Spec.arr4
    rw [dif_pos (show b < 8 ∧ I < 114 ∧ J < 114 ∧ ch < 128 from ⟨hb, hI, hJ, hch⟩),
      dif_pos (show b < 8 ∧ I - 1 < 112 ∧ J - 1 < 112 ∧ ch < 128 from ⟨hb, by omega, by omega, hch⟩)]
    exact pad_apply_of_inside _ _ _ _ _ _ _ _ (ix4 (⟨b, hb⟩ : Fin 8) (⟨I - 1, by omega⟩ : Fin 112) (⟨J - 1, by omega⟩ : Fin 112) (⟨ch, hch⟩ : Fin 128)) (by
      intro a
      match a with
      | ⟨0, _⟩ => show b = 0 + b * (0 + 1); omega
      | ⟨1, _⟩ => show I = 1 + (I - 1) * (0 + 1); omega
      | ⟨2, _⟩ => show J = 1 + (J - 1) * (0 + 1); omega
      | ⟨3, _⟩ => show ch = 0 + ch * (0 + 1); omega)
  · rw [if_neg hin]
    unfold Spec.arr4
    rw [dif_pos (show b < 8 ∧ I < 114 ∧ J < 114 ∧ ch < 128 from ⟨hb, hI, hJ, hch⟩)]
    by_cases hI' : 1 ≤ I ∧ I ≤ 112
    · refine (pad_apply_of_not_inside _ _ _ _ _ _ _ _ (2 : Fin 4) (by
        intro h
        have h1 : 1 ≤ J := h.1
        have h2 : (J - 1) / (0 + 1) < 112 := h.2.2
        rw [Nat.div_one] at h2
        exact hin ⟨hI'.1, hI'.2, h1, by omega⟩)).trans (padval _)
    · refine (pad_apply_of_not_inside _ _ _ _ _ _ _ _ (1 : Fin 4) (by
        intro h
        have h1 : 1 ≤ I := h.1
        have h2 : (I - 1) / (0 + 1) < 112 := h.2.2
        rw [Nat.div_one] at h2
        exact hI' ⟨h1, by omega⟩)).trans (padval _)

/-- Region 6's input after the two stretches before it: the previous output in padded coordinates. -/
theorem pad_read6 (W : Valuation τ sig (Elt Ideal)) (b I J ch : ℕ) (hb : b < 8) (hI : I < 58) (hJ : J < 58) (hch : ch < 128) :
    Spec.arr4 (StableHlo.after (hostOps6_1 (F := Ideal)) (StableHlo.after (hostOps6 (F := Ideal)) W) (Proc.devRef .tc main_v13) : S8x58x58x128.Idx → EReal) b I J ch
      = Spec.pad1 56 56 (Spec.arr4 (W (Proc.devRef .tc main_v12) : S8x56x56x128.Idx → EReal)) b I J ch := by
  have e : (StableHlo.after (hostOps6_1 (F := Ideal)) (StableHlo.after (hostOps6 (F := Ideal)) W) (Proc.devRef .tc main_v13) : S8x58x58x128.Idx → EReal)
      = pad S8x58x58x128 ![0, 1, 1, 0] ![0, 1, 1, 0] ![0, 0, 0, 0] (W (Proc.devRef .tc main_v12) : S8x56x56x128.Idx → EReal)
          (sitofp .f32 (constantI S_ 32 0#32) : FVec Ideal S_ .f32) pads_S8x56x56x128_S8x58x58x128_000_110_110_000 h_S_ := by
    after_results; rfl
  rw [e]
  unfold Spec.pad1
  by_cases hin : 1 ≤ I ∧ I ≤ 56 ∧ 1 ≤ J ∧ J ≤ 56
  · rw [if_pos hin]
    unfold Spec.arr4
    rw [dif_pos (show b < 8 ∧ I < 58 ∧ J < 58 ∧ ch < 128 from ⟨hb, hI, hJ, hch⟩),
      dif_pos (show b < 8 ∧ I - 1 < 56 ∧ J - 1 < 56 ∧ ch < 128 from ⟨hb, by omega, by omega, hch⟩)]
    exact pad_apply_of_inside _ _ _ _ _ _ _ _ (ix4 (⟨b, hb⟩ : Fin 8) (⟨I - 1, by omega⟩ : Fin 56) (⟨J - 1, by omega⟩ : Fin 56) (⟨ch, hch⟩ : Fin 128)) (by
      intro a
      match a with
      | ⟨0, _⟩ => show b = 0 + b * (0 + 1); omega
      | ⟨1, _⟩ => show I = 1 + (I - 1) * (0 + 1); omega
      | ⟨2, _⟩ => show J = 1 + (J - 1) * (0 + 1); omega
      | ⟨3, _⟩ => show ch = 0 + ch * (0 + 1); omega)
  · rw [if_neg hin]
    unfold Spec.arr4
    rw [dif_pos (show b < 8 ∧ I < 58 ∧ J < 58 ∧ ch < 128 from ⟨hb, hI, hJ, hch⟩)]
    by_cases hI' : 1 ≤ I ∧ I ≤ 56
    · refine (pad_apply_of_not_inside _ _ _ _ _ _ _ _ (2 : Fin 4) (by
        intro h
        have h1 : 1 ≤ J := h.1
        have h2 : (J - 1) / (0 + 1) < 56 := h.2.2
        rw [Nat.div_one] at h2
        exact hin ⟨hI'.1, hI'.2, h1, by omega⟩)).trans (padval _)
    · refine (pad_apply_of_not_inside _ _ _ _ _ _ _ _ (1 : Fin 4) (by
        intro h
        have h1 : 1 ≤ I := h.1
        have h2 : (I - 1) / (0 + 1) < 56 := h.2.2
        rw [Nat.div_one] at h2
        exact hI' ⟨h1, by omega⟩)).trans (padval _)

/-- Region 7's input after the two stretches before it: the previous output in padded coordinates. -/
theorem pad_read7 (W : Valuation τ sig (Elt Ideal)) (b I J ch : ℕ) (hb : b < 8) (hI : I < 58) (hJ : J < 58) (hch : ch < 256) :
    Spec.arr4 (StableHlo.after (hostOps7_1 (F := Ideal)) (StableHlo.after (hostOps7 (F := Ideal)) W) (Proc.devRef .tc main_v15) : S8x58x58x256.Idx → EReal) b I J ch
      = Spec.pad1 56 56 (Spec.arr4 (W (Proc.devRef .tc main_v14) : S8x56x56x256.Idx → EReal)) b I J ch := by
  have e : (StableHlo.after (hostOps7_1 (F := Ideal)) (StableHlo.after (hostOps7 (F := Ideal)) W) (Proc.devRef .tc main_v15) : S8x58x58x256.Idx → EReal)
      = pad S8x58x58x256 ![0, 1, 1, 0] ![0, 1, 1, 0] ![0, 0, 0, 0] (W (Proc.devRef .tc main_v14) : S8x56x56x256.Idx → EReal)
          (sitofp .f32 (constantI S_ 32 0#32) : FVec Ideal S_ .f32) pads_S8x56x56x256_S8x58x58x256_000_110_110_000 h_S_ := by
    after_results; rfl
  rw [e]
  unfold Spec.pad1
  by_cases hin : 1 ≤ I ∧ I ≤ 56 ∧ 1 ≤ J ∧ J ≤ 56
  · rw [if_pos hin]
    unfold Spec.arr4
    rw [dif_pos (show b < 8 ∧ I < 58 ∧ J < 58 ∧ ch < 256 from ⟨hb, hI, hJ, hch⟩),
      dif_pos (show b < 8 ∧ I - 1 < 56 ∧ J - 1 < 56 ∧ ch < 256 from ⟨hb, by omega, by omega, hch⟩)]
    exact pad_apply_of_inside _ _ _ _ _ _ _ _ (ix4 (⟨b, hb⟩ : Fin 8) (⟨I - 1, by omega⟩ : Fin 56) (⟨J - 1, by omega⟩ : Fin 56) (⟨ch, hch⟩ : Fin 256)) (by
      intro a
      match a with
      | ⟨0, _⟩ => show b = 0 + b * (0 + 1); omega
      | ⟨1, _⟩ => show I = 1 + (I - 1) * (0 + 1); omega
      | ⟨2, _⟩ => show J = 1 + (J - 1) * (0 + 1); omega
      | ⟨3, _⟩ => show ch = 0 + ch * (0 + 1); omega)
  · rw [if_neg hin]
    unfold Spec.arr4
    rw [dif_pos (show b < 8 ∧ I < 58 ∧ J < 58 ∧ ch < 256 from ⟨hb, hI, hJ, hch⟩)]
    by_cases hI' : 1 ≤ I ∧ I ≤ 56
    · refine (pad_apply_of_not_inside _ _ _ _ _ _ _ _ (2 : Fin 4) (by
        intro h
        have h1 : 1 ≤ J := h.1
        have h2 : (J - 1) / (0 + 1) < 56 := h.2.2
        rw [Nat.div_one] at h2
        exact hin ⟨hI'.1, hI'.2, h1, by omega⟩)).trans (padval _)
    · refine (pad_apply_of_not_inside _ _ _ _ _ _ _ _ (1 : Fin 4) (by
        intro h
        have h1 : 1 ≤ I := h.1
        have h2 : (I - 1) / (0 + 1) < 56 := h.2.2
        rw [Nat.div_one] at h2
        exact hI' ⟨h1, by omega⟩)).trans (padval _)

/-- Region 8's input after the two stretches before it: the previous output in padded coordinates. -/
theorem pad_read8 (W : Valuation τ sig (Elt Ideal)) (b I J ch : ℕ) (hb : b < 8) (hI : I < 58) (hJ : J < 58) (hch : ch < 256) :
    Spec.arr4 (StableHlo.after (hostOps8_1 (F := Ideal)) (StableHlo.after (hostOps8 (F := Ideal)) W) (Proc.devRef .tc main_v17) : S8x58x58x256.Idx → EReal) b I J ch
      = Spec.pad1 56 56 (Spec.arr4 (W (Proc.devRef .tc main_v16) : S8x56x56x256.Idx → EReal)) b I J ch := by
  have e : (StableHlo.after (hostOps8_1 (F := Ideal)) (StableHlo.after (hostOps8 (F := Ideal)) W) (Proc.devRef .tc main_v17) : S8x58x58x256.Idx → EReal)
      = pad S8x58x58x256 ![0, 1, 1, 0] ![0, 1, 1, 0] ![0, 0, 0, 0] (W (Proc.devRef .tc main_v16) : S8x56x56x256.Idx → EReal)
          (sitofp .f32 (constantI S_ 32 0#32) : FVec Ideal S_ .f32) pads_S8x56x56x256_S8x58x58x256_000_110_110_000 h_S_ := by
    after_results; rfl
  rw [e]
  unfold Spec.pad1
  by_cases hin : 1 ≤ I ∧ I ≤ 56 ∧ 1 ≤ J ∧ J ≤ 56
  · rw [if_pos hin]
    unfold Spec.arr4
    rw [dif_pos (show b < 8 ∧ I < 58 ∧ J < 58 ∧ ch < 256 from ⟨hb, hI, hJ, hch⟩),
      dif_pos (show b < 8 ∧ I - 1 < 56 ∧ J - 1 < 56 ∧ ch < 256 from ⟨hb, by omega, by omega, hch⟩)]
    exact pad_apply_of_inside _ _ _ _ _ _ _ _ (ix4 (⟨b, hb⟩ : Fin 8) (⟨I - 1, by omega⟩ : Fin 56) (⟨J - 1, by omega⟩ : Fin 56) (⟨ch, hch⟩ : Fin 256)) (by
      intro a
      match a with
      | ⟨0, _⟩ => show b = 0 + b * (0 + 1); omega
      | ⟨1, _⟩ => show I = 1 + (I - 1) * (0 + 1); omega
      | ⟨2, _⟩ => show J = 1 + (J - 1) * (0 + 1); omega
      | ⟨3, _⟩ => show ch = 0 + ch * (0 + 1); omega)
  · rw [if_neg hin]
    unfold Spec.arr4
    rw [dif_pos (show b < 8 ∧ I < 58 ∧ J < 58 ∧ ch < 256 from ⟨hb, hI, hJ, hch⟩)]
    by_cases hI' : 1 ≤ I ∧ I ≤ 56
    · refine (pad_apply_of_not_inside _ _ _ _ _ _ _ _ (2 : Fin 4) (by
        intro h
        have h1 : 1 ≤ J := h.1
        have h2 : (J - 1) / (0 + 1) < 56 := h.2.2
        rw [Nat.div_one] at h2
        exact hin ⟨hI'.1, hI'.2, h1, by omega⟩)).trans (padval _)
    · refine (pad_apply_of_not_inside _ _ _ _ _ _ _ _ (1 : Fin 4) (by
        intro h
        have h1 : 1 ≤ I := h.1
        have h2 : (I - 1) / (0 + 1) < 56 := h.2.2
        rw [Nat.div_one] at h2
        exact hI' ⟨h1, by omega⟩)).trans (padval _)

/-- Region 10's input after the two stretches before it: the previous output in padded coordinates. -/
theorem pad_read10 (W : Valuation τ sig (Elt Ideal)) (b I J ch : ℕ) (hb : b < 8) (hI : I < 30) (hJ : J < 30) (hch : ch < 256) :
    Spec.arr4 (StableHlo.after (hostOps10_1 (F := Ideal)) (StableHlo.after (hostOps10 (F := Ideal)) W) (Proc.devRef .tc main_v21) : S8x30x30x256.Idx → EReal) b I J ch
      = Spec.pad1 28 28 (Spec.arr4 (W (Proc.devRef .tc main_v20) : S8x28x28x256.Idx → EReal)) b I J ch := by
  have e : (StableHlo.after (hostOps10_1 (F := Ideal)) (StableHlo.after (hostOps10 (F := Ideal)) W) (Proc.devRef .tc main_v21) : S8x30x30x256.Idx → EReal)
      = pad S8x30x30x256 ![0, 1, 1, 0] ![0, 1, 1, 0] ![0, 0, 0, 0] (W (Proc.devRef .tc main_v20) : S8x28x28x256.Idx → EReal)
          (sitofp .f32 (constantI S_ 32 0#32) : FVec Ideal S_ .f32) pads_S8x28x28x256_S8x30x30x256_000_110_110_000 h_S_ := by
    after_results; rfl
  rw [e]
  unfold Spec.pad1
  by_cases hin : 1 ≤ I ∧ I ≤ 28 ∧ 1 ≤ J ∧ J ≤ 28
  · rw [if_pos hin]
    unfold Spec.arr4
    rw [dif_pos (show b < 8 ∧ I < 30 ∧ J < 30 ∧ ch < 256 from ⟨hb, hI, hJ, hch⟩),
      dif_pos (show b < 8 ∧ I - 1 < 28 ∧ J - 1 < 28 ∧ ch < 256 from ⟨hb, by omega, by omega, hch⟩)]
    exact pad_apply_of_inside _ _ _ _ _ _ _ _ (ix4 (⟨b, hb⟩ : Fin 8) (⟨I - 1, by omega⟩ : Fin 28) (⟨J - 1, by omega⟩ : Fin 28) (⟨ch, hch⟩ : Fin 256)) (by
      intro a
      match a with
      | ⟨0, _⟩ => show b = 0 + b * (0 + 1); omega
      | ⟨1, _⟩ => show I = 1 + (I - 1) * (0 + 1); omega
      | ⟨2, _⟩ => show J = 1 + (J - 1) * (0 + 1); omega
      | ⟨3, _⟩ => show ch = 0 + ch * (0 + 1); omega)
  · rw [if_neg hin]
    unfold Spec.arr4
    rw [dif_pos (show b < 8 ∧ I < 30 ∧ J < 30 ∧ ch < 256 from ⟨hb, hI, hJ, hch⟩)]
    by_cases hI' : 1 ≤ I ∧ I ≤ 28
    · refine (pad_apply_of_not_inside _ _ _ _ _ _ _ _ (2 : Fin 4) (by
        intro h
        have h1 : 1 ≤ J := h.1
        have h2 : (J - 1) / (0 + 1) < 28 := h.2.2
        rw [Nat.div_one] at h2
        exact hin ⟨hI'.1, hI'.2, h1, by omega⟩)).trans (padval _)
    · refine (pad_apply_of_not_inside _ _ _ _ _ _ _ _ (1 : Fin 4) (by
        intro h
        have h1 : 1 ≤ I := h.1
        have h2 : (I - 1) / (0 + 1) < 28 := h.2.2
        rw [Nat.div_one] at h2
        exact hI' ⟨h1, by omega⟩)).trans (padval _)

/-- Region 11's input after the two stretches before it: the previous output in padded coordinates. -/
theorem pad_read11 (W : Valuation τ sig (Elt Ideal)) (b I J ch : ℕ) (hb : b < 8) (hI : I < 30) (hJ : J < 30) (hch : ch < 512) :
    Spec.arr4 (StableHlo.after (hostOps11_1 (F := Ideal)) (StableHlo.after (hostOps11 (F := Ideal)) W) (Proc.devRef .tc main_v23) : S8x30x30x512.Idx → EReal) b I J ch
      = Spec.pad1 28 28 (Spec.arr4 (W (Proc.devRef .tc main_v22) : S8x28x28x512.Idx → EReal)) b I J ch := by
  have e : (StableHlo.after (hostOps11_1 (F := Ideal)) (StableHlo.after (hostOps11 (F := Ideal)) W) (Proc.devRef .tc main_v23) : S8x30x30x512.Idx → EReal)
      = pad S8x30x30x512 ![0, 1, 1, 0] ![0, 1, 1, 0] ![0, 0, 0, 0] (W (Proc.devRef .tc main_v22) : S8x28x28x512.Idx → EReal)
          (sitofp .f32 (constantI S_ 32 0#32) : FVec Ideal S_ .f32) pads_S8x28x28x512_S8x30x30x512_000_110_110_000 h_S_ := by
    after_results; rfl
  rw [e]
  unfold Spec.pad1
  by_cases hin : 1 ≤ I ∧ I ≤ 28 ∧ 1 ≤ J ∧ J ≤ 28
  · rw [if_pos hin]
    unfold Spec.arr4
    rw [dif_pos (show b < 8 ∧ I < 30 ∧ J < 30 ∧ ch < 512 from ⟨hb, hI, hJ, hch⟩),
      dif_pos (show b < 8 ∧ I - 1 < 28 ∧ J - 1 < 28 ∧ ch < 512 from ⟨hb, by omega, by omega, hch⟩)]
    exact pad_apply_of_inside _ _ _ _ _ _ _ _ (ix4 (⟨b, hb⟩ : Fin 8) (⟨I - 1, by omega⟩ : Fin 28) (⟨J - 1, by omega⟩ : Fin 28) (⟨ch, hch⟩ : Fin 512)) (by
      intro a
      match a with
      | ⟨0, _⟩ => show b = 0 + b * (0 + 1); omega
      | ⟨1, _⟩ => show I = 1 + (I - 1) * (0 + 1); omega
      | ⟨2, _⟩ => show J = 1 + (J - 1) * (0 + 1); omega
      | ⟨3, _⟩ => show ch = 0 + ch * (0 + 1); omega)
  · rw [if_neg hin]
    unfold Spec.arr4
    rw [dif_pos (show b < 8 ∧ I < 30 ∧ J < 30 ∧ ch < 512 from ⟨hb, hI, hJ, hch⟩)]
    by_cases hI' : 1 ≤ I ∧ I ≤ 28
    · refine (pad_apply_of_not_inside _ _ _ _ _ _ _ _ (2 : Fin 4) (by
        intro h
        have h1 : 1 ≤ J := h.1
        have h2 : (J - 1) / (0 + 1) < 28 := h.2.2
        rw [Nat.div_one] at h2
        exact hin ⟨hI'.1, hI'.2, h1, by omega⟩)).trans (padval _)
    · refine (pad_apply_of_not_inside _ _ _ _ _ _ _ _ (1 : Fin 4) (by
        intro h
        have h1 : 1 ≤ I := h.1
        have h2 : (I - 1) / (0 + 1) < 28 := h.2.2
        rw [Nat.div_one] at h2
        exact hI' ⟨h1, by omega⟩)).trans (padval _)

/-- Region 12's input after the two stretches before it: the previous output in padded coordinates. -/
theorem pad_read12 (W : Valuation τ sig (Elt Ideal)) (b I J ch : ℕ) (hb : b < 8) (hI : I < 30) (hJ : J < 30) (hch : ch < 512) :
    Spec.arr4 (StableHlo.after (hostOps12_1 (F := Ideal)) (StableHlo.after (hostOps12 (F := Ideal)) W) (Proc.devRef .tc main_v25) : S8x30x30x512.Idx → EReal) b I J ch
      = Spec.pad1 28 28 (Spec.arr4 (W (Proc.devRef .tc main_v24) : S8x28x28x512.Idx → EReal)) b I J ch := by
  have e : (StableHlo.after (hostOps12_1 (F := Ideal)) (StableHlo.after (hostOps12 (F := Ideal)) W) (Proc.devRef .tc main_v25) : S8x30x30x512.Idx → EReal)
      = pad S8x30x30x512 ![0, 1, 1, 0] ![0, 1, 1, 0] ![0, 0, 0, 0] (W (Proc.devRef .tc main_v24) : S8x28x28x512.Idx → EReal)
          (sitofp .f32 (constantI S_ 32 0#32) : FVec Ideal S_ .f32) pads_S8x28x28x512_S8x30x30x512_000_110_110_000 h_S_ := by
    after_results; rfl
  rw [e]
  unfold Spec.pad1
  by_cases hin : 1 ≤ I ∧ I ≤ 28 ∧ 1 ≤ J ∧ J ≤ 28
  · rw [if_pos hin]
    unfold Spec.arr4
    rw [dif_pos (show b < 8 ∧ I < 30 ∧ J < 30 ∧ ch < 512 from ⟨hb, hI, hJ, hch⟩),
      dif_pos (show b < 8 ∧ I - 1 < 28 ∧ J - 1 < 28 ∧ ch < 512 from ⟨hb, by omega, by omega, hch⟩)]
    exact pad_apply_of_inside _ _ _ _ _ _ _ _ (ix4 (⟨b, hb⟩ : Fin 8) (⟨I - 1, by omega⟩ : Fin 28) (⟨J - 1, by omega⟩ : Fin 28) (⟨ch, hch⟩ : Fin 512)) (by
      intro a
      match a with
      | ⟨0, _⟩ => show b = 0 + b * (0 + 1); omega
      | ⟨1, _⟩ => show I = 1 + (I - 1) * (0 + 1); omega
      | ⟨2, _⟩ => show J = 1 + (J - 1) * (0 + 1); omega
      | ⟨3, _⟩ => show ch = 0 + ch * (0 + 1); omega)
  · rw [if_neg hin]
    unfold Spec.arr4
    rw [dif_pos (show b < 8 ∧ I < 30 ∧ J < 30 ∧ ch < 512 from ⟨hb, hI, hJ, hch⟩)]
    by_cases hI' : 1 ≤ I ∧ I ≤ 28
    · refine (pad_apply_of_not_inside _ _ _ _ _ _ _ _ (2 : Fin 4) (by
        intro h
        have h1 : 1 ≤ J := h.1
        have h2 : (J - 1) / (0 + 1) < 28 := h.2.2
        rw [Nat.div_one] at h2
        exact hin ⟨hI'.1, hI'.2, h1, by omega⟩)).trans (padval _)
    · refine (pad_apply_of_not_inside _ _ _ _ _ _ _ _ (1 : Fin 4) (by
        intro h
        have h1 : 1 ≤ I := h.1
        have h2 : (I - 1) / (0 + 1) < 28 := h.2.2
        rw [Nat.div_one] at h2
        exact hI' ⟨h1, by omega⟩)).trans (padval _)

/-- Region 14's input after the two stretches before it: the previous output in padded coordinates. -/
theorem pad_read14 (W : Valuation τ sig (Elt Ideal)) (b I J ch : ℕ) (hb : b < 8) (hI : I < 16) (hJ : J < 16) (hch : ch < 512) :
    Spec.arr4 (StableHlo.after (hostOps14_1 (F := Ideal)) (StableHlo.after (hostOps14 (F := Ideal)) W) (Proc.devRef .tc main_v29) : S8x16x16x512.Idx → EReal) b I J ch
      = Spec.pad1 14 14 (Spec.arr4 (W (Proc.devRef .tc main_v28) : S8x14x14x512.Idx → EReal)) b I J ch := by
  have e : (StableHlo.after (hostOps14_1 (F := Ideal)) (StableHlo.after (hostOps14 (F := Ideal)) W) (Proc.devRef .tc main_v29) : S8x16x16x512.Idx → EReal)
      = pad S8x16x16x512 ![0, 1, 1, 0] ![0, 1, 1, 0] ![0, 0, 0, 0] (W (Proc.devRef .tc main_v28) : S8x14x14x512.Idx → EReal)
          (sitofp .f32 (constantI S_ 32 0#32) : FVec Ideal S_ .f32) pads_S8x14x14x512_S8x16x16x512_000_110_110_000 h_S_ := by
    after_results; rfl
  rw [e]
  unfold Spec.pad1
  by_cases hin : 1 ≤ I ∧ I ≤ 14 ∧ 1 ≤ J ∧ J ≤ 14
  · rw [if_pos hin]
    unfold Spec.arr4
    rw [dif_pos (show b < 8 ∧ I < 16 ∧ J < 16 ∧ ch < 512 from ⟨hb, hI, hJ, hch⟩),
      dif_pos (show b < 8 ∧ I - 1 < 14 ∧ J - 1 < 14 ∧ ch < 512 from ⟨hb, by omega, by omega, hch⟩)]
    exact pad_apply_of_inside _ _ _ _ _ _ _ _ (ix4 (⟨b, hb⟩ : Fin 8) (⟨I - 1, by omega⟩ : Fin 14) (⟨J - 1, by omega⟩ : Fin 14) (⟨ch, hch⟩ : Fin 512)) (by
      intro a
      match a with
      | ⟨0, _⟩ => show b = 0 + b * (0 + 1); omega
      | ⟨1, _⟩ => show I = 1 + (I - 1) * (0 + 1); omega
      | ⟨2, _⟩ => show J = 1 + (J - 1) * (0 + 1); omega
      | ⟨3, _⟩ => show ch = 0 + ch * (0 + 1); omega)
  · rw [if_neg hin]
    unfold Spec.arr4
    rw [dif_pos (show b < 8 ∧ I < 16 ∧ J < 16 ∧ ch < 512 from ⟨hb, hI, hJ, hch⟩)]
    by_cases hI' : 1 ≤ I ∧ I ≤ 14
    · refine (pad_apply_of_not_inside _ _ _ _ _ _ _ _ (2 : Fin 4) (by
        intro h
        have h1 : 1 ≤ J := h.1
        have h2 : (J - 1) / (0 + 1) < 14 := h.2.2
        rw [Nat.div_one] at h2
        exact hin ⟨hI'.1, hI'.2, h1, by omega⟩)).trans (padval _)
    · refine (pad_apply_of_not_inside _ _ _ _ _ _ _ _ (1 : Fin 4) (by
        intro h
        have h1 : 1 ≤ I := h.1
        have h2 : (I - 1) / (0 + 1) < 14 := h.2.2
        rw [Nat.div_one] at h2
        exact hI' ⟨h1, by omega⟩)).trans (padval _)

/-- Region 15's input after the two stretches before it: the previous output in padded coordinates. -/
theorem pad_read15 (W : Valuation τ sig (Elt Ideal)) (b I J ch : ℕ) (hb : b < 8) (hI : I < 16) (hJ : J < 16) (hch : ch < 512) :
    Spec.arr4 (StableHlo.after (hostOps15_1 (F := Ideal)) (StableHlo.after (hostOps15 (F := Ideal)) W) (Proc.devRef .tc main_v31) : S8x16x16x512.Idx → EReal) b I J ch
      = Spec.pad1 14 14 (Spec.arr4 (W (Proc.devRef .tc main_v30) : S8x14x14x512.Idx → EReal)) b I J ch := by
  have e : (StableHlo.after (hostOps15_1 (F := Ideal)) (StableHlo.after (hostOps15 (F := Ideal)) W) (Proc.devRef .tc main_v31) : S8x16x16x512.Idx → EReal)
      = pad S8x16x16x512 ![0, 1, 1, 0] ![0, 1, 1, 0] ![0, 0, 0, 0] (W (Proc.devRef .tc main_v30) : S8x14x14x512.Idx → EReal)
          (sitofp .f32 (constantI S_ 32 0#32) : FVec Ideal S_ .f32) pads_S8x14x14x512_S8x16x16x512_000_110_110_000 h_S_ := by
    after_results; rfl
  rw [e]
  unfold Spec.pad1
  by_cases hin : 1 ≤ I ∧ I ≤ 14 ∧ 1 ≤ J ∧ J ≤ 14
  · rw [if_pos hin]
    unfold Spec.arr4
    rw [dif_pos (show b < 8 ∧ I < 16 ∧ J < 16 ∧ ch < 512 from ⟨hb, hI, hJ, hch⟩),
      dif_pos (show b < 8 ∧ I - 1 < 14 ∧ J - 1 < 14 ∧ ch < 512 from ⟨hb, by omega, by omega, hch⟩)]
    exact pad_apply_of_inside _ _ _ _ _ _ _ _ (ix4 (⟨b, hb⟩ : Fin 8) (⟨I - 1, by omega⟩ : Fin 14) (⟨J - 1, by omega⟩ : Fin 14) (⟨ch, hch⟩ : Fin 512)) (by
      intro a
      match a with
      | ⟨0, _⟩ => show b = 0 + b * (0 + 1); omega
      | ⟨1, _⟩ => show I = 1 + (I - 1) * (0 + 1); omega
      | ⟨2, _⟩ => show J = 1 + (J - 1) * (0 + 1); omega
      | ⟨3, _⟩ => show ch = 0 + ch * (0 + 1); omega)
  · rw [if_neg hin]
    unfold Spec.arr4
    rw [dif_pos (show b < 8 ∧ I < 16 ∧ J < 16 ∧ ch < 512 from ⟨hb, hI, hJ, hch⟩)]
    by_cases hI' : 1 ≤ I ∧ I ≤ 14
    · refine (pad_apply_of_not_inside _ _ _ _ _ _ _ _ (2 : Fin 4) (by
        intro h
        have h1 : 1 ≤ J := h.1
        have h2 : (J - 1) / (0 + 1) < 14 := h.2.2
        rw [Nat.div_one] at h2
        exact hin ⟨hI'.1, hI'.2, h1, by omega⟩)).trans (padval _)
    · refine (pad_apply_of_not_inside _ _ _ _ _ _ _ _ (1 : Fin 4) (by
        intro h
        have h1 : 1 ≤ I := h.1
        have h2 : (I - 1) / (0 + 1) < 14 := h.2.2
        rw [Nat.div_one] at h2
        exact hI' ⟨h1, by omega⟩)).trans (padval _)

/-- Region 16's input after the two stretches before it: the previous output in padded coordinates. -/
theorem pad_read16 (W : Valuation τ sig (Elt Ideal)) (b I J ch : ℕ) (hb : b < 8) (hI : I < 16) (hJ : J < 16) (hch : ch < 512) :
    Spec.arr4 (StableHlo.after (hostOps16_1 (F := Ideal)) (StableHlo.after (hostOps16 (F := Ideal)) W) (Proc.devRef .tc main_v33) : S8x16x16x512.Idx → EReal) b I J ch
      = Spec.pad1 14 14 (Spec.arr4 (W (Proc.devRef .tc main_v32) : S8x14x14x512.Idx → EReal)) b I J ch := by
  have e : (StableHlo.after (hostOps16_1 (F := Ideal)) (StableHlo.after (hostOps16 (F := Ideal)) W) (Proc.devRef .tc main_v33) : S8x16x16x512.Idx → EReal)
      = pad S8x16x16x512 ![0, 1, 1, 0] ![0, 1, 1, 0] ![0, 0, 0, 0] (W (Proc.devRef .tc main_v32) : S8x14x14x512.Idx → EReal)
          (sitofp .f32 (constantI S_ 32 0#32) : FVec Ideal S_ .f32) pads_S8x14x14x512_S8x16x16x512_000_110_110_000 h_S_ := by
    after_results; rfl
  rw [e]
  unfold Spec.pad1
  by_cases hin : 1 ≤ I ∧ I ≤ 14 ∧ 1 ≤ J ∧ J ≤ 14
  · rw [if_pos hin]
    unfold Spec.arr4
    rw [dif_pos (show b < 8 ∧ I < 16 ∧ J < 16 ∧ ch < 512 from ⟨hb, hI, hJ, hch⟩),
      dif_pos (show b < 8 ∧ I - 1 < 14 ∧ J - 1 < 14 ∧ ch < 512 from ⟨hb, by omega, by omega, hch⟩)]
    exact pad_apply_of_inside _ _ _ _ _ _ _ _ (ix4 (⟨b, hb⟩ : Fin 8) (⟨I - 1, by omega⟩ : Fin 14) (⟨J - 1, by omega⟩ : Fin 14) (⟨ch, hch⟩ : Fin 512)) (by
      intro a
      match a with
      | ⟨0, _⟩ => show b = 0 + b * (0 + 1); omega
      | ⟨1, _⟩ => show I = 1 + (I - 1) * (0 + 1); omega
      | ⟨2, _⟩ => show J = 1 + (J - 1) * (0 + 1); omega
      | ⟨3, _⟩ => show ch = 0 + ch * (0 + 1); omega)
  · rw [if_neg hin]
    unfold Spec.arr4
    rw [dif_pos (show b < 8 ∧ I < 16 ∧ J < 16 ∧ ch < 512 from ⟨hb, hI, hJ, hch⟩)]
    by_cases hI' : 1 ≤ I ∧ I ≤ 14
    · refine (pad_apply_of_not_inside _ _ _ _ _ _ _ _ (2 : Fin 4) (by
        intro h
        have h1 : 1 ≤ J := h.1
        have h2 : (J - 1) / (0 + 1) < 14 := h.2.2
        rw [Nat.div_one] at h2
        exact hin ⟨hI'.1, hI'.2, h1, by omega⟩)).trans (padval _)
    · refine (pad_apply_of_not_inside _ _ _ _ _ _ _ _ (1 : Fin 4) (by
        intro h
        have h1 : 1 ≤ I := h.1
        have h2 : (I - 1) / (0 + 1) < 14 := h.2.2
        rw [Nat.div_one] at h2
        exact hI' ⟨h1, by omega⟩)).trans (padval _)

/-- Region 5's input after the stretch before it: the previous output with column pairs folded into the channels. -/
theorem fold_read5 (W : Valuation τ sig (Elt Ideal)) (b i j c' : ℕ) (hb : b < 8) (hi : i < 112) (hj : j < 56) (hc : c' < 256) :
    Spec.arr4 (StableHlo.after (hostOps5 (F := Ideal)) W (Proc.devRef .tc main_v11) : S8x112x56x256.Idx → EReal) b i j c'
      = Spec.arr4 (W (Proc.devRef .tc main_v10) : S8x112x112x128.Idx → EReal) b i (2 * j + c' / 128) (c' % 128) := by
  have e : (StableHlo.after (hostOps5 (F := Ideal)) W (Proc.devRef .tc main_v11) : S8x112x56x256.Idx → EReal)
      = shapeCast S8x112x56x256 (W (Proc.devRef .tc main_v10) : S8x112x112x128.Idx → EReal) shapeCasts_S8x112x112x128_S8x112x56x256 := by
    after_results; rfl
  rw [e]
  unfold Spec.arr4
  rw [dif_pos (show b < 8 ∧ i < 112 ∧ j < 56 ∧ c' < 256 from ⟨hb, hi, hj, hc⟩),
    dif_pos (show b < 8 ∧ i < 112 ∧ 2 * j + c' / 128 < 112 ∧ c' % 128 < 128 from ⟨hb, hi, by omega, by omega⟩)]
  refine shapeCast_apply _ _ _ _ ?_
  refine (Shape.rowMajor_val_four (d := ![8, 112, 112, 128]) _).trans ?_
  refine Eq.trans ?_ (Shape.rowMajor_val_four (d := ![8, 112, 56, 256]) _).symm
  show ((b * 112 + i) * 112 + (2 * j + c' / 128)) * 128 + c' % 128 = ((b * 112 + i) * 56 + j) * 256 + c'
  omega

/-- Region 9's input after the stretch before it: the previous output with column pairs folded into the channels. -/
theorem fold_read9 (W : Valuation τ sig (Elt Ideal)) (b i j c' : ℕ) (hb : b < 8) (hi : i < 56) (hj : j < 28) (hc : c' < 512) :
    Spec.arr4 (StableHlo.after (hostOps9 (F := Ideal)) W (Proc.devRef .tc main_v19) : S8x56x28x512.Idx → EReal) b i j c'
      = Spec.arr4 (W (Proc.devRef .tc main_v18) : S8x56x56x256.Idx → EReal) b i (2 * j + c' / 256) (c' % 256) := by
  have e : (StableHlo.after (hostOps9 (F := Ideal)) W (Proc.devRef .tc main_v19) : S8x56x28x512.Idx → EReal)
      = shapeCast S8x56x28x512 (W (Proc.devRef .tc main_v18) : S8x56x56x256.Idx → EReal) shapeCasts_S8x56x56x256_S8x56x28x512 := by
    after_results; rfl
  rw [e]
  unfold Spec.arr4
  rw [dif_pos (show b < 8 ∧ i < 56 ∧ j < 28 ∧ c' < 512 from ⟨hb, hi, hj, hc⟩),
    dif_pos (show b < 8 ∧ i < 56 ∧ 2 * j + c' / 256 < 56 ∧ c' % 256 < 256 from ⟨hb, hi, by omega, by omega⟩)]
  refine shapeCast_apply _ _ _ _ ?_
  refine (Shape.rowMajor_val_four (d := ![8, 56, 56, 256]) _).trans ?_
  refine Eq.trans ?_ (Shape.rowMajor_val_four (d := ![8, 56, 28, 512]) _).symm
  show ((b * 56 + i) * 56 + (2 * j + c' / 256)) * 256 + c' % 256 = ((b * 56 + i) * 28 + j) * 512 + c'
  omega

/-- Region 13's input after the stretch before it: the previous output with column pairs folded into the channels. -/
theorem fold_read13 (W : Valuation τ sig (Elt Ideal)) (b i j c' : ℕ) (hb : b < 8) (hi : i < 28) (hj : j < 14) (hc : c' < 1024) :
    Spec.arr4 (StableHlo.after (hostOps13 (F := Ideal)) W (Proc.devRef .tc main_v27) : S8x28x14x1024.Idx → EReal) b i j c'
      = Spec.arr4 (W (Proc.devRef .tc main_v26) : S8x28x28x512.Idx → EReal) b i (2 * j + c' / 512) (c' % 512) := by
  have e : (StableHlo.after (hostOps13 (F := Ideal)) W (Proc.devRef .tc main_v27) : S8x28x14x1024.Idx → EReal)
      = shapeCast S8x28x14x1024 (W (Proc.devRef .tc main_v26) : S8x28x28x512.Idx → EReal) shapeCasts_S8x28x28x512_S8x28x14x1024 := by
    after_results; rfl
  rw [e]
  unfold Spec.arr4
  rw [dif_pos (show b < 8 ∧ i < 28 ∧ j < 14 ∧ c' < 1024 from ⟨hb, hi, hj, hc⟩),
    dif_pos (show b < 8 ∧ i < 28 ∧ 2 * j + c' / 512 < 28 ∧ c' % 512 < 512 from ⟨hb, hi, by omega, by omega⟩)]
  refine shapeCast_apply _ _ _ _ ?_
  refine (Shape.rowMajor_val_four (d := ![8, 28, 28, 512]) _).trans ?_
  refine Eq.trans ?_ (Shape.rowMajor_val_four (d := ![8, 28, 14, 1024]) _).symm
  show ((b * 28 + i) * 28 + (2 * j + c' / 512)) * 512 + c' % 512 = ((b * 28 + i) * 14 + j) * 1024 + c'
  omega

/-- Region 17's input after the stretch before it: the previous output with column pairs folded into the channels. -/
theorem fold_read17 (W : Valuation τ sig (Elt Ideal)) (b i j c' : ℕ) (hb : b < 8) (hi : i < 14) (hj : j < 7) (hc : c' < 1024) :
    Spec.arr4 (StableHlo.after (hostOps17 (F := Ideal)) W (Proc.devRef .tc main_v35) : S8x14x7x1024.Idx → EReal) b i j c'
      = Spec.arr4 (W (Proc.devRef .tc main_v34) : S8x14x14x512.Idx → EReal) b i (2 * j + c' / 512) (c' % 512) := by
  have e : (StableHlo.after (hostOps17 (F := Ideal)) W (Proc.devRef .tc main_v35) : S8x14x7x1024.Idx → EReal)
      = shapeCast S8x14x7x1024 (W (Proc.devRef .tc main_v34) : S8x14x14x512.Idx → EReal) shapeCasts_S8x14x14x512_S8x14x7x1024 := by
    after_results; rfl
  rw [e]
  unfold Spec.arr4
  rw [dif_pos (show b < 8 ∧ i < 14 ∧ j < 7 ∧ c' < 1024 from ⟨hb, hi, hj, hc⟩),
    dif_pos (show b < 8 ∧ i < 14 ∧ 2 * j + c' / 512 < 14 ∧ c' % 512 < 512 from ⟨hb, hi, by omega, by omega⟩)]
  refine shapeCast_apply _ _ _ _ ?_
  refine (Shape.rowMajor_val_four (d := ![8, 14, 14, 512]) _).trans ?_
  refine Eq.trans ?_ (Shape.rowMajor_val_four (d := ![8, 14, 7, 1024]) _).symm
  show ((b * 14 + i) * 14 + (2 * j + c' / 512)) * 512 + c' % 512 = ((b * 14 + i) * 7 + j) * 1024 + c'
  omega

end Cert.ReferenceIdeal.Glue

end
-- ==== Proof.RGlue4.lean ====
/-
  The reference program's host glue at the generated boundary contents, for the sibling regions of region 1 (its
  input is the previous region's output in padded coordinates) and of region 2 (its input is the previous
  convolution's output with column pairs folded into the channels).
-/
import proofs.«100114_g2000204297211070_pallasbulk_1265_19_alg».proof.Proof.Gen.ReferenceIdeal.Frame
import proofs.«100114_g2000204297211070_pallasbulk_1265_19_alg».proof.Proof.Spec
import proofs.«100114_g2000204297211070_pallasbulk_1265_19_alg».proof.Proof.RGlue2

set_option maxRecDepth 16384

noncomputable section

namespace Cert.ReferenceIdeal.Glue

open Cert.ReferenceIdeal Cert.ReferenceIdeal.Gen
open Idealize.ShloMosaic Idealize.ShloMosaic.TcCoe Idealize.ShloMosaic.ValueIdx

variable (m : (ℓ : Loc nD τ sig) → Buf (Elt Ideal) ℓ) (ρ : Dev nD → PrngReg)

/-- Region 3's input at its entry: the previous region's output, as its write-backs leave it, in padded coordinates. -/
theorem pad_3 (c : Dev nD) (b I J ch : ℕ) (hb : b < 8) (hI : I < 114) (hJ : J < 114) (hch : ch < 64) :
    Spec.arr4 (V10 m ρ c main_v7 : S8x114x114x64.Idx → EReal) b I J ch
      = Spec.pad1 112 112 (Spec.arr4 ((dat2 (V7 m ρ) c).arrAt 1 cfg2.N : S8x112x112x64.Idx → EReal)) b I J ch :=
  (pad_read3 (W8 m ρ c) b I J ch hb hI hJ hch).trans
    (congrArg (fun X : S8x112x112x64.Idx → EReal => Spec.pad1 112 112 (Spec.arr4 X) b I J ch) (W8_arr m ρ c 1))

/-- Region 4's input at its entry: the previous region's output, as its write-backs leave it, in padded coordinates. -/
theorem pad_4 (c : Dev nD) (b I J ch : ℕ) (hb : b < 8) (hI : I < 114) (hJ : J < 114) (hch : ch < 128) :
    Spec.arr4 (V13 m ρ c main_v9 : S8x114x114x128.Idx → EReal) b I J ch
      = Spec.pad1 112 112 (Spec.arr4 ((dat3 (V10 m ρ) c).arrAt 3 cfg3.N : S8x112x112x128.Idx → EReal)) b I J ch :=
  (pad_read4 (W11 m ρ c) b I J ch hb hI hJ hch).trans
    (congrArg (fun X : S8x112x112x128.Idx → EReal => Spec.pad1 112 112 (Spec.arr4 X) b I J ch) (W11_arr m ρ c 3))

/-- Region 6's input at its entry: the previous region's output, as its write-backs leave it, in padded coordinates. -/
theorem pad_6 (c : Dev nD) (b I J ch : ℕ) (hb : b < 8) (hI : I < 58) (hJ : J < 58) (hch : ch < 128) :
    Spec.arr4 (V18 m ρ c main_v13 : S8x58x58x128.Idx → EReal) b I J ch
      = Spec.pad1 56 56 (Spec.arr4 ((dat5 (V15 m ρ) c).arrAt 1 cfg5.N : S8x56x56x128.Idx → EReal)) b I J ch :=
  (pad_read6 (W16 m ρ c) b I J ch hb hI hJ hch).trans
    (congrArg (fun X : S8x56x56x128.Idx → EReal => Spec.pad1 56 56 (Spec.arr4 X) b I J ch) (W16_arr m ρ c 1))

/-- Region 7's input at its entry: the previous region's output, as its write-backs leave it, in padded coordinates. -/
theorem pad_7 (c : Dev nD) (b I J ch : ℕ) (hb : b < 8) (hI : I < 58) (hJ : J < 58) (hch : ch < 256) :
    Spec.arr4 (V21 m ρ c main_v15 : S8x58x58x256.Idx → EReal) b I J ch
      = Spec.pad1 56 56 (Spec.arr4 ((dat6 (V18 m ρ) c).arrAt 3 cfg6.N : S8x56x56x256.Idx → EReal)) b I J ch :=
  (pad_read7 (W19 m ρ c) b I J ch hb hI hJ hch).trans
    (congrArg (fun X : S8x56x56x256.Idx → EReal => Spec.pad1 56 56 (Spec.arr4 X) b I J ch) (W19_arr m ρ c 3))

/-- Region 8's input at its entry: the previous region's output, as its write-backs leave it, in padded coordinates. -/
theorem pad_8 (c : Dev nD) (b I J ch : ℕ) (hb : b < 8) (hI : I < 58) (hJ : J < 58) (hch : ch < 256) :
    Spec.arr4 (V24 m ρ c main_v17 : S8x58x58x256.Idx → EReal) b I J ch
      = Spec.pad1 56 56 (Spec.arr4 ((dat7 (V21 m ρ) c).arrAt 3 cfg7.N : S8x56x56x256.Idx → EReal)) b I J ch :=
  (pad_read8 (W22 m ρ c) b I J ch hb hI hJ hch).trans
    (congrArg (fun X : S8x56x56x256.Idx → EReal => Spec.pad1 56 56 (Spec.arr4 X) b I J ch) (W22_arr m ρ c 3))

/-- Region 10's input at its entry: the previous region's output, as its write-backs leave it, in padded coordinates. -/
theorem pad_10 (c : Dev nD) (b I J ch : ℕ) (hb : b < 8) (hI : I < 30) (hJ : J < 30) (hch : ch < 256) :
    Spec.arr4 (V29 m ρ c main_v21 : S8x30x30x256.Idx → EReal) b I J ch
      = Spec.pad1 28 28 (Spec.arr4 ((dat9 (V26 m ρ) c).arrAt 1 cfg9.N : S8x28x28x256.Idx → EReal)) b I J ch :=
  (pad_read10 (W27 m ρ c) b I J ch hb hI hJ hch).trans
    (congrArg (fun X : S8x28x28x256.Idx → EReal => Spec.pad1 28 28 (Spec.arr4 X) b I J ch) (W27_arr m ρ c 1))

/-- Region 11's input at its entry: the previous region's output, as its write-backs leave it, in padded coordinates. -/
theorem pad_11 (c : Dev nD) (b I J ch : ℕ) (hb : b < 8) (hI : I < 30) (hJ : J < 30) (hch : ch < 512) :
    Spec.arr4 (V32 m ρ c main_v23 : S8x30x30x512.Idx → EReal) b I J ch
      = Spec.pad1 28 28 (Spec.arr4 ((dat10 (V29 m ρ) c).arrAt 3 cfg10.N : S8x28x28x512.Idx → EReal)) b I J ch :=
  (pad_read11 (W30 m ρ c) b I J ch hb hI hJ hch).trans
    (congrArg (fun X : S8x28x28x512.Idx → EReal => Spec.pad1 28 28 (Spec.arr4 X) b I J ch) (W30_arr m ρ c 3))

/-- Region 12's input at its entry: the previous region's output, as its write-backs leave it, in padded coordinates. -/
theorem pad_12 (c : Dev nD) (b I J ch : ℕ) (hb : b < 8) (hI : I < 30) (hJ : J < 30) (hch : ch < 512) :
    Spec.arr4 (V35 m ρ c main_v25 : S8x30x30x512.Idx → EReal) b I J ch
      = Spec.pad1 28 28 (Spec.arr4 ((dat11 (V32 m ρ) c).arrAt 3 cfg11.N : S8x28x28x512.Idx → EReal)) b I J ch :=
  (pad_read12 (W33 m ρ c) b I J ch hb hI hJ hch).trans
    (congrArg (fun X : S8x28x28x512.Idx → EReal => Spec.pad1 28 28 (Spec.arr4 X) b I J ch) (W33_arr m ρ c 3))

/-- Region 14's input at its entry: the previous region's output, as its write-backs leave it, in padded coordinates. -/
theorem pad_14 (c : Dev nD) (b I J ch : ℕ) (hb : b < 8) (hI : I < 16) (hJ : J < 16) (hch : ch < 512) :
    Spec.arr4 (V40 m ρ c main_v29 : S8x16x16x512.Idx → EReal) b I J ch
      = Spec.pad1 14 14 (Spec.arr4 ((dat13 (V37 m ρ) c).arrAt 1 cfg13.N : S8x14x14x512.Idx → EReal)) b I J ch :=
  (pad_read14 (W38 m ρ c) b I J ch hb hI hJ hch).trans
    (congrArg (fun X : S8x14x14x512.Idx → EReal => Spec.pad1 14 14 (Spec.arr4 X) b I J ch) (W38_arr m ρ c 1))

/-- Region 15's input at its entry: the previous region's output, as its write-backs leave it, in padded coordinates. -/
theorem pad_15 (c : Dev nD) (b I J ch : ℕ) (hb : b < 8) (hI : I < 16) (hJ : J < 16) (hch : ch < 512) :
    Spec.arr4 (V43 m ρ c main_v31 : S8x16x16x512.Idx → EReal) b I J ch
      = Spec.pad1 14 14 (Spec.arr4 ((dat14 (V40 m ρ) c).arrAt 3 cfg14.N : S8x14x14x512.Idx → EReal)) b I J ch :=
  (pad_read15 (W41 m ρ c) b I J ch hb hI hJ hch).trans
    (congrArg (fun X : S8x14x14x512.Idx → EReal => Spec.pad1 14 14 (Spec.arr4 X) b I J ch) (W41_arr m ρ c 3))

/-- Region 16's input at its entry: the previous region's output, as its write-backs leave it, in padded coordinates. -/
theorem pad_16 (c : Dev nD) (b I J ch : ℕ) (hb : b < 8) (hI : I < 16) (hJ : J < 16) (hch : ch < 512) :
    Spec.arr4 (V46 m ρ c main_v33 : S8x16x16x512.Idx → EReal) b I J ch
      = Spec.pad1 14 14 (Spec.arr4 ((dat15 (V43 m ρ) c).arrAt 3 cfg15.N : S8x14x14x512.Idx → EReal)) b I J ch :=
  (pad_read16 (W44 m ρ c) b I J ch hb hI hJ hch).trans
    (congrArg (fun X : S8x14x14x512.Idx → EReal => Spec.pad1 14 14 (Spec.arr4 X) b I J ch) (W44_arr m ρ c 3))

/-- Region 5's input at its entry: the previous convolution's output, as its write-backs leave it, with column pairs
    folded into the channels. -/
theorem fold_5 (c : Dev nD) (b i j c' : ℕ) (hb : b < 8) (hi : i < 112) (hj : j < 56) (hc : c' < 256) :
    Spec.arr4 (V15 m ρ c main_v11 : S8x112x56x256.Idx → EReal) b i j c'
      = Spec.arr4 ((dat4 (V13 m ρ) c).arrAt 3 cfg4.N : S8x112x112x128.Idx → EReal) b i (2 * j + c' / 128) (c' % 128) :=
  (fold_read5 (W14 m ρ c) b i j c' hb hi hj hc).trans
    (congrArg (fun X : S8x112x112x128.Idx → EReal => Spec.arr4 X b i (2 * j + c' / 128) (c' % 128)) (W14_arr m ρ c 3))

/-- Region 9's input at its entry: the previous convolution's output, as its write-backs leave it, with column pairs
    folded into the channels. -/
theorem fold_9 (c : Dev nD) (b i j c' : ℕ) (hb : b < 8) (hi : i < 56) (hj : j < 28) (hc : c' < 512) :
    Spec.arr4 (V26 m ρ c main_v19 : S8x56x28x512.Idx → EReal) b i j c'
      = Spec.arr4 ((dat8 (V24 m ρ) c).arrAt 3 cfg8.N : S8x56x56x256.Idx → EReal) b i (2 * j + c' / 256) (c' % 256) :=
  (fold_read9 (W25 m ρ c) b i j c' hb hi hj hc).trans
    (congrArg (fun X : S8x56x56x256.Idx → EReal => Spec.arr4 X b i (2 * j + c' / 256) (c' % 256)) (W25_arr m ρ c 3))

/-- Region 13's input at its entry: the previous convolution's output, as its write-backs leave it, with column pairs
    folded into the channels. -/
theorem fold_13 (c : Dev nD) (b i j c' : ℕ) (hb : b < 8) (hi : i < 28) (hj : j < 14) (hc : c' < 1024) :
    Spec.arr4 (V37 m ρ c main_v27 : S8x28x14x1024.Idx → EReal) b i j c'
      = Spec.arr4 ((dat12 (V35 m ρ) c).arrAt 3 cfg12.N : S8x28x28x512.Idx → EReal) b i (2 * j + c' / 512) (c' % 512) :=
  (fold_read13 (W36 m ρ c) b i j c' hb hi hj hc).trans
    (congrArg (fun X : S8x28x28x512.Idx → EReal => Spec.arr4 X b i (2 * j + c' / 512) (c' % 512)) (W36_arr m ρ c 3))

/-- Region 17's input at its entry: the previous convolution's output, as its write-backs leave it, with column pairs
    folded into the channels. -/
theorem fold_17 (c : Dev nD) (b i j c' : ℕ) (hb : b < 8) (hi : i < 14) (hj : j < 7) (hc : c' < 1024) :
    Spec.arr4 (V48 m ρ c main_v35 : S8x14x7x1024.Idx → EReal) b i j c'
      = Spec.arr4 ((dat16 (V46 m ρ) c).arrAt 3 cfg16.N : S8x14x14x512.Idx → EReal) b i (2 * j + c' / 512) (c' % 512) :=
  (fold_read17 (W47 m ρ c) b i j c' hb hi hj hc).trans
    (congrArg (fun X : S8x14x14x512.Idx → EReal => Spec.arr4 X b i (2 * j + c' / 512) (c' % 512)) (W47_arr m ρ c 3))

end Cert.ReferenceIdeal.Glue

end
-- ==== Proof.RChain.lean ====
/-
  The reference network, step by step. After each of its eighteen pipelines the output array holds, on its index range,
  the corresponding activation of the specification (Net): thirteen convolution layers C0 … C12 and five poolings
  P1 … P5, computed from the parameters read off the launch memory.
  Each step combines three facts: what the pipeline leaves in its output array as a function of its input arrays
  (the region's value statement), what the host operations before it put into those input arrays (the padding of the
  previous output, the weights and bias as launched; for a pooling, the previous output with column pairs folded onto
  the channel axis), and the previous step's invariant. The convolution only reads its padded input on the 3×3
  neighbourhood of an in-range pixel, which lies inside the frame where the padding fact holds.
-/
import proofs.«100114_g2000204297211070_pallasbulk_1265_19_alg».proof.Proof.Gen.ReferenceIdeal.Frame
import proofs.«100114_g2000204297211070_pallasbulk_1265_19_alg».proof.Proof.Net
import proofs.«100114_g2000204297211070_pallasbulk_1265_19_alg».proof.Proof.RConv0
import proofs.«100114_g2000204297211070_pallasbulk_1265_19_alg».proof.Proof.RConv1
import proofs.«100114_g2000204297211070_pallasbulk_1265_19_alg».proof.Proof.RConv3
import proofs.«100114_g2000204297211070_pallasbulk_1265_19_alg».proof.Proof.RConv4
import proofs.«100114_g2000204297211070_pallasbulk_1265_19_alg».proof.Proof.RConv6
import proofs.«100114_g2000204297211070_pallasbulk_1265_19_alg».proof.Proof.RConv7
import proofs.«100114_g2000204297211070_pallasbulk_1265_19_alg».proof.Proof.RConv8
import proofs.«100114_g2000204297211070_pallasbulk_1265_19_alg».proof.Proof.RConv10
import proofs.«100114_g2000204297211070_pallasbulk_1265_19_alg».proof.Proof.RConv11
import proofs.«100114_g2000204297211070_pallasbulk_1265_19_alg».proof.Proof.RConv12
import proofs.«100114_g2000204297211070_pallasbulk_1265_19_alg».proof.Proof.RConv14
import proofs.«100114_g2000204297211070_pallasbulk_1265_19_alg».proof.Proof.RConv15
import proofs.«100114_g2000204297211070_pallasbulk_1265_19_alg».proof.Proof.RConv16
import proofs.«100114_g2000204297211070_pallasbulk_1265_19_alg».proof.Proof.RPool2
import proofs.«100114_g2000204297211070_pallasbulk_1265_19_alg».proof.Proof.RPool5
import proofs.«100114_g2000204297211070_pallasbulk_1265_19_alg».proof.Proof.RPool9
import proofs.«100114_g2000204297211070_pallasbulk_1265_19_alg».proof.Proof.RPool13
import proofs.«100114_g2000204297211070_pallasbulk_1265_19_alg».proof.Proof.RPool17
import proofs.«100114_g2000204297211070_pallasbulk_1265_19_alg».proof.Proof.RGlue0
import proofs.«100114_g2000204297211070_pallasbulk_1265_19_alg».proof.Proof.RGlue3
import proofs.«100114_g2000204297211070_pallasbulk_1265_19_alg».proof.Proof.RGlue4

noncomputable section

namespace Cert.ReferenceIdeal.Chain

open Cert.ReferenceIdeal Cert.ReferenceIdeal.Gen
open Idealize.ShloMosaic Idealize.ShloMosaic.TcCoe
open Idealize.ShloMosaic.Pipeline (Dat)

/-- Padding reads the image only on its H×W extent: two images that agree there have the same padding. -/
theorem pad1_congr (H W : ℕ) (A A' : Cert.Spec.Img) (b I J ch : ℕ)
    (h : ∀ i < H, ∀ j < W, A b i j ch = A' b i j ch) :
    Cert.Spec.pad1 H W A b I J ch = Cert.Spec.pad1 H W A' b I J ch := by
  unfold Cert.Spec.pad1
  by_cases hc : 1 ≤ I ∧ I ≤ H ∧ 1 ≤ J ∧ J ≤ W
  · rw [if_pos hc, if_pos hc]; exact h _ (by omega) _ (by omega)
  · rw [if_neg hc, if_neg hc]

/-- One convolution layer: an input that is, on the (H+2)×(W+2) frame, the padding of an activation, convolved at an
    in-range pixel with the layer's weights and bias, is the layer applied to that activation. -/
theorem conv_step (H W Cin : ℕ) (X A : Cert.Spec.Img) (Wt Wt' : ℕ → ℕ → ℕ → EReal) (bias bias' : ℕ → ℕ → EReal)
    (b i j co : ℕ) (hi : i < H) (hj : j < W) (hW : Wt = Wt') (hbias : bias = bias')
    (hX : ∀ I < H + 2, ∀ J < W + 2, ∀ ch < Cin, X b I J ch = Cert.Spec.pad1 H W A b I J ch) :
    Cert.Spec.conv Cin X Wt bias b i j co = Cert.Spec.layer H W Cin A Wt' bias' b i j co := by
  subst hW hbias
  unfold Cert.Spec.layer
  exact Cert.Spec.conv_congr Cin X _ Wt bias b i j co fun k hk ci hci =>
    hX _ (by omega) _ (by omega) ci hci

/-- One pooling: the input holds, at column j and channel c' < 2C, the activation's column 2j + c'/C, channel c' % C;
    the maximum over the row pair and the two channel halves is then the 2×2 maximum of the activation. -/
theorem pool_step (C : ℕ) (hC : 0 < C) (X B A : Cert.Spec.Img) (b i j ch : ℕ) (hch : ch < C)
    (hfold : ∀ r < 2, ∀ c' < 2 * C, X b (2 * i + r) j c' = B b (2 * i + r) (2 * j + c' / C) (c' % C))
    (hB : ∀ r < 2, ∀ s < 2, B b (2 * i + r) (2 * j + s) ch = A b (2 * i + r) (2 * j + s) ch) :
    max (max (X b (2 * i) j ch) (X b (2 * i + 1) j ch)) (max (X b (2 * i) j (ch + C)) (X b (2 * i + 1) j (ch + C)))
      = Cert.Spec.pool A b i j ch := by
  have d0 : ch / C = 0 := Nat.div_eq_of_lt hch
  have m0 : ch % C = ch := Nat.mod_eq_of_lt hch
  have d1 : (ch + C) / C = 1 := by
    have h := Nat.add_div_right ch hC
    omega
  have m1 : (ch + C) % C = ch := by
    have h := Nat.add_mod_right ch C
    omega
  have a00 : X b (2 * i) j ch = A b (2 * i) (2 * j) ch := by
    have h := hfold 0 (by omega) ch (by omega)
    rw [d0, m0] at h
    exact h.trans (hB 0 (by omega) 0 (by omega))
  have a10 : X b (2 * i + 1) j ch = A b (2 * i + 1) (2 * j) ch := by
    have h := hfold 1 (by omega) ch (by omega)
    rw [d0, m0] at h
    exact h.trans (hB 1 (by omega) 0 (by omega))
  have a01 : X b (2 * i) j (ch + C) = A b (2 * i) (2 * j + 1) ch := by
    have h := hfold 0 (by omega) (ch + C) (by omega)
    rw [d1, m1] at h
    exact h.trans (hB 0 (by omega) 1 (by omega))
  have a11 : X b (2 * i + 1) j (ch + C) = A b (2 * i + 1) (2 * j + 1) ch := by
    have h := hfold 1 (by omega) (ch + C) (by omega)
    rw [d1, m1] at h
    exact h.trans (hB 1 (by omega) 1 (by omega))
  unfold Cert.Spec.pool
  rw [a00, a10, a01, a11]

variable (m : (ℓ : Loc nD τ sig) → Buf (Elt Ideal) ℓ) (ρ : Dev nD → PrngReg)

/-- The network's parameters as core `c` finds them in the launch memory: the image (stored batch, channel, row,
    column) read in batch, row, column, channel order; layer ℓ's nine weight slabs and its bias. -/
def params (c : Dev nD) : Cert.Spec.Params where
  x := fun b i j ch => Cert.Spec.arr4 (m ((c : Thread nD τ).loc main_arg0)) b ch i j
  w := fun ℓ => match ℓ with
    | 0 => Cert.Spec.arr3 (m ((c : Thread nD τ).loc main_arg1))
    | 1 => Cert.Spec.arr3 (m ((c : Thread nD τ).loc main_arg3))
    | 2 => Cert.Spec.arr3 (m ((c : Thread nD τ).loc main_arg5))
    | 3 => Cert.Spec.arr3 (m ((c : Thread nD τ).loc main_arg7))
    | 4 => Cert.Spec.arr3 (m ((c : Thread nD τ).loc main_arg9))
    | 5 => Cert.Spec.arr3 (m ((c : Thread nD τ).loc main_arg11))
    | 6 => Cert.Spec.arr3 (m ((c : Thread nD τ).loc main_arg13))
    | 7 => Cert.Spec.arr3 (m ((c : Thread nD τ).loc main_arg15))
    | 8 => Cert.Spec.arr3 (m ((c : Thread nD τ).loc main_arg17))
    | 9 => Cert.Spec.arr3 (m ((c : Thread nD τ).loc main_arg19))
    | 10 => Cert.Spec.arr3 (m ((c : Thread nD τ).loc main_arg21))
    | 11 => Cert.Spec.arr3 (m ((c : Thread nD τ).loc main_arg23))
    | 12 => Cert.Spec.arr3 (m ((c : Thread nD τ).loc main_arg25))
    | _ => fun _ _ _ => 0
  bi := fun ℓ => match ℓ with
    | 0 => Cert.Spec.arr2 (m ((c : Thread nD τ).loc main_arg2))
    | 1 => Cert.Spec.arr2 (m ((c : Thread nD τ).loc main_arg4))
    | 2 => Cert.Spec.arr2 (m ((c : Thread nD τ).loc main_arg6))
    | 3 => Cert.Spec.arr2 (m ((c : Thread nD τ).loc main_arg8))
    | 4 => Cert.Spec.arr2 (m ((c : Thread nD τ).loc main_arg10))
    | 5 => Cert.Spec.arr2 (m ((c : Thread nD τ).loc main_arg12))
    | 6 => Cert.Spec.arr2 (m ((c : Thread nD τ).loc main_arg14))
    | 7 => Cert.Spec.arr2 (m ((c : Thread nD τ).loc main_arg16))
    | 8 => Cert.Spec.arr2 (m ((c : Thread nD τ).loc main_arg18))
    | 9 => Cert.Spec.arr2 (m ((c : Thread nD τ).loc main_arg20))
    | 10 => Cert.Spec.arr2 (m ((c : Thread nD τ).loc main_arg22))
    | 11 => Cert.Spec.arr2 (m ((c : Thread nD τ).loc main_arg24))
    | 12 => Cert.Spec.arr2 (m ((c : Thread nD τ).loc main_arg26))
    | _ => fun _ _ => 0

/-- After pipeline 0 its output array holds C0. -/
theorem R0 (c : Dev nD) (b i j co : ℕ) (hb : b < 8) (hi : i < 224) (hj : j < 224) (hco : co < 64) :
    Cert.Spec.arr4 ((dat0 (V2 m ρ) c).arrAt 3 cfg0.N) b i j co = Cert.Spec.C0 (params m c) b i j co := by
  refine (Cert.ReferenceIdeal.Val.conv0_value (V2 m ρ) c b i j co hb hi hj hco).trans ?_
  exact conv_step 224 224 3 (Cert.Spec.arr4 (V2 m ρ c main_v1)) (params m c).x
    (Cert.Spec.arr3 (V2 m ρ c main_arg1)) ((params m c).w 0) (Cert.Spec.arr2 (V2 m ρ c main_arg2)) ((params m c).bi 0)
    b i j co hi hj (congrArg Cert.Spec.arr3 (Cert.ReferenceIdeal.Glue.arg_0_1 m ρ c)) (congrArg Cert.Spec.arr2 (Cert.ReferenceIdeal.Glue.arg_0_2 m ρ c))
    fun I hI J hJ ch hch =>
    Cert.ReferenceIdeal.Glue.stem_0 m ρ c b I J ch hb hI hJ hch

/-- After pipeline 1 its output array holds C1. -/
theorem R1 (c : Dev nD) (b i j co : ℕ) (hb : b < 8) (hi : i < 224) (hj : j < 224) (hco : co < 64) :
    Cert.Spec.arr4 ((dat1 (V5 m ρ) c).arrAt 3 cfg1.N) b i j co = Cert.Spec.C1 (params m c) b i j co := by
  refine (Cert.ReferenceIdeal.Val.conv1_value (V5 m ρ) c b i j co hb hi hj hco).trans ?_
  exact conv_step 224 224 64 (Cert.Spec.arr4 (V5 m ρ c main_v3)) (Cert.Spec.C0 (params m c))
    (Cert.Spec.arr3 (V5 m ρ c main_arg3)) ((params m c).w 1) (Cert.Spec.arr2 (V5 m ρ c main_arg4)) ((params m c).bi 1)
    b i j co hi hj (congrArg Cert.Spec.arr3 (Cert.ReferenceIdeal.Glue.arg_1_3 m ρ c)) (congrArg Cert.Spec.arr2 (Cert.ReferenceIdeal.Glue.arg_1_4 m ρ c))
    fun I hI J hJ ch hch =>
    (Cert.ReferenceIdeal.Glue.pad_1 m ρ c b I J ch hb hI hJ hch).trans
      (pad1_congr 224 224 (Cert.Spec.arr4 ((dat0 (V2 m ρ) c).arrAt 3 cfg0.N)) (Cert.Spec.C0 (params m c)) b I J ch
        fun i' hi' j' hj' => R0 m ρ c b i' j' ch hb hi' hj' hch)

/-- After pipeline 2 its output array holds P1. -/
theorem R2 (c : Dev nD) (b i j ch : ℕ) (hb : b < 8) (hi : i < 112) (hj : j < 112) (hch : ch < 64) :
    Cert.Spec.arr4 ((dat2 (V7 m ρ) c).arrAt 1 cfg2.N) b i j ch = Cert.Spec.P1 (params m c) b i j ch := by
  refine (Cert.ReferenceIdeal.Val.pool2_value (V7 m ρ) c b i j ch hb hi hj hch).trans ?_
  exact pool_step 64 (by omega) (Cert.Spec.arr4 (V7 m ρ c main_v5)) (Cert.Spec.arr4 ((dat1 (V5 m ρ) c).arrAt 3 cfg1.N)) (Cert.Spec.C1 (params m c)) b i j ch hch
    (fun r hr c' hc' => Cert.ReferenceIdeal.Glue.fold_2 m ρ c b (2 * i + r) j c' hb (by omega) hj hc')
    (fun r hr s hs => R1 m ρ c b (2 * i + r) (2 * j + s) ch hb (by omega) (by omega) hch)

/-- After pipeline 3 its output array holds C2. -/
theorem R3 (c : Dev nD) (b i j co : ℕ) (hb : b < 8) (hi : i < 112) (hj : j < 112) (hco : co < 128) :
    Cert.Spec.arr4 ((dat3 (V10 m ρ) c).arrAt 3 cfg3.N) b i j co = Cert.Spec.C2 (params m c) b i j co := by
  refine (Cert.ReferenceIdeal.Val.conv3_value (V10 m ρ) c b i j co hb hi hj hco).trans ?_
  exact conv_step 112 112 64 (Cert.Spec.arr4 (V10 m ρ c main_v7)) (Cert.Spec.P1 (params m c))
    (Cert.Spec.arr3 (V10 m ρ c main_arg5)) ((params m c).w 2) (Cert.Spec.arr2 (V10 m ρ c main_arg6)) ((params m c).bi 2)
    b i j co hi hj (congrArg Cert.Spec.arr3 (Cert.ReferenceIdeal.Glue.arg_3_5 m ρ c)) (congrArg Cert.Spec.arr2 (Cert.ReferenceIdeal.Glue.arg_3_6 m ρ c))
    fun I hI J hJ ch hch =>
    (Cert.ReferenceIdeal.Glue.pad_3 m ρ c b I J ch hb hI hJ hch).trans
      (pad1_congr 112 112 (Cert.Spec.arr4 ((dat2 (V7 m ρ) c).arrAt 1 cfg2.N)) (Cert.Spec.P1 (params m c)) b I J ch
        fun i' hi' j' hj' => R2 m ρ c b i' j' ch hb hi' hj' hch)

/-- After pipeline 4 its output array holds C3. -/
theorem R4 (c : Dev nD) (b i j co : ℕ) (hb : b < 8) (hi : i < 112) (hj : j < 112) (hco : co < 128) :
    Cert.Spec.arr4 ((dat4 (V13 m ρ) c).arrAt 3 cfg4.N) b i j co = Cert.Spec.C3 (params m c) b i j co := by
  refine (Cert.ReferenceIdeal.Val.conv4_value (V13 m ρ) c b i j co hb hi hj hco).trans ?_
  exact conv_step 112 112 128 (Cert.Spec.arr4 (V13 m ρ c main_v9)) (Cert.Spec.C2 (params m c))
    (Cert.Spec.arr3 (V13 m ρ c main_arg7)) ((params m c).w 3) (Cert.Spec.arr2 (V13 m ρ c main_arg8)) ((params m c).bi 3)
    b i j co hi hj (congrArg Cert.Spec.arr3 (Cert.ReferenceIdeal.Glue.arg_4_7 m ρ c)) (congrArg Cert.Spec.arr2 (Cert.ReferenceIdeal.Glue.arg_4_8 m ρ c))
    fun I hI J hJ ch hch =>
    (Cert.ReferenceIdeal.Glue.pad_4 m ρ c b I J ch hb hI hJ hch).trans
      (pad1_congr 112 112 (Cert.Spec.arr4 ((dat3 (V10 m ρ) c).arrAt 3 cfg3.N)) (Cert.Spec.C2 (params m c)) b I J ch
        fun i' hi' j' hj' => R3 m ρ c b i' j' ch hb hi' hj' hch)

/-- After pipeline 5 its output array holds P2. -/
theorem R5 (c : Dev nD) (b i j ch : ℕ) (hb : b < 8) (hi : i < 56) (hj : j < 56) (hch : ch < 128) :
    Cert.Spec.arr4 ((dat5 (V15 m ρ) c).arrAt 1 cfg5.N) b i j ch = Cert.Spec.P2 (params m c) b i j ch := by
  refine (Cert.ReferenceIdeal.Val.pool5_value (V15 m ρ) c b i j ch hb hi hj hch).trans ?_
  exact pool_step 128 (by omega) (Cert.Spec.arr4 (V15 m ρ c main_v11)) (Cert.Spec.arr4 ((dat4 (V13 m ρ) c).arrAt 3 cfg4.N)) (Cert.Spec.C3 (params m c)) b i j ch hch
    (fun r hr c' hc' => Cert.ReferenceIdeal.Glue.fold_5 m ρ c b (2 * i + r) j c' hb (by omega) hj hc')
    (fun r hr s hs => R4 m ρ c b (2 * i + r) (2 * j + s) ch hb (by omega) (by omega) hch)

/-- After pipeline 6 its output array holds C4. -/
theorem R6 (c : Dev nD) (b i j co : ℕ) (hb : b < 8) (hi : i < 56) (hj : j < 56) (hco : co < 256) :
    Cert.Spec.arr4 ((dat6 (V18 m ρ) c).arrAt 3 cfg6.N) b i j co = Cert.Spec.C4 (params m c) b i j co := by
  refine (Cert.ReferenceIdeal.Val.conv6_value (V18 m ρ) c b i j co hb hi hj hco).trans ?_
  exact conv_step 56 56 128 (Cert.Spec.arr4 (V18 m ρ c main_v13)) (Cert.Spec.P2 (params m c))
    (Cert.Spec.arr3 (V18 m ρ c main_arg9)) ((params m c).w 4) (Cert.Spec.arr2 (V18 m ρ c main_arg10)) ((params m c).bi 4)
    b i j co hi hj (congrArg Cert.Spec.arr3 (Cert.ReferenceIdeal.Glue.arg_6_9 m ρ c)) (congrArg Cert.Spec.arr2 (Cert.ReferenceIdeal.Glue.arg_6_10 m ρ c))
    fun I hI J hJ ch hch =>
    (Cert.ReferenceIdeal.Glue.pad_6 m ρ c b I J ch hb hI hJ hch).trans
      (pad1_congr 56 56 (Cert.Spec.arr4 ((dat5 (V15 m ρ) c).arrAt 1 cfg5.N)) (Cert.Spec.P2 (params m c)) b I J ch
        fun i' hi' j' hj' => R5 m ρ c b i' j' ch hb hi' hj' hch)

/-- After pipeline 7 its output array holds C5. -/
theorem R7 (c : Dev nD) (b i j co : ℕ) (hb : b < 8) (hi : i < 56) (hj : j < 56) (hco : co < 256) :
    Cert.Spec.arr4 ((dat7 (V21 m ρ) c).arrAt 3 cfg7.N) b i j co = Cert.Spec.C5 (params m c) b i j co := by
  refine (Cert.ReferenceIdeal.Val.conv7_value (V21 m ρ) c b i j co hb hi hj hco).trans ?_
  exact conv_step 56 56 256 (Cert.Spec.arr4 (V21 m ρ c main_v15)) (Cert.Spec.C4 (params m c))
    (Cert.Spec.arr3 (V21 m ρ c main_arg11)) ((params m c).w 5) (Cert.Spec.arr2 (V21 m ρ c main_arg12)) ((params m c).bi 5)
    b i j co hi hj (congrArg Cert.Spec.arr3 (Cert.ReferenceIdeal.Glue.arg_7_11 m ρ c)) (congrArg Cert.Spec.arr2 (Cert.ReferenceIdeal.Glue.arg_7_12 m ρ c))
    fun I hI J hJ ch hch =>
    (Cert.ReferenceIdeal.Glue.pad_7 m ρ c b I J ch hb hI hJ hch).trans
      (pad1_congr 56 56 (Cert.Spec.arr4 ((dat6 (V18 m ρ) c).arrAt 3 cfg6.N)) (Cert.Spec.C4 (params m c)) b I J ch
        fun i' hi' j' hj' => R6 m ρ c b i' j' ch hb hi' hj' hch)

/-- After pipeline 8 its output array holds C6. -/
theorem R8 (c : Dev nD) (b i j co : ℕ) (hb : b < 8) (hi : i < 56) (hj : j < 56) (hco : co < 256) :
    Cert.Spec.arr4 ((dat8 (V24 m ρ) c).arrAt 3 cfg8.N) b i j co = Cert.Spec.C6 (params m c) b i j co := by
  refine (Cert.ReferenceIdeal.Val.conv8_value (V24 m ρ) c b i j co hb hi hj hco).trans ?_
  exact conv_step 56 56 256 (Cert.Spec.arr4 (V24 m ρ c main_v17)) (Cert.Spec.C5 (params m c))
    (Cert.Spec.arr3 (V24 m ρ c main_arg13)) ((params m c).w 6) (Cert.Spec.arr2 (V24 m ρ c main_arg14)) ((params m c).bi 6)
    b i j co hi hj (congrArg Cert.Spec.arr3 (Cert.ReferenceIdeal.Glue.arg_8_13 m ρ c)) (congrArg Cert.Spec.arr2 (Cert.ReferenceIdeal.Glue.arg_8_14 m ρ c))
    fun I hI J hJ ch hch =>
    (Cert.ReferenceIdeal.Glue.pad_8 m ρ c b I J ch hb hI hJ hch).trans
      (pad1_congr 56 56 (Cert.Spec.arr4 ((dat7 (V21 m ρ) c).arrAt 3 cfg7.N)) (Cert.Spec.C5 (params m c)) b I J ch
        fun i' hi' j' hj' => R7 m ρ c b i' j' ch hb hi' hj' hch)

/-- After pipeline 9 its output array holds P3. -/
theorem R9 (c : Dev nD) (b i j ch : ℕ) (hb : b < 8) (hi : i < 28) (hj : j < 28) (hch : ch < 256) :
    Cert.Spec.arr4 ((dat9 (V26 m ρ) c).arrAt 1 cfg9.N) b i j ch = Cert.Spec.P3 (params m c) b i j ch := by
  refine (Cert.ReferenceIdeal.Val.pool9_value (V26 m ρ) c b i j ch hb hi hj hch).trans ?_
  exact pool_step 256 (by omega) (Cert.Spec.arr4 (V26 m ρ c main_v19)) (Cert.Spec.arr4 ((dat8 (V24 m ρ) c).arrAt 3 cfg8.N)) (Cert.Spec.C6 (params m c)) b i j ch hch
    (fun r hr c' hc' => Cert.ReferenceIdeal.Glue.fold_9 m ρ c b (2 * i + r) j c' hb (by omega) hj hc')
    (fun r hr s hs => R8 m ρ c b (2 * i + r) (2 * j + s) ch hb (by omega) (by omega) hch)

/-- After pipeline 10 its output array holds C7. -/
theorem R10 (c : Dev nD) (b i j co : ℕ) (hb : b < 8) (hi : i < 28) (hj : j < 28) (hco : co < 512) :
    Cert.Spec.arr4 ((dat10 (V29 m ρ) c).arrAt 3 cfg10.N) b i j co = Cert.Spec.C7 (params m c) b i j co := by
  refine (Cert.ReferenceIdeal.Val.conv10_value (V29 m ρ) c b i j co hb hi hj hco).trans ?_
  exact conv_step 28 28 256 (Cert.Spec.arr4 (V29 m ρ c main_v21)) (Cert.Spec.P3 (params m c))
    (Cert.Spec.arr3 (V29 m ρ c main_arg15)) ((params m c).w 7) (Cert.Spec.arr2 (V29 m ρ c main_arg16)) ((params m c).bi 7)
    b i j co hi hj (congrArg Cert.Spec.arr3 (Cert.ReferenceIdeal.Glue.arg_10_15 m ρ c)) (congrArg Cert.Spec.arr2 (Cert.ReferenceIdeal.Glue.arg_10_16 m ρ c))
    fun I hI J hJ ch hch =>
    (Cert.ReferenceIdeal.Glue.pad_10 m ρ c b I J ch hb hI hJ hch).trans
      (pad1_congr 28 28 (Cert.Spec.arr4 ((dat9 (V26 m ρ) c).arrAt 1 cfg9.N)) (Cert.Spec.P3 (params m c)) b I J ch
        fun i' hi' j' hj' => R9 m ρ c b i' j' ch hb hi' hj' hch)

/-- After pipeline 11 its output array holds C8. -/
theorem R11 (c : Dev nD) (b i j co : ℕ) (hb : b < 8) (hi : i < 28) (hj : j < 28) (hco : co < 512) :
    Cert.Spec.arr4 ((dat11 (V32 m ρ) c).arrAt 3 cfg11.N) b i j co = Cert.Spec.C8 (params m c) b i j co := by
  refine (Cert.ReferenceIdeal.Val.conv11_value (V32 m ρ) c b i j co hb hi hj hco).trans ?_
  exact conv_step 28 28 512 (Cert.Spec.arr4 (V32 m ρ c main_v23)) (Cert.Spec.C7 (params m c))
    (Cert.Spec.arr3 (V32 m ρ c main_arg17)) ((params m c).w 8) (Cert.Spec.arr2 (V32 m ρ c main_arg18)) ((params m c).bi 8)
    b i j co hi hj (congrArg Cert.Spec.arr3 (Cert.ReferenceIdeal.Glue.arg_11_17 m ρ c)) (congrArg Cert.Spec.arr2 (Cert.ReferenceIdeal.Glue.arg_11_18 m ρ c))
    fun I hI J hJ ch hch =>
    (Cert.ReferenceIdeal.Glue.pad_11 m ρ c b I J ch hb hI hJ hch).trans
      (pad1_congr 28 28 (Cert.Spec.arr4 ((dat10 (V29 m ρ) c).arrAt 3 cfg10.N)) (Cert.Spec.C7 (params m c)) b I J ch
        fun i' hi' j' hj' => R10 m ρ c b i' j' ch hb hi' hj' hch)

/-- After pipeline 12 its output array holds C9. -/
theorem R12 (c : Dev nD) (b i j co : ℕ) (hb : b < 8) (hi : i < 28) (hj : j < 28) (hco : co < 512) :
    Cert.Spec.arr4 ((dat12 (V35 m ρ) c).arrAt 3 cfg12.N) b i j co = Cert.Spec.C9 (params m c) b i j co := by
  refine (Cert.ReferenceIdeal.Val.conv12_value (V35 m ρ) c b i j co hb hi hj hco).trans ?_
  exact conv_step 28 28 512 (Cert.Spec.arr4 (V35 m ρ c main_v25)) (Cert.Spec.C8 (params m c))
    (Cert.Spec.arr3 (V35 m ρ c main_arg19)) ((params m c).w 9) (Cert.Spec.arr2 (V35 m ρ c main_arg20)) ((params m c).bi 9)
    b i j co hi hj (congrArg Cert.Spec.arr3 (Cert.ReferenceIdeal.Glue.arg_12_19 m ρ c)) (congrArg Cert.Spec.arr2 (Cert.ReferenceIdeal.Glue.arg_12_20 m ρ c))
    fun I hI J hJ ch hch =>
    (Cert.ReferenceIdeal.Glue.pad_12 m ρ c b I J ch hb hI hJ hch).trans
      (pad1_congr 28 28 (Cert.Spec.arr4 ((dat11 (V32 m ρ) c).arrAt 3 cfg11.N)) (Cert.Spec.C8 (params m c)) b I J ch
        fun i' hi' j' hj' => R11 m ρ c b i' j' ch hb hi' hj' hch)

/-- After pipeline 13 its output array holds P4. -/
theorem R13 (c : Dev nD) (b i j ch : ℕ) (hb : b < 8) (hi : i < 14) (hj : j < 14) (hch : ch < 512) :
    Cert.Spec.arr4 ((dat13 (V37 m ρ) c).arrAt 1 cfg13.N) b i j ch = Cert.Spec.P4 (params m c) b i j ch := by
  refine (Cert.ReferenceIdeal.Val.pool13_value (V37 m ρ) c b i j ch hb hi hj hch).trans ?_
  exact pool_step 512 (by omega) (Cert.Spec.arr4 (V37 m ρ c main_v27)) (Cert.Spec.arr4 ((dat12 (V35 m ρ) c).arrAt 3 cfg12.N)) (Cert.Spec.C9 (params m c)) b i j ch hch
    (fun r hr c' hc' => Cert.ReferenceIdeal.Glue.fold_13 m ρ c b (2 * i + r) j c' hb (by omega) hj hc')
    (fun r hr s hs => R12 m ρ c b (2 * i + r) (2 * j + s) ch hb (by omega) (by omega) hch)

/-- After pipeline 14 its output array holds C10. -/
theorem R14 (c : Dev nD) (b i j co : ℕ) (hb : b < 8) (hi : i < 14) (hj : j < 14) (hco : co < 512) :
    Cert.Spec.arr4 ((dat14 (V40 m ρ) c).arrAt 3 cfg14.N) b i j co = Cert.Spec.C10 (params m c) b i j co := by
  refine (Cert.ReferenceIdeal.Val.conv14_value (V40 m ρ) c b i j co hb hi hj hco).trans ?_
  exact conv_step 14 14 512 (Cert.Spec.arr4 (V40 m ρ c main_v29)) (Cert.Spec.P4 (params m c))
    (Cert.Spec.arr3 (V40 m ρ c main_arg21)) ((params m c).w 10) (Cert.Spec.arr2 (V40 m ρ c main_arg22)) ((params m c).bi 10)
    b i j co hi hj (congrArg Cert.Spec.arr3 (Cert.ReferenceIdeal.Glue.arg_14_21 m ρ c)) (congrArg Cert.Spec.arr2 (Cert.ReferenceIdeal.Glue.arg_14_22 m ρ c))
    fun I hI J hJ ch hch =>
    (Cert.ReferenceIdeal.Glue.pad_14 m ρ c b I J ch hb hI hJ hch).trans
      (pad1_congr 14 14 (Cert.Spec.arr4 ((dat13 (V37 m ρ) c).arrAt 1 cfg13.N)) (Cert.Spec.P4 (params m c)) b I J ch
        fun i' hi' j' hj' => R13 m ρ c b i' j' ch hb hi' hj' hch)

/-- After pipeline 15 its output array holds C11. -/
theorem R15 (c : Dev nD) (b i j co : ℕ) (hb : b < 8) (hi : i < 14) (hj : j < 14) (hco : co < 512) :
    Cert.Spec.arr4 ((dat15 (V43 m ρ) c).arrAt 3 cfg15.N) b i j co = Cert.Spec.C11 (params m c) b i j co := by
  refine (Cert.ReferenceIdeal.Val.conv15_value (V43 m ρ) c b i j co hb hi hj hco).trans ?_
  exact conv_step 14 14 512 (Cert.Spec.arr4 (V43 m ρ c main_v31)) (Cert.Spec.C10 (params m c))
    (Cert.Spec.arr3 (V43 m ρ c main_arg23)) ((params m c).w 11) (Cert.Spec.arr2 (V43 m ρ c main_arg24)) ((params m c).bi 11)
    b i j co hi hj (congrArg Cert.Spec.arr3 (Cert.ReferenceIdeal.Glue.arg_15_23 m ρ c)) (congrArg Cert.Spec.arr2 (Cert.ReferenceIdeal.Glue.arg_15_24 m ρ c))
    fun I hI J hJ ch hch =>
    (Cert.ReferenceIdeal.Glue.pad_15 m ρ c b I J ch hb hI hJ hch).trans
      (pad1_congr 14 14 (Cert.Spec.arr4 ((dat14 (V40 m ρ) c).arrAt 3 cfg14.N)) (Cert.Spec.C10 (params m c)) b I J ch
        fun i' hi' j' hj' => R14 m ρ c b i' j' ch hb hi' hj' hch)

/-- After pipeline 16 its output array holds C12. -/
theorem R16 (c : Dev nD) (b i j co : ℕ) (hb : b < 8) (hi : i < 14) (hj : j < 14) (hco : co < 512) :
    Cert.Spec.arr4 ((dat16 (V46 m ρ) c).arrAt 3 cfg16.N) b i j co = Cert.Spec.C12 (params m c) b i j co := by
  refine (Cert.ReferenceIdeal.Val.conv16_value (V46 m ρ) c b i j co hb hi hj hco).trans ?_
  exact conv_step 14 14 512 (Cert.Spec.arr4 (V46 m ρ c main_v33)) (Cert.Spec.C11 (params m c))
    (Cert.Spec.arr3 (V46 m ρ c main_arg25)) ((params m c).w 12) (Cert.Spec.arr2 (V46 m ρ c main_arg26)) ((params m c).bi 12)
    b i j co hi hj (congrArg Cert.Spec.arr3 (Cert.ReferenceIdeal.Glue.arg_16_25 m ρ c)) (congrArg Cert.Spec.arr2 (Cert.ReferenceIdeal.Glue.arg_16_26 m ρ c))
    fun I hI J hJ ch hch =>
    (Cert.ReferenceIdeal.Glue.pad_16 m ρ c b I J ch hb hI hJ hch).trans
      (pad1_congr 14 14 (Cert.Spec.arr4 ((dat15 (V43 m ρ) c).arrAt 3 cfg15.N)) (Cert.Spec.C11 (params m c)) b I J ch
        fun i' hi' j' hj' => R15 m ρ c b i' j' ch hb hi' hj' hch)

/-- After pipeline 17 its output array holds P5. -/
theorem R17 (c : Dev nD) (b i j ch : ℕ) (hb : b < 8) (hi : i < 7) (hj : j < 7) (hch : ch < 512) :
    Cert.Spec.arr4 ((dat17 (V48 m ρ) c).arrAt 1 cfg17.N) b i j ch = Cert.Spec.P5 (params m c) b i j ch := by
  refine (Cert.ReferenceIdeal.Val.pool17_value (V48 m ρ) c b i j ch hb hi hj hch).trans ?_
  exact pool_step 512 (by omega) (Cert.Spec.arr4 (V48 m ρ c main_v35)) (Cert.Spec.arr4 ((dat16 (V46 m ρ) c).arrAt 3 cfg16.N)) (Cert.Spec.C12 (params m c)) b i j ch hch
    (fun r hr c' hc' => Cert.ReferenceIdeal.Glue.fold_17 m ρ c b (2 * i + r) j c' hb (by omega) hj hc')
    (fun r hr s hs => R16 m ρ c b (2 * i + r) (2 * j + s) ch hb (by omega) (by omega) hch)

end Cert.ReferenceIdeal.Chain

end
-- ==== Proof.RTail.lean ====
/-
  The last host stretch of the reference's @main. Each of the four results is one pooled map transposed from
  batch, row, column, channel order to batch, channel, row, column order: a result read at (b, ch, i, j) is what its
  pooled map's buffer holds when the last region has ended, read at (b, i, j, ch). Between the pooling region that
  writes a pooled map and that moment no host operation and no region writes the map's buffer (the next layer's padding
  and the last stretch only read it), so the buffer still holds what that region's pipeline left in its output array.
-/
import proofs.«100114_g2000204297211070_pallasbulk_1265_19_alg».proof.Proof.Gen.ReferenceIdeal.Frame
import Idealize.ShloMosaic.Lib.StableHlo.Run
import Idealize.ShloMosaic.Lib.Pipeline.Value
import Idealize.ShloMosaic.Lib.ValueIdx

set_option maxRecDepth 16384

noncomputable section

namespace Cert.ReferenceIdeal.RunV

open Cert.ReferenceIdeal Cert.ReferenceIdeal.Gen
open Idealize.ShloMosaic Idealize.ShloMosaic.TcCoe Idealize.ShloMosaic.Tactic Idealize.ShloMosaic.ValueIdx
open Idealize.ShloMosaic.Pipeline (Dat Cfg Window BodyObligation cellOf)

variable {F : FTy → Type} [FloatOps F]

variable (m : (ℓ : Loc nD τ sig) → Buf (Elt F) ℓ) (ρ : Dev nD → PrngReg)

/-- A rank-4 array transposed by `[0, 3, 1, 2]` reads, at `(b, ch, i, j)`, the operand at `(b, i, j, ch)`. -/
theorem transpose_ix4_0312_apply {α : Type} {n h w k : ℕ} (x : (⟨4, ![n, h, w, k]⟩ : Shape).Idx → α)
    (hT : (⟨4, ![n, h, w, k]⟩ : Shape).Transposes [0, 3, 1, 2] ⟨4, ![n, k, h, w]⟩) (b : Fin n) (ch : Fin k) (i : Fin h) (j : Fin w) :
    transpose ⟨4, ![n, k, h, w]⟩ [0, 3, 1, 2] x hT (ix4 b ch i j) = x (ix4 b i j ch) :=
  transpose_apply _ x hT _ _ fun a => match a with | ⟨0, _⟩ => rfl | ⟨1, _⟩ => rfl | ⟨2, _⟩ => rfl | ⟨3, _⟩ => rfl

/-- A buffer that no operation of a literal host stretch writes holds after the stretch what it held before. -/
local macro "keeps " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## The last stretch: each result is its pooled map transposed -/

/-- The result `main_v37` at the end of the run: the pooled map `main_v12`, as the last region leaves it, transposed. -/
theorem W50_main_v37 (c : Dev nD) :
    W50 m ρ c (Proc.devRef .tc main_v37)
      = transpose S8x128x56x56 [0, 3, 1, 2] (W49 m ρ c (Proc.devRef .tc main_v12)) transposes_S8x56x56x128_S8x128x56x56_0_3_1_2 := by
  show StableHlo.after hostOps18 (W49 m ρ c) (Proc.devRef .tc main_v37) = _
  after_results

/-- Read by coordinates: the result at (b, ch, i, j) is the pooled map at (b, i, j, ch). -/
theorem W50_main_v37_apply (c : Dev nD) (b : Fin 8) (ch : Fin 128) (i : Fin 56) (j : Fin 56) :
    W50 m ρ c (Proc.devRef .tc main_v37) (ix4 b ch i j) = W49 m ρ c (Proc.devRef .tc main_v12) (ix4 b i j ch) := by
  rw [W50_main_v37]; exact transpose_ix4_0312_apply _ _ b ch i j

/-- The result `main_v38` at the end of the run: the pooled map `main_v20`, as the last region leaves it, transposed. -/
theorem W50_main_v38 (c : Dev nD) :
    W50 m ρ c (Proc.devRef .tc main_v38)
      = transpose S8x256x28x28 [0, 3, 1, 2] (W49 m ρ c (Proc.devRef .tc main_v20)) transposes_S8x28x28x256_S8x256x28x28_0_3_1_2 := by
  show StableHlo.after hostOps18 (W49 m ρ c) (Proc.devRef .tc main_v38) = _
  after_results

/-- Read by coordinates: the result at (b, ch, i, j) is the pooled map at (b, i, j, ch). -/
theorem W50_main_v38_apply (c : Dev nD) (b : Fin 8) (ch : Fin 256) (i : Fin 28) (j : Fin 28) :
    W50 m ρ c (Proc.devRef .tc main_v38) (ix4 b ch i j) = W49 m ρ c (Proc.devRef .tc main_v20) (ix4 b i j ch) := by
  rw [W50_main_v38]; exact transpose_ix4_0312_apply _ _ b ch i j

/-- The result `main_v39` at the end of the run: the pooled map `main_v28`, as the last region leaves it, transposed. -/
theorem W50_main_v39 (c : Dev nD) :
    W50 m ρ c (Proc.devRef .tc main_v39)
      = transpose S8x512x14x14 [0, 3, 1, 2] (W49 m ρ c (Proc.devRef .tc main_v28)) transposes_S8x14x14x512_S8x512x14x14_0_3_1_2 := by
  show StableHlo.after hostOps18 (W49 m ρ c) (Proc.devRef .tc main_v39) = _
  after_results

/-- Read by coordinates: the result at (b, ch, i, j) is the pooled map at (b, i, j, ch). -/
theorem W50_main_v39_apply (c : Dev nD) (b : Fin 8) (ch : Fin 512) (i : Fin 14) (j : Fin 14) :
    W50 m ρ c (Proc.devRef .tc main_v39) (ix4 b ch i j) = W49 m ρ c (Proc.devRef .tc main_v28) (ix4 b i j ch) := by
  rw [W50_main_v39]; exact transpose_ix4_0312_apply _ _ b ch i j

/-- The result `main_v40` at the end of the run: the pooled map `main_v36`, as the last region leaves it, transposed. -/
theorem W50_main_v40 (c : Dev nD) :
    W50 m ρ c (Proc.devRef .tc main_v40)
      = transpose S8x512x7x7 [0, 3, 1, 2] (W49 m ρ c (Proc.devRef .tc main_v36)) transposes_S8x7x7x512_S8x512x7x7_0_3_1_2 := by
  show StableHlo.after hostOps18 (W49 m ρ c) (Proc.devRef .tc main_v40) = _
  after_results

/-- Read by coordinates: the result at (b, ch, i, j) is the pooled map at (b, i, j, ch). -/
theorem W50_main_v40_apply (c : Dev nD) (b : Fin 8) (ch : Fin 512) (i : Fin 7) (j : Fin 7) :
    W50 m ρ c (Proc.devRef .tc main_v40) (ix4 b ch i j) = W49 m ρ c (Proc.devRef .tc main_v36) (ix4 b i j ch) := by
  rw [W50_main_v40]; exact transpose_ix4_0312_apply _ _ b ch i j

/-! ## A pooled map's buffer from its pooling region's exit to the last region's exit -/

/-- Nothing after region 5 writes `main_v12`: at the last region's exit it holds what it held at region 5's exit. -/
theorem W49_main_v12 (c : Dev nD) : W49 m ρ c (Proc.devRef .tc main_v12) = W16 m ρ c (Proc.devRef .tc main_v12) :=
  calc W49 m ρ c (Proc.devRef .tc main_v12)
    _ = W48 m ρ c (Proc.devRef .tc main_v12) := W49_of_ne m ρ c main_v12 (by decide)
    _ = W47 m ρ c (Proc.devRef .tc main_v12) := by keeps hostOps17
    _ = W46 m ρ c (Proc.devRef .tc main_v12) := W47_of_ne m ρ c main_v12 (by decide)
    _ = W45 m ρ c (Proc.devRef .tc main_v12) := by keeps hostOps16_1
    _ = W44 m ρ c (Proc.devRef .tc main_v12) := by keeps hostOps16
    _ = W43 m ρ c (Proc.devRef .tc main_v12) := W44_of_ne m ρ c main_v12 (by decide)
    _ = W42 m ρ c (Proc.devRef .tc main_v12) := by keeps hostOps15_1
    _ = W41 m ρ c (Proc.devRef .tc main_v12) := by keeps hostOps15
    _ = W40 m ρ c (Proc.devRef .tc main_v12) := W41_of_ne m ρ c main_v12 (by decide)
    _ = W39 m ρ c (Proc.devRef .tc main_v12) := by keeps hostOps14_1
    _ = W38 m ρ c (Proc.devRef .tc main_v12) := by keeps hostOps14
    _ = W37 m ρ c (Proc.devRef .tc main_v12) := W38_of_ne m ρ c main_v12 (by decide)
    _ = W36 m ρ c (Proc.devRef .tc main_v12) := by keeps hostOps13
    _ = W35 m ρ c (Proc.devRef .tc main_v12) := W36_of_ne m ρ c main_v12 (by decide)
    _ = W34 m ρ c (Proc.devRef .tc main_v12) := by keeps hostOps12_1
    _ = W33 m ρ c (Proc.devRef .tc main_v12) := by keeps hostOps12
    _ = W32 m ρ c (Proc.devRef .tc main_v12) := W33_of_ne m ρ c main_v12 (by decide)
    _ = W31 m ρ c (Proc.devRef .tc main_v12) := by keeps hostOps11_1
    _ = W30 m ρ c (Proc.devRef .tc main_v12) := by keeps hostOps11
    _ = W29 m ρ c (Proc.devRef .tc main_v12) := W30_of_ne m ρ c main_v12 (by decide)
    _ = W28 m ρ c (Proc.devRef .tc main_v12) := by keeps hostOps10_1
    _ = W27 m ρ c (Proc.devRef .tc main_v12) := by keeps hostOps10
    _ = W26 m ρ c (Proc.devRef .tc main_v12) := W27_of_ne m ρ c main_v12 (by decide)
    _ = W25 m ρ c (Proc.devRef .tc main_v12) := by keeps hostOps9
    _ = W24 m ρ c (Proc.devRef .tc main_v12) := W25_of_ne m ρ c main_v12 (by decide)
    _ = W23 m ρ c (Proc.devRef .tc main_v12) := by keeps hostOps8_1
    _ = W22 m ρ c (Proc.devRef .tc main_v12) := by keeps hostOps8
    _ = W21 m ρ c (Proc.devRef .tc main_v12) := W22_of_ne m ρ c main_v12 (by decide)
    _ = W20 m ρ c (Proc.devRef .tc main_v12) := by keeps hostOps7_1
    _ = W19 m ρ c (Proc.devRef .tc main_v12) := by keeps hostOps7
    _ = W18 m ρ c (Proc.devRef .tc main_v12) := W19_of_ne m ρ c main_v12 (by decide)
    _ = W17 m ρ c (Proc.devRef .tc main_v12) := by keeps hostOps6_1
    _ = W16 m ρ c (Proc.devRef .tc main_v12) := by keeps hostOps6

/-- At region 5's exit `main_v12`, the region's output array, holds what the pipeline leaves in it. -/
theorem W16_main_v12 (c : Dev nD) :
    W16 m ρ c (Proc.devRef .tc main_v12) = (dat5 (V15 m ρ) c).arrAt 1 cfg5.N :=
  W16_arr m ρ c 1

/-- Nothing after region 9 writes `main_v20`: at the last region's exit it holds what it held at region 9's exit. -/
theorem W49_main_v20 (c : Dev nD) : W49 m ρ c (Proc.devRef .tc main_v20) = W27 m ρ c (Proc.devRef .tc main_v20) :=
  calc W49 m ρ c (Proc.devRef .tc main_v20)
    _ = W48 m ρ c (Proc.devRef .tc main_v20) := W49_of_ne m ρ c main_v20 (by decide)
    _ = W47 m ρ c (Proc.devRef .tc main_v20) := by keeps hostOps17
    _ = W46 m ρ c (Proc.devRef .tc main_v20) := W47_of_ne m ρ c main_v20 (by decide)
    _ = W45 m ρ c (Proc.devRef .tc main_v20) := by keeps hostOps16_1
    _ = W44 m ρ c (Proc.devRef .tc main_v20) := by keeps hostOps16
    _ = W43 m ρ c (Proc.devRef .tc main_v20) := W44_of_ne m ρ c main_v20 (by decide)
    _ = W42 m ρ c (Proc.devRef .tc main_v20) := by keeps hostOps15_1
    _ = W41 m ρ c (Proc.devRef .tc main_v20) := by keeps hostOps15
    _ = W40 m ρ c (Proc.devRef .tc main_v20) := W41_of_ne m ρ c main_v20 (by decide)
    _ = W39 m ρ c (Proc.devRef .tc main_v20) := by keeps hostOps14_1
    _ = W38 m ρ c (Proc.devRef .tc main_v20) := by keeps hostOps14
    _ = W37 m ρ c (Proc.devRef .tc main_v20) := W38_of_ne m ρ c main_v20 (by decide)
    _ = W36 m ρ c (Proc.devRef .tc main_v20) := by keeps hostOps13
    _ = W35 m ρ c (Proc.devRef .tc main_v20) := W36_of_ne m ρ c main_v20 (by decide)
    _ = W34 m ρ c (Proc.devRef .tc main_v20) := by keeps hostOps12_1
    _ = W33 m ρ c (Proc.devRef .tc main_v20) := by keeps hostOps12
    _ = W32 m ρ c (Proc.devRef .tc main_v20) := W33_of_ne m ρ c main_v20 (by decide)
    _ = W31 m ρ c (Proc.devRef .tc main_v20) := by keeps hostOps11_1
    _ = W30 m ρ c (Proc.devRef .tc main_v20) := by keeps hostOps11
    _ = W29 m ρ c (Proc.devRef .tc main_v20) := W30_of_ne m ρ c main_v20 (by decide)
    _ = W28 m ρ c (Proc.devRef .tc main_v20) := by keeps hostOps10_1
    _ = W27 m ρ c (Proc.devRef .tc main_v20) := by keeps hostOps10

/-- At region 9's exit `main_v20`, the region's output array, holds what the pipeline leaves in it. -/
theorem W27_main_v20 (c : Dev nD) :
    W27 m ρ c (Proc.devRef .tc main_v20) = (dat9 (V26 m ρ) c).arrAt 1 cfg9.N :=
  W27_arr m ρ c 1

/-- Nothing after region 13 writes `main_v28`: at the last region's exit it holds what it held at region 13's exit. -/
theorem W49_main_v28 (c : Dev nD) : W49 m ρ c (Proc.devRef .tc main_v28) = W38 m ρ c (Proc.devRef .tc main_v28) :=
  calc W49 m ρ c (Proc.devRef .tc main_v28)
    _ = W48 m ρ c (Proc.devRef .tc main_v28) := W49_of_ne m ρ c main_v28 (by decide)
    _ = W47 m ρ c (Proc.devRef .tc main_v28) := by keeps hostOps17
    _ = W46 m ρ c (Proc.devRef .tc main_v28) := W47_of_ne m ρ c main_v28 (by decide)
    _ = W45 m ρ c (Proc.devRef .tc main_v28) := by keeps hostOps16_1
    _ = W44 m ρ c (Proc.devRef .tc main_v28) := by keeps hostOps16
    _ = W43 m ρ c (Proc.devRef .tc main_v28) := W44_of_ne m ρ c main_v28 (by decide)
    _ = W42 m ρ c (Proc.devRef .tc main_v28) := by keeps hostOps15_1
    _ = W41 m ρ c (Proc.devRef .tc main_v28) := by keeps hostOps15
    _ = W40 m ρ c (Proc.devRef .tc main_v28) := W41_of_ne m ρ c main_v28 (by decide)
    _ = W39 m ρ c (Proc.devRef .tc main_v28) := by keeps hostOps14_1
    _ = W38 m ρ c (Proc.devRef .tc main_v28) := by keeps hostOps14

/-- At region 13's exit `main_v28`, the region's output array, holds what the pipeline leaves in it. -/
theorem W38_main_v28 (c : Dev nD) :
    W38 m ρ c (Proc.devRef .tc main_v28) = (dat13 (V37 m ρ) c).arrAt 1 cfg13.N :=
  W38_arr m ρ c 1

/-- At region 17's exit `main_v36`, the region's output array, holds what the pipeline leaves in it. -/
theorem W49_main_v36 (c : Dev nD) :
    W49 m ρ c (Proc.devRef .tc main_v36) = (dat17 (V48 m ρ) c).arrAt 1 cfg17.N :=
  W49_arr m ρ c 1

/-! ## Each result by coordinates, in terms of its pooling region's exit contents -/

/-- The result `main_v37` at (b, ch, i, j) is region 5's pooled map, as that region leaves it, at (b, i, j, ch). -/
theorem result_main_v37 (c : Dev nD) (b : Fin 8) (ch : Fin 128) (i : Fin 56) (j : Fin 56) :
    W50 m ρ c (Proc.devRef .tc main_v37) (ix4 b ch i j) = W16 m ρ c (Proc.devRef .tc main_v12) (ix4 b i j ch) := by
  rw [W50_main_v37_apply, W49_main_v12]

/-- The result `main_v38` at (b, ch, i, j) is region 9's pooled map, as that region leaves it, at (b, i, j, ch). -/
theorem result_main_v38 (c : Dev nD) (b : Fin 8) (ch : Fin 256) (i : Fin 28) (j : Fin 28) :
    W50 m ρ c (Proc.devRef .tc main_v38) (ix4 b ch i j) = W27 m ρ c (Proc.devRef .tc main_v20) (ix4 b i j ch) := by
  rw [W50_main_v38_apply, W49_main_v20]

/-- The result `main_v39` at (b, ch, i, j) is region 13's pooled map, as that region leaves it, at (b, i, j, ch). -/
theorem result_main_v39 (c : Dev nD) (b : Fin 8) (ch : Fin 512) (i : Fin 14) (j : Fin 14) :
    W50 m ρ c (Proc.devRef .tc main_v39) (ix4 b ch i j) = W38 m ρ c (Proc.devRef .tc main_v28) (ix4 b i j ch) := by
  rw [W50_main_v39_apply, W49_main_v28]

/-- The result `main_v40` at (b, ch, i, j) is region 17's pooled map, as that region leaves it, at (b, i, j, ch). -/
theorem result_main_v40 (c : Dev nD) (b : Fin 8) (ch : Fin 512) (i : Fin 7) (j : Fin 7) :
    W50 m ρ c (Proc.devRef .tc main_v40) (ix4 b ch i j) = W49 m ρ c (Proc.devRef .tc main_v36) (ix4 b i j ch) :=
  W50_main_v40_apply m ρ c b ch i j

end Cert.ReferenceIdeal.RunV

end
-- ==== Proof.Final.lean ====
/-
  The five claims. Both programs compute the same network: the kernel program's run ends with each result buffer at the
  last boundary's contents (the conditional run over the eighteen regions' records), the reference's at its fold's; read
  coordinate by coordinate both are the pooled maps P2, P3, P4, P5 of the specification at the launch memory's
  parameters (the two chains), and the two memories agree on the parameters.
-/
import proofs.«100114_g2000204297211070_pallasbulk_1265_19_alg».proof.Defs
import proofs.«100114_g2000204297211070_pallasbulk_1265_19_alg».proof.Proof.Gen.Kernel
import proofs.«100114_g2000204297211070_pallasbulk_1265_19_alg».proof.Proof.Gen.KernelIdeal
import proofs.«100114_g2000204297211070_pallasbulk_1265_19_alg».proof.Proof.Gen.ReferenceIdeal
import proofs.«100114_g2000204297211070_pallasbulk_1265_19_alg».proof.Proof.Gen.Pre_finite_inputs
import proofs.«100114_g2000204297211070_pallasbulk_1265_19_alg».proof.Proof.Gen.ReferenceIdeal.Frame
import proofs.«100114_g2000204297211070_pallasbulk_1265_19_alg».proof.Proof.KAsm
import proofs.«100114_g2000204297211070_pallasbulk_1265_19_alg».proof.Proof.BAsm
import proofs.«100114_g2000204297211070_pallasbulk_1265_19_alg».proof.Proof.KChain
import proofs.«100114_g2000204297211070_pallasbulk_1265_19_alg».proof.Proof.RChain
import proofs.«100114_g2000204297211070_pallasbulk_1265_19_alg».proof.Proof.RRun
import proofs.«100114_g2000204297211070_pallasbulk_1265_19_alg».proof.Proof.RTail
import Idealize.ShloMosaic.Adequacy
import Idealize.ShloMosaic.Init
import Idealize.ShloMosaic.Lib.ValueIdx

set_option maxRecDepth 16384
set_option maxHeartbeats 4000000

noncomputable section

namespace Cert.Proof.Claims

open Idealize.ShloMosaic Idealize.ShloMosaic.TcCoe Idealize.SL.Sem Idealize.ShloMosaic.ValueIdx

/-- What the assembly's `outs` holds is what the regions write: the chain's hypothesis. -/
theorem outsSpec (m : (ℓ : Loc Cert.KernelIdeal.nD Cert.KernelIdeal.τ Cert.KernelIdeal.sig) → Buf (Elt Ideal) ℓ) :
    Cert.KernelIdeal.Chain.OutsSpec m (Cert.KernelIdeal.Asm.outs m) :=
  ⟨Cert.KernelIdeal.Asm.outs_0 m, Cert.KernelIdeal.Asm.outs_1 m, Cert.KernelIdeal.Asm.outs_2 m, Cert.KernelIdeal.Asm.outs_3 m,
   Cert.KernelIdeal.Asm.outs_4 m, Cert.KernelIdeal.Asm.outs_5 m, Cert.KernelIdeal.Asm.outs_6 m, Cert.KernelIdeal.Asm.outs_7 m,
   Cert.KernelIdeal.Asm.outs_8 m, Cert.KernelIdeal.Asm.outs_9 m, Cert.KernelIdeal.Asm.outs_10 m, Cert.KernelIdeal.Asm.outs_11 m,
   Cert.KernelIdeal.Asm.outs_12 m, Cert.KernelIdeal.Asm.outs_13 m, Cert.KernelIdeal.Asm.outs_14 m, Cert.KernelIdeal.Asm.outs_15 m,
   Cert.KernelIdeal.Asm.outs_16 m, Cert.KernelIdeal.Asm.outs_17 m⟩

/-- The reference's parameters, read off a memory that agrees with the kernel program's on the arguments, are the kernel
    program's. -/
theorem params_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) :
    Cert.ReferenceIdeal.Chain.params m' c = Cert.KernelIdeal.Chain.params m c := by
  obtain ⟨h0, h1, h2, h3, h4, h5, h6, h7, h8, h9, h10, h11, h12, h13, h14, h15, h16, h17, h18, h19, h20, h21, h22, h23, h24, h25, h26⟩ := h
  unfold Cert.ReferenceIdeal.Chain.params Cert.KernelIdeal.Chain.params
  rw [h0, h1, h2, h3, h4, h5, h6, h7, h8, h9, h10, h11, h12, h13, h14, h15, h16, h17, h18, h19, h20, h21, h22, h23, h24, h25, h26]
  first
    | rfl
    | (congr 1
       · funext ℓ; rcases ℓ with _|_|_|_|_|_|_|_|_|_|_|_|_|ℓ <;> rfl
       · funext ℓ; rcases ℓ with _|_|_|_|_|_|_|_|_|_|_|_|_|ℓ <;> rfl)

/-- Result 0: the reference's last contents of its result buffer are the kernel program's, coordinate by coordinate: both are
    the specification's pooled map at the shared parameters. -/
theorem res0 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (ρ' : Dev Cert.ReferenceIdeal.nD → PrngReg) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) :
    (Cert.ReferenceIdeal.Gen.W50 m' ρ' c (Proc.devRef .tc Cert.ReferenceIdeal.main_v37) : Buf (Elt Ideal) ((c.tc : Thread Cert.KernelIdeal.nD Cert.KernelIdeal.τ).loc Cert.KernelIdeal.main_v68))
      = Cert.KernelIdeal.GenP.V49 m (Cert.KernelIdeal.Asm.outs m) c Cert.KernelIdeal.main_v68 := by
  funext idx
  obtain ⟨b, ch, i, j, rfl⟩ : ∃ (b : Fin 8) (ch : Fin 128) (i : Fin 56) (j : Fin 56), idx = ix4 b ch i j := ⟨idx 0, idx 1, idx 2, idx 3, eq_ix4 idx⟩
  refine (Cert.ReferenceIdeal.RunV.result_main_v37 m' ρ' c b ch i j).trans ?_
  rw [Cert.ReferenceIdeal.RunV.W16_main_v12 m' ρ' c]
  refine (Cert.Spec.arr4_apply ((Cert.ReferenceIdeal.Gen.dat5 (Cert.ReferenceIdeal.Gen.V15 m' ρ') c).arrAt 1 Cert.ReferenceIdeal.cfg5.N) b i j ch).symm.trans ?_
  rw [Cert.ReferenceIdeal.Chain.R5 m' ρ' c b.val i.val j.val ch.val b.isLt i.isLt j.isLt ch.isLt, params_eq m m' c h]
  refine Eq.trans ?_ (Cert.Spec.arr4_apply (Cert.KernelIdeal.GenP.V49 m (Cert.KernelIdeal.Asm.outs m) c Cert.KernelIdeal.main_v68) b ch i j)
  exact (Cert.KernelIdeal.Chain.result_P2 (outsSpec m) c b.val ch.val i.val j.val b.isLt ch.isLt i.isLt j.isLt).symm

/-- Result 1: the reference's last contents of its result buffer are the kernel program's, coordinate by coordinate: both are
    the specification's pooled map at the shared parameters. -/
theorem res1 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (ρ' : Dev Cert.ReferenceIdeal.nD → PrngReg) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) :
    (Cert.ReferenceIdeal.Gen.W50 m' ρ' c (Proc.devRef .tc Cert.ReferenceIdeal.main_v38) : Buf (Elt Ideal) ((c.tc : Thread Cert.KernelIdeal.nD Cert.KernelIdeal.τ).loc Cert.KernelIdeal.main_v70))
      = Cert.KernelIdeal.GenP.V49 m (Cert.KernelIdeal.Asm.outs m) c Cert.KernelIdeal.main_v70 := by
  funext idx
  obtain ⟨b, ch, i, j, rfl⟩ : ∃ (b : Fin 8) (ch : Fin 256) (i : Fin 28) (j : Fin 28), idx = ix4 b ch i j := ⟨idx 0, idx 1, idx 2, idx 3, eq_ix4 idx⟩
  refine (Cert.ReferenceIdeal.RunV.result_main_v38 m' ρ' c b ch i j).trans ?_
  rw [Cert.ReferenceIdeal.RunV.W27_main_v20 m' ρ' c]
  refine (Cert.Spec.arr4_apply ((Cert.ReferenceIdeal.Gen.dat9 (Cert.ReferenceIdeal.Gen.V26 m' ρ') c).arrAt 1 Cert.ReferenceIdeal.cfg9.N) b i j ch).symm.trans ?_
  rw [Cert.ReferenceIdeal.Chain.R9 m' ρ' c b.val i.val j.val ch.val b.isLt i.isLt j.isLt ch.isLt, params_eq m m' c h]
  refine Eq.trans ?_ (Cert.Spec.arr4_apply (Cert.KernelIdeal.GenP.V49 m (Cert.KernelIdeal.Asm.outs m) c Cert.KernelIdeal.main_v70) b ch i j)
  exact (Cert.KernelIdeal.Chain.result_P3 (outsSpec m) c b.val ch.val i.val j.val b.isLt ch.isLt i.isLt j.isLt).symm

/-- Result 2: the reference's last contents of its result buffer are the kernel program's, coordinate by coordinate: both are
    the specification's pooled map at the shared parameters. -/
theorem res2 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (ρ' : Dev Cert.ReferenceIdeal.nD → PrngReg) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) :
    (Cert.ReferenceIdeal.Gen.W50 m' ρ' c (Proc.devRef .tc Cert.ReferenceIdeal.main_v39) : Buf (Elt Ideal) ((c.tc : Thread Cert.KernelIdeal.nD Cert.KernelIdeal.τ).loc Cert.KernelIdeal.main_v73))
      = Cert.KernelIdeal.GenP.V49 m (Cert.KernelIdeal.Asm.outs m) c Cert.KernelIdeal.main_v73 := by
  funext idx
  obtain ⟨b, ch, i, j, rfl⟩ : ∃ (b : Fin 8) (ch : Fin 512) (i : Fin 14) (j : Fin 14), idx = ix4 b ch i j := ⟨idx 0, idx 1, idx 2, idx 3, eq_ix4 idx⟩
  refine (Cert.ReferenceIdeal.RunV.result_main_v39 m' ρ' c b ch i j).trans ?_
  rw [Cert.ReferenceIdeal.RunV.W38_main_v28 m' ρ' c]
  refine (Cert.Spec.arr4_apply ((Cert.ReferenceIdeal.Gen.dat13 (Cert.ReferenceIdeal.Gen.V37 m' ρ') c).arrAt 1 Cert.ReferenceIdeal.cfg13.N) b i j ch).symm.trans ?_
  rw [Cert.ReferenceIdeal.Chain.R13 m' ρ' c b.val i.val j.val ch.val b.isLt i.isLt j.isLt ch.isLt, params_eq m m' c h]
  refine Eq.trans ?_ (Cert.Spec.arr4_apply (Cert.KernelIdeal.GenP.V49 m (Cert.KernelIdeal.Asm.outs m) c Cert.KernelIdeal.main_v73) b ch i j)
  exact (Cert.KernelIdeal.Chain.result_P4 (outsSpec m) c b.val ch.val i.val j.val b.isLt ch.isLt i.isLt j.isLt).symm

/-- Result 3: the reference's last contents of its result buffer are the kernel program's, coordinate by coordinate: both are
    the specification's pooled map at the shared parameters. -/
theorem res3 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (ρ' : Dev Cert.ReferenceIdeal.nD → PrngReg) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) :
    (Cert.ReferenceIdeal.Gen.W50 m' ρ' c (Proc.devRef .tc Cert.ReferenceIdeal.main_v40) : Buf (Elt Ideal) ((c.tc : Thread Cert.KernelIdeal.nD Cert.KernelIdeal.τ).loc Cert.KernelIdeal.main_v76))
      = Cert.KernelIdeal.GenP.V49 m (Cert.KernelIdeal.Asm.outs m) c Cert.KernelIdeal.main_v76 := by
  funext idx
  obtain ⟨b, ch, i, j, rfl⟩ : ∃ (b : Fin 8) (ch : Fin 512) (i : Fin 7) (j : Fin 7), idx = ix4 b ch i j := ⟨idx 0, idx 1, idx 2, idx 3, eq_ix4 idx⟩
  refine (Cert.ReferenceIdeal.RunV.result_main_v40 m' ρ' c b ch i j).trans ?_
  rw [Cert.ReferenceIdeal.RunV.W49_main_v36 m' ρ' c]
  refine (Cert.Spec.arr4_apply ((Cert.ReferenceIdeal.Gen.dat17 (Cert.ReferenceIdeal.Gen.V48 m' ρ') c).arrAt 1 Cert.ReferenceIdeal.cfg17.N) b i j ch).symm.trans ?_
  rw [Cert.ReferenceIdeal.Chain.R17 m' ρ' c b.val i.val j.val ch.val b.isLt i.isLt j.isLt ch.isLt, params_eq m m' c h]
  refine Eq.trans ?_ (Cert.Spec.arr4_apply (Cert.KernelIdeal.GenP.V49 m (Cert.KernelIdeal.Asm.outs m) c Cert.KernelIdeal.main_v76) b ch i j)
  exact (Cert.KernelIdeal.Chain.result_P5 (outsSpec m) c b.val ch.val i.val j.val b.isLt ch.isLt i.isLt j.isLt).symm

/-- At `Ideal`, from memories agreeing on the arguments, both programs run and end with equal results. -/
theorem algebraic : Cert.algebraic_KernelIdeal_ReferenceIdeal := by
  intro m ρ m' ρ' _ hagree
  refine ⟨fun c => Cert.KernelIdeal.GenP.V49 m (Cert.KernelIdeal.Asm.outs m) c Cert.KernelIdeal.main_v68, fun c => Cert.KernelIdeal.GenP.V49 m (Cert.KernelIdeal.Asm.outs m) c Cert.KernelIdeal.main_v70,
    fun c => Cert.KernelIdeal.GenP.V49 m (Cert.KernelIdeal.Asm.outs m) c Cert.KernelIdeal.main_v73, fun c => Cert.KernelIdeal.GenP.V49 m (Cert.KernelIdeal.Asm.outs m) c Cert.KernelIdeal.main_v76,
    Cert.KernelIdeal.Asm.run m ρ, ?_⟩
  refine (θ_run Cert.ReferenceIdeal.defs _ _).mono (fun r hr c => ?_) (Cert.ReferenceIdeal.RunV.run m' ρ')
  obtain ⟨h37, h38, h39, h40, hargs⟩ := hr c
  exact ⟨h37.trans (res0 m m' ρ' c (hagree c)), h38.trans (res1 m m' ρ' c (hagree c)), h39.trans (res2 m m' ρ' c (hagree c)),
    h40.trans (res3 m m' ρ' c (hagree c)), hargs⟩

theorem frame_k : Cert.frame_Kernel := fun m ρ _ => Cert.Kernel.Asm.frame m ρ
theorem frame_ki : Cert.frame_KernelIdeal := fun m ρ _ => Cert.KernelIdeal.Asm.frame m ρ
theorem frame_ri : Cert.frame_ReferenceIdeal := fun m ρ _ => Cert.ReferenceIdeal.Gen.frame m ρ
theorem preserves : Cert.preserves_Kernel_KernelIdeal := trivial

end Cert.Proof.Claims

end
-- ==== Proof.lean ====
/-
  The certificate's claim: the three frames, the (empty) idealization ledger, and the equality of the two idealized programs'
  results, each proved in Proof/Final.lean, under the witnesses of the programs' stated facts.
-/
import proofs.«100114_g2000204297211070_pallasbulk_1265_19_alg».proof.Defs
import proofs.«100114_g2000204297211070_pallasbulk_1265_19_alg».proof.Proof.Gen.Kernel
import proofs.«100114_g2000204297211070_pallasbulk_1265_19_alg».proof.Proof.Gen.KernelIdeal
import proofs.«100114_g2000204297211070_pallasbulk_1265_19_alg».proof.Proof.Gen.ReferenceIdeal
import proofs.«100114_g2000204297211070_pallasbulk_1265_19_alg».proof.Proof.Gen.Pre_finite_inputs
import proofs.«100114_g2000204297211070_pallasbulk_1265_19_alg».proof.Proof.Final

noncomputable section

namespace Cert.Proof

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
